-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v613)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v613) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v662) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x1 : Shape := ⟨2, ![2000000, 1]⟩
abbrev S500000x1 : Shape := ⟨2, ![500000, 1]⟩
abbrev S2000000 : Shape := ⟨1, ![2000000]⟩
abbrev S500000 : Shape := ⟨1, ![500000]⟩
abbrev S6000000 : Shape := ⟨1, ![6000000]⟩
abbrev S1x2 : Shape := ⟨2, ![1, 2]⟩
abbrev S2 : Shape := ⟨1, ![2]⟩
abbrev S4x6x2 : Shape := ⟨3, ![4, 6, 2]⟩
abbrev S4x2 : Shape := ⟨2, ![4, 2]⟩
abbrev S_ : Shape := ⟨0, ![]⟩

class Facts : Prop where
  bcast_S_S2000000x1 : S_.BroadcastsInDim S2000000x1 (![] : Fin 0 → Fin S2000000x1.rank)
  reducesTo_S2000000x1_S_d0_1 : S2000000x1.ReducesTo [0, 1] S_
  h_S_ : 0 < S_.numel
  bcast_S_S500000x1 : S_.BroadcastsInDim S500000x1 (![] : Fin 0 → Fin S500000x1.rank)
  reducesTo_S500000x1_S_d0_1 : S500000x1.ReducesTo [0, 1] S_
  bcast_S_S2000000 : S_.BroadcastsInDim S2000000 (![] : Fin 0 → Fin S2000000.rank)
  reducesTo_S2000000_S_d0 : S2000000.ReducesTo [0] S_
  bcast_S_S500000 : S_.BroadcastsInDim S500000 (![] : Fin 0 → Fin S500000.rank)
  reducesTo_S500000_S_d0 : S500000.ReducesTo [0] S_
  bcast_S_S1x2 : S_.BroadcastsInDim S1x2 (![] : Fin 0 → Fin S1x2.rank)
  reducesTo_S1x2_S_d0_1 : S1x2.ReducesTo [0, 1] S_
  bcast_S_S2 : S_.BroadcastsInDim S2 (![] : Fin 0 → Fin S2.rank)
  reducesTo_S2_S_d0 : S2.ReducesTo [0] S_
  bcast_S_S4x6x2 : S_.BroadcastsInDim S4x6x2 (![] : Fin 0 → Fin S4x6x2.rank)
  reducesTo_S4x6x2_S_d0_1_2 : S4x6x2.ReducesTo [0, 1, 2] S_
  bcast_S_S4x2 : S_.BroadcastsInDim S4x2 (![] : Fin 0 → Fin S4x2.rank)
  reducesTo_S4x2_S_d0_1 : S4x2.ReducesTo [0, 1] S_

variable [Facts]

def fn_part3 {F : FTy → Type} [FloatOps F] (main_arg15 : FVec F S4x2 .f32) (main_v48 : IVec S_ 1) (main_v49 : FVec F S4x6x2 .f32) (main_v50 : FVec F S4x6x2 .f32) : IVec S_ 1 :=
  let main_v51 : IVec S4x6x2 1 := cmpf .olt main_v49 main_v50
  let main_c_19 : IVec S_ 1 := constantI S_ 1 1#1
  let main_v52 : IVec S_ 1 := (fun x v => Host.reduce IntOp.andi x v reducesTo_S4x6x2_S_d0_1_2 h_S_) main_v51 main_c_19
  let main_v53 : IVec S_ 1 := andi main_v48 main_v52
  let main_v54 : FVec F S4x2 .f32 := Host.absf main_arg15
  let main_cst_20 : FVec F S_ .f32 := constant S_ .f32 0x7F800000#32
  let main_v55 : FVec F S4x2 .f32 := broadcastInDim S4x2 ![] bcast_S_S4x2 main_cst_20
  let main_v56 : IVec S4x2 1 := cmpf .olt main_v54 main_v55
  let main_c_21 : IVec S_ 1 := constantI S_ 1 1#1
  let main_v57 : IVec S_ 1 := (fun x v => Host.reduce IntOp.andi x v reducesTo_S4x2_S_d0_1 h_S_) main_v56 main_c_21
  let main_v58 : IVec S_ 1 := andi main_v53 main_v57
  main_v58

def fn_part2 {F : FTy → Type} [FloatOps F] (main_arg11 : FVec F S2 .f32) (main_arg12 : FVec F S4x6x2 .f32) (main_arg13 : FVec F S4x2 .f32) (main_arg14 : FVec F S4x6x2 .f32) (main_arg15 : FVec F S4x2 .f32) (main_v33 : IVec S_ 1) : IVec S_ 1 :=
  let main_v34 : FVec F S2 .f32 := Host.absf main_arg11
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_v39 : FVec F S4x6x2 .f32 := Host.absf main_arg12
  let main_cst_14 : FVec F S_ .f32 := constant S_ .f32 0x7F800000#32
  let main_v40 : FVec F S4x6x2 .f32 := broadcastInDim S4x6x2 ![] bcast_S_S4x6x2 main_cst_14
  let main_v41 : IVec S4x6x2 1 := cmpf .olt main_v39 main_v40
  let main_c_15 : IVec S_ 1 := constantI S_ 1 1#1
  let main_v42 : IVec S_ 1 := (fun x v => Host.reduce IntOp.andi x v reducesTo_S4x6x2_S_d0_1_2 h_S_) main_v41 main_c_15
  let main_v43 : IVec S_ 1 := andi main_v38 main_v42
  let main_v44 : FVec F S4x2 .f32 := Host.absf main_arg13
  let main_cst_16 : FVec F S_ .f32 := constant S_ .f32 0x7F800000#32
  let main_v45 : FVec F S4x2 .f32 := broadcastInDim S4x2 ![] bcast_S_S4x2 main_cst_16
  let main_v46 : IVec S4x2 1 := cmpf .olt main_v44 main_v45
  let main_c_17 : IVec S_ 1 := constantI S_ 1 1#1
  let main_v47 : IVec S_ 1 := (fun x v => Host.reduce IntOp.andi x v reducesTo_S4x2_S_d0_1 h_S_) main_v46 main_c_17
  let main_v48 : IVec S_ 1 := andi main_v43 main_v47
  let main_v49 : FVec F S4x6x2 .f32 := Host.absf main_arg14
  let main_cst_18 : FVec F S_ .f32 := constant S_ .f32 0x7F800000#32
  let main_v50 : FVec F S4x6x2 .f32 := broadcastInDim S4x6x2 ![] bcast_S_S4x6x2 main_cst_18
  fn_part3 (F := F) main_arg15 main_v48 main_v49 main_v50

def fn_part1 {F : FTy → Type} [FloatOps F] (main_arg8 : FVec F S1x2 .f32) (main_arg9 : FVec F S2 .f32) (main_arg10 : FVec F S1x2 .f32) (main_arg11 : FVec F S2 .f32) (main_arg12 : FVec F S4x6x2 .f32) (main_arg13 : FVec F S4x2 .f32) (main_arg14 : FVec F S4x6x2 .f32) (main_arg15 : FVec F S4x2 .f32) (main_v13 : IVec S_ 1) (main_v16 : IVec S500000 1) : IVec S_ 1 :=
  let main_c_5 : IVec S_ 1 := constantI S_ 1 1#1
  let main_v17 : IVec S_ 1 := (fun x v => Host.reduce IntOp.andi x v reducesTo_S500000_S_d0 h_S_) main_v16 main_c_5
  let main_v18 : IVec S_ 1 := andi main_v13 main_v17
  let main_v19 : FVec F S1x2 .f32 := Host.absf main_arg8
  let main_cst_6 : FVec F S_ .f32 := constant S_ .f32 0x7F800000#32
  let main_v20 : FVec F S1x2 .f32 := broadcastInDim S1x2 ![] bcast_S_S1x2 main_cst_6
  let main_v21 : IVec S1x2 1 := cmpf .olt main_v19 main_v20
  let main_c_7 : IVec S_ 1 := constantI S_ 1 1#1
  let main_v22 : IVec S_ 1 := (fun x v => Host.reduce IntOp.andi x v reducesTo_S1x2_S_d0_1 h_S_) main_v21 main_c_7
  let main_v23 : IVec S_ 1 := andi main_v18 main_v22
  let main_v24 : FVec F S2 .f32 := Host.absf main_arg9
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : FVec F S1x2 .f32 := Host.absf main_arg10
  let main_cst_10 : FVec F S_ .f32 := constant S_ .f32 0x7F800000#32
  let main_v30 : FVec F S1x2 .f32 := broadcastInDim S1x2 ![] bcast_S_S1x2 main_cst_10
  let main_v31 : IVec S1x2 1 := cmpf .olt main_v29 main_v30
  let main_c_11 : IVec S_ 1 := constantI S_ 1 1#1
  let main_v32 : IVec S_ 1 := (fun x v => Host.reduce IntOp.andi x v reducesTo_S1x2_S_d0_1 h_S_) main_v31 main_c_11
  let main_v33 : IVec S_ 1 := andi main_v28 main_v32
  fn_part2 (F := F) main_arg11 main_arg12 main_arg13 main_arg14 main_arg15 main_v33

def fn {F : FTy → Type} [FloatOps F] (main_arg0 : FVec F S2000000x1 .f32) (main_arg1 : FVec F S500000x1 .f32) (main_arg2 : FVec F S2000000 .f32) (main_arg3 : FVec F S500000 .f32) (main_arg4 : IVec S6000000 32) (main_arg5 : IVec S6000000 32) (main_arg6 : IVec S6000000 32) (main_arg7 : IVec S6000000 32) (main_arg8 : FVec F S1x2 .f32) (main_arg9 : FVec F S2 .f32) (main_arg10 : FVec F S1x2 .f32) (main_arg11 : FVec F S2 .f32) (main_arg12 : FVec F S4x6x2 .f32) (main_arg13 : FVec F S4x2 .f32) (main_arg14 : FVec F S4x6x2 .f32) (main_arg15 : FVec F S4x2 .f32) : IVec S_ 1 :=
  let main_v0 : FVec F S2000000x1 .f32 := Host.absf main_arg0
  let main_cst : FVec F S_ .f32 := constant S_ .f32 0x7F800000#32
  let main_v1 : FVec F S2000000x1 .f32 := broadcastInDim S2000000x1 ![] bcast_S_S2000000x1 main_cst
  let main_v2 : IVec S2000000x1 1 := cmpf .olt main_v0 main_v1
  let main_c : IVec S_ 1 := constantI S_ 1 1#1
  let main_v3 : IVec S_ 1 := (fun x v => Host.reduce IntOp.andi x v reducesTo_S2000000x1_S_d0_1 h_S_) main_v2 main_c
  let main_v4 : FVec F S500000x1 .f32 := Host.absf main_arg1
  let main_cst_0 : FVec F S_ .f32 := constant S_ .f32 0x7F800000#32
  let main_v5 : FVec F S500000x1 .f32 := broadcastInDim S500000x1 ![] bcast_S_S500000x1 main_cst_0
  let main_v6 : IVec S500000x1 1 := cmpf .olt main_v4 main_v5
  let main_c_1 : IVec S_ 1 := constantI S_ 1 1#1
  let main_v7 : IVec S_ 1 := (fun x v => Host.reduce IntOp.andi x v reducesTo_S500000x1_S_d0_1 h_S_) main_v6 main_c_1
  let main_v8 : IVec S_ 1 := andi main_v3 main_v7
  let main_v9 : FVec F S2000000 .f32 := Host.absf main_arg2
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  let main_v14 : FVec F S500000 .f32 := Host.absf main_arg3
  let main_cst_4 : FVec F S_ .f32 := constant S_ .f32 0x7F800000#32
  let main_v15 : FVec F S500000 .f32 := broadcastInDim S500000 ![] bcast_S_S500000 main_cst_4
  let main_v16 : IVec S500000 1 := cmpf .olt main_v14 main_v15
  fn_part1 (F := F) main_arg8 main_arg9 main_arg10 main_arg11 main_arg12 main_arg13 main_arg14 main_arg15 main_v13 main_v16
-- ==== Kernel.lean ====
abbrev S2000000x1 : Shape := ⟨2, ![2000000, 1]⟩
abbrev S500000x1 : Shape := ⟨2, ![500000, 1]⟩
abbrev S2000000 : Shape := ⟨1, ![2000000]⟩
abbrev S500000 : Shape := ⟨1, ![500000]⟩
abbrev S6000000 : Shape := ⟨1, ![6000000]⟩
abbrev S1x2 : Shape := ⟨2, ![1, 2]⟩
abbrev S2 : Shape := ⟨1, ![2]⟩
abbrev S4x6x2 : Shape := ⟨3, ![4, 6, 2]⟩
abbrev S4x2 : Shape := ⟨2, ![4, 2]⟩
abbrev S_ : Shape := ⟨0, ![]⟩
abbrev S2000000x2 : Shape := ⟨2, ![2000000, 2]⟩
abbrev S10000x1 : Shape := ⟨2, ![10000, 1]⟩
abbrev S10000x2 : Shape := ⟨2, ![10000, 2]⟩
abbrev S500000x2 : Shape := ⟨2, ![500000, 2]⟩
abbrev S6000000x1 : Shape := ⟨2, ![6000000, 1]⟩
abbrev S6000000x2 : Shape := ⟨2, ![6000000, 2]⟩
abbrev S4000x1 : Shape := ⟨2, ![4000, 1]⟩
abbrev S4000x2 : Shape := ⟨2, ![4000, 2]⟩
abbrev S500000x6 : Shape := ⟨2, ![500000, 6]⟩
abbrev S2000000x6 : Shape := ⟨2, ![2000000, 6]⟩
abbrev S1x6x2 : Shape := ⟨3, ![1, 6, 2]⟩
abbrev S6x2 : Shape := ⟨2, ![6, 2]⟩
abbrev S10000x6 : Shape := ⟨2, ![10000, 6]⟩

abbrev nBuf : Space → Nat
  | .hbm => 798
  | .vmem => 220
  | .smem => 0
  | _ => 0

abbrev hbmTy0_0 (i : Nat) : BufTy := match i % 128 with
  | 0 => ⟨S2000000x1, .f32⟩
  | 1 => ⟨S500000x1, .f32⟩
  | 2 => ⟨S2000000, .f32⟩
  | 3 => ⟨S500000, .f32⟩
  | 4 => ⟨S6000000, .i32⟩
  | 5 => ⟨S6000000, .i32⟩
  | 6 => ⟨S6000000, .i32⟩
  | 7 => ⟨S6000000, .i32⟩
  | 8 => ⟨S1x2, .f32⟩
  | 9 => ⟨S2, .f32⟩
  | 10 => ⟨S1x2, .f32⟩
  | 11 => ⟨S2, .f32⟩
  | 12 => ⟨S4x6x2, .f32⟩
  | 13 => ⟨S4x2, .f32⟩
  | 14 => ⟨S4x6x2, .f32⟩
  | 15 => ⟨S4x2, .f32⟩
  | 16 => ⟨S_, .f32⟩
  | 17 => ⟨S2000000, .f32⟩
  | 18 => ⟨S2000000, .i1⟩
  | 19 => ⟨S_, .f32⟩
  | 20 => ⟨S_, .f32⟩
  | 21 => ⟨S2000000, .f32⟩
  | 22 => ⟨S2000000, .f32⟩
  | 23 => ⟨S_, .f32⟩
  | 24 => ⟨S2000000, .f32⟩
  | 25 => ⟨S2000000, .i1⟩
  | 26 => ⟨S_, .f32⟩
  | 27 => ⟨S2000000, .f32⟩
  | 28 => ⟨S2000000, .f32⟩
  | 29 => ⟨S_, .f32⟩
  | 30 => ⟨S_, .f32⟩
  | 31 => ⟨S2000000, .f32⟩
  | 32 => ⟨S2000000, .f32⟩
  | 33 => ⟨S_, .f32⟩
  | 34 => ⟨S500000, .f32⟩
  | 35 => ⟨S500000, .i1⟩
  | 36 => ⟨S_, .f32⟩
  | 37 => ⟨S_, .f32⟩
  | 38 => ⟨S500000, .f32⟩
  | 39 => ⟨S500000, .f32⟩
  | 40 => ⟨S_, .f32⟩
  | 41 => ⟨S500000, .f32⟩
  | 42 => ⟨S500000, .i1⟩
  | 43 => ⟨S_, .f32⟩
  | 44 => ⟨S500000, .f32⟩
  | 45 => ⟨S500000, .f32⟩
  | 46 => ⟨S_, .f32⟩
  | 47 => ⟨S_, .f32⟩
  | 48 => ⟨S500000, .f32⟩
  | 49 => ⟨S500000, .f32⟩
  | 50 => ⟨S1x2, .f32⟩
  | 51 => ⟨S2000000x2, .f32⟩
  | 52 => ⟨S1x2, .f32⟩
  | 53 => ⟨S500000x2, .f32⟩
  | 54 => ⟨S_, .i32⟩
  | 55 => ⟨S6000000, .i32⟩
  | 56 => ⟨S6000000, .i1⟩
  | 57 => ⟨S_, .i32⟩
  | 58 => ⟨S6000000, .i32⟩
  | 59 => ⟨S6000000, .i32⟩
  | 60 => ⟨S6000000, .i32⟩
  | 61 => ⟨S6000000x1, .i32⟩
  | 62 => ⟨S6000000x2, .f32⟩
  | 63 => ⟨S_, .i32⟩
  | 64 => ⟨S6000000, .i32⟩
  | 65 => ⟨S6000000, .i1⟩
  | 66 => ⟨S_, .i32⟩
  | 67 => ⟨S6000000, .i32⟩
  | 68 => ⟨S6000000, .i32⟩
  | 69 => ⟨S6000000, .i32⟩
  | 70 => ⟨S6000000x1, .i32⟩
  | 71 => ⟨S6000000x2, .f32⟩
  | 72 => ⟨S_, .i32⟩
  | 73 => ⟨S6000000, .i32⟩
  | 74 => ⟨S6000000, .i1⟩
  | 75 => ⟨S_, .i32⟩
  | 76 => ⟨S6000000, .i32⟩
  | 77 => ⟨S6000000, .i32⟩
  | 78 => ⟨S6000000, .i32⟩
  | 79 => ⟨S6000000x1, .i32⟩
  | 80 => ⟨S6000000, .f32⟩
  | 81 => ⟨S6000000x1, .f32⟩
  | 82 => ⟨S_, .i32⟩
  | 83 => ⟨S6000000, .i32⟩
  | 84 => ⟨S6000000, .i1⟩
  | 85 => ⟨S_, .i32⟩
  | 86 => ⟨S6000000, .i32⟩
  | 87 => ⟨S6000000, .i32⟩
  | 88 => ⟨S6000000, .i32⟩
  | 89 => ⟨S6000000x1, .i32⟩
  | 90 => ⟨S6000000, .f32⟩
  | 91 => ⟨S6000000x1, .f32⟩
  | 92 => ⟨S6000000x2, .f32⟩
  | 93 => ⟨S_, .f32⟩
  | 94 => ⟨S500000x2, .f32⟩
  | 95 => ⟨S6000000x1, .i32⟩
  | 96 => ⟨S500000x2, .f32⟩
  | 97 => ⟨S_, .i32⟩
  | 98 => ⟨S6000000, .i32⟩
  | 99 => ⟨S6000000, .i1⟩
  | 100 => ⟨S_, .i32⟩
  | 101 => ⟨S6000000, .i32⟩
  | 102 => ⟨S6000000, .i32⟩
  | 103 => ⟨S6000000, .i32⟩
  | 104 => ⟨S6000000x1, .i32⟩
  | 105 => ⟨S6000000x2, .f32⟩
  | 106 => ⟨S_, .i32⟩
  | 107 => ⟨S6000000, .i32⟩
  | 108 => ⟨S6000000, .i1⟩
  | 109 => ⟨S_, .i32⟩
  | 110 => ⟨S6000000, .i32⟩
  | 111 => ⟨S6000000, .i32⟩
  | 112 => ⟨S6000000, .i32⟩
  | 113 => ⟨S6000000x1, .i32⟩
  | 114 => ⟨S6000000x2, .f32⟩
  | 115 => ⟨S_, .i32⟩
  | 116 => ⟨S6000000, .i32⟩
  | 117 => ⟨S6000000, .i1⟩
  | 118 => ⟨S_, .i32⟩
  | 119 => ⟨S6000000, .i32⟩
  | 120 => ⟨S6000000, .i32⟩
  | 121 => ⟨S6000000, .i32⟩
  | 122 => ⟨S6000000x1, .i32⟩
  | 123 => ⟨S6000000, .f32⟩
  | 124 => ⟨S6000000x1, .f32⟩
  | 125 => ⟨S_, .i32⟩
  | 126 => ⟨S6000000, .i32⟩
  | 127 => ⟨S6000000, .i1⟩
  | _ => ⟨S2000000x1, .f32⟩

abbrev hbmTy0_1 (i : Nat) : BufTy := match i % 128 with
  | 0 => ⟨S_, .i32⟩
  | 1 => ⟨S6000000, .i32⟩
  | 2 => ⟨S6000000, .i32⟩
  | 3 => ⟨S6000000, .i32⟩
  | 4 => ⟨S6000000x1, .i32⟩
  | 5 => ⟨S6000000, .f32⟩
  | 6 => ⟨S6000000x1, .f32⟩
  | 7 => ⟨S6000000x2, .f32⟩
  | 8 => ⟨S_, .f32⟩
  | 9 => ⟨S500000x2, .f32⟩
  | 10 => ⟨S6000000x1, .i32⟩
  | 11 => ⟨S500000x2, .f32⟩
  | 12 => ⟨S_, .i32⟩
  | 13 => ⟨S6000000, .i32⟩
  | 14 => ⟨S6000000, .i1⟩
  | 15 => ⟨S_, .i32⟩
  | 16 => ⟨S6000000, .i32⟩
  | 17 => ⟨S6000000, .i32⟩
  | 18 => ⟨S6000000, .i32⟩
  | 19 => ⟨S6000000x1, .i32⟩
  | 20 => ⟨S6000000x2, .f32⟩
  | 21 => ⟨S_, .i32⟩
  | 22 => ⟨S6000000, .i32⟩
  | 23 => ⟨S6000000, .i1⟩
  | 24 => ⟨S_, .i32⟩
  | 25 => ⟨S6000000, .i32⟩
  | 26 => ⟨S6000000, .i32⟩
  | 27 => ⟨S6000000, .i32⟩
  | 28 => ⟨S6000000x1, .i32⟩
  | 29 => ⟨S6000000x2, .f32⟩
  | 30 => ⟨S_, .i32⟩
  | 31 => ⟨S6000000, .i32⟩
  | 32 => ⟨S6000000, .i1⟩
  | 33 => ⟨S_, .i32⟩
  | 34 => ⟨S6000000, .i32⟩
  | 35 => ⟨S6000000, .i32⟩
  | 36 => ⟨S6000000, .i32⟩
  | 37 => ⟨S6000000x1, .i32⟩
  | 38 => ⟨S6000000, .f32⟩
  | 39 => ⟨S6000000x1, .f32⟩
  | 40 => ⟨S_, .i32⟩
  | 41 => ⟨S6000000, .i32⟩
  | 42 => ⟨S6000000, .i1⟩
  | 43 => ⟨S_, .i32⟩
  | 44 => ⟨S6000000, .i32⟩
  | 45 => ⟨S6000000, .i32⟩
  | 46 => ⟨S6000000, .i32⟩
  | 47 => ⟨S6000000x1, .i32⟩
  | 48 => ⟨S6000000, .f32⟩
  | 49 => ⟨S6000000x1, .f32⟩
  | 50 => ⟨S6000000x2, .f32⟩
  | 51 => ⟨S_, .f32⟩
  | 52 => ⟨S2000000x2, .f32⟩
  | 53 => ⟨S6000000x1, .i32⟩
  | 54 => ⟨S2000000x2, .f32⟩
  | 55 => ⟨S_, .i32⟩
  | 56 => ⟨S6000000, .i32⟩
  | 57 => ⟨S6000000, .i1⟩
  | 58 => ⟨S_, .i32⟩
  | 59 => ⟨S6000000, .i32⟩
  | 60 => ⟨S6000000, .i32⟩
  | 61 => ⟨S6000000, .i32⟩
  | 62 => ⟨S6000000x1, .i32⟩
  | 63 => ⟨S6000000x2, .f32⟩
  | 64 => ⟨S_, .i32⟩
  | 65 => ⟨S6000000, .i32⟩
  | 66 => ⟨S6000000, .i1⟩
  | 67 => ⟨S_, .i32⟩
  | 68 => ⟨S6000000, .i32⟩
  | 69 => ⟨S6000000, .i32⟩
  | 70 => ⟨S6000000, .i32⟩
  | 71 => ⟨S6000000x1, .i32⟩
  | 72 => ⟨S6000000x2, .f32⟩
  | 73 => ⟨S_, .i32⟩
  | 74 => ⟨S6000000, .i32⟩
  | 75 => ⟨S6000000, .i1⟩
  | 76 => ⟨S_, .i32⟩
  | 77 => ⟨S6000000, .i32⟩
  | 78 => ⟨S6000000, .i32⟩
  | 79 => ⟨S6000000, .i32⟩
  | 80 => ⟨S6000000x1, .i32⟩
  | 81 => ⟨S6000000, .f32⟩
  | 82 => ⟨S6000000x1, .f32⟩
  | 83 => ⟨S_, .i32⟩
  | 84 => ⟨S6000000, .i32⟩
  | 85 => ⟨S6000000, .i1⟩
  | 86 => ⟨S_, .i32⟩
  | 87 => ⟨S6000000, .i32⟩
  | 88 => ⟨S6000000, .i32⟩
  | 89 => ⟨S6000000, .i32⟩
  | 90 => ⟨S6000000x1, .i32⟩
  | 91 => ⟨S6000000, .f32⟩
  | 92 => ⟨S6000000x1, .f32⟩
  | 93 => ⟨S6000000x2, .f32⟩
  | 94 => ⟨S_, .f32⟩
  | 95 => ⟨S2000000x2, .f32⟩
  | 96 => ⟨S6000000x1, .i32⟩
  | 97 => ⟨S2000000x2, .f32⟩
  | 98 => ⟨S500000x6, .f32⟩
  | 99 => ⟨S2000000x6, .f32⟩
  | 100 => ⟨S1x6x2, .f32⟩
  | 101 => ⟨S6x2, .f32⟩
  | 102 => ⟨S1x2, .f32⟩
  | 103 => ⟨S2, .f32⟩
  | 104 => ⟨S1x2, .f32⟩
  | 105 => ⟨S500000x2, .f32⟩
  | 106 => ⟨S1x6x2, .f32⟩
  | 107 => ⟨S6x2, .f32⟩
  | 108 => ⟨S1x2, .f32⟩
  | 109 => ⟨S2, .f32⟩
  | 110 => ⟨S1x2, .f32⟩
  | 111 => ⟨S2000000x2, .f32⟩
  | 112 => ⟨S_, .i32⟩
  | 113 => ⟨S6000000, .i32⟩
  | 114 => ⟨S6000000, .i1⟩
  | 115 => ⟨S_, .i32⟩
  | 116 => ⟨S6000000, .i32⟩
  | 117 => ⟨S6000000, .i32⟩
  | 118 => ⟨S6000000, .i32⟩
  | 119 => ⟨S6000000x1, .i32⟩
  | 120 => ⟨S6000000x2, .f32⟩
  | 121 => ⟨S_, .i32⟩
  | 122 => ⟨S6000000, .i32⟩
  | 123 => ⟨S6000000, .i1⟩
  | 124 => ⟨S_, .i32⟩
  | 125 => ⟨S6000000, .i32⟩
  | 126 => ⟨S6000000, .i32⟩
  | 127 => ⟨S6000000, .i32⟩
  | _ => ⟨S2000000x1, .f32⟩

abbrev hbmTy0_2 (i : Nat) : BufTy := match i % 128 with
  | 0 => ⟨S6000000x1, .i32⟩
  | 1 => ⟨S6000000x2, .f32⟩
  | 2 => ⟨S_, .i32⟩
  | 3 => ⟨S6000000, .i32⟩
  | 4 => ⟨S6000000, .i1⟩
  | 5 => ⟨S_, .i32⟩
  | 6 => ⟨S6000000, .i32⟩
  | 7 => ⟨S6000000, .i32⟩
  | 8 => ⟨S6000000, .i32⟩
  | 9 => ⟨S6000000x1, .i32⟩
  | 10 => ⟨S6000000, .f32⟩
  | 11 => ⟨S6000000x1, .f32⟩
  | 12 => ⟨S_, .i32⟩
  | 13 => ⟨S6000000, .i32⟩
  | 14 => ⟨S6000000, .i1⟩
  | 15 => ⟨S_, .i32⟩
  | 16 => ⟨S6000000, .i32⟩
  | 17 => ⟨S6000000, .i32⟩
  | 18 => ⟨S6000000, .i32⟩
  | 19 => ⟨S6000000x1, .i32⟩
  | 20 => ⟨S6000000, .f32⟩
  | 21 => ⟨S6000000x1, .f32⟩
  | 22 => ⟨S6000000x2, .f32⟩
  | 23 => ⟨S_, .f32⟩
  | 24 => ⟨S500000x2, .f32⟩
  | 25 => ⟨S6000000x1, .i32⟩
  | 26 => ⟨S500000x2, .f32⟩
  | 27 => ⟨S_, .i32⟩
  | 28 => ⟨S6000000, .i32⟩
  | 29 => ⟨S6000000, .i1⟩
  | 30 => ⟨S_, .i32⟩
  | 31 => ⟨S6000000, .i32⟩
  | 32 => ⟨S6000000, .i32⟩
  | 33 => ⟨S6000000, .i32⟩
  | 34 => ⟨S6000000x1, .i32⟩
  | 35 => ⟨S6000000x2, .f32⟩
  | 36 => ⟨S_, .i32⟩
  | 37 => ⟨S6000000, .i32⟩
  | 38 => ⟨S6000000, .i1⟩
  | 39 => ⟨S_, .i32⟩
  | 40 => ⟨S6000000, .i32⟩
  | 41 => ⟨S6000000, .i32⟩
  | 42 => ⟨S6000000, .i32⟩
  | 43 => ⟨S6000000x1, .i32⟩
  | 44 => ⟨S6000000x2, .f32⟩
  | 45 => ⟨S_, .i32⟩
  | 46 => ⟨S6000000, .i32⟩
  | 47 => ⟨S6000000, .i1⟩
  | 48 => ⟨S_, .i32⟩
  | 49 => ⟨S6000000, .i32⟩
  | 50 => ⟨S6000000, .i32⟩
  | 51 => ⟨S6000000, .i32⟩
  | 52 => ⟨S6000000x1, .i32⟩
  | 53 => ⟨S6000000, .f32⟩
  | 54 => ⟨S6000000x1, .f32⟩
  | 55 => ⟨S_, .i32⟩
  | 56 => ⟨S6000000, .i32⟩
  | 57 => ⟨S6000000, .i1⟩
  | 58 => ⟨S_, .i32⟩
  | 59 => ⟨S6000000, .i32⟩
  | 60 => ⟨S6000000, .i32⟩
  | 61 => ⟨S6000000, .i32⟩
  | 62 => ⟨S6000000x1, .i32⟩
  | 63 => ⟨S6000000, .f32⟩
  | 64 => ⟨S6000000x1, .f32⟩
  | 65 => ⟨S6000000x2, .f32⟩
  | 66 => ⟨S_, .f32⟩
  | 67 => ⟨S500000x2, .f32⟩
  | 68 => ⟨S6000000x1, .i32⟩
  | 69 => ⟨S500000x2, .f32⟩
  | 70 => ⟨S_, .i32⟩
  | 71 => ⟨S6000000, .i32⟩
  | 72 => ⟨S6000000, .i1⟩
  | 73 => ⟨S_, .i32⟩
  | 74 => ⟨S6000000, .i32⟩
  | 75 => ⟨S6000000, .i32⟩
  | 76 => ⟨S6000000, .i32⟩
  | 77 => ⟨S6000000x1, .i32⟩
  | 78 => ⟨S6000000x2, .f32⟩
  | 79 => ⟨S_, .i32⟩
  | 80 => ⟨S6000000, .i32⟩
  | 81 => ⟨S6000000, .i1⟩
  | 82 => ⟨S_, .i32⟩
  | 83 => ⟨S6000000, .i32⟩
  | 84 => ⟨S6000000, .i32⟩
  | 85 => ⟨S6000000, .i32⟩
  | 86 => ⟨S6000000x1, .i32⟩
  | 87 => ⟨S6000000x2, .f32⟩
  | 88 => ⟨S_, .i32⟩
  | 89 => ⟨S6000000, .i32⟩
  | 90 => ⟨S6000000, .i1⟩
  | 91 => ⟨S_, .i32⟩
  | 92 => ⟨S6000000, .i32⟩
  | 93 => ⟨S6000000, .i32⟩
  | 94 => ⟨S6000000, .i32⟩
  | 95 => ⟨S6000000x1, .i32⟩
  | 96 => ⟨S6000000, .f32⟩
  | 97 => ⟨S6000000x1, .f32⟩
  | 98 => ⟨S_, .i32⟩
  | 99 => ⟨S6000000, .i32⟩
  | 100 => ⟨S6000000, .i1⟩
  | 101 => ⟨S_, .i32⟩
  | 102 => ⟨S6000000, .i32⟩
  | 103 => ⟨S6000000, .i32⟩
  | 104 => ⟨S6000000, .i32⟩
  | 105 => ⟨S6000000x1, .i32⟩
  | 106 => ⟨S6000000, .f32⟩
  | 107 => ⟨S6000000x1, .f32⟩
  | 108 => ⟨S6000000x2, .f32⟩
  | 109 => ⟨S_, .f32⟩
  | 110 => ⟨S2000000x2, .f32⟩
  | 111 => ⟨S6000000x1, .i32⟩
  | 112 => ⟨S2000000x2, .f32⟩
  | 113 => ⟨S_, .i32⟩
  | 114 => ⟨S6000000, .i32⟩
  | 115 => ⟨S6000000, .i1⟩
  | 116 => ⟨S_, .i32⟩
  | 117 => ⟨S6000000, .i32⟩
  | 118 => ⟨S6000000, .i32⟩
  | 119 => ⟨S6000000, .i32⟩
  | 120 => ⟨S6000000x1, .i32⟩
  | 121 => ⟨S6000000x2, .f32⟩
  | 122 => ⟨S_, .i32⟩
  | 123 => ⟨S6000000, .i32⟩
  | 124 => ⟨S6000000, .i1⟩
  | 125 => ⟨S_, .i32⟩
  | 126 => ⟨S6000000, .i32⟩
  | 127 => ⟨S6000000, .i32⟩
  | _ => ⟨S2000000x1, .f32⟩

abbrev hbmTy0_3 (i : Nat) : BufTy := match i % 128 with
  | 0 => ⟨S6000000, .i32⟩
  | 1 => ⟨S6000000x1, .i32⟩
  | 2 => ⟨S6000000x2, .f32⟩
  | 3 => ⟨S_, .i32⟩
  | 4 => ⟨S6000000, .i32⟩
  | 5 => ⟨S6000000, .i1⟩
  | 6 => ⟨S_, .i32⟩
  | 7 => ⟨S6000000, .i32⟩
  | 8 => ⟨S6000000, .i32⟩
  | 9 => ⟨S6000000, .i32⟩
  | 10 => ⟨S6000000x1, .i32⟩
  | 11 => ⟨S6000000, .f32⟩
  | 12 => ⟨S6000000x1, .f32⟩
  | 13 => ⟨S_, .i32⟩
  | 14 => ⟨S6000000, .i32⟩
  | 15 => ⟨S6000000, .i1⟩
  | 16 => ⟨S_, .i32⟩
  | 17 => ⟨S6000000, .i32⟩
  | 18 => ⟨S6000000, .i32⟩
  | 19 => ⟨S6000000, .i32⟩
  | 20 => ⟨S6000000x1, .i32⟩
  | 21 => ⟨S6000000, .f32⟩
  | 22 => ⟨S6000000x1, .f32⟩
  | 23 => ⟨S6000000x2, .f32⟩
  | 24 => ⟨S_, .f32⟩
  | 25 => ⟨S2000000x2, .f32⟩
  | 26 => ⟨S6000000x1, .i32⟩
  | 27 => ⟨S2000000x2, .f32⟩
  | 28 => ⟨S500000x6, .f32⟩
  | 29 => ⟨S2000000x6, .f32⟩
  | 30 => ⟨S1x6x2, .f32⟩
  | 31 => ⟨S6x2, .f32⟩
  | 32 => ⟨S1x2, .f32⟩
  | 33 => ⟨S2, .f32⟩
  | 34 => ⟨S1x2, .f32⟩
  | 35 => ⟨S500000x2, .f32⟩
  | 36 => ⟨S1x6x2, .f32⟩
  | 37 => ⟨S6x2, .f32⟩
  | 38 => ⟨S1x2, .f32⟩
  | 39 => ⟨S2, .f32⟩
  | 40 => ⟨S1x2, .f32⟩
  | 41 => ⟨S2000000x2, .f32⟩
  | 42 => ⟨S_, .i32⟩
  | 43 => ⟨S6000000, .i32⟩
  | 44 => ⟨S6000000, .i1⟩
  | 45 => ⟨S_, .i32⟩
  | 46 => ⟨S6000000, .i32⟩
  | 47 => ⟨S6000000, .i32⟩
  | 48 => ⟨S6000000, .i32⟩
  | 49 => ⟨S6000000x1, .i32⟩
  | 50 => ⟨S6000000x2, .f32⟩
  | 51 => ⟨S_, .i32⟩
  | 52 => ⟨S6000000, .i32⟩
  | 53 => ⟨S6000000, .i1⟩
  | 54 => ⟨S_, .i32⟩
  | 55 => ⟨S6000000, .i32⟩
  | 56 => ⟨S6000000, .i32⟩
  | 57 => ⟨S6000000, .i32⟩
  | 58 => ⟨S6000000x1, .i32⟩
  | 59 => ⟨S6000000x2, .f32⟩
  | 60 => ⟨S_, .i32⟩
  | 61 => ⟨S6000000, .i32⟩
  | 62 => ⟨S6000000, .i1⟩
  | 63 => ⟨S_, .i32⟩
  | 64 => ⟨S6000000, .i32⟩
  | 65 => ⟨S6000000, .i32⟩
  | 66 => ⟨S6000000, .i32⟩
  | 67 => ⟨S6000000x1, .i32⟩
  | 68 => ⟨S6000000, .f32⟩
  | 69 => ⟨S6000000x1, .f32⟩
  | 70 => ⟨S_, .i32⟩
  | 71 => ⟨S6000000, .i32⟩
  | 72 => ⟨S6000000, .i1⟩
  | 73 => ⟨S_, .i32⟩
  | 74 => ⟨S6000000, .i32⟩
  | 75 => ⟨S6000000, .i32⟩
  | 76 => ⟨S6000000, .i32⟩
  | 77 => ⟨S6000000x1, .i32⟩
  | 78 => ⟨S6000000, .f32⟩
  | 79 => ⟨S6000000x1, .f32⟩
  | 80 => ⟨S6000000x2, .f32⟩
  | 81 => ⟨S_, .f32⟩
  | 82 => ⟨S500000x2, .f32⟩
  | 83 => ⟨S6000000x1, .i32⟩
  | 84 => ⟨S500000x2, .f32⟩
  | 85 => ⟨S_, .i32⟩
  | 86 => ⟨S6000000, .i32⟩
  | 87 => ⟨S6000000, .i1⟩
  | 88 => ⟨S_, .i32⟩
  | 89 => ⟨S6000000, .i32⟩
  | 90 => ⟨S6000000, .i32⟩
  | 91 => ⟨S6000000, .i32⟩
  | 92 => ⟨S6000000x1, .i32⟩
  | 93 => ⟨S6000000x2, .f32⟩
  | 94 => ⟨S_, .i32⟩
  | 95 => ⟨S6000000, .i32⟩
  | 96 => ⟨S6000000, .i1⟩
  | 97 => ⟨S_, .i32⟩
  | 98 => ⟨S6000000, .i32⟩
  | 99 => ⟨S6000000, .i32⟩
  | 100 => ⟨S6000000, .i32⟩
  | 101 => ⟨S6000000x1, .i32⟩
  | 102 => ⟨S6000000x2, .f32⟩
  | 103 => ⟨S_, .i32⟩
  | 104 => ⟨S6000000, .i32⟩
  | 105 => ⟨S6000000, .i1⟩
  | 106 => ⟨S_, .i32⟩
  | 107 => ⟨S6000000, .i32⟩
  | 108 => ⟨S6000000, .i32⟩
  | 109 => ⟨S6000000, .i32⟩
  | 110 => ⟨S6000000x1, .i32⟩
  | 111 => ⟨S6000000, .f32⟩
  | 112 => ⟨S6000000x1, .f32⟩
  | 113 => ⟨S_, .i32⟩
  | 114 => ⟨S6000000, .i32⟩
  | 115 => ⟨S6000000, .i1⟩
  | 116 => ⟨S_, .i32⟩
  | 117 => ⟨S6000000, .i32⟩
  | 118 => ⟨S6000000, .i32⟩
  | 119 => ⟨S6000000, .i32⟩
  | 120 => ⟨S6000000x1, .i32⟩
  | 121 => ⟨S6000000, .f32⟩
  | 122 => ⟨S6000000x1, .f32⟩
  | 123 => ⟨S6000000x2, .f32⟩
  | 124 => ⟨S_, .f32⟩
  | 125 => ⟨S500000x2, .f32⟩
  | 126 => ⟨S6000000x1, .i32⟩
  | 127 => ⟨S500000x2, .f32⟩
  | _ => ⟨S2000000x1, .f32⟩

abbrev hbmTy0_4 (i : Nat) : BufTy := match i % 128 with
  | 0 => ⟨S_, .i32⟩
  | 1 => ⟨S6000000, .i32⟩
  | 2 => ⟨S6000000, .i1⟩
  | 3 => ⟨S_, .i32⟩
  | 4 => ⟨S6000000, .i32⟩
  | 5 => ⟨S6000000, .i32⟩
  | 6 => ⟨S6000000, .i32⟩
  | 7 => ⟨S6000000x1, .i32⟩
  | 8 => ⟨S6000000x2, .f32⟩
  | 9 => ⟨S_, .i32⟩
  | 10 => ⟨S6000000, .i32⟩
  | 11 => ⟨S6000000, .i1⟩
  | 12 => ⟨S_, .i32⟩
  | 13 => ⟨S6000000, .i32⟩
  | 14 => ⟨S6000000, .i32⟩
  | 15 => ⟨S6000000, .i32⟩
  | 16 => ⟨S6000000x1, .i32⟩
  | 17 => ⟨S6000000x2, .f32⟩
  | 18 => ⟨S_, .i32⟩
  | 19 => ⟨S6000000, .i32⟩
  | 20 => ⟨S6000000, .i1⟩
  | 21 => ⟨S_, .i32⟩
  | 22 => ⟨S6000000, .i32⟩
  | 23 => ⟨S6000000, .i32⟩
  | 24 => ⟨S6000000, .i32⟩
  | 25 => ⟨S6000000x1, .i32⟩
  | 26 => ⟨S6000000, .f32⟩
  | 27 => ⟨S6000000x1, .f32⟩
  | 28 => ⟨S_, .i32⟩
  | 29 => ⟨S6000000, .i32⟩
  | 30 => ⟨S6000000, .i1⟩
  | 31 => ⟨S_, .i32⟩
  | 32 => ⟨S6000000, .i32⟩
  | 33 => ⟨S6000000, .i32⟩
  | 34 => ⟨S6000000, .i32⟩
  | 35 => ⟨S6000000x1, .i32⟩
  | 36 => ⟨S6000000, .f32⟩
  | 37 => ⟨S6000000x1, .f32⟩
  | 38 => ⟨S6000000x2, .f32⟩
  | 39 => ⟨S_, .f32⟩
  | 40 => ⟨S2000000x2, .f32⟩
  | 41 => ⟨S6000000x1, .i32⟩
  | 42 => ⟨S2000000x2, .f32⟩
  | 43 => ⟨S_, .i32⟩
  | 44 => ⟨S6000000, .i32⟩
  | 45 => ⟨S6000000, .i1⟩
  | 46 => ⟨S_, .i32⟩
  | 47 => ⟨S6000000, .i32⟩
  | 48 => ⟨S6000000, .i32⟩
  | 49 => ⟨S6000000, .i32⟩
  | 50 => ⟨S6000000x1, .i32⟩
  | 51 => ⟨S6000000x2, .f32⟩
  | 52 => ⟨S_, .i32⟩
  | 53 => ⟨S6000000, .i32⟩
  | 54 => ⟨S6000000, .i1⟩
  | 55 => ⟨S_, .i32⟩
  | 56 => ⟨S6000000, .i32⟩
  | 57 => ⟨S6000000, .i32⟩
  | 58 => ⟨S6000000, .i32⟩
  | 59 => ⟨S6000000x1, .i32⟩
  | 60 => ⟨S6000000x2, .f32⟩
  | 61 => ⟨S_, .i32⟩
  | 62 => ⟨S6000000, .i32⟩
  | 63 => ⟨S6000000, .i1⟩
  | 64 => ⟨S_, .i32⟩
  | 65 => ⟨S6000000, .i32⟩
  | 66 => ⟨S6000000, .i32⟩
  | 67 => ⟨S6000000, .i32⟩
  | 68 => ⟨S6000000x1, .i32⟩
  | 69 => ⟨S6000000, .f32⟩
  | 70 => ⟨S6000000x1, .f32⟩
  | 71 => ⟨S_, .i32⟩
  | 72 => ⟨S6000000, .i32⟩
  | 73 => ⟨S6000000, .i1⟩
  | 74 => ⟨S_, .i32⟩
  | 75 => ⟨S6000000, .i32⟩
  | 76 => ⟨S6000000, .i32⟩
  | 77 => ⟨S6000000, .i32⟩
  | 78 => ⟨S6000000x1, .i32⟩
  | 79 => ⟨S6000000, .f32⟩
  | 80 => ⟨S6000000x1, .f32⟩
  | 81 => ⟨S6000000x2, .f32⟩
  | 82 => ⟨S_, .f32⟩
  | 83 => ⟨S2000000x2, .f32⟩
  | 84 => ⟨S6000000x1, .i32⟩
  | 85 => ⟨S2000000x2, .f32⟩
  | 86 => ⟨S500000x6, .f32⟩
  | 87 => ⟨S2000000x6, .f32⟩
  | 88 => ⟨S1x6x2, .f32⟩
  | 89 => ⟨S6x2, .f32⟩
  | 90 => ⟨S1x2, .f32⟩
  | 91 => ⟨S2, .f32⟩
  | 92 => ⟨S1x2, .f32⟩
  | 93 => ⟨S500000x2, .f32⟩
  | 94 => ⟨S1x6x2, .f32⟩
  | 95 => ⟨S6x2, .f32⟩
  | 96 => ⟨S1x2, .f32⟩
  | 97 => ⟨S2, .f32⟩
  | 98 => ⟨S1x2, .f32⟩
  | 99 => ⟨S2000000x2, .f32⟩
  | 100 => ⟨S_, .i32⟩
  | 101 => ⟨S6000000, .i32⟩
  | 102 => ⟨S6000000, .i1⟩
  | 103 => ⟨S_, .i32⟩
  | 104 => ⟨S6000000, .i32⟩
  | 105 => ⟨S6000000, .i32⟩
  | 106 => ⟨S6000000, .i32⟩
  | 107 => ⟨S6000000x1, .i32⟩
  | 108 => ⟨S6000000x2, .f32⟩
  | 109 => ⟨S_, .i32⟩
  | 110 => ⟨S6000000, .i32⟩
  | 111 => ⟨S6000000, .i1⟩
  | 112 => ⟨S_, .i32⟩
  | 113 => ⟨S6000000, .i32⟩
  | 114 => ⟨S6000000, .i32⟩
  | 115 => ⟨S6000000, .i32⟩
  | 116 => ⟨S6000000x1, .i32⟩
  | 117 => ⟨S6000000x2, .f32⟩
  | 118 => ⟨S_, .i32⟩
  | 119 => ⟨S6000000, .i32⟩
  | 120 => ⟨S6000000, .i1⟩
  | 121 => ⟨S_, .i32⟩
  | 122 => ⟨S6000000, .i32⟩
  | 123 => ⟨S6000000, .i32⟩
  | 124 => ⟨S6000000, .i32⟩
  | 125 => ⟨S6000000x1, .i32⟩
  | 126 => ⟨S6000000, .f32⟩
  | 127 => ⟨S6000000x1, .f32⟩
  | _ => ⟨S2000000x1, .f32⟩

abbrev hbmTy0_5 (i : Nat) : BufTy := match i % 128 with
  | 0 => ⟨S_, .i32⟩
  | 1 => ⟨S6000000, .i32⟩
  | 2 => ⟨S6000000, .i1⟩
  | 3 => ⟨S_, .i32⟩
  | 4 => ⟨S6000000, .i32⟩
  | 5 => ⟨S6000000, .i32⟩
  | 6 => ⟨S6000000, .i32⟩
  | 7 => ⟨S6000000x1, .i32⟩
  | 8 => ⟨S6000000, .f32⟩
  | 9 => ⟨S6000000x1, .f32⟩
  | 10 => ⟨S6000000x2, .f32⟩
  | 11 => ⟨S_, .f32⟩
  | 12 => ⟨S500000x2, .f32⟩
  | 13 => ⟨S6000000x1, .i32⟩
  | 14 => ⟨S500000x2, .f32⟩
  | 15 => ⟨S_, .i32⟩
  | 16 => ⟨S6000000, .i32⟩
  | 17 => ⟨S6000000, .i1⟩
  | 18 => ⟨S_, .i32⟩
  | 19 => ⟨S6000000, .i32⟩
  | 20 => ⟨S6000000, .i32⟩
  | 21 => ⟨S6000000, .i32⟩
  | 22 => ⟨S6000000x1, .i32⟩
  | 23 => ⟨S6000000x2, .f32⟩
  | 24 => ⟨S_, .i32⟩
  | 25 => ⟨S6000000, .i32⟩
  | 26 => ⟨S6000000, .i1⟩
  | 27 => ⟨S_, .i32⟩
  | 28 => ⟨S6000000, .i32⟩
  | 29 => ⟨S6000000, .i32⟩
  | 30 => ⟨S6000000, .i32⟩
  | 31 => ⟨S6000000x1, .i32⟩
  | 32 => ⟨S6000000x2, .f32⟩
  | 33 => ⟨S_, .i32⟩
  | 34 => ⟨S6000000, .i32⟩
  | 35 => ⟨S6000000, .i1⟩
  | 36 => ⟨S_, .i32⟩
  | 37 => ⟨S6000000, .i32⟩
  | 38 => ⟨S6000000, .i32⟩
  | 39 => ⟨S6000000, .i32⟩
  | 40 => ⟨S6000000x1, .i32⟩
  | 41 => ⟨S6000000, .f32⟩
  | 42 => ⟨S6000000x1, .f32⟩
  | 43 => ⟨S_, .i32⟩
  | 44 => ⟨S6000000, .i32⟩
  | 45 => ⟨S6000000, .i1⟩
  | 46 => ⟨S_, .i32⟩
  | 47 => ⟨S6000000, .i32⟩
  | 48 => ⟨S6000000, .i32⟩
  | 49 => ⟨S6000000, .i32⟩
  | 50 => ⟨S6000000x1, .i32⟩
  | 51 => ⟨S6000000, .f32⟩
  | 52 => ⟨S6000000x1, .f32⟩
  | 53 => ⟨S6000000x2, .f32⟩
  | 54 => ⟨S_, .f32⟩
  | 55 => ⟨S500000x2, .f32⟩
  | 56 => ⟨S6000000x1, .i32⟩
  | 57 => ⟨S500000x2, .f32⟩
  | 58 => ⟨S_, .i32⟩
  | 59 => ⟨S6000000, .i32⟩
  | 60 => ⟨S6000000, .i1⟩
  | 61 => ⟨S_, .i32⟩
  | 62 => ⟨S6000000, .i32⟩
  | 63 => ⟨S6000000, .i32⟩
  | 64 => ⟨S6000000, .i32⟩
  | 65 => ⟨S6000000x1, .i32⟩
  | 66 => ⟨S6000000x2, .f32⟩
  | 67 => ⟨S_, .i32⟩
  | 68 => ⟨S6000000, .i32⟩
  | 69 => ⟨S6000000, .i1⟩
  | 70 => ⟨S_, .i32⟩
  | 71 => ⟨S6000000, .i32⟩
  | 72 => ⟨S6000000, .i32⟩
  | 73 => ⟨S6000000, .i32⟩
  | 74 => ⟨S6000000x1, .i32⟩
  | 75 => ⟨S6000000x2, .f32⟩
  | 76 => ⟨S_, .i32⟩
  | 77 => ⟨S6000000, .i32⟩
  | 78 => ⟨S6000000, .i1⟩
  | 79 => ⟨S_, .i32⟩
  | 80 => ⟨S6000000, .i32⟩
  | 81 => ⟨S6000000, .i32⟩
  | 82 => ⟨S6000000, .i32⟩
  | 83 => ⟨S6000000x1, .i32⟩
  | 84 => ⟨S6000000, .f32⟩
  | 85 => ⟨S6000000x1, .f32⟩
  | 86 => ⟨S_, .i32⟩
  | 87 => ⟨S6000000, .i32⟩
  | 88 => ⟨S6000000, .i1⟩
  | 89 => ⟨S_, .i32⟩
  | 90 => ⟨S6000000, .i32⟩
  | 91 => ⟨S6000000, .i32⟩
  | 92 => ⟨S6000000, .i32⟩
  | 93 => ⟨S6000000x1, .i32⟩
  | 94 => ⟨S6000000, .f32⟩
  | 95 => ⟨S6000000x1, .f32⟩
  | 96 => ⟨S6000000x2, .f32⟩
  | 97 => ⟨S_, .f32⟩
  | 98 => ⟨S2000000x2, .f32⟩
  | 99 => ⟨S6000000x1, .i32⟩
  | 100 => ⟨S2000000x2, .f32⟩
  | 101 => ⟨S_, .i32⟩
  | 102 => ⟨S6000000, .i32⟩
  | 103 => ⟨S6000000, .i1⟩
  | 104 => ⟨S_, .i32⟩
  | 105 => ⟨S6000000, .i32⟩
  | 106 => ⟨S6000000, .i32⟩
  | 107 => ⟨S6000000, .i32⟩
  | 108 => ⟨S6000000x1, .i32⟩
  | 109 => ⟨S6000000x2, .f32⟩
  | 110 => ⟨S_, .i32⟩
  | 111 => ⟨S6000000, .i32⟩
  | 112 => ⟨S6000000, .i1⟩
  | 113 => ⟨S_, .i32⟩
  | 114 => ⟨S6000000, .i32⟩
  | 115 => ⟨S6000000, .i32⟩
  | 116 => ⟨S6000000, .i32⟩
  | 117 => ⟨S6000000x1, .i32⟩
  | 118 => ⟨S6000000x2, .f32⟩
  | 119 => ⟨S_, .i32⟩
  | 120 => ⟨S6000000, .i32⟩
  | 121 => ⟨S6000000, .i1⟩
  | 122 => ⟨S_, .i32⟩
  | 123 => ⟨S6000000, .i32⟩
  | 124 => ⟨S6000000, .i32⟩
  | 125 => ⟨S6000000, .i32⟩
  | 126 => ⟨S6000000x1, .i32⟩
  | 127 => ⟨S6000000, .f32⟩
  | _ => ⟨S2000000x1, .f32⟩

abbrev hbmTy0_6 (i : Nat) : BufTy := match i % 128 with
  | 0 => ⟨S6000000x1, .f32⟩
  | 1 => ⟨S_, .i32⟩
  | 2 => ⟨S6000000, .i32⟩
  | 3 => ⟨S6000000, .i1⟩
  | 4 => ⟨S_, .i32⟩
  | 5 => ⟨S6000000, .i32⟩
  | 6 => ⟨S6000000, .i32⟩
  | 7 => ⟨S6000000, .i32⟩
  | 8 => ⟨S6000000x1, .i32⟩
  | 9 => ⟨S6000000, .f32⟩
  | 10 => ⟨S6000000x1, .f32⟩
  | 11 => ⟨S6000000x2, .f32⟩
  | 12 => ⟨S_, .f32⟩
  | 13 => ⟨S2000000x2, .f32⟩
  | 14 => ⟨S6000000x1, .i32⟩
  | 15 => ⟨S2000000x2, .f32⟩
  | 16 => ⟨S500000x6, .f32⟩
  | 17 => ⟨S2000000x6, .f32⟩
  | 18 => ⟨S1x6x2, .f32⟩
  | 19 => ⟨S6x2, .f32⟩
  | 20 => ⟨S1x2, .f32⟩
  | 21 => ⟨S2, .f32⟩
  | 22 => ⟨S1x2, .f32⟩
  | 23 => ⟨S500000x2, .f32⟩
  | 24 => ⟨S1x6x2, .f32⟩
  | 25 => ⟨S6x2, .f32⟩
  | 26 => ⟨S1x2, .f32⟩
  | 27 => ⟨S2, .f32⟩
  | 28 => ⟨S1x2, .f32⟩
  | 29 => ⟨S2000000x2, .f32⟩
  | _ => ⟨S2000000x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2000000x1, .f32⟩

abbrev vmemTy0_0 (i : Nat) : BufTy := match i % 128 with
  | 0 => ⟨S10000x1, .f32⟩
  | 1 => ⟨S10000x1, .f32⟩
  | 2 => ⟨S1x2, .f32⟩
  | 3 => ⟨S1x2, .f32⟩
  | 4 => ⟨S10000x2, .f32⟩
  | 5 => ⟨S10000x2, .f32⟩
  | 6 => ⟨S10000x1, .f32⟩
  | 7 => ⟨S10000x1, .f32⟩
  | 8 => ⟨S1x2, .f32⟩
  | 9 => ⟨S1x2, .f32⟩
  | 10 => ⟨S10000x2, .f32⟩
  | 11 => ⟨S10000x2, .f32⟩
  | 12 => ⟨S4000x1, .f32⟩
  | 13 => ⟨S4000x1, .f32⟩
  | 14 => ⟨S4000x1, .f32⟩
  | 15 => ⟨S4000x1, .f32⟩
  | 16 => ⟨S4000x2, .f32⟩
  | 17 => ⟨S4000x2, .f32⟩
  | 18 => ⟨S4000x2, .f32⟩
  | 19 => ⟨S4000x2, .f32⟩
  | 20 => ⟨S4000x2, .f32⟩
  | 21 => ⟨S4000x2, .f32⟩
  | 22 => ⟨S4000x1, .f32⟩
  | 23 => ⟨S4000x1, .f32⟩
  | 24 => ⟨S4000x1, .f32⟩
  | 25 => ⟨S4000x1, .f32⟩
  | 26 => ⟨S4000x2, .f32⟩
  | 27 => ⟨S4000x2, .f32⟩
  | 28 => ⟨S4000x2, .f32⟩
  | 29 => ⟨S4000x2, .f32⟩
  | 30 => ⟨S4000x2, .f32⟩
  | 31 => ⟨S4000x2, .f32⟩
  | 32 => ⟨S4000x1, .f32⟩
  | 33 => ⟨S4000x1, .f32⟩
  | 34 => ⟨S4000x1, .f32⟩
  | 35 => ⟨S4000x1, .f32⟩
  | 36 => ⟨S4000x2, .f32⟩
  | 37 => ⟨S4000x2, .f32⟩
  | 38 => ⟨S4000x2, .f32⟩
  | 39 => ⟨S4000x2, .f32⟩
  | 40 => ⟨S4000x2, .f32⟩
  | 41 => ⟨S4000x2, .f32⟩
  | 42 => ⟨S4000x1, .f32⟩
  | 43 => ⟨S4000x1, .f32⟩
  | 44 => ⟨S4000x1, .f32⟩
  | 45 => ⟨S4000x1, .f32⟩
  | 46 => ⟨S4000x2, .f32⟩
  | 47 => ⟨S4000x2, .f32⟩
  | 48 => ⟨S4000x2, .f32⟩
  | 49 => ⟨S4000x2, .f32⟩
  | 50 => ⟨S4000x2, .f32⟩
  | 51 => ⟨S4000x2, .f32⟩
  | 52 => ⟨S10000x6, .f32⟩
  | 53 => ⟨S10000x6, .f32⟩
  | 54 => ⟨S6x2, .f32⟩
  | 55 => ⟨S1x2, .f32⟩
  | 56 => ⟨S10000x2, .f32⟩
  | 57 => ⟨S10000x2, .f32⟩
  | 58 => ⟨S10000x6, .f32⟩
  | 59 => ⟨S10000x6, .f32⟩
  | 60 => ⟨S6x2, .f32⟩
  | 61 => ⟨S1x2, .f32⟩
  | 62 => ⟨S10000x2, .f32⟩
  | 63 => ⟨S10000x2, .f32⟩
  | 64 => ⟨S4000x1, .f32⟩
  | 65 => ⟨S4000x1, .f32⟩
  | 66 => ⟨S4000x1, .f32⟩
  | 67 => ⟨S4000x1, .f32⟩
  | 68 => ⟨S4000x2, .f32⟩
  | 69 => ⟨S4000x2, .f32⟩
  | 70 => ⟨S4000x2, .f32⟩
  | 71 => ⟨S4000x2, .f32⟩
  | 72 => ⟨S4000x2, .f32⟩
  | 73 => ⟨S4000x2, .f32⟩
  | 74 => ⟨S4000x1, .f32⟩
  | 75 => ⟨S4000x1, .f32⟩
  | 76 => ⟨S4000x1, .f32⟩
  | 77 => ⟨S4000x1, .f32⟩
  | 78 => ⟨S4000x2, .f32⟩
  | 79 => ⟨S4000x2, .f32⟩
  | 80 => ⟨S4000x2, .f32⟩
  | 81 => ⟨S4000x2, .f32⟩
  | 82 => ⟨S4000x2, .f32⟩
  | 83 => ⟨S4000x2, .f32⟩
  | 84 => ⟨S4000x1, .f32⟩
  | 85 => ⟨S4000x1, .f32⟩
  | 86 => ⟨S4000x1, .f32⟩
  | 87 => ⟨S4000x1, .f32⟩
  | 88 => ⟨S4000x2, .f32⟩
  | 89 => ⟨S4000x2, .f32⟩
  | 90 => ⟨S4000x2, .f32⟩
  | 91 => ⟨S4000x2, .f32⟩
  | 92 => ⟨S4000x2, .f32⟩
  | 93 => ⟨S4000x2, .f32⟩
  | 94 => ⟨S4000x1, .f32⟩
  | 95 => ⟨S4000x1, .f32⟩
  | 96 => ⟨S4000x1, .f32⟩
  | 97 => ⟨S4000x1, .f32⟩
  | 98 => ⟨S4000x2, .f32⟩
  | 99 => ⟨S4000x2, .f32⟩
  | 100 => ⟨S4000x2, .f32⟩
  | 101 => ⟨S4000x2, .f32⟩
  | 102 => ⟨S4000x2, .f32⟩
  | 103 => ⟨S4000x2, .f32⟩
  | 104 => ⟨S10000x6, .f32⟩
  | 105 => ⟨S10000x6, .f32⟩
  | 106 => ⟨S6x2, .f32⟩
  | 107 => ⟨S1x2, .f32⟩
  | 108 => ⟨S10000x2, .f32⟩
  | 109 => ⟨S10000x2, .f32⟩
  | 110 => ⟨S10000x6, .f32⟩
  | 111 => ⟨S10000x6, .f32⟩
  | 112 => ⟨S6x2, .f32⟩
  | 113 => ⟨S1x2, .f32⟩
  | 114 => ⟨S10000x2, .f32⟩
  | 115 => ⟨S10000x2, .f32⟩
  | 116 => ⟨S4000x1, .f32⟩
  | 117 => ⟨S4000x1, .f32⟩
  | 118 => ⟨S4000x1, .f32⟩
  | 119 => ⟨S4000x1, .f32⟩
  | 120 => ⟨S4000x2, .f32⟩
  | 121 => ⟨S4000x2, .f32⟩
  | 122 => ⟨S4000x2, .f32⟩
  | 123 => ⟨S4000x2, .f32⟩
  | 124 => ⟨S4000x2, .f32⟩
  | 125 => ⟨S4000x2, .f32⟩
  | 126 => ⟨S4000x1, .f32⟩
  | 127 => ⟨S4000x1, .f32⟩
  | _ => ⟨S2000000x1, .f32⟩

abbrev vmemTy0_1 (i : Nat) : BufTy := match i % 128 with
  | 0 => ⟨S4000x1, .f32⟩
  | 1 => ⟨S4000x1, .f32⟩
  | 2 => ⟨S4000x2, .f32⟩
  | 3 => ⟨S4000x2, .f32⟩
  | 4 => ⟨S4000x2, .f32⟩
  | 5 => ⟨S4000x2, .f32⟩
  | 6 => ⟨S4000x2, .f32⟩
  | 7 => ⟨S4000x2, .f32⟩
  | 8 => ⟨S4000x1, .f32⟩
  | 9 => ⟨S4000x1, .f32⟩
  | 10 => ⟨S4000x1, .f32⟩
  | 11 => ⟨S4000x1, .f32⟩
  | 12 => ⟨S4000x2, .f32⟩
  | 13 => ⟨S4000x2, .f32⟩
  | 14 => ⟨S4000x2, .f32⟩
  | 15 => ⟨S4000x2, .f32⟩
  | 16 => ⟨S4000x2, .f32⟩
  | 17 => ⟨S4000x2, .f32⟩
  | 18 => ⟨S4000x1, .f32⟩
  | 19 => ⟨S4000x1, .f32⟩
  | 20 => ⟨S4000x1, .f32⟩
  | 21 => ⟨S4000x1, .f32⟩
  | 22 => ⟨S4000x2, .f32⟩
  | 23 => ⟨S4000x2, .f32⟩
  | 24 => ⟨S4000x2, .f32⟩
  | 25 => ⟨S4000x2, .f32⟩
  | 26 => ⟨S4000x2, .f32⟩
  | 27 => ⟨S4000x2, .f32⟩
  | 28 => ⟨S10000x6, .f32⟩
  | 29 => ⟨S10000x6, .f32⟩
  | 30 => ⟨S6x2, .f32⟩
  | 31 => ⟨S1x2, .f32⟩
  | 32 => ⟨S10000x2, .f32⟩
  | 33 => ⟨S10000x2, .f32⟩
  | 34 => ⟨S10000x6, .f32⟩
  | 35 => ⟨S10000x6, .f32⟩
  | 36 => ⟨S6x2, .f32⟩
  | 37 => ⟨S1x2, .f32⟩
  | 38 => ⟨S10000x2, .f32⟩
  | 39 => ⟨S10000x2, .f32⟩
  | 40 => ⟨S4000x1, .f32⟩
  | 41 => ⟨S4000x1, .f32⟩
  | 42 => ⟨S4000x1, .f32⟩
  | 43 => ⟨S4000x1, .f32⟩
  | 44 => ⟨S4000x2, .f32⟩
  | 45 => ⟨S4000x2, .f32⟩
  | 46 => ⟨S4000x2, .f32⟩
  | 47 => ⟨S4000x2, .f32⟩
  | 48 => ⟨S4000x2, .f32⟩
  | 49 => ⟨S4000x2, .f32⟩
  | 50 => ⟨S4000x1, .f32⟩
  | 51 => ⟨S4000x1, .f32⟩
  | 52 => ⟨S4000x1, .f32⟩
  | 53 => ⟨S4000x1, .f32⟩
  | 54 => ⟨S4000x2, .f32⟩
  | 55 => ⟨S4000x2, .f32⟩
  | 56 => ⟨S4000x2, .f32⟩
  | 57 => ⟨S4000x2, .f32⟩
  | 58 => ⟨S4000x2, .f32⟩
  | 59 => ⟨S4000x2, .f32⟩
  | 60 => ⟨S4000x1, .f32⟩
  | 61 => ⟨S4000x1, .f32⟩
  | 62 => ⟨S4000x1, .f32⟩
  | 63 => ⟨S4000x1, .f32⟩
  | 64 => ⟨S4000x2, .f32⟩
  | 65 => ⟨S4000x2, .f32⟩
  | 66 => ⟨S4000x2, .f32⟩
  | 67 => ⟨S4000x2, .f32⟩
  | 68 => ⟨S4000x2, .f32⟩
  | 69 => ⟨S4000x2, .f32⟩
  | 70 => ⟨S4000x1, .f32⟩
  | 71 => ⟨S4000x1, .f32⟩
  | 72 => ⟨S4000x1, .f32⟩
  | 73 => ⟨S4000x1, .f32⟩
  | 74 => ⟨S4000x2, .f32⟩
  | 75 => ⟨S4000x2, .f32⟩
  | 76 => ⟨S4000x2, .f32⟩
  | 77 => ⟨S4000x2, .f32⟩
  | 78 => ⟨S4000x2, .f32⟩
  | 79 => ⟨S4000x2, .f32⟩
  | 80 => ⟨S10000x6, .f32⟩
  | 81 => ⟨S10000x6, .f32⟩
  | 82 => ⟨S6x2, .f32⟩
  | 83 => ⟨S1x2, .f32⟩
  | 84 => ⟨S10000x2, .f32⟩
  | 85 => ⟨S10000x2, .f32⟩
  | 86 => ⟨S10000x6, .f32⟩
  | 87 => ⟨S10000x6, .f32⟩
  | 88 => ⟨S6x2, .f32⟩
  | 89 => ⟨S1x2, .f32⟩
  | 90 => ⟨S10000x2, .f32⟩
  | 91 => ⟨S10000x2, .f32⟩
  | _ => ⟨S2000000x1, .f32⟩

abbrev vmemTy (i : Nat) : BufTy := match i / 128 with
  | 0 => vmemTy0_0 i
  | 1 => vmemTy0_1 i
  | _ => ⟨S2000000x1, .f32⟩

abbrev bufTy : (tb : Table) → Fin (tcTables nBuf tb) → BufTy
  | .hbm, ⟨i, _⟩ => hbmTy i
  | .local _ .vmem, ⟨i, _⟩ => vmemTy i
  | _, _ => ⟨S2000000x1, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 220 → Bool
  | ⟨i, _⟩ => dmaSemScopedAt i

abbrev sig : RefSig :=
  ofTc nBuf bufTy 0 220 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_v2 : Ref sig .tc := ⟨.hbm, 22, rfl⟩
abbrev main_cst_1 : Ref sig .tc := ⟨.hbm, 23, rfl⟩
abbrev main_v3 : Ref sig .tc := ⟨.hbm, 24, rfl⟩
abbrev main_v4 : Ref sig .tc := ⟨.hbm, 25, rfl⟩
abbrev main_cst_2 : Ref sig .tc := ⟨.hbm, 26, rfl⟩
abbrev main_v5 : Ref sig .tc := ⟨.hbm, 27, rfl⟩
abbrev main_v6 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v7 : Ref sig .tc := ⟨.hbm, 32, rfl⟩
abbrev main_cst_4 : Ref sig .tc := ⟨.hbm, 33, rfl⟩
abbrev main_v8 : Ref sig .tc := ⟨.hbm, 34, rfl⟩
abbrev main_v9 : Ref sig .tc := ⟨.hbm, 35, rfl⟩
abbrev main_cst_5 : Ref sig .tc := ⟨.hbm, 36, rfl⟩
abbrev main_call2_v0 : Ref sig .tc := ⟨.hbm, 37, rfl⟩
abbrev main_call2_v1 : Ref sig .tc := ⟨.hbm, 38, rfl⟩
abbrev main_v10 : Ref sig .tc := ⟨.hbm, 39, rfl⟩
abbrev main_cst_6 : Ref sig .tc := ⟨.hbm, 40, rfl⟩
abbrev main_v11 : Ref sig .tc := ⟨.hbm, 41, rfl⟩
abbrev main_v12 : Ref sig .tc := ⟨.hbm, 42, rfl⟩
abbrev main_cst_7 : Ref sig .tc := ⟨.hbm, 43, rfl⟩
abbrev main_v13 : Ref sig .tc := ⟨.hbm, 44, rfl⟩
abbrev main_v14 : Ref sig .tc := ⟨.hbm, 45, rfl⟩
abbrev main_cst_8 : Ref sig .tc := ⟨.hbm, 46, rfl⟩
abbrev main_call3_v0 : Ref sig .tc := ⟨.hbm, 47, rfl⟩
abbrev main_call3_v1 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_c : Ref sig .tc := ⟨.hbm, 54, rfl⟩
abbrev main_v20 : Ref sig .tc := ⟨.hbm, 55, rfl⟩
abbrev main_v21 : Ref sig .tc := ⟨.hbm, 56, rfl⟩
abbrev main_c_9 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_c_10 : Ref sig .tc := ⟨.hbm, 63, rfl⟩
abbrev main_v27 : Ref sig .tc := ⟨.hbm, 64, rfl⟩
abbrev main_v28 : Ref sig .tc := ⟨.hbm, 65, rfl⟩
abbrev main_c_11 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_c_12 : Ref sig .tc := ⟨.hbm, 72, rfl⟩
abbrev main_v34 : Ref sig .tc := ⟨.hbm, 73, rfl⟩
abbrev main_v35 : Ref sig .tc := ⟨.hbm, 74, rfl⟩
abbrev main_c_13 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_c_14 : Ref sig .tc := ⟨.hbm, 82, rfl⟩
abbrev main_v42 : Ref sig .tc := ⟨.hbm, 83, rfl⟩
abbrev main_v43 : Ref sig .tc := ⟨.hbm, 84, rfl⟩
abbrev main_c_15 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_16 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_c_17 : Ref sig .tc := ⟨.hbm, 97, rfl⟩
abbrev main_v54 : Ref sig .tc := ⟨.hbm, 98, rfl⟩
abbrev main_v55 : Ref sig .tc := ⟨.hbm, 99, rfl⟩
abbrev main_c_18 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_c_19 : Ref sig .tc := ⟨.hbm, 106, rfl⟩
abbrev main_v61 : Ref sig .tc := ⟨.hbm, 107, rfl⟩
abbrev main_v62 : Ref sig .tc := ⟨.hbm, 108, rfl⟩
abbrev main_c_20 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_c_21 : Ref sig .tc := ⟨.hbm, 115, rfl⟩
abbrev main_v68 : Ref sig .tc := ⟨.hbm, 116, rfl⟩
abbrev main_v69 : Ref sig .tc := ⟨.hbm, 117, rfl⟩
abbrev main_c_22 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_c_23 : Ref sig .tc := ⟨.hbm, 125, rfl⟩
abbrev main_v76 : Ref sig .tc := ⟨.hbm, 126, rfl⟩
abbrev main_v77 : Ref sig .tc := ⟨.hbm, 127, rfl⟩
abbrev main_c_24 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_cst_25 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_c_26 : Ref sig .tc := ⟨.hbm, 140, rfl⟩
abbrev main_v88 : Ref sig .tc := ⟨.hbm, 141, rfl⟩
abbrev main_v89 : Ref sig .tc := ⟨.hbm, 142, rfl⟩
abbrev main_c_27 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_c_28 : Ref sig .tc := ⟨.hbm, 149, rfl⟩
abbrev main_v95 : Ref sig .tc := ⟨.hbm, 150, rfl⟩
abbrev main_v96 : Ref sig .tc := ⟨.hbm, 151, rfl⟩
abbrev main_c_29 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_c_30 : Ref sig .tc := ⟨.hbm, 158, rfl⟩
abbrev main_v102 : Ref sig .tc := ⟨.hbm, 159, rfl⟩
abbrev main_v103 : Ref sig .tc := ⟨.hbm, 160, rfl⟩
abbrev main_c_31 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_c_32 : Ref sig .tc := ⟨.hbm, 168, rfl⟩
abbrev main_v110 : Ref sig .tc := ⟨.hbm, 169, rfl⟩
abbrev main_v111 : Ref sig .tc := ⟨.hbm, 170, rfl⟩
abbrev main_c_33 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_cst_34 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_c_35 : Ref sig .tc := ⟨.hbm, 183, rfl⟩
abbrev main_v122 : Ref sig .tc := ⟨.hbm, 184, rfl⟩
abbrev main_v123 : Ref sig .tc := ⟨.hbm, 185, rfl⟩
abbrev main_c_36 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_c_37 : Ref sig .tc := ⟨.hbm, 192, rfl⟩
abbrev main_v129 : Ref sig .tc := ⟨.hbm, 193, rfl⟩
abbrev main_v130 : Ref sig .tc := ⟨.hbm, 194, rfl⟩
abbrev main_c_38 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_c_39 : Ref sig .tc := ⟨.hbm, 201, rfl⟩
abbrev main_v136 : Ref sig .tc := ⟨.hbm, 202, rfl⟩
abbrev main_v137 : Ref sig .tc := ⟨.hbm, 203, rfl⟩
abbrev main_c_40 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_c_41 : Ref sig .tc := ⟨.hbm, 211, rfl⟩
abbrev main_v144 : Ref sig .tc := ⟨.hbm, 212, rfl⟩
abbrev main_v145 : Ref sig .tc := ⟨.hbm, 213, rfl⟩
abbrev main_c_42 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_cst_43 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_c_44 : Ref sig .tc := ⟨.hbm, 240, rfl⟩
abbrev main_v170 : Ref sig .tc := ⟨.hbm, 241, rfl⟩
abbrev main_v171 : Ref sig .tc := ⟨.hbm, 242, rfl⟩
abbrev main_c_45 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_c_46 : Ref sig .tc := ⟨.hbm, 249, rfl⟩
abbrev main_v177 : Ref sig .tc := ⟨.hbm, 250, rfl⟩
abbrev main_v178 : Ref sig .tc := ⟨.hbm, 251, rfl⟩
abbrev main_c_47 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_c_48 : Ref sig .tc := ⟨.hbm, 258, rfl⟩
abbrev main_v184 : Ref sig .tc := ⟨.hbm, 259, rfl⟩
abbrev main_v185 : Ref sig .tc := ⟨.hbm, 260, rfl⟩
abbrev main_c_49 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_c_50 : Ref sig .tc := ⟨.hbm, 268, rfl⟩
abbrev main_v192 : Ref sig .tc := ⟨.hbm, 269, rfl⟩
abbrev main_v193 : Ref sig .tc := ⟨.hbm, 270, rfl⟩
abbrev main_c_51 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_cst_52 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_c_53 : Ref sig .tc := ⟨.hbm, 283, rfl⟩
abbrev main_v204 : Ref sig .tc := ⟨.hbm, 284, rfl⟩
abbrev main_v205 : Ref sig .tc := ⟨.hbm, 285, rfl⟩
abbrev main_c_54 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_c_55 : Ref sig .tc := ⟨.hbm, 292, rfl⟩
abbrev main_v211 : Ref sig .tc := ⟨.hbm, 293, rfl⟩
abbrev main_v212 : Ref sig .tc := ⟨.hbm, 294, rfl⟩
abbrev main_c_56 : Ref sig .tc := ⟨.hbm, 295, rfl⟩
abbrev main_v213 : Ref sig .tc := ⟨.hbm, 296, rfl⟩
abbrev main_v214 : Ref sig .tc := ⟨.hbm, 297, rfl⟩
abbrev main_v215 : Ref sig .tc := ⟨.hbm, 298, rfl⟩
abbrev main_v216 : Ref sig .tc := ⟨.hbm, 299, rfl⟩
abbrev main_v217 : Ref sig .tc := ⟨.hbm, 300, rfl⟩
abbrev main_c_57 : Ref sig .tc := ⟨.hbm, 301, rfl⟩
abbrev main_v218 : Ref sig .tc := ⟨.hbm, 302, rfl⟩
abbrev main_v219 : Ref sig .tc := ⟨.hbm, 303, rfl⟩
abbrev main_c_58 : Ref sig .tc := ⟨.hbm, 304, rfl⟩
abbrev main_v220 : Ref sig .tc := ⟨.hbm, 305, rfl⟩
abbrev main_v221 : Ref sig .tc := ⟨.hbm, 306, rfl⟩
abbrev main_v222 : Ref sig .tc := ⟨.hbm, 307, rfl⟩
abbrev main_v223 : Ref sig .tc := ⟨.hbm, 308, rfl⟩
abbrev main_v224 : Ref sig .tc := ⟨.hbm, 309, rfl⟩
abbrev main_v225 : Ref sig .tc := ⟨.hbm, 310, rfl⟩
abbrev main_c_59 : Ref sig .tc := ⟨.hbm, 311, rfl⟩
abbrev main_v226 : Ref sig .tc := ⟨.hbm, 312, rfl⟩
abbrev main_v227 : Ref sig .tc := ⟨.hbm, 313, rfl⟩
abbrev main_c_60 : Ref sig .tc := ⟨.hbm, 314, rfl⟩
abbrev main_v228 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_cst_61 : Ref sig .tc := ⟨.hbm, 322, rfl⟩
abbrev main_v235 : Ref sig .tc := ⟨.hbm, 323, rfl⟩
abbrev main_v236 : Ref sig .tc := ⟨.hbm, 324, rfl⟩
abbrev main_v237 : Ref sig .tc := ⟨.hbm, 325, rfl⟩
abbrev main_c_62 : Ref sig .tc := ⟨.hbm, 326, rfl⟩
abbrev main_v238 : Ref sig .tc := ⟨.hbm, 327, rfl⟩
abbrev main_v239 : Ref sig .tc := ⟨.hbm, 328, rfl⟩
abbrev main_c_63 : Ref sig .tc := ⟨.hbm, 329, rfl⟩
abbrev main_v240 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩
abbrev main_v244 : Ref sig .tc := ⟨.hbm, 334, rfl⟩
abbrev main_c_64 : Ref sig .tc := ⟨.hbm, 335, rfl⟩
abbrev main_v245 : Ref sig .tc := ⟨.hbm, 336, rfl⟩
abbrev main_v246 : Ref sig .tc := ⟨.hbm, 337, rfl⟩
abbrev main_c_65 : Ref sig .tc := ⟨.hbm, 338, rfl⟩
abbrev main_v247 : Ref sig .tc := ⟨.hbm, 339, rfl⟩
abbrev main_v248 : Ref sig .tc := ⟨.hbm, 340, rfl⟩
abbrev main_v249 : Ref sig .tc := ⟨.hbm, 341, rfl⟩
abbrev main_v250 : Ref sig .tc := ⟨.hbm, 342, rfl⟩
abbrev main_v251 : Ref sig .tc := ⟨.hbm, 343, rfl⟩
abbrev main_c_66 : Ref sig .tc := ⟨.hbm, 344, rfl⟩
abbrev main_v252 : Ref sig .tc := ⟨.hbm, 345, rfl⟩
abbrev main_v253 : Ref sig .tc := ⟨.hbm, 346, rfl⟩
abbrev main_c_67 : Ref sig .tc := ⟨.hbm, 347, rfl⟩
abbrev main_v254 : Ref sig .tc := ⟨.hbm, 348, rfl⟩
abbrev main_v255 : Ref sig .tc := ⟨.hbm, 349, rfl⟩
abbrev main_v256 : Ref sig .tc := ⟨.hbm, 350, rfl⟩
abbrev main_v257 : Ref sig .tc := ⟨.hbm, 351, rfl⟩
abbrev main_v258 : Ref sig .tc := ⟨.hbm, 352, rfl⟩
abbrev main_v259 : Ref sig .tc := ⟨.hbm, 353, rfl⟩
abbrev main_c_68 : Ref sig .tc := ⟨.hbm, 354, rfl⟩
abbrev main_v260 : Ref sig .tc := ⟨.hbm, 355, rfl⟩
abbrev main_v261 : Ref sig .tc := ⟨.hbm, 356, rfl⟩
abbrev main_c_69 : Ref sig .tc := ⟨.hbm, 357, rfl⟩
abbrev main_v262 : Ref sig .tc := ⟨.hbm, 358, rfl⟩
abbrev main_v263 : Ref sig .tc := ⟨.hbm, 359, rfl⟩
abbrev main_v264 : Ref sig .tc := ⟨.hbm, 360, rfl⟩
abbrev main_v265 : Ref sig .tc := ⟨.hbm, 361, rfl⟩
abbrev main_v266 : Ref sig .tc := ⟨.hbm, 362, rfl⟩
abbrev main_v267 : Ref sig .tc := ⟨.hbm, 363, rfl⟩
abbrev main_v268 : Ref sig .tc := ⟨.hbm, 364, rfl⟩
abbrev main_cst_70 : Ref sig .tc := ⟨.hbm, 365, rfl⟩
abbrev main_v269 : Ref sig .tc := ⟨.hbm, 366, rfl⟩
abbrev main_v270 : Ref sig .tc := ⟨.hbm, 367, rfl⟩
abbrev main_v271 : Ref sig .tc := ⟨.hbm, 368, rfl⟩
abbrev main_c_71 : Ref sig .tc := ⟨.hbm, 369, rfl⟩
abbrev main_v272 : Ref sig .tc := ⟨.hbm, 370, rfl⟩
abbrev main_v273 : Ref sig .tc := ⟨.hbm, 371, rfl⟩
abbrev main_c_72 : Ref sig .tc := ⟨.hbm, 372, rfl⟩
abbrev main_v274 : Ref sig .tc := ⟨.hbm, 373, rfl⟩
abbrev main_v275 : Ref sig .tc := ⟨.hbm, 374, rfl⟩
abbrev main_v276 : Ref sig .tc := ⟨.hbm, 375, rfl⟩
abbrev main_v277 : Ref sig .tc := ⟨.hbm, 376, rfl⟩
abbrev main_v278 : Ref sig .tc := ⟨.hbm, 377, rfl⟩
abbrev main_c_73 : Ref sig .tc := ⟨.hbm, 378, rfl⟩
abbrev main_v279 : Ref sig .tc := ⟨.hbm, 379, rfl⟩
abbrev main_v280 : Ref sig .tc := ⟨.hbm, 380, rfl⟩
abbrev main_c_74 : Ref sig .tc := ⟨.hbm, 381, rfl⟩
abbrev main_v281 : Ref sig .tc := ⟨.hbm, 382, rfl⟩
abbrev main_v282 : Ref sig .tc := ⟨.hbm, 383, rfl⟩
abbrev main_v283 : Ref sig .tc := ⟨.hbm, 384, rfl⟩
abbrev main_v284 : Ref sig .tc := ⟨.hbm, 385, rfl⟩
abbrev main_v285 : Ref sig .tc := ⟨.hbm, 386, rfl⟩
abbrev main_c_75 : Ref sig .tc := ⟨.hbm, 387, rfl⟩
abbrev main_v286 : Ref sig .tc := ⟨.hbm, 388, rfl⟩
abbrev main_v287 : Ref sig .tc := ⟨.hbm, 389, rfl⟩
abbrev main_c_76 : Ref sig .tc := ⟨.hbm, 390, rfl⟩
abbrev main_v288 : Ref sig .tc := ⟨.hbm, 391, rfl⟩
abbrev main_v289 : Ref sig .tc := ⟨.hbm, 392, rfl⟩
abbrev main_v290 : Ref sig .tc := ⟨.hbm, 393, rfl⟩
abbrev main_v291 : Ref sig .tc := ⟨.hbm, 394, rfl⟩
abbrev main_v292 : Ref sig .tc := ⟨.hbm, 395, rfl⟩
abbrev main_v293 : Ref sig .tc := ⟨.hbm, 396, rfl⟩
abbrev main_c_77 : Ref sig .tc := ⟨.hbm, 397, rfl⟩
abbrev main_v294 : Ref sig .tc := ⟨.hbm, 398, rfl⟩
abbrev main_v295 : Ref sig .tc := ⟨.hbm, 399, rfl⟩
abbrev main_c_78 : Ref sig .tc := ⟨.hbm, 400, rfl⟩
abbrev main_v296 : Ref sig .tc := ⟨.hbm, 401, rfl⟩
abbrev main_v297 : Ref sig .tc := ⟨.hbm, 402, rfl⟩
abbrev main_v298 : Ref sig .tc := ⟨.hbm, 403, rfl⟩
abbrev main_v299 : Ref sig .tc := ⟨.hbm, 404, rfl⟩
abbrev main_v300 : Ref sig .tc := ⟨.hbm, 405, rfl⟩
abbrev main_v301 : Ref sig .tc := ⟨.hbm, 406, rfl⟩
abbrev main_v302 : Ref sig .tc := ⟨.hbm, 407, rfl⟩
abbrev main_cst_79 : Ref sig .tc := ⟨.hbm, 408, rfl⟩
abbrev main_v303 : Ref sig .tc := ⟨.hbm, 409, rfl⟩
abbrev main_v304 : Ref sig .tc := ⟨.hbm, 410, rfl⟩
abbrev main_v305 : Ref sig .tc := ⟨.hbm, 411, rfl⟩
abbrev main_v306 : Ref sig .tc := ⟨.hbm, 412, rfl⟩
abbrev main_v307 : Ref sig .tc := ⟨.hbm, 413, rfl⟩
abbrev main_v308 : Ref sig .tc := ⟨.hbm, 414, rfl⟩
abbrev main_v309 : Ref sig .tc := ⟨.hbm, 415, rfl⟩
abbrev main_v310 : Ref sig .tc := ⟨.hbm, 416, rfl⟩
abbrev main_v311 : Ref sig .tc := ⟨.hbm, 417, rfl⟩
abbrev main_v312 : Ref sig .tc := ⟨.hbm, 418, rfl⟩
abbrev main_v313 : Ref sig .tc := ⟨.hbm, 419, rfl⟩
abbrev main_v314 : Ref sig .tc := ⟨.hbm, 420, rfl⟩
abbrev main_v315 : Ref sig .tc := ⟨.hbm, 421, rfl⟩
abbrev main_v316 : Ref sig .tc := ⟨.hbm, 422, rfl⟩
abbrev main_v317 : Ref sig .tc := ⟨.hbm, 423, rfl⟩
abbrev main_v318 : Ref sig .tc := ⟨.hbm, 424, rfl⟩
abbrev main_v319 : Ref sig .tc := ⟨.hbm, 425, rfl⟩
abbrev main_c_80 : Ref sig .tc := ⟨.hbm, 426, rfl⟩
abbrev main_v320 : Ref sig .tc := ⟨.hbm, 427, rfl⟩
abbrev main_v321 : Ref sig .tc := ⟨.hbm, 428, rfl⟩
abbrev main_c_81 : Ref sig .tc := ⟨.hbm, 429, rfl⟩
abbrev main_v322 : Ref sig .tc := ⟨.hbm, 430, rfl⟩
abbrev main_v323 : Ref sig .tc := ⟨.hbm, 431, rfl⟩
abbrev main_v324 : Ref sig .tc := ⟨.hbm, 432, rfl⟩
abbrev main_v325 : Ref sig .tc := ⟨.hbm, 433, rfl⟩
abbrev main_v326 : Ref sig .tc := ⟨.hbm, 434, rfl⟩
abbrev main_c_82 : Ref sig .tc := ⟨.hbm, 435, rfl⟩
abbrev main_v327 : Ref sig .tc := ⟨.hbm, 436, rfl⟩
abbrev main_v328 : Ref sig .tc := ⟨.hbm, 437, rfl⟩
abbrev main_c_83 : Ref sig .tc := ⟨.hbm, 438, rfl⟩
abbrev main_v329 : Ref sig .tc := ⟨.hbm, 439, rfl⟩
abbrev main_v330 : Ref sig .tc := ⟨.hbm, 440, rfl⟩
abbrev main_v331 : Ref sig .tc := ⟨.hbm, 441, rfl⟩
abbrev main_v332 : Ref sig .tc := ⟨.hbm, 442, rfl⟩
abbrev main_v333 : Ref sig .tc := ⟨.hbm, 443, rfl⟩
abbrev main_c_84 : Ref sig .tc := ⟨.hbm, 444, rfl⟩
abbrev main_v334 : Ref sig .tc := ⟨.hbm, 445, rfl⟩
abbrev main_v335 : Ref sig .tc := ⟨.hbm, 446, rfl⟩
abbrev main_c_85 : Ref sig .tc := ⟨.hbm, 447, rfl⟩
abbrev main_v336 : Ref sig .tc := ⟨.hbm, 448, rfl⟩
abbrev main_v337 : Ref sig .tc := ⟨.hbm, 449, rfl⟩
abbrev main_v338 : Ref sig .tc := ⟨.hbm, 450, rfl⟩
abbrev main_v339 : Ref sig .tc := ⟨.hbm, 451, rfl⟩
abbrev main_v340 : Ref sig .tc := ⟨.hbm, 452, rfl⟩
abbrev main_v341 : Ref sig .tc := ⟨.hbm, 453, rfl⟩
abbrev main_c_86 : Ref sig .tc := ⟨.hbm, 454, rfl⟩
abbrev main_v342 : Ref sig .tc := ⟨.hbm, 455, rfl⟩
abbrev main_v343 : Ref sig .tc := ⟨.hbm, 456, rfl⟩
abbrev main_c_87 : Ref sig .tc := ⟨.hbm, 457, rfl⟩
abbrev main_v344 : Ref sig .tc := ⟨.hbm, 458, rfl⟩
abbrev main_v345 : Ref sig .tc := ⟨.hbm, 459, rfl⟩
abbrev main_v346 : Ref sig .tc := ⟨.hbm, 460, rfl⟩
abbrev main_v347 : Ref sig .tc := ⟨.hbm, 461, rfl⟩
abbrev main_v348 : Ref sig .tc := ⟨.hbm, 462, rfl⟩
abbrev main_v349 : Ref sig .tc := ⟨.hbm, 463, rfl⟩
abbrev main_v350 : Ref sig .tc := ⟨.hbm, 464, rfl⟩
abbrev main_cst_88 : Ref sig .tc := ⟨.hbm, 465, rfl⟩
abbrev main_v351 : Ref sig .tc := ⟨.hbm, 466, rfl⟩
abbrev main_v352 : Ref sig .tc := ⟨.hbm, 467, rfl⟩
abbrev main_v353 : Ref sig .tc := ⟨.hbm, 468, rfl⟩
abbrev main_c_89 : Ref sig .tc := ⟨.hbm, 469, rfl⟩
abbrev main_v354 : Ref sig .tc := ⟨.hbm, 470, rfl⟩
abbrev main_v355 : Ref sig .tc := ⟨.hbm, 471, rfl⟩
abbrev main_c_90 : Ref sig .tc := ⟨.hbm, 472, rfl⟩
abbrev main_v356 : Ref sig .tc := ⟨.hbm, 473, rfl⟩
abbrev main_v357 : Ref sig .tc := ⟨.hbm, 474, rfl⟩
abbrev main_v358 : Ref sig .tc := ⟨.hbm, 475, rfl⟩
abbrev main_v359 : Ref sig .tc := ⟨.hbm, 476, rfl⟩
abbrev main_v360 : Ref sig .tc := ⟨.hbm, 477, rfl⟩
abbrev main_c_91 : Ref sig .tc := ⟨.hbm, 478, rfl⟩
abbrev main_v361 : Ref sig .tc := ⟨.hbm, 479, rfl⟩
abbrev main_v362 : Ref sig .tc := ⟨.hbm, 480, rfl⟩
abbrev main_c_92 : Ref sig .tc := ⟨.hbm, 481, rfl⟩
abbrev main_v363 : Ref sig .tc := ⟨.hbm, 482, rfl⟩
abbrev main_v364 : Ref sig .tc := ⟨.hbm, 483, rfl⟩
abbrev main_v365 : Ref sig .tc := ⟨.hbm, 484, rfl⟩
abbrev main_v366 : Ref sig .tc := ⟨.hbm, 485, rfl⟩
abbrev main_v367 : Ref sig .tc := ⟨.hbm, 486, rfl⟩
abbrev main_c_93 : Ref sig .tc := ⟨.hbm, 487, rfl⟩
abbrev main_v368 : Ref sig .tc := ⟨.hbm, 488, rfl⟩
abbrev main_v369 : Ref sig .tc := ⟨.hbm, 489, rfl⟩
abbrev main_c_94 : Ref sig .tc := ⟨.hbm, 490, rfl⟩
abbrev main_v370 : Ref sig .tc := ⟨.hbm, 491, rfl⟩
abbrev main_v371 : Ref sig .tc := ⟨.hbm, 492, rfl⟩
abbrev main_v372 : Ref sig .tc := ⟨.hbm, 493, rfl⟩
abbrev main_v373 : Ref sig .tc := ⟨.hbm, 494, rfl⟩
abbrev main_v374 : Ref sig .tc := ⟨.hbm, 495, rfl⟩
abbrev main_v375 : Ref sig .tc := ⟨.hbm, 496, rfl⟩
abbrev main_c_95 : Ref sig .tc := ⟨.hbm, 497, rfl⟩
abbrev main_v376 : Ref sig .tc := ⟨.hbm, 498, rfl⟩
abbrev main_v377 : Ref sig .tc := ⟨.hbm, 499, rfl⟩
abbrev main_c_96 : Ref sig .tc := ⟨.hbm, 500, rfl⟩
abbrev main_v378 : Ref sig .tc := ⟨.hbm, 501, rfl⟩
abbrev main_v379 : Ref sig .tc := ⟨.hbm, 502, rfl⟩
abbrev main_v380 : Ref sig .tc := ⟨.hbm, 503, rfl⟩
abbrev main_v381 : Ref sig .tc := ⟨.hbm, 504, rfl⟩
abbrev main_v382 : Ref sig .tc := ⟨.hbm, 505, rfl⟩
abbrev main_v383 : Ref sig .tc := ⟨.hbm, 506, rfl⟩
abbrev main_v384 : Ref sig .tc := ⟨.hbm, 507, rfl⟩
abbrev main_cst_97 : Ref sig .tc := ⟨.hbm, 508, rfl⟩
abbrev main_v385 : Ref sig .tc := ⟨.hbm, 509, rfl⟩
abbrev main_v386 : Ref sig .tc := ⟨.hbm, 510, rfl⟩
abbrev main_v387 : Ref sig .tc := ⟨.hbm, 511, rfl⟩
abbrev main_c_98 : Ref sig .tc := ⟨.hbm, 512, rfl⟩
abbrev main_v388 : Ref sig .tc := ⟨.hbm, 513, rfl⟩
abbrev main_v389 : Ref sig .tc := ⟨.hbm, 514, rfl⟩
abbrev main_c_99 : Ref sig .tc := ⟨.hbm, 515, rfl⟩
abbrev main_v390 : Ref sig .tc := ⟨.hbm, 516, rfl⟩
abbrev main_v391 : Ref sig .tc := ⟨.hbm, 517, rfl⟩
abbrev main_v392 : Ref sig .tc := ⟨.hbm, 518, rfl⟩
abbrev main_v393 : Ref sig .tc := ⟨.hbm, 519, rfl⟩
abbrev main_v394 : Ref sig .tc := ⟨.hbm, 520, rfl⟩
abbrev main_c_100 : Ref sig .tc := ⟨.hbm, 521, rfl⟩
abbrev main_v395 : Ref sig .tc := ⟨.hbm, 522, rfl⟩
abbrev main_v396 : Ref sig .tc := ⟨.hbm, 523, rfl⟩
abbrev main_c_101 : Ref sig .tc := ⟨.hbm, 524, rfl⟩
abbrev main_v397 : Ref sig .tc := ⟨.hbm, 525, rfl⟩
abbrev main_v398 : Ref sig .tc := ⟨.hbm, 526, rfl⟩
abbrev main_v399 : Ref sig .tc := ⟨.hbm, 527, rfl⟩
abbrev main_v400 : Ref sig .tc := ⟨.hbm, 528, rfl⟩
abbrev main_v401 : Ref sig .tc := ⟨.hbm, 529, rfl⟩
abbrev main_c_102 : Ref sig .tc := ⟨.hbm, 530, rfl⟩
abbrev main_v402 : Ref sig .tc := ⟨.hbm, 531, rfl⟩
abbrev main_v403 : Ref sig .tc := ⟨.hbm, 532, rfl⟩
abbrev main_c_103 : Ref sig .tc := ⟨.hbm, 533, rfl⟩
abbrev main_v404 : Ref sig .tc := ⟨.hbm, 534, rfl⟩
abbrev main_v405 : Ref sig .tc := ⟨.hbm, 535, rfl⟩
abbrev main_v406 : Ref sig .tc := ⟨.hbm, 536, rfl⟩
abbrev main_v407 : Ref sig .tc := ⟨.hbm, 537, rfl⟩
abbrev main_v408 : Ref sig .tc := ⟨.hbm, 538, rfl⟩
abbrev main_v409 : Ref sig .tc := ⟨.hbm, 539, rfl⟩
abbrev main_c_104 : Ref sig .tc := ⟨.hbm, 540, rfl⟩
abbrev main_v410 : Ref sig .tc := ⟨.hbm, 541, rfl⟩
abbrev main_v411 : Ref sig .tc := ⟨.hbm, 542, rfl⟩
abbrev main_c_105 : Ref sig .tc := ⟨.hbm, 543, rfl⟩
abbrev main_v412 : Ref sig .tc := ⟨.hbm, 544, rfl⟩
abbrev main_v413 : Ref sig .tc := ⟨.hbm, 545, rfl⟩
abbrev main_v414 : Ref sig .tc := ⟨.hbm, 546, rfl⟩
abbrev main_v415 : Ref sig .tc := ⟨.hbm, 547, rfl⟩
abbrev main_v416 : Ref sig .tc := ⟨.hbm, 548, rfl⟩
abbrev main_v417 : Ref sig .tc := ⟨.hbm, 549, rfl⟩
abbrev main_v418 : Ref sig .tc := ⟨.hbm, 550, rfl⟩
abbrev main_cst_106 : Ref sig .tc := ⟨.hbm, 551, rfl⟩
abbrev main_v419 : Ref sig .tc := ⟨.hbm, 552, rfl⟩
abbrev main_v420 : Ref sig .tc := ⟨.hbm, 553, rfl⟩
abbrev main_v421 : Ref sig .tc := ⟨.hbm, 554, rfl⟩
abbrev main_c_107 : Ref sig .tc := ⟨.hbm, 555, rfl⟩
abbrev main_v422 : Ref sig .tc := ⟨.hbm, 556, rfl⟩
abbrev main_v423 : Ref sig .tc := ⟨.hbm, 557, rfl⟩
abbrev main_c_108 : Ref sig .tc := ⟨.hbm, 558, rfl⟩
abbrev main_v424 : Ref sig .tc := ⟨.hbm, 559, rfl⟩
abbrev main_v425 : Ref sig .tc := ⟨.hbm, 560, rfl⟩
abbrev main_v426 : Ref sig .tc := ⟨.hbm, 561, rfl⟩
abbrev main_v427 : Ref sig .tc := ⟨.hbm, 562, rfl⟩
abbrev main_v428 : Ref sig .tc := ⟨.hbm, 563, rfl⟩
abbrev main_c_109 : Ref sig .tc := ⟨.hbm, 564, rfl⟩
abbrev main_v429 : Ref sig .tc := ⟨.hbm, 565, rfl⟩
abbrev main_v430 : Ref sig .tc := ⟨.hbm, 566, rfl⟩
abbrev main_c_110 : Ref sig .tc := ⟨.hbm, 567, rfl⟩
abbrev main_v431 : Ref sig .tc := ⟨.hbm, 568, rfl⟩
abbrev main_v432 : Ref sig .tc := ⟨.hbm, 569, rfl⟩
abbrev main_v433 : Ref sig .tc := ⟨.hbm, 570, rfl⟩
abbrev main_v434 : Ref sig .tc := ⟨.hbm, 571, rfl⟩
abbrev main_v435 : Ref sig .tc := ⟨.hbm, 572, rfl⟩
abbrev main_c_111 : Ref sig .tc := ⟨.hbm, 573, rfl⟩
abbrev main_v436 : Ref sig .tc := ⟨.hbm, 574, rfl⟩
abbrev main_v437 : Ref sig .tc := ⟨.hbm, 575, rfl⟩
abbrev main_c_112 : Ref sig .tc := ⟨.hbm, 576, rfl⟩
abbrev main_v438 : Ref sig .tc := ⟨.hbm, 577, rfl⟩
abbrev main_v439 : Ref sig .tc := ⟨.hbm, 578, rfl⟩
abbrev main_v440 : Ref sig .tc := ⟨.hbm, 579, rfl⟩
abbrev main_v441 : Ref sig .tc := ⟨.hbm, 580, rfl⟩
abbrev main_v442 : Ref sig .tc := ⟨.hbm, 581, rfl⟩
abbrev main_v443 : Ref sig .tc := ⟨.hbm, 582, rfl⟩
abbrev main_c_113 : Ref sig .tc := ⟨.hbm, 583, rfl⟩
abbrev main_v444 : Ref sig .tc := ⟨.hbm, 584, rfl⟩
abbrev main_v445 : Ref sig .tc := ⟨.hbm, 585, rfl⟩
abbrev main_c_114 : Ref sig .tc := ⟨.hbm, 586, rfl⟩
abbrev main_v446 : Ref sig .tc := ⟨.hbm, 587, rfl⟩
abbrev main_v447 : Ref sig .tc := ⟨.hbm, 588, rfl⟩
abbrev main_v448 : Ref sig .tc := ⟨.hbm, 589, rfl⟩
abbrev main_v449 : Ref sig .tc := ⟨.hbm, 590, rfl⟩
abbrev main_v450 : Ref sig .tc := ⟨.hbm, 591, rfl⟩
abbrev main_v451 : Ref sig .tc := ⟨.hbm, 592, rfl⟩
abbrev main_v452 : Ref sig .tc := ⟨.hbm, 593, rfl⟩
abbrev main_cst_115 : Ref sig .tc := ⟨.hbm, 594, rfl⟩
abbrev main_v453 : Ref sig .tc := ⟨.hbm, 595, rfl⟩
abbrev main_v454 : Ref sig .tc := ⟨.hbm, 596, rfl⟩
abbrev main_v455 : Ref sig .tc := ⟨.hbm, 597, rfl⟩
abbrev main_v456 : Ref sig .tc := ⟨.hbm, 598, rfl⟩
abbrev main_v457 : Ref sig .tc := ⟨.hbm, 599, rfl⟩
abbrev main_v458 : Ref sig .tc := ⟨.hbm, 600, rfl⟩
abbrev main_v459 : Ref sig .tc := ⟨.hbm, 601, rfl⟩
abbrev main_v460 : Ref sig .tc := ⟨.hbm, 602, rfl⟩
abbrev main_v461 : Ref sig .tc := ⟨.hbm, 603, rfl⟩
abbrev main_v462 : Ref sig .tc := ⟨.hbm, 604, rfl⟩
abbrev main_v463 : Ref sig .tc := ⟨.hbm, 605, rfl⟩
abbrev main_v464 : Ref sig .tc := ⟨.hbm, 606, rfl⟩
abbrev main_v465 : Ref sig .tc := ⟨.hbm, 607, rfl⟩
abbrev main_v466 : Ref sig .tc := ⟨.hbm, 608, rfl⟩
abbrev main_v467 : Ref sig .tc := ⟨.hbm, 609, rfl⟩
abbrev main_v468 : Ref sig .tc := ⟨.hbm, 610, rfl⟩
abbrev main_v469 : Ref sig .tc := ⟨.hbm, 611, rfl⟩
abbrev main_c_116 : Ref sig .tc := ⟨.hbm, 612, rfl⟩
abbrev main_v470 : Ref sig .tc := ⟨.hbm, 613, rfl⟩
abbrev main_v471 : Ref sig .tc := ⟨.hbm, 614, rfl⟩
abbrev main_c_117 : Ref sig .tc := ⟨.hbm, 615, rfl⟩
abbrev main_v472 : Ref sig .tc := ⟨.hbm, 616, rfl⟩
abbrev main_v473 : Ref sig .tc := ⟨.hbm, 617, rfl⟩
abbrev main_v474 : Ref sig .tc := ⟨.hbm, 618, rfl⟩
abbrev main_v475 : Ref sig .tc := ⟨.hbm, 619, rfl⟩
abbrev main_v476 : Ref sig .tc := ⟨.hbm, 620, rfl⟩
abbrev main_c_118 : Ref sig .tc := ⟨.hbm, 621, rfl⟩
abbrev main_v477 : Ref sig .tc := ⟨.hbm, 622, rfl⟩
abbrev main_v478 : Ref sig .tc := ⟨.hbm, 623, rfl⟩
abbrev main_c_119 : Ref sig .tc := ⟨.hbm, 624, rfl⟩
abbrev main_v479 : Ref sig .tc := ⟨.hbm, 625, rfl⟩
abbrev main_v480 : Ref sig .tc := ⟨.hbm, 626, rfl⟩
abbrev main_v481 : Ref sig .tc := ⟨.hbm, 627, rfl⟩
abbrev main_v482 : Ref sig .tc := ⟨.hbm, 628, rfl⟩
abbrev main_v483 : Ref sig .tc := ⟨.hbm, 629, rfl⟩
abbrev main_c_120 : Ref sig .tc := ⟨.hbm, 630, rfl⟩
abbrev main_v484 : Ref sig .tc := ⟨.hbm, 631, rfl⟩
abbrev main_v485 : Ref sig .tc := ⟨.hbm, 632, rfl⟩
abbrev main_c_121 : Ref sig .tc := ⟨.hbm, 633, rfl⟩
abbrev main_v486 : Ref sig .tc := ⟨.hbm, 634, rfl⟩
abbrev main_v487 : Ref sig .tc := ⟨.hbm, 635, rfl⟩
abbrev main_v488 : Ref sig .tc := ⟨.hbm, 636, rfl⟩
abbrev main_v489 : Ref sig .tc := ⟨.hbm, 637, rfl⟩
abbrev main_v490 : Ref sig .tc := ⟨.hbm, 638, rfl⟩
abbrev main_v491 : Ref sig .tc := ⟨.hbm, 639, rfl⟩
abbrev main_c_122 : Ref sig .tc := ⟨.hbm, 640, rfl⟩
abbrev main_v492 : Ref sig .tc := ⟨.hbm, 641, rfl⟩
abbrev main_v493 : Ref sig .tc := ⟨.hbm, 642, rfl⟩
abbrev main_c_123 : Ref sig .tc := ⟨.hbm, 643, rfl⟩
abbrev main_v494 : Ref sig .tc := ⟨.hbm, 644, rfl⟩
abbrev main_v495 : Ref sig .tc := ⟨.hbm, 645, rfl⟩
abbrev main_v496 : Ref sig .tc := ⟨.hbm, 646, rfl⟩
abbrev main_v497 : Ref sig .tc := ⟨.hbm, 647, rfl⟩
abbrev main_v498 : Ref sig .tc := ⟨.hbm, 648, rfl⟩
abbrev main_v499 : Ref sig .tc := ⟨.hbm, 649, rfl⟩
abbrev main_v500 : Ref sig .tc := ⟨.hbm, 650, rfl⟩
abbrev main_cst_124 : Ref sig .tc := ⟨.hbm, 651, rfl⟩
abbrev main_v501 : Ref sig .tc := ⟨.hbm, 652, rfl⟩
abbrev main_v502 : Ref sig .tc := ⟨.hbm, 653, rfl⟩
abbrev main_v503 : Ref sig .tc := ⟨.hbm, 654, rfl⟩
abbrev main_c_125 : Ref sig .tc := ⟨.hbm, 655, rfl⟩
abbrev main_v504 : Ref sig .tc := ⟨.hbm, 656, rfl⟩
abbrev main_v505 : Ref sig .tc := ⟨.hbm, 657, rfl⟩
abbrev main_c_126 : Ref sig .tc := ⟨.hbm, 658, rfl⟩
abbrev main_v506 : Ref sig .tc := ⟨.hbm, 659, rfl⟩
abbrev main_v507 : Ref sig .tc := ⟨.hbm, 660, rfl⟩
abbrev main_v508 : Ref sig .tc := ⟨.hbm, 661, rfl⟩
abbrev main_v509 : Ref sig .tc := ⟨.hbm, 662, rfl⟩
abbrev main_v510 : Ref sig .tc := ⟨.hbm, 663, rfl⟩
abbrev main_c_127 : Ref sig .tc := ⟨.hbm, 664, rfl⟩
abbrev main_v511 : Ref sig .tc := ⟨.hbm, 665, rfl⟩
abbrev main_v512 : Ref sig .tc := ⟨.hbm, 666, rfl⟩
abbrev main_c_128 : Ref sig .tc := ⟨.hbm, 667, rfl⟩
abbrev main_v513 : Ref sig .tc := ⟨.hbm, 668, rfl⟩
abbrev main_v514 : Ref sig .tc := ⟨.hbm, 669, rfl⟩
abbrev main_v515 : Ref sig .tc := ⟨.hbm, 670, rfl⟩
abbrev main_v516 : Ref sig .tc := ⟨.hbm, 671, rfl⟩
abbrev main_v517 : Ref sig .tc := ⟨.hbm, 672, rfl⟩
abbrev main_c_129 : Ref sig .tc := ⟨.hbm, 673, rfl⟩
abbrev main_v518 : Ref sig .tc := ⟨.hbm, 674, rfl⟩
abbrev main_v519 : Ref sig .tc := ⟨.hbm, 675, rfl⟩
abbrev main_c_130 : Ref sig .tc := ⟨.hbm, 676, rfl⟩
abbrev main_v520 : Ref sig .tc := ⟨.hbm, 677, rfl⟩
abbrev main_v521 : Ref sig .tc := ⟨.hbm, 678, rfl⟩
abbrev main_v522 : Ref sig .tc := ⟨.hbm, 679, rfl⟩
abbrev main_v523 : Ref sig .tc := ⟨.hbm, 680, rfl⟩
abbrev main_v524 : Ref sig .tc := ⟨.hbm, 681, rfl⟩
abbrev main_v525 : Ref sig .tc := ⟨.hbm, 682, rfl⟩
abbrev main_c_131 : Ref sig .tc := ⟨.hbm, 683, rfl⟩
abbrev main_v526 : Ref sig .tc := ⟨.hbm, 684, rfl⟩
abbrev main_v527 : Ref sig .tc := ⟨.hbm, 685, rfl⟩
abbrev main_c_132 : Ref sig .tc := ⟨.hbm, 686, rfl⟩
abbrev main_v528 : Ref sig .tc := ⟨.hbm, 687, rfl⟩
abbrev main_v529 : Ref sig .tc := ⟨.hbm, 688, rfl⟩
abbrev main_v530 : Ref sig .tc := ⟨.hbm, 689, rfl⟩
abbrev main_v531 : Ref sig .tc := ⟨.hbm, 690, rfl⟩
abbrev main_v532 : Ref sig .tc := ⟨.hbm, 691, rfl⟩
abbrev main_v533 : Ref sig .tc := ⟨.hbm, 692, rfl⟩
abbrev main_v534 : Ref sig .tc := ⟨.hbm, 693, rfl⟩
abbrev main_cst_133 : Ref sig .tc := ⟨.hbm, 694, rfl⟩
abbrev main_v535 : Ref sig .tc := ⟨.hbm, 695, rfl⟩
abbrev main_v536 : Ref sig .tc := ⟨.hbm, 696, rfl⟩
abbrev main_v537 : Ref sig .tc := ⟨.hbm, 697, rfl⟩
abbrev main_c_134 : Ref sig .tc := ⟨.hbm, 698, rfl⟩
abbrev main_v538 : Ref sig .tc := ⟨.hbm, 699, rfl⟩
abbrev main_v539 : Ref sig .tc := ⟨.hbm, 700, rfl⟩
abbrev main_c_135 : Ref sig .tc := ⟨.hbm, 701, rfl⟩
abbrev main_v540 : Ref sig .tc := ⟨.hbm, 702, rfl⟩
abbrev main_v541 : Ref sig .tc := ⟨.hbm, 703, rfl⟩
abbrev main_v542 : Ref sig .tc := ⟨.hbm, 704, rfl⟩
abbrev main_v543 : Ref sig .tc := ⟨.hbm, 705, rfl⟩
abbrev main_v544 : Ref sig .tc := ⟨.hbm, 706, rfl⟩
abbrev main_c_136 : Ref sig .tc := ⟨.hbm, 707, rfl⟩
abbrev main_v545 : Ref sig .tc := ⟨.hbm, 708, rfl⟩
abbrev main_v546 : Ref sig .tc := ⟨.hbm, 709, rfl⟩
abbrev main_c_137 : Ref sig .tc := ⟨.hbm, 710, rfl⟩
abbrev main_v547 : Ref sig .tc := ⟨.hbm, 711, rfl⟩
abbrev main_v548 : Ref sig .tc := ⟨.hbm, 712, rfl⟩
abbrev main_v549 : Ref sig .tc := ⟨.hbm, 713, rfl⟩
abbrev main_v550 : Ref sig .tc := ⟨.hbm, 714, rfl⟩
abbrev main_v551 : Ref sig .tc := ⟨.hbm, 715, rfl⟩
abbrev main_c_138 : Ref sig .tc := ⟨.hbm, 716, rfl⟩
abbrev main_v552 : Ref sig .tc := ⟨.hbm, 717, rfl⟩
abbrev main_v553 : Ref sig .tc := ⟨.hbm, 718, rfl⟩
abbrev main_c_139 : Ref sig .tc := ⟨.hbm, 719, rfl⟩
abbrev main_v554 : Ref sig .tc := ⟨.hbm, 720, rfl⟩
abbrev main_v555 : Ref sig .tc := ⟨.hbm, 721, rfl⟩
abbrev main_v556 : Ref sig .tc := ⟨.hbm, 722, rfl⟩
abbrev main_v557 : Ref sig .tc := ⟨.hbm, 723, rfl⟩
abbrev main_v558 : Ref sig .tc := ⟨.hbm, 724, rfl⟩
abbrev main_v559 : Ref sig .tc := ⟨.hbm, 725, rfl⟩
abbrev main_c_140 : Ref sig .tc := ⟨.hbm, 726, rfl⟩
abbrev main_v560 : Ref sig .tc := ⟨.hbm, 727, rfl⟩
abbrev main_v561 : Ref sig .tc := ⟨.hbm, 728, rfl⟩
abbrev main_c_141 : Ref sig .tc := ⟨.hbm, 729, rfl⟩
abbrev main_v562 : Ref sig .tc := ⟨.hbm, 730, rfl⟩
abbrev main_v563 : Ref sig .tc := ⟨.hbm, 731, rfl⟩
abbrev main_v564 : Ref sig .tc := ⟨.hbm, 732, rfl⟩
abbrev main_v565 : Ref sig .tc := ⟨.hbm, 733, rfl⟩
abbrev main_v566 : Ref sig .tc := ⟨.hbm, 734, rfl⟩
abbrev main_v567 : Ref sig .tc := ⟨.hbm, 735, rfl⟩
abbrev main_v568 : Ref sig .tc := ⟨.hbm, 736, rfl⟩
abbrev main_cst_142 : Ref sig .tc := ⟨.hbm, 737, rfl⟩
abbrev main_v569 : Ref sig .tc := ⟨.hbm, 738, rfl⟩
abbrev main_v570 : Ref sig .tc := ⟨.hbm, 739, rfl⟩
abbrev main_v571 : Ref sig .tc := ⟨.hbm, 740, rfl⟩
abbrev main_c_143 : Ref sig .tc := ⟨.hbm, 741, rfl⟩
abbrev main_v572 : Ref sig .tc := ⟨.hbm, 742, rfl⟩
abbrev main_v573 : Ref sig .tc := ⟨.hbm, 743, rfl⟩
abbrev main_c_144 : Ref sig .tc := ⟨.hbm, 744, rfl⟩
abbrev main_v574 : Ref sig .tc := ⟨.hbm, 745, rfl⟩
abbrev main_v575 : Ref sig .tc := ⟨.hbm, 746, rfl⟩
abbrev main_v576 : Ref sig .tc := ⟨.hbm, 747, rfl⟩
abbrev main_v577 : Ref sig .tc := ⟨.hbm, 748, rfl⟩
abbrev main_v578 : Ref sig .tc := ⟨.hbm, 749, rfl⟩
abbrev main_c_145 : Ref sig .tc := ⟨.hbm, 750, rfl⟩
abbrev main_v579 : Ref sig .tc := ⟨.hbm, 751, rfl⟩
abbrev main_v580 : Ref sig .tc := ⟨.hbm, 752, rfl⟩
abbrev main_c_146 : Ref sig .tc := ⟨.hbm, 753, rfl⟩
abbrev main_v581 : Ref sig .tc := ⟨.hbm, 754, rfl⟩
abbrev main_v582 : Ref sig .tc := ⟨.hbm, 755, rfl⟩
abbrev main_v583 : Ref sig .tc := ⟨.hbm, 756, rfl⟩
abbrev main_v584 : Ref sig .tc := ⟨.hbm, 757, rfl⟩
abbrev main_v585 : Ref sig .tc := ⟨.hbm, 758, rfl⟩
abbrev main_c_147 : Ref sig .tc := ⟨.hbm, 759, rfl⟩
abbrev main_v586 : Ref sig .tc := ⟨.hbm, 760, rfl⟩
abbrev main_v587 : Ref sig .tc := ⟨.hbm, 761, rfl⟩
abbrev main_c_148 : Ref sig .tc := ⟨.hbm, 762, rfl⟩
abbrev main_v588 : Ref sig .tc := ⟨.hbm, 763, rfl⟩
abbrev main_v589 : Ref sig .tc := ⟨.hbm, 764, rfl⟩
abbrev main_v590 : Ref sig .tc := ⟨.hbm, 765, rfl⟩
abbrev main_v591 : Ref sig .tc := ⟨.hbm, 766, rfl⟩
abbrev main_v592 : Ref sig .tc := ⟨.hbm, 767, rfl⟩
abbrev main_v593 : Ref sig .tc := ⟨.hbm, 768, rfl⟩
abbrev main_c_149 : Ref sig .tc := ⟨.hbm, 769, rfl⟩
abbrev main_v594 : Ref sig .tc := ⟨.hbm, 770, rfl⟩
abbrev main_v595 : Ref sig .tc := ⟨.hbm, 771, rfl⟩
abbrev main_c_150 : Ref sig .tc := ⟨.hbm, 772, rfl⟩
abbrev main_v596 : Ref sig .tc := ⟨.hbm, 773, rfl⟩
abbrev main_v597 : Ref sig .tc := ⟨.hbm, 774, rfl⟩
abbrev main_v598 : Ref sig .tc := ⟨.hbm, 775, rfl⟩
abbrev main_v599 : Ref sig .tc := ⟨.hbm, 776, rfl⟩
abbrev main_v600 : Ref sig .tc := ⟨.hbm, 777, rfl⟩
abbrev main_v601 : Ref sig .tc := ⟨.hbm, 778, rfl⟩
abbrev main_v602 : Ref sig .tc := ⟨.hbm, 779, rfl⟩
abbrev main_cst_151 : Ref sig .tc := ⟨.hbm, 780, rfl⟩
abbrev main_v603 : Ref sig .tc := ⟨.hbm, 781, rfl⟩
abbrev main_v604 : Ref sig .tc := ⟨.hbm, 782, rfl⟩
abbrev main_v605 : Ref sig .tc := ⟨.hbm, 783, rfl⟩
abbrev main_v606 : Ref sig .tc := ⟨.hbm, 784, rfl⟩
abbrev main_v607 : Ref sig .tc := ⟨.hbm, 785, rfl⟩
abbrev main_v608 : Ref sig .tc := ⟨.hbm, 786, rfl⟩
abbrev main_v609 : Ref sig .tc := ⟨.hbm, 787, rfl⟩
abbrev main_v610 : Ref sig .tc := ⟨.hbm, 788, rfl⟩
abbrev main_v611 : Ref sig .tc := ⟨.hbm, 789, rfl⟩
abbrev main_v612 : Ref sig .tc := ⟨.hbm, 790, rfl⟩
abbrev main_v613 : Ref sig .tc := ⟨.hbm, 791, rfl⟩
abbrev main_v614 : Ref sig .tc := ⟨.hbm, 792, rfl⟩
abbrev main_v615 : Ref sig .tc := ⟨.hbm, 793, rfl⟩
abbrev main_v616 : Ref sig .tc := ⟨.hbm, 794, rfl⟩
abbrev main_v617 : Ref sig .tc := ⟨.hbm, 795, rfl⟩
abbrev main_v618 : Ref sig .tc := ⟨.hbm, 796, rfl⟩
abbrev main_v619 : Ref sig .tc := ⟨.hbm, 797, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg4_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg3_1 : Ref sig .tc := ⟨.vmem, 49, rfl⟩
abbrev cc5_stg4_0 : Ref sig .tc := ⟨.vmem, 50, rfl⟩
abbrev cc5_stg4_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg3_1 : Ref sig .tc := ⟨.vmem, 57, rfl⟩
abbrev cc7_stg0_0 : Ref sig .tc := ⟨.vmem, 58, rfl⟩
abbrev cc7_stg0_1 : Ref sig .tc := ⟨.vmem, 59, rfl⟩
abbrev cc7_stg1_0 : Ref sig .tc := ⟨.vmem, 60, rfl⟩
abbrev cc7_stg2_0 : Ref sig .tc := ⟨.vmem, 61, rfl⟩
abbrev cc7_stg3_0 : Ref sig .tc := ⟨.vmem, 62, rfl⟩
abbrev cc7_stg3_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg1_1 : Ref sig .tc := ⟨.vmem, 67, rfl⟩
abbrev cc8_stg2_0 : Ref sig .tc := ⟨.vmem, 68, rfl⟩
abbrev cc8_stg2_1 : Ref sig .tc := ⟨.vmem, 69, rfl⟩
abbrev cc8_stg3_0 : Ref sig .tc := ⟨.vmem, 70, rfl⟩
abbrev cc8_stg3_1 : Ref sig .tc := ⟨.vmem, 71, rfl⟩
abbrev cc8_stg4_0 : Ref sig .tc := ⟨.vmem, 72, rfl⟩
abbrev cc8_stg4_1 : Ref sig .tc := ⟨.vmem, 73, rfl⟩
abbrev cc9_stg0_0 : Ref sig .tc := ⟨.vmem, 74, rfl⟩
abbrev cc9_stg0_1 : Ref sig .tc := ⟨.vmem, 75, rfl⟩
abbrev cc9_stg1_0 : Ref sig .tc := ⟨.vmem, 76, rfl⟩
abbrev cc9_stg1_1 : Ref sig .tc := ⟨.vmem, 77, rfl⟩
abbrev cc9_stg2_0 : Ref sig .tc := ⟨.vmem, 78, rfl⟩
abbrev cc9_stg2_1 : Ref sig .tc := ⟨.vmem, 79, rfl⟩
abbrev cc9_stg3_0 : Ref sig .tc := ⟨.vmem, 80, rfl⟩
abbrev cc9_stg3_1 : Ref sig .tc := ⟨.vmem, 81, rfl⟩
abbrev cc9_stg4_0 : Ref sig .tc := ⟨.vmem, 82, rfl⟩
abbrev cc9_stg4_1 : Ref sig .tc := ⟨.vmem, 83, rfl⟩
abbrev cc10_stg0_0 : Ref sig .tc := ⟨.vmem, 84, rfl⟩
abbrev cc10_stg0_1 : Ref sig .tc := ⟨.vmem, 85, rfl⟩
abbrev cc10_stg1_0 : Ref sig .tc := ⟨.vmem, 86, rfl⟩
abbrev cc10_stg1_1 : Ref sig .tc := ⟨.vmem, 87, rfl⟩
abbrev cc10_stg2_0 : Ref sig .tc := ⟨.vmem, 88, rfl⟩
abbrev cc10_stg2_1 : Ref sig .tc := ⟨.vmem, 89, rfl⟩
abbrev cc10_stg3_0 : Ref sig .tc := ⟨.vmem, 90, rfl⟩
abbrev cc10_stg3_1 : Ref sig .tc := ⟨.vmem, 91, rfl⟩
abbrev cc10_stg4_0 : Ref sig .tc := ⟨.vmem, 92, rfl⟩
abbrev cc10_stg4_1 : Ref sig .tc := ⟨.vmem, 93, rfl⟩
abbrev cc11_stg0_0 : Ref sig .tc := ⟨.vmem, 94, rfl⟩
abbrev cc11_stg0_1 : Ref sig .tc := ⟨.vmem, 95, rfl⟩
abbrev cc11_stg1_0 : Ref sig .tc := ⟨.vmem, 96, rfl⟩
abbrev cc11_stg1_1 : Ref sig .tc := ⟨.vmem, 97, rfl⟩
abbrev cc11_stg2_0 : Ref sig .tc := ⟨.vmem, 98, rfl⟩
abbrev cc11_stg2_1 : Ref sig .tc := ⟨.vmem, 99, rfl⟩
abbrev cc11_stg3_0 : Ref sig .tc := ⟨.vmem, 100, rfl⟩
abbrev cc11_stg3_1 : Ref sig .tc := ⟨.vmem, 101, rfl⟩
abbrev cc11_stg4_0 : Ref sig .tc := ⟨.vmem, 102, rfl⟩
abbrev cc11_stg4_1 : Ref sig .tc := ⟨.vmem, 103, rfl⟩
abbrev cc12_stg0_0 : Ref sig .tc := ⟨.vmem, 104, rfl⟩
abbrev cc12_stg0_1 : Ref sig .tc := ⟨.vmem, 105, rfl⟩
abbrev cc12_stg1_0 : Ref sig .tc := ⟨.vmem, 106, rfl⟩
abbrev cc12_stg2_0 : Ref sig .tc := ⟨.vmem, 107, rfl⟩
abbrev cc12_stg3_0 : Ref sig .tc := ⟨.vmem, 108, rfl⟩
abbrev cc12_stg3_1 : Ref sig .tc := ⟨.vmem, 109, rfl⟩
abbrev cc13_stg0_0 : Ref sig .tc := ⟨.vmem, 110, rfl⟩
abbrev cc13_stg0_1 : Ref sig .tc := ⟨.vmem, 111, rfl⟩
abbrev cc13_stg1_0 : Ref sig .tc := ⟨.vmem, 112, rfl⟩
abbrev cc13_stg2_0 : Ref sig .tc := ⟨.vmem, 113, rfl⟩
abbrev cc13_stg3_0 : Ref sig .tc := ⟨.vmem, 114, rfl⟩
abbrev cc13_stg3_1 : Ref sig .tc := ⟨.vmem, 115, rfl⟩
abbrev cc14_stg0_0 : Ref sig .tc := ⟨.vmem, 116, rfl⟩
abbrev cc14_stg0_1 : Ref sig .tc := ⟨.vmem, 117, rfl⟩
abbrev cc14_stg1_0 : Ref sig .tc := ⟨.vmem, 118, rfl⟩
abbrev cc14_stg1_1 : Ref sig .tc := ⟨.vmem, 119, rfl⟩
abbrev cc14_stg2_0 : Ref sig .tc := ⟨.vmem, 120, rfl⟩
abbrev cc14_stg2_1 : Ref sig .tc := ⟨.vmem, 121, rfl⟩
abbrev cc14_stg3_0 : Ref sig .tc := ⟨.vmem, 122, rfl⟩
abbrev cc14_stg3_1 : Ref sig .tc := ⟨.vmem, 123, rfl⟩
abbrev cc14_stg4_0 : Ref sig .tc := ⟨.vmem, 124, rfl⟩
abbrev cc14_stg4_1 : Ref sig .tc := ⟨.vmem, 125, rfl⟩
abbrev cc15_stg0_0 : Ref sig .tc := ⟨.vmem, 126, rfl⟩
abbrev cc15_stg0_1 : Ref sig .tc := ⟨.vmem, 127, rfl⟩
abbrev cc15_stg1_0 : Ref sig .tc := ⟨.vmem, 128, rfl⟩
abbrev cc15_stg1_1 : Ref sig .tc := ⟨.vmem, 129, rfl⟩
abbrev cc15_stg2_0 : Ref sig .tc := ⟨.vmem, 130, rfl⟩
abbrev cc15_stg2_1 : Ref sig .tc := ⟨.vmem, 131, rfl⟩
abbrev cc15_stg3_0 : Ref sig .tc := ⟨.vmem, 132, rfl⟩
abbrev cc15_stg3_1 : Ref sig .tc := ⟨.vmem, 133, rfl⟩
abbrev cc15_stg4_0 : Ref sig .tc := ⟨.vmem, 134, rfl⟩
abbrev cc15_stg4_1 : Ref sig .tc := ⟨.vmem, 135, rfl⟩
abbrev cc16_stg0_0 : Ref sig .tc := ⟨.vmem, 136, rfl⟩
abbrev cc16_stg0_1 : Ref sig .tc := ⟨.vmem, 137, rfl⟩
abbrev cc16_stg1_0 : Ref sig .tc := ⟨.vmem, 138, rfl⟩
abbrev cc16_stg1_1 : Ref sig .tc := ⟨.vmem, 139, rfl⟩
abbrev cc16_stg2_0 : Ref sig .tc := ⟨.vmem, 140, rfl⟩
abbrev cc16_stg2_1 : Ref sig .tc := ⟨.vmem, 141, rfl⟩
abbrev cc16_stg3_0 : Ref sig .tc := ⟨.vmem, 142, rfl⟩
abbrev cc16_stg3_1 : Ref sig .tc := ⟨.vmem, 143, rfl⟩
abbrev cc16_stg4_0 : Ref sig .tc := ⟨.vmem, 144, rfl⟩
abbrev cc16_stg4_1 : Ref sig .tc := ⟨.vmem, 145, rfl⟩
abbrev cc17_stg0_0 : Ref sig .tc := ⟨.vmem, 146, rfl⟩
abbrev cc17_stg0_1 : Ref sig .tc := ⟨.vmem, 147, rfl⟩
abbrev cc17_stg1_0 : Ref sig .tc := ⟨.vmem, 148, rfl⟩
abbrev cc17_stg1_1 : Ref sig .tc := ⟨.vmem, 149, rfl⟩
abbrev cc17_stg2_0 : Ref sig .tc := ⟨.vmem, 150, rfl⟩
abbrev cc17_stg2_1 : Ref sig .tc := ⟨.vmem, 151, rfl⟩
abbrev cc17_stg3_0 : Ref sig .tc := ⟨.vmem, 152, rfl⟩
abbrev cc17_stg3_1 : Ref sig .tc := ⟨.vmem, 153, rfl⟩
abbrev cc17_stg4_0 : Ref sig .tc := ⟨.vmem, 154, rfl⟩
abbrev cc17_stg4_1 : Ref sig .tc := ⟨.vmem, 155, rfl⟩
abbrev cc18_stg0_0 : Ref sig .tc := ⟨.vmem, 156, rfl⟩
abbrev cc18_stg0_1 : Ref sig .tc := ⟨.vmem, 157, rfl⟩
abbrev cc18_stg1_0 : Ref sig .tc := ⟨.vmem, 158, rfl⟩
abbrev cc18_stg2_0 : Ref sig .tc := ⟨.vmem, 159, rfl⟩
abbrev cc18_stg3_0 : Ref sig .tc := ⟨.vmem, 160, rfl⟩
abbrev cc18_stg3_1 : Ref sig .tc := ⟨.vmem, 161, rfl⟩
abbrev cc19_stg0_0 : Ref sig .tc := ⟨.vmem, 162, rfl⟩
abbrev cc19_stg0_1 : Ref sig .tc := ⟨.vmem, 163, rfl⟩
abbrev cc19_stg1_0 : Ref sig .tc := ⟨.vmem, 164, rfl⟩
abbrev cc19_stg2_0 : Ref sig .tc := ⟨.vmem, 165, rfl⟩
abbrev cc19_stg3_0 : Ref sig .tc := ⟨.vmem, 166, rfl⟩
abbrev cc19_stg3_1 : Ref sig .tc := ⟨.vmem, 167, rfl⟩
abbrev cc20_stg0_0 : Ref sig .tc := ⟨.vmem, 168, rfl⟩
abbrev cc20_stg0_1 : Ref sig .tc := ⟨.vmem, 169, rfl⟩
abbrev cc20_stg1_0 : Ref sig .tc := ⟨.vmem, 170, rfl⟩
abbrev cc20_stg1_1 : Ref sig .tc := ⟨.vmem, 171, rfl⟩
abbrev cc20_stg2_0 : Ref sig .tc := ⟨.vmem, 172, rfl⟩
abbrev cc20_stg2_1 : Ref sig .tc := ⟨.vmem, 173, rfl⟩
abbrev cc20_stg3_0 : Ref sig .tc := ⟨.vmem, 174, rfl⟩
abbrev cc20_stg3_1 : Ref sig .tc := ⟨.vmem, 175, rfl⟩
abbrev cc20_stg4_0 : Ref sig .tc := ⟨.vmem, 176, rfl⟩
abbrev cc20_stg4_1 : Ref sig .tc := ⟨.vmem, 177, rfl⟩
abbrev cc21_stg0_0 : Ref sig .tc := ⟨.vmem, 178, rfl⟩
abbrev cc21_stg0_1 : Ref sig .tc := ⟨.vmem, 179, rfl⟩
abbrev cc21_stg1_0 : Ref sig .tc := ⟨.vmem, 180, rfl⟩
abbrev cc21_stg1_1 : Ref sig .tc := ⟨.vmem, 181, rfl⟩
abbrev cc21_stg2_0 : Ref sig .tc := ⟨.vmem, 182, rfl⟩
abbrev cc21_stg2_1 : Ref sig .tc := ⟨.vmem, 183, rfl⟩
abbrev cc21_stg3_0 : Ref sig .tc := ⟨.vmem, 184, rfl⟩
abbrev cc21_stg3_1 : Ref sig .tc := ⟨.vmem, 185, rfl⟩
abbrev cc21_stg4_0 : Ref sig .tc := ⟨.vmem, 186, rfl⟩
abbrev cc21_stg4_1 : Ref sig .tc := ⟨.vmem, 187, rfl⟩
abbrev cc22_stg0_0 : Ref sig .tc := ⟨.vmem, 188, rfl⟩
abbrev cc22_stg0_1 : Ref sig .tc := ⟨.vmem, 189, rfl⟩
abbrev cc22_stg1_0 : Ref sig .tc := ⟨.vmem, 190, rfl⟩
abbrev cc22_stg1_1 : Ref sig .tc := ⟨.vmem, 191, rfl⟩
abbrev cc22_stg2_0 : Ref sig .tc := ⟨.vmem, 192, rfl⟩
abbrev cc22_stg2_1 : Ref sig .tc := ⟨.vmem, 193, rfl⟩
abbrev cc22_stg3_0 : Ref sig .tc := ⟨.vmem, 194, rfl⟩
abbrev cc22_stg3_1 : Ref sig .tc := ⟨.vmem, 195, rfl⟩
abbrev cc22_stg4_0 : Ref sig .tc := ⟨.vmem, 196, rfl⟩
abbrev cc22_stg4_1 : Ref sig .tc := ⟨.vmem, 197, rfl⟩
abbrev cc23_stg0_0 : Ref sig .tc := ⟨.vmem, 198, rfl⟩
abbrev cc23_stg0_1 : Ref sig .tc := ⟨.vmem, 199, rfl⟩
abbrev cc23_stg1_0 : Ref sig .tc := ⟨.vmem, 200, rfl⟩
abbrev cc23_stg1_1 : Ref sig .tc := ⟨.vmem, 201, rfl⟩
abbrev cc23_stg2_0 : Ref sig .tc := ⟨.vmem, 202, rfl⟩
abbrev cc23_stg2_1 : Ref sig .tc := ⟨.vmem, 203, rfl⟩
abbrev cc23_stg3_0 : Ref sig .tc := ⟨.vmem, 204, rfl⟩
abbrev cc23_stg3_1 : Ref sig .tc := ⟨.vmem, 205, rfl⟩
abbrev cc23_stg4_0 : Ref sig .tc := ⟨.vmem, 206, rfl⟩
abbrev cc23_stg4_1 : Ref sig .tc := ⟨.vmem, 207, rfl⟩
abbrev cc24_stg0_0 : Ref sig .tc := ⟨.vmem, 208, rfl⟩
abbrev cc24_stg0_1 : Ref sig .tc := ⟨.vmem, 209, rfl⟩
abbrev cc24_stg1_0 : Ref sig .tc := ⟨.vmem, 210, rfl⟩
abbrev cc24_stg2_0 : Ref sig .tc := ⟨.vmem, 211, rfl⟩
abbrev cc24_stg3_0 : Ref sig .tc := ⟨.vmem, 212, rfl⟩
abbrev cc24_stg3_1 : Ref sig .tc := ⟨.vmem, 213, rfl⟩
abbrev cc25_stg0_0 : Ref sig .tc := ⟨.vmem, 214, rfl⟩
abbrev cc25_stg0_1 : Ref sig .tc := ⟨.vmem, 215, rfl⟩
abbrev cc25_stg1_0 : Ref sig .tc := ⟨.vmem, 216, rfl⟩
abbrev cc25_stg2_0 : Ref sig .tc := ⟨.vmem, 217, rfl⟩
abbrev cc25_stg3_0 : Ref sig .tc := ⟨.vmem, 218, rfl⟩
abbrev cc25_stg3_1 : Ref sig .tc := ⟨.vmem, 219, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc4_sem4_0 : DmaSem sig := 40
abbrev cc4_sem4_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc5_sem3_0 : DmaSem sig := 48
abbrev cc5_sem3_1 : DmaSem sig := 49
abbrev cc5_sem4_0 : DmaSem sig := 50
abbrev cc5_sem4_1 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem3_1 : DmaSem sig := 57
abbrev cc7_sem0_0 : DmaSem sig := 58
abbrev cc7_sem0_1 : DmaSem sig := 59
abbrev cc7_sem1_0 : DmaSem sig := 60
abbrev cc7_sem2_0 : DmaSem sig := 61
abbrev cc7_sem3_0 : DmaSem sig := 62
abbrev cc7_sem3_1 : DmaSem sig := 63
abbrev cc8_sem0_0 : DmaSem sig := 64
abbrev cc8_sem0_1 : DmaSem sig := 65
abbrev cc8_sem1_0 : DmaSem sig := 66
abbrev cc8_sem1_1 : DmaSem sig := 67
abbrev cc8_sem2_0 : DmaSem sig := 68
abbrev cc8_sem2_1 : DmaSem sig := 69
abbrev cc8_sem3_0 : DmaSem sig := 70
abbrev cc8_sem3_1 : DmaSem sig := 71
abbrev cc8_sem4_0 : DmaSem sig := 72
abbrev cc8_sem4_1 : DmaSem sig := 73
abbrev cc9_sem0_0 : DmaSem sig := 74
abbrev cc9_sem0_1 : DmaSem sig := 75
abbrev cc9_sem1_0 : DmaSem sig := 76
abbrev cc9_sem1_1 : DmaSem sig := 77
abbrev cc9_sem2_0 : DmaSem sig := 78
abbrev cc9_sem2_1 : DmaSem sig := 79
abbrev cc9_sem3_0 : DmaSem sig := 80
abbrev cc9_sem3_1 : DmaSem sig := 81
abbrev cc9_sem4_0 : DmaSem sig := 82
abbrev cc9_sem4_1 : DmaSem sig := 83
abbrev cc10_sem0_0 : DmaSem sig := 84
abbrev cc10_sem0_1 : DmaSem sig := 85
abbrev cc10_sem1_0 : DmaSem sig := 86
abbrev cc10_sem1_1 : DmaSem sig := 87
abbrev cc10_sem2_0 : DmaSem sig := 88
abbrev cc10_sem2_1 : DmaSem sig := 89
abbrev cc10_sem3_0 : DmaSem sig := 90
abbrev cc10_sem3_1 : DmaSem sig := 91
abbrev cc10_sem4_0 : DmaSem sig := 92
abbrev cc10_sem4_1 : DmaSem sig := 93
abbrev cc11_sem0_0 : DmaSem sig := 94
abbrev cc11_sem0_1 : DmaSem sig := 95
abbrev cc11_sem1_0 : DmaSem sig := 96
abbrev cc11_sem1_1 : DmaSem sig := 97
abbrev cc11_sem2_0 : DmaSem sig := 98
abbrev cc11_sem2_1 : DmaSem sig := 99
abbrev cc11_sem3_0 : DmaSem sig := 100
abbrev cc11_sem3_1 : DmaSem sig := 101
abbrev cc11_sem4_0 : DmaSem sig := 102
abbrev cc11_sem4_1 : DmaSem sig := 103
abbrev cc12_sem0_0 : DmaSem sig := 104
abbrev cc12_sem0_1 : DmaSem sig := 105
abbrev cc12_sem1_0 : DmaSem sig := 106
abbrev cc12_sem2_0 : DmaSem sig := 107
abbrev cc12_sem3_0 : DmaSem sig := 108
abbrev cc12_sem3_1 : DmaSem sig := 109
abbrev cc13_sem0_0 : DmaSem sig := 110
abbrev cc13_sem0_1 : DmaSem sig := 111
abbrev cc13_sem1_0 : DmaSem sig := 112
abbrev cc13_sem2_0 : DmaSem sig := 113
abbrev cc13_sem3_0 : DmaSem sig := 114
abbrev cc13_sem3_1 : DmaSem sig := 115
abbrev cc14_sem0_0 : DmaSem sig := 116
abbrev cc14_sem0_1 : DmaSem sig := 117
abbrev cc14_sem1_0 : DmaSem sig := 118
abbrev cc14_sem1_1 : DmaSem sig := 119
abbrev cc14_sem2_0 : DmaSem sig := 120
abbrev cc14_sem2_1 : DmaSem sig := 121
abbrev cc14_sem3_0 : DmaSem sig := 122
abbrev cc14_sem3_1 : DmaSem sig := 123
abbrev cc14_sem4_0 : DmaSem sig := 124
abbrev cc14_sem4_1 : DmaSem sig := 125
abbrev cc15_sem0_0 : DmaSem sig := 126
abbrev cc15_sem0_1 : DmaSem sig := 127
abbrev cc15_sem1_0 : DmaSem sig := 128
abbrev cc15_sem1_1 : DmaSem sig := 129
abbrev cc15_sem2_0 : DmaSem sig := 130
abbrev cc15_sem2_1 : DmaSem sig := 131
abbrev cc15_sem3_0 : DmaSem sig := 132
abbrev cc15_sem3_1 : DmaSem sig := 133
abbrev cc15_sem4_0 : DmaSem sig := 134
abbrev cc15_sem4_1 : DmaSem sig := 135
abbrev cc16_sem0_0 : DmaSem sig := 136
abbrev cc16_sem0_1 : DmaSem sig := 137
abbrev cc16_sem1_0 : DmaSem sig := 138
abbrev cc16_sem1_1 : DmaSem sig := 139
abbrev cc16_sem2_0 : DmaSem sig := 140
abbrev cc16_sem2_1 : DmaSem sig := 141
abbrev cc16_sem3_0 : DmaSem sig := 142
abbrev cc16_sem3_1 : DmaSem sig := 143
abbrev cc16_sem4_0 : DmaSem sig := 144
abbrev cc16_sem4_1 : DmaSem sig := 145
abbrev cc17_sem0_0 : DmaSem sig := 146
abbrev cc17_sem0_1 : DmaSem sig := 147
abbrev cc17_sem1_0 : DmaSem sig := 148
abbrev cc17_sem1_1 : DmaSem sig := 149
abbrev cc17_sem2_0 : DmaSem sig := 150
abbrev cc17_sem2_1 : DmaSem sig := 151
abbrev cc17_sem3_0 : DmaSem sig := 152
abbrev cc17_sem3_1 : DmaSem sig := 153
abbrev cc17_sem4_0 : DmaSem sig := 154
abbrev cc17_sem4_1 : DmaSem sig := 155
abbrev cc18_sem0_0 : DmaSem sig := 156
abbrev cc18_sem0_1 : DmaSem sig := 157
abbrev cc18_sem1_0 : DmaSem sig := 158
abbrev cc18_sem2_0 : DmaSem sig := 159
abbrev cc18_sem3_0 : DmaSem sig := 160
abbrev cc18_sem3_1 : DmaSem sig := 161
abbrev cc19_sem0_0 : DmaSem sig := 162
abbrev cc19_sem0_1 : DmaSem sig := 163
abbrev cc19_sem1_0 : DmaSem sig := 164
abbrev cc19_sem2_0 : DmaSem sig := 165
abbrev cc19_sem3_0 : DmaSem sig := 166
abbrev cc19_sem3_1 : DmaSem sig := 167
abbrev cc20_sem0_0 : DmaSem sig := 168
abbrev cc20_sem0_1 : DmaSem sig := 169
abbrev cc20_sem1_0 : DmaSem sig := 170
abbrev cc20_sem1_1 : DmaSem sig := 171
abbrev cc20_sem2_0 : DmaSem sig := 172
abbrev cc20_sem2_1 : DmaSem sig := 173
abbrev cc20_sem3_0 : DmaSem sig := 174
abbrev cc20_sem3_1 : DmaSem sig := 175
abbrev cc20_sem4_0 : DmaSem sig := 176
abbrev cc20_sem4_1 : DmaSem sig := 177
abbrev cc21_sem0_0 : DmaSem sig := 178
abbrev cc21_sem0_1 : DmaSem sig := 179
abbrev cc21_sem1_0 : DmaSem sig := 180
abbrev cc21_sem1_1 : DmaSem sig := 181
abbrev cc21_sem2_0 : DmaSem sig := 182
abbrev cc21_sem2_1 : DmaSem sig := 183
abbrev cc21_sem3_0 : DmaSem sig := 184
abbrev cc21_sem3_1 : DmaSem sig := 185
abbrev cc21_sem4_0 : DmaSem sig := 186
abbrev cc21_sem4_1 : DmaSem sig := 187
abbrev cc22_sem0_0 : DmaSem sig := 188
abbrev cc22_sem0_1 : DmaSem sig := 189
abbrev cc22_sem1_0 : DmaSem sig := 190
abbrev cc22_sem1_1 : DmaSem sig := 191
abbrev cc22_sem2_0 : DmaSem sig := 192
abbrev cc22_sem2_1 : DmaSem sig := 193
abbrev cc22_sem3_0 : DmaSem sig := 194
abbrev cc22_sem3_1 : DmaSem sig := 195
abbrev cc22_sem4_0 : DmaSem sig := 196
abbrev cc22_sem4_1 : DmaSem sig := 197
abbrev cc23_sem0_0 : DmaSem sig := 198
abbrev cc23_sem0_1 : DmaSem sig := 199
abbrev cc23_sem1_0 : DmaSem sig := 200
abbrev cc23_sem1_1 : DmaSem sig := 201
abbrev cc23_sem2_0 : DmaSem sig := 202
abbrev cc23_sem2_1 : DmaSem sig := 203
abbrev cc23_sem3_0 : DmaSem sig := 204
abbrev cc23_sem3_1 : DmaSem sig := 205
abbrev cc23_sem4_0 : DmaSem sig := 206
abbrev cc23_sem4_1 : DmaSem sig := 207
abbrev cc24_sem0_0 : DmaSem sig := 208
abbrev cc24_sem0_1 : DmaSem sig := 209
abbrev cc24_sem1_0 : DmaSem sig := 210
abbrev cc24_sem2_0 : DmaSem sig := 211
abbrev cc24_sem3_0 : DmaSem sig := 212
abbrev cc24_sem3_1 : DmaSem sig := 213
abbrev cc25_sem0_0 : DmaSem sig := 214
abbrev cc25_sem0_1 : DmaSem sig := 215
abbrev cc25_sem1_0 : DmaSem sig := 216
abbrev cc25_sem2_0 : DmaSem sig := 217
abbrev cc25_sem3_0 : DmaSem sig := 218
abbrev cc25_sem3_1 : DmaSem sig := 219

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1500], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![1500], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4000x2 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1500], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4000x2 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S4000x2 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![1500], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S4000x2 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S4000x2 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x6 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S6x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x2 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![200], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x6 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S6x2 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x2 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x2 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![1500], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x1 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S4000x2 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S4000x2 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S4000x2 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![1500], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x1 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S4000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S4000x2 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S4000x2 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S4000x2 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![1500], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S4000x1 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S4000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S4000x2 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S4000x2 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S4000x2 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![1500], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S4000x1 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S4000x1 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S4000x2 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S4000x2 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S4000x2 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨1, ![50], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x6 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S6x2 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x2 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S10000x2 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![200], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S10000x6 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S6x2 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x2 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S10000x2 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨1, ![1500], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_4 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S4000x1 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S4000x1 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S4000x2 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev stage14_3 : Fin 2 → Memref sig .tc .vmem S4000x2 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev stage14_4 : Fin 2 → Memref sig .tc .vmem S4000x2 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true]

abbrev grid15 : Pipeline.Grid := ⟨1, ![1500], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_4 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S4000x1 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S4000x1 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S4000x2 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev stage15_3 : Fin 2 → Memref sig .tc .vmem S4000x2 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev stage15_4 : Fin 2 → Memref sig .tc .vmem S4000x2 .f32 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true]

abbrev grid16 : Pipeline.Grid := ⟨1, ![1500], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_4 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S4000x1 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S4000x1 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S4000x2 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev stage16_3 : Fin 2 → Memref sig .tc .vmem S4000x2 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev stage16_4 : Fin 2 → Memref sig .tc .vmem S4000x2 .f32 := fun | 0 => Memref.whole cc16_stg4_0 | 1 => Memref.whole cc16_stg4_1 | ⟨_ + 2, h⟩ => absurd h (Nat.not_lt.2 (Nat.le_add_left _ _))
abbrev sem16_4 : Fin 2 → DmaSem sig := fun | 0 => cc16_sem4_0 | 1 => cc16_sem4_1 | ⟨_ + 2, h⟩ => absurd h (Nat.not_lt.2 (Nat.le_add_left _ _))
abbrev reads16_4 : Fin grid16.rank → Bool := ![true]

abbrev grid17 : Pipeline.Grid := ⟨1, ![1500], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_4 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S4000x1 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S4000x1 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 2 → Memref sig .tc .vmem S4000x2 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev stage17_3 : Fin 2 → Memref sig .tc .vmem S4000x2 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev stage17_4 : Fin 2 → Memref sig .tc .vmem S4000x2 .f32 := fun | 0 => Memref.whole cc17_stg4_0 | 1 => Memref.whole cc17_stg4_1 | ⟨_ + 2, h⟩ => absurd h (Nat.not_lt.2 (Nat.le_add_left _ _))
abbrev sem17_4 : Fin 2 → DmaSem sig := fun | 0 => cc17_sem4_0 | 1 => cc17_sem4_1 | ⟨_ + 2, h⟩ => absurd h (Nat.not_lt.2 (Nat.le_add_left _ _))
abbrev reads17_4 : Fin grid17.rank → Bool := ![true]

abbrev grid18 : Pipeline.Grid := ⟨1, ![50], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S10000x6 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S6x2 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S1x2 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 2 → Memref sig .tc .vmem S10000x2 .f32 := fun | 0 => Memref.whole cc18_stg3_0 | 1 => Memref.whole cc18_stg3_1 | ⟨_ + 2, h⟩ => absurd h (Nat.not_lt.2 (Nat.le_add_left _ _))
abbrev sem18_3 : Fin 2 → DmaSem sig := fun | 0 => cc18_sem3_0 | 1 => cc18_sem3_1 | ⟨_ + 2, h⟩ => absurd h (Nat.not_lt.2 (Nat.le_add_left _ _))
abbrev reads18_3 : Fin grid18.rank → Bool := ![true]

abbrev grid19 : Pipeline.Grid := ⟨1, ![200], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S10000x6 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S6x2 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 1 → Memref sig .tc .vmem S1x2 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 2 → Memref sig .tc .vmem S10000x2 .f32 := fun | 0 => Memref.whole cc19_stg3_0 | 1 => Memref.whole cc19_stg3_1 | ⟨_ + 2, h⟩ => absurd h (Nat.not_lt.2 (Nat.le_add_left _ _))
abbrev sem19_3 : Fin 2 → DmaSem sig := fun | 0 => cc19_sem3_0 | 1 => cc19_sem3_1 | ⟨_ + 2, h⟩ => absurd h (Nat.not_lt.2 (Nat.le_add_left _ _))
abbrev reads19_3 : Fin grid19.rank → Bool := ![true]

abbrev grid20 : Pipeline.Grid := ⟨1, ![1500], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_3 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_4 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S4000x1 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S4000x1 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 2 → Memref sig .tc .vmem S4000x2 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true]

abbrev stage20_3 : Fin 2 → Memref sig .tc .vmem S4000x2 .f32 := fun | 0 => Memref.whole cc20_stg3_0 | 1 => Memref.whole cc20_stg3_1 | ⟨_ + 2, h⟩ => absurd h (Nat.not_lt.2 (Nat.le_add_left _ _))
abbrev sem20_3 : Fin 2 → DmaSem sig := fun | 0 => cc20_sem3_0 | 1 => cc20_sem3_1 | ⟨_ + 2, h⟩ => absurd h (Nat.not_lt.2 (Nat.le_add_left _ _))
abbrev reads20_3 : Fin grid20.rank → Bool := ![true]

abbrev stage20_4 : Fin 2 → Memref sig .tc .vmem S4000x2 .f32 := fun | 0 => Memref.whole cc20_stg4_0 | 1 => Memref.whole cc20_stg4_1 | ⟨_ + 2, h⟩ => absurd h (Nat.not_lt.2 (Nat.le_add_left _ _))
abbrev sem20_4 : Fin 2 → DmaSem sig := fun | 0 => cc20_sem4_0 | 1 => cc20_sem4_1 | ⟨_ + 2, h⟩ => absurd h (Nat.not_lt.2 (Nat.le_add_left _ _))
abbrev reads20_4 : Fin grid20.rank → Bool := ![true]

abbrev grid21 : Pipeline.Grid := ⟨1, ![1500], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_2 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_3 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_4 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S4000x1 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 2 → Memref sig .tc .vmem S4000x1 .f32 := fun | 0 => Memref.whole cc21_stg1_0 | 1 => Memref.whole cc21_stg1_1 | ⟨_ + 2, h⟩ => absurd h (Nat.not_lt.2 (Nat.le_add_left _ _))
abbrev sem21_1 : Fin 2 → DmaSem sig := fun | 0 => cc21_sem1_0 | 1 => cc21_sem1_1 | ⟨_ + 2, h⟩ => absurd h (Nat.not_lt.2 (Nat.le_add_left _ _))
abbrev reads21_1 : Fin grid21.rank → Bool := ![true]

abbrev stage21_2 : Fin 2 → Memref sig .tc .vmem S4000x2 .f32 := fun | 0 => Memref.whole cc21_stg2_0 | 1 => Memref.whole cc21_stg2_1 | ⟨_ + 2, h⟩ => absurd h (Nat.not_lt.2 (Nat.le_add_left _ _))
abbrev sem21_2 : Fin 2 → DmaSem sig := fun | 0 => cc21_sem2_0 | 1 => cc21_sem2_1 | ⟨_ + 2, h⟩ => absurd h (Nat.not_lt.2 (Nat.le_add_left _ _))
abbrev reads21_2 : Fin grid21.rank → Bool := ![true]

abbrev stage21_3 : Fin 2 → Memref sig .tc .vmem S4000x2 .f32 := fun | 0 => Memref.whole cc21_stg3_0 | 1 => Memref.whole cc21_stg3_1 | ⟨_ + 2, h⟩ => absurd h (Nat.not_lt.2 (Nat.le_add_left _ _))
abbrev sem21_3 : Fin 2 → DmaSem sig := fun | 0 => cc21_sem3_0 | 1 => cc21_sem3_1 | ⟨_ + 2, h⟩ => absurd h (Nat.not_lt.2 (Nat.le_add_left _ _))
abbrev reads21_3 : Fin grid21.rank → Bool := ![true]

abbrev stage21_4 : Fin 2 → Memref sig .tc .vmem S4000x2 .f32 := fun | 0 => Memref.whole cc21_stg4_0 | 1 => Memref.whole cc21_stg4_1 | ⟨_ + 2, h⟩ => absurd h (Nat.not_lt.2 (Nat.le_add_left _ _))
abbrev sem21_4 : Fin 2 → DmaSem sig := fun | 0 => cc21_sem4_0 | 1 => cc21_sem4_1 | ⟨_ + 2, h⟩ => absurd h (Nat.not_lt.2 (Nat.le_add_left _ _))
abbrev reads21_4 : Fin grid21.rank → Bool := ![true]

abbrev grid22 : Pipeline.Grid := ⟨1, ![1500], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_2 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_3 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_4 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S4000x1 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 2 → Memref sig .tc .vmem S4000x1 .f32 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![true]

abbrev stage22_2 : Fin 2 → Memref sig .tc .vmem S4000x2 .f32 := fun | 0 => Memref.whole cc22_stg2_0 | 1 => Memref.whole cc22_stg2_1 | ⟨_ + 2, h⟩ => absurd h (Nat.not_lt.2 (Nat.le_add_left _ _))
abbrev sem22_2 : Fin 2 → DmaSem sig := fun | 0 => cc22_sem2_0 | 1 => cc22_sem2_1 | ⟨_ + 2, h⟩ => absurd h (Nat.not_lt.2 (Nat.le_add_left _ _))
abbrev reads22_2 : Fin grid22.rank → Bool := ![true]

abbrev stage22_3 : Fin 2 → Memref sig .tc .vmem S4000x2 .f32 := fun | 0 => Memref.whole cc22_stg3_0 | 1 => Memref.whole cc22_stg3_1 | ⟨_ + 2, h⟩ => absurd h (Nat.not_lt.2 (Nat.le_add_left _ _))
abbrev sem22_3 : Fin 2 → DmaSem sig := fun | 0 => cc22_sem3_0 | 1 => cc22_sem3_1 | ⟨_ + 2, h⟩ => absurd h (Nat.not_lt.2 (Nat.le_add_left _ _))
abbrev reads22_3 : Fin grid22.rank → Bool := ![true]

abbrev stage22_4 : Fin 2 → Memref sig .tc .vmem S4000x2 .f32 := fun | 0 => Memref.whole cc22_stg4_0 | 1 => Memref.whole cc22_stg4_1 | ⟨_ + 2, h⟩ => absurd h (Nat.not_lt.2 (Nat.le_add_left _ _))
abbrev sem22_4 : Fin 2 → DmaSem sig := fun | 0 => cc22_sem4_0 | 1 => cc22_sem4_1 | ⟨_ + 2, h⟩ => absurd h (Nat.not_lt.2 (Nat.le_add_left _ _))
abbrev reads22_4 : Fin grid22.rank → Bool := ![true]

abbrev grid23 : Pipeline.Grid := ⟨1, ![1500], ![false]⟩

def cc23_transform_0 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_2 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_3 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_4 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage23_0 : Fin 2 → Memref sig .tc .vmem S4000x1 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 2 → Memref sig .tc .vmem S4000x1 .f32 := fun | 0 => Memref.whole cc23_stg1_0 | 1 => Memref.whole cc23_stg1_1 | ⟨_ + 2, h⟩ => absurd h (Nat.not_lt.2 (Nat.le_add_left _ _))
abbrev sem23_1 : Fin 2 → DmaSem sig := fun | 0 => cc23_sem1_0 | 1 => cc23_sem1_1 | ⟨_ + 2, h⟩ => absurd h (Nat.not_lt.2 (Nat.le_add_left _ _))
abbrev reads23_1 : Fin grid23.rank → Bool := ![true]

abbrev stage23_2 : Fin 2 → Memref sig .tc .vmem S4000x2 .f32 := fun | 0 => Memref.whole cc23_stg2_0 | 1 => Memref.whole cc23_stg2_1 | ⟨_ + 2, h⟩ => absurd h (Nat.not_lt.2 (Nat.le_add_left _ _))
abbrev sem23_2 : Fin 2 → DmaSem sig := fun | 0 => cc23_sem2_0 | 1 => cc23_sem2_1 | ⟨_ + 2, h⟩ => absurd h (Nat.not_lt.2 (Nat.le_add_left _ _))
abbrev reads23_2 : Fin grid23.rank → Bool := ![true]

abbrev stage23_3 : Fin 2 → Memref sig .tc .vmem S4000x2 .f32 := fun | 0 => Memref.whole cc23_stg3_0 | 1 => Memref.whole cc23_stg3_1 | ⟨_ + 2, h⟩ => absurd h (Nat.not_lt.2 (Nat.le_add_left _ _))
abbrev sem23_3 : Fin 2 → DmaSem sig := fun | 0 => cc23_sem3_0 | 1 => cc23_sem3_1 | ⟨_ + 2, h⟩ => absurd h (Nat.not_lt.2 (Nat.le_add_left _ _))
abbrev reads23_3 : Fin grid23.rank → Bool := ![true]

abbrev stage23_4 : Fin 2 → Memref sig .tc .vmem S4000x2 .f32 := fun | 0 => Memref.whole cc23_stg4_0 | 1 => Memref.whole cc23_stg4_1 | ⟨_ + 2, h⟩ => absurd h (Nat.not_lt.2 (Nat.le_add_left _ _))
abbrev sem23_4 : Fin 2 → DmaSem sig := fun | 0 => cc23_sem4_0 | 1 => cc23_sem4_1 | ⟨_ + 2, h⟩ => absurd h (Nat.not_lt.2 (Nat.le_add_left _ _))
abbrev reads23_4 : Fin grid23.rank → Bool := ![true]

abbrev grid24 : Pipeline.Grid := ⟨1, ![50], ![false]⟩

def cc24_transform_0 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_1 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_2 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_3 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage24_0 : Fin 2 → Memref sig .tc .vmem S10000x6 .f32 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true]

abbrev stage24_1 : Fin 1 → Memref sig .tc .vmem S6x2 .f32 := fun | 0 => Memref.whole cc24_stg1_0 | ⟨_ + 1, h⟩ => absurd h (Nat.not_lt.2 (Nat.le_add_left _ _))
abbrev sem24_1 : Fin 1 → DmaSem sig := fun | 0 => cc24_sem1_0 | ⟨_ + 1, h⟩ => absurd h (Nat.not_lt.2 (Nat.le_add_left _ _))
abbrev reads24_1 : Fin grid24.rank → Bool := ![false]

abbrev stage24_2 : Fin 1 → Memref sig .tc .vmem S1x2 .f32 := fun | 0 => Memref.whole cc24_stg2_0 | ⟨_ + 1, h⟩ => absurd h (Nat.not_lt.2 (Nat.le_add_left _ _))
abbrev sem24_2 : Fin 1 → DmaSem sig := fun | 0 => cc24_sem2_0 | ⟨_ + 1, h⟩ => absurd h (Nat.not_lt.2 (Nat.le_add_left _ _))
abbrev reads24_2 : Fin grid24.rank → Bool := ![false]

abbrev stage24_3 : Fin 2 → Memref sig .tc .vmem S10000x2 .f32 := fun | 0 => Memref.whole cc24_stg3_0 | 1 => Memref.whole cc24_stg3_1 | ⟨_ + 2, h⟩ => absurd h (Nat.not_lt.2 (Nat.le_add_left _ _))
abbrev sem24_3 : Fin 2 → DmaSem sig := fun | 0 => cc24_sem3_0 | 1 => cc24_sem3_1 | ⟨_ + 2, h⟩ => absurd h (Nat.not_lt.2 (Nat.le_add_left _ _))
abbrev reads24_3 : Fin grid24.rank → Bool := ![true]

abbrev grid25 : Pipeline.Grid := ⟨1, ![200], ![false]⟩

def cc25_transform_0 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_1 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_2 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_3 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage25_0 : Fin 2 → Memref sig .tc .vmem S10000x6 .f32 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true]

abbrev stage25_1 : Fin 1 → Memref sig .tc .vmem S6x2 .f32 := fun | 0 => Memref.whole cc25_stg1_0 | ⟨_ + 1, h⟩ => absurd h (Nat.not_lt.2 (Nat.le_add_left _ _))
abbrev sem25_1 : Fin 1 → DmaSem sig := fun | 0 => cc25_sem1_0 | ⟨_ + 1, h⟩ => absurd h (Nat.not_lt.2 (Nat.le_add_left _ _))
abbrev reads25_1 : Fin grid25.rank → Bool := ![false]

abbrev stage25_2 : Fin 1 → Memref sig .tc .vmem S1x2 .f32 := fun | 0 => Memref.whole cc25_stg2_0 | ⟨_ + 1, h⟩ => absurd h (Nat.not_lt.2 (Nat.le_add_left _ _))
abbrev sem25_2 : Fin 1 → DmaSem sig := fun | 0 => cc25_sem2_0 | ⟨_ + 1, h⟩ => absurd h (Nat.not_lt.2 (Nat.le_add_left _ _))
abbrev reads25_2 : Fin grid25.rank → Bool := ![false]

abbrev stage25_3 : Fin 2 → Memref sig .tc .vmem S10000x2 .f32 := fun | 0 => Memref.whole cc25_stg3_0 | 1 => Memref.whole cc25_stg3_1 | ⟨_ + 2, h⟩ => absurd h (Nat.not_lt.2 (Nat.le_add_left _ _))
abbrev sem25_3 : Fin 2 → DmaSem sig := fun | 0 => cc25_sem3_0 | 1 => cc25_sem3_1 | ⟨_ + 2, h⟩ => absurd h (Nat.not_lt.2 (Nat.le_add_left _ _))
abbrev reads25_3 : Fin grid25.rank → Bool := ![true]

class Facts₀ : Prop where
  bcast_S_S2000000 : S_.BroadcastsInDim S2000000 (![] : Fin 0 → Fin S2000000.rank)
  bcast_S_S500000 : S_.BroadcastsInDim S500000 (![] : Fin 0 → Fin S500000.rank)
  shapeCasts_S2_S1x2 : S2.ShapeCasts S1x2
  inb_S10000x1_S10000x1_0_0 : ∀ a, (![0, 0] : Fin 2 → Nat) a + S10000x1.size a ≤ S10000x1.size a
  h_S10000x1 : 0 < S10000x1.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S10000x1_S10000x2 : S10000x1.Broadcasts S10000x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  bcast_S_S6000000 : S_.BroadcastsInDim S6000000 (![] : Fin 0 → Fin S6000000.rank)
  bcast_S6000000_S6000000x1_0 : S6000000.BroadcastsInDim S6000000x1 (![0] : Fin 1 → Fin S6000000x1.rank)
  shapeCasts_S6000000_S6000000x1 : S6000000.ShapeCasts S6000000x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  broadcasts_S4000x1_S4000x2 : S4000x1.Broadcasts S4000x2
  bcast_S_S500000x2 : S_.BroadcastsInDim S500000x2 (![] : Fin 0 → Fin S500000x2.rank)
  bcast_S_S2000000x2 : S_.BroadcastsInDim S2000000x2 (![] : Fin 0 → Fin S2000000x2.rank)
  concatenates_S500000x2_S500000x2_S500000x2_S500000x6_d1 : Shape.Concatenates [S500000x2, S500000x2, S500000x2] S500000x6 1
  concatenates_S2000000x2_S2000000x2_S2000000x2_S2000000x6_d1 : Shape.Concatenates [S2000000x2, S2000000x2, S2000000x2] S2000000x6 1
  slices_S4x6x2_S1x6x2_0_0_0 : S4x6x2.Slices ![0, 0, 0] S1x6x2
  shapeCasts_S1x6x2_S6x2 : S1x6x2.ShapeCasts S6x2
  slices_S4x2_S1x2_0_0 : S4x2.Slices ![0, 0] S1x2
  shapeCasts_S1x2_S2 : S1x2.ShapeCasts S2
  inb_S10000x6_S10000x6_0_0 : ∀ a, (![0, 0] : Fin 2 → Nat) a + S10000x6.size a ≤ S10000x6.size a
  h_S10000x6 : 0 < S10000x6.numel
  shapeCasts_S10000x6_S10000x6 : S10000x6.ShapeCasts S10000x6
  inb_S6x2_S6x2_0_0 : ∀ a, (![0, 0] : Fin 2 → Nat) a + S6x2.size a ≤ S6x2.size a
  h_S6x2 : 0 < S6x2.numel
  shapeCasts_S6x2_S6x2 : S6x2.ShapeCasts S6x2
  slices_S10000x6_o0_0_S10000x1 : S10000x6.Slices ![0, 0] S10000x1
  slices_S6x2_o0_0_S1x2 : S6x2.Slices ![0, 0] S1x2
  slices_S10000x6_o0_1_S10000x1 : S10000x6.Slices ![0, 1] S10000x1
  slices_S6x2_o1_0_S1x2 : S6x2.Slices ![1, 0] S1x2
  slices_S10000x6_o0_2_S10000x1 : S10000x6.Slices ![0, 2] S10000x1
  slices_S6x2_o2_0_S1x2 : S6x2.Slices ![2, 0] S1x2
  slices_S10000x6_o0_3_S10000x1 : S10000x6.Slices ![0, 3] S10000x1
  slices_S6x2_o3_0_S1x2 : S6x2.Slices ![3, 0] S1x2
  slices_S10000x6_o0_4_S10000x1 : S10000x6.Slices ![0, 4] S10000x1
  slices_S6x2_o4_0_S1x2 : S6x2.Slices ![4, 0] S1x2
  slices_S10000x6_o0_5_S10000x1 : S10000x6.Slices ![0, 5] S10000x1
  slices_S6x2_o5_0_S1x2 : S6x2.Slices ![5, 0] S1x2
  slices_S4x6x2_S1x6x2_1_0_0 : S4x6x2.Slices ![1, 0, 0] S1x6x2
  slices_S4x2_S1x2_1_0 : S4x2.Slices ![1, 0] S1x2
  slices_S4x6x2_S1x6x2_2_0_0 : S4x6x2.Slices ![2, 0, 0] S1x6x2
  slices_S4x2_S1x2_2_0 : S4x2.Slices ![2, 0] S1x2
  slices_S4x6x2_S1x6x2_3_0_0 : S4x6x2.Slices ![3, 0, 0] S1x6x2
  slices_S4x2_S1x2_3_0 : S4x2.Slices ![3, 0] S1x2
  gather_S2000000x2_S6000000x1_S6000000x2_1_0_n_n_0_1_12_wf : GatherDims.WF S2000000x2 S6000000x1 S6000000x2 [1] [0] [] [0] [] 1 ![1, 2]
  gather_S500000x2_S6000000x1_S6000000x2_1_0_n_n_0_1_12_wf : GatherDims.WF S500000x2 S6000000x1 S6000000x2 [1] [0] [] [0] [] 1 ![1, 2]
  gather_S2000000_S6000000x1_S6000000_n_0_n_n_0_1_1_wf : GatherDims.WF S2000000 S6000000x1 S6000000 [] [0] [] [0] [] 1 ![1]
  gather_S500000_S6000000x1_S6000000_n_0_n_n_0_1_1_wf : GatherDims.WF S500000 S6000000x1 S6000000 [] [0] [] [0] [] 1 ![1]
  scatter_S500000x2_S6000000x1_S6000000x2_1_0_0_1_wf : ScatterDims.WF S500000x2 S6000000x1 S6000000x2 [1] [0] [0] 1
  scatter_S2000000x2_S6000000x1_S6000000x2_1_0_0_1_wf : ScatterDims.WF S2000000x2 S6000000x1 S6000000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S2000000x1.size a
  hwx0_0 : ∀ i : grid0.Coords, EltTy.bits .f32 = 32 ∨ (Rect.block (s := S2000000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2.size a ≤ S1x2.size a
  hwx0_1 : ∀ i : grid0.Coords, EltTy.bits .f32 = 32 ∨ (Rect.block (s := S1x2) S1x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2.size a ≤ S1x2.size a
  hwx0_2 : ∀ i : grid0.Coords, EltTy.bits .f32 = 32 ∨ (Rect.block (s := S1x2) S1x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x2.size a ≤ S2000000x2.size a
  hwx0_3 : ∀ i : grid0.Coords, EltTy.bits .f32 = 32 ∨ (Rect.block (s := S2000000x2) S10000x2.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x1.size a ≤ S500000x1.size a
  hwx1_0 : ∀ i : grid1.Coords, EltTy.bits .f32 = 32 ∨ (Rect.block (s := S500000x1) S10000x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2.size a ≤ S1x2.size a
  hwx1_1 : ∀ i : grid1.Coords, EltTy.bits .f32 = 32 ∨ (Rect.block (s := S1x2) S1x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2.size a ≤ S1x2.size a
  hwx1_2 : ∀ i : grid1.Coords, EltTy.bits .f32 = 32 ∨ (Rect.block (s := S1x2) S1x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x2.size a ≤ S500000x2.size a
  hwx1_3 : ∀ i : grid1.Coords, EltTy.bits .f32 = 32 ∨ (Rect.block (s := S500000x2) S10000x2.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x1.size a ≤ S6000000x1.size a
  hwx2_0 : ∀ i : grid2.Coords, EltTy.bits .f32 = 32 ∨ (Rect.block (s := S6000000x1) S4000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S6000000x1.size a
  hwx2_1 : ∀ i : grid2.Coords, EltTy.bits .f32 = 32 ∨ (Rect.block (s := S6000000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x2.size a ≤ S6000000x2.size a
  hwx2_2 : ∀ i : grid2.Coords, EltTy.bits .f32 = 32 ∨ (Rect.block (s := S6000000x2) S4000x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x2.size a ≤ S6000000x2.size a
  hwx2_3 : ∀ i : grid2.Coords, EltTy.bits .f32 = 32 ∨ (Rect.block (s := S6000000x2) S4000x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x2.size a ≤ S6000000x2.size a
  hwx2_4 : ∀ i : grid2.Coords, EltTy.bits .f32 = 32 ∨ (Rect.block (s := S6000000x2) S4000x2.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x1.size a ≤ S6000000x1.size a
  hwx3_0 : ∀ i : grid3.Coords, EltTy.bits .f32 = 32 ∨ (Rect.block (s := S6000000x1) S4000x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S6000000x1.size a
  hwx3_1 : ∀ i : grid3.Coords, EltTy.bits .f32 = 32 ∨ (Rect.block (s := S6000000x1) S4000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x2.size a ≤ S6000000x2.size a
  hwx3_2 : ∀ i : grid3.Coords, EltTy.bits .f32 = 32 ∨ (Rect.block (s := S6000000x2) S4000x2.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x2.size a ≤ S6000000x2.size a
  hwx3_3 : ∀ i : grid3.Coords, EltTy.bits .f32 = 32 ∨ (Rect.block (s := S6000000x2) S4000x2.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x2.size a ≤ S6000000x2.size a
  hwx3_4 : ∀ i : grid3.Coords, EltTy.bits .f32 = 32 ∨ (Rect.block (s := S6000000x2) S4000x2.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x1.size a ≤ S6000000x1.size a
  hwx4_0 : ∀ i : grid4.Coords, EltTy.bits .f32 = 32 ∨ (Rect.block (s := S6000000x1) S4000x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S6000000x1.size a
  hwx4_1 : ∀ i : grid4.Coords, EltTy.bits .f32 = 32 ∨ (Rect.block (s := S6000000x1) S4000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x2.size a ≤ S6000000x2.size a
  hwx4_2 : ∀ i : grid4.Coords, EltTy.bits .f32 = 32 ∨ (Rect.block (s := S6000000x2) S4000x2.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x2.size a ≤ S6000000x2.size a
  hwx4_3 : ∀ i : grid4.Coords, EltTy.bits .f32 = 32 ∨ (Rect.block (s := S6000000x2) S4000x2.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x2.size a ≤ S6000000x2.size a
  hwx4_4 : ∀ i : grid4.Coords, EltTy.bits .f32 = 32 ∨ (Rect.block (s := S6000000x2) S4000x2.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x1.size a ≤ S6000000x1.size a
  hwx5_0 : ∀ i : grid5.Coords, EltTy.bits .f32 = 32 ∨ (Rect.block (s := S6000000x1) S4000x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x1.size a ≤ S6000000x1.size a
  hwx5_1 : ∀ i : grid5.Coords, EltTy.bits .f32 = 32 ∨ (Rect.block (s := S6000000x1) S4000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x2.size a ≤ S6000000x2.size a
  hwx5_2 : ∀ i : grid5.Coords, EltTy.bits .f32 = 32 ∨ (Rect.block (s := S6000000x2) S4000x2.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x2.size a ≤ S6000000x2.size a
  hwx5_3 : ∀ i : grid5.Coords, EltTy.bits .f32 = 32 ∨ (Rect.block (s := S6000000x2) S4000x2.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x2.size a ≤ S6000000x2.size a
  hwx5_4 : ∀ i : grid5.Coords, EltTy.bits .f32 = 32 ∨ (Rect.block (s := S6000000x2) S4000x2.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x6.size a ≤ S500000x6.size a
  hwx6_0 : ∀ i : grid6.Coords, EltTy.bits .f32 = 32 ∨ (Rect.block (s := S500000x6) S10000x6.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S6x2.size a ≤ S6x2.size a
  hwx6_1 : ∀ i : grid6.Coords, EltTy.bits .f32 = 32 ∨ (Rect.block (s := S6x2) S6x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2.size a ≤ S1x2.size a
  hwx6_2 : ∀ i : grid6.Coords, EltTy.bits .f32 = 32 ∨ (Rect.block (s := S1x2) S1x2.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x2.size a ≤ S500000x2.size a
  hwx6_3 : ∀ i : grid6.Coords, EltTy.bits .f32 = 32 ∨ (Rect.block (s := S500000x2) S10000x2.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x6.size a ≤ S2000000x6.size a
  hwx7_0 : ∀ i : grid7.Coords, EltTy.bits .f32 = 32 ∨ (Rect.block (s := S2000000x6) S10000x6.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S6x2.size a ≤ S6x2.size a
  hwx7_1 : ∀ i : grid7.Coords, EltTy.bits .f32 = 32 ∨ (Rect.block (s := S6x2) S6x2.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x2.size a ≤ S1x2.size a
  hwx7_2 : ∀ i : grid7.Coords, EltTy.bits .f32 = 32 ∨ (Rect.block (s := S1x2) S1x2.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x2.size a ≤ S2000000x2.size a
  hwx7_3 : ∀ i : grid7.Coords, EltTy.bits .f32 = 32 ∨ (Rect.block (s := S2000000x2) S10000x2.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x1.size a ≤ S6000000x1.size a
  hwx8_0 : ∀ i : grid8.Coords, EltTy.bits .f32 = 32 ∨ (Rect.block (s := S6000000x1) S4000x1.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4000x1.size a ≤ S6000000x1.size a
  hwx8_1 : ∀ i : grid8.Coords, EltTy.bits .f32 = 32 ∨ (Rect.block (s := S6000000x1) S4000x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S4000x2.size a ≤ S6000000x2.size a
  hwx8_2 : ∀ i : grid8.Coords, EltTy.bits .f32 = 32 ∨ (Rect.block (s := S6000000x2) S4000x2.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S4000x2.size a ≤ S6000000x2.size a
  hwx8_3 : ∀ i : grid8.Coords, EltTy.bits .f32 = 32 ∨ (Rect.block (s := S6000000x2) S4000x2.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S4000x2.size a ≤ S6000000x2.size a
  hwx8_4 : ∀ i : grid8.Coords, EltTy.bits .f32 = 32 ∨ (Rect.block (s := S6000000x2) S4000x2.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x1.size a ≤ S6000000x1.size a
  hwx9_0 : ∀ i : grid9.Coords, EltTy.bits .f32 = 32 ∨ (Rect.block (s := S6000000x1) S4000x1.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S4000x1.size a ≤ S6000000x1.size a
  hwx9_1 : ∀ i : grid9.Coords, EltTy.bits .f32 = 32 ∨ (Rect.block (s := S6000000x1) S4000x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S4000x2.size a ≤ S6000000x2.size a
  hwx9_2 : ∀ i : grid9.Coords, EltTy.bits .f32 = 32 ∨ (Rect.block (s := S6000000x2) S4000x2.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S4000x2.size a ≤ S6000000x2.size a
  hwx9_3 : ∀ i : grid9.Coords, EltTy.bits .f32 = 32 ∨ (Rect.block (s := S6000000x2) S4000x2.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S4000x2.size a ≤ S6000000x2.size a
  hwx9_4 : ∀ i : grid9.Coords, EltTy.bits .f32 = 32 ∨ (Rect.block (s := S6000000x2) S4000x2.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4000x1.size a ≤ S6000000x1.size a
  hwx10_0 : ∀ i : grid10.Coords, EltTy.bits .f32 = 32 ∨ (Rect.block (s := S6000000x1) S4000x1.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S4000x1.size a ≤ S6000000x1.size a
  hwx10_1 : ∀ i : grid10.Coords, EltTy.bits .f32 = 32 ∨ (Rect.block (s := S6000000x1) S4000x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S4000x2.size a ≤ S6000000x2.size a
  hwx10_2 : ∀ i : grid10.Coords, EltTy.bits .f32 = 32 ∨ (Rect.block (s := S6000000x2) S4000x2.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S4000x2.size a ≤ S6000000x2.size a
  hwx10_3 : ∀ i : grid10.Coords, EltTy.bits .f32 = 32 ∨ (Rect.block (s := S6000000x2) S4000x2.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S4000x2.size a ≤ S6000000x2.size a
  hwx10_4 : ∀ i : grid10.Coords, EltTy.bits .f32 = 32 ∨ (Rect.block (s := S6000000x2) S4000x2.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4000x1.size a ≤ S6000000x1.size a
  hwx11_0 : ∀ i : grid11.Coords, EltTy.bits .f32 = 32 ∨ (Rect.block (s := S6000000x1) S4000x1.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S4000x1.size a ≤ S6000000x1.size a
  hwx11_1 : ∀ i : grid11.Coords, EltTy.bits .f32 = 32 ∨ (Rect.block (s := S6000000x1) S4000x1.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S4000x2.size a ≤ S6000000x2.size a
  hwx11_2 : ∀ i : grid11.Coords, EltTy.bits .f32 = 32 ∨ (Rect.block (s := S6000000x2) S4000x2.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S4000x2.size a ≤ S6000000x2.size a
  hwx11_3 : ∀ i : grid11.Coords, EltTy.bits .f32 = 32 ∨ (Rect.block (s := S6000000x2) S4000x2.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S4000x2.size a ≤ S6000000x2.size a
  hwx11_4 : ∀ i : grid11.Coords, EltTy.bits .f32 = 32 ∨ (Rect.block (s := S6000000x2) S4000x2.size (cc11_transform_4 i) (hinb11_4 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x6.size a ≤ S500000x6.size a
  hwx12_0 : ∀ i : grid12.Coords, EltTy.bits .f32 = 32 ∨ (Rect.block (s := S500000x6) S10000x6.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S6x2.size a ≤ S6x2.size a
  hwx12_1 : ∀ i : grid12.Coords, EltTy.bits .f32 = 32 ∨ (Rect.block (s := S6x2) S6x2.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x2.size a ≤ S1x2.size a
  hwx12_2 : ∀ i : grid12.Coords, EltTy.bits .f32 = 32 ∨ (Rect.block (s := S1x2) S1x2.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S10000x2.size a ≤ S500000x2.size a
  hwx12_3 : ∀ i : grid12.Coords, EltTy.bits .f32 = 32 ∨ (Rect.block (s := S500000x2) S10000x2.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S10000x6.size a ≤ S2000000x6.size a
  hwx13_0 : ∀ i : grid13.Coords, EltTy.bits .f32 = 32 ∨ (Rect.block (s := S2000000x6) S10000x6.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S6x2.size a ≤ S6x2.size a
  hwx13_1 : ∀ i : grid13.Coords, EltTy.bits .f32 = 32 ∨ (Rect.block (s := S6x2) S6x2.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x2.size a ≤ S1x2.size a
  hwx13_2 : ∀ i : grid13.Coords, EltTy.bits .f32 = 32 ∨ (Rect.block (s := S1x2) S1x2.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S10000x2.size a ≤ S2000000x2.size a
  hwx13_3 : ∀ i : grid13.Coords, EltTy.bits .f32 = 32 ∨ (Rect.block (s := S2000000x2) S10000x2.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S4000x1.size a ≤ S6000000x1.size a
  hwx14_0 : ∀ i : grid14.Coords, EltTy.bits .f32 = 32 ∨ (Rect.block (s := S6000000x1) S4000x1.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S4000x1.size a ≤ S6000000x1.size a
  hwx14_1 : ∀ i : grid14.Coords, EltTy.bits .f32 = 32 ∨ (Rect.block (s := S6000000x1) S4000x1.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S4000x2.size a ≤ S6000000x2.size a
  hwx14_2 : ∀ i : grid14.Coords, EltTy.bits .f32 = 32 ∨ (Rect.block (s := S6000000x2) S4000x2.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S4000x2.size a ≤ S6000000x2.size a
  hwx14_3 : ∀ i : grid14.Coords, EltTy.bits .f32 = 32 ∨ (Rect.block (s := S6000000x2) S4000x2.size (cc14_transform_3 i) (hinb14_3 i)).WholeWords (EltTy.packing .f32)
  hstage14_4 : ∀ j, (stage14_4 j).IsWhole
  nbuf14_4 : grid14.bufCount reads14_4 false = 2
  hreads14_4 : ∀ i i' : grid14.Coords, (∀ a, reads14_4 a = true → i a = i' a) → cc14_transform_4 i = cc14_transform_4 i'
  hinb14_4 : ∀ (i : grid14.Coords) a, (cc14_transform_4 i a + 1) * S4000x2.size a ≤ S6000000x2.size a
  hwx14_4 : ∀ i : grid14.Coords, EltTy.bits .f32 = 32 ∨ (Rect.block (s := S6000000x2) S4000x2.size (cc14_transform_4 i) (hinb14_4 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S4000x1.size a ≤ S6000000x1.size a
  hwx15_0 : ∀ i : grid15.Coords, EltTy.bits .f32 = 32 ∨ (Rect.block (s := S6000000x1) S4000x1.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S4000x1.size a ≤ S6000000x1.size a
  hwx15_1 : ∀ i : grid15.Coords, EltTy.bits .f32 = 32 ∨ (Rect.block (s := S6000000x1) S4000x1.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S4000x2.size a ≤ S6000000x2.size a
  hwx15_2 : ∀ i : grid15.Coords, EltTy.bits .f32 = 32 ∨ (Rect.block (s := S6000000x2) S4000x2.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S4000x2.size a ≤ S6000000x2.size a
  hwx15_3 : ∀ i : grid15.Coords, EltTy.bits .f32 = 32 ∨ (Rect.block (s := S6000000x2) S4000x2.size (cc15_transform_3 i) (hinb15_3 i)).WholeWords (EltTy.packing .f32)
  hstage15_4 : ∀ j, (stage15_4 j).IsWhole
  nbuf15_4 : grid15.bufCount reads15_4 false = 2
  hreads15_4 : ∀ i i' : grid15.Coords, (∀ a, reads15_4 a = true → i a = i' a) → cc15_transform_4 i = cc15_transform_4 i'
  hinb15_4 : ∀ (i : grid15.Coords) a, (cc15_transform_4 i a + 1) * S4000x2.size a ≤ S6000000x2.size a
  hwx15_4 : ∀ i : grid15.Coords, EltTy.bits .f32 = 32 ∨ (Rect.block (s := S6000000x2) S4000x2.size (cc15_transform_4 i) (hinb15_4 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S4000x1.size a ≤ S6000000x1.size a
  hwx16_0 : ∀ i : grid16.Coords, EltTy.bits .f32 = 32 ∨ (Rect.block (s := S6000000x1) S4000x1.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S4000x1.size a ≤ S6000000x1.size a
  hwx16_1 : ∀ i : grid16.Coords, EltTy.bits .f32 = 32 ∨ (Rect.block (s := S6000000x1) S4000x1.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S4000x2.size a ≤ S6000000x2.size a
  hwx16_2 : ∀ i : grid16.Coords, EltTy.bits .f32 = 32 ∨ (Rect.block (s := S6000000x2) S4000x2.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S4000x2.size a ≤ S6000000x2.size a
  hwx16_3 : ∀ i : grid16.Coords, EltTy.bits .f32 = 32 ∨ (Rect.block (s := S6000000x2) S4000x2.size (cc16_transform_3 i) (hinb16_3 i)).WholeWords (EltTy.packing .f32)
  hstage16_4 : ∀ j, (stage16_4 j).IsWhole
  nbuf16_4 : grid16.bufCount reads16_4 false = 2
  hreads16_4 : ∀ i i' : grid16.Coords, (∀ a, reads16_4 a = true → i a = i' a) → cc16_transform_4 i = cc16_transform_4 i'
  hinb16_4 : ∀ (i : grid16.Coords) a, (cc16_transform_4 i a + 1) * S4000x2.size a ≤ S6000000x2.size a
  hwx16_4 : ∀ i : grid16.Coords, EltTy.bits .f32 = 32 ∨ (Rect.block (s := S6000000x2) S4000x2.size (cc16_transform_4 i) (hinb16_4 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S4000x1.size a ≤ S6000000x1.size a
  hwx17_0 : ∀ i : grid17.Coords, EltTy.bits .f32 = 32 ∨ (Rect.block (s := S6000000x1) S4000x1.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S4000x1.size a ≤ S6000000x1.size a
  hwx17_1 : ∀ i : grid17.Coords, EltTy.bits .f32 = 32 ∨ (Rect.block (s := S6000000x1) S4000x1.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S4000x2.size a ≤ S6000000x2.size a
  hwx17_2 : ∀ i : grid17.Coords, EltTy.bits .f32 = 32 ∨ (Rect.block (s := S6000000x2) S4000x2.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S4000x2.size a ≤ S6000000x2.size a
  hwx17_3 : ∀ i : grid17.Coords, EltTy.bits .f32 = 32 ∨ (Rect.block (s := S6000000x2) S4000x2.size (cc17_transform_3 i) (hinb17_3 i)).WholeWords (EltTy.packing .f32)
  hstage17_4 : ∀ j, (stage17_4 j).IsWhole
  nbuf17_4 : grid17.bufCount reads17_4 false = 2
  hreads17_4 : ∀ i i' : grid17.Coords, (∀ a, reads17_4 a = true → i a = i' a) → cc17_transform_4 i = cc17_transform_4 i'
  hinb17_4 : ∀ (i : grid17.Coords) a, (cc17_transform_4 i a + 1) * S4000x2.size a ≤ S6000000x2.size a
  hwx17_4 : ∀ i : grid17.Coords, EltTy.bits .f32 = 32 ∨ (Rect.block (s := S6000000x2) S4000x2.size (cc17_transform_4 i) (hinb17_4 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S10000x6.size a ≤ S500000x6.size a
  hwx18_0 : ∀ i : grid18.Coords, EltTy.bits .f32 = 32 ∨ (Rect.block (s := S500000x6) S10000x6.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S6x2.size a ≤ S6x2.size a
  hwx18_1 : ∀ i : grid18.Coords, EltTy.bits .f32 = 32 ∨ (Rect.block (s := S6x2) S6x2.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S1x2.size a ≤ S1x2.size a
  hwx18_2 : ∀ i : grid18.Coords, EltTy.bits .f32 = 32 ∨ (Rect.block (s := S1x2) S1x2.size (cc18_transform_2 i) (hinb18_2 i)).WholeWords (EltTy.packing .f32)
  hstage18_3 : ∀ j, (stage18_3 j).IsWhole
  nbuf18_3 : grid18.bufCount reads18_3 false = 2
  hreads18_3 : ∀ i i' : grid18.Coords, (∀ a, reads18_3 a = true → i a = i' a) → cc18_transform_3 i = cc18_transform_3 i'
  hinb18_3 : ∀ (i : grid18.Coords) a, (cc18_transform_3 i a + 1) * S10000x2.size a ≤ S500000x2.size a
  hwx18_3 : ∀ i : grid18.Coords, EltTy.bits .f32 = 32 ∨ (Rect.block (s := S500000x2) S10000x2.size (cc18_transform_3 i) (hinb18_3 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S10000x6.size a ≤ S2000000x6.size a
  hwx19_0 : ∀ i : grid19.Coords, EltTy.bits .f32 = 32 ∨ (Rect.block (s := S2000000x6) S10000x6.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S6x2.size a ≤ S6x2.size a
  hwx19_1 : ∀ i : grid19.Coords, EltTy.bits .f32 = 32 ∨ (Rect.block (s := S6x2) S6x2.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S1x2.size a ≤ S1x2.size a
  hwx19_2 : ∀ i : grid19.Coords, EltTy.bits .f32 = 32 ∨ (Rect.block (s := S1x2) S1x2.size (cc19_transform_2 i) (hinb19_2 i)).WholeWords (EltTy.packing .f32)
  hstage19_3 : ∀ j, (stage19_3 j).IsWhole
  nbuf19_3 : grid19.bufCount reads19_3 false = 2
  hreads19_3 : ∀ i i' : grid19.Coords, (∀ a, reads19_3 a = true → i a = i' a) → cc19_transform_3 i = cc19_transform_3 i'
  hinb19_3 : ∀ (i : grid19.Coords) a, (cc19_transform_3 i a + 1) * S10000x2.size a ≤ S2000000x2.size a
  hwx19_3 : ∀ i : grid19.Coords, EltTy.bits .f32 = 32 ∨ (Rect.block (s := S2000000x2) S10000x2.size (cc19_transform_3 i) (hinb19_3 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S4000x1.size a ≤ S6000000x1.size a
  hwx20_0 : ∀ i : grid20.Coords, EltTy.bits .f32 = 32 ∨ (Rect.block (s := S6000000x1) S4000x1.size (cc20_transform_0 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S4000x1.size a ≤ S6000000x1.size a
  hwx20_1 : ∀ i : grid20.Coords, EltTy.bits .f32 = 32 ∨ (Rect.block (s := S6000000x1) S4000x1.size (cc20_transform_1 i) (hinb20_1 i)).WholeWords (EltTy.packing .f32)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S4000x2.size a ≤ S6000000x2.size a
  hwx20_2 : ∀ i : grid20.Coords, EltTy.bits .f32 = 32 ∨ (Rect.block (s := S6000000x2) S4000x2.size (cc20_transform_2 i) (hinb20_2 i)).WholeWords (EltTy.packing .f32)
  hstage20_3 : ∀ j, (stage20_3 j).IsWhole
  nbuf20_3 : grid20.bufCount reads20_3 false = 2
  hreads20_3 : ∀ i i' : grid20.Coords, (∀ a, reads20_3 a = true → i a = i' a) → cc20_transform_3 i = cc20_transform_3 i'
  hinb20_3 : ∀ (i : grid20.Coords) a, (cc20_transform_3 i a + 1) * S4000x2.size a ≤ S6000000x2.size a
  hwx20_3 : ∀ i : grid20.Coords, EltTy.bits .f32 = 32 ∨ (Rect.block (s := S6000000x2) S4000x2.size (cc20_transform_3 i) (hinb20_3 i)).WholeWords (EltTy.packing .f32)
  hstage20_4 : ∀ j, (stage20_4 j).IsWhole
  nbuf20_4 : grid20.bufCount reads20_4 false = 2
  hreads20_4 : ∀ i i' : grid20.Coords, (∀ a, reads20_4 a = true → i a = i' a) → cc20_transform_4 i = cc20_transform_4 i'
  hinb20_4 : ∀ (i : grid20.Coords) a, (cc20_transform_4 i a + 1) * S4000x2.size a ≤ S6000000x2.size a
  hwx20_4 : ∀ i : grid20.Coords, EltTy.bits .f32 = 32 ∨ (Rect.block (s := S6000000x2) S4000x2.size (cc20_transform_4 i) (hinb20_4 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S4000x1.size a ≤ S6000000x1.size a
  hwx21_0 : ∀ i : grid21.Coords, EltTy.bits .f32 = 32 ∨ (Rect.block (s := S6000000x1) S4000x1.size (cc21_transform_0 i) (hinb21_0 i)).WholeWords (EltTy.packing .f32)
  hstage21_1 : ∀ j, (stage21_1 j).IsWhole
  nbuf21_1 : grid21.bufCount reads21_1 false = 2
  hreads21_1 : ∀ i i' : grid21.Coords, (∀ a, reads21_1 a = true → i a = i' a) → cc21_transform_1 i = cc21_transform_1 i'
  hinb21_1 : ∀ (i : grid21.Coords) a, (cc21_transform_1 i a + 1) * S4000x1.size a ≤ S6000000x1.size a
  hwx21_1 : ∀ i : grid21.Coords, EltTy.bits .f32 = 32 ∨ (Rect.block (s := S6000000x1) S4000x1.size (cc21_transform_1 i) (hinb21_1 i)).WholeWords (EltTy.packing .f32)
  hstage21_2 : ∀ j, (stage21_2 j).IsWhole
  nbuf21_2 : grid21.bufCount reads21_2 false = 2
  hreads21_2 : ∀ i i' : grid21.Coords, (∀ a, reads21_2 a = true → i a = i' a) → cc21_transform_2 i = cc21_transform_2 i'
  hinb21_2 : ∀ (i : grid21.Coords) a, (cc21_transform_2 i a + 1) * S4000x2.size a ≤ S6000000x2.size a
  hwx21_2 : ∀ i : grid21.Coords, EltTy.bits .f32 = 32 ∨ (Rect.block (s := S6000000x2) S4000x2.size (cc21_transform_2 i) (hinb21_2 i)).WholeWords (EltTy.packing .f32)
  hstage21_3 : ∀ j, (stage21_3 j).IsWhole
  nbuf21_3 : grid21.bufCount reads21_3 false = 2
  hreads21_3 : ∀ i i' : grid21.Coords, (∀ a, reads21_3 a = true → i a = i' a) → cc21_transform_3 i = cc21_transform_3 i'
  hinb21_3 : ∀ (i : grid21.Coords) a, (cc21_transform_3 i a + 1) * S4000x2.size a ≤ S6000000x2.size a
  hwx21_3 : ∀ i : grid21.Coords, EltTy.bits .f32 = 32 ∨ (Rect.block (s := S6000000x2) S4000x2.size (cc21_transform_3 i) (hinb21_3 i)).WholeWords (EltTy.packing .f32)
  hstage21_4 : ∀ j, (stage21_4 j).IsWhole
  nbuf21_4 : grid21.bufCount reads21_4 false = 2
  hreads21_4 : ∀ i i' : grid21.Coords, (∀ a, reads21_4 a = true → i a = i' a) → cc21_transform_4 i = cc21_transform_4 i'
  hinb21_4 : ∀ (i : grid21.Coords) a, (cc21_transform_4 i a + 1) * S4000x2.size a ≤ S6000000x2.size a
  hwx21_4 : ∀ i : grid21.Coords, EltTy.bits .f32 = 32 ∨ (Rect.block (s := S6000000x2) S4000x2.size (cc21_transform_4 i) (hinb21_4 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S4000x1.size a ≤ S6000000x1.size a
  hwx22_0 : ∀ i : grid22.Coords, EltTy.bits .f32 = 32 ∨ (Rect.block (s := S6000000x1) S4000x1.size (cc22_transform_0 i) (hinb22_0 i)).WholeWords (EltTy.packing .f32)
  hstage22_1 : ∀ j, (stage22_1 j).IsWhole
  nbuf22_1 : grid22.bufCount reads22_1 false = 2
  hreads22_1 : ∀ i i' : grid22.Coords, (∀ a, reads22_1 a = true → i a = i' a) → cc22_transform_1 i = cc22_transform_1 i'
  hinb22_1 : ∀ (i : grid22.Coords) a, (cc22_transform_1 i a + 1) * S4000x1.size a ≤ S6000000x1.size a
  hwx22_1 : ∀ i : grid22.Coords, EltTy.bits .f32 = 32 ∨ (Rect.block (s := S6000000x1) S4000x1.size (cc22_transform_1 i) (hinb22_1 i)).WholeWords (EltTy.packing .f32)
  hstage22_2 : ∀ j, (stage22_2 j).IsWhole
  nbuf22_2 : grid22.bufCount reads22_2 false = 2
  hreads22_2 : ∀ i i' : grid22.Coords, (∀ a, reads22_2 a = true → i a = i' a) → cc22_transform_2 i = cc22_transform_2 i'
  hinb22_2 : ∀ (i : grid22.Coords) a, (cc22_transform_2 i a + 1) * S4000x2.size a ≤ S6000000x2.size a
  hwx22_2 : ∀ i : grid22.Coords, EltTy.bits .f32 = 32 ∨ (Rect.block (s := S6000000x2) S4000x2.size (cc22_transform_2 i) (hinb22_2 i)).WholeWords (EltTy.packing .f32)
  hstage22_3 : ∀ j, (stage22_3 j).IsWhole
  nbuf22_3 : grid22.bufCount reads22_3 false = 2
  hreads22_3 : ∀ i i' : grid22.Coords, (∀ a, reads22_3 a = true → i a = i' a) → cc22_transform_3 i = cc22_transform_3 i'
  hinb22_3 : ∀ (i : grid22.Coords) a, (cc22_transform_3 i a + 1) * S4000x2.size a ≤ S6000000x2.size a
  hwx22_3 : ∀ i : grid22.Coords, EltTy.bits .f32 = 32 ∨ (Rect.block (s := S6000000x2) S4000x2.size (cc22_transform_3 i) (hinb22_3 i)).WholeWords (EltTy.packing .f32)
  hstage22_4 : ∀ j, (stage22_4 j).IsWhole
  nbuf22_4 : grid22.bufCount reads22_4 false = 2
  hreads22_4 : ∀ i i' : grid22.Coords, (∀ a, reads22_4 a = true → i a = i' a) → cc22_transform_4 i = cc22_transform_4 i'
  hinb22_4 : ∀ (i : grid22.Coords) a, (cc22_transform_4 i a + 1) * S4000x2.size a ≤ S6000000x2.size a
  hwx22_4 : ∀ i : grid22.Coords, EltTy.bits .f32 = 32 ∨ (Rect.block (s := S6000000x2) S4000x2.size (cc22_transform_4 i) (hinb22_4 i)).WholeWords (EltTy.packing .f32)
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S4000x1.size a ≤ S6000000x1.size a
  hwx23_0 : ∀ i : grid23.Coords, EltTy.bits .f32 = 32 ∨ (Rect.block (s := S6000000x1) S4000x1.size (cc23_transform_0 i) (hinb23_0 i)).WholeWords (EltTy.packing .f32)
  hstage23_1 : ∀ j, (stage23_1 j).IsWhole
  nbuf23_1 : grid23.bufCount reads23_1 false = 2
  hreads23_1 : ∀ i i' : grid23.Coords, (∀ a, reads23_1 a = true → i a = i' a) → cc23_transform_1 i = cc23_transform_1 i'
  hinb23_1 : ∀ (i : grid23.Coords) a, (cc23_transform_1 i a + 1) * S4000x1.size a ≤ S6000000x1.size a
  hwx23_1 : ∀ i : grid23.Coords, EltTy.bits .f32 = 32 ∨ (Rect.block (s := S6000000x1) S4000x1.size (cc23_transform_1 i) (hinb23_1 i)).WholeWords (EltTy.packing .f32)
  hstage23_2 : ∀ j, (stage23_2 j).IsWhole
  nbuf23_2 : grid23.bufCount reads23_2 false = 2
  hreads23_2 : ∀ i i' : grid23.Coords, (∀ a, reads23_2 a = true → i a = i' a) → cc23_transform_2 i = cc23_transform_2 i'
  hinb23_2 : ∀ (i : grid23.Coords) a, (cc23_transform_2 i a + 1) * S4000x2.size a ≤ S6000000x2.size a
  hwx23_2 : ∀ i : grid23.Coords, EltTy.bits .f32 = 32 ∨ (Rect.block (s := S6000000x2) S4000x2.size (cc23_transform_2 i) (hinb23_2 i)).WholeWords (EltTy.packing .f32)
  hstage23_3 : ∀ j, (stage23_3 j).IsWhole
  nbuf23_3 : grid23.bufCount reads23_3 false = 2
  hreads23_3 : ∀ i i' : grid23.Coords, (∀ a, reads23_3 a = true → i a = i' a) → cc23_transform_3 i = cc23_transform_3 i'
  hinb23_3 : ∀ (i : grid23.Coords) a, (cc23_transform_3 i a + 1) * S4000x2.size a ≤ S6000000x2.size a
  hwx23_3 : ∀ i : grid23.Coords, EltTy.bits .f32 = 32 ∨ (Rect.block (s := S6000000x2) S4000x2.size (cc23_transform_3 i) (hinb23_3 i)).WholeWords (EltTy.packing .f32)
  hstage23_4 : ∀ j, (stage23_4 j).IsWhole
  nbuf23_4 : grid23.bufCount reads23_4 false = 2
  hreads23_4 : ∀ i i' : grid23.Coords, (∀ a, reads23_4 a = true → i a = i' a) → cc23_transform_4 i = cc23_transform_4 i'
  hinb23_4 : ∀ (i : grid23.Coords) a, (cc23_transform_4 i a + 1) * S4000x2.size a ≤ S6000000x2.size a
  hwx23_4 : ∀ i : grid23.Coords, EltTy.bits .f32 = 32 ∨ (Rect.block (s := S6000000x2) S4000x2.size (cc23_transform_4 i) (hinb23_4 i)).WholeWords (EltTy.packing .f32)
  hrank24 : 0 < grid24.rank
  hstage24_0 : ∀ j, (stage24_0 j).IsWhole
  nbuf24_0 : grid24.bufCount reads24_0 false = 2
  hreads24_0 : ∀ i i' : grid24.Coords, (∀ a, reads24_0 a = true → i a = i' a) → cc24_transform_0 i = cc24_transform_0 i'
  hinb24_0 : ∀ (i : grid24.Coords) a, (cc24_transform_0 i a + 1) * S10000x6.size a ≤ S500000x6.size a
  hwx24_0 : ∀ i : grid24.Coords, EltTy.bits .f32 = 32 ∨ (Rect.block (s := S500000x6) S10000x6.size (cc24_transform_0 i) (hinb24_0 i)).WholeWords (EltTy.packing .f32)
  hstage24_1 : ∀ j, (stage24_1 j).IsWhole
  nbuf24_1 : grid24.bufCount reads24_1 true = 1
  hreads24_1 : ∀ i i' : grid24.Coords, (∀ a, reads24_1 a = true → i a = i' a) → cc24_transform_1 i = cc24_transform_1 i'
  hinb24_1 : ∀ (i : grid24.Coords) a, (cc24_transform_1 i a + 1) * S6x2.size a ≤ S6x2.size a
  hwx24_1 : ∀ i : grid24.Coords, EltTy.bits .f32 = 32 ∨ (Rect.block (s := S6x2) S6x2.size (cc24_transform_1 i) (hinb24_1 i)).WholeWords (EltTy.packing .f32)
  hstage24_2 : ∀ j, (stage24_2 j).IsWhole
  nbuf24_2 : grid24.bufCount reads24_2 true = 1
  hreads24_2 : ∀ i i' : grid24.Coords, (∀ a, reads24_2 a = true → i a = i' a) → cc24_transform_2 i = cc24_transform_2 i'
  hinb24_2 : ∀ (i : grid24.Coords) a, (cc24_transform_2 i a + 1) * S1x2.size a ≤ S1x2.size a
  hwx24_2 : ∀ i : grid24.Coords, EltTy.bits .f32 = 32 ∨ (Rect.block (s := S1x2) S1x2.size (cc24_transform_2 i) (hinb24_2 i)).WholeWords (EltTy.packing .f32)
  hstage24_3 : ∀ j, (stage24_3 j).IsWhole
  nbuf24_3 : grid24.bufCount reads24_3 false = 2
  hreads24_3 : ∀ i i' : grid24.Coords, (∀ a, reads24_3 a = true → i a = i' a) → cc24_transform_3 i = cc24_transform_3 i'
  hinb24_3 : ∀ (i : grid24.Coords) a, (cc24_transform_3 i a + 1) * S10000x2.size a ≤ S500000x2.size a
  hwx24_3 : ∀ i : grid24.Coords, EltTy.bits .f32 = 32 ∨ (Rect.block (s := S500000x2) S10000x2.size (cc24_transform_3 i) (hinb24_3 i)).WholeWords (EltTy.packing .f32)
  hrank25 : 0 < grid25.rank
  hstage25_0 : ∀ j, (stage25_0 j).IsWhole
  nbuf25_0 : grid25.bufCount reads25_0 false = 2
  hreads25_0 : ∀ i i' : grid25.Coords, (∀ a, reads25_0 a = true → i a = i' a) → cc25_transform_0 i = cc25_transform_0 i'
  hinb25_0 : ∀ (i : grid25.Coords) a, (cc25_transform_0 i a + 1) * S10000x6.size a ≤ S2000000x6.size a
  hwx25_0 : ∀ i : grid25.Coords, EltTy.bits .f32 = 32 ∨ (Rect.block (s := S2000000x6) S10000x6.size (cc25_transform_0 i) (hinb25_0 i)).WholeWords (EltTy.packing .f32)
  hstage25_1 : ∀ j, (stage25_1 j).IsWhole
  nbuf25_1 : grid25.bufCount reads25_1 true = 1
  hreads25_1 : ∀ i i' : grid25.Coords, (∀ a, reads25_1 a = true → i a = i' a) → cc25_transform_1 i = cc25_transform_1 i'
  hinb25_1 : ∀ (i : grid25.Coords) a, (cc25_transform_1 i a + 1) * S6x2.size a ≤ S6x2.size a
  hwx25_1 : ∀ i : grid25.Coords, EltTy.bits .f32 = 32 ∨ (Rect.block (s := S6x2) S6x2.size (cc25_transform_1 i) (hinb25_1 i)).WholeWords (EltTy.packing .f32)
  hstage25_2 : ∀ j, (stage25_2 j).IsWhole
  nbuf25_2 : grid25.bufCount reads25_2 true = 1
  hreads25_2 : ∀ i i' : grid25.Coords, (∀ a, reads25_2 a = true → i a = i' a) → cc25_transform_2 i = cc25_transform_2 i'
  hinb25_2 : ∀ (i : grid25.Coords) a, (cc25_transform_2 i a + 1) * S1x2.size a ≤ S1x2.size a
  hwx25_2 : ∀ i : grid25.Coords, EltTy.bits .f32 = 32 ∨ (Rect.block (s := S1x2) S1x2.size (cc25_transform_2 i) (hinb25_2 i)).WholeWords (EltTy.packing .f32)
  hstage25_3 : ∀ j, (stage25_3 j).IsWhole
  nbuf25_3 : grid25.bufCount reads25_3 false = 2
  hreads25_3 : ∀ i i' : grid25.Coords, (∀ a, reads25_3 a = true → i a = i' a) → cc25_transform_3 i = cc25_transform_3 i'
  hinb25_3 : ∀ (i : grid25.Coords) a, (cc25_transform_3 i a + 1) * S10000x2.size a ≤ S2000000x2.size a
  hwx25_3 : ∀ i : grid25.Coords, EltTy.bits .f32 = 32 ∨ (Rect.block (s := S2000000x2) S10000x2.size (cc25_transform_3 i) (hinb25_3 i)).WholeWords (EltTy.packing .f32)

variable [Facts₀]

def gather_S2000000x2_S6000000x1_S6000000x2_1_0_n_n_0_1_12 : GatherDims S2000000x2 S6000000x1 S6000000x2 where
  offsetDims := [1]
  collapsedSliceDims := [0]
  operandBatchingDims := []
  startIndicesBatchingDims := []
  startIndexMap := [0]
  indexVectorDim := 1
  sliceSizes := ![1, 2]
  wf := gather_S2000000x2_S6000000x1_S6000000x2_1_0_n_n_0_1_12_wf
def gather_S500000x2_S6000000x1_S6000000x2_1_0_n_n_0_1_12 : GatherDims S500000x2 S6000000x1 S6000000x2 where
  offsetDims := [1]
  collapsedSliceDims := [0]
  operandBatchingDims := []
  startIndicesBatchingDims := []
  startIndexMap := [0]
  indexVectorDim := 1
  sliceSizes := ![1, 2]
  wf := gather_S500000x2_S6000000x1_S6000000x2_1_0_n_n_0_1_12_wf
def gather_S2000000_S6000000x1_S6000000_n_0_n_n_0_1_1 : GatherDims S2000000 S6000000x1 S6000000 where
  offsetDims := []
  collapsedSliceDims := [0]
  operandBatchingDims := []
  startIndicesBatchingDims := []
  startIndexMap := [0]
  indexVectorDim := 1
  sliceSizes := ![1]
  wf := gather_S2000000_S6000000x1_S6000000_n_0_n_n_0_1_1_wf
def gather_S500000_S6000000x1_S6000000_n_0_n_n_0_1_1 : GatherDims S500000 S6000000x1 S6000000 where
  offsetDims := []
  collapsedSliceDims := [0]
  operandBatchingDims := []
  startIndicesBatchingDims := []
  startIndexMap := [0]
  indexVectorDim := 1
  sliceSizes := ![1]
  wf := gather_S500000_S6000000x1_S6000000_n_0_n_n_0_1_1_wf
def scatter_S500000x2_S6000000x1_S6000000x2_1_0_0_1 : ScatterDims S500000x2 S6000000x1 S6000000x2 where
  updateWindowDims := [1]
  insertedWindowDims := [0]
  scatterDimsToOperandDims := [0]
  indexVectorDim := 1
  wf := scatter_S500000x2_S6000000x1_S6000000x2_1_0_0_1_wf
def scatter_S2000000x2_S6000000x1_S6000000x2_1_0_0_1 : ScatterDims S2000000x2 S6000000x1 S6000000x2 where
  updateWindowDims := [1]
  insertedWindowDims := [0]
  scatterDimsToOperandDims := [0]
  indexVectorDim := 1
  wf := scatter_S2000000x2_S6000000x1_S6000000x2_1_0_0_1_wf

abbrev win0_0 : Pipeline.Window sig grid0 :=
  Pipeline.Window.ofSpec (Memref.whole main_arg0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S1x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S10000x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S1x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S10000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v41) S4000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S4000x2.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v33) S4000x2.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v50) S4000x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v75) S4000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v83) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S4000x2.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v67) S4000x2.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v84) S4000x2.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v109) S4000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v117) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v94) S4000x2.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v101) S4000x2.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v118) S4000x2.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v143) S4000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v151) S4000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v128) S4000x2.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v135) S4000x2.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v152) S4000x2.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v156) S10000x6.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v159) S6x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v162) S1x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v163) S10000x2.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v157) S10000x6.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v165) S6x2.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v168) S1x2.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v169) S10000x2.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v191) S4000x1.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v199) S4000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v176) S4000x2.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v183) S4000x2.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v200) S4000x2.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v225) S4000x1.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v233) S4000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v210) S4000x2.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v217) S4000x2.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v234) S4000x2.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v259) S4000x1.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v267) S4000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v244) S4000x2.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v251) S4000x2.size cc10_transform_3 reads10_3 false false 2 stage10_3 sem10_3
    hrank10 hreads10_3 hinb10_3 nbuf10_3 (Memref.isWhole_whole _) hwx10_3 hstage10_3

abbrev win10_4 : Pipeline.Window sig grid10 :=
  Pipeline.Window.ofSpec (Memref.whole main_v268) S4000x2.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v293) S4000x1.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v301) S4000x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v278) S4000x2.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v285) S4000x2.size cc11_transform_3 reads11_3 false false 2 stage11_3 sem11_3
    hrank11 hreads11_3 hinb11_3 nbuf11_3 (Memref.isWhole_whole _) hwx11_3 hstage11_3

abbrev win11_4 : Pipeline.Window sig grid11 :=
  Pipeline.Window.ofSpec (Memref.whole main_v302) S4000x2.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v306) S10000x6.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v309) S6x2.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v312) S1x2.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v313) S10000x2.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v307) S10000x6.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v315) S6x2.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v318) S1x2.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v319) S10000x2.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_v341) S4000x1.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v349) S4000x1.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v326) S4000x2.size cc14_transform_2 reads14_2 false false 2 stage14_2 sem14_2
    hrank14 hreads14_2 hinb14_2 nbuf14_2 (Memref.isWhole_whole _) hwx14_2 hstage14_2

abbrev win14_3 : Pipeline.Window sig grid14 :=
  Pipeline.Window.ofSpec (Memref.whole main_v333) S4000x2.size cc14_transform_3 reads14_3 false false 2 stage14_3 sem14_3
    hrank14 hreads14_3 hinb14_3 nbuf14_3 (Memref.isWhole_whole _) hwx14_3 hstage14_3

abbrev win14_4 : Pipeline.Window sig grid14 :=
  Pipeline.Window.ofSpec (Memref.whole main_v350) S4000x2.size cc14_transform_4 reads14_4 true false 2 stage14_4 sem14_4
    hrank14 hreads14_4 hinb14_4 nbuf14_4 (Memref.isWhole_whole _) hwx14_4 hstage14_4

abbrev win14 : Fin 5 → Pipeline.Window sig grid14 := fun | 0 => win14_0 | 1 => win14_1 | 2 => win14_2 | 3 => win14_3 | 4 => win14_4 | ⟨_ + 5, h⟩ => absurd h (Nat.not_lt.2 (Nat.le_add_left _ _))
abbrev spec14 : Fin 5 → Pipeline.WinSpec sig grid14.rank := fun w => (win14 w).toWinSpec

abbrev win15_0 : Pipeline.Window sig grid15 :=
  Pipeline.Window.ofSpec (Memref.whole main_v375) S4000x1.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v383) S4000x1.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v360) S4000x2.size cc15_transform_2 reads15_2 false false 2 stage15_2 sem15_2
    hrank15 hreads15_2 hinb15_2 nbuf15_2 (Memref.isWhole_whole _) hwx15_2 hstage15_2

abbrev win15_3 : Pipeline.Window sig grid15 :=
  Pipeline.Window.ofSpec (Memref.whole main_v367) S4000x2.size cc15_transform_3 reads15_3 false false 2 stage15_3 sem15_3
    hrank15 hreads15_3 hinb15_3 nbuf15_3 (Memref.isWhole_whole _) hwx15_3 hstage15_3

abbrev win15_4 : Pipeline.Window sig grid15 :=
  Pipeline.Window.ofSpec (Memref.whole main_v384) S4000x2.size cc15_transform_4 reads15_4 true false 2 stage15_4 sem15_4
    hrank15 hreads15_4 hinb15_4 nbuf15_4 (Memref.isWhole_whole _) hwx15_4 hstage15_4

abbrev win15 : Fin 5 → Pipeline.Window sig grid15 := fun | 0 => win15_0 | 1 => win15_1 | 2 => win15_2 | 3 => win15_3 | 4 => win15_4 | ⟨_ + 5, h⟩ => absurd h (Nat.not_lt.2 (Nat.le_add_left _ _))
abbrev spec15 : Fin 5 → Pipeline.WinSpec sig grid15.rank := fun w => (win15 w).toWinSpec

abbrev win16_0 : Pipeline.Window sig grid16 :=
  Pipeline.Window.ofSpec (Memref.whole main_v409) S4000x1.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v417) S4000x1.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v394) S4000x2.size cc16_transform_2 reads16_2 false false 2 stage16_2 sem16_2
    hrank16 hreads16_2 hinb16_2 nbuf16_2 (Memref.isWhole_whole _) hwx16_2 hstage16_2

abbrev win16_3 : Pipeline.Window sig grid16 :=
  Pipeline.Window.ofSpec (Memref.whole main_v401) S4000x2.size cc16_transform_3 reads16_3 false false 2 stage16_3 sem16_3
    hrank16 hreads16_3 hinb16_3 nbuf16_3 (Memref.isWhole_whole _) hwx16_3 hstage16_3

abbrev win16_4 : Pipeline.Window sig grid16 :=
  Pipeline.Window.ofSpec (Memref.whole main_v418) S4000x2.size cc16_transform_4 reads16_4 true false 2 stage16_4 sem16_4
    hrank16 hreads16_4 hinb16_4 nbuf16_4 (Memref.isWhole_whole _) hwx16_4 hstage16_4

abbrev win16 : Fin 5 → Pipeline.Window sig grid16 := fun | 0 => win16_0 | 1 => win16_1 | 2 => win16_2 | 3 => win16_3 | 4 => win16_4 | ⟨_ + 5, h⟩ => absurd h (Nat.not_lt.2 (Nat.le_add_left _ _))
abbrev spec16 : Fin 5 → Pipeline.WinSpec sig grid16.rank := fun w => (win16 w).toWinSpec

abbrev win17_0 : Pipeline.Window sig grid17 :=
  Pipeline.Window.ofSpec (Memref.whole main_v443) S4000x1.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v451) S4000x1.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_v428) S4000x2.size cc17_transform_2 reads17_2 false false 2 stage17_2 sem17_2
    hrank17 hreads17_2 hinb17_2 nbuf17_2 (Memref.isWhole_whole _) hwx17_2 hstage17_2

abbrev win17_3 : Pipeline.Window sig grid17 :=
  Pipeline.Window.ofSpec (Memref.whole main_v435) S4000x2.size cc17_transform_3 reads17_3 false false 2 stage17_3 sem17_3
    hrank17 hreads17_3 hinb17_3 nbuf17_3 (Memref.isWhole_whole _) hwx17_3 hstage17_3

abbrev win17_4 : Pipeline.Window sig grid17 :=
  Pipeline.Window.ofSpec (Memref.whole main_v452) S4000x2.size cc17_transform_4 reads17_4 true false 2 stage17_4 sem17_4
    hrank17 hreads17_4 hinb17_4 nbuf17_4 (Memref.isWhole_whole _) hwx17_4 hstage17_4

abbrev win17 : Fin 5 → Pipeline.Window sig grid17 := fun | 0 => win17_0 | 1 => win17_1 | 2 => win17_2 | 3 => win17_3 | 4 => win17_4 | ⟨_ + 5, h⟩ => absurd h (Nat.not_lt.2 (Nat.le_add_left _ _))
abbrev spec17 : Fin 5 → Pipeline.WinSpec sig grid17.rank := fun w => (win17 w).toWinSpec

abbrev win18_0 : Pipeline.Window sig grid18 :=
  Pipeline.Window.ofSpec (Memref.whole main_v456) S10000x6.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v459) S6x2.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v462) S1x2.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v463) S10000x2.size cc18_transform_3 reads18_3 true false 2 stage18_3 sem18_3
    hrank18 hreads18_3 hinb18_3 nbuf18_3 (Memref.isWhole_whole _) hwx18_3 hstage18_3

abbrev win18 : Fin 4 → Pipeline.Window sig grid18 := fun | 0 => win18_0 | 1 => win18_1 | 2 => win18_2 | 3 => win18_3 | ⟨_ + 4, h⟩ => absurd h (Nat.not_lt.2 (Nat.le_add_left _ _))
abbrev spec18 : Fin 4 → Pipeline.WinSpec sig grid18.rank := fun w => (win18 w).toWinSpec

abbrev win19_0 : Pipeline.Window sig grid19 :=
  Pipeline.Window.ofSpec (Memref.whole main_v457) S10000x6.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v465) S6x2.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v468) S1x2.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v469) S10000x2.size cc19_transform_3 reads19_3 true false 2 stage19_3 sem19_3
    hrank19 hreads19_3 hinb19_3 nbuf19_3 (Memref.isWhole_whole _) hwx19_3 hstage19_3

abbrev win19 : Fin 4 → Pipeline.Window sig grid19 := fun | 0 => win19_0 | 1 => win19_1 | 2 => win19_2 | 3 => win19_3 | ⟨_ + 4, h⟩ => absurd h (Nat.not_lt.2 (Nat.le_add_left _ _))
abbrev spec19 : Fin 4 → Pipeline.WinSpec sig grid19.rank := fun w => (win19 w).toWinSpec

abbrev win20_0 : Pipeline.Window sig grid20 :=
  Pipeline.Window.ofSpec (Memref.whole main_v491) S4000x1.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v499) S4000x1.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v476) S4000x2.size cc20_transform_2 reads20_2 false false 2 stage20_2 sem20_2
    hrank20 hreads20_2 hinb20_2 nbuf20_2 (Memref.isWhole_whole _) hwx20_2 hstage20_2

abbrev win20_3 : Pipeline.Window sig grid20 :=
  Pipeline.Window.ofSpec (Memref.whole main_v483) S4000x2.size cc20_transform_3 reads20_3 false false 2 stage20_3 sem20_3
    hrank20 hreads20_3 hinb20_3 nbuf20_3 (Memref.isWhole_whole _) hwx20_3 hstage20_3

abbrev win20_4 : Pipeline.Window sig grid20 :=
  Pipeline.Window.ofSpec (Memref.whole main_v500) S4000x2.size cc20_transform_4 reads20_4 true false 2 stage20_4 sem20_4
    hrank20 hreads20_4 hinb20_4 nbuf20_4 (Memref.isWhole_whole _) hwx20_4 hstage20_4

abbrev win20 : Fin 5 → Pipeline.Window sig grid20 := fun | 0 => win20_0 | 1 => win20_1 | 2 => win20_2 | 3 => win20_3 | 4 => win20_4 | ⟨_ + 5, h⟩ => absurd h (Nat.not_lt.2 (Nat.le_add_left _ _))
abbrev spec20 : Fin 5 → Pipeline.WinSpec sig grid20.rank := fun w => (win20 w).toWinSpec

abbrev win21_0 : Pipeline.Window sig grid21 :=
  Pipeline.Window.ofSpec (Memref.whole main_v525) S4000x1.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v533) S4000x1.size cc21_transform_1 reads21_1 false false 2 stage21_1 sem21_1
    hrank21 hreads21_1 hinb21_1 nbuf21_1 (Memref.isWhole_whole _) hwx21_1 hstage21_1

abbrev win21_2 : Pipeline.Window sig grid21 :=
  Pipeline.Window.ofSpec (Memref.whole main_v510) S4000x2.size cc21_transform_2 reads21_2 false false 2 stage21_2 sem21_2
    hrank21 hreads21_2 hinb21_2 nbuf21_2 (Memref.isWhole_whole _) hwx21_2 hstage21_2

abbrev win21_3 : Pipeline.Window sig grid21 :=
  Pipeline.Window.ofSpec (Memref.whole main_v517) S4000x2.size cc21_transform_3 reads21_3 false false 2 stage21_3 sem21_3
    hrank21 hreads21_3 hinb21_3 nbuf21_3 (Memref.isWhole_whole _) hwx21_3 hstage21_3

abbrev win21_4 : Pipeline.Window sig grid21 :=
  Pipeline.Window.ofSpec (Memref.whole main_v534) S4000x2.size cc21_transform_4 reads21_4 true false 2 stage21_4 sem21_4
    hrank21 hreads21_4 hinb21_4 nbuf21_4 (Memref.isWhole_whole _) hwx21_4 hstage21_4

abbrev win21 : Fin 5 → Pipeline.Window sig grid21 := fun | 0 => win21_0 | 1 => win21_1 | 2 => win21_2 | 3 => win21_3 | 4 => win21_4 | ⟨_ + 5, h⟩ => absurd h (Nat.not_lt.2 (Nat.le_add_left _ _))
abbrev spec21 : Fin 5 → Pipeline.WinSpec sig grid21.rank := fun w => (win21 w).toWinSpec

abbrev win22_0 : Pipeline.Window sig grid22 :=
  Pipeline.Window.ofSpec (Memref.whole main_v559) S4000x1.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v567) S4000x1.size cc22_transform_1 reads22_1 false false 2 stage22_1 sem22_1
    hrank22 hreads22_1 hinb22_1 nbuf22_1 (Memref.isWhole_whole _) hwx22_1 hstage22_1

abbrev win22_2 : Pipeline.Window sig grid22 :=
  Pipeline.Window.ofSpec (Memref.whole main_v544) S4000x2.size cc22_transform_2 reads22_2 false false 2 stage22_2 sem22_2
    hrank22 hreads22_2 hinb22_2 nbuf22_2 (Memref.isWhole_whole _) hwx22_2 hstage22_2

abbrev win22_3 : Pipeline.Window sig grid22 :=
  Pipeline.Window.ofSpec (Memref.whole main_v551) S4000x2.size cc22_transform_3 reads22_3 false false 2 stage22_3 sem22_3
    hrank22 hreads22_3 hinb22_3 nbuf22_3 (Memref.isWhole_whole _) hwx22_3 hstage22_3

abbrev win22_4 : Pipeline.Window sig grid22 :=
  Pipeline.Window.ofSpec (Memref.whole main_v568) S4000x2.size cc22_transform_4 reads22_4 true false 2 stage22_4 sem22_4
    hrank22 hreads22_4 hinb22_4 nbuf22_4 (Memref.isWhole_whole _) hwx22_4 hstage22_4

abbrev win22 : Fin 5 → Pipeline.Window sig grid22 := fun | 0 => win22_0 | 1 => win22_1 | 2 => win22_2 | 3 => win22_3 | 4 => win22_4 | ⟨_ + 5, h⟩ => absurd h (Nat.not_lt.2 (Nat.le_add_left _ _))
abbrev spec22 : Fin 5 → Pipeline.WinSpec sig grid22.rank := fun w => (win22 w).toWinSpec

abbrev win23_0 : Pipeline.Window sig grid23 :=
  Pipeline.Window.ofSpec (Memref.whole main_v593) S4000x1.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_v601) S4000x1.size cc23_transform_1 reads23_1 false false 2 stage23_1 sem23_1
    hrank23 hreads23_1 hinb23_1 nbuf23_1 (Memref.isWhole_whole _) hwx23_1 hstage23_1

abbrev win23_2 : Pipeline.Window sig grid23 :=
  Pipeline.Window.ofSpec (Memref.whole main_v578) S4000x2.size cc23_transform_2 reads23_2 false false 2 stage23_2 sem23_2
    hrank23 hreads23_2 hinb23_2 nbuf23_2 (Memref.isWhole_whole _) hwx23_2 hstage23_2

abbrev win23_3 : Pipeline.Window sig grid23 :=
  Pipeline.Window.ofSpec (Memref.whole main_v585) S4000x2.size cc23_transform_3 reads23_3 false false 2 stage23_3 sem23_3
    hrank23 hreads23_3 hinb23_3 nbuf23_3 (Memref.isWhole_whole _) hwx23_3 hstage23_3

abbrev win23_4 : Pipeline.Window sig grid23 :=
  Pipeline.Window.ofSpec (Memref.whole main_v602) S4000x2.size cc23_transform_4 reads23_4 true false 2 stage23_4 sem23_4
    hrank23 hreads23_4 hinb23_4 nbuf23_4 (Memref.isWhole_whole _) hwx23_4 hstage23_4

abbrev win23 : Fin 5 → Pipeline.Window sig grid23 := fun | 0 => win23_0 | 1 => win23_1 | 2 => win23_2 | 3 => win23_3 | 4 => win23_4 | ⟨_ + 5, h⟩ => absurd h (Nat.not_lt.2 (Nat.le_add_left _ _))
abbrev spec23 : Fin 5 → Pipeline.WinSpec sig grid23.rank := fun w => (win23 w).toWinSpec

abbrev win24_0 : Pipeline.Window sig grid24 :=
  Pipeline.Window.ofSpec (Memref.whole main_v606) S10000x6.size cc24_transform_0 reads24_0 false false 2 stage24_0 sem24_0
    hrank24 hreads24_0 hinb24_0 nbuf24_0 (Memref.isWhole_whole _) hwx24_0 hstage24_0

abbrev win24_1 : Pipeline.Window sig grid24 :=
  Pipeline.Window.ofSpec (Memref.whole main_v609) S6x2.size cc24_transform_1 reads24_1 false true 1 stage24_1 sem24_1
    hrank24 hreads24_1 hinb24_1 nbuf24_1 (Memref.isWhole_whole _) hwx24_1 hstage24_1

abbrev win24_2 : Pipeline.Window sig grid24 :=
  Pipeline.Window.ofSpec (Memref.whole main_v612) S1x2.size cc24_transform_2 reads24_2 false true 1 stage24_2 sem24_2
    hrank24 hreads24_2 hinb24_2 nbuf24_2 (Memref.isWhole_whole _) hwx24_2 hstage24_2

abbrev win24_3 : Pipeline.Window sig grid24 :=
  Pipeline.Window.ofSpec (Memref.whole main_v613) S10000x2.size cc24_transform_3 reads24_3 true false 2 stage24_3 sem24_3
    hrank24 hreads24_3 hinb24_3 nbuf24_3 (Memref.isWhole_whole _) hwx24_3 hstage24_3

abbrev win24 : Fin 4 → Pipeline.Window sig grid24 := fun | 0 => win24_0 | 1 => win24_1 | 2 => win24_2 | 3 => win24_3 | ⟨_ + 4, h⟩ => absurd h (Nat.not_lt.2 (Nat.le_add_left _ _))
abbrev spec24 : Fin 4 → Pipeline.WinSpec sig grid24.rank := fun w => (win24 w).toWinSpec

abbrev win25_0 : Pipeline.Window sig grid25 :=
  Pipeline.Window.ofSpec (Memref.whole main_v607) S10000x6.size cc25_transform_0 reads25_0 false false 2 stage25_0 sem25_0
    hrank25 hreads25_0 hinb25_0 nbuf25_0 (Memref.isWhole_whole _) hwx25_0 hstage25_0

abbrev win25_1 : Pipeline.Window sig grid25 :=
  Pipeline.Window.ofSpec (Memref.whole main_v615) S6x2.size cc25_transform_1 reads25_1 false true 1 stage25_1 sem25_1
    hrank25 hreads25_1 hinb25_1 nbuf25_1 (Memref.isWhole_whole _) hwx25_1 hstage25_1

abbrev win25_2 : Pipeline.Window sig grid25 :=
  Pipeline.Window.ofSpec (Memref.whole main_v618) S1x2.size cc25_transform_2 reads25_2 false true 1 stage25_2 sem25_2
    hrank25 hreads25_2 hinb25_2 nbuf25_2 (Memref.isWhole_whole _) hwx25_2 hstage25_2

abbrev win25_3 : Pipeline.Window sig grid25 :=
  Pipeline.Window.ofSpec (Memref.whole main_v619) S10000x2.size cc25_transform_3 reads25_3 true false 2 stage25_3 sem25_3
    hrank25 hreads25_3 hinb25_3 nbuf25_3 (Memref.isWhole_whole _) hwx25_3 hstage25_3

abbrev win25 : Fin 4 → Pipeline.Window sig grid25 := fun | 0 => win25_0 | 1 => win25_1 | 2 => win25_2 | 3 => win25_3 | ⟨_ + 4, h⟩ => absurd h (Nat.not_lt.2 (Nat.le_add_left _ _))
abbrev spec25 : Fin 4 → Pipeline.WinSpec sig grid25.rank := fun w => (win25 w).toWinSpec

class Facts : Prop extends Facts₀ where

variable [Facts]
-- ==== ReferenceIdeal.lean ====
abbrev S2000000x1 : Shape := ⟨2, ![2000000, 1]⟩
abbrev S500000x1 : Shape := ⟨2, ![500000, 1]⟩
abbrev S2000000 : Shape := ⟨1, ![2000000]⟩
abbrev S500000 : Shape := ⟨1, ![500000]⟩
abbrev S6000000 : Shape := ⟨1, ![6000000]⟩
abbrev S1x2 : Shape := ⟨2, ![1, 2]⟩
abbrev S2 : Shape := ⟨1, ![2]⟩
abbrev S4x6x2 : Shape := ⟨3, ![4, 6, 2]⟩
abbrev S4x2 : Shape := ⟨2, ![4, 2]⟩
abbrev S_ : Shape := ⟨0, ![]⟩
abbrev S2000000x2 : Shape := ⟨2, ![2000000, 2]⟩
abbrev S500000x2 : Shape := ⟨2, ![500000, 2]⟩
abbrev S6000000x1 : Shape := ⟨2, ![6000000, 1]⟩
abbrev S6000000x2 : Shape := ⟨2, ![6000000, 2]⟩
abbrev S500000x6 : Shape := ⟨2, ![500000, 6]⟩
abbrev S1x6x2 : Shape := ⟨3, ![1, 6, 2]⟩
abbrev S6x2 : Shape := ⟨2, ![6, 2]⟩
abbrev S2000000x6 : Shape := ⟨2, ![2000000, 6]⟩

abbrev nBuf : Space → Nat
  | .hbm => 850
  | .vmem => 0
  | .smem => 0
  | _ => 0

abbrev hbmTy0_0 (i : Nat) : BufTy := match i % 128 with
  | 0 => ⟨S2000000x1, .f32⟩
  | 1 => ⟨S500000x1, .f32⟩
  | 2 => ⟨S2000000, .f32⟩
  | 3 => ⟨S500000, .f32⟩
  | 4 => ⟨S6000000, .i32⟩
  | 5 => ⟨S6000000, .i32⟩
  | 6 => ⟨S6000000, .i32⟩
  | 7 => ⟨S6000000, .i32⟩
  | 8 => ⟨S1x2, .f32⟩
  | 9 => ⟨S2, .f32⟩
  | 10 => ⟨S1x2, .f32⟩
  | 11 => ⟨S2, .f32⟩
  | 12 => ⟨S4x6x2, .f32⟩
  | 13 => ⟨S4x2, .f32⟩
  | 14 => ⟨S4x6x2, .f32⟩
  | 15 => ⟨S4x2, .f32⟩
  | 16 => ⟨S_, .f32⟩
  | 17 => ⟨S2000000, .f32⟩
  | 18 => ⟨S2000000, .i1⟩
  | 19 => ⟨S_, .f32⟩
  | 20 => ⟨S_, .f32⟩
  | 21 => ⟨S2000000, .f32⟩
  | 22 => ⟨S2000000, .f32⟩
  | 23 => ⟨S_, .f32⟩
  | 24 => ⟨S2000000, .f32⟩
  | 25 => ⟨S2000000, .i1⟩
  | 26 => ⟨S_, .f32⟩
  | 27 => ⟨S2000000, .f32⟩
  | 28 => ⟨S2000000, .f32⟩
  | 29 => ⟨S_, .f32⟩
  | 30 => ⟨S_, .f32⟩
  | 31 => ⟨S2000000, .f32⟩
  | 32 => ⟨S2000000, .f32⟩
  | 33 => ⟨S_, .f32⟩
  | 34 => ⟨S500000, .f32⟩
  | 35 => ⟨S500000, .i1⟩
  | 36 => ⟨S_, .f32⟩
  | 37 => ⟨S_, .f32⟩
  | 38 => ⟨S500000, .f32⟩
  | 39 => ⟨S500000, .f32⟩
  | 40 => ⟨S_, .f32⟩
  | 41 => ⟨S500000, .f32⟩
  | 42 => ⟨S500000, .i1⟩
  | 43 => ⟨S_, .f32⟩
  | 44 => ⟨S500000, .f32⟩
  | 45 => ⟨S500000, .f32⟩
  | 46 => ⟨S_, .f32⟩
  | 47 => ⟨S_, .f32⟩
  | 48 => ⟨S500000, .f32⟩
  | 49 => ⟨S500000, .f32⟩
  | 50 => ⟨S2000000x2, .f32⟩
  | 51 => ⟨S1x2, .f32⟩
  | 52 => ⟨S2000000x2, .f32⟩
  | 53 => ⟨S2000000x2, .f32⟩
  | 54 => ⟨S500000x2, .f32⟩
  | 55 => ⟨S1x2, .f32⟩
  | 56 => ⟨S500000x2, .f32⟩
  | 57 => ⟨S500000x2, .f32⟩
  | 58 => ⟨S_, .i32⟩
  | 59 => ⟨S6000000, .i32⟩
  | 60 => ⟨S6000000, .i1⟩
  | 61 => ⟨S_, .i32⟩
  | 62 => ⟨S6000000, .i32⟩
  | 63 => ⟨S6000000, .i32⟩
  | 64 => ⟨S6000000, .i32⟩
  | 65 => ⟨S6000000x1, .i32⟩
  | 66 => ⟨S6000000, .f32⟩
  | 67 => ⟨S_, .i32⟩
  | 68 => ⟨S6000000, .i32⟩
  | 69 => ⟨S6000000, .i1⟩
  | 70 => ⟨S_, .i32⟩
  | 71 => ⟨S6000000, .i32⟩
  | 72 => ⟨S6000000, .i32⟩
  | 73 => ⟨S6000000, .i32⟩
  | 74 => ⟨S6000000x1, .i32⟩
  | 75 => ⟨S6000000, .f32⟩
  | 76 => ⟨S6000000, .f32⟩
  | 77 => ⟨S6000000x1, .f32⟩
  | 78 => ⟨S_, .i32⟩
  | 79 => ⟨S6000000, .i32⟩
  | 80 => ⟨S6000000, .i1⟩
  | 81 => ⟨S_, .i32⟩
  | 82 => ⟨S6000000, .i32⟩
  | 83 => ⟨S6000000, .i32⟩
  | 84 => ⟨S6000000, .i32⟩
  | 85 => ⟨S6000000x1, .i32⟩
  | 86 => ⟨S6000000x2, .f32⟩
  | 87 => ⟨S6000000x2, .f32⟩
  | 88 => ⟨S6000000x2, .f32⟩
  | 89 => ⟨S_, .i32⟩
  | 90 => ⟨S6000000, .i32⟩
  | 91 => ⟨S6000000, .i1⟩
  | 92 => ⟨S_, .i32⟩
  | 93 => ⟨S6000000, .i32⟩
  | 94 => ⟨S6000000, .i32⟩
  | 95 => ⟨S6000000, .i32⟩
  | 96 => ⟨S6000000x1, .i32⟩
  | 97 => ⟨S6000000x2, .f32⟩
  | 98 => ⟨S6000000x2, .f32⟩
  | 99 => ⟨S_, .f32⟩
  | 100 => ⟨S500000x2, .f32⟩
  | 101 => ⟨S6000000x1, .i32⟩
  | 102 => ⟨S500000x2, .f32⟩
  | 103 => ⟨S_, .i32⟩
  | 104 => ⟨S6000000, .i32⟩
  | 105 => ⟨S6000000, .i1⟩
  | 106 => ⟨S_, .i32⟩
  | 107 => ⟨S6000000, .i32⟩
  | 108 => ⟨S6000000, .i32⟩
  | 109 => ⟨S6000000, .i32⟩
  | 110 => ⟨S6000000x1, .i32⟩
  | 111 => ⟨S6000000, .f32⟩
  | 112 => ⟨S_, .i32⟩
  | 113 => ⟨S6000000, .i32⟩
  | 114 => ⟨S6000000, .i1⟩
  | 115 => ⟨S_, .i32⟩
  | 116 => ⟨S6000000, .i32⟩
  | 117 => ⟨S6000000, .i32⟩
  | 118 => ⟨S6000000, .i32⟩
  | 119 => ⟨S6000000x1, .i32⟩
  | 120 => ⟨S6000000, .f32⟩
  | 121 => ⟨S6000000, .f32⟩
  | 122 => ⟨S6000000x1, .f32⟩
  | 123 => ⟨S_, .i32⟩
  | 124 => ⟨S6000000, .i32⟩
  | 125 => ⟨S6000000, .i1⟩
  | 126 => ⟨S_, .i32⟩
  | 127 => ⟨S6000000, .i32⟩
  | _ => ⟨S2000000x1, .f32⟩

abbrev hbmTy0_1 (i : Nat) : BufTy := match i % 128 with
  | 0 => ⟨S6000000, .i32⟩
  | 1 => ⟨S6000000, .i32⟩
  | 2 => ⟨S6000000x1, .i32⟩
  | 3 => ⟨S6000000x2, .f32⟩
  | 4 => ⟨S6000000x2, .f32⟩
  | 5 => ⟨S6000000x2, .f32⟩
  | 6 => ⟨S_, .i32⟩
  | 7 => ⟨S6000000, .i32⟩
  | 8 => ⟨S6000000, .i1⟩
  | 9 => ⟨S_, .i32⟩
  | 10 => ⟨S6000000, .i32⟩
  | 11 => ⟨S6000000, .i32⟩
  | 12 => ⟨S6000000, .i32⟩
  | 13 => ⟨S6000000x1, .i32⟩
  | 14 => ⟨S6000000x2, .f32⟩
  | 15 => ⟨S6000000x2, .f32⟩
  | 16 => ⟨S_, .f32⟩
  | 17 => ⟨S500000x2, .f32⟩
  | 18 => ⟨S6000000x1, .i32⟩
  | 19 => ⟨S500000x2, .f32⟩
  | 20 => ⟨S_, .i32⟩
  | 21 => ⟨S6000000, .i32⟩
  | 22 => ⟨S6000000, .i1⟩
  | 23 => ⟨S_, .i32⟩
  | 24 => ⟨S6000000, .i32⟩
  | 25 => ⟨S6000000, .i32⟩
  | 26 => ⟨S6000000, .i32⟩
  | 27 => ⟨S6000000x1, .i32⟩
  | 28 => ⟨S6000000, .f32⟩
  | 29 => ⟨S_, .i32⟩
  | 30 => ⟨S6000000, .i32⟩
  | 31 => ⟨S6000000, .i1⟩
  | 32 => ⟨S_, .i32⟩
  | 33 => ⟨S6000000, .i32⟩
  | 34 => ⟨S6000000, .i32⟩
  | 35 => ⟨S6000000, .i32⟩
  | 36 => ⟨S6000000x1, .i32⟩
  | 37 => ⟨S6000000, .f32⟩
  | 38 => ⟨S6000000, .f32⟩
  | 39 => ⟨S6000000x1, .f32⟩
  | 40 => ⟨S_, .i32⟩
  | 41 => ⟨S6000000, .i32⟩
  | 42 => ⟨S6000000, .i1⟩
  | 43 => ⟨S_, .i32⟩
  | 44 => ⟨S6000000, .i32⟩
  | 45 => ⟨S6000000, .i32⟩
  | 46 => ⟨S6000000, .i32⟩
  | 47 => ⟨S6000000x1, .i32⟩
  | 48 => ⟨S6000000x2, .f32⟩
  | 49 => ⟨S6000000x2, .f32⟩
  | 50 => ⟨S6000000x2, .f32⟩
  | 51 => ⟨S_, .i32⟩
  | 52 => ⟨S6000000, .i32⟩
  | 53 => ⟨S6000000, .i1⟩
  | 54 => ⟨S_, .i32⟩
  | 55 => ⟨S6000000, .i32⟩
  | 56 => ⟨S6000000, .i32⟩
  | 57 => ⟨S6000000, .i32⟩
  | 58 => ⟨S6000000x1, .i32⟩
  | 59 => ⟨S6000000x2, .f32⟩
  | 60 => ⟨S6000000x2, .f32⟩
  | 61 => ⟨S_, .f32⟩
  | 62 => ⟨S2000000x2, .f32⟩
  | 63 => ⟨S6000000x1, .i32⟩
  | 64 => ⟨S2000000x2, .f32⟩
  | 65 => ⟨S_, .i32⟩
  | 66 => ⟨S6000000, .i32⟩
  | 67 => ⟨S6000000, .i1⟩
  | 68 => ⟨S_, .i32⟩
  | 69 => ⟨S6000000, .i32⟩
  | 70 => ⟨S6000000, .i32⟩
  | 71 => ⟨S6000000, .i32⟩
  | 72 => ⟨S6000000x1, .i32⟩
  | 73 => ⟨S6000000, .f32⟩
  | 74 => ⟨S_, .i32⟩
  | 75 => ⟨S6000000, .i32⟩
  | 76 => ⟨S6000000, .i1⟩
  | 77 => ⟨S_, .i32⟩
  | 78 => ⟨S6000000, .i32⟩
  | 79 => ⟨S6000000, .i32⟩
  | 80 => ⟨S6000000, .i32⟩
  | 81 => ⟨S6000000x1, .i32⟩
  | 82 => ⟨S6000000, .f32⟩
  | 83 => ⟨S6000000, .f32⟩
  | 84 => ⟨S6000000x1, .f32⟩
  | 85 => ⟨S_, .i32⟩
  | 86 => ⟨S6000000, .i32⟩
  | 87 => ⟨S6000000, .i1⟩
  | 88 => ⟨S_, .i32⟩
  | 89 => ⟨S6000000, .i32⟩
  | 90 => ⟨S6000000, .i32⟩
  | 91 => ⟨S6000000, .i32⟩
  | 92 => ⟨S6000000x1, .i32⟩
  | 93 => ⟨S6000000x2, .f32⟩
  | 94 => ⟨S6000000x2, .f32⟩
  | 95 => ⟨S6000000x2, .f32⟩
  | 96 => ⟨S_, .i32⟩
  | 97 => ⟨S6000000, .i32⟩
  | 98 => ⟨S6000000, .i1⟩
  | 99 => ⟨S_, .i32⟩
  | 100 => ⟨S6000000, .i32⟩
  | 101 => ⟨S6000000, .i32⟩
  | 102 => ⟨S6000000, .i32⟩
  | 103 => ⟨S6000000x1, .i32⟩
  | 104 => ⟨S6000000x2, .f32⟩
  | 105 => ⟨S6000000x2, .f32⟩
  | 106 => ⟨S_, .f32⟩
  | 107 => ⟨S2000000x2, .f32⟩
  | 108 => ⟨S6000000x1, .i32⟩
  | 109 => ⟨S2000000x2, .f32⟩
  | 110 => ⟨S500000x6, .f32⟩
  | 111 => ⟨S1x6x2, .f32⟩
  | 112 => ⟨S6x2, .f32⟩
  | 113 => ⟨S500000x2, .f32⟩
  | 114 => ⟨S1x2, .f32⟩
  | 115 => ⟨S2, .f32⟩
  | 116 => ⟨S1x2, .f32⟩
  | 117 => ⟨S500000x2, .f32⟩
  | 118 => ⟨S500000x2, .f32⟩
  | 119 => ⟨S2000000x6, .f32⟩
  | 120 => ⟨S1x6x2, .f32⟩
  | 121 => ⟨S6x2, .f32⟩
  | 122 => ⟨S2000000x2, .f32⟩
  | 123 => ⟨S1x2, .f32⟩
  | 124 => ⟨S2, .f32⟩
  | 125 => ⟨S1x2, .f32⟩
  | 126 => ⟨S2000000x2, .f32⟩
  | 127 => ⟨S2000000x2, .f32⟩
  | _ => ⟨S2000000x1, .f32⟩

abbrev hbmTy0_2 (i : Nat) : BufTy := match i % 128 with
  | 0 => ⟨S_, .i32⟩
  | 1 => ⟨S6000000, .i32⟩
  | 2 => ⟨S6000000, .i1⟩
  | 3 => ⟨S_, .i32⟩
  | 4 => ⟨S6000000, .i32⟩
  | 5 => ⟨S6000000, .i32⟩
  | 6 => ⟨S6000000, .i32⟩
  | 7 => ⟨S6000000x1, .i32⟩
  | 8 => ⟨S6000000, .f32⟩
  | 9 => ⟨S_, .i32⟩
  | 10 => ⟨S6000000, .i32⟩
  | 11 => ⟨S6000000, .i1⟩
  | 12 => ⟨S_, .i32⟩
  | 13 => ⟨S6000000, .i32⟩
  | 14 => ⟨S6000000, .i32⟩
  | 15 => ⟨S6000000, .i32⟩
  | 16 => ⟨S6000000x1, .i32⟩
  | 17 => ⟨S6000000, .f32⟩
  | 18 => ⟨S6000000, .f32⟩
  | 19 => ⟨S6000000x1, .f32⟩
  | 20 => ⟨S_, .i32⟩
  | 21 => ⟨S6000000, .i32⟩
  | 22 => ⟨S6000000, .i1⟩
  | 23 => ⟨S_, .i32⟩
  | 24 => ⟨S6000000, .i32⟩
  | 25 => ⟨S6000000, .i32⟩
  | 26 => ⟨S6000000, .i32⟩
  | 27 => ⟨S6000000x1, .i32⟩
  | 28 => ⟨S6000000x2, .f32⟩
  | 29 => ⟨S6000000x2, .f32⟩
  | 30 => ⟨S6000000x2, .f32⟩
  | 31 => ⟨S_, .i32⟩
  | 32 => ⟨S6000000, .i32⟩
  | 33 => ⟨S6000000, .i1⟩
  | 34 => ⟨S_, .i32⟩
  | 35 => ⟨S6000000, .i32⟩
  | 36 => ⟨S6000000, .i32⟩
  | 37 => ⟨S6000000, .i32⟩
  | 38 => ⟨S6000000x1, .i32⟩
  | 39 => ⟨S6000000x2, .f32⟩
  | 40 => ⟨S6000000x2, .f32⟩
  | 41 => ⟨S_, .f32⟩
  | 42 => ⟨S500000x2, .f32⟩
  | 43 => ⟨S6000000x1, .i32⟩
  | 44 => ⟨S500000x2, .f32⟩
  | 45 => ⟨S_, .i32⟩
  | 46 => ⟨S6000000, .i32⟩
  | 47 => ⟨S6000000, .i1⟩
  | 48 => ⟨S_, .i32⟩
  | 49 => ⟨S6000000, .i32⟩
  | 50 => ⟨S6000000, .i32⟩
  | 51 => ⟨S6000000, .i32⟩
  | 52 => ⟨S6000000x1, .i32⟩
  | 53 => ⟨S6000000, .f32⟩
  | 54 => ⟨S_, .i32⟩
  | 55 => ⟨S6000000, .i32⟩
  | 56 => ⟨S6000000, .i1⟩
  | 57 => ⟨S_, .i32⟩
  | 58 => ⟨S6000000, .i32⟩
  | 59 => ⟨S6000000, .i32⟩
  | 60 => ⟨S6000000, .i32⟩
  | 61 => ⟨S6000000x1, .i32⟩
  | 62 => ⟨S6000000, .f32⟩
  | 63 => ⟨S6000000, .f32⟩
  | 64 => ⟨S6000000x1, .f32⟩
  | 65 => ⟨S_, .i32⟩
  | 66 => ⟨S6000000, .i32⟩
  | 67 => ⟨S6000000, .i1⟩
  | 68 => ⟨S_, .i32⟩
  | 69 => ⟨S6000000, .i32⟩
  | 70 => ⟨S6000000, .i32⟩
  | 71 => ⟨S6000000, .i32⟩
  | 72 => ⟨S6000000x1, .i32⟩
  | 73 => ⟨S6000000x2, .f32⟩
  | 74 => ⟨S6000000x2, .f32⟩
  | 75 => ⟨S6000000x2, .f32⟩
  | 76 => ⟨S_, .i32⟩
  | 77 => ⟨S6000000, .i32⟩
  | 78 => ⟨S6000000, .i1⟩
  | 79 => ⟨S_, .i32⟩
  | 80 => ⟨S6000000, .i32⟩
  | 81 => ⟨S6000000, .i32⟩
  | 82 => ⟨S6000000, .i32⟩
  | 83 => ⟨S6000000x1, .i32⟩
  | 84 => ⟨S6000000x2, .f32⟩
  | 85 => ⟨S6000000x2, .f32⟩
  | 86 => ⟨S_, .f32⟩
  | 87 => ⟨S500000x2, .f32⟩
  | 88 => ⟨S6000000x1, .i32⟩
  | 89 => ⟨S500000x2, .f32⟩
  | 90 => ⟨S_, .i32⟩
  | 91 => ⟨S6000000, .i32⟩
  | 92 => ⟨S6000000, .i1⟩
  | 93 => ⟨S_, .i32⟩
  | 94 => ⟨S6000000, .i32⟩
  | 95 => ⟨S6000000, .i32⟩
  | 96 => ⟨S6000000, .i32⟩
  | 97 => ⟨S6000000x1, .i32⟩
  | 98 => ⟨S6000000, .f32⟩
  | 99 => ⟨S_, .i32⟩
  | 100 => ⟨S6000000, .i32⟩
  | 101 => ⟨S6000000, .i1⟩
  | 102 => ⟨S_, .i32⟩
  | 103 => ⟨S6000000, .i32⟩
  | 104 => ⟨S6000000, .i32⟩
  | 105 => ⟨S6000000, .i32⟩
  | 106 => ⟨S6000000x1, .i32⟩
  | 107 => ⟨S6000000, .f32⟩
  | 108 => ⟨S6000000, .f32⟩
  | 109 => ⟨S6000000x1, .f32⟩
  | 110 => ⟨S_, .i32⟩
  | 111 => ⟨S6000000, .i32⟩
  | 112 => ⟨S6000000, .i1⟩
  | 113 => ⟨S_, .i32⟩
  | 114 => ⟨S6000000, .i32⟩
  | 115 => ⟨S6000000, .i32⟩
  | 116 => ⟨S6000000, .i32⟩
  | 117 => ⟨S6000000x1, .i32⟩
  | 118 => ⟨S6000000x2, .f32⟩
  | 119 => ⟨S6000000x2, .f32⟩
  | 120 => ⟨S6000000x2, .f32⟩
  | 121 => ⟨S_, .i32⟩
  | 122 => ⟨S6000000, .i32⟩
  | 123 => ⟨S6000000, .i1⟩
  | 124 => ⟨S_, .i32⟩
  | 125 => ⟨S6000000, .i32⟩
  | 126 => ⟨S6000000, .i32⟩
  | 127 => ⟨S6000000, .i32⟩
  | _ => ⟨S2000000x1, .f32⟩

abbrev hbmTy0_3 (i : Nat) : BufTy := match i % 128 with
  | 0 => ⟨S6000000x1, .i32⟩
  | 1 => ⟨S6000000x2, .f32⟩
  | 2 => ⟨S6000000x2, .f32⟩
  | 3 => ⟨S_, .f32⟩
  | 4 => ⟨S2000000x2, .f32⟩
  | 5 => ⟨S6000000x1, .i32⟩
  | 6 => ⟨S2000000x2, .f32⟩
  | 7 => ⟨S_, .i32⟩
  | 8 => ⟨S6000000, .i32⟩
  | 9 => ⟨S6000000, .i1⟩
  | 10 => ⟨S_, .i32⟩
  | 11 => ⟨S6000000, .i32⟩
  | 12 => ⟨S6000000, .i32⟩
  | 13 => ⟨S6000000, .i32⟩
  | 14 => ⟨S6000000x1, .i32⟩
  | 15 => ⟨S6000000, .f32⟩
  | 16 => ⟨S_, .i32⟩
  | 17 => ⟨S6000000, .i32⟩
  | 18 => ⟨S6000000, .i1⟩
  | 19 => ⟨S_, .i32⟩
  | 20 => ⟨S6000000, .i32⟩
  | 21 => ⟨S6000000, .i32⟩
  | 22 => ⟨S6000000, .i32⟩
  | 23 => ⟨S6000000x1, .i32⟩
  | 24 => ⟨S6000000, .f32⟩
  | 25 => ⟨S6000000, .f32⟩
  | 26 => ⟨S6000000x1, .f32⟩
  | 27 => ⟨S_, .i32⟩
  | 28 => ⟨S6000000, .i32⟩
  | 29 => ⟨S6000000, .i1⟩
  | 30 => ⟨S_, .i32⟩
  | 31 => ⟨S6000000, .i32⟩
  | 32 => ⟨S6000000, .i32⟩
  | 33 => ⟨S6000000, .i32⟩
  | 34 => ⟨S6000000x1, .i32⟩
  | 35 => ⟨S6000000x2, .f32⟩
  | 36 => ⟨S6000000x2, .f32⟩
  | 37 => ⟨S6000000x2, .f32⟩
  | 38 => ⟨S_, .i32⟩
  | 39 => ⟨S6000000, .i32⟩
  | 40 => ⟨S6000000, .i1⟩
  | 41 => ⟨S_, .i32⟩
  | 42 => ⟨S6000000, .i32⟩
  | 43 => ⟨S6000000, .i32⟩
  | 44 => ⟨S6000000, .i32⟩
  | 45 => ⟨S6000000x1, .i32⟩
  | 46 => ⟨S6000000x2, .f32⟩
  | 47 => ⟨S6000000x2, .f32⟩
  | 48 => ⟨S_, .f32⟩
  | 49 => ⟨S2000000x2, .f32⟩
  | 50 => ⟨S6000000x1, .i32⟩
  | 51 => ⟨S2000000x2, .f32⟩
  | 52 => ⟨S500000x6, .f32⟩
  | 53 => ⟨S1x6x2, .f32⟩
  | 54 => ⟨S6x2, .f32⟩
  | 55 => ⟨S500000x2, .f32⟩
  | 56 => ⟨S1x2, .f32⟩
  | 57 => ⟨S2, .f32⟩
  | 58 => ⟨S1x2, .f32⟩
  | 59 => ⟨S500000x2, .f32⟩
  | 60 => ⟨S500000x2, .f32⟩
  | 61 => ⟨S2000000x6, .f32⟩
  | 62 => ⟨S1x6x2, .f32⟩
  | 63 => ⟨S6x2, .f32⟩
  | 64 => ⟨S2000000x2, .f32⟩
  | 65 => ⟨S1x2, .f32⟩
  | 66 => ⟨S2, .f32⟩
  | 67 => ⟨S1x2, .f32⟩
  | 68 => ⟨S2000000x2, .f32⟩
  | 69 => ⟨S2000000x2, .f32⟩
  | 70 => ⟨S_, .i32⟩
  | 71 => ⟨S6000000, .i32⟩
  | 72 => ⟨S6000000, .i1⟩
  | 73 => ⟨S_, .i32⟩
  | 74 => ⟨S6000000, .i32⟩
  | 75 => ⟨S6000000, .i32⟩
  | 76 => ⟨S6000000, .i32⟩
  | 77 => ⟨S6000000x1, .i32⟩
  | 78 => ⟨S6000000, .f32⟩
  | 79 => ⟨S_, .i32⟩
  | 80 => ⟨S6000000, .i32⟩
  | 81 => ⟨S6000000, .i1⟩
  | 82 => ⟨S_, .i32⟩
  | 83 => ⟨S6000000, .i32⟩
  | 84 => ⟨S6000000, .i32⟩
  | 85 => ⟨S6000000, .i32⟩
  | 86 => ⟨S6000000x1, .i32⟩
  | 87 => ⟨S6000000, .f32⟩
  | 88 => ⟨S6000000, .f32⟩
  | 89 => ⟨S6000000x1, .f32⟩
  | 90 => ⟨S_, .i32⟩
  | 91 => ⟨S6000000, .i32⟩
  | 92 => ⟨S6000000, .i1⟩
  | 93 => ⟨S_, .i32⟩
  | 94 => ⟨S6000000, .i32⟩
  | 95 => ⟨S6000000, .i32⟩
  | 96 => ⟨S6000000, .i32⟩
  | 97 => ⟨S6000000x1, .i32⟩
  | 98 => ⟨S6000000x2, .f32⟩
  | 99 => ⟨S6000000x2, .f32⟩
  | 100 => ⟨S6000000x2, .f32⟩
  | 101 => ⟨S_, .i32⟩
  | 102 => ⟨S6000000, .i32⟩
  | 103 => ⟨S6000000, .i1⟩
  | 104 => ⟨S_, .i32⟩
  | 105 => ⟨S6000000, .i32⟩
  | 106 => ⟨S6000000, .i32⟩
  | 107 => ⟨S6000000, .i32⟩
  | 108 => ⟨S6000000x1, .i32⟩
  | 109 => ⟨S6000000x2, .f32⟩
  | 110 => ⟨S6000000x2, .f32⟩
  | 111 => ⟨S_, .f32⟩
  | 112 => ⟨S500000x2, .f32⟩
  | 113 => ⟨S6000000x1, .i32⟩
  | 114 => ⟨S500000x2, .f32⟩
  | 115 => ⟨S_, .i32⟩
  | 116 => ⟨S6000000, .i32⟩
  | 117 => ⟨S6000000, .i1⟩
  | 118 => ⟨S_, .i32⟩
  | 119 => ⟨S6000000, .i32⟩
  | 120 => ⟨S6000000, .i32⟩
  | 121 => ⟨S6000000, .i32⟩
  | 122 => ⟨S6000000x1, .i32⟩
  | 123 => ⟨S6000000, .f32⟩
  | 124 => ⟨S_, .i32⟩
  | 125 => ⟨S6000000, .i32⟩
  | 126 => ⟨S6000000, .i1⟩
  | 127 => ⟨S_, .i32⟩
  | _ => ⟨S2000000x1, .f32⟩

abbrev hbmTy0_4 (i : Nat) : BufTy := match i % 128 with
  | 0 => ⟨S6000000, .i32⟩
  | 1 => ⟨S6000000, .i32⟩
  | 2 => ⟨S6000000, .i32⟩
  | 3 => ⟨S6000000x1, .i32⟩
  | 4 => ⟨S6000000, .f32⟩
  | 5 => ⟨S6000000, .f32⟩
  | 6 => ⟨S6000000x1, .f32⟩
  | 7 => ⟨S_, .i32⟩
  | 8 => ⟨S6000000, .i32⟩
  | 9 => ⟨S6000000, .i1⟩
  | 10 => ⟨S_, .i32⟩
  | 11 => ⟨S6000000, .i32⟩
  | 12 => ⟨S6000000, .i32⟩
  | 13 => ⟨S6000000, .i32⟩
  | 14 => ⟨S6000000x1, .i32⟩
  | 15 => ⟨S6000000x2, .f32⟩
  | 16 => ⟨S6000000x2, .f32⟩
  | 17 => ⟨S6000000x2, .f32⟩
  | 18 => ⟨S_, .i32⟩
  | 19 => ⟨S6000000, .i32⟩
  | 20 => ⟨S6000000, .i1⟩
  | 21 => ⟨S_, .i32⟩
  | 22 => ⟨S6000000, .i32⟩
  | 23 => ⟨S6000000, .i32⟩
  | 24 => ⟨S6000000, .i32⟩
  | 25 => ⟨S6000000x1, .i32⟩
  | 26 => ⟨S6000000x2, .f32⟩
  | 27 => ⟨S6000000x2, .f32⟩
  | 28 => ⟨S_, .f32⟩
  | 29 => ⟨S500000x2, .f32⟩
  | 30 => ⟨S6000000x1, .i32⟩
  | 31 => ⟨S500000x2, .f32⟩
  | 32 => ⟨S_, .i32⟩
  | 33 => ⟨S6000000, .i32⟩
  | 34 => ⟨S6000000, .i1⟩
  | 35 => ⟨S_, .i32⟩
  | 36 => ⟨S6000000, .i32⟩
  | 37 => ⟨S6000000, .i32⟩
  | 38 => ⟨S6000000, .i32⟩
  | 39 => ⟨S6000000x1, .i32⟩
  | 40 => ⟨S6000000, .f32⟩
  | 41 => ⟨S_, .i32⟩
  | 42 => ⟨S6000000, .i32⟩
  | 43 => ⟨S6000000, .i1⟩
  | 44 => ⟨S_, .i32⟩
  | 45 => ⟨S6000000, .i32⟩
  | 46 => ⟨S6000000, .i32⟩
  | 47 => ⟨S6000000, .i32⟩
  | 48 => ⟨S6000000x1, .i32⟩
  | 49 => ⟨S6000000, .f32⟩
  | 50 => ⟨S6000000, .f32⟩
  | 51 => ⟨S6000000x1, .f32⟩
  | 52 => ⟨S_, .i32⟩
  | 53 => ⟨S6000000, .i32⟩
  | 54 => ⟨S6000000, .i1⟩
  | 55 => ⟨S_, .i32⟩
  | 56 => ⟨S6000000, .i32⟩
  | 57 => ⟨S6000000, .i32⟩
  | 58 => ⟨S6000000, .i32⟩
  | 59 => ⟨S6000000x1, .i32⟩
  | 60 => ⟨S6000000x2, .f32⟩
  | 61 => ⟨S6000000x2, .f32⟩
  | 62 => ⟨S6000000x2, .f32⟩
  | 63 => ⟨S_, .i32⟩
  | 64 => ⟨S6000000, .i32⟩
  | 65 => ⟨S6000000, .i1⟩
  | 66 => ⟨S_, .i32⟩
  | 67 => ⟨S6000000, .i32⟩
  | 68 => ⟨S6000000, .i32⟩
  | 69 => ⟨S6000000, .i32⟩
  | 70 => ⟨S6000000x1, .i32⟩
  | 71 => ⟨S6000000x2, .f32⟩
  | 72 => ⟨S6000000x2, .f32⟩
  | 73 => ⟨S_, .f32⟩
  | 74 => ⟨S2000000x2, .f32⟩
  | 75 => ⟨S6000000x1, .i32⟩
  | 76 => ⟨S2000000x2, .f32⟩
  | 77 => ⟨S_, .i32⟩
  | 78 => ⟨S6000000, .i32⟩
  | 79 => ⟨S6000000, .i1⟩
  | 80 => ⟨S_, .i32⟩
  | 81 => ⟨S6000000, .i32⟩
  | 82 => ⟨S6000000, .i32⟩
  | 83 => ⟨S6000000, .i32⟩
  | 84 => ⟨S6000000x1, .i32⟩
  | 85 => ⟨S6000000, .f32⟩
  | 86 => ⟨S_, .i32⟩
  | 87 => ⟨S6000000, .i32⟩
  | 88 => ⟨S6000000, .i1⟩
  | 89 => ⟨S_, .i32⟩
  | 90 => ⟨S6000000, .i32⟩
  | 91 => ⟨S6000000, .i32⟩
  | 92 => ⟨S6000000, .i32⟩
  | 93 => ⟨S6000000x1, .i32⟩
  | 94 => ⟨S6000000, .f32⟩
  | 95 => ⟨S6000000, .f32⟩
  | 96 => ⟨S6000000x1, .f32⟩
  | 97 => ⟨S_, .i32⟩
  | 98 => ⟨S6000000, .i32⟩
  | 99 => ⟨S6000000, .i1⟩
  | 100 => ⟨S_, .i32⟩
  | 101 => ⟨S6000000, .i32⟩
  | 102 => ⟨S6000000, .i32⟩
  | 103 => ⟨S6000000, .i32⟩
  | 104 => ⟨S6000000x1, .i32⟩
  | 105 => ⟨S6000000x2, .f32⟩
  | 106 => ⟨S6000000x2, .f32⟩
  | 107 => ⟨S6000000x2, .f32⟩
  | 108 => ⟨S_, .i32⟩
  | 109 => ⟨S6000000, .i32⟩
  | 110 => ⟨S6000000, .i1⟩
  | 111 => ⟨S_, .i32⟩
  | 112 => ⟨S6000000, .i32⟩
  | 113 => ⟨S6000000, .i32⟩
  | 114 => ⟨S6000000, .i32⟩
  | 115 => ⟨S6000000x1, .i32⟩
  | 116 => ⟨S6000000x2, .f32⟩
  | 117 => ⟨S6000000x2, .f32⟩
  | 118 => ⟨S_, .f32⟩
  | 119 => ⟨S2000000x2, .f32⟩
  | 120 => ⟨S6000000x1, .i32⟩
  | 121 => ⟨S2000000x2, .f32⟩
  | 122 => ⟨S500000x6, .f32⟩
  | 123 => ⟨S1x6x2, .f32⟩
  | 124 => ⟨S6x2, .f32⟩
  | 125 => ⟨S500000x2, .f32⟩
  | 126 => ⟨S1x2, .f32⟩
  | 127 => ⟨S2, .f32⟩
  | _ => ⟨S2000000x1, .f32⟩

abbrev hbmTy0_5 (i : Nat) : BufTy := match i % 128 with
  | 0 => ⟨S1x2, .f32⟩
  | 1 => ⟨S500000x2, .f32⟩
  | 2 => ⟨S500000x2, .f32⟩
  | 3 => ⟨S2000000x6, .f32⟩
  | 4 => ⟨S1x6x2, .f32⟩
  | 5 => ⟨S6x2, .f32⟩
  | 6 => ⟨S2000000x2, .f32⟩
  | 7 => ⟨S1x2, .f32⟩
  | 8 => ⟨S2, .f32⟩
  | 9 => ⟨S1x2, .f32⟩
  | 10 => ⟨S2000000x2, .f32⟩
  | 11 => ⟨S2000000x2, .f32⟩
  | 12 => ⟨S_, .i32⟩
  | 13 => ⟨S6000000, .i32⟩
  | 14 => ⟨S6000000, .i1⟩
  | 15 => ⟨S_, .i32⟩
  | 16 => ⟨S6000000, .i32⟩
  | 17 => ⟨S6000000, .i32⟩
  | 18 => ⟨S6000000, .i32⟩
  | 19 => ⟨S6000000x1, .i32⟩
  | 20 => ⟨S6000000, .f32⟩
  | 21 => ⟨S_, .i32⟩
  | 22 => ⟨S6000000, .i32⟩
  | 23 => ⟨S6000000, .i1⟩
  | 24 => ⟨S_, .i32⟩
  | 25 => ⟨S6000000, .i32⟩
  | 26 => ⟨S6000000, .i32⟩
  | 27 => ⟨S6000000, .i32⟩
  | 28 => ⟨S6000000x1, .i32⟩
  | 29 => ⟨S6000000, .f32⟩
  | 30 => ⟨S6000000, .f32⟩
  | 31 => ⟨S6000000x1, .f32⟩
  | 32 => ⟨S_, .i32⟩
  | 33 => ⟨S6000000, .i32⟩
  | 34 => ⟨S6000000, .i1⟩
  | 35 => ⟨S_, .i32⟩
  | 36 => ⟨S6000000, .i32⟩
  | 37 => ⟨S6000000, .i32⟩
  | 38 => ⟨S6000000, .i32⟩
  | 39 => ⟨S6000000x1, .i32⟩
  | 40 => ⟨S6000000x2, .f32⟩
  | 41 => ⟨S6000000x2, .f32⟩
  | 42 => ⟨S6000000x2, .f32⟩
  | 43 => ⟨S_, .i32⟩
  | 44 => ⟨S6000000, .i32⟩
  | 45 => ⟨S6000000, .i1⟩
  | 46 => ⟨S_, .i32⟩
  | 47 => ⟨S6000000, .i32⟩
  | 48 => ⟨S6000000, .i32⟩
  | 49 => ⟨S6000000, .i32⟩
  | 50 => ⟨S6000000x1, .i32⟩
  | 51 => ⟨S6000000x2, .f32⟩
  | 52 => ⟨S6000000x2, .f32⟩
  | 53 => ⟨S_, .f32⟩
  | 54 => ⟨S500000x2, .f32⟩
  | 55 => ⟨S6000000x1, .i32⟩
  | 56 => ⟨S500000x2, .f32⟩
  | 57 => ⟨S_, .i32⟩
  | 58 => ⟨S6000000, .i32⟩
  | 59 => ⟨S6000000, .i1⟩
  | 60 => ⟨S_, .i32⟩
  | 61 => ⟨S6000000, .i32⟩
  | 62 => ⟨S6000000, .i32⟩
  | 63 => ⟨S6000000, .i32⟩
  | 64 => ⟨S6000000x1, .i32⟩
  | 65 => ⟨S6000000, .f32⟩
  | 66 => ⟨S_, .i32⟩
  | 67 => ⟨S6000000, .i32⟩
  | 68 => ⟨S6000000, .i1⟩
  | 69 => ⟨S_, .i32⟩
  | 70 => ⟨S6000000, .i32⟩
  | 71 => ⟨S6000000, .i32⟩
  | 72 => ⟨S6000000, .i32⟩
  | 73 => ⟨S6000000x1, .i32⟩
  | 74 => ⟨S6000000, .f32⟩
  | 75 => ⟨S6000000, .f32⟩
  | 76 => ⟨S6000000x1, .f32⟩
  | 77 => ⟨S_, .i32⟩
  | 78 => ⟨S6000000, .i32⟩
  | 79 => ⟨S6000000, .i1⟩
  | 80 => ⟨S_, .i32⟩
  | 81 => ⟨S6000000, .i32⟩
  | 82 => ⟨S6000000, .i32⟩
  | 83 => ⟨S6000000, .i32⟩
  | 84 => ⟨S6000000x1, .i32⟩
  | 85 => ⟨S6000000x2, .f32⟩
  | 86 => ⟨S6000000x2, .f32⟩
  | 87 => ⟨S6000000x2, .f32⟩
  | 88 => ⟨S_, .i32⟩
  | 89 => ⟨S6000000, .i32⟩
  | 90 => ⟨S6000000, .i1⟩
  | 91 => ⟨S_, .i32⟩
  | 92 => ⟨S6000000, .i32⟩
  | 93 => ⟨S6000000, .i32⟩
  | 94 => ⟨S6000000, .i32⟩
  | 95 => ⟨S6000000x1, .i32⟩
  | 96 => ⟨S6000000x2, .f32⟩
  | 97 => ⟨S6000000x2, .f32⟩
  | 98 => ⟨S_, .f32⟩
  | 99 => ⟨S500000x2, .f32⟩
  | 100 => ⟨S6000000x1, .i32⟩
  | 101 => ⟨S500000x2, .f32⟩
  | 102 => ⟨S_, .i32⟩
  | 103 => ⟨S6000000, .i32⟩
  | 104 => ⟨S6000000, .i1⟩
  | 105 => ⟨S_, .i32⟩
  | 106 => ⟨S6000000, .i32⟩
  | 107 => ⟨S6000000, .i32⟩
  | 108 => ⟨S6000000, .i32⟩
  | 109 => ⟨S6000000x1, .i32⟩
  | 110 => ⟨S6000000, .f32⟩
  | 111 => ⟨S_, .i32⟩
  | 112 => ⟨S6000000, .i32⟩
  | 113 => ⟨S6000000, .i1⟩
  | 114 => ⟨S_, .i32⟩
  | 115 => ⟨S6000000, .i32⟩
  | 116 => ⟨S6000000, .i32⟩
  | 117 => ⟨S6000000, .i32⟩
  | 118 => ⟨S6000000x1, .i32⟩
  | 119 => ⟨S6000000, .f32⟩
  | 120 => ⟨S6000000, .f32⟩
  | 121 => ⟨S6000000x1, .f32⟩
  | 122 => ⟨S_, .i32⟩
  | 123 => ⟨S6000000, .i32⟩
  | 124 => ⟨S6000000, .i1⟩
  | 125 => ⟨S_, .i32⟩
  | 126 => ⟨S6000000, .i32⟩
  | 127 => ⟨S6000000, .i32⟩
  | _ => ⟨S2000000x1, .f32⟩

abbrev hbmTy0_6 (i : Nat) : BufTy := match i % 128 with
  | 0 => ⟨S6000000, .i32⟩
  | 1 => ⟨S6000000x1, .i32⟩
  | 2 => ⟨S6000000x2, .f32⟩
  | 3 => ⟨S6000000x2, .f32⟩
  | 4 => ⟨S6000000x2, .f32⟩
  | 5 => ⟨S_, .i32⟩
  | 6 => ⟨S6000000, .i32⟩
  | 7 => ⟨S6000000, .i1⟩
  | 8 => ⟨S_, .i32⟩
  | 9 => ⟨S6000000, .i32⟩
  | 10 => ⟨S6000000, .i32⟩
  | 11 => ⟨S6000000, .i32⟩
  | 12 => ⟨S6000000x1, .i32⟩
  | 13 => ⟨S6000000x2, .f32⟩
  | 14 => ⟨S6000000x2, .f32⟩
  | 15 => ⟨S_, .f32⟩
  | 16 => ⟨S2000000x2, .f32⟩
  | 17 => ⟨S6000000x1, .i32⟩
  | 18 => ⟨S2000000x2, .f32⟩
  | 19 => ⟨S_, .i32⟩
  | 20 => ⟨S6000000, .i32⟩
  | 21 => ⟨S6000000, .i1⟩
  | 22 => ⟨S_, .i32⟩
  | 23 => ⟨S6000000, .i32⟩
  | 24 => ⟨S6000000, .i32⟩
  | 25 => ⟨S6000000, .i32⟩
  | 26 => ⟨S6000000x1, .i32⟩
  | 27 => ⟨S6000000, .f32⟩
  | 28 => ⟨S_, .i32⟩
  | 29 => ⟨S6000000, .i32⟩
  | 30 => ⟨S6000000, .i1⟩
  | 31 => ⟨S_, .i32⟩
  | 32 => ⟨S6000000, .i32⟩
  | 33 => ⟨S6000000, .i32⟩
  | 34 => ⟨S6000000, .i32⟩
  | 35 => ⟨S6000000x1, .i32⟩
  | 36 => ⟨S6000000, .f32⟩
  | 37 => ⟨S6000000, .f32⟩
  | 38 => ⟨S6000000x1, .f32⟩
  | 39 => ⟨S_, .i32⟩
  | 40 => ⟨S6000000, .i32⟩
  | 41 => ⟨S6000000, .i1⟩
  | 42 => ⟨S_, .i32⟩
  | 43 => ⟨S6000000, .i32⟩
  | 44 => ⟨S6000000, .i32⟩
  | 45 => ⟨S6000000, .i32⟩
  | 46 => ⟨S6000000x1, .i32⟩
  | 47 => ⟨S6000000x2, .f32⟩
  | 48 => ⟨S6000000x2, .f32⟩
  | 49 => ⟨S6000000x2, .f32⟩
  | 50 => ⟨S_, .i32⟩
  | 51 => ⟨S6000000, .i32⟩
  | 52 => ⟨S6000000, .i1⟩
  | 53 => ⟨S_, .i32⟩
  | 54 => ⟨S6000000, .i32⟩
  | 55 => ⟨S6000000, .i32⟩
  | 56 => ⟨S6000000, .i32⟩
  | 57 => ⟨S6000000x1, .i32⟩
  | 58 => ⟨S6000000x2, .f32⟩
  | 59 => ⟨S6000000x2, .f32⟩
  | 60 => ⟨S_, .f32⟩
  | 61 => ⟨S2000000x2, .f32⟩
  | 62 => ⟨S6000000x1, .i32⟩
  | 63 => ⟨S2000000x2, .f32⟩
  | 64 => ⟨S500000x6, .f32⟩
  | 65 => ⟨S1x6x2, .f32⟩
  | 66 => ⟨S6x2, .f32⟩
  | 67 => ⟨S500000x2, .f32⟩
  | 68 => ⟨S1x2, .f32⟩
  | 69 => ⟨S2, .f32⟩
  | 70 => ⟨S1x2, .f32⟩
  | 71 => ⟨S500000x2, .f32⟩
  | 72 => ⟨S500000x2, .f32⟩
  | 73 => ⟨S2000000x6, .f32⟩
  | 74 => ⟨S1x6x2, .f32⟩
  | 75 => ⟨S6x2, .f32⟩
  | 76 => ⟨S2000000x2, .f32⟩
  | 77 => ⟨S1x2, .f32⟩
  | 78 => ⟨S2, .f32⟩
  | 79 => ⟨S1x2, .f32⟩
  | 80 => ⟨S2000000x2, .f32⟩
  | 81 => ⟨S2000000x2, .f32⟩
  | _ => ⟨S2000000x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2000000x1, .f32⟩

abbrev bufTy : (tb : Table) → Fin (tcTables nBuf tb) → BufTy
  | .hbm, ⟨i, _⟩ => hbmTy i
  | _, _ => ⟨S2000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_v2 : Ref sig .tc := ⟨.hbm, 22, rfl⟩
abbrev main_cst_1 : Ref sig .tc := ⟨.hbm, 23, rfl⟩
abbrev main_v3 : Ref sig .tc := ⟨.hbm, 24, rfl⟩
abbrev main_v4 : Ref sig .tc := ⟨.hbm, 25, rfl⟩
abbrev main_cst_2 : Ref sig .tc := ⟨.hbm, 26, rfl⟩
abbrev main_v5 : Ref sig .tc := ⟨.hbm, 27, rfl⟩
abbrev main_v6 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v7 : Ref sig .tc := ⟨.hbm, 32, rfl⟩
abbrev main_cst_4 : Ref sig .tc := ⟨.hbm, 33, rfl⟩
abbrev main_v8 : Ref sig .tc := ⟨.hbm, 34, rfl⟩
abbrev main_v9 : Ref sig .tc := ⟨.hbm, 35, rfl⟩
abbrev main_cst_5 : Ref sig .tc := ⟨.hbm, 36, rfl⟩
abbrev main_call2_v0 : Ref sig .tc := ⟨.hbm, 37, rfl⟩
abbrev main_call2_v1 : Ref sig .tc := ⟨.hbm, 38, rfl⟩
abbrev main_v10 : Ref sig .tc := ⟨.hbm, 39, rfl⟩
abbrev main_cst_6 : Ref sig .tc := ⟨.hbm, 40, rfl⟩
abbrev main_v11 : Ref sig .tc := ⟨.hbm, 41, rfl⟩
abbrev main_v12 : Ref sig .tc := ⟨.hbm, 42, rfl⟩
abbrev main_cst_7 : Ref sig .tc := ⟨.hbm, 43, rfl⟩
abbrev main_v13 : Ref sig .tc := ⟨.hbm, 44, rfl⟩
abbrev main_v14 : Ref sig .tc := ⟨.hbm, 45, rfl⟩
abbrev main_cst_8 : Ref sig .tc := ⟨.hbm, 46, rfl⟩
abbrev main_call3_v0 : Ref sig .tc := ⟨.hbm, 47, rfl⟩
abbrev main_call3_v1 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_c : Ref sig .tc := ⟨.hbm, 58, rfl⟩
abbrev main_v24 : Ref sig .tc := ⟨.hbm, 59, rfl⟩
abbrev main_v25 : Ref sig .tc := ⟨.hbm, 60, rfl⟩
abbrev main_c_9 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_c_10 : Ref sig .tc := ⟨.hbm, 67, rfl⟩
abbrev main_v31 : Ref sig .tc := ⟨.hbm, 68, rfl⟩
abbrev main_v32 : Ref sig .tc := ⟨.hbm, 69, rfl⟩
abbrev main_c_11 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_c_12 : Ref sig .tc := ⟨.hbm, 78, rfl⟩
abbrev main_v40 : Ref sig .tc := ⟨.hbm, 79, rfl⟩
abbrev main_v41 : Ref sig .tc := ⟨.hbm, 80, rfl⟩
abbrev main_c_13 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_c_14 : Ref sig .tc := ⟨.hbm, 89, rfl⟩
abbrev main_v49 : Ref sig .tc := ⟨.hbm, 90, rfl⟩
abbrev main_v50 : Ref sig .tc := ⟨.hbm, 91, rfl⟩
abbrev main_c_15 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_cst_16 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_c_17 : Ref sig .tc := ⟨.hbm, 103, rfl⟩
abbrev main_v60 : Ref sig .tc := ⟨.hbm, 104, rfl⟩
abbrev main_v61 : Ref sig .tc := ⟨.hbm, 105, rfl⟩
abbrev main_c_18 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_c_19 : Ref sig .tc := ⟨.hbm, 112, rfl⟩
abbrev main_v67 : Ref sig .tc := ⟨.hbm, 113, rfl⟩
abbrev main_v68 : Ref sig .tc := ⟨.hbm, 114, rfl⟩
abbrev main_c_20 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_c_21 : Ref sig .tc := ⟨.hbm, 123, rfl⟩
abbrev main_v76 : Ref sig .tc := ⟨.hbm, 124, rfl⟩
abbrev main_v77 : Ref sig .tc := ⟨.hbm, 125, rfl⟩
abbrev main_c_22 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_c_23 : Ref sig .tc := ⟨.hbm, 134, rfl⟩
abbrev main_v85 : Ref sig .tc := ⟨.hbm, 135, rfl⟩
abbrev main_v86 : Ref sig .tc := ⟨.hbm, 136, rfl⟩
abbrev main_c_24 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_cst_25 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_c_26 : Ref sig .tc := ⟨.hbm, 148, rfl⟩
abbrev main_v96 : Ref sig .tc := ⟨.hbm, 149, rfl⟩
abbrev main_v97 : Ref sig .tc := ⟨.hbm, 150, rfl⟩
abbrev main_c_27 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_c_28 : Ref sig .tc := ⟨.hbm, 157, rfl⟩
abbrev main_v103 : Ref sig .tc := ⟨.hbm, 158, rfl⟩
abbrev main_v104 : Ref sig .tc := ⟨.hbm, 159, rfl⟩
abbrev main_c_29 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_c_30 : Ref sig .tc := ⟨.hbm, 168, rfl⟩
abbrev main_v112 : Ref sig .tc := ⟨.hbm, 169, rfl⟩
abbrev main_v113 : Ref sig .tc := ⟨.hbm, 170, rfl⟩
abbrev main_c_31 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_c_32 : Ref sig .tc := ⟨.hbm, 179, rfl⟩
abbrev main_v121 : Ref sig .tc := ⟨.hbm, 180, rfl⟩
abbrev main_v122 : Ref sig .tc := ⟨.hbm, 181, rfl⟩
abbrev main_c_33 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_cst_34 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_c_35 : Ref sig .tc := ⟨.hbm, 193, rfl⟩
abbrev main_v132 : Ref sig .tc := ⟨.hbm, 194, rfl⟩
abbrev main_v133 : Ref sig .tc := ⟨.hbm, 195, rfl⟩
abbrev main_c_36 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_c_37 : Ref sig .tc := ⟨.hbm, 202, rfl⟩
abbrev main_v139 : Ref sig .tc := ⟨.hbm, 203, rfl⟩
abbrev main_v140 : Ref sig .tc := ⟨.hbm, 204, rfl⟩
abbrev main_c_38 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_c_39 : Ref sig .tc := ⟨.hbm, 213, rfl⟩
abbrev main_v148 : Ref sig .tc := ⟨.hbm, 214, rfl⟩
abbrev main_v149 : Ref sig .tc := ⟨.hbm, 215, rfl⟩
abbrev main_c_40 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_c_41 : Ref sig .tc := ⟨.hbm, 224, rfl⟩
abbrev main_v157 : Ref sig .tc := ⟨.hbm, 225, rfl⟩
abbrev main_v158 : Ref sig .tc := ⟨.hbm, 226, rfl⟩
abbrev main_c_42 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_cst_43 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_c_44 : Ref sig .tc := ⟨.hbm, 256, rfl⟩
abbrev main_v186 : Ref sig .tc := ⟨.hbm, 257, rfl⟩
abbrev main_v187 : Ref sig .tc := ⟨.hbm, 258, rfl⟩
abbrev main_c_45 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_c_46 : Ref sig .tc := ⟨.hbm, 265, rfl⟩
abbrev main_v193 : Ref sig .tc := ⟨.hbm, 266, rfl⟩
abbrev main_v194 : Ref sig .tc := ⟨.hbm, 267, rfl⟩
abbrev main_c_47 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_c_48 : Ref sig .tc := ⟨.hbm, 276, rfl⟩
abbrev main_v202 : Ref sig .tc := ⟨.hbm, 277, rfl⟩
abbrev main_v203 : Ref sig .tc := ⟨.hbm, 278, rfl⟩
abbrev main_c_49 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_c_50 : Ref sig .tc := ⟨.hbm, 287, rfl⟩
abbrev main_v211 : Ref sig .tc := ⟨.hbm, 288, rfl⟩
abbrev main_v212 : Ref sig .tc := ⟨.hbm, 289, rfl⟩
abbrev main_c_51 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_v217 : Ref sig .tc := ⟨.hbm, 295, rfl⟩
abbrev main_v218 : Ref sig .tc := ⟨.hbm, 296, rfl⟩
abbrev main_cst_52 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_c_53 : Ref sig .tc := ⟨.hbm, 301, rfl⟩
abbrev main_v222 : Ref sig .tc := ⟨.hbm, 302, rfl⟩
abbrev main_v223 : Ref sig .tc := ⟨.hbm, 303, rfl⟩
abbrev main_c_54 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_c_55 : Ref sig .tc := ⟨.hbm, 310, rfl⟩
abbrev main_v229 : Ref sig .tc := ⟨.hbm, 311, rfl⟩
abbrev main_v230 : Ref sig .tc := ⟨.hbm, 312, rfl⟩
abbrev main_c_56 : Ref sig .tc := ⟨.hbm, 313, rfl⟩
abbrev main_v231 : Ref sig .tc := ⟨.hbm, 314, rfl⟩
abbrev main_v232 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_v236 : Ref sig .tc := ⟨.hbm, 319, rfl⟩
abbrev main_v237 : Ref sig .tc := ⟨.hbm, 320, rfl⟩
abbrev main_c_57 : Ref sig .tc := ⟨.hbm, 321, rfl⟩
abbrev main_v238 : Ref sig .tc := ⟨.hbm, 322, rfl⟩
abbrev main_v239 : Ref sig .tc := ⟨.hbm, 323, rfl⟩
abbrev main_c_58 : Ref sig .tc := ⟨.hbm, 324, rfl⟩
abbrev main_v240 : Ref sig .tc := ⟨.hbm, 325, rfl⟩
abbrev main_v241 : Ref sig .tc := ⟨.hbm, 326, rfl⟩
abbrev main_v242 : Ref sig .tc := ⟨.hbm, 327, rfl⟩
abbrev main_v243 : Ref sig .tc := ⟨.hbm, 328, rfl⟩
abbrev main_v244 : Ref sig .tc := ⟨.hbm, 329, rfl⟩
abbrev main_v245 : Ref sig .tc := ⟨.hbm, 330, rfl⟩
abbrev main_v246 : Ref sig .tc := ⟨.hbm, 331, rfl⟩
abbrev main_c_59 : Ref sig .tc := ⟨.hbm, 332, rfl⟩
abbrev main_v247 : Ref sig .tc := ⟨.hbm, 333, rfl⟩
abbrev main_v248 : Ref sig .tc := ⟨.hbm, 334, rfl⟩
abbrev main_c_60 : Ref sig .tc := ⟨.hbm, 335, rfl⟩
abbrev main_v249 : Ref sig .tc := ⟨.hbm, 336, rfl⟩
abbrev main_v250 : Ref sig .tc := ⟨.hbm, 337, rfl⟩
abbrev main_v251 : Ref sig .tc := ⟨.hbm, 338, rfl⟩
abbrev main_v252 : Ref sig .tc := ⟨.hbm, 339, rfl⟩
abbrev main_v253 : Ref sig .tc := ⟨.hbm, 340, rfl⟩
abbrev main_v254 : Ref sig .tc := ⟨.hbm, 341, rfl⟩
abbrev main_cst_61 : Ref sig .tc := ⟨.hbm, 342, rfl⟩
abbrev main_v255 : Ref sig .tc := ⟨.hbm, 343, rfl⟩
abbrev main_v256 : Ref sig .tc := ⟨.hbm, 344, rfl⟩
abbrev main_v257 : Ref sig .tc := ⟨.hbm, 345, rfl⟩
abbrev main_c_62 : Ref sig .tc := ⟨.hbm, 346, rfl⟩
abbrev main_v258 : Ref sig .tc := ⟨.hbm, 347, rfl⟩
abbrev main_v259 : Ref sig .tc := ⟨.hbm, 348, rfl⟩
abbrev main_c_63 : Ref sig .tc := ⟨.hbm, 349, rfl⟩
abbrev main_v260 : Ref sig .tc := ⟨.hbm, 350, rfl⟩
abbrev main_v261 : Ref sig .tc := ⟨.hbm, 351, rfl⟩
abbrev main_v262 : Ref sig .tc := ⟨.hbm, 352, rfl⟩
abbrev main_v263 : Ref sig .tc := ⟨.hbm, 353, rfl⟩
abbrev main_v264 : Ref sig .tc := ⟨.hbm, 354, rfl⟩
abbrev main_c_64 : Ref sig .tc := ⟨.hbm, 355, rfl⟩
abbrev main_v265 : Ref sig .tc := ⟨.hbm, 356, rfl⟩
abbrev main_v266 : Ref sig .tc := ⟨.hbm, 357, rfl⟩
abbrev main_c_65 : Ref sig .tc := ⟨.hbm, 358, rfl⟩
abbrev main_v267 : Ref sig .tc := ⟨.hbm, 359, rfl⟩
abbrev main_v268 : Ref sig .tc := ⟨.hbm, 360, rfl⟩
abbrev main_v269 : Ref sig .tc := ⟨.hbm, 361, rfl⟩
abbrev main_v270 : Ref sig .tc := ⟨.hbm, 362, rfl⟩
abbrev main_v271 : Ref sig .tc := ⟨.hbm, 363, rfl⟩
abbrev main_v272 : Ref sig .tc := ⟨.hbm, 364, rfl⟩
abbrev main_v273 : Ref sig .tc := ⟨.hbm, 365, rfl⟩
abbrev main_c_66 : Ref sig .tc := ⟨.hbm, 366, rfl⟩
abbrev main_v274 : Ref sig .tc := ⟨.hbm, 367, rfl⟩
abbrev main_v275 : Ref sig .tc := ⟨.hbm, 368, rfl⟩
abbrev main_c_67 : Ref sig .tc := ⟨.hbm, 369, rfl⟩
abbrev main_v276 : Ref sig .tc := ⟨.hbm, 370, rfl⟩
abbrev main_v277 : Ref sig .tc := ⟨.hbm, 371, rfl⟩
abbrev main_v278 : Ref sig .tc := ⟨.hbm, 372, rfl⟩
abbrev main_v279 : Ref sig .tc := ⟨.hbm, 373, rfl⟩
abbrev main_v280 : Ref sig .tc := ⟨.hbm, 374, rfl⟩
abbrev main_v281 : Ref sig .tc := ⟨.hbm, 375, rfl⟩
abbrev main_v282 : Ref sig .tc := ⟨.hbm, 376, rfl⟩
abbrev main_c_68 : Ref sig .tc := ⟨.hbm, 377, rfl⟩
abbrev main_v283 : Ref sig .tc := ⟨.hbm, 378, rfl⟩
abbrev main_v284 : Ref sig .tc := ⟨.hbm, 379, rfl⟩
abbrev main_c_69 : Ref sig .tc := ⟨.hbm, 380, rfl⟩
abbrev main_v285 : Ref sig .tc := ⟨.hbm, 381, rfl⟩
abbrev main_v286 : Ref sig .tc := ⟨.hbm, 382, rfl⟩
abbrev main_v287 : Ref sig .tc := ⟨.hbm, 383, rfl⟩
abbrev main_v288 : Ref sig .tc := ⟨.hbm, 384, rfl⟩
abbrev main_v289 : Ref sig .tc := ⟨.hbm, 385, rfl⟩
abbrev main_v290 : Ref sig .tc := ⟨.hbm, 386, rfl⟩
abbrev main_cst_70 : Ref sig .tc := ⟨.hbm, 387, rfl⟩
abbrev main_v291 : Ref sig .tc := ⟨.hbm, 388, rfl⟩
abbrev main_v292 : Ref sig .tc := ⟨.hbm, 389, rfl⟩
abbrev main_v293 : Ref sig .tc := ⟨.hbm, 390, rfl⟩
abbrev main_c_71 : Ref sig .tc := ⟨.hbm, 391, rfl⟩
abbrev main_v294 : Ref sig .tc := ⟨.hbm, 392, rfl⟩
abbrev main_v295 : Ref sig .tc := ⟨.hbm, 393, rfl⟩
abbrev main_c_72 : Ref sig .tc := ⟨.hbm, 394, rfl⟩
abbrev main_v296 : Ref sig .tc := ⟨.hbm, 395, rfl⟩
abbrev main_v297 : Ref sig .tc := ⟨.hbm, 396, rfl⟩
abbrev main_v298 : Ref sig .tc := ⟨.hbm, 397, rfl⟩
abbrev main_v299 : Ref sig .tc := ⟨.hbm, 398, rfl⟩
abbrev main_v300 : Ref sig .tc := ⟨.hbm, 399, rfl⟩
abbrev main_c_73 : Ref sig .tc := ⟨.hbm, 400, rfl⟩
abbrev main_v301 : Ref sig .tc := ⟨.hbm, 401, rfl⟩
abbrev main_v302 : Ref sig .tc := ⟨.hbm, 402, rfl⟩
abbrev main_c_74 : Ref sig .tc := ⟨.hbm, 403, rfl⟩
abbrev main_v303 : Ref sig .tc := ⟨.hbm, 404, rfl⟩
abbrev main_v304 : Ref sig .tc := ⟨.hbm, 405, rfl⟩
abbrev main_v305 : Ref sig .tc := ⟨.hbm, 406, rfl⟩
abbrev main_v306 : Ref sig .tc := ⟨.hbm, 407, rfl⟩
abbrev main_v307 : Ref sig .tc := ⟨.hbm, 408, rfl⟩
abbrev main_v308 : Ref sig .tc := ⟨.hbm, 409, rfl⟩
abbrev main_v309 : Ref sig .tc := ⟨.hbm, 410, rfl⟩
abbrev main_c_75 : Ref sig .tc := ⟨.hbm, 411, rfl⟩
abbrev main_v310 : Ref sig .tc := ⟨.hbm, 412, rfl⟩
abbrev main_v311 : Ref sig .tc := ⟨.hbm, 413, rfl⟩
abbrev main_c_76 : Ref sig .tc := ⟨.hbm, 414, rfl⟩
abbrev main_v312 : Ref sig .tc := ⟨.hbm, 415, rfl⟩
abbrev main_v313 : Ref sig .tc := ⟨.hbm, 416, rfl⟩
abbrev main_v314 : Ref sig .tc := ⟨.hbm, 417, rfl⟩
abbrev main_v315 : Ref sig .tc := ⟨.hbm, 418, rfl⟩
abbrev main_v316 : Ref sig .tc := ⟨.hbm, 419, rfl⟩
abbrev main_v317 : Ref sig .tc := ⟨.hbm, 420, rfl⟩
abbrev main_v318 : Ref sig .tc := ⟨.hbm, 421, rfl⟩
abbrev main_c_77 : Ref sig .tc := ⟨.hbm, 422, rfl⟩
abbrev main_v319 : Ref sig .tc := ⟨.hbm, 423, rfl⟩
abbrev main_v320 : Ref sig .tc := ⟨.hbm, 424, rfl⟩
abbrev main_c_78 : Ref sig .tc := ⟨.hbm, 425, rfl⟩
abbrev main_v321 : Ref sig .tc := ⟨.hbm, 426, rfl⟩
abbrev main_v322 : Ref sig .tc := ⟨.hbm, 427, rfl⟩
abbrev main_v323 : Ref sig .tc := ⟨.hbm, 428, rfl⟩
abbrev main_v324 : Ref sig .tc := ⟨.hbm, 429, rfl⟩
abbrev main_v325 : Ref sig .tc := ⟨.hbm, 430, rfl⟩
abbrev main_v326 : Ref sig .tc := ⟨.hbm, 431, rfl⟩
abbrev main_cst_79 : Ref sig .tc := ⟨.hbm, 432, rfl⟩
abbrev main_v327 : Ref sig .tc := ⟨.hbm, 433, rfl⟩
abbrev main_v328 : Ref sig .tc := ⟨.hbm, 434, rfl⟩
abbrev main_v329 : Ref sig .tc := ⟨.hbm, 435, rfl⟩
abbrev main_v330 : Ref sig .tc := ⟨.hbm, 436, rfl⟩
abbrev main_v331 : Ref sig .tc := ⟨.hbm, 437, rfl⟩
abbrev main_v332 : Ref sig .tc := ⟨.hbm, 438, rfl⟩
abbrev main_v333 : Ref sig .tc := ⟨.hbm, 439, rfl⟩
abbrev main_v334 : Ref sig .tc := ⟨.hbm, 440, rfl⟩
abbrev main_v335 : Ref sig .tc := ⟨.hbm, 441, rfl⟩
abbrev main_v336 : Ref sig .tc := ⟨.hbm, 442, rfl⟩
abbrev main_v337 : Ref sig .tc := ⟨.hbm, 443, rfl⟩
abbrev main_v338 : Ref sig .tc := ⟨.hbm, 444, rfl⟩
abbrev main_v339 : Ref sig .tc := ⟨.hbm, 445, rfl⟩
abbrev main_v340 : Ref sig .tc := ⟨.hbm, 446, rfl⟩
abbrev main_v341 : Ref sig .tc := ⟨.hbm, 447, rfl⟩
abbrev main_v342 : Ref sig .tc := ⟨.hbm, 448, rfl⟩
abbrev main_v343 : Ref sig .tc := ⟨.hbm, 449, rfl⟩
abbrev main_v344 : Ref sig .tc := ⟨.hbm, 450, rfl⟩
abbrev main_v345 : Ref sig .tc := ⟨.hbm, 451, rfl⟩
abbrev main_v346 : Ref sig .tc := ⟨.hbm, 452, rfl⟩
abbrev main_v347 : Ref sig .tc := ⟨.hbm, 453, rfl⟩
abbrev main_c_80 : Ref sig .tc := ⟨.hbm, 454, rfl⟩
abbrev main_v348 : Ref sig .tc := ⟨.hbm, 455, rfl⟩
abbrev main_v349 : Ref sig .tc := ⟨.hbm, 456, rfl⟩
abbrev main_c_81 : Ref sig .tc := ⟨.hbm, 457, rfl⟩
abbrev main_v350 : Ref sig .tc := ⟨.hbm, 458, rfl⟩
abbrev main_v351 : Ref sig .tc := ⟨.hbm, 459, rfl⟩
abbrev main_v352 : Ref sig .tc := ⟨.hbm, 460, rfl⟩
abbrev main_v353 : Ref sig .tc := ⟨.hbm, 461, rfl⟩
abbrev main_v354 : Ref sig .tc := ⟨.hbm, 462, rfl⟩
abbrev main_c_82 : Ref sig .tc := ⟨.hbm, 463, rfl⟩
abbrev main_v355 : Ref sig .tc := ⟨.hbm, 464, rfl⟩
abbrev main_v356 : Ref sig .tc := ⟨.hbm, 465, rfl⟩
abbrev main_c_83 : Ref sig .tc := ⟨.hbm, 466, rfl⟩
abbrev main_v357 : Ref sig .tc := ⟨.hbm, 467, rfl⟩
abbrev main_v358 : Ref sig .tc := ⟨.hbm, 468, rfl⟩
abbrev main_v359 : Ref sig .tc := ⟨.hbm, 469, rfl⟩
abbrev main_v360 : Ref sig .tc := ⟨.hbm, 470, rfl⟩
abbrev main_v361 : Ref sig .tc := ⟨.hbm, 471, rfl⟩
abbrev main_v362 : Ref sig .tc := ⟨.hbm, 472, rfl⟩
abbrev main_v363 : Ref sig .tc := ⟨.hbm, 473, rfl⟩
abbrev main_c_84 : Ref sig .tc := ⟨.hbm, 474, rfl⟩
abbrev main_v364 : Ref sig .tc := ⟨.hbm, 475, rfl⟩
abbrev main_v365 : Ref sig .tc := ⟨.hbm, 476, rfl⟩
abbrev main_c_85 : Ref sig .tc := ⟨.hbm, 477, rfl⟩
abbrev main_v366 : Ref sig .tc := ⟨.hbm, 478, rfl⟩
abbrev main_v367 : Ref sig .tc := ⟨.hbm, 479, rfl⟩
abbrev main_v368 : Ref sig .tc := ⟨.hbm, 480, rfl⟩
abbrev main_v369 : Ref sig .tc := ⟨.hbm, 481, rfl⟩
abbrev main_v370 : Ref sig .tc := ⟨.hbm, 482, rfl⟩
abbrev main_v371 : Ref sig .tc := ⟨.hbm, 483, rfl⟩
abbrev main_v372 : Ref sig .tc := ⟨.hbm, 484, rfl⟩
abbrev main_c_86 : Ref sig .tc := ⟨.hbm, 485, rfl⟩
abbrev main_v373 : Ref sig .tc := ⟨.hbm, 486, rfl⟩
abbrev main_v374 : Ref sig .tc := ⟨.hbm, 487, rfl⟩
abbrev main_c_87 : Ref sig .tc := ⟨.hbm, 488, rfl⟩
abbrev main_v375 : Ref sig .tc := ⟨.hbm, 489, rfl⟩
abbrev main_v376 : Ref sig .tc := ⟨.hbm, 490, rfl⟩
abbrev main_v377 : Ref sig .tc := ⟨.hbm, 491, rfl⟩
abbrev main_v378 : Ref sig .tc := ⟨.hbm, 492, rfl⟩
abbrev main_v379 : Ref sig .tc := ⟨.hbm, 493, rfl⟩
abbrev main_v380 : Ref sig .tc := ⟨.hbm, 494, rfl⟩
abbrev main_cst_88 : Ref sig .tc := ⟨.hbm, 495, rfl⟩
abbrev main_v381 : Ref sig .tc := ⟨.hbm, 496, rfl⟩
abbrev main_v382 : Ref sig .tc := ⟨.hbm, 497, rfl⟩
abbrev main_v383 : Ref sig .tc := ⟨.hbm, 498, rfl⟩
abbrev main_c_89 : Ref sig .tc := ⟨.hbm, 499, rfl⟩
abbrev main_v384 : Ref sig .tc := ⟨.hbm, 500, rfl⟩
abbrev main_v385 : Ref sig .tc := ⟨.hbm, 501, rfl⟩
abbrev main_c_90 : Ref sig .tc := ⟨.hbm, 502, rfl⟩
abbrev main_v386 : Ref sig .tc := ⟨.hbm, 503, rfl⟩
abbrev main_v387 : Ref sig .tc := ⟨.hbm, 504, rfl⟩
abbrev main_v388 : Ref sig .tc := ⟨.hbm, 505, rfl⟩
abbrev main_v389 : Ref sig .tc := ⟨.hbm, 506, rfl⟩
abbrev main_v390 : Ref sig .tc := ⟨.hbm, 507, rfl⟩
abbrev main_c_91 : Ref sig .tc := ⟨.hbm, 508, rfl⟩
abbrev main_v391 : Ref sig .tc := ⟨.hbm, 509, rfl⟩
abbrev main_v392 : Ref sig .tc := ⟨.hbm, 510, rfl⟩
abbrev main_c_92 : Ref sig .tc := ⟨.hbm, 511, rfl⟩
abbrev main_v393 : Ref sig .tc := ⟨.hbm, 512, rfl⟩
abbrev main_v394 : Ref sig .tc := ⟨.hbm, 513, rfl⟩
abbrev main_v395 : Ref sig .tc := ⟨.hbm, 514, rfl⟩
abbrev main_v396 : Ref sig .tc := ⟨.hbm, 515, rfl⟩
abbrev main_v397 : Ref sig .tc := ⟨.hbm, 516, rfl⟩
abbrev main_v398 : Ref sig .tc := ⟨.hbm, 517, rfl⟩
abbrev main_v399 : Ref sig .tc := ⟨.hbm, 518, rfl⟩
abbrev main_c_93 : Ref sig .tc := ⟨.hbm, 519, rfl⟩
abbrev main_v400 : Ref sig .tc := ⟨.hbm, 520, rfl⟩
abbrev main_v401 : Ref sig .tc := ⟨.hbm, 521, rfl⟩
abbrev main_c_94 : Ref sig .tc := ⟨.hbm, 522, rfl⟩
abbrev main_v402 : Ref sig .tc := ⟨.hbm, 523, rfl⟩
abbrev main_v403 : Ref sig .tc := ⟨.hbm, 524, rfl⟩
abbrev main_v404 : Ref sig .tc := ⟨.hbm, 525, rfl⟩
abbrev main_v405 : Ref sig .tc := ⟨.hbm, 526, rfl⟩
abbrev main_v406 : Ref sig .tc := ⟨.hbm, 527, rfl⟩
abbrev main_v407 : Ref sig .tc := ⟨.hbm, 528, rfl⟩
abbrev main_v408 : Ref sig .tc := ⟨.hbm, 529, rfl⟩
abbrev main_c_95 : Ref sig .tc := ⟨.hbm, 530, rfl⟩
abbrev main_v409 : Ref sig .tc := ⟨.hbm, 531, rfl⟩
abbrev main_v410 : Ref sig .tc := ⟨.hbm, 532, rfl⟩
abbrev main_c_96 : Ref sig .tc := ⟨.hbm, 533, rfl⟩
abbrev main_v411 : Ref sig .tc := ⟨.hbm, 534, rfl⟩
abbrev main_v412 : Ref sig .tc := ⟨.hbm, 535, rfl⟩
abbrev main_v413 : Ref sig .tc := ⟨.hbm, 536, rfl⟩
abbrev main_v414 : Ref sig .tc := ⟨.hbm, 537, rfl⟩
abbrev main_v415 : Ref sig .tc := ⟨.hbm, 538, rfl⟩
abbrev main_v416 : Ref sig .tc := ⟨.hbm, 539, rfl⟩
abbrev main_cst_97 : Ref sig .tc := ⟨.hbm, 540, rfl⟩
abbrev main_v417 : Ref sig .tc := ⟨.hbm, 541, rfl⟩
abbrev main_v418 : Ref sig .tc := ⟨.hbm, 542, rfl⟩
abbrev main_v419 : Ref sig .tc := ⟨.hbm, 543, rfl⟩
abbrev main_c_98 : Ref sig .tc := ⟨.hbm, 544, rfl⟩
abbrev main_v420 : Ref sig .tc := ⟨.hbm, 545, rfl⟩
abbrev main_v421 : Ref sig .tc := ⟨.hbm, 546, rfl⟩
abbrev main_c_99 : Ref sig .tc := ⟨.hbm, 547, rfl⟩
abbrev main_v422 : Ref sig .tc := ⟨.hbm, 548, rfl⟩
abbrev main_v423 : Ref sig .tc := ⟨.hbm, 549, rfl⟩
abbrev main_v424 : Ref sig .tc := ⟨.hbm, 550, rfl⟩
abbrev main_v425 : Ref sig .tc := ⟨.hbm, 551, rfl⟩
abbrev main_v426 : Ref sig .tc := ⟨.hbm, 552, rfl⟩
abbrev main_c_100 : Ref sig .tc := ⟨.hbm, 553, rfl⟩
abbrev main_v427 : Ref sig .tc := ⟨.hbm, 554, rfl⟩
abbrev main_v428 : Ref sig .tc := ⟨.hbm, 555, rfl⟩
abbrev main_c_101 : Ref sig .tc := ⟨.hbm, 556, rfl⟩
abbrev main_v429 : Ref sig .tc := ⟨.hbm, 557, rfl⟩
abbrev main_v430 : Ref sig .tc := ⟨.hbm, 558, rfl⟩
abbrev main_v431 : Ref sig .tc := ⟨.hbm, 559, rfl⟩
abbrev main_v432 : Ref sig .tc := ⟨.hbm, 560, rfl⟩
abbrev main_v433 : Ref sig .tc := ⟨.hbm, 561, rfl⟩
abbrev main_v434 : Ref sig .tc := ⟨.hbm, 562, rfl⟩
abbrev main_v435 : Ref sig .tc := ⟨.hbm, 563, rfl⟩
abbrev main_c_102 : Ref sig .tc := ⟨.hbm, 564, rfl⟩
abbrev main_v436 : Ref sig .tc := ⟨.hbm, 565, rfl⟩
abbrev main_v437 : Ref sig .tc := ⟨.hbm, 566, rfl⟩
abbrev main_c_103 : Ref sig .tc := ⟨.hbm, 567, rfl⟩
abbrev main_v438 : Ref sig .tc := ⟨.hbm, 568, rfl⟩
abbrev main_v439 : Ref sig .tc := ⟨.hbm, 569, rfl⟩
abbrev main_v440 : Ref sig .tc := ⟨.hbm, 570, rfl⟩
abbrev main_v441 : Ref sig .tc := ⟨.hbm, 571, rfl⟩
abbrev main_v442 : Ref sig .tc := ⟨.hbm, 572, rfl⟩
abbrev main_v443 : Ref sig .tc := ⟨.hbm, 573, rfl⟩
abbrev main_v444 : Ref sig .tc := ⟨.hbm, 574, rfl⟩
abbrev main_c_104 : Ref sig .tc := ⟨.hbm, 575, rfl⟩
abbrev main_v445 : Ref sig .tc := ⟨.hbm, 576, rfl⟩
abbrev main_v446 : Ref sig .tc := ⟨.hbm, 577, rfl⟩
abbrev main_c_105 : Ref sig .tc := ⟨.hbm, 578, rfl⟩
abbrev main_v447 : Ref sig .tc := ⟨.hbm, 579, rfl⟩
abbrev main_v448 : Ref sig .tc := ⟨.hbm, 580, rfl⟩
abbrev main_v449 : Ref sig .tc := ⟨.hbm, 581, rfl⟩
abbrev main_v450 : Ref sig .tc := ⟨.hbm, 582, rfl⟩
abbrev main_v451 : Ref sig .tc := ⟨.hbm, 583, rfl⟩
abbrev main_v452 : Ref sig .tc := ⟨.hbm, 584, rfl⟩
abbrev main_cst_106 : Ref sig .tc := ⟨.hbm, 585, rfl⟩
abbrev main_v453 : Ref sig .tc := ⟨.hbm, 586, rfl⟩
abbrev main_v454 : Ref sig .tc := ⟨.hbm, 587, rfl⟩
abbrev main_v455 : Ref sig .tc := ⟨.hbm, 588, rfl⟩
abbrev main_c_107 : Ref sig .tc := ⟨.hbm, 589, rfl⟩
abbrev main_v456 : Ref sig .tc := ⟨.hbm, 590, rfl⟩
abbrev main_v457 : Ref sig .tc := ⟨.hbm, 591, rfl⟩
abbrev main_c_108 : Ref sig .tc := ⟨.hbm, 592, rfl⟩
abbrev main_v458 : Ref sig .tc := ⟨.hbm, 593, rfl⟩
abbrev main_v459 : Ref sig .tc := ⟨.hbm, 594, rfl⟩
abbrev main_v460 : Ref sig .tc := ⟨.hbm, 595, rfl⟩
abbrev main_v461 : Ref sig .tc := ⟨.hbm, 596, rfl⟩
abbrev main_v462 : Ref sig .tc := ⟨.hbm, 597, rfl⟩
abbrev main_c_109 : Ref sig .tc := ⟨.hbm, 598, rfl⟩
abbrev main_v463 : Ref sig .tc := ⟨.hbm, 599, rfl⟩
abbrev main_v464 : Ref sig .tc := ⟨.hbm, 600, rfl⟩
abbrev main_c_110 : Ref sig .tc := ⟨.hbm, 601, rfl⟩
abbrev main_v465 : Ref sig .tc := ⟨.hbm, 602, rfl⟩
abbrev main_v466 : Ref sig .tc := ⟨.hbm, 603, rfl⟩
abbrev main_v467 : Ref sig .tc := ⟨.hbm, 604, rfl⟩
abbrev main_v468 : Ref sig .tc := ⟨.hbm, 605, rfl⟩
abbrev main_v469 : Ref sig .tc := ⟨.hbm, 606, rfl⟩
abbrev main_v470 : Ref sig .tc := ⟨.hbm, 607, rfl⟩
abbrev main_v471 : Ref sig .tc := ⟨.hbm, 608, rfl⟩
abbrev main_c_111 : Ref sig .tc := ⟨.hbm, 609, rfl⟩
abbrev main_v472 : Ref sig .tc := ⟨.hbm, 610, rfl⟩
abbrev main_v473 : Ref sig .tc := ⟨.hbm, 611, rfl⟩
abbrev main_c_112 : Ref sig .tc := ⟨.hbm, 612, rfl⟩
abbrev main_v474 : Ref sig .tc := ⟨.hbm, 613, rfl⟩
abbrev main_v475 : Ref sig .tc := ⟨.hbm, 614, rfl⟩
abbrev main_v476 : Ref sig .tc := ⟨.hbm, 615, rfl⟩
abbrev main_v477 : Ref sig .tc := ⟨.hbm, 616, rfl⟩
abbrev main_v478 : Ref sig .tc := ⟨.hbm, 617, rfl⟩
abbrev main_v479 : Ref sig .tc := ⟨.hbm, 618, rfl⟩
abbrev main_v480 : Ref sig .tc := ⟨.hbm, 619, rfl⟩
abbrev main_c_113 : Ref sig .tc := ⟨.hbm, 620, rfl⟩
abbrev main_v481 : Ref sig .tc := ⟨.hbm, 621, rfl⟩
abbrev main_v482 : Ref sig .tc := ⟨.hbm, 622, rfl⟩
abbrev main_c_114 : Ref sig .tc := ⟨.hbm, 623, rfl⟩
abbrev main_v483 : Ref sig .tc := ⟨.hbm, 624, rfl⟩
abbrev main_v484 : Ref sig .tc := ⟨.hbm, 625, rfl⟩
abbrev main_v485 : Ref sig .tc := ⟨.hbm, 626, rfl⟩
abbrev main_v486 : Ref sig .tc := ⟨.hbm, 627, rfl⟩
abbrev main_v487 : Ref sig .tc := ⟨.hbm, 628, rfl⟩
abbrev main_v488 : Ref sig .tc := ⟨.hbm, 629, rfl⟩
abbrev main_cst_115 : Ref sig .tc := ⟨.hbm, 630, rfl⟩
abbrev main_v489 : Ref sig .tc := ⟨.hbm, 631, rfl⟩
abbrev main_v490 : Ref sig .tc := ⟨.hbm, 632, rfl⟩
abbrev main_v491 : Ref sig .tc := ⟨.hbm, 633, rfl⟩
abbrev main_v492 : Ref sig .tc := ⟨.hbm, 634, rfl⟩
abbrev main_v493 : Ref sig .tc := ⟨.hbm, 635, rfl⟩
abbrev main_v494 : Ref sig .tc := ⟨.hbm, 636, rfl⟩
abbrev main_v495 : Ref sig .tc := ⟨.hbm, 637, rfl⟩
abbrev main_v496 : Ref sig .tc := ⟨.hbm, 638, rfl⟩
abbrev main_v497 : Ref sig .tc := ⟨.hbm, 639, rfl⟩
abbrev main_v498 : Ref sig .tc := ⟨.hbm, 640, rfl⟩
abbrev main_v499 : Ref sig .tc := ⟨.hbm, 641, rfl⟩
abbrev main_v500 : Ref sig .tc := ⟨.hbm, 642, rfl⟩
abbrev main_v501 : Ref sig .tc := ⟨.hbm, 643, rfl⟩
abbrev main_v502 : Ref sig .tc := ⟨.hbm, 644, rfl⟩
abbrev main_v503 : Ref sig .tc := ⟨.hbm, 645, rfl⟩
abbrev main_v504 : Ref sig .tc := ⟨.hbm, 646, rfl⟩
abbrev main_v505 : Ref sig .tc := ⟨.hbm, 647, rfl⟩
abbrev main_v506 : Ref sig .tc := ⟨.hbm, 648, rfl⟩
abbrev main_v507 : Ref sig .tc := ⟨.hbm, 649, rfl⟩
abbrev main_v508 : Ref sig .tc := ⟨.hbm, 650, rfl⟩
abbrev main_v509 : Ref sig .tc := ⟨.hbm, 651, rfl⟩
abbrev main_c_116 : Ref sig .tc := ⟨.hbm, 652, rfl⟩
abbrev main_v510 : Ref sig .tc := ⟨.hbm, 653, rfl⟩
abbrev main_v511 : Ref sig .tc := ⟨.hbm, 654, rfl⟩
abbrev main_c_117 : Ref sig .tc := ⟨.hbm, 655, rfl⟩
abbrev main_v512 : Ref sig .tc := ⟨.hbm, 656, rfl⟩
abbrev main_v513 : Ref sig .tc := ⟨.hbm, 657, rfl⟩
abbrev main_v514 : Ref sig .tc := ⟨.hbm, 658, rfl⟩
abbrev main_v515 : Ref sig .tc := ⟨.hbm, 659, rfl⟩
abbrev main_v516 : Ref sig .tc := ⟨.hbm, 660, rfl⟩
abbrev main_c_118 : Ref sig .tc := ⟨.hbm, 661, rfl⟩
abbrev main_v517 : Ref sig .tc := ⟨.hbm, 662, rfl⟩
abbrev main_v518 : Ref sig .tc := ⟨.hbm, 663, rfl⟩
abbrev main_c_119 : Ref sig .tc := ⟨.hbm, 664, rfl⟩
abbrev main_v519 : Ref sig .tc := ⟨.hbm, 665, rfl⟩
abbrev main_v520 : Ref sig .tc := ⟨.hbm, 666, rfl⟩
abbrev main_v521 : Ref sig .tc := ⟨.hbm, 667, rfl⟩
abbrev main_v522 : Ref sig .tc := ⟨.hbm, 668, rfl⟩
abbrev main_v523 : Ref sig .tc := ⟨.hbm, 669, rfl⟩
abbrev main_v524 : Ref sig .tc := ⟨.hbm, 670, rfl⟩
abbrev main_v525 : Ref sig .tc := ⟨.hbm, 671, rfl⟩
abbrev main_c_120 : Ref sig .tc := ⟨.hbm, 672, rfl⟩
abbrev main_v526 : Ref sig .tc := ⟨.hbm, 673, rfl⟩
abbrev main_v527 : Ref sig .tc := ⟨.hbm, 674, rfl⟩
abbrev main_c_121 : Ref sig .tc := ⟨.hbm, 675, rfl⟩
abbrev main_v528 : Ref sig .tc := ⟨.hbm, 676, rfl⟩
abbrev main_v529 : Ref sig .tc := ⟨.hbm, 677, rfl⟩
abbrev main_v530 : Ref sig .tc := ⟨.hbm, 678, rfl⟩
abbrev main_v531 : Ref sig .tc := ⟨.hbm, 679, rfl⟩
abbrev main_v532 : Ref sig .tc := ⟨.hbm, 680, rfl⟩
abbrev main_v533 : Ref sig .tc := ⟨.hbm, 681, rfl⟩
abbrev main_v534 : Ref sig .tc := ⟨.hbm, 682, rfl⟩
abbrev main_c_122 : Ref sig .tc := ⟨.hbm, 683, rfl⟩
abbrev main_v535 : Ref sig .tc := ⟨.hbm, 684, rfl⟩
abbrev main_v536 : Ref sig .tc := ⟨.hbm, 685, rfl⟩
abbrev main_c_123 : Ref sig .tc := ⟨.hbm, 686, rfl⟩
abbrev main_v537 : Ref sig .tc := ⟨.hbm, 687, rfl⟩
abbrev main_v538 : Ref sig .tc := ⟨.hbm, 688, rfl⟩
abbrev main_v539 : Ref sig .tc := ⟨.hbm, 689, rfl⟩
abbrev main_v540 : Ref sig .tc := ⟨.hbm, 690, rfl⟩
abbrev main_v541 : Ref sig .tc := ⟨.hbm, 691, rfl⟩
abbrev main_v542 : Ref sig .tc := ⟨.hbm, 692, rfl⟩
abbrev main_cst_124 : Ref sig .tc := ⟨.hbm, 693, rfl⟩
abbrev main_v543 : Ref sig .tc := ⟨.hbm, 694, rfl⟩
abbrev main_v544 : Ref sig .tc := ⟨.hbm, 695, rfl⟩
abbrev main_v545 : Ref sig .tc := ⟨.hbm, 696, rfl⟩
abbrev main_c_125 : Ref sig .tc := ⟨.hbm, 697, rfl⟩
abbrev main_v546 : Ref sig .tc := ⟨.hbm, 698, rfl⟩
abbrev main_v547 : Ref sig .tc := ⟨.hbm, 699, rfl⟩
abbrev main_c_126 : Ref sig .tc := ⟨.hbm, 700, rfl⟩
abbrev main_v548 : Ref sig .tc := ⟨.hbm, 701, rfl⟩
abbrev main_v549 : Ref sig .tc := ⟨.hbm, 702, rfl⟩
abbrev main_v550 : Ref sig .tc := ⟨.hbm, 703, rfl⟩
abbrev main_v551 : Ref sig .tc := ⟨.hbm, 704, rfl⟩
abbrev main_v552 : Ref sig .tc := ⟨.hbm, 705, rfl⟩
abbrev main_c_127 : Ref sig .tc := ⟨.hbm, 706, rfl⟩
abbrev main_v553 : Ref sig .tc := ⟨.hbm, 707, rfl⟩
abbrev main_v554 : Ref sig .tc := ⟨.hbm, 708, rfl⟩
abbrev main_c_128 : Ref sig .tc := ⟨.hbm, 709, rfl⟩
abbrev main_v555 : Ref sig .tc := ⟨.hbm, 710, rfl⟩
abbrev main_v556 : Ref sig .tc := ⟨.hbm, 711, rfl⟩
abbrev main_v557 : Ref sig .tc := ⟨.hbm, 712, rfl⟩
abbrev main_v558 : Ref sig .tc := ⟨.hbm, 713, rfl⟩
abbrev main_v559 : Ref sig .tc := ⟨.hbm, 714, rfl⟩
abbrev main_v560 : Ref sig .tc := ⟨.hbm, 715, rfl⟩
abbrev main_v561 : Ref sig .tc := ⟨.hbm, 716, rfl⟩
abbrev main_c_129 : Ref sig .tc := ⟨.hbm, 717, rfl⟩
abbrev main_v562 : Ref sig .tc := ⟨.hbm, 718, rfl⟩
abbrev main_v563 : Ref sig .tc := ⟨.hbm, 719, rfl⟩
abbrev main_c_130 : Ref sig .tc := ⟨.hbm, 720, rfl⟩
abbrev main_v564 : Ref sig .tc := ⟨.hbm, 721, rfl⟩
abbrev main_v565 : Ref sig .tc := ⟨.hbm, 722, rfl⟩
abbrev main_v566 : Ref sig .tc := ⟨.hbm, 723, rfl⟩
abbrev main_v567 : Ref sig .tc := ⟨.hbm, 724, rfl⟩
abbrev main_v568 : Ref sig .tc := ⟨.hbm, 725, rfl⟩
abbrev main_v569 : Ref sig .tc := ⟨.hbm, 726, rfl⟩
abbrev main_v570 : Ref sig .tc := ⟨.hbm, 727, rfl⟩
abbrev main_c_131 : Ref sig .tc := ⟨.hbm, 728, rfl⟩
abbrev main_v571 : Ref sig .tc := ⟨.hbm, 729, rfl⟩
abbrev main_v572 : Ref sig .tc := ⟨.hbm, 730, rfl⟩
abbrev main_c_132 : Ref sig .tc := ⟨.hbm, 731, rfl⟩
abbrev main_v573 : Ref sig .tc := ⟨.hbm, 732, rfl⟩
abbrev main_v574 : Ref sig .tc := ⟨.hbm, 733, rfl⟩
abbrev main_v575 : Ref sig .tc := ⟨.hbm, 734, rfl⟩
abbrev main_v576 : Ref sig .tc := ⟨.hbm, 735, rfl⟩
abbrev main_v577 : Ref sig .tc := ⟨.hbm, 736, rfl⟩
abbrev main_v578 : Ref sig .tc := ⟨.hbm, 737, rfl⟩
abbrev main_cst_133 : Ref sig .tc := ⟨.hbm, 738, rfl⟩
abbrev main_v579 : Ref sig .tc := ⟨.hbm, 739, rfl⟩
abbrev main_v580 : Ref sig .tc := ⟨.hbm, 740, rfl⟩
abbrev main_v581 : Ref sig .tc := ⟨.hbm, 741, rfl⟩
abbrev main_c_134 : Ref sig .tc := ⟨.hbm, 742, rfl⟩
abbrev main_v582 : Ref sig .tc := ⟨.hbm, 743, rfl⟩
abbrev main_v583 : Ref sig .tc := ⟨.hbm, 744, rfl⟩
abbrev main_c_135 : Ref sig .tc := ⟨.hbm, 745, rfl⟩
abbrev main_v584 : Ref sig .tc := ⟨.hbm, 746, rfl⟩
abbrev main_v585 : Ref sig .tc := ⟨.hbm, 747, rfl⟩
abbrev main_v586 : Ref sig .tc := ⟨.hbm, 748, rfl⟩
abbrev main_v587 : Ref sig .tc := ⟨.hbm, 749, rfl⟩
abbrev main_v588 : Ref sig .tc := ⟨.hbm, 750, rfl⟩
abbrev main_c_136 : Ref sig .tc := ⟨.hbm, 751, rfl⟩
abbrev main_v589 : Ref sig .tc := ⟨.hbm, 752, rfl⟩
abbrev main_v590 : Ref sig .tc := ⟨.hbm, 753, rfl⟩
abbrev main_c_137 : Ref sig .tc := ⟨.hbm, 754, rfl⟩
abbrev main_v591 : Ref sig .tc := ⟨.hbm, 755, rfl⟩
abbrev main_v592 : Ref sig .tc := ⟨.hbm, 756, rfl⟩
abbrev main_v593 : Ref sig .tc := ⟨.hbm, 757, rfl⟩
abbrev main_v594 : Ref sig .tc := ⟨.hbm, 758, rfl⟩
abbrev main_v595 : Ref sig .tc := ⟨.hbm, 759, rfl⟩
abbrev main_v596 : Ref sig .tc := ⟨.hbm, 760, rfl⟩
abbrev main_v597 : Ref sig .tc := ⟨.hbm, 761, rfl⟩
abbrev main_c_138 : Ref sig .tc := ⟨.hbm, 762, rfl⟩
abbrev main_v598 : Ref sig .tc := ⟨.hbm, 763, rfl⟩
abbrev main_v599 : Ref sig .tc := ⟨.hbm, 764, rfl⟩
abbrev main_c_139 : Ref sig .tc := ⟨.hbm, 765, rfl⟩
abbrev main_v600 : Ref sig .tc := ⟨.hbm, 766, rfl⟩
abbrev main_v601 : Ref sig .tc := ⟨.hbm, 767, rfl⟩
abbrev main_v602 : Ref sig .tc := ⟨.hbm, 768, rfl⟩
abbrev main_v603 : Ref sig .tc := ⟨.hbm, 769, rfl⟩
abbrev main_v604 : Ref sig .tc := ⟨.hbm, 770, rfl⟩
abbrev main_v605 : Ref sig .tc := ⟨.hbm, 771, rfl⟩
abbrev main_v606 : Ref sig .tc := ⟨.hbm, 772, rfl⟩
abbrev main_c_140 : Ref sig .tc := ⟨.hbm, 773, rfl⟩
abbrev main_v607 : Ref sig .tc := ⟨.hbm, 774, rfl⟩
abbrev main_v608 : Ref sig .tc := ⟨.hbm, 775, rfl⟩
abbrev main_c_141 : Ref sig .tc := ⟨.hbm, 776, rfl⟩
abbrev main_v609 : Ref sig .tc := ⟨.hbm, 777, rfl⟩
abbrev main_v610 : Ref sig .tc := ⟨.hbm, 778, rfl⟩
abbrev main_v611 : Ref sig .tc := ⟨.hbm, 779, rfl⟩
abbrev main_v612 : Ref sig .tc := ⟨.hbm, 780, rfl⟩
abbrev main_v613 : Ref sig .tc := ⟨.hbm, 781, rfl⟩
abbrev main_v614 : Ref sig .tc := ⟨.hbm, 782, rfl⟩
abbrev main_cst_142 : Ref sig .tc := ⟨.hbm, 783, rfl⟩
abbrev main_v615 : Ref sig .tc := ⟨.hbm, 784, rfl⟩
abbrev main_v616 : Ref sig .tc := ⟨.hbm, 785, rfl⟩
abbrev main_v617 : Ref sig .tc := ⟨.hbm, 786, rfl⟩
abbrev main_c_143 : Ref sig .tc := ⟨.hbm, 787, rfl⟩
abbrev main_v618 : Ref sig .tc := ⟨.hbm, 788, rfl⟩
abbrev main_v619 : Ref sig .tc := ⟨.hbm, 789, rfl⟩
abbrev main_c_144 : Ref sig .tc := ⟨.hbm, 790, rfl⟩
abbrev main_v620 : Ref sig .tc := ⟨.hbm, 791, rfl⟩
abbrev main_v621 : Ref sig .tc := ⟨.hbm, 792, rfl⟩
abbrev main_v622 : Ref sig .tc := ⟨.hbm, 793, rfl⟩
abbrev main_v623 : Ref sig .tc := ⟨.hbm, 794, rfl⟩
abbrev main_v624 : Ref sig .tc := ⟨.hbm, 795, rfl⟩
abbrev main_c_145 : Ref sig .tc := ⟨.hbm, 796, rfl⟩
abbrev main_v625 : Ref sig .tc := ⟨.hbm, 797, rfl⟩
abbrev main_v626 : Ref sig .tc := ⟨.hbm, 798, rfl⟩
abbrev main_c_146 : Ref sig .tc := ⟨.hbm, 799, rfl⟩
abbrev main_v627 : Ref sig .tc := ⟨.hbm, 800, rfl⟩
abbrev main_v628 : Ref sig .tc := ⟨.hbm, 801, rfl⟩
abbrev main_v629 : Ref sig .tc := ⟨.hbm, 802, rfl⟩
abbrev main_v630 : Ref sig .tc := ⟨.hbm, 803, rfl⟩
abbrev main_v631 : Ref sig .tc := ⟨.hbm, 804, rfl⟩
abbrev main_v632 : Ref sig .tc := ⟨.hbm, 805, rfl⟩
abbrev main_v633 : Ref sig .tc := ⟨.hbm, 806, rfl⟩
abbrev main_c_147 : Ref sig .tc := ⟨.hbm, 807, rfl⟩
abbrev main_v634 : Ref sig .tc := ⟨.hbm, 808, rfl⟩
abbrev main_v635 : Ref sig .tc := ⟨.hbm, 809, rfl⟩
abbrev main_c_148 : Ref sig .tc := ⟨.hbm, 810, rfl⟩
abbrev main_v636 : Ref sig .tc := ⟨.hbm, 811, rfl⟩
abbrev main_v637 : Ref sig .tc := ⟨.hbm, 812, rfl⟩
abbrev main_v638 : Ref sig .tc := ⟨.hbm, 813, rfl⟩
abbrev main_v639 : Ref sig .tc := ⟨.hbm, 814, rfl⟩
abbrev main_v640 : Ref sig .tc := ⟨.hbm, 815, rfl⟩
abbrev main_v641 : Ref sig .tc := ⟨.hbm, 816, rfl⟩
abbrev main_v642 : Ref sig .tc := ⟨.hbm, 817, rfl⟩
abbrev main_c_149 : Ref sig .tc := ⟨.hbm, 818, rfl⟩
abbrev main_v643 : Ref sig .tc := ⟨.hbm, 819, rfl⟩
abbrev main_v644 : Ref sig .tc := ⟨.hbm, 820, rfl⟩
abbrev main_c_150 : Ref sig .tc := ⟨.hbm, 821, rfl⟩
abbrev main_v645 : Ref sig .tc := ⟨.hbm, 822, rfl⟩
abbrev main_v646 : Ref sig .tc := ⟨.hbm, 823, rfl⟩
abbrev main_v647 : Ref sig .tc := ⟨.hbm, 824, rfl⟩
abbrev main_v648 : Ref sig .tc := ⟨.hbm, 825, rfl⟩
abbrev main_v649 : Ref sig .tc := ⟨.hbm, 826, rfl⟩
abbrev main_v650 : Ref sig .tc := ⟨.hbm, 827, rfl⟩
abbrev main_cst_151 : Ref sig .tc := ⟨.hbm, 828, rfl⟩
abbrev main_v651 : Ref sig .tc := ⟨.hbm, 829, rfl⟩
abbrev main_v652 : Ref sig .tc := ⟨.hbm, 830, rfl⟩
abbrev main_v653 : Ref sig .tc := ⟨.hbm, 831, rfl⟩
abbrev main_v654 : Ref sig .tc := ⟨.hbm, 832, rfl⟩
abbrev main_v655 : Ref sig .tc := ⟨.hbm, 833, rfl⟩
abbrev main_v656 : Ref sig .tc := ⟨.hbm, 834, rfl⟩
abbrev main_v657 : Ref sig .tc := ⟨.hbm, 835, rfl⟩
abbrev main_v658 : Ref sig .tc := ⟨.hbm, 836, rfl⟩
abbrev main_v659 : Ref sig .tc := ⟨.hbm, 837, rfl⟩
abbrev main_v660 : Ref sig .tc := ⟨.hbm, 838, rfl⟩
abbrev main_v661 : Ref sig .tc := ⟨.hbm, 839, rfl⟩
abbrev main_v662 : Ref sig .tc := ⟨.hbm, 840, rfl⟩
abbrev main_v663 : Ref sig .tc := ⟨.hbm, 841, rfl⟩
abbrev main_v664 : Ref sig .tc := ⟨.hbm, 842, rfl⟩
abbrev main_v665 : Ref sig .tc := ⟨.hbm, 843, rfl⟩
abbrev main_v666 : Ref sig .tc := ⟨.hbm, 844, rfl⟩
abbrev main_v667 : Ref sig .tc := ⟨.hbm, 845, rfl⟩
abbrev main_v668 : Ref sig .tc := ⟨.hbm, 846, rfl⟩
abbrev main_v669 : Ref sig .tc := ⟨.hbm, 847, rfl⟩
abbrev main_v670 : Ref sig .tc := ⟨.hbm, 848, rfl⟩
abbrev main_v671 : Ref sig .tc := ⟨.hbm, 849, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S_S500000 : S_.BroadcastsInDim S500000 (![] : Fin 0 → Fin S500000.rank)
  bcast_S2_S1x2_1 : S2.BroadcastsInDim S1x2 (![1] : Fin 1 → Fin S1x2.rank)
  bcast_S1x2_S2000000x2_0_1 : S1x2.BroadcastsInDim S2000000x2 (![0, 1] : Fin 2 → Fin S2000000x2.rank)
  bcast_S1x2_S500000x2_0_1 : S1x2.BroadcastsInDim S500000x2 (![0, 1] : Fin 2 → Fin S500000x2.rank)
  bcast_S_S6000000 : S_.BroadcastsInDim S6000000 (![] : Fin 0 → Fin S6000000.rank)
  bcast_S6000000_S6000000x1_0 : S6000000.BroadcastsInDim S6000000x1 (![0] : Fin 1 → Fin S6000000x1.rank)
  bcast_S6000000x1_S6000000x2_0_1 : S6000000x1.BroadcastsInDim S6000000x2 (![0, 1] : Fin 2 → Fin S6000000x2.rank)
  bcast_S_S500000x2 : S_.BroadcastsInDim S500000x2 (![] : Fin 0 → Fin S500000x2.rank)
  bcast_S_S2000000x2 : S_.BroadcastsInDim S2000000x2 (![] : Fin 0 → Fin S2000000x2.rank)
  concatenates_S500000x2_S500000x2_S500000x2_S500000x6_d1 : Shape.Concatenates [S500000x2, S500000x2, S500000x2] S500000x6 1
  slices_S4x6x2_S1x6x2_0_0_0 : S4x6x2.Slices ![0, 0, 0] S1x6x2
  shapeCasts_S1x6x2_S6x2 : S1x6x2.ShapeCasts S6x2
  slices_S4x2_S1x2_0_0 : S4x2.Slices ![0, 0] S1x2
  shapeCasts_S1x2_S2 : S1x2.ShapeCasts S2
  concatenates_S2000000x2_S2000000x2_S2000000x2_S2000000x6_d1 : Shape.Concatenates [S2000000x2, S2000000x2, S2000000x2] S2000000x6 1
  slices_S4x6x2_S1x6x2_1_0_0 : S4x6x2.Slices ![1, 0, 0] S1x6x2
  slices_S4x2_S1x2_1_0 : S4x2.Slices ![1, 0] S1x2
  slices_S4x6x2_S1x6x2_2_0_0 : S4x6x2.Slices ![2, 0, 0] S1x6x2
  slices_S4x2_S1x2_2_0 : S4x2.Slices ![2, 0] S1x2
  slices_S4x6x2_S1x6x2_3_0_0 : S4x6x2.Slices ![3, 0, 0] S1x6x2
  slices_S4x2_S1x2_3_0 : S4x2.Slices ![3, 0] S1x2
  dot_S2000000x1_S1x2_S2000000x2_1_0_0_1_n_n_wf : DotDims.WF S2000000x1 S1x2 S2000000x2 [1] [0] [0] [1] [] []
  dot_S500000x1_S1x2_S500000x2_1_0_0_1_n_n_wf : DotDims.WF S500000x1 S1x2 S500000x2 [1] [0] [0] [1] [] []
  gather_S2000000_S6000000x1_S6000000_n_0_n_n_0_1_1_wf : GatherDims.WF S2000000 S6000000x1 S6000000 [] [0] [] [0] [] 1 ![1]
  gather_S500000_S6000000x1_S6000000_n_0_n_n_0_1_1_wf : GatherDims.WF S500000 S6000000x1 S6000000 [] [0] [] [0] [] 1 ![1]
  gather_S2000000x2_S6000000x1_S6000000x2_1_0_n_n_0_1_12_wf : GatherDims.WF S2000000x2 S6000000x1 S6000000x2 [1] [0] [] [0] [] 1 ![1, 2]
  gather_S500000x2_S6000000x1_S6000000x2_1_0_n_n_0_1_12_wf : GatherDims.WF S500000x2 S6000000x1 S6000000x2 [1] [0] [] [0] [] 1 ![1, 2]
  scatter_S500000x2_S6000000x1_S6000000x2_1_0_0_1_wf : ScatterDims.WF S500000x2 S6000000x1 S6000000x2 [1] [0] [0] 1
  scatter_S2000000x2_S6000000x1_S6000000x2_1_0_0_1_wf : ScatterDims.WF S2000000x2 S6000000x1 S6000000x2 [1] [0] [0] 1
  dot_S500000x6_S6x2_S500000x2_1_0_0_1_n_n_wf : DotDims.WF S500000x6 S6x2 S500000x2 [1] [0] [0] [1] [] []
  dot_S2000000x6_S6x2_S2000000x2_1_0_0_1_n_n_wf : DotDims.WF S2000000x6 S6x2 S2000000x2 [1] [0] [0] [1] [] []

variable [Facts₀]

def dot_S2000000x1_S1x2_S2000000x2_1_0_0_1_n_n : DotDims S2000000x1 S1x2 S2000000x2 where
  lhsContracting := [1]
  rhsContracting := [0]
  lhsNonContracting := [0]
  rhsNonContracting := [1]
  lhsBatch := []
  rhsBatch := []
  wf := dot_S2000000x1_S1x2_S2000000x2_1_0_0_1_n_n_wf
def dot_S500000x1_S1x2_S500000x2_1_0_0_1_n_n : DotDims S500000x1 S1x2 S500000x2 where
  lhsContracting := [1]
  rhsContracting := [0]
  lhsNonContracting := [0]
  rhsNonContracting := [1]
  lhsBatch := []
  rhsBatch := []
  wf := dot_S500000x1_S1x2_S500000x2_1_0_0_1_n_n_wf
def gather_S2000000_S6000000x1_S6000000_n_0_n_n_0_1_1 : GatherDims S2000000 S6000000x1 S6000000 where
  offsetDims := []
  collapsedSliceDims := [0]
  operandBatchingDims := []
  startIndicesBatchingDims := []
  startIndexMap := [0]
  indexVectorDim := 1
  sliceSizes := ![1]
  wf := gather_S2000000_S6000000x1_S6000000_n_0_n_n_0_1_1_wf
def gather_S500000_S6000000x1_S6000000_n_0_n_n_0_1_1 : GatherDims S500000 S6000000x1 S6000000 where
  offsetDims := []
  collapsedSliceDims := [0]
  operandBatchingDims := []
  startIndicesBatchingDims := []
  startIndexMap := [0]
  indexVectorDim := 1
  sliceSizes := ![1]
  wf := gather_S500000_S6000000x1_S6000000_n_0_n_n_0_1_1_wf
def gather_S2000000x2_S6000000x1_S6000000x2_1_0_n_n_0_1_12 : GatherDims S2000000x2 S6000000x1 S6000000x2 where
  offsetDims := [1]
  collapsedSliceDims := [0]
  operandBatchingDims := []
  startIndicesBatchingDims := []
  startIndexMap := [0]
  indexVectorDim := 1
  sliceSizes := ![1, 2]
  wf := gather_S2000000x2_S6000000x1_S6000000x2_1_0_n_n_0_1_12_wf
def gather_S500000x2_S6000000x1_S6000000x2_1_0_n_n_0_1_12 : GatherDims S500000x2 S6000000x1 S6000000x2 where
  offsetDims := [1]
  collapsedSliceDims := [0]
  operandBatchingDims := []
  startIndicesBatchingDims := []
  startIndexMap := [0]
  indexVectorDim := 1
  sliceSizes := ![1, 2]
  wf := gather_S500000x2_S6000000x1_S6000000x2_1_0_n_n_0_1_12_wf
def scatter_S500000x2_S6000000x1_S6000000x2_1_0_0_1 : ScatterDims S500000x2 S6000000x1 S6000000x2 where
  updateWindowDims := [1]
  insertedWindowDims := [0]
  scatterDimsToOperandDims := [0]
  indexVectorDim := 1
  wf := scatter_S500000x2_S6000000x1_S6000000x2_1_0_0_1_wf
def scatter_S2000000x2_S6000000x1_S6000000x2_1_0_0_1 : ScatterDims S2000000x2 S6000000x1 S6000000x2 where
  updateWindowDims := [1]
  insertedWindowDims := [0]
  scatterDimsToOperandDims := [0]
  indexVectorDim := 1
  wf := scatter_S2000000x2_S6000000x1_S6000000x2_1_0_0_1_wf
def dot_S500000x6_S6x2_S500000x2_1_0_0_1_n_n : DotDims S500000x6 S6x2 S500000x2 where
  lhsContracting := [1]
  rhsContracting := [0]
  lhsNonContracting := [0]
  rhsNonContracting := [1]
  lhsBatch := []
  rhsBatch := []
  wf := dot_S500000x6_S6x2_S500000x2_1_0_0_1_n_n_wf
def dot_S2000000x6_S6x2_S2000000x2_1_0_0_1_n_n : DotDims S2000000x6 S6x2 S2000000x2 where
  lhsContracting := [1]
  rhsContracting := [0]
  lhsNonContracting := [0]
  rhsNonContracting := [1]
  lhsBatch := []
  rhsBatch := []
  wf := dot_S2000000x6_S6x2_S2000000x2_1_0_0_1_n_n_wf

class Facts : Prop extends Facts₀ where

variable [Facts]
-- ==== Proof.K.Body0.lean ====
/-
  The affine region at one input column (pallas_call 0): its proof data and its body obligation, at any float
  instance.

  At grid point t the pipeline hands the body the rows [10000 t, 10000 t + 10000) of the input column (10000 x 1),
  the whole weight row (1 x 2), the whole bias row (1 x 2), and an output block of the same rows (10000 x 2). The
  weight and the bias have a block index that does not move with the grid point: they are fetched at the first
  point only, and their staging buffers hold the same block at every point. The body stores, in ONE whole-block
  store, the value
      (0 + x broadcast along the two columns * w broadcast along the rows) + b broadcast along the rows,
  so after the body the output's staging buffer holds that value of the three input blocks, and every input's
  staging buffer still holds its block.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a window whose
    block index does not move is fetched at the first point only, and keeps its block), for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole input block, the whole weight block, the whole bias row and the whole output block, as rectangles. -/
abbrev r0_a : Rect S10000x1 := Rect.unit (s := S10000x1) ![0, 0] S10000x1.size inb_S10000x1_S10000x1_0_0
abbrev r0_b : Rect S1x2 := Rect.unit (s := S1x2) ![0, 0] S1x2.size inb_S1x2_S1x2_0_0
abbrev r0_c : Rect S1x2 := Rect.unit (s := S1x2) ![0, 0] S1x2.size inb_S1x2_S1x2_0_0
abbrev r0_d : Rect S10000x2 := Rect.unit (s := S10000x2) ![0, 0] S10000x2.size inb_S10000x2_S10000x2_0_0

/-- The output's staging buffer after the body, from the three input blocks: its one store. -/
noncomputable def out0_3 (x0 : Vec F S10000x1 .f32) (x1 : Vec F S1x2 .f32) (x2 : Vec F S1x2 .f32) : Vec F S10000x2 .f32 :=
  View.canon [⟨r0_d, k0_pay1 (View.ld x0 r0_a) (View.ld x1 r0_b) (View.ld x2 r0_c)⟩]

/-- The one store covers the buffer. -/
theorem cover0_3 (p0 : Vec F S10000x2 .f32) (y : S10000x2.Idx) :
    ∃ pc ∈ ([⟨r0_d, p0⟩] : List (View.Piece (Elt F) S10000x2 .f32)), y ∈ pc.1.set :=
  View.cover_of_tiled [⟨r0_d, p0⟩] S10000x2.size (by rfl) y

set_option maxHeartbeats 1000000 in
/-- The body on whole staging memrefs: the inputs keep their contents and the output ends at out0_3 of them. -/
theorem sound_kernel0 (c : Dev nD) (E : Set ℕ) (i : grid0.Coords)
    (arg1 : Memref sig .tc .vmem S10000x1 .f32) (harg1 : arg1.IsWhole) (arg2 : Memref sig .tc .vmem S1x2 .f32) (harg2 : arg2.IsWhole)
    (arg3 : Memref sig .tc .vmem S1x2 .f32) (harg3 : arg3.IsWhole) (arg4 : Memref sig .tc .vmem S10000x2 .f32) (harg4 : arg4.IsWhole)
    (x0 : Vec F S10000x1 .f32) (x1 : Vec F S1x2 .f32) (x2 : Vec F S1x2 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1 x2)) -∗ K ⟨⟩))
      ⊢ wp frame (wpE (defs₀ (F := F)) Variants.none c none) E (cc0__affine_kernel i arg1 harg1 arg2 harg2 arg3 harg3 arg4 harg4) K := by
  simp only [cc0__affine_kernel_eq_skeleton]; unfold cc0__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core c. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, -/
noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
noncomputable def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  The affine region at one input column (pallas_call 1): its proof data and its body obligation, at any float
  instance.

  At grid point t the pipeline hands the body the rows [10000 t, 10000 t + 10000) of the input column (10000 x 1),
  the whole weight row (1 x 2), the whole bias row (1 x 2), and an output block of the same rows (10000 x 2). The
  weight and the bias have a block index that does not move with the grid point: they are fetched at the first
  point only, and their staging buffers hold the same block at every point. The body stores, in ONE whole-block
  store, the value
      (0 + x broadcast along the two columns * w broadcast along the rows) + b broadcast along the rows,
  so after the body the output's staging buffer holds that value of the three input blocks, and every input's
  staging buffer still holds its block.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window whose
    block index does not move is fetched at the first point only, and keeps its block), for any proof data whose
    array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole input block, the whole weight block, the whole bias row and the whole output block, as rectangles. -/
abbrev r1_a : Rect S10000x1 := Rect.unit (s := S10000x1) ![0, 0] S10000x1.size inb_S10000x1_S10000x1_0_0
abbrev r1_b : Rect S1x2 := Rect.unit (s := S1x2) ![0, 0] S1x2.size inb_S1x2_S1x2_0_0
abbrev r1_c : Rect S1x2 := Rect.unit (s := S1x2) ![0, 0] S1x2.size inb_S1x2_S1x2_0_0
abbrev r1_d : Rect S10000x2 := Rect.unit (s := S10000x2) ![0, 0] S10000x2.size inb_S10000x2_S10000x2_0_0

/-- The output's staging buffer after the body, from the three input blocks: its one store. -/
noncomputable def out1_3 (x0 : Vec F S10000x1 .f32) (x1 : Vec F S1x2 .f32) (x2 : Vec F S1x2 .f32) : Vec F S10000x2 .f32 :=
  View.canon [⟨r1_d, k1_pay1 (View.ld x0 r1_a) (View.ld x1 r1_b) (View.ld x2 r1_c)⟩]

/-- The one store covers the buffer. -/
theorem cover1_3 (p0 : Vec F S10000x2 .f32) (y : S10000x2.Idx) :
    ∃ pc ∈ ([⟨r1_d, p0⟩] : List (View.Piece (Elt F) S10000x2 .f32)), y ∈ pc.1.set :=
  View.cover_of_tiled [⟨r1_d, p0⟩] S10000x2.size (by rfl) y

set_option maxHeartbeats 1000000 in
/-- The body on whole staging memrefs: the inputs keep their contents and the output ends at out1_3 of them. -/
theorem sound_kernel1 (c : Dev nD) (E : Set ℕ) (i : grid1.Coords)
    (arg1 : Memref sig .tc .vmem S10000x1 .f32) (harg1 : arg1.IsWhole) (arg2 : Memref sig .tc .vmem S1x2 .f32) (harg2 : arg2.IsWhole)
    (arg3 : Memref sig .tc .vmem S1x2 .f32) (harg3 : arg3.IsWhole) (arg4 : Memref sig .tc .vmem S10000x2 .f32) (harg4 : arg4.IsWhole)
    (x0 : Vec F S10000x1 .f32) (x1 : Vec F S1x2 .f32) (x2 : Vec F S1x2 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out1_3 x0 x1 x2)) -∗ K ⟨⟩))
      ⊢ wp frame (wpE (defs₀ (F := F)) Variants.none c none) E (cc1__affine_kernel i arg1 harg1 arg2 harg2 arg3 harg3 arg4 harg4) K := by
  simp only [cc1__affine_kernel_eq_skeleton]; unfold cc1__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core c. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, -/
noncomputable def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
noncomputable def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/-
  The message region (pallas_call 2): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, for any proof data whose array is the
    entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole 4000 x 1 block and the whole 4000 x 2 block, as rectangles. -/
abbrev r2_a : Rect S4000x1 := Rect.unit (s := S4000x1) ![0, 0] S4000x1.size inb_S4000x1_S4000x1_0_0
abbrev r2_b : Rect S4000x2 := Rect.unit (s := S4000x2) ![0, 0] S4000x2.size inb_S4000x2_S4000x2_0_0

/-- The output's staging buffer after the body, from the four input blocks: its one store. -/
noncomputable def out2_4 (x0 x1 : Vec F S4000x1 .f32) (x2 x3 : Vec F S4000x2 .f32) : Vec F S4000x2 .f32 :=
  View.canon [⟨r2_b, k2_pay1 (View.ld x0 r2_a) (View.ld x1 r2_a) (View.ld x2 r2_b) (View.ld x3 r2_b)⟩]

/-- The one store covers the buffer. -/
theorem cover2_4 (p0 : Vec F S4000x2 .f32) (y : S4000x2.Idx) :
    ∃ pc ∈ ([⟨r2_b, p0⟩] : List (View.Piece (Elt F) S4000x2 .f32)), y ∈ pc.1.set :=
  View.cover_of_tiled [⟨r2_b, p0⟩] S4000x2.size (by rfl) y

set_option maxHeartbeats 1000000 in
/-- The body on whole staging memrefs: the inputs keep their contents and the output ends at out2_4 of them. -/
theorem sound_kernel2 (c : Dev nD) (E : Set ℕ) (i : grid2.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 x0 x1 x2 x3)) -∗ K ⟨⟩))
      ⊢ wp frame (wpE (defs₀ (F := F)) Variants.none c none) E (cc2__message_kernel i arg1 harg1 arg2 harg2 arg3 harg3 arg4 harg4 arg5 harg5) K := by
  simp only [cc2__message_kernel_eq_skeleton]; unfold cc2__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of pipeline 2 on core c. -/
noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point t, -/
noncomputable def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
noncomputable def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Body3.lean ====
/-
  The message region (pallas_call 3): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, for any proof data whose array is the
    entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole 4000 x 1 block and the whole 4000 x 2 block, as rectangles. -/
abbrev r3_a : Rect S4000x1 := Rect.unit (s := S4000x1) ![0, 0] S4000x1.size inb_S4000x1_S4000x1_0_0
abbrev r3_b : Rect S4000x2 := Rect.unit (s := S4000x2) ![0, 0] S4000x2.size inb_S4000x2_S4000x2_0_0

/-- The output's staging buffer after the body, from the four input blocks: its one store. -/
noncomputable def out3_4 (x0 x1 : Vec F S4000x1 .f32) (x2 x3 : Vec F S4000x2 .f32) : Vec F S4000x2 .f32 :=
  View.canon [⟨r3_b, k3_pay1 (View.ld x0 r3_a) (View.ld x1 r3_a) (View.ld x2 r3_b) (View.ld x3 r3_b)⟩]

/-- The one store covers the buffer. -/
theorem cover3_4 (p0 : Vec F S4000x2 .f32) (y : S4000x2.Idx) :
    ∃ pc ∈ ([⟨r3_b, p0⟩] : List (View.Piece (Elt F) S4000x2 .f32)), y ∈ pc.1.set :=
  View.cover_of_tiled [⟨r3_b, p0⟩] S4000x2.size (by rfl) y

set_option maxHeartbeats 1000000 in
/-- The body on whole staging memrefs: the inputs keep their contents and the output ends at out3_4 of them. -/
theorem sound_kernel3 (c : Dev nD) (E : Set ℕ) (i : grid3.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out3_4 x0 x1 x2 x3)) -∗ K ⟨⟩))
      ⊢ wp frame (wpE (defs₀ (F := F)) Variants.none c none) E (cc3__message_kernel i arg1 harg1 arg2 harg2 arg3 harg3 arg4 harg4 arg5 harg5) K := by
  simp only [cc3__message_kernel_eq_skeleton]; unfold cc3__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The proof data of pipeline 3 on core c. -/
noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point t, -/
noncomputable def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
noncomputable def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Body4.lean ====
/-
  The message region (pallas_call 4): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, for any proof data whose array is the
    entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The whole 4000 x 1 block and the whole 4000 x 2 block, as rectangles. -/
abbrev r4_a : Rect S4000x1 := Rect.unit (s := S4000x1) ![0, 0] S4000x1.size inb_S4000x1_S4000x1_0_0
abbrev r4_b : Rect S4000x2 := Rect.unit (s := S4000x2) ![0, 0] S4000x2.size inb_S4000x2_S4000x2_0_0

/-- The output's staging buffer after the body, from the four input blocks: its one store. -/
noncomputable def out4_4 (x0 x1 : Vec F S4000x1 .f32) (x2 x3 : Vec F S4000x2 .f32) : Vec F S4000x2 .f32 :=
  View.canon [⟨r4_b, k4_pay1 (View.ld x0 r4_a) (View.ld x1 r4_a) (View.ld x2 r4_b) (View.ld x3 r4_b)⟩]

/-- The one store covers the buffer. -/
theorem cover4_4 (p0 : Vec F S4000x2 .f32) (y : S4000x2.Idx) :
    ∃ pc ∈ ([⟨r4_b, p0⟩] : List (View.Piece (Elt F) S4000x2 .f32)), y ∈ pc.1.set :=
  View.cover_of_tiled [⟨r4_b, p0⟩] S4000x2.size (by rfl) y

set_option maxHeartbeats 1000000 in
/-- The body on whole staging memrefs: the inputs keep their contents and the output ends at out4_4 of them. -/
theorem sound_kernel4 (c : Dev nD) (E : Set ℕ) (i : grid4.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4_4 x0 x1 x2 x3)) -∗ K ⟨⟩))
      ⊢ wp frame (wpE (defs₀ (F := F)) Variants.none c none) E (cc4__message_kernel i arg1 harg1 arg2 harg2 arg3 harg3 arg4 harg4 arg5 harg5) K := by
  simp only [cc4__message_kernel_eq_skeleton]; unfold cc4__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The proof data of pipeline 4 on core c. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point t, -/
noncomputable def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
noncomputable def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Body5.lean ====
/-
  The message region (pallas_call 5): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, for any proof data whose array is the
    entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The whole 4000 x 1 block and the whole 4000 x 2 block, as rectangles. -/
abbrev r5_a : Rect S4000x1 := Rect.unit (s := S4000x1) ![0, 0] S4000x1.size inb_S4000x1_S4000x1_0_0
abbrev r5_b : Rect S4000x2 := Rect.unit (s := S4000x2) ![0, 0] S4000x2.size inb_S4000x2_S4000x2_0_0

/-- The output's staging buffer after the body, from the four input blocks: its one store. -/
noncomputable def out5_4 (x0 x1 : Vec F S4000x1 .f32) (x2 x3 : Vec F S4000x2 .f32) : Vec F S4000x2 .f32 :=
  View.canon [⟨r5_b, k5_pay1 (View.ld x0 r5_a) (View.ld x1 r5_a) (View.ld x2 r5_b) (View.ld x3 r5_b)⟩]

/-- The one store covers the buffer. -/
theorem cover5_4 (p0 : Vec F S4000x2 .f32) (y : S4000x2.Idx) :
    ∃ pc ∈ ([⟨r5_b, p0⟩] : List (View.Piece (Elt F) S4000x2 .f32)), y ∈ pc.1.set :=
  View.cover_of_tiled [⟨r5_b, p0⟩] S4000x2.size (by rfl) y

set_option maxHeartbeats 1000000 in
/-- The body on whole staging memrefs: the inputs keep their contents and the output ends at out5_4 of them. -/
theorem sound_kernel5 (c : Dev nD) (E : Set ℕ) (i : grid5.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out5_4 x0 x1 x2 x3)) -∗ K ⟨⟩))
      ⊢ wp frame (wpE (defs₀ (F := F)) Variants.none c none) E (cc5__message_kernel i arg1 harg1 arg2 harg2 arg3 harg3 arg4 harg4 arg5 harg5) K := by
  simp only [cc5__message_kernel_eq_skeleton]; unfold cc5__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-- The proof data of pipeline 5 on core c. -/
noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is called with at point t, -/
noncomputable def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
noncomputable def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Body6.lean ====
/-
  The affine region at six input columns (pallas_call 6): its proof data and its body obligation, at any float
  instance.

  At grid point t the pipeline hands the body the rows [10000 t, 10000 t + 10000) of the input (10000 x 6), the
  whole weight matrix (6 x 2), the whole bias row (1 x 2), and an output block of the same rows (10000 x 2). The
  weight and the bias have a block index that does not move with the grid point: they are fetched at the first
  point only, and their staging buffers hold the same block at every point. The body stores, in ONE whole-block
  store, the value
      (((((( 0 + x_0 * w_0 ) + x_1 * w_1 ) + x_2 * w_2 ) + x_3 * w_3 ) + x_4 * w_4 ) + x_5 * w_5 ) + b,
  x_i the i-th input column broadcast along the two output columns, w_i the i-th weight row broadcast along the
  rows, b the bias row broadcast along the rows; so after the body the output's staging buffer holds that value of
  the three input blocks, and every input's staging buffer still holds its block.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not (a window whose
    block index does not move is fetched at the first point only, and keeps its block), for any proof data whose
    array is the entry contents and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole input block, the whole weight block, the whole bias row and the whole output block, as rectangles. -/
abbrev r6_a : Rect S10000x6 := Rect.unit (s := S10000x6) ![0, 0] S10000x6.size inb_S10000x6_S10000x6_0_0
abbrev r6_b : Rect S6x2 := Rect.unit (s := S6x2) ![0, 0] S6x2.size inb_S6x2_S6x2_0_0
abbrev r6_c : Rect S1x2 := Rect.unit (s := S1x2) ![0, 0] S1x2.size inb_S1x2_S1x2_0_0
abbrev r6_d : Rect S10000x2 := Rect.unit (s := S10000x2) ![0, 0] S10000x2.size inb_S10000x2_S10000x2_0_0

/-- The output's staging buffer after the body, from the three input blocks: its one store. -/
noncomputable def out6_3 (x0 : Vec F S10000x6 .f32) (x1 : Vec F S6x2 .f32) (x2 : Vec F S1x2 .f32) : Vec F S10000x2 .f32 :=
  View.canon [⟨r6_d, k6_pay1 (View.ld x0 r6_a) (View.ld x1 r6_b) (View.ld x2 r6_c)⟩]

/-- The one store covers the buffer. -/
theorem cover6_3 (p0 : Vec F S10000x2 .f32) (y : S10000x2.Idx) :
    ∃ pc ∈ ([⟨r6_d, p0⟩] : List (View.Piece (Elt F) S10000x2 .f32)), y ∈ pc.1.set :=
  View.cover_of_tiled [⟨r6_d, p0⟩] S10000x2.size (by rfl) y

set_option maxHeartbeats 1000000 in
/-- The body on whole staging memrefs: the inputs keep their contents and the output ends at out6_3 of them. -/
theorem sound_kernel6 (c : Dev nD) (E : Set ℕ) (i : grid6.Coords)
    (arg1 : Memref sig .tc .vmem S10000x6 .f32) (harg1 : arg1.IsWhole) (arg2 : Memref sig .tc .vmem S6x2 .f32) (harg2 : arg2.IsWhole)
    (arg3 : Memref sig .tc .vmem S1x2 .f32) (harg3 : arg3.IsWhole) (arg4 : Memref sig .tc .vmem S10000x2 .f32) (harg4 : arg4.IsWhole)
    (x0 : Vec F S10000x6 .f32) (x1 : Vec F S6x2 .f32) (x2 : Vec F S1x2 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out6_3 x0 x1 x2)) -∗ K ⟨⟩))
      ⊢ wp frame (wpE (defs₀ (F := F)) Variants.none c none) E (cc6__affine_kernel i arg1 harg1 arg2 harg2 arg3 harg3 arg4 harg4) K := by
  simp only [cc6__affine_kernel_eq_skeleton]; unfold cc6__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of pipeline 6 on core c. -/
noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point t, -/
noncomputable def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
noncomputable def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Body7.lean ====
/-
  The affine region at six input columns (pallas_call 7): its proof data and its body obligation, at any float
  instance.

  At grid point t the pipeline hands the body the rows [10000 t, 10000 t + 10000) of the input (10000 x 6), the
  whole weight matrix (6 x 2), the whole bias row (1 x 2), and an output block of the same rows (10000 x 2). The
  weight and the bias have a block index that does not move with the grid point: they are fetched at the first
  point only, and their staging buffers hold the same block at every point. The body stores, in ONE whole-block
  store, the value
      (((((( 0 + x_0 * w_0 ) + x_1 * w_1 ) + x_2 * w_2 ) + x_3 * w_3 ) + x_4 * w_4 ) + x_5 * w_5 ) + b,
  x_i the i-th input column broadcast along the two output columns, w_i the i-th weight row broadcast along the
  rows, b the bias row broadcast along the rows; so after the body the output's staging buffer holds that value of
  the three input blocks, and every input's staging buffer still holds its block.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not (a window whose
    block index does not move is fetched at the first point only, and keeps its block), for any proof data whose
    array is the entry contents and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The whole input block, the whole weight block, the whole bias row and the whole output block, as rectangles. -/
abbrev r7_a : Rect S10000x6 := Rect.unit (s := S10000x6) ![0, 0] S10000x6.size inb_S10000x6_S10000x6_0_0
abbrev r7_b : Rect S6x2 := Rect.unit (s := S6x2) ![0, 0] S6x2.size inb_S6x2_S6x2_0_0
abbrev r7_c : Rect S1x2 := Rect.unit (s := S1x2) ![0, 0] S1x2.size inb_S1x2_S1x2_0_0
abbrev r7_d : Rect S10000x2 := Rect.unit (s := S10000x2) ![0, 0] S10000x2.size inb_S10000x2_S10000x2_0_0

/-- The output's staging buffer after the body, from the three input blocks: its one store. -/
noncomputable def out7_3 (x0 : Vec F S10000x6 .f32) (x1 : Vec F S6x2 .f32) (x2 : Vec F S1x2 .f32) : Vec F S10000x2 .f32 :=
  View.canon [⟨r7_d, k7_pay1 (View.ld x0 r7_a) (View.ld x1 r7_b) (View.ld x2 r7_c)⟩]

/-- The one store covers the buffer. -/
theorem cover7_3 (p0 : Vec F S10000x2 .f32) (y : S10000x2.Idx) :
    ∃ pc ∈ ([⟨r7_d, p0⟩] : List (View.Piece (Elt F) S10000x2 .f32)), y ∈ pc.1.set :=
  View.cover_of_tiled [⟨r7_d, p0⟩] S10000x2.size (by rfl) y

set_option maxHeartbeats 1000000 in
/-- The body on whole staging memrefs: the inputs keep their contents and the output ends at out7_3 of them. -/
theorem sound_kernel7 (c : Dev nD) (E : Set ℕ) (i : grid7.Coords)
    (arg1 : Memref sig .tc .vmem S10000x6 .f32) (harg1 : arg1.IsWhole) (arg2 : Memref sig .tc .vmem S6x2 .f32) (harg2 : arg2.IsWhole)
    (arg3 : Memref sig .tc .vmem S1x2 .f32) (harg3 : arg3.IsWhole) (arg4 : Memref sig .tc .vmem S10000x2 .f32) (harg4 : arg4.IsWhole)
    (x0 : Vec F S10000x6 .f32) (x1 : Vec F S6x2 .f32) (x2 : Vec F S1x2 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out7_3 x0 x1 x2)) -∗ K ⟨⟩))
      ⊢ wp frame (wpE (defs₀ (F := F)) Variants.none c none) E (cc7__affine_kernel i arg1 harg1 arg2 harg2 arg3 harg3 arg4 harg4) K := by
  simp only [cc7__affine_kernel_eq_skeleton]; unfold cc7__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-- The proof data of pipeline 7 on core c. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point t, -/
noncomputable def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
noncomputable def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Body8.lean ====
/-
  The message region (pallas_call 8): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, for any proof data whose array is the
    entry contents and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- The whole 4000 x 1 block and the whole 4000 x 2 block, as rectangles. -/
abbrev r8_a : Rect S4000x1 := Rect.unit (s := S4000x1) ![0, 0] S4000x1.size inb_S4000x1_S4000x1_0_0
abbrev r8_b : Rect S4000x2 := Rect.unit (s := S4000x2) ![0, 0] S4000x2.size inb_S4000x2_S4000x2_0_0

/-- The output's staging buffer after the body, from the four input blocks: its one store. -/
noncomputable def out8_4 (x0 x1 : Vec F S4000x1 .f32) (x2 x3 : Vec F S4000x2 .f32) : Vec F S4000x2 .f32 :=
  View.canon [⟨r8_b, k8_pay1 (View.ld x0 r8_a) (View.ld x1 r8_a) (View.ld x2 r8_b) (View.ld x3 r8_b)⟩]

/-- The one store covers the buffer. -/
theorem cover8_4 (p0 : Vec F S4000x2 .f32) (y : S4000x2.Idx) :
    ∃ pc ∈ ([⟨r8_b, p0⟩] : List (View.Piece (Elt F) S4000x2 .f32)), y ∈ pc.1.set :=
  View.cover_of_tiled [⟨r8_b, p0⟩] S4000x2.size (by rfl) y

set_option maxHeartbeats 1000000 in
/-- The body on whole staging memrefs: the inputs keep their contents and the output ends at out8_4 of them. -/
theorem sound_kernel8 (c : Dev nD) (E : Set ℕ) (i : grid8.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out8_4 x0 x1 x2 x3)) -∗ K ⟨⟩))
      ⊢ wp frame (wpE (defs₀ (F := F)) Variants.none c none) E (cc8__message_kernel i arg1 harg1 arg2 harg2 arg3 harg3 arg4 harg4 arg5 harg5) K := by
  simp only [cc8__message_kernel_eq_skeleton]; unfold cc8__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover8_4 _)

/-- The proof data of pipeline 8 on core c. -/
noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) :
    (dat8 V c).after 4 t = out8_4 (iblk8 V c 0 t) (iblk8 V c 1 t) (iblk8 V c 2 t) (iblk8 V c 3 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-- What the body is called with at point t, -/
noncomputable def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
noncomputable def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Body9.lean ====
/-
  The message region (pallas_call 9): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, for any proof data whose array is the
    entry contents and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- The whole 4000 x 1 block and the whole 4000 x 2 block, as rectangles. -/
abbrev r9_a : Rect S4000x1 := Rect.unit (s := S4000x1) ![0, 0] S4000x1.size inb_S4000x1_S4000x1_0_0
abbrev r9_b : Rect S4000x2 := Rect.unit (s := S4000x2) ![0, 0] S4000x2.size inb_S4000x2_S4000x2_0_0

/-- The output's staging buffer after the body, from the four input blocks: its one store. -/
noncomputable def out9_4 (x0 x1 : Vec F S4000x1 .f32) (x2 x3 : Vec F S4000x2 .f32) : Vec F S4000x2 .f32 :=
  View.canon [⟨r9_b, k9_pay1 (View.ld x0 r9_a) (View.ld x1 r9_a) (View.ld x2 r9_b) (View.ld x3 r9_b)⟩]

/-- The one store covers the buffer. -/
theorem cover9_4 (p0 : Vec F S4000x2 .f32) (y : S4000x2.Idx) :
    ∃ pc ∈ ([⟨r9_b, p0⟩] : List (View.Piece (Elt F) S4000x2 .f32)), y ∈ pc.1.set :=
  View.cover_of_tiled [⟨r9_b, p0⟩] S4000x2.size (by rfl) y

set_option maxHeartbeats 1000000 in
/-- The body on whole staging memrefs: the inputs keep their contents and the output ends at out9_4 of them. -/
theorem sound_kernel9 (c : Dev nD) (E : Set ℕ) (i : grid9.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out9_4 x0 x1 x2 x3)) -∗ K ⟨⟩))
      ⊢ wp frame (wpE (defs₀ (F := F)) Variants.none c none) E (cc9__message_kernel i arg1 harg1 arg2 harg2 arg3 harg3 arg4 harg4 arg5 harg5) K := by
  simp only [cc9__message_kernel_eq_skeleton]; unfold cc9__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover9_4 _)

/-- The proof data of pipeline 9 on core c. -/
noncomputable def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) :
    (dat9 V c).after 4 t = out9_4 (iblk9 V c 0 t) (iblk9 V c 1 t) (iblk9 V c 2 t) (iblk9 V c 3 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-- What the body is called with at point t, -/
noncomputable def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
noncomputable def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ _ _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.Body10.lean ====
/-
  The message region (pallas_call 10): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, for any proof data whose array is the
    entry contents and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- The whole 4000 x 1 block and the whole 4000 x 2 block, as rectangles. -/
abbrev r10_a : Rect S4000x1 := Rect.unit (s := S4000x1) ![0, 0] S4000x1.size inb_S4000x1_S4000x1_0_0
abbrev r10_b : Rect S4000x2 := Rect.unit (s := S4000x2) ![0, 0] S4000x2.size inb_S4000x2_S4000x2_0_0

/-- The output's staging buffer after the body, from the four input blocks: its one store. -/
noncomputable def out10_4 (x0 x1 : Vec F S4000x1 .f32) (x2 x3 : Vec F S4000x2 .f32) : Vec F S4000x2 .f32 :=
  View.canon [⟨r10_b, k10_pay1 (View.ld x0 r10_a) (View.ld x1 r10_a) (View.ld x2 r10_b) (View.ld x3 r10_b)⟩]

/-- The one store covers the buffer. -/
theorem cover10_4 (p0 : Vec F S4000x2 .f32) (y : S4000x2.Idx) :
    ∃ pc ∈ ([⟨r10_b, p0⟩] : List (View.Piece (Elt F) S4000x2 .f32)), y ∈ pc.1.set :=
  View.cover_of_tiled [⟨r10_b, p0⟩] S4000x2.size (by rfl) y

set_option maxHeartbeats 1000000 in
/-- The body on whole staging memrefs: the inputs keep their contents and the output ends at out10_4 of them. -/
theorem sound_kernel10 (c : Dev nD) (E : Set ℕ) (i : grid10.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out10_4 x0 x1 x2 x3)) -∗ K ⟨⟩))
      ⊢ wp frame (wpE (defs₀ (F := F)) Variants.none c none) E (cc10__message_kernel i arg1 harg1 arg2 harg2 arg3 harg3 arg4 harg4 arg5 harg5) K := by
  simp only [cc10__message_kernel_eq_skeleton]; unfold cc10__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover10_4 _)

/-- The proof data of pipeline 10 on core c. -/
noncomputable def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => out10_4 (iblk10 V c 0 t) (iblk10 V c 1 t) (iblk10 V c 2 t) (iblk10 V c 3 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) :
    (dat10 V c).after 4 t = out10_4 (iblk10 V c 0 t) (iblk10 V c 1 t) (iblk10 V c 2 t) (iblk10 V c 3 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d

/-- What the body is called with at point t, -/
noncomputable def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d)))

/-- and what it returns. -/
noncomputable def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3]
  rw [show (dat10 V c).Φ t.succ = (dat10 V c).Φ t.castSucc from rfl,
    show (dat10 V c).owesAt () t.succ = (dat10 V c).owesAt () t.castSucc from rfl,
    after10_0, after10_1, after10_2, after10_3, after10_4]
  iintro ⟨HΦ, Ho, ⟨%d0, H0⟩, ⟨%d1, H1⟩, ⟨%d2, H2⟩, ⟨%d3, H3⟩, ⟨%d4, H4⟩⟩
  iapply (sound_kernel10 c Set.univ _ _ _ _ _ _ _ _ _ _ _ (iblk10 V c 0 t) (iblk10 V c 1 t) (iblk10 V c 2 t) (iblk10 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.K.Body11.lean ====
/-
  The message region (pallas_call 11): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, for any proof data whose array is the
    entry contents and whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- The whole 4000 x 1 block and the whole 4000 x 2 block, as rectangles. -/
abbrev r11_a : Rect S4000x1 := Rect.unit (s := S4000x1) ![0, 0] S4000x1.size inb_S4000x1_S4000x1_0_0
abbrev r11_b : Rect S4000x2 := Rect.unit (s := S4000x2) ![0, 0] S4000x2.size inb_S4000x2_S4000x2_0_0

/-- The output's staging buffer after the body, from the four input blocks: its one store. -/
noncomputable def out11_4 (x0 x1 : Vec F S4000x1 .f32) (x2 x3 : Vec F S4000x2 .f32) : Vec F S4000x2 .f32 :=
  View.canon [⟨r11_b, k11_pay1 (View.ld x0 r11_a) (View.ld x1 r11_a) (View.ld x2 r11_b) (View.ld x3 r11_b)⟩]

/-- The one store covers the buffer. -/
theorem cover11_4 (p0 : Vec F S4000x2 .f32) (y : S4000x2.Idx) :
    ∃ pc ∈ ([⟨r11_b, p0⟩] : List (View.Piece (Elt F) S4000x2 .f32)), y ∈ pc.1.set :=
  View.cover_of_tiled [⟨r11_b, p0⟩] S4000x2.size (by rfl) y

set_option maxHeartbeats 1000000 in
/-- The body on whole staging memrefs: the inputs keep their contents and the output ends at out11_4 of them. -/
theorem sound_kernel11 (c : Dev nD) (E : Set ℕ) (i : grid11.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out11_4 x0 x1 x2 x3)) -∗ K ⟨⟩))
      ⊢ wp frame (wpE (defs₀ (F := F)) Variants.none c none) E (cc11__message_kernel i arg1 harg1 arg2 harg2 arg3 harg3 arg4 harg4 arg5 harg5) K := by
  simp only [cc11__message_kernel_eq_skeleton]; unfold cc11__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover11_4 _)

/-- The proof data of pipeline 11 on core c. -/
noncomputable def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => out11_4 (iblk11 V c 0 t) (iblk11 V c 1 t) (iblk11 V c 2 t) (iblk11 V c 3 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) :
    (dat11 V c).after 4 t = out11_4 (iblk11 V c 0 t) (iblk11 V c 1 t) (iblk11 V c 2 t) (iblk11 V c 3 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d

/-- What the body is called with at point t, -/
noncomputable def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

/-- and what it returns. -/
noncomputable def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3]
  rw [show (dat11 V c).Φ t.succ = (dat11 V c).Φ t.castSucc from rfl,
    show (dat11 V c).owesAt () t.succ = (dat11 V c).owesAt () t.castSucc from rfl,
    after11_0, after11_1, after11_2, after11_3, after11_4]
  iintro ⟨HΦ, Ho, ⟨%d0, H0⟩, ⟨%d1, H1⟩, ⟨%d2, H2⟩, ⟨%d3, H3⟩, ⟨%d4, H4⟩⟩
  iapply (sound_kernel11 c Set.univ _ _ _ _ _ _ _ _ _ _ _ (iblk11 V c 0 t) (iblk11 V c 1 t) (iblk11 V c 2 t) (iblk11 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.K.Body12.lean ====
/-
  The affine region at six input columns (pallas_call 12): its proof data and its body obligation, at any float
  instance.

  At grid point t the pipeline hands the body the rows [10000 t, 10000 t + 10000) of the input (10000 x 6), the
  whole weight matrix (6 x 2), the whole bias row (1 x 2), and an output block of the same rows (10000 x 2). The
  weight and the bias have a block index that does not move with the grid point: they are fetched at the first
  point only, and their staging buffers hold the same block at every point. The body stores, in ONE whole-block
  store, the value
      (((((( 0 + x_0 * w_0 ) + x_1 * w_1 ) + x_2 * w_2 ) + x_3 * w_3 ) + x_4 * w_4 ) + x_5 * w_5 ) + b,
  x_i the i-th input column broadcast along the two output columns, w_i the i-th weight row broadcast along the
  rows, b the bias row broadcast along the rows; so after the body the output's staging buffer holds that value of
  the three input blocks, and every input's staging buffer still holds its block.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, fetched there or not (a window whose
    block index does not move is fetched at the first point only, and keeps its block), for any proof data whose
    array is the entry contents and whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- The whole input block, the whole weight block, the whole bias row and the whole output block, as rectangles. -/
abbrev r12_a : Rect S10000x6 := Rect.unit (s := S10000x6) ![0, 0] S10000x6.size inb_S10000x6_S10000x6_0_0
abbrev r12_b : Rect S6x2 := Rect.unit (s := S6x2) ![0, 0] S6x2.size inb_S6x2_S6x2_0_0
abbrev r12_c : Rect S1x2 := Rect.unit (s := S1x2) ![0, 0] S1x2.size inb_S1x2_S1x2_0_0
abbrev r12_d : Rect S10000x2 := Rect.unit (s := S10000x2) ![0, 0] S10000x2.size inb_S10000x2_S10000x2_0_0

/-- The output's staging buffer after the body, from the three input blocks: its one store. -/
noncomputable def out12_3 (x0 : Vec F S10000x6 .f32) (x1 : Vec F S6x2 .f32) (x2 : Vec F S1x2 .f32) : Vec F S10000x2 .f32 :=
  View.canon [⟨r12_d, k12_pay1 (View.ld x0 r12_a) (View.ld x1 r12_b) (View.ld x2 r12_c)⟩]

/-- The one store covers the buffer. -/
theorem cover12_3 (p0 : Vec F S10000x2 .f32) (y : S10000x2.Idx) :
    ∃ pc ∈ ([⟨r12_d, p0⟩] : List (View.Piece (Elt F) S10000x2 .f32)), y ∈ pc.1.set :=
  View.cover_of_tiled [⟨r12_d, p0⟩] S10000x2.size (by rfl) y

set_option maxHeartbeats 1000000 in
/-- The body on whole staging memrefs: the inputs keep their contents and the output ends at out12_3 of them. -/
theorem sound_kernel12 (c : Dev nD) (E : Set ℕ) (i : grid12.Coords)
    (arg1 : Memref sig .tc .vmem S10000x6 .f32) (harg1 : arg1.IsWhole) (arg2 : Memref sig .tc .vmem S6x2 .f32) (harg2 : arg2.IsWhole)
    (arg3 : Memref sig .tc .vmem S1x2 .f32) (harg3 : arg3.IsWhole) (arg4 : Memref sig .tc .vmem S10000x2 .f32) (harg4 : arg4.IsWhole)
    (x0 : Vec F S10000x6 .f32) (x1 : Vec F S6x2 .f32) (x2 : Vec F S1x2 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out12_3 x0 x1 x2)) -∗ K ⟨⟩))
      ⊢ wp frame (wpE (defs₀ (F := F)) Variants.none c none) E (cc12__affine_kernel i arg1 harg1 arg2 harg2 arg3 harg3 arg4 harg4) K := by
  simp only [cc12__affine_kernel_eq_skeleton]; unfold cc12__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover12_3 _)

/-- The proof data of pipeline 12 on core c. -/
noncomputable def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) :
    (dat12 V c).after 3 t = out12_3 (iblk12 V c 0 t) (iblk12 V c 1 t) (iblk12 V c 2 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-- What the body is called with at point t, -/
noncomputable def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
noncomputable def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel12 c Set.univ (grid12.coords t) _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Hand

end
-- ==== Proof.K.Body13.lean ====
/-
  The affine region at six input columns (pallas_call 13): its proof data and its body obligation, at any float
  instance.

  At grid point t the pipeline hands the body the rows [10000 t, 10000 t + 10000) of the input (10000 x 6), the
  whole weight matrix (6 x 2), the whole bias row (1 x 2), and an output block of the same rows (10000 x 2). The
  weight and the bias have a block index that does not move with the grid point: they are fetched at the first
  point only, and their staging buffers hold the same block at every point. The body stores, in ONE whole-block
  store, the value
      (((((( 0 + x_0 * w_0 ) + x_1 * w_1 ) + x_2 * w_2 ) + x_3 * w_3 ) + x_4 * w_4 ) + x_5 * w_5 ) + b,
  x_i the i-th input column broadcast along the two output columns, w_i the i-th weight row broadcast along the
  rows, b the bias row broadcast along the rows; so after the body the output's staging buffer holds that value of
  the three input blocks, and every input's staging buffer still holds its block.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's current staging buffer holds its block at every point, fetched there or not (a window whose
    block index does not move is fetched at the first point only, and keeps its block), for any proof data whose
    array is the entry contents and whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- The whole input block, the whole weight block, the whole bias row and the whole output block, as rectangles. -/
abbrev r13_a : Rect S10000x6 := Rect.unit (s := S10000x6) ![0, 0] S10000x6.size inb_S10000x6_S10000x6_0_0
abbrev r13_b : Rect S6x2 := Rect.unit (s := S6x2) ![0, 0] S6x2.size inb_S6x2_S6x2_0_0
abbrev r13_c : Rect S1x2 := Rect.unit (s := S1x2) ![0, 0] S1x2.size inb_S1x2_S1x2_0_0
abbrev r13_d : Rect S10000x2 := Rect.unit (s := S10000x2) ![0, 0] S10000x2.size inb_S10000x2_S10000x2_0_0

/-- The output's staging buffer after the body, from the three input blocks: its one store. -/
noncomputable def out13_3 (x0 : Vec F S10000x6 .f32) (x1 : Vec F S6x2 .f32) (x2 : Vec F S1x2 .f32) : Vec F S10000x2 .f32 :=
  View.canon [⟨r13_d, k13_pay1 (View.ld x0 r13_a) (View.ld x1 r13_b) (View.ld x2 r13_c)⟩]

/-- The one store covers the buffer. -/
theorem cover13_3 (p0 : Vec F S10000x2 .f32) (y : S10000x2.Idx) :
    ∃ pc ∈ ([⟨r13_d, p0⟩] : List (View.Piece (Elt F) S10000x2 .f32)), y ∈ pc.1.set :=
  View.cover_of_tiled [⟨r13_d, p0⟩] S10000x2.size (by rfl) y

set_option maxHeartbeats 1000000 in
/-- The body on whole staging memrefs: the inputs keep their contents and the output ends at out13_3 of them. -/
theorem sound_kernel13 (c : Dev nD) (E : Set ℕ) (i : grid13.Coords)
    (arg1 : Memref sig .tc .vmem S10000x6 .f32) (harg1 : arg1.IsWhole) (arg2 : Memref sig .tc .vmem S6x2 .f32) (harg2 : arg2.IsWhole)
    (arg3 : Memref sig .tc .vmem S1x2 .f32) (harg3 : arg3.IsWhole) (arg4 : Memref sig .tc .vmem S10000x2 .f32) (harg4 : arg4.IsWhole)
    (x0 : Vec F S10000x6 .f32) (x1 : Vec F S6x2 .f32) (x2 : Vec F S1x2 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out13_3 x0 x1 x2)) -∗ K ⟨⟩))
      ⊢ wp frame (wpE (defs₀ (F := F)) Variants.none c none) E (cc13__affine_kernel i arg1 harg1 arg2 harg2 arg3 harg3 arg4 harg4) K := by
  simp only [cc13__affine_kernel_eq_skeleton]; unfold cc13__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover13_3 _)

/-- The proof data of pipeline 13 on core c. -/
noncomputable def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) :
    (dat13 V c).after 3 t = out13_3 (iblk13 V c 0 t) (iblk13 V c 1 t) (iblk13 V c 2 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-- What the body is called with at point t, -/
noncomputable def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

/-- and what it returns. -/
noncomputable def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t))

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).Φ t.succ = (dat13 V c).Φ t.castSucc from rfl,
    show (dat13 V c).owesAt () t.succ = (dat13 V c).owesAt () t.castSucc from rfl,
    after13_0, after13_1, after13_2, after13_3]
  iintro ⟨HΦ, Ho, ⟨%d0, H0⟩, ⟨%d1, H1⟩, ⟨%d2, H2⟩, ⟨%d3, H3⟩⟩
  iapply (sound_kernel13 c Set.univ (grid13.coords t) _ _ _ _ _ _ _ _ (iblk13 V c 0 t) (iblk13 V c 1 t) (iblk13 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.Kernel.Hand

end
-- ==== Proof.K.Body14.lean ====
/-
  The message region (pallas_call 14): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- An input window's current staging buffer holds its block at every point, for any proof data whose array is the
    entry contents and whose body leaves the block in place. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

/-- The whole 4000 x 1 block and the whole 4000 x 2 block, as rectangles. -/
abbrev r14_a : Rect S4000x1 := Rect.unit (s := S4000x1) ![0, 0] S4000x1.size inb_S4000x1_S4000x1_0_0
abbrev r14_b : Rect S4000x2 := Rect.unit (s := S4000x2) ![0, 0] S4000x2.size inb_S4000x2_S4000x2_0_0

/-- The output's staging buffer after the body, from the four input blocks: its one store. -/
noncomputable def out14_4 (x0 x1 : Vec F S4000x1 .f32) (x2 x3 : Vec F S4000x2 .f32) : Vec F S4000x2 .f32 :=
  View.canon [⟨r14_b, k14_pay1 (View.ld x0 r14_a) (View.ld x1 r14_a) (View.ld x2 r14_b) (View.ld x3 r14_b)⟩]

/-- The one store covers the buffer. -/
theorem cover14_4 (p0 : Vec F S4000x2 .f32) (y : S4000x2.Idx) :
    ∃ pc ∈ ([⟨r14_b, p0⟩] : List (View.Piece (Elt F) S4000x2 .f32)), y ∈ pc.1.set :=
  View.cover_of_tiled [⟨r14_b, p0⟩] S4000x2.size (by rfl) y

set_option maxHeartbeats 1000000 in
/-- The body on whole staging memrefs: the inputs keep their contents and the output ends at out14_4 of them. -/
theorem sound_kernel14 (c : Dev nD) (E : Set ℕ) (i : grid14.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out14_4 x0 x1 x2 x3)) -∗ K ⟨⟩))
      ⊢ wp frame (wpE (defs₀ (F := F)) Variants.none c none) E (cc14__message_kernel i arg1 harg1 arg2 harg2 arg3 harg3 arg4 harg4 arg5 harg5) K := by
  simp only [cc14__message_kernel_eq_skeleton]; unfold cc14__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover14_4 _)

/-- The proof data of pipeline 14 on core c. -/
noncomputable def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => out14_4 (iblk14 V c 0 t) (iblk14 V c 1 t) (iblk14 V c 2 t) (iblk14 V c 3 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) :
    (dat14 V c).after 4 t = out14_4 (iblk14 V c 0 t) (iblk14 V c 1 t) (iblk14 V c 2 t) (iblk14 V c 3 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d

/-- What the body is called with at point t, -/
noncomputable def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d)))

/-- and what it returns. -/
noncomputable def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t))

theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3]
  rw [show (dat14 V c).Φ t.succ = (dat14 V c).Φ t.castSucc from rfl,
    show (dat14 V c).owesAt () t.succ = (dat14 V c).owesAt () t.castSucc from rfl,
    after14_0, after14_1, after14_2, after14_3, after14_4]
  iintro ⟨HΦ, Ho, ⟨%d0, H0⟩, ⟨%d1, H1⟩, ⟨%d2, H2⟩, ⟨%d3, H3⟩, ⟨%d4, H4⟩⟩
  iapply (sound_kernel14 c Set.univ _ _ _ _ _ _ _ _ _ _ _ (iblk14 V c 0 t) (iblk14 V c 1 t) (iblk14 V c 2 t) (iblk14 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.Kernel.Hand

end
-- ==== Proof.K.Body15.lean ====
/-
  The message region (pallas_call 15): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- An input window's current staging buffer holds its block at every point, for any proof data whose array is the
    entry contents and whose body leaves the block in place. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)
theorem before15_3_of {c : Dev nD} (dat : Dat τ (Elt F) Unit ℕ (UR sig nD τ) ℕ cfg15 c) (hA : dat.A 3 = V c (Pipeline.arrRef spec15 3))
    (hafter : ∀ t, dat.after 3 t = iblk15 V c 3 t) (t : Fin cfg15.N) (d) : dat.before 3 t d = iblk15 V c 3 t :=
  (dat.before_in_eq_fetched 3 rfl (fun _ => rfl) (fun _ _ _ => rfl) (fun t => by rw [hafter]; unfold Dat.blockOf iblk15; rw [hA]; try rfl) t d).trans
    (by unfold Dat.fetched Dat.blockOf iblk15; rw [hA]; try rfl)

/-- The whole 4000 x 1 block and the whole 4000 x 2 block, as rectangles. -/
abbrev r15_a : Rect S4000x1 := Rect.unit (s := S4000x1) ![0, 0] S4000x1.size inb_S4000x1_S4000x1_0_0
abbrev r15_b : Rect S4000x2 := Rect.unit (s := S4000x2) ![0, 0] S4000x2.size inb_S4000x2_S4000x2_0_0

/-- The output's staging buffer after the body, from the four input blocks: its one store. -/
noncomputable def out15_4 (x0 x1 : Vec F S4000x1 .f32) (x2 x3 : Vec F S4000x2 .f32) : Vec F S4000x2 .f32 :=
  View.canon [⟨r15_b, k15_pay1 (View.ld x0 r15_a) (View.ld x1 r15_a) (View.ld x2 r15_b) (View.ld x3 r15_b)⟩]

/-- The one store covers the buffer. -/
theorem cover15_4 (p0 : Vec F S4000x2 .f32) (y : S4000x2.Idx) :
    ∃ pc ∈ ([⟨r15_b, p0⟩] : List (View.Piece (Elt F) S4000x2 .f32)), y ∈ pc.1.set :=
  View.cover_of_tiled [⟨r15_b, p0⟩] S4000x2.size (by rfl) y

set_option maxHeartbeats 1000000 in
/-- The body on whole staging memrefs: the inputs keep their contents and the output ends at out15_4 of them. -/
theorem sound_kernel15 (c : Dev nD) (E : Set ℕ) (i : grid15.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out15_4 x0 x1 x2 x3)) -∗ K ⟨⟩))
      ⊢ wp frame (wpE (defs₀ (F := F)) Variants.none c none) E (cc15__message_kernel i arg1 harg1 arg2 harg2 arg3 harg3 arg4 harg4 arg5 harg5) K := by
  simp only [cc15__message_kernel_eq_skeleton]; unfold cc15__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover15_4 _)

/-- The proof data of pipeline 15 on core c. -/
noncomputable def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => out15_4 (iblk15 V c 0 t) (iblk15 V c 1 t) (iblk15 V c 2 t) (iblk15 V c 3 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = iblk15 V c 3 t := by dsimp only [dat15]
theorem after15_4 (c : Dev nD) (t : Fin cfg15.N) :
    (dat15 V c).after 4 t = out15_4 (iblk15 V c 0 t) (iblk15 V c 1 t) (iblk15 V c 2 t) (iblk15 V c 3 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d
theorem before15_3 (c : Dev nD) (t : Fin cfg15.N) (d) : (dat15 V c).before 3 t d = iblk15 V c 3 t :=
  before15_3_of V (dat15 V c) (A_eq15 V c 3) (after15_3 V c) t d

/-- What the body is called with at point t, -/
noncomputable def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d))
    ∗ (∃ d, owns (c : Thread nD τ) (st15_4 t) fullShare ((dat15 V c).before 4 t d)))

/-- and what it returns. -/
noncomputable def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t)
    ∗ owns (c : Thread nD τ) (st15_4 t) fullShare ((dat15 V c).after 4 t))

theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2, before15_3]
  rw [show (dat15 V c).Φ t.succ = (dat15 V c).Φ t.castSucc from rfl,
    show (dat15 V c).owesAt () t.succ = (dat15 V c).owesAt () t.castSucc from rfl,
    after15_0, after15_1, after15_2, after15_3, after15_4]
  iintro ⟨HΦ, Ho, ⟨%d0, H0⟩, ⟨%d1, H1⟩, ⟨%d2, H2⟩, ⟨%d3, H3⟩, ⟨%d4, H4⟩⟩
  iapply (sound_kernel15 c Set.univ _ _ _ _ _ _ _ _ _ _ _ (iblk15 V c 0 t) (iblk15 V c 1 t) (iblk15 V c 2 t) (iblk15 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation15 (c : Dev nD) : BodyObligation (dat15 (F := F) V c) (defs₀ (F := F)) Variants.none () Set.univ := fun t => by
  rw [bigSep_W15, bigSep_W15]
  exact sound_body15 V c t

end Cert.Kernel.Hand

end
-- ==== Proof.K.Body16.lean ====
/-
  The message region (pallas_call 16): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- An input window's current staging buffer holds its block at every point, for any proof data whose array is the
    entry contents and whose body leaves the block in place. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)
theorem before16_3_of {c : Dev nD} (dat : Dat τ (Elt F) Unit ℕ (UR sig nD τ) ℕ cfg16 c) (hA : dat.A 3 = V c (Pipeline.arrRef spec16 3))
    (hafter : ∀ t, dat.after 3 t = iblk16 V c 3 t) (t : Fin cfg16.N) (d) : dat.before 3 t d = iblk16 V c 3 t :=
  (dat.before_in_eq_fetched 3 rfl (fun _ => rfl) (fun _ _ _ => rfl) (fun t => by rw [hafter]; unfold Dat.blockOf iblk16; rw [hA]; try rfl) t d).trans
    (by unfold Dat.fetched Dat.blockOf iblk16; rw [hA]; try rfl)

/-- The whole 4000 x 1 block and the whole 4000 x 2 block, as rectangles. -/
abbrev r16_a : Rect S4000x1 := Rect.unit (s := S4000x1) ![0, 0] S4000x1.size inb_S4000x1_S4000x1_0_0
abbrev r16_b : Rect S4000x2 := Rect.unit (s := S4000x2) ![0, 0] S4000x2.size inb_S4000x2_S4000x2_0_0

/-- The output's staging buffer after the body, from the four input blocks: its one store. -/
noncomputable def out16_4 (x0 x1 : Vec F S4000x1 .f32) (x2 x3 : Vec F S4000x2 .f32) : Vec F S4000x2 .f32 :=
  View.canon [⟨r16_b, k16_pay1 (View.ld x0 r16_a) (View.ld x1 r16_a) (View.ld x2 r16_b) (View.ld x3 r16_b)⟩]

/-- The one store covers the buffer. -/
theorem cover16_4 (p0 : Vec F S4000x2 .f32) (y : S4000x2.Idx) :
    ∃ pc ∈ ([⟨r16_b, p0⟩] : List (View.Piece (Elt F) S4000x2 .f32)), y ∈ pc.1.set :=
  View.cover_of_tiled [⟨r16_b, p0⟩] S4000x2.size (by rfl) y

set_option maxHeartbeats 1000000 in
/-- The body on whole staging memrefs: the inputs keep their contents and the output ends at out16_4 of them. -/
theorem sound_kernel16 (c : Dev nD) (E : Set ℕ) (i : grid16.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out16_4 x0 x1 x2 x3)) -∗ K ⟨⟩))
      ⊢ wp frame (wpE (defs₀ (F := F)) Variants.none c none) E (cc16__message_kernel i arg1 harg1 arg2 harg2 arg3 harg3 arg4 harg4 arg5 harg5) K := by
  simp only [cc16__message_kernel_eq_skeleton]; unfold cc16__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover16_4 _)

/-- The proof data of pipeline 16 on core c. -/
noncomputable def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => out16_4 (iblk16 V c 0 t) (iblk16 V c 1 t) (iblk16 V c 2 t) (iblk16 V c 3 t)
  Φ _ := Pipeline.ΦA spec16 c
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) :
    (dat16 V c).after 4 t = out16_4 (iblk16 V c 0 t) (iblk16 V c 1 t) (iblk16 V c 2 t) (iblk16 V c 3 t) := by dsimp only [dat16]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d

/-- What the body is called with at point t, -/
noncomputable def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d)))

/-- and what it returns. -/
noncomputable def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t))

theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3]
  rw [show (dat16 V c).Φ t.succ = (dat16 V c).Φ t.castSucc from rfl,
    show (dat16 V c).owesAt () t.succ = (dat16 V c).owesAt () t.castSucc from rfl,
    after16_0, after16_1, after16_2, after16_3, after16_4]
  iintro ⟨HΦ, Ho, ⟨%d0, H0⟩, ⟨%d1, H1⟩, ⟨%d2, H2⟩, ⟨%d3, H3⟩, ⟨%d4, H4⟩⟩
  iapply (sound_kernel16 c Set.univ _ _ _ _ _ _ _ _ _ _ _ (iblk16 V c 0 t) (iblk16 V c 1 t) (iblk16 V c 2 t) (iblk16 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation16 (c : Dev nD) : BodyObligation (dat16 (F := F) V c) (defs₀ (F := F)) Variants.none () Set.univ := fun t => by
  rw [bigSep_W16, bigSep_W16]
  exact sound_body16 V c t

end Cert.Kernel.Hand

end
-- ==== Proof.K.Body17.lean ====
/-
  The message region (pallas_call 17): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- An input window's current staging buffer holds its block at every point, for any proof data whose array is the
    entry contents and whose body leaves the block in place. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)
theorem before17_3_of {c : Dev nD} (dat : Dat τ (Elt F) Unit ℕ (UR sig nD τ) ℕ cfg17 c) (hA : dat.A 3 = V c (Pipeline.arrRef spec17 3))
    (hafter : ∀ t, dat.after 3 t = iblk17 V c 3 t) (t : Fin cfg17.N) (d) : dat.before 3 t d = iblk17 V c 3 t :=
  (dat.before_in_eq_fetched 3 rfl (fun _ => rfl) (fun _ _ _ => rfl) (fun t => by rw [hafter]; unfold Dat.blockOf iblk17; rw [hA]; try rfl) t d).trans
    (by unfold Dat.fetched Dat.blockOf iblk17; rw [hA]; try rfl)

/-- The whole 4000 x 1 block and the whole 4000 x 2 block, as rectangles. -/
abbrev r17_a : Rect S4000x1 := Rect.unit (s := S4000x1) ![0, 0] S4000x1.size inb_S4000x1_S4000x1_0_0
abbrev r17_b : Rect S4000x2 := Rect.unit (s := S4000x2) ![0, 0] S4000x2.size inb_S4000x2_S4000x2_0_0

/-- The output's staging buffer after the body, from the four input blocks: its one store. -/
noncomputable def out17_4 (x0 x1 : Vec F S4000x1 .f32) (x2 x3 : Vec F S4000x2 .f32) : Vec F S4000x2 .f32 :=
  View.canon [⟨r17_b, k17_pay1 (View.ld x0 r17_a) (View.ld x1 r17_a) (View.ld x2 r17_b) (View.ld x3 r17_b)⟩]

/-- The one store covers the buffer. -/
theorem cover17_4 (p0 : Vec F S4000x2 .f32) (y : S4000x2.Idx) :
    ∃ pc ∈ ([⟨r17_b, p0⟩] : List (View.Piece (Elt F) S4000x2 .f32)), y ∈ pc.1.set :=
  View.cover_of_tiled [⟨r17_b, p0⟩] S4000x2.size (by rfl) y

set_option maxHeartbeats 1000000 in
/-- The body on whole staging memrefs: the inputs keep their contents and the output ends at out17_4 of them. -/
theorem sound_kernel17 (c : Dev nD) (E : Set ℕ) (i : grid17.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out17_4 x0 x1 x2 x3)) -∗ K ⟨⟩))
      ⊢ wp frame (wpE (defs₀ (F := F)) Variants.none c none) E (cc17__message_kernel i arg1 harg1 arg2 harg2 arg3 harg3 arg4 harg4 arg5 harg5) K := by
  simp only [cc17__message_kernel_eq_skeleton]; unfold cc17__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover17_4 _)

/-- The proof data of pipeline 17 on core c. -/
noncomputable def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => iblk17 V c 3 t
    | ⟨4, _⟩ => out17_4 (iblk17 V c 0 t) (iblk17 V c 1 t) (iblk17 V c 2 t) (iblk17 V c 3 t)
  Φ _ := Pipeline.ΦA spec17 c
  q _ := fullShare
  owed _ := 0

theorem A_eq17 (c : Dev nD) (w : Fin cfg17.W) : (dat17 V c).A w = V c (Pipeline.arrRef spec17 w) := by
  dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = iblk17 V c 3 t := by dsimp only [dat17]
theorem after17_4 (c : Dev nD) (t : Fin cfg17.N) :
    (dat17 V c).after 4 t = out17_4 (iblk17 V c 0 t) (iblk17 V c 1 t) (iblk17 V c 2 t) (iblk17 V c 3 t) := by dsimp only [dat17]

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d
theorem before17_3 (c : Dev nD) (t : Fin cfg17.N) (d) : (dat17 V c).before 3 t d = iblk17 V c 3 t :=
  before17_3_of V (dat17 V c) (A_eq17 V c 3) (after17_3 V c) t d

/-- What the body is called with at point t, -/
noncomputable def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d))
    ∗ (∃ d, owns (c : Thread nD τ) (st17_4 t) fullShare ((dat17 V c).before 4 t d)))

/-- and what it returns. -/
noncomputable def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t)
    ∗ owns (c : Thread nD τ) (st17_4 t) fullShare ((dat17 V c).after 4 t))

theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2, before17_3]
  rw [show (dat17 V c).Φ t.succ = (dat17 V c).Φ t.castSucc from rfl,
    show (dat17 V c).owesAt () t.succ = (dat17 V c).owesAt () t.castSucc from rfl,
    after17_0, after17_1, after17_2, after17_3, after17_4]
  iintro ⟨HΦ, Ho, ⟨%d0, H0⟩, ⟨%d1, H1⟩, ⟨%d2, H2⟩, ⟨%d3, H3⟩, ⟨%d4, H4⟩⟩
  iapply (sound_kernel17 c Set.univ _ _ _ _ _ _ _ _ _ _ _ (iblk17 V c 0 t) (iblk17 V c 1 t) (iblk17 V c 2 t) (iblk17 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation17 (c : Dev nD) : BodyObligation (dat17 (F := F) V c) (defs₀ (F := F)) Variants.none () Set.univ := fun t => by
  rw [bigSep_W17, bigSep_W17]
  exact sound_body17 V c t

end Cert.Kernel.Hand

end
-- ==== Proof.K.Body18.lean ====
/-
  The affine region at six input columns (pallas_call 18): its proof data and its body obligation, at any float
  instance.

  At grid point t the pipeline hands the body the rows [10000 t, 10000 t + 10000) of the input (10000 x 6), the
  whole weight matrix (6 x 2), the whole bias row (1 x 2), and an output block of the same rows (10000 x 2). The
  weight and the bias have a block index that does not move with the grid point: they are fetched at the first
  point only, and their staging buffers hold the same block at every point. The body stores, in ONE whole-block
  store, the value
      (((((( 0 + x_0 * w_0 ) + x_1 * w_1 ) + x_2 * w_2 ) + x_3 * w_3 ) + x_4 * w_4 ) + x_5 * w_5 ) + b,
  x_i the i-th input column broadcast along the two output columns, w_i the i-th weight row broadcast along the
  rows, b the bias row broadcast along the rows; so after the body the output's staging buffer holds that value of
  the three input blocks, and every input's staging buffer still holds its block.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- An input window's current staging buffer holds its block at every point, fetched there or not (a window whose
    block index does not move is fetched at the first point only, and keeps its block), for any proof data whose
    array is the entry contents and whose body leaves the block in place. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)
theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)

/-- The whole input block, the whole weight block, the whole bias row and the whole output block, as rectangles. -/
abbrev r18_a : Rect S10000x6 := Rect.unit (s := S10000x6) ![0, 0] S10000x6.size inb_S10000x6_S10000x6_0_0
abbrev r18_b : Rect S6x2 := Rect.unit (s := S6x2) ![0, 0] S6x2.size inb_S6x2_S6x2_0_0
abbrev r18_c : Rect S1x2 := Rect.unit (s := S1x2) ![0, 0] S1x2.size inb_S1x2_S1x2_0_0
abbrev r18_d : Rect S10000x2 := Rect.unit (s := S10000x2) ![0, 0] S10000x2.size inb_S10000x2_S10000x2_0_0

/-- The output's staging buffer after the body, from the three input blocks: its one store. -/
noncomputable def out18_3 (x0 : Vec F S10000x6 .f32) (x1 : Vec F S6x2 .f32) (x2 : Vec F S1x2 .f32) : Vec F S10000x2 .f32 :=
  View.canon [⟨r18_d, k18_pay1 (View.ld x0 r18_a) (View.ld x1 r18_b) (View.ld x2 r18_c)⟩]

/-- The one store covers the buffer. -/
theorem cover18_3 (p0 : Vec F S10000x2 .f32) (y : S10000x2.Idx) :
    ∃ pc ∈ ([⟨r18_d, p0⟩] : List (View.Piece (Elt F) S10000x2 .f32)), y ∈ pc.1.set :=
  View.cover_of_tiled [⟨r18_d, p0⟩] S10000x2.size (by rfl) y

set_option maxHeartbeats 1000000 in
/-- The body on whole staging memrefs: the inputs keep their contents and the output ends at out18_3 of them. -/
theorem sound_kernel18 (c : Dev nD) (E : Set ℕ) (i : grid18.Coords)
    (arg1 : Memref sig .tc .vmem S10000x6 .f32) (harg1 : arg1.IsWhole) (arg2 : Memref sig .tc .vmem S6x2 .f32) (harg2 : arg2.IsWhole)
    (arg3 : Memref sig .tc .vmem S1x2 .f32) (harg3 : arg3.IsWhole) (arg4 : Memref sig .tc .vmem S10000x2 .f32) (harg4 : arg4.IsWhole)
    (x0 : Vec F S10000x6 .f32) (x1 : Vec F S6x2 .f32) (x2 : Vec F S1x2 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out18_3 x0 x1 x2)) -∗ K ⟨⟩))
      ⊢ wp frame (wpE (defs₀ (F := F)) Variants.none c none) E (cc18__affine_kernel i arg1 harg1 arg2 harg2 arg3 harg3 arg4 harg4) K := by
  simp only [cc18__affine_kernel_eq_skeleton]; unfold cc18__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover18_3 _)

/-- The proof data of pipeline 18 on core c. -/
noncomputable def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => out18_3 (iblk18 V c 0 t) (iblk18 V c 1 t) (iblk18 V c 2 t)
  Φ _ := Pipeline.ΦA spec18 c
  q _ := fullShare
  owed _ := 0

theorem A_eq18 (c : Dev nD) (w : Fin cfg18.W) : (dat18 V c).A w = V c (Pipeline.arrRef spec18 w) := by
  dsimp only [dat18]

theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) :
    (dat18 V c).after 3 t = out18_3 (iblk18 V c 0 t) (iblk18 V c 1 t) (iblk18 V c 2 t) := by dsimp only [dat18]

theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d

/-- What the body is called with at point t, -/
noncomputable def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d)))

/-- and what it returns. -/
noncomputable def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t))

theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2]
  rw [show (dat18 V c).Φ t.succ = (dat18 V c).Φ t.castSucc from rfl,
    show (dat18 V c).owesAt () t.succ = (dat18 V c).owesAt () t.castSucc from rfl,
    after18_0, after18_1, after18_2, after18_3]
  iintro ⟨HΦ, Ho, ⟨%d0, H0⟩, ⟨%d1, H1⟩, ⟨%d2, H2⟩, ⟨%d3, H3⟩⟩
  iapply (sound_kernel18 c Set.univ (grid18.coords t) _ _ _ _ _ _ _ _ (iblk18 V c 0 t) (iblk18 V c 1 t) (iblk18 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation18 (c : Dev nD) : BodyObligation (dat18 (F := F) V c) (defs₀ (F := F)) Variants.none () Set.univ := fun t => by
  rw [bigSep_W18, bigSep_W18]
  exact sound_body18 V c t

end Cert.Kernel.Hand

end
-- ==== Proof.K.Body19.lean ====
/-
  The affine region at six input columns (pallas_call 19): its proof data and its body obligation, at any float
  instance.

  At grid point t the pipeline hands the body the rows [10000 t, 10000 t + 10000) of the input (10000 x 6), the
  whole weight matrix (6 x 2), the whole bias row (1 x 2), and an output block of the same rows (10000 x 2). The
  weight and the bias have a block index that does not move with the grid point: they are fetched at the first
  point only, and their staging buffers hold the same block at every point. The body stores, in ONE whole-block
  store, the value
      (((((( 0 + x_0 * w_0 ) + x_1 * w_1 ) + x_2 * w_2 ) + x_3 * w_3 ) + x_4 * w_4 ) + x_5 * w_5 ) + b,
  x_i the i-th input column broadcast along the two output columns, w_i the i-th weight row broadcast along the
  rows, b the bias row broadcast along the rows; so after the body the output's staging buffer holds that value of
  the three input blocks, and every input's staging buffer still holds its block.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- An input window's current staging buffer holds its block at every point, fetched there or not (a window whose
    block index does not move is fetched at the first point only, and keeps its block), for any proof data whose
    array is the entry contents and whose body leaves the block in place. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)
theorem before19_2_of {c : Dev nD} (dat : Dat τ (Elt F) Unit ℕ (UR sig nD τ) ℕ cfg19 c) (hA : dat.A 2 = V c (Pipeline.arrRef spec19 2))
    (hafter : ∀ t, dat.after 2 t = iblk19 V c 2 t) (t : Fin cfg19.N) (d) : dat.before 2 t d = iblk19 V c 2 t :=
  (dat.before_in_eq_fetched 2 rfl (fun _ => rfl) (fun _ _ _ => rfl) (fun t => by rw [hafter]; unfold Dat.blockOf iblk19; rw [hA]; try rfl) t d).trans
    (by unfold Dat.fetched Dat.blockOf iblk19; rw [hA]; try rfl)

/-- The whole input block, the whole weight block, the whole bias row and the whole output block, as rectangles. -/
abbrev r19_a : Rect S10000x6 := Rect.unit (s := S10000x6) ![0, 0] S10000x6.size inb_S10000x6_S10000x6_0_0
abbrev r19_b : Rect S6x2 := Rect.unit (s := S6x2) ![0, 0] S6x2.size inb_S6x2_S6x2_0_0
abbrev r19_c : Rect S1x2 := Rect.unit (s := S1x2) ![0, 0] S1x2.size inb_S1x2_S1x2_0_0
abbrev r19_d : Rect S10000x2 := Rect.unit (s := S10000x2) ![0, 0] S10000x2.size inb_S10000x2_S10000x2_0_0

/-- The output's staging buffer after the body, from the three input blocks: its one store. -/
noncomputable def out19_3 (x0 : Vec F S10000x6 .f32) (x1 : Vec F S6x2 .f32) (x2 : Vec F S1x2 .f32) : Vec F S10000x2 .f32 :=
  View.canon [⟨r19_d, k19_pay1 (View.ld x0 r19_a) (View.ld x1 r19_b) (View.ld x2 r19_c)⟩]

/-- The one store covers the buffer. -/
theorem cover19_3 (p0 : Vec F S10000x2 .f32) (y : S10000x2.Idx) :
    ∃ pc ∈ ([⟨r19_d, p0⟩] : List (View.Piece (Elt F) S10000x2 .f32)), y ∈ pc.1.set :=
  View.cover_of_tiled [⟨r19_d, p0⟩] S10000x2.size (by rfl) y

set_option maxHeartbeats 1000000 in
/-- The body on whole staging memrefs: the inputs keep their contents and the output ends at out19_3 of them. -/
theorem sound_kernel19 (c : Dev nD) (E : Set ℕ) (i : grid19.Coords)
    (arg1 : Memref sig .tc .vmem S10000x6 .f32) (harg1 : arg1.IsWhole) (arg2 : Memref sig .tc .vmem S6x2 .f32) (harg2 : arg2.IsWhole)
    (arg3 : Memref sig .tc .vmem S1x2 .f32) (harg3 : arg3.IsWhole) (arg4 : Memref sig .tc .vmem S10000x2 .f32) (harg4 : arg4.IsWhole)
    (x0 : Vec F S10000x6 .f32) (x1 : Vec F S6x2 .f32) (x2 : Vec F S1x2 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out19_3 x0 x1 x2)) -∗ K ⟨⟩))
      ⊢ wp frame (wpE (defs₀ (F := F)) Variants.none c none) E (cc19__affine_kernel i arg1 harg1 arg2 harg2 arg3 harg3 arg4 harg4) K := by
  simp only [cc19__affine_kernel_eq_skeleton]; unfold cc19__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover19_3 _)

/-- The proof data of pipeline 19 on core c. -/
noncomputable def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => iblk19 V c 2 t
    | ⟨3, _⟩ => out19_3 (iblk19 V c 0 t) (iblk19 V c 1 t) (iblk19 V c 2 t)
  Φ _ := Pipeline.ΦA spec19 c
  q _ := fullShare
  owed _ := 0

theorem A_eq19 (c : Dev nD) (w : Fin cfg19.W) : (dat19 V c).A w = V c (Pipeline.arrRef spec19 w) := by
  dsimp only [dat19]

theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = iblk19 V c 2 t := by dsimp only [dat19]
theorem after19_3 (c : Dev nD) (t : Fin cfg19.N) :
    (dat19 V c).after 3 t = out19_3 (iblk19 V c 0 t) (iblk19 V c 1 t) (iblk19 V c 2 t) := by dsimp only [dat19]

theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d
theorem before19_2 (c : Dev nD) (t : Fin cfg19.N) (d) : (dat19 V c).before 2 t d = iblk19 V c 2 t :=
  before19_2_of V (dat19 V c) (A_eq19 V c 2) (after19_2 V c) t d

/-- What the body is called with at point t, -/
noncomputable def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d))
    ∗ (∃ d, owns (c : Thread nD τ) (st19_3 t) fullShare ((dat19 V c).before 3 t d)))

/-- and what it returns. -/
noncomputable def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t)
    ∗ owns (c : Thread nD τ) (st19_3 t) fullShare ((dat19 V c).after 3 t))

theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1, before19_2]
  rw [show (dat19 V c).Φ t.succ = (dat19 V c).Φ t.castSucc from rfl,
    show (dat19 V c).owesAt () t.succ = (dat19 V c).owesAt () t.castSucc from rfl,
    after19_0, after19_1, after19_2, after19_3]
  iintro ⟨HΦ, Ho, ⟨%d0, H0⟩, ⟨%d1, H1⟩, ⟨%d2, H2⟩, ⟨%d3, H3⟩⟩
  iapply (sound_kernel19 c Set.univ (grid19.coords t) _ _ _ _ _ _ _ _ (iblk19 V c 0 t) (iblk19 V c 1 t) (iblk19 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation19 (c : Dev nD) : BodyObligation (dat19 (F := F) V c) (defs₀ (F := F)) Variants.none () Set.univ := fun t => by
  rw [bigSep_W19, bigSep_W19]
  exact sound_body19 V c t

end Cert.Kernel.Hand

end
-- ==== Proof.K.Body20.lean ====
/-
  The message region (pallas_call 20): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-- An input window's current staging buffer holds its block at every point, for any proof data whose array is the
    entry contents and whose body leaves the block in place. -/
theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)
theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)
theorem before20_2_of {c : Dev nD} (dat : Dat τ (Elt F) Unit ℕ (UR sig nD τ) ℕ cfg20 c) (hA : dat.A 2 = V c (Pipeline.arrRef spec20 2))
    (hafter : ∀ t, dat.after 2 t = iblk20 V c 2 t) (t : Fin cfg20.N) (d) : dat.before 2 t d = iblk20 V c 2 t :=
  (dat.before_in_eq_fetched 2 rfl (fun _ => rfl) (fun _ _ _ => rfl) (fun t => by rw [hafter]; unfold Dat.blockOf iblk20; rw [hA]; try rfl) t d).trans
    (by unfold Dat.fetched Dat.blockOf iblk20; rw [hA]; try rfl)
theorem before20_3_of {c : Dev nD} (dat : Dat τ (Elt F) Unit ℕ (UR sig nD τ) ℕ cfg20 c) (hA : dat.A 3 = V c (Pipeline.arrRef spec20 3))
    (hafter : ∀ t, dat.after 3 t = iblk20 V c 3 t) (t : Fin cfg20.N) (d) : dat.before 3 t d = iblk20 V c 3 t :=
  (dat.before_in_eq_fetched 3 rfl (fun _ => rfl) (fun _ _ _ => rfl) (fun t => by rw [hafter]; unfold Dat.blockOf iblk20; rw [hA]; try rfl) t d).trans
    (by unfold Dat.fetched Dat.blockOf iblk20; rw [hA]; try rfl)

/-- The whole 4000 x 1 block and the whole 4000 x 2 block, as rectangles. -/
abbrev r20_a : Rect S4000x1 := Rect.unit (s := S4000x1) ![0, 0] S4000x1.size inb_S4000x1_S4000x1_0_0
abbrev r20_b : Rect S4000x2 := Rect.unit (s := S4000x2) ![0, 0] S4000x2.size inb_S4000x2_S4000x2_0_0

/-- The output's staging buffer after the body, from the four input blocks: its one store. -/
noncomputable def out20_4 (x0 x1 : Vec F S4000x1 .f32) (x2 x3 : Vec F S4000x2 .f32) : Vec F S4000x2 .f32 :=
  View.canon [⟨r20_b, k20_pay1 (View.ld x0 r20_a) (View.ld x1 r20_a) (View.ld x2 r20_b) (View.ld x3 r20_b)⟩]

/-- The one store covers the buffer. -/
theorem cover20_4 (p0 : Vec F S4000x2 .f32) (y : S4000x2.Idx) :
    ∃ pc ∈ ([⟨r20_b, p0⟩] : List (View.Piece (Elt F) S4000x2 .f32)), y ∈ pc.1.set :=
  View.cover_of_tiled [⟨r20_b, p0⟩] S4000x2.size (by rfl) y

set_option maxHeartbeats 1000000 in
/-- The body on whole staging memrefs: the inputs keep their contents and the output ends at out20_4 of them. -/
theorem sound_kernel20 (c : Dev nD) (E : Set ℕ) (i : grid20.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out20_4 x0 x1 x2 x3)) -∗ K ⟨⟩))
      ⊢ wp frame (wpE (defs₀ (F := F)) Variants.none c none) E (cc20__message_kernel i arg1 harg1 arg2 harg2 arg3 harg3 arg4 harg4 arg5 harg5) K := by
  simp only [cc20__message_kernel_eq_skeleton]; unfold cc20__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover20_4 _)

/-- The proof data of pipeline 20 on core c. -/
noncomputable def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => iblk20 V c 2 t
    | ⟨3, _⟩ => iblk20 V c 3 t
    | ⟨4, _⟩ => out20_4 (iblk20 V c 0 t) (iblk20 V c 1 t) (iblk20 V c 2 t) (iblk20 V c 3 t)
  Φ _ := Pipeline.ΦA spec20 c
  q _ := fullShare
  owed _ := 0

theorem A_eq20 (c : Dev nD) (w : Fin cfg20.W) : (dat20 V c).A w = V c (Pipeline.arrRef spec20 w) := by
  dsimp only [dat20]

theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = iblk20 V c 2 t := by dsimp only [dat20]
theorem after20_3 (c : Dev nD) (t : Fin cfg20.N) : (dat20 V c).after 3 t = iblk20 V c 3 t := by dsimp only [dat20]
theorem after20_4 (c : Dev nD) (t : Fin cfg20.N) :
    (dat20 V c).after 4 t = out20_4 (iblk20 V c 0 t) (iblk20 V c 1 t) (iblk20 V c 2 t) (iblk20 V c 3 t) := by dsimp only [dat20]

theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d
theorem before20_2 (c : Dev nD) (t : Fin cfg20.N) (d) : (dat20 V c).before 2 t d = iblk20 V c 2 t :=
  before20_2_of V (dat20 V c) (A_eq20 V c 2) (after20_2 V c) t d
theorem before20_3 (c : Dev nD) (t : Fin cfg20.N) (d) : (dat20 V c).before 3 t d = iblk20 V c 3 t :=
  before20_3_of V (dat20 V c) (A_eq20 V c 3) (after20_3 V c) t d

/-- What the body is called with at point t, -/
noncomputable def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d))
    ∗ (∃ d, owns (c : Thread nD τ) (st20_3 t) fullShare ((dat20 V c).before 3 t d))
    ∗ (∃ d, owns (c : Thread nD τ) (st20_4 t) fullShare ((dat20 V c).before 4 t d)))

/-- and what it returns. -/
noncomputable def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t)
    ∗ owns (c : Thread nD τ) (st20_3 t) fullShare ((dat20 V c).after 3 t)
    ∗ owns (c : Thread nD τ) (st20_4 t) fullShare ((dat20 V c).after 4 t))

theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1, before20_2, before20_3]
  rw [show (dat20 V c).Φ t.succ = (dat20 V c).Φ t.castSucc from rfl,
    show (dat20 V c).owesAt () t.succ = (dat20 V c).owesAt () t.castSucc from rfl,
    after20_0, after20_1, after20_2, after20_3, after20_4]
  iintro ⟨HΦ, Ho, ⟨%d0, H0⟩, ⟨%d1, H1⟩, ⟨%d2, H2⟩, ⟨%d3, H3⟩, ⟨%d4, H4⟩⟩
  iapply (sound_kernel20 c Set.univ _ _ _ _ _ _ _ _ _ _ _ (iblk20 V c 0 t) (iblk20 V c 1 t) (iblk20 V c 2 t) (iblk20 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation20 (c : Dev nD) : BodyObligation (dat20 (F := F) V c) (defs₀ (F := F)) Variants.none () Set.univ := fun t => by
  rw [bigSep_W20, bigSep_W20]
  exact sound_body20 V c t

end Cert.Kernel.Hand

end
-- ==== Proof.K.Body21.lean ====
/-
  The message region (pallas_call 21): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

/-- An input window's current staging buffer holds its block at every point, for any proof data whose array is the
    entry contents and whose body leaves the block in place. -/
theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)
theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)
theorem before21_2_of {c : Dev nD} (dat : Dat τ (Elt F) Unit ℕ (UR sig nD τ) ℕ cfg21 c) (hA : dat.A 2 = V c (Pipeline.arrRef spec21 2))
    (hafter : ∀ t, dat.after 2 t = iblk21 V c 2 t) (t : Fin cfg21.N) (d) : dat.before 2 t d = iblk21 V c 2 t :=
  (dat.before_in_eq_fetched 2 rfl (fun _ => rfl) (fun _ _ _ => rfl) (fun t => by rw [hafter]; unfold Dat.blockOf iblk21; rw [hA]; try rfl) t d).trans
    (by unfold Dat.fetched Dat.blockOf iblk21; rw [hA]; try rfl)
theorem before21_3_of {c : Dev nD} (dat : Dat τ (Elt F) Unit ℕ (UR sig nD τ) ℕ cfg21 c) (hA : dat.A 3 = V c (Pipeline.arrRef spec21 3))
    (hafter : ∀ t, dat.after 3 t = iblk21 V c 3 t) (t : Fin cfg21.N) (d) : dat.before 3 t d = iblk21 V c 3 t :=
  (dat.before_in_eq_fetched 3 rfl (fun _ => rfl) (fun _ _ _ => rfl) (fun t => by rw [hafter]; unfold Dat.blockOf iblk21; rw [hA]; try rfl) t d).trans
    (by unfold Dat.fetched Dat.blockOf iblk21; rw [hA]; try rfl)

/-- The whole 4000 x 1 block and the whole 4000 x 2 block, as rectangles. -/
abbrev r21_a : Rect S4000x1 := Rect.unit (s := S4000x1) ![0, 0] S4000x1.size inb_S4000x1_S4000x1_0_0
abbrev r21_b : Rect S4000x2 := Rect.unit (s := S4000x2) ![0, 0] S4000x2.size inb_S4000x2_S4000x2_0_0

/-- The output's staging buffer after the body, from the four input blocks: its one store. -/
noncomputable def out21_4 (x0 x1 : Vec F S4000x1 .f32) (x2 x3 : Vec F S4000x2 .f32) : Vec F S4000x2 .f32 :=
  View.canon [⟨r21_b, k21_pay1 (View.ld x0 r21_a) (View.ld x1 r21_a) (View.ld x2 r21_b) (View.ld x3 r21_b)⟩]

/-- The one store covers the buffer. -/
theorem cover21_4 (p0 : Vec F S4000x2 .f32) (y : S4000x2.Idx) :
    ∃ pc ∈ ([⟨r21_b, p0⟩] : List (View.Piece (Elt F) S4000x2 .f32)), y ∈ pc.1.set :=
  View.cover_of_tiled [⟨r21_b, p0⟩] S4000x2.size (by rfl) y

set_option maxHeartbeats 1000000 in
/-- The body on whole staging memrefs: the inputs keep their contents and the output ends at out21_4 of them. -/
theorem sound_kernel21 (c : Dev nD) (E : Set ℕ) (i : grid21.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out21_4 x0 x1 x2 x3)) -∗ K ⟨⟩))
      ⊢ wp frame (wpE (defs₀ (F := F)) Variants.none c none) E (cc21__message_kernel i arg1 harg1 arg2 harg2 arg3 harg3 arg4 harg4 arg5 harg5) K := by
  simp only [cc21__message_kernel_eq_skeleton]; unfold cc21__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover21_4 _)

/-- The proof data of pipeline 21 on core c. -/
noncomputable def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => iblk21 V c 2 t
    | ⟨3, _⟩ => iblk21 V c 3 t
    | ⟨4, _⟩ => out21_4 (iblk21 V c 0 t) (iblk21 V c 1 t) (iblk21 V c 2 t) (iblk21 V c 3 t)
  Φ _ := Pipeline.ΦA spec21 c
  q _ := fullShare
  owed _ := 0

theorem A_eq21 (c : Dev nD) (w : Fin cfg21.W) : (dat21 V c).A w = V c (Pipeline.arrRef spec21 w) := by
  dsimp only [dat21]

theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = iblk21 V c 2 t := by dsimp only [dat21]
theorem after21_3 (c : Dev nD) (t : Fin cfg21.N) : (dat21 V c).after 3 t = iblk21 V c 3 t := by dsimp only [dat21]
theorem after21_4 (c : Dev nD) (t : Fin cfg21.N) :
    (dat21 V c).after 4 t = out21_4 (iblk21 V c 0 t) (iblk21 V c 1 t) (iblk21 V c 2 t) (iblk21 V c 3 t) := by dsimp only [dat21]

theorem before21_0 (c : Dev nD) (t : Fin cfg21.N) (d) : (dat21 V c).before 0 t d = iblk21 V c 0 t :=
  before21_0_of V (dat21 V c) (A_eq21 V c 0) (after21_0 V c) t d
theorem before21_1 (c : Dev nD) (t : Fin cfg21.N) (d) : (dat21 V c).before 1 t d = iblk21 V c 1 t :=
  before21_1_of V (dat21 V c) (A_eq21 V c 1) (after21_1 V c) t d
theorem before21_2 (c : Dev nD) (t : Fin cfg21.N) (d) : (dat21 V c).before 2 t d = iblk21 V c 2 t :=
  before21_2_of V (dat21 V c) (A_eq21 V c 2) (after21_2 V c) t d
theorem before21_3 (c : Dev nD) (t : Fin cfg21.N) (d) : (dat21 V c).before 3 t d = iblk21 V c 3 t :=
  before21_3_of V (dat21 V c) (A_eq21 V c 3) (after21_3 V c) t d

/-- What the body is called with at point t, -/
noncomputable def bodyPre21 (c : Dev nD) (t : Fin cfg21.N) : sProp 𝕄 :=
  iprop((dat21 V c).Φ t.castSucc ∗ (dat21 V c).owesAt () t.castSucc
    ∗ (∃ d, owns (c : Thread nD τ) (st21_0 t) fullShare ((dat21 V c).before 0 t d))
    ∗ (∃ d, owns (c : Thread nD τ) (st21_1 t) fullShare ((dat21 V c).before 1 t d))
    ∗ (∃ d, owns (c : Thread nD τ) (st21_2 t) fullShare ((dat21 V c).before 2 t d))
    ∗ (∃ d, owns (c : Thread nD τ) (st21_3 t) fullShare ((dat21 V c).before 3 t d))
    ∗ (∃ d, owns (c : Thread nD τ) (st21_4 t) fullShare ((dat21 V c).before 4 t d)))

/-- and what it returns. -/
noncomputable def bodyPost21 (c : Dev nD) (t : Fin cfg21.N) : sProp 𝕄 :=
  iprop((dat21 V c).Φ t.succ ∗ (dat21 V c).owesAt () t.succ
    ∗ owns (c : Thread nD τ) (st21_0 t) fullShare ((dat21 V c).after 0 t)
    ∗ owns (c : Thread nD τ) (st21_1 t) fullShare ((dat21 V c).after 1 t)
    ∗ owns (c : Thread nD τ) (st21_2 t) fullShare ((dat21 V c).after 2 t)
    ∗ owns (c : Thread nD τ) (st21_3 t) fullShare ((dat21 V c).after 3 t)
    ∗ owns (c : Thread nD τ) (st21_4 t) fullShare ((dat21 V c).after 4 t))

theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1, before21_2, before21_3]
  rw [show (dat21 V c).Φ t.succ = (dat21 V c).Φ t.castSucc from rfl,
    show (dat21 V c).owesAt () t.succ = (dat21 V c).owesAt () t.castSucc from rfl,
    after21_0, after21_1, after21_2, after21_3, after21_4]
  iintro ⟨HΦ, Ho, ⟨%d0, H0⟩, ⟨%d1, H1⟩, ⟨%d2, H2⟩, ⟨%d3, H3⟩, ⟨%d4, H4⟩⟩
  iapply (sound_kernel21 c Set.univ _ _ _ _ _ _ _ _ _ _ _ (iblk21 V c 0 t) (iblk21 V c 1 t) (iblk21 V c 2 t) (iblk21 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation21 (c : Dev nD) : BodyObligation (dat21 (F := F) V c) (defs₀ (F := F)) Variants.none () Set.univ := fun t => by
  rw [bigSep_W21, bigSep_W21]
  exact sound_body21 V c t

end Cert.Kernel.Hand

end
-- ==== Proof.K.Body22.lean ====
/-
  The message region (pallas_call 22): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

/-- An input window's current staging buffer holds its block at every point, for any proof data whose array is the
    entry contents and whose body leaves the block in place. -/
theorem before22_0_of {c : Dev nD} (dat : Dat τ (Elt F) Unit ℕ (UR sig nD τ) ℕ cfg22 c) (hA : dat.A 0 = V c (Pipeline.arrRef spec22 0))
    (hafter : ∀ t, dat.after 0 t = iblk22 V c 0 t) (t : Fin cfg22.N) (d) : dat.before 0 t d = iblk22 V c 0 t :=
  (dat.before_in_eq_fetched 0 rfl (fun _ => rfl) (fun _ _ _ => rfl) (fun t => by rw [hafter]; unfold Dat.blockOf iblk22; rw [hA]; try rfl) t d).trans
    (by unfold Dat.fetched Dat.blockOf iblk22; rw [hA]; try rfl)
theorem before22_1_of {c : Dev nD} (dat : Dat τ (Elt F) Unit ℕ (UR sig nD τ) ℕ cfg22 c) (hA : dat.A 1 = V c (Pipeline.arrRef spec22 1))
    (hafter : ∀ t, dat.after 1 t = iblk22 V c 1 t) (t : Fin cfg22.N) (d) : dat.before 1 t d = iblk22 V c 1 t :=
  (dat.before_in_eq_fetched 1 rfl (fun _ => rfl) (fun _ _ _ => rfl) (fun t => by rw [hafter]; unfold Dat.blockOf iblk22; rw [hA]; try rfl) t d).trans
    (by unfold Dat.fetched Dat.blockOf iblk22; rw [hA]; try rfl)
theorem before22_2_of {c : Dev nD} (dat : Dat τ (Elt F) Unit ℕ (UR sig nD τ) ℕ cfg22 c) (hA : dat.A 2 = V c (Pipeline.arrRef spec22 2))
    (hafter : ∀ t, dat.after 2 t = iblk22 V c 2 t) (t : Fin cfg22.N) (d) : dat.before 2 t d = iblk22 V c 2 t :=
  (dat.before_in_eq_fetched 2 rfl (fun _ => rfl) (fun _ _ _ => rfl) (fun t => by rw [hafter]; unfold Dat.blockOf iblk22; rw [hA]; try rfl) t d).trans
    (by unfold Dat.fetched Dat.blockOf iblk22; rw [hA]; try rfl)
theorem before22_3_of {c : Dev nD} (dat : Dat τ (Elt F) Unit ℕ (UR sig nD τ) ℕ cfg22 c) (hA : dat.A 3 = V c (Pipeline.arrRef spec22 3))
    (hafter : ∀ t, dat.after 3 t = iblk22 V c 3 t) (t : Fin cfg22.N) (d) : dat.before 3 t d = iblk22 V c 3 t :=
  (dat.before_in_eq_fetched 3 rfl (fun _ => rfl) (fun _ _ _ => rfl) (fun t => by rw [hafter]; unfold Dat.blockOf iblk22; rw [hA]; try rfl) t d).trans
    (by unfold Dat.fetched Dat.blockOf iblk22; rw [hA]; try rfl)

/-- The whole 4000 x 1 block and the whole 4000 x 2 block, as rectangles. -/
abbrev r22_a : Rect S4000x1 := Rect.unit (s := S4000x1) ![0, 0] S4000x1.size inb_S4000x1_S4000x1_0_0
abbrev r22_b : Rect S4000x2 := Rect.unit (s := S4000x2) ![0, 0] S4000x2.size inb_S4000x2_S4000x2_0_0

/-- The output's staging buffer after the body, from the four input blocks: its one store. -/
noncomputable def out22_4 (x0 x1 : Vec F S4000x1 .f32) (x2 x3 : Vec F S4000x2 .f32) : Vec F S4000x2 .f32 :=
  View.canon [⟨r22_b, k22_pay1 (View.ld x0 r22_a) (View.ld x1 r22_a) (View.ld x2 r22_b) (View.ld x3 r22_b)⟩]

/-- The one store covers the buffer. -/
theorem cover22_4 (p0 : Vec F S4000x2 .f32) (y : S4000x2.Idx) :
    ∃ pc ∈ ([⟨r22_b, p0⟩] : List (View.Piece (Elt F) S4000x2 .f32)), y ∈ pc.1.set :=
  View.cover_of_tiled [⟨r22_b, p0⟩] S4000x2.size (by rfl) y

set_option maxHeartbeats 1000000 in
/-- The body on whole staging memrefs: the inputs keep their contents and the output ends at out22_4 of them. -/
theorem sound_kernel22 (c : Dev nD) (E : Set ℕ) (i : grid22.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out22_4 x0 x1 x2 x3)) -∗ K ⟨⟩))
      ⊢ wp frame (wpE (defs₀ (F := F)) Variants.none c none) E (cc22__message_kernel i arg1 harg1 arg2 harg2 arg3 harg3 arg4 harg4 arg5 harg5) K := by
  simp only [cc22__message_kernel_eq_skeleton]; unfold cc22__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover22_4 _)

/-- The proof data of pipeline 22 on core c. -/
noncomputable def dat22 (c : Dev nD) : Dat τ (Elt F) Unit ℕ (UR sig nD τ) ℕ cfg22 c where
  A w := V c (Pipeline.arrRef spec22 w)
  after w t := match w with
    | ⟨0, _⟩ => iblk22 V c 0 t
    | ⟨1, _⟩ => iblk22 V c 1 t
    | ⟨2, _⟩ => iblk22 V c 2 t
    | ⟨3, _⟩ => iblk22 V c 3 t
    | ⟨4, _⟩ => out22_4 (iblk22 V c 0 t) (iblk22 V c 1 t) (iblk22 V c 2 t) (iblk22 V c 3 t)
  Φ _ := Pipeline.ΦA spec22 c
  q _ := fullShare
  owed _ := 0

theorem A_eq22 (c : Dev nD) (w : Fin cfg22.W) : (dat22 V c).A w = V c (Pipeline.arrRef spec22 w) := by
  dsimp only [dat22]

theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = iblk22 V c 2 t := by dsimp only [dat22]
theorem after22_3 (c : Dev nD) (t : Fin cfg22.N) : (dat22 V c).after 3 t = iblk22 V c 3 t := by dsimp only [dat22]
theorem after22_4 (c : Dev nD) (t : Fin cfg22.N) :
    (dat22 V c).after 4 t = out22_4 (iblk22 V c 0 t) (iblk22 V c 1 t) (iblk22 V c 2 t) (iblk22 V c 3 t) := by dsimp only [dat22]

theorem before22_0 (c : Dev nD) (t : Fin cfg22.N) (d) : (dat22 V c).before 0 t d = iblk22 V c 0 t :=
  before22_0_of V (dat22 V c) (A_eq22 V c 0) (after22_0 V c) t d
theorem before22_1 (c : Dev nD) (t : Fin cfg22.N) (d) : (dat22 V c).before 1 t d = iblk22 V c 1 t :=
  before22_1_of V (dat22 V c) (A_eq22 V c 1) (after22_1 V c) t d
theorem before22_2 (c : Dev nD) (t : Fin cfg22.N) (d) : (dat22 V c).before 2 t d = iblk22 V c 2 t :=
  before22_2_of V (dat22 V c) (A_eq22 V c 2) (after22_2 V c) t d
theorem before22_3 (c : Dev nD) (t : Fin cfg22.N) (d) : (dat22 V c).before 3 t d = iblk22 V c 3 t :=
  before22_3_of V (dat22 V c) (A_eq22 V c 3) (after22_3 V c) t d

/-- What the body is called with at point t, -/
noncomputable def bodyPre22 (c : Dev nD) (t : Fin cfg22.N) : sProp 𝕄 :=
  iprop((dat22 V c).Φ t.castSucc ∗ (dat22 V c).owesAt () t.castSucc
    ∗ (∃ d, owns (c : Thread nD τ) (st22_0 t) fullShare ((dat22 V c).before 0 t d))
    ∗ (∃ d, owns (c : Thread nD τ) (st22_1 t) fullShare ((dat22 V c).before 1 t d))
    ∗ (∃ d, owns (c : Thread nD τ) (st22_2 t) fullShare ((dat22 V c).before 2 t d))
    ∗ (∃ d, owns (c : Thread nD τ) (st22_3 t) fullShare ((dat22 V c).before 3 t d))
    ∗ (∃ d, owns (c : Thread nD τ) (st22_4 t) fullShare ((dat22 V c).before 4 t d)))

/-- and what it returns. -/
noncomputable def bodyPost22 (c : Dev nD) (t : Fin cfg22.N) : sProp 𝕄 :=
  iprop((dat22 V c).Φ t.succ ∗ (dat22 V c).owesAt () t.succ
    ∗ owns (c : Thread nD τ) (st22_0 t) fullShare ((dat22 V c).after 0 t)
    ∗ owns (c : Thread nD τ) (st22_1 t) fullShare ((dat22 V c).after 1 t)
    ∗ owns (c : Thread nD τ) (st22_2 t) fullShare ((dat22 V c).after 2 t)
    ∗ owns (c : Thread nD τ) (st22_3 t) fullShare ((dat22 V c).after 3 t)
    ∗ owns (c : Thread nD τ) (st22_4 t) fullShare ((dat22 V c).after 4 t))

theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  simp only [before22_0, before22_1, before22_2, before22_3]
  rw [show (dat22 V c).Φ t.succ = (dat22 V c).Φ t.castSucc from rfl,
    show (dat22 V c).owesAt () t.succ = (dat22 V c).owesAt () t.castSucc from rfl,
    after22_0, after22_1, after22_2, after22_3, after22_4]
  iintro ⟨HΦ, Ho, ⟨%d0, H0⟩, ⟨%d1, H1⟩, ⟨%d2, H2⟩, ⟨%d3, H3⟩, ⟨%d4, H4⟩⟩
  iapply (sound_kernel22 c Set.univ _ _ _ _ _ _ _ _ _ _ _ (iblk22 V c 0 t) (iblk22 V c 1 t) (iblk22 V c 2 t) (iblk22 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation22 (c : Dev nD) : BodyObligation (dat22 (F := F) V c) (defs₀ (F := F)) Variants.none () Set.univ := fun t => by
  rw [bigSep_W22, bigSep_W22]
  exact sound_body22 V c t

end Cert.Kernel.Hand

end
-- ==== Proof.K.Body23.lean ====
/-
  The message region (pallas_call 23): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk23 (c : Dev nD) (w : Fin cfg23.W) (t : Fin cfg23.N) : ((cfg23.win w).xblock (cfg23.grid.coords t)).Idx → Elt F (cfg23.win w).elt :=
  ((cfg23.win w).blk t).view.read (Elt F) (V c (Pipeline.arrRef spec23 w))

/-- An input window's current staging buffer holds its block at every point, for any proof data whose array is the
    entry contents and whose body leaves the block in place. -/
theorem before23_0_of {c : Dev nD} (dat : Dat τ (Elt F) Unit ℕ (UR sig nD τ) ℕ cfg23 c) (hA : dat.A 0 = V c (Pipeline.arrRef spec23 0))
    (hafter : ∀ t, dat.after 0 t = iblk23 V c 0 t) (t : Fin cfg23.N) (d) : dat.before 0 t d = iblk23 V c 0 t :=
  (dat.before_in_eq_fetched 0 rfl (fun _ => rfl) (fun _ _ _ => rfl) (fun t => by rw [hafter]; unfold Dat.blockOf iblk23; rw [hA]; try rfl) t d).trans
    (by unfold Dat.fetched Dat.blockOf iblk23; rw [hA]; try rfl)
theorem before23_1_of {c : Dev nD} (dat : Dat τ (Elt F) Unit ℕ (UR sig nD τ) ℕ cfg23 c) (hA : dat.A 1 = V c (Pipeline.arrRef spec23 1))
    (hafter : ∀ t, dat.after 1 t = iblk23 V c 1 t) (t : Fin cfg23.N) (d) : dat.before 1 t d = iblk23 V c 1 t :=
  (dat.before_in_eq_fetched 1 rfl (fun _ => rfl) (fun _ _ _ => rfl) (fun t => by rw [hafter]; unfold Dat.blockOf iblk23; rw [hA]; try rfl) t d).trans
    (by unfold Dat.fetched Dat.blockOf iblk23; rw [hA]; try rfl)
theorem before23_2_of {c : Dev nD} (dat : Dat τ (Elt F) Unit ℕ (UR sig nD τ) ℕ cfg23 c) (hA : dat.A 2 = V c (Pipeline.arrRef spec23 2))
    (hafter : ∀ t, dat.after 2 t = iblk23 V c 2 t) (t : Fin cfg23.N) (d) : dat.before 2 t d = iblk23 V c 2 t :=
  (dat.before_in_eq_fetched 2 rfl (fun _ => rfl) (fun _ _ _ => rfl) (fun t => by rw [hafter]; unfold Dat.blockOf iblk23; rw [hA]; try rfl) t d).trans
    (by unfold Dat.fetched Dat.blockOf iblk23; rw [hA]; try rfl)
theorem before23_3_of {c : Dev nD} (dat : Dat τ (Elt F) Unit ℕ (UR sig nD τ) ℕ cfg23 c) (hA : dat.A 3 = V c (Pipeline.arrRef spec23 3))
    (hafter : ∀ t, dat.after 3 t = iblk23 V c 3 t) (t : Fin cfg23.N) (d) : dat.before 3 t d = iblk23 V c 3 t :=
  (dat.before_in_eq_fetched 3 rfl (fun _ => rfl) (fun _ _ _ => rfl) (fun t => by rw [hafter]; unfold Dat.blockOf iblk23; rw [hA]; try rfl) t d).trans
    (by unfold Dat.fetched Dat.blockOf iblk23; rw [hA]; try rfl)

/-- The whole 4000 x 1 block and the whole 4000 x 2 block, as rectangles. -/
abbrev r23_a : Rect S4000x1 := Rect.unit (s := S4000x1) ![0, 0] S4000x1.size inb_S4000x1_S4000x1_0_0
abbrev r23_b : Rect S4000x2 := Rect.unit (s := S4000x2) ![0, 0] S4000x2.size inb_S4000x2_S4000x2_0_0

/-- The output's staging buffer after the body, from the four input blocks: its one store. -/
noncomputable def out23_4 (x0 x1 : Vec F S4000x1 .f32) (x2 x3 : Vec F S4000x2 .f32) : Vec F S4000x2 .f32 :=
  View.canon [⟨r23_b, k23_pay1 (View.ld x0 r23_a) (View.ld x1 r23_a) (View.ld x2 r23_b) (View.ld x3 r23_b)⟩]

/-- The one store covers the buffer. -/
theorem cover23_4 (p0 : Vec F S4000x2 .f32) (y : S4000x2.Idx) :
    ∃ pc ∈ ([⟨r23_b, p0⟩] : List (View.Piece (Elt F) S4000x2 .f32)), y ∈ pc.1.set :=
  View.cover_of_tiled [⟨r23_b, p0⟩] S4000x2.size (by rfl) y

set_option maxHeartbeats 1000000 in
/-- The body on whole staging memrefs: the inputs keep their contents and the output ends at out23_4 of them. -/
theorem sound_kernel23 (c : Dev nD) (E : Set ℕ) (i : grid23.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out23_4 x0 x1 x2 x3)) -∗ K ⟨⟩))
      ⊢ wp frame (wpE (defs₀ (F := F)) Variants.none c none) E (cc23__message_kernel i arg1 harg1 arg2 harg2 arg3 harg3 arg4 harg4 arg5 harg5) K := by
  simp only [cc23__message_kernel_eq_skeleton]; unfold cc23__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover23_4 _)

/-- The proof data of pipeline 23 on core c. -/
noncomputable def dat23 (c : Dev nD) : Dat τ (Elt F) Unit ℕ (UR sig nD τ) ℕ cfg23 c where
  A w := V c (Pipeline.arrRef spec23 w)
  after w t := match w with
    | ⟨0, _⟩ => iblk23 V c 0 t
    | ⟨1, _⟩ => iblk23 V c 1 t
    | ⟨2, _⟩ => iblk23 V c 2 t
    | ⟨3, _⟩ => iblk23 V c 3 t
    | ⟨4, _⟩ => out23_4 (iblk23 V c 0 t) (iblk23 V c 1 t) (iblk23 V c 2 t) (iblk23 V c 3 t)
  Φ _ := Pipeline.ΦA spec23 c
  q _ := fullShare
  owed _ := 0

theorem A_eq23 (c : Dev nD) (w : Fin cfg23.W) : (dat23 V c).A w = V c (Pipeline.arrRef spec23 w) := by
  dsimp only [dat23]

theorem after23_0 (c : Dev nD) (t : Fin cfg23.N) : (dat23 V c).after 0 t = iblk23 V c 0 t := by dsimp only [dat23]
theorem after23_1 (c : Dev nD) (t : Fin cfg23.N) : (dat23 V c).after 1 t = iblk23 V c 1 t := by dsimp only [dat23]
theorem after23_2 (c : Dev nD) (t : Fin cfg23.N) : (dat23 V c).after 2 t = iblk23 V c 2 t := by dsimp only [dat23]
theorem after23_3 (c : Dev nD) (t : Fin cfg23.N) : (dat23 V c).after 3 t = iblk23 V c 3 t := by dsimp only [dat23]
theorem after23_4 (c : Dev nD) (t : Fin cfg23.N) :
    (dat23 V c).after 4 t = out23_4 (iblk23 V c 0 t) (iblk23 V c 1 t) (iblk23 V c 2 t) (iblk23 V c 3 t) := by dsimp only [dat23]

theorem before23_0 (c : Dev nD) (t : Fin cfg23.N) (d) : (dat23 V c).before 0 t d = iblk23 V c 0 t :=
  before23_0_of V (dat23 V c) (A_eq23 V c 0) (after23_0 V c) t d
theorem before23_1 (c : Dev nD) (t : Fin cfg23.N) (d) : (dat23 V c).before 1 t d = iblk23 V c 1 t :=
  before23_1_of V (dat23 V c) (A_eq23 V c 1) (after23_1 V c) t d
theorem before23_2 (c : Dev nD) (t : Fin cfg23.N) (d) : (dat23 V c).before 2 t d = iblk23 V c 2 t :=
  before23_2_of V (dat23 V c) (A_eq23 V c 2) (after23_2 V c) t d
theorem before23_3 (c : Dev nD) (t : Fin cfg23.N) (d) : (dat23 V c).before 3 t d = iblk23 V c 3 t :=
  before23_3_of V (dat23 V c) (A_eq23 V c 3) (after23_3 V c) t d

/-- What the body is called with at point t, -/
noncomputable def bodyPre23 (c : Dev nD) (t : Fin cfg23.N) : sProp 𝕄 :=
  iprop((dat23 V c).Φ t.castSucc ∗ (dat23 V c).owesAt () t.castSucc
    ∗ (∃ d, owns (c : Thread nD τ) (st23_0 t) fullShare ((dat23 V c).before 0 t d))
    ∗ (∃ d, owns (c : Thread nD τ) (st23_1 t) fullShare ((dat23 V c).before 1 t d))
    ∗ (∃ d, owns (c : Thread nD τ) (st23_2 t) fullShare ((dat23 V c).before 2 t d))
    ∗ (∃ d, owns (c : Thread nD τ) (st23_3 t) fullShare ((dat23 V c).before 3 t d))
    ∗ (∃ d, owns (c : Thread nD τ) (st23_4 t) fullShare ((dat23 V c).before 4 t d)))

/-- and what it returns. -/
noncomputable def bodyPost23 (c : Dev nD) (t : Fin cfg23.N) : sProp 𝕄 :=
  iprop((dat23 V c).Φ t.succ ∗ (dat23 V c).owesAt () t.succ
    ∗ owns (c : Thread nD τ) (st23_0 t) fullShare ((dat23 V c).after 0 t)
    ∗ owns (c : Thread nD τ) (st23_1 t) fullShare ((dat23 V c).after 1 t)
    ∗ owns (c : Thread nD τ) (st23_2 t) fullShare ((dat23 V c).after 2 t)
    ∗ owns (c : Thread nD τ) (st23_3 t) fullShare ((dat23 V c).after 3 t)
    ∗ owns (c : Thread nD τ) (st23_4 t) fullShare ((dat23 V c).after 4 t))

theorem sound_body23 (c : Dev nD) (t : Fin cfg23.N) :
    bodyPre23 V c t ⊢ wp frame (wpE (defs₀ (F := F)) Variants.none c none) Set.univ (bodyAt23 t) (fun _ => bodyPost23 V c t) := by
  unfold bodyPre23 bodyPost23 bodyAt23
  simp only [before23_0, before23_1, before23_2, before23_3]
  rw [show (dat23 V c).Φ t.succ = (dat23 V c).Φ t.castSucc from rfl,
    show (dat23 V c).owesAt () t.succ = (dat23 V c).owesAt () t.castSucc from rfl,
    after23_0, after23_1, after23_2, after23_3, after23_4]
  iintro ⟨HΦ, Ho, ⟨%d0, H0⟩, ⟨%d1, H1⟩, ⟨%d2, H2⟩, ⟨%d3, H3⟩, ⟨%d4, H4⟩⟩
  iapply (sound_kernel23 c Set.univ _ _ _ _ _ _ _ _ _ _ _ (iblk23 V c 0 t) (iblk23 V c 1 t) (iblk23 V c 2 t) (iblk23 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation23 (c : Dev nD) : BodyObligation (dat23 (F := F) V c) (defs₀ (F := F)) Variants.none () Set.univ := fun t => by
  rw [bigSep_W23, bigSep_W23]
  exact sound_body23 V c t

end Cert.Kernel.Hand

end
-- ==== Proof.K.Body24.lean ====
/-
  The affine region at six input columns (pallas_call 24): its proof data and its body obligation, at any float
  instance.

  At grid point t the pipeline hands the body the rows [10000 t, 10000 t + 10000) of the input (10000 x 6), the
  whole weight matrix (6 x 2), the whole bias row (1 x 2), and an output block of the same rows (10000 x 2). The
  weight and the bias have a block index that does not move with the grid point: they are fetched at the first
  point only, and their staging buffers hold the same block at every point. The body stores, in ONE whole-block
  store, the value
      (((((( 0 + x_0 * w_0 ) + x_1 * w_1 ) + x_2 * w_2 ) + x_3 * w_3 ) + x_4 * w_4 ) + x_5 * w_5 ) + b,
  x_i the i-th input column broadcast along the two output columns, w_i the i-th weight row broadcast along the
  rows, b the bias row broadcast along the rows; so after the body the output's staging buffer holds that value of
  the three input blocks, and every input's staging buffer still holds its block.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk24 (c : Dev nD) (w : Fin cfg24.W) (t : Fin cfg24.N) : ((cfg24.win w).xblock (cfg24.grid.coords t)).Idx → Elt F (cfg24.win w).elt :=
  ((cfg24.win w).blk t).view.read (Elt F) (V c (Pipeline.arrRef spec24 w))

/-- An input window's current staging buffer holds its block at every point, fetched there or not (a window whose
    block index does not move is fetched at the first point only, and keeps its block), for any proof data whose
    array is the entry contents and whose body leaves the block in place. -/
theorem before24_0_of {c : Dev nD} (dat : Dat τ (Elt F) Unit ℕ (UR sig nD τ) ℕ cfg24 c) (hA : dat.A 0 = V c (Pipeline.arrRef spec24 0))
    (hafter : ∀ t, dat.after 0 t = iblk24 V c 0 t) (t : Fin cfg24.N) (d) : dat.before 0 t d = iblk24 V c 0 t :=
  (dat.before_in_eq_fetched 0 rfl (fun _ => rfl) (fun _ _ _ => rfl) (fun t => by rw [hafter]; unfold Dat.blockOf iblk24; rw [hA]; try rfl) t d).trans
    (by unfold Dat.fetched Dat.blockOf iblk24; rw [hA]; try rfl)
theorem before24_1_of {c : Dev nD} (dat : Dat τ (Elt F) Unit ℕ (UR sig nD τ) ℕ cfg24 c) (hA : dat.A 1 = V c (Pipeline.arrRef spec24 1))
    (hafter : ∀ t, dat.after 1 t = iblk24 V c 1 t) (t : Fin cfg24.N) (d) : dat.before 1 t d = iblk24 V c 1 t :=
  (dat.before_in_eq_fetched 1 rfl (fun _ => rfl) (fun _ _ _ => rfl) (fun t => by rw [hafter]; unfold Dat.blockOf iblk24; rw [hA]; try rfl) t d).trans
    (by unfold Dat.fetched Dat.blockOf iblk24; rw [hA]; try rfl)
theorem before24_2_of {c : Dev nD} (dat : Dat τ (Elt F) Unit ℕ (UR sig nD τ) ℕ cfg24 c) (hA : dat.A 2 = V c (Pipeline.arrRef spec24 2))
    (hafter : ∀ t, dat.after 2 t = iblk24 V c 2 t) (t : Fin cfg24.N) (d) : dat.before 2 t d = iblk24 V c 2 t :=
  (dat.before_in_eq_fetched 2 rfl (fun _ => rfl) (fun _ _ _ => rfl) (fun t => by rw [hafter]; unfold Dat.blockOf iblk24; rw [hA]; try rfl) t d).trans
    (by unfold Dat.fetched Dat.blockOf iblk24; rw [hA]; try rfl)

/-- The whole input block, the whole weight block, the whole bias row and the whole output block, as rectangles. -/
abbrev r24_a : Rect S10000x6 := Rect.unit (s := S10000x6) ![0, 0] S10000x6.size inb_S10000x6_S10000x6_0_0
abbrev r24_b : Rect S6x2 := Rect.unit (s := S6x2) ![0, 0] S6x2.size inb_S6x2_S6x2_0_0
abbrev r24_c : Rect S1x2 := Rect.unit (s := S1x2) ![0, 0] S1x2.size inb_S1x2_S1x2_0_0
abbrev r24_d : Rect S10000x2 := Rect.unit (s := S10000x2) ![0, 0] S10000x2.size inb_S10000x2_S10000x2_0_0

/-- The output's staging buffer after the body, from the three input blocks: its one store. -/
noncomputable def out24_3 (x0 : Vec F S10000x6 .f32) (x1 : Vec F S6x2 .f32) (x2 : Vec F S1x2 .f32) : Vec F S10000x2 .f32 :=
  View.canon [⟨r24_d, k24_pay1 (View.ld x0 r24_a) (View.ld x1 r24_b) (View.ld x2 r24_c)⟩]

/-- The one store covers the buffer. -/
theorem cover24_3 (p0 : Vec F S10000x2 .f32) (y : S10000x2.Idx) :
    ∃ pc ∈ ([⟨r24_d, p0⟩] : List (View.Piece (Elt F) S10000x2 .f32)), y ∈ pc.1.set :=
  View.cover_of_tiled [⟨r24_d, p0⟩] S10000x2.size (by rfl) y

set_option maxHeartbeats 1000000 in
/-- The body on whole staging memrefs: the inputs keep their contents and the output ends at out24_3 of them. -/
theorem sound_kernel24 (c : Dev nD) (E : Set ℕ) (i : grid24.Coords)
    (arg1 : Memref sig .tc .vmem S10000x6 .f32) (harg1 : arg1.IsWhole) (arg2 : Memref sig .tc .vmem S6x2 .f32) (harg2 : arg2.IsWhole)
    (arg3 : Memref sig .tc .vmem S1x2 .f32) (harg3 : arg3.IsWhole) (arg4 : Memref sig .tc .vmem S10000x2 .f32) (harg4 : arg4.IsWhole)
    (x0 : Vec F S10000x6 .f32) (x1 : Vec F S6x2 .f32) (x2 : Vec F S1x2 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out24_3 x0 x1 x2)) -∗ K ⟨⟩))
      ⊢ wp frame (wpE (defs₀ (F := F)) Variants.none c none) E (cc24__affine_kernel i arg1 harg1 arg2 harg2 arg3 harg3 arg4 harg4) K := by
  simp only [cc24__affine_kernel_eq_skeleton]; unfold cc24__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover24_3 _)

/-- The proof data of pipeline 24 on core c. -/
noncomputable def dat24 (c : Dev nD) : Dat τ (Elt F) Unit ℕ (UR sig nD τ) ℕ cfg24 c where
  A w := V c (Pipeline.arrRef spec24 w)
  after w t := match w with
    | ⟨0, _⟩ => iblk24 V c 0 t
    | ⟨1, _⟩ => iblk24 V c 1 t
    | ⟨2, _⟩ => iblk24 V c 2 t
    | ⟨3, _⟩ => out24_3 (iblk24 V c 0 t) (iblk24 V c 1 t) (iblk24 V c 2 t)
  Φ _ := Pipeline.ΦA spec24 c
  q _ := fullShare
  owed _ := 0

theorem A_eq24 (c : Dev nD) (w : Fin cfg24.W) : (dat24 V c).A w = V c (Pipeline.arrRef spec24 w) := by
  dsimp only [dat24]

theorem after24_0 (c : Dev nD) (t : Fin cfg24.N) : (dat24 V c).after 0 t = iblk24 V c 0 t := by dsimp only [dat24]
theorem after24_1 (c : Dev nD) (t : Fin cfg24.N) : (dat24 V c).after 1 t = iblk24 V c 1 t := by dsimp only [dat24]
theorem after24_2 (c : Dev nD) (t : Fin cfg24.N) : (dat24 V c).after 2 t = iblk24 V c 2 t := by dsimp only [dat24]
theorem after24_3 (c : Dev nD) (t : Fin cfg24.N) :
    (dat24 V c).after 3 t = out24_3 (iblk24 V c 0 t) (iblk24 V c 1 t) (iblk24 V c 2 t) := by dsimp only [dat24]

theorem before24_0 (c : Dev nD) (t : Fin cfg24.N) (d) : (dat24 V c).before 0 t d = iblk24 V c 0 t :=
  before24_0_of V (dat24 V c) (A_eq24 V c 0) (after24_0 V c) t d
theorem before24_1 (c : Dev nD) (t : Fin cfg24.N) (d) : (dat24 V c).before 1 t d = iblk24 V c 1 t :=
  before24_1_of V (dat24 V c) (A_eq24 V c 1) (after24_1 V c) t d
theorem before24_2 (c : Dev nD) (t : Fin cfg24.N) (d) : (dat24 V c).before 2 t d = iblk24 V c 2 t :=
  before24_2_of V (dat24 V c) (A_eq24 V c 2) (after24_2 V c) t d

/-- What the body is called with at point t, -/
noncomputable def bodyPre24 (c : Dev nD) (t : Fin cfg24.N) : sProp 𝕄 :=
  iprop((dat24 V c).Φ t.castSucc ∗ (dat24 V c).owesAt () t.castSucc
    ∗ (∃ d, owns (c : Thread nD τ) (st24_0 t) fullShare ((dat24 V c).before 0 t d))
    ∗ (∃ d, owns (c : Thread nD τ) (st24_1 t) fullShare ((dat24 V c).before 1 t d))
    ∗ (∃ d, owns (c : Thread nD τ) (st24_2 t) fullShare ((dat24 V c).before 2 t d))
    ∗ (∃ d, owns (c : Thread nD τ) (st24_3 t) fullShare ((dat24 V c).before 3 t d)))

/-- and what it returns. -/
noncomputable def bodyPost24 (c : Dev nD) (t : Fin cfg24.N) : sProp 𝕄 :=
  iprop((dat24 V c).Φ t.succ ∗ (dat24 V c).owesAt () t.succ
    ∗ owns (c : Thread nD τ) (st24_0 t) fullShare ((dat24 V c).after 0 t)
    ∗ owns (c : Thread nD τ) (st24_1 t) fullShare ((dat24 V c).after 1 t)
    ∗ owns (c : Thread nD τ) (st24_2 t) fullShare ((dat24 V c).after 2 t)
    ∗ owns (c : Thread nD τ) (st24_3 t) fullShare ((dat24 V c).after 3 t))

theorem sound_body24 (c : Dev nD) (t : Fin cfg24.N) :
    bodyPre24 V c t ⊢ wp frame (wpE (defs₀ (F := F)) Variants.none c none) Set.univ (bodyAt24 t) (fun _ => bodyPost24 V c t) := by
  unfold bodyPre24 bodyPost24 bodyAt24
  simp only [before24_0, before24_1, before24_2]
  rw [show (dat24 V c).Φ t.succ = (dat24 V c).Φ t.castSucc from rfl,
    show (dat24 V c).owesAt () t.succ = (dat24 V c).owesAt () t.castSucc from rfl,
    after24_0, after24_1, after24_2, after24_3]
  iintro ⟨HΦ, Ho, ⟨%d0, H0⟩, ⟨%d1, H1⟩, ⟨%d2, H2⟩, ⟨%d3, H3⟩⟩
  iapply (sound_kernel24 c Set.univ (grid24.coords t) _ _ _ _ _ _ _ _ (iblk24 V c 0 t) (iblk24 V c 1 t) (iblk24 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation24 (c : Dev nD) : BodyObligation (dat24 (F := F) V c) (defs₀ (F := F)) Variants.none () Set.univ := fun t => by
  rw [bigSep_W24, bigSep_W24]
  exact sound_body24 V c t

end Cert.Kernel.Hand

end
-- ==== Proof.K.Body25.lean ====
/-
  The affine region at six input columns (pallas_call 25): its proof data and its body obligation, at any float
  instance.

  At grid point t the pipeline hands the body the rows [10000 t, 10000 t + 10000) of the input (10000 x 6), the
  whole weight matrix (6 x 2), the whole bias row (1 x 2), and an output block of the same rows (10000 x 2). The
  weight and the bias have a block index that does not move with the grid point: they are fetched at the first
  point only, and their staging buffers hold the same block at every point. The body stores, in ONE whole-block
  store, the value
      (((((( 0 + x_0 * w_0 ) + x_1 * w_1 ) + x_2 * w_2 ) + x_3 * w_3 ) + x_4 * w_4 ) + x_5 * w_5 ) + b,
  x_i the i-th input column broadcast along the two output columns, w_i the i-th weight row broadcast along the
  rows, b the bias row broadcast along the rows; so after the body the output's staging buffer holds that value of
  the three input blocks, and every input's staging buffer still holds its block.
-/
import proofs.«149588_j66838281060723_2_alg».proof.Proof.Gen.Kernel.Launch
import proofs.«149588_j66838281060723_2_alg».proof.Proof.Gen.Kernel.Skeleton
import proofs.«149588_j66838281060723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk25 (c : Dev nD) (w : Fin cfg25.W) (t : Fin cfg25.N) : ((cfg25.win w).xblock (cfg25.grid.coords t)).Idx → Elt F (cfg25.win w).elt :=
  ((cfg25.win w).blk t).view.read (Elt F) (V c (Pipeline.arrRef spec25 w))

/-- An input window's current staging buffer holds its block at every point, fetched there or not (a window whose
    block index does not move is fetched at the first point only, and keeps its block), for any proof data whose
    array is the entry contents and whose body leaves the block in place. -/
theorem before25_0_of {c : Dev nD} (dat : Dat τ (Elt F) Unit ℕ (UR sig nD τ) ℕ cfg25 c) (hA : dat.A 0 = V c (Pipeline.arrRef spec25 0))
    (hafter : ∀ t, dat.after 0 t = iblk25 V c 0 t) (t : Fin cfg25.N) (d) : dat.before 0 t d = iblk25 V c 0 t :=
  (dat.before_in_eq_fetched 0 rfl (fun _ => rfl) (fun _ _ _ => rfl) (fun t => by rw [hafter]; unfold Dat.blockOf iblk25; rw [hA]; try rfl) t d).trans
    (by unfold Dat.fetched Dat.blockOf iblk25; rw [hA]; try rfl)
theorem before25_1_of {c : Dev nD} (dat : Dat τ (Elt F) Unit ℕ (UR sig nD τ) ℕ cfg25 c) (hA : dat.A 1 = V c (Pipeline.arrRef spec25 1))
    (hafter : ∀ t, dat.after 1 t = iblk25 V c 1 t) (t : Fin cfg25.N) (d) : dat.before 1 t d = iblk25 V c 1 t :=
  (dat.before_in_eq_fetched 1 rfl (fun _ => rfl) (fun _ _ _ => rfl) (fun t => by rw [hafter]; unfold Dat.blockOf iblk25; rw [hA]; try rfl) t d).trans
    (by unfold Dat.fetched Dat.blockOf iblk25; rw [hA]; try rfl)
theorem before25_2_of {c : Dev nD} (dat : Dat τ (Elt F) Unit ℕ (UR sig nD τ) ℕ cfg25 c) (hA : dat.A 2 = V c (Pipeline.arrRef spec25 2))
    (hafter : ∀ t, dat.after 2 t = iblk25 V c 2 t) (t : Fin cfg25.N) (d) : dat.before 2 t d = iblk25 V c 2 t :=
  (dat.before_in_eq_fetched 2 rfl (fun _ => rfl) (fun _ _ _ => rfl) (fun t => by rw [hafter]; unfold Dat.blockOf iblk25; rw [hA]; try rfl) t d).trans
    (by unfold Dat.fetched Dat.blockOf iblk25; rw [hA]; try rfl)

/-- The whole input block, the whole weight block, the whole bias row and the whole output block, as rectangles. -/
abbrev r25_a : Rect S10000x6 := Rect.unit (s := S10000x6) ![0, 0] S10000x6.size inb_S10000x6_S10000x6_0_0
abbrev r25_b : Rect S6x2 := Rect.unit (s := S6x2) ![0, 0] S6x2.size inb_S6x2_S6x2_0_0
abbrev r25_c : Rect S1x2 := Rect.unit (s := S1x2) ![0, 0] S1x2.size inb_S1x2_S1x2_0_0
abbrev r25_d : Rect S10000x2 := Rect.unit (s := S10000x2) ![0, 0] S10000x2.size inb_S10000x2_S10000x2_0_0

/-- The output's staging buffer after the body, from the three input blocks: its one store. -/
noncomputable def out25_3 (x0 : Vec F S10000x6 .f32) (x1 : Vec F S6x2 .f32) (x2 : Vec F S1x2 .f32) : Vec F S10000x2 .f32 :=
  View.canon [⟨r25_d, k25_pay1 (View.ld x0 r25_a) (View.ld x1 r25_b) (View.ld x2 r25_c)⟩]

/-- The one store covers the buffer. -/
theorem cover25_3 (p0 : Vec F S10000x2 .f32) (y : S10000x2.Idx) :
    ∃ pc ∈ ([⟨r25_d, p0⟩] : List (View.Piece (Elt F) S10000x2 .f32)), y ∈ pc.1.set :=
  View.cover_of_tiled [⟨r25_d, p0⟩] S10000x2.size (by rfl) y

set_option maxHeartbeats 1000000 in
/-- The body on whole staging memrefs: the inputs keep their contents and the output ends at out25_3 of them. -/
theorem sound_kernel25 (c : Dev nD) (E : Set ℕ) (i : grid25.Coords)
    (arg1 : Memref sig .tc .vmem S10000x6 .f32) (harg1 : arg1.IsWhole) (arg2 : Memref sig .tc .vmem S6x2 .f32) (harg2 : arg2.IsWhole)
    (arg3 : Memref sig .tc .vmem S1x2 .f32) (harg3 : arg3.IsWhole) (arg4 : Memref sig .tc .vmem S10000x2 .f32) (harg4 : arg4.IsWhole)
    (x0 : Vec F S10000x6 .f32) (x1 : Vec F S6x2 .f32) (x2 : Vec F S1x2 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out25_3 x0 x1 x2)) -∗ K ⟨⟩))
      ⊢ wp frame (wpE (defs₀ (F := F)) Variants.none c none) E (cc25__affine_kernel i arg1 harg1 arg2 harg2 arg3 harg3 arg4 harg4) K := by
  simp only [cc25__affine_kernel_eq_skeleton]; unfold cc25__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover25_3 _)

/-- The proof data of pipeline 25 on core c. -/
noncomputable def dat25 (c : Dev nD) : Dat τ (Elt F) Unit ℕ (UR sig nD τ) ℕ cfg25 c where
  A w := V c (Pipeline.arrRef spec25 w)
  after w t := match w with
    | ⟨0, _⟩ => iblk25 V c 0 t
    | ⟨1, _⟩ => iblk25 V c 1 t
    | ⟨2, _⟩ => iblk25 V c 2 t
    | ⟨3, _⟩ => out25_3 (iblk25 V c 0 t) (iblk25 V c 1 t) (iblk25 V c 2 t)
  Φ _ := Pipeline.ΦA spec25 c
  q _ := fullShare
  owed _ := 0

theorem A_eq25 (c : Dev nD) (w : Fin cfg25.W) : (dat25 V c).A w = V c (Pipeline.arrRef spec25 w) := by
  dsimp only [dat25]

theorem after25_0 (c : Dev nD) (t : Fin cfg25.N) : (dat25 V c).after 0 t = iblk25 V c 0 t := by dsimp only [dat25]
theorem after25_1 (c : Dev nD) (t : Fin cfg25.N) : (dat25 V c).after 1 t = iblk25 V c 1 t := by dsimp only [dat25]
theorem after25_2 (c : Dev nD) (t : Fin cfg25.N) : (dat25 V c).after 2 t = iblk25 V c 2 t := by dsimp only [dat25]
theorem after25_3 (c : Dev nD) (t : Fin cfg25.N) :
    (dat25 V c).after 3 t = out25_3 (iblk25 V c 0 t) (iblk25 V c 1 t) (iblk25 V c 2 t) := by dsimp only [dat25]

theorem before25_0 (c : Dev nD) (t : Fin cfg25.N) (d) : (dat25 V c).before 0 t d = iblk25 V c 0 t :=
  before25_0_of V (dat25 V c) (A_eq25 V c 0) (after25_0 V c) t d
theorem before25_1 (c : Dev nD) (t : Fin cfg25.N) (d) : (dat25 V c).before 1 t d = iblk25 V c 1 t :=
  before25_1_of V (dat25 V c) (A_eq25 V c 1) (after25_1 V c) t d
theorem before25_2 (c : Dev nD) (t : Fin cfg25.N) (d) : (dat25 V c).before 2 t d = iblk25 V c 2 t :=
  before25_2_of V (dat25 V c) (A_eq25 V c 2) (after25_2 V c) t d

/-- What the body is called with at point t, -/
noncomputable def bodyPre25 (c : Dev nD) (t : Fin cfg25.N) : sProp 𝕄 :=
  iprop((dat25 V c).Φ t.castSucc ∗ (dat25 V c).owesAt () t.castSucc
    ∗ (∃ d, owns (c : Thread nD τ) (st25_0 t) fullShare ((dat25 V c).before 0 t d))
    ∗ (∃ d, owns (c : Thread nD τ) (st25_1 t) fullShare ((dat25 V c).before 1 t d))
    ∗ (∃ d, owns (c : Thread nD τ) (st25_2 t) fullShare ((dat25 V c).before 2 t d))
    ∗ (∃ d, owns (c : Thread nD τ) (st25_3 t) fullShare ((dat25 V c).before 3 t d)))

/-- and what it returns. -/
noncomputable def bodyPost25 (c : Dev nD) (t : Fin cfg25.N) : sProp 𝕄 :=
  iprop((dat25 V c).Φ t.succ ∗ (dat25 V c).owesAt () t.succ
    ∗ owns (c : Thread nD τ) (st25_0 t) fullShare ((dat25 V c).after 0 t)
    ∗ owns (c : Thread nD τ) (st25_1 t) fullShare ((dat25 V c).after 1 t)
    ∗ owns (c : Thread nD τ) (st25_2 t) fullShare ((dat25 V c).after 2 t)
    ∗ owns (c : Thread nD τ) (st25_3 t) fullShare ((dat25 V c).after 3 t))

theorem sound_body25 (c : Dev nD) (t : Fin cfg25.N) :
    bodyPre25 V c t ⊢ wp frame (wpE (defs₀ (F := F)) Variants.none c none) Set.univ (bodyAt25 t) (fun _ => bodyPost25 V c t) := by
  unfold bodyPre25 bodyPost25 bodyAt25
  simp only [before25_0, before25_1, before25_2]
  rw [show (dat25 V c).Φ t.succ = (dat25 V c).Φ t.castSucc from rfl,
    show (dat25 V c).owesAt () t.succ = (dat25 V c).owesAt () t.castSucc from rfl,
    after25_0, after25_1, after25_2, after25_3]
  iintro ⟨HΦ, Ho, ⟨%d0, H0⟩, ⟨%d1, H1⟩, ⟨%d2, H2⟩, ⟨%d3, H3⟩⟩
  iapply (sound_kernel25 c Set.univ (grid25.coords t) _ _ _ _ _ _ _ _ (iblk25 V c 0 t) (iblk25 V c 1 t) (iblk25 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation25 (c : Dev nD) : BodyObligation (dat25 (F := F) V c) (defs₀ (F := F)) Variants.none () Set.univ := fun t => by
  rw [bigSep_W25, bigSep_W25]
  exact sound_body25 V c t

end Cert.Kernel.Hand

end
-- ==== Proof.K.Fold.lean ====
/-
  The run of the program's 26 pipelined regions among its host stretches, at any float instance.

  Between two items of @main a core holds every unscoped buffer whole at a valuation. The valuations are a fold from the
  launch memory: a host stretch applies its operations; a region changes ONE buffer, its output array, which ends at what
  the pipeline's write-backs leave (the fold of the flushed blocks over the grid), every other buffer keeping its contents
  — an input array is only read. Each region's proof data are taken at the valuation the region is entered from, so the
  body obligation of the region (its body run on the blocks of those contents) is the one proved with the body. Every
  region's record says: entered from all unscoped buffers at the valuation before it, it leaves them at the valuation
  after it; the generator register and the core's (empty) debts ride along unchanged. With one record per region the
  frame of the whole program follows: every execution terminates, nothing faults, and no argument array is written
  (no host operation and no region writes one).
-/
import proofs.«149588_j66838281060723_2_alg».proof.Proof.K.RegionsP
import proofs.«149588_j66838281060723_2_alg».proof.Proof.K.Body0
import proofs.«149588_j66838281060723_2_alg».proof.Proof.K.Body1
import proofs.«149588_j66838281060723_2_alg».proof.Proof.K.Body2
import proofs.«149588_j66838281060723_2_alg».proof.Proof.K.Body3
import proofs.«149588_j66838281060723_2_alg».proof.Proof.K.Body4
import proofs.«149588_j66838281060723_2_alg».proof.Proof.K.Body5
import proofs.«149588_j66838281060723_2_alg».proof.Proof.K.Body6
import proofs.«149588_j66838281060723_2_alg».proof.Proof.K.Body7
import proofs.«149588_j66838281060723_2_alg».proof.Proof.K.Body8
import proofs.«149588_j66838281060723_2_alg».proof.Proof.K.Body9
import proofs.«149588_j66838281060723_2_alg».proof.Proof.K.Body10
import proofs.«149588_j66838281060723_2_alg».proof.Proof.K.Body11
import proofs.«149588_j66838281060723_2_alg».proof.Proof.K.Body12
import proofs.«149588_j66838281060723_2_alg».proof.Proof.K.Body13
import proofs.«149588_j66838281060723_2_alg».proof.Proof.K.Body14
import proofs.«149588_j66838281060723_2_alg».proof.Proof.K.Body15
import proofs.«149588_j66838281060723_2_alg».proof.Proof.K.Body16
import proofs.«149588_j66838281060723_2_alg».proof.Proof.K.Body17
import proofs.«149588_j66838281060723_2_alg».proof.Proof.K.Body18
import proofs.«149588_j66838281060723_2_alg».proof.Proof.K.Body19
import proofs.«149588_j66838281060723_2_alg».proof.Proof.K.Body20
import proofs.«149588_j66838281060723_2_alg».proof.Proof.K.Body21
import proofs.«149588_j66838281060723_2_alg».proof.Proof.K.Body22
import proofs.«149588_j66838281060723_2_alg».proof.Proof.K.Body23
import proofs.«149588_j66838281060723_2_alg».proof.Proof.K.Body24
import proofs.«149588_j66838281060723_2_alg».proof.Proof.K.Body25

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take. -/
abbrev atTc (W : Dev nD → Valuation τ sig (Elt F)) : (c : Dev nD) → (b : Ref sig .tc) → Buf (Elt F) ((c : Thread nD τ).loc b) :=
  fun c b => W c b

/-! ## The buffer contents at each boundary -/

/-- Before region 0: the launch contents after the first nine host stretches. -/
abbrev T9 : Dev nD → Valuation τ sig (Elt F) := fun c => GenP.V9 m c
/-- After region 0: its output array at what the pipeline's write-backs leave, every other buffer as entered. -/
noncomputable def T10 (c : Dev nD) : Valuation τ sig (Elt F) :=
  Function.update (T9 m c) main_v17 ((dat0 (atTc (T9 m)) c).arrAt 3 cfg0.N)
/-- Before region 1: after the host stretch between the two regions. -/
abbrev T11 : Dev nD → Valuation τ sig (Elt F) := fun c => StableHlo.after hostOps1 (T10 m c)
/-- After region 1: its output array at what the pipeline's write-backs leave, every other buffer as entered. -/
noncomputable def T12 (c : Dev nD) : Valuation τ sig (Elt F) :=
  Function.update (T11 m c) main_v19 ((dat1 (atTc (T11 m)) c).arrAt 3 cfg1.N)
/-- Before region 2: after the host stretch between the two regions. -/
abbrev T13 : Dev nD → Valuation τ sig (Elt F) := fun c => StableHlo.after hostOps2 (T12 m c)
/-- After region 2: its output array at what the pipeline's write-backs leave, every other buffer as entered. -/
noncomputable def T14 (c : Dev nD) : Valuation τ sig (Elt F) :=
  Function.update (T13 m c) main_v50 ((dat2 (atTc (T13 m)) c).arrAt 4 cfg2.N)
/-- Before region 3: after the host stretch between the two regions. -/
abbrev T15 : Dev nD → Valuation τ sig (Elt F) := fun c => StableHlo.after hostOps3 (T14 m c)
/-- After region 3: its output array at what the pipeline's write-backs leave, every other buffer as entered. -/
noncomputable def T16 (c : Dev nD) : Valuation τ sig (Elt F) :=
  Function.update (T15 m c) main_v84 ((dat3 (atTc (T15 m)) c).arrAt 4 cfg3.N)
/-- Before region 4: after the host stretch between the two regions. -/
abbrev T17 : Dev nD → Valuation τ sig (Elt F) := fun c => StableHlo.after hostOps4 (T16 m c)
/-- After region 4: its output array at what the pipeline's write-backs leave, every other buffer as entered. -/
noncomputable def T18 (c : Dev nD) : Valuation τ sig (Elt F) :=
  Function.update (T17 m c) main_v118 ((dat4 (atTc (T17 m)) c).arrAt 4 cfg4.N)
/-- Before region 5: after the host stretch between the two regions. -/
abbrev T19 : Dev nD → Valuation τ sig (Elt F) := fun c => StableHlo.after hostOps5 (T18 m c)
/-- After region 5: its output array at what the pipeline's write-backs leave, every other buffer as entered. -/
noncomputable def T20 (c : Dev nD) : Valuation τ sig (Elt F) :=
  Function.update (T19 m c) main_v152 ((dat5 (atTc (T19 m)) c).arrAt 4 cfg5.N)
/-- Before region 6: after the host stretch between the two regions. -/
abbrev T21 : Dev nD → Valuation τ sig (Elt F) := fun c => StableHlo.after hostOps6 (T20 m c)
/-- After region 6: its output array at what the pipeline's write-backs leave, every other buffer as entered. -/
noncomputable def T22 (c : Dev nD) : Valuation τ sig (Elt F) :=
  Function.update (T21 m c) main_v163 ((dat6 (atTc (T21 m)) c).arrAt 3 cfg6.N)
/-- Before region 7: after the host stretch between the two regions. -/
abbrev T23 : Dev nD → Valuation τ sig (Elt F) := fun c => StableHlo.after hostOps7 (T22 m c)
/-- After region 7: its output array at what the pipeline's write-backs leave, every other buffer as entered. -/
noncomputable def T24 (c : Dev nD) : Valuation τ sig (Elt F) :=
  Function.update (T23 m c) main_v169 ((dat7 (atTc (T23 m)) c).arrAt 3 cfg7.N)
/-- Before region 8: after the host stretch between the two regions. -/
abbrev T25 : Dev nD → Valuation τ sig (Elt F) := fun c => StableHlo.after hostOps8 (T24 m c)
/-- After region 8: its output array at what the pipeline's write-backs leave, every other buffer as entered. -/
noncomputable def T26 (c : Dev nD) : Valuation τ sig (Elt F) :=
  Function.update (T25 m c) main_v200 ((dat8 (atTc (T25 m)) c).arrAt 4 cfg8.N)
/-- Before region 9: after the host stretch between the two regions. -/
abbrev T27 : Dev nD → Valuation τ sig (Elt F) := fun c => StableHlo.after hostOps9 (T26 m c)
/-- After region 9: its output array at what the pipeline's write-backs leave, every other buffer as entered. -/
noncomputable def T28 (c : Dev nD) : Valuation τ sig (Elt F) :=
  Function.update (T27 m c) main_v234 ((dat9 (atTc (T27 m)) c).arrAt 4 cfg9.N)
/-- Before region 10: after the host stretch between the two regions. -/
abbrev T29 : Dev nD → Valuation τ sig (Elt F) := fun c => StableHlo.after hostOps10 (T28 m c)
/-- After region 10: its output array at what the pipeline's write-backs leave, every other buffer as entered. -/
noncomputable def T30 (c : Dev nD) : Valuation τ sig (Elt F) :=
  Function.update (T29 m c) main_v268 ((dat10 (atTc (T29 m)) c).arrAt 4 cfg10.N)
/-- Before region 11: after the host stretch between the two regions. -/
abbrev T31 : Dev nD → Valuation τ sig (Elt F) := fun c => StableHlo.after hostOps11 (T30 m c)
/-- After region 11: its output array at what the pipeline's write-backs leave, every other buffer as entered. -/
noncomputable def T32 (c : Dev nD) : Valuation τ sig (Elt F) :=
  Function.update (T31 m c) main_v302 ((dat11 (atTc (T31 m)) c).arrAt 4 cfg11.N)
/-- Before region 12: after the host stretch between the two regions. -/
abbrev T33 : Dev nD → Valuation τ sig (Elt F) := fun c => StableHlo.after hostOps12 (T32 m c)
/-- After region 12: its output array at what the pipeline's write-backs leave, every other buffer as entered. -/
noncomputable def T34 (c : Dev nD) : Valuation τ sig (Elt F) :=
  Function.update (T33 m c) main_v313 ((dat12 (atTc (T33 m)) c).arrAt 3 cfg12.N)
/-- Before region 13: after the host stretch between the two regions. -/
abbrev T35 : Dev nD → Valuation τ sig (Elt F) := fun c => StableHlo.after hostOps13 (T34 m c)
/-- After region 13: its output array at what the pipeline's write-backs leave, every other buffer as entered. -/
noncomputable def T36 (c : Dev nD) : Valuation τ sig (Elt F) :=
  Function.update (T35 m c) main_v319 ((dat13 (atTc (T35 m)) c).arrAt 3 cfg13.N)
/-- Before region 14: after the host stretch between the two regions. -/
abbrev T37 : Dev nD → Valuation τ sig (Elt F) := fun c => StableHlo.after hostOps14 (T36 m c)
/-- After region 14: its output array at what the pipeline's write-backs leave, every other buffer as entered. -/
noncomputable def T38 (c : Dev nD) : Valuation τ sig (Elt F) :=
  Function.update (T37 m c) main_v350 ((dat14 (atTc (T37 m)) c).arrAt 4 cfg14.N)
/-- Before region 15: after the host stretch between the two regions. -/
abbrev T39 : Dev nD → Valuation τ sig (Elt F) := fun c => StableHlo.after hostOps15 (T38 m c)
/-- After region 15: its output array at what the pipeline's write-backs leave, every other buffer as entered. -/
noncomputable def T40 (c : Dev nD) : Valuation τ sig (Elt F) :=
  Function.update (T39 m c) main_v384 ((dat15 (atTc (T39 m)) c).arrAt 4 cfg15.N)
/-- Before region 16: after the host stretch between the two regions. -/
abbrev T41 : Dev nD → Valuation τ sig (Elt F) := fun c => StableHlo.after hostOps16 (T40 m c)
/-- After region 16: its output array at what the pipeline's write-backs leave, every other buffer as entered. -/
noncomputable def T42 (c : Dev nD) : Valuation τ sig (Elt F) :=
  Function.update (T41 m c) main_v418 ((dat16 (atTc (T41 m)) c).arrAt 4 cfg16.N)
/-- Before region 17: after the host stretch between the two regions. -/
abbrev T43 : Dev nD → Valuation τ sig (Elt F) := fun c => StableHlo.after hostOps17 (T42 m c)
/-- After region 17: its output array at what the pipeline's write-backs leave, every other buffer as entered. -/
noncomputable def T44 (c : Dev nD) : Valuation τ sig (Elt F) :=
  Function.update (T43 m c) main_v452 ((dat17 (atTc (T43 m)) c).arrAt 4 cfg17.N)
/-- Before region 18: after the host stretch between the two regions. -/
abbrev T45 : Dev nD → Valuation τ sig (Elt F) := fun c => StableHlo.after hostOps18 (T44 m c)
/-- After region 18: its output array at what the pipeline's write-backs leave, every other buffer as entered. -/
noncomputable def T46 (c : Dev nD) : Valuation τ sig (Elt F) :=
  Function.update (T45 m c) main_v463 ((dat18 (atTc (T45 m)) c).arrAt 3 cfg18.N)
/-- Before region 19: after the host stretch between the two regions. -/
abbrev T47 : Dev nD → Valuation τ sig (Elt F) := fun c => StableHlo.after hostOps19 (T46 m c)
/-- After region 19: its output array at what the pipeline's write-backs leave, every other buffer as entered. -/
noncomputable def T48 (c : Dev nD) : Valuation τ sig (Elt F) :=
  Function.update (T47 m c) main_v469 ((dat19 (atTc (T47 m)) c).arrAt 3 cfg19.N)
/-- Before region 20: after the host stretch between the two regions. -/
abbrev T49 : Dev nD → Valuation τ sig (Elt F) := fun c => StableHlo.after hostOps20 (T48 m c)
/-- After region 20: its output array at what the pipeline's write-backs leave, every other buffer as entered. -/
noncomputable def T50 (c : Dev nD) : Valuation τ sig (Elt F) :=
  Function.update (T49 m c) main_v500 ((dat20 (atTc (T49 m)) c).arrAt 4 cfg20.N)
/-- Before region 21: after the host stretch between the two regions. -/
abbrev T51 : Dev nD → Valuation τ sig (Elt F) := fun c => StableHlo.after hostOps21 (T50 m c)
/-- After region 21: its output array at what the pipeline's write-backs leave, every other buffer as entered. -/
noncomputable def T52 (c : Dev nD) : Valuation τ sig (Elt F) :=
  Function.update (T51 m c) main_v534 ((dat21 (atTc (T51 m)) c).arrAt 4 cfg21.N)
/-- Before region 22: after the host stretch between the two regions. -/
abbrev T53 : Dev nD → Valuation τ sig (Elt F) := fun c => StableHlo.after hostOps22 (T52 m c)
/-- After region 22: its output array at what the pipeline's write-backs leave, every other buffer as entered. -/
noncomputable def T54 (c : Dev nD) : Valuation τ sig (Elt F) :=
  Function.update (T53 m c) main_v568 ((dat22 (atTc (T53 m)) c).arrAt 4 cfg22.N)
/-- Before region 23: after the host stretch between the two regions. -/
abbrev T55 : Dev nD → Valuation τ sig (Elt F) := fun c => StableHlo.after hostOps23 (T54 m c)
/-- After region 23: its output array at what the pipeline's write-backs leave, every other buffer as entered. -/
noncomputable def T56 (c : Dev nD) : Valuation τ sig (Elt F) :=
  Function.update (T55 m c) main_v602 ((dat23 (atTc (T55 m)) c).arrAt 4 cfg23.N)
/-- Before region 24: after the host stretch between the two regions. -/
abbrev T57 : Dev nD → Valuation τ sig (Elt F) := fun c => StableHlo.after hostOps24 (T56 m c)
/-- After region 24: its output array at what the pipeline's write-backs leave, every other buffer as entered. -/
noncomputable def T58 (c : Dev nD) : Valuation τ sig (Elt F) :=
  Function.update (T57 m c) main_v613 ((dat24 (atTc (T57 m)) c).arrAt 3 cfg24.N)
/-- Before region 25: after the host stretch between the two regions. -/
abbrev T59 : Dev nD → Valuation τ sig (Elt F) := fun c => StableHlo.after hostOps25 (T58 m c)
/-- After region 25: its output array at what the pipeline's write-backs leave, every other buffer as entered. -/
noncomputable def T60 (c : Dev nD) : Valuation τ sig (Elt F) :=
  Function.update (T59 m c) main_v619 ((dat25 (atTc (T59 m)) c).arrAt 3 cfg25.N)

/-- What each region leaves in the buffers it may change, read off the fold. -/
noncomputable def outs : GenP.Outs (F := F) := fun J r c =>
  match J with
  | 10 => T10 m c r
  | 12 => T12 m c r
  | 14 => T14 m c r
  | 16 => T16 m c r
  | 18 => T18 m c r
  | 20 => T20 m c r
  | 22 => T22 m c r
  | 24 => T24 m c r
  | 26 => T26 m c r
  | 28 => T28 m c r
  | 30 => T30 m c r
  | 32 => T32 m c r
  | 34 => T34 m c r
  | 36 => T36 m c r
  | 38 => T38 m c r
  | 40 => T40 m c r
  | 42 => T42 m c r
  | 44 => T44 m c r
  | 46 => T46 m c r
  | 48 => T48 m c r
  | 50 => T50 m c r
  | 52 => T52 m c r
  | 54 => T54 m c r
  | 56 => T56 m c r
  | 58 => T58 m c r
  | 60 => T60 m c r
  | _ => T9 m c r

/-! ## The fold is the valuation sequence of the conditional frame at these contents -/

theorem Veq9 (c : Dev nD) : GenP.V9 m c = T9 m c := rfl
theorem Veq10 (c : Dev nD) : GenP.V10 m (outs m) c = T10 m c := by
  show Function.update (GenP.V9 m c) main_v17 (T10 m c main_v17) = T10 m c
  rw [Veq9]; unfold T10; rw [Function.update_self]
theorem Veq11 (c : Dev nD) : GenP.V11 m (outs m) c = T11 m c :=
  congrArg (StableHlo.after hostOps1) (Veq10 m c)
theorem Veq12 (c : Dev nD) : GenP.V12 m (outs m) c = T12 m c := by
  show Function.update (GenP.V11 m (outs m) c) main_v19 (T12 m c main_v19) = T12 m c
  rw [Veq11]; unfold T12; rw [Function.update_self]
theorem Veq13 (c : Dev nD) : GenP.V13 m (outs m) c = T13 m c :=
  congrArg (StableHlo.after hostOps2) (Veq12 m c)
theorem Veq14 (c : Dev nD) : GenP.V14 m (outs m) c = T14 m c := by
  show Function.update (GenP.V13 m (outs m) c) main_v50 (T14 m c main_v50) = T14 m c
  rw [Veq13]; unfold T14; rw [Function.update_self]
theorem Veq15 (c : Dev nD) : GenP.V15 m (outs m) c = T15 m c :=
  congrArg (StableHlo.after hostOps3) (Veq14 m c)
theorem Veq16 (c : Dev nD) : GenP.V16 m (outs m) c = T16 m c := by
  show Function.update (GenP.V15 m (outs m) c) main_v84 (T16 m c main_v84) = T16 m c
  rw [Veq15]; unfold T16; rw [Function.update_self]
theorem Veq17 (c : Dev nD) : GenP.V17 m (outs m) c = T17 m c :=
  congrArg (StableHlo.after hostOps4) (Veq16 m c)
theorem Veq18 (c : Dev nD) : GenP.V18 m (outs m) c = T18 m c := by
  show Function.update (GenP.V17 m (outs m) c) main_v118 (T18 m c main_v118) = T18 m c
  rw [Veq17]; unfold T18; rw [Function.update_self]
theorem Veq19 (c : Dev nD) : GenP.V19 m (outs m) c = T19 m c :=
  congrArg (StableHlo.after hostOps5) (Veq18 m c)
theorem Veq20 (c : Dev nD) : GenP.V20 m (outs m) c = T20 m c := by
  show Function.update (GenP.V19 m (outs m) c) main_v152 (T20 m c main_v152) = T20 m c
  rw [Veq19]; unfold T20; rw [Function.update_self]
theorem Veq21 (c : Dev nD) : GenP.V21 m (outs m) c = T21 m c :=
  congrArg (StableHlo.after hostOps6) (Veq20 m c)
theorem Veq22 (c : Dev nD) : GenP.V22 m (outs m) c = T22 m c := by
  show Function.update (GenP.V21 m (outs m) c) main_v163 (T22 m c main_v163) = T22 m c
  rw [Veq21]; unfold T22; rw [Function.update_self]
theorem Veq23 (c : Dev nD) : GenP.V23 m (outs m) c = T23 m c :=
  congrArg (StableHlo.after hostOps7) (Veq22 m c)
theorem Veq24 (c : Dev nD) : GenP.V24 m (outs m) c = T24 m c := by
  show Function.update (GenP.V23 m (outs m) c) main_v169 (T24 m c main_v169) = T24 m c
  rw [Veq23]; unfold T24; rw [Function.update_self]
theorem Veq25 (c : Dev nD) : GenP.V25 m (outs m) c = T25 m c :=
  congrArg (StableHlo.after hostOps8) (Veq24 m c)
theorem Veq26 (c : Dev nD) : GenP.V26 m (outs m) c = T26 m c := by
  show Function.update (GenP.V25 m (outs m) c) main_v200 (T26 m c main_v200) = T26 m c
  rw [Veq25]; unfold T26; rw [Function.update_self]
theorem Veq27 (c : Dev nD) : GenP.V27 m (outs m) c = T27 m c :=
  congrArg (StableHlo.after hostOps9) (Veq26 m c)
theorem Veq28 (c : Dev nD) : GenP.V28 m (outs m) c = T28 m c := by
  show Function.update (GenP.V27 m (outs m) c) main_v234 (T28 m c main_v234) = T28 m c
  rw [Veq27]; unfold T28; rw [Function.update_self]
theorem Veq29 (c : Dev nD) : GenP.V29 m (outs m) c = T29 m c :=
  congrArg (StableHlo.after hostOps10) (Veq28 m c)
theorem Veq30 (c : Dev nD) : GenP.V30 m (outs m) c = T30 m c := by
  show Function.update (GenP.V29 m (outs m) c) main_v268 (T30 m c main_v268) = T30 m c
  rw [Veq29]; unfold T30; rw [Function.update_self]
theorem Veq31 (c : Dev nD) : GenP.V31 m (outs m) c = T31 m c :=
  congrArg (StableHlo.after hostOps11) (Veq30 m c)
theorem Veq32 (c : Dev nD) : GenP.V32 m (outs m) c = T32 m c := by
  show Function.update (GenP.V31 m (outs m) c) main_v302 (T32 m c main_v302) = T32 m c
  rw [Veq31]; unfold T32; rw [Function.update_self]
theorem Veq33 (c : Dev nD) : GenP.V33 m (outs m) c = T33 m c :=
  congrArg (StableHlo.after hostOps12) (Veq32 m c)
theorem Veq34 (c : Dev nD) : GenP.V34 m (outs m) c = T34 m c := by
  show Function.update (GenP.V33 m (outs m) c) main_v313 (T34 m c main_v313) = T34 m c
  rw [Veq33]; unfold T34; rw [Function.update_self]
theorem Veq35 (c : Dev nD) : GenP.V35 m (outs m) c = T35 m c :=
  congrArg (StableHlo.after hostOps13) (Veq34 m c)
theorem Veq36 (c : Dev nD) : GenP.V36 m (outs m) c = T36 m c := by
  show Function.update (GenP.V35 m (outs m) c) main_v319 (T36 m c main_v319) = T36 m c
  rw [Veq35]; unfold T36; rw [Function.update_self]
theorem Veq37 (c : Dev nD) : GenP.V37 m (outs m) c = T37 m c :=
  congrArg (StableHlo.after hostOps14) (Veq36 m c)
theorem Veq38 (c : Dev nD) : GenP.V38 m (outs m) c = T38 m c := by
  show Function.update (GenP.V37 m (outs m) c) main_v350 (T38 m c main_v350) = T38 m c
  rw [Veq37]; unfold T38; rw [Function.update_self]
theorem Veq39 (c : Dev nD) : GenP.V39 m (outs m) c = T39 m c :=
  congrArg (StableHlo.after hostOps15) (Veq38 m c)
theorem Veq40 (c : Dev nD) : GenP.V40 m (outs m) c = T40 m c := by
  show Function.update (GenP.V39 m (outs m) c) main_v384 (T40 m c main_v384) = T40 m c
  rw [Veq39]; unfold T40; rw [Function.update_self]
theorem Veq41 (c : Dev nD) : GenP.V41 m (outs m) c = T41 m c :=
  congrArg (StableHlo.after hostOps16) (Veq40 m c)
theorem Veq42 (c : Dev nD) : GenP.V42 m (outs m) c = T42 m c := by
  show Function.update (GenP.V41 m (outs m) c) main_v418 (T42 m c main_v418) = T42 m c
  rw [Veq41]; unfold T42; rw [Function.update_self]
theorem Veq43 (c : Dev nD) : GenP.V43 m (outs m) c = T43 m c :=
  congrArg (StableHlo.after hostOps17) (Veq42 m c)
theorem Veq44 (c : Dev nD) : GenP.V44 m (outs m) c = T44 m c := by
  show Function.update (GenP.V43 m (outs m) c) main_v452 (T44 m c main_v452) = T44 m c
  rw [Veq43]; unfold T44; rw [Function.update_self]
theorem Veq45 (c : Dev nD) : GenP.V45 m (outs m) c = T45 m c :=
  congrArg (StableHlo.after hostOps18) (Veq44 m c)
theorem Veq46 (c : Dev nD) : GenP.V46 m (outs m) c = T46 m c := by
  show Function.update (GenP.V45 m (outs m) c) main_v463 (T46 m c main_v463) = T46 m c
  rw [Veq45]; unfold T46; rw [Function.update_self]
theorem Veq47 (c : Dev nD) : GenP.V47 m (outs m) c = T47 m c :=
  congrArg (StableHlo.after hostOps19) (Veq46 m c)
theorem Veq48 (c : Dev nD) : GenP.V48 m (outs m) c = T48 m c := by
  show Function.update (GenP.V47 m (outs m) c) main_v469 (T48 m c main_v469) = T48 m c
  rw [Veq47]; unfold T48; rw [Function.update_self]
theorem Veq49 (c : Dev nD) : GenP.V49 m (outs m) c = T49 m c :=
  congrArg (StableHlo.after hostOps20) (Veq48 m c)
theorem Veq50 (c : Dev nD) : GenP.V50 m (outs m) c = T50 m c := by
  show Function.update (GenP.V49 m (outs m) c) main_v500 (T50 m c main_v500) = T50 m c
  rw [Veq49]; unfold T50; rw [Function.update_self]
theorem Veq51 (c : Dev nD) : GenP.V51 m (outs m) c = T51 m c :=
  congrArg (StableHlo.after hostOps21) (Veq50 m c)
theorem Veq52 (c : Dev nD) : GenP.V52 m (outs m) c = T52 m c := by
  show Function.update (GenP.V51 m (outs m) c) main_v534 (T52 m c main_v534) = T52 m c
  rw [Veq51]; unfold T52; rw [Function.update_self]
theorem Veq53 (c : Dev nD) : GenP.V53 m (outs m) c = T53 m c :=
  congrArg (StableHlo.after hostOps22) (Veq52 m c)
theorem Veq54 (c : Dev nD) : GenP.V54 m (outs m) c = T54 m c := by
  show Function.update (GenP.V53 m (outs m) c) main_v568 (T54 m c main_v568) = T54 m c
  rw [Veq53]; unfold T54; rw [Function.update_self]
theorem Veq55 (c : Dev nD) : GenP.V55 m (outs m) c = T55 m c :=
  congrArg (StableHlo.after hostOps23) (Veq54 m c)
theorem Veq56 (c : Dev nD) : GenP.V56 m (outs m) c = T56 m c := by
  show Function.update (GenP.V55 m (outs m) c) main_v602 (T56 m c main_v602) = T56 m c
  rw [Veq55]; unfold T56; rw [Function.update_self]
theorem Veq57 (c : Dev nD) : GenP.V57 m (outs m) c = T57 m c :=
  congrArg (StableHlo.after hostOps24) (Veq56 m c)
theorem Veq58 (c : Dev nD) : GenP.V58 m (outs m) c = T58 m c := by
  show Function.update (GenP.V57 m (outs m) c) main_v613 (T58 m c main_v613) = T58 m c
  rw [Veq57]; unfold T58; rw [Function.update_self]
theorem Veq59 (c : Dev nD) : GenP.V59 m (outs m) c = T59 m c :=
  congrArg (StableHlo.after hostOps25) (Veq58 m c)
theorem Veq60 (c : Dev nD) : GenP.V60 m (outs m) c = T60 m c := by
  show Function.update (GenP.V59 m (outs m) c) main_v619 (T60 m c main_v619) = T60 m c
  rw [Veq59]; unfold T60; rw [Function.update_self]

/-! ## The proof data family -/

/-- Every pipeline's proof data, each at its region's entry contents. -/
noncomputable def pdats : (p : Fin 26) → (c : Dev nD) → Dat τ (Elt F) Unit ℕ (UR sig nD τ) ℕ (cfgs p) c
  | ⟨0, _⟩ => fun c => dat0 (atTc (T9 m)) c
  | ⟨1, _⟩ => fun c => dat1 (atTc (T11 m)) c
  | ⟨2, _⟩ => fun c => dat2 (atTc (T13 m)) c
  | ⟨3, _⟩ => fun c => dat3 (atTc (T15 m)) c
  | ⟨4, _⟩ => fun c => dat4 (atTc (T17 m)) c
  | ⟨5, _⟩ => fun c => dat5 (atTc (T19 m)) c
  | ⟨6, _⟩ => fun c => dat6 (atTc (T21 m)) c
  | ⟨7, _⟩ => fun c => dat7 (atTc (T23 m)) c
  | ⟨8, _⟩ => fun c => dat8 (atTc (T25 m)) c
  | ⟨9, _⟩ => fun c => dat9 (atTc (T27 m)) c
  | ⟨10, _⟩ => fun c => dat10 (atTc (T29 m)) c
  | ⟨11, _⟩ => fun c => dat11 (atTc (T31 m)) c
  | ⟨12, _⟩ => fun c => dat12 (atTc (T33 m)) c
  | ⟨13, _⟩ => fun c => dat13 (atTc (T35 m)) c
  | ⟨14, _⟩ => fun c => dat14 (atTc (T37 m)) c
  | ⟨15, _⟩ => fun c => dat15 (atTc (T39 m)) c
  | ⟨16, _⟩ => fun c => dat16 (atTc (T41 m)) c
  | ⟨17, _⟩ => fun c => dat17 (atTc (T43 m)) c
  | ⟨18, _⟩ => fun c => dat18 (atTc (T45 m)) c
  | ⟨19, _⟩ => fun c => dat19 (atTc (T47 m)) c
  | ⟨20, _⟩ => fun c => dat20 (atTc (T49 m)) c
  | ⟨21, _⟩ => fun c => dat21 (atTc (T51 m)) c
  | ⟨22, _⟩ => fun c => dat22 (atTc (T53 m)) c
  | ⟨23, _⟩ => fun c => dat23 (atTc (T55 m)) c
  | ⟨24, _⟩ => fun c => dat24 (atTc (T57 m)) c
  | ⟨25, _⟩ => fun c => dat25 (atTc (T59 m)) c
  | ⟨_ + 26, h⟩ => absurd h (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev Rr (c : Dev nD) : sProp 𝕄 := iprop((∃ r, prngReg c r) ∗ ∃ W, owes (c : Thread nD τ) (0 : CellTallies nD τ sig Unit) W)

/-! ## Each region's arrays at its exit -/
set_option maxHeartbeats 4000000 in
/-- At region 0's exit each input array holds what it held at entry and the output array what the pipeline leaves. -/
theorem hF0 (c : Dev nD) : ∀ w, (pdats m 0 c).arrAt w cfg0.N = atTc (T10 m) c (Pipeline.arrRef spec0 w) := fun w => by
  match w with
  | ⟨0, _⟩ =>
    refine (((pdats m 0 c).arrAt_in 0 rfl _).trans (A_eq0 _ c 0)).trans ?_
    show T9 m c (Pipeline.arrRef spec0 0) = Function.update (T9 m c) main_v17 _ (Pipeline.arrRef spec0 0)
    exact (Function.update_of_ne (StableHlo.devRef_ne_of_ne (by decide)) _ _).symm
  | ⟨1, _⟩ =>
    refine (((pdats m 0 c).arrAt_in 1 rfl _).trans (A_eq0 _ c 1)).trans ?_
    show T9 m c (Pipeline.arrRef spec0 1) = Function.update (T9 m c) main_v17 _ (Pipeline.arrRef spec0 1)
    exact (Function.update_of_ne (StableHlo.devRef_ne_of_ne (by decide)) _ _).symm
  | ⟨2, _⟩ =>
    refine (((pdats m 0 c).arrAt_in 2 rfl _).trans (A_eq0 _ c 2)).trans ?_
    show T9 m c (Pipeline.arrRef spec0 2) = Function.update (T9 m c) main_v17 _ (Pipeline.arrRef spec0 2)
    exact (Function.update_of_ne (StableHlo.devRef_ne_of_ne (by decide)) _ _).symm
  | ⟨3, _⟩ =>
    show _ = Function.update (T9 m c) main_v17 _ main_v17
    rw [Function.update_self]
    rfl
/-- Every buffer that is none of region 0's arrays is as at entry. -/
theorem hrest0 (c : Dev nD) : ∀ b, b ∉ Finset.univ.image (Pipeline.arrRef spec0) → atTc (T10 m) c b = atTc (T9 m) c b := fun b hb => by
  unfold atTc T10
  exact Function.update_of_ne (StableHlo.devRef_ne_of_ne (fun e => hb (Finset.mem_image.mpr ⟨3, Finset.mem_univ _, (by decide : Pipeline.arrRef spec0 3 = main_v17).trans e.symm⟩))) _ _
set_option maxHeartbeats 4000000 in
/-- At region 1's exit each input array holds what it held at entry and the output array what the pipeline leaves. -/
theorem hF1 (c : Dev nD) : ∀ w, (pdats m 1 c).arrAt w cfg1.N = atTc (T12 m) c (Pipeline.arrRef spec1 w) := fun w => by
  match w with
  | ⟨0, _⟩ =>
    refine (((pdats m 1 c).arrAt_in 0 rfl _).trans (A_eq1 _ c 0)).trans ?_
    show T11 m c (Pipeline.arrRef spec1 0) = Function.update (T11 m c) main_v19 _ (Pipeline.arrRef spec1 0)
    exact (Function.update_of_ne (StableHlo.devRef_ne_of_ne (by decide)) _ _).symm
  | ⟨1, _⟩ =>
    refine (((pdats m 1 c).arrAt_in 1 rfl _).trans (A_eq1 _ c 1)).trans ?_
    show T11 m c (Pipeline.arrRef spec1 1) = Function.update (T11 m c) main_v19 _ (Pipeline.arrRef spec1 1)
    exact (Function.update_of_ne (StableHlo.devRef_ne_of_ne (by decide)) _ _).symm
  | ⟨2, _⟩ =>
    refine (((pdats m 1 c).arrAt_in 2 rfl _).trans (A_eq1 _ c 2)).trans ?_
    show T11 m c (Pipeline.arrRef spec1 2) = Function.update (T11 m c) main_v19 _ (Pipeline.arrRef spec1 2)
    exact (Function.update_of_ne (StableHlo.devRef_ne_of_ne (by decide)) _ _).symm
  | ⟨3, _⟩ =>
    show _ = Function.update (T11 m c) main_v19 _ main_v19
    rw [Function.update_self]
    rfl
/-- Every buffer that is none of region 1's arrays is as at entry. -/
theorem hrest1 (c : Dev nD) : ∀ b, b ∉ Finset.univ.image (Pipeline.arrRef spec1) → atTc (T12 m) c b = atTc (T11 m) c b := fun b hb => by
  unfold atTc T12
  exact Function.update_of_ne (StableHlo.devRef_ne_of_ne (fun e => hb (Finset.mem_image.mpr ⟨3, Finset.mem_univ _, (by decide : Pipeline.arrRef spec1 3 = main_v19).trans e.symm⟩))) _ _
set_option maxHeartbeats 4000000 in
/-- At region 2's exit each input array holds what it held at entry and the output array what the pipeline leaves. -/
theorem hF2 (c : Dev nD) : ∀ w, (pdats m 2 c).arrAt w cfg2.N = atTc (T14 m) c (Pipeline.arrRef spec2 w) := fun w => by
  match w with
  | ⟨0, _⟩ =>
    refine (((pdats m 2 c).arrAt_in 0 rfl _).trans (A_eq2 _ c 0)).trans ?_
    show T13 m c (Pipeline.arrRef spec2 0) = Function.update (T13 m c) main_v50 _ (Pipeline.arrRef spec2 0)
    exact (Function.update_of_ne (StableHlo.devRef_ne_of_ne (by decide)) _ _).symm
  | ⟨1, _⟩ =>
    refine (((pdats m 2 c).arrAt_in 1 rfl _).trans (A_eq2 _ c 1)).trans ?_
    show T13 m c (Pipeline.arrRef spec2 1) = Function.update (T13 m c) main_v50 _ (Pipeline.arrRef spec2 1)
    exact (Function.update_of_ne (StableHlo.devRef_ne_of_ne (by decide)) _ _).symm
  | ⟨2, _⟩ =>
    refine (((pdats m 2 c).arrAt_in 2 rfl _).trans (A_eq2 _ c 2)).trans ?_
    show T13 m c (Pipeline.arrRef spec2 2) = Function.update (T13 m c) main_v50 _ (Pipeline.arrRef spec2 2)
    exact (Function.update_of_ne (StableHlo.devRef_ne_of_ne (by decide)) _ _).symm
  | ⟨3, _⟩ =>
    refine (((pdats m 2 c).arrAt_in 3 rfl _).trans (A_eq2 _ c 3)).trans ?_
    show T13 m c (Pipeline.arrRef spec2 3) = Function.update (T13 m c) main_v50 _ (Pipeline.arrRef spec2 3)
    exact (Function.update_of_ne (StableHlo.devRef_ne_of_ne (by decide)) _ _).symm
  | ⟨4, _⟩ =>
    show _ = Function.update (T13 m c) main_v50 _ main_v50
    rw [Function.update_self]
    rfl
/-- Every buffer that is none of region 2's arrays is as at entry. -/
theorem hrest2 (c : Dev nD) : ∀ b, b ∉ Finset.univ.image (Pipeline.arrRef spec2) → atTc (T14 m) c b = atTc (T13 m) c b := fun b hb => by
  unfold atTc T14
  exact Function.update_of_ne (StableHlo.devRef_ne_of_ne (fun e => hb (Finset.mem_image.mpr ⟨4, Finset.mem_univ _, (by decide : Pipeline.arrRef spec2 4 = main_v50).trans e.symm⟩))) _ _
set_option maxHeartbeats 4000000 in
/-- At region 3's exit each input array holds what it held at entry and the output array what the pipeline leaves. -/
theorem hF3 (c : Dev nD) : ∀ w, (pdats m 3 c).arrAt w cfg3.N = atTc (T16 m) c (Pipeline.arrRef spec3 w) := fun w => by
  match w with
  | ⟨0, _⟩ =>
    refine (((pdats m 3 c).arrAt_in 0 rfl _).trans (A_eq3 _ c 0)).trans ?_
    show T15 m c (Pipeline.arrRef spec3 0) = Function.update (T15 m c) main_v84 _ (Pipeline.arrRef spec3 0)
    exact (Function.update_of_ne (StableHlo.devRef_ne_of_ne (by decide)) _ _).symm
  | ⟨1, _⟩ =>
    refine (((pdats m 3 c).arrAt_in 1 rfl _).trans (A_eq3 _ c 1)).trans ?_
    show T15 m c (Pipeline.arrRef spec3 1) = Function.update (T15 m c) main_v84 _ (Pipeline.arrRef spec3 1)
    exact (Function.update_of_ne (StableHlo.devRef_ne_of_ne (by decide)) _ _).symm
  | ⟨2, _⟩ =>
    refine (((pdats m 3 c).arrAt_in 2 rfl _).trans (A_eq3 _ c 2)).trans ?_
    show T15 m c (Pipeline.arrRef spec3 2) = Function.update (T15 m c) main_v84 _ (Pipeline.arrRef spec3 2)
    exact (Function.update_of_ne (StableHlo.devRef_ne_of_ne (by decide)) _ _).symm
  | ⟨3, _⟩ =>
    refine (((pdats m 3 c).arrAt_in 3 rfl _).trans (A_eq3 _ c 3)).trans ?_
    show T15 m c (Pipeline.arrRef spec3 3) = Function.update (T15 m c) main_v84 _ (Pipeline.arrRef spec3 3)
    exact (Function.update_of_ne (StableHlo.devRef_ne_of_ne (by decide)) _ _).symm
  | ⟨4, _⟩ =>
    show _ = Function.update (T15 m c) main_v84 _ main_v84
    rw [Function.update_self]
    rfl
/-- Every buffer that is none of region 3's arrays is as at entry. -/
theorem hrest3 (c : Dev nD) : ∀ b, b ∉ Finset.univ.image (Pipeline.arrRef spec3) → atTc (T16 m) c b = atTc (T15 m) c b := fun b hb => by
  unfold atTc T16
  exact Function.update_of_ne (StableHlo.devRef_ne_of_ne (fun e => hb (Finset.mem_image.mpr ⟨4, Finset.mem_univ _, (by decide : Pipeline.arrRef spec3 4 = main_v84).trans e.symm⟩))) _ _
set_option maxHeartbeats 4000000 in
/-- At region 4's exit each input array holds what it held at entry and the output array what the pipeline leaves. -/
theorem hF4 (c : Dev nD) : ∀ w, (pdats m 4 c).arrAt w cfg4.N = atTc (T18 m) c (Pipeline.arrRef spec4 w) := fun w => by
  match w with
  | ⟨0, _⟩ =>
    refine (((pdats m 4 c).arrAt_in 0 rfl _).trans (A_eq4 _ c 0)).trans ?_
    show T17 m c (Pipeline.arrRef spec4 0) = Function.update (T17 m c) main_v118 _ (Pipeline.arrRef spec4 0)
    exact (Function.update_of_ne (StableHlo.devRef_ne_of_ne (by decide)) _ _).symm
  | ⟨1, _⟩ =>
    refine (((pdats m 4 c).arrAt_in 1 rfl _).trans (A_eq4 _ c 1)).trans ?_
    show T17 m c (Pipeline.arrRef spec4 1) = Function.update (T17 m c) main_v118 _ (Pipeline.arrRef spec4 1)
    exact (Function.update_of_ne (StableHlo.devRef_ne_of_ne (by decide)) _ _).symm
  | ⟨2, _⟩ =>
    refine (((pdats m 4 c).arrAt_in 2 rfl _).trans (A_eq4 _ c 2)).trans ?_
    show T17 m c (Pipeline.arrRef spec4 2) = Function.update (T17 m c) main_v118 _ (Pipeline.arrRef spec4 2)
    exact (Function.update_of_ne (StableHlo.devRef_ne_of_ne (by decide)) _ _).symm
  | ⟨3, _⟩ =>
    refine (((pdats m 4 c).arrAt_in 3 rfl _).trans (A_eq4 _ c 3)).trans ?_
    show T17 m c (Pipeline.arrRef spec4 3) = Function.update (T17 m c) main_v118 _ (Pipeline.arrRef spec4 3)
    exact (Function.update_of_ne (StableHlo.devRef_ne_of_ne (by decide)) _ _).symm
  | ⟨4, _⟩ =>
    show _ = Function.update (T17 m c) main_v118 _ main_v118
    rw [Function.update_self]
    rfl
/-- Every buffer that is none of region 4's arrays is as at entry. -/
theorem hrest4 (c : Dev nD) : ∀ b, b ∉ Finset.univ.image (Pipeline.arrRef spec4) → atTc (T18 m) c b = atTc (T17 m) c b := fun b hb => by
  unfold atTc T18
  exact Function.update_of_ne (StableHlo.devRef_ne_of_ne (fun e => hb (Finset.mem_image.mpr ⟨4, Finset.mem_univ _, (by decide : Pipeline.arrRef spec4 4 = main_v118).trans e.symm⟩))) _ _
set_option maxHeartbeats 4000000 in
/-- At region 5's exit each input array holds what it held at entry and the output array what the pipeline leaves. -/
theorem hF5 (c : Dev nD) : ∀ w, (pdats m 5 c).arrAt w cfg5.N = atTc (T20 m) c (Pipeline.arrRef spec5 w) := fun w => by
  match w with
  | ⟨0, _⟩ =>
    refine (((pdats m 5 c).arrAt_in 0 rfl _).trans (A_eq5 _ c 0)).trans ?_
    show T19 m c (Pipeline.arrRef spec5 0) = Function.update (T19 m c) main_v152 _ (Pipeline.arrRef spec5 0)
    exact (Function.update_of_ne (StableHlo.devRef_ne_of_ne (by decide)) _ _).symm
  | ⟨1, _⟩ =>
    refine (((pdats m 5 c).arrAt_in 1 rfl _).trans (A_eq5 _ c 1)).trans ?_
    show T19 m c (Pipeline.arrRef spec5 1) = Function.update (T19 m c) main_v152 _ (Pipeline.arrRef spec5 1)
    exact (Function.update_of_ne (StableHlo.devRef_ne_of_ne (by decide)) _ _).symm
  | ⟨2, _⟩ =>
    refine (((pdats m 5 c).arrAt_in 2 rfl _).trans (A_eq5 _ c 2)).trans ?_
    show T19 m c (Pipeline.arrRef spec5 2) = Function.update (T19 m c) main_v152 _ (Pipeline.arrRef spec5 2)
    exact (Function.update_of_ne (StableHlo.devRef_ne_of_ne (by decide)) _ _).symm
  | ⟨3, _⟩ =>
    refine (((pdats m 5 c).arrAt_in 3 rfl _).trans (A_eq5 _ c 3)).trans ?_
    show T19 m c (Pipeline.arrRef spec5 3) = Function.update (T19 m c) main_v152 _ (Pipeline.arrRef spec5 3)
    exact (Function.update_of_ne (StableHlo.devRef_ne_of_ne (by decide)) _ _).symm
  | ⟨4, _⟩ =>
    show _ = Function.update (T19 m c) main_v152 _ main_v152
    rw [Function.update_self]
    rfl
/-- Every buffer that is none of region 5's arrays is as at entry. -/
theorem hrest5 (c : Dev nD) : ∀ b, b ∉ Finset.univ.image (Pipeline.arrRef spec5) → atTc (T20 m) c b = atTc (T19 m) c b := fun b hb => by
  unfold atTc T20
  exact Function.update_of_ne (StableHlo.devRef_ne_of_ne (fun e => hb (Finset.mem_image.mpr ⟨4, Finset.mem_univ _, (by decide : Pipeline.arrRef spec5 4 = main_v152).trans e.symm⟩))) _ _
set_option maxHeartbeats 4000000 in
/-- At region 6's exit each input array holds what it held at entry and the output array what the pipeline leaves. -/
theorem hF6 (c : Dev nD) : ∀ w, (pdats m 6 c).arrAt w cfg6.N = atTc (T22 m) c (Pipeline.arrRef spec6 w) := fun w => by
  match w with
  | ⟨0, _⟩ =>
    refine (((pdats m 6 c).arrAt_in 0 rfl _).trans (A_eq6 _ c 0)).trans ?_
    show T21 m c (Pipeline.arrRef spec6 0) = Function.update (T21 m c) main_v163 _ (Pipeline.arrRef spec6 0)
    exact (Function.update_of_ne (StableHlo.devRef_ne_of_ne (by decide)) _ _).symm
  | ⟨1, _⟩ =>
    refine (((pdats m 6 c).arrAt_in 1 rfl _).trans (A_eq6 _ c 1)).trans ?_
    show T21 m c (Pipeline.arrRef spec6 1) = Function.update (T21 m c) main_v163 _ (Pipeline.arrRef spec6 1)
    exact (Function.update_of_ne (StableHlo.devRef_ne_of_ne (by decide)) _ _).symm
  | ⟨2, _⟩ =>
    refine (((pdats m 6 c).arrAt_in 2 rfl _).trans (A_eq6 _ c 2)).trans ?_
    show T21 m c (Pipeline.arrRef spec6 2) = Function.update (T21 m c) main_v163 _ (Pipeline.arrRef spec6 2)
    exact (Function.update_of_ne (StableHlo.devRef_ne_of_ne (by decide)) _ _).symm
  | ⟨3, _⟩ =>
    show _ = Function.update (T21 m c) main_v163 _ main_v163
    rw [Function.update_self]
    rfl
/-- Every buffer that is none of region 6's arrays is as at entry. -/
theorem hrest6 (c : Dev nD) : ∀ b, b ∉ Finset.univ.image (Pipeline.arrRef spec6) → atTc (T22 m) c b = atTc (T21 m) c b := fun b hb => by
  unfold atTc T22
  exact Function.update_of_ne (StableHlo.devRef_ne_of_ne (fun e => hb (Finset.mem_image.mpr ⟨3, Finset.mem_univ _, (by decide : Pipeline.arrRef spec6 3 = main_v163).trans e.symm⟩))) _ _
set_option maxHeartbeats 4000000 in
/-- At region 7's exit each input array holds what it held at entry and the output array what the pipeline leaves. -/
theorem hF7 (c : Dev nD) : ∀ w, (pdats m 7 c).arrAt w cfg7.N = atTc (T24 m) c (Pipeline.arrRef spec7 w) := fun w => by
  match w with
  | ⟨0, _⟩ =>
    refine (((pdats m 7 c).arrAt_in 0 rfl _).trans (A_eq7 _ c 0)).trans ?_
    show T23 m c (Pipeline.arrRef spec7 0) = Function.update (T23 m c) main_v169 _ (Pipeline.arrRef spec7 0)
    exact (Function.update_of_ne (StableHlo.devRef_ne_of_ne (by decide)) _ _).symm
  | ⟨1, _⟩ =>
    refine (((pdats m 7 c).arrAt_in 1 rfl _).trans (A_eq7 _ c 1)).trans ?_
    show T23 m c (Pipeline.arrRef spec7 1) = Function.update (T23 m c) main_v169 _ (Pipeline.arrRef spec7 1)
    exact (Function.update_of_ne (StableHlo.devRef_ne_of_ne (by decide)) _ _).symm
  | ⟨2, _⟩ =>
    refine (((pdats m 7 c).arrAt_in 2 rfl _).trans (A_eq7 _ c 2)).trans ?_
    show T23 m c (Pipeline.arrRef spec7 2) = Function.update (T23 m c) main_v169 _ (Pipeline.arrRef spec7 2)
    exact (Function.update_of_ne (StableHlo.devRef_ne_of_ne (by decide)) _ _).symm
  | ⟨3, _⟩ =>
    show _ = Function.update (T23 m c) main_v169 _ main_v169
    rw [Function.update_self]
    rfl
/-- Every buffer that is none of region 7's arrays is as at entry. -/
theorem hrest7 (c : Dev nD) : ∀ b, b ∉ Finset.univ.image (Pipeline.arrRef spec7) → atTc (T24 m) c b = atTc (T23 m) c b := fun b hb => by
  unfold atTc T24
  exact Function.update_of_ne (StableHlo.devRef_ne_of_ne (fun e => hb (Finset.mem_image.mpr ⟨3, Finset.mem_univ _, (by decide : Pipeline.arrRef spec7 3 = main_v169).trans e.symm⟩))) _ _
set_option maxHeartbeats 4000000 in
/-- At region 8's exit each input array holds what it held at entry and the output array what the pipeline leaves. -/
theorem hF8 (c : Dev nD) : ∀ w, (pdats m 8 c).arrAt w cfg8.N = atTc (T26 m) c (Pipeline.arrRef spec8 w) := fun w => by
  match w with
  | ⟨0, _⟩ =>
    refine (((pdats m 8 c).arrAt_in 0 rfl _).trans (A_eq8 _ c 0)).trans ?_
    show T25 m c (Pipeline.arrRef spec8 0) = Function.update (T25 m c) main_v200 _ (Pipeline.arrRef spec8 0)
    exact (Function.update_of_ne (StableHlo.devRef_ne_of_ne (by decide)) _ _).symm
  | ⟨1, _⟩ =>
    refine (((pdats m 8 c).arrAt_in 1 rfl _).trans (A_eq8 _ c 1)).trans ?_
    show T25 m c (Pipeline.arrRef spec8 1) = Function.update (T25 m c) main_v200 _ (Pipeline.arrRef spec8 1)
    exact (Function.update_of_ne (StableHlo.devRef_ne_of_ne (by decide)) _ _).symm
  | ⟨2, _⟩ =>
    refine (((pdats m 8 c).arrAt_in 2 rfl _).trans (A_eq8 _ c 2)).trans ?_
    show T25 m c (Pipeline.arrRef spec8 2) = Function.update (T25 m c) main_v200 _ (Pipeline.arrRef spec8 2)
    exact (Function.update_of_ne (StableHlo.devRef_ne_of_ne (by decide)) _ _).symm
  | ⟨3, _⟩ =>
    refine (((pdats m 8 c).arrAt_in 3 rfl _).trans (A_eq8 _ c 3)).trans ?_
    show T25 m c (Pipeline.arrRef spec8 3) = Function.update (T25 m c) main_v200 _ (Pipeline.arrRef spec8 3)
    exact (Function.update_of_ne (StableHlo.devRef_ne_of_ne (by decide)) _ _).symm
  | ⟨4, _⟩ =>
    show _ = Function.update (T25 m c) main_v200 _ main_v200
    rw [Function.update_self]
    rfl
/-- Every buffer that is none of region 8's arrays is as at entry. -/
theorem hrest8 (c : Dev nD) : ∀ b, b ∉ Finset.univ.image (Pipeline.arrRef spec8) → atTc (T26 m) c b = atTc (T25 m) c b := fun b hb => by
  unfold atTc T26
  exact Function.update_of_ne (StableHlo.devRef_ne_of_ne (fun e => hb (Finset.mem_image.mpr ⟨4, Finset.mem_univ _, (by decide : Pipeline.arrRef spec8 4 = main_v200).trans e.symm⟩))) _ _
set_option maxHeartbeats 4000000 in
/-- At region 9's exit each input array holds what it held at entry and the output array what the pipeline leaves. -/
theorem hF9 (c : Dev nD) : ∀ w, (pdats m 9 c).arrAt w cfg9.N = atTc (T28 m) c (Pipeline.arrRef spec9 w) := fun w => by
  match w with
  | ⟨0, _⟩ =>
    refine (((pdats m 9 c).arrAt_in 0 rfl _).trans (A_eq9 _ c 0)).trans ?_
    show T27 m c (Pipeline.arrRef spec9 0) = Function.update (T27 m c) main_v234 _ (Pipeline.arrRef spec9 0)
    exact (Function.update_of_ne (StableHlo.devRef_ne_of_ne (by decide)) _ _).symm
  | ⟨1, _⟩ =>
    refine (((pdats m 9 c).arrAt_in 1 rfl _).trans (A_eq9 _ c 1)).trans ?_
    show T27 m c (Pipeline.arrRef spec9 1) = Function.update (T27 m c) main_v234 _ (Pipeline.arrRef spec9 1)
    exact (Function.update_of_ne (StableHlo.devRef_ne_of_ne (by decide)) _ _).symm
  | ⟨2, _⟩ =>
    refine (((pdats m 9 c).arrAt_in 2 rfl _).trans (A_eq9 _ c 2)).trans ?_
    show T27 m c (Pipeline.arrRef spec9 2) = Function.update (T27 m c) main_v234 _ (Pipeline.arrRef spec9 2)
    exact (Function.update_of_ne (StableHlo.devRef_ne_of_ne (by decide)) _ _).symm
  | ⟨3, _⟩ =>
    refine (((pdats m 9 c).arrAt_in 3 rfl _).trans (A_eq9 _ c 3)).trans ?_
    show T27 m c (Pipeline.arrRef spec9 3) = Function.update (T27 m c) main_v234 _ (Pipeline.arrRef spec9 3)
    exact (Function.update_of_ne (StableHlo.devRef_ne_of_ne (by decide)) _ _).symm
  | ⟨4, _⟩ =>
    show _ = Function.update (T27 m c) main_v234 _ main_v234
    rw [Function.update_self]
    rfl
/-- Every buffer that is none of region 9's arrays is as at entry. -/
theorem hrest9 (c : Dev nD) : ∀ b, b ∉ Finset.univ.image (Pipeline.arrRef spec9) → atTc (T28 m) c b = atTc (T27 m) c b := fun b hb => by
  unfold atTc T28
  exact Function.update_of_ne (StableHlo.devRef_ne_of_ne (fun e => hb (Finset.mem_image.mpr ⟨4, Finset.mem_univ _, (by decide : Pipeline.arrRef spec9 4 = main_v234).trans e.symm⟩))) _ _
set_option maxHeartbeats 4000000 in
/-- At region 10's exit each input array holds what it held at entry and the output array what the pipeline leaves. -/
theorem hF10 (c : Dev nD) : ∀ w, (pdats m 10 c).arrAt w cfg10.N = atTc (T30 m) c (Pipeline.arrRef spec10 w) := fun w => by
  match w with
  | ⟨0, _⟩ =>
    refine (((pdats m 10 c).arrAt_in 0 rfl _).trans (A_eq10 _ c 0)).trans ?_
    show T29 m c (Pipeline.arrRef spec10 0) = Function.update (T29 m c) main_v268 _ (Pipeline.arrRef spec10 0)
    exact (Function.update_of_ne (StableHlo.devRef_ne_of_ne (by decide)) _ _).symm
  | ⟨1, _⟩ =>
    refine (((pdats m 10 c).arrAt_in 1 rfl _).trans (A_eq10 _ c 1)).trans ?_
    show T29 m c (Pipeline.arrRef spec10 1) = Function.update (T29 m c) main_v268 _ (Pipeline.arrRef spec10 1)
    exact (Function.update_of_ne (StableHlo.devRef_ne_of_ne (by decide)) _ _).symm
  | ⟨2, _⟩ =>
    refine (((pdats m 10 c).arrAt_in 2 rfl _).trans (A_eq10 _ c 2)).trans ?_
    show T29 m c (Pipeline.arrRef spec10 2) = Function.update (T29 m c) main_v268 _ (Pipeline.arrRef spec10 2)
    exact (Function.update_of_ne (StableHlo.devRef_ne_of_ne (by decide)) _ _).symm
  | ⟨3, _⟩ =>
    refine (((pdats m 10 c).arrAt_in 3 rfl _).trans (A_eq10 _ c 3)).trans ?_
    show T29 m c (Pipeline.arrRef spec10 3) = Function.update (T29 m c) main_v268 _ (Pipeline.arrRef spec10 3)
    exact (Function.update_of_ne (StableHlo.devRef_ne_of_ne (by decide)) _ _).symm
  | ⟨4, _⟩ =>
    show _ = Function.update (T29 m c) main_v268 _ main_v268
    rw [Function.update_self]
    rfl
/-- Every buffer that is none of region 10's arrays is as at entry. -/
theorem hrest10 (c : Dev nD) : ∀ b, b ∉ Finset.univ.image (Pipeline.arrRef spec10) → atTc (T30 m) c b = atTc (T29 m) c b := fun b hb => by
  unfold atTc T30
  exact Function.update_of_ne (StableHlo.devRef_ne_of_ne (fun e => hb (Finset.mem_image.mpr ⟨4, Finset.mem_univ _, (by decide : Pipeline.arrRef spec10 4 = main_v268).trans e.symm⟩))) _ _
set_option maxHeartbeats 4000000 in
/-- At region 11's exit each input array holds what it held at entry and the output array what the pipeline leaves. -/
theorem hF11 (c : Dev nD) : ∀ w, (pdats m 11 c).arrAt w cfg11.N = atTc (T32 m) c (Pipeline.arrRef spec11 w) := fun w => by
  match w with
  | ⟨0, _⟩ =>
    refine (((pdats m 11 c).arrAt_in 0 rfl _).trans (A_eq11 _ c 0)).trans ?_
    show T31 m c (Pipeline.arrRef spec11 0) = Function.update (T31 m c) main_v302 _ (Pipeline.arrRef spec11 0)
    exact (Function.update_of_ne (StableHlo.devRef_ne_of_ne (by decide)) _ _).symm
  | ⟨1, _⟩ =>
    refine (((pdats m 11 c).arrAt_in 1 rfl _).trans (A_eq11 _ c 1)).trans ?_
    show T31 m c (Pipeline.arrRef spec11 1) = Function.update (T31 m c) main_v302 _ (Pipeline.arrRef spec11 1)
    exact (Function.update_of_ne (StableHlo.devRef_ne_of_ne (by decide)) _ _).symm
  | ⟨2, _⟩ =>
    refine (((pdats m 11 c).arrAt_in 2 rfl _).trans (A_eq11 _ c 2)).trans ?_
    show T31 m c (Pipeline.arrRef spec11 2) = Function.update (T31 m c) main_v302 _ (Pipeline.arrRef spec11 2)
    exact (Function.update_of_ne (StableHlo.devRef_ne_of_ne (by decide)) _ _).symm
  | ⟨3, _⟩ =>
    refine (((pdats m 11 c).arrAt_in 3 rfl _).trans (A_eq11 _ c 3)).trans ?_
    show T31 m c (Pipeline.arrRef spec11 3) = Function.update (T31 m c) main_v302 _ (Pipeline.arrRef spec11 3)
    exact (Function.update_of_ne (StableHlo.devRef_ne_of_ne (by decide)) _ _).symm
  | ⟨4, _⟩ =>
    show _ = Function.update (T31 m c) main_v302 _ main_v302
    rw [Function.update_self]
    rfl
/-- Every buffer that is none of region 11's arrays is as at entry. -/
theorem hrest11 (c : Dev nD) : ∀ b, b ∉ Finset.univ.image (Pipeline.arrRef spec11) → atTc (T32 m) c b = atTc (T31 m) c b := fun b hb => by
  unfold atTc T32
  exact Function.update_of_ne (StableHlo.devRef_ne_of_ne (fun e => hb (Finset.mem_image.mpr ⟨4, Finset.mem_univ _, (by decide : Pipeline.arrRef spec11 4 = main_v302).trans e.symm⟩))) _ _
set_option maxHeartbeats 4000000 in
/-- At region 12's exit each input array holds what it held at entry and the output array what the pipeline leaves. -/
theorem hF12 (c : Dev nD) : ∀ w, (pdats m 12 c).arrAt w cfg12.N = atTc (T34 m) c (Pipeline.arrRef spec12 w) := fun w => by
  match w with
  | ⟨0, _⟩ =>
    refine (((pdats m 12 c).arrAt_in 0 rfl _).trans (A_eq12 _ c 0)).trans ?_
    show T33 m c (Pipeline.arrRef spec12 0) = Function.update (T33 m c) main_v313 _ (Pipeline.arrRef spec12 0)
    exact (Function.update_of_ne (StableHlo.devRef_ne_of_ne (by decide)) _ _).symm
  | ⟨1, _⟩ =>
    refine (((pdats m 12 c).arrAt_in 1 rfl _).trans (A_eq12 _ c 1)).trans ?_
    show T33 m c (Pipeline.arrRef spec12 1) = Function.update (T33 m c) main_v313 _ (Pipeline.arrRef spec12 1)
    exact (Function.update_of_ne (StableHlo.devRef_ne_of_ne (by decide)) _ _).symm
  | ⟨2, _⟩ =>
    refine (((pdats m 12 c).arrAt_in 2 rfl _).trans (A_eq12 _ c 2)).trans ?_
    show T33 m c (Pipeline.arrRef spec12 2) = Function.update (T33 m c) main_v313 _ (Pipeline.arrRef spec12 2)
    exact (Function.update_of_ne (StableHlo.devRef_ne_of_ne (by decide)) _ _).symm
  | ⟨3, _⟩ =>
    show _ = Function.update (T33 m c) main_v313 _ main_v313
    rw [Function.update_self]
    rfl
/-- Every buffer that is none of region 12's arrays is as at entry. -/
theorem hrest12 (c : Dev nD) : ∀ b, b ∉ Finset.univ.image (Pipeline.arrRef spec12) → atTc (T34 m) c b = atTc (T33 m) c b := fun b hb => by
  unfold atTc T34
  exact Function.update_of_ne (StableHlo.devRef_ne_of_ne (fun e => hb (Finset.mem_image.mpr ⟨3, Finset.mem_univ _, (by decide : Pipeline.arrRef spec12 3 = main_v313).trans e.symm⟩))) _ _
set_option maxHeartbeats 4000000 in
/-- At region 13's exit each input array holds what it held at entry and the output array what the pipeline leaves. -/
theorem hF13 (c : Dev nD) : ∀ w, (pdats m 13 c).arrAt w cfg13.N = atTc (T36 m) c (Pipeline.arrRef spec13 w) := fun w => by
  match w with
  | ⟨0, _⟩ =>
    refine (((pdats m 13 c).arrAt_in 0 rfl _).trans (A_eq13 _ c 0)).trans ?_
    show T35 m c (Pipeline.arrRef spec13 0) = Function.update (T35 m c) main_v319 _ (Pipeline.arrRef spec13 0)
    exact (Function.update_of_ne (StableHlo.devRef_ne_of_ne (by decide)) _ _).symm
  | ⟨1, _⟩ =>
    refine (((pdats m 13 c).arrAt_in 1 rfl _).trans (A_eq13 _ c 1)).trans ?_
    show T35 m c (Pipeline.arrRef spec13 1) = Function.update (T35 m c) main_v319 _ (Pipeline.arrRef spec13 1)
    exact (Function.update_of_ne (StableHlo.devRef_ne_of_ne (by decide)) _ _).symm
  | ⟨2, _⟩ =>
    refine (((pdats m 13 c).arrAt_in 2 rfl _).trans (A_eq13 _ c 2)).trans ?_
    show T35 m c (Pipeline.arrRef spec13 2) = Function.update (T35 m c) main_v319 _ (Pipeline.arrRef spec13 2)
    exact (Function.update_of_ne (StableHlo.devRef_ne_of_ne (by decide)) _ _).symm
  | ⟨3, _⟩ =>
    show _ = Function.update (T35 m c) main_v319 _ main_v319
    rw [Function.update_self]
    rfl
/-- Every buffer that is none of region 13's arrays is as at entry. -/
theorem hrest13 (c : Dev nD) : ∀ b, b ∉ Finset.univ.image (Pipeline.arrRef spec13) → atTc (T36 m) c b = atTc (T35 m) c b := fun b hb => by
  unfold atTc T36
  exact Function.update_of_ne (StableHlo.devRef_ne_of_ne (fun e => hb (Finset.mem_image.mpr ⟨3, Finset.mem_univ _, (by decide : Pipeline.arrRef spec13 3 = main_v319).trans e.symm⟩))) _ _
set_option maxHeartbeats 4000000 in
/-- At region 14's exit each input array holds what it held at entry and the output array what the pipeline leaves. -/
theorem hF14 (c : Dev nD) : ∀ w, (pdats m 14 c).arrAt w cfg14.N = atTc (T38 m) c (Pipeline.arrRef spec14 w) := fun w => by
  match w with
  | ⟨0, _⟩ =>
    refine (((pdats m 14 c).arrAt_in 0 rfl _).trans (A_eq14 _ c 0)).trans ?_
    show T37 m c (Pipeline.arrRef spec14 0) = Function.update (T37 m c) main_v350 _ (Pipeline.arrRef spec14 0)
    exact (Function.update_of_ne (StableHlo.devRef_ne_of_ne (by decide)) _ _).symm
  | ⟨1, _⟩ =>
    refine (((pdats m 14 c).arrAt_in 1 rfl _).trans (A_eq14 _ c 1)).trans ?_
    show T37 m c (Pipeline.arrRef spec14 1) = Function.update (T37 m c) main_v350 _ (Pipeline.arrRef spec14 1)
    exact (Function.update_of_ne (StableHlo.devRef_ne_of_ne (by decide)) _ _).symm
  | ⟨2, _⟩ =>
    refine (((pdats m 14 c).arrAt_in 2 rfl _).trans (A_eq14 _ c 2)).trans ?_
    show T37 m c (Pipeline.arrRef spec14 2) = Function.update (T37 m c) main_v350 _ (Pipeline.arrRef spec14 2)
    exact (Function.update_of_ne (StableHlo.devRef_ne_of_ne (by decide)) _ _).symm
  | ⟨3, _⟩ =>
    refine (((pdats m 14 c).arrAt_in 3 rfl _).trans (A_eq14 _ c 3)).trans ?_
    show T37 m c (Pipeline.arrRef spec14 3) = Function.update (T37 m c) main_v350 _ (Pipeline.arrRef spec14 3)
    exact (Function.update_of_ne (StableHlo.devRef_ne_of_ne (by decide)) _ _).symm
  | ⟨4, _⟩ =>
    show _ = Function.update (T37 m c) main_v350 _ main_v350
    rw [Function.update_self]
    rfl
/-- Every buffer that is none of region 14's arrays is as at entry. -/
theorem hrest14 (c : Dev nD) : ∀ b, b ∉ Finset.univ.image (Pipeline.arrRef spec14) → atTc (T38 m) c b = atTc (T37 m) c b := fun b hb => by
  unfold atTc T38
  exact Function.update_of_ne (StableHlo.devRef_ne_of_ne (fun e => hb (Finset.mem_image.mpr ⟨4, Finset.mem_univ _, (by decide : Pipeline.arrRef spec14 4 = main_v350).trans e.symm⟩))) _ _
set_option maxHeartbeats 4000000 in
/-- At region 15's exit each input array holds what it held at entry and the output array what the pipeline leaves. -/
theorem hF15 (c : Dev nD) : ∀ w, (pdats m 15 c).arrAt w cfg15.N = atTc (T40 m) c (Pipeline.arrRef spec15 w) := fun w => by
  match w with
  | ⟨0, _⟩ =>
    refine (((pdats m 15 c).arrAt_in 0 rfl _).trans (A_eq15 _ c 0)).trans ?_
    show T39 m c (Pipeline.arrRef spec15 0) = Function.update (T39 m c) main_v384 _ (Pipeline.arrRef spec15 0)
    exact (Function.update_of_ne (StableHlo.devRef_ne_of_ne (by decide)) _ _).symm
  | ⟨1, _⟩ =>
    refine (((pdats m 15 c).arrAt_in 1 rfl _).trans (A_eq15 _ c 1)).trans ?_
    show T39 m c (Pipeline.arrRef spec15 1) = Function.update (T39 m c) main_v384 _ (Pipeline.arrRef spec15 1)
    exact (Function.update_of_ne (StableHlo.devRef_ne_of_ne (by decide)) _ _).symm
  | ⟨2, _⟩ =>
    refine (((pdats m 15 c).arrAt_in 2 rfl _).trans (A_eq15 _ c 2)).trans ?_
    show T39 m c (Pipeline.arrRef spec15 2) = Function.update (T39 m c) main_v384 _ (Pipeline.arrRef spec15 2)
    exact (Function.update_of_ne (StableHlo.devRef_ne_of_ne (by decide)) _ _).symm
  | ⟨3, _⟩ =>
    refine (((pdats m 15 c).arrAt_in 3 rfl _).trans (A_eq15 _ c 3)).trans ?_
    show T39 m c (Pipeline.arrRef spec15 3) = Function.update (T39 m c) main_v384 _ (Pipeline.arrRef spec15 3)
    exact (Function.update_of_ne (StableHlo.devRef_ne_of_ne (by decide)) _ _).symm
  | ⟨4, _⟩ =>
    show _ = Function.update (T39 m c) main_v384 _ main_v384
    rw [Function.update_self]
    rfl
/-- Every buffer that is none of region 15's arrays is as at entry. -/
theorem hrest15 (c : Dev nD) : ∀ b, b ∉ Finset.univ.image (Pipeline.arrRef spec15) → atTc (T40 m) c b = atTc (T39 m) c b := fun b hb => by
  unfold atTc T40
  exact Function.update_of_ne (StableHlo.devRef_ne_of_ne (fun e => hb (Finset.mem_image.mpr ⟨4, Finset.mem_univ _, (by decide : Pipeline.arrRef spec15 4 = main_v384).trans e.symm⟩))) _ _
set_option maxHeartbeats 4000000 in
/-- At region 16's exit each input array holds what it held at entry and the output array what the pipeline leaves. -/
theorem hF16 (c : Dev nD) : ∀ w, (pdats m 16 c).arrAt w cfg16.N = atTc (T42 m) c (Pipeline.arrRef spec16 w) := fun w => by
  match w with
  | ⟨0, _⟩ =>
    refine (((pdats m 16 c).arrAt_in 0 rfl _).trans (A_eq16 _ c 0)).trans ?_
    show T41 m c (Pipeline.arrRef spec16 0) = Function.update (T41 m c) main_v418 _ (Pipeline.arrRef spec16 0)
    exact (Function.update_of_ne (StableHlo.devRef_ne_of_ne (by decide)) _ _).symm
  | ⟨1, _⟩ =>
    refine (((pdats m 16 c).arrAt_in 1 rfl _).trans (A_eq16 _ c 1)).trans ?_
    show T41 m c (Pipeline.arrRef spec16 1) = Function.update (T41 m c) main_v418 _ (Pipeline.arrRef spec16 1)
    exact (Function.update_of_ne (StableHlo.devRef_ne_of_ne (by decide)) _ _).symm
  | ⟨2, _⟩ =>
    refine (((pdats m 16 c).arrAt_in 2 rfl _).trans (A_eq16 _ c 2)).trans ?_
    show T41 m c (Pipeline.arrRef spec16 2) = Function.update (T41 m c) main_v418 _ (Pipeline.arrRef spec16 2)
    exact (Function.update_of_ne (StableHlo.devRef_ne_of_ne (by decide)) _ _).symm
  | ⟨3, _⟩ =>
    refine (((pdats m 16 c).arrAt_in 3 rfl _).trans (A_eq16 _ c 3)).trans ?_
    show T41 m c (Pipeline.arrRef spec16 3) = Function.update (T41 m c) main_v418 _ (Pipeline.arrRef spec16 3)
    exact (Function.update_of_ne (StableHlo.devRef_ne_of_ne (by decide)) _ _).symm
  | ⟨4, _⟩ =>
    show _ = Function.update (T41 m c) main_v418 _ main_v418
    rw [Function.update_self]
    rfl
/-- Every buffer that is none of region 16's arrays is as at entry. -/
theorem hrest16 (c : Dev nD) : ∀ b, b ∉ Finset.univ.image (Pipeline.arrRef spec16) → atTc (T42 m) c b = atTc (T41 m) c b := fun b hb => by
  unfold atTc T42
  exact Function.update_of_ne (StableHlo.devRef_ne_of_ne (fun e => hb (Finset.mem_image.mpr ⟨4, Finset.mem_univ _, (by decide : Pipeline.arrRef spec16 4 = main_v418).trans e.symm⟩))) _ _
set_option maxHeartbeats 4000000 in
/-- At region 17's exit each input array holds what it held at entry and the output array what the pipeline leaves. -/
theorem hF17 (c : Dev nD) : ∀ w, (pdats m 17 c).arrAt w cfg17.N = atTc (T44 m) c (Pipeline.arrRef spec17 w) := fun w => by
  match w with
  | ⟨0, _⟩ =>
    refine (((pdats m 17 c).arrAt_in 0 rfl _).trans (A_eq17 _ c 0)).trans ?_
    show T43 m c (Pipeline.arrRef spec17 0) = Function.update (T43 m c) main_v452 _ (Pipeline.arrRef spec17 0)
    exact (Function.update_of_ne (StableHlo.devRef_ne_of_ne (by decide)) _ _).symm
  | ⟨1, _⟩ =>
    refine (((pdats m 17 c).arrAt_in 1 rfl _).trans (A_eq17 _ c 1)).trans ?_
    show T43 m c (Pipeline.arrRef spec17 1) = Function.update (T43 m c) main_v452 _ (Pipeline.arrRef spec17 1)
    exact (Function.update_of_ne (StableHlo.devRef_ne_of_ne (by decide)) _ _).symm
  | ⟨2, _⟩ =>
    refine (((pdats m 17 c).arrAt_in 2 rfl _).trans (A_eq17 _ c 2)).trans ?_
    show T43 m c (Pipeline.arrRef spec17 2) = Function.update (T43 m c) main_v452 _ (Pipeline.arrRef spec17 2)
    exact (Function.update_of_ne (StableHlo.devRef_ne_of_ne (by decide)) _ _).symm
  | ⟨3, _⟩ =>
    refine (((pdats m 17 c).arrAt_in 3 rfl _).trans (A_eq17 _ c 3)).trans ?_
    show T43 m c (Pipeline.arrRef spec17 3) = Function.update (T43 m c) main_v452 _ (Pipeline.arrRef spec17 3)
    exact (Function.update_of_ne (StableHlo.devRef_ne_of_ne (by decide)) _ _).symm
  | ⟨4, _⟩ =>
    show _ = Function.update (T43 m c) main_v452 _ main_v452
    rw [Function.update_self]
    rfl
/-- Every buffer that is none of region 17's arrays is as at entry. -/
theorem hrest17 (c : Dev nD) : ∀ b, b ∉ Finset.univ.image (Pipeline.arrRef spec17) → atTc (T44 m) c b = atTc (T43 m) c b := fun b hb => by
  unfold atTc T44
  exact Function.update_of_ne (StableHlo.devRef_ne_of_ne (fun e => hb (Finset.mem_image.mpr ⟨4, Finset.mem_univ _, (by decide : Pipeline.arrRef spec17 4 = main_v452).trans e.symm⟩))) _ _
set_option maxHeartbeats 4000000 in
/-- At region 18's exit each input array holds what it held at entry and the output array what the pipeline leaves. -/
theorem hF18 (c : Dev nD) : ∀ w, (pdats m 18 c).arrAt w cfg18.N = atTc (T46 m) c (Pipeline.arrRef spec18 w) := fun w => by
  match w with
  | ⟨0, _⟩ =>
    refine (((pdats m 18 c).arrAt_in 0 rfl _).trans (A_eq18 _ c 0)).trans ?_
    show T45 m c (Pipeline.arrRef spec18 0) = Function.update (T45 m c) main_v463 _ (Pipeline.arrRef spec18 0)
    exact (Function.update_of_ne (StableHlo.devRef_ne_of_ne (by decide)) _ _).symm
  | ⟨1, _⟩ =>
    refine (((pdats m 18 c).arrAt_in 1 rfl _).trans (A_eq18 _ c 1)).trans ?_
    show T45 m c (Pipeline.arrRef spec18 1) = Function.update (T45 m c) main_v463 _ (Pipeline.arrRef spec18 1)
    exact (Function.update_of_ne (StableHlo.devRef_ne_of_ne (by decide)) _ _).symm
  | ⟨2, _⟩ =>
    refine (((pdats m 18 c).arrAt_in 2 rfl _).trans (A_eq18 _ c 2)).trans ?_
    show T45 m c (Pipeline.arrRef spec18 2) = Function.update (T45 m c) main_v463 _ (Pipeline.arrRef spec18 2)
    exact (Function.update_of_ne (StableHlo.devRef_ne_of_ne (by decide)) _ _).symm
  | ⟨3, _⟩ =>
    show _ = Function.update (T45 m c) main_v463 _ main_v463
    rw [Function.update_self]
    rfl
/-- Every buffer that is none of region 18's arrays is as at entry. -/
theorem hrest18 (c : Dev nD) : ∀ b, b ∉ Finset.univ.image (Pipeline.arrRef spec18) → atTc (T46 m) c b = atTc (T45 m) c b := fun b hb => by
  unfold atTc T46
  exact Function.update_of_ne (StableHlo.devRef_ne_of_ne (fun e => hb (Finset.mem_image.mpr ⟨3, Finset.mem_univ _, (by decide : Pipeline.arrRef spec18 3 = main_v463).trans e.symm⟩))) _ _
set_option maxHeartbeats 4000000 in
/-- At region 19's exit each input array holds what it held at entry and the output array what the pipeline leaves. -/
theorem hF19 (c : Dev nD) : ∀ w, (pdats m 19 c).arrAt w cfg19.N = atTc (T48 m) c (Pipeline.arrRef spec19 w) := fun w => by
  match w with
  | ⟨0, _⟩ =>
    refine (((pdats m 19 c).arrAt_in 0 rfl _).trans (A_eq19 _ c 0)).trans ?_
    show T47 m c (Pipeline.arrRef spec19 0) = Function.update (T47 m c) main_v469 _ (Pipeline.arrRef spec19 0)
    exact (Function.update_of_ne (StableHlo.devRef_ne_of_ne (by decide)) _ _).symm
  | ⟨1, _⟩ =>
    refine (((pdats m 19 c).arrAt_in 1 rfl _).trans (A_eq19 _ c 1)).trans ?_
    show T47 m c (Pipeline.arrRef spec19 1) = Function.update (T47 m c) main_v469 _ (Pipeline.arrRef spec19 1)
    exact (Function.update_of_ne (StableHlo.devRef_ne_of_ne (by decide)) _ _).symm
  | ⟨2, _⟩ =>
    refine (((pdats m 19 c).arrAt_in 2 rfl _).trans (A_eq19 _ c 2)).trans ?_
    show T47 m c (Pipeline.arrRef spec19 2) = Function.update (T47 m c) main_v469 _ (Pipeline.arrRef spec19 2)
    exact (Function.update_of_ne (StableHlo.devRef_ne_of_ne (by decide)) _ _).symm
  | ⟨3, _⟩ =>
    show _ = Function.update (T47 m c) main_v469 _ main_v469
    rw [Function.update_self]
    rfl
/-- Every buffer that is none of region 19's arrays is as at entry. -/
theorem hrest19 (c : Dev nD) : ∀ b, b ∉ Finset.univ.image (Pipeline.arrRef spec19) → atTc (T48 m) c b = atTc (T47 m) c b := fun b hb => by
  unfold atTc T48
  exact Function.update_of_ne (StableHlo.devRef_ne_of_ne (fun e => hb (Finset.mem_image.mpr ⟨3, Finset.mem_univ _, (by decide : Pipeline.arrRef spec19 3 = main_v469).trans e.symm⟩))) _ _
set_option maxHeartbeats 4000000 in
/-- At region 20's exit each input array holds what it held at entry and the output array what the pipeline leaves. -/
theorem hF20 (c : Dev nD) : ∀ w, (pdats m 20 c).arrAt w cfg20.N = atTc (T50 m) c (Pipeline.arrRef spec20 w) := fun w => by
  match w with
  | ⟨0, _⟩ =>
    refine (((pdats m 20 c).arrAt_in 0 rfl _).trans (A_eq20 _ c 0)).trans ?_
    show T49 m c (Pipeline.arrRef spec20 0) = Function.update (T49 m c) main_v500 _ (Pipeline.arrRef spec20 0)
    exact (Function.update_of_ne (StableHlo.devRef_ne_of_ne (by decide)) _ _).symm
  | ⟨1, _⟩ =>
    refine (((pdats m 20 c).arrAt_in 1 rfl _).trans (A_eq20 _ c 1)).trans ?_
    show T49 m c (Pipeline.arrRef spec20 1) = Function.update (T49 m c) main_v500 _ (Pipeline.arrRef spec20 1)
    exact (Function.update_of_ne (StableHlo.devRef_ne_of_ne (by decide)) _ _).symm
  | ⟨2, _⟩ =>
    refine (((pdats m 20 c).arrAt_in 2 rfl _).trans (A_eq20 _ c 2)).trans ?_
    show T49 m c (Pipeline.arrRef spec20 2) = Function.update (T49 m c) main_v500 _ (Pipeline.arrRef spec20 2)
    exact (Function.update_of_ne (StableHlo.devRef_ne_of_ne (by decide)) _ _).symm
  | ⟨3, _⟩ =>
    refine (((pdats m 20 c).arrAt_in 3 rfl _).trans (A_eq20 _ c 3)).trans ?_
    show T49 m c (Pipeline.arrRef spec20 3) = Function.update (T49 m c) main_v500 _ (Pipeline.arrRef spec20 3)
    exact (Function.update_of_ne (StableHlo.devRef_ne_of_ne (by decide)) _ _).symm
  | ⟨4, _⟩ =>
    show _ = Function.update (T49 m c) main_v500 _ main_v500
    rw [Function.update_self]
    rfl
/-- Every buffer that is none of region 20's arrays is as at entry. -/
theorem hrest20 (c : Dev nD) : ∀ b, b ∉ Finset.univ.image (Pipeline.arrRef spec20) → atTc (T50 m) c b = atTc (T49 m) c b := fun b hb => by
  unfold atTc T50
  exact Function.update_of_ne (StableHlo.devRef_ne_of_ne (fun e => hb (Finset.mem_image.mpr ⟨4, Finset.mem_univ _, (by decide : Pipeline.arrRef spec20 4 = main_v500).trans e.symm⟩))) _ _
set_option maxHeartbeats 4000000 in
/-- At region 21's exit each input array holds what it held at entry and the output array what the pipeline leaves. -/
theorem hF21 (c : Dev nD) : ∀ w, (pdats m 21 c).arrAt w cfg21.N = atTc (T52 m) c (Pipeline.arrRef spec21 w) := fun w => by
  match w with
  | ⟨0, _⟩ =>
    refine (((pdats m 21 c).arrAt_in 0 rfl _).trans (A_eq21 _ c 0)).trans ?_
    show T51 m c (Pipeline.arrRef spec21 0) = Function.update (T51 m c) main_v534 _ (Pipeline.arrRef spec21 0)
    exact (Function.update_of_ne (StableHlo.devRef_ne_of_ne (by decide)) _ _).symm
  | ⟨1, _⟩ =>
    refine (((pdats m 21 c).arrAt_in 1 rfl _).trans (A_eq21 _ c 1)).trans ?_
    show T51 m c (Pipeline.arrRef spec21 1) = Function.update (T51 m c) main_v534 _ (Pipeline.arrRef spec21 1)
    exact (Function.update_of_ne (StableHlo.devRef_ne_of_ne (by decide)) _ _).symm
  | ⟨2, _⟩ =>
    refine (((pdats m 21 c).arrAt_in 2 rfl _).trans (A_eq21 _ c 2)).trans ?_
    show T51 m c (Pipeline.arrRef spec21 2) = Function.update (T51 m c) main_v534 _ (Pipeline.arrRef spec21 2)
    exact (Function.update_of_ne (StableHlo.devRef_ne_of_ne (by decide)) _ _).symm
  | ⟨3, _⟩ =>
    refine (((pdats m 21 c).arrAt_in 3 rfl _).trans (A_eq21 _ c 3)).trans ?_
    show T51 m c (Pipeline.arrRef spec21 3) = Function.update (T51 m c) main_v534 _ (Pipeline.arrRef spec21 3)
    exact (Function.update_of_ne (StableHlo.devRef_ne_of_ne (by decide)) _ _).symm
  | ⟨4, _⟩ =>
    show _ = Function.update (T51 m c) main_v534 _ main_v534
    rw [Function.update_self]
    rfl
/-- Every buffer that is none of region 21's arrays is as at entry. -/
theorem hrest21 (c : Dev nD) : ∀ b, b ∉ Finset.univ.image (Pipeline.arrRef spec21) → atTc (T52 m) c b = atTc (T51 m) c b := fun b hb => by
  unfold atTc T52
  exact Function.update_of_ne (StableHlo.devRef_ne_of_ne (fun e => hb (Finset.mem_image.mpr ⟨4, Finset.mem_univ _, (by decide : Pipeline.arrRef spec21 4 = main_v534).trans e.symm⟩))) _ _
set_option maxHeartbeats 4000000 in
/-- At region 22's exit each input array holds what it held at entry and the output array what the pipeline leaves. -/
theorem hF22 (c : Dev nD) : ∀ w, (pdats m 22 c).arrAt w cfg22.N = atTc (T54 m) c (Pipeline.arrRef spec22 w) := fun w => by
  match w with
  | ⟨0, _⟩ =>
    refine (((pdats m 22 c).arrAt_in 0 rfl _).trans (A_eq22 _ c 0)).trans ?_
    show T53 m c (Pipeline.arrRef spec22 0) = Function.update (T53 m c) main_v568 _ (Pipeline.arrRef spec22 0)
    exact (Function.update_of_ne (StableHlo.devRef_ne_of_ne (by decide)) _ _).symm
  | ⟨1, _⟩ =>
    refine (((pdats m 22 c).arrAt_in 1 rfl _).trans (A_eq22 _ c 1)).trans ?_
    show T53 m c (Pipeline.arrRef spec22 1) = Function.update (T53 m c) main_v568 _ (Pipeline.arrRef spec22 1)
    exact (Function.update_of_ne (StableHlo.devRef_ne_of_ne (by decide)) _ _).symm
  | ⟨2, _⟩ =>
    refine (((pdats m 22 c).arrAt_in 2 rfl _).trans (A_eq22 _ c 2)).trans ?_
    show T53 m c (Pipeline.arrRef spec22 2) = Function.update (T53 m c) main_v568 _ (Pipeline.arrRef spec22 2)
    exact (Function.update_of_ne (StableHlo.devRef_ne_of_ne (by decide)) _ _).symm
  | ⟨3, _⟩ =>
    refine (((pdats m 22 c).arrAt_in 3 rfl _).trans (A_eq22 _ c 3)).trans ?_
    show T53 m c (Pipeline.arrRef spec22 3) = Function.update (T53 m c) main_v568 _ (Pipeline.arrRef spec22 3)
    exact (Function.update_of_ne (StableHlo.devRef_ne_of_ne (by decide)) _ _).symm
  | ⟨4, _⟩ =>
    show _ = Function.update (T53 m c) main_v568 _ main_v568
    rw [Function.update_self]
    rfl
/-- Every buffer that is none of region 22's arrays is as at entry. -/
theorem hrest22 (c : Dev nD) : ∀ b, b ∉ Finset.univ.image (Pipeline.arrRef spec22) → atTc (T54 m) c b = atTc (T53 m) c b := fun b hb => by
  unfold atTc T54
  exact Function.update_of_ne (StableHlo.devRef_ne_of_ne (fun e => hb (Finset.mem_image.mpr ⟨4, Finset.mem_univ _, (by decide : Pipeline.arrRef spec22 4 = main_v568).trans e.symm⟩))) _ _
set_option maxHeartbeats 4000000 in
/-- At region 23's exit each input array holds what it held at entry and the output array what the pipeline leaves. -/
theorem hF23 (c : Dev nD) : ∀ w, (pdats m 23 c).arrAt w cfg23.N = atTc (T56 m) c (Pipeline.arrRef spec23 w) := fun w => by
  match w with
  | ⟨0, _⟩ =>
    refine (((pdats m 23 c).arrAt_in 0 rfl _).trans (A_eq23 _ c 0)).trans ?_
    show T55 m c (Pipeline.arrRef spec23 0) = Function.update (T55 m c) main_v602 _ (Pipeline.arrRef spec23 0)
    exact (Function.update_of_ne (StableHlo.devRef_ne_of_ne (by decide)) _ _).symm
  | ⟨1, _⟩ =>
    refine (((pdats m 23 c).arrAt_in 1 rfl _).trans (A_eq23 _ c 1)).trans ?_
    show T55 m c (Pipeline.arrRef spec23 1) = Function.update (T55 m c) main_v602 _ (Pipeline.arrRef spec23 1)
    exact (Function.update_of_ne (StableHlo.devRef_ne_of_ne (by decide)) _ _).symm
  | ⟨2, _⟩ =>
    refine (((pdats m 23 c).arrAt_in 2 rfl _).trans (A_eq23 _ c 2)).trans ?_
    show T55 m c (Pipeline.arrRef spec23 2) = Function.update (T55 m c) main_v602 _ (Pipeline.arrRef spec23 2)
    exact (Function.update_of_ne (StableHlo.devRef_ne_of_ne (by decide)) _ _).symm
  | ⟨3, _⟩ =>
    refine (((pdats m 23 c).arrAt_in 3 rfl _).trans (A_eq23 _ c 3)).trans ?_
    show T55 m c (Pipeline.arrRef spec23 3) = Function.update (T55 m c) main_v602 _ (Pipeline.arrRef spec23 3)
    exact (Function.update_of_ne (StableHlo.devRef_ne_of_ne (by decide)) _ _).symm
  | ⟨4, _⟩ =>
    show _ = Function.update (T55 m c) main_v602 _ main_v602
    rw [Function.update_self]
    rfl
/-- Every buffer that is none of region 23's arrays is as at entry. -/
theorem hrest23 (c : Dev nD) : ∀ b, b ∉ Finset.univ.image (Pipeline.arrRef spec23) → atTc (T56 m) c b = atTc (T55 m) c b := fun b hb => by
  unfold atTc T56
  exact Function.update_of_ne (StableHlo.devRef_ne_of_ne (fun e => hb (Finset.mem_image.mpr ⟨4, Finset.mem_univ _, (by decide : Pipeline.arrRef spec23 4 = main_v602).trans e.symm⟩))) _ _
set_option maxHeartbeats 4000000 in
/-- At region 24's exit each input array holds what it held at entry and the output array what the pipeline leaves. -/
theorem hF24 (c : Dev nD) : ∀ w, (pdats m 24 c).arrAt w cfg24.N = atTc (T58 m) c (Pipeline.arrRef spec24 w) := fun w => by
  match w with
  | ⟨0, _⟩ =>
    refine (((pdats m 24 c).arrAt_in 0 rfl _).trans (A_eq24 _ c 0)).trans ?_
    show T57 m c (Pipeline.arrRef spec24 0) = Function.update (T57 m c) main_v613 _ (Pipeline.arrRef spec24 0)
    exact (Function.update_of_ne (StableHlo.devRef_ne_of_ne (by decide)) _ _).symm
  | ⟨1, _⟩ =>
    refine (((pdats m 24 c).arrAt_in 1 rfl _).trans (A_eq24 _ c 1)).trans ?_
    show T57 m c (Pipeline.arrRef spec24 1) = Function.update (T57 m c) main_v613 _ (Pipeline.arrRef spec24 1)
    exact (Function.update_of_ne (StableHlo.devRef_ne_of_ne (by decide)) _ _).symm
  | ⟨2, _⟩ =>
    refine (((pdats m 24 c).arrAt_in 2 rfl _).trans (A_eq24 _ c 2)).trans ?_
    show T57 m c (Pipeline.arrRef spec24 2) = Function.update (T57 m c) main_v613 _ (Pipeline.arrRef spec24 2)
    exact (Function.update_of_ne (StableHlo.devRef_ne_of_ne (by decide)) _ _).symm
  | ⟨3, _⟩ =>
    show _ = Function.update (T57 m c) main_v613 _ main_v613
    rw [Function.update_self]
    rfl
/-- Every buffer that is none of region 24's arrays is as at entry. -/
theorem hrest24 (c : Dev nD) : ∀ b, b ∉ Finset.univ.image (Pipeline.arrRef spec24) → atTc (T58 m) c b = atTc (T57 m) c b := fun b hb => by
  unfold atTc T58
  exact Function.update_of_ne (StableHlo.devRef_ne_of_ne (fun e => hb (Finset.mem_image.mpr ⟨3, Finset.mem_univ _, (by decide : Pipeline.arrRef spec24 3 = main_v613).trans e.symm⟩))) _ _
set_option maxHeartbeats 4000000 in
/-- At region 25's exit each input array holds what it held at entry and the output array what the pipeline leaves. -/
theorem hF25 (c : Dev nD) : ∀ w, (pdats m 25 c).arrAt w cfg25.N = atTc (T60 m) c (Pipeline.arrRef spec25 w) := fun w => by
  match w with
  | ⟨0, _⟩ =>
    refine (((pdats m 25 c).arrAt_in 0 rfl _).trans (A_eq25 _ c 0)).trans ?_
    show T59 m c (Pipeline.arrRef spec25 0) = Function.update (T59 m c) main_v619 _ (Pipeline.arrRef spec25 0)
    exact (Function.update_of_ne (StableHlo.devRef_ne_of_ne (by decide)) _ _).symm
  | ⟨1, _⟩ =>
    refine (((pdats m 25 c).arrAt_in 1 rfl _).trans (A_eq25 _ c 1)).trans ?_
    show T59 m c (Pipeline.arrRef spec25 1) = Function.update (T59 m c) main_v619 _ (Pipeline.arrRef spec25 1)
    exact (Function.update_of_ne (StableHlo.devRef_ne_of_ne (by decide)) _ _).symm
  | ⟨2, _⟩ =>
    refine (((pdats m 25 c).arrAt_in 2 rfl _).trans (A_eq25 _ c 2)).trans ?_
    show T59 m c (Pipeline.arrRef spec25 2) = Function.update (T59 m c) main_v619 _ (Pipeline.arrRef spec25 2)
    exact (Function.update_of_ne (StableHlo.devRef_ne_of_ne (by decide)) _ _).symm
  | ⟨3, _⟩ =>
    show _ = Function.update (T59 m c) main_v619 _ main_v619
    rw [Function.update_self]
    rfl
/-- Every buffer that is none of region 25's arrays is as at entry. -/
theorem hrest25 (c : Dev nD) : ∀ b, b ∉ Finset.univ.image (Pipeline.arrRef spec25) → atTc (T60 m) c b = atTc (T59 m) c b := fun b hb => by
  unfold atTc T60
  exact Function.update_of_ne (StableHlo.devRef_ne_of_ne (fun e => hb (Finset.mem_image.mpr ⟨3, Finset.mem_univ _, (by decide : Pipeline.arrRef spec25 3 = main_v619).trans e.symm⟩))) _ _

end Cert.Kernel.Hand

end
-- ==== Proof.K.Reg0.lean ====
/-
  Region 0's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0: entered from every unscoped buffer at the valuation before it, left at the one after it; its arrays split out
    of the unscoped buffers at entry and put back at exit; the generator register into the pipeline's invariant and out;
    nothing owed; no semaphore of the kernel's own. -/
noncomputable def reg0 : Pipeline.RegionSeg (pcfgs (F := F)) GenP.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (T9 m)) c).loose
  hwaits := Pipeline.hwaits_of_owed_zero _ _ _ _ L lv 0 fun _ _ => rfl
  pre c := iprop(StableHlo.held (c : Thread nD τ) (Pipeline.ucRefs τ sig) (T9 m c) ∗ Rr c)
  post c := iprop(StableHlo.held (c : Thread nD τ) (Pipeline.ucRefs τ sig) (T10 m c) ∗ Rr c)
  X c := iprop(∃ r, prngReg c r)
  Y c := iprop(∃ r, prngReg c r)
  Z c := Pipeline.unscopedRest (Ix := Unit) (Name := ℕ) (U := UR sig nD τ) (Lvl := ℕ) spec0 c (atTc (T9 m) c)
  hentry c := by
    rw [Pipeline.ownSems0_none]
    have hsplit := Pipeline.arrays_of_unscopedBufs (p := 0) (pcfgs (F := F)) GenP.adm (pdats m) launch0.win launch0.arr_whole c
      ((pdats m 0 c).share_full fun _ => rfl) (atTc (T9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats m) ((pdats m 0 c).share_full fun _ => rfl)
      (atTc (T9 m) c) (atTc (T10 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg1.lean ====
/-
  Region 1's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 1: entered from every unscoped buffer at the valuation before it, left at the one after it; its arrays split out
    of the unscoped buffers at entry and put back at exit; the generator register into the pipeline's invariant and out;
    nothing owed; no semaphore of the kernel's own. -/
noncomputable def reg1 : Pipeline.RegionSeg (pcfgs (F := F)) GenP.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (T11 m)) c).loose
  hwaits := Pipeline.hwaits_of_owed_zero _ _ _ _ L lv 1 fun _ _ => rfl
  pre c := iprop(StableHlo.held (c : Thread nD τ) (Pipeline.ucRefs τ sig) (T11 m c) ∗ Rr c)
  post c := iprop(StableHlo.held (c : Thread nD τ) (Pipeline.ucRefs τ sig) (T12 m c) ∗ Rr c)
  X c := iprop(∃ r, prngReg c r)
  Y c := iprop(∃ r, prngReg c r)
  Z c := Pipeline.unscopedRest (Ix := Unit) (Name := ℕ) (U := UR sig nD τ) (Lvl := ℕ) spec1 c (atTc (T11 m) c)
  hentry c := by
    rw [Pipeline.ownSems0_none]
    have hsplit := Pipeline.arrays_of_unscopedBufs (p := 1) (pcfgs (F := F)) GenP.adm (pdats m) launch1.win launch1.arr_whole c
      ((pdats m 1 c).share_full fun _ => rfl) (atTc (T11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats m) ((pdats m 1 c).share_full fun _ => rfl)
      (atTc (T11 m) c) (atTc (T12 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg2.lean ====
/-
  Region 2's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 2: entered from every unscoped buffer at the valuation before it, left at the one after it; its arrays split out
    of the unscoped buffers at entry and put back at exit; the generator register into the pipeline's invariant and out;
    nothing owed; no semaphore of the kernel's own. -/
noncomputable def reg2 : Pipeline.RegionSeg (pcfgs (F := F)) GenP.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (T13 m)) c).loose
  hwaits := Pipeline.hwaits_of_owed_zero _ _ _ _ L lv 2 fun _ _ => rfl
  pre c := iprop(StableHlo.held (c : Thread nD τ) (Pipeline.ucRefs τ sig) (T13 m c) ∗ Rr c)
  post c := iprop(StableHlo.held (c : Thread nD τ) (Pipeline.ucRefs τ sig) (T14 m c) ∗ Rr c)
  X c := iprop(∃ r, prngReg c r)
  Y c := iprop(∃ r, prngReg c r)
  Z c := Pipeline.unscopedRest (Ix := Unit) (Name := ℕ) (U := UR sig nD τ) (Lvl := ℕ) spec2 c (atTc (T13 m) c)
  hentry c := by
    rw [Pipeline.ownSems0_none]
    have hsplit := Pipeline.arrays_of_unscopedBufs (p := 2) (pcfgs (F := F)) GenP.adm (pdats m) launch2.win launch2.arr_whole c
      ((pdats m 2 c).share_full fun _ => rfl) (atTc (T13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) GenP.adm (Ix := Unit) (Name := ℕ) (U := UR sig nD τ) (Lvl := ℕ)
      launch2.win launch2.arr_whole c (pdats m) ((pdats m 2 c).share_full fun _ => rfl)
      (atTc (T13 m) c) (atTc (T14 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg3.lean ====
/-
  Region 3's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 3: entered from every unscoped buffer at the valuation before it, left at the one after it; its arrays split out
    of the unscoped buffers at entry and put back at exit; the generator register into the pipeline's invariant and out;
    nothing owed; no semaphore of the kernel's own. -/
noncomputable def reg3 : Pipeline.RegionSeg (pcfgs (F := F)) GenP.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (T15 m)) c).loose
  hwaits := Pipeline.hwaits_of_owed_zero _ _ _ _ L lv 3 fun _ _ => rfl
  pre c := iprop(StableHlo.held (c : Thread nD τ) (Pipeline.ucRefs τ sig) (T15 m c) ∗ Rr c)
  post c := iprop(StableHlo.held (c : Thread nD τ) (Pipeline.ucRefs τ sig) (T16 m c) ∗ Rr c)
  X c := iprop(∃ r, prngReg c r)
  Y c := iprop(∃ r, prngReg c r)
  Z c := Pipeline.unscopedRest (Ix := Unit) (Name := ℕ) (U := UR sig nD τ) (Lvl := ℕ) spec3 c (atTc (T15 m) c)
  hentry c := by
    rw [Pipeline.ownSems0_none]
    have hsplit := Pipeline.arrays_of_unscopedBufs (p := 3) (pcfgs (F := F)) GenP.adm (pdats m) launch3.win launch3.arr_whole c
      ((pdats m 3 c).share_full fun _ => rfl) (atTc (T15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) GenP.adm (Ix := Unit) (Name := ℕ) (U := UR sig nD τ) (Lvl := ℕ)
      launch3.win launch3.arr_whole c (pdats m) ((pdats m 3 c).share_full fun _ => rfl)
      (atTc (T15 m) c) (atTc (T16 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg4.lean ====
/-
  Region 4's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 4: entered from every unscoped buffer at the valuation before it, left at the one after it; its arrays split out
    of the unscoped buffers at entry and put back at exit; the generator register into the pipeline's invariant and out;
    nothing owed; no semaphore of the kernel's own. -/
noncomputable def reg4 : Pipeline.RegionSeg (pcfgs (F := F)) GenP.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atTc (T17 m)) c).loose
  hwaits := Pipeline.hwaits_of_owed_zero _ _ _ _ L lv 4 fun _ _ => rfl
  pre c := iprop(StableHlo.held (c : Thread nD τ) (Pipeline.ucRefs τ sig) (T17 m c) ∗ Rr c)
  post c := iprop(StableHlo.held (c : Thread nD τ) (Pipeline.ucRefs τ sig) (T18 m c) ∗ Rr c)
  X c := iprop(∃ r, prngReg c r)
  Y c := iprop(∃ r, prngReg c r)
  Z c := Pipeline.unscopedRest (Ix := Unit) (Name := ℕ) (U := UR sig nD τ) (Lvl := ℕ) spec4 c (atTc (T17 m) c)
  hentry c := by
    rw [Pipeline.ownSems0_none]
    have hsplit := Pipeline.arrays_of_unscopedBufs (p := 4) (pcfgs (F := F)) GenP.adm (pdats m) launch4.win launch4.arr_whole c
      ((pdats m 4 c).share_full fun _ => rfl) (atTc (T17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) GenP.adm (Ix := Unit) (Name := ℕ) (U := UR sig nD τ) (Lvl := ℕ)
      launch4.win launch4.arr_whole c (pdats m) ((pdats m 4 c).share_full fun _ => rfl)
      (atTc (T17 m) c) (atTc (T18 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg5.lean ====
/-
  Region 5's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 5: entered from every unscoped buffer at the valuation before it, left at the one after it; its arrays split out
    of the unscoped buffers at entry and put back at exit; the generator register into the pipeline's invariant and out;
    nothing owed; no semaphore of the kernel's own. -/
noncomputable def reg5 : Pipeline.RegionSeg (pcfgs (F := F)) GenP.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atTc (T19 m)) c).loose
  hwaits := Pipeline.hwaits_of_owed_zero _ _ _ _ L lv 5 fun _ _ => rfl
  pre c := iprop(StableHlo.held (c : Thread nD τ) (Pipeline.ucRefs τ sig) (T19 m c) ∗ Rr c)
  post c := iprop(StableHlo.held (c : Thread nD τ) (Pipeline.ucRefs τ sig) (T20 m c) ∗ Rr c)
  X c := iprop(∃ r, prngReg c r)
  Y c := iprop(∃ r, prngReg c r)
  Z c := Pipeline.unscopedRest (Ix := Unit) (Name := ℕ) (U := UR sig nD τ) (Lvl := ℕ) spec5 c (atTc (T19 m) c)
  hentry c := by
    rw [Pipeline.ownSems0_none]
    have hsplit := Pipeline.arrays_of_unscopedBufs (p := 5) (pcfgs (F := F)) GenP.adm (pdats m) launch5.win launch5.arr_whole c
      ((pdats m 5 c).share_full fun _ => rfl) (atTc (T19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) GenP.adm (Ix := Unit) (Name := ℕ) (U := UR sig nD τ) (Lvl := ℕ)
      launch5.win launch5.arr_whole c (pdats m) ((pdats m 5 c).share_full fun _ => rfl)
      (atTc (T19 m) c) (atTc (T20 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg6.lean ====
/-
  Region 6's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 6: entered from every unscoped buffer at the valuation before it, left at the one after it; its arrays split out
    of the unscoped buffers at entry and put back at exit; the generator register into the pipeline's invariant and out;
    nothing owed; no semaphore of the kernel's own. -/
noncomputable def reg6 : Pipeline.RegionSeg (pcfgs (F := F)) GenP.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (atTc (T21 m)) c).loose
  hwaits := Pipeline.hwaits_of_owed_zero _ _ _ _ L lv 6 fun _ _ => rfl
  pre c := iprop(StableHlo.held (c : Thread nD τ) (Pipeline.ucRefs τ sig) (T21 m c) ∗ Rr c)
  post c := iprop(StableHlo.held (c : Thread nD τ) (Pipeline.ucRefs τ sig) (T22 m c) ∗ Rr c)
  X c := iprop(∃ r, prngReg c r)
  Y c := iprop(∃ r, prngReg c r)
  Z c := Pipeline.unscopedRest (Ix := Unit) (Name := ℕ) (U := UR sig nD τ) (Lvl := ℕ) spec6 c (atTc (T21 m) c)
  hentry c := by
    rw [Pipeline.ownSems0_none]
    have hsplit := Pipeline.arrays_of_unscopedBufs (p := 6) (pcfgs (F := F)) GenP.adm (pdats m) launch6.win launch6.arr_whole c
      ((pdats m 6 c).share_full fun _ => rfl) (atTc (T21 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) GenP.adm (Ix := Unit) (Name := ℕ) (U := UR sig nD τ) (Lvl := ℕ)
      launch6.win launch6.arr_whole c (pdats m) ((pdats m 6 c).share_full fun _ => rfl)
      (atTc (T21 m) c) (atTc (T22 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg7.lean ====
/-
  Region 7's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 7: entered from every unscoped buffer at the valuation before it, left at the one after it; its arrays split out
    of the unscoped buffers at entry and put back at exit; the generator register into the pipeline's invariant and out;
    nothing owed; no semaphore of the kernel's own. -/
noncomputable def reg7 : Pipeline.RegionSeg (pcfgs (F := F)) GenP.adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (atTc (T23 m)) c).loose
  hwaits := Pipeline.hwaits_of_owed_zero _ _ _ _ L lv 7 fun _ _ => rfl
  pre c := iprop(StableHlo.held (c : Thread nD τ) (Pipeline.ucRefs τ sig) (T23 m c) ∗ Rr c)
  post c := iprop(StableHlo.held (c : Thread nD τ) (Pipeline.ucRefs τ sig) (T24 m c) ∗ Rr c)
  X c := iprop(∃ r, prngReg c r)
  Y c := iprop(∃ r, prngReg c r)
  Z c := Pipeline.unscopedRest (Ix := Unit) (Name := ℕ) (U := UR sig nD τ) (Lvl := ℕ) spec7 c (atTc (T23 m) c)
  hentry c := by
    rw [Pipeline.ownSems0_none]
    have hsplit := Pipeline.arrays_of_unscopedBufs (p := 7) (pcfgs (F := F)) GenP.adm (pdats m) launch7.win launch7.arr_whole c
      ((pdats m 7 c).share_full fun _ => rfl) (atTc (T23 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) GenP.adm (Ix := Unit) (Name := ℕ) (U := UR sig nD τ) (Lvl := ℕ)
      launch7.win launch7.arr_whole c (pdats m) ((pdats m 7 c).share_full fun _ => rfl)
      (atTc (T23 m) c) (atTc (T24 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg8.lean ====
/-
  Region 8's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 8: entered from every unscoped buffer at the valuation before it, left at the one after it; its arrays split out
    of the unscoped buffers at entry and put back at exit; the generator register into the pipeline's invariant and out;
    nothing owed; no semaphore of the kernel's own. -/
noncomputable def reg8 : Pipeline.RegionSeg (pcfgs (F := F)) GenP.adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (atTc (T25 m)) c).loose
  hwaits := Pipeline.hwaits_of_owed_zero _ _ _ _ L lv 8 fun _ _ => rfl
  pre c := iprop(StableHlo.held (c : Thread nD τ) (Pipeline.ucRefs τ sig) (T25 m c) ∗ Rr c)
  post c := iprop(StableHlo.held (c : Thread nD τ) (Pipeline.ucRefs τ sig) (T26 m c) ∗ Rr c)
  X c := iprop(∃ r, prngReg c r)
  Y c := iprop(∃ r, prngReg c r)
  Z c := Pipeline.unscopedRest (Ix := Unit) (Name := ℕ) (U := UR sig nD τ) (Lvl := ℕ) spec8 c (atTc (T25 m) c)
  hentry c := by
    rw [Pipeline.ownSems0_none]
    have hsplit := Pipeline.arrays_of_unscopedBufs (p := 8) (pcfgs (F := F)) GenP.adm (pdats m) launch8.win launch8.arr_whole c
      ((pdats m 8 c).share_full fun _ => rfl) (atTc (T25 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) GenP.adm (Ix := Unit) (Name := ℕ) (U := UR sig nD τ) (Lvl := ℕ)
      launch8.win launch8.arr_whole c (pdats m) ((pdats m 8 c).share_full fun _ => rfl)
      (atTc (T25 m) c) (atTc (T26 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg9.lean ====
/-
  Region 9's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 9: entered from every unscoped buffer at the valuation before it, left at the one after it; its arrays split out
    of the unscoped buffers at entry and put back at exit; the generator register into the pipeline's invariant and out;
    nothing owed; no semaphore of the kernel's own. -/
noncomputable def reg9 : Pipeline.RegionSeg (pcfgs (F := F)) GenP.adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (atTc (T27 m)) c).loose
  hwaits := Pipeline.hwaits_of_owed_zero _ _ _ _ L lv 9 fun _ _ => rfl
  pre c := iprop(StableHlo.held (c : Thread nD τ) (Pipeline.ucRefs τ sig) (T27 m c) ∗ Rr c)
  post c := iprop(StableHlo.held (c : Thread nD τ) (Pipeline.ucRefs τ sig) (T28 m c) ∗ Rr c)
  X c := iprop(∃ r, prngReg c r)
  Y c := iprop(∃ r, prngReg c r)
  Z c := Pipeline.unscopedRest (Ix := Unit) (Name := ℕ) (U := UR sig nD τ) (Lvl := ℕ) spec9 c (atTc (T27 m) c)
  hentry c := by
    rw [Pipeline.ownSems0_none]
    have hsplit := Pipeline.arrays_of_unscopedBufs (p := 9) (pcfgs (F := F)) GenP.adm (pdats m) launch9.win launch9.arr_whole c
      ((pdats m 9 c).share_full fun _ => rfl) (atTc (T27 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) GenP.adm (Ix := Unit) (Name := ℕ) (U := UR sig nD τ) (Lvl := ℕ)
      launch9.win launch9.arr_whole c (pdats m) ((pdats m 9 c).share_full fun _ => rfl)
      (atTc (T27 m) c) (atTc (T28 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg10.lean ====
/-
  Region 10's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 10: entered from every unscoped buffer at the valuation before it, left at the one after it; its arrays split out
    of the unscoped buffers at entry and put back at exit; the generator register into the pipeline's invariant and out;
    nothing owed; no semaphore of the kernel's own. -/
noncomputable def reg10 : Pipeline.RegionSeg (pcfgs (F := F)) GenP.adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (atTc (T29 m)) c).loose
  hwaits := Pipeline.hwaits_of_owed_zero _ _ _ _ L lv 10 fun _ _ => rfl
  pre c := iprop(StableHlo.held (c : Thread nD τ) (Pipeline.ucRefs τ sig) (T29 m c) ∗ Rr c)
  post c := iprop(StableHlo.held (c : Thread nD τ) (Pipeline.ucRefs τ sig) (T30 m c) ∗ Rr c)
  X c := iprop(∃ r, prngReg c r)
  Y c := iprop(∃ r, prngReg c r)
  Z c := Pipeline.unscopedRest (Ix := Unit) (Name := ℕ) (U := UR sig nD τ) (Lvl := ℕ) spec10 c (atTc (T29 m) c)
  hentry c := by
    rw [Pipeline.ownSems0_none]
    have hsplit := Pipeline.arrays_of_unscopedBufs (p := 10) (pcfgs (F := F)) GenP.adm (pdats m) launch10.win launch10.arr_whole c
      ((pdats m 10 c).share_full fun _ => rfl) (atTc (T29 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) GenP.adm (Ix := Unit) (Name := ℕ) (U := UR sig nD τ) (Lvl := ℕ)
      launch10.win launch10.arr_whole c (pdats m) ((pdats m 10 c).share_full fun _ => rfl)
      (atTc (T29 m) c) (atTc (T30 m) c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg11.lean ====
/-
  Region 11's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 11: entered from every unscoped buffer at the valuation before it, left at the one after it; its arrays split out
    of the unscoped buffers at entry and put back at exit; the generator register into the pipeline's invariant and out;
    nothing owed; no semaphore of the kernel's own. -/
noncomputable def reg11 : Pipeline.RegionSeg (pcfgs (F := F)) GenP.adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (atTc (T31 m)) c).loose
  hwaits := Pipeline.hwaits_of_owed_zero _ _ _ _ L lv 11 fun _ _ => rfl
  pre c := iprop(StableHlo.held (c : Thread nD τ) (Pipeline.ucRefs τ sig) (T31 m c) ∗ Rr c)
  post c := iprop(StableHlo.held (c : Thread nD τ) (Pipeline.ucRefs τ sig) (T32 m c) ∗ Rr c)
  X c := iprop(∃ r, prngReg c r)
  Y c := iprop(∃ r, prngReg c r)
  Z c := Pipeline.unscopedRest (Ix := Unit) (Name := ℕ) (U := UR sig nD τ) (Lvl := ℕ) spec11 c (atTc (T31 m) c)
  hentry c := by
    rw [Pipeline.ownSems0_none]
    have hsplit := Pipeline.arrays_of_unscopedBufs (p := 11) (pcfgs (F := F)) GenP.adm (pdats m) launch11.win launch11.arr_whole c
      ((pdats m 11 c).share_full fun _ => rfl) (atTc (T31 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) GenP.adm (Ix := Unit) (Name := ℕ) (U := UR sig nD τ) (Lvl := ℕ)
      launch11.win launch11.arr_whole c (pdats m) ((pdats m 11 c).share_full fun _ => rfl)
      (atTc (T31 m) c) (atTc (T32 m) c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg12.lean ====
/-
  Region 12's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 12: entered from every unscoped buffer at the valuation before it, left at the one after it; its arrays split out
    of the unscoped buffers at entry and put back at exit; the generator register into the pipeline's invariant and out;
    nothing owed; no semaphore of the kernel's own. -/
noncomputable def reg12 : Pipeline.RegionSeg (pcfgs (F := F)) GenP.adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (atTc (T33 m)) c).loose
  hwaits := Pipeline.hwaits_of_owed_zero _ _ _ _ L lv 12 fun _ _ => rfl
  pre c := iprop(StableHlo.held (c : Thread nD τ) (Pipeline.ucRefs τ sig) (T33 m c) ∗ Rr c)
  post c := iprop(StableHlo.held (c : Thread nD τ) (Pipeline.ucRefs τ sig) (T34 m c) ∗ Rr c)
  X c := iprop(∃ r, prngReg c r)
  Y c := iprop(∃ r, prngReg c r)
  Z c := Pipeline.unscopedRest (Ix := Unit) (Name := ℕ) (U := UR sig nD τ) (Lvl := ℕ) spec12 c (atTc (T33 m) c)
  hentry c := by
    rw [Pipeline.ownSems0_none]
    have hsplit := Pipeline.arrays_of_unscopedBufs (p := 12) (pcfgs (F := F)) GenP.adm (pdats m) launch12.win launch12.arr_whole c
      ((pdats m 12 c).share_full fun _ => rfl) (atTc (T33 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) GenP.adm (Ix := Unit) (Name := ℕ) (U := UR sig nD τ) (Lvl := ℕ)
      launch12.win launch12.arr_whole c (pdats m) ((pdats m 12 c).share_full fun _ => rfl)
      (atTc (T33 m) c) (atTc (T34 m) c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg13.lean ====
/-
  Region 13's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 13: entered from every unscoped buffer at the valuation before it, left at the one after it; its arrays split out
    of the unscoped buffers at entry and put back at exit; the generator register into the pipeline's invariant and out;
    nothing owed; no semaphore of the kernel's own. -/
noncomputable def reg13 : Pipeline.RegionSeg (pcfgs (F := F)) GenP.adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (atTc (T35 m)) c).loose
  hwaits := Pipeline.hwaits_of_owed_zero _ _ _ _ L lv 13 fun _ _ => rfl
  pre c := iprop(StableHlo.held (c : Thread nD τ) (Pipeline.ucRefs τ sig) (T35 m c) ∗ Rr c)
  post c := iprop(StableHlo.held (c : Thread nD τ) (Pipeline.ucRefs τ sig) (T36 m c) ∗ Rr c)
  X c := iprop(∃ r, prngReg c r)
  Y c := iprop(∃ r, prngReg c r)
  Z c := Pipeline.unscopedRest (Ix := Unit) (Name := ℕ) (U := UR sig nD τ) (Lvl := ℕ) spec13 c (atTc (T35 m) c)
  hentry c := by
    rw [Pipeline.ownSems0_none]
    have hsplit := Pipeline.arrays_of_unscopedBufs (p := 13) (pcfgs (F := F)) GenP.adm (pdats m) launch13.win launch13.arr_whole c
      ((pdats m 13 c).share_full fun _ => rfl) (atTc (T35 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) GenP.adm (Ix := Unit) (Name := ℕ) (U := UR sig nD τ) (Lvl := ℕ)
      launch13.win launch13.arr_whole c (pdats m) ((pdats m 13 c).share_full fun _ => rfl)
      (atTc (T35 m) c) (atTc (T36 m) c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg14.lean ====
/-
  Region 14's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 14: entered from every unscoped buffer at the valuation before it, left at the one after it; its arrays split out
    of the unscoped buffers at entry and put back at exit; the generator register into the pipeline's invariant and out;
    nothing owed; no semaphore of the kernel's own. -/
noncomputable def reg14 : Pipeline.RegionSeg (pcfgs (F := F)) GenP.adm (pdats m) () defs₀ 𝒱₀ L lv 14 where
  win := launch14.win.to₀
  block_pos := launch14.block_pos
  stage_whole := launch14.stage_whole
  K := PEmpty
  osem k := k.elim
  ho := Pipeline.OwnSemFacts.none _
  hbody c := (body_obligation14 (atTc (T37 m)) c).loose
  hwaits := Pipeline.hwaits_of_owed_zero _ _ _ _ L lv 14 fun _ _ => rfl
  pre c := iprop(StableHlo.held (c : Thread nD τ) (Pipeline.ucRefs τ sig) (T37 m c) ∗ Rr c)
  post c := iprop(StableHlo.held (c : Thread nD τ) (Pipeline.ucRefs τ sig) (T38 m c) ∗ Rr c)
  X c := iprop(∃ r, prngReg c r)
  Y c := iprop(∃ r, prngReg c r)
  Z c := Pipeline.unscopedRest (Ix := Unit) (Name := ℕ) (U := UR sig nD τ) (Lvl := ℕ) spec14 c (atTc (T37 m) c)
  hentry c := by
    rw [Pipeline.ownSems0_none]
    have hsplit := Pipeline.arrays_of_unscopedBufs (p := 14) (pcfgs (F := F)) GenP.adm (pdats m) launch14.win launch14.arr_whole c
      ((pdats m 14 c).share_full fun _ => rfl) (atTc (T37 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) GenP.adm (Ix := Unit) (Name := ℕ) (U := UR sig nD τ) (Lvl := ℕ)
      launch14.win launch14.arr_whole c (pdats m) ((pdats m 14 c).share_full fun _ => rfl)
      (atTc (T37 m) c) (atTc (T38 m) c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg15.lean ====
/-
  Region 15's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 15: entered from every unscoped buffer at the valuation before it, left at the one after it; its arrays split out
    of the unscoped buffers at entry and put back at exit; the generator register into the pipeline's invariant and out;
    nothing owed; no semaphore of the kernel's own. -/
noncomputable def reg15 : Pipeline.RegionSeg (pcfgs (F := F)) GenP.adm (pdats m) () defs₀ 𝒱₀ L lv 15 where
  win := launch15.win.to₀
  block_pos := launch15.block_pos
  stage_whole := launch15.stage_whole
  K := PEmpty
  osem k := k.elim
  ho := Pipeline.OwnSemFacts.none _
  hbody c := (body_obligation15 (atTc (T39 m)) c).loose
  hwaits := Pipeline.hwaits_of_owed_zero _ _ _ _ L lv 15 fun _ _ => rfl
  pre c := iprop(StableHlo.held (c : Thread nD τ) (Pipeline.ucRefs τ sig) (T39 m c) ∗ Rr c)
  post c := iprop(StableHlo.held (c : Thread nD τ) (Pipeline.ucRefs τ sig) (T40 m c) ∗ Rr c)
  X c := iprop(∃ r, prngReg c r)
  Y c := iprop(∃ r, prngReg c r)
  Z c := Pipeline.unscopedRest (Ix := Unit) (Name := ℕ) (U := UR sig nD τ) (Lvl := ℕ) spec15 c (atTc (T39 m) c)
  hentry c := by
    rw [Pipeline.ownSems0_none]
    have hsplit := Pipeline.arrays_of_unscopedBufs (p := 15) (pcfgs (F := F)) GenP.adm (pdats m) launch15.win launch15.arr_whole c
      ((pdats m 15 c).share_full fun _ => rfl) (atTc (T39 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) GenP.adm (Ix := Unit) (Name := ℕ) (U := UR sig nD τ) (Lvl := ℕ)
      launch15.win launch15.arr_whole c (pdats m) ((pdats m 15 c).share_full fun _ => rfl)
      (atTc (T39 m) c) (atTc (T40 m) c) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg16.lean ====
/-
  Region 16's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 16: entered from every unscoped buffer at the valuation before it, left at the one after it; its arrays split out
    of the unscoped buffers at entry and put back at exit; the generator register into the pipeline's invariant and out;
    nothing owed; no semaphore of the kernel's own. -/
noncomputable def reg16 : Pipeline.RegionSeg (pcfgs (F := F)) GenP.adm (pdats m) () defs₀ 𝒱₀ L lv 16 where
  win := launch16.win.to₀
  block_pos := launch16.block_pos
  stage_whole := launch16.stage_whole
  K := PEmpty
  osem k := k.elim
  ho := Pipeline.OwnSemFacts.none _
  hbody c := (body_obligation16 (atTc (T41 m)) c).loose
  hwaits := Pipeline.hwaits_of_owed_zero _ _ _ _ L lv 16 fun _ _ => rfl
  pre c := iprop(StableHlo.held (c : Thread nD τ) (Pipeline.ucRefs τ sig) (T41 m c) ∗ Rr c)
  post c := iprop(StableHlo.held (c : Thread nD τ) (Pipeline.ucRefs τ sig) (T42 m c) ∗ Rr c)
  X c := iprop(∃ r, prngReg c r)
  Y c := iprop(∃ r, prngReg c r)
  Z c := Pipeline.unscopedRest (Ix := Unit) (Name := ℕ) (U := UR sig nD τ) (Lvl := ℕ) spec16 c (atTc (T41 m) c)
  hentry c := by
    rw [Pipeline.ownSems0_none]
    have hsplit := Pipeline.arrays_of_unscopedBufs (p := 16) (pcfgs (F := F)) GenP.adm (pdats m) launch16.win launch16.arr_whole c
      ((pdats m 16 c).share_full fun _ => rfl) (atTc (T41 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) GenP.adm (Ix := Unit) (Name := ℕ) (U := UR sig nD τ) (Lvl := ℕ)
      launch16.win launch16.arr_whole c (pdats m) ((pdats m 16 c).share_full fun _ => rfl)
      (atTc (T41 m) c) (atTc (T42 m) c) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg17.lean ====
/-
  Region 17's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 17: entered from every unscoped buffer at the valuation before it, left at the one after it; its arrays split out
    of the unscoped buffers at entry and put back at exit; the generator register into the pipeline's invariant and out;
    nothing owed; no semaphore of the kernel's own. -/
noncomputable def reg17 : Pipeline.RegionSeg (pcfgs (F := F)) GenP.adm (pdats m) () defs₀ 𝒱₀ L lv 17 where
  win := launch17.win.to₀
  block_pos := launch17.block_pos
  stage_whole := launch17.stage_whole
  K := PEmpty
  osem k := k.elim
  ho := Pipeline.OwnSemFacts.none _
  hbody c := (body_obligation17 (atTc (T43 m)) c).loose
  hwaits := Pipeline.hwaits_of_owed_zero _ _ _ _ L lv 17 fun _ _ => rfl
  pre c := iprop(StableHlo.held (c : Thread nD τ) (Pipeline.ucRefs τ sig) (T43 m c) ∗ Rr c)
  post c := iprop(StableHlo.held (c : Thread nD τ) (Pipeline.ucRefs τ sig) (T44 m c) ∗ Rr c)
  X c := iprop(∃ r, prngReg c r)
  Y c := iprop(∃ r, prngReg c r)
  Z c := Pipeline.unscopedRest (Ix := Unit) (Name := ℕ) (U := UR sig nD τ) (Lvl := ℕ) spec17 c (atTc (T43 m) c)
  hentry c := by
    rw [Pipeline.ownSems0_none]
    have hsplit := Pipeline.arrays_of_unscopedBufs (p := 17) (pcfgs (F := F)) GenP.adm (pdats m) launch17.win launch17.arr_whole c
      ((pdats m 17 c).share_full fun _ => rfl) (atTc (T43 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) GenP.adm (Ix := Unit) (Name := ℕ) (U := UR sig nD τ) (Lvl := ℕ)
      launch17.win launch17.arr_whole c (pdats m) ((pdats m 17 c).share_full fun _ => rfl)
      (atTc (T43 m) c) (atTc (T44 m) c) ((pdats m 17 c).arrAt · cfg17.N) (hF17 m c) (hrest17 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg18.lean ====
/-
  Region 18's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 18: entered from every unscoped buffer at the valuation before it, left at the one after it; its arrays split out
    of the unscoped buffers at entry and put back at exit; the generator register into the pipeline's invariant and out;
    nothing owed; no semaphore of the kernel's own. -/
noncomputable def reg18 : Pipeline.RegionSeg (pcfgs (F := F)) GenP.adm (pdats m) () defs₀ 𝒱₀ L lv 18 where
  win := launch18.win.to₀
  block_pos := launch18.block_pos
  stage_whole := launch18.stage_whole
  K := PEmpty
  osem k := k.elim
  ho := Pipeline.OwnSemFacts.none _
  hbody c := (body_obligation18 (atTc (T45 m)) c).loose
  hwaits := Pipeline.hwaits_of_owed_zero _ _ _ _ L lv 18 fun _ _ => rfl
  pre c := iprop(StableHlo.held (c : Thread nD τ) (Pipeline.ucRefs τ sig) (T45 m c) ∗ Rr c)
  post c := iprop(StableHlo.held (c : Thread nD τ) (Pipeline.ucRefs τ sig) (T46 m c) ∗ Rr c)
  X c := iprop(∃ r, prngReg c r)
  Y c := iprop(∃ r, prngReg c r)
  Z c := Pipeline.unscopedRest (Ix := Unit) (Name := ℕ) (U := UR sig nD τ) (Lvl := ℕ) spec18 c (atTc (T45 m) c)
  hentry c := by
    rw [Pipeline.ownSems0_none]
    have hsplit := Pipeline.arrays_of_unscopedBufs (p := 18) (pcfgs (F := F)) GenP.adm (pdats m) launch18.win launch18.arr_whole c
      ((pdats m 18 c).share_full fun _ => rfl) (atTc (T45 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 18 c).Φ 0 = Pipeline.ΦA spec18 c from rfl]; unfold Pipeline.ΦA
    iintro ⟨Hp, -, Hr⟩
    isplitl [Hr]; · iexact Hr
    iexact Hp
  hout c := by
    rw [Pipeline.ownSems0_none, show (pdats m 18 c).Φ (Fin.last _) = Pipeline.ΦA spec18 c from rfl]; unfold Pipeline.ΦA
    iintro ⟨Hr, Hp⟩
    isplitl [Hp]; · iexact Hp
    isplitr; · iempintro
    iexact Hr
  hexit c := by
    have hjoin := Pipeline.unscopedBufs_of_arrays (p := 18) (pcfgs (F := F)) GenP.adm (Ix := Unit) (Name := ℕ) (U := UR sig nD τ) (Lvl := ℕ)
      launch18.win launch18.arr_whole c (pdats m) ((pdats m 18 c).share_full fun _ => rfl)
      (atTc (T45 m) c) (atTc (T46 m) c) ((pdats m 18 c).arrAt · cfg18.N) (hF18 m c) (hrest18 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg19.lean ====
/-
  Region 19's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 19: entered from every unscoped buffer at the valuation before it, left at the one after it; its arrays split out
    of the unscoped buffers at entry and put back at exit; the generator register into the pipeline's invariant and out;
    nothing owed; no semaphore of the kernel's own. -/
noncomputable def reg19 : Pipeline.RegionSeg (pcfgs (F := F)) GenP.adm (pdats m) () defs₀ 𝒱₀ L lv 19 where
  win := launch19.win.to₀
  block_pos := launch19.block_pos
  stage_whole := launch19.stage_whole
  K := PEmpty
  osem k := k.elim
  ho := Pipeline.OwnSemFacts.none _
  hbody c := (body_obligation19 (atTc (T47 m)) c).loose
  hwaits := Pipeline.hwaits_of_owed_zero _ _ _ _ L lv 19 fun _ _ => rfl
  pre c := iprop(StableHlo.held (c : Thread nD τ) (Pipeline.ucRefs τ sig) (T47 m c) ∗ Rr c)
  post c := iprop(StableHlo.held (c : Thread nD τ) (Pipeline.ucRefs τ sig) (T48 m c) ∗ Rr c)
  X c := iprop(∃ r, prngReg c r)
  Y c := iprop(∃ r, prngReg c r)
  Z c := Pipeline.unscopedRest (Ix := Unit) (Name := ℕ) (U := UR sig nD τ) (Lvl := ℕ) spec19 c (atTc (T47 m) c)
  hentry c := by
    rw [Pipeline.ownSems0_none]
    have hsplit := Pipeline.arrays_of_unscopedBufs (p := 19) (pcfgs (F := F)) GenP.adm (pdats m) launch19.win launch19.arr_whole c
      ((pdats m 19 c).share_full fun _ => rfl) (atTc (T47 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 19 c).Φ 0 = Pipeline.ΦA spec19 c from rfl]; unfold Pipeline.ΦA
    iintro ⟨Hp, -, Hr⟩
    isplitl [Hr]; · iexact Hr
    iexact Hp
  hout c := by
    rw [Pipeline.ownSems0_none, show (pdats m 19 c).Φ (Fin.last _) = Pipeline.ΦA spec19 c from rfl]; unfold Pipeline.ΦA
    iintro ⟨Hr, Hp⟩
    isplitl [Hp]; · iexact Hp
    isplitr; · iempintro
    iexact Hr
  hexit c := by
    have hjoin := Pipeline.unscopedBufs_of_arrays (p := 19) (pcfgs (F := F)) GenP.adm (Ix := Unit) (Name := ℕ) (U := UR sig nD τ) (Lvl := ℕ)
      launch19.win launch19.arr_whole c (pdats m) ((pdats m 19 c).share_full fun _ => rfl)
      (atTc (T47 m) c) (atTc (T48 m) c) ((pdats m 19 c).arrAt · cfg19.N) (hF19 m c) (hrest19 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg20.lean ====
/-
  Region 20's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 20: entered from every unscoped buffer at the valuation before it, left at the one after it; its arrays split out
    of the unscoped buffers at entry and put back at exit; the generator register into the pipeline's invariant and out;
    nothing owed; no semaphore of the kernel's own. -/
noncomputable def reg20 : Pipeline.RegionSeg (pcfgs (F := F)) GenP.adm (pdats m) () defs₀ 𝒱₀ L lv 20 where
  win := launch20.win.to₀
  block_pos := launch20.block_pos
  stage_whole := launch20.stage_whole
  K := PEmpty
  osem k := k.elim
  ho := Pipeline.OwnSemFacts.none _
  hbody c := (body_obligation20 (atTc (T49 m)) c).loose
  hwaits := Pipeline.hwaits_of_owed_zero _ _ _ _ L lv 20 fun _ _ => rfl
  pre c := iprop(StableHlo.held (c : Thread nD τ) (Pipeline.ucRefs τ sig) (T49 m c) ∗ Rr c)
  post c := iprop(StableHlo.held (c : Thread nD τ) (Pipeline.ucRefs τ sig) (T50 m c) ∗ Rr c)
  X c := iprop(∃ r, prngReg c r)
  Y c := iprop(∃ r, prngReg c r)
  Z c := Pipeline.unscopedRest (Ix := Unit) (Name := ℕ) (U := UR sig nD τ) (Lvl := ℕ) spec20 c (atTc (T49 m) c)
  hentry c := by
    rw [Pipeline.ownSems0_none]
    have hsplit := Pipeline.arrays_of_unscopedBufs (p := 20) (pcfgs (F := F)) GenP.adm (pdats m) launch20.win launch20.arr_whole c
      ((pdats m 20 c).share_full fun _ => rfl) (atTc (T49 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 20 c).Φ 0 = Pipeline.ΦA spec20 c from rfl]; unfold Pipeline.ΦA
    iintro ⟨Hp, -, Hr⟩
    isplitl [Hr]; · iexact Hr
    iexact Hp
  hout c := by
    rw [Pipeline.ownSems0_none, show (pdats m 20 c).Φ (Fin.last _) = Pipeline.ΦA spec20 c from rfl]; unfold Pipeline.ΦA
    iintro ⟨Hr, Hp⟩
    isplitl [Hp]; · iexact Hp
    isplitr; · iempintro
    iexact Hr
  hexit c := by
    have hjoin := Pipeline.unscopedBufs_of_arrays (p := 20) (pcfgs (F := F)) GenP.adm (Ix := Unit) (Name := ℕ) (U := UR sig nD τ) (Lvl := ℕ)
      launch20.win launch20.arr_whole c (pdats m) ((pdats m 20 c).share_full fun _ => rfl)
      (atTc (T49 m) c) (atTc (T50 m) c) ((pdats m 20 c).arrAt · cfg20.N) (hF20 m c) (hrest20 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg21.lean ====
/-
  Region 21's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 21: entered from every unscoped buffer at the valuation before it, left at the one after it; its arrays split out
    of the unscoped buffers at entry and put back at exit; the generator register into the pipeline's invariant and out;
    nothing owed; no semaphore of the kernel's own. -/
noncomputable def reg21 : Pipeline.RegionSeg (pcfgs (F := F)) GenP.adm (pdats m) () defs₀ 𝒱₀ L lv 21 where
  win := launch21.win.to₀
  block_pos := launch21.block_pos
  stage_whole := launch21.stage_whole
  K := PEmpty
  osem k := k.elim
  ho := Pipeline.OwnSemFacts.none _
  hbody c := (body_obligation21 (atTc (T51 m)) c).loose
  hwaits := Pipeline.hwaits_of_owed_zero _ _ _ _ L lv 21 fun _ _ => rfl
  pre c := iprop(StableHlo.held (c : Thread nD τ) (Pipeline.ucRefs τ sig) (T51 m c) ∗ Rr c)
  post c := iprop(StableHlo.held (c : Thread nD τ) (Pipeline.ucRefs τ sig) (T52 m c) ∗ Rr c)
  X c := iprop(∃ r, prngReg c r)
  Y c := iprop(∃ r, prngReg c r)
  Z c := Pipeline.unscopedRest (Ix := Unit) (Name := ℕ) (U := UR sig nD τ) (Lvl := ℕ) spec21 c (atTc (T51 m) c)
  hentry c := by
    rw [Pipeline.ownSems0_none]
    have hsplit := Pipeline.arrays_of_unscopedBufs (p := 21) (pcfgs (F := F)) GenP.adm (pdats m) launch21.win launch21.arr_whole c
      ((pdats m 21 c).share_full fun _ => rfl) (atTc (T51 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 21 c).Φ 0 = Pipeline.ΦA spec21 c from rfl]; unfold Pipeline.ΦA
    iintro ⟨Hp, -, Hr⟩
    isplitl [Hr]; · iexact Hr
    iexact Hp
  hout c := by
    rw [Pipeline.ownSems0_none, show (pdats m 21 c).Φ (Fin.last _) = Pipeline.ΦA spec21 c from rfl]; unfold Pipeline.ΦA
    iintro ⟨Hr, Hp⟩
    isplitl [Hp]; · iexact Hp
    isplitr; · iempintro
    iexact Hr
  hexit c := by
    have hjoin := Pipeline.unscopedBufs_of_arrays (p := 21) (pcfgs (F := F)) GenP.adm (Ix := Unit) (Name := ℕ) (U := UR sig nD τ) (Lvl := ℕ)
      launch21.win launch21.arr_whole c (pdats m) ((pdats m 21 c).share_full fun _ => rfl)
      (atTc (T51 m) c) (atTc (T52 m) c) ((pdats m 21 c).arrAt · cfg21.N) (hF21 m c) (hrest21 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg22.lean ====
/-
  Region 22's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 22: entered from every unscoped buffer at the valuation before it, left at the one after it; its arrays split out
    of the unscoped buffers at entry and put back at exit; the generator register into the pipeline's invariant and out;
    nothing owed; no semaphore of the kernel's own. -/
noncomputable def reg22 : Pipeline.RegionSeg (pcfgs (F := F)) GenP.adm (pdats m) () defs₀ 𝒱₀ L lv 22 where
  win := launch22.win.to₀
  block_pos := launch22.block_pos
  stage_whole := launch22.stage_whole
  K := PEmpty
  osem k := k.elim
  ho := Pipeline.OwnSemFacts.none _
  hbody c := (body_obligation22 (atTc (T53 m)) c).loose
  hwaits := Pipeline.hwaits_of_owed_zero _ _ _ _ L lv 22 fun _ _ => rfl
  pre c := iprop(StableHlo.held (c : Thread nD τ) (Pipeline.ucRefs τ sig) (T53 m c) ∗ Rr c)
  post c := iprop(StableHlo.held (c : Thread nD τ) (Pipeline.ucRefs τ sig) (T54 m c) ∗ Rr c)
  X c := iprop(∃ r, prngReg c r)
  Y c := iprop(∃ r, prngReg c r)
  Z c := Pipeline.unscopedRest (Ix := Unit) (Name := ℕ) (U := UR sig nD τ) (Lvl := ℕ) spec22 c (atTc (T53 m) c)
  hentry c := by
    rw [Pipeline.ownSems0_none]
    have hsplit := Pipeline.arrays_of_unscopedBufs (p := 22) (pcfgs (F := F)) GenP.adm (pdats m) launch22.win launch22.arr_whole c
      ((pdats m 22 c).share_full fun _ => rfl) (atTc (T53 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 22 c).Φ 0 = Pipeline.ΦA spec22 c from rfl]; unfold Pipeline.ΦA
    iintro ⟨Hp, -, Hr⟩
    isplitl [Hr]; · iexact Hr
    iexact Hp
  hout c := by
    rw [Pipeline.ownSems0_none, show (pdats m 22 c).Φ (Fin.last _) = Pipeline.ΦA spec22 c from rfl]; unfold Pipeline.ΦA
    iintro ⟨Hr, Hp⟩
    isplitl [Hp]; · iexact Hp
    isplitr; · iempintro
    iexact Hr
  hexit c := by
    have hjoin := Pipeline.unscopedBufs_of_arrays (p := 22) (pcfgs (F := F)) GenP.adm (Ix := Unit) (Name := ℕ) (U := UR sig nD τ) (Lvl := ℕ)
      launch22.win launch22.arr_whole c (pdats m) ((pdats m 22 c).share_full fun _ => rfl)
      (atTc (T53 m) c) (atTc (T54 m) c) ((pdats m 22 c).arrAt · cfg22.N) (hF22 m c) (hrest22 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg23.lean ====
/-
  Region 23's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 23: entered from every unscoped buffer at the valuation before it, left at the one after it; its arrays split out
    of the unscoped buffers at entry and put back at exit; the generator register into the pipeline's invariant and out;
    nothing owed; no semaphore of the kernel's own. -/
noncomputable def reg23 : Pipeline.RegionSeg (pcfgs (F := F)) GenP.adm (pdats m) () defs₀ 𝒱₀ L lv 23 where
  win := launch23.win.to₀
  block_pos := launch23.block_pos
  stage_whole := launch23.stage_whole
  K := PEmpty
  osem k := k.elim
  ho := Pipeline.OwnSemFacts.none _
  hbody c := (body_obligation23 (atTc (T55 m)) c).loose
  hwaits := Pipeline.hwaits_of_owed_zero _ _ _ _ L lv 23 fun _ _ => rfl
  pre c := iprop(StableHlo.held (c : Thread nD τ) (Pipeline.ucRefs τ sig) (T55 m c) ∗ Rr c)
  post c := iprop(StableHlo.held (c : Thread nD τ) (Pipeline.ucRefs τ sig) (T56 m c) ∗ Rr c)
  X c := iprop(∃ r, prngReg c r)
  Y c := iprop(∃ r, prngReg c r)
  Z c := Pipeline.unscopedRest (Ix := Unit) (Name := ℕ) (U := UR sig nD τ) (Lvl := ℕ) spec23 c (atTc (T55 m) c)
  hentry c := by
    rw [Pipeline.ownSems0_none]
    have hsplit := Pipeline.arrays_of_unscopedBufs (p := 23) (pcfgs (F := F)) GenP.adm (pdats m) launch23.win launch23.arr_whole c
      ((pdats m 23 c).share_full fun _ => rfl) (atTc (T55 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 23 c).Φ 0 = Pipeline.ΦA spec23 c from rfl]; unfold Pipeline.ΦA
    iintro ⟨Hp, -, Hr⟩
    isplitl [Hr]; · iexact Hr
    iexact Hp
  hout c := by
    rw [Pipeline.ownSems0_none, show (pdats m 23 c).Φ (Fin.last _) = Pipeline.ΦA spec23 c from rfl]; unfold Pipeline.ΦA
    iintro ⟨Hr, Hp⟩
    isplitl [Hp]; · iexact Hp
    isplitr; · iempintro
    iexact Hr
  hexit c := by
    have hjoin := Pipeline.unscopedBufs_of_arrays (p := 23) (pcfgs (F := F)) GenP.adm (Ix := Unit) (Name := ℕ) (U := UR sig nD τ) (Lvl := ℕ)
      launch23.win launch23.arr_whole c (pdats m) ((pdats m 23 c).share_full fun _ => rfl)
      (atTc (T55 m) c) (atTc (T56 m) c) ((pdats m 23 c).arrAt · cfg23.N) (hF23 m c) (hrest23 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg24.lean ====
/-
  Region 24's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 24: entered from every unscoped buffer at the valuation before it, left at the one after it; its arrays split out
    of the unscoped buffers at entry and put back at exit; the generator register into the pipeline's invariant and out;
    nothing owed; no semaphore of the kernel's own. -/
noncomputable def reg24 : Pipeline.RegionSeg (pcfgs (F := F)) GenP.adm (pdats m) () defs₀ 𝒱₀ L lv 24 where
  win := launch24.win.to₀
  block_pos := launch24.block_pos
  stage_whole := launch24.stage_whole
  K := PEmpty
  osem k := k.elim
  ho := Pipeline.OwnSemFacts.none _
  hbody c := (body_obligation24 (atTc (T57 m)) c).loose
  hwaits := Pipeline.hwaits_of_owed_zero _ _ _ _ L lv 24 fun _ _ => rfl
  pre c := iprop(StableHlo.held (c : Thread nD τ) (Pipeline.ucRefs τ sig) (T57 m c) ∗ Rr c)
  post c := iprop(StableHlo.held (c : Thread nD τ) (Pipeline.ucRefs τ sig) (T58 m c) ∗ Rr c)
  X c := iprop(∃ r, prngReg c r)
  Y c := iprop(∃ r, prngReg c r)
  Z c := Pipeline.unscopedRest (Ix := Unit) (Name := ℕ) (U := UR sig nD τ) (Lvl := ℕ) spec24 c (atTc (T57 m) c)
  hentry c := by
    rw [Pipeline.ownSems0_none]
    have hsplit := Pipeline.arrays_of_unscopedBufs (p := 24) (pcfgs (F := F)) GenP.adm (pdats m) launch24.win launch24.arr_whole c
      ((pdats m 24 c).share_full fun _ => rfl) (atTc (T57 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 24 c).Φ 0 = Pipeline.ΦA spec24 c from rfl]; unfold Pipeline.ΦA
    iintro ⟨Hp, -, Hr⟩
    isplitl [Hr]; · iexact Hr
    iexact Hp
  hout c := by
    rw [Pipeline.ownSems0_none, show (pdats m 24 c).Φ (Fin.last _) = Pipeline.ΦA spec24 c from rfl]; unfold Pipeline.ΦA
    iintro ⟨Hr, Hp⟩
    isplitl [Hp]; · iexact Hp
    isplitr; · iempintro
    iexact Hr
  hexit c := by
    have hjoin := Pipeline.unscopedBufs_of_arrays (p := 24) (pcfgs (F := F)) GenP.adm (Ix := Unit) (Name := ℕ) (U := UR sig nD τ) (Lvl := ℕ)
      launch24.win launch24.arr_whole c (pdats m) ((pdats m 24 c).share_full fun _ => rfl)
      (atTc (T57 m) c) (atTc (T58 m) c) ((pdats m 24 c).arrAt · cfg24.N) (hF24 m c) (hrest24 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg25.lean ====
/-
  Region 25's record: entered from every unscoped buffer at the valuation before it, it leaves them at the valuation after it.
-/
import proofs.«149588_j66838281060723_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 25: entered from every unscoped buffer at the valuation before it, left at the one after it; its arrays split out
    of the unscoped buffers at entry and put back at exit; the generator register into the pipeline's invariant and out;
    nothing owed; no semaphore of the kernel's own. -/
noncomputable def reg25 : Pipeline.RegionSeg (pcfgs (F := F)) GenP.adm (pdats m) () defs₀ 𝒱₀ L lv 25 where
  win := launch25.win.to₀
  block_pos := launch25.block_pos
  stage_whole := launch25.stage_whole
  K := PEmpty
  osem k := k.elim
  ho := Pipeline.OwnSemFacts.none _
  hbody c := (body_obligation25 (atTc (T59 m)) c).loose
  hwaits := Pipeline.hwaits_of_owed_zero _ _ _ _ L lv 25 fun _ _ => rfl
  pre c := iprop(StableHlo.held (c : Thread nD τ) (Pipeline.ucRefs τ sig) (T59 m c) ∗ Rr c)
  post c := iprop(StableHlo.held (c : Thread nD τ) (Pipeline.ucRefs τ sig) (T60 m c) ∗ Rr c)
  X c := iprop(∃ r, prngReg c r)
  Y c := iprop(∃ r, prngReg c r)
  Z c := Pipeline.unscopedRest (Ix := Unit) (Name := ℕ) (U := UR sig nD τ) (Lvl := ℕ) spec25 c (atTc (T59 m) c)
  hentry c := by
    rw [Pipeline.ownSems0_none]
    have hsplit := Pipeline.arrays_of_unscopedBufs (p := 25) (pcfgs (F := F)) GenP.adm (pdats m) launch25.win launch25.arr_whole c
      ((pdats m 25 c).share_full fun _ => rfl) (atTc (T59 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 25 c).Φ 0 = Pipeline.ΦA spec25 c from rfl]; unfold Pipeline.ΦA
    iintro ⟨Hp, -, Hr⟩
    isplitl [Hr]; · iexact Hr
    iexact Hp
  hout c := by
    rw [Pipeline.ownSems0_none, show (pdats m 25 c).Φ (Fin.last _) = Pipeline.ΦA spec25 c from rfl]; unfold Pipeline.ΦA
    iintro ⟨Hr, Hp⟩
    isplitl [Hp]; · iexact Hp
    isplitr; · iempintro
    iexact Hr
  hexit c := by
    have hjoin := Pipeline.unscopedBufs_of_arrays (p := 25) (pcfgs (F := F)) GenP.adm (Ix := Unit) (Name := ℕ) (U := UR sig nD τ) (Lvl := ℕ)
      launch25.win launch25.arr_whole c (pdats m) ((pdats m 25 c).share_full fun _ => rfl)
      (atTc (T59 m) c) (atTc (T60 m) c) ((pdats m 25 c).arrAt · cfg25.N) (hF25 m c) (hrest25 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Frame.lean ====
/-
  The frame of the whole program, at any float instance: with one record per region (each entered from the valuation
  before it and left at the one after it) the conditional frame gives that every weakly fair execution of @main terminates,
  faults nowhere, and ends with every argument array as launched. The launch deals each core its generator register and
  its empty debts, which ride through every item; no ghost resource is needed beside the pipelines' own.
-/
import proofs.«149588_j66838281060723_2_alg».proof.Proof.K.Reg0
import proofs.«149588_j66838281060723_2_alg».proof.Proof.K.Reg1
import proofs.«149588_j66838281060723_2_alg».proof.Proof.K.Reg2
import proofs.«149588_j66838281060723_2_alg».proof.Proof.K.Reg3
import proofs.«149588_j66838281060723_2_alg».proof.Proof.K.Reg4
import proofs.«149588_j66838281060723_2_alg».proof.Proof.K.Reg5
import proofs.«149588_j66838281060723_2_alg».proof.Proof.K.Reg6
import proofs.«149588_j66838281060723_2_alg».proof.Proof.K.Reg7
import proofs.«149588_j66838281060723_2_alg».proof.Proof.K.Reg8
import proofs.«149588_j66838281060723_2_alg».proof.Proof.K.Reg9
import proofs.«149588_j66838281060723_2_alg».proof.Proof.K.Reg10
import proofs.«149588_j66838281060723_2_alg».proof.Proof.K.Reg11
import proofs.«149588_j66838281060723_2_alg».proof.Proof.K.Reg12
import proofs.«149588_j66838281060723_2_alg».proof.Proof.K.Reg13
import proofs.«149588_j66838281060723_2_alg».proof.Proof.K.Reg14
import proofs.«149588_j66838281060723_2_alg».proof.Proof.K.Reg15
import proofs.«149588_j66838281060723_2_alg».proof.Proof.K.Reg16
import proofs.«149588_j66838281060723_2_alg».proof.Proof.K.Reg17
import proofs.«149588_j66838281060723_2_alg».proof.Proof.K.Reg18
import proofs.«149588_j66838281060723_2_alg».proof.Proof.K.Reg19
import proofs.«149588_j66838281060723_2_alg».proof.Proof.K.Reg20
import proofs.«149588_j66838281060723_2_alg».proof.Proof.K.Reg21
import proofs.«149588_j66838281060723_2_alg».proof.Proof.K.Reg22
import proofs.«149588_j66838281060723_2_alg».proof.Proof.K.Reg23
import proofs.«149588_j66838281060723_2_alg».proof.Proof.K.Reg24
import proofs.«149588_j66838281060723_2_alg».proof.Proof.K.Reg25

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
set_option maxRecDepth 200000 in
set_option backward.isDefEq.respectTransparency.types false in
/-- THE FRAME of the program at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  GenP.frame_cond (F := F) (Ix := Unit) (U := UR sig nD τ) (Lvl := ℕ) m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L lv fun c => ?_
      iintro ⟨⟨-, HO, -, Hp, -⟩, -⟩
      imodintro
      isplitl [Hp]; · iexists _; iexact Hp
      iexists ∅; iexact HO)
    (hE26 := fun c => by iintro ⟨-, HO⟩; iexact HO)
    (R0 := reg0 m) (hpre0 := fun c => by rw [Veq9]; exact .rfl) (hpost0 := fun c => by rw [Veq10]; exact .rfl)
    (R1 := reg1 m) (hpre1 := fun c => by rw [Veq11]; exact .rfl) (hpost1 := fun c => by rw [Veq12]; exact .rfl)
    (R2 := reg2 m) (hpre2 := fun c => by rw [Veq13]; exact .rfl) (hpost2 := fun c => by rw [Veq14]; exact .rfl)
    (R3 := reg3 m) (hpre3 := fun c => by rw [Veq15]; exact .rfl) (hpost3 := fun c => by rw [Veq16]; exact .rfl)
    (R4 := reg4 m) (hpre4 := fun c => by rw [Veq17]; exact .rfl) (hpost4 := fun c => by rw [Veq18]; exact .rfl)
    (R5 := reg5 m) (hpre5 := fun c => by rw [Veq19]; exact .rfl) (hpost5 := fun c => by rw [Veq20]; exact .rfl)
    (R6 := reg6 m) (hpre6 := fun c => by rw [Veq21]; exact .rfl) (hpost6 := fun c => by rw [Veq22]; exact .rfl)
    (R7 := reg7 m) (hpre7 := fun c => by rw [Veq23]; exact .rfl) (hpost7 := fun c => by rw [Veq24]; exact .rfl)
    (R8 := reg8 m) (hpre8 := fun c => by rw [Veq25]; exact .rfl) (hpost8 := fun c => by rw [Veq26]; exact .rfl)
    (R9 := reg9 m) (hpre9 := fun c => by rw [Veq27]; exact .rfl) (hpost9 := fun c => by rw [Veq28]; exact .rfl)
    (R10 := reg10 m) (hpre10 := fun c => by rw [Veq29]; exact .rfl) (hpost10 := fun c => by rw [Veq30]; exact .rfl)
    (R11 := reg11 m) (hpre11 := fun c => by rw [Veq31]; exact .rfl) (hpost11 := fun c => by rw [Veq32]; exact .rfl)
    (R12 := reg12 m) (hpre12 := fun c => by rw [Veq33]; exact .rfl) (hpost12 := fun c => by rw [Veq34]; exact .rfl)
    (R13 := reg13 m) (hpre13 := fun c => by rw [Veq35]; exact .rfl) (hpost13 := fun c => by rw [Veq36]; exact .rfl)
    (R14 := reg14 m) (hpre14 := fun c => by rw [Veq37]; exact .rfl) (hpost14 := fun c => by rw [Veq38]; exact .rfl)
    (R15 := reg15 m) (hpre15 := fun c => by rw [Veq39]; exact .rfl) (hpost15 := fun c => by rw [Veq40]; exact .rfl)
    (R16 := reg16 m) (hpre16 := fun c => by rw [Veq41]; exact .rfl) (hpost16 := fun c => by rw [Veq42]; exact .rfl)
    (R17 := reg17 m) (hpre17 := fun c => by rw [Veq43]; exact .rfl) (hpost17 := fun c => by rw [Veq44]; exact .rfl)
    (R18 := reg18 m) (hpre18 := fun c => by rw [Veq45]; exact .rfl) (hpost18 := fun c => by rw [Veq46]; exact .rfl)
    (R19 := reg19 m) (hpre19 := fun c => by rw [Veq47]; exact .rfl) (hpost19 := fun c => by rw [Veq48]; exact .rfl)
    (R20 := reg20 m) (hpre20 := fun c => by rw [Veq49]; exact .rfl) (hpost20 := fun c => by rw [Veq50]; exact .rfl)
    (R21 := reg21 m) (hpre21 := fun c => by rw [Veq51]; exact .rfl) (hpost21 := fun c => by rw [Veq52]; exact .rfl)
    (R22 := reg22 m) (hpre22 := fun c => by rw [Veq53]; exact .rfl) (hpost22 := fun c => by rw [Veq54]; exact .rfl)
    (R23 := reg23 m) (hpre23 := fun c => by rw [Veq55]; exact .rfl) (hpost23 := fun c => by rw [Veq56]; exact .rfl)
    (R24 := reg24 m) (hpre24 := fun c => by rw [Veq57]; exact .rfl) (hpost24 := fun c => by rw [Veq58]; exact .rfl)
    (R25 := reg25 m) (hpre25 := fun c => by rw [Veq59]; exact .rfl) (hpost25 := fun c => by rw [Veq60]; exact .rfl)

end Cert.Kernel.Hand

end
-- ==== Proof.KI.Body0.lean ====
/-
  The affine region at one input column (pallas_call 0): its proof data and its body obligation, at any float
  instance.

  At grid point t the pipeline hands the body the rows [10000 t, 10000 t + 10000) of the input column (10000 x 1),
  the whole weight row (1 x 2), the whole bias row (1 x 2), and an output block of the same rows (10000 x 2). The
  weight and the bias have a block index that does not move with the grid point: they are fetched at the first
  point only, and their staging buffers hold the same block at every point. The body stores, in ONE whole-block
  store, the value
      (0 + x broadcast along the two columns * w broadcast along the rows) + b broadcast along the rows,
  so after the body the output's staging buffer holds that value of the three input blocks, and every input's
  staging buffer still holds its block.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a window whose
    block index does not move is fetched at the first point only, and keeps its block), for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole input block, the whole weight block, the whole bias row and the whole output block, as rectangles. -/
abbrev r0_a : Rect S10000x1 := Rect.unit (s := S10000x1) ![0, 0] S10000x1.size inb_S10000x1_S10000x1_0_0
abbrev r0_b : Rect S1x2 := Rect.unit (s := S1x2) ![0, 0] S1x2.size inb_S1x2_S1x2_0_0
abbrev r0_c : Rect S1x2 := Rect.unit (s := S1x2) ![0, 0] S1x2.size inb_S1x2_S1x2_0_0
abbrev r0_d : Rect S10000x2 := Rect.unit (s := S10000x2) ![0, 0] S10000x2.size inb_S10000x2_S10000x2_0_0

/-- The output's staging buffer after the body, from the three input blocks: its one store. -/
noncomputable def out0_3 (x0 : Vec F S10000x1 .f32) (x1 : Vec F S1x2 .f32) (x2 : Vec F S1x2 .f32) : Vec F S10000x2 .f32 :=
  View.canon [⟨r0_d, k0_pay1 (View.ld x0 r0_a) (View.ld x1 r0_b) (View.ld x2 r0_c)⟩]

/-- The one store covers the buffer. -/
theorem cover0_3 (p0 : Vec F S10000x2 .f32) (y : S10000x2.Idx) :
    ∃ pc ∈ ([⟨r0_d, p0⟩] : List (View.Piece (Elt F) S10000x2 .f32)), y ∈ pc.1.set :=
  View.cover_of_tiled [⟨r0_d, p0⟩] S10000x2.size (by rfl) y

set_option maxHeartbeats 1000000 in
/-- The body on whole staging memrefs: the inputs keep their contents and the output ends at out0_3 of them. -/
theorem sound_kernel0 (c : Dev nD) (E : Set ℕ) (i : grid0.Coords)
    (arg1 : Memref sig .tc .vmem S10000x1 .f32) (harg1 : arg1.IsWhole) (arg2 : Memref sig .tc .vmem S1x2 .f32) (harg2 : arg2.IsWhole)
    (arg3 : Memref sig .tc .vmem S1x2 .f32) (harg3 : arg3.IsWhole) (arg4 : Memref sig .tc .vmem S10000x2 .f32) (harg4 : arg4.IsWhole)
    (x0 : Vec F S10000x1 .f32) (x1 : Vec F S1x2 .f32) (x2 : Vec F S1x2 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1 x2)) -∗ K ⟨⟩))
      ⊢ wp frame (wpE (defs₀ (F := F)) Variants.none c none) E (cc0__affine_kernel i arg1 harg1 arg2 harg2 arg3 harg3 arg4 harg4) K := by
  simp only [cc0__affine_kernel_eq_skeleton]; unfold cc0__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core c. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, -/
noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
noncomputable def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The affine region at one input column (pallas_call 1): its proof data and its body obligation, at any float
  instance.

  At grid point t the pipeline hands the body the rows [10000 t, 10000 t + 10000) of the input column (10000 x 1),
  the whole weight row (1 x 2), the whole bias row (1 x 2), and an output block of the same rows (10000 x 2). The
  weight and the bias have a block index that does not move with the grid point: they are fetched at the first
  point only, and their staging buffers hold the same block at every point. The body stores, in ONE whole-block
  store, the value
      (0 + x broadcast along the two columns * w broadcast along the rows) + b broadcast along the rows,
  so after the body the output's staging buffer holds that value of the three input blocks, and every input's
  staging buffer still holds its block.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window whose
    block index does not move is fetched at the first point only, and keeps its block), for any proof data whose
    array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole input block, the whole weight block, the whole bias row and the whole output block, as rectangles. -/
abbrev r1_a : Rect S10000x1 := Rect.unit (s := S10000x1) ![0, 0] S10000x1.size inb_S10000x1_S10000x1_0_0
abbrev r1_b : Rect S1x2 := Rect.unit (s := S1x2) ![0, 0] S1x2.size inb_S1x2_S1x2_0_0
abbrev r1_c : Rect S1x2 := Rect.unit (s := S1x2) ![0, 0] S1x2.size inb_S1x2_S1x2_0_0
abbrev r1_d : Rect S10000x2 := Rect.unit (s := S10000x2) ![0, 0] S10000x2.size inb_S10000x2_S10000x2_0_0

/-- The output's staging buffer after the body, from the three input blocks: its one store. -/
noncomputable def out1_3 (x0 : Vec F S10000x1 .f32) (x1 : Vec F S1x2 .f32) (x2 : Vec F S1x2 .f32) : Vec F S10000x2 .f32 :=
  View.canon [⟨r1_d, k1_pay1 (View.ld x0 r1_a) (View.ld x1 r1_b) (View.ld x2 r1_c)⟩]

/-- The one store covers the buffer. -/
theorem cover1_3 (p0 : Vec F S10000x2 .f32) (y : S10000x2.Idx) :
    ∃ pc ∈ ([⟨r1_d, p0⟩] : List (View.Piece (Elt F) S10000x2 .f32)), y ∈ pc.1.set :=
  View.cover_of_tiled [⟨r1_d, p0⟩] S10000x2.size (by rfl) y

set_option maxHeartbeats 1000000 in
/-- The body on whole staging memrefs: the inputs keep their contents and the output ends at out1_3 of them. -/
theorem sound_kernel1 (c : Dev nD) (E : Set ℕ) (i : grid1.Coords)
    (arg1 : Memref sig .tc .vmem S10000x1 .f32) (harg1 : arg1.IsWhole) (arg2 : Memref sig .tc .vmem S1x2 .f32) (harg2 : arg2.IsWhole)
    (arg3 : Memref sig .tc .vmem S1x2 .f32) (harg3 : arg3.IsWhole) (arg4 : Memref sig .tc .vmem S10000x2 .f32) (harg4 : arg4.IsWhole)
    (x0 : Vec F S10000x1 .f32) (x1 : Vec F S1x2 .f32) (x2 : Vec F S1x2 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out1_3 x0 x1 x2)) -∗ K ⟨⟩))
      ⊢ wp frame (wpE (defs₀ (F := F)) Variants.none c none) E (cc1__affine_kernel i arg1 harg1 arg2 harg2 arg3 harg3 arg4 harg4) K := by
  simp only [cc1__affine_kernel_eq_skeleton]; unfold cc1__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core c. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, -/
noncomputable def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
noncomputable def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  The message region (pallas_call 2): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, for any proof data whose array is the
    entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole 4000 x 1 block and the whole 4000 x 2 block, as rectangles. -/
abbrev r2_a : Rect S4000x1 := Rect.unit (s := S4000x1) ![0, 0] S4000x1.size inb_S4000x1_S4000x1_0_0
abbrev r2_b : Rect S4000x2 := Rect.unit (s := S4000x2) ![0, 0] S4000x2.size inb_S4000x2_S4000x2_0_0

/-- The output's staging buffer after the body, from the four input blocks: its one store. -/
noncomputable def out2_4 (x0 x1 : Vec F S4000x1 .f32) (x2 x3 : Vec F S4000x2 .f32) : Vec F S4000x2 .f32 :=
  View.canon [⟨r2_b, k2_pay1 (View.ld x0 r2_a) (View.ld x1 r2_a) (View.ld x2 r2_b) (View.ld x3 r2_b)⟩]

/-- The one store covers the buffer. -/
theorem cover2_4 (p0 : Vec F S4000x2 .f32) (y : S4000x2.Idx) :
    ∃ pc ∈ ([⟨r2_b, p0⟩] : List (View.Piece (Elt F) S4000x2 .f32)), y ∈ pc.1.set :=
  View.cover_of_tiled [⟨r2_b, p0⟩] S4000x2.size (by rfl) y

set_option maxHeartbeats 1000000 in
/-- The body on whole staging memrefs: the inputs keep their contents and the output ends at out2_4 of them. -/
theorem sound_kernel2 (c : Dev nD) (E : Set ℕ) (i : grid2.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 x0 x1 x2 x3)) -∗ K ⟨⟩))
      ⊢ wp frame (wpE (defs₀ (F := F)) Variants.none c none) E (cc2__message_kernel i arg1 harg1 arg2 harg2 arg3 harg3 arg4 harg4 arg5 harg5) K := by
  simp only [cc2__message_kernel_eq_skeleton]; unfold cc2__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of pipeline 2 on core c. -/
noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point t, -/
noncomputable def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
noncomputable def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Body3.lean ====
/-
  The message region (pallas_call 3): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, for any proof data whose array is the
    entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole 4000 x 1 block and the whole 4000 x 2 block, as rectangles. -/
abbrev r3_a : Rect S4000x1 := Rect.unit (s := S4000x1) ![0, 0] S4000x1.size inb_S4000x1_S4000x1_0_0
abbrev r3_b : Rect S4000x2 := Rect.unit (s := S4000x2) ![0, 0] S4000x2.size inb_S4000x2_S4000x2_0_0

/-- The output's staging buffer after the body, from the four input blocks: its one store. -/
noncomputable def out3_4 (x0 x1 : Vec F S4000x1 .f32) (x2 x3 : Vec F S4000x2 .f32) : Vec F S4000x2 .f32 :=
  View.canon [⟨r3_b, k3_pay1 (View.ld x0 r3_a) (View.ld x1 r3_a) (View.ld x2 r3_b) (View.ld x3 r3_b)⟩]

/-- The one store covers the buffer. -/
theorem cover3_4 (p0 : Vec F S4000x2 .f32) (y : S4000x2.Idx) :
    ∃ pc ∈ ([⟨r3_b, p0⟩] : List (View.Piece (Elt F) S4000x2 .f32)), y ∈ pc.1.set :=
  View.cover_of_tiled [⟨r3_b, p0⟩] S4000x2.size (by rfl) y

set_option maxHeartbeats 1000000 in
/-- The body on whole staging memrefs: the inputs keep their contents and the output ends at out3_4 of them. -/
theorem sound_kernel3 (c : Dev nD) (E : Set ℕ) (i : grid3.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out3_4 x0 x1 x2 x3)) -∗ K ⟨⟩))
      ⊢ wp frame (wpE (defs₀ (F := F)) Variants.none c none) E (cc3__message_kernel i arg1 harg1 arg2 harg2 arg3 harg3 arg4 harg4 arg5 harg5) K := by
  simp only [cc3__message_kernel_eq_skeleton]; unfold cc3__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The proof data of pipeline 3 on core c. -/
noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point t, -/
noncomputable def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
noncomputable def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Body4.lean ====
/-
  The message region (pallas_call 4): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, for any proof data whose array is the
    entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The whole 4000 x 1 block and the whole 4000 x 2 block, as rectangles. -/
abbrev r4_a : Rect S4000x1 := Rect.unit (s := S4000x1) ![0, 0] S4000x1.size inb_S4000x1_S4000x1_0_0
abbrev r4_b : Rect S4000x2 := Rect.unit (s := S4000x2) ![0, 0] S4000x2.size inb_S4000x2_S4000x2_0_0

/-- The output's staging buffer after the body, from the four input blocks: its one store. -/
noncomputable def out4_4 (x0 x1 : Vec F S4000x1 .f32) (x2 x3 : Vec F S4000x2 .f32) : Vec F S4000x2 .f32 :=
  View.canon [⟨r4_b, k4_pay1 (View.ld x0 r4_a) (View.ld x1 r4_a) (View.ld x2 r4_b) (View.ld x3 r4_b)⟩]

/-- The one store covers the buffer. -/
theorem cover4_4 (p0 : Vec F S4000x2 .f32) (y : S4000x2.Idx) :
    ∃ pc ∈ ([⟨r4_b, p0⟩] : List (View.Piece (Elt F) S4000x2 .f32)), y ∈ pc.1.set :=
  View.cover_of_tiled [⟨r4_b, p0⟩] S4000x2.size (by rfl) y

set_option maxHeartbeats 1000000 in
/-- The body on whole staging memrefs: the inputs keep their contents and the output ends at out4_4 of them. -/
theorem sound_kernel4 (c : Dev nD) (E : Set ℕ) (i : grid4.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4_4 x0 x1 x2 x3)) -∗ K ⟨⟩))
      ⊢ wp frame (wpE (defs₀ (F := F)) Variants.none c none) E (cc4__message_kernel i arg1 harg1 arg2 harg2 arg3 harg3 arg4 harg4 arg5 harg5) K := by
  simp only [cc4__message_kernel_eq_skeleton]; unfold cc4__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The proof data of pipeline 4 on core c. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point t, -/
noncomputable def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
noncomputable def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Body5.lean ====
/-
  The message region (pallas_call 5): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, for any proof data whose array is the
    entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The whole 4000 x 1 block and the whole 4000 x 2 block, as rectangles. -/
abbrev r5_a : Rect S4000x1 := Rect.unit (s := S4000x1) ![0, 0] S4000x1.size inb_S4000x1_S4000x1_0_0
abbrev r5_b : Rect S4000x2 := Rect.unit (s := S4000x2) ![0, 0] S4000x2.size inb_S4000x2_S4000x2_0_0

/-- The output's staging buffer after the body, from the four input blocks: its one store. -/
noncomputable def out5_4 (x0 x1 : Vec F S4000x1 .f32) (x2 x3 : Vec F S4000x2 .f32) : Vec F S4000x2 .f32 :=
  View.canon [⟨r5_b, k5_pay1 (View.ld x0 r5_a) (View.ld x1 r5_a) (View.ld x2 r5_b) (View.ld x3 r5_b)⟩]

/-- The one store covers the buffer. -/
theorem cover5_4 (p0 : Vec F S4000x2 .f32) (y : S4000x2.Idx) :
    ∃ pc ∈ ([⟨r5_b, p0⟩] : List (View.Piece (Elt F) S4000x2 .f32)), y ∈ pc.1.set :=
  View.cover_of_tiled [⟨r5_b, p0⟩] S4000x2.size (by rfl) y

set_option maxHeartbeats 1000000 in
/-- The body on whole staging memrefs: the inputs keep their contents and the output ends at out5_4 of them. -/
theorem sound_kernel5 (c : Dev nD) (E : Set ℕ) (i : grid5.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out5_4 x0 x1 x2 x3)) -∗ K ⟨⟩))
      ⊢ wp frame (wpE (defs₀ (F := F)) Variants.none c none) E (cc5__message_kernel i arg1 harg1 arg2 harg2 arg3 harg3 arg4 harg4 arg5 harg5) K := by
  simp only [cc5__message_kernel_eq_skeleton]; unfold cc5__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-- The proof data of pipeline 5 on core c. -/
noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is called with at point t, -/
noncomputable def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
noncomputable def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Body6.lean ====
/-
  The affine region at six input columns (pallas_call 6): its proof data and its body obligation, at any float
  instance.

  At grid point t the pipeline hands the body the rows [10000 t, 10000 t + 10000) of the input (10000 x 6), the
  whole weight matrix (6 x 2), the whole bias row (1 x 2), and an output block of the same rows (10000 x 2). The
  weight and the bias have a block index that does not move with the grid point: they are fetched at the first
  point only, and their staging buffers hold the same block at every point. The body stores, in ONE whole-block
  store, the value
      (((((( 0 + x_0 * w_0 ) + x_1 * w_1 ) + x_2 * w_2 ) + x_3 * w_3 ) + x_4 * w_4 ) + x_5 * w_5 ) + b,
  x_i the i-th input column broadcast along the two output columns, w_i the i-th weight row broadcast along the
  rows, b the bias row broadcast along the rows; so after the body the output's staging buffer holds that value of
  the three input blocks, and every input's staging buffer still holds its block.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not (a window whose
    block index does not move is fetched at the first point only, and keeps its block), for any proof data whose
    array is the entry contents and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole input block, the whole weight block, the whole bias row and the whole output block, as rectangles. -/
abbrev r6_a : Rect S10000x6 := Rect.unit (s := S10000x6) ![0, 0] S10000x6.size inb_S10000x6_S10000x6_0_0
abbrev r6_b : Rect S6x2 := Rect.unit (s := S6x2) ![0, 0] S6x2.size inb_S6x2_S6x2_0_0
abbrev r6_c : Rect S1x2 := Rect.unit (s := S1x2) ![0, 0] S1x2.size inb_S1x2_S1x2_0_0
abbrev r6_d : Rect S10000x2 := Rect.unit (s := S10000x2) ![0, 0] S10000x2.size inb_S10000x2_S10000x2_0_0

/-- The output's staging buffer after the body, from the three input blocks: its one store. -/
noncomputable def out6_3 (x0 : Vec F S10000x6 .f32) (x1 : Vec F S6x2 .f32) (x2 : Vec F S1x2 .f32) : Vec F S10000x2 .f32 :=
  View.canon [⟨r6_d, k6_pay1 (View.ld x0 r6_a) (View.ld x1 r6_b) (View.ld x2 r6_c)⟩]

/-- The one store covers the buffer. -/
theorem cover6_3 (p0 : Vec F S10000x2 .f32) (y : S10000x2.Idx) :
    ∃ pc ∈ ([⟨r6_d, p0⟩] : List (View.Piece (Elt F) S10000x2 .f32)), y ∈ pc.1.set :=
  View.cover_of_tiled [⟨r6_d, p0⟩] S10000x2.size (by rfl) y

set_option maxHeartbeats 1000000 in
/-- The body on whole staging memrefs: the inputs keep their contents and the output ends at out6_3 of them. -/
theorem sound_kernel6 (c : Dev nD) (E : Set ℕ) (i : grid6.Coords)
    (arg1 : Memref sig .tc .vmem S10000x6 .f32) (harg1 : arg1.IsWhole) (arg2 : Memref sig .tc .vmem S6x2 .f32) (harg2 : arg2.IsWhole)
    (arg3 : Memref sig .tc .vmem S1x2 .f32) (harg3 : arg3.IsWhole) (arg4 : Memref sig .tc .vmem S10000x2 .f32) (harg4 : arg4.IsWhole)
    (x0 : Vec F S10000x6 .f32) (x1 : Vec F S6x2 .f32) (x2 : Vec F S1x2 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out6_3 x0 x1 x2)) -∗ K ⟨⟩))
      ⊢ wp frame (wpE (defs₀ (F := F)) Variants.none c none) E (cc6__affine_kernel i arg1 harg1 arg2 harg2 arg3 harg3 arg4 harg4) K := by
  simp only [cc6__affine_kernel_eq_skeleton]; unfold cc6__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of pipeline 6 on core c. -/
noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point t, -/
noncomputable def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
noncomputable def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Body7.lean ====
/-
  The affine region at six input columns (pallas_call 7): its proof data and its body obligation, at any float
  instance.

  At grid point t the pipeline hands the body the rows [10000 t, 10000 t + 10000) of the input (10000 x 6), the
  whole weight matrix (6 x 2), the whole bias row (1 x 2), and an output block of the same rows (10000 x 2). The
  weight and the bias have a block index that does not move with the grid point: they are fetched at the first
  point only, and their staging buffers hold the same block at every point. The body stores, in ONE whole-block
  store, the value
      (((((( 0 + x_0 * w_0 ) + x_1 * w_1 ) + x_2 * w_2 ) + x_3 * w_3 ) + x_4 * w_4 ) + x_5 * w_5 ) + b,
  x_i the i-th input column broadcast along the two output columns, w_i the i-th weight row broadcast along the
  rows, b the bias row broadcast along the rows; so after the body the output's staging buffer holds that value of
  the three input blocks, and every input's staging buffer still holds its block.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not (a window whose
    block index does not move is fetched at the first point only, and keeps its block), for any proof data whose
    array is the entry contents and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The whole input block, the whole weight block, the whole bias row and the whole output block, as rectangles. -/
abbrev r7_a : Rect S10000x6 := Rect.unit (s := S10000x6) ![0, 0] S10000x6.size inb_S10000x6_S10000x6_0_0
abbrev r7_b : Rect S6x2 := Rect.unit (s := S6x2) ![0, 0] S6x2.size inb_S6x2_S6x2_0_0
abbrev r7_c : Rect S1x2 := Rect.unit (s := S1x2) ![0, 0] S1x2.size inb_S1x2_S1x2_0_0
abbrev r7_d : Rect S10000x2 := Rect.unit (s := S10000x2) ![0, 0] S10000x2.size inb_S10000x2_S10000x2_0_0

/-- The output's staging buffer after the body, from the three input blocks: its one store. -/
noncomputable def out7_3 (x0 : Vec F S10000x6 .f32) (x1 : Vec F S6x2 .f32) (x2 : Vec F S1x2 .f32) : Vec F S10000x2 .f32 :=
  View.canon [⟨r7_d, k7_pay1 (View.ld x0 r7_a) (View.ld x1 r7_b) (View.ld x2 r7_c)⟩]

/-- The one store covers the buffer. -/
theorem cover7_3 (p0 : Vec F S10000x2 .f32) (y : S10000x2.Idx) :
    ∃ pc ∈ ([⟨r7_d, p0⟩] : List (View.Piece (Elt F) S10000x2 .f32)), y ∈ pc.1.set :=
  View.cover_of_tiled [⟨r7_d, p0⟩] S10000x2.size (by rfl) y

set_option maxHeartbeats 1000000 in
/-- The body on whole staging memrefs: the inputs keep their contents and the output ends at out7_3 of them. -/
theorem sound_kernel7 (c : Dev nD) (E : Set ℕ) (i : grid7.Coords)
    (arg1 : Memref sig .tc .vmem S10000x6 .f32) (harg1 : arg1.IsWhole) (arg2 : Memref sig .tc .vmem S6x2 .f32) (harg2 : arg2.IsWhole)
    (arg3 : Memref sig .tc .vmem S1x2 .f32) (harg3 : arg3.IsWhole) (arg4 : Memref sig .tc .vmem S10000x2 .f32) (harg4 : arg4.IsWhole)
    (x0 : Vec F S10000x6 .f32) (x1 : Vec F S6x2 .f32) (x2 : Vec F S1x2 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out7_3 x0 x1 x2)) -∗ K ⟨⟩))
      ⊢ wp frame (wpE (defs₀ (F := F)) Variants.none c none) E (cc7__affine_kernel i arg1 harg1 arg2 harg2 arg3 harg3 arg4 harg4) K := by
  simp only [cc7__affine_kernel_eq_skeleton]; unfold cc7__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-- The proof data of pipeline 7 on core c. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point t, -/
noncomputable def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
noncomputable def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Body8.lean ====
/-
  The message region (pallas_call 8): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, for any proof data whose array is the
    entry contents and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- The whole 4000 x 1 block and the whole 4000 x 2 block, as rectangles. -/
abbrev r8_a : Rect S4000x1 := Rect.unit (s := S4000x1) ![0, 0] S4000x1.size inb_S4000x1_S4000x1_0_0
abbrev r8_b : Rect S4000x2 := Rect.unit (s := S4000x2) ![0, 0] S4000x2.size inb_S4000x2_S4000x2_0_0

/-- The output's staging buffer after the body, from the four input blocks: its one store. -/
noncomputable def out8_4 (x0 x1 : Vec F S4000x1 .f32) (x2 x3 : Vec F S4000x2 .f32) : Vec F S4000x2 .f32 :=
  View.canon [⟨r8_b, k8_pay1 (View.ld x0 r8_a) (View.ld x1 r8_a) (View.ld x2 r8_b) (View.ld x3 r8_b)⟩]

/-- The one store covers the buffer. -/
theorem cover8_4 (p0 : Vec F S4000x2 .f32) (y : S4000x2.Idx) :
    ∃ pc ∈ ([⟨r8_b, p0⟩] : List (View.Piece (Elt F) S4000x2 .f32)), y ∈ pc.1.set :=
  View.cover_of_tiled [⟨r8_b, p0⟩] S4000x2.size (by rfl) y

set_option maxHeartbeats 1000000 in
/-- The body on whole staging memrefs: the inputs keep their contents and the output ends at out8_4 of them. -/
theorem sound_kernel8 (c : Dev nD) (E : Set ℕ) (i : grid8.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out8_4 x0 x1 x2 x3)) -∗ K ⟨⟩))
      ⊢ wp frame (wpE (defs₀ (F := F)) Variants.none c none) E (cc8__message_kernel i arg1 harg1 arg2 harg2 arg3 harg3 arg4 harg4 arg5 harg5) K := by
  simp only [cc8__message_kernel_eq_skeleton]; unfold cc8__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover8_4 _)

/-- The proof data of pipeline 8 on core c. -/
noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) :
    (dat8 V c).after 4 t = out8_4 (iblk8 V c 0 t) (iblk8 V c 1 t) (iblk8 V c 2 t) (iblk8 V c 3 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-- What the body is called with at point t, -/
noncomputable def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
noncomputable def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Body9.lean ====
/-
  The message region (pallas_call 9): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, for any proof data whose array is the
    entry contents and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- The whole 4000 x 1 block and the whole 4000 x 2 block, as rectangles. -/
abbrev r9_a : Rect S4000x1 := Rect.unit (s := S4000x1) ![0, 0] S4000x1.size inb_S4000x1_S4000x1_0_0
abbrev r9_b : Rect S4000x2 := Rect.unit (s := S4000x2) ![0, 0] S4000x2.size inb_S4000x2_S4000x2_0_0

/-- The output's staging buffer after the body, from the four input blocks: its one store. -/
noncomputable def out9_4 (x0 x1 : Vec F S4000x1 .f32) (x2 x3 : Vec F S4000x2 .f32) : Vec F S4000x2 .f32 :=
  View.canon [⟨r9_b, k9_pay1 (View.ld x0 r9_a) (View.ld x1 r9_a) (View.ld x2 r9_b) (View.ld x3 r9_b)⟩]

/-- The one store covers the buffer. -/
theorem cover9_4 (p0 : Vec F S4000x2 .f32) (y : S4000x2.Idx) :
    ∃ pc ∈ ([⟨r9_b, p0⟩] : List (View.Piece (Elt F) S4000x2 .f32)), y ∈ pc.1.set :=
  View.cover_of_tiled [⟨r9_b, p0⟩] S4000x2.size (by rfl) y

set_option maxHeartbeats 1000000 in
/-- The body on whole staging memrefs: the inputs keep their contents and the output ends at out9_4 of them. -/
theorem sound_kernel9 (c : Dev nD) (E : Set ℕ) (i : grid9.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out9_4 x0 x1 x2 x3)) -∗ K ⟨⟩))
      ⊢ wp frame (wpE (defs₀ (F := F)) Variants.none c none) E (cc9__message_kernel i arg1 harg1 arg2 harg2 arg3 harg3 arg4 harg4 arg5 harg5) K := by
  simp only [cc9__message_kernel_eq_skeleton]; unfold cc9__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover9_4 _)

/-- The proof data of pipeline 9 on core c. -/
noncomputable def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) :
    (dat9 V c).after 4 t = out9_4 (iblk9 V c 0 t) (iblk9 V c 1 t) (iblk9 V c 2 t) (iblk9 V c 3 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-- What the body is called with at point t, -/
noncomputable def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
noncomputable def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ _ _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Body10.lean ====
/-
  The message region (pallas_call 10): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, for any proof data whose array is the
    entry contents and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- The whole 4000 x 1 block and the whole 4000 x 2 block, as rectangles. -/
abbrev r10_a : Rect S4000x1 := Rect.unit (s := S4000x1) ![0, 0] S4000x1.size inb_S4000x1_S4000x1_0_0
abbrev r10_b : Rect S4000x2 := Rect.unit (s := S4000x2) ![0, 0] S4000x2.size inb_S4000x2_S4000x2_0_0

/-- The output's staging buffer after the body, from the four input blocks: its one store. -/
noncomputable def out10_4 (x0 x1 : Vec F S4000x1 .f32) (x2 x3 : Vec F S4000x2 .f32) : Vec F S4000x2 .f32 :=
  View.canon [⟨r10_b, k10_pay1 (View.ld x0 r10_a) (View.ld x1 r10_a) (View.ld x2 r10_b) (View.ld x3 r10_b)⟩]

/-- The one store covers the buffer. -/
theorem cover10_4 (p0 : Vec F S4000x2 .f32) (y : S4000x2.Idx) :
    ∃ pc ∈ ([⟨r10_b, p0⟩] : List (View.Piece (Elt F) S4000x2 .f32)), y ∈ pc.1.set :=
  View.cover_of_tiled [⟨r10_b, p0⟩] S4000x2.size (by rfl) y

set_option maxHeartbeats 1000000 in
/-- The body on whole staging memrefs: the inputs keep their contents and the output ends at out10_4 of them. -/
theorem sound_kernel10 (c : Dev nD) (E : Set ℕ) (i : grid10.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out10_4 x0 x1 x2 x3)) -∗ K ⟨⟩))
      ⊢ wp frame (wpE (defs₀ (F := F)) Variants.none c none) E (cc10__message_kernel i arg1 harg1 arg2 harg2 arg3 harg3 arg4 harg4 arg5 harg5) K := by
  simp only [cc10__message_kernel_eq_skeleton]; unfold cc10__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover10_4 _)

/-- The proof data of pipeline 10 on core c. -/
noncomputable def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => out10_4 (iblk10 V c 0 t) (iblk10 V c 1 t) (iblk10 V c 2 t) (iblk10 V c 3 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) :
    (dat10 V c).after 4 t = out10_4 (iblk10 V c 0 t) (iblk10 V c 1 t) (iblk10 V c 2 t) (iblk10 V c 3 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d

/-- What the body is called with at point t, -/
noncomputable def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d)))

/-- and what it returns. -/
noncomputable def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3]
  rw [show (dat10 V c).Φ t.succ = (dat10 V c).Φ t.castSucc from rfl,
    show (dat10 V c).owesAt () t.succ = (dat10 V c).owesAt () t.castSucc from rfl,
    after10_0, after10_1, after10_2, after10_3, after10_4]
  iintro ⟨HΦ, Ho, ⟨%d0, H0⟩, ⟨%d1, H1⟩, ⟨%d2, H2⟩, ⟨%d3, H3⟩, ⟨%d4, H4⟩⟩
  iapply (sound_kernel10 c Set.univ _ _ _ _ _ _ _ _ _ _ _ (iblk10 V c 0 t) (iblk10 V c 1 t) (iblk10 V c 2 t) (iblk10 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.Body11.lean ====
/-
  The message region (pallas_call 11): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, for any proof data whose array is the
    entry contents and whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- The whole 4000 x 1 block and the whole 4000 x 2 block, as rectangles. -/
abbrev r11_a : Rect S4000x1 := Rect.unit (s := S4000x1) ![0, 0] S4000x1.size inb_S4000x1_S4000x1_0_0
abbrev r11_b : Rect S4000x2 := Rect.unit (s := S4000x2) ![0, 0] S4000x2.size inb_S4000x2_S4000x2_0_0

/-- The output's staging buffer after the body, from the four input blocks: its one store. -/
noncomputable def out11_4 (x0 x1 : Vec F S4000x1 .f32) (x2 x3 : Vec F S4000x2 .f32) : Vec F S4000x2 .f32 :=
  View.canon [⟨r11_b, k11_pay1 (View.ld x0 r11_a) (View.ld x1 r11_a) (View.ld x2 r11_b) (View.ld x3 r11_b)⟩]

/-- The one store covers the buffer. -/
theorem cover11_4 (p0 : Vec F S4000x2 .f32) (y : S4000x2.Idx) :
    ∃ pc ∈ ([⟨r11_b, p0⟩] : List (View.Piece (Elt F) S4000x2 .f32)), y ∈ pc.1.set :=
  View.cover_of_tiled [⟨r11_b, p0⟩] S4000x2.size (by rfl) y

set_option maxHeartbeats 1000000 in
/-- The body on whole staging memrefs: the inputs keep their contents and the output ends at out11_4 of them. -/
theorem sound_kernel11 (c : Dev nD) (E : Set ℕ) (i : grid11.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out11_4 x0 x1 x2 x3)) -∗ K ⟨⟩))
      ⊢ wp frame (wpE (defs₀ (F := F)) Variants.none c none) E (cc11__message_kernel i arg1 harg1 arg2 harg2 arg3 harg3 arg4 harg4 arg5 harg5) K := by
  simp only [cc11__message_kernel_eq_skeleton]; unfold cc11__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover11_4 _)

/-- The proof data of pipeline 11 on core c. -/
noncomputable def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => out11_4 (iblk11 V c 0 t) (iblk11 V c 1 t) (iblk11 V c 2 t) (iblk11 V c 3 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) :
    (dat11 V c).after 4 t = out11_4 (iblk11 V c 0 t) (iblk11 V c 1 t) (iblk11 V c 2 t) (iblk11 V c 3 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d

/-- What the body is called with at point t, -/
noncomputable def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

/-- and what it returns. -/
noncomputable def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3]
  rw [show (dat11 V c).Φ t.succ = (dat11 V c).Φ t.castSucc from rfl,
    show (dat11 V c).owesAt () t.succ = (dat11 V c).owesAt () t.castSucc from rfl,
    after11_0, after11_1, after11_2, after11_3, after11_4]
  iintro ⟨HΦ, Ho, ⟨%d0, H0⟩, ⟨%d1, H1⟩, ⟨%d2, H2⟩, ⟨%d3, H3⟩, ⟨%d4, H4⟩⟩
  iapply (sound_kernel11 c Set.univ _ _ _ _ _ _ _ _ _ _ _ (iblk11 V c 0 t) (iblk11 V c 1 t) (iblk11 V c 2 t) (iblk11 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.KI.Body12.lean ====
/-
  The affine region at six input columns (pallas_call 12): its proof data and its body obligation, at any float
  instance.

  At grid point t the pipeline hands the body the rows [10000 t, 10000 t + 10000) of the input (10000 x 6), the
  whole weight matrix (6 x 2), the whole bias row (1 x 2), and an output block of the same rows (10000 x 2). The
  weight and the bias have a block index that does not move with the grid point: they are fetched at the first
  point only, and their staging buffers hold the same block at every point. The body stores, in ONE whole-block
  store, the value
      (((((( 0 + x_0 * w_0 ) + x_1 * w_1 ) + x_2 * w_2 ) + x_3 * w_3 ) + x_4 * w_4 ) + x_5 * w_5 ) + b,
  x_i the i-th input column broadcast along the two output columns, w_i the i-th weight row broadcast along the
  rows, b the bias row broadcast along the rows; so after the body the output's staging buffer holds that value of
  the three input blocks, and every input's staging buffer still holds its block.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, fetched there or not (a window whose
    block index does not move is fetched at the first point only, and keeps its block), for any proof data whose
    array is the entry contents and whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- The whole input block, the whole weight block, the whole bias row and the whole output block, as rectangles. -/
abbrev r12_a : Rect S10000x6 := Rect.unit (s := S10000x6) ![0, 0] S10000x6.size inb_S10000x6_S10000x6_0_0
abbrev r12_b : Rect S6x2 := Rect.unit (s := S6x2) ![0, 0] S6x2.size inb_S6x2_S6x2_0_0
abbrev r12_c : Rect S1x2 := Rect.unit (s := S1x2) ![0, 0] S1x2.size inb_S1x2_S1x2_0_0
abbrev r12_d : Rect S10000x2 := Rect.unit (s := S10000x2) ![0, 0] S10000x2.size inb_S10000x2_S10000x2_0_0

/-- The output's staging buffer after the body, from the three input blocks: its one store. -/
noncomputable def out12_3 (x0 : Vec F S10000x6 .f32) (x1 : Vec F S6x2 .f32) (x2 : Vec F S1x2 .f32) : Vec F S10000x2 .f32 :=
  View.canon [⟨r12_d, k12_pay1 (View.ld x0 r12_a) (View.ld x1 r12_b) (View.ld x2 r12_c)⟩]

/-- The one store covers the buffer. -/
theorem cover12_3 (p0 : Vec F S10000x2 .f32) (y : S10000x2.Idx) :
    ∃ pc ∈ ([⟨r12_d, p0⟩] : List (View.Piece (Elt F) S10000x2 .f32)), y ∈ pc.1.set :=
  View.cover_of_tiled [⟨r12_d, p0⟩] S10000x2.size (by rfl) y

set_option maxHeartbeats 1000000 in
/-- The body on whole staging memrefs: the inputs keep their contents and the output ends at out12_3 of them. -/
theorem sound_kernel12 (c : Dev nD) (E : Set ℕ) (i : grid12.Coords)
    (arg1 : Memref sig .tc .vmem S10000x6 .f32) (harg1 : arg1.IsWhole) (arg2 : Memref sig .tc .vmem S6x2 .f32) (harg2 : arg2.IsWhole)
    (arg3 : Memref sig .tc .vmem S1x2 .f32) (harg3 : arg3.IsWhole) (arg4 : Memref sig .tc .vmem S10000x2 .f32) (harg4 : arg4.IsWhole)
    (x0 : Vec F S10000x6 .f32) (x1 : Vec F S6x2 .f32) (x2 : Vec F S1x2 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out12_3 x0 x1 x2)) -∗ K ⟨⟩))
      ⊢ wp frame (wpE (defs₀ (F := F)) Variants.none c none) E (cc12__affine_kernel i arg1 harg1 arg2 harg2 arg3 harg3 arg4 harg4) K := by
  simp only [cc12__affine_kernel_eq_skeleton]; unfold cc12__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover12_3 _)

/-- The proof data of pipeline 12 on core c. -/
noncomputable def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) :
    (dat12 V c).after 3 t = out12_3 (iblk12 V c 0 t) (iblk12 V c 1 t) (iblk12 V c 2 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-- What the body is called with at point t, -/
noncomputable def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
noncomputable def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel12 c Set.univ (grid12.coords t) _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand

end
-- ==== Proof.KI.Body13.lean ====
/-
  The affine region at six input columns (pallas_call 13): its proof data and its body obligation, at any float
  instance.

  At grid point t the pipeline hands the body the rows [10000 t, 10000 t + 10000) of the input (10000 x 6), the
  whole weight matrix (6 x 2), the whole bias row (1 x 2), and an output block of the same rows (10000 x 2). The
  weight and the bias have a block index that does not move with the grid point: they are fetched at the first
  point only, and their staging buffers hold the same block at every point. The body stores, in ONE whole-block
  store, the value
      (((((( 0 + x_0 * w_0 ) + x_1 * w_1 ) + x_2 * w_2 ) + x_3 * w_3 ) + x_4 * w_4 ) + x_5 * w_5 ) + b,
  x_i the i-th input column broadcast along the two output columns, w_i the i-th weight row broadcast along the
  rows, b the bias row broadcast along the rows; so after the body the output's staging buffer holds that value of
  the three input blocks, and every input's staging buffer still holds its block.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's current staging buffer holds its block at every point, fetched there or not (a window whose
    block index does not move is fetched at the first point only, and keeps its block), for any proof data whose
    array is the entry contents and whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- The whole input block, the whole weight block, the whole bias row and the whole output block, as rectangles. -/
abbrev r13_a : Rect S10000x6 := Rect.unit (s := S10000x6) ![0, 0] S10000x6.size inb_S10000x6_S10000x6_0_0
abbrev r13_b : Rect S6x2 := Rect.unit (s := S6x2) ![0, 0] S6x2.size inb_S6x2_S6x2_0_0
abbrev r13_c : Rect S1x2 := Rect.unit (s := S1x2) ![0, 0] S1x2.size inb_S1x2_S1x2_0_0
abbrev r13_d : Rect S10000x2 := Rect.unit (s := S10000x2) ![0, 0] S10000x2.size inb_S10000x2_S10000x2_0_0

/-- The output's staging buffer after the body, from the three input blocks: its one store. -/
noncomputable def out13_3 (x0 : Vec F S10000x6 .f32) (x1 : Vec F S6x2 .f32) (x2 : Vec F S1x2 .f32) : Vec F S10000x2 .f32 :=
  View.canon [⟨r13_d, k13_pay1 (View.ld x0 r13_a) (View.ld x1 r13_b) (View.ld x2 r13_c)⟩]

/-- The one store covers the buffer. -/
theorem cover13_3 (p0 : Vec F S10000x2 .f32) (y : S10000x2.Idx) :
    ∃ pc ∈ ([⟨r13_d, p0⟩] : List (View.Piece (Elt F) S10000x2 .f32)), y ∈ pc.1.set :=
  View.cover_of_tiled [⟨r13_d, p0⟩] S10000x2.size (by rfl) y

set_option maxHeartbeats 1000000 in
/-- The body on whole staging memrefs: the inputs keep their contents and the output ends at out13_3 of them. -/
theorem sound_kernel13 (c : Dev nD) (E : Set ℕ) (i : grid13.Coords)
    (arg1 : Memref sig .tc .vmem S10000x6 .f32) (harg1 : arg1.IsWhole) (arg2 : Memref sig .tc .vmem S6x2 .f32) (harg2 : arg2.IsWhole)
    (arg3 : Memref sig .tc .vmem S1x2 .f32) (harg3 : arg3.IsWhole) (arg4 : Memref sig .tc .vmem S10000x2 .f32) (harg4 : arg4.IsWhole)
    (x0 : Vec F S10000x6 .f32) (x1 : Vec F S6x2 .f32) (x2 : Vec F S1x2 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out13_3 x0 x1 x2)) -∗ K ⟨⟩))
      ⊢ wp frame (wpE (defs₀ (F := F)) Variants.none c none) E (cc13__affine_kernel i arg1 harg1 arg2 harg2 arg3 harg3 arg4 harg4) K := by
  simp only [cc13__affine_kernel_eq_skeleton]; unfold cc13__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover13_3 _)

/-- The proof data of pipeline 13 on core c. -/
noncomputable def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) :
    (dat13 V c).after 3 t = out13_3 (iblk13 V c 0 t) (iblk13 V c 1 t) (iblk13 V c 2 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-- What the body is called with at point t, -/
noncomputable def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

/-- and what it returns. -/
noncomputable def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t))

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).Φ t.succ = (dat13 V c).Φ t.castSucc from rfl,
    show (dat13 V c).owesAt () t.succ = (dat13 V c).owesAt () t.castSucc from rfl,
    after13_0, after13_1, after13_2, after13_3]
  iintro ⟨HΦ, Ho, ⟨%d0, H0⟩, ⟨%d1, H1⟩, ⟨%d2, H2⟩, ⟨%d3, H3⟩⟩
  iapply (sound_kernel13 c Set.univ (grid13.coords t) _ _ _ _ _ _ _ _ (iblk13 V c 0 t) (iblk13 V c 1 t) (iblk13 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.KernelIdeal.Hand

end
-- ==== Proof.KI.Body14.lean ====
/-
  The message region (pallas_call 14): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- An input window's current staging buffer holds its block at every point, for any proof data whose array is the
    entry contents and whose body leaves the block in place. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

/-- The whole 4000 x 1 block and the whole 4000 x 2 block, as rectangles. -/
abbrev r14_a : Rect S4000x1 := Rect.unit (s := S4000x1) ![0, 0] S4000x1.size inb_S4000x1_S4000x1_0_0
abbrev r14_b : Rect S4000x2 := Rect.unit (s := S4000x2) ![0, 0] S4000x2.size inb_S4000x2_S4000x2_0_0

/-- The output's staging buffer after the body, from the four input blocks: its one store. -/
noncomputable def out14_4 (x0 x1 : Vec F S4000x1 .f32) (x2 x3 : Vec F S4000x2 .f32) : Vec F S4000x2 .f32 :=
  View.canon [⟨r14_b, k14_pay1 (View.ld x0 r14_a) (View.ld x1 r14_a) (View.ld x2 r14_b) (View.ld x3 r14_b)⟩]

/-- The one store covers the buffer. -/
theorem cover14_4 (p0 : Vec F S4000x2 .f32) (y : S4000x2.Idx) :
    ∃ pc ∈ ([⟨r14_b, p0⟩] : List (View.Piece (Elt F) S4000x2 .f32)), y ∈ pc.1.set :=
  View.cover_of_tiled [⟨r14_b, p0⟩] S4000x2.size (by rfl) y

set_option maxHeartbeats 1000000 in
/-- The body on whole staging memrefs: the inputs keep their contents and the output ends at out14_4 of them. -/
theorem sound_kernel14 (c : Dev nD) (E : Set ℕ) (i : grid14.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out14_4 x0 x1 x2 x3)) -∗ K ⟨⟩))
      ⊢ wp frame (wpE (defs₀ (F := F)) Variants.none c none) E (cc14__message_kernel i arg1 harg1 arg2 harg2 arg3 harg3 arg4 harg4 arg5 harg5) K := by
  simp only [cc14__message_kernel_eq_skeleton]; unfold cc14__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover14_4 _)

/-- The proof data of pipeline 14 on core c. -/
noncomputable def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => out14_4 (iblk14 V c 0 t) (iblk14 V c 1 t) (iblk14 V c 2 t) (iblk14 V c 3 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) :
    (dat14 V c).after 4 t = out14_4 (iblk14 V c 0 t) (iblk14 V c 1 t) (iblk14 V c 2 t) (iblk14 V c 3 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d

/-- What the body is called with at point t, -/
noncomputable def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d)))

/-- and what it returns. -/
noncomputable def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t))

theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3]
  rw [show (dat14 V c).Φ t.succ = (dat14 V c).Φ t.castSucc from rfl,
    show (dat14 V c).owesAt () t.succ = (dat14 V c).owesAt () t.castSucc from rfl,
    after14_0, after14_1, after14_2, after14_3, after14_4]
  iintro ⟨HΦ, Ho, ⟨%d0, H0⟩, ⟨%d1, H1⟩, ⟨%d2, H2⟩, ⟨%d3, H3⟩, ⟨%d4, H4⟩⟩
  iapply (sound_kernel14 c Set.univ _ _ _ _ _ _ _ _ _ _ _ (iblk14 V c 0 t) (iblk14 V c 1 t) (iblk14 V c 2 t) (iblk14 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.KernelIdeal.Hand

end
-- ==== Proof.KI.Body15.lean ====
/-
  The message region (pallas_call 15): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- An input window's current staging buffer holds its block at every point, for any proof data whose array is the
    entry contents and whose body leaves the block in place. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)
theorem before15_3_of {c : Dev nD} (dat : Dat τ (Elt F) Unit ℕ (UR sig nD τ) ℕ cfg15 c) (hA : dat.A 3 = V c (Pipeline.arrRef spec15 3))
    (hafter : ∀ t, dat.after 3 t = iblk15 V c 3 t) (t : Fin cfg15.N) (d) : dat.before 3 t d = iblk15 V c 3 t :=
  (dat.before_in_eq_fetched 3 rfl (fun _ => rfl) (fun _ _ _ => rfl) (fun t => by rw [hafter]; unfold Dat.blockOf iblk15; rw [hA]; try rfl) t d).trans
    (by unfold Dat.fetched Dat.blockOf iblk15; rw [hA]; try rfl)

/-- The whole 4000 x 1 block and the whole 4000 x 2 block, as rectangles. -/
abbrev r15_a : Rect S4000x1 := Rect.unit (s := S4000x1) ![0, 0] S4000x1.size inb_S4000x1_S4000x1_0_0
abbrev r15_b : Rect S4000x2 := Rect.unit (s := S4000x2) ![0, 0] S4000x2.size inb_S4000x2_S4000x2_0_0

/-- The output's staging buffer after the body, from the four input blocks: its one store. -/
noncomputable def out15_4 (x0 x1 : Vec F S4000x1 .f32) (x2 x3 : Vec F S4000x2 .f32) : Vec F S4000x2 .f32 :=
  View.canon [⟨r15_b, k15_pay1 (View.ld x0 r15_a) (View.ld x1 r15_a) (View.ld x2 r15_b) (View.ld x3 r15_b)⟩]

/-- The one store covers the buffer. -/
theorem cover15_4 (p0 : Vec F S4000x2 .f32) (y : S4000x2.Idx) :
    ∃ pc ∈ ([⟨r15_b, p0⟩] : List (View.Piece (Elt F) S4000x2 .f32)), y ∈ pc.1.set :=
  View.cover_of_tiled [⟨r15_b, p0⟩] S4000x2.size (by rfl) y

set_option maxHeartbeats 1000000 in
/-- The body on whole staging memrefs: the inputs keep their contents and the output ends at out15_4 of them. -/
theorem sound_kernel15 (c : Dev nD) (E : Set ℕ) (i : grid15.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out15_4 x0 x1 x2 x3)) -∗ K ⟨⟩))
      ⊢ wp frame (wpE (defs₀ (F := F)) Variants.none c none) E (cc15__message_kernel i arg1 harg1 arg2 harg2 arg3 harg3 arg4 harg4 arg5 harg5) K := by
  simp only [cc15__message_kernel_eq_skeleton]; unfold cc15__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover15_4 _)

/-- The proof data of pipeline 15 on core c. -/
noncomputable def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => out15_4 (iblk15 V c 0 t) (iblk15 V c 1 t) (iblk15 V c 2 t) (iblk15 V c 3 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = iblk15 V c 3 t := by dsimp only [dat15]
theorem after15_4 (c : Dev nD) (t : Fin cfg15.N) :
    (dat15 V c).after 4 t = out15_4 (iblk15 V c 0 t) (iblk15 V c 1 t) (iblk15 V c 2 t) (iblk15 V c 3 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d
theorem before15_3 (c : Dev nD) (t : Fin cfg15.N) (d) : (dat15 V c).before 3 t d = iblk15 V c 3 t :=
  before15_3_of V (dat15 V c) (A_eq15 V c 3) (after15_3 V c) t d

/-- What the body is called with at point t, -/
noncomputable def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d))
    ∗ (∃ d, owns (c : Thread nD τ) (st15_4 t) fullShare ((dat15 V c).before 4 t d)))

/-- and what it returns. -/
noncomputable def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t)
    ∗ owns (c : Thread nD τ) (st15_4 t) fullShare ((dat15 V c).after 4 t))

theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2, before15_3]
  rw [show (dat15 V c).Φ t.succ = (dat15 V c).Φ t.castSucc from rfl,
    show (dat15 V c).owesAt () t.succ = (dat15 V c).owesAt () t.castSucc from rfl,
    after15_0, after15_1, after15_2, after15_3, after15_4]
  iintro ⟨HΦ, Ho, ⟨%d0, H0⟩, ⟨%d1, H1⟩, ⟨%d2, H2⟩, ⟨%d3, H3⟩, ⟨%d4, H4⟩⟩
  iapply (sound_kernel15 c Set.univ _ _ _ _ _ _ _ _ _ _ _ (iblk15 V c 0 t) (iblk15 V c 1 t) (iblk15 V c 2 t) (iblk15 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation15 (c : Dev nD) : BodyObligation (dat15 (F := F) V c) (defs₀ (F := F)) Variants.none () Set.univ := fun t => by
  rw [bigSep_W15, bigSep_W15]
  exact sound_body15 V c t

end Cert.KernelIdeal.Hand

end
-- ==== Proof.KI.Body16.lean ====
/-
  The message region (pallas_call 16): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- An input window's current staging buffer holds its block at every point, for any proof data whose array is the
    entry contents and whose body leaves the block in place. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)
theorem before16_3_of {c : Dev nD} (dat : Dat τ (Elt F) Unit ℕ (UR sig nD τ) ℕ cfg16 c) (hA : dat.A 3 = V c (Pipeline.arrRef spec16 3))
    (hafter : ∀ t, dat.after 3 t = iblk16 V c 3 t) (t : Fin cfg16.N) (d) : dat.before 3 t d = iblk16 V c 3 t :=
  (dat.before_in_eq_fetched 3 rfl (fun _ => rfl) (fun _ _ _ => rfl) (fun t => by rw [hafter]; unfold Dat.blockOf iblk16; rw [hA]; try rfl) t d).trans
    (by unfold Dat.fetched Dat.blockOf iblk16; rw [hA]; try rfl)

/-- The whole 4000 x 1 block and the whole 4000 x 2 block, as rectangles. -/
abbrev r16_a : Rect S4000x1 := Rect.unit (s := S4000x1) ![0, 0] S4000x1.size inb_S4000x1_S4000x1_0_0
abbrev r16_b : Rect S4000x2 := Rect.unit (s := S4000x2) ![0, 0] S4000x2.size inb_S4000x2_S4000x2_0_0

/-- The output's staging buffer after the body, from the four input blocks: its one store. -/
noncomputable def out16_4 (x0 x1 : Vec F S4000x1 .f32) (x2 x3 : Vec F S4000x2 .f32) : Vec F S4000x2 .f32 :=
  View.canon [⟨r16_b, k16_pay1 (View.ld x0 r16_a) (View.ld x1 r16_a) (View.ld x2 r16_b) (View.ld x3 r16_b)⟩]

/-- The one store covers the buffer. -/
theorem cover16_4 (p0 : Vec F S4000x2 .f32) (y : S4000x2.Idx) :
    ∃ pc ∈ ([⟨r16_b, p0⟩] : List (View.Piece (Elt F) S4000x2 .f32)), y ∈ pc.1.set :=
  View.cover_of_tiled [⟨r16_b, p0⟩] S4000x2.size (by rfl) y

set_option maxHeartbeats 1000000 in
/-- The body on whole staging memrefs: the inputs keep their contents and the output ends at out16_4 of them. -/
theorem sound_kernel16 (c : Dev nD) (E : Set ℕ) (i : grid16.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out16_4 x0 x1 x2 x3)) -∗ K ⟨⟩))
      ⊢ wp frame (wpE (defs₀ (F := F)) Variants.none c none) E (cc16__message_kernel i arg1 harg1 arg2 harg2 arg3 harg3 arg4 harg4 arg5 harg5) K := by
  simp only [cc16__message_kernel_eq_skeleton]; unfold cc16__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover16_4 _)

/-- The proof data of pipeline 16 on core c. -/
noncomputable def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => out16_4 (iblk16 V c 0 t) (iblk16 V c 1 t) (iblk16 V c 2 t) (iblk16 V c 3 t)
  Φ _ := Pipeline.ΦA spec16 c
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) :
    (dat16 V c).after 4 t = out16_4 (iblk16 V c 0 t) (iblk16 V c 1 t) (iblk16 V c 2 t) (iblk16 V c 3 t) := by dsimp only [dat16]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d

/-- What the body is called with at point t, -/
noncomputable def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d)))

/-- and what it returns. -/
noncomputable def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t))

theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3]
  rw [show (dat16 V c).Φ t.succ = (dat16 V c).Φ t.castSucc from rfl,
    show (dat16 V c).owesAt () t.succ = (dat16 V c).owesAt () t.castSucc from rfl,
    after16_0, after16_1, after16_2, after16_3, after16_4]
  iintro ⟨HΦ, Ho, ⟨%d0, H0⟩, ⟨%d1, H1⟩, ⟨%d2, H2⟩, ⟨%d3, H3⟩, ⟨%d4, H4⟩⟩
  iapply (sound_kernel16 c Set.univ _ _ _ _ _ _ _ _ _ _ _ (iblk16 V c 0 t) (iblk16 V c 1 t) (iblk16 V c 2 t) (iblk16 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation16 (c : Dev nD) : BodyObligation (dat16 (F := F) V c) (defs₀ (F := F)) Variants.none () Set.univ := fun t => by
  rw [bigSep_W16, bigSep_W16]
  exact sound_body16 V c t

end Cert.KernelIdeal.Hand

end
-- ==== Proof.KI.Body17.lean ====
/-
  The message region (pallas_call 17): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- An input window's current staging buffer holds its block at every point, for any proof data whose array is the
    entry contents and whose body leaves the block in place. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)
theorem before17_3_of {c : Dev nD} (dat : Dat τ (Elt F) Unit ℕ (UR sig nD τ) ℕ cfg17 c) (hA : dat.A 3 = V c (Pipeline.arrRef spec17 3))
    (hafter : ∀ t, dat.after 3 t = iblk17 V c 3 t) (t : Fin cfg17.N) (d) : dat.before 3 t d = iblk17 V c 3 t :=
  (dat.before_in_eq_fetched 3 rfl (fun _ => rfl) (fun _ _ _ => rfl) (fun t => by rw [hafter]; unfold Dat.blockOf iblk17; rw [hA]; try rfl) t d).trans
    (by unfold Dat.fetched Dat.blockOf iblk17; rw [hA]; try rfl)

/-- The whole 4000 x 1 block and the whole 4000 x 2 block, as rectangles. -/
abbrev r17_a : Rect S4000x1 := Rect.unit (s := S4000x1) ![0, 0] S4000x1.size inb_S4000x1_S4000x1_0_0
abbrev r17_b : Rect S4000x2 := Rect.unit (s := S4000x2) ![0, 0] S4000x2.size inb_S4000x2_S4000x2_0_0

/-- The output's staging buffer after the body, from the four input blocks: its one store. -/
noncomputable def out17_4 (x0 x1 : Vec F S4000x1 .f32) (x2 x3 : Vec F S4000x2 .f32) : Vec F S4000x2 .f32 :=
  View.canon [⟨r17_b, k17_pay1 (View.ld x0 r17_a) (View.ld x1 r17_a) (View.ld x2 r17_b) (View.ld x3 r17_b)⟩]

/-- The one store covers the buffer. -/
theorem cover17_4 (p0 : Vec F S4000x2 .f32) (y : S4000x2.Idx) :
    ∃ pc ∈ ([⟨r17_b, p0⟩] : List (View.Piece (Elt F) S4000x2 .f32)), y ∈ pc.1.set :=
  View.cover_of_tiled [⟨r17_b, p0⟩] S4000x2.size (by rfl) y

set_option maxHeartbeats 1000000 in
/-- The body on whole staging memrefs: the inputs keep their contents and the output ends at out17_4 of them. -/
theorem sound_kernel17 (c : Dev nD) (E : Set ℕ) (i : grid17.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out17_4 x0 x1 x2 x3)) -∗ K ⟨⟩))
      ⊢ wp frame (wpE (defs₀ (F := F)) Variants.none c none) E (cc17__message_kernel i arg1 harg1 arg2 harg2 arg3 harg3 arg4 harg4 arg5 harg5) K := by
  simp only [cc17__message_kernel_eq_skeleton]; unfold cc17__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover17_4 _)

/-- The proof data of pipeline 17 on core c. -/
noncomputable def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => iblk17 V c 3 t
    | ⟨4, _⟩ => out17_4 (iblk17 V c 0 t) (iblk17 V c 1 t) (iblk17 V c 2 t) (iblk17 V c 3 t)
  Φ _ := Pipeline.ΦA spec17 c
  q _ := fullShare
  owed _ := 0

theorem A_eq17 (c : Dev nD) (w : Fin cfg17.W) : (dat17 V c).A w = V c (Pipeline.arrRef spec17 w) := by
  dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = iblk17 V c 3 t := by dsimp only [dat17]
theorem after17_4 (c : Dev nD) (t : Fin cfg17.N) :
    (dat17 V c).after 4 t = out17_4 (iblk17 V c 0 t) (iblk17 V c 1 t) (iblk17 V c 2 t) (iblk17 V c 3 t) := by dsimp only [dat17]

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d
theorem before17_3 (c : Dev nD) (t : Fin cfg17.N) (d) : (dat17 V c).before 3 t d = iblk17 V c 3 t :=
  before17_3_of V (dat17 V c) (A_eq17 V c 3) (after17_3 V c) t d

/-- What the body is called with at point t, -/
noncomputable def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d))
    ∗ (∃ d, owns (c : Thread nD τ) (st17_4 t) fullShare ((dat17 V c).before 4 t d)))

/-- and what it returns. -/
noncomputable def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t)
    ∗ owns (c : Thread nD τ) (st17_4 t) fullShare ((dat17 V c).after 4 t))

theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2, before17_3]
  rw [show (dat17 V c).Φ t.succ = (dat17 V c).Φ t.castSucc from rfl,
    show (dat17 V c).owesAt () t.succ = (dat17 V c).owesAt () t.castSucc from rfl,
    after17_0, after17_1, after17_2, after17_3, after17_4]
  iintro ⟨HΦ, Ho, ⟨%d0, H0⟩, ⟨%d1, H1⟩, ⟨%d2, H2⟩, ⟨%d3, H3⟩, ⟨%d4, H4⟩⟩
  iapply (sound_kernel17 c Set.univ _ _ _ _ _ _ _ _ _ _ _ (iblk17 V c 0 t) (iblk17 V c 1 t) (iblk17 V c 2 t) (iblk17 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation17 (c : Dev nD) : BodyObligation (dat17 (F := F) V c) (defs₀ (F := F)) Variants.none () Set.univ := fun t => by
  rw [bigSep_W17, bigSep_W17]
  exact sound_body17 V c t

end Cert.KernelIdeal.Hand

end
-- ==== Proof.KI.Body18.lean ====
/-
  The affine region at six input columns (pallas_call 18): its proof data and its body obligation, at any float
  instance.

  At grid point t the pipeline hands the body the rows [10000 t, 10000 t + 10000) of the input (10000 x 6), the
  whole weight matrix (6 x 2), the whole bias row (1 x 2), and an output block of the same rows (10000 x 2). The
  weight and the bias have a block index that does not move with the grid point: they are fetched at the first
  point only, and their staging buffers hold the same block at every point. The body stores, in ONE whole-block
  store, the value
      (((((( 0 + x_0 * w_0 ) + x_1 * w_1 ) + x_2 * w_2 ) + x_3 * w_3 ) + x_4 * w_4 ) + x_5 * w_5 ) + b,
  x_i the i-th input column broadcast along the two output columns, w_i the i-th weight row broadcast along the
  rows, b the bias row broadcast along the rows; so after the body the output's staging buffer holds that value of
  the three input blocks, and every input's staging buffer still holds its block.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- An input window's current staging buffer holds its block at every point, fetched there or not (a window whose
    block index does not move is fetched at the first point only, and keeps its block), for any proof data whose
    array is the entry contents and whose body leaves the block in place. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)
theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)

/-- The whole input block, the whole weight block, the whole bias row and the whole output block, as rectangles. -/
abbrev r18_a : Rect S10000x6 := Rect.unit (s := S10000x6) ![0, 0] S10000x6.size inb_S10000x6_S10000x6_0_0
abbrev r18_b : Rect S6x2 := Rect.unit (s := S6x2) ![0, 0] S6x2.size inb_S6x2_S6x2_0_0
abbrev r18_c : Rect S1x2 := Rect.unit (s := S1x2) ![0, 0] S1x2.size inb_S1x2_S1x2_0_0
abbrev r18_d : Rect S10000x2 := Rect.unit (s := S10000x2) ![0, 0] S10000x2.size inb_S10000x2_S10000x2_0_0

/-- The output's staging buffer after the body, from the three input blocks: its one store. -/
noncomputable def out18_3 (x0 : Vec F S10000x6 .f32) (x1 : Vec F S6x2 .f32) (x2 : Vec F S1x2 .f32) : Vec F S10000x2 .f32 :=
  View.canon [⟨r18_d, k18_pay1 (View.ld x0 r18_a) (View.ld x1 r18_b) (View.ld x2 r18_c)⟩]

/-- The one store covers the buffer. -/
theorem cover18_3 (p0 : Vec F S10000x2 .f32) (y : S10000x2.Idx) :
    ∃ pc ∈ ([⟨r18_d, p0⟩] : List (View.Piece (Elt F) S10000x2 .f32)), y ∈ pc.1.set :=
  View.cover_of_tiled [⟨r18_d, p0⟩] S10000x2.size (by rfl) y

set_option maxHeartbeats 1000000 in
/-- The body on whole staging memrefs: the inputs keep their contents and the output ends at out18_3 of them. -/
theorem sound_kernel18 (c : Dev nD) (E : Set ℕ) (i : grid18.Coords)
    (arg1 : Memref sig .tc .vmem S10000x6 .f32) (harg1 : arg1.IsWhole) (arg2 : Memref sig .tc .vmem S6x2 .f32) (harg2 : arg2.IsWhole)
    (arg3 : Memref sig .tc .vmem S1x2 .f32) (harg3 : arg3.IsWhole) (arg4 : Memref sig .tc .vmem S10000x2 .f32) (harg4 : arg4.IsWhole)
    (x0 : Vec F S10000x6 .f32) (x1 : Vec F S6x2 .f32) (x2 : Vec F S1x2 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out18_3 x0 x1 x2)) -∗ K ⟨⟩))
      ⊢ wp frame (wpE (defs₀ (F := F)) Variants.none c none) E (cc18__affine_kernel i arg1 harg1 arg2 harg2 arg3 harg3 arg4 harg4) K := by
  simp only [cc18__affine_kernel_eq_skeleton]; unfold cc18__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover18_3 _)

/-- The proof data of pipeline 18 on core c. -/
noncomputable def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => out18_3 (iblk18 V c 0 t) (iblk18 V c 1 t) (iblk18 V c 2 t)
  Φ _ := Pipeline.ΦA spec18 c
  q _ := fullShare
  owed _ := 0

theorem A_eq18 (c : Dev nD) (w : Fin cfg18.W) : (dat18 V c).A w = V c (Pipeline.arrRef spec18 w) := by
  dsimp only [dat18]

theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) :
    (dat18 V c).after 3 t = out18_3 (iblk18 V c 0 t) (iblk18 V c 1 t) (iblk18 V c 2 t) := by dsimp only [dat18]

theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d

/-- What the body is called with at point t, -/
noncomputable def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d)))

/-- and what it returns. -/
noncomputable def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t))

theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2]
  rw [show (dat18 V c).Φ t.succ = (dat18 V c).Φ t.castSucc from rfl,
    show (dat18 V c).owesAt () t.succ = (dat18 V c).owesAt () t.castSucc from rfl,
    after18_0, after18_1, after18_2, after18_3]
  iintro ⟨HΦ, Ho, ⟨%d0, H0⟩, ⟨%d1, H1⟩, ⟨%d2, H2⟩, ⟨%d3, H3⟩⟩
  iapply (sound_kernel18 c Set.univ (grid18.coords t) _ _ _ _ _ _ _ _ (iblk18 V c 0 t) (iblk18 V c 1 t) (iblk18 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation18 (c : Dev nD) : BodyObligation (dat18 (F := F) V c) (defs₀ (F := F)) Variants.none () Set.univ := fun t => by
  rw [bigSep_W18, bigSep_W18]
  exact sound_body18 V c t

end Cert.KernelIdeal.Hand

end
-- ==== Proof.KI.Body19.lean ====
/-
  The affine region at six input columns (pallas_call 19): its proof data and its body obligation, at any float
  instance.

  At grid point t the pipeline hands the body the rows [10000 t, 10000 t + 10000) of the input (10000 x 6), the
  whole weight matrix (6 x 2), the whole bias row (1 x 2), and an output block of the same rows (10000 x 2). The
  weight and the bias have a block index that does not move with the grid point: they are fetched at the first
  point only, and their staging buffers hold the same block at every point. The body stores, in ONE whole-block
  store, the value
      (((((( 0 + x_0 * w_0 ) + x_1 * w_1 ) + x_2 * w_2 ) + x_3 * w_3 ) + x_4 * w_4 ) + x_5 * w_5 ) + b,
  x_i the i-th input column broadcast along the two output columns, w_i the i-th weight row broadcast along the
  rows, b the bias row broadcast along the rows; so after the body the output's staging buffer holds that value of
  the three input blocks, and every input's staging buffer still holds its block.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- An input window's current staging buffer holds its block at every point, fetched there or not (a window whose
    block index does not move is fetched at the first point only, and keeps its block), for any proof data whose
    array is the entry contents and whose body leaves the block in place. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)
theorem before19_2_of {c : Dev nD} (dat : Dat τ (Elt F) Unit ℕ (UR sig nD τ) ℕ cfg19 c) (hA : dat.A 2 = V c (Pipeline.arrRef spec19 2))
    (hafter : ∀ t, dat.after 2 t = iblk19 V c 2 t) (t : Fin cfg19.N) (d) : dat.before 2 t d = iblk19 V c 2 t :=
  (dat.before_in_eq_fetched 2 rfl (fun _ => rfl) (fun _ _ _ => rfl) (fun t => by rw [hafter]; unfold Dat.blockOf iblk19; rw [hA]; try rfl) t d).trans
    (by unfold Dat.fetched Dat.blockOf iblk19; rw [hA]; try rfl)

/-- The whole input block, the whole weight block, the whole bias row and the whole output block, as rectangles. -/
abbrev r19_a : Rect S10000x6 := Rect.unit (s := S10000x6) ![0, 0] S10000x6.size inb_S10000x6_S10000x6_0_0
abbrev r19_b : Rect S6x2 := Rect.unit (s := S6x2) ![0, 0] S6x2.size inb_S6x2_S6x2_0_0
abbrev r19_c : Rect S1x2 := Rect.unit (s := S1x2) ![0, 0] S1x2.size inb_S1x2_S1x2_0_0
abbrev r19_d : Rect S10000x2 := Rect.unit (s := S10000x2) ![0, 0] S10000x2.size inb_S10000x2_S10000x2_0_0

/-- The output's staging buffer after the body, from the three input blocks: its one store. -/
noncomputable def out19_3 (x0 : Vec F S10000x6 .f32) (x1 : Vec F S6x2 .f32) (x2 : Vec F S1x2 .f32) : Vec F S10000x2 .f32 :=
  View.canon [⟨r19_d, k19_pay1 (View.ld x0 r19_a) (View.ld x1 r19_b) (View.ld x2 r19_c)⟩]

/-- The one store covers the buffer. -/
theorem cover19_3 (p0 : Vec F S10000x2 .f32) (y : S10000x2.Idx) :
    ∃ pc ∈ ([⟨r19_d, p0⟩] : List (View.Piece (Elt F) S10000x2 .f32)), y ∈ pc.1.set :=
  View.cover_of_tiled [⟨r19_d, p0⟩] S10000x2.size (by rfl) y

set_option maxHeartbeats 1000000 in
/-- The body on whole staging memrefs: the inputs keep their contents and the output ends at out19_3 of them. -/
theorem sound_kernel19 (c : Dev nD) (E : Set ℕ) (i : grid19.Coords)
    (arg1 : Memref sig .tc .vmem S10000x6 .f32) (harg1 : arg1.IsWhole) (arg2 : Memref sig .tc .vmem S6x2 .f32) (harg2 : arg2.IsWhole)
    (arg3 : Memref sig .tc .vmem S1x2 .f32) (harg3 : arg3.IsWhole) (arg4 : Memref sig .tc .vmem S10000x2 .f32) (harg4 : arg4.IsWhole)
    (x0 : Vec F S10000x6 .f32) (x1 : Vec F S6x2 .f32) (x2 : Vec F S1x2 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out19_3 x0 x1 x2)) -∗ K ⟨⟩))
      ⊢ wp frame (wpE (defs₀ (F := F)) Variants.none c none) E (cc19__affine_kernel i arg1 harg1 arg2 harg2 arg3 harg3 arg4 harg4) K := by
  simp only [cc19__affine_kernel_eq_skeleton]; unfold cc19__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover19_3 _)

/-- The proof data of pipeline 19 on core c. -/
noncomputable def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => iblk19 V c 2 t
    | ⟨3, _⟩ => out19_3 (iblk19 V c 0 t) (iblk19 V c 1 t) (iblk19 V c 2 t)
  Φ _ := Pipeline.ΦA spec19 c
  q _ := fullShare
  owed _ := 0

theorem A_eq19 (c : Dev nD) (w : Fin cfg19.W) : (dat19 V c).A w = V c (Pipeline.arrRef spec19 w) := by
  dsimp only [dat19]

theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = iblk19 V c 2 t := by dsimp only [dat19]
theorem after19_3 (c : Dev nD) (t : Fin cfg19.N) :
    (dat19 V c).after 3 t = out19_3 (iblk19 V c 0 t) (iblk19 V c 1 t) (iblk19 V c 2 t) := by dsimp only [dat19]

theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d
theorem before19_2 (c : Dev nD) (t : Fin cfg19.N) (d) : (dat19 V c).before 2 t d = iblk19 V c 2 t :=
  before19_2_of V (dat19 V c) (A_eq19 V c 2) (after19_2 V c) t d

/-- What the body is called with at point t, -/
noncomputable def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d))
    ∗ (∃ d, owns (c : Thread nD τ) (st19_3 t) fullShare ((dat19 V c).before 3 t d)))

/-- and what it returns. -/
noncomputable def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t)
    ∗ owns (c : Thread nD τ) (st19_3 t) fullShare ((dat19 V c).after 3 t))

theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1, before19_2]
  rw [show (dat19 V c).Φ t.succ = (dat19 V c).Φ t.castSucc from rfl,
    show (dat19 V c).owesAt () t.succ = (dat19 V c).owesAt () t.castSucc from rfl,
    after19_0, after19_1, after19_2, after19_3]
  iintro ⟨HΦ, Ho, ⟨%d0, H0⟩, ⟨%d1, H1⟩, ⟨%d2, H2⟩, ⟨%d3, H3⟩⟩
  iapply (sound_kernel19 c Set.univ (grid19.coords t) _ _ _ _ _ _ _ _ (iblk19 V c 0 t) (iblk19 V c 1 t) (iblk19 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation19 (c : Dev nD) : BodyObligation (dat19 (F := F) V c) (defs₀ (F := F)) Variants.none () Set.univ := fun t => by
  rw [bigSep_W19, bigSep_W19]
  exact sound_body19 V c t

end Cert.KernelIdeal.Hand

end
-- ==== Proof.KI.Body20.lean ====
/-
  The message region (pallas_call 20): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-- An input window's current staging buffer holds its block at every point, for any proof data whose array is the
    entry contents and whose body leaves the block in place. -/
theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)
theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)
theorem before20_2_of {c : Dev nD} (dat : Dat τ (Elt F) Unit ℕ (UR sig nD τ) ℕ cfg20 c) (hA : dat.A 2 = V c (Pipeline.arrRef spec20 2))
    (hafter : ∀ t, dat.after 2 t = iblk20 V c 2 t) (t : Fin cfg20.N) (d) : dat.before 2 t d = iblk20 V c 2 t :=
  (dat.before_in_eq_fetched 2 rfl (fun _ => rfl) (fun _ _ _ => rfl) (fun t => by rw [hafter]; unfold Dat.blockOf iblk20; rw [hA]; try rfl) t d).trans
    (by unfold Dat.fetched Dat.blockOf iblk20; rw [hA]; try rfl)
theorem before20_3_of {c : Dev nD} (dat : Dat τ (Elt F) Unit ℕ (UR sig nD τ) ℕ cfg20 c) (hA : dat.A 3 = V c (Pipeline.arrRef spec20 3))
    (hafter : ∀ t, dat.after 3 t = iblk20 V c 3 t) (t : Fin cfg20.N) (d) : dat.before 3 t d = iblk20 V c 3 t :=
  (dat.before_in_eq_fetched 3 rfl (fun _ => rfl) (fun _ _ _ => rfl) (fun t => by rw [hafter]; unfold Dat.blockOf iblk20; rw [hA]; try rfl) t d).trans
    (by unfold Dat.fetched Dat.blockOf iblk20; rw [hA]; try rfl)

/-- The whole 4000 x 1 block and the whole 4000 x 2 block, as rectangles. -/
abbrev r20_a : Rect S4000x1 := Rect.unit (s := S4000x1) ![0, 0] S4000x1.size inb_S4000x1_S4000x1_0_0
abbrev r20_b : Rect S4000x2 := Rect.unit (s := S4000x2) ![0, 0] S4000x2.size inb_S4000x2_S4000x2_0_0

/-- The output's staging buffer after the body, from the four input blocks: its one store. -/
noncomputable def out20_4 (x0 x1 : Vec F S4000x1 .f32) (x2 x3 : Vec F S4000x2 .f32) : Vec F S4000x2 .f32 :=
  View.canon [⟨r20_b, k20_pay1 (View.ld x0 r20_a) (View.ld x1 r20_a) (View.ld x2 r20_b) (View.ld x3 r20_b)⟩]

/-- The one store covers the buffer. -/
theorem cover20_4 (p0 : Vec F S4000x2 .f32) (y : S4000x2.Idx) :
    ∃ pc ∈ ([⟨r20_b, p0⟩] : List (View.Piece (Elt F) S4000x2 .f32)), y ∈ pc.1.set :=
  View.cover_of_tiled [⟨r20_b, p0⟩] S4000x2.size (by rfl) y

set_option maxHeartbeats 1000000 in
/-- The body on whole staging memrefs: the inputs keep their contents and the output ends at out20_4 of them. -/
theorem sound_kernel20 (c : Dev nD) (E : Set ℕ) (i : grid20.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out20_4 x0 x1 x2 x3)) -∗ K ⟨⟩))
      ⊢ wp frame (wpE (defs₀ (F := F)) Variants.none c none) E (cc20__message_kernel i arg1 harg1 arg2 harg2 arg3 harg3 arg4 harg4 arg5 harg5) K := by
  simp only [cc20__message_kernel_eq_skeleton]; unfold cc20__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover20_4 _)

/-- The proof data of pipeline 20 on core c. -/
noncomputable def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => iblk20 V c 2 t
    | ⟨3, _⟩ => iblk20 V c 3 t
    | ⟨4, _⟩ => out20_4 (iblk20 V c 0 t) (iblk20 V c 1 t) (iblk20 V c 2 t) (iblk20 V c 3 t)
  Φ _ := Pipeline.ΦA spec20 c
  q _ := fullShare
  owed _ := 0

theorem A_eq20 (c : Dev nD) (w : Fin cfg20.W) : (dat20 V c).A w = V c (Pipeline.arrRef spec20 w) := by
  dsimp only [dat20]

theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = iblk20 V c 2 t := by dsimp only [dat20]
theorem after20_3 (c : Dev nD) (t : Fin cfg20.N) : (dat20 V c).after 3 t = iblk20 V c 3 t := by dsimp only [dat20]
theorem after20_4 (c : Dev nD) (t : Fin cfg20.N) :
    (dat20 V c).after 4 t = out20_4 (iblk20 V c 0 t) (iblk20 V c 1 t) (iblk20 V c 2 t) (iblk20 V c 3 t) := by dsimp only [dat20]

theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d
theorem before20_2 (c : Dev nD) (t : Fin cfg20.N) (d) : (dat20 V c).before 2 t d = iblk20 V c 2 t :=
  before20_2_of V (dat20 V c) (A_eq20 V c 2) (after20_2 V c) t d
theorem before20_3 (c : Dev nD) (t : Fin cfg20.N) (d) : (dat20 V c).before 3 t d = iblk20 V c 3 t :=
  before20_3_of V (dat20 V c) (A_eq20 V c 3) (after20_3 V c) t d

/-- What the body is called with at point t, -/
noncomputable def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d))
    ∗ (∃ d, owns (c : Thread nD τ) (st20_3 t) fullShare ((dat20 V c).before 3 t d))
    ∗ (∃ d, owns (c : Thread nD τ) (st20_4 t) fullShare ((dat20 V c).before 4 t d)))

/-- and what it returns. -/
noncomputable def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t)
    ∗ owns (c : Thread nD τ) (st20_3 t) fullShare ((dat20 V c).after 3 t)
    ∗ owns (c : Thread nD τ) (st20_4 t) fullShare ((dat20 V c).after 4 t))

theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1, before20_2, before20_3]
  rw [show (dat20 V c).Φ t.succ = (dat20 V c).Φ t.castSucc from rfl,
    show (dat20 V c).owesAt () t.succ = (dat20 V c).owesAt () t.castSucc from rfl,
    after20_0, after20_1, after20_2, after20_3, after20_4]
  iintro ⟨HΦ, Ho, ⟨%d0, H0⟩, ⟨%d1, H1⟩, ⟨%d2, H2⟩, ⟨%d3, H3⟩, ⟨%d4, H4⟩⟩
  iapply (sound_kernel20 c Set.univ _ _ _ _ _ _ _ _ _ _ _ (iblk20 V c 0 t) (iblk20 V c 1 t) (iblk20 V c 2 t) (iblk20 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation20 (c : Dev nD) : BodyObligation (dat20 (F := F) V c) (defs₀ (F := F)) Variants.none () Set.univ := fun t => by
  rw [bigSep_W20, bigSep_W20]
  exact sound_body20 V c t

end Cert.KernelIdeal.Hand

end
-- ==== Proof.KI.Body21.lean ====
/-
  The message region (pallas_call 21): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

/-- An input window's current staging buffer holds its block at every point, for any proof data whose array is the
    entry contents and whose body leaves the block in place. -/
theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)
theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)
theorem before21_2_of {c : Dev nD} (dat : Dat τ (Elt F) Unit ℕ (UR sig nD τ) ℕ cfg21 c) (hA : dat.A 2 = V c (Pipeline.arrRef spec21 2))
    (hafter : ∀ t, dat.after 2 t = iblk21 V c 2 t) (t : Fin cfg21.N) (d) : dat.before 2 t d = iblk21 V c 2 t :=
  (dat.before_in_eq_fetched 2 rfl (fun _ => rfl) (fun _ _ _ => rfl) (fun t => by rw [hafter]; unfold Dat.blockOf iblk21; rw [hA]; try rfl) t d).trans
    (by unfold Dat.fetched Dat.blockOf iblk21; rw [hA]; try rfl)
theorem before21_3_of {c : Dev nD} (dat : Dat τ (Elt F) Unit ℕ (UR sig nD τ) ℕ cfg21 c) (hA : dat.A 3 = V c (Pipeline.arrRef spec21 3))
    (hafter : ∀ t, dat.after 3 t = iblk21 V c 3 t) (t : Fin cfg21.N) (d) : dat.before 3 t d = iblk21 V c 3 t :=
  (dat.before_in_eq_fetched 3 rfl (fun _ => rfl) (fun _ _ _ => rfl) (fun t => by rw [hafter]; unfold Dat.blockOf iblk21; rw [hA]; try rfl) t d).trans
    (by unfold Dat.fetched Dat.blockOf iblk21; rw [hA]; try rfl)

/-- The whole 4000 x 1 block and the whole 4000 x 2 block, as rectangles. -/
abbrev r21_a : Rect S4000x1 := Rect.unit (s := S4000x1) ![0, 0] S4000x1.size inb_S4000x1_S4000x1_0_0
abbrev r21_b : Rect S4000x2 := Rect.unit (s := S4000x2) ![0, 0] S4000x2.size inb_S4000x2_S4000x2_0_0

/-- The output's staging buffer after the body, from the four input blocks: its one store. -/
noncomputable def out21_4 (x0 x1 : Vec F S4000x1 .f32) (x2 x3 : Vec F S4000x2 .f32) : Vec F S4000x2 .f32 :=
  View.canon [⟨r21_b, k21_pay1 (View.ld x0 r21_a) (View.ld x1 r21_a) (View.ld x2 r21_b) (View.ld x3 r21_b)⟩]

/-- The one store covers the buffer. -/
theorem cover21_4 (p0 : Vec F S4000x2 .f32) (y : S4000x2.Idx) :
    ∃ pc ∈ ([⟨r21_b, p0⟩] : List (View.Piece (Elt F) S4000x2 .f32)), y ∈ pc.1.set :=
  View.cover_of_tiled [⟨r21_b, p0⟩] S4000x2.size (by rfl) y

set_option maxHeartbeats 1000000 in
/-- The body on whole staging memrefs: the inputs keep their contents and the output ends at out21_4 of them. -/
theorem sound_kernel21 (c : Dev nD) (E : Set ℕ) (i : grid21.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out21_4 x0 x1 x2 x3)) -∗ K ⟨⟩))
      ⊢ wp frame (wpE (defs₀ (F := F)) Variants.none c none) E (cc21__message_kernel i arg1 harg1 arg2 harg2 arg3 harg3 arg4 harg4 arg5 harg5) K := by
  simp only [cc21__message_kernel_eq_skeleton]; unfold cc21__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover21_4 _)

/-- The proof data of pipeline 21 on core c. -/
noncomputable def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => iblk21 V c 2 t
    | ⟨3, _⟩ => iblk21 V c 3 t
    | ⟨4, _⟩ => out21_4 (iblk21 V c 0 t) (iblk21 V c 1 t) (iblk21 V c 2 t) (iblk21 V c 3 t)
  Φ _ := Pipeline.ΦA spec21 c
  q _ := fullShare
  owed _ := 0

theorem A_eq21 (c : Dev nD) (w : Fin cfg21.W) : (dat21 V c).A w = V c (Pipeline.arrRef spec21 w) := by
  dsimp only [dat21]

theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = iblk21 V c 2 t := by dsimp only [dat21]
theorem after21_3 (c : Dev nD) (t : Fin cfg21.N) : (dat21 V c).after 3 t = iblk21 V c 3 t := by dsimp only [dat21]
theorem after21_4 (c : Dev nD) (t : Fin cfg21.N) :
    (dat21 V c).after 4 t = out21_4 (iblk21 V c 0 t) (iblk21 V c 1 t) (iblk21 V c 2 t) (iblk21 V c 3 t) := by dsimp only [dat21]

theorem before21_0 (c : Dev nD) (t : Fin cfg21.N) (d) : (dat21 V c).before 0 t d = iblk21 V c 0 t :=
  before21_0_of V (dat21 V c) (A_eq21 V c 0) (after21_0 V c) t d
theorem before21_1 (c : Dev nD) (t : Fin cfg21.N) (d) : (dat21 V c).before 1 t d = iblk21 V c 1 t :=
  before21_1_of V (dat21 V c) (A_eq21 V c 1) (after21_1 V c) t d
theorem before21_2 (c : Dev nD) (t : Fin cfg21.N) (d) : (dat21 V c).before 2 t d = iblk21 V c 2 t :=
  before21_2_of V (dat21 V c) (A_eq21 V c 2) (after21_2 V c) t d
theorem before21_3 (c : Dev nD) (t : Fin cfg21.N) (d) : (dat21 V c).before 3 t d = iblk21 V c 3 t :=
  before21_3_of V (dat21 V c) (A_eq21 V c 3) (after21_3 V c) t d

/-- What the body is called with at point t, -/
noncomputable def bodyPre21 (c : Dev nD) (t : Fin cfg21.N) : sProp 𝕄 :=
  iprop((dat21 V c).Φ t.castSucc ∗ (dat21 V c).owesAt () t.castSucc
    ∗ (∃ d, owns (c : Thread nD τ) (st21_0 t) fullShare ((dat21 V c).before 0 t d))
    ∗ (∃ d, owns (c : Thread nD τ) (st21_1 t) fullShare ((dat21 V c).before 1 t d))
    ∗ (∃ d, owns (c : Thread nD τ) (st21_2 t) fullShare ((dat21 V c).before 2 t d))
    ∗ (∃ d, owns (c : Thread nD τ) (st21_3 t) fullShare ((dat21 V c).before 3 t d))
    ∗ (∃ d, owns (c : Thread nD τ) (st21_4 t) fullShare ((dat21 V c).before 4 t d)))

/-- and what it returns. -/
noncomputable def bodyPost21 (c : Dev nD) (t : Fin cfg21.N) : sProp 𝕄 :=
  iprop((dat21 V c).Φ t.succ ∗ (dat21 V c).owesAt () t.succ
    ∗ owns (c : Thread nD τ) (st21_0 t) fullShare ((dat21 V c).after 0 t)
    ∗ owns (c : Thread nD τ) (st21_1 t) fullShare ((dat21 V c).after 1 t)
    ∗ owns (c : Thread nD τ) (st21_2 t) fullShare ((dat21 V c).after 2 t)
    ∗ owns (c : Thread nD τ) (st21_3 t) fullShare ((dat21 V c).after 3 t)
    ∗ owns (c : Thread nD τ) (st21_4 t) fullShare ((dat21 V c).after 4 t))

theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1, before21_2, before21_3]
  rw [show (dat21 V c).Φ t.succ = (dat21 V c).Φ t.castSucc from rfl,
    show (dat21 V c).owesAt () t.succ = (dat21 V c).owesAt () t.castSucc from rfl,
    after21_0, after21_1, after21_2, after21_3, after21_4]
  iintro ⟨HΦ, Ho, ⟨%d0, H0⟩, ⟨%d1, H1⟩, ⟨%d2, H2⟩, ⟨%d3, H3⟩, ⟨%d4, H4⟩⟩
  iapply (sound_kernel21 c Set.univ _ _ _ _ _ _ _ _ _ _ _ (iblk21 V c 0 t) (iblk21 V c 1 t) (iblk21 V c 2 t) (iblk21 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation21 (c : Dev nD) : BodyObligation (dat21 (F := F) V c) (defs₀ (F := F)) Variants.none () Set.univ := fun t => by
  rw [bigSep_W21, bigSep_W21]
  exact sound_body21 V c t

end Cert.KernelIdeal.Hand

end
-- ==== Proof.KI.Body22.lean ====
/-
  The message region (pallas_call 22): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

/-- An input window's current staging buffer holds its block at every point, for any proof data whose array is the
    entry contents and whose body leaves the block in place. -/
theorem before22_0_of {c : Dev nD} (dat : Dat τ (Elt F) Unit ℕ (UR sig nD τ) ℕ cfg22 c) (hA : dat.A 0 = V c (Pipeline.arrRef spec22 0))
    (hafter : ∀ t, dat.after 0 t = iblk22 V c 0 t) (t : Fin cfg22.N) (d) : dat.before 0 t d = iblk22 V c 0 t :=
  (dat.before_in_eq_fetched 0 rfl (fun _ => rfl) (fun _ _ _ => rfl) (fun t => by rw [hafter]; unfold Dat.blockOf iblk22; rw [hA]; try rfl) t d).trans
    (by unfold Dat.fetched Dat.blockOf iblk22; rw [hA]; try rfl)
theorem before22_1_of {c : Dev nD} (dat : Dat τ (Elt F) Unit ℕ (UR sig nD τ) ℕ cfg22 c) (hA : dat.A 1 = V c (Pipeline.arrRef spec22 1))
    (hafter : ∀ t, dat.after 1 t = iblk22 V c 1 t) (t : Fin cfg22.N) (d) : dat.before 1 t d = iblk22 V c 1 t :=
  (dat.before_in_eq_fetched 1 rfl (fun _ => rfl) (fun _ _ _ => rfl) (fun t => by rw [hafter]; unfold Dat.blockOf iblk22; rw [hA]; try rfl) t d).trans
    (by unfold Dat.fetched Dat.blockOf iblk22; rw [hA]; try rfl)
theorem before22_2_of {c : Dev nD} (dat : Dat τ (Elt F) Unit ℕ (UR sig nD τ) ℕ cfg22 c) (hA : dat.A 2 = V c (Pipeline.arrRef spec22 2))
    (hafter : ∀ t, dat.after 2 t = iblk22 V c 2 t) (t : Fin cfg22.N) (d) : dat.before 2 t d = iblk22 V c 2 t :=
  (dat.before_in_eq_fetched 2 rfl (fun _ => rfl) (fun _ _ _ => rfl) (fun t => by rw [hafter]; unfold Dat.blockOf iblk22; rw [hA]; try rfl) t d).trans
    (by unfold Dat.fetched Dat.blockOf iblk22; rw [hA]; try rfl)
theorem before22_3_of {c : Dev nD} (dat : Dat τ (Elt F) Unit ℕ (UR sig nD τ) ℕ cfg22 c) (hA : dat.A 3 = V c (Pipeline.arrRef spec22 3))
    (hafter : ∀ t, dat.after 3 t = iblk22 V c 3 t) (t : Fin cfg22.N) (d) : dat.before 3 t d = iblk22 V c 3 t :=
  (dat.before_in_eq_fetched 3 rfl (fun _ => rfl) (fun _ _ _ => rfl) (fun t => by rw [hafter]; unfold Dat.blockOf iblk22; rw [hA]; try rfl) t d).trans
    (by unfold Dat.fetched Dat.blockOf iblk22; rw [hA]; try rfl)

/-- The whole 4000 x 1 block and the whole 4000 x 2 block, as rectangles. -/
abbrev r22_a : Rect S4000x1 := Rect.unit (s := S4000x1) ![0, 0] S4000x1.size inb_S4000x1_S4000x1_0_0
abbrev r22_b : Rect S4000x2 := Rect.unit (s := S4000x2) ![0, 0] S4000x2.size inb_S4000x2_S4000x2_0_0

/-- The output's staging buffer after the body, from the four input blocks: its one store. -/
noncomputable def out22_4 (x0 x1 : Vec F S4000x1 .f32) (x2 x3 : Vec F S4000x2 .f32) : Vec F S4000x2 .f32 :=
  View.canon [⟨r22_b, k22_pay1 (View.ld x0 r22_a) (View.ld x1 r22_a) (View.ld x2 r22_b) (View.ld x3 r22_b)⟩]

/-- The one store covers the buffer. -/
theorem cover22_4 (p0 : Vec F S4000x2 .f32) (y : S4000x2.Idx) :
    ∃ pc ∈ ([⟨r22_b, p0⟩] : List (View.Piece (Elt F) S4000x2 .f32)), y ∈ pc.1.set :=
  View.cover_of_tiled [⟨r22_b, p0⟩] S4000x2.size (by rfl) y

set_option maxHeartbeats 1000000 in
/-- The body on whole staging memrefs: the inputs keep their contents and the output ends at out22_4 of them. -/
theorem sound_kernel22 (c : Dev nD) (E : Set ℕ) (i : grid22.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out22_4 x0 x1 x2 x3)) -∗ K ⟨⟩))
      ⊢ wp frame (wpE (defs₀ (F := F)) Variants.none c none) E (cc22__message_kernel i arg1 harg1 arg2 harg2 arg3 harg3 arg4 harg4 arg5 harg5) K := by
  simp only [cc22__message_kernel_eq_skeleton]; unfold cc22__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover22_4 _)

/-- The proof data of pipeline 22 on core c. -/
noncomputable def dat22 (c : Dev nD) : Dat τ (Elt F) Unit ℕ (UR sig nD τ) ℕ cfg22 c where
  A w := V c (Pipeline.arrRef spec22 w)
  after w t := match w with
    | ⟨0, _⟩ => iblk22 V c 0 t
    | ⟨1, _⟩ => iblk22 V c 1 t
    | ⟨2, _⟩ => iblk22 V c 2 t
    | ⟨3, _⟩ => iblk22 V c 3 t
    | ⟨4, _⟩ => out22_4 (iblk22 V c 0 t) (iblk22 V c 1 t) (iblk22 V c 2 t) (iblk22 V c 3 t)
  Φ _ := Pipeline.ΦA spec22 c
  q _ := fullShare
  owed _ := 0

theorem A_eq22 (c : Dev nD) (w : Fin cfg22.W) : (dat22 V c).A w = V c (Pipeline.arrRef spec22 w) := by
  dsimp only [dat22]

theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = iblk22 V c 2 t := by dsimp only [dat22]
theorem after22_3 (c : Dev nD) (t : Fin cfg22.N) : (dat22 V c).after 3 t = iblk22 V c 3 t := by dsimp only [dat22]
theorem after22_4 (c : Dev nD) (t : Fin cfg22.N) :
    (dat22 V c).after 4 t = out22_4 (iblk22 V c 0 t) (iblk22 V c 1 t) (iblk22 V c 2 t) (iblk22 V c 3 t) := by dsimp only [dat22]

theorem before22_0 (c : Dev nD) (t : Fin cfg22.N) (d) : (dat22 V c).before 0 t d = iblk22 V c 0 t :=
  before22_0_of V (dat22 V c) (A_eq22 V c 0) (after22_0 V c) t d
theorem before22_1 (c : Dev nD) (t : Fin cfg22.N) (d) : (dat22 V c).before 1 t d = iblk22 V c 1 t :=
  before22_1_of V (dat22 V c) (A_eq22 V c 1) (after22_1 V c) t d
theorem before22_2 (c : Dev nD) (t : Fin cfg22.N) (d) : (dat22 V c).before 2 t d = iblk22 V c 2 t :=
  before22_2_of V (dat22 V c) (A_eq22 V c 2) (after22_2 V c) t d
theorem before22_3 (c : Dev nD) (t : Fin cfg22.N) (d) : (dat22 V c).before 3 t d = iblk22 V c 3 t :=
  before22_3_of V (dat22 V c) (A_eq22 V c 3) (after22_3 V c) t d

/-- What the body is called with at point t, -/
noncomputable def bodyPre22 (c : Dev nD) (t : Fin cfg22.N) : sProp 𝕄 :=
  iprop((dat22 V c).Φ t.castSucc ∗ (dat22 V c).owesAt () t.castSucc
    ∗ (∃ d, owns (c : Thread nD τ) (st22_0 t) fullShare ((dat22 V c).before 0 t d))
    ∗ (∃ d, owns (c : Thread nD τ) (st22_1 t) fullShare ((dat22 V c).before 1 t d))
    ∗ (∃ d, owns (c : Thread nD τ) (st22_2 t) fullShare ((dat22 V c).before 2 t d))
    ∗ (∃ d, owns (c : Thread nD τ) (st22_3 t) fullShare ((dat22 V c).before 3 t d))
    ∗ (∃ d, owns (c : Thread nD τ) (st22_4 t) fullShare ((dat22 V c).before 4 t d)))

/-- and what it returns. -/
noncomputable def bodyPost22 (c : Dev nD) (t : Fin cfg22.N) : sProp 𝕄 :=
  iprop((dat22 V c).Φ t.succ ∗ (dat22 V c).owesAt () t.succ
    ∗ owns (c : Thread nD τ) (st22_0 t) fullShare ((dat22 V c).after 0 t)
    ∗ owns (c : Thread nD τ) (st22_1 t) fullShare ((dat22 V c).after 1 t)
    ∗ owns (c : Thread nD τ) (st22_2 t) fullShare ((dat22 V c).after 2 t)
    ∗ owns (c : Thread nD τ) (st22_3 t) fullShare ((dat22 V c).after 3 t)
    ∗ owns (c : Thread nD τ) (st22_4 t) fullShare ((dat22 V c).after 4 t))

theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  simp only [before22_0, before22_1, before22_2, before22_3]
  rw [show (dat22 V c).Φ t.succ = (dat22 V c).Φ t.castSucc from rfl,
    show (dat22 V c).owesAt () t.succ = (dat22 V c).owesAt () t.castSucc from rfl,
    after22_0, after22_1, after22_2, after22_3, after22_4]
  iintro ⟨HΦ, Ho, ⟨%d0, H0⟩, ⟨%d1, H1⟩, ⟨%d2, H2⟩, ⟨%d3, H3⟩, ⟨%d4, H4⟩⟩
  iapply (sound_kernel22 c Set.univ _ _ _ _ _ _ _ _ _ _ _ (iblk22 V c 0 t) (iblk22 V c 1 t) (iblk22 V c 2 t) (iblk22 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation22 (c : Dev nD) : BodyObligation (dat22 (F := F) V c) (defs₀ (F := F)) Variants.none () Set.univ := fun t => by
  rw [bigSep_W22, bigSep_W22]
  exact sound_body22 V c t

end Cert.KernelIdeal.Hand

end
-- ==== Proof.KI.Body23.lean ====
/-
  The message region (pallas_call 23): its proof data and its body obligation, at any float instance.

  At grid point t the pipeline hands the body four input blocks — rows [4000 t, 4000 t + 4000) of the two
  gathered inverse-square-root-degree columns (4000 x 1) and of the two gathered feature arrays (4000 x 2) — and an
  output block of the same rows. The body stores, in ONE whole-block store, the value
      (a * b) broadcast along the two feature columns, times xs, plus xt,
  so after the body the output's staging buffer holds that value of the four input blocks, and every input's staging
  buffer still holds its block. Every window moves with the grid point, so each is fetched at every point.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk23 (c : Dev nD) (w : Fin cfg23.W) (t : Fin cfg23.N) : ((cfg23.win w).xblock (cfg23.grid.coords t)).Idx → Elt F (cfg23.win w).elt :=
  ((cfg23.win w).blk t).view.read (Elt F) (V c (Pipeline.arrRef spec23 w))

/-- An input window's current staging buffer holds its block at every point, for any proof data whose array is the
    entry contents and whose body leaves the block in place. -/
theorem before23_0_of {c : Dev nD} (dat : Dat τ (Elt F) Unit ℕ (UR sig nD τ) ℕ cfg23 c) (hA : dat.A 0 = V c (Pipeline.arrRef spec23 0))
    (hafter : ∀ t, dat.after 0 t = iblk23 V c 0 t) (t : Fin cfg23.N) (d) : dat.before 0 t d = iblk23 V c 0 t :=
  (dat.before_in_eq_fetched 0 rfl (fun _ => rfl) (fun _ _ _ => rfl) (fun t => by rw [hafter]; unfold Dat.blockOf iblk23; rw [hA]; try rfl) t d).trans
    (by unfold Dat.fetched Dat.blockOf iblk23; rw [hA]; try rfl)
theorem before23_1_of {c : Dev nD} (dat : Dat τ (Elt F) Unit ℕ (UR sig nD τ) ℕ cfg23 c) (hA : dat.A 1 = V c (Pipeline.arrRef spec23 1))
    (hafter : ∀ t, dat.after 1 t = iblk23 V c 1 t) (t : Fin cfg23.N) (d) : dat.before 1 t d = iblk23 V c 1 t :=
  (dat.before_in_eq_fetched 1 rfl (fun _ => rfl) (fun _ _ _ => rfl) (fun t => by rw [hafter]; unfold Dat.blockOf iblk23; rw [hA]; try rfl) t d).trans
    (by unfold Dat.fetched Dat.blockOf iblk23; rw [hA]; try rfl)
theorem before23_2_of {c : Dev nD} (dat : Dat τ (Elt F) Unit ℕ (UR sig nD τ) ℕ cfg23 c) (hA : dat.A 2 = V c (Pipeline.arrRef spec23 2))
    (hafter : ∀ t, dat.after 2 t = iblk23 V c 2 t) (t : Fin cfg23.N) (d) : dat.before 2 t d = iblk23 V c 2 t :=
  (dat.before_in_eq_fetched 2 rfl (fun _ => rfl) (fun _ _ _ => rfl) (fun t => by rw [hafter]; unfold Dat.blockOf iblk23; rw [hA]; try rfl) t d).trans
    (by unfold Dat.fetched Dat.blockOf iblk23; rw [hA]; try rfl)
theorem before23_3_of {c : Dev nD} (dat : Dat τ (Elt F) Unit ℕ (UR sig nD τ) ℕ cfg23 c) (hA : dat.A 3 = V c (Pipeline.arrRef spec23 3))
    (hafter : ∀ t, dat.after 3 t = iblk23 V c 3 t) (t : Fin cfg23.N) (d) : dat.before 3 t d = iblk23 V c 3 t :=
  (dat.before_in_eq_fetched 3 rfl (fun _ => rfl) (fun _ _ _ => rfl) (fun t => by rw [hafter]; unfold Dat.blockOf iblk23; rw [hA]; try rfl) t d).trans
    (by unfold Dat.fetched Dat.blockOf iblk23; rw [hA]; try rfl)

/-- The whole 4000 x 1 block and the whole 4000 x 2 block, as rectangles. -/
abbrev r23_a : Rect S4000x1 := Rect.unit (s := S4000x1) ![0, 0] S4000x1.size inb_S4000x1_S4000x1_0_0
abbrev r23_b : Rect S4000x2 := Rect.unit (s := S4000x2) ![0, 0] S4000x2.size inb_S4000x2_S4000x2_0_0

/-- The output's staging buffer after the body, from the four input blocks: its one store. -/
noncomputable def out23_4 (x0 x1 : Vec F S4000x1 .f32) (x2 x3 : Vec F S4000x2 .f32) : Vec F S4000x2 .f32 :=
  View.canon [⟨r23_b, k23_pay1 (View.ld x0 r23_a) (View.ld x1 r23_a) (View.ld x2 r23_b) (View.ld x3 r23_b)⟩]

/-- The one store covers the buffer. -/
theorem cover23_4 (p0 : Vec F S4000x2 .f32) (y : S4000x2.Idx) :
    ∃ pc ∈ ([⟨r23_b, p0⟩] : List (View.Piece (Elt F) S4000x2 .f32)), y ∈ pc.1.set :=
  View.cover_of_tiled [⟨r23_b, p0⟩] S4000x2.size (by rfl) y

set_option maxHeartbeats 1000000 in
/-- The body on whole staging memrefs: the inputs keep their contents and the output ends at out23_4 of them. -/
theorem sound_kernel23 (c : Dev nD) (E : Set ℕ) (i : grid23.Coords)
    (arg1 : Memref sig .tc .vmem S4000x1 .f32) (harg1 : arg1.IsWhole) (arg2 : Memref sig .tc .vmem S4000x1 .f32) (harg2 : arg2.IsWhole)
    (arg3 : Memref sig .tc .vmem S4000x2 .f32) (harg3 : arg3.IsWhole) (arg4 : Memref sig .tc .vmem S4000x2 .f32) (harg4 : arg4.IsWhole)
    (arg5 : Memref sig .tc .vmem S4000x2 .f32) (harg5 : arg5.IsWhole)
    (x0 x1 : Vec F S4000x1 .f32) (x2 x3 : Vec F S4000x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out23_4 x0 x1 x2 x3)) -∗ K ⟨⟩))
      ⊢ wp frame (wpE (defs₀ (F := F)) Variants.none c none) E (cc23__message_kernel i arg1 harg1 arg2 harg2 arg3 harg3 arg4 harg4 arg5 harg5) K := by
  simp only [cc23__message_kernel_eq_skeleton]; unfold cc23__message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover23_4 _)

/-- The proof data of pipeline 23 on core c. -/
noncomputable def dat23 (c : Dev nD) : Dat τ (Elt F) Unit ℕ (UR sig nD τ) ℕ cfg23 c where
  A w := V c (Pipeline.arrRef spec23 w)
  after w t := match w with
    | ⟨0, _⟩ => iblk23 V c 0 t
    | ⟨1, _⟩ => iblk23 V c 1 t
    | ⟨2, _⟩ => iblk23 V c 2 t
    | ⟨3, _⟩ => iblk23 V c 3 t
    | ⟨4, _⟩ => out23_4 (iblk23 V c 0 t) (iblk23 V c 1 t) (iblk23 V c 2 t) (iblk23 V c 3 t)
  Φ _ := Pipeline.ΦA spec23 c
  q _ := fullShare
  owed _ := 0

theorem A_eq23 (c : Dev nD) (w : Fin cfg23.W) : (dat23 V c).A w = V c (Pipeline.arrRef spec23 w) := by
  dsimp only [dat23]

theorem after23_0 (c : Dev nD) (t : Fin cfg23.N) : (dat23 V c).after 0 t = iblk23 V c 0 t := by dsimp only [dat23]
theorem after23_1 (c : Dev nD) (t : Fin cfg23.N) : (dat23 V c).after 1 t = iblk23 V c 1 t := by dsimp only [dat23]
theorem after23_2 (c : Dev nD) (t : Fin cfg23.N) : (dat23 V c).after 2 t = iblk23 V c 2 t := by dsimp only [dat23]
theorem after23_3 (c : Dev nD) (t : Fin cfg23.N) : (dat23 V c).after 3 t = iblk23 V c 3 t := by dsimp only [dat23]
theorem after23_4 (c : Dev nD) (t : Fin cfg23.N) :
    (dat23 V c).after 4 t = out23_4 (iblk23 V c 0 t) (iblk23 V c 1 t) (iblk23 V c 2 t) (iblk23 V c 3 t) := by dsimp only [dat23]

theorem before23_0 (c : Dev nD) (t : Fin cfg23.N) (d) : (dat23 V c).before 0 t d = iblk23 V c 0 t :=
  before23_0_of V (dat23 V c) (A_eq23 V c 0) (after23_0 V c) t d
theorem before23_1 (c : Dev nD) (t : Fin cfg23.N) (d) : (dat23 V c).before 1 t d = iblk23 V c 1 t :=
  before23_1_of V (dat23 V c) (A_eq23 V c 1) (after23_1 V c) t d
theorem before23_2 (c : Dev nD) (t : Fin cfg23.N) (d) : (dat23 V c).before 2 t d = iblk23 V c 2 t :=
  before23_2_of V (dat23 V c) (A_eq23 V c 2) (after23_2 V c) t d
theorem before23_3 (c : Dev nD) (t : Fin cfg23.N) (d) : (dat23 V c).before 3 t d = iblk23 V c 3 t :=
  before23_3_of V (dat23 V c) (A_eq23 V c 3) (after23_3 V c) t d

/-- What the body is called with at point t, -/
noncomputable def bodyPre23 (c : Dev nD) (t : Fin cfg23.N) : sProp 𝕄 :=
  iprop((dat23 V c).Φ t.castSucc ∗ (dat23 V c).owesAt () t.castSucc
    ∗ (∃ d, owns (c : Thread nD τ) (st23_0 t) fullShare ((dat23 V c).before 0 t d))
    ∗ (∃ d, owns (c : Thread nD τ) (st23_1 t) fullShare ((dat23 V c).before 1 t d))
    ∗ (∃ d, owns (c : Thread nD τ) (st23_2 t) fullShare ((dat23 V c).before 2 t d))
    ∗ (∃ d, owns (c : Thread nD τ) (st23_3 t) fullShare ((dat23 V c).before 3 t d))
    ∗ (∃ d, owns (c : Thread nD τ) (st23_4 t) fullShare ((dat23 V c).before 4 t d)))

/-- and what it returns. -/
noncomputable def bodyPost23 (c : Dev nD) (t : Fin cfg23.N) : sProp 𝕄 :=
  iprop((dat23 V c).Φ t.succ ∗ (dat23 V c).owesAt () t.succ
    ∗ owns (c : Thread nD τ) (st23_0 t) fullShare ((dat23 V c).after 0 t)
    ∗ owns (c : Thread nD τ) (st23_1 t) fullShare ((dat23 V c).after 1 t)
    ∗ owns (c : Thread nD τ) (st23_2 t) fullShare ((dat23 V c).after 2 t)
    ∗ owns (c : Thread nD τ) (st23_3 t) fullShare ((dat23 V c).after 3 t)
    ∗ owns (c : Thread nD τ) (st23_4 t) fullShare ((dat23 V c).after 4 t))

theorem sound_body23 (c : Dev nD) (t : Fin cfg23.N) :
    bodyPre23 V c t ⊢ wp frame (wpE (defs₀ (F := F)) Variants.none c none) Set.univ (bodyAt23 t) (fun _ => bodyPost23 V c t) := by
  unfold bodyPre23 bodyPost23 bodyAt23
  simp only [before23_0, before23_1, before23_2, before23_3]
  rw [show (dat23 V c).Φ t.succ = (dat23 V c).Φ t.castSucc from rfl,
    show (dat23 V c).owesAt () t.succ = (dat23 V c).owesAt () t.castSucc from rfl,
    after23_0, after23_1, after23_2, after23_3, after23_4]
  iintro ⟨HΦ, Ho, ⟨%d0, H0⟩, ⟨%d1, H1⟩, ⟨%d2, H2⟩, ⟨%d3, H3⟩, ⟨%d4, H4⟩⟩
  iapply (sound_kernel23 c Set.univ _ _ _ _ _ _ _ _ _ _ _ (iblk23 V c 0 t) (iblk23 V c 1 t) (iblk23 V c 2 t) (iblk23 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation23 (c : Dev nD) : BodyObligation (dat23 (F := F) V c) (defs₀ (F := F)) Variants.none () Set.univ := fun t => by
  rw [bigSep_W23, bigSep_W23]
  exact sound_body23 V c t

end Cert.KernelIdeal.Hand

end
-- ==== Proof.KI.Body24.lean ====
/-
  The affine region at six input columns (pallas_call 24): its proof data and its body obligation, at any float
  instance.

  At grid point t the pipeline hands the body the rows [10000 t, 10000 t + 10000) of the input (10000 x 6), the
  whole weight matrix (6 x 2), the whole bias row (1 x 2), and an output block of the same rows (10000 x 2). The
  weight and the bias have a block index that does not move with the grid point: they are fetched at the first
  point only, and their staging buffers hold the same block at every point. The body stores, in ONE whole-block
  store, the value
      (((((( 0 + x_0 * w_0 ) + x_1 * w_1 ) + x_2 * w_2 ) + x_3 * w_3 ) + x_4 * w_4 ) + x_5 * w_5 ) + b,
  x_i the i-th input column broadcast along the two output columns, w_i the i-th weight row broadcast along the
  rows, b the bias row broadcast along the rows; so after the body the output's staging buffer holds that value of
  the three input blocks, and every input's staging buffer still holds its block.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk24 (c : Dev nD) (w : Fin cfg24.W) (t : Fin cfg24.N) : ((cfg24.win w).xblock (cfg24.grid.coords t)).Idx → Elt F (cfg24.win w).elt :=
  ((cfg24.win w).blk t).view.read (Elt F) (V c (Pipeline.arrRef spec24 w))

/-- An input window's current staging buffer holds its block at every point, fetched there or not (a window whose
    block index does not move is fetched at the first point only, and keeps its block), for any proof data whose
    array is the entry contents and whose body leaves the block in place. -/
theorem before24_0_of {c : Dev nD} (dat : Dat τ (Elt F) Unit ℕ (UR sig nD τ) ℕ cfg24 c) (hA : dat.A 0 = V c (Pipeline.arrRef spec24 0))
    (hafter : ∀ t, dat.after 0 t = iblk24 V c 0 t) (t : Fin cfg24.N) (d) : dat.before 0 t d = iblk24 V c 0 t :=
  (dat.before_in_eq_fetched 0 rfl (fun _ => rfl) (fun _ _ _ => rfl) (fun t => by rw [hafter]; unfold Dat.blockOf iblk24; rw [hA]; try rfl) t d).trans
    (by unfold Dat.fetched Dat.blockOf iblk24; rw [hA]; try rfl)
theorem before24_1_of {c : Dev nD} (dat : Dat τ (Elt F) Unit ℕ (UR sig nD τ) ℕ cfg24 c) (hA : dat.A 1 = V c (Pipeline.arrRef spec24 1))
    (hafter : ∀ t, dat.after 1 t = iblk24 V c 1 t) (t : Fin cfg24.N) (d) : dat.before 1 t d = iblk24 V c 1 t :=
  (dat.before_in_eq_fetched 1 rfl (fun _ => rfl) (fun _ _ _ => rfl) (fun t => by rw [hafter]; unfold Dat.blockOf iblk24; rw [hA]; try rfl) t d).trans
    (by unfold Dat.fetched Dat.blockOf iblk24; rw [hA]; try rfl)
theorem before24_2_of {c : Dev nD} (dat : Dat τ (Elt F) Unit ℕ (UR sig nD τ) ℕ cfg24 c) (hA : dat.A 2 = V c (Pipeline.arrRef spec24 2))
    (hafter : ∀ t, dat.after 2 t = iblk24 V c 2 t) (t : Fin cfg24.N) (d) : dat.before 2 t d = iblk24 V c 2 t :=
  (dat.before_in_eq_fetched 2 rfl (fun _ => rfl) (fun _ _ _ => rfl) (fun t => by rw [hafter]; unfold Dat.blockOf iblk24; rw [hA]; try rfl) t d).trans
    (by unfold Dat.fetched Dat.blockOf iblk24; rw [hA]; try rfl)

/-- The whole input block, the whole weight block, the whole bias row and the whole output block, as rectangles. -/
abbrev r24_a : Rect S10000x6 := Rect.unit (s := S10000x6) ![0, 0] S10000x6.size inb_S10000x6_S10000x6_0_0
abbrev r24_b : Rect S6x2 := Rect.unit (s := S6x2) ![0, 0] S6x2.size inb_S6x2_S6x2_0_0
abbrev r24_c : Rect S1x2 := Rect.unit (s := S1x2) ![0, 0] S1x2.size inb_S1x2_S1x2_0_0
abbrev r24_d : Rect S10000x2 := Rect.unit (s := S10000x2) ![0, 0] S10000x2.size inb_S10000x2_S10000x2_0_0

/-- The output's staging buffer after the body, from the three input blocks: its one store. -/
noncomputable def out24_3 (x0 : Vec F S10000x6 .f32) (x1 : Vec F S6x2 .f32) (x2 : Vec F S1x2 .f32) : Vec F S10000x2 .f32 :=
  View.canon [⟨r24_d, k24_pay1 (View.ld x0 r24_a) (View.ld x1 r24_b) (View.ld x2 r24_c)⟩]

/-- The one store covers the buffer. -/
theorem cover24_3 (p0 : Vec F S10000x2 .f32) (y : S10000x2.Idx) :
    ∃ pc ∈ ([⟨r24_d, p0⟩] : List (View.Piece (Elt F) S10000x2 .f32)), y ∈ pc.1.set :=
  View.cover_of_tiled [⟨r24_d, p0⟩] S10000x2.size (by rfl) y

set_option maxHeartbeats 1000000 in
/-- The body on whole staging memrefs: the inputs keep their contents and the output ends at out24_3 of them. -/
theorem sound_kernel24 (c : Dev nD) (E : Set ℕ) (i : grid24.Coords)
    (arg1 : Memref sig .tc .vmem S10000x6 .f32) (harg1 : arg1.IsWhole) (arg2 : Memref sig .tc .vmem S6x2 .f32) (harg2 : arg2.IsWhole)
    (arg3 : Memref sig .tc .vmem S1x2 .f32) (harg3 : arg3.IsWhole) (arg4 : Memref sig .tc .vmem S10000x2 .f32) (harg4 : arg4.IsWhole)
    (x0 : Vec F S10000x6 .f32) (x1 : Vec F S6x2 .f32) (x2 : Vec F S1x2 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out24_3 x0 x1 x2)) -∗ K ⟨⟩))
      ⊢ wp frame (wpE (defs₀ (F := F)) Variants.none c none) E (cc24__affine_kernel i arg1 harg1 arg2 harg2 arg3 harg3 arg4 harg4) K := by
  simp only [cc24__affine_kernel_eq_skeleton]; unfold cc24__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover24_3 _)

/-- The proof data of pipeline 24 on core c. -/
noncomputable def dat24 (c : Dev nD) : Dat τ (Elt F) Unit ℕ (UR sig nD τ) ℕ cfg24 c where
  A w := V c (Pipeline.arrRef spec24 w)
  after w t := match w with
    | ⟨0, _⟩ => iblk24 V c 0 t
    | ⟨1, _⟩ => iblk24 V c 1 t
    | ⟨2, _⟩ => iblk24 V c 2 t
    | ⟨3, _⟩ => out24_3 (iblk24 V c 0 t) (iblk24 V c 1 t) (iblk24 V c 2 t)
  Φ _ := Pipeline.ΦA spec24 c
  q _ := fullShare
  owed _ := 0

theorem A_eq24 (c : Dev nD) (w : Fin cfg24.W) : (dat24 V c).A w = V c (Pipeline.arrRef spec24 w) := by
  dsimp only [dat24]

theorem after24_0 (c : Dev nD) (t : Fin cfg24.N) : (dat24 V c).after 0 t = iblk24 V c 0 t := by dsimp only [dat24]
theorem after24_1 (c : Dev nD) (t : Fin cfg24.N) : (dat24 V c).after 1 t = iblk24 V c 1 t := by dsimp only [dat24]
theorem after24_2 (c : Dev nD) (t : Fin cfg24.N) : (dat24 V c).after 2 t = iblk24 V c 2 t := by dsimp only [dat24]
theorem after24_3 (c : Dev nD) (t : Fin cfg24.N) :
    (dat24 V c).after 3 t = out24_3 (iblk24 V c 0 t) (iblk24 V c 1 t) (iblk24 V c 2 t) := by dsimp only [dat24]

theorem before24_0 (c : Dev nD) (t : Fin cfg24.N) (d) : (dat24 V c).before 0 t d = iblk24 V c 0 t :=
  before24_0_of V (dat24 V c) (A_eq24 V c 0) (after24_0 V c) t d
theorem before24_1 (c : Dev nD) (t : Fin cfg24.N) (d) : (dat24 V c).before 1 t d = iblk24 V c 1 t :=
  before24_1_of V (dat24 V c) (A_eq24 V c 1) (after24_1 V c) t d
theorem before24_2 (c : Dev nD) (t : Fin cfg24.N) (d) : (dat24 V c).before 2 t d = iblk24 V c 2 t :=
  before24_2_of V (dat24 V c) (A_eq24 V c 2) (after24_2 V c) t d

/-- What the body is called with at point t, -/
noncomputable def bodyPre24 (c : Dev nD) (t : Fin cfg24.N) : sProp 𝕄 :=
  iprop((dat24 V c).Φ t.castSucc ∗ (dat24 V c).owesAt () t.castSucc
    ∗ (∃ d, owns (c : Thread nD τ) (st24_0 t) fullShare ((dat24 V c).before 0 t d))
    ∗ (∃ d, owns (c : Thread nD τ) (st24_1 t) fullShare ((dat24 V c).before 1 t d))
    ∗ (∃ d, owns (c : Thread nD τ) (st24_2 t) fullShare ((dat24 V c).before 2 t d))
    ∗ (∃ d, owns (c : Thread nD τ) (st24_3 t) fullShare ((dat24 V c).before 3 t d)))

/-- and what it returns. -/
noncomputable def bodyPost24 (c : Dev nD) (t : Fin cfg24.N) : sProp 𝕄 :=
  iprop((dat24 V c).Φ t.succ ∗ (dat24 V c).owesAt () t.succ
    ∗ owns (c : Thread nD τ) (st24_0 t) fullShare ((dat24 V c).after 0 t)
    ∗ owns (c : Thread nD τ) (st24_1 t) fullShare ((dat24 V c).after 1 t)
    ∗ owns (c : Thread nD τ) (st24_2 t) fullShare ((dat24 V c).after 2 t)
    ∗ owns (c : Thread nD τ) (st24_3 t) fullShare ((dat24 V c).after 3 t))

theorem sound_body24 (c : Dev nD) (t : Fin cfg24.N) :
    bodyPre24 V c t ⊢ wp frame (wpE (defs₀ (F := F)) Variants.none c none) Set.univ (bodyAt24 t) (fun _ => bodyPost24 V c t) := by
  unfold bodyPre24 bodyPost24 bodyAt24
  simp only [before24_0, before24_1, before24_2]
  rw [show (dat24 V c).Φ t.succ = (dat24 V c).Φ t.castSucc from rfl,
    show (dat24 V c).owesAt () t.succ = (dat24 V c).owesAt () t.castSucc from rfl,
    after24_0, after24_1, after24_2, after24_3]
  iintro ⟨HΦ, Ho, ⟨%d0, H0⟩, ⟨%d1, H1⟩, ⟨%d2, H2⟩, ⟨%d3, H3⟩⟩
  iapply (sound_kernel24 c Set.univ (grid24.coords t) _ _ _ _ _ _ _ _ (iblk24 V c 0 t) (iblk24 V c 1 t) (iblk24 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation24 (c : Dev nD) : BodyObligation (dat24 (F := F) V c) (defs₀ (F := F)) Variants.none () Set.univ := fun t => by
  rw [bigSep_W24, bigSep_W24]
  exact sound_body24 V c t

end Cert.KernelIdeal.Hand

end
-- ==== Proof.KI.Body25.lean ====
/-
  The affine region at six input columns (pallas_call 25): its proof data and its body obligation, at any float
  instance.

  At grid point t the pipeline hands the body the rows [10000 t, 10000 t + 10000) of the input (10000 x 6), the
  whole weight matrix (6 x 2), the whole bias row (1 x 2), and an output block of the same rows (10000 x 2). The
  weight and the bias have a block index that does not move with the grid point: they are fetched at the first
  point only, and their staging buffers hold the same block at every point. The body stores, in ONE whole-block
  store, the value
      (((((( 0 + x_0 * w_0 ) + x_1 * w_1 ) + x_2 * w_2 ) + x_3 * w_3 ) + x_4 * w_4 ) + x_5 * w_5 ) + b,
  x_i the i-th input column broadcast along the two output columns, w_i the i-th weight row broadcast along the
  rows, b the bias row broadcast along the rows; so after the body the output's staging buffer holds that value of
  the three input blocks, and every input's staging buffer still holds its block.
-/
import proofs.«149588_j66838281060723_2_alg».proof.Proof.Gen.KernelIdeal.Launch
import proofs.«149588_j66838281060723_2_alg».proof.Proof.Gen.KernelIdeal.Skeleton
import proofs.«149588_j66838281060723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
noncomputable def iblk25 (c : Dev nD) (w : Fin cfg25.W) (t : Fin cfg25.N) : ((cfg25.win w).xblock (cfg25.grid.coords t)).Idx → Elt F (cfg25.win w).elt :=
  ((cfg25.win w).blk t).view.read (Elt F) (V c (Pipeline.arrRef spec25 w))

/-- An input window's current staging buffer holds its block at every point, fetched there or not (a window whose
    block index does not move is fetched at the first point only, and keeps its block), for any proof data whose
    array is the entry contents and whose body leaves the block in place. -/
theorem before25_0_of {c : Dev nD} (dat : Dat τ (Elt F) Unit ℕ (UR sig nD τ) ℕ cfg25 c) (hA : dat.A 0 = V c (Pipeline.arrRef spec25 0))
    (hafter : ∀ t, dat.after 0 t = iblk25 V c 0 t) (t : Fin cfg25.N) (d) : dat.before 0 t d = iblk25 V c 0 t :=
  (dat.before_in_eq_fetched 0 rfl (fun _ => rfl) (fun _ _ _ => rfl) (fun t => by rw [hafter]; unfold Dat.blockOf iblk25; rw [hA]; try rfl) t d).trans
    (by unfold Dat.fetched Dat.blockOf iblk25; rw [hA]; try rfl)
theorem before25_1_of {c : Dev nD} (dat : Dat τ (Elt F) Unit ℕ (UR sig nD τ) ℕ cfg25 c) (hA : dat.A 1 = V c (Pipeline.arrRef spec25 1))
    (hafter : ∀ t, dat.after 1 t = iblk25 V c 1 t) (t : Fin cfg25.N) (d) : dat.before 1 t d = iblk25 V c 1 t :=
  (dat.before_in_eq_fetched 1 rfl (fun _ => rfl) (fun _ _ _ => rfl) (fun t => by rw [hafter]; unfold Dat.blockOf iblk25; rw [hA]; try rfl) t d).trans
    (by unfold Dat.fetched Dat.blockOf iblk25; rw [hA]; try rfl)
theorem before25_2_of {c : Dev nD} (dat : Dat τ (Elt F) Unit ℕ (UR sig nD τ) ℕ cfg25 c) (hA : dat.A 2 = V c (Pipeline.arrRef spec25 2))
    (hafter : ∀ t, dat.after 2 t = iblk25 V c 2 t) (t : Fin cfg25.N) (d) : dat.before 2 t d = iblk25 V c 2 t :=
  (dat.before_in_eq_fetched 2 rfl (fun _ => rfl) (fun _ _ _ => rfl) (fun t => by rw [hafter]; unfold Dat.blockOf iblk25; rw [hA]; try rfl) t d).trans
    (by unfold Dat.fetched Dat.blockOf iblk25; rw [hA]; try rfl)

/-- The whole input block, the whole weight block, the whole bias row and the whole output block, as rectangles. -/
abbrev r25_a : Rect S10000x6 := Rect.unit (s := S10000x6) ![0, 0] S10000x6.size inb_S10000x6_S10000x6_0_0
abbrev r25_b : Rect S6x2 := Rect.unit (s := S6x2) ![0, 0] S6x2.size inb_S6x2_S6x2_0_0
abbrev r25_c : Rect S1x2 := Rect.unit (s := S1x2) ![0, 0] S1x2.size inb_S1x2_S1x2_0_0
abbrev r25_d : Rect S10000x2 := Rect.unit (s := S10000x2) ![0, 0] S10000x2.size inb_S10000x2_S10000x2_0_0

/-- The output's staging buffer after the body, from the three input blocks: its one store. -/
noncomputable def out25_3 (x0 : Vec F S10000x6 .f32) (x1 : Vec F S6x2 .f32) (x2 : Vec F S1x2 .f32) : Vec F S10000x2 .f32 :=
  View.canon [⟨r25_d, k25_pay1 (View.ld x0 r25_a) (View.ld x1 r25_b) (View.ld x2 r25_c)⟩]

/-- The one store covers the buffer. -/
theorem cover25_3 (p0 : Vec F S10000x2 .f32) (y : S10000x2.Idx) :
    ∃ pc ∈ ([⟨r25_d, p0⟩] : List (View.Piece (Elt F) S10000x2 .f32)), y ∈ pc.1.set :=
  View.cover_of_tiled [⟨r25_d, p0⟩] S10000x2.size (by rfl) y

set_option maxHeartbeats 1000000 in
/-- The body on whole staging memrefs: the inputs keep their contents and the output ends at out25_3 of them. -/
theorem sound_kernel25 (c : Dev nD) (E : Set ℕ) (i : grid25.Coords)
    (arg1 : Memref sig .tc .vmem S10000x6 .f32) (harg1 : arg1.IsWhole) (arg2 : Memref sig .tc .vmem S6x2 .f32) (harg2 : arg2.IsWhole)
    (arg3 : Memref sig .tc .vmem S1x2 .f32) (harg3 : arg3.IsWhole) (arg4 : Memref sig .tc .vmem S10000x2 .f32) (harg4 : arg4.IsWhole)
    (x0 : Vec F S10000x6 .f32) (x1 : Vec F S6x2 .f32) (x2 : Vec F S1x2 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out25_3 x0 x1 x2)) -∗ K ⟨⟩))
      ⊢ wp frame (wpE (defs₀ (F := F)) Variants.none c none) E (cc25__affine_kernel i arg1 harg1 arg2 harg2 arg3 harg3 arg4 harg4) K := by
  simp only [cc25__affine_kernel_eq_skeleton]; unfold cc25__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover25_3 _)

/-- The proof data of pipeline 25 on core c. -/
noncomputable def dat25 (c : Dev nD) : Dat τ (Elt F) Unit ℕ (UR sig nD τ) ℕ cfg25 c where
  A w := V c (Pipeline.arrRef spec25 w)
  after w t := match w with
    | ⟨0, _⟩ => iblk25 V c 0 t
    | ⟨1, _⟩ => iblk25 V c 1 t
    | ⟨2, _⟩ => iblk25 V c 2 t
    | ⟨3, _⟩ => out25_3 (iblk25 V c 0 t) (iblk25 V c 1 t) (iblk25 V c 2 t)
  Φ _ := Pipeline.ΦA spec25 c
  q _ := fullShare
  owed _ := 0

theorem A_eq25 (c : Dev nD) (w : Fin cfg25.W) : (dat25 V c).A w = V c (Pipeline.arrRef spec25 w) := by
  dsimp only [dat25]

theorem after25_0 (c : Dev nD) (t : Fin cfg25.N) : (dat25 V c).after 0 t = iblk25 V c 0 t := by dsimp only [dat25]
theorem after25_1 (c : Dev nD) (t : Fin cfg25.N) : (dat25 V c).after 1 t = iblk25 V c 1 t := by dsimp only [dat25]
theorem after25_2 (c : Dev nD) (t : Fin cfg25.N) : (dat25 V c).after 2 t = iblk25 V c 2 t := by dsimp only [dat25]
theorem after25_3 (c : Dev nD) (t : Fin cfg25.N) :
    (dat25 V c).after 3 t = out25_3 (iblk25 V c 0 t) (iblk25 V c 1 t) (iblk25 V c 2 t) := by dsimp only [dat25]

theorem before25_0 (c : Dev nD) (t : Fin cfg25.N) (d) : (dat25 V c).before 0 t d = iblk25 V c 0 t :=
  before25_0_of V (dat25 V c) (A_eq25 V c 0) (after25_0 V c) t d
theorem before25_1 (c : Dev nD) (t : Fin cfg25.N) (d) : (dat25 V c).before 1 t d = iblk25 V c 1 t :=
  before25_1_of V (dat25 V c) (A_eq25 V c 1) (after25_1 V c) t d
theorem before25_2 (c : Dev nD) (t : Fin cfg25.N) (d) : (dat25 V c).before 2 t d = iblk25 V c 2 t :=
  before25_2_of V (dat25 V c) (A_eq25 V c 2) (after25_2 V c) t d

/-- What the body is called with at point t, -/
noncomputable def bodyPre25 (c : Dev nD) (t : Fin cfg25.N) : sProp 𝕄 :=
  iprop((dat25 V c).Φ t.castSucc ∗ (dat25 V c).owesAt () t.castSucc
    ∗ (∃ d, owns (c : Thread nD τ) (st25_0 t) fullShare ((dat25 V c).before 0 t d))
    ∗ (∃ d, owns (c : Thread nD τ) (st25_1 t) fullShare ((dat25 V c).before 1 t d))
    ∗ (∃ d, owns (c : Thread nD τ) (st25_2 t) fullShare ((dat25 V c).before 2 t d))
    ∗ (∃ d, owns (c : Thread nD τ) (st25_3 t) fullShare ((dat25 V c).before 3 t d)))

/-- and what it returns. -/
noncomputable def bodyPost25 (c : Dev nD) (t : Fin cfg25.N) : sProp 𝕄 :=
  iprop((dat25 V c).Φ t.succ ∗ (dat25 V c).owesAt () t.succ
    ∗ owns (c : Thread nD τ) (st25_0 t) fullShare ((dat25 V c).after 0 t)
    ∗ owns (c : Thread nD τ) (st25_1 t) fullShare ((dat25 V c).after 1 t)
    ∗ owns (c : Thread nD τ) (st25_2 t) fullShare ((dat25 V c).after 2 t)
    ∗ owns (c : Thread nD τ) (st25_3 t) fullShare ((dat25 V c).after 3 t))

theorem sound_body25 (c : Dev nD) (t : Fin cfg25.N) :
    bodyPre25 V c t ⊢ wp frame (wpE (defs₀ (F := F)) Variants.none c none) Set.univ (bodyAt25 t) (fun _ => bodyPost25 V c t) := by
  unfold bodyPre25 bodyPost25 bodyAt25
  simp only [before25_0, before25_1, before25_2]
  rw [show (dat25 V c).Φ t.succ = (dat25 V c).Φ t.castSucc from rfl,
    show (dat25 V c).owesAt () t.succ = (dat25 V c).owesAt () t.castSucc from rfl,
    after25_0, after25_1, after25_2, after25_3]
  iintro ⟨HΦ, Ho, ⟨%d0, H0⟩, ⟨%d1, H1⟩, ⟨%d2, H2⟩, ⟨%d3, H3⟩⟩
  iapply (sound_kernel25 c Set.univ (grid25.coords t) _ _ _ _ _ _ _ _ (iblk25 V c 0 t) (iblk25 V c 1 t) (iblk25 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation25 (c : Dev nD) : BodyObligation (dat25 (F := F) V c) (defs₀ (F := F)) Variants.none () Set.univ := fun t => by
  rw [bigSep_W25, bigSep_W25]
  exact sound_body25 V c t

end Cert.KernelIdeal.Hand

end
-- ==== Proof.KI.Fold.lean ====
/-
  The run of the program's 26 pipelined regions among its host stretches, at any float instance.

  Between two items of @main a core holds every unscoped buffer whole at a valuation. The valuations are a fold from the
  launch memory: a host stretch applies its operations; a region changes ONE buffer, its output array, which ends at what
  the pipeline's write-backs leave (the fold of the flushed blocks over the grid), every other buffer keeping its contents
  — an input array is only read. Each region's proof data are taken at the valuation the region is entered from, so the
  body obligation of the region (its body run on the blocks of those contents) is the one proved with the body. Every
  region's record says: entered from all unscoped buffers at the valuation before it, it leaves them at the valuation
  after it; the generator register and the core's (empty) debts ride along unchanged. With one record per region the
  frame of the whole program follows: every execution terminates, nothing faults, and no argument array is written
  (no host operation and no region writes one).
-/
import proofs.«149588_j66838281060723_2_alg».proof.Proof.KI.RegionsP
import proofs.«149588_j66838281060723_2_alg».proof.Proof.KI.Body0
import proofs.«149588_j66838281060723_2_alg».proof.Proof.KI.Body1
import proofs.«149588_j66838281060723_2_alg».proof.Proof.KI.Body2
import proofs.«149588_j66838281060723_2_alg».proof.Proof.KI.Body3
import proofs.«149588_j66838281060723_2_alg».proof.Proof.KI.Body4
import proofs.«149588_j66838281060723_2_alg».proof.Proof.KI.Body5
import proofs.«149588_j66838281060723_2_alg».proof.Proof.KI.Body6
import proofs.«149588_j66838281060723_2_alg».proof.Proof.KI.Body7
import proofs.«149588_j66838281060723_2_alg».proof.Proof.KI.Body8
import proofs.«149588_j66838281060723_2_alg».proof.Proof.KI.Body9
import proofs.«149588_j66838281060723_2_alg».proof.Proof.KI.Body10
import proofs.«149588_j66838281060723_2_alg».proof.Proof.KI.Body11
import proofs.«149588_j66838281060723_2_alg».proof.Proof.KI.Body12
import proofs.«149588_j66838281060723_2_alg».proof.Proof.KI.Body13
import proofs.«149588_j66838281060723_2_alg».proof.Proof.KI.Body14
import proofs.«149588_j66838281060723_2_alg».proof.Proof.KI.Body15
import proofs.«149588_j66838281060723_2_alg».proof.Proof.KI.Body16
import proofs.«149588_j66838281060723_2_alg».proof.Proof.KI.Body17
import proofs.«149588_j66838281060723_2_alg».proof.Proof.KI.Body18
import proofs.«149588_j66838281060723_2_alg».proof.Proof.KI.Body19
import proofs.«149588_j66838281060723_2_alg».proof.Proof.KI.Body20
import proofs.«149588_j66838281060723_2_alg».proof.Proof.KI.Body21
import proofs.«149588_j66838281060723_2_alg».proof.Proof.KI.Body22
import proofs.«149588_j66838281060723_2_alg».proof.Proof.KI.Body23
import proofs.«149588_j66838281060723_2_alg».proof.Proof.KI.Body24
import proofs.«149588_j66838281060723_2_alg».proof.Proof.KI.Body25

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take. -/
abbrev atTc (W : Dev nD → Valuation τ sig (Elt F)) : (c : Dev nD) → (b : Ref sig .tc) → Buf (Elt F) ((c : Thread nD τ).loc b) :=
  fun c b => W c b

/-! ## The buffer contents at each boundary -/

/-- Before region 0: the launch contents after the first nine host stretches. -/
abbrev T9 : Dev nD → Valuation τ sig (Elt F) := fun c => GenP.V9 m c
/-- After region 0: its output array at what the pipeline's write-backs leave, every other buffer as entered. -/
noncomputable def T10 (c : Dev nD) : Valuation τ sig (Elt F) :=
  Function.update (T9 m c) main_v17 ((dat0 (atTc (T9 m)) c).arrAt 3 cfg0.N)
/-- Before region 1: after the host stretch between the two regions. -/
abbrev T11 : Dev nD → Valuation τ sig (Elt F) := fun c => StableHlo.after hostOps1 (T10 m c)
/-- After region 1: its output array at what the pipeline's write-backs leave, every other buffer as entered. -/
noncomputable def T12 (c : Dev nD) : Valuation τ sig (Elt F) :=
  Function.update (T11 m c) main_v19 ((dat1 (atTc (T11 m)) c).arrAt 3 cfg1.N)
/-- Before region 2: after the host stretch between the two regions. -/
abbrev T13 : Dev nD → Valuation τ sig (Elt F) := fun c => StableHlo.after hostOps2 (T12 m c)
/-- After region 2: its output array at what the pipeline's write-backs leave, every other buffer as entered. -/
noncomputable def T14 (c : Dev nD) : Valuation τ sig (Elt F) :=
  Function.update (T13 m c) main_v50 ((dat2 (atTc (T13 m)) c).arrAt 4 cfg2.N)
/-- Before region 3: after the host stretch between the two regions. -/
abbrev T15 : Dev nD → Valuation τ sig (Elt F) := fun c => StableHlo.after hostOps3 (T14 m c)
/-- After region 3: its output array at what the pipeline's write-backs leave, every other buffer as entered. -/
noncomputable def T16 (c : Dev nD) : Valuation τ sig (Elt F) :=
  Function.update (T15 m c) main_v84 ((dat3 (atTc (T15 m)) c).arrAt 4 cfg3.N)
/-- Before region 4: after the host stretch between the two regions. -/
abbrev T17 : Dev nD → Valuation τ sig (Elt F) := fun c => StableHlo.after hostOps4 (T16 m c)
/-- After region 4: its output array at what the pipeline's write-backs leave, every other buffer as entered. -/
noncomputable def T18 (c : Dev nD) : Valuation τ sig (Elt F) :=
  Function.update (T17 m c) main_v118 ((dat4 (atTc (T17 m)) c).arrAt 4 cfg4.N)
/-- Before region 5: after the host stretch between the two regions. -/
abbrev T19 : Dev nD → Valuation τ sig (Elt F) := fun c => StableHlo.after hostOps5 (T18 m c)
/-- After region 5: its output array at what the pipeline's write-backs leave, every other buffer as entered. -/
noncomputable def T20 (c : Dev nD) : Valuation τ sig (Elt F) :=
  Function.update (T19 m c) main_v152 ((dat5 (atTc (T19 m)) c).arrAt 4 cfg5.N)
/-- Before region 6: after the host stretch between the two regions. -/
abbrev T21 : Dev nD → Valuation τ sig (Elt F) := fun c => StableHlo.after hostOps6 (T20 m c)
/-- After region 6: its output array at what the pipeline's write-backs leave, every other buffer as entered. -/
noncomputable def T22 (c : Dev nD) : Valuation τ sig (Elt F) :=
  Function.update (T21 m c) main_v163 ((dat6 (atTc (T21 m)) c).arrAt 3 cfg6.N)
/-- Before region 7: after the host stretch between the two regions. -/
abbrev T23 : Dev nD → Valuation τ sig (Elt F) := fun c => StableHlo.after hostOps7 (T22 m c)
/-- After region 7: its output array at what the pipeline's write-backs leave, every other buffer as entered. -/
noncomputable def T24 (c : Dev nD) : Valuation τ sig (Elt F) :=
  Function.update (T23 m c) main_v169 ((dat7 (atTc (T23 m)) c).arrAt 3 cfg7.N)
/-- Before region 8: after the host stretch between the two regions. -/
abbrev T25 : Dev nD → Valuation τ sig (Elt F) := fun c => StableHlo.after hostOps8 (T24 m c)
/-- After region 8: its output array at what the pipeline's write-backs leave, every other buffer as entered. -/
noncomputable def T26 (c : Dev nD) : Valuation τ sig (Elt F) :=
  Function.update (T25 m c) main_v200 ((dat8 (atTc (T25 m)) c).arrAt 4 cfg8.N)
/-- Before region 9: after the host stretch between the two regions. -/
abbrev T27 : Dev nD → Valuation τ sig (Elt F) := fun c => StableHlo.after hostOps9 (T26 m c)
/-- After region 9: its output array at what the pipeline's write-backs leave, every other buffer as entered. -/
noncomputable def T28 (c : Dev nD) : Valuation τ sig (Elt F) :=
  Function.update (T27 m c) main_v234 ((dat9 (atTc (T27 m)) c).arrAt 4 cfg9.N)
/-- Before region 10: after the host stretch between the two regions. -/
abbrev T29 : Dev nD → Valuation τ sig (Elt F) := fun c => StableHlo.after hostOps10 (T28 m c)
/-- After region 10: its output array at what the pipeline's write-backs leave, every other buffer as entered. -/
noncomputable def T30 (c : Dev nD) : Valuation τ sig (Elt F) :=
  Function.update (T29 m c) main_v268 ((dat10 (atTc (T29 m)) c).arrAt 4 cfg10.N)
/-- Before region 11: after the host stretch between the two regions. -/
abbrev T31 : Dev nD → Valuation τ sig (Elt F) := fun c => StableHlo.after hostOps11 (T30 m c)
/-- After region 11: its output array at what the pipeline's write-backs leave, every other buffer as entered. -/
noncomputable def T32 (c : Dev nD) : Valuation τ sig (Elt F) :=
  Function.update (T31 m c) main_v302 ((dat11 (atTc (T31 m)) c).arrAt 4 cfg11.N)
/-- Before region 12: after the host stretch between the two regions. -/
abbrev T33 : Dev nD → Valuation τ sig (Elt F) := fun c => StableHlo.after hostOps12 (T32 m c)
/-- After region 12: its output array at what the pipeline's write-backs leave, every other buffer as entered. -/
noncomputable def T34 (c : Dev nD) : Valuation τ sig (Elt F) :=
  Function.update (T33 m c) main_v313 ((dat12 (atTc (T33 m)) c).arrAt 3 cfg12.N)
/-- Before region 13: after the host stretch between the two regions. -/
abbrev T35 : Dev nD → Valuation τ sig (Elt F) := fun c => StableHlo.after hostOps13 (T34 m c)
/-- After region 13: its output array at what the pipeline's write-backs leave, every other buffer as entered. -/
noncomputable def T36 (c : Dev nD) : Valuation τ sig (Elt F) :=
  Function.update (T35 m c) main_v319 ((dat13 (atTc (T35 m)) c).arrAt 3 cfg13.N)
/-- Before region 14: after the host stretch between the two regions. -/
abbrev T37 : Dev nD → Valuation τ sig (Elt F) := fun c => StableHlo.after hostOps14 (T36 m c)
/-- After region 14: its output array at what the pipeline's write-backs leave, every other buffer as entered. -/
noncomputable def T38 (c : Dev nD) : Valuation τ sig (Elt F) :=
  Function.update (T37 m c) main_v350 ((dat14 (atTc (T37 m)) c).arrAt 4 cfg14.N)
/-- Before region 15: after the host stretch between the two regions. -/
abbrev T39 : Dev nD → Valuation τ sig (Elt F) := fun c => StableHlo.after hostOps15 (T38 m c)
/-- After region 15: its output array at what the pipeline's write-backs leave, every other buffer as entered. -/
noncomputable def T40 (c : Dev nD) : Valuation τ sig (Elt F) :=
  Function.update (T39 m c) main_v384 ((dat15 (atTc (T39 m)) c).arrAt 4 cfg15.N)
/-- Before region 16: after the host stretch between the two regions. -/
abbrev T41 : Dev nD → Valuation τ sig (Elt F) := fun c => StableHlo.after hostOps16 (T40 m c)
/-- After region 16: its output array at what the pipeline's write-backs leave, every other buffer as entered. -/
noncomputable def T42 (c : Dev nD) : Valuation τ sig (Elt F) :=
  Function.update (T41 m c) main_v418 ((dat16 (atTc (T41 m)) c).arrAt 4 cfg16.N)
/-- Before region 17: after the host stretch between the two regions. -/
abbrev T43 : Dev nD → Valuation τ sig (Elt F) := fun c => StableHlo.after hostOps17 (T42 m c)
/-- After region 17: its output array at what the pipeline's write-backs leave, every other buffer as entered. -/
noncomputable def T44 (c : Dev nD) : Valuation τ sig (Elt F) :=
  Function.update (T43 m c) main_v452 ((dat17 (atTc (T43 m)) c).arrAt 4 cfg17.N)
/-- Before region 18: after the host stretch between the two regions. -/
abbrev T45 : Dev nD → Valuation τ sig (Elt F) := fun c => StableHlo.after hostOps18 (T44 m c)
/-- After region 18: its output array at what the pipeline's write-backs leave, every other buffer as entered. -/
noncomputable def T46 (c : Dev nD) : Valuation τ sig (Elt F) :=
  Function.update (T45 m c) main_v463 ((dat18 (atTc (T45 m)) c).arrAt 3 cfg18.N)
/-- Before region 19: after the host stretch between the two regions. -/
abbrev T47 : Dev nD → Valuation τ sig (Elt F) := fun c => StableHlo.after hostOps19 (T46 m c)
/-- After region 19: its output array at what the pipeline's write-backs leave, every other buffer as entered. -/
noncomputable def T48 (c : Dev nD) : Valuation τ sig (Elt F) :=
  Function.update (T47 m c) main_v469 ((dat19 (atTc (T47 m)) c).arrAt 3 cfg19.N)
/-- Before region 20: after the host stretch between the two regions. -/
abbrev T49 : Dev nD → Valuation τ sig (Elt F) := fun c => StableHlo.after hostOps20 (T48 m c)
/-- After region 20: its output array at what the pipeline's write-backs leave, every other buffer as entered. -/
noncomputable def T50 (c : Dev nD) : Valuation τ sig (Elt F) :=
  Function.update (T49 m c) main_v500 ((dat20 (atTc (T49 m)) c).arrAt 4 cfg20.N)
/-- Before region 21: after the host stretch between the two regions. -/
abbrev T51 : Dev nD → Valuation τ sig (Elt F) := fun c => StableHlo.after hostOps21 (T50 m c)
/-- After region 21: its output array at what the pipeline's write-backs leave, every other buffer as entered. -/
noncomputable def T52 (c : Dev nD) : Valuation τ sig (Elt F) :=
  Function.update (T51 m c) main_v534 ((dat21 (atTc (T51 m)) c).arrAt 4 cfg21.N)
/-- Before region 22: after the host stretch between the two regions. -/
abbrev T53 : Dev nD → Valuation τ sig (Elt F) := fun c => StableHlo.after hostOps22 (T52 m c)
/-- After region 22: its output array at what the pipeline's write-backs leave, every other buffer as entered. -/
noncomputable def T54 (c : Dev nD) : Valuation τ sig (Elt F) :=
  Function.update (T53 m c) main_v568 ((dat22 (atTc (T53 m)) c).arrAt 4 cfg22.N)
/-- Before region 23: after the host stretch between the two regions. -/
abbrev T55 : Dev nD → Valuation τ sig (Elt F) := fun c => StableHlo.after hostOps23 (T54 m c)
/-- After region 23: its output array at what the pipeline's write-backs leave, every other buffer as entered. -/
noncomputable def T56 (c : Dev nD) : Valuation τ sig (Elt F) :=
  Function.update (T55 m c) main_v602 ((dat23 (atTc (T55 m)) c).arrAt 4 cfg23.N)
/-- Before region 24: after the host stretch between the two regions. -/
abbrev T57 : Dev nD → Valuation τ sig (Elt F) := fun c => StableHlo.after hostOps24 (T56 m c)
/-- After region 24: its output array at what the pipeline's write-backs leave, every other buffer as entered. -/
noncomputable def T58 (c : Dev nD) : Valuation τ sig (Elt F) :=
  Function.update (T57 m c) main_v613 ((dat24 (atTc (T57 m)) c).arrAt 3 cfg24.N)
/-- Before region 25: after the host stretch between the two regions. -/
abbrev T59 : Dev nD → Valuation τ sig (Elt F) := fun c => StableHlo.after hostOps25 (T58 m c)
/-- After region 25: its output array at what the pipeline's write-backs leave, every other buffer as entered. -/
noncomputable def T60 (c : Dev nD) : Valuation τ sig (Elt F) :=
  Function.update (T59 m c) main_v619 ((dat25 (atTc (T59 m)) c).arrAt 3 cfg25.N)

/-- What each region leaves in the buffers it may change, read off the fold. -/
noncomputable def outs : GenP.Outs (F := F) := fun J r c =>
  match J with
  | 10 => T10 m c r
  | 12 => T12 m c r
  | 14 => T14 m c r
  | 16 => T16 m c r
  | 18 => T18 m c r
  | 20 => T20 m c r
  | 22 => T22 m c r
  | 24 => T24 m c r
  | 26 => T26 m c r
  | 28 => T28 m c r
  | 30 => T30 m c r
  | 32 => T32 m c r
  | 34 => T34 m c r
  | 36 => T36 m c r
  | 38 => T38 m c r
  | 40 => T40 m c r
  | 42 => T42 m c r
  | 44 => T44 m c r
  | 46 => T46 m c r
  | 48 => T48 m c r
  | 50 => T50 m c r
  | 52 => T52 m c r
  | 54 => T54 m c r
  | 56 => T56 m c r
  | 58 => T58 m c r
  | 60 => T60 m c r
  | _ => T9 m c r

/-! ## The fold is the valuation sequence of the conditional frame at these contents -/

theorem Veq9 (c : Dev nD) : GenP.V9 m c = T9 m c := rfl
theorem Veq10 (c : Dev nD) : GenP.V10 m (outs m) c = T10 m c := by
  show Function.update (GenP.V9 m c) main_v17 (T10 m c main_v17) = T10 m c
  rw [Veq9]; unfold T10; rw [Function.update_self]
theorem Veq11 (c : Dev nD) : GenP.V11 m (outs m) c = T11 m c :=
  congrArg (StableHlo.after hostOps1) (Veq10 m c)
theorem Veq12 (c : Dev nD) : GenP.V12 m (outs m) c = T12 m c := by
  show Function.update (GenP.V11 m (outs m) c) main_v19 (T12 m c main_v19) = T12 m c
  rw [Veq11]; unfold T12; rw [Function.update_self]
theorem Veq13 (c : Dev nD) : GenP.V13 m (outs m) c = T13 m c :=
  congrArg (StableHlo.after hostOps2) (Veq12 m c)
theorem Veq14 (c : Dev nD) : GenP.V14 m (outs m) c = T14 m c := by
  show Function.update (GenP.V13 m (outs m) c) main_v50 (T14 m c main_v50) = T14 m c
  rw [Veq13]; unfold T14; rw [Function.update_self]
theorem Veq15 (c : Dev nD) : GenP.V15 m (outs m) c = T15 m c :=
  congrArg (StableHlo.after hostOps3) (Veq14 m c)
theorem Veq16 (c : Dev nD) : GenP.V16 m (outs m) c = T16 m c := by
  show Function.update (GenP.V15 m (outs m) c) main_v84 (T16 m c main_v84) = T16 m c
  rw [Veq15]; unfold T16; rw [Function.update_self]
theorem Veq17 (c : Dev nD) : GenP.V17 m (outs m) c = T17 m c :=
  congrArg (StableHlo.after hostOps4) (Veq16 m c)
theorem Veq18 (c : Dev nD) : GenP.V18 m (outs m) c = T18 m c := by
  show Function.update (GenP.V17 m (outs m) c) main_v118 (T18 m c main_v118) = T18 m c
  rw [Veq17]; unfold T18; rw [Function.update_self]
theorem Veq19 (c : Dev nD) : GenP.V19 m (outs m) c = T19 m c :=
  congrArg (StableHlo.after hostOps5) (Veq18 m c)
theorem Veq20 (c : Dev nD) : GenP.V20 m (outs m) c = T20 m c := by
  show Function.update (GenP.V19 m (outs m) c) main_v152 (T20 m c main_v152) = T20 m c
  rw [Veq19]; unfold T20; rw [Function.update_self]
theorem Veq21 (c : Dev nD) : GenP.V21 m (outs m) c = T21 m c :=
  congrArg (StableHlo.after hostOps6) (Veq20 m c)
theorem Veq22 (c : Dev nD) : GenP.V22 m (outs m) c = T22 m c := by
  show Function.update (GenP.V21 m (outs m) c) main_v163 (T22 m c main_v163) = T22 m c
  rw [Veq21]; unfold T22; rw [Function.update_self]
theorem Veq23 (c : Dev nD) : GenP.V23 m (outs m) c = T23 m c :=
  congrArg (StableHlo.after hostOps7) (Veq22 m c)
theorem Veq24 (c : Dev nD) : GenP.V24 m (outs m) c = T24 m c := by
  show Function.update (GenP.V23 m (outs m) c) main_v169 (T24 m c main_v169) = T24 m c
  rw [Veq23]; unfold T24; rw [Function.update_self]
theorem Veq25 (c : Dev nD) : GenP.V25 m (outs m) c = T25 m c :=
  congrArg (StableHlo.after hostOps8) (Veq24 m c)
theorem Veq26 (c : Dev nD) : GenP.V26 m (outs m) c = T26 m c := by
  show Function.update (GenP.V25 m (outs m) c) main_v200 (T26 m c main_v200) = T26 m c
  rw [Veq25]; unfold T26; rw [Function.update_self]
theorem Veq27 (c : Dev nD) : GenP.V27 m (outs m) c = T27 m c :=
  congrArg (StableHlo.after hostOps9) (Veq26 m c)
theorem Veq28 (c : Dev nD) : GenP.V28 m (outs m) c = T28 m c := by
  show Function.update (GenP.V27 m (outs m) c) main_v234 (T28 m c main_v234) = T28 m c
  rw [Veq27]; unfold T28; rw [Function.update_self]
theorem Veq29 (c : Dev nD) : GenP.V29 m (outs m) c = T29 m c :=
  congrArg (StableHlo.after hostOps10) (Veq28 m c)
theorem Veq30 (c : Dev nD) : GenP.V30 m (outs m) c = T30 m c := by
  show Function.update (GenP.V29 m (outs m) c) main_v268 (T30 m c main_v268) = T30 m c
  rw [Veq29]; unfold T30; rw [Function.update_self]
theorem Veq31 (c : Dev nD) : GenP.V31 m (outs m) c = T31 m c :=
  congrArg (StableHlo.after hostOps11) (Veq30 m c)
theorem Veq32 (c : Dev nD) : GenP.V32 m (outs m) c = T32 m c := by
  show Function.update (GenP.V31 m (outs m) c) main_v302 (T32 m c main_v302) = T32 m c
  rw [Veq31]; unfold T32; rw [Function.update_self]
theorem Veq33 (c : Dev nD) : GenP.V33 m (outs m) c = T33 m c :=
  congrArg (StableHlo.after hostOps12) (Veq32 m c)
theorem Veq34 (c : Dev nD) : GenP.V34 m (outs m) c = T34 m c := by
  show Function.update (GenP.V33 m (outs m) c) main_v313 (T34 m c main_v313) = T34 m c
  rw [Veq33]; unfold T34; rw [Function.update_self]
theorem Veq35 (c : Dev nD) : GenP.V35 m (outs m) c = T35 m c :=
  congrArg (StableHlo.after hostOps13) (Veq34 m c)
theorem Veq36 (c : Dev nD) : GenP.V36 m (outs m) c = T36 m c := by
  show Function.update (GenP.V35 m (outs m) c) main_v319 (T36 m c main_v319) = T36 m c
  rw [Veq35]; unfold T36; rw [Function.update_self]
theorem Veq37 (c : Dev nD) : GenP.V37 m (outs m) c = T37 m c :=
  congrArg (StableHlo.after hostOps14) (Veq36 m c)
theorem Veq38 (c : Dev nD) : GenP.V38 m (outs m) c = T38 m c := by
  show Function.update (GenP.V37 m (outs m) c) main_v350 (T38 m c main_v350) = T38 m c
  rw [Veq37]; unfold T38; rw [Function.update_self]
theorem Veq39 (c : Dev nD) : GenP.V39 m (outs m) c = T39 m c :=
  congrArg (StableHlo.after hostOps15) (Veq38 m c)
theorem Veq40 (c : Dev nD) : GenP.V40 m (outs m) c = T40 m c := by
  show Function.update (GenP.V39 m (outs m) c) main_v384 (T40 m c main_v384) = T40 m c
  rw [Veq39]; unfold T40; rw [Function.update_self]
theorem Veq41 (c : Dev nD) : GenP.V41 m (outs m) c = T41 m c :=
  congrArg (StableHlo.after hostOps16) (Veq40 m c)
theorem Veq42 (c : Dev nD) : GenP.V42 m (outs m) c = T42 m c := by
  show Function.update (GenP.V41 m (outs m) c) main_v418 (T42 m c main_v418) = T42 m c
  rw [Veq41]; unfold T42; rw [Function.update_self]
theorem Veq43 (c : Dev nD) : GenP.V43 m (outs m) c = T43 m c :=
  congrArg (StableHlo.after hostOps17) (Veq42 m c)
theorem Veq44 (c : Dev nD) : GenP.V44 m (outs m) c = T44 m c := by
  show Function.update (GenP.V43 m (outs m) c) main_v452 (T44 m c main_v452) = T44 m c
  rw [Veq43]; unfold T44; rw [Function.update_self]
theorem Veq45 (c : Dev nD) : GenP.V45 m (outs m) c = T45 m c :=
  congrArg (StableHlo.after hostOps18) (Veq44 m c)
theorem Veq46 (c : Dev nD) : GenP.V46 m (outs m) c = T46 m c := by
  show Function.update (GenP.V45 m (outs m) c) main_v463 (T46 m c main_v463) = T46 m c
  rw [Veq45]; unfold T46; rw [Function.update_self]
theorem Veq47 (c : Dev nD) : GenP.V47 m (outs m) c = T47 m c :=
  congrArg (StableHlo.after hostOps19) (Veq46 m c)
theorem Veq48 (c : Dev nD) : GenP.V48 m (outs m) c = T48 m c := by
  show Function.update (GenP.V47 m (outs m) c) main_v469 (T48 m c main_v469) = T48 m c
  rw [Veq47]; unfold T48; rw [Function.update_self]
theorem Veq49 (c : Dev nD) : GenP.V49 m (outs m) c = T49 m c :=
  congrArg (StableHlo.after hostOps20) (Veq48 m c)
theorem Veq50 (c : Dev nD) : GenP.V50 m (outs m) c = T50 m c := by
  show Function.update (GenP.V49 m (outs m) c) main_v500 (T50 m c main_v500) = T50 m c
  rw [Veq49]; unfold T50; rw [Function.update_self]
theorem Veq51 (c : Dev nD) : GenP.V51 m (outs m) c = T51 m c :=
  congrArg (StableHlo.after hostOps21) (Veq50 m c)
theorem Veq52 (c : Dev nD) : GenP.V52 m (outs m) c = T52 m c := by
  show Function.update (GenP.V51 m (outs m) c) main_v534 (T52 m c main_v534) = T52 m c
  rw [Veq51]; unfold T52; rw [Function.update_self]
theorem Veq53 (c : Dev nD) : GenP.V53 m (outs m) c = T53 m c :=
  congrArg (StableHlo.after hostOps22) (Veq52 m c)
theorem Veq54 (c : Dev nD) : GenP.V54 m (outs m) c = T54 m c := by
  show Function.update (GenP.V53 m (outs m) c) main_v568 (T54 m c main_v568) = T54 m c
  rw [Veq53]; unfold T54; rw [Function.update_self]
theorem Veq55 (c : Dev nD) : GenP.V55 m (outs m) c = T55 m c :=
  congrArg (StableHlo.after hostOps23) (Veq54 m c)
theorem Veq56 (c : Dev nD) : GenP.V56 m (outs m) c = T56 m c := by
  show Function.update (GenP.V55 m (outs m) c) main_v602 (T56 m c main_v602) = T56 m c
  rw [Veq55]; unfold T56; rw [Function.update_self]
theorem Veq57 (c : Dev nD) : GenP.V57 m (outs m) c = T57 m c :=
  congrArg (StableHlo.after hostOps24) (Veq56 m c)
theorem Veq58 (c : Dev nD) : GenP.V58 m (outs m) c = T58 m c := by
  show Function.update (GenP.V57 m (outs m) c) main_v613 (T58 m c main_v613) = T58 m c
  rw [Veq57]; unfold T58; rw [Function.update_self]
theorem Veq59 (c : Dev nD) : GenP.V59 m (outs m) c = T59 m c :=
  congrArg (StableHlo.after hostOps25) (Veq58 m c)
theorem Veq60 (c : Dev nD) : GenP.V60 m (outs m) c = T60 m c := by
  show Function.update (GenP.V59 m (outs m) c) main_v619 (T60 m c main_v619) = T60 m c
  rw [Veq59]; unfold T60; rw [Function.update_self]

/-! ## The proof data family -/

/-- Every pipeline's proof data, each at its region's entry contents. -/
noncomputable def pdats : (p : Fin 26) → (c : Dev nD) → Dat τ (Elt F) Unit ℕ (UR sig nD τ) ℕ (cfgs p) c
  | ⟨0, _⟩ => fun c => dat0 (atTc (T9 m)) c
  | ⟨1, _⟩ => fun c => dat1 (atTc (T11 m)) c
  | ⟨2, _⟩ => fun c => dat2 (atTc (T13 m)) c
  | ⟨3, _⟩ => fun c => dat3 (atTc (T15 m)) c
  | ⟨4, _⟩ => fun c => dat4 (atTc (T17 m)) c
  | ⟨5, _⟩ => fun c => dat5 (atTc (T19 m)) c
  | ⟨6, _⟩ => fun c => dat6 (atTc (T21 m)) c
  | ⟨7, _⟩ => fun c => dat7 (atTc (T23 m)) c
  | ⟨8, _⟩ => fun c => dat8 (atTc (T25 m)) c
  | ⟨9, _⟩ => fun c => dat9 (atTc (T27 m)) c
  | ⟨10, _⟩ => fun c => dat10 (atTc (T29 m)) c
  | ⟨11, _⟩ => fun c => dat11 (atTc (T31 m)) c
  | ⟨12, _⟩ => fun c => dat12 (atTc (T33 m)) c
  | ⟨13, _⟩ => fun c => dat13 (atTc (T35 m)) c
  | ⟨14, _⟩ => fun c => dat14 (atTc (T37 m)) c
  | ⟨15, _⟩ => fun c => dat15 (atTc (T39 m)) c
  | ⟨16, _⟩ => fun c => dat16 (atTc (T41 m)) c
  | ⟨17, _⟩ => fun c => dat17 (atTc (T43 m)) c
  | ⟨18, _⟩ => fun c => dat18 (atTc (T45 m)) c
  | ⟨19, _⟩ => fun c => dat19 (atTc (T47 m)) c
  | ⟨20, _⟩ => fun c => dat20 (atTc (T49 m)) c
  | ⟨21, _⟩ => fun c => dat21 (atTc (T51 m)) c
  | ⟨22, _⟩ => fun c => dat22 (atTc (T53 m)) c
  | ⟨23, _⟩ => fun c => dat23 (atTc (T55 m)) c
  | ⟨24, _⟩ => fun c => dat24 (atTc (T57 m)) c
  | ⟨25, _⟩ => fun c => dat25 (atTc (T59 m)) c
  | ⟨_ + 26, h⟩ => absurd h (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev Rr (c : Dev nD) : sProp 𝕄 := iprop((∃ r, prngReg c r) ∗ ∃ W, owes (c : Thread nD τ) (0 : CellTallies nD τ sig Unit) W)

/-! ## Each region's arrays at its exit -/
set_option maxHeartbeats 4000000 in
/-- At region 0's exit each input array holds what it held at entry and the output array what the pipeline leaves. -/
theorem hF0 (c : Dev nD) : ∀ w, (pdats m 0 c).arrAt w cfg0.N = atTc (T10 m) c (Pipeline.arrRef spec0 w) := fun w => by
  match w with
  | ⟨0, _⟩ =>
    refine (((pdats m 0 c).arrAt_in 0 rfl _).trans (A_eq0 _ c 0)).trans ?_
    show T9 m c (Pipeline.arrRef spec0 0) = Function.update (T9 m c) main_v17 _ (Pipeline.arrRef spec0 0)
    exact (Function.update_of_ne (StableHlo.devRef_ne_of_ne (by decide)) _ _).symm
  | ⟨1, _⟩ =>
    refine (((pdats m 0 c).arrAt_in 1 rfl _).trans (A_eq0 _ c 1)).trans ?_
    show T9 m c (Pipeline.arrRef spec0 1) = Function.update (T9 m c) main_v17 _ (Pipeline.arrRef spec0 1)
    exact (Function.update_of_ne (StableHlo.devRef_ne_of_ne (by decide)) _ _).symm
  | ⟨2, _⟩ =>
    refine (((pdats m 0 c).arrAt_in 2 rfl _).trans (A_eq0 _ c 2)).trans ?_
    show T9 m c (Pipeline.arrRef spec0 2) = Function.update (T9 m c) main_v17 _ (Pipeline.arrRef spec0 2)
    exact (Function.update_of_ne (StableHlo.devRef_ne_of_ne (by decide)) _ _).symm
  | ⟨3, _⟩ =>
    show _ = Function.update (T9 m c) main_v17 _ main_v17
    rw [Function.update_self]
    rfl
/-- Every buffer that is none of region 0's arrays is as at entry. -/
theorem hrest0 (c : Dev nD) : ∀ b, b ∉ Finset.univ.image (Pipeline.arrRef spec0) → atTc (T10 m) c b = atTc (T9 m) c b := fun b hb => by
  unfold atTc T10
  exact Function.update_of_ne (StableHlo.devRef_ne_of_ne (fun e => hb (Finset.mem_image.mpr ⟨3, Finset.mem_univ _, (by decide : Pipeline.arrRef spec0 3 = main_v17).trans e.symm⟩))) _ _
set_option maxHeartbeats 4000000 in
/-- At region 1's exit each input array holds what it held at entry and the output array what the pipeline leaves. -/
theorem hF1 (c : Dev nD) : ∀ w, (pdats m 1 c).arrAt w cfg1.N = atTc (T12 m) c (Pipeline.arrRef spec1 w) := fun w => by
  match w with
  | ⟨0, _⟩ =>
    refine (((pdats m 1 c).arrAt_in 0 rfl _).trans (A_eq1 _ c 0)).trans ?_
    show T11 m c (Pipeline.arrRef spec1 0) = Function.update (T11 m c) main_v19 _ (Pipeline.arrRef spec1 0)
    exact (Function.update_of_ne (StableHlo.devRef_ne_of_ne (by decide)) _ _).symm
  | ⟨1, _⟩ =>
    refine (((pdats m 1 c).arrAt_in 1 rfl _).trans (A_eq1 _ c 1)).trans ?_
    show T11 m c (Pipeline.arrRef spec1 1) = Function.update (T11 m c) main_v19 _ (Pipeline.arrRef spec1 1)
    exact (Function.update_of_ne (StableHlo.devRef_ne_of_ne (by decide)) _ _).symm
  | ⟨2, _⟩ =>
    refine (((pdats m 1 c).arrAt_in 2 rfl _).trans (A_eq1 _ c 2)).trans ?_
    show T11 m c (Pipeline.arrRef spec1 2) = Function.update (T11 m c) main_v19 _ (Pipeline.arrRef spec1 2)
    exact (Function.update_of_ne (StableHlo.devRef_ne_of_ne (by decide)) _ _).symm
  | ⟨3, _⟩ =>
    show _ = Function.update (T11 m c) main_v19 _ main_v19
    rw [Function.update_self]
    rfl
/-- Every buffer that is none of region 1's arrays is as at entry. -/
theorem hrest1 (c : Dev nD) : ∀ b, b ∉ Finset.univ.image (Pipeline.arrRef spec1) → atTc (T12 m) c b = atTc (T11 m) c b := fun b hb => by
  unfold atTc T12
  exact Function.update_of_ne (StableHlo.devRef_ne_of_ne (fun e => hb (Finset.mem_image.mpr ⟨3, Finset.mem_univ _, (by decide : Pipeline.arrRef spec1 3 = main_v19).trans e.symm⟩))) _ _
set_option maxHeartbeats 4000000 in
/-- At region 2's exit each input array holds what it held at entry and the output array what the pipeline leaves. -/
theorem hF2 (c : Dev nD) : ∀ w, (pdats m 2 c).arrAt w cfg2.N = atTc (T14 m) c (Pipeline.arrRef spec2 w) := fun w => by
  match w with
  | ⟨0, _⟩ =>
    refine (((pdats m 2 c).arrAt_in 0 rfl _).trans (A_eq2 _ c 0)).trans ?_
    show T13 m c (Pipeline.arrRef spec2 0) = Function.update (T13 m c) main_v50 _ (Pipeline.arrRef spec2 0)
    exact (Function.update_of_ne (StableHlo.devRef_ne_of_ne (by decide)) _ _).symm
  | ⟨1, _⟩ =>
    refine (((pdats m 2 c).arrAt_in 1 rfl _).trans (A_eq2 _ c 1)).trans ?_
    show T13 m c (Pipeline.arrRef spec2 1) = Function.update (T13 m c) main_v50 _ (Pipeline.arrRef spec2 1)
    exact (Function.update_of_ne (StableHlo.devRef_ne_of_ne (by decide)) _ _).symm
  | ⟨2, _⟩ =>
    refine (((pdats m 2 c).arrAt_in 2 rfl _).trans (A_eq2 _ c 2)).trans ?_
    show T13 m c (Pipeline.arrRef spec2 2) = Function.update (T13 m c) main_v50 _ (Pipeline.arrRef spec2 2)
    exact (Function.update_of_ne (StableHlo.devRef_ne_of_ne (by decide)) _ _).symm
  | ⟨3, _⟩ =>
    refine (((pdats m 2 c).arrAt_in 3 rfl _).trans (A_eq2 _ c 3)).trans ?_
    show T13 m c (Pipeline.arrRef spec2 3) = Function.update (T13 m c) main_v50 _ (Pipeline.arrRef spec2 3)
    exact (Function.update_of_ne (StableHlo.devRef_ne_of_ne (by decide)) _ _).symm
  | ⟨4, _⟩ =>
    show _ = Function.update (T13 m c) main_v50 _ main_v50
    rw [Function.update_self]
    rfl
/-- Every buffer that is none of region 2's arrays is as at entry. -/
theorem hrest2 (c : Dev nD) : ∀ b, b ∉ Finset.univ.image (Pipeline.arrRef spec2) → atTc (T14 m) c b = atTc (T13 m) c b := fun b hb => by
  unfold atTc T14
  exact Function.update_of_ne (StableHlo.devRef_ne_of_ne (fun e => hb (Finset.mem_image.mpr ⟨4, Finset.mem_univ _, (by decide : Pipeline.arrRef spec2 4 = main_v50).trans e.symm⟩))) _ _
set_option maxHeartbeats 4000000 in
/-- At region 3's exit each input array holds what it held at entry and the output array what the pipeline leaves. -/
theorem hF3 (c : Dev nD) : ∀ w, (pdats m 3 c).arrAt w cfg3.N = atTc (T16 m) c (Pipeline.arrRef spec3 w) := fun w => by
  match w with
  | ⟨0, _⟩ =>
    refine (((pdats m 3 c).arrAt_in 0 rfl _).trans (A_eq3 _ c 0)).trans ?_
    show T15 m c (Pipeline.arrRef spec3 0) = Function.update (T15 m c) main_v84 _ (Pipeline.arrRef spec3 0)
    exact (Function.update_of_ne (StableHlo.devRef_ne_of_ne (by decide)) _ _).symm
  | ⟨1, _⟩ =>
    refine (((pdats m 3 c).arrAt_in 1 rfl _).trans (A_eq3 _ c 1)).trans ?_
    show T15 m c (Pipeline.arrRef spec3 1) = Function.update (T15 m c) main_v84 _ (Pipeline.arrRef spec3 1)
    exact (Function.update_of_ne (StableHlo.devRef_ne_of_ne (by decide)) _ _).symm
  | ⟨2, _⟩ =>
    refine (((pdats m 3 c).arrAt_in 2 rfl _).trans (A_eq3 _ c 2)).trans ?_
    show T15 m c (Pipeline.arrRef spec3 2) = Function.update (T15 m c) main_v84 _ (Pipeline.arrRef spec3 2)
    exact (Function.update_of_ne (StableHlo.devRef_ne_of_ne (by decide)) _ _).symm
  | ⟨3, _⟩ =>
    refine (((pdats m 3 c).arrAt_in 3 rfl _).trans (A_eq3 _ c 3)).trans ?_
    show T15 m c (Pipeline.arrRef spec3 3) = Function.update (T15 m c) main_v84 _ (Pipeline.arrRef spec3 3)
    exact (Function.update_of_ne (StableHlo.devRef_ne_of_ne (by decide)) _ _).symm
  | ⟨4, _⟩ =>
    show _ = Function.update (T15 m c) main_v84 _ main_v84
    rw [Function.update_self]
    rfl
/-- Every buffer that is none of region 3's arrays is as at entry. -/
theorem hrest3 (c : Dev nD) : ∀ b, b ∉ Finset.univ.image (Pipeline.arrRef spec3) → atTc (T16 m) c b = atTc (T15 m) c b := fun b hb => by
  unfold atTc T16
  exact Function.update_of_ne (StableHlo.devRef_ne_of_ne (fun e => hb (Finset.mem_image.mpr ⟨4, Finset.mem_univ _, (by decide : Pipeline.arrRef spec3 4 = main_v84).trans e.symm⟩))) _ _
set_option maxHeartbeats 4000000 in
/-- At region 4's exit each input array holds what it held at entry and the output array what the pipeline leaves. -/
theorem hF4 (c : Dev nD) : ∀ w, (pdats m 4 c).arrAt w cfg4.N = atTc (T18 m) c (Pipeline.arrRef spec4 w) := fun w => by
  match w with
  | ⟨0, _⟩ =>
    refine (((pdats m 4 c).arrAt_in 0 rfl _).trans (A_eq4 _ c 0)).trans ?_
    show T17 m c (Pipeline.arrRef spec4 0) = Function.update (T17 m c) main_v118 _ (Pipeline.arrRef spec4 0)
    exact (Function.update_of_ne (StableHlo.devRef_ne_of_ne (by decide)) _ _).symm
  | ⟨1, _⟩ =>
    refine (((pdats m 4 c).arrAt_in 1 rfl _).trans (A_eq4 _ c 1)).trans ?_
    show T17 m c (Pipeline.arrRef spec4 1) = Function.update (T17 m c) main_v118 _ (Pipeline.arrRef spec4 1)
    exact (Function.update_of_ne (StableHlo.devRef_ne_of_ne (by decide)) _ _).symm
  | ⟨2, _⟩ =>
    refine (((pdats m 4 c).arrAt_in 2 rfl _).trans (A_eq4 _ c 2)).trans ?_
    show T17 m c (Pipeline.arrRef spec4 2) = Function.update (T17 m c) main_v118 _ (Pipeline.arrRef spec4 2)
    exact (Function.update_of_ne (StableHlo.devRef_ne_of_ne (by decide)) _ _).symm
  | ⟨3, _⟩ =>
    refine (((pdats m 4 c).arrAt_in 3 rfl _).trans (A_eq4 _ c 3)).trans ?_
    show T17 m c (Pipeline.arrRef spec4 3) = Function.update (T17 m c) main_v118 _ (Pipeline.arrRef spec4 3)
    exact (Function.update_of_ne (StableHlo.devRef_ne_of_ne (by decide)) _ _).symm
  | ⟨4, _⟩ =>
    show _ = Function.update (T17 m c) main_v118 _ main_v118
    rw [Function.update_self]
    rfl
/-- Every buffer that is none of region 4's arrays is as at entry. -/
theorem hrest4 (c : Dev nD) : ∀ b, b ∉ Finset.univ.image (Pipeline.arrRef spec4) → atTc (T18 m) c b = atTc (T17 m) c b := fun b hb => by
  unfold atTc T18
  exact Function.update_of_ne (StableHlo.devRef_ne_of_ne (fun e => hb (Finset.mem_image.mpr ⟨4, Finset.mem_univ _, (by decide : Pipeline.arrRef spec4 4 = main_v118).trans e.symm⟩))) _ _
set_option maxHeartbeats 4000000 in
/-- At region 5's exit each input array holds what it held at entry and the output array what the pipeline leaves. -/
theorem hF5 (c : Dev nD) : ∀ w, (pdats m 5 c).arrAt w cfg5.N = atTc (T20 m) c (Pipeline.arrRef spec5 w) := fun w => by
  match w with
  | ⟨0, _⟩ =>
    refine (((pdats m 5 c).arrAt_in 0 rfl _).trans (A_eq5 _ c 0)).trans ?_
    show T19 m c (Pipeline.arrRef spec5 0) = Function.update (T19 m c) main_v152 _ (Pipeline.arrRef spec5 0)
    exact (Function.update_of_ne (StableHlo.devRef_ne_of_ne (by decide)) _ _).symm
  | ⟨1, _⟩ =>
    refine (((pdats m 5 c).arrAt_in 1 rfl _).trans (A_eq5 _ c 1)).trans ?_
    show T19 m c (Pipeline.arrRef spec5 1) = Function.update (T19 m c) main_v152 _ (Pipeline.arrRef spec5 1)
    exact (Function.update_of_ne (StableHlo.devRef_ne_of_ne (by decide)) _ _).symm
  | ⟨2, _⟩ =>
    refine (((pdats m 5 c).arrAt_in 2 rfl _).trans (A_eq5 _ c 2)).trans ?_
    show T19 m c (Pipeline.arrRef spec5 2) = Function.update (T19 m c) main_v152 _ (Pipeline.arrRef spec5 2)
    exact (Function.update_of_ne (StableHlo.devRef_ne_of_ne (by decide)) _ _).symm
  | ⟨3, _⟩ =>
    refine (((pdats m 5 c).arrAt_in 3 rfl _).trans (A_eq5 _ c 3)).trans ?_
    show T19 m c (Pipeline.arrRef spec5 3) = Function.update (T19 m c) main_v152 _ (Pipeline.arrRef spec5 3)
    exact (Function.update_of_ne (StableHlo.devRef_ne_of_ne (by decide)) _ _).symm
  | ⟨4, _⟩ =>
    show _ = Function.update (T19 m c) main_v152 _ main_v152
    rw [Function.update_self]
    rfl
/-- Every buffer that is none of region 5's arrays is as at entry. -/
theorem hrest5 (c : Dev nD) : ∀ b, b ∉ Finset.univ.image (Pipeline.arrRef spec5) → atTc (T20 m) c b = atTc (T19 m) c b := fun b hb => by
  unfold atTc T20
  exact Function.update_of_ne (StableHlo.devRef_ne_of_ne (fun e => hb (Finset.mem_image.mpr ⟨4, Finset.mem_univ _, (by decide : Pipeline.arrRef spec5 4 = main_v152).trans e.symm⟩))) _ _
set_option maxHeartbeats 4000000 in
/-- At region 6's exit each input array holds what it held at entry and the output array what the pipeline leaves. -/
theorem hF6 (c : Dev nD) : ∀ w, (pdats m 6 c).arrAt w cfg6.N = atTc (T22 m) c (Pipeline.arrRef spec6 w) := fun w => by
  match w with
  | ⟨0, _⟩ =>
    refine (((pdats m 6 c).arrAt_in 0 rfl _).trans (A_eq6 _ c 0)).trans ?_
    show T21 m c (Pipeline.arrRef spec6 0) = Function.update (T21 m c) main_v163 _ (Pipeline.arrRef spec6 0)
    exact (Function.update_of_ne (StableHlo.devRef_ne_of_ne (by decide)) _ _).symm
  | ⟨1, _⟩ =>
    refine (((pdats m 6 c).arrAt_in 1 rfl _).trans (A_eq6 _ c 1)).trans ?_
    show T21 m c (Pipeline.arrRef spec6 1) = Function.update (T21 m c) main_v163 _ (Pipeline.arrRef spec6 1)
    exact (Function.update_of_ne (StableHlo.devRef_ne_of_ne (by decide)) _ _).symm
  | ⟨2, _⟩ =>
    refine (((pdats m 6 c).arrAt_in 2 rfl _).trans (A_eq6 _ c 2)).trans ?_
    show T21 m c (Pipeline.arrRef spec6 2) = Function.update (T21 m c) main_v163 _ (Pipeline.arrRef spec6 2)
    exact (Function.update_of_ne (StableHlo.devRef_ne_of_ne (by decide)) _ _).symm
  | ⟨3, _⟩ =>
    show _ = Function.update (T21 m c) main_v163 _ main_v163
    rw [Function.update_self]
    rfl
/-- Every buffer that is none of region 6's arrays is as at entry. -/
theorem hrest6 (c : Dev nD) : ∀ b, b ∉ Finset.univ.image (Pipeline.arrRef spec6) → atTc (T22 m) c b = atTc (T21 m) c b := fun b hb => by
  unfold atTc T22
  exact Function.update_of_ne (StableHlo.devRef_ne_of_ne (fun e => hb (Finset.mem_image.mpr ⟨3, Finset.mem_univ _, (by decide : Pipeline.arrRef spec6 3 = main_v163).trans e.symm⟩))) _ _
set_option maxHeartbeats 4000000 in
/-- At region 7's exit each input array holds what it held at entry and the output array what the pipeline leaves. -/
theorem hF7 (c : Dev nD) : ∀ w, (pdats m 7 c).arrAt w cfg7.N = atTc (T24 m) c (Pipeline.arrRef spec7 w) := fun w => by
  match w with
  | ⟨0, _⟩ =>
    refine (((pdats m 7 c).arrAt_in 0 rfl _).trans (A_eq7 _ c 0)).trans ?_
    show T23 m c (Pipeline.arrRef spec7 0) = Function.update (T23 m c) main_v169 _ (Pipeline.arrRef spec7 0)
    exact (Function.update_of_ne (StableHlo.devRef_ne_of_ne (by decide)) _ _).symm
  | ⟨1, _⟩ =>
    refine (((pdats m 7 c).arrAt_in 1 rfl _).trans (A_eq7 _ c 1)).trans ?_
    show T23 m c (Pipeline.arrRef spec7 1) = Function.update (T23 m c) main_v169 _ (Pipeline.arrRef spec7 1)
    exact (Function.update_of_ne (StableHlo.devRef_ne_of_ne (by decide)) _ _).symm
  | ⟨2, _⟩ =>
    refine (((pdats m 7 c).arrAt_in 2 rfl _).trans (A_eq7 _ c 2)).trans ?_
    show T23 m c (Pipeline.arrRef spec7 2) = Function.update (T23 m c) main_v169 _ (Pipeline.arrRef spec7 2)
    exact (Function.update_of_ne (StableHlo.devRef_ne_of_ne (by decide)) _ _).symm
  | ⟨3, _⟩ =>
    show _ = Function.update (T23 m c) main_v169 _ main_v169
    rw [Function.update_self]
    rfl
/-- Every buffer that is none of region 7's arrays is as at entry. -/
theorem hrest7 (c : Dev nD) : ∀ b, b ∉ Finset.univ.image (Pipeline.arrRef spec7) → atTc (T24 m) c b = atTc (T23 m) c b := fun b hb => by
  unfold atTc T24
  exact Function.update_of_ne (StableHlo.devRef_ne_of_ne (fun e => hb (Finset.mem_image.mpr ⟨3, Finset.mem_univ _, (by decide : Pipeline.arrRef spec7 3 = main_v169).trans e.symm⟩))) _ _
set_option maxHeartbeats 4000000 in
/-- At region 8's exit each input array holds what it held at entry and the output array what the pipeline leaves. -/
theorem hF8 (c : Dev nD) : ∀ w, (pdats m 8 c).arrAt w cfg8.N = atTc (T26 m) c (Pipeline.arrRef spec8 w) := fun w => by
  match w with
  | ⟨0, _⟩ =>
    refine (((pdats m 8 c).arrAt_in 0 rfl _).trans (A_eq8 _ c 0)).trans ?_
    show T25 m c (Pipeline.arrRef spec8 0) = Function.update (T25 m c) main_v200 _ (Pipeline.arrRef spec8 0)
    exact (Function.update_of_ne (StableHlo.devRef_ne_of_ne (by decide)) _ _).symm
  | ⟨1, _⟩ =>
    refine (((pdats m 8 c).arrAt_in 1 rfl _).trans (A_eq8 _ c 1)).trans ?_
    show T25 m c (Pipeline.arrRef spec8 1) = Function.update (T25 m c) main_v200 _ (Pipeline.arrRef spec8 1)
    exact (Function.update_of_ne (StableHlo.devRef_ne_of_ne (by decide)) _ _).symm
  | ⟨2, _⟩ =>
    refine (((pdats m 8 c).arrAt_in 2 rfl _).trans (A_eq8 _ c 2)).trans ?_
    show T25 m c (Pipeline.arrRef spec8 2) = Function.update (T25 m c) main_v200 _ (Pipeline.arrRef spec8 2)
    exact (Function.update_of_ne (StableHlo.devRef_ne_of_ne (by decide)) _ _).symm
  | ⟨3, _⟩ =>
    refine (((pdats m 8 c).arrAt_in 3 rfl _).trans (A_eq8 _ c 3)).trans ?_
    show T25 m c (Pipeline.arrRef spec8 3) = Function.update (T25 m c) main_v200 _ (Pipeline.arrRef spec8 3)
    exact (Function.update_of_ne (StableHlo.devRef_ne_of_ne (by decide)) _ _).symm
  | ⟨4, _⟩ =>
    show _ = Function.update (T25 m c) main_v200 _ main_v200
    rw [Function.update_self]
    rfl
/-- Every buffer that is none of region 8's arrays is as at entry. -/
theorem hrest8 (c : Dev nD) : ∀ b, b ∉ Finset.univ.image (Pipeline.arrRef spec8) → atTc (T26 m) c b = atTc (T25 m) c b := fun b hb => by
  unfold atTc T26
  exact Function.update_of_ne (StableHlo.devRef_ne_of_ne (fun e => hb (Finset.mem_image.mpr ⟨4, Finset.mem_univ _, (by decide : Pipeline.arrRef spec8 4 = main_v200).trans e.symm⟩))) _ _
set_option maxHeartbeats 4000000 in
/-- At region 9's exit each input array holds what it held at entry and the output array what the pipeline leaves. -/
theorem hF9 (c : Dev nD) : ∀ w, (pdats m 9 c).arrAt w cfg9.N = atTc (T28 m) c (Pipeline.arrRef spec9 w) := fun w => by
  match w with
  | ⟨0, _⟩ =>
    refine (((pdats m 9 c).arrAt_in 0 rfl _).trans (A_eq9 _ c 0)).trans ?_
    show T27 m c (Pipeline.arrRef spec9 0) = Function.update (T27 m c) main_v234 _ (Pipeline.arrRef spec9 0)
    exact (Function.update_of_ne (StableHlo.devRef_ne_of_ne (by decide)) _ _).symm
  | ⟨1, _⟩ =>
    refine (((pdats m 9 c).arrAt_in 1 rfl _).trans (A_eq9 _ c 1)).trans ?_
    show T27 m c (Pipeline.arrRef spec9 1) = Function.update (T27 m c) main_v234 _ (Pipeline.arrRef spec9 1)
    exact (Function.update_of_ne (StableHlo.devRef_ne_of_ne (by decide)) _ _).symm
  | ⟨2, _⟩ =>
    refine (((pdats m 9 c).arrAt_in 2 rfl _).trans (A_eq9 _ c 2)).trans ?_
    show T27 m c (Pipeline.arrRef spec9 2) = Function.update (T27 m c) main_v234 _ (Pipeline.arrRef spec9 2)
    exact (Function.update_of_ne (StableHlo.devRef_ne_of_ne (by decide)) _ _).symm
  | ⟨3, _⟩ =>
    refine (((pdats m 9 c).arrAt_in 3 rfl _).trans (A_eq9 _ c 3)).trans ?_
    show T27 m c (Pipeline.arrRef spec9 3) = Function.update (T27 m c) main_v234 _ (Pipeline.arrRef spec9 3)
    exact (Function.update_of_ne (StableHlo.devRef_ne_of_ne (by decide)) _ _).symm
  | ⟨4, _⟩ =>
    show _ = Function.update (T27 m c) main_v234 _ main_v234
    rw [Function.update_self]
    rfl
/-- Every buffer that is none of region 9's arrays is as at entry. -/
theorem hrest9 (c : Dev nD) : ∀ b, b ∉ Finset.univ.image (Pipeline.arrRef spec9) → atTc (T28 m) c b = atTc (T27 m) c b := fun b hb => by
  unfold atTc T28
  exact Function.update_of_ne (StableHlo.devRef_ne_of_ne (fun e => hb (Finset.mem_image.mpr ⟨4, Finset.mem_univ _, (by decide : Pipeline.arrRef spec9 4 = main_v234).trans e.symm⟩))) _ _
set_option maxHeartbeats 4000000 in
/-- At region 10's exit each input array holds what it held at entry and the output array what the pipeline leaves. -/
theorem hF10 (c : Dev nD) : ∀ w, (pdats m 10 c).arrAt w cfg10.N = atTc (T30 m) c (Pipeline.arrRef spec10 w) := fun w => by
  match w with
  | ⟨0, _⟩ =>
    refine (((pdats m 10 c).arrAt_in 0 rfl _).trans (A_eq10 _ c 0)).trans ?_
    show T29 m c (Pipeline.arrRef spec10 0) = Function.update (T29 m c) main_v268 _ (Pipeline.arrRef spec10 0)
    exact (Function.update_of_ne (StableHlo.devRef_ne_of_ne (by decide)) _ _).symm
  | ⟨1, _⟩ =>
    refine (((pdats m 10 c).arrAt_in 1 rfl _).trans (A_eq10 _ c 1)).trans ?_
    show T29 m c (Pipeline.arrRef spec10 1) = Function.update (T29 m c) main_v268 _ (Pipeline.arrRef spec10 1)
    exact (Function.update_of_ne (StableHlo.devRef_ne_of_ne (by decide)) _ _).symm
  | ⟨2, _⟩ =>
    refine (((pdats m 10 c).arrAt_in 2 rfl _).trans (A_eq10 _ c 2)).trans ?_
    show T29 m c (Pipeline.arrRef spec10 2) = Function.update (T29 m c) main_v268 _ (Pipeline.arrRef spec10 2)
    exact (Function.update_of_ne (StableHlo.devRef_ne_of_ne (by decide)) _ _).symm
  | ⟨3, _⟩ =>
    refine (((pdats m 10 c).arrAt_in 3 rfl _).trans (A_eq10 _ c 3)).trans ?_
    show T29 m c (Pipeline.arrRef spec10 3) = Function.update (T29 m c) main_v268 _ (Pipeline.arrRef spec10 3)
    exact (Function.update_of_ne (StableHlo.devRef_ne_of_ne (by decide)) _ _).symm
  | ⟨4, _⟩ =>
    show _ = Function.update (T29 m c) main_v268 _ main_v268
    rw [Function.update_self]
    rfl
/-- Every buffer that is none of region 10's arrays is as at entry. -/
theorem hrest10 (c : Dev nD) : ∀ b, b ∉ Finset.univ.image (Pipeline.arrRef spec10) → atTc (T30 m) c b = atTc (T29 m) c b := fun b hb => by
  unfold atTc T30
  exact Function.update_of_ne (StableHlo.devRef_ne_of_ne (fun e => hb (Finset.mem_image.mpr ⟨4, Finset.mem_univ _, (by decide : Pipeline.arrRef spec10 4 = main_v268).trans e.symm⟩))) _ _
set_option maxHeartbeats 4000000 in
/-- At region 11's exit each input array holds what it held at entry and the output array what the pipeline leaves. -/
theorem hF11 (c : Dev nD) : ∀ w, (pdats m 11 c).arrAt w cfg11.N = atTc (T32 m) c (Pipeline.arrRef spec11 w) := fun w => by
  match w with
  | ⟨0, _⟩ =>
    refine (((pdats m 11 c).arrAt_in 0 rfl _).trans (A_eq11 _ c 0)).trans ?_
    show T31 m c (Pipeline.arrRef spec11 0) = Function.update (T31 m c) main_v302 _ (Pipeline.arrRef spec11 0)
    exact (Function.update_of_ne (StableHlo.devRef_ne_of_ne (by decide)) _ _).symm
  | ⟨1, _⟩ =>
    refine (((pdats m 11 c).arrAt_in 1 rfl _).trans (A_eq11 _ c 1)).trans ?_
    show T31 m c (Pipeline.arrRef spec11 1) = Function.update (T31 m c) main_v302 _ (Pipeline.arrRef spec11 1)
    exact (Function.update_of_ne (StableHlo.devRef_ne_of_ne (by decide)) _ _).symm
  | ⟨2, _⟩ =>
    refine (((pdats m 11 c).arrAt_in 2 rfl _).trans (A_eq11 _ c 2)).trans ?_
    show T31 m c (Pipeline.arrRef spec11 2) = Function.update (T31 m c) main_v302 _ (Pipeline.arrRef spec11 2)
    exact (Function.update_of_ne (StableHlo.devRef_ne_of_ne (by decide)) _ _).symm
  | ⟨3, _⟩ =>
    refine (((pdats m 11 c).arrAt_in 3 rfl _).trans (A_eq11 _ c 3)).trans ?_
    show T31 m c (Pipeline.arrRef spec11 3) = Function.update (T31 m c) main_v302 _ (Pipeline.arrRef spec11 3)
    exact (Function.update_of_ne (StableHlo.devRef_ne_of_ne (by decide)) _ _).symm
  | ⟨4, _⟩ =>
    show _ = Function.update (T31 m c) main_v302 _ main_v302
    rw [Function.update_self]
    rfl
/-- Every buffer that is none of region 11's arrays is as at entry. -/
theorem hrest11 (c : Dev nD) : ∀ b, b ∉ Finset.univ.image (Pipeline.arrRef spec11) → atTc (T32 m) c b = atTc (T31 m) c b := fun b hb => by
  unfold atTc T32
  exact Function.update_of_ne (StableHlo.devRef_ne_of_ne (fun e => hb (Finset.mem_image.mpr ⟨4, Finset.mem_univ _, (by decide : Pipeline.arrRef spec11 4 = main_v302).trans e.symm⟩))) _ _
set_option maxHeartbeats 4000000 in
/-- At region 12's exit each input array holds what it held at entry and the output array what the pipeline leaves. -/
theorem hF12 (c : Dev nD) : ∀ w, (pdats m 12 c).arrAt w cfg12.N = atTc (T34 m) c (Pipeline.arrRef spec12 w) := fun w => by
  match w with
  | ⟨0, _⟩ =>
    refine (((pdats m 12 c).arrAt_in 0 rfl _).trans (A_eq12 _ c 0)).trans ?_
    show T33 m c (Pipeline.arrRef spec12 0) = Function.update (T33 m c) main_v313 _ (Pipeline.arrRef spec12 0)
    exact (Function.update_of_ne (StableHlo.devRef_ne_of_ne (by decide)) _ _).symm
  | ⟨1, _⟩ =>
    refine (((pdats m 12 c).arrAt_in 1 rfl _).trans (A_eq12 _ c 1)).trans ?_
    show T33 m c (Pipeline.arrRef spec12 1) = Function.update (T33 m c) main_v313 _ (Pipeline.arrRef spec12 1)
    exact (Function.update_of_ne (StableHlo.devRef_ne_of_ne (by decide)) _ _).symm
  | ⟨2, _⟩ =>
    refine (((pdats m 12 c).arrAt_in 2 rfl _).trans (A_eq12 _ c 2)).trans ?_
    show T33 m c (Pipeline.arrRef spec12 2) = Function.update (T33 m c) main_v313 _ (Pipeline.arrRef spec12 2)
    exact (Function.update_of_ne (StableHlo.devRef_ne_of_ne (by decide)) _ _).symm
  | ⟨3, _⟩ =>
    show _ = Function.update (T33 m c) main_v313 _ main_v313
    rw [Function.update_self]
    rfl
/-- Every buffer that is none of region 12's arrays is as at entry. -/
theorem hrest12 (c : Dev nD) : ∀ b, b ∉ Finset.univ.image (Pipeline.arrRef spec12) → atTc (T34 m) c b = atTc (T33 m) c b := fun b hb => by
  unfold atTc T34
  exact Function.update_of_ne (StableHlo.devRef_ne_of_ne (fun e => hb (Finset.mem_image.mpr ⟨3, Finset.mem_univ _, (by decide : Pipeline.arrRef spec12 3 = main_v313).trans e.symm⟩))) _ _
set_option maxHeartbeats 4000000 in
/-- At region 13's exit each input array holds what it held at entry and the output array what the pipeline leaves. -/
theorem hF13 (c : Dev nD) : ∀ w, (pdats m 13 c).arrAt w cfg13.N = atTc (T36 m) c (Pipeline.arrRef spec13 w) := fun w => by
  match w with
  | ⟨0, _⟩ =>
    refine (((pdats m 13 c).arrAt_in 0 rfl _).trans (A_eq13 _ c 0)).trans ?_
    show T35 m c (Pipeline.arrRef spec13 0) = Function.update (T35 m c) main_v319 _ (Pipeline.arrRef spec13 0)
    exact (Function.update_of_ne (StableHlo.devRef_ne_of_ne (by decide)) _ _).symm
  | ⟨1, _⟩ =>
    refine (((pdats m 13 c).arrAt_in 1 rfl _).trans (A_eq13 _ c 1)).trans ?_
    show T35 m c (Pipeline.arrRef spec13 1) = Function.update (T35 m c) main_v319 _ (Pipeline.arrRef spec13 1)
    exact (Function.update_of_ne (StableHlo.devRef_ne_of_ne (by decide)) _ _).symm
  | ⟨2, _⟩ =>
    refine (((pdats m 13 c).arrAt_in 2 rfl _).trans (A_eq13 _ c 2)).trans ?_
    show T35 m c (Pipeline.arrRef spec13 2) = Function.update (T35 m c) main_v319 _ (Pipeline.arrRef spec13 2)
    exact (Function.update_of_ne (StableHlo.devRef_ne_of_ne (by decide)) _ _).symm
  | ⟨3, _⟩ =>
    show _ = Function.update (T35 m c) main_v319 _ main_v319
    rw [Function.update_self]
    rfl
/-- Every buffer that is none of region 13's arrays is as at entry. -/
theorem hrest13 (c : Dev nD) : ∀ b, b ∉ Finset.univ.image (Pipeline.arrRef spec13) → atTc (T36 m) c b = atTc (T35 m) c b := fun b hb => by
  unfold atTc T36
  exact Function.update_of_ne (StableHlo.devRef_ne_of_ne (fun e => hb (Finset.mem_image.mpr ⟨3, Finset.mem_univ _, (by decide : Pipeline.arrRef spec13 3 = main_v319).trans e.symm⟩))) _ _
set_option maxHeartbeats 4000000 in
/-- At region 14's exit each input array holds what it held at entry and the output array what the pipeline leaves. -/
theorem hF14 (c : Dev nD) : ∀ w, (pdats m 14 c).arrAt w cfg14.N = atTc (T38 m) c (Pipeline.arrRef spec14 w) := fun w => by
  match w with
  | ⟨0, _⟩ =>
    refine (((pdats m 14 c).arrAt_in 0 rfl _).trans (A_eq14 _ c 0)).trans ?_
    show T37 m c (Pipeline.arrRef spec14 0) = Function.update (T37 m c) main_v350 _ (Pipeline.arrRef spec14 0)
    exact (Function.update_of_ne (StableHlo.devRef_ne_of_ne (by decide)) _ _).symm
  | ⟨1, _⟩ =>
    refine (((pdats m 14 c).arrAt_in 1 rfl _).trans (A_eq14 _ c 1)).trans ?_
    show T37 m c (Pipeline.arrRef spec14 1) = Function.update (T37 m c) main_v350 _ (Pipeline.arrRef spec14 1)
    exact (Function.update_of_ne (StableHlo.devRef_ne_of_ne (by decide)) _ _).symm
  | ⟨2, _⟩ =>
    refine (((pdats m 14 c).arrAt_in 2 rfl _).trans (A_eq14 _ c 2)).trans ?_
    show T37 m c (Pipeline.arrRef spec14 2) = Function.update (T37 m c) main_v350 _ (Pipeline.arrRef spec14 2)
    exact (Function.update_of_ne (StableHlo.devRef_ne_of_ne (by decide)) _ _).symm
  | ⟨3, _⟩ =>
    refine (((pdats m 14 c).arrAt_in 3 rfl _).trans (A_eq14 _ c 3)).trans ?_
    show T37 m c (Pipeline.arrRef spec14 3) = Function.update (T37 m c) main_v350 _ (Pipeline.arrRef spec14 3)
    exact (Function.update_of_ne (StableHlo.devRef_ne_of_ne (by decide)) _ _).symm
  | ⟨4, _⟩ =>
    show _ = Function.update (T37 m c) main_v350 _ main_v350
    rw [Function.update_self]
    rfl
/-- Every buffer that is none of region 14's arrays is as at entry. -/
theorem hrest14 (c : Dev nD) : ∀ b, b ∉ Finset.univ.image (Pipeline.arrRef spec14) → atTc (T38 m) c b = atTc (T37 m) c b := fun b hb => by
  unfold atTc T38
  exact Function.update_of_ne (StableHlo.devRef_ne_of_ne (fun e => hb (Finset.mem_image.mpr ⟨4, Finset.mem_univ _, (by decide : Pipeline.arrRef spec14 4 = main_v350).trans e.symm⟩))) _ _
set_option maxHeartbeats 4000000 in
/-- At region 15's exit each input array holds what it held at entry and the output array what the pipeline leaves. -/
theorem hF15 (c : Dev nD) : ∀ w, (pdats m 15 c).arrAt w cfg15.N = atTc (T40 m) c (Pipeline.arrRef spec15 w) := fun w => by
  match w with
  | ⟨0, _⟩ =>
    refine (((pdats m 15 c).arrAt_in 0 rfl _).trans (A_eq15 _ c 0)).trans ?_
    show T39 m c (Pipeline.arrRef spec15 0) = Function.update (T39 m c) main_v384 _ (Pipeline.arrRef spec15 0)
    exact (Function.update_of_ne (StableHlo.devRef_ne_of_ne (by decide)) _ _).symm
  | ⟨1, _⟩ =>
    refine (((pdats m 15 c).arrAt_in 1 rfl _).trans (A_eq15 _ c 1)).trans ?_
    show T39 m c (Pipeline.arrRef spec15 1) = Function.update (T39 m c) main_v384 _ (Pipeline.arrRef spec15 1)
    exact (Function.update_of_ne (StableHlo.devRef_ne_of_ne (by decide)) _ _).symm
  | ⟨2, _⟩ =>
    refine (((pdats m 15 c).arrAt_in 2 rfl _).trans (A_eq15 _ c 2)).trans ?_
    show T39 m c (Pipeline.arrRef spec15 2) = Function.update (T39 m c) main_v384 _ (Pipeline.arrRef spec15 2)
    exact (Function.update_of_ne (StableHlo.devRef_ne_of_ne (by decide)) _ _).symm
  | ⟨3, _⟩ =>
    refine (((pdats m 15 c).arrAt_in 3 rfl _).trans (A_eq15 _ c 3)).trans ?_
    show T39 m c (Pipeline.arrRef spec15 3) = Function.update (T39 m c) main_v384 _ (Pipeline.arrRef spec15 3)
    exact (Function.update_of_ne (StableHlo.devRef_ne_of_ne (by decide)) _ _).symm
  | ⟨4, _⟩ =>
    show _ = Function.update (T39 m c) main_v384 _ main_v384
    rw [Function.update_self]
    rfl
/-- Every buffer that is none of region 15's arrays is as at entry. -/
theorem hrest15 (c : Dev nD) : ∀ b, b ∉ Finset.univ.image (Pipeline.arrRef spec15) → atTc (T40 m) c b = atTc (T39 m) c b := fun b hb => by
  unfold atTc T40
  exact Function.update_of_ne (StableHlo.devRef_ne_of_ne (fun e => hb (Finset.mem_image.mpr ⟨4, Finset.mem_univ _, (by decide : Pipeline.arrRef spec15 4 = main_v384).trans e.symm⟩))) _ _
set_option maxHeartbeats 4000000 in
/-- At region 16's exit each input array holds what it held at entry and the output array what the pipeline leaves. -/
theorem hF16 (c : Dev nD) : ∀ w, (pdats m 16 c).arrAt w cfg16.N = atTc (T42 m) c (Pipeline.arrRef spec16 w) := fun w => by
  match w with
  | ⟨0, _⟩ =>
    refine (((pdats m 16 c).arrAt_in 0 rfl _).trans (A_eq16 _ c 0)).trans ?_
    show T41 m c (Pipeline.arrRef spec16 0) = Function.update (T41 m c) main_v418 _ (Pipeline.arrRef spec16 0)
    exact (Function.update_of_ne (StableHlo.devRef_ne_of_ne (by decide)) _ _).symm
  | ⟨1, _⟩ =>
    refine (((pdats m 16 c).arrAt_in 1 rfl _).trans (A_eq16 _ c 1)).trans ?_
    show T41 m c (Pipeline.arrRef spec16 1) = Function.update (T41 m c) main_v418 _ (Pipeline.arrRef spec16 1)
    exact (Function.update_of_ne (StableHlo.devRef_ne_of_ne (by decide)) _ _).symm
  | ⟨2, _⟩ =>
    refine (((pdats m 16 c).arrAt_in 2 rfl _).trans (A_eq16 _ c 2)).trans ?_
    show T41 m c (Pipeline.arrRef spec16 2) = Function.update (T41 m c) main_v418 _ (Pipeline.arrRef spec16 2)
    exact (Function.update_of_ne (StableHlo.devRef_ne_of_ne (by decide)) _ _).symm
  | ⟨3, _⟩ =>
    refine (((pdats m 16 c).arrAt_in 3 rfl _).trans (A_eq16 _ c 3)).trans ?_
    show T41 m c (Pipeline.arrRef spec16 3) = Function.update (T41 m c) main_v418 _ (Pipeline.arrRef spec16 3)
    exact (Function.update_of_ne (StableHlo.devRef_ne_of_ne (by decide)) _ _).symm
  | ⟨4, _⟩ =>
    show _ = Function.update (T41 m c) main_v418 _ main_v418
    rw [Function.update_self]
    rfl
/-- Every buffer that is none of region 16's arrays is as at entry. -/
theorem hrest16 (c : Dev nD) : ∀ b, b ∉ Finset.univ.image (Pipeline.arrRef spec16) → atTc (T42 m) c b = atTc (T41 m) c b := fun b hb => by
  unfold atTc T42
  exact Function.update_of_ne (StableHlo.devRef_ne_of_ne (fun e => hb (Finset.mem_image.mpr ⟨4, Finset.mem_univ _, (by decide : Pipeline.arrRef spec16 4 = main_v418).trans e.symm⟩))) _ _
set_option maxHeartbeats 4000000 in
/-- At region 17's exit each input array holds what it held at entry and the output array what the pipeline leaves. -/
theorem hF17 (c : Dev nD) : ∀ w, (pdats m 17 c).arrAt w cfg17.N = atTc (T44 m) c (Pipeline.arrRef spec17 w) := fun w => by
  match w with
  | ⟨0, _⟩ =>
    refine (((pdats m 17 c).arrAt_in 0 rfl _).trans (A_eq17 _ c 0)).trans ?_
    show T43 m c (Pipeline.arrRef spec17 0) = Function.update (T43 m c) main_v452 _ (Pipeline.arrRef spec17 0)
    exact (Function.update_of_ne (StableHlo.devRef_ne_of_ne (by decide)) _ _).symm
  | ⟨1, _⟩ =>
    refine (((pdats m 17 c).arrAt_in 1 rfl _).trans (A_eq17 _ c 1)).trans ?_
    show T43 m c (Pipeline.arrRef spec17 1) = Function.update (T43 m c) main_v452 _ (Pipeline.arrRef spec17 1)
    exact (Function.update_of_ne (StableHlo.devRef_ne_of_ne (by decide)) _ _).symm
  | ⟨2, _⟩ =>
    refine (((pdats m 17 c).arrAt_in 2 rfl _).trans (A_eq17 _ c 2)).trans ?_
    show T43 m c (Pipeline.arrRef spec17 2) = Function.update (T43 m c) main_v452 _ (Pipeline.arrRef spec17 2)
    exact (Function.update_of_ne (StableHlo.devRef_ne_of_ne (by decide)) _ _).symm
  | ⟨3, _⟩ =>
    refine (((pdats m 17 c).arrAt_in 3 rfl _).trans (A_eq17 _ c 3)).trans ?_
    show T43 m c (Pipeline.arrRef spec17 3) = Function.update (T43 m c) main_v452 _ (Pipeline.arrRef spec17 3)
    exact (Function.update_of_ne (StableHlo.devRef_ne_of_ne (by decide)) _ _).symm
  | ⟨4, _⟩ =>
    show _ = Function.update (T43 m c) main_v452 _ main_v452
    rw [Function.update_self]
    rfl
/-- Every buffer that is none of region 17's arrays is as at entry. -/
theorem hrest17 (c : Dev nD) : ∀ b, b ∉ Finset.univ.image (Pipeline.arrRef spec17) → atTc (T44 m) c b = atTc (T43 m) c b := fun b hb => by
  unfold atTc T44
  exact Function.update_of_ne (StableHlo.devRef_ne_of_ne (fun e => hb (Finset.mem_image.mpr ⟨4, Finset.mem_univ _, (by decide : Pipeline.arrRef spec17 4 = main_v452).trans e.symm⟩))) _ _
set_option maxHeartbeats 4000000 in
/-- At region 18's exit each input array holds what it held at entry and the output array what the pipeline leaves. -/
theorem hF18 (c : Dev nD) : ∀ w, (pdats m 18 c).arrAt w cfg18.N = atTc (T46 m) c (Pipeline.arrRef spec18 w) := fun w => by
  match w with
  | ⟨0, _⟩ =>
    refine (((pdats m 18 c).arrAt_in 0 rfl _).trans (A_eq18 _ c 0)).trans ?_
    show T45 m c (Pipeline.arrRef spec18 0) = Function.update (T45 m c) main_v463 _ (Pipeline.arrRef spec18 0)
    exact (Function.update_of_ne (StableHlo.devRef_ne_of_ne (by decide)) _ _).symm
  | ⟨1, _⟩ =>
    refine (((pdats m 18 c).arrAt_in 1 rfl _).trans (A_eq18 _ c 1)).trans ?_
    show T45 m c (Pipeline.arrRef spec18 1) = Function.update (T45 m c) main_v463 _ (Pipeline.arrRef spec18 1)
    exact (Function.update_of_ne (StableHlo.devRef_ne_of_ne (by decide)) _ _).symm
  | ⟨2, _⟩ =>
    refine (((pdats m 18 c).arrAt_in 2 rfl _).trans (A_eq18 _ c 2)).trans ?_
    show T45 m c (Pipeline.arrRef spec18 2) = Function.update (T45 m c) main_v463 _ (Pipeline.arrRef spec18 2)
    exact (Function.update_of_ne (StableHlo.devRef_ne_of_ne (by decide)) _ _).symm
  | ⟨3, _⟩ =>
    show _ = Function.update (T45 m c) main_v463 _ main_v463
    rw [Function.update_self]
    rfl
/-- Every buffer that is none of region 18's arrays is as at entry. -/
theorem hrest18 (c : Dev nD) : ∀ b, b ∉ Finset.univ.image (Pipeline.arrRef spec18) → atTc (T46 m) c b = atTc (T45 m) c b := fun b hb => by
  unfold atTc T46
  exact Function.update_of_ne (StableHlo.devRef_ne_of_ne (fun e => hb (Finset.mem_image.mpr ⟨3, Finset.mem_univ _, (by decide : Pipeline.arrRef spec18 3 = main_v463).trans e.symm⟩))) _ _
set_option maxHeartbeats 4000000 in
/-- At region 19's exit each input array holds what it held at entry and the output array what the pipeline leaves. -/
theorem hF19 (c : Dev nD) : ∀ w, (pdats m 19 c).arrAt w cfg19.N = atTc (T48 m) c (Pipeline.arrRef spec19 w) := fun w => by
  match w with
  | ⟨0, _⟩ =>
    refine (((pdats m 19 c).arrAt_in 0 rfl _).trans (A_eq19 _ c 0)).trans ?_
    show T47 m c (Pipeline.arrRef spec19 0) = Function.update (T47 m c) main_v469 _ (Pipeline.arrRef spec19 0)
    exact (Function.update_of_ne (StableHlo.devRef_ne_of_ne (by decide)) _ _).symm
  | ⟨1, _⟩ =>
    refine (((pdats m 19 c).arrAt_in 1 rfl _).trans (A_eq19 _ c 1)).trans ?_
    show T47 m c (Pipeline.arrRef spec19 1) = Function.update (T47 m c) main_v469 _ (Pipeline.arrRef spec19 1)
    exact (Function.update_of_ne (StableHlo.devRef_ne_of_ne (by decide)) _ _).symm
  | ⟨2, _⟩ =>
    refine (((pdats m 19 c).arrAt_in 2 rfl _).trans (A_eq19 _ c 2)).trans ?_
    show T47 m c (Pipeline.arrRef spec19 2) = Function.update (T47 m c) main_v469 _ (Pipeline.arrRef spec19 2)
    exact (Function.update_of_ne (StableHlo.devRef_ne_of_ne (by decide)) _ _).symm
  | ⟨3, _⟩ =>
    show _ = Function.update (T47 m c) main_v469 _ main_v469
    rw [Function.update_self]
    rfl
/-- Every buffer that is none of region 19's arrays is as at entry. -/
theorem hrest19 (c : Dev nD) : ∀ b, b ∉ Finset.univ.image (Pipeline.arrRef spec19) → atTc (T48 m) c b = atTc (T47 m) c b := fun b hb => by
  unfold atTc T48
  exact Function.update_of_ne (StableHlo.devRef_ne_of_ne (fun e => hb (Finset.mem_image.mpr ⟨3, Finset.mem_univ _, (by decide : Pipeline.arrRef spec19 3 = main_v469).trans e.symm⟩))) _ _
set_option maxHeartbeats 4000000 in
/-- At region 20's exit each input array holds what it held at entry and the output array what the pipeline leaves. -/
theorem hF20 (c : Dev nD) : ∀ w, (pdats m 20 c).arrAt w cfg20.N = atTc (T50 m) c (Pipeline.arrRef spec20 w) := fun w => by
  match w with
  | ⟨0, _⟩ =>
    refine (((pdats m 20 c).arrAt_in 0 rfl _).trans (A_eq20 _ c 0)).trans ?_
    show T49 m c (Pipeline.arrRef spec20 0) = Function.update (T49 m c) main_v500 _ (Pipeline.arrRef spec20 0)
    exact (Function.update_of_ne (StableHlo.devRef_ne_of_ne (by decide)) _ _).symm
  | ⟨1, _⟩ =>
    refine (((pdats m 20 c).arrAt_in 1 rfl _).trans (A_eq20 _ c 1)).trans ?_
    show T49 m c (Pipeline.arrRef spec20 1) = Function.update (T49 m c) main_v500 _ (Pipeline.arrRef spec20 1)
    exact (Function.update_of_ne (StableHlo.devRef_ne_of_ne (by decide)) _ _).symm
  | ⟨2, _⟩ =>
    refine (((pdats m 20 c).arrAt_in 2 rfl _).trans (A_eq20 _ c 2)).trans ?_
    show T49 m c (Pipeline.arrRef spec20 2) = Function.update (T49 m c) main_v500 _ (Pipeline.arrRef spec20 2)
    exact (Function.update_of_ne (StableHlo.devRef_ne_of_ne (by decide)) _ _).symm
  | ⟨3, _⟩ =>
    refine (((pdats m 20 c).arrAt_in 3 rfl _).trans (A_eq20 _ c 3)).trans ?_
    show T49 m c (Pipeline.arrRef spec20 3) = Function.update (T49 m c) main_v500 _ (Pipeline.arrRef spec20 3)
    exact (Function.update_of_ne (StableHlo.devRef_ne_of_ne (by decide)) _ _).symm
  | ⟨4, _⟩ =>
    show _ = Function.update (T49 m c) main_v500 _ main_v500
    rw [Function.update_self]
    rfl
/-- Every buffer that is none of region 20's arrays is as at entry. -/
theorem hrest20 (c : Dev nD) : ∀ b, b ∉ Finset.univ.image (Pipeline.arrRef spec20) → atTc (T50 m) c b = atTc (T49 m) c b := fun b hb => by
  unfold atTc T50
  exact Function.update_of_ne (StableHlo.devRef_ne_of_ne (fun e => hb (Finset.mem_image.mpr ⟨4, Finset.mem_univ _, (by decide : Pipeline.arrRef spec20 4 = main_v500).trans e.symm⟩))) _ _
set_option maxHeartbeats 4000000 in
/-- At region 21's exit each input array holds what it held at entry and the output array what the pipeline leaves. -/
theorem hF21 (c : Dev nD) : ∀ w, (pdats m 21 c).arrAt w cfg21.N = atTc (T52 m) c (Pipeline.arrRef spec21 w) := fun w => by
  match w with
  | ⟨0, _⟩ =>
    refine (((pdats m 21 c).arrAt_in 0 rfl _).trans (A_eq21 _ c 0)).trans ?_
    show T51 m c (Pipeline.arrRef spec21 0) = Function.update (T51 m c) main_v534 _ (Pipeline.arrRef spec21 0)
    exact (Function.update_of_ne (StableHlo.devRef_ne_of_ne (by decide)) _ _).symm
  | ⟨1, _⟩ =>
    refine (((pdats m 21 c).arrAt_in 1 rfl _).trans (A_eq21 _ c 1)).trans ?_
    show T51 m c (Pipeline.arrRef spec21 1) = Function.update (T51 m c) main_v534 _ (Pipeline.arrRef spec21 1)
    exact (Function.update_of_ne (StableHlo.devRef_ne_of_ne (by decide)) _ _).symm
  | ⟨2, _⟩ =>
    refine (((pdats m 21 c).arrAt_in 2 rfl _).trans (A_eq21 _ c 2)).trans ?_
    show T51 m c (Pipeline.arrRef spec21 2) = Function.update (T51 m c) main_v534 _ (Pipeline.arrRef spec21 2)
    exact (Function.update_of_ne (StableHlo.devRef_ne_of_ne (by decide)) _ _).symm
  | ⟨3, _⟩ =>
    refine (((pdats m 21 c).arrAt_in 3 rfl _).trans (A_eq21 _ c 3)).trans ?_
    show T51 m c (Pipeline.arrRef spec21 3) = Function.update (T51 m c) main_v534 _ (Pipeline.arrRef spec21 3)
    exact (Function.update_of_ne (StableHlo.devRef_ne_of_ne (by decide)) _ _).symm
  | ⟨4, _⟩ =>
    show _ = Function.update (T51 m c) main_v534 _ main_v534
    rw [Function.update_self]
    rfl
/-- Every buffer that is none of region 21's arrays is as at entry. -/
theorem hrest21 (c : Dev nD) : ∀ b, b ∉ Finset.univ.image (Pipeline.arrRef spec21) → atTc (T52 m) c b = atTc (T51 m) c b := fun b hb => by
  unfold atTc T52
  exact Function.update_of_ne (StableHlo.devRef_ne_of_ne (fun e => hb (Finset.mem_image.mpr ⟨4, Finset.mem_univ _, (by decide : Pipeline.arrRef spec21 4 = main_v534).trans e.symm⟩))) _ _
set_option maxHeartbeats 4000000 in
/-- At region 22's exit each input array holds what it held at entry and the output array what the pipeline leaves. -/
theorem hF22 (c : Dev nD) : ∀ w, (pdats m 22 c).arrAt w cfg22.N = atTc (T54 m) c (Pipeline.arrRef spec22 w) := fun w => by
  match w with
  | ⟨0, _⟩ =>
    refine (((pdats m 22 c).arrAt_in 0 rfl _).trans (A_eq22 _ c 0)).trans ?_
    show T53 m c (Pipeline.arrRef spec22 0) = Function.update (T53 m c) main_v568 _ (Pipeline.arrRef spec22 0)
    exact (Function.update_of_ne (StableHlo.devRef_ne_of_ne (by decide)) _ _).symm
  | ⟨1, _⟩ =>
    refine (((pdats m 22 c).arrAt_in 1 rfl _).trans (A_eq22 _ c 1)).trans ?_
    show T53 m c (Pipeline.arrRef spec22 1) = Function.update (T53 m c) main_v568 _ (Pipeline.arrRef spec22 1)
    exact (Function.update_of_ne (StableHlo.devRef_ne_of_ne (by decide)) _ _).symm
  | ⟨2, _⟩ =>
    refine (((pdats m 22 c).arrAt_in 2 rfl _).trans (A_eq22 _ c 2)).trans ?_
    show T53 m c (Pipeline.arrRef spec22 2) = Function.update (T53 m c) main_v568 _ (Pipeline.arrRef spec22 2)
    exact (Function.update_of_ne (StableHlo.devRef_ne_of_ne (by decide)) _ _).symm
  | ⟨3, _⟩ =>
    refine (((pdats m 22 c).arrAt_in 3 rfl _).trans (A_eq22 _ c 3)).trans ?_
    show T53 m c (Pipeline.arrRef spec22 3) = Function.update (T53 m c) main_v568 _ (Pipeline.arrRef spec22 3)
    exact (Function.update_of_ne (StableHlo.devRef_ne_of_ne (by decide)) _ _).symm
  | ⟨4, _⟩ =>
    show _ = Function.update (T53 m c) main_v568 _ main_v568
    rw [Function.update_self]
    rfl
/-- Every buffer that is none of region 22's arrays is as at entry. -/
theorem hrest22 (c : Dev nD) : ∀ b, b ∉ Finset.univ.image (Pipeline.arrRef spec22) → atTc (T54 m) c b = atTc (T53 m) c b := fun b hb => by
  unfold atTc T54
  exact Function.update_of_ne (StableHlo.devRef_ne_of_ne (fun e => hb (Finset.mem_image.mpr ⟨4, Finset.mem_univ _, (by decide : Pipeline.arrRef spec22 4 = main_v568).trans e.symm⟩))) _ _
set_option maxHeartbeats 4000000 in
/-- At region 23's exit each input array holds what it held at entry and the output array what the pipeline leaves. -/
theorem hF23 (c : Dev nD) : ∀ w, (pdats m 23 c).arrAt w cfg23.N = atTc (T56 m) c (Pipeline.arrRef spec23 w) := fun w => by
  match w with
  | ⟨0, _⟩ =>
    refine (((pdats m 23 c).arrAt_in 0 rfl _).trans (A_eq23 _ c 0)).trans ?_
    show T55 m c (Pipeline.arrRef spec23 0) = Function.update (T55 m c) main_v602 _ (Pipeline.arrRef spec23 0)
    exact (Function.update_of_ne (StableHlo.devRef_ne_of_ne (by decide)) _ _).symm
  | ⟨1, _⟩ =>
    refine (((pdats m 23 c).arrAt_in 1 rfl _).trans (A_eq23 _ c 1)).trans ?_
    show T55 m c (Pipeline.arrRef spec23 1) = Function.update (T55 m c) main_v602 _ (Pipeline.arrRef spec23 1)
    exact (Function.update_of_ne (StableHlo.devRef_ne_of_ne (by decide)) _ _).symm
  | ⟨2, _⟩ =>
    refine (((pdats m 23 c).arrAt_in 2 rfl _).trans (A_eq23 _ c 2)).trans ?_
    show T55 m c (Pipeline.arrRef spec23 2) = Function.update (T55 m c) main_v602 _ (Pipeline.arrRef spec23 2)
    exact (Function.update_of_ne (StableHlo.devRef_ne_of_ne (by decide)) _ _).symm
  | ⟨3, _⟩ =>
    refine (((pdats m 23 c).arrAt_in 3 rfl _).trans (A_eq23 _ c 3)).trans ?_
    show T55 m c (Pipeline.arrRef spec23 3) = Function.update (T55 m c) main_v602 _ (Pipeline.arrRef spec23 3)
    exact (Function.update_of_ne (StableHlo.devRef_ne_of_ne (by decide)) _ _).symm
  | ⟨4, _⟩ =>
    show _ = Function.update (T55 m c) main_v602 _ main_v602
    rw [Function.update_self]
    rfl
/-- Every buffer that is none of region 23's arrays is as at entry. -/
theorem hrest23 (c : Dev nD) : ∀ b, b ∉ Finset.univ.image (Pipeline.arrRef spec23) → atTc (T56 m) c b = atTc (T55 m) c b := fun b hb => by
  unfold atTc T56
  exact Function.update_of_ne (StableHlo.devRef_ne_of_ne (fun e => hb (Finset.mem_image.mpr ⟨4, Finset.mem_univ _, (by decide : Pipeline.arrRef spec23 4 = main_v602).trans e.symm⟩))) _ _
set_option maxHeartbeats 4000000 in
/-- At region 24's exit each input array holds what it held at entry and the output array what the pipeline leaves. -/
theorem hF24 (c : Dev nD) : ∀ w, (pdats m 24 c).arrAt w cfg24.N = atTc (T58 m) c (Pipeline.arrRef spec24 w) := fun w => by
  match w with
  | ⟨0, _⟩ =>
    refine (((pdats m 24 c).arrAt_in 0 rfl _).trans (A_eq24 _ c 0)).trans ?_
    show T57 m c (Pipeline.arrRef spec24 0) = Function.update (T57 m c) main_v613 _ (Pipeline.arrRef spec24 0)
    exact (Function.update_of_ne (StableHlo.devRef_ne_of_ne (by decide)) _ _).symm
  | ⟨1, _⟩ =>
    refine (((pdats m 24 c).arrAt_in 1 rfl _).trans (A_eq24 _ c 1)).trans ?_
    show T57 m c (Pipeline.arrRef spec24 1) = Function.update (T57 m c) main_v613 _ (Pipeline.arrRef spec24 1)
    exact (Function.update_of_ne (StableHlo.devRef_ne_of_ne (by decide)) _ _).symm
  | ⟨2, _⟩ =>
    refine (((pdats m 24 c).arrAt_in 2 rfl _).trans (A_eq24 _ c 2)).trans ?_
    show T57 m c (Pipeline.arrRef spec24 2) = Function.update (T57 m c) main_v613 _ (Pipeline.arrRef spec24 2)
    exact (Function.update_of_ne (StableHlo.devRef_ne_of_ne (by decide)) _ _).symm
  | ⟨3, _⟩ =>
    show _ = Function.update (T57 m c) main_v613 _ main_v613
    rw [Function.update_self]
    rfl
/-- Every buffer that is none of region 24's arrays is as at entry. -/
theorem hrest24 (c : Dev nD) : ∀ b, b ∉ Finset.univ.image (Pipeline.arrRef spec24) → atTc (T58 m) c b = atTc (T57 m) c b := fun b hb => by
  unfold atTc T58
  exact Function.update_of_ne (StableHlo.devRef_ne_of_ne (fun e => hb (Finset.mem_image.mpr ⟨3, Finset.mem_univ _, (by decide : Pipeline.arrRef spec24 3 = main_v613).trans e.symm⟩))) _ _
set_option maxHeartbeats 4000000 in
/-- At region 25's exit each input array holds what it held at entry and the output array what the pipeline leaves. -/
theorem hF25 (c : Dev nD) : ∀ w, (pdats m 25 c).arrAt w cfg25.N = atTc (T60 m) c (Pipeline.arrRef spec25 w) := fun w => by
  match w with
  | ⟨0, _⟩ =>
    refine (((pdats m 25 c).arrAt_in 0 rfl _).trans (A_eq25 _ c 0)).trans ?_
    show T59 m c (Pipeline.arrRef spec25 0) = Function.update (T59 m c) main_v619 _ (Pipeline.arrRef spec25 0)
    exact (Function.update_of_ne (StableHlo.devRef_ne_of_ne (by decide)) _ _).symm
  | ⟨1, _⟩ =>
    refine (((pdats m 25 c).arrAt_in 1 rfl _).trans (A_eq25 _ c 1)).trans ?_
    show T59 m c (Pipeline.arrRef spec25 1) = Function.update (T59 m c) main_v619 _ (Pipeline.arrRef spec25 1)
    exact (Function.update_of_ne (StableHlo.devRef_ne_of_ne (by decide)) _ _).symm
  | ⟨2, _⟩ =>
    refine (((pdats m 25 c).arrAt_in 2 rfl _).trans (A_eq25 _ c 2)).trans ?_
    show T59 m c (Pipeline.arrRef spec25 2) = Function.update (T59 m c) main_v619 _ (Pipeline.arrRef spec25 2)
    exact (Function.update_of_ne (StableHlo.devRef_ne_of_ne (by decide)) _ _).symm
  | ⟨3, _⟩ =>
    show _ = Function.update (T59 m c) main_v619 _ main_v619
    rw [Function.update_self]
    rfl
/-- Every buffer that is none of region 25's arrays is as at entry. -/
theorem hrest25 (c : Dev nD) : ∀ b, b ∉ Finset.univ.image (Pipeline.arrRef spec25) → atTc (T60 m) c b = atTc (T59 m) c b := fun b hb => by
  unfold atTc T60
  exact Function.update_of_ne (StableHlo.devRef_ne_of_ne (fun e => hb (Finset.mem_image.mpr ⟨3, Finset.mem_univ _, (by decide : Pipeline.arrRef spec25 3 = main_v619).trans e.symm⟩))) _ _

end Cert.KernelIdeal.Hand

end
-- ==== Proof.KI.Reg0.lean ====
/-
  Region 0's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0: entered from every unscoped buffer at the valuation before it, left at the one after it; its arrays split out
    of the unscoped buffers at entry and put back at exit; the generator register into the pipeline's invariant and out;
    nothing owed; no semaphore of the kernel's own. -/
noncomputable def reg0 : Pipeline.RegionSeg (pcfgs (F := F)) GenP.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (T9 m)) c).loose
  hwaits := Pipeline.hwaits_of_owed_zero _ _ _ _ L lv 0 fun _ _ => rfl
  pre c := iprop(StableHlo.held (c : Thread nD τ) (Pipeline.ucRefs τ sig) (T9 m c) ∗ Rr c)
  post c := iprop(StableHlo.held (c : Thread nD τ) (Pipeline.ucRefs τ sig) (T10 m c) ∗ Rr c)
  X c := iprop(∃ r, prngReg c r)
  Y c := iprop(∃ r, prngReg c r)
  Z c := Pipeline.unscopedRest (Ix := Unit) (Name := ℕ) (U := UR sig nD τ) (Lvl := ℕ) spec0 c (atTc (T9 m) c)
  hentry c := by
    rw [Pipeline.ownSems0_none]
    have hsplit := Pipeline.arrays_of_unscopedBufs (p := 0) (pcfgs (F := F)) GenP.adm (pdats m) launch0.win launch0.arr_whole c
      ((pdats m 0 c).share_full fun _ => rfl) (atTc (T9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats m) ((pdats m 0 c).share_full fun _ => rfl)
      (atTc (T9 m) c) (atTc (T10 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg1.lean ====
/-
  Region 1's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 1: entered from every unscoped buffer at the valuation before it, left at the one after it; its arrays split out
    of the unscoped buffers at entry and put back at exit; the generator register into the pipeline's invariant and out;
    nothing owed; no semaphore of the kernel's own. -/
noncomputable def reg1 : Pipeline.RegionSeg (pcfgs (F := F)) GenP.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (T11 m)) c).loose
  hwaits := Pipeline.hwaits_of_owed_zero _ _ _ _ L lv 1 fun _ _ => rfl
  pre c := iprop(StableHlo.held (c : Thread nD τ) (Pipeline.ucRefs τ sig) (T11 m c) ∗ Rr c)
  post c := iprop(StableHlo.held (c : Thread nD τ) (Pipeline.ucRefs τ sig) (T12 m c) ∗ Rr c)
  X c := iprop(∃ r, prngReg c r)
  Y c := iprop(∃ r, prngReg c r)
  Z c := Pipeline.unscopedRest (Ix := Unit) (Name := ℕ) (U := UR sig nD τ) (Lvl := ℕ) spec1 c (atTc (T11 m) c)
  hentry c := by
    rw [Pipeline.ownSems0_none]
    have hsplit := Pipeline.arrays_of_unscopedBufs (p := 1) (pcfgs (F := F)) GenP.adm (pdats m) launch1.win launch1.arr_whole c
      ((pdats m 1 c).share_full fun _ => rfl) (atTc (T11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats m) ((pdats m 1 c).share_full fun _ => rfl)
      (atTc (T11 m) c) (atTc (T12 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg2.lean ====
/-
  Region 2's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 2: entered from every unscoped buffer at the valuation before it, left at the one after it; its arrays split out
    of the unscoped buffers at entry and put back at exit; the generator register into the pipeline's invariant and out;
    nothing owed; no semaphore of the kernel's own. -/
noncomputable def reg2 : Pipeline.RegionSeg (pcfgs (F := F)) GenP.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (T13 m)) c).loose
  hwaits := Pipeline.hwaits_of_owed_zero _ _ _ _ L lv 2 fun _ _ => rfl
  pre c := iprop(StableHlo.held (c : Thread nD τ) (Pipeline.ucRefs τ sig) (T13 m c) ∗ Rr c)
  post c := iprop(StableHlo.held (c : Thread nD τ) (Pipeline.ucRefs τ sig) (T14 m c) ∗ Rr c)
  X c := iprop(∃ r, prngReg c r)
  Y c := iprop(∃ r, prngReg c r)
  Z c := Pipeline.unscopedRest (Ix := Unit) (Name := ℕ) (U := UR sig nD τ) (Lvl := ℕ) spec2 c (atTc (T13 m) c)
  hentry c := by
    rw [Pipeline.ownSems0_none]
    have hsplit := Pipeline.arrays_of_unscopedBufs (p := 2) (pcfgs (F := F)) GenP.adm (pdats m) launch2.win launch2.arr_whole c
      ((pdats m 2 c).share_full fun _ => rfl) (atTc (T13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) GenP.adm (Ix := Unit) (Name := ℕ) (U := UR sig nD τ) (Lvl := ℕ)
      launch2.win launch2.arr_whole c (pdats m) ((pdats m 2 c).share_full fun _ => rfl)
      (atTc (T13 m) c) (atTc (T14 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg3.lean ====
/-
  Region 3's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 3: entered from every unscoped buffer at the valuation before it, left at the one after it; its arrays split out
    of the unscoped buffers at entry and put back at exit; the generator register into the pipeline's invariant and out;
    nothing owed; no semaphore of the kernel's own. -/
noncomputable def reg3 : Pipeline.RegionSeg (pcfgs (F := F)) GenP.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (T15 m)) c).loose
  hwaits := Pipeline.hwaits_of_owed_zero _ _ _ _ L lv 3 fun _ _ => rfl
  pre c := iprop(StableHlo.held (c : Thread nD τ) (Pipeline.ucRefs τ sig) (T15 m c) ∗ Rr c)
  post c := iprop(StableHlo.held (c : Thread nD τ) (Pipeline.ucRefs τ sig) (T16 m c) ∗ Rr c)
  X c := iprop(∃ r, prngReg c r)
  Y c := iprop(∃ r, prngReg c r)
  Z c := Pipeline.unscopedRest (Ix := Unit) (Name := ℕ) (U := UR sig nD τ) (Lvl := ℕ) spec3 c (atTc (T15 m) c)
  hentry c := by
    rw [Pipeline.ownSems0_none]
    have hsplit := Pipeline.arrays_of_unscopedBufs (p := 3) (pcfgs (F := F)) GenP.adm (pdats m) launch3.win launch3.arr_whole c
      ((pdats m 3 c).share_full fun _ => rfl) (atTc (T15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) GenP.adm (Ix := Unit) (Name := ℕ) (U := UR sig nD τ) (Lvl := ℕ)
      launch3.win launch3.arr_whole c (pdats m) ((pdats m 3 c).share_full fun _ => rfl)
      (atTc (T15 m) c) (atTc (T16 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg4.lean ====
/-
  Region 4's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 4: entered from every unscoped buffer at the valuation before it, left at the one after it; its arrays split out
    of the unscoped buffers at entry and put back at exit; the generator register into the pipeline's invariant and out;
    nothing owed; no semaphore of the kernel's own. -/
noncomputable def reg4 : Pipeline.RegionSeg (pcfgs (F := F)) GenP.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atTc (T17 m)) c).loose
  hwaits := Pipeline.hwaits_of_owed_zero _ _ _ _ L lv 4 fun _ _ => rfl
  pre c := iprop(StableHlo.held (c : Thread nD τ) (Pipeline.ucRefs τ sig) (T17 m c) ∗ Rr c)
  post c := iprop(StableHlo.held (c : Thread nD τ) (Pipeline.ucRefs τ sig) (T18 m c) ∗ Rr c)
  X c := iprop(∃ r, prngReg c r)
  Y c := iprop(∃ r, prngReg c r)
  Z c := Pipeline.unscopedRest (Ix := Unit) (Name := ℕ) (U := UR sig nD τ) (Lvl := ℕ) spec4 c (atTc (T17 m) c)
  hentry c := by
    rw [Pipeline.ownSems0_none]
    have hsplit := Pipeline.arrays_of_unscopedBufs (p := 4) (pcfgs (F := F)) GenP.adm (pdats m) launch4.win launch4.arr_whole c
      ((pdats m 4 c).share_full fun _ => rfl) (atTc (T17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) GenP.adm (Ix := Unit) (Name := ℕ) (U := UR sig nD τ) (Lvl := ℕ)
      launch4.win launch4.arr_whole c (pdats m) ((pdats m 4 c).share_full fun _ => rfl)
      (atTc (T17 m) c) (atTc (T18 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg5.lean ====
/-
  Region 5's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 5: entered from every unscoped buffer at the valuation before it, left at the one after it; its arrays split out
    of the unscoped buffers at entry and put back at exit; the generator register into the pipeline's invariant and out;
    nothing owed; no semaphore of the kernel's own. -/
noncomputable def reg5 : Pipeline.RegionSeg (pcfgs (F := F)) GenP.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atTc (T19 m)) c).loose
  hwaits := Pipeline.hwaits_of_owed_zero _ _ _ _ L lv 5 fun _ _ => rfl
  pre c := iprop(StableHlo.held (c : Thread nD τ) (Pipeline.ucRefs τ sig) (T19 m c) ∗ Rr c)
  post c := iprop(StableHlo.held (c : Thread nD τ) (Pipeline.ucRefs τ sig) (T20 m c) ∗ Rr c)
  X c := iprop(∃ r, prngReg c r)
  Y c := iprop(∃ r, prngReg c r)
  Z c := Pipeline.unscopedRest (Ix := Unit) (Name := ℕ) (U := UR sig nD τ) (Lvl := ℕ) spec5 c (atTc (T19 m) c)
  hentry c := by
    rw [Pipeline.ownSems0_none]
    have hsplit := Pipeline.arrays_of_unscopedBufs (p := 5) (pcfgs (F := F)) GenP.adm (pdats m) launch5.win launch5.arr_whole c
      ((pdats m 5 c).share_full fun _ => rfl) (atTc (T19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) GenP.adm (Ix := Unit) (Name := ℕ) (U := UR sig nD τ) (Lvl := ℕ)
      launch5.win launch5.arr_whole c (pdats m) ((pdats m 5 c).share_full fun _ => rfl)
      (atTc (T19 m) c) (atTc (T20 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg6.lean ====
/-
  Region 6's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 6: entered from every unscoped buffer at the valuation before it, left at the one after it; its arrays split out
    of the unscoped buffers at entry and put back at exit; the generator register into the pipeline's invariant and out;
    nothing owed; no semaphore of the kernel's own. -/
noncomputable def reg6 : Pipeline.RegionSeg (pcfgs (F := F)) GenP.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (atTc (T21 m)) c).loose
  hwaits := Pipeline.hwaits_of_owed_zero _ _ _ _ L lv 6 fun _ _ => rfl
  pre c := iprop(StableHlo.held (c : Thread nD τ) (Pipeline.ucRefs τ sig) (T21 m c) ∗ Rr c)
  post c := iprop(StableHlo.held (c : Thread nD τ) (Pipeline.ucRefs τ sig) (T22 m c) ∗ Rr c)
  X c := iprop(∃ r, prngReg c r)
  Y c := iprop(∃ r, prngReg c r)
  Z c := Pipeline.unscopedRest (Ix := Unit) (Name := ℕ) (U := UR sig nD τ) (Lvl := ℕ) spec6 c (atTc (T21 m) c)
  hentry c := by
    rw [Pipeline.ownSems0_none]
    have hsplit := Pipeline.arrays_of_unscopedBufs (p := 6) (pcfgs (F := F)) GenP.adm (pdats m) launch6.win launch6.arr_whole c
      ((pdats m 6 c).share_full fun _ => rfl) (atTc (T21 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) GenP.adm (Ix := Unit) (Name := ℕ) (U := UR sig nD τ) (Lvl := ℕ)
      launch6.win launch6.arr_whole c (pdats m) ((pdats m 6 c).share_full fun _ => rfl)
      (atTc (T21 m) c) (atTc (T22 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg7.lean ====
/-
  Region 7's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 7: entered from every unscoped buffer at the valuation before it, left at the one after it; its arrays split out
    of the unscoped buffers at entry and put back at exit; the generator register into the pipeline's invariant and out;
    nothing owed; no semaphore of the kernel's own. -/
noncomputable def reg7 : Pipeline.RegionSeg (pcfgs (F := F)) GenP.adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (atTc (T23 m)) c).loose
  hwaits := Pipeline.hwaits_of_owed_zero _ _ _ _ L lv 7 fun _ _ => rfl
  pre c := iprop(StableHlo.held (c : Thread nD τ) (Pipeline.ucRefs τ sig) (T23 m c) ∗ Rr c)
  post c := iprop(StableHlo.held (c : Thread nD τ) (Pipeline.ucRefs τ sig) (T24 m c) ∗ Rr c)
  X c := iprop(∃ r, prngReg c r)
  Y c := iprop(∃ r, prngReg c r)
  Z c := Pipeline.unscopedRest (Ix := Unit) (Name := ℕ) (U := UR sig nD τ) (Lvl := ℕ) spec7 c (atTc (T23 m) c)
  hentry c := by
    rw [Pipeline.ownSems0_none]
    have hsplit := Pipeline.arrays_of_unscopedBufs (p := 7) (pcfgs (F := F)) GenP.adm (pdats m) launch7.win launch7.arr_whole c
      ((pdats m 7 c).share_full fun _ => rfl) (atTc (T23 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) GenP.adm (Ix := Unit) (Name := ℕ) (U := UR sig nD τ) (Lvl := ℕ)
      launch7.win launch7.arr_whole c (pdats m) ((pdats m 7 c).share_full fun _ => rfl)
      (atTc (T23 m) c) (atTc (T24 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg8.lean ====
/-
  Region 8's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 8: entered from every unscoped buffer at the valuation before it, left at the one after it; its arrays split out
    of the unscoped buffers at entry and put back at exit; the generator register into the pipeline's invariant and out;
    nothing owed; no semaphore of the kernel's own. -/
noncomputable def reg8 : Pipeline.RegionSeg (pcfgs (F := F)) GenP.adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (atTc (T25 m)) c).loose
  hwaits := Pipeline.hwaits_of_owed_zero _ _ _ _ L lv 8 fun _ _ => rfl
  pre c := iprop(StableHlo.held (c : Thread nD τ) (Pipeline.ucRefs τ sig) (T25 m c) ∗ Rr c)
  post c := iprop(StableHlo.held (c : Thread nD τ) (Pipeline.ucRefs τ sig) (T26 m c) ∗ Rr c)
  X c := iprop(∃ r, prngReg c r)
  Y c := iprop(∃ r, prngReg c r)
  Z c := Pipeline.unscopedRest (Ix := Unit) (Name := ℕ) (U := UR sig nD τ) (Lvl := ℕ) spec8 c (atTc (T25 m) c)
  hentry c := by
    rw [Pipeline.ownSems0_none]
    have hsplit := Pipeline.arrays_of_unscopedBufs (p := 8) (pcfgs (F := F)) GenP.adm (pdats m) launch8.win launch8.arr_whole c
      ((pdats m 8 c).share_full fun _ => rfl) (atTc (T25 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) GenP.adm (Ix := Unit) (Name := ℕ) (U := UR sig nD τ) (Lvl := ℕ)
      launch8.win launch8.arr_whole c (pdats m) ((pdats m 8 c).share_full fun _ => rfl)
      (atTc (T25 m) c) (atTc (T26 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg9.lean ====
/-
  Region 9's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 9: entered from every unscoped buffer at the valuation before it, left at the one after it; its arrays split out
    of the unscoped buffers at entry and put back at exit; the generator register into the pipeline's invariant and out;
    nothing owed; no semaphore of the kernel's own. -/
noncomputable def reg9 : Pipeline.RegionSeg (pcfgs (F := F)) GenP.adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (atTc (T27 m)) c).loose
  hwaits := Pipeline.hwaits_of_owed_zero _ _ _ _ L lv 9 fun _ _ => rfl
  pre c := iprop(StableHlo.held (c : Thread nD τ) (Pipeline.ucRefs τ sig) (T27 m c) ∗ Rr c)
  post c := iprop(StableHlo.held (c : Thread nD τ) (Pipeline.ucRefs τ sig) (T28 m c) ∗ Rr c)
  X c := iprop(∃ r, prngReg c r)
  Y c := iprop(∃ r, prngReg c r)
  Z c := Pipeline.unscopedRest (Ix := Unit) (Name := ℕ) (U := UR sig nD τ) (Lvl := ℕ) spec9 c (atTc (T27 m) c)
  hentry c := by
    rw [Pipeline.ownSems0_none]
    have hsplit := Pipeline.arrays_of_unscopedBufs (p := 9) (pcfgs (F := F)) GenP.adm (pdats m) launch9.win launch9.arr_whole c
      ((pdats m 9 c).share_full fun _ => rfl) (atTc (T27 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) GenP.adm (Ix := Unit) (Name := ℕ) (U := UR sig nD τ) (Lvl := ℕ)
      launch9.win launch9.arr_whole c (pdats m) ((pdats m 9 c).share_full fun _ => rfl)
      (atTc (T27 m) c) (atTc (T28 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg10.lean ====
/-
  Region 10's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 10: entered from every unscoped buffer at the valuation before it, left at the one after it; its arrays split out
    of the unscoped buffers at entry and put back at exit; the generator register into the pipeline's invariant and out;
    nothing owed; no semaphore of the kernel's own. -/
noncomputable def reg10 : Pipeline.RegionSeg (pcfgs (F := F)) GenP.adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (atTc (T29 m)) c).loose
  hwaits := Pipeline.hwaits_of_owed_zero _ _ _ _ L lv 10 fun _ _ => rfl
  pre c := iprop(StableHlo.held (c : Thread nD τ) (Pipeline.ucRefs τ sig) (T29 m c) ∗ Rr c)
  post c := iprop(StableHlo.held (c : Thread nD τ) (Pipeline.ucRefs τ sig) (T30 m c) ∗ Rr c)
  X c := iprop(∃ r, prngReg c r)
  Y c := iprop(∃ r, prngReg c r)
  Z c := Pipeline.unscopedRest (Ix := Unit) (Name := ℕ) (U := UR sig nD τ) (Lvl := ℕ) spec10 c (atTc (T29 m) c)
  hentry c := by
    rw [Pipeline.ownSems0_none]
    have hsplit := Pipeline.arrays_of_unscopedBufs (p := 10) (pcfgs (F := F)) GenP.adm (pdats m) launch10.win launch10.arr_whole c
      ((pdats m 10 c).share_full fun _ => rfl) (atTc (T29 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) GenP.adm (Ix := Unit) (Name := ℕ) (U := UR sig nD τ) (Lvl := ℕ)
      launch10.win launch10.arr_whole c (pdats m) ((pdats m 10 c).share_full fun _ => rfl)
      (atTc (T29 m) c) (atTc (T30 m) c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg11.lean ====
/-
  Region 11's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 11: entered from every unscoped buffer at the valuation before it, left at the one after it; its arrays split out
    of the unscoped buffers at entry and put back at exit; the generator register into the pipeline's invariant and out;
    nothing owed; no semaphore of the kernel's own. -/
noncomputable def reg11 : Pipeline.RegionSeg (pcfgs (F := F)) GenP.adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (atTc (T31 m)) c).loose
  hwaits := Pipeline.hwaits_of_owed_zero _ _ _ _ L lv 11 fun _ _ => rfl
  pre c := iprop(StableHlo.held (c : Thread nD τ) (Pipeline.ucRefs τ sig) (T31 m c) ∗ Rr c)
  post c := iprop(StableHlo.held (c : Thread nD τ) (Pipeline.ucRefs τ sig) (T32 m c) ∗ Rr c)
  X c := iprop(∃ r, prngReg c r)
  Y c := iprop(∃ r, prngReg c r)
  Z c := Pipeline.unscopedRest (Ix := Unit) (Name := ℕ) (U := UR sig nD τ) (Lvl := ℕ) spec11 c (atTc (T31 m) c)
  hentry c := by
    rw [Pipeline.ownSems0_none]
    have hsplit := Pipeline.arrays_of_unscopedBufs (p := 11) (pcfgs (F := F)) GenP.adm (pdats m) launch11.win launch11.arr_whole c
      ((pdats m 11 c).share_full fun _ => rfl) (atTc (T31 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) GenP.adm (Ix := Unit) (Name := ℕ) (U := UR sig nD τ) (Lvl := ℕ)
      launch11.win launch11.arr_whole c (pdats m) ((pdats m 11 c).share_full fun _ => rfl)
      (atTc (T31 m) c) (atTc (T32 m) c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg12.lean ====
/-
  Region 12's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 12: entered from every unscoped buffer at the valuation before it, left at the one after it; its arrays split out
    of the unscoped buffers at entry and put back at exit; the generator register into the pipeline's invariant and out;
    nothing owed; no semaphore of the kernel's own. -/
noncomputable def reg12 : Pipeline.RegionSeg (pcfgs (F := F)) GenP.adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (atTc (T33 m)) c).loose
  hwaits := Pipeline.hwaits_of_owed_zero _ _ _ _ L lv 12 fun _ _ => rfl
  pre c := iprop(StableHlo.held (c : Thread nD τ) (Pipeline.ucRefs τ sig) (T33 m c) ∗ Rr c)
  post c := iprop(StableHlo.held (c : Thread nD τ) (Pipeline.ucRefs τ sig) (T34 m c) ∗ Rr c)
  X c := iprop(∃ r, prngReg c r)
  Y c := iprop(∃ r, prngReg c r)
  Z c := Pipeline.unscopedRest (Ix := Unit) (Name := ℕ) (U := UR sig nD τ) (Lvl := ℕ) spec12 c (atTc (T33 m) c)
  hentry c := by
    rw [Pipeline.ownSems0_none]
    have hsplit := Pipeline.arrays_of_unscopedBufs (p := 12) (pcfgs (F := F)) GenP.adm (pdats m) launch12.win launch12.arr_whole c
      ((pdats m 12 c).share_full fun _ => rfl) (atTc (T33 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) GenP.adm (Ix := Unit) (Name := ℕ) (U := UR sig nD τ) (Lvl := ℕ)
      launch12.win launch12.arr_whole c (pdats m) ((pdats m 12 c).share_full fun _ => rfl)
      (atTc (T33 m) c) (atTc (T34 m) c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg13.lean ====
/-
  Region 13's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 13: entered from every unscoped buffer at the valuation before it, left at the one after it; its arrays split out
    of the unscoped buffers at entry and put back at exit; the generator register into the pipeline's invariant and out;
    nothing owed; no semaphore of the kernel's own. -/
noncomputable def reg13 : Pipeline.RegionSeg (pcfgs (F := F)) GenP.adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (atTc (T35 m)) c).loose
  hwaits := Pipeline.hwaits_of_owed_zero _ _ _ _ L lv 13 fun _ _ => rfl
  pre c := iprop(StableHlo.held (c : Thread nD τ) (Pipeline.ucRefs τ sig) (T35 m c) ∗ Rr c)
  post c := iprop(StableHlo.held (c : Thread nD τ) (Pipeline.ucRefs τ sig) (T36 m c) ∗ Rr c)
  X c := iprop(∃ r, prngReg c r)
  Y c := iprop(∃ r, prngReg c r)
  Z c := Pipeline.unscopedRest (Ix := Unit) (Name := ℕ) (U := UR sig nD τ) (Lvl := ℕ) spec13 c (atTc (T35 m) c)
  hentry c := by
    rw [Pipeline.ownSems0_none]
    have hsplit := Pipeline.arrays_of_unscopedBufs (p := 13) (pcfgs (F := F)) GenP.adm (pdats m) launch13.win launch13.arr_whole c
      ((pdats m 13 c).share_full fun _ => rfl) (atTc (T35 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) GenP.adm (Ix := Unit) (Name := ℕ) (U := UR sig nD τ) (Lvl := ℕ)
      launch13.win launch13.arr_whole c (pdats m) ((pdats m 13 c).share_full fun _ => rfl)
      (atTc (T35 m) c) (atTc (T36 m) c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg14.lean ====
/-
  Region 14's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 14: entered from every unscoped buffer at the valuation before it, left at the one after it; its arrays split out
    of the unscoped buffers at entry and put back at exit; the generator register into the pipeline's invariant and out;
    nothing owed; no semaphore of the kernel's own. -/
noncomputable def reg14 : Pipeline.RegionSeg (pcfgs (F := F)) GenP.adm (pdats m) () defs₀ 𝒱₀ L lv 14 where
  win := launch14.win.to₀
  block_pos := launch14.block_pos
  stage_whole := launch14.stage_whole
  K := PEmpty
  osem k := k.elim
  ho := Pipeline.OwnSemFacts.none _
  hbody c := (body_obligation14 (atTc (T37 m)) c).loose
  hwaits := Pipeline.hwaits_of_owed_zero _ _ _ _ L lv 14 fun _ _ => rfl
  pre c := iprop(StableHlo.held (c : Thread nD τ) (Pipeline.ucRefs τ sig) (T37 m c) ∗ Rr c)
  post c := iprop(StableHlo.held (c : Thread nD τ) (Pipeline.ucRefs τ sig) (T38 m c) ∗ Rr c)
  X c := iprop(∃ r, prngReg c r)
  Y c := iprop(∃ r, prngReg c r)
  Z c := Pipeline.unscopedRest (Ix := Unit) (Name := ℕ) (U := UR sig nD τ) (Lvl := ℕ) spec14 c (atTc (T37 m) c)
  hentry c := by
    rw [Pipeline.ownSems0_none]
    have hsplit := Pipeline.arrays_of_unscopedBufs (p := 14) (pcfgs (F := F)) GenP.adm (pdats m) launch14.win launch14.arr_whole c
      ((pdats m 14 c).share_full fun _ => rfl) (atTc (T37 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) GenP.adm (Ix := Unit) (Name := ℕ) (U := UR sig nD τ) (Lvl := ℕ)
      launch14.win launch14.arr_whole c (pdats m) ((pdats m 14 c).share_full fun _ => rfl)
      (atTc (T37 m) c) (atTc (T38 m) c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg15.lean ====
/-
  Region 15's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 15: entered from every unscoped buffer at the valuation before it, left at the one after it; its arrays split out
    of the unscoped buffers at entry and put back at exit; the generator register into the pipeline's invariant and out;
    nothing owed; no semaphore of the kernel's own. -/
noncomputable def reg15 : Pipeline.RegionSeg (pcfgs (F := F)) GenP.adm (pdats m) () defs₀ 𝒱₀ L lv 15 where
  win := launch15.win.to₀
  block_pos := launch15.block_pos
  stage_whole := launch15.stage_whole
  K := PEmpty
  osem k := k.elim
  ho := Pipeline.OwnSemFacts.none _
  hbody c := (body_obligation15 (atTc (T39 m)) c).loose
  hwaits := Pipeline.hwaits_of_owed_zero _ _ _ _ L lv 15 fun _ _ => rfl
  pre c := iprop(StableHlo.held (c : Thread nD τ) (Pipeline.ucRefs τ sig) (T39 m c) ∗ Rr c)
  post c := iprop(StableHlo.held (c : Thread nD τ) (Pipeline.ucRefs τ sig) (T40 m c) ∗ Rr c)
  X c := iprop(∃ r, prngReg c r)
  Y c := iprop(∃ r, prngReg c r)
  Z c := Pipeline.unscopedRest (Ix := Unit) (Name := ℕ) (U := UR sig nD τ) (Lvl := ℕ) spec15 c (atTc (T39 m) c)
  hentry c := by
    rw [Pipeline.ownSems0_none]
    have hsplit := Pipeline.arrays_of_unscopedBufs (p := 15) (pcfgs (F := F)) GenP.adm (pdats m) launch15.win launch15.arr_whole c
      ((pdats m 15 c).share_full fun _ => rfl) (atTc (T39 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) GenP.adm (Ix := Unit) (Name := ℕ) (U := UR sig nD τ) (Lvl := ℕ)
      launch15.win launch15.arr_whole c (pdats m) ((pdats m 15 c).share_full fun _ => rfl)
      (atTc (T39 m) c) (atTc (T40 m) c) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg16.lean ====
/-
  Region 16's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 16: entered from every unscoped buffer at the valuation before it, left at the one after it; its arrays split out
    of the unscoped buffers at entry and put back at exit; the generator register into the pipeline's invariant and out;
    nothing owed; no semaphore of the kernel's own. -/
noncomputable def reg16 : Pipeline.RegionSeg (pcfgs (F := F)) GenP.adm (pdats m) () defs₀ 𝒱₀ L lv 16 where
  win := launch16.win.to₀
  block_pos := launch16.block_pos
  stage_whole := launch16.stage_whole
  K := PEmpty
  osem k := k.elim
  ho := Pipeline.OwnSemFacts.none _
  hbody c := (body_obligation16 (atTc (T41 m)) c).loose
  hwaits := Pipeline.hwaits_of_owed_zero _ _ _ _ L lv 16 fun _ _ => rfl
  pre c := iprop(StableHlo.held (c : Thread nD τ) (Pipeline.ucRefs τ sig) (T41 m c) ∗ Rr c)
  post c := iprop(StableHlo.held (c : Thread nD τ) (Pipeline.ucRefs τ sig) (T42 m c) ∗ Rr c)
  X c := iprop(∃ r, prngReg c r)
  Y c := iprop(∃ r, prngReg c r)
  Z c := Pipeline.unscopedRest (Ix := Unit) (Name := ℕ) (U := UR sig nD τ) (Lvl := ℕ) spec16 c (atTc (T41 m) c)
  hentry c := by
    rw [Pipeline.ownSems0_none]
    have hsplit := Pipeline.arrays_of_unscopedBufs (p := 16) (pcfgs (F := F)) GenP.adm (pdats m) launch16.win launch16.arr_whole c
      ((pdats m 16 c).share_full fun _ => rfl) (atTc (T41 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) GenP.adm (Ix := Unit) (Name := ℕ) (U := UR sig nD τ) (Lvl := ℕ)
      launch16.win launch16.arr_whole c (pdats m) ((pdats m 16 c).share_full fun _ => rfl)
      (atTc (T41 m) c) (atTc (T42 m) c) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg17.lean ====
/-
  Region 17's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 17: entered from every unscoped buffer at the valuation before it, left at the one after it; its arrays split out
    of the unscoped buffers at entry and put back at exit; the generator register into the pipeline's invariant and out;
    nothing owed; no semaphore of the kernel's own. -/
noncomputable def reg17 : Pipeline.RegionSeg (pcfgs (F := F)) GenP.adm (pdats m) () defs₀ 𝒱₀ L lv 17 where
  win := launch17.win.to₀
  block_pos := launch17.block_pos
  stage_whole := launch17.stage_whole
  K := PEmpty
  osem k := k.elim
  ho := Pipeline.OwnSemFacts.none _
  hbody c := (body_obligation17 (atTc (T43 m)) c).loose
  hwaits := Pipeline.hwaits_of_owed_zero _ _ _ _ L lv 17 fun _ _ => rfl
  pre c := iprop(StableHlo.held (c : Thread nD τ) (Pipeline.ucRefs τ sig) (T43 m c) ∗ Rr c)
  post c := iprop(StableHlo.held (c : Thread nD τ) (Pipeline.ucRefs τ sig) (T44 m c) ∗ Rr c)
  X c := iprop(∃ r, prngReg c r)
  Y c := iprop(∃ r, prngReg c r)
  Z c := Pipeline.unscopedRest (Ix := Unit) (Name := ℕ) (U := UR sig nD τ) (Lvl := ℕ) spec17 c (atTc (T43 m) c)
  hentry c := by
    rw [Pipeline.ownSems0_none]
    have hsplit := Pipeline.arrays_of_unscopedBufs (p := 17) (pcfgs (F := F)) GenP.adm (pdats m) launch17.win launch17.arr_whole c
      ((pdats m 17 c).share_full fun _ => rfl) (atTc (T43 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) GenP.adm (Ix := Unit) (Name := ℕ) (U := UR sig nD τ) (Lvl := ℕ)
      launch17.win launch17.arr_whole c (pdats m) ((pdats m 17 c).share_full fun _ => rfl)
      (atTc (T43 m) c) (atTc (T44 m) c) ((pdats m 17 c).arrAt · cfg17.N) (hF17 m c) (hrest17 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg18.lean ====
/-
  Region 18's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 18: entered from every unscoped buffer at the valuation before it, left at the one after it; its arrays split out
    of the unscoped buffers at entry and put back at exit; the generator register into the pipeline's invariant and out;
    nothing owed; no semaphore of the kernel's own. -/
noncomputable def reg18 : Pipeline.RegionSeg (pcfgs (F := F)) GenP.adm (pdats m) () defs₀ 𝒱₀ L lv 18 where
  win := launch18.win.to₀
  block_pos := launch18.block_pos
  stage_whole := launch18.stage_whole
  K := PEmpty
  osem k := k.elim
  ho := Pipeline.OwnSemFacts.none _
  hbody c := (body_obligation18 (atTc (T45 m)) c).loose
  hwaits := Pipeline.hwaits_of_owed_zero _ _ _ _ L lv 18 fun _ _ => rfl
  pre c := iprop(StableHlo.held (c : Thread nD τ) (Pipeline.ucRefs τ sig) (T45 m c) ∗ Rr c)
  post c := iprop(StableHlo.held (c : Thread nD τ) (Pipeline.ucRefs τ sig) (T46 m c) ∗ Rr c)
  X c := iprop(∃ r, prngReg c r)
  Y c := iprop(∃ r, prngReg c r)
  Z c := Pipeline.unscopedRest (Ix := Unit) (Name := ℕ) (U := UR sig nD τ) (Lvl := ℕ) spec18 c (atTc (T45 m) c)
  hentry c := by
    rw [Pipeline.ownSems0_none]
    have hsplit := Pipeline.arrays_of_unscopedBufs (p := 18) (pcfgs (F := F)) GenP.adm (pdats m) launch18.win launch18.arr_whole c
      ((pdats m 18 c).share_full fun _ => rfl) (atTc (T45 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 18 c).Φ 0 = Pipeline.ΦA spec18 c from rfl]; unfold Pipeline.ΦA
    iintro ⟨Hp, -, Hr⟩
    isplitl [Hr]; · iexact Hr
    iexact Hp
  hout c := by
    rw [Pipeline.ownSems0_none, show (pdats m 18 c).Φ (Fin.last _) = Pipeline.ΦA spec18 c from rfl]; unfold Pipeline.ΦA
    iintro ⟨Hr, Hp⟩
    isplitl [Hp]; · iexact Hp
    isplitr; · iempintro
    iexact Hr
  hexit c := by
    have hjoin := Pipeline.unscopedBufs_of_arrays (p := 18) (pcfgs (F := F)) GenP.adm (Ix := Unit) (Name := ℕ) (U := UR sig nD τ) (Lvl := ℕ)
      launch18.win launch18.arr_whole c (pdats m) ((pdats m 18 c).share_full fun _ => rfl)
      (atTc (T45 m) c) (atTc (T46 m) c) ((pdats m 18 c).arrAt · cfg18.N) (hF18 m c) (hrest18 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg19.lean ====
/-
  Region 19's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 19: entered from every unscoped buffer at the valuation before it, left at the one after it; its arrays split out
    of the unscoped buffers at entry and put back at exit; the generator register into the pipeline's invariant and out;
    nothing owed; no semaphore of the kernel's own. -/
noncomputable def reg19 : Pipeline.RegionSeg (pcfgs (F := F)) GenP.adm (pdats m) () defs₀ 𝒱₀ L lv 19 where
  win := launch19.win.to₀
  block_pos := launch19.block_pos
  stage_whole := launch19.stage_whole
  K := PEmpty
  osem k := k.elim
  ho := Pipeline.OwnSemFacts.none _
  hbody c := (body_obligation19 (atTc (T47 m)) c).loose
  hwaits := Pipeline.hwaits_of_owed_zero _ _ _ _ L lv 19 fun _ _ => rfl
  pre c := iprop(StableHlo.held (c : Thread nD τ) (Pipeline.ucRefs τ sig) (T47 m c) ∗ Rr c)
  post c := iprop(StableHlo.held (c : Thread nD τ) (Pipeline.ucRefs τ sig) (T48 m c) ∗ Rr c)
  X c := iprop(∃ r, prngReg c r)
  Y c := iprop(∃ r, prngReg c r)
  Z c := Pipeline.unscopedRest (Ix := Unit) (Name := ℕ) (U := UR sig nD τ) (Lvl := ℕ) spec19 c (atTc (T47 m) c)
  hentry c := by
    rw [Pipeline.ownSems0_none]
    have hsplit := Pipeline.arrays_of_unscopedBufs (p := 19) (pcfgs (F := F)) GenP.adm (pdats m) launch19.win launch19.arr_whole c
      ((pdats m 19 c).share_full fun _ => rfl) (atTc (T47 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 19 c).Φ 0 = Pipeline.ΦA spec19 c from rfl]; unfold Pipeline.ΦA
    iintro ⟨Hp, -, Hr⟩
    isplitl [Hr]; · iexact Hr
    iexact Hp
  hout c := by
    rw [Pipeline.ownSems0_none, show (pdats m 19 c).Φ (Fin.last _) = Pipeline.ΦA spec19 c from rfl]; unfold Pipeline.ΦA
    iintro ⟨Hr, Hp⟩
    isplitl [Hp]; · iexact Hp
    isplitr; · iempintro
    iexact Hr
  hexit c := by
    have hjoin := Pipeline.unscopedBufs_of_arrays (p := 19) (pcfgs (F := F)) GenP.adm (Ix := Unit) (Name := ℕ) (U := UR sig nD τ) (Lvl := ℕ)
      launch19.win launch19.arr_whole c (pdats m) ((pdats m 19 c).share_full fun _ => rfl)
      (atTc (T47 m) c) (atTc (T48 m) c) ((pdats m 19 c).arrAt · cfg19.N) (hF19 m c) (hrest19 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg20.lean ====
/-
  Region 20's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 20: entered from every unscoped buffer at the valuation before it, left at the one after it; its arrays split out
    of the unscoped buffers at entry and put back at exit; the generator register into the pipeline's invariant and out;
    nothing owed; no semaphore of the kernel's own. -/
noncomputable def reg20 : Pipeline.RegionSeg (pcfgs (F := F)) GenP.adm (pdats m) () defs₀ 𝒱₀ L lv 20 where
  win := launch20.win.to₀
  block_pos := launch20.block_pos
  stage_whole := launch20.stage_whole
  K := PEmpty
  osem k := k.elim
  ho := Pipeline.OwnSemFacts.none _
  hbody c := (body_obligation20 (atTc (T49 m)) c).loose
  hwaits := Pipeline.hwaits_of_owed_zero _ _ _ _ L lv 20 fun _ _ => rfl
  pre c := iprop(StableHlo.held (c : Thread nD τ) (Pipeline.ucRefs τ sig) (T49 m c) ∗ Rr c)
  post c := iprop(StableHlo.held (c : Thread nD τ) (Pipeline.ucRefs τ sig) (T50 m c) ∗ Rr c)
  X c := iprop(∃ r, prngReg c r)
  Y c := iprop(∃ r, prngReg c r)
  Z c := Pipeline.unscopedRest (Ix := Unit) (Name := ℕ) (U := UR sig nD τ) (Lvl := ℕ) spec20 c (atTc (T49 m) c)
  hentry c := by
    rw [Pipeline.ownSems0_none]
    have hsplit := Pipeline.arrays_of_unscopedBufs (p := 20) (pcfgs (F := F)) GenP.adm (pdats m) launch20.win launch20.arr_whole c
      ((pdats m 20 c).share_full fun _ => rfl) (atTc (T49 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 20 c).Φ 0 = Pipeline.ΦA spec20 c from rfl]; unfold Pipeline.ΦA
    iintro ⟨Hp, -, Hr⟩
    isplitl [Hr]; · iexact Hr
    iexact Hp
  hout c := by
    rw [Pipeline.ownSems0_none, show (pdats m 20 c).Φ (Fin.last _) = Pipeline.ΦA spec20 c from rfl]; unfold Pipeline.ΦA
    iintro ⟨Hr, Hp⟩
    isplitl [Hp]; · iexact Hp
    isplitr; · iempintro
    iexact Hr
  hexit c := by
    have hjoin := Pipeline.unscopedBufs_of_arrays (p := 20) (pcfgs (F := F)) GenP.adm (Ix := Unit) (Name := ℕ) (U := UR sig nD τ) (Lvl := ℕ)
      launch20.win launch20.arr_whole c (pdats m) ((pdats m 20 c).share_full fun _ => rfl)
      (atTc (T49 m) c) (atTc (T50 m) c) ((pdats m 20 c).arrAt · cfg20.N) (hF20 m c) (hrest20 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg21.lean ====
/-
  Region 21's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 21: entered from every unscoped buffer at the valuation before it, left at the one after it; its arrays split out
    of the unscoped buffers at entry and put back at exit; the generator register into the pipeline's invariant and out;
    nothing owed; no semaphore of the kernel's own. -/
noncomputable def reg21 : Pipeline.RegionSeg (pcfgs (F := F)) GenP.adm (pdats m) () defs₀ 𝒱₀ L lv 21 where
  win := launch21.win.to₀
  block_pos := launch21.block_pos
  stage_whole := launch21.stage_whole
  K := PEmpty
  osem k := k.elim
  ho := Pipeline.OwnSemFacts.none _
  hbody c := (body_obligation21 (atTc (T51 m)) c).loose
  hwaits := Pipeline.hwaits_of_owed_zero _ _ _ _ L lv 21 fun _ _ => rfl
  pre c := iprop(StableHlo.held (c : Thread nD τ) (Pipeline.ucRefs τ sig) (T51 m c) ∗ Rr c)
  post c := iprop(StableHlo.held (c : Thread nD τ) (Pipeline.ucRefs τ sig) (T52 m c) ∗ Rr c)
  X c := iprop(∃ r, prngReg c r)
  Y c := iprop(∃ r, prngReg c r)
  Z c := Pipeline.unscopedRest (Ix := Unit) (Name := ℕ) (U := UR sig nD τ) (Lvl := ℕ) spec21 c (atTc (T51 m) c)
  hentry c := by
    rw [Pipeline.ownSems0_none]
    have hsplit := Pipeline.arrays_of_unscopedBufs (p := 21) (pcfgs (F := F)) GenP.adm (pdats m) launch21.win launch21.arr_whole c
      ((pdats m 21 c).share_full fun _ => rfl) (atTc (T51 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 21 c).Φ 0 = Pipeline.ΦA spec21 c from rfl]; unfold Pipeline.ΦA
    iintro ⟨Hp, -, Hr⟩
    isplitl [Hr]; · iexact Hr
    iexact Hp
  hout c := by
    rw [Pipeline.ownSems0_none, show (pdats m 21 c).Φ (Fin.last _) = Pipeline.ΦA spec21 c from rfl]; unfold Pipeline.ΦA
    iintro ⟨Hr, Hp⟩
    isplitl [Hp]; · iexact Hp
    isplitr; · iempintro
    iexact Hr
  hexit c := by
    have hjoin := Pipeline.unscopedBufs_of_arrays (p := 21) (pcfgs (F := F)) GenP.adm (Ix := Unit) (Name := ℕ) (U := UR sig nD τ) (Lvl := ℕ)
      launch21.win launch21.arr_whole c (pdats m) ((pdats m 21 c).share_full fun _ => rfl)
      (atTc (T51 m) c) (atTc (T52 m) c) ((pdats m 21 c).arrAt · cfg21.N) (hF21 m c) (hrest21 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg22.lean ====
/-
  Region 22's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 22: entered from every unscoped buffer at the valuation before it, left at the one after it; its arrays split out
    of the unscoped buffers at entry and put back at exit; the generator register into the pipeline's invariant and out;
    nothing owed; no semaphore of the kernel's own. -/
noncomputable def reg22 : Pipeline.RegionSeg (pcfgs (F := F)) GenP.adm (pdats m) () defs₀ 𝒱₀ L lv 22 where
  win := launch22.win.to₀
  block_pos := launch22.block_pos
  stage_whole := launch22.stage_whole
  K := PEmpty
  osem k := k.elim
  ho := Pipeline.OwnSemFacts.none _
  hbody c := (body_obligation22 (atTc (T53 m)) c).loose
  hwaits := Pipeline.hwaits_of_owed_zero _ _ _ _ L lv 22 fun _ _ => rfl
  pre c := iprop(StableHlo.held (c : Thread nD τ) (Pipeline.ucRefs τ sig) (T53 m c) ∗ Rr c)
  post c := iprop(StableHlo.held (c : Thread nD τ) (Pipeline.ucRefs τ sig) (T54 m c) ∗ Rr c)
  X c := iprop(∃ r, prngReg c r)
  Y c := iprop(∃ r, prngReg c r)
  Z c := Pipeline.unscopedRest (Ix := Unit) (Name := ℕ) (U := UR sig nD τ) (Lvl := ℕ) spec22 c (atTc (T53 m) c)
  hentry c := by
    rw [Pipeline.ownSems0_none]
    have hsplit := Pipeline.arrays_of_unscopedBufs (p := 22) (pcfgs (F := F)) GenP.adm (pdats m) launch22.win launch22.arr_whole c
      ((pdats m 22 c).share_full fun _ => rfl) (atTc (T53 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 22 c).Φ 0 = Pipeline.ΦA spec22 c from rfl]; unfold Pipeline.ΦA
    iintro ⟨Hp, -, Hr⟩
    isplitl [Hr]; · iexact Hr
    iexact Hp
  hout c := by
    rw [Pipeline.ownSems0_none, show (pdats m 22 c).Φ (Fin.last _) = Pipeline.ΦA spec22 c from rfl]; unfold Pipeline.ΦA
    iintro ⟨Hr, Hp⟩
    isplitl [Hp]; · iexact Hp
    isplitr; · iempintro
    iexact Hr
  hexit c := by
    have hjoin := Pipeline.unscopedBufs_of_arrays (p := 22) (pcfgs (F := F)) GenP.adm (Ix := Unit) (Name := ℕ) (U := UR sig nD τ) (Lvl := ℕ)
      launch22.win launch22.arr_whole c (pdats m) ((pdats m 22 c).share_full fun _ => rfl)
      (atTc (T53 m) c) (atTc (T54 m) c) ((pdats m 22 c).arrAt · cfg22.N) (hF22 m c) (hrest22 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg23.lean ====
/-
  Region 23's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 23: entered from every unscoped buffer at the valuation before it, left at the one after it; its arrays split out
    of the unscoped buffers at entry and put back at exit; the generator register into the pipeline's invariant and out;
    nothing owed; no semaphore of the kernel's own. -/
noncomputable def reg23 : Pipeline.RegionSeg (pcfgs (F := F)) GenP.adm (pdats m) () defs₀ 𝒱₀ L lv 23 where
  win := launch23.win.to₀
  block_pos := launch23.block_pos
  stage_whole := launch23.stage_whole
  K := PEmpty
  osem k := k.elim
  ho := Pipeline.OwnSemFacts.none _
  hbody c := (body_obligation23 (atTc (T55 m)) c).loose
  hwaits := Pipeline.hwaits_of_owed_zero _ _ _ _ L lv 23 fun _ _ => rfl
  pre c := iprop(StableHlo.held (c : Thread nD τ) (Pipeline.ucRefs τ sig) (T55 m c) ∗ Rr c)
  post c := iprop(StableHlo.held (c : Thread nD τ) (Pipeline.ucRefs τ sig) (T56 m c) ∗ Rr c)
  X c := iprop(∃ r, prngReg c r)
  Y c := iprop(∃ r, prngReg c r)
  Z c := Pipeline.unscopedRest (Ix := Unit) (Name := ℕ) (U := UR sig nD τ) (Lvl := ℕ) spec23 c (atTc (T55 m) c)
  hentry c := by
    rw [Pipeline.ownSems0_none]
    have hsplit := Pipeline.arrays_of_unscopedBufs (p := 23) (pcfgs (F := F)) GenP.adm (pdats m) launch23.win launch23.arr_whole c
      ((pdats m 23 c).share_full fun _ => rfl) (atTc (T55 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 23 c).Φ 0 = Pipeline.ΦA spec23 c from rfl]; unfold Pipeline.ΦA
    iintro ⟨Hp, -, Hr⟩
    isplitl [Hr]; · iexact Hr
    iexact Hp
  hout c := by
    rw [Pipeline.ownSems0_none, show (pdats m 23 c).Φ (Fin.last _) = Pipeline.ΦA spec23 c from rfl]; unfold Pipeline.ΦA
    iintro ⟨Hr, Hp⟩
    isplitl [Hp]; · iexact Hp
    isplitr; · iempintro
    iexact Hr
  hexit c := by
    have hjoin := Pipeline.unscopedBufs_of_arrays (p := 23) (pcfgs (F := F)) GenP.adm (Ix := Unit) (Name := ℕ) (U := UR sig nD τ) (Lvl := ℕ)
      launch23.win launch23.arr_whole c (pdats m) ((pdats m 23 c).share_full fun _ => rfl)
      (atTc (T55 m) c) (atTc (T56 m) c) ((pdats m 23 c).arrAt · cfg23.N) (hF23 m c) (hrest23 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg24.lean ====
/-
  Region 24's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 24: entered from every unscoped buffer at the valuation before it, left at the one after it; its arrays split out
    of the unscoped buffers at entry and put back at exit; the generator register into the pipeline's invariant and out;
    nothing owed; no semaphore of the kernel's own. -/
noncomputable def reg24 : Pipeline.RegionSeg (pcfgs (F := F)) GenP.adm (pdats m) () defs₀ 𝒱₀ L lv 24 where
  win := launch24.win.to₀
  block_pos := launch24.block_pos
  stage_whole := launch24.stage_whole
  K := PEmpty
  osem k := k.elim
  ho := Pipeline.OwnSemFacts.none _
  hbody c := (body_obligation24 (atTc (T57 m)) c).loose
  hwaits := Pipeline.hwaits_of_owed_zero _ _ _ _ L lv 24 fun _ _ => rfl
  pre c := iprop(StableHlo.held (c : Thread nD τ) (Pipeline.ucRefs τ sig) (T57 m c) ∗ Rr c)
  post c := iprop(StableHlo.held (c : Thread nD τ) (Pipeline.ucRefs τ sig) (T58 m c) ∗ Rr c)
  X c := iprop(∃ r, prngReg c r)
  Y c := iprop(∃ r, prngReg c r)
  Z c := Pipeline.unscopedRest (Ix := Unit) (Name := ℕ) (U := UR sig nD τ) (Lvl := ℕ) spec24 c (atTc (T57 m) c)
  hentry c := by
    rw [Pipeline.ownSems0_none]
    have hsplit := Pipeline.arrays_of_unscopedBufs (p := 24) (pcfgs (F := F)) GenP.adm (pdats m) launch24.win launch24.arr_whole c
      ((pdats m 24 c).share_full fun _ => rfl) (atTc (T57 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 24 c).Φ 0 = Pipeline.ΦA spec24 c from rfl]; unfold Pipeline.ΦA
    iintro ⟨Hp, -, Hr⟩
    isplitl [Hr]; · iexact Hr
    iexact Hp
  hout c := by
    rw [Pipeline.ownSems0_none, show (pdats m 24 c).Φ (Fin.last _) = Pipeline.ΦA spec24 c from rfl]; unfold Pipeline.ΦA
    iintro ⟨Hr, Hp⟩
    isplitl [Hp]; · iexact Hp
    isplitr; · iempintro
    iexact Hr
  hexit c := by
    have hjoin := Pipeline.unscopedBufs_of_arrays (p := 24) (pcfgs (F := F)) GenP.adm (Ix := Unit) (Name := ℕ) (U := UR sig nD τ) (Lvl := ℕ)
      launch24.win launch24.arr_whole c (pdats m) ((pdats m 24 c).share_full fun _ => rfl)
      (atTc (T57 m) c) (atTc (T58 m) c) ((pdats m 24 c).arrAt · cfg24.N) (hF24 m c) (hrest24 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg25.lean ====
/-
  Region 25's record: entered from every unscoped buffer at the valuation before it, it leaves them at the valuation after it.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 25: entered from every unscoped buffer at the valuation before it, left at the one after it; its arrays split out
    of the unscoped buffers at entry and put back at exit; the generator register into the pipeline's invariant and out;
    nothing owed; no semaphore of the kernel's own. -/
noncomputable def reg25 : Pipeline.RegionSeg (pcfgs (F := F)) GenP.adm (pdats m) () defs₀ 𝒱₀ L lv 25 where
  win := launch25.win.to₀
  block_pos := launch25.block_pos
  stage_whole := launch25.stage_whole
  K := PEmpty
  osem k := k.elim
  ho := Pipeline.OwnSemFacts.none _
  hbody c := (body_obligation25 (atTc (T59 m)) c).loose
  hwaits := Pipeline.hwaits_of_owed_zero _ _ _ _ L lv 25 fun _ _ => rfl
  pre c := iprop(StableHlo.held (c : Thread nD τ) (Pipeline.ucRefs τ sig) (T59 m c) ∗ Rr c)
  post c := iprop(StableHlo.held (c : Thread nD τ) (Pipeline.ucRefs τ sig) (T60 m c) ∗ Rr c)
  X c := iprop(∃ r, prngReg c r)
  Y c := iprop(∃ r, prngReg c r)
  Z c := Pipeline.unscopedRest (Ix := Unit) (Name := ℕ) (U := UR sig nD τ) (Lvl := ℕ) spec25 c (atTc (T59 m) c)
  hentry c := by
    rw [Pipeline.ownSems0_none]
    have hsplit := Pipeline.arrays_of_unscopedBufs (p := 25) (pcfgs (F := F)) GenP.adm (pdats m) launch25.win launch25.arr_whole c
      ((pdats m 25 c).share_full fun _ => rfl) (atTc (T59 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 25 c).Φ 0 = Pipeline.ΦA spec25 c from rfl]; unfold Pipeline.ΦA
    iintro ⟨Hp, -, Hr⟩
    isplitl [Hr]; · iexact Hr
    iexact Hp
  hout c := by
    rw [Pipeline.ownSems0_none, show (pdats m 25 c).Φ (Fin.last _) = Pipeline.ΦA spec25 c from rfl]; unfold Pipeline.ΦA
    iintro ⟨Hr, Hp⟩
    isplitl [Hp]; · iexact Hp
    isplitr; · iempintro
    iexact Hr
  hexit c := by
    have hjoin := Pipeline.unscopedBufs_of_arrays (p := 25) (pcfgs (F := F)) GenP.adm (Ix := Unit) (Name := ℕ) (U := UR sig nD τ) (Lvl := ℕ)
      launch25.win launch25.arr_whole c (pdats m) ((pdats m 25 c).share_full fun _ => rfl)
      (atTc (T59 m) c) (atTc (T60 m) c) ((pdats m 25 c).arrAt · cfg25.N) (hF25 m c) (hrest25 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Frame.lean ====
/-
  The frame of the whole program, at any float instance: with one record per region (each entered from the valuation
  before it and left at the one after it) the conditional frame gives that every weakly fair execution of @main terminates,
  faults nowhere, and ends with every argument array as launched. The launch deals each core its generator register and
  its empty debts, which ride through every item; no ghost resource is needed beside the pipelines' own.
-/
import proofs.«149588_j66838281060723_2_alg».proof.Proof.KI.Reg0
import proofs.«149588_j66838281060723_2_alg».proof.Proof.KI.Reg1
import proofs.«149588_j66838281060723_2_alg».proof.Proof.KI.Reg2
import proofs.«149588_j66838281060723_2_alg».proof.Proof.KI.Reg3
import proofs.«149588_j66838281060723_2_alg».proof.Proof.KI.Reg4
import proofs.«149588_j66838281060723_2_alg».proof.Proof.KI.Reg5
import proofs.«149588_j66838281060723_2_alg».proof.Proof.KI.Reg6
import proofs.«149588_j66838281060723_2_alg».proof.Proof.KI.Reg7
import proofs.«149588_j66838281060723_2_alg».proof.Proof.KI.Reg8
import proofs.«149588_j66838281060723_2_alg».proof.Proof.KI.Reg9
import proofs.«149588_j66838281060723_2_alg».proof.Proof.KI.Reg10
import proofs.«149588_j66838281060723_2_alg».proof.Proof.KI.Reg11
import proofs.«149588_j66838281060723_2_alg».proof.Proof.KI.Reg12
import proofs.«149588_j66838281060723_2_alg».proof.Proof.KI.Reg13
import proofs.«149588_j66838281060723_2_alg».proof.Proof.KI.Reg14
import proofs.«149588_j66838281060723_2_alg».proof.Proof.KI.Reg15
import proofs.«149588_j66838281060723_2_alg».proof.Proof.KI.Reg16
import proofs.«149588_j66838281060723_2_alg».proof.Proof.KI.Reg17
import proofs.«149588_j66838281060723_2_alg».proof.Proof.KI.Reg18
import proofs.«149588_j66838281060723_2_alg».proof.Proof.KI.Reg19
import proofs.«149588_j66838281060723_2_alg».proof.Proof.KI.Reg20
import proofs.«149588_j66838281060723_2_alg».proof.Proof.KI.Reg21
import proofs.«149588_j66838281060723_2_alg».proof.Proof.KI.Reg22
import proofs.«149588_j66838281060723_2_alg».proof.Proof.KI.Reg23
import proofs.«149588_j66838281060723_2_alg».proof.Proof.KI.Reg24
import proofs.«149588_j66838281060723_2_alg».proof.Proof.KI.Reg25

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
set_option maxRecDepth 200000 in
set_option backward.isDefEq.respectTransparency.types false in
/-- THE FRAME of the program at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  GenP.frame_cond (F := F) (Ix := Unit) (U := UR sig nD τ) (Lvl := ℕ) m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L lv fun c => ?_
      iintro ⟨⟨-, HO, -, Hp, -⟩, -⟩
      imodintro
      isplitl [Hp]; · iexists _; iexact Hp
      iexists ∅; iexact HO)
    (hE26 := fun c => by iintro ⟨-, HO⟩; iexact HO)
    (R0 := reg0 m) (hpre0 := fun c => by rw [Veq9]; exact .rfl) (hpost0 := fun c => by rw [Veq10]; exact .rfl)
    (R1 := reg1 m) (hpre1 := fun c => by rw [Veq11]; exact .rfl) (hpost1 := fun c => by rw [Veq12]; exact .rfl)
    (R2 := reg2 m) (hpre2 := fun c => by rw [Veq13]; exact .rfl) (hpost2 := fun c => by rw [Veq14]; exact .rfl)
    (R3 := reg3 m) (hpre3 := fun c => by rw [Veq15]; exact .rfl) (hpost3 := fun c => by rw [Veq16]; exact .rfl)
    (R4 := reg4 m) (hpre4 := fun c => by rw [Veq17]; exact .rfl) (hpost4 := fun c => by rw [Veq18]; exact .rfl)
    (R5 := reg5 m) (hpre5 := fun c => by rw [Veq19]; exact .rfl) (hpost5 := fun c => by rw [Veq20]; exact .rfl)
    (R6 := reg6 m) (hpre6 := fun c => by rw [Veq21]; exact .rfl) (hpost6 := fun c => by rw [Veq22]; exact .rfl)
    (R7 := reg7 m) (hpre7 := fun c => by rw [Veq23]; exact .rfl) (hpost7 := fun c => by rw [Veq24]; exact .rfl)
    (R8 := reg8 m) (hpre8 := fun c => by rw [Veq25]; exact .rfl) (hpost8 := fun c => by rw [Veq26]; exact .rfl)
    (R9 := reg9 m) (hpre9 := fun c => by rw [Veq27]; exact .rfl) (hpost9 := fun c => by rw [Veq28]; exact .rfl)
    (R10 := reg10 m) (hpre10 := fun c => by rw [Veq29]; exact .rfl) (hpost10 := fun c => by rw [Veq30]; exact .rfl)
    (R11 := reg11 m) (hpre11 := fun c => by rw [Veq31]; exact .rfl) (hpost11 := fun c => by rw [Veq32]; exact .rfl)
    (R12 := reg12 m) (hpre12 := fun c => by rw [Veq33]; exact .rfl) (hpost12 := fun c => by rw [Veq34]; exact .rfl)
    (R13 := reg13 m) (hpre13 := fun c => by rw [Veq35]; exact .rfl) (hpost13 := fun c => by rw [Veq36]; exact .rfl)
    (R14 := reg14 m) (hpre14 := fun c => by rw [Veq37]; exact .rfl) (hpost14 := fun c => by rw [Veq38]; exact .rfl)
    (R15 := reg15 m) (hpre15 := fun c => by rw [Veq39]; exact .rfl) (hpost15 := fun c => by rw [Veq40]; exact .rfl)
    (R16 := reg16 m) (hpre16 := fun c => by rw [Veq41]; exact .rfl) (hpost16 := fun c => by rw [Veq42]; exact .rfl)
    (R17 := reg17 m) (hpre17 := fun c => by rw [Veq43]; exact .rfl) (hpost17 := fun c => by rw [Veq44]; exact .rfl)
    (R18 := reg18 m) (hpre18 := fun c => by rw [Veq45]; exact .rfl) (hpost18 := fun c => by rw [Veq46]; exact .rfl)
    (R19 := reg19 m) (hpre19 := fun c => by rw [Veq47]; exact .rfl) (hpost19 := fun c => by rw [Veq48]; exact .rfl)
    (R20 := reg20 m) (hpre20 := fun c => by rw [Veq49]; exact .rfl) (hpost20 := fun c => by rw [Veq50]; exact .rfl)
    (R21 := reg21 m) (hpre21 := fun c => by rw [Veq51]; exact .rfl) (hpost21 := fun c => by rw [Veq52]; exact .rfl)
    (R22 := reg22 m) (hpre22 := fun c => by rw [Veq53]; exact .rfl) (hpost22 := fun c => by rw [Veq54]; exact .rfl)
    (R23 := reg23 m) (hpre23 := fun c => by rw [Veq55]; exact .rfl) (hpost23 := fun c => by rw [Veq56]; exact .rfl)
    (R24 := reg24 m) (hpre24 := fun c => by rw [Veq57]; exact .rfl) (hpost24 := fun c => by rw [Veq58]; exact .rfl)
    (R25 := reg25 m) (hpre25 := fun c => by rw [Veq59]; exact .rfl) (hpost25 := fun c => by rw [Veq60]; exact .rfl)

end Cert.KernelIdeal.Hand

end
-- ==== Proof.KI.RunVal.lean ====
/-
  The run of the program with every buffer read at the end, at any float instance: what the value of the result needs
  beyond the frame. Its hypotheses, its launch and its chaining are the conditional frame's; its post says that each
  core's unscoped buffers all end at the last valuation of the sequence.
-/
import proofs.«149588_j66838281060723_2_alg».proof.Proof.KI.RegionsP

set_option maxRecDepth 4584

noncomputable section

namespace Cert.KernelIdeal.GenP

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option maxHeartbeats 0 in
set_option maxRecDepth 200000 in
set_option backward.isDefEq.respectTransparency.types false in
/-- THE CONDITIONAL RUN, with every buffer read. Under the same hypotheses as the conditional frame (one record per
    region, entered from the valuation before it and left at the one after it), every weakly fair execution of @main
    terminates and every final memory holds EVERY unscoped buffer of each core at the last valuation: the results as
    well as the arguments. The launch and the chaining are those of the conditional frame; only the last step differs,
    which reads all the buffers the last thread state holds instead of the arguments alone. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 26) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 27 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE26 : ∀ c : Dev nD, E 26 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V9 m c) ∗ E 0 c) ⊢ R0.pre c)
    (hpost0 : ∀ c : Dev nD, R0.post c ⊢ iprop(StableHlo.held (c : Thread nD τ) (Pipeline.ucRefs τ sig) (V10 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V11 m outs c) ∗ E 1 c) ⊢ R1.pre c)
    (hpost1 : ∀ c : Dev nD, R1.post c ⊢ iprop(StableHlo.held (c : Thread nD τ) (Pipeline.ucRefs τ sig) (V12 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V13 m outs c) ∗ E 2 c) ⊢ R2.pre c)
    (hpost2 : ∀ c : Dev nD, R2.post c ⊢ iprop(StableHlo.held (c : Thread nD τ) (Pipeline.ucRefs τ sig) (V14 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V15 m outs c) ∗ E 3 c) ⊢ R3.pre c)
    (hpost3 : ∀ c : Dev nD, R3.post c ⊢ iprop(StableHlo.held (c : Thread nD τ) (Pipeline.ucRefs τ sig) (V16 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V17 m outs c) ∗ E 4 c) ⊢ R4.pre c)
    (hpost4 : ∀ c : Dev nD, R4.post c ⊢ iprop(StableHlo.held (c : Thread nD τ) (Pipeline.ucRefs τ sig) (V18 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V19 m outs c) ∗ E 5 c) ⊢ R5.pre c)
    (hpost5 : ∀ c : Dev nD, R5.post c ⊢ iprop(StableHlo.held (c : Thread nD τ) (Pipeline.ucRefs τ sig) (V20 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V21 m outs c) ∗ E 6 c) ⊢ R6.pre c)
    (hpost6 : ∀ c : Dev nD, R6.post c ⊢ iprop(StableHlo.held (c : Thread nD τ) (Pipeline.ucRefs τ sig) (V22 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V23 m outs c) ∗ E 7 c) ⊢ R7.pre c)
    (hpost7 : ∀ c : Dev nD, R7.post c ⊢ iprop(StableHlo.held (c : Thread nD τ) (Pipeline.ucRefs τ sig) (V24 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V25 m outs c) ∗ E 8 c) ⊢ R8.pre c)
    (hpost8 : ∀ c : Dev nD, R8.post c ⊢ iprop(StableHlo.held (c : Thread nD τ) (Pipeline.ucRefs τ sig) (V26 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V27 m outs c) ∗ E 9 c) ⊢ R9.pre c)
    (hpost9 : ∀ c : Dev nD, R9.post c ⊢ iprop(StableHlo.held (c : Thread nD τ) (Pipeline.ucRefs τ sig) (V28 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V29 m outs c) ∗ E 10 c) ⊢ R10.pre c)
    (hpost10 : ∀ c : Dev nD, R10.post c ⊢ iprop(StableHlo.held (c : Thread nD τ) (Pipeline.ucRefs τ sig) (V30 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V31 m outs c) ∗ E 11 c) ⊢ R11.pre c)
    (hpost11 : ∀ c : Dev nD, R11.post c ⊢ iprop(StableHlo.held (c : Thread nD τ) (Pipeline.ucRefs τ sig) (V32 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V33 m outs c) ∗ E 12 c) ⊢ R12.pre c)
    (hpost12 : ∀ c : Dev nD, R12.post c ⊢ iprop(StableHlo.held (c : Thread nD τ) (Pipeline.ucRefs τ sig) (V34 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V35 m outs c) ∗ E 13 c) ⊢ R13.pre c)
    (hpost13 : ∀ c : Dev nD, R13.post c ⊢ iprop(StableHlo.held (c : Thread nD τ) (Pipeline.ucRefs τ sig) (V36 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V37 m outs c) ∗ E 14 c) ⊢ R14.pre c)
    (hpost14 : ∀ c : Dev nD, R14.post c ⊢ iprop(StableHlo.held (c : Thread nD τ) (Pipeline.ucRefs τ sig) (V38 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V39 m outs c) ∗ E 15 c) ⊢ R15.pre c)
    (hpost15 : ∀ c : Dev nD, R15.post c ⊢ iprop(StableHlo.held (c : Thread nD τ) (Pipeline.ucRefs τ sig) (V40 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V41 m outs c) ∗ E 16 c) ⊢ R16.pre c)
    (hpost16 : ∀ c : Dev nD, R16.post c ⊢ iprop(StableHlo.held (c : Thread nD τ) (Pipeline.ucRefs τ sig) (V42 m outs c) ∗ E 17 c))
    (R17 : RegionSeg (pcfgs (F := F)) adm pdats ι defs₀ 𝒱₀ L lv 17)
    (hpre17 : ∀ c : Dev nD, iprop(StableHlo.held (c : Thread nD τ) (Pipeline.ucRefs τ sig) (V43 m outs c) ∗ E 17 c) ⊢ R17.pre c)
    (hpost17 : ∀ c : Dev nD, R17.post c ⊢ iprop(StableHlo.held (c : Thread nD τ) (Pipeline.ucRefs τ sig) (V44 m outs c) ∗ E 18 c))
    (R18 : RegionSeg (pcfgs (F := F)) adm pdats ι defs₀ 𝒱₀ L lv 18)
    (hpre18 : ∀ c : Dev nD, iprop(StableHlo.held (c : Thread nD τ) (Pipeline.ucRefs τ sig) (V45 m outs c) ∗ E 18 c) ⊢ R18.pre c)
    (hpost18 : ∀ c : Dev nD, R18.post c ⊢ iprop(StableHlo.held (c : Thread nD τ) (Pipeline.ucRefs τ sig) (V46 m outs c) ∗ E 19 c))
    (R19 : RegionSeg (pcfgs (F := F)) adm pdats ι defs₀ 𝒱₀ L lv 19)
    (hpre19 : ∀ c : Dev nD, iprop(StableHlo.held (c : Thread nD τ) (Pipeline.ucRefs τ sig) (V47 m outs c) ∗ E 19 c) ⊢ R19.pre c)
    (hpost19 : ∀ c : Dev nD, R19.post c ⊢ iprop(StableHlo.held (c : Thread nD τ) (Pipeline.ucRefs τ sig) (V48 m outs c) ∗ E 20 c))
    (R20 : RegionSeg (pcfgs (F := F)) adm pdats ι defs₀ 𝒱₀ L lv 20)
    (hpre20 : ∀ c : Dev nD, iprop(StableHlo.held (c : Thread nD τ) (Pipeline.ucRefs τ sig) (V49 m outs c) ∗ E 20 c) ⊢ R20.pre c)
    (hpost20 : ∀ c : Dev nD, R20.post c ⊢ iprop(StableHlo.held (c : Thread nD τ) (Pipeline.ucRefs τ sig) (V50 m outs c) ∗ E 21 c))
    (R21 : RegionSeg (pcfgs (F := F)) adm pdats ι defs₀ 𝒱₀ L lv 21)
    (hpre21 : ∀ c : Dev nD, iprop(StableHlo.held (c : Thread nD τ) (Pipeline.ucRefs τ sig) (V51 m outs c) ∗ E 21 c) ⊢ R21.pre c)
    (hpost21 : ∀ c : Dev nD, R21.post c ⊢ iprop(StableHlo.held (c : Thread nD τ) (Pipeline.ucRefs τ sig) (V52 m outs c) ∗ E 22 c))
    (R22 : RegionSeg (pcfgs (F := F)) adm pdats ι defs₀ 𝒱₀ L lv 22)
    (hpre22 : ∀ c : Dev nD, iprop(StableHlo.held (c : Thread nD τ) (Pipeline.ucRefs τ sig) (V53 m outs c) ∗ E 22 c) ⊢ R22.pre c)
    (hpost22 : ∀ c : Dev nD, R22.post c ⊢ iprop(StableHlo.held (c : Thread nD τ) (Pipeline.ucRefs τ sig) (V54 m outs c) ∗ E 23 c))
    (R23 : RegionSeg (pcfgs (F := F)) adm pdats ι defs₀ 𝒱₀ L lv 23)
    (hpre23 : ∀ c : Dev nD, iprop(StableHlo.held (c : Thread nD τ) (Pipeline.ucRefs τ sig) (V55 m outs c) ∗ E 23 c) ⊢ R23.pre c)
    (hpost23 : ∀ c : Dev nD, R23.post c ⊢ iprop(StableHlo.held (c : Thread nD τ) (Pipeline.ucRefs τ sig) (V56 m outs c) ∗ E 24 c))
    (R24 : RegionSeg (pcfgs (F := F)) adm pdats ι defs₀ 𝒱₀ L lv 24)
    (hpre24 : ∀ c : Dev nD, iprop(StableHlo.held (c : Thread nD τ) (Pipeline.ucRefs τ sig) (V57 m outs c) ∗ E 24 c) ⊢ R24.pre c)
    (hpost24 : ∀ c : Dev nD, R24.post c ⊢ iprop(StableHlo.held (c : Thread nD τ) (Pipeline.ucRefs τ sig) (V58 m outs c) ∗ E 25 c))
    (R25 : RegionSeg (pcfgs (F := F)) adm pdats ι defs₀ 𝒱₀ L lv 25)
    (hpre25 : ∀ c : Dev nD, iprop(StableHlo.held (c : Thread nD τ) (Pipeline.ucRefs τ sig) (V59 m outs c) ∗ E 25 c) ⊢ R25.pre c)
    (hpost25 : ∀ c : Dev nD, R25.post c ⊢ iprop(StableHlo.held (c : Thread nD τ) (Pipeline.ucRefs τ sig) (V60 m outs c) ∗ E 26 c)) :
    θ_run defs (onTc (τ := τ) (main (F := F))) ⟨m, fun _ => 0, ρ⟩ (fun r => ∀ c : Dev nD,
      ∀ b ∈ Pipeline.ucRefs τ sig, r.2.mem ((c : Thread nD τ).1, b) = V60 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15 R16 R17 R18 R19 R20 R21 R22 R23 R24 R25)
    (fun c Q => by
      rewrite [main_chain c, Seg.run_eq_chain,
        show (segs m outs 𝒱₀ L lv E ι pdats R0 R1 R2 R3 R4 R5 R6 R7 R8 R9 R10 R11 R12 R13 R14 R15 R16 R17 R18 R19 R20 R21 R22 R23 R24 R25 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16,
          Prog.lift (.customCall (Pipeline.entry 16) ()),
          StableHlo.seq hostOps17,
          Prog.lift (.customCall (Pipeline.entry 17) ()),
          StableHlo.seq hostOps18,
          Prog.lift (.customCall (Pipeline.entry 18) ()),
          StableHlo.seq hostOps19,
          Prog.lift (.customCall (Pipeline.entry 19) ()),
          StableHlo.seq hostOps20,
          Prog.lift (.customCall (Pipeline.entry 20) ()),
          StableHlo.seq hostOps21,
          Prog.lift (.customCall (Pipeline.entry 21) ()),
          StableHlo.seq hostOps22,
          Prog.lift (.customCall (Pipeline.entry 22) ()),
          StableHlo.seq hostOps23,
          Prog.lift (.customCall (Pipeline.entry 23) ()),
          StableHlo.seq hostOps24,
          Prog.lift (.customCall (Pipeline.entry 24) ()),
          StableHlo.seq hostOps25,
          Prog.lift (.customCall (Pipeline.entry 25) ()) ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V60 m outs c))
    (hch := fun c => ⟨.rfl, .rfl, .rfl, .rfl, .rfl, .rfl, .rfl, .rfl, .rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, hpre12 c, hpost12 c, hpre13 c, hpost13 c, hpre14 c, hpost14 c, hpre15 c, hpost15 c, hpre16 c, hpost16 c, hpre17 c, hpost17 c, hpre18 c, hpost18 c, hpre19 c, hpost19 c, hpre20 c, hpost20 c, hpre21 c, hpost21 c, hpre22 c, hpost22 c, hpre23 c, hpost23 c, hpre24 c, hpost24 c, hpre25 c, (hpost25 c).trans (sep_mono .rfl (hE26 c))⟩)
    (hinit := ?_) (QY := fun c s => ∀ b ∈ Pipeline.ucRefs τ sig, s.mem ((c : Thread nD τ).1, b) = V60 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V60 m outs c) s') $$ [Hh HSI]
    · isplitl [Hh] <;> iassumption
    icases Hr with ⟨%h, HSI⟩
    imodintro
    isplitr
    · ipureintro
      exact h
    · iexact HSI

end Cert.KernelIdeal.GenP

end
-- ==== Proof.KI.RunAll.lean ====
/-
  The run of the whole program with every buffer read at the end, at any float instance: with one record per region the
  conditional run gives that every weakly fair execution of @main terminates and ends with every unscoped buffer of each
  core at the last valuation of the fold. The value of the result is read off that valuation.
-/
import proofs.«149588_j66838281060723_2_alg».proof.Proof.KI.RunVal
import proofs.«149588_j66838281060723_2_alg».proof.Proof.KI.Reg0
import proofs.«149588_j66838281060723_2_alg».proof.Proof.KI.Reg1
import proofs.«149588_j66838281060723_2_alg».proof.Proof.KI.Reg2
import proofs.«149588_j66838281060723_2_alg».proof.Proof.KI.Reg3
import proofs.«149588_j66838281060723_2_alg».proof.Proof.KI.Reg4
import proofs.«149588_j66838281060723_2_alg».proof.Proof.KI.Reg5
import proofs.«149588_j66838281060723_2_alg».proof.Proof.KI.Reg6
import proofs.«149588_j66838281060723_2_alg».proof.Proof.KI.Reg7
import proofs.«149588_j66838281060723_2_alg».proof.Proof.KI.Reg8
import proofs.«149588_j66838281060723_2_alg».proof.Proof.KI.Reg9
import proofs.«149588_j66838281060723_2_alg».proof.Proof.KI.Reg10
import proofs.«149588_j66838281060723_2_alg».proof.Proof.KI.Reg11
import proofs.«149588_j66838281060723_2_alg».proof.Proof.KI.Reg12
import proofs.«149588_j66838281060723_2_alg».proof.Proof.KI.Reg13
import proofs.«149588_j66838281060723_2_alg».proof.Proof.KI.Reg14
import proofs.«149588_j66838281060723_2_alg».proof.Proof.KI.Reg15
import proofs.«149588_j66838281060723_2_alg».proof.Proof.KI.Reg16
import proofs.«149588_j66838281060723_2_alg».proof.Proof.KI.Reg17
import proofs.«149588_j66838281060723_2_alg».proof.Proof.KI.Reg18
import proofs.«149588_j66838281060723_2_alg».proof.Proof.KI.Reg19
import proofs.«149588_j66838281060723_2_alg».proof.Proof.KI.Reg20
import proofs.«149588_j66838281060723_2_alg».proof.Proof.KI.Reg21
import proofs.«149588_j66838281060723_2_alg».proof.Proof.KI.Reg22
import proofs.«149588_j66838281060723_2_alg».proof.Proof.KI.Reg23
import proofs.«149588_j66838281060723_2_alg».proof.Proof.KI.Reg24
import proofs.«149588_j66838281060723_2_alg».proof.Proof.KI.Reg25

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
set_option maxRecDepth 200000 in
set_option backward.isDefEq.respectTransparency.types false in
/-- THE RUN of the program, every unscoped buffer read at the end. -/
theorem run_all : θ_run defs (onTc (τ := τ) (main (F := F))) ⟨m, fun _ => 0, ρ⟩ (fun r => ∀ c : Dev nD,
      ∀ b ∈ Pipeline.ucRefs τ sig, r.2.mem ((c : Thread nD τ).1, b) = T60 m c b) :=
  (θ_run defs _ _).mono (fun r h c b hb => (h c b hb).trans (congrFun (Veq60 m c) b)) <|
  GenP.run_cond (F := F) (Ix := Unit) (U := UR sig nD τ) (Lvl := ℕ) m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L lv fun c => ?_
      iintro ⟨⟨-, HO, -, Hp, -⟩, -⟩
      imodintro
      isplitl [Hp]; · iexists _; iexact Hp
      iexists ∅; iexact HO)
    (hE26 := fun c => by iintro ⟨-, HO⟩; iexact HO)
    (R0 := reg0 m) (hpre0 := fun c => by rw [Veq9]; exact .rfl) (hpost0 := fun c => by rw [Veq10]; exact .rfl)
    (R1 := reg1 m) (hpre1 := fun c => by rw [Veq11]; exact .rfl) (hpost1 := fun c => by rw [Veq12]; exact .rfl)
    (R2 := reg2 m) (hpre2 := fun c => by rw [Veq13]; exact .rfl) (hpost2 := fun c => by rw [Veq14]; exact .rfl)
    (R3 := reg3 m) (hpre3 := fun c => by rw [Veq15]; exact .rfl) (hpost3 := fun c => by rw [Veq16]; exact .rfl)
    (R4 := reg4 m) (hpre4 := fun c => by rw [Veq17]; exact .rfl) (hpost4 := fun c => by rw [Veq18]; exact .rfl)
    (R5 := reg5 m) (hpre5 := fun c => by rw [Veq19]; exact .rfl) (hpost5 := fun c => by rw [Veq20]; exact .rfl)
    (R6 := reg6 m) (hpre6 := fun c => by rw [Veq21]; exact .rfl) (hpost6 := fun c => by rw [Veq22]; exact .rfl)
    (R7 := reg7 m) (hpre7 := fun c => by rw [Veq23]; exact .rfl) (hpost7 := fun c => by rw [Veq24]; exact .rfl)
    (R8 := reg8 m) (hpre8 := fun c => by rw [Veq25]; exact .rfl) (hpost8 := fun c => by rw [Veq26]; exact .rfl)
    (R9 := reg9 m) (hpre9 := fun c => by rw [Veq27]; exact .rfl) (hpost9 := fun c => by rw [Veq28]; exact .rfl)
    (R10 := reg10 m) (hpre10 := fun c => by rw [Veq29]; exact .rfl) (hpost10 := fun c => by rw [Veq30]; exact .rfl)
    (R11 := reg11 m) (hpre11 := fun c => by rw [Veq31]; exact .rfl) (hpost11 := fun c => by rw [Veq32]; exact .rfl)
    (R12 := reg12 m) (hpre12 := fun c => by rw [Veq33]; exact .rfl) (hpost12 := fun c => by rw [Veq34]; exact .rfl)
    (R13 := reg13 m) (hpre13 := fun c => by rw [Veq35]; exact .rfl) (hpost13 := fun c => by rw [Veq36]; exact .rfl)
    (R14 := reg14 m) (hpre14 := fun c => by rw [Veq37]; exact .rfl) (hpost14 := fun c => by rw [Veq38]; exact .rfl)
    (R15 := reg15 m) (hpre15 := fun c => by rw [Veq39]; exact .rfl) (hpost15 := fun c => by rw [Veq40]; exact .rfl)
    (R16 := reg16 m) (hpre16 := fun c => by rw [Veq41]; exact .rfl) (hpost16 := fun c => by rw [Veq42]; exact .rfl)
    (R17 := reg17 m) (hpre17 := fun c => by rw [Veq43]; exact .rfl) (hpost17 := fun c => by rw [Veq44]; exact .rfl)
    (R18 := reg18 m) (hpre18 := fun c => by rw [Veq45]; exact .rfl) (hpost18 := fun c => by rw [Veq46]; exact .rfl)
    (R19 := reg19 m) (hpre19 := fun c => by rw [Veq47]; exact .rfl) (hpost19 := fun c => by rw [Veq48]; exact .rfl)
    (R20 := reg20 m) (hpre20 := fun c => by rw [Veq49]; exact .rfl) (hpost20 := fun c => by rw [Veq50]; exact .rfl)
    (R21 := reg21 m) (hpre21 := fun c => by rw [Veq51]; exact .rfl) (hpost21 := fun c => by rw [Veq52]; exact .rfl)
    (R22 := reg22 m) (hpre22 := fun c => by rw [Veq53]; exact .rfl) (hpost22 := fun c => by rw [Veq54]; exact .rfl)
    (R23 := reg23 m) (hpre23 := fun c => by rw [Veq55]; exact .rfl) (hpost23 := fun c => by rw [Veq56]; exact .rfl)
    (R24 := reg24 m) (hpre24 := fun c => by rw [Veq57]; exact .rfl) (hpost24 := fun c => by rw [Veq58]; exact .rfl)
    (R25 := reg25 m) (hpre25 := fun c => by rw [Veq59]; exact .rfl) (hpost25 := fun c => by rw [Veq60]; exact .rfl)

end Cert.KernelIdeal.Hand

end
-- ==== Proof.KI.Keep.lean ====
/-
  A buffer an item of @main does not write holds after the item what it held before it: one statement per item, on the
  fold of valuations. A host stretch writes the results of its operations; a region writes its output array only.
-/
import proofs.«149588_j66838281060723_2_alg».proof.Proof.KI.Fold

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ)

theorem step10 (c : Dev nD) (r : Ref sig .tc) (h : r ∉ ([main_v17] : List (Ref sig .tc))) : T10 m c r = T9 m c r := by
  rw [← Veq10, ← Veq9]; exact GenP.V10_of m (outs m) c r h
theorem step11 (c : Dev nD) (r : Ref sig .tc) (h : r ∉ GenP.hostOps1_W) : T11 m c r = T10 m c r := by
  rw [← Veq11, ← Veq10]; exact GenP.V11_of m (outs m) c r h
theorem step12 (c : Dev nD) (r : Ref sig .tc) (h : r ∉ ([main_v19] : List (Ref sig .tc))) : T12 m c r = T11 m c r := by
  rw [← Veq12, ← Veq11]; exact GenP.V12_of m (outs m) c r h
theorem step13 (c : Dev nD) (r : Ref sig .tc) (h : r ∉ GenP.hostOps2_W) : T13 m c r = T12 m c r := by
  rw [← Veq13, ← Veq12]; exact GenP.V13_of m (outs m) c r h
theorem step14 (c : Dev nD) (r : Ref sig .tc) (h : r ∉ ([main_v50] : List (Ref sig .tc))) : T14 m c r = T13 m c r := by
  rw [← Veq14, ← Veq13]; exact GenP.V14_of m (outs m) c r h
theorem step15 (c : Dev nD) (r : Ref sig .tc) (h : r ∉ GenP.hostOps3_W) : T15 m c r = T14 m c r := by
  rw [← Veq15, ← Veq14]; exact GenP.V15_of m (outs m) c r h
theorem step16 (c : Dev nD) (r : Ref sig .tc) (h : r ∉ ([main_v84] : List (Ref sig .tc))) : T16 m c r = T15 m c r := by
  rw [← Veq16, ← Veq15]; exact GenP.V16_of m (outs m) c r h
theorem step17 (c : Dev nD) (r : Ref sig .tc) (h : r ∉ GenP.hostOps4_W) : T17 m c r = T16 m c r := by
  rw [← Veq17, ← Veq16]; exact GenP.V17_of m (outs m) c r h
theorem step18 (c : Dev nD) (r : Ref sig .tc) (h : r ∉ ([main_v118] : List (Ref sig .tc))) : T18 m c r = T17 m c r := by
  rw [← Veq18, ← Veq17]; exact GenP.V18_of m (outs m) c r h
theorem step19 (c : Dev nD) (r : Ref sig .tc) (h : r ∉ GenP.hostOps5_W) : T19 m c r = T18 m c r := by
  rw [← Veq19, ← Veq18]; exact GenP.V19_of m (outs m) c r h
theorem step20 (c : Dev nD) (r : Ref sig .tc) (h : r ∉ ([main_v152] : List (Ref sig .tc))) : T20 m c r = T19 m c r := by
  rw [← Veq20, ← Veq19]; exact GenP.V20_of m (outs m) c r h
theorem step21 (c : Dev nD) (r : Ref sig .tc) (h : r ∉ GenP.hostOps6_W) : T21 m c r = T20 m c r := by
  rw [← Veq21, ← Veq20]; exact GenP.V21_of m (outs m) c r h
theorem step22 (c : Dev nD) (r : Ref sig .tc) (h : r ∉ ([main_v163] : List (Ref sig .tc))) : T22 m c r = T21 m c r := by
  rw [← Veq22, ← Veq21]; exact GenP.V22_of m (outs m) c r h
theorem step23 (c : Dev nD) (r : Ref sig .tc) (h : r ∉ GenP.hostOps7_W) : T23 m c r = T22 m c r := by
  rw [← Veq23, ← Veq22]; exact GenP.V23_of m (outs m) c r h
theorem step24 (c : Dev nD) (r : Ref sig .tc) (h : r ∉ ([main_v169] : List (Ref sig .tc))) : T24 m c r = T23 m c r := by
  rw [← Veq24, ← Veq23]; exact GenP.V24_of m (outs m) c r h
theorem step25 (c : Dev nD) (r : Ref sig .tc) (h : r ∉ GenP.hostOps8_W) : T25 m c r = T24 m c r := by
  rw [← Veq25, ← Veq24]; exact GenP.V25_of m (outs m) c r h
theorem step26 (c : Dev nD) (r : Ref sig .tc) (h : r ∉ ([main_v200] : List (Ref sig .tc))) : T26 m c r = T25 m c r := by
  rw [← Veq26, ← Veq25]; exact GenP.V26_of m (outs m) c r h
theorem step27 (c : Dev nD) (r : Ref sig .tc) (h : r ∉ GenP.hostOps9_W) : T27 m c r = T26 m c r := by
  rw [← Veq27, ← Veq26]; exact GenP.V27_of m (outs m) c r h
theorem step28 (c : Dev nD) (r : Ref sig .tc) (h : r ∉ ([main_v234] : List (Ref sig .tc))) : T28 m c r = T27 m c r := by
  rw [← Veq28, ← Veq27]; exact GenP.V28_of m (outs m) c r h
theorem step29 (c : Dev nD) (r : Ref sig .tc) (h : r ∉ GenP.hostOps10_W) : T29 m c r = T28 m c r := by
  rw [← Veq29, ← Veq28]; exact GenP.V29_of m (outs m) c r h
theorem step30 (c : Dev nD) (r : Ref sig .tc) (h : r ∉ ([main_v268] : List (Ref sig .tc))) : T30 m c r = T29 m c r := by
  rw [← Veq30, ← Veq29]; exact GenP.V30_of m (outs m) c r h
theorem step31 (c : Dev nD) (r : Ref sig .tc) (h : r ∉ GenP.hostOps11_W) : T31 m c r = T30 m c r := by
  rw [← Veq31, ← Veq30]; exact GenP.V31_of m (outs m) c r h
theorem step32 (c : Dev nD) (r : Ref sig .tc) (h : r ∉ ([main_v302] : List (Ref sig .tc))) : T32 m c r = T31 m c r := by
  rw [← Veq32, ← Veq31]; exact GenP.V32_of m (outs m) c r h
theorem step33 (c : Dev nD) (r : Ref sig .tc) (h : r ∉ GenP.hostOps12_W) : T33 m c r = T32 m c r := by
  rw [← Veq33, ← Veq32]; exact GenP.V33_of m (outs m) c r h
theorem step34 (c : Dev nD) (r : Ref sig .tc) (h : r ∉ ([main_v313] : List (Ref sig .tc))) : T34 m c r = T33 m c r := by
  rw [← Veq34, ← Veq33]; exact GenP.V34_of m (outs m) c r h
theorem step35 (c : Dev nD) (r : Ref sig .tc) (h : r ∉ GenP.hostOps13_W) : T35 m c r = T34 m c r := by
  rw [← Veq35, ← Veq34]; exact GenP.V35_of m (outs m) c r h
theorem step36 (c : Dev nD) (r : Ref sig .tc) (h : r ∉ ([main_v319] : List (Ref sig .tc))) : T36 m c r = T35 m c r := by
  rw [← Veq36, ← Veq35]; exact GenP.V36_of m (outs m) c r h
theorem step37 (c : Dev nD) (r : Ref sig .tc) (h : r ∉ GenP.hostOps14_W) : T37 m c r = T36 m c r := by
  rw [← Veq37, ← Veq36]; exact GenP.V37_of m (outs m) c r h
theorem step38 (c : Dev nD) (r : Ref sig .tc) (h : r ∉ ([main_v350] : List (Ref sig .tc))) : T38 m c r = T37 m c r := by
  rw [← Veq38, ← Veq37]; exact GenP.V38_of m (outs m) c r h
theorem step39 (c : Dev nD) (r : Ref sig .tc) (h : r ∉ GenP.hostOps15_W) : T39 m c r = T38 m c r := by
  rw [← Veq39, ← Veq38]; exact GenP.V39_of m (outs m) c r h
theorem step40 (c : Dev nD) (r : Ref sig .tc) (h : r ∉ ([main_v384] : List (Ref sig .tc))) : T40 m c r = T39 m c r := by
  rw [← Veq40, ← Veq39]; exact GenP.V40_of m (outs m) c r h
theorem step41 (c : Dev nD) (r : Ref sig .tc) (h : r ∉ GenP.hostOps16_W) : T41 m c r = T40 m c r := by
  rw [← Veq41, ← Veq40]; exact GenP.V41_of m (outs m) c r h
theorem step42 (c : Dev nD) (r : Ref sig .tc) (h : r ∉ ([main_v418] : List (Ref sig .tc))) : T42 m c r = T41 m c r := by
  rw [← Veq42, ← Veq41]; exact GenP.V42_of m (outs m) c r h
theorem step43 (c : Dev nD) (r : Ref sig .tc) (h : r ∉ GenP.hostOps17_W) : T43 m c r = T42 m c r := by
  rw [← Veq43, ← Veq42]; exact GenP.V43_of m (outs m) c r h
theorem step44 (c : Dev nD) (r : Ref sig .tc) (h : r ∉ ([main_v452] : List (Ref sig .tc))) : T44 m c r = T43 m c r := by
  rw [← Veq44, ← Veq43]; exact GenP.V44_of m (outs m) c r h
theorem step45 (c : Dev nD) (r : Ref sig .tc) (h : r ∉ GenP.hostOps18_W) : T45 m c r = T44 m c r := by
  rw [← Veq45, ← Veq44]; exact GenP.V45_of m (outs m) c r h
theorem step46 (c : Dev nD) (r : Ref sig .tc) (h : r ∉ ([main_v463] : List (Ref sig .tc))) : T46 m c r = T45 m c r := by
  rw [← Veq46, ← Veq45]; exact GenP.V46_of m (outs m) c r h
theorem step47 (c : Dev nD) (r : Ref sig .tc) (h : r ∉ GenP.hostOps19_W) : T47 m c r = T46 m c r := by
  rw [← Veq47, ← Veq46]; exact GenP.V47_of m (outs m) c r h
theorem step48 (c : Dev nD) (r : Ref sig .tc) (h : r ∉ ([main_v469] : List (Ref sig .tc))) : T48 m c r = T47 m c r := by
  rw [← Veq48, ← Veq47]; exact GenP.V48_of m (outs m) c r h
theorem step49 (c : Dev nD) (r : Ref sig .tc) (h : r ∉ GenP.hostOps20_W) : T49 m c r = T48 m c r := by
  rw [← Veq49, ← Veq48]; exact GenP.V49_of m (outs m) c r h
theorem step50 (c : Dev nD) (r : Ref sig .tc) (h : r ∉ ([main_v500] : List (Ref sig .tc))) : T50 m c r = T49 m c r := by
  rw [← Veq50, ← Veq49]; exact GenP.V50_of m (outs m) c r h
theorem step51 (c : Dev nD) (r : Ref sig .tc) (h : r ∉ GenP.hostOps21_W) : T51 m c r = T50 m c r := by
  rw [← Veq51, ← Veq50]; exact GenP.V51_of m (outs m) c r h
theorem step52 (c : Dev nD) (r : Ref sig .tc) (h : r ∉ ([main_v534] : List (Ref sig .tc))) : T52 m c r = T51 m c r := by
  rw [← Veq52, ← Veq51]; exact GenP.V52_of m (outs m) c r h
theorem step53 (c : Dev nD) (r : Ref sig .tc) (h : r ∉ GenP.hostOps22_W) : T53 m c r = T52 m c r := by
  rw [← Veq53, ← Veq52]; exact GenP.V53_of m (outs m) c r h
theorem step54 (c : Dev nD) (r : Ref sig .tc) (h : r ∉ ([main_v568] : List (Ref sig .tc))) : T54 m c r = T53 m c r := by
  rw [← Veq54, ← Veq53]; exact GenP.V54_of m (outs m) c r h
theorem step55 (c : Dev nD) (r : Ref sig .tc) (h : r ∉ GenP.hostOps23_W) : T55 m c r = T54 m c r := by
  rw [← Veq55, ← Veq54]; exact GenP.V55_of m (outs m) c r h
theorem step56 (c : Dev nD) (r : Ref sig .tc) (h : r ∉ ([main_v602] : List (Ref sig .tc))) : T56 m c r = T55 m c r := by
  rw [← Veq56, ← Veq55]; exact GenP.V56_of m (outs m) c r h
theorem step57 (c : Dev nD) (r : Ref sig .tc) (h : r ∉ GenP.hostOps24_W) : T57 m c r = T56 m c r := by
  rw [← Veq57, ← Veq56]; exact GenP.V57_of m (outs m) c r h
theorem step58 (c : Dev nD) (r : Ref sig .tc) (h : r ∉ ([main_v613] : List (Ref sig .tc))) : T58 m c r = T57 m c r := by
  rw [← Veq58, ← Veq57]; exact GenP.V58_of m (outs m) c r h
theorem step59 (c : Dev nD) (r : Ref sig .tc) (h : r ∉ GenP.hostOps25_W) : T59 m c r = T58 m c r := by
  rw [← Veq59, ← Veq58]; exact GenP.V59_of m (outs m) c r h
theorem step60 (c : Dev nD) (r : Ref sig .tc) (h : r ∉ ([main_v619] : List (Ref sig .tc))) : T60 m c r = T59 m c r := by
  rw [← Veq60, ← Veq59]; exact GenP.V60_of m (outs m) c r h

end Cert.KernelIdeal.Hand

end
-- ==== Proof.KI.AffG.lean ====
/-
  The affine layers' values, index by index, in the order of operations the two affine kernels compute them in.

  An affine kernel with one input column computes, at row r and output column j,
      (0 + x[r,0] * w[0,j]) + b[0,j];
  with six input columns,
      ((((((0 + x[r,0] * w[0,j]) + x[r,1] * w[1,j]) + x[r,2] * w[2,j]) + x[r,3] * w[3,j]) + x[r,4] * w[4,j]) + x[r,5] * w[5,j]) + b[0,j],
  0 the single-precision word of zeros. The functions are stated for any number n of rows (the regions run them
  at two different row counts) and any float instance.
-/
import Idealize.ShloMosaic.Lib.ValueIdx

noncomputable section

namespace Cert.KernelIdeal.Hand

open Idealize.ShloMosaic Idealize.ShloMosaic.ValueIdx

variable {F : FTy → Type} [FloatOps F]

/-- The affine layer at one input column: (0 + x[r,0] * w[0,j]) + b[0,j] at index (r, j). -/
abbrev aff1G {n : Nat} (x : (⟨2, ![n, 1]⟩ : Shape).Idx → Elt F .f32) (w : (⟨2, ![1, 2]⟩ : Shape).Idx → Elt F .f32)
    (b : (⟨2, ![1, 2]⟩ : Shape).Idx → Elt F .f32) : (⟨2, ![n, 2]⟩ : Shape).Idx → Elt F .f32 := fun i =>
  FloatOps.addf (FloatOps.addf (Scalar.ofBits (F := F) .f32 0x00000000#32)
    (FloatOps.mulf (x (ix2 (n0 := n) (n1 := 1) (i 0) 0)) (w (ix2 (n0 := 1) (n1 := 2) 0 (i 1)))))
    (b (ix2 (n0 := 1) (n1 := 2) 0 (i 1)))

/-- The affine layer at six input columns: the six products added to 0 in the order of the columns, then the bias. -/
abbrev aff6G {n : Nat} (x : (⟨2, ![n, 6]⟩ : Shape).Idx → Elt F .f32) (w : (⟨2, ![6, 2]⟩ : Shape).Idx → Elt F .f32)
    (b : (⟨2, ![1, 2]⟩ : Shape).Idx → Elt F .f32) : (⟨2, ![n, 2]⟩ : Shape).Idx → Elt F .f32 := fun i =>
  FloatOps.addf (FloatOps.addf (FloatOps.addf (FloatOps.addf (FloatOps.addf (FloatOps.addf (FloatOps.addf
    (Scalar.ofBits (F := F) .f32 0x00000000#32)
    (FloatOps.mulf (x (ix2 (n0 := n) (n1 := 6) (i 0) 0)) (w (ix2 (n0 := 6) (n1 := 2) 0 (i 1)))))
    (FloatOps.mulf (x (ix2 (n0 := n) (n1 := 6) (i 0) 1)) (w (ix2 (n0 := 6) (n1 := 2) 1 (i 1)))))
    (FloatOps.mulf (x (ix2 (n0 := n) (n1 := 6) (i 0) 2)) (w (ix2 (n0 := 6) (n1 := 2) 2 (i 1)))))
    (FloatOps.mulf (x (ix2 (n0 := n) (n1 := 6) (i 0) 3)) (w (ix2 (n0 := 6) (n1 := 2) 3 (i 1)))))
    (FloatOps.mulf (x (ix2 (n0 := n) (n1 := 6) (i 0) 4)) (w (ix2 (n0 := 6) (n1 := 2) 4 (i 1)))))
    (FloatOps.mulf (x (ix2 (n0 := n) (n1 := 6) (i 0) 5)) (w (ix2 (n0 := 6) (n1 := 2) 5 (i 1)))))
    (b (ix2 (n0 := 1) (n1 := 2) 0 (i 1)))

end Cert.KernelIdeal.Hand

end
-- ==== Proof.KI.Val0.lean ====
/-
  The affine region at one input column (pallas_call 0): the value of its output array after the region, as one
  function of the three arrays it reads, index by index.

  Point t writes back the rows [10000 t, 10000 t + 10000) of the output; at row r of the block and column j the body
  stored (0 + x[r,0] * w[0,j]) + b[0,j] of its staging buffers, which hold the rows [10000 t, 10000 t + 10000) of the
  input column and the whole weight and bias rows. So what point t writes back is block t of the affine function of
  the three arrays; the 200 blocks tile the output array (row r is in block r / 10000), so the array ends holding
  that function everywhere.
-/
import proofs.«149588_j66838281060723_2_alg».proof.Proof.KI.Body0
import proofs.«149588_j66838281060723_2_alg».proof.Proof.KI.AffG
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

-- the TensorCore's buffer contents when the region is entered
variable (V : (c : Dev nD) → (b : Ref sig .tc) → Buf (Elt F) ((c : Thread nD τ).loc b))

theorem hz0 : (![0, 0] : Fin 2 → Nat) = fun _ => 0 := funext fun a => by fin_cases a <;> rfl

/-- The body's payload at an index: the kernel's order of operations on the elements the broadcasts read. -/
theorem pay0_apply (x0 : Vec F S10000x1 .f32) (x1 x2 : Vec F S1x2 .f32) (j : S10000x2.Idx) :
    k0_pay1 x0 x1 x2 j = FloatOps.addf (FloatOps.addf (Scalar.ofBits (F := F) .f32 0x00000000#32)
      (FloatOps.mulf (x0 (ix2 (n0 := 10000) (n1 := 1) (j 0) 0)) (x1 (ix2 (n0 := 1) (n1 := 2) 0 (j 1)))))
      (x2 (ix2 (n0 := 1) (n1 := 2) 0 (j 1))) := by
  unfold k0_pay1
  show FloatOps.addf (FloatOps.addf _ (FloatOps.mulf (broadcastTo S10000x2 x0 broadcasts_S10000x1_S10000x2 j)
      (broadcastTo S10000x2 x1 broadcasts_S1x2_S10000x2 j)))
      (broadcastTo S10000x2 (shapeCast S1x2 x2 shapeCasts_S1x2_S1x2) broadcasts_S1x2_S10000x2 j) = _
  rw [shapeCast_self,
    broadcastTo_apply x0 _ j (ix2 (n0 := 10000) (n1 := 1) (j 0) 0) (fun a => by match a with | ⟨0, _⟩ => rfl | ⟨1, _⟩ => rfl),
    broadcastTo_apply x1 _ j (ix2 (n0 := 1) (n1 := 2) 0 (j 1)) (fun a => by match a with | ⟨0, _⟩ => rfl | ⟨1, _⟩ => rfl),
    broadcastTo_apply x2 _ j (ix2 (n0 := 1) (n1 := 2) 0 (j 1)) (fun a => by match a with | ⟨0, _⟩ => rfl | ⟨1, _⟩ => rfl)]
  rfl

/-- The index maps, decided over the grid: the input column's and the output's row block is the point's number, and
    every other block index is zero. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the affine function of the three arrays as the region finds them. -/
theorem flushed0_eq (c : Dev nD) (t : Fin cfg0.N) :
    (dat0 V c).flushed 3 t = ((cfg0.win 3).blk t).view.read (Elt F)
      (aff1G (n := 2000000) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz0]
  simp only [View.ld_unit_zero (S := S10000x1) hz0, View.ld_unit_zero (S := S1x2) hz0]
  obtain ⟨e0, e1, e2, e3, e4, e5, e6, e7⟩ := idx_facts0 t
  funext j
  show k0_pay1 (iblk0 V c 0 t) (iblk0 V c 1 t) (iblk0 V c 2 t) j
    = aff1G (n := 2000000) (V c (Pipeline.arrRef spec0 0)) (V c (Pipeline.arrRef spec0 1)) (V c (Pipeline.arrRef spec0 2)) (((cfg0.win 3).blk t).view.emb j)
  rw [pay0_apply]
  have h0 : ((cfg0.win 0).blk t).view.emb (ix2 (n0 := 10000) (n1 := 1) (j 0) 0)
      = ix2 (n0 := 2000000) (n1 := 1) ((((cfg0.win 3).blk t).view.emb j) 0) 0 := by
    funext a; apply Fin.ext
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 1 + 1 * 0 = 0; omega
  have h1 : ((cfg0.win 1).blk t).view.emb (ix2 (n0 := 1) (n1 := 2) 0 (j 1))
      = ix2 (n0 := 1) (n1 := 2) 0 ((((cfg0.win 3).blk t).view.emb j) 1) := by
    funext a; apply Fin.ext
    match a with
    | ⟨0, _⟩ => show win0_1.index t (0 : Fin 2) * 1 + 1 * 0 = 0; omega
    | ⟨1, _⟩ => show win0_1.index t (1 : Fin 2) * 2 + 1 * (j 1).val = win0_3.index t (1 : Fin 2) * 2 + 1 * (j 1).val; omega
  have h2 : ((cfg0.win 2).blk t).view.emb (ix2 (n0 := 1) (n1 := 2) 0 (j 1))
      = ix2 (n0 := 1) (n1 := 2) 0 ((((cfg0.win 3).blk t).view.emb j) 1) := by
    funext a; apply Fin.ext
    match a with
    | ⟨0, _⟩ => show win0_2.index t (0 : Fin 2) * 1 + 1 * 0 = 0; omega
    | ⟨1, _⟩ => show win0_2.index t (1 : Fin 2) * 2 + 1 * (j 1).val = win0_3.index t (1 : Fin 2) * 2 + 1 * (j 1).val; omega
  show FloatOps.addf (FloatOps.addf _ (FloatOps.mulf
        (V c (Pipeline.arrRef spec0 0) (((cfg0.win 0).blk t).view.emb (ix2 (n0 := 10000) (n1 := 1) (j 0) 0)))
        (V c (Pipeline.arrRef spec0 1) (((cfg0.win 1).blk t).view.emb (ix2 (n0 := 1) (n1 := 2) 0 (j 1))))))
      (V c (Pipeline.arrRef spec0 2) (((cfg0.win 2).blk t).view.emb (ix2 (n0 := 1) (n1 := 2) 0 (j 1)))) = _
  rw [h0, h1, h2]

/-- An index of the output array is in point t's block iff each coordinate is in the block's range on its axis. -/
theorem mem_blk0 (t : Fin cfg0.N) (i : S2000000x2.Idx) :
    i ∈ ((cfg0.win 3).blk t).view.set ↔ ∀ a : Fin 2, win0_3.index t a * S10000x2.size a ≤ (i a).val ∧ (i a).val < win0_3.index t a * S10000x2.size a + S10000x2.size a := by
  show i ∈ ((View.whole (Pipeline.arrRef spec0 3)).slice (win0_3.rect t)).set ↔ _
  rw [View.set_slice_whole, Rect.mem_set_unit]
  exact Iff.rfl

/-- Every index of the output array is in some point's block: row r is in block r / 10000. -/
theorem cover0 (i : S2000000x2.Idx) :
    ∃ t : Fin cfg0.N, (cfg0.win 3).flush t = true ∧ i ∈ ((cfg0.win 3).blk t).view.set := by
  have hi0 : (i 0).val < 2000000 := (i 0).isLt
  have hi1 : (i 1).val < 2 := (i 1).isLt
  have hN : (i 0).val / 10000 < cfg0.N := by
    have hg := N_0
    show (i 0).val / 10000 < grid0.N
    omega
  obtain ⟨t, ht⟩ : ∃ t : Fin cfg0.N, t.val = (i 0).val / 10000 := ⟨⟨_, hN⟩, rfl⟩
  obtain ⟨e0, e1, e2, e3, e4, e5, e6, e7⟩ := idx_facts0 t
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 2 ≤ (i 1).val ∧ (i 1).val < win0_3.index t (1 : Fin 2) * 2 + 2; omega

/-- The output array after the region: the affine function of the three arrays the region reads. -/
theorem final0 (c : Dev nD) : (dat0 V c).arrAt 3 cfg0.N
    = aff1G (n := 2000000) (V c (Pipeline.arrRef spec0 0)) (V c (Pipeline.arrRef spec0 1)) (V c (Pipeline.arrRef spec0 2)) :=
  (dat0 V c).arrAt_eq_of_cover 3 _ (fun t _ => flushed0_eq V c t) cover0

end Cert.KernelIdeal.Hand

end
-- ==== Proof.KI.Val1.lean ====
/-
  The affine region at one input column (pallas_call 1): the value of its output array after the region, as one
  function of the three arrays it reads, index by index.

  Point t writes back the rows [10000 t, 10000 t + 10000) of the output; at row r of the block and column j the body
  stored (0 + x[r,0] * w[0,j]) + b[0,j] of its staging buffers, which hold the rows [10000 t, 10000 t + 10000) of the
  input column and the whole weight and bias rows. So what point t writes back is block t of the affine function of
  the three arrays; the 50 blocks tile the output array (row r is in block r / 10000), so the array ends holding
  that function everywhere.
-/
import proofs.«149588_j66838281060723_2_alg».proof.Proof.KI.Body1
import proofs.«149588_j66838281060723_2_alg».proof.Proof.KI.AffG
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

-- the TensorCore's buffer contents when the region is entered
variable (V : (c : Dev nD) → (b : Ref sig .tc) → Buf (Elt F) ((c : Thread nD τ).loc b))

theorem hz1 : (![0, 0] : Fin 2 → Nat) = fun _ => 0 := funext fun a => by fin_cases a <;> rfl

/-- The body's payload at an index: the kernel's order of operations on the elements the broadcasts read. -/
theorem pay1_apply (x0 : Vec F S10000x1 .f32) (x1 x2 : Vec F S1x2 .f32) (j : S10000x2.Idx) :
    k1_pay1 x0 x1 x2 j = FloatOps.addf (FloatOps.addf (Scalar.ofBits (F := F) .f32 0x00000000#32)
      (FloatOps.mulf (x0 (ix2 (n0 := 10000) (n1 := 1) (j 0) 0)) (x1 (ix2 (n0 := 1) (n1 := 2) 0 (j 1)))))
      (x2 (ix2 (n0 := 1) (n1 := 2) 0 (j 1))) := by
  unfold k1_pay1
  show FloatOps.addf (FloatOps.addf _ (FloatOps.mulf (broadcastTo S10000x2 x0 broadcasts_S10000x1_S10000x2 j)
      (broadcastTo S10000x2 x1 broadcasts_S1x2_S10000x2 j)))
      (broadcastTo S10000x2 (shapeCast S1x2 x2 shapeCasts_S1x2_S1x2) broadcasts_S1x2_S10000x2 j) = _
  rw [shapeCast_self,
    broadcastTo_apply x0 _ j (ix2 (n0 := 10000) (n1 := 1) (j 0) 0) (fun a => by match a with | ⟨0, _⟩ => rfl | ⟨1, _⟩ => rfl),
    broadcastTo_apply x1 _ j (ix2 (n0 := 1) (n1 := 2) 0 (j 1)) (fun a => by match a with | ⟨0, _⟩ => rfl | ⟨1, _⟩ => rfl),
    broadcastTo_apply x2 _ j (ix2 (n0 := 1) (n1 := 2) 0 (j 1)) (fun a => by match a with | ⟨0, _⟩ => rfl | ⟨1, _⟩ => rfl)]
  rfl

/-- The index maps, decided over the grid: the input column's and the output's row block is the point's number, and
    every other block index is zero. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the affine function of the three arrays as the region finds them. -/
theorem flushed1_eq (c : Dev nD) (t : Fin cfg1.N) :
    (dat1 V c).flushed 3 t = ((cfg1.win 3).blk t).view.read (Elt F)
      (aff1G (n := 500000) (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz1]
  simp only [View.ld_unit_zero (S := S10000x1) hz1, View.ld_unit_zero (S := S1x2) hz1]
  obtain ⟨e0, e1, e2, e3, e4, e5, e6, e7⟩ := idx_facts1 t
  funext j
  show k1_pay1 (iblk1 V c 0 t) (iblk1 V c 1 t) (iblk1 V c 2 t) j
    = aff1G (n := 500000) (V c (Pipeline.arrRef spec1 0)) (V c (Pipeline.arrRef spec1 1)) (V c (Pipeline.arrRef spec1 2)) (((cfg1.win 3).blk t).view.emb j)
  rw [pay1_apply]
  have h0 : ((cfg1.win 0).blk t).view.emb (ix2 (n0 := 10000) (n1 := 1) (j 0) 0)
      = ix2 (n0 := 500000) (n1 := 1) ((((cfg1.win 3).blk t).view.emb j) 0) 0 := by
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 1 + 1 * 0 = 0; omega
  have h1 : ((cfg1.win 1).blk t).view.emb (ix2 (n0 := 1) (n1 := 2) 0 (j 1))
      = ix2 (n0 := 1) (n1 := 2) 0 ((((cfg1.win 3).blk t).view.emb j) 1) := by
    funext a; apply Fin.ext
    match a with
    | ⟨0, _⟩ => show win1_1.index t (0 : Fin 2) * 1 + 1 * 0 = 0; omega
    | ⟨1, _⟩ => show win1_1.index t (1 : Fin 2) * 2 + 1 * (j 1).val = win1_3.index t (1 : Fin 2) * 2 + 1 * (j 1).val; omega
  have h2 : ((cfg1.win 2).blk t).view.emb (ix2 (n0 := 1) (n1 := 2) 0 (j 1))
      = ix2 (n0 := 1) (n1 := 2) 0 ((((cfg1.win 3).blk t).view.emb j) 1) := by
    funext a; apply Fin.ext
    match a with
    | ⟨0, _⟩ => show win1_2.index t (0 : Fin 2) * 1 + 1 * 0 = 0; omega
    | ⟨1, _⟩ => show win1_2.index t (1 : Fin 2) * 2 + 1 * (j 1).val = win1_3.index t (1 : Fin 2) * 2 + 1 * (j 1).val; omega
  show FloatOps.addf (FloatOps.addf _ (FloatOps.mulf
        (V c (Pipeline.arrRef spec1 0) (((cfg1.win 0).blk t).view.emb (ix2 (n0 := 10000) (n1 := 1) (j 0) 0)))
        (V c (Pipeline.arrRef spec1 1) (((cfg1.win 1).blk t).view.emb (ix2 (n0 := 1) (n1 := 2) 0 (j 1))))))
      (V c (Pipeline.arrRef spec1 2) (((cfg1.win 2).blk t).view.emb (ix2 (n0 := 1) (n1 := 2) 0 (j 1)))) = _
  rw [h0, h1, h2]

/-- An index of the output array is in point t's block iff each coordinate is in the block's range on its axis. -/
theorem mem_blk1 (t : Fin cfg1.N) (i : S500000x2.Idx) :
    i ∈ ((cfg1.win 3).blk t).view.set ↔ ∀ a : Fin 2, win1_3.index t a * S10000x2.size a ≤ (i a).val ∧ (i a).val < win1_3.index t a * S10000x2.size a + S10000x2.size a := by
  show i ∈ ((View.whole (Pipeline.arrRef spec1 3)).slice (win1_3.rect t)).set ↔ _
  rw [View.set_slice_whole, Rect.mem_set_unit]
  exact Iff.rfl

/-- Every index of the output array is in some point's block: row r is in block r / 10000. -/
theorem cover1 (i : S500000x2.Idx) :
    ∃ t : Fin cfg1.N, (cfg1.win 3).flush t = true ∧ i ∈ ((cfg1.win 3).blk t).view.set := by
  have hi0 : (i 0).val < 500000 := (i 0).isLt
  have hi1 : (i 1).val < 2 := (i 1).isLt
  have hN : (i 0).val / 10000 < cfg1.N := by
    have hg := N_1
    show (i 0).val / 10000 < grid1.N
    omega
  obtain ⟨t, ht⟩ : ∃ t : Fin cfg1.N, t.val = (i 0).val / 10000 := ⟨⟨_, hN⟩, rfl⟩
  obtain ⟨e0, e1, e2, e3, e4, e5, e6, e7⟩ := idx_facts1 t
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 2 ≤ (i 1).val ∧ (i 1).val < win1_3.index t (1 : Fin 2) * 2 + 2; omega

/-- The output array after the region: the affine function of the three arrays the region reads. -/
theorem final1 (c : Dev nD) : (dat1 V c).arrAt 3 cfg1.N
    = aff1G (n := 500000) (V c (Pipeline.arrRef spec1 0)) (V c (Pipeline.arrRef spec1 1)) (V c (Pipeline.arrRef spec1 2)) :=
  (dat1 V c).arrAt_eq_of_cover 3 _ (fun t _ => flushed1_eq V c t) cover1

end Cert.KernelIdeal.Hand

end
-- ==== Proof.KI.GDefs.lean ====
/-
  The message layers' values, index by index, in the order of operations the message kernel computes them in.

  The message kernel computes, at row r and feature j,
      ((a[r,0] * b[r,0]) * xs[r,j]) + xt[r,j],
  a and b the two columns of per-row factors, xs and xt the two feature arrays. The function is stated for any number n
  of rows and any float instance.
-/
import Idealize.ShloMosaic.Lib.ValueIdx

noncomputable section

namespace Cert.KernelIdeal.Hand

open Idealize.ShloMosaic Idealize.ShloMosaic.ValueIdx

variable {F : FTy → Type} [FloatOps F]

/-- The message layer: ((a[r,0] * b[r,0]) * xs[r,j]) + xt[r,j] at index (r, j). -/
abbrev msgG {n : Nat} (a b : (⟨2, ![n, 1]⟩ : Shape).Idx → Elt F .f32) (xs xt : (⟨2, ![n, 2]⟩ : Shape).Idx → Elt F .f32) :
    (⟨2, ![n, 2]⟩ : Shape).Idx → Elt F .f32 := fun i =>
  FloatOps.addf (FloatOps.mulf (FloatOps.mulf (a (ix2 (n0 := n) (n1 := 1) (i 0) 0)) (b (ix2 (n0 := n) (n1 := 1) (i 0) 0))) (xs i)) (xt i)

end Cert.KernelIdeal.Hand

end
-- ==== Proof.KI.Pieces.lean ====
/- The kernel program's network, piece by piece: each repeated stretch of the kernel program's host operations, with the
   region it feeds, as ONE pure function of the values it reads, written with exactly the operations of the printed
   program and generic in the float values. A region enters as the whole-array function its output array holds after it:
   the message function for a message region, the affine functions at one and at six input columns for an affine one. -/
import proofs.«149588_j66838281060723_2_alg».proof.KernelIdeal
import proofs.«149588_j66838281060723_2_alg».proof.Proof.KI.AffG
import proofs.«149588_j66838281060723_2_alg».proof.Proof.KI.GDefs

noncomputable section

namespace Cert.KernelIdeal.Hand

open Idealize.ShloMosaic Idealize.SL.Sem Cert.KernelIdeal
open Cert.KernelIdeal.Facts₀ Cert.KernelIdeal.Facts

variable {F : FTy → Type} [FloatOps F] [Facts]

/-- deg ↦ deg^(-1/2) where deg > 0, else 0 (two guarded selects around one power), at any vector shape. -/
def kInvSqrtDeg (S : Shape) (h : S_.BroadcastsInDim S (![] : Fin 0 → Fin S.rank)) (deg : Vec F S .f32) : Vec F S .f32 :=
  select (cmpf .ogt deg (broadcastInDim S ![] h (constant S_ .f32 0x00000000#32)))
    (Host.powf
      (select (cmpf .ogt deg (broadcastInDim S ![] h (constant S_ .f32 0x00000000#32))) deg
        (broadcastInDim S ![] h (id (constant S_ .f32 0x3F800000#32 : Vec F S_ .f32))))
      (broadcastInDim S ![] h (constant S_ .f32 0xBF000000#32)))
    (broadcastInDim S ![] h (id (constant S_ .f32 0x00000000#32 : Vec F S_ .f32)))

/-- The clause degrees' inverse square roots. -/
def kInvC (deg : Vec F S2000000 .f32) : Vec F S2000000 .f32 := kInvSqrtDeg S2000000 bcast_S_S2000000 deg
/-- The variable degrees' inverse square roots. -/
def kInvV (deg : Vec F S500000 .f32) : Vec F S500000 .f32 := kInvSqrtDeg S500000 bcast_S_S500000 deg

/-- An edge-index vector made non-negative (a negative index counts from the end, n entries), as a column. -/
def kNormIdx (n : BitVec 32) (idx : Vec F S6000000 .i32) : Vec F S6000000x1 .i32 :=
  broadcastInDim S6000000x1 ![0] bcast_S6000000_S6000000x1_0
    (select (cmpi .slt idx (broadcastInDim S6000000 ![] bcast_S_S6000000 (constantI S_ 32 0#32)))
      (addi idx (broadcastInDim S6000000 ![] bcast_S_S6000000 (constantI S_ 32 n))) idx)

/-- The clauses' inverse roots gathered per edge, reshaped to a column: a message region's factor operand. -/
def kColC (ic : Vec F S2000000 .f32) (src : Vec F S6000000 .i32) : Vec F S6000000x1 .f32 :=
  shapeCast S6000000x1 (Host.gather gather_S2000000_S6000000x1_S6000000_n_0_n_n_0_1_1 ic (kNormIdx 2000000#32 src))
    shapeCasts_S6000000_S6000000x1
/-- The variables' inverse roots gathered per edge, reshaped to a column. -/
def kColV (iv : Vec F S500000 .f32) (trg : Vec F S6000000 .i32) : Vec F S6000000x1 .f32 :=
  shapeCast S6000000x1 (Host.gather gather_S500000_S6000000x1_S6000000_n_0_n_n_0_1_1 iv (kNormIdx 500000#32 trg))
    shapeCasts_S6000000_S6000000x1
/-- The clauses' feature rows gathered per edge: a message region's feature operand. -/
def kRowsC (xc : Vec F S2000000x2 .f32) (src : Vec F S6000000 .i32) : Vec F S6000000x2 .f32 :=
  Host.gather gather_S2000000x2_S6000000x1_S6000000x2_1_0_n_n_0_1_12 xc (kNormIdx 2000000#32 src)
/-- The variables' feature rows gathered per edge. -/
def kRowsV (xv : Vec F S500000x2 .f32) (trg : Vec F S6000000 .i32) : Vec F S6000000x2 .f32 :=
  Host.gather gather_S500000x2_S6000000x1_S6000000x2_1_0_n_n_0_1_12 xv (kNormIdx 500000#32 trg)

/-- The four operand arrays of a message region toward the variables, in the region's operand order: the clause factor
    column, the variable factor column, the clause feature rows, the variable feature rows. -/
def kMsgOperandsV (xc : Vec F S2000000x2 .f32) (xv : Vec F S500000x2 .f32) (ic : Vec F S2000000 .f32) (iv : Vec F S500000 .f32)
    (src trg : Vec F S6000000 .i32) :
    Vec F S6000000x1 .f32 × Vec F S6000000x1 .f32 × Vec F S6000000x2 .f32 × Vec F S6000000x2 .f32 :=
  (kColC ic src, kColV iv trg, kRowsC xc src, kRowsV xv trg)
/-- The four operand arrays of a message region toward the clauses (the edges reversed), in the region's operand order. -/
def kMsgOperandsC (xc : Vec F S2000000x2 .f32) (xv : Vec F S500000x2 .f32) (ic : Vec F S2000000 .f32) (iv : Vec F S500000 .f32)
    (src trg : Vec F S6000000 .i32) :
    Vec F S6000000x1 .f32 × Vec F S6000000x1 .f32 × Vec F S6000000x2 .f32 × Vec F S6000000x2 .f32 :=
  (kColV iv trg, kColC ic src, kRowsV xv trg, kRowsC xc src)

/-- One graph convolution toward the variables: the message region's array on the four per-edge operands, summed into a
    zero table at the edge's variable. -/
def kConvV (xc : Vec F S2000000x2 .f32) (xv : Vec F S500000x2 .f32) (ic : Vec F S2000000 .f32) (iv : Vec F S500000 .f32)
    (src trg : Vec F S6000000 .i32) : Vec F S500000x2 .f32 :=
  Host.scatterAdd scatter_S500000x2_S6000000x1_S6000000x2_1_0_0_1
    (broadcastInDim S500000x2 ![] bcast_S_S500000x2 (constant S_ .f32 0x00000000#32))
    (broadcastInDim S6000000x1 ![0] bcast_S6000000_S6000000x1_0 trg)
    (msgG (n := 6000000) (kColC ic src) (kColV iv trg) (kRowsC xc src) (kRowsV xv trg))

/-- One graph convolution toward the clauses (the edges reversed). -/
def kConvC (xc : Vec F S2000000x2 .f32) (xv : Vec F S500000x2 .f32) (ic : Vec F S2000000 .f32) (iv : Vec F S500000 .f32)
    (src trg : Vec F S6000000 .i32) : Vec F S2000000x2 .f32 :=
  Host.scatterAdd scatter_S2000000x2_S6000000x1_S6000000x2_1_0_0_1
    (broadcastInDim S2000000x2 ![] bcast_S_S2000000x2 (constant S_ .f32 0x00000000#32))
    (broadcastInDim S6000000x1 ![0] bcast_S6000000_S6000000x1_0 src)
    (msgG (n := 6000000) (kColV iv trg) (kColC ic src) (kRowsV xv trg) (kRowsC xc src))

/-- The first affine map of the clauses: the affine region at one input column, the bias reshaped to a row. -/
def kAff0C (x : Vec F S2000000x1 .f32) (w : Vec F S1x2 .f32) (b : Vec F S2 .f32) : Vec F S2000000x2 .f32 :=
  aff1G (n := 2000000) x w (shapeCast S1x2 b shapeCasts_S2_S1x2)

/-- The first affine map of the variables. -/
def kAff0V (x : Vec F S500000x1 .f32) (w : Vec F S1x2 .f32) (b : Vec F S2 .f32) : Vec F S500000x2 .f32 :=
  aff1G (n := 500000) x w (shapeCast S1x2 b shapeCasts_S2_S1x2)

/-- Layer l's weight matrix out of the stack of four. -/
def kWAt (o : Fin 3 → Nat) (h : S4x6x2.Slices o S1x6x2) (w : Vec F S4x6x2 .f32) : Vec F S6x2 .f32 :=
  shapeCast S6x2 (extractStridedSlice S1x6x2 o w h) shapeCasts_S1x6x2_S6x2

/-- Layer l's bias out of the stack of four, as the row the affine region reads: sliced, flattened, and reshaped back to a row. -/
def kBAt (o : Fin 2 → Nat) (h : S4x2.Slices o S1x2) (b : Vec F S4x2 .f32) : Vec F S1x2 .f32 :=
  shapeCast S1x2 (shapeCast S2 (extractStridedSlice S1x2 o b h) shapeCasts_S1x2_S2) shapeCasts_S2_S1x2

/-- A layer's affine map of the variables: the affine region at six input columns on [p | q | prev], W_l and b_l. -/
def kAffV (o3 : Fin 3 → Nat) (h3 : S4x6x2.Slices o3 S1x6x2) (o2 : Fin 2 → Nat) (h2 : S4x2.Slices o2 S1x2)
    (p q prev : Vec F S500000x2 .f32) (w : Vec F S4x6x2 .f32) (b : Vec F S4x2 .f32) : Vec F S500000x2 .f32 :=
  aff6G (n := 500000)
    (concatenate S500000x6 1 [⟨S500000x2, p⟩, ⟨S500000x2, q⟩, ⟨S500000x2, prev⟩] concatenates_S500000x2_S500000x2_S500000x2_S500000x6_d1)
    (kWAt o3 h3 w) (kBAt o2 h2 b)

/-- A layer's affine map of the clauses. -/
def kAffC (o3 : Fin 3 → Nat) (h3 : S4x6x2.Slices o3 S1x6x2) (o2 : Fin 2 → Nat) (h2 : S4x2.Slices o2 S1x2)
    (p q prev : Vec F S2000000x2 .f32) (w : Vec F S4x6x2 .f32) (b : Vec F S4x2 .f32) : Vec F S2000000x2 .f32 :=
  aff6G (n := 2000000)
    (concatenate S2000000x6 1 [⟨S2000000x2, p⟩, ⟨S2000000x2, q⟩, ⟨S2000000x2, prev⟩] concatenates_S2000000x2_S2000000x2_S2000000x2_S2000000x6_d1)
    (kWAt o3 h3 w) (kBAt o2 h2 b)

/-- What a layer reads besides the two states: the two inverse-root tables, the four edge-index vectors, and the
    two weight stacks with their biases. -/
structure Env (F : FTy → Type) where
  ic : Vec F S2000000 .f32
  iv : Vec F S500000 .f32
  posSrc : Vec F S6000000 .i32
  posTrg : Vec F S6000000 .i32
  negSrc : Vec F S6000000 .i32
  negTrg : Vec F S6000000 .i32
  wc : Vec F S4x6x2 .f32
  bc : Vec F S4x2 .f32
  wv : Vec F S4x6x2 .f32
  bv : Vec F S4x2 .f32

/-- One layer's new variable state. -/
def kLayerV (o3 : Fin 3 → Nat) (h3 : S4x6x2.Slices o3 S1x6x2) (o2 : Fin 2 → Nat) (h2 : S4x2.Slices o2 S1x2)
    (e : Env F) (xc : Vec F S2000000x2 .f32) (xv : Vec F S500000x2 .f32) : Vec F S500000x2 .f32 :=
  kAffV o3 h3 o2 h2 (kConvV xc xv e.ic e.iv e.posSrc e.posTrg) (kConvV xc xv e.ic e.iv e.negSrc e.negTrg) xv e.wv e.bv

/-- One layer's new clause state. -/
def kLayerC (o3 : Fin 3 → Nat) (h3 : S4x6x2.Slices o3 S1x6x2) (o2 : Fin 2 → Nat) (h2 : S4x2.Slices o2 S1x2)
    (e : Env F) (xc : Vec F S2000000x2 .f32) (xv : Vec F S500000x2 .f32) : Vec F S2000000x2 .f32 :=
  kAffC o3 h3 o2 h2 (kConvC xc xv e.ic e.iv e.posSrc e.posTrg) (kConvC xc xv e.ic e.iv e.negSrc e.negTrg) xc e.wc e.bc

end Cert.KernelIdeal.Hand

end
-- ==== Proof.KI.Net.lean ====
/- The kernel program's network whole: the sixteen arguments, the ten values every layer reads, the two states after
   each layer, and the result (the variable state after the fourth layer), over the kernel program's pieces. -/
import proofs.«149588_j66838281060723_2_alg».proof.Proof.KI.Pieces

noncomputable section

namespace Cert.KernelIdeal.Hand

open Idealize.ShloMosaic Idealize.SL.Sem Cert.KernelIdeal Idealize.ShloMosaic.StableHlo Idealize.ShloMosaic.TcCoe
open Cert.KernelIdeal.Facts₀ Cert.KernelIdeal.Facts

variable {F : FTy → Type} [FloatOps F] [Facts]

/-- The sixteen arguments, in the program's order. -/
structure Args (F : FTy → Type) where
  xClause : Vec F S2000000x1 .f32
  xVariable : Vec F S500000x1 .f32
  degClause : Vec F S2000000 .f32
  degVariable : Vec F S500000 .f32
  posSrc : Vec F S6000000 .i32
  posTrg : Vec F S6000000 .i32
  negSrc : Vec F S6000000 .i32
  negTrg : Vec F S6000000 .i32
  w0c : Vec F S1x2 .f32
  b0c : Vec F S2 .f32
  w0v : Vec F S1x2 .f32
  b0v : Vec F S2 .f32
  wc : Vec F S4x6x2 .f32
  bc : Vec F S4x2 .f32
  wv : Vec F S4x6x2 .f32
  bv : Vec F S4x2 .f32

/-- What every layer reads of the arguments. -/
noncomputable def Args.env (a : Args F) : Env F where
  ic := kInvC a.degClause
  iv := kInvV a.degVariable
  posSrc := a.posSrc
  posTrg := a.posTrg
  negSrc := a.negSrc
  negTrg := a.negTrg
  wc := a.wc
  bc := a.bc
  wv := a.wv
  bv := a.bv

/-- The clause state before the first layer. -/
noncomputable def kStC0 (a : Args F) : Vec F S2000000x2 .f32 := kAff0C a.xClause a.w0c a.b0c
/-- The variable state before the first layer. -/
noncomputable def kStV0 (a : Args F) : Vec F S500000x2 .f32 := kAff0V a.xVariable a.w0v a.b0v

/-- The states after the first layer. -/
noncomputable def kStC1 (a : Args F) : Vec F S2000000x2 .f32 :=
  kLayerC ![0, 0, 0] slices_S4x6x2_S1x6x2_0_0_0 ![0, 0] slices_S4x2_S1x2_0_0 a.env (kStC0 a) (kStV0 a)
noncomputable def kStV1 (a : Args F) : Vec F S500000x2 .f32 :=
  kLayerV ![0, 0, 0] slices_S4x6x2_S1x6x2_0_0_0 ![0, 0] slices_S4x2_S1x2_0_0 a.env (kStC0 a) (kStV0 a)

/-- The states after the second layer. -/
noncomputable def kStC2 (a : Args F) : Vec F S2000000x2 .f32 :=
  kLayerC ![1, 0, 0] slices_S4x6x2_S1x6x2_1_0_0 ![1, 0] slices_S4x2_S1x2_1_0 a.env (kStC1 a) (kStV1 a)
noncomputable def kStV2 (a : Args F) : Vec F S500000x2 .f32 :=
  kLayerV ![1, 0, 0] slices_S4x6x2_S1x6x2_1_0_0 ![1, 0] slices_S4x2_S1x2_1_0 a.env (kStC1 a) (kStV1 a)

/-- The states after the third layer. -/
noncomputable def kStC3 (a : Args F) : Vec F S2000000x2 .f32 :=
  kLayerC ![2, 0, 0] slices_S4x6x2_S1x6x2_2_0_0 ![2, 0] slices_S4x2_S1x2_2_0 a.env (kStC2 a) (kStV2 a)
noncomputable def kStV3 (a : Args F) : Vec F S500000x2 .f32 :=
  kLayerV ![2, 0, 0] slices_S4x6x2_S1x6x2_2_0_0 ![2, 0] slices_S4x2_S1x2_2_0 a.env (kStC2 a) (kStV2 a)

/-- The states after the fourth layer; the variable state is the program's result. -/
noncomputable def kStC4 (a : Args F) : Vec F S2000000x2 .f32 :=
  kLayerC ![3, 0, 0] slices_S4x6x2_S1x6x2_3_0_0 ![3, 0] slices_S4x2_S1x2_3_0 a.env (kStC3 a) (kStV3 a)
/-- The kernel program's result: the variable state after the fourth layer. -/
noncomputable def kOut (a : Args F) : Vec F S500000x2 .f32 :=
  kLayerV ![3, 0, 0] slices_S4x6x2_S1x6x2_3_0_0 ![3, 0] slices_S4x2_S1x2_3_0 a.env (kStC3 a) (kStV3 a)

/-- The sixteen arguments in a memory, on a device. -/
noncomputable def kArgsM (m : (ℓ : Loc nD τ sig) → Buf (Elt F) ℓ) (c : Dev nD) : Args F where
  xClause := m ((c.tc : Thread nD τ).loc main_arg0)
  xVariable := m ((c.tc : Thread nD τ).loc main_arg1)
  degClause := m ((c.tc : Thread nD τ).loc main_arg2)
  degVariable := m ((c.tc : Thread nD τ).loc main_arg3)
  posSrc := m ((c.tc : Thread nD τ).loc main_arg4)
  posTrg := m ((c.tc : Thread nD τ).loc main_arg5)
  negSrc := m ((c.tc : Thread nD τ).loc main_arg6)
  negTrg := m ((c.tc : Thread nD τ).loc main_arg7)
  w0c := m ((c.tc : Thread nD τ).loc main_arg8)
  b0c := m ((c.tc : Thread nD τ).loc main_arg9)
  w0v := m ((c.tc : Thread nD τ).loc main_arg10)
  b0v := m ((c.tc : Thread nD τ).loc main_arg11)
  wc := m ((c.tc : Thread nD τ).loc main_arg12)
  bc := m ((c.tc : Thread nD τ).loc main_arg13)
  wv := m ((c.tc : Thread nD τ).loc main_arg14)
  bv := m ((c.tc : Thread nD τ).loc main_arg15)

end Cert.KernelIdeal.Hand

end
-- ==== Proof.KI.Stretch0.lean ====
/-
  What the buffers hold after each host stretch of the program's first part: the degrees' inverse square roots
  (a guarded power: where the degree is positive its power -1/2, elsewhere zero, through two guarded selections) and
  the two first bias rows as one-row matrices. Each statement gives the contents of one buffer after a stretch as the
  stretch's operations applied to the contents, before it, of the buffers it reads; it holds at any float values
  and from any contents before.
-/
import proofs.«149588_j66838281060723_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-! ## The clause degrees (two million of them) -/

/-- After the first stretch: where the clause degree is positive. -/
theorem s0_v1 (W : Valuation τ sig (Elt F)) :
    StableHlo.after hostOps0 W main_v1
      = cmpf .ogt (W main_arg2) (broadcastInDim S2000000 ![] bcast_S_S2000000 (constant S_ .f32 0x00000000#32)) := by
  after_results <;> rfl

/-- After the first stretch: the constant one. -/
theorem s0_cst_0 (W : Valuation τ sig (Elt F)) :
    StableHlo.after hostOps0 W main_cst_0 = constant S_ .f32 0x3F800000#32 := by
  after_results <;> rfl

/-- The first guarded selection: the degree where the guard holds, elsewhere the scalar spread over the vector. -/
theorem s0_1_v2 (W : Valuation τ sig (Elt F)) :
    StableHlo.after hostOps0_1 W main_v2
      = select (W main_v1) (W main_arg2) (broadcastInDim S2000000 ![] bcast_S_S2000000 (id (W main_cst_0))) := by
  after_results <;> rfl

/-- After the third stretch: where the clause degree is positive (computed a second time). -/
theorem s0_2_v4 (W : Valuation τ sig (Elt F)) :
    StableHlo.after hostOps0_2 W main_v4
      = cmpf .ogt (W main_arg2) (broadcastInDim S2000000 ![] bcast_S_S2000000 (constant S_ .f32 0x00000000#32)) := by
  after_results <;> rfl

/-- After the third stretch: the guarded degree to the power -1/2. -/
theorem s0_2_v6 (W : Valuation τ sig (Elt F)) :
    StableHlo.after hostOps0_2 W main_v6
      = Host.powf (W main_v2) (broadcastInDim S2000000 ![] bcast_S_S2000000 (constant S_ .f32 0xBF000000#32)) := by
  after_results <;> rfl

/-- After the third stretch: the constant zero. -/
theorem s0_2_cst_3 (W : Valuation τ sig (Elt F)) :
    StableHlo.after hostOps0_2 W main_cst_3 = constant S_ .f32 0x00000000#32 := by
  after_results <;> rfl

/-- The second guarded selection: the power where the guard holds, elsewhere the scalar spread over the vector. -/
theorem s0_3_v7 (W : Valuation τ sig (Elt F)) :
    StableHlo.after hostOps0_3 W main_v7
      = select (W main_v4) (W main_v6) (broadcastInDim S2000000 ![] bcast_S_S2000000 (id (W main_cst_3))) := by
  after_results <;> rfl

/-- The four stretches together: the clause degrees' inverse square roots, as one function of the degrees. -/
theorem s0_v7 (W : Valuation τ sig (Elt F)) :
    StableHlo.after hostOps0_3 (StableHlo.after hostOps0_2 (StableHlo.after hostOps0_1 (StableHlo.after hostOps0 W))) main_v7
      = select (cmpf .ogt (W main_arg2) (broadcastInDim S2000000 ![] bcast_S_S2000000 (constant S_ .f32 0x00000000#32)))
          (Host.powf
            (select (cmpf .ogt (W main_arg2) (broadcastInDim S2000000 ![] bcast_S_S2000000 (constant S_ .f32 0x00000000#32)))
              (W main_arg2)
              (broadcastInDim S2000000 ![] bcast_S_S2000000 (id (constant S_ .f32 0x3F800000#32 : Vec F S_ .f32))))
            (broadcastInDim S2000000 ![] bcast_S_S2000000 (constant S_ .f32 0xBF000000#32)))
          (broadcastInDim S2000000 ![] bcast_S_S2000000 (id (constant S_ .f32 0x00000000#32 : Vec F S_ .f32))) := by
  after_results <;> rfl

/-! ## The variable degrees (half a million of them) -/

/-- After the fifth stretch: where the variable degree is positive. -/
theorem s0_4_v9 (W : Valuation τ sig (Elt F)) :
    StableHlo.after hostOps0_4 W main_v9
      = cmpf .ogt (W main_arg3) (broadcastInDim S500000 ![] bcast_S_S500000 (constant S_ .f32 0x00000000#32)) := by
  after_results <;> rfl

/-- After the fifth stretch: the constant one. -/
theorem s0_4_cst_5 (W : Valuation τ sig (Elt F)) :
    StableHlo.after hostOps0_4 W main_cst_5 = constant S_ .f32 0x3F800000#32 := by
  after_results <;> rfl

/-- The third guarded selection. -/
theorem s0_5_v10 (W : Valuation τ sig (Elt F)) :
    StableHlo.after hostOps0_5 W main_v10
      = select (W main_v9) (W main_arg3) (broadcastInDim S500000 ![] bcast_S_S500000 (id (W main_cst_5))) := by
  after_results <;> rfl

/-- After the seventh stretch: where the variable degree is positive (computed a second time). -/
theorem s0_6_v12 (W : Valuation τ sig (Elt F)) :
    StableHlo.after hostOps0_6 W main_v12
      = cmpf .ogt (W main_arg3) (broadcastInDim S500000 ![] bcast_S_S500000 (constant S_ .f32 0x00000000#32)) := by
  after_results <;> rfl

/-- After the seventh stretch: the guarded degree to the power -1/2. -/
theorem s0_6_v14 (W : Valuation τ sig (Elt F)) :
    StableHlo.after hostOps0_6 W main_v14
      = Host.powf (W main_v10) (broadcastInDim S500000 ![] bcast_S_S500000 (constant S_ .f32 0xBF000000#32)) := by
  after_results <;> rfl

/-- After the seventh stretch: the constant zero. -/
theorem s0_6_cst_8 (W : Valuation τ sig (Elt F)) :
    StableHlo.after hostOps0_6 W main_cst_8 = constant S_ .f32 0x00000000#32 := by
  after_results <;> rfl

/-- The fourth guarded selection. -/
theorem s0_7_v15 (W : Valuation τ sig (Elt F)) :
    StableHlo.after hostOps0_7 W main_v15
      = select (W main_v12) (W main_v14) (broadcastInDim S500000 ![] bcast_S_S500000 (id (W main_cst_8))) := by
  after_results <;> rfl

/-- The four stretches together: the variable degrees' inverse square roots, as one function of the degrees. -/
theorem s0_v15 (W : Valuation τ sig (Elt F)) :
    StableHlo.after hostOps0_7 (StableHlo.after hostOps0_6 (StableHlo.after hostOps0_5 (StableHlo.after hostOps0_4 W))) main_v15
      = select (cmpf .ogt (W main_arg3) (broadcastInDim S500000 ![] bcast_S_S500000 (constant S_ .f32 0x00000000#32)))
          (Host.powf
            (select (cmpf .ogt (W main_arg3) (broadcastInDim S500000 ![] bcast_S_S500000 (constant S_ .f32 0x00000000#32)))
              (W main_arg3)
              (broadcastInDim S500000 ![] bcast_S_S500000 (id (constant S_ .f32 0x3F800000#32 : Vec F S_ .f32))))
            (broadcastInDim S500000 ![] bcast_S_S500000 (constant S_ .f32 0xBF000000#32)))
          (broadcastInDim S500000 ![] bcast_S_S500000 (id (constant S_ .f32 0x00000000#32 : Vec F S_ .f32))) := by
  after_results <;> rfl

/-- The variable degrees' four stretches leave the clause degrees' inverse square roots where they were. -/
theorem s0_4to7_v7 (W : Valuation τ sig (Elt F)) :
    StableHlo.after hostOps0_7 (StableHlo.after hostOps0_6 (StableHlo.after hostOps0_5 (StableHlo.after hostOps0_4 W))) main_v7
      = W main_v7 := by
  after_results <;> rfl

/-! ## The two first bias rows -/

/-- The clauses' first bias, as a one-row matrix. -/
theorem s0_8_v16 (W : Valuation τ sig (Elt F)) :
    StableHlo.after hostOps0_8 W main_v16 = shapeCast S1x2 (W main_arg9) shapeCasts_S2_S1x2 := by
  after_results <;> rfl

/-- The variables' first bias, as a one-row matrix. -/
theorem s1_v18 (W : Valuation τ sig (Elt F)) :
    StableHlo.after hostOps1 W main_v18 = shapeCast S1x2 (W main_arg11) shapeCasts_S2_S1x2 := by
  after_results <;> rfl

end Cert.KernelIdeal.Hand

end
-- ==== Proof.KI.ChainP.lean ====
/-
  What the buffers hold when the first layer is entered (after the two first affine regions): every argument buffer its
  launch contents, the two tables of the degrees' inverse square roots, and the two first states (the affine maps of the
  clause and of the variable features at one input column).

  No host stretch and no region writes an argument buffer, so an argument buffer holds its launch contents throughout.
  The clause degrees' table is the result of the first four host stretches, a guarded power of the degrees; the four
  stretches after them compute the variable degrees' table and leave the first where it is. The first state of the
  clauses is what the first affine region leaves in its output array: the affine function of the clause features, the
  first clause weight row and the first clause bias, the bias having been reshaped to a row by the stretch before the
  region; the variables' first state likewise, from the second affine region.
-/
import proofs.«149588_j66838281060723_2_alg».proof.Proof.KI.Keep
import proofs.«149588_j66838281060723_2_alg».proof.Proof.KI.Val0
import proofs.«149588_j66838281060723_2_alg».proof.Proof.KI.Val1
import proofs.«149588_j66838281060723_2_alg».proof.Proof.KI.Net
import proofs.«149588_j66838281060723_2_alg».proof.Proof.KI.Stretch0

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

variable (m : (ℓ : Loc nD τ sig) → Buf (Elt F) ℓ)

/-- The sixteen argument buffers. -/
abbrev argRefs : List (Ref sig .tc) :=
  [main_arg0, main_arg1, main_arg2, main_arg3, main_arg4, main_arg5, main_arg6, main_arg7,
   main_arg8, main_arg9, main_arg10, main_arg11, main_arg12, main_arg13, main_arg14, main_arg15]

/-! ## Before the first region -/

/-- None of the first nine host stretches writes an argument buffer. -/
theorem args_free : ∀ r ∈ (argRefs : List (Ref sig .tc)),
    r ∉ GenP.hostOps0_W ∧ r ∉ GenP.hostOps0_1_W ∧ r ∉ GenP.hostOps0_2_W ∧ r ∉ GenP.hostOps0_3_W ∧ r ∉ GenP.hostOps0_4_W
      ∧ r ∉ GenP.hostOps0_5_W ∧ r ∉ GenP.hostOps0_6_W ∧ r ∉ GenP.hostOps0_7_W ∧ r ∉ GenP.hostOps0_8_W := by decide

/-- An argument buffer holds its launch contents after the first four host stretches. -/
theorem v4_arg (c : Dev nD) (r : Ref sig .tc) (h : r ∈ (argRefs : List (Ref sig .tc))) :
    GenP.V4 m c r = m ((c.tc : Thread nD τ).loc r) := by
  obtain ⟨h0, h1, h2, h3, -⟩ := args_free r h
  rw [GenP.V4_of m c r h3, GenP.V3_of m c r h2, GenP.V2_of m c r h1, GenP.V1_of m c r h0]

/-- An argument buffer holds its launch contents after the first eight host stretches. -/
theorem v8_arg (c : Dev nD) (r : Ref sig .tc) (h : r ∈ (argRefs : List (Ref sig .tc))) :
    GenP.V8 m c r = m ((c.tc : Thread nD τ).loc r) := by
  obtain ⟨-, -, -, -, h4, h5, h6, h7, -⟩ := args_free r h
  rw [GenP.V8_of m c r h7, GenP.V7_of m c r h6, GenP.V6_of m c r h5, GenP.V5_of m c r h4, v4_arg m c r h]

/-- An argument buffer holds its launch contents when the first region is entered. -/
theorem v9_arg (c : Dev nD) (r : Ref sig .tc) (h : r ∈ (argRefs : List (Ref sig .tc))) :
    GenP.V9 m c r = m ((c.tc : Thread nD τ).loc r) := by
  rw [GenP.V9_of m c r (args_free r h).2.2.2.2.2.2.2.2, v8_arg m c r h]

/-- When the first region is entered, the clause degrees' table holds their inverse square roots. -/
theorem v9_v7 (c : Dev nD) : GenP.V9 m c main_v7 = kInvC (m ((c.tc : Thread nD τ).loc main_arg2)) := by
  rw [GenP.V9_of m c main_v7 (by decide), GenP.V8_of m c main_v7 (by decide), GenP.V7_of m c main_v7 (by decide),
    GenP.V6_of m c main_v7 (by decide), GenP.V5_of m c main_v7 (by decide)]
  show StableHlo.after hostOps0_3 (StableHlo.after hostOps0_2 (StableHlo.after hostOps0_1 (StableHlo.after hostOps0 (GenP.V0 m c)))) main_v7 = _
  rw [s0_v7]
  rfl

/-- When the first region is entered, the variable degrees' table holds their inverse square roots. -/
theorem v9_v15 (c : Dev nD) : GenP.V9 m c main_v15 = kInvV (m ((c.tc : Thread nD τ).loc main_arg3)) := by
  rw [GenP.V9_of m c main_v15 (by decide)]
  show StableHlo.after hostOps0_7 (StableHlo.after hostOps0_6 (StableHlo.after hostOps0_5 (StableHlo.after hostOps0_4 (GenP.V4 m c)))) main_v15 = _
  rw [s0_v15, v4_arg m c main_arg3 (by decide)]
  rfl

/-- When the first region is entered, the clauses' first bias stands as a one-row matrix. -/
theorem v9_v16 (c : Dev nD) :
    GenP.V9 m c main_v16 = shapeCast S1x2 (m ((c.tc : Thread nD τ).loc main_arg9)) shapeCasts_S2_S1x2 := by
  show StableHlo.after hostOps0_8 (GenP.V8 m c) main_v16 = _
  rw [s0_8_v16, v8_arg m c main_arg9 (by decide)]

/-! ## After the two first affine regions -/

/-- Neither first affine region, nor the stretch between them, writes an argument buffer. -/
theorem args_free' : ∀ r ∈ (argRefs : List (Ref sig .tc)),
    r ∉ ([main_v17] : List (Ref sig .tc)) ∧ r ∉ GenP.hostOps1_W ∧ r ∉ ([main_v19] : List (Ref sig .tc)) := by decide

/-- An argument buffer holds its launch contents after the first region. -/
theorem p10_arg (c : Dev nD) (r : Ref sig .tc) (h : r ∈ (argRefs : List (Ref sig .tc))) :
    T10 m c r = m ((c.tc : Thread nD τ).loc r) := by
  rw [step10 m c r (args_free' r h).1]
  exact v9_arg m c r h

/-- An argument buffer holds its launch contents when the first layer is entered. -/
theorem p12_arg (c : Dev nD) (r : Ref sig .tc) (h : r ∈ (argRefs : List (Ref sig .tc))) :
    T12 m c r = m ((c.tc : Thread nD τ).loc r) := by
  rw [step12 m c r (args_free' r h).2.2, step11 m c r (args_free' r h).2.1]
  exact p10_arg m c r h

/-- When the first layer is entered, the clause degrees' table holds their inverse square roots. -/
theorem p12_v7 (c : Dev nD) : T12 m c main_v7 = kInvC (m ((c.tc : Thread nD τ).loc main_arg2)) := by
  rw [step12 m c main_v7 (by decide), step11 m c main_v7 (by decide), step10 m c main_v7 (by decide)]
  exact v9_v7 m c

/-- When the first layer is entered, the variable degrees' table holds their inverse square roots. -/
theorem p12_v15 (c : Dev nD) : T12 m c main_v15 = kInvV (m ((c.tc : Thread nD τ).loc main_arg3)) := by
  rw [step12 m c main_v15 (by decide), step11 m c main_v15 (by decide), step10 m c main_v15 (by decide)]
  exact v9_v15 m c

/-- The first region leaves in its output array the affine function of the arrays it read. -/
theorem p10_v17 (c : Dev nD) : T10 m c main_v17 = kStC0 (kArgsM m c) := by
  have h : T10 m c main_v17 = (dat0 (atTc (T9 m)) c).arrAt 3 cfg0.N := by
    unfold T10; exact Function.update_self ..
  rw [h, final0]
  show aff1G (n := 2000000) (GenP.V9 m c main_arg0) (GenP.V9 m c main_arg8) (GenP.V9 m c main_v16) = _
  rw [v9_arg m c main_arg0 (by decide), v9_arg m c main_arg8 (by decide), v9_v16]
  rfl

/-- When the first layer is entered, the clauses' state is their first affine map. -/
theorem p12_v17 (c : Dev nD) : T12 m c main_v17 = kStC0 (kArgsM m c) := by
  rw [step12 m c main_v17 (by decide), step11 m c main_v17 (by decide)]
  exact p10_v17 m c

/-- When the first layer is entered, the variables' state is their first affine map. -/
theorem p12_v19 (c : Dev nD) : T12 m c main_v19 = kStV0 (kArgsM m c) := by
  have h : T12 m c main_v19 = (dat1 (atTc (T11 m)) c).arrAt 3 cfg1.N := by
    unfold T12; exact Function.update_self ..
  rw [h, final1]
  show aff1G (n := 500000) (T11 m c main_arg1) (T11 m c main_arg10) (StableHlo.after hostOps1 (T10 m c) main_v18) = _
  rw [step11 m c main_arg1 (by decide), step11 m c main_arg10 (by decide), s1_v18,
    p10_arg m c main_arg1 (by decide), p10_arg m c main_arg10 (by decide), p10_arg m c main_arg11 (by decide)]
  rfl

end Cert.KernelIdeal.Hand

end
-- ==== Proof.KI.Val2.lean ====
/-
  The message region's value: what its output array holds after the region, as ONE function of its four input arrays
  as the region finds them, at any float instance.

  At grid point t the body leaves in the output's staging buffer, at row r and feature k of the block,
      ((a[r,0] * b[r,0]) * xs[r,k]) + xt[r,k]
  of the four input blocks; every window's block at point t is rows [4000 t, 4000 t + 4000) of its array, so what point
  t writes back is block t of msgG of the four arrays; the 1500 blocks cover the 6000000 rows (row r is in block
  r / 4000), so the array ends holding msgG of the four arrays everywhere.
-/
import proofs.«149588_j66838281060723_2_alg».proof.Proof.KI.Body2
import proofs.«149588_j66838281060723_2_alg».proof.Proof.KI.GDefs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The zero offsets of a whole-block rectangle, however spelt. -/
private theorem zero_offsets : (![0, 0] : Fin 2 → Nat) = fun _ => 0 := funext fun a => by fin_cases a <;> rfl

/-- The body's arithmetic on whole blocks: the casts to the same shape are identities. -/
private theorem pay_eq (xa xb : Vec F S4000x1 .f32) (xs xt : Vec F S4000x2 .f32) :
    k2_pay1 xa xb xs xt = addf (mulf (broadcastTo S4000x2 (mulf xa xb) broadcasts_S4000x1_S4000x2) xs) xt := by
  unfold k2_pay1
  simp only [shapeCast_self]

/-- The body's arithmetic at row r, feature k of the block: the product of the two column entries of row r, times the
    first feature entry, plus the second. -/
private theorem pay_at (xa xb : Vec F S4000x1 .f32) (xs xt : Vec F S4000x2 .f32) (r : Fin 4000) (k : Fin 2) :
    k2_pay1 xa xb xs xt (ix2 r k)
      = FloatOps.addf (FloatOps.mulf (FloatOps.mulf (xa (ix2 r (0 : Fin 1))) (xb (ix2 r (0 : Fin 1)))) (xs (ix2 r k))) (xt (ix2 r k)) := by
  rw [pay_eq]
  show FloatOps.addf (FloatOps.mulf (broadcastTo S4000x2 (mulf xa xb) broadcasts_S4000x1_S4000x2 (ix2 r k)) (xs (ix2 r k))) (xt (ix2 r k)) = _
  rw [broadcastTo_apply (mulf xa xb) broadcasts_S4000x1_S4000x2 (ix2 r k) (ix2 r (0 : Fin 1))
    (fun a => match a with | ⟨0, _⟩ => rfl | ⟨1, _⟩ => rfl)]
  rfl

/-- The printed index maps, decided over the grid: every window's block at point t is block t along the rows and the
    one block along the columns. -/
private theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The grid has 1500 points. -/
private theorem grid_points : grid2.N = 1500 := by decide

/-- An index of the output array is in point t's block iff each coordinate is in the block's range on its axis. -/
private theorem mem_blk (t : Fin cfg2.N) (i : S6000000x2.Idx) :
    i ∈ ((cfg2.win 4).blk t).view.set ↔ ∀ a : Fin 2, win2_4.index t a * S4000x2.size a ≤ (i a).val ∧ (i a).val < win2_4.index t a * S4000x2.size a + S4000x2.size a := by
  show i ∈ ((View.whole (Pipeline.arrRef spec2 4)).slice (win2_4.rect t)).set ↔ _
  rw [View.set_slice_whole, Rect.mem_set_unit]
  exact Iff.rfl

/-- Every entry of the output array is in the block of the point that its row number divided by 4000 names. -/
private theorem covered (i : S6000000x2.Idx) : ∃ t : Fin cfg2.N, (cfg2.win 4).flush t = true ∧ i ∈ ((cfg2.win 4).blk t).view.set := by
  have hi0 : (i 0).val < 6000000 := idx2_lt0 i
  have hi1 : (i 1).val < 2 := idx2_lt1 i
  refine ⟨⟨(i 0).val / 4000, by show _ < grid2.N; rw [grid_points]; omega⟩, flush2_4 _, ?_⟩
  rw [mem_blk]
  obtain ⟨-, -, -, -, -, -, -, -, e0, e1⟩ := idx_facts ⟨(i 0).val / 4000, by show _ < grid2.N; rw [grid_points]; omega⟩
  intro a
  match a with
  | ⟨0, _⟩ => show win2_4.index _ (0 : Fin 2) * 4000 ≤ (i 0).val ∧ (i 0).val < win2_4.index _ (0 : Fin 2) * 4000 + 4000; rw [e0]; show (i 0).val / 4000 * 4000 ≤ _ ∧ _ < (i 0).val / 4000 * 4000 + 4000; omega
  | ⟨1, _⟩ => show win2_4.index _ (1 : Fin 2) * 2 ≤ (i 1).val ∧ (i 1).val < win2_4.index _ (1 : Fin 2) * 2 + 2; rw [e1]; omega

/-- The output's staging buffer after the body at row r, feature k: the body's arithmetic of the four blocks there. -/
private theorem out_at (xa xb : Vec F S4000x1 .f32) (xs xt : Vec F S4000x2 .f32) (r : Fin 4000) (k : Fin 2) :
    out2_4 xa xb xs xt (ix2 r k)
      = FloatOps.addf (FloatOps.mulf (FloatOps.mulf (xa (ix2 r (0 : Fin 1))) (xb (ix2 r (0 : Fin 1)))) (xs (ix2 r k))) (xt (ix2 r k)) := by
  unfold out2_4
  rw [View.canon_unit_zero zero_offsets]
  simp only [View.ld_unit_zero (S := S4000x1) zero_offsets, View.ld_unit_zero (S := S4000x2) zero_offsets]
  exact pay_at xa xb xs xt r k

/-- Row r of the first column's block at point t is the column's entry at the row of the output array that row r of the
    output's block is. -/
private theorem iblk_colA (c : Dev nD) (t : Fin cfg2.N) (r : Fin 4000) (k : Fin 2) :
    iblk2 V c 0 t (ix2 r (0 : Fin 1))
      = V c (Pipeline.arrRef spec2 0) (ix2 (n0 := 6000000) (n1 := 1) ((((cfg2.win 4).blk t).view.emb (ix2 r k)) 0) 0) := by
  obtain ⟨a0, a1, -, -, -, -, -, -, e0, -⟩ := idx_facts t
  show V c (Pipeline.arrRef spec2 0) (((cfg2.win 0).blk t).view.emb (ix2 r (0 : Fin 1))) = _
  refine congrArg (V c (Pipeline.arrRef spec2 0)) (funext fun a => Fin.ext ?_)
  match a with
  | ⟨0, _⟩ => show win2_0.index t (0 : Fin 2) * 4000 + 1 * r.val = win2_4.index t (0 : Fin 2) * 4000 + 1 * r.val; rw [a0, e0]
  | ⟨1, _⟩ => show win2_0.index t (1 : Fin 2) * 1 + 1 * 0 = 0; rw [a1]

/-- The same for the second column. -/
private theorem iblk_colB (c : Dev nD) (t : Fin cfg2.N) (r : Fin 4000) (k : Fin 2) :
    iblk2 V c 1 t (ix2 r (0 : Fin 1))
      = V c (Pipeline.arrRef spec2 1) (ix2 (n0 := 6000000) (n1 := 1) ((((cfg2.win 4).blk t).view.emb (ix2 r k)) 0) 0) := by
  obtain ⟨-, -, b0, b1, -, -, -, -, e0, -⟩ := idx_facts t
  show V c (Pipeline.arrRef spec2 1) (((cfg2.win 1).blk t).view.emb (ix2 r (0 : Fin 1))) = _
  refine congrArg (V c (Pipeline.arrRef spec2 1)) (funext fun a => Fin.ext ?_)
  match a with
  | ⟨0, _⟩ => show win2_1.index t (0 : Fin 2) * 4000 + 1 * r.val = win2_4.index t (0 : Fin 2) * 4000 + 1 * r.val; rw [b0, e0]
  | ⟨1, _⟩ => show win2_1.index t (1 : Fin 2) * 1 + 1 * 0 = 0; rw [b1]

/-- Entry (r, k) of the first feature array's block at point t is the array's entry where entry (r, k) of the output's
    block is. -/
private theorem iblk_featS (c : Dev nD) (t : Fin cfg2.N) (r : Fin 4000) (k : Fin 2) :
    iblk2 V c 2 t (ix2 r k) = V c (Pipeline.arrRef spec2 2) (((cfg2.win 4).blk t).view.emb (ix2 r k)) := by
  obtain ⟨-, -, -, -, c0, c1, -, -, e0, e1⟩ := idx_facts t
  show V c (Pipeline.arrRef spec2 2) (((cfg2.win 2).blk t).view.emb (ix2 r k)) = _
  refine congrArg (V c (Pipeline.arrRef spec2 2)) (funext fun a => Fin.ext ?_)
  match a with
  | ⟨0, _⟩ => show win2_2.index t (0 : Fin 2) * 4000 + 1 * r.val = win2_4.index t (0 : Fin 2) * 4000 + 1 * r.val; rw [c0, e0]
  | ⟨1, _⟩ => show win2_2.index t (1 : Fin 2) * 2 + 1 * k.val = win2_4.index t (1 : Fin 2) * 2 + 1 * k.val; rw [c1, e1]

/-- The same for the second feature array. -/
private theorem iblk_featT (c : Dev nD) (t : Fin cfg2.N) (r : Fin 4000) (k : Fin 2) :
    iblk2 V c 3 t (ix2 r k) = V c (Pipeline.arrRef spec2 3) (((cfg2.win 4).blk t).view.emb (ix2 r k)) := by
  obtain ⟨-, -, -, -, -, -, d0, d1, e0, e1⟩ := idx_facts t
  show V c (Pipeline.arrRef spec2 3) (((cfg2.win 3).blk t).view.emb (ix2 r k)) = _
  refine congrArg (V c (Pipeline.arrRef spec2 3)) (funext fun a => Fin.ext ?_)
  match a with
  | ⟨0, _⟩ => show win2_3.index t (0 : Fin 2) * 4000 + 1 * r.val = win2_4.index t (0 : Fin 2) * 4000 + 1 * r.val; rw [d0, e0]
  | ⟨1, _⟩ => show win2_3.index t (1 : Fin 2) * 2 + 1 * k.val = win2_4.index t (1 : Fin 2) * 2 + 1 * k.val; rw [d1, e1]

/-- What point t writes back is block t of msgG of the four input arrays as the region finds them. -/
private theorem flushed_eq (c : Dev nD) (t : Fin cfg2.N) :
    (dat2 V c).flushed 4 t = ((cfg2.win 4).blk t).view.read (Elt F)
      (msgG (n := 6000000) (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  funext j
  obtain ⟨r, k, rfl⟩ : ∃ (r : Fin 4000) (k : Fin 2), j = ix2 r k := ⟨j 0, j 1, eq_ix2 j⟩
  refine (out_at (iblk2 V c 0 t) (iblk2 V c 1 t) (iblk2 V c 2 t) (iblk2 V c 3 t) r k).trans ?_
  rw [iblk_colA V c t r k, iblk_colB V c t r k, iblk_featS V c t r k, iblk_featT V c t r k]
  rfl

/-- THE OUTPUT ARRAY after the region: msgG of the four input arrays as the region finds them, everywhere. -/
theorem final2 (c : Dev nD) : (dat2 V c).arrAt 4 cfg2.N
    = msgG (n := 6000000) (V c (Pipeline.arrRef spec2 0)) (V c (Pipeline.arrRef spec2 1)) (V c (Pipeline.arrRef spec2 2)) (V c (Pipeline.arrRef spec2 3)) :=
  (dat2 V c).arrAt_eq_of_cover 4 _ (fun t _ => flushed_eq V c t) covered

end Cert.KernelIdeal.Hand

end
-- ==== Proof.KI.Val3.lean ====
/-
  The message region's value: what its output array holds after the region, as ONE function of its four input arrays
  as the region finds them, at any float instance.

  At grid point t the body leaves in the output's staging buffer, at row r and feature k of the block,
      ((a[r,0] * b[r,0]) * xs[r,k]) + xt[r,k]
  of the four input blocks; every window's block at point t is rows [4000 t, 4000 t + 4000) of its array, so what point
  t writes back is block t of msgG of the four arrays; the 1500 blocks cover the 6000000 rows (row r is in block
  r / 4000), so the array ends holding msgG of the four arrays everywhere.
-/
import proofs.«149588_j66838281060723_2_alg».proof.Proof.KI.Body3
import proofs.«149588_j66838281060723_2_alg».proof.Proof.KI.GDefs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The zero offsets of a whole-block rectangle, however spelt. -/
private theorem zero_offsets : (![0, 0] : Fin 2 → Nat) = fun _ => 0 := funext fun a => by fin_cases a <;> rfl

/-- The body's arithmetic on whole blocks: the casts to the same shape are identities. -/
private theorem pay_eq (xa xb : Vec F S4000x1 .f32) (xs xt : Vec F S4000x2 .f32) :
    k3_pay1 xa xb xs xt = addf (mulf (broadcastTo S4000x2 (mulf xa xb) broadcasts_S4000x1_S4000x2) xs) xt := by
  unfold k3_pay1
  simp only [shapeCast_self]

/-- The body's arithmetic at row r, feature k of the block: the product of the two column entries of row r, times the
    first feature entry, plus the second. -/
private theorem pay_at (xa xb : Vec F S4000x1 .f32) (xs xt : Vec F S4000x2 .f32) (r : Fin 4000) (k : Fin 2) :
    k3_pay1 xa xb xs xt (ix2 r k)
      = FloatOps.addf (FloatOps.mulf (FloatOps.mulf (xa (ix2 r (0 : Fin 1))) (xb (ix2 r (0 : Fin 1)))) (xs (ix2 r k))) (xt (ix2 r k)) := by
  rw [pay_eq]
  show FloatOps.addf (FloatOps.mulf (broadcastTo S4000x2 (mulf xa xb) broadcasts_S4000x1_S4000x2 (ix2 r k)) (xs (ix2 r k))) (xt (ix2 r k)) = _
  rw [broadcastTo_apply (mulf xa xb) broadcasts_S4000x1_S4000x2 (ix2 r k) (ix2 r (0 : Fin 1))
    (fun a => match a with | ⟨0, _⟩ => rfl | ⟨1, _⟩ => rfl)]
  rfl

/-- The printed index maps, decided over the grid: every window's block at point t is block t along the rows and the
    one block along the columns. -/
private theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- The grid has 1500 points. -/
private theorem grid_points : grid3.N = 1500 := by decide

/-- An index of the output array is in point t's block iff each coordinate is in the block's range on its axis. -/
private theorem mem_blk (t : Fin cfg3.N) (i : S6000000x2.Idx) :
    i ∈ ((cfg3.win 4).blk t).view.set ↔ ∀ a : Fin 2, win3_4.index t a * S4000x2.size a ≤ (i a).val ∧ (i a).val < win3_4.index t a * S4000x2.size a + S4000x2.size a := by
  show i ∈ ((View.whole (Pipeline.arrRef spec3 4)).slice (win3_4.rect t)).set ↔ _
  rw [View.set_slice_whole, Rect.mem_set_unit]
  exact Iff.rfl

/-- Every entry of the output array is in the block of the point that its row number divided by 4000 names. -/
private theorem covered (i : S6000000x2.Idx) : ∃ t : Fin cfg3.N, (cfg3.win 4).flush t = true ∧ i ∈ ((cfg3.win 4).blk t).view.set := by
  have hi0 : (i 0).val < 6000000 := idx2_lt0 i
  have hi1 : (i 1).val < 2 := idx2_lt1 i
  refine ⟨⟨(i 0).val / 4000, by show _ < grid3.N; rw [grid_points]; omega⟩, flush3_4 _, ?_⟩
  rw [mem_blk]
  obtain ⟨-, -, -, -, -, -, -, -, e0, e1⟩ := idx_facts ⟨(i 0).val / 4000, by show _ < grid3.N; rw [grid_points]; omega⟩
  intro a
  match a with
  | ⟨0, _⟩ => show win3_4.index _ (0 : Fin 2) * 4000 ≤ (i 0).val ∧ (i 0).val < win3_4.index _ (0 : Fin 2) * 4000 + 4000; rw [e0]; show (i 0).val / 4000 * 4000 ≤ _ ∧ _ < (i 0).val / 4000 * 4000 + 4000; omega
  | ⟨1, _⟩ => show win3_4.index _ (1 : Fin 2) * 2 ≤ (i 1).val ∧ (i 1).val < win3_4.index _ (1 : Fin 2) * 2 + 2; rw [e1]; omega

/-- The output's staging buffer after the body at row r, feature k: the body's arithmetic of the four blocks there. -/
private theorem out_at (xa xb : Vec F S4000x1 .f32) (xs xt : Vec F S4000x2 .f32) (r : Fin 4000) (k : Fin 2) :
    out3_4 xa xb xs xt (ix2 r k)
      = FloatOps.addf (FloatOps.mulf (FloatOps.mulf (xa (ix2 r (0 : Fin 1))) (xb (ix2 r (0 : Fin 1)))) (xs (ix2 r k))) (xt (ix2 r k)) := by
  unfold out3_4
  rw [View.canon_unit_zero zero_offsets]
  simp only [View.ld_unit_zero (S := S4000x1) zero_offsets, View.ld_unit_zero (S := S4000x2) zero_offsets]
  exact pay_at xa xb xs xt r k

/-- Row r of the first column's block at point t is the column's entry at the row of the output array that row r of the
    output's block is. -/
private theorem iblk_colA (c : Dev nD) (t : Fin cfg3.N) (r : Fin 4000) (k : Fin 2) :
    iblk3 V c 0 t (ix2 r (0 : Fin 1))
      = V c (Pipeline.arrRef spec3 0) (ix2 (n0 := 6000000) (n1 := 1) ((((cfg3.win 4).blk t).view.emb (ix2 r k)) 0) 0) := by
  obtain ⟨a0, a1, -, -, -, -, -, -, e0, -⟩ := idx_facts t
  show V c (Pipeline.arrRef spec3 0) (((cfg3.win 0).blk t).view.emb (ix2 r (0 : Fin 1))) = _
  refine congrArg (V c (Pipeline.arrRef spec3 0)) (funext fun a => Fin.ext ?_)
  match a with
  | ⟨0, _⟩ => show win3_0.index t (0 : Fin 2) * 4000 + 1 * r.val = win3_4.index t (0 : Fin 2) * 4000 + 1 * r.val; rw [a0, e0]
  | ⟨1, _⟩ => show win3_0.index t (1 : Fin 2) * 1 + 1 * 0 = 0; rw [a1]

/-- The same for the second column. -/
private theorem iblk_colB (c : Dev nD) (t : Fin cfg3.N) (r : Fin 4000) (k : Fin 2) :
    iblk3 V c 1 t (ix2 r (0 : Fin 1))
      = V c (Pipeline.arrRef spec3 1) (ix2 (n0 := 6000000) (n1 := 1) ((((cfg3.win 4).blk t).view.emb (ix2 r k)) 0) 0) := by
  obtain ⟨-, -, b0, b1, -, -, -, -, e0, -⟩ := idx_facts t
  show V c (Pipeline.arrRef spec3 1) (((cfg3.win 1).blk t).view.emb (ix2 r (0 : Fin 1))) = _
  refine congrArg (V c (Pipeline.arrRef spec3 1)) (funext fun a => Fin.ext ?_)
  match a with
  | ⟨0, _⟩ => show win3_1.index t (0 : Fin 2) * 4000 + 1 * r.val = win3_4.index t (0 : Fin 2) * 4000 + 1 * r.val; rw [b0, e0]
  | ⟨1, _⟩ => show win3_1.index t (1 : Fin 2) * 1 + 1 * 0 = 0; rw [b1]

/-- Entry (r, k) of the first feature array's block at point t is the array's entry where entry (r, k) of the output's
    block is. -/
private theorem iblk_featS (c : Dev nD) (t : Fin cfg3.N) (r : Fin 4000) (k : Fin 2) :
    iblk3 V c 2 t (ix2 r k) = V c (Pipeline.arrRef spec3 2) (((cfg3.win 4).blk t).view.emb (ix2 r k)) := by
  obtain ⟨-, -, -, -, c0, c1, -, -, e0, e1⟩ := idx_facts t
  show V c (Pipeline.arrRef spec3 2) (((cfg3.win 2).blk t).view.emb (ix2 r k)) = _
  refine congrArg (V c (Pipeline.arrRef spec3 2)) (funext fun a => Fin.ext ?_)
  match a with
  | ⟨0, _⟩ => show win3_2.index t (0 : Fin 2) * 4000 + 1 * r.val = win3_4.index t (0 : Fin 2) * 4000 + 1 * r.val; rw [c0, e0]
  | ⟨1, _⟩ => show win3_2.index t (1 : Fin 2) * 2 + 1 * k.val = win3_4.index t (1 : Fin 2) * 2 + 1 * k.val; rw [c1, e1]

/-- The same for the second feature array. -/
private theorem iblk_featT (c : Dev nD) (t : Fin cfg3.N) (r : Fin 4000) (k : Fin 2) :
    iblk3 V c 3 t (ix2 r k) = V c (Pipeline.arrRef spec3 3) (((cfg3.win 4).blk t).view.emb (ix2 r k)) := by
  obtain ⟨-, -, -, -, -, -, d0, d1, e0, e1⟩ := idx_facts t
  show V c (Pipeline.arrRef spec3 3) (((cfg3.win 3).blk t).view.emb (ix2 r k)) = _
  refine congrArg (V c (Pipeline.arrRef spec3 3)) (funext fun a => Fin.ext ?_)
  match a with
  | ⟨0, _⟩ => show win3_3.index t (0 : Fin 2) * 4000 + 1 * r.val = win3_4.index t (0 : Fin 2) * 4000 + 1 * r.val; rw [d0, e0]
  | ⟨1, _⟩ => show win3_3.index t (1 : Fin 2) * 2 + 1 * k.val = win3_4.index t (1 : Fin 2) * 2 + 1 * k.val; rw [d1, e1]

/-- What point t writes back is block t of msgG of the four input arrays as the region finds them. -/
private theorem flushed_eq (c : Dev nD) (t : Fin cfg3.N) :
    (dat3 V c).flushed 4 t = ((cfg3.win 4).blk t).view.read (Elt F)
      (msgG (n := 6000000) (V c (Pipeline.arrRef spec3 0)) (V c (Pipeline.arrRef spec3 1)) (V c (Pipeline.arrRef spec3 2)) (V c (Pipeline.arrRef spec3 3))) := by
  show (cfg3.win 4).cut (grid3.coords t) ((dat3 V c).after 4 t) = _
  rw [after3_4]
  funext j
  obtain ⟨r, k, rfl⟩ : ∃ (r : Fin 4000) (k : Fin 2), j = ix2 r k := ⟨j 0, j 1, eq_ix2 j⟩
  refine (out_at (iblk3 V c 0 t) (iblk3 V c 1 t) (iblk3 V c 2 t) (iblk3 V c 3 t) r k).trans ?_
  rw [iblk_colA V c t r k, iblk_colB V c t r k, iblk_featS V c t r k, iblk_featT V c t r k]
  rfl

/-- THE OUTPUT ARRAY after the region: msgG of the four input arrays as the region finds them, everywhere. -/
theorem final3 (c : Dev nD) : (dat3 V c).arrAt 4 cfg3.N
    = msgG (n := 6000000) (V c (Pipeline.arrRef spec3 0)) (V c (Pipeline.arrRef spec3 1)) (V c (Pipeline.arrRef spec3 2)) (V c (Pipeline.arrRef spec3 3)) :=
  (dat3 V c).arrAt_eq_of_cover 4 _ (fun t _ => flushed_eq V c t) covered

end Cert.KernelIdeal.Hand

end
-- ==== Proof.KI.Val4.lean ====
/-
  The message region's value: what its output array holds after the region, as ONE function of its four input arrays
  as the region finds them, at any float instance.

  At grid point t the body leaves in the output's staging buffer, at row r and feature k of the block,
      ((a[r,0] * b[r,0]) * xs[r,k]) + xt[r,k]
  of the four input blocks; every window's block at point t is rows [4000 t, 4000 t + 4000) of its array, so what point
  t writes back is block t of msgG of the four arrays; the 1500 blocks cover the 6000000 rows (row r is in block
  r / 4000), so the array ends holding msgG of the four arrays everywhere.
-/
import proofs.«149588_j66838281060723_2_alg».proof.Proof.KI.Body4
import proofs.«149588_j66838281060723_2_alg».proof.Proof.KI.GDefs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The zero offsets of a whole-block rectangle, however spelt. -/
private theorem zero_offsets : (![0, 0] : Fin 2 → Nat) = fun _ => 0 := funext fun a => by fin_cases a <;> rfl

/-- The body's arithmetic on whole blocks: the casts to the same shape are identities. -/
private theorem pay_eq (xa xb : Vec F S4000x1 .f32) (xs xt : Vec F S4000x2 .f32) :
    k4_pay1 xa xb xs xt = addf (mulf (broadcastTo S4000x2 (mulf xa xb) broadcasts_S4000x1_S4000x2) xs) xt := by
  unfold k4_pay1
  simp only [shapeCast_self]

/-- The body's arithmetic at row r, feature k of the block: the product of the two column entries of row r, times the
    first feature entry, plus the second. -/
private theorem pay_at (xa xb : Vec F S4000x1 .f32) (xs xt : Vec F S4000x2 .f32) (r : Fin 4000) (k : Fin 2) :
    k4_pay1 xa xb xs xt (ix2 r k)
      = FloatOps.addf (FloatOps.mulf (FloatOps.mulf (xa (ix2 r (0 : Fin 1))) (xb (ix2 r (0 : Fin 1)))) (xs (ix2 r k))) (xt (ix2 r k)) := by
  rw [pay_eq]
  show FloatOps.addf (FloatOps.mulf (broadcastTo S4000x2 (mulf xa xb) broadcasts_S4000x1_S4000x2 (ix2 r k)) (xs (ix2 r k))) (xt (ix2 r k)) = _
  rw [broadcastTo_apply (mulf xa xb) broadcasts_S4000x1_S4000x2 (ix2 r k) (ix2 r (0 : Fin 1))
    (fun a => match a with | ⟨0, _⟩ => rfl | ⟨1, _⟩ => rfl)]
  rfl

/-- The printed index maps, decided over the grid: every window's block at point t is block t along the rows and the
    one block along the columns. -/
private theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- The grid has 1500 points. -/
private theorem grid_points : grid4.N = 1500 := by decide

/-- An index of the output array is in point t's block iff each coordinate is in the block's range on its axis. -/
private theorem mem_blk (t : Fin cfg4.N) (i : S6000000x2.Idx) :
    i ∈ ((cfg4.win 4).blk t).view.set ↔ ∀ a : Fin 2, win4_4.index t a * S4000x2.size a ≤ (i a).val ∧ (i a).val < win4_4.index t a * S4000x2.size a + S4000x2.size a := by
  show i ∈ ((View.whole (Pipeline.arrRef spec4 4)).slice (win4_4.rect t)).set ↔ _
  rw [View.set_slice_whole, Rect.mem_set_unit]
  exact Iff.rfl

/-- Every entry of the output array is in the block of the point that its row number divided by 4000 names. -/
private theorem covered (i : S6000000x2.Idx) : ∃ t : Fin cfg4.N, (cfg4.win 4).flush t = true ∧ i ∈ ((cfg4.win 4).blk t).view.set := by
  have hi0 : (i 0).val < 6000000 := idx2_lt0 i
  have hi1 : (i 1).val < 2 := idx2_lt1 i
  refine ⟨⟨(i 0).val / 4000, by show _ < grid4.N; rw [grid_points]; omega⟩, flush4_4 _, ?_⟩
  rw [mem_blk]
  obtain ⟨-, -, -, -, -, -, -, -, e0, e1⟩ := idx_facts ⟨(i 0).val / 4000, by show _ < grid4.N; rw [grid_points]; omega⟩
  intro a
  match a with
  | ⟨0, _⟩ => show win4_4.index _ (0 : Fin 2) * 4000 ≤ (i 0).val ∧ (i 0).val < win4_4.index _ (0 : Fin 2) * 4000 + 4000; rw [e0]; show (i 0).val / 4000 * 4000 ≤ _ ∧ _ < (i 0).val / 4000 * 4000 + 4000; omega
  | ⟨1, _⟩ => show win4_4.index _ (1 : Fin 2) * 2 ≤ (i 1).val ∧ (i 1).val < win4_4.index _ (1 : Fin 2) * 2 + 2; rw [e1]; omega

/-- The output's staging buffer after the body at row r, feature k: the body's arithmetic of the four blocks there. -/
private theorem out_at (xa xb : Vec F S4000x1 .f32) (xs xt : Vec F S4000x2 .f32) (r : Fin 4000) (k : Fin 2) :
    out4_4 xa xb xs xt (ix2 r k)
      = FloatOps.addf (FloatOps.mulf (FloatOps.mulf (xa (ix2 r (0 : Fin 1))) (xb (ix2 r (0 : Fin 1)))) (xs (ix2 r k))) (xt (ix2 r k)) := by
  unfold out4_4
  rw [View.canon_unit_zero zero_offsets]
  simp only [View.ld_unit_zero (S := S4000x1) zero_offsets, View.ld_unit_zero (S := S4000x2) zero_offsets]
  exact pay_at xa xb xs xt r k

/-- Row r of the first column's block at point t is the column's entry at the row of the output array that row r of the
    output's block is. -/
private theorem iblk_colA (c : Dev nD) (t : Fin cfg4.N) (r : Fin 4000) (k : Fin 2) :
    iblk4 V c 0 t (ix2 r (0 : Fin 1))
      = V c (Pipeline.arrRef spec4 0) (ix2 (n0 := 6000000) (n1 := 1) ((((cfg4.win 4).blk t).view.emb (ix2 r k)) 0) 0) := by
  obtain ⟨a0, a1, -, -, -, -, -, -, e0, -⟩ := idx_facts t
  show V c (Pipeline.arrRef spec4 0) (((cfg4.win 0).blk t).view.emb (ix2 r (0 : Fin 1))) = _
  refine congrArg (V c (Pipeline.arrRef spec4 0)) (funext fun a => Fin.ext ?_)
  match a with
  | ⟨0, _⟩ => show win4_0.index t (0 : Fin 2) * 4000 + 1 * r.val = win4_4.index t (0 : Fin 2) * 4000 + 1 * r.val; rw [a0, e0]
  | ⟨1, _⟩ => show win4_0.index t (1 : Fin 2) * 1 + 1 * 0 = 0; rw [a1]

/-- The same for the second column. -/
private theorem iblk_colB (c : Dev nD) (t : Fin cfg4.N) (r : Fin 4000) (k : Fin 2) :
    iblk4 V c 1 t (ix2 r (0 : Fin 1))
      = V c (Pipeline.arrRef spec4 1) (ix2 (n0 := 6000000) (n1 := 1) ((((cfg4.win 4).blk t).view.emb (ix2 r k)) 0) 0) := by
  obtain ⟨-, -, b0, b1, -, -, -, -, e0, -⟩ := idx_facts t
  show V c (Pipeline.arrRef spec4 1) (((cfg4.win 1).blk t).view.emb (ix2 r (0 : Fin 1))) = _
  refine congrArg (V c (Pipeline.arrRef spec4 1)) (funext fun a => Fin.ext ?_)
  match a with
  | ⟨0, _⟩ => show win4_1.index t (0 : Fin 2) * 4000 + 1 * r.val = win4_4.index t (0 : Fin 2) * 4000 + 1 * r.val; rw [b0, e0]
  | ⟨1, _⟩ => show win4_1.index t (1 : Fin 2) * 1 + 1 * 0 = 0; rw [b1]

/-- Entry (r, k) of the first feature array's block at point t is the array's entry where entry (r, k) of the output's
    block is. -/
private theorem iblk_featS (c : Dev nD) (t : Fin cfg4.N) (r : Fin 4000) (k : Fin 2) :
    iblk4 V c 2 t (ix2 r k) = V c (Pipeline.arrRef spec4 2) (((cfg4.win 4).blk t).view.emb (ix2 r k)) := by
  obtain ⟨-, -, -, -, c0, c1, -, -, e0, e1⟩ := idx_facts t
  show V c (Pipeline.arrRef spec4 2) (((cfg4.win 2).blk t).view.emb (ix2 r k)) = _
  refine congrArg (V c (Pipeline.arrRef spec4 2)) (funext fun a => Fin.ext ?_)
  match a with
  | ⟨0, _⟩ => show win4_2.index t (0 : Fin 2) * 4000 + 1 * r.val = win4_4.index t (0 : Fin 2) * 4000 + 1 * r.val; rw [c0, e0]
  | ⟨1, _⟩ => show win4_2.index t (1 : Fin 2) * 2 + 1 * k.val = win4_4.index t (1 : Fin 2) * 2 + 1 * k.val; rw [c1, e1]

/-- The same for the second feature array. -/
private theorem iblk_featT (c : Dev nD) (t : Fin cfg4.N) (r : Fin 4000) (k : Fin 2) :
    iblk4 V c 3 t (ix2 r k) = V c (Pipeline.arrRef spec4 3) (((cfg4.win 4).blk t).view.emb (ix2 r k)) := by
  obtain ⟨-, -, -, -, -, -, d0, d1, e0, e1⟩ := idx_facts t
  show V c (Pipeline.arrRef spec4 3) (((cfg4.win 3).blk t).view.emb (ix2 r k)) = _
  refine congrArg (V c (Pipeline.arrRef spec4 3)) (funext fun a => Fin.ext ?_)
  match a with
  | ⟨0, _⟩ => show win4_3.index t (0 : Fin 2) * 4000 + 1 * r.val = win4_4.index t (0 : Fin 2) * 4000 + 1 * r.val; rw [d0, e0]
  | ⟨1, _⟩ => show win4_3.index t (1 : Fin 2) * 2 + 1 * k.val = win4_4.index t (1 : Fin 2) * 2 + 1 * k.val; rw [d1, e1]

/-- What point t writes back is block t of msgG of the four input arrays as the region finds them. -/
private theorem flushed_eq (c : Dev nD) (t : Fin cfg4.N) :
    (dat4 V c).flushed 4 t = ((cfg4.win 4).blk t).view.read (Elt F)
      (msgG (n := 6000000) (V c (Pipeline.arrRef spec4 0)) (V c (Pipeline.arrRef spec4 1)) (V c (Pipeline.arrRef spec4 2)) (V c (Pipeline.arrRef spec4 3))) := by
  show (cfg4.win 4).cut (grid4.coords t) ((dat4 V c).after 4 t) = _
  rw [after4_4]
  funext j
  obtain ⟨r, k, rfl⟩ : ∃ (r : Fin 4000) (k : Fin 2), j = ix2 r k := ⟨j 0, j 1, eq_ix2 j⟩
  refine (out_at (iblk4 V c 0 t) (iblk4 V c 1 t) (iblk4 V c 2 t) (iblk4 V c 3 t) r k).trans ?_
  rw [iblk_colA V c t r k, iblk_colB V c t r k, iblk_featS V c t r k, iblk_featT V c t r k]
  rfl

/-- THE OUTPUT ARRAY after the region: msgG of the four input arrays as the region finds them, everywhere. -/
theorem final4 (c : Dev nD) : (dat4 V c).arrAt 4 cfg4.N
    = msgG (n := 6000000) (V c (Pipeline.arrRef spec4 0)) (V c (Pipeline.arrRef spec4 1)) (V c (Pipeline.arrRef spec4 2)) (V c (Pipeline.arrRef spec4 3)) :=
  (dat4 V c).arrAt_eq_of_cover 4 _ (fun t _ => flushed_eq V c t) covered

end Cert.KernelIdeal.Hand

end
-- ==== Proof.KI.Val5.lean ====
/-
  The message region's value: what its output array holds after the region, as ONE function of its four input arrays
  as the region finds them, at any float instance.

  At grid point t the body leaves in the output's staging buffer, at row r and feature k of the block,
      ((a[r,0] * b[r,0]) * xs[r,k]) + xt[r,k]
  of the four input blocks; every window's block at point t is rows [4000 t, 4000 t + 4000) of its array, so what point
  t writes back is block t of msgG of the four arrays; the 1500 blocks cover the 6000000 rows (row r is in block
  r / 4000), so the array ends holding msgG of the four arrays everywhere.
-/
import proofs.«149588_j66838281060723_2_alg».proof.Proof.KI.Body5
import proofs.«149588_j66838281060723_2_alg».proof.Proof.KI.GDefs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The zero offsets of a whole-block rectangle, however spelt. -/
private theorem zero_offsets : (![0, 0] : Fin 2 → Nat) = fun _ => 0 := funext fun a => by fin_cases a <;> rfl

/-- The body's arithmetic on whole blocks: the casts to the same shape are identities. -/
private theorem pay_eq (xa xb : Vec F S4000x1 .f32) (xs xt : Vec F S4000x2 .f32) :
    k5_pay1 xa xb xs xt = addf (mulf (broadcastTo S4000x2 (mulf xa xb) broadcasts_S4000x1_S4000x2) xs) xt := by
  unfold k5_pay1
  simp only [shapeCast_self]

/-- The body's arithmetic at row r, feature k of the block: the product of the two column entries of row r, times the
    first feature entry, plus the second. -/
private theorem pay_at (xa xb : Vec F S4000x1 .f32) (xs xt : Vec F S4000x2 .f32) (r : Fin 4000) (k : Fin 2) :
    k5_pay1 xa xb xs xt (ix2 r k)
      = FloatOps.addf (FloatOps.mulf (FloatOps.mulf (xa (ix2 r (0 : Fin 1))) (xb (ix2 r (0 : Fin 1)))) (xs (ix2 r k))) (xt (ix2 r k)) := by
  rw [pay_eq]
  show FloatOps.addf (FloatOps.mulf (broadcastTo S4000x2 (mulf xa xb) broadcasts_S4000x1_S4000x2 (ix2 r k)) (xs (ix2 r k))) (xt (ix2 r k)) = _
  rw [broadcastTo_apply (mulf xa xb) broadcasts_S4000x1_S4000x2 (ix2 r k) (ix2 r (0 : Fin 1))
    (fun a => match a with | ⟨0, _⟩ => rfl | ⟨1, _⟩ => rfl)]
  rfl

/-- The printed index maps, decided over the grid: every window's block at point t is block t along the rows and the
    one block along the columns. -/
private theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- The grid has 1500 points. -/
private theorem grid_points : grid5.N = 1500 := by decide

/-- An index of the output array is in point t's block iff each coordinate is in the block's range on its axis. -/
private theorem mem_blk (t : Fin cfg5.N) (i : S6000000x2.Idx) :
    i ∈ ((cfg5.win 4).blk t).view.set ↔ ∀ a : Fin 2, win5_4.index t a * S4000x2.size a ≤ (i a).val ∧ (i a).val < win5_4.index t a * S4000x2.size a + S4000x2.size a := by
  show i ∈ ((View.whole (Pipeline.arrRef spec5 4)).slice (win5_4.rect t)).set ↔ _
  rw [View.set_slice_whole, Rect.mem_set_unit]
  exact Iff.rfl

/-- Every entry of the output array is in the block of the point that its row number divided by 4000 names. -/
private theorem covered (i : S6000000x2.Idx) : ∃ t : Fin cfg5.N, (cfg5.win 4).flush t = true ∧ i ∈ ((cfg5.win 4).blk t).view.set := by
  have hi0 : (i 0).val < 6000000 := idx2_lt0 i
  have hi1 : (i 1).val < 2 := idx2_lt1 i
  refine ⟨⟨(i 0).val / 4000, by show _ < grid5.N; rw [grid_points]; omega⟩, flush5_4 _, ?_⟩
  rw [mem_blk]
  obtain ⟨-, -, -, -, -, -, -, -, e0, e1⟩ := idx_facts ⟨(i 0).val / 4000, by show _ < grid5.N; rw [grid_points]; omega⟩
  intro a
  match a with
  | ⟨0, _⟩ => show win5_4.index _ (0 : Fin 2) * 4000 ≤ (i 0).val ∧ (i 0).val < win5_4.index _ (0 : Fin 2) * 4000 + 4000; rw [e0]; show (i 0).val / 4000 * 4000 ≤ _ ∧ _ < (i 0).val / 4000 * 4000 + 4000; omega
  | ⟨1, _⟩ => show win5_4.index _ (1 : Fin 2) * 2 ≤ (i 1).val ∧ (i 1).val < win5_4.index _ (1 : Fin 2) * 2 + 2; rw [e1]; omega

/-- The output's staging buffer after the body at row r, feature k: the body's arithmetic of the four blocks there. -/
private theorem out_at (xa xb : Vec F S4000x1 .f32) (xs xt : Vec F S4000x2 .f32) (r : Fin 4000) (k : Fin 2) :
    out5_4 xa xb xs xt (ix2 r k)
      = FloatOps.addf (FloatOps.mulf (FloatOps.mulf (xa (ix2 r (0 : Fin 1))) (xb (ix2 r (0 : Fin 1)))) (xs (ix2 r k))) (xt (ix2 r k)) := by
  unfold out5_4
  rw [View.canon_unit_zero zero_offsets]
  simp only [View.ld_unit_zero (S := S4000x1) zero_offsets, View.ld_unit_zero (S := S4000x2) zero_offsets]
  exact pay_at xa xb xs xt r k

/-- Row r of the first column's block at point t is the column's entry at the row of the output array that row r of the
    output's block is. -/
private theorem iblk_colA (c : Dev nD) (t : Fin cfg5.N) (r : Fin 4000) (k : Fin 2) :
    iblk5 V c 0 t (ix2 r (0 : Fin 1))
      = V c (Pipeline.arrRef spec5 0) (ix2 (n0 := 6000000) (n1 := 1) ((((cfg5.win 4).blk t).view.emb (ix2 r k)) 0) 0) := by
  obtain ⟨a0, a1, -, -, -, -, -, -, e0, -⟩ := idx_facts t
  show V c (Pipeline.arrRef spec5 0) (((cfg5.win 0).blk t).view.emb (ix2 r (0 : Fin 1))) = _
  refine congrArg (V c (Pipeline.arrRef spec5 0)) (funext fun a => Fin.ext ?_)
  match a with
  | ⟨0, _⟩ => show win5_0.index t (0 : Fin 2) * 4000 + 1 * r.val = win5_4.index t (0 : Fin 2) * 4000 + 1 * r.val; rw [a0, e0]
  | ⟨1, _⟩ => show win5_0.index t (1 : Fin 2) * 1 + 1 * 0 = 0; rw [a1]

/-- The same for the second column. -/
private theorem iblk_colB (c : Dev nD) (t : Fin cfg5.N) (r : Fin 4000) (k : Fin 2) :
    iblk5 V c 1 t (ix2 r (0 : Fin 1))
      = V c (Pipeline.arrRef spec5 1) (ix2 (n0 := 6000000) (n1 := 1) ((((cfg5.win 4).blk t).view.emb (ix2 r k)) 0) 0) := by
  obtain ⟨-, -, b0, b1, -, -, -, -, e0, -⟩ := idx_facts t
  show V c (Pipeline.arrRef spec5 1) (((cfg5.win 1).blk t).view.emb (ix2 r (0 : Fin 1))) = _
  refine congrArg (V c (Pipeline.arrRef spec5 1)) (funext fun a => Fin.ext ?_)
  match a with
  | ⟨0, _⟩ => show win5_1.index t (0 : Fin 2) * 4000 + 1 * r.val = win5_4.index t (0 : Fin 2) * 4000 + 1 * r.val; rw [b0, e0]
  | ⟨1, _⟩ => show win5_1.index t (1 : Fin 2) * 1 + 1 * 0 = 0; rw [b1]

/-- Entry (r, k) of the first feature array's block at point t is the array's entry where entry (r, k) of the output's
    block is. -/
private theorem iblk_featS (c : Dev nD) (t : Fin cfg5.N) (r : Fin 4000) (k : Fin 2) :
    iblk5 V c 2 t (ix2 r k) = V c (Pipeline.arrRef spec5 2) (((cfg5.win 4).blk t).view.emb (ix2 r k)) := by
  obtain ⟨-, -, -, -, c0, c1, -, -, e0, e1⟩ := idx_facts t
  show V c (Pipeline.arrRef spec5 2) (((cfg5.win 2).blk t).view.emb (ix2 r k)) = _
  refine congrArg (V c (Pipeline.arrRef spec5 2)) (funext fun a => Fin.ext ?_)
  match a with
  | ⟨0, _⟩ => show win5_2.index t (0 : Fin 2) * 4000 + 1 * r.val = win5_4.index t (0 : Fin 2) * 4000 + 1 * r.val; rw [c0, e0]
  | ⟨1, _⟩ => show win5_2.index t (1 : Fin 2) * 2 + 1 * k.val = win5_4.index t (1 : Fin 2) * 2 + 1 * k.val; rw [c1, e1]

/-- The same for the second feature array. -/
private theorem iblk_featT (c : Dev nD) (t : Fin cfg5.N) (r : Fin 4000) (k : Fin 2) :
    iblk5 V c 3 t (ix2 r k) = V c (Pipeline.arrRef spec5 3) (((cfg5.win 4).blk t).view.emb (ix2 r k)) := by
  obtain ⟨-, -, -, -, -, -, d0, d1, e0, e1⟩ := idx_facts t
  show V c (Pipeline.arrRef spec5 3) (((cfg5.win 3).blk t).view.emb (ix2 r k)) = _
  refine congrArg (V c (Pipeline.arrRef spec5 3)) (funext fun a => Fin.ext ?_)
  match a with
  | ⟨0, _⟩ => show win5_3.index t (0 : Fin 2) * 4000 + 1 * r.val = win5_4.index t (0 : Fin 2) * 4000 + 1 * r.val; rw [d0, e0]
  | ⟨1, _⟩ => show win5_3.index t (1 : Fin 2) * 2 + 1 * k.val = win5_4.index t (1 : Fin 2) * 2 + 1 * k.val; rw [d1, e1]

/-- What point t writes back is block t of msgG of the four input arrays as the region finds them. -/
private theorem flushed_eq (c : Dev nD) (t : Fin cfg5.N) :
    (dat5 V c).flushed 4 t = ((cfg5.win 4).blk t).view.read (Elt F)
      (msgG (n := 6000000) (V c (Pipeline.arrRef spec5 0)) (V c (Pipeline.arrRef spec5 1)) (V c (Pipeline.arrRef spec5 2)) (V c (Pipeline.arrRef spec5 3))) := by
  show (cfg5.win 4).cut (grid5.coords t) ((dat5 V c).after 4 t) = _
  rw [after5_4]
  funext j
  obtain ⟨r, k, rfl⟩ : ∃ (r : Fin 4000) (k : Fin 2), j = ix2 r k := ⟨j 0, j 1, eq_ix2 j⟩
  refine (out_at (iblk5 V c 0 t) (iblk5 V c 1 t) (iblk5 V c 2 t) (iblk5 V c 3 t) r k).trans ?_
  rw [iblk_colA V c t r k, iblk_colB V c t r k, iblk_featS V c t r k, iblk_featT V c t r k]
  rfl

/-- THE OUTPUT ARRAY after the region: msgG of the four input arrays as the region finds them, everywhere. -/
theorem final5 (c : Dev nD) : (dat5 V c).arrAt 4 cfg5.N
    = msgG (n := 6000000) (V c (Pipeline.arrRef spec5 0)) (V c (Pipeline.arrRef spec5 1)) (V c (Pipeline.arrRef spec5 2)) (V c (Pipeline.arrRef spec5 3)) :=
  (dat5 V c).arrAt_eq_of_cover 4 _ (fun t _ => flushed_eq V c t) covered

end Cert.KernelIdeal.Hand

end
-- ==== Proof.KI.Val6.lean ====
/-
  The affine region at six input columns (pallas_call 6): the value of its output array after the region, as one
  function of the three arrays it reads, index by index.

  Point t writes back the rows [10000 t, 10000 t + 10000) of the output; at row r of the block and column j the body
  stored ((((((0 + x[r,0] * w[0,j]) + x[r,1] * w[1,j]) + x[r,2] * w[2,j]) + x[r,3] * w[3,j]) + x[r,4] * w[4,j])
  + x[r,5] * w[5,j]) + b[0,j] of its staging buffers, which hold the rows [10000 t, 10000 t + 10000) of the input and
  the whole weight matrix and bias row. So what point t writes back is block t of the affine function of the three
  arrays; the 50 blocks tile the output array (row r is in block r / 10000), so the array ends holding that function
  everywhere.
-/
import proofs.«149588_j66838281060723_2_alg».proof.Proof.KI.Body6
import proofs.«149588_j66838281060723_2_alg».proof.Proof.KI.AffG
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

-- the TensorCore's buffer contents when the region is entered
variable (V : (c : Dev nD) → (b : Ref sig .tc) → Buf (Elt F) ((c : Thread nD τ).loc b))

theorem hz6 : (![0, 0] : Fin 2 → Nat) = fun _ => 0 := funext fun a => by fin_cases a <;> rfl

/-- Input column k, broadcast along the two output columns, read at an index: the input at the index's row and column k. -/
theorem xcol6 (x0 : Vec F S10000x6 .f32) (off : Fin 2 → Nat) (h : S10000x6.Slices off S10000x1) (k : Fin 6)
    (h0 : off 0 = 0) (h1 : off 1 = k.val) (j : S10000x2.Idx) :
    broadcastTo S10000x2 (extractStridedSlice S10000x1 off x0 h) broadcasts_S10000x1_S10000x2 j
      = x0 (ix2 (n0 := 10000) (n1 := 6) (j 0) k) := by
  rw [broadcastTo_apply _ _ j (ix2 (n0 := 10000) (n1 := 1) (j 0) 0) (fun a => by match a with | ⟨0, _⟩ => rfl | ⟨1, _⟩ => rfl)]
  exact extractStridedSlice_apply off x0 h (ix2 (n0 := 10000) (n1 := 1) (j 0) 0) (ix2 (n0 := 10000) (n1 := 6) (j 0) k) (fun a => by
    match a with
    | ⟨0, _⟩ => show (j 0).val = off 0 + (j 0).val; omega
    | ⟨1, _⟩ => show k.val = off 1 + 0; omega)

/-- Weight row k, broadcast along the rows, read at an index: the weight at row k and the index's column. -/
theorem wrow6 (x1 : Vec F S6x2 .f32) (off : Fin 2 → Nat) (h : S6x2.Slices off S1x2) (k : Fin 6)
    (h0 : off 0 = k.val) (h1 : off 1 = 0) (j : S10000x2.Idx) :
    broadcastTo S10000x2 (extractStridedSlice S1x2 off x1 h) broadcasts_S1x2_S10000x2 j
      = x1 (ix2 (n0 := 6) (n1 := 2) k (j 1)) := by
  rw [broadcastTo_apply _ _ j (ix2 (n0 := 1) (n1 := 2) 0 (j 1)) (fun a => by match a with | ⟨0, _⟩ => rfl | ⟨1, _⟩ => rfl)]
  exact extractStridedSlice_apply off x1 h (ix2 (n0 := 1) (n1 := 2) 0 (j 1)) (ix2 (n0 := 6) (n1 := 2) k (j 1)) (fun a => by
    match a with
    | ⟨0, _⟩ => show k.val = off 0 + 0; omega
    | ⟨1, _⟩ => show (j 1).val = off 1 + (j 1).val; omega)

/-- The body's payload at an index: the kernel's order of operations on the elements the slices and broadcasts read. -/
theorem pay6_apply (x0 : Vec F S10000x6 .f32) (x1 : Vec F S6x2 .f32) (x2 : Vec F S1x2 .f32) (j : S10000x2.Idx) :
    k6_pay1 x0 x1 x2 j = FloatOps.addf (FloatOps.addf (FloatOps.addf (FloatOps.addf (FloatOps.addf (FloatOps.addf (FloatOps.addf (Scalar.ofBits (F := F) .f32 0x00000000#32)
      (FloatOps.mulf (x0 (ix2 (n0 := 10000) (n1 := 6) (j 0) 0)) (x1 (ix2 (n0 := 6) (n1 := 2) 0 (j 1)))))
      (FloatOps.mulf (x0 (ix2 (n0 := 10000) (n1 := 6) (j 0) 1)) (x1 (ix2 (n0 := 6) (n1 := 2) 1 (j 1)))))
      (FloatOps.mulf (x0 (ix2 (n0 := 10000) (n1 := 6) (j 0) 2)) (x1 (ix2 (n0 := 6) (n1 := 2) 2 (j 1)))))
      (FloatOps.mulf (x0 (ix2 (n0 := 10000) (n1 := 6) (j 0) 3)) (x1 (ix2 (n0 := 6) (n1 := 2) 3 (j 1)))))
      (FloatOps.mulf (x0 (ix2 (n0 := 10000) (n1 := 6) (j 0) 4)) (x1 (ix2 (n0 := 6) (n1 := 2) 4 (j 1)))))
      (FloatOps.mulf (x0 (ix2 (n0 := 10000) (n1 := 6) (j 0) 5)) (x1 (ix2 (n0 := 6) (n1 := 2) 5 (j 1)))))
      (x2 (ix2 (n0 := 1) (n1 := 2) 0 (j 1))) := by
  unfold k6_pay1
  show FloatOps.addf (FloatOps.addf (FloatOps.addf (FloatOps.addf (FloatOps.addf (FloatOps.addf (FloatOps.addf (Scalar.ofBits (F := F) .f32 0x00000000#32)
      (FloatOps.mulf (broadcastTo S10000x2 (extractStridedSlice S10000x1 ![0, 0] (shapeCast S10000x6 x0 shapeCasts_S10000x6_S10000x6) slices_S10000x6_o0_0_S10000x1) broadcasts_S10000x1_S10000x2 j)
        (broadcastTo S10000x2 (extractStridedSlice S1x2 ![0, 0] (shapeCast S6x2 x1 shapeCasts_S6x2_S6x2) slices_S6x2_o0_0_S1x2) broadcasts_S1x2_S10000x2 j)))
      (FloatOps.mulf (broadcastTo S10000x2 (extractStridedSlice S10000x1 ![0, 1] (shapeCast S10000x6 x0 shapeCasts_S10000x6_S10000x6) slices_S10000x6_o0_1_S10000x1) broadcasts_S10000x1_S10000x2 j)
        (broadcastTo S10000x2 (extractStridedSlice S1x2 ![1, 0] (shapeCast S6x2 x1 shapeCasts_S6x2_S6x2) slices_S6x2_o1_0_S1x2) broadcasts_S1x2_S10000x2 j)))
      (FloatOps.mulf (broadcastTo S10000x2 (extractStridedSlice S10000x1 ![0, 2] (shapeCast S10000x6 x0 shapeCasts_S10000x6_S10000x6) slices_S10000x6_o0_2_S10000x1) broadcasts_S10000x1_S10000x2 j)
        (broadcastTo S10000x2 (extractStridedSlice S1x2 ![2, 0] (shapeCast S6x2 x1 shapeCasts_S6x2_S6x2) slices_S6x2_o2_0_S1x2) broadcasts_S1x2_S10000x2 j)))
      (FloatOps.mulf (broadcastTo S10000x2 (extractStridedSlice S10000x1 ![0, 3] (shapeCast S10000x6 x0 shapeCasts_S10000x6_S10000x6) slices_S10000x6_o0_3_S10000x1) broadcasts_S10000x1_S10000x2 j)
        (broadcastTo S10000x2 (extractStridedSlice S1x2 ![3, 0] (shapeCast S6x2 x1 shapeCasts_S6x2_S6x2) slices_S6x2_o3_0_S1x2) broadcasts_S1x2_S10000x2 j)))
      (FloatOps.mulf (broadcastTo S10000x2 (extractStridedSlice S10000x1 ![0, 4] (shapeCast S10000x6 x0 shapeCasts_S10000x6_S10000x6) slices_S10000x6_o0_4_S10000x1) broadcasts_S10000x1_S10000x2 j)
        (broadcastTo S10000x2 (extractStridedSlice S1x2 ![4, 0] (shapeCast S6x2 x1 shapeCasts_S6x2_S6x2) slices_S6x2_o4_0_S1x2) broadcasts_S1x2_S10000x2 j)))
      (FloatOps.mulf (broadcastTo S10000x2 (extractStridedSlice S10000x1 ![0, 5] (shapeCast S10000x6 x0 shapeCasts_S10000x6_S10000x6) slices_S10000x6_o0_5_S10000x1) broadcasts_S10000x1_S10000x2 j)
        (broadcastTo S10000x2 (extractStridedSlice S1x2 ![5, 0] (shapeCast S6x2 x1 shapeCasts_S6x2_S6x2) slices_S6x2_o5_0_S1x2) broadcasts_S1x2_S10000x2 j)))
      (broadcastTo S10000x2 (shapeCast S1x2 x2 shapeCasts_S1x2_S1x2) broadcasts_S1x2_S10000x2 j) = _
  rw [shapeCast_self, shapeCast_self, shapeCast_self,
    xcol6 x0 ![0, 0] slices_S10000x6_o0_0_S10000x1 0 rfl rfl j, wrow6 x1 ![0, 0] slices_S6x2_o0_0_S1x2 0 rfl rfl j,
    xcol6 x0 ![0, 1] slices_S10000x6_o0_1_S10000x1 1 rfl rfl j, wrow6 x1 ![1, 0] slices_S6x2_o1_0_S1x2 1 rfl rfl j,
    xcol6 x0 ![0, 2] slices_S10000x6_o0_2_S10000x1 2 rfl rfl j, wrow6 x1 ![2, 0] slices_S6x2_o2_0_S1x2 2 rfl rfl j,
    xcol6 x0 ![0, 3] slices_S10000x6_o0_3_S10000x1 3 rfl rfl j, wrow6 x1 ![3, 0] slices_S6x2_o3_0_S1x2 3 rfl rfl j,
    xcol6 x0 ![0, 4] slices_S10000x6_o0_4_S10000x1 4 rfl rfl j, wrow6 x1 ![4, 0] slices_S6x2_o4_0_S1x2 4 rfl rfl j,
    xcol6 x0 ![0, 5] slices_S10000x6_o0_5_S10000x1 5 rfl rfl j, wrow6 x1 ![5, 0] slices_S6x2_o5_0_S1x2 5 rfl rfl j,
    broadcastTo_apply x2 _ j (ix2 (n0 := 1) (n1 := 2) 0 (j 1)) (fun a => by match a with | ⟨0, _⟩ => rfl | ⟨1, _⟩ => rfl)]

/-- The index maps, decided over the grid: the input's and the output's row block is the point's number, and every
    other block index is zero. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Where the blocks sit in their arrays: at point t the element of the input block at (row, column k) is the input
    array's element at the row of the output block's element and column k, -/
theorem embx6 (t : Fin cfg6.N) (j : S10000x2.Idx) (k : Fin 6) :
    ((cfg6.win 0).blk t).view.emb (ix2 (n0 := 10000) (n1 := 6) (j 0) k)
      = ix2 (n0 := 500000) (n1 := 6) ((((cfg6.win 3).blk t).view.emb j) 0) k := by
  obtain ⟨e0, e1, e2, e3, e4, e5, e6, e7⟩ := idx_facts6 t
  funext a; apply Fin.ext
  match a with
  | ⟨0, _⟩ => show win6_0.index t (0 : Fin 2) * 10000 + 1 * (j 0).val = win6_3.index t (0 : Fin 2) * 10000 + 1 * (j 0).val; omega
  | ⟨1, _⟩ => show win6_0.index t (1 : Fin 2) * 6 + 1 * k.val = k.val; omega
/-- the element of the weight block at (k, column) is the weight array's at k and the output element's column, -/
theorem embw6 (t : Fin cfg6.N) (j : S10000x2.Idx) (k : Fin 6) :
    ((cfg6.win 1).blk t).view.emb (ix2 (n0 := 6) (n1 := 2) k (j 1))
      = ix2 (n0 := 6) (n1 := 2) k ((((cfg6.win 3).blk t).view.emb j) 1) := by
  obtain ⟨e0, e1, e2, e3, e4, e5, e6, e7⟩ := idx_facts6 t
  funext a; apply Fin.ext
  match a with
  | ⟨0, _⟩ => show win6_1.index t (0 : Fin 2) * 6 + 1 * k.val = k.val; omega
  | ⟨1, _⟩ => show win6_1.index t (1 : Fin 2) * 2 + 1 * (j 1).val = win6_3.index t (1 : Fin 2) * 2 + 1 * (j 1).val; omega
/-- and the element of the bias block at (0, column) is the bias array's at the output element's column. -/
theorem embb6 (t : Fin cfg6.N) (j : S10000x2.Idx) :
    ((cfg6.win 2).blk t).view.emb (ix2 (n0 := 1) (n1 := 2) 0 (j 1))
      = ix2 (n0 := 1) (n1 := 2) 0 ((((cfg6.win 3).blk t).view.emb j) 1) := by
  obtain ⟨e0, e1, e2, e3, e4, e5, e6, e7⟩ := idx_facts6 t
  funext a; apply Fin.ext
  match a with
  | ⟨0, _⟩ => show win6_2.index t (0 : Fin 2) * 1 + 1 * 0 = 0; omega
  | ⟨1, _⟩ => show win6_2.index t (1 : Fin 2) * 2 + 1 * (j 1).val = win6_3.index t (1 : Fin 2) * 2 + 1 * (j 1).val; omega

set_option maxHeartbeats 1000000 in
/-- What point t writes back is block t of the affine function of the three arrays as the region finds them. -/
theorem flushed6_eq (c : Dev nD) (t : Fin cfg6.N) :
    (dat6 V c).flushed 3 t = ((cfg6.win 3).blk t).view.read (Elt F)
      (aff6G (n := 500000) (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz6]
  simp only [View.ld_unit_zero (S := S10000x6) hz6, View.ld_unit_zero (S := S6x2) hz6, View.ld_unit_zero (S := S1x2) hz6]
  funext j
  show k6_pay1 (iblk6 V c 0 t) (iblk6 V c 1 t) (iblk6 V c 2 t) j
    = aff6G (n := 500000) (V c (Pipeline.arrRef spec6 0)) (V c (Pipeline.arrRef spec6 1)) (V c (Pipeline.arrRef spec6 2)) (((cfg6.win 3).blk t).view.emb j)
  rw [pay6_apply]
  show FloatOps.addf (FloatOps.addf (FloatOps.addf (FloatOps.addf (FloatOps.addf (FloatOps.addf (FloatOps.addf (Scalar.ofBits (F := F) .f32 0x00000000#32)
      (FloatOps.mulf (V c (Pipeline.arrRef spec6 0) (((cfg6.win 0).blk t).view.emb (ix2 (n0 := 10000) (n1 := 6) (j 0) 0)))
        (V c (Pipeline.arrRef spec6 1) (((cfg6.win 1).blk t).view.emb (ix2 (n0 := 6) (n1 := 2) 0 (j 1))))))
      (FloatOps.mulf (V c (Pipeline.arrRef spec6 0) (((cfg6.win 0).blk t).view.emb (ix2 (n0 := 10000) (n1 := 6) (j 0) 1)))
        (V c (Pipeline.arrRef spec6 1) (((cfg6.win 1).blk t).view.emb (ix2 (n0 := 6) (n1 := 2) 1 (j 1))))))
      (FloatOps.mulf (V c (Pipeline.arrRef spec6 0) (((cfg6.win 0).blk t).view.emb (ix2 (n0 := 10000) (n1 := 6) (j 0) 2)))
        (V c (Pipeline.arrRef spec6 1) (((cfg6.win 1).blk t).view.emb (ix2 (n0 := 6) (n1 := 2) 2 (j 1))))))
      (FloatOps.mulf (V c (Pipeline.arrRef spec6 0) (((cfg6.win 0).blk t).view.emb (ix2 (n0 := 10000) (n1 := 6) (j 0) 3)))
        (V c (Pipeline.arrRef spec6 1) (((cfg6.win 1).blk t).view.emb (ix2 (n0 := 6) (n1 := 2) 3 (j 1))))))
      (FloatOps.mulf (V c (Pipeline.arrRef spec6 0) (((cfg6.win 0).blk t).view.emb (ix2 (n0 := 10000) (n1 := 6) (j 0) 4)))
        (V c (Pipeline.arrRef spec6 1) (((cfg6.win 1).blk t).view.emb (ix2 (n0 := 6) (n1 := 2) 4 (j 1))))))
      (FloatOps.mulf (V c (Pipeline.arrRef spec6 0) (((cfg6.win 0).blk t).view.emb (ix2 (n0 := 10000) (n1 := 6) (j 0) 5)))
        (V c (Pipeline.arrRef spec6 1) (((cfg6.win 1).blk t).view.emb (ix2 (n0 := 6) (n1 := 2) 5 (j 1))))))
      (V c (Pipeline.arrRef spec6 2) (((cfg6.win 2).blk t).view.emb (ix2 (n0 := 1) (n1 := 2) 0 (j 1)))) = _
  rw [embx6 t j 0, embx6 t j 1, embx6 t j 2, embx6 t j 3, embx6 t j 4, embx6 t j 5,
    embw6 t j 0, embw6 t j 1, embw6 t j 2, embw6 t j 3, embw6 t j 4, embw6 t j 5, embb6 t j]

/-- An index of the output array is in point t's block iff each coordinate is in the block's range on its axis. -/
theorem mem_blk6 (t : Fin cfg6.N) (i : S500000x2.Idx) :
    i ∈ ((cfg6.win 3).blk t).view.set ↔ ∀ a : Fin 2, win6_3.index t a * S10000x2.size a ≤ (i a).val ∧ (i a).val < win6_3.index t a * S10000x2.size a + S10000x2.size a := by
  show i ∈ ((View.whole (Pipeline.arrRef spec6 3)).slice (win6_3.rect t)).set ↔ _
  rw [View.set_slice_whole, Rect.mem_set_unit]
  exact Iff.rfl

/-- Every index of the output array is in some point's block: row r is in block r / 10000. -/
theorem cover6 (i : S500000x2.Idx) :
    ∃ t : Fin cfg6.N, (cfg6.win 3).flush t = true ∧ i ∈ ((cfg6.win 3).blk t).view.set := by
  have hi0 : (i 0).val < 500000 := (i 0).isLt
  have hi1 : (i 1).val < 2 := (i 1).isLt
  have hN : (i 0).val / 10000 < cfg6.N := by
    have hg := N_6
    show (i 0).val / 10000 < grid6.N
    omega
  obtain ⟨t, ht⟩ : ∃ t : Fin cfg6.N, t.val = (i 0).val / 10000 := ⟨⟨_, hN⟩, rfl⟩
  obtain ⟨e0, e1, e2, e3, e4, e5, e6, e7⟩ := idx_facts6 t
  refine ⟨t, flush6_3 t, ?_⟩
  rw [mem_blk6]
  intro a
  match a with
  | ⟨0, _⟩ => show win6_3.index t (0 : Fin 2) * 10000 ≤ (i 0).val ∧ (i 0).val < win6_3.index t (0 : Fin 2) * 10000 + 10000; omega
  | ⟨1, _⟩ => show win6_3.index t (1 : Fin 2) * 2 ≤ (i 1).val ∧ (i 1).val < win6_3.index t (1 : Fin 2) * 2 + 2; omega

/-- The output array after the region: the affine function of the three arrays the region reads. -/
theorem final6 (c : Dev nD) : (dat6 V c).arrAt 3 cfg6.N
    = aff6G (n := 500000) (V c (Pipeline.arrRef spec6 0)) (V c (Pipeline.arrRef spec6 1)) (V c (Pipeline.arrRef spec6 2)) :=
  (dat6 V c).arrAt_eq_of_cover 3 _ (fun t _ => flushed6_eq V c t) cover6

end Cert.KernelIdeal.Hand

end
-- ==== Proof.KI.Val7.lean ====
/-
  The affine region at six input columns (pallas_call 7): the value of its output array after the region, as one
  function of the three arrays it reads, index by index.

  Point t writes back the rows [10000 t, 10000 t + 10000) of the output; at row r of the block and column j the body
  stored ((((((0 + x[r,0] * w[0,j]) + x[r,1] * w[1,j]) + x[r,2] * w[2,j]) + x[r,3] * w[3,j]) + x[r,4] * w[4,j])
  + x[r,5] * w[5,j]) + b[0,j] of its staging buffers, which hold the rows [10000 t, 10000 t + 10000) of the input and
  the whole weight matrix and bias row. So what point t writes back is block t of the affine function of the three
  arrays; the 200 blocks tile the output array (row r is in block r / 10000), so the array ends holding that function
  everywhere.
-/
import proofs.«149588_j66838281060723_2_alg».proof.Proof.KI.Body7
import proofs.«149588_j66838281060723_2_alg».proof.Proof.KI.AffG
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

-- the TensorCore's buffer contents when the region is entered
variable (V : (c : Dev nD) → (b : Ref sig .tc) → Buf (Elt F) ((c : Thread nD τ).loc b))

theorem hz7 : (![0, 0] : Fin 2 → Nat) = fun _ => 0 := funext fun a => by fin_cases a <;> rfl

/-- Input column k, broadcast along the two output columns, read at an index: the input at the index's row and column k. -/
theorem xcol7 (x0 : Vec F S10000x6 .f32) (off : Fin 2 → Nat) (h : S10000x6.Slices off S10000x1) (k : Fin 6)
    (h0 : off 0 = 0) (h1 : off 1 = k.val) (j : S10000x2.Idx) :
    broadcastTo S10000x2 (extractStridedSlice S10000x1 off x0 h) broadcasts_S10000x1_S10000x2 j
      = x0 (ix2 (n0 := 10000) (n1 := 6) (j 0) k) := by
  rw [broadcastTo_apply _ _ j (ix2 (n0 := 10000) (n1 := 1) (j 0) 0) (fun a => by match a with | ⟨0, _⟩ => rfl | ⟨1, _⟩ => rfl)]
  exact extractStridedSlice_apply off x0 h (ix2 (n0 := 10000) (n1 := 1) (j 0) 0) (ix2 (n0 := 10000) (n1 := 6) (j 0) k) (fun a => by
    match a with
    | ⟨0, _⟩ => show (j 0).val = off 0 + (j 0).val; omega
    | ⟨1, _⟩ => show k.val = off 1 + 0; omega)

/-- Weight row k, broadcast along the rows, read at an index: the weight at row k and the index's column. -/
theorem wrow7 (x1 : Vec F S6x2 .f32) (off : Fin 2 → Nat) (h : S6x2.Slices off S1x2) (k : Fin 6)
    (h0 : off 0 = k.val) (h1 : off 1 = 0) (j : S10000x2.Idx) :
    broadcastTo S10000x2 (extractStridedSlice S1x2 off x1 h) broadcasts_S1x2_S10000x2 j
      = x1 (ix2 (n0 := 6) (n1 := 2) k (j 1)) := by
  rw [broadcastTo_apply _ _ j (ix2 (n0 := 1) (n1 := 2) 0 (j 1)) (fun a => by match a with | ⟨0, _⟩ => rfl | ⟨1, _⟩ => rfl)]
  exact extractStridedSlice_apply off x1 h (ix2 (n0 := 1) (n1 := 2) 0 (j 1)) (ix2 (n0 := 6) (n1 := 2) k (j 1)) (fun a => by
    match a with
    | ⟨0, _⟩ => show k.val = off 0 + 0; omega
    | ⟨1, _⟩ => show (j 1).val = off 1 + (j 1).val; omega)

/-- The body's payload at an index: the kernel's order of operations on the elements the slices and broadcasts read. -/
theorem pay7_apply (x0 : Vec F S10000x6 .f32) (x1 : Vec F S6x2 .f32) (x2 : Vec F S1x2 .f32) (j : S10000x2.Idx) :
    k7_pay1 x0 x1 x2 j = FloatOps.addf (FloatOps.addf (FloatOps.addf (FloatOps.addf (FloatOps.addf (FloatOps.addf (FloatOps.addf (Scalar.ofBits (F := F) .f32 0x00000000#32)
      (FloatOps.mulf (x0 (ix2 (n0 := 10000) (n1 := 6) (j 0) 0)) (x1 (ix2 (n0 := 6) (n1 := 2) 0 (j 1)))))
      (FloatOps.mulf (x0 (ix2 (n0 := 10000) (n1 := 6) (j 0) 1)) (x1 (ix2 (n0 := 6) (n1 := 2) 1 (j 1)))))
      (FloatOps.mulf (x0 (ix2 (n0 := 10000) (n1 := 6) (j 0) 2)) (x1 (ix2 (n0 := 6) (n1 := 2) 2 (j 1)))))
      (FloatOps.mulf (x0 (ix2 (n0 := 10000) (n1 := 6) (j 0) 3)) (x1 (ix2 (n0 := 6) (n1 := 2) 3 (j 1)))))
      (FloatOps.mulf (x0 (ix2 (n0 := 10000) (n1 := 6) (j 0) 4)) (x1 (ix2 (n0 := 6) (n1 := 2) 4 (j 1)))))
      (FloatOps.mulf (x0 (ix2 (n0 := 10000) (n1 := 6) (j 0) 5)) (x1 (ix2 (n0 := 6) (n1 := 2) 5 (j 1)))))
      (x2 (ix2 (n0 := 1) (n1 := 2) 0 (j 1))) := by
  unfold k7_pay1
  show FloatOps.addf (FloatOps.addf (FloatOps.addf (FloatOps.addf (FloatOps.addf (FloatOps.addf (FloatOps.addf (Scalar.ofBits (F := F) .f32 0x00000000#32)
      (FloatOps.mulf (broadcastTo S10000x2 (extractStridedSlice S10000x1 ![0, 0] (shapeCast S10000x6 x0 shapeCasts_S10000x6_S10000x6) slices_S10000x6_o0_0_S10000x1) broadcasts_S10000x1_S10000x2 j)
        (broadcastTo S10000x2 (extractStridedSlice S1x2 ![0, 0] (shapeCast S6x2 x1 shapeCasts_S6x2_S6x2) slices_S6x2_o0_0_S1x2) broadcasts_S1x2_S10000x2 j)))
      (FloatOps.mulf (broadcastTo S10000x2 (extractStridedSlice S10000x1 ![0, 1] (shapeCast S10000x6 x0 shapeCasts_S10000x6_S10000x6) slices_S10000x6_o0_1_S10000x1) broadcasts_S10000x1_S10000x2 j)
        (broadcastTo S10000x2 (extractStridedSlice S1x2 ![1, 0] (shapeCast S6x2 x1 shapeCasts_S6x2_S6x2) slices_S6x2_o1_0_S1x2) broadcasts_S1x2_S10000x2 j)))
      (FloatOps.mulf (broadcastTo S10000x2 (extractStridedSlice S10000x1 ![0, 2] (shapeCast S10000x6 x0 shapeCasts_S10000x6_S10000x6) slices_S10000x6_o0_2_S10000x1) broadcasts_S10000x1_S10000x2 j)
        (broadcastTo S10000x2 (extractStridedSlice S1x2 ![2, 0] (shapeCast S6x2 x1 shapeCasts_S6x2_S6x2) slices_S6x2_o2_0_S1x2) broadcasts_S1x2_S10000x2 j)))
      (FloatOps.mulf (broadcastTo S10000x2 (extractStridedSlice S10000x1 ![0, 3] (shapeCast S10000x6 x0 shapeCasts_S10000x6_S10000x6) slices_S10000x6_o0_3_S10000x1) broadcasts_S10000x1_S10000x2 j)
        (broadcastTo S10000x2 (extractStridedSlice S1x2 ![3, 0] (shapeCast S6x2 x1 shapeCasts_S6x2_S6x2) slices_S6x2_o3_0_S1x2) broadcasts_S1x2_S10000x2 j)))
      (FloatOps.mulf (broadcastTo S10000x2 (extractStridedSlice S10000x1 ![0, 4] (shapeCast S10000x6 x0 shapeCasts_S10000x6_S10000x6) slices_S10000x6_o0_4_S10000x1) broadcasts_S10000x1_S10000x2 j)
        (broadcastTo S10000x2 (extractStridedSlice S1x2 ![4, 0] (shapeCast S6x2 x1 shapeCasts_S6x2_S6x2) slices_S6x2_o4_0_S1x2) broadcasts_S1x2_S10000x2 j)))
      (FloatOps.mulf (broadcastTo S10000x2 (extractStridedSlice S10000x1 ![0, 5] (shapeCast S10000x6 x0 shapeCasts_S10000x6_S10000x6) slices_S10000x6_o0_5_S10000x1) broadcasts_S10000x1_S10000x2 j)
        (broadcastTo S10000x2 (extractStridedSlice S1x2 ![5, 0] (shapeCast S6x2 x1 shapeCasts_S6x2_S6x2) slices_S6x2_o5_0_S1x2) broadcasts_S1x2_S10000x2 j)))
      (broadcastTo S10000x2 (shapeCast S1x2 x2 shapeCasts_S1x2_S1x2) broadcasts_S1x2_S10000x2 j) = _
  rw [shapeCast_self, shapeCast_self, shapeCast_self,
    xcol7 x0 ![0, 0] slices_S10000x6_o0_0_S10000x1 0 rfl rfl j, wrow7 x1 ![0, 0] slices_S6x2_o0_0_S1x2 0 rfl rfl j,
    xcol7 x0 ![0, 1] slices_S10000x6_o0_1_S10000x1 1 rfl rfl j, wrow7 x1 ![1, 0] slices_S6x2_o1_0_S1x2 1 rfl rfl j,
    xcol7 x0 ![0, 2] slices_S10000x6_o0_2_S10000x1 2 rfl rfl j, wrow7 x1 ![2, 0] slices_S6x2_o2_0_S1x2 2 rfl rfl j,
    xcol7 x0 ![0, 3] slices_S10000x6_o0_3_S10000x1 3 rfl rfl j, wrow7 x1 ![3, 0] slices_S6x2_o3_0_S1x2 3 rfl rfl j,
    xcol7 x0 ![0, 4] slices_S10000x6_o0_4_S10000x1 4 rfl rfl j, wrow7 x1 ![4, 0] slices_S6x2_o4_0_S1x2 4 rfl rfl j,
    xcol7 x0 ![0, 5] slices_S10000x6_o0_5_S10000x1 5 rfl rfl j, wrow7 x1 ![5, 0] slices_S6x2_o5_0_S1x2 5 rfl rfl j,
    broadcastTo_apply x2 _ j (ix2 (n0 := 1) (n1 := 2) 0 (j 1)) (fun a => by match a with | ⟨0, _⟩ => rfl | ⟨1, _⟩ => rfl)]

/-- The index maps, decided over the grid: the input's and the output's row block is the point's number, and every
    other block index is zero. -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- Where the blocks sit in their arrays: at point t the element of the input block at (row, column k) is the input
    array's element at the row of the output block's element and column k, -/
theorem embx7 (t : Fin cfg7.N) (j : S10000x2.Idx) (k : Fin 6) :
    ((cfg7.win 0).blk t).view.emb (ix2 (n0 := 10000) (n1 := 6) (j 0) k)
      = ix2 (n0 := 2000000) (n1 := 6) ((((cfg7.win 3).blk t).view.emb j) 0) k := by
  obtain ⟨e0, e1, e2, e3, e4, e5, e6, e7⟩ := idx_facts7 t
  funext a; apply Fin.ext
  match a with
  | ⟨0, _⟩ => show win7_0.index t (0 : Fin 2) * 10000 + 1 * (j 0).val = win7_3.index t (0 : Fin 2) * 10000 + 1 * (j 0).val; omega
  | ⟨1, _⟩ => show win7_0.index t (1 : Fin 2) * 6 + 1 * k.val = k.val; omega
/-- the element of the weight block at (k, column) is the weight array's at k and the output element's column, -/
theorem embw7 (t : Fin cfg7.N) (j : S10000x2.Idx) (k : Fin 6) :
    ((cfg7.win 1).blk t).view.emb (ix2 (n0 := 6) (n1 := 2) k (j 1))
      = ix2 (n0 := 6) (n1 := 2) k ((((cfg7.win 3).blk t).view.emb j) 1) := by
  obtain ⟨e0, e1, e2, e3, e4, e5, e6, e7⟩ := idx_facts7 t
  funext a; apply Fin.ext
  match a with
  | ⟨0, _⟩ => show win7_1.index t (0 : Fin 2) * 6 + 1 * k.val = k.val; omega
  | ⟨1, _⟩ => show win7_1.index t (1 : Fin 2) * 2 + 1 * (j 1).val = win7_3.index t (1 : Fin 2) * 2 + 1 * (j 1).val; omega
/-- and the element of the bias block at (0, column) is the bias array's at the output element's column. -/
theorem embb7 (t : Fin cfg7.N) (j : S10000x2.Idx) :
    ((cfg7.win 2).blk t).view.emb (ix2 (n0 := 1) (n1 := 2) 0 (j 1))
      = ix2 (n0 := 1) (n1 := 2) 0 ((((cfg7.win 3).blk t).view.emb j) 1) := by
  obtain ⟨e0, e1, e2, e3, e4, e5, e6, e7⟩ := idx_facts7 t
  funext a; apply Fin.ext
  match a with
  | ⟨0, _⟩ => show win7_2.index t (0 : Fin 2) * 1 + 1 * 0 = 0; omega
  | ⟨1, _⟩ => show win7_2.index t (1 : Fin 2) * 2 + 1 * (j 1).val = win7_3.index t (1 : Fin 2) * 2 + 1 * (j 1).val; omega

set_option maxHeartbeats 1000000 in
/-- What point t writes back is block t of the affine function of the three arrays as the region finds them. -/
theorem flushed7_eq (c : Dev nD) (t : Fin cfg7.N) :
    (dat7 V c).flushed 3 t = ((cfg7.win 3).blk t).view.read (Elt F)
      (aff6G (n := 2000000) (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero hz7]
  simp only [View.ld_unit_zero (S := S10000x6) hz7, View.ld_unit_zero (S := S6x2) hz7, View.ld_unit_zero (S := S1x2) hz7]
  funext j
  show k7_pay1 (iblk7 V c 0 t) (iblk7 V c 1 t) (iblk7 V c 2 t) j
    = aff6G (n := 2000000) (V c (Pipeline.arrRef spec7 0)) (V c (Pipeline.arrRef spec7 1)) (V c (Pipeline.arrRef spec7 2)) (((cfg7.win 3).blk t).view.emb j)
  rw [pay7_apply]
  show FloatOps.addf (FloatOps.addf (FloatOps.addf (FloatOps.addf (FloatOps.addf (FloatOps.addf (FloatOps.addf (Scalar.ofBits (F := F) .f32 0x00000000#32)
      (FloatOps.mulf (V c (Pipeline.arrRef spec7 0) (((cfg7.win 0).blk t).view.emb (ix2 (n0 := 10000) (n1 := 6) (j 0) 0)))
        (V c (Pipeline.arrRef spec7 1) (((cfg7.win 1).blk t).view.emb (ix2 (n0 := 6) (n1 := 2) 0 (j 1))))))
      (FloatOps.mulf (V c (Pipeline.arrRef spec7 0) (((cfg7.win 0).blk t).view.emb (ix2 (n0 := 10000) (n1 := 6) (j 0) 1)))
        (V c (Pipeline.arrRef spec7 1) (((cfg7.win 1).blk t).view.emb (ix2 (n0 := 6) (n1 := 2) 1 (j 1))))))
      (FloatOps.mulf (V c (Pipeline.arrRef spec7 0) (((cfg7.win 0).blk t).view.emb (ix2 (n0 := 10000) (n1 := 6) (j 0) 2)))
        (V c (Pipeline.arrRef spec7 1) (((cfg7.win 1).blk t).view.emb (ix2 (n0 := 6) (n1 := 2) 2 (j 1))))))
      (FloatOps.mulf (V c (Pipeline.arrRef spec7 0) (((cfg7.win 0).blk t).view.emb (ix2 (n0 := 10000) (n1 := 6) (j 0) 3)))
        (V c (Pipeline.arrRef spec7 1) (((cfg7.win 1).blk t).view.emb (ix2 (n0 := 6) (n1 := 2) 3 (j 1))))))
      (FloatOps.mulf (V c (Pipeline.arrRef spec7 0) (((cfg7.win 0).blk t).view.emb (ix2 (n0 := 10000) (n1 := 6) (j 0) 4)))
        (V c (Pipeline.arrRef spec7 1) (((cfg7.win 1).blk t).view.emb (ix2 (n0 := 6) (n1 := 2) 4 (j 1))))))
      (FloatOps.mulf (V c (Pipeline.arrRef spec7 0) (((cfg7.win 0).blk t).view.emb (ix2 (n0 := 10000) (n1 := 6) (j 0) 5)))
        (V c (Pipeline.arrRef spec7 1) (((cfg7.win 1).blk t).view.emb (ix2 (n0 := 6) (n1 := 2) 5 (j 1))))))
      (V c (Pipeline.arrRef spec7 2) (((cfg7.win 2).blk t).view.emb (ix2 (n0 := 1) (n1 := 2) 0 (j 1)))) = _
  rw [embx7 t j 0, embx7 t j 1, embx7 t j 2, embx7 t j 3, embx7 t j 4, embx7 t j 5,
    embw7 t j 0, embw7 t j 1, embw7 t j 2, embw7 t j 3, embw7 t j 4, embw7 t j 5, embb7 t j]

/-- An index of the output array is in point t's block iff each coordinate is in the block's range on its axis. -/
theorem mem_blk7 (t : Fin cfg7.N) (i : S2000000x2.Idx) :
    i ∈ ((cfg7.win 3).blk t).view.set ↔ ∀ a : Fin 2, win7_3.index t a * S10000x2.size a ≤ (i a).val ∧ (i a).val < win7_3.index t a * S10000x2.size a + S10000x2.size a := by
  show i ∈ ((View.whole (Pipeline.arrRef spec7 3)).slice (win7_3.rect t)).set ↔ _
  rw [View.set_slice_whole, Rect.mem_set_unit]
  exact Iff.rfl

/-- Every index of the output array is in some point's block: row r is in block r / 10000. -/
theorem cover7 (i : S2000000x2.Idx) :
    ∃ t : Fin cfg7.N, (cfg7.win 3).flush t = true ∧ i ∈ ((cfg7.win 3).blk t).view.set := by
  have hi0 : (i 0).val < 2000000 := (i 0).isLt
  have hi1 : (i 1).val < 2 := (i 1).isLt
  have hN : (i 0).val / 10000 < cfg7.N := by
    have hg := N_7
    show (i 0).val / 10000 < grid7.N
    omega
  obtain ⟨t, ht⟩ : ∃ t : Fin cfg7.N, t.val = (i 0).val / 10000 := ⟨⟨_, hN⟩, rfl⟩
  obtain ⟨e0, e1, e2, e3, e4, e5, e6, e7⟩ := idx_facts7 t
  refine ⟨t, flush7_3 t, ?_⟩
  rw [mem_blk7]
  intro a
  match a with
  | ⟨0, _⟩ => show win7_3.index t (0 : Fin 2) * 10000 ≤ (i 0).val ∧ (i 0).val < win7_3.index t (0 : Fin 2) * 10000 + 10000; omega
  | ⟨1, _⟩ => show win7_3.index t (1 : Fin 2) * 2 ≤ (i 1).val ∧ (i 1).val < win7_3.index t (1 : Fin 2) * 2 + 2; omega

/-- The output array after the region: the affine function of the three arrays the region reads. -/
theorem final7 (c : Dev nD) : (dat7 V c).arrAt 3 cfg7.N
    = aff6G (n := 2000000) (V c (Pipeline.arrRef spec7 0)) (V c (Pipeline.arrRef spec7 1)) (V c (Pipeline.arrRef spec7 2)) :=
  (dat7 V c).arrAt_eq_of_cover 3 _ (fun t _ => flushed7_eq V c t) cover7

end Cert.KernelIdeal.Hand

end
-- ==== Proof.KI.Val8.lean ====
/-
  The message region's value: what its output array holds after the region, as ONE function of its four input arrays
  as the region finds them, at any float instance.

  At grid point t the body leaves in the output's staging buffer, at row r and feature k of the block,
      ((a[r,0] * b[r,0]) * xs[r,k]) + xt[r,k]
  of the four input blocks; every window's block at point t is rows [4000 t, 4000 t + 4000) of its array, so what point
  t writes back is block t of msgG of the four arrays; the 1500 blocks cover the 6000000 rows (row r is in block
  r / 4000), so the array ends holding msgG of the four arrays everywhere.
-/
import proofs.«149588_j66838281060723_2_alg».proof.Proof.KI.Body8
import proofs.«149588_j66838281060723_2_alg».proof.Proof.KI.GDefs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The zero offsets of a whole-block rectangle, however spelt. -/
private theorem zero_offsets : (![0, 0] : Fin 2 → Nat) = fun _ => 0 := funext fun a => by fin_cases a <;> rfl

/-- The body's arithmetic on whole blocks: the casts to the same shape are identities. -/
private theorem pay_eq (xa xb : Vec F S4000x1 .f32) (xs xt : Vec F S4000x2 .f32) :
    k8_pay1 xa xb xs xt = addf (mulf (broadcastTo S4000x2 (mulf xa xb) broadcasts_S4000x1_S4000x2) xs) xt := by
  unfold k8_pay1
  simp only [shapeCast_self]

/-- The body's arithmetic at row r, feature k of the block: the product of the two column entries of row r, times the
    first feature entry, plus the second. -/
private theorem pay_at (xa xb : Vec F S4000x1 .f32) (xs xt : Vec F S4000x2 .f32) (r : Fin 4000) (k : Fin 2) :
    k8_pay1 xa xb xs xt (ix2 r k)
      = FloatOps.addf (FloatOps.mulf (FloatOps.mulf (xa (ix2 r (0 : Fin 1))) (xb (ix2 r (0 : Fin 1)))) (xs (ix2 r k))) (xt (ix2 r k)) := by
  rw [pay_eq]
  show FloatOps.addf (FloatOps.mulf (broadcastTo S4000x2 (mulf xa xb) broadcasts_S4000x1_S4000x2 (ix2 r k)) (xs (ix2 r k))) (xt (ix2 r k)) = _
  rw [broadcastTo_apply (mulf xa xb) broadcasts_S4000x1_S4000x2 (ix2 r k) (ix2 r (0 : Fin 1))
    (fun a => match a with | ⟨0, _⟩ => rfl | ⟨1, _⟩ => rfl)]
  rfl

/-- The printed index maps, decided over the grid: every window's block at point t is block t along the rows and the
    one block along the columns. -/
private theorem idx_facts : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0 :=
  (by decide +kernel : ∀ t : Fin grid8.N, _)

/-- The grid has 1500 points. -/
private theorem grid_points : grid8.N = 1500 := by decide

/-- An index of the output array is in point t's block iff each coordinate is in the block's range on its axis. -/
private theorem mem_blk (t : Fin cfg8.N) (i : S6000000x2.Idx) :
    i ∈ ((cfg8.win 4).blk t).view.set ↔ ∀ a : Fin 2, win8_4.index t a * S4000x2.size a ≤ (i a).val ∧ (i a).val < win8_4.index t a * S4000x2.size a + S4000x2.size a := by
  show i ∈ ((View.whole (Pipeline.arrRef spec8 4)).slice (win8_4.rect t)).set ↔ _
  rw [View.set_slice_whole, Rect.mem_set_unit]
  exact Iff.rfl

/-- Every entry of the output array is in the block of the point that its row number divided by 4000 names. -/
private theorem covered (i : S6000000x2.Idx) : ∃ t : Fin cfg8.N, (cfg8.win 4).flush t = true ∧ i ∈ ((cfg8.win 4).blk t).view.set := by
  have hi0 : (i 0).val < 6000000 := idx2_lt0 i
  have hi1 : (i 1).val < 2 := idx2_lt1 i
  refine ⟨⟨(i 0).val / 4000, by show _ < grid8.N; rw [grid_points]; omega⟩, flush8_4 _, ?_⟩
  rw [mem_blk]
  obtain ⟨-, -, -, -, -, -, -, -, e0, e1⟩ := idx_facts ⟨(i 0).val / 4000, by show _ < grid8.N; rw [grid_points]; omega⟩
  intro a
  match a with
  | ⟨0, _⟩ => show win8_4.index _ (0 : Fin 2) * 4000 ≤ (i 0).val ∧ (i 0).val < win8_4.index _ (0 : Fin 2) * 4000 + 4000; rw [e0]; show (i 0).val / 4000 * 4000 ≤ _ ∧ _ < (i 0).val / 4000 * 4000 + 4000; omega
  | ⟨1, _⟩ => show win8_4.index _ (1 : Fin 2) * 2 ≤ (i 1).val ∧ (i 1).val < win8_4.index _ (1 : Fin 2) * 2 + 2; rw [e1]; omega

/-- The output's staging buffer after the body at row r, feature k: the body's arithmetic of the four blocks there. -/
private theorem out_at (xa xb : Vec F S4000x1 .f32) (xs xt : Vec F S4000x2 .f32) (r : Fin 4000) (k : Fin 2) :
    out8_4 xa xb xs xt (ix2 r k)
      = FloatOps.addf (FloatOps.mulf (FloatOps.mulf (xa (ix2 r (0 : Fin 1))) (xb (ix2 r (0 : Fin 1)))) (xs (ix2 r k))) (xt (ix2 r k)) := by
  unfold out8_4
  rw [View.canon_unit_zero zero_offsets]
  simp only [View.ld_unit_zero (S := S4000x1) zero_offsets, View.ld_unit_zero (S := S4000x2) zero_offsets]
  exact pay_at xa xb xs xt r k

/-- Row r of the first column's block at point t is the column's entry at the row of the output array that row r of the
    output's block is. -/
private theorem iblk_colA (c : Dev nD) (t : Fin cfg8.N) (r : Fin 4000) (k : Fin 2) :
    iblk8 V c 0 t (ix2 r (0 : Fin 1))
      = V c (Pipeline.arrRef spec8 0) (ix2 (n0 := 6000000) (n1 := 1) ((((cfg8.win 4).blk t).view.emb (ix2 r k)) 0) 0) := by
  obtain ⟨a0, a1, -, -, -, -, -, -, e0, -⟩ := idx_facts t
  show V c (Pipeline.arrRef spec8 0) (((cfg8.win 0).blk t).view.emb (ix2 r (0 : Fin 1))) = _
  refine congrArg (V c (Pipeline.arrRef spec8 0)) (funext fun a => Fin.ext ?_)
  match a with
  | ⟨0, _⟩ => show win8_0.index t (0 : Fin 2) * 4000 + 1 * r.val = win8_4.index t (0 : Fin 2) * 4000 + 1 * r.val; rw [a0, e0]
  | ⟨1, _⟩ => show win8_0.index t (1 : Fin 2) * 1 + 1 * 0 = 0; rw [a1]

/-- The same for the second column. -/
private theorem iblk_colB (c : Dev nD) (t : Fin cfg8.N) (r : Fin 4000) (k : Fin 2) :
    iblk8 V c 1 t (ix2 r (0 : Fin 1))
      = V c (Pipeline.arrRef spec8 1) (ix2 (n0 := 6000000) (n1 := 1) ((((cfg8.win 4).blk t).view.emb (ix2 r k)) 0) 0) := by
  obtain ⟨-, -, b0, b1, -, -, -, -, e0, -⟩ := idx_facts t
  show V c (Pipeline.arrRef spec8 1) (((cfg8.win 1).blk t).view.emb (ix2 r (0 : Fin 1))) = _
  refine congrArg (V c (Pipeline.arrRef spec8 1)) (funext fun a => Fin.ext ?_)
  match a with
  | ⟨0, _⟩ => show win8_1.index t (0 : Fin 2) * 4000 + 1 * r.val = win8_4.index t (0 : Fin 2) * 4000 + 1 * r.val; rw [b0, e0]
  | ⟨1, _⟩ => show win8_1.index t (1 : Fin 2) * 1 + 1 * 0 = 0; rw [b1]

/-- Entry (r, k) of the first feature array's block at point t is the array's entry where entry (r, k) of the output's
    block is. -/
private theorem iblk_featS (c : Dev nD) (t : Fin cfg8.N) (r : Fin 4000) (k : Fin 2) :
    iblk8 V c 2 t (ix2 r k) = V c (Pipeline.arrRef spec8 2) (((cfg8.win 4).blk t).view.emb (ix2 r k)) := by
  obtain ⟨-, -, -, -, c0, c1, -, -, e0, e1⟩ := idx_facts t
  show V c (Pipeline.arrRef spec8 2) (((cfg8.win 2).blk t).view.emb (ix2 r k)) = _
  refine congrArg (V c (Pipeline.arrRef spec8 2)) (funext fun a => Fin.ext ?_)
  match a with
  | ⟨0, _⟩ => show win8_2.index t (0 : Fin 2) * 4000 + 1 * r.val = win8_4.index t (0 : Fin 2) * 4000 + 1 * r.val; rw [c0, e0]
  | ⟨1, _⟩ => show win8_2.index t (1 : Fin 2) * 2 + 1 * k.val = win8_4.index t (1 : Fin 2) * 2 + 1 * k.val; rw [c1, e1]

/-- The same for the second feature array. -/
private theorem iblk_featT (c : Dev nD) (t : Fin cfg8.N) (r : Fin 4000) (k : Fin 2) :
    iblk8 V c 3 t (ix2 r k) = V c (Pipeline.arrRef spec8 3) (((cfg8.win 4).blk t).view.emb (ix2 r k)) := by
  obtain ⟨-, -, -, -, -, -, d0, d1, e0, e1⟩ := idx_facts t
  show V c (Pipeline.arrRef spec8 3) (((cfg8.win 3).blk t).view.emb (ix2 r k)) = _
  refine congrArg (V c (Pipeline.arrRef spec8 3)) (funext fun a => Fin.ext ?_)
  match a with
  | ⟨0, _⟩ => show win8_3.index t (0 : Fin 2) * 4000 + 1 * r.val = win8_4.index t (0 : Fin 2) * 4000 + 1 * r.val; rw [d0, e0]
  | ⟨1, _⟩ => show win8_3.index t (1 : Fin 2) * 2 + 1 * k.val = win8_4.index t (1 : Fin 2) * 2 + 1 * k.val; rw [d1, e1]

/-- What point t writes back is block t of msgG of the four input arrays as the region finds them. -/
private theorem flushed_eq (c : Dev nD) (t : Fin cfg8.N) :
    (dat8 V c).flushed 4 t = ((cfg8.win 4).blk t).view.read (Elt F)
      (msgG (n := 6000000) (V c (Pipeline.arrRef spec8 0)) (V c (Pipeline.arrRef spec8 1)) (V c (Pipeline.arrRef spec8 2)) (V c (Pipeline.arrRef spec8 3))) := by
  show (cfg8.win 4).cut (grid8.coords t) ((dat8 V c).after 4 t) = _
  rw [after8_4]
  funext j
  obtain ⟨r, k, rfl⟩ : ∃ (r : Fin 4000) (k : Fin 2), j = ix2 r k := ⟨j 0, j 1, eq_ix2 j⟩
  refine (out_at (iblk8 V c 0 t) (iblk8 V c 1 t) (iblk8 V c 2 t) (iblk8 V c 3 t) r k).trans ?_
  rw [iblk_colA V c t r k, iblk_colB V c t r k, iblk_featS V c t r k, iblk_featT V c t r k]
  rfl

/-- THE OUTPUT ARRAY after the region: msgG of the four input arrays as the region finds them, everywhere. -/
theorem final8 (c : Dev nD) : (dat8 V c).arrAt 4 cfg8.N
    = msgG (n := 6000000) (V c (Pipeline.arrRef spec8 0)) (V c (Pipeline.arrRef spec8 1)) (V c (Pipeline.arrRef spec8 2)) (V c (Pipeline.arrRef spec8 3)) :=
  (dat8 V c).arrAt_eq_of_cover 4 _ (fun t _ => flushed_eq V c t) covered

end Cert.KernelIdeal.Hand

end
-- ==== Proof.KI.Val9.lean ====
/-
  The message region's value: what its output array holds after the region, as ONE function of its four input arrays
  as the region finds them, at any float instance.

  At grid point t the body leaves in the output's staging buffer, at row r and feature k of the block,
      ((a[r,0] * b[r,0]) * xs[r,k]) + xt[r,k]
  of the four input blocks; every window's block at point t is rows [4000 t, 4000 t + 4000) of its array, so what point
  t writes back is block t of msgG of the four arrays; the 1500 blocks cover the 6000000 rows (row r is in block
  r / 4000), so the array ends holding msgG of the four arrays everywhere.
-/
import proofs.«149588_j66838281060723_2_alg».proof.Proof.KI.Body9
import proofs.«149588_j66838281060723_2_alg».proof.Proof.KI.GDefs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The zero offsets of a whole-block rectangle, however spelt. -/
private theorem zero_offsets : (![0, 0] : Fin 2 → Nat) = fun _ => 0 := funext fun a => by fin_cases a <;> rfl

/-- The body's arithmetic on whole blocks: the casts to the same shape are identities. -/
private theorem pay_eq (xa xb : Vec F S4000x1 .f32) (xs xt : Vec F S4000x2 .f32) :
    k9_pay1 xa xb xs xt = addf (mulf (broadcastTo S4000x2 (mulf xa xb) broadcasts_S4000x1_S4000x2) xs) xt := by
  unfold k9_pay1
  simp only [shapeCast_self]

/-- The body's arithmetic at row r, feature k of the block: the product of the two column entries of row r, times the
    first feature entry, plus the second. -/
private theorem pay_at (xa xb : Vec F S4000x1 .f32) (xs xt : Vec F S4000x2 .f32) (r : Fin 4000) (k : Fin 2) :
    k9_pay1 xa xb xs xt (ix2 r k)
      = FloatOps.addf (FloatOps.mulf (FloatOps.mulf (xa (ix2 r (0 : Fin 1))) (xb (ix2 r (0 : Fin 1)))) (xs (ix2 r k))) (xt (ix2 r k)) := by
  rw [pay_eq]
  show FloatOps.addf (FloatOps.mulf (broadcastTo S4000x2 (mulf xa xb) broadcasts_S4000x1_S4000x2 (ix2 r k)) (xs (ix2 r k))) (xt (ix2 r k)) = _
  rw [broadcastTo_apply (mulf xa xb) broadcasts_S4000x1_S4000x2 (ix2 r k) (ix2 r (0 : Fin 1))
    (fun a => match a with | ⟨0, _⟩ => rfl | ⟨1, _⟩ => rfl)]
  rfl

/-- The printed index maps, decided over the grid: every window's block at point t is block t along the rows and the
    one block along the columns. -/
private theorem idx_facts : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0
    ∧ win9_4.index t (0 : Fin 2) = t.val ∧ win9_4.index t (1 : Fin 2) = 0 :=
  (by decide +kernel : ∀ t : Fin grid9.N, _)

/-- The grid has 1500 points. -/
private theorem grid_points : grid9.N = 1500 := by decide

/-- An index of the output array is in point t's block iff each coordinate is in the block's range on its axis. -/
private theorem mem_blk (t : Fin cfg9.N) (i : S6000000x2.Idx) :
    i ∈ ((cfg9.win 4).blk t).view.set ↔ ∀ a : Fin 2, win9_4.index t a * S4000x2.size a ≤ (i a).val ∧ (i a).val < win9_4.index t a * S4000x2.size a + S4000x2.size a := by
  show i ∈ ((View.whole (Pipeline.arrRef spec9 4)).slice (win9_4.rect t)).set ↔ _
  rw [View.set_slice_whole, Rect.mem_set_unit]
  exact Iff.rfl

/-- Every entry of the output array is in the block of the point that its row number divided by 4000 names. -/
private theorem covered (i : S6000000x2.Idx) : ∃ t : Fin cfg9.N, (cfg9.win 4).flush t = true ∧ i ∈ ((cfg9.win 4).blk t).view.set := by
  have hi0 : (i 0).val < 6000000 := idx2_lt0 i
  have hi1 : (i 1).val < 2 := idx2_lt1 i
  refine ⟨⟨(i 0).val / 4000, by show _ < grid9.N; rw [grid_points]; omega⟩, flush9_4 _, ?_⟩
  rw [mem_blk]
  obtain ⟨-, -, -, -, -, -, -, -, e0, e1⟩ := idx_facts ⟨(i 0).val / 4000, by show _ < grid9.N; rw [grid_points]; omega⟩
  intro a
  match a with
  | ⟨0, _⟩ => show win9_4.index _ (0 : Fin 2) * 4000 ≤ (i 0).val ∧ (i 0).val < win9_4.index _ (0 : Fin 2) * 4000 + 4000; rw [e0]; show (i 0).val / 4000 * 4000 ≤ _ ∧ _ < (i 0).val / 4000 * 4000 + 4000; omega
  | ⟨1, _⟩ => show win9_4.index _ (1 : Fin 2) * 2 ≤ (i 1).val ∧ (i 1).val < win9_4.index _ (1 : Fin 2) * 2 + 2; rw [e1]; omega

/-- The output's staging buffer after the body at row r, feature k: the body's arithmetic of the four blocks there. -/
private theorem out_at (xa xb : Vec F S4000x1 .f32) (xs xt : Vec F S4000x2 .f32) (r : Fin 4000) (k : Fin 2) :
    out9_4 xa xb xs xt (ix2 r k)
      = FloatOps.addf (FloatOps.mulf (FloatOps.mulf (xa (ix2 r (0 : Fin 1))) (xb (ix2 r (0 : Fin 1)))) (xs (ix2 r k))) (xt (ix2 r k)) := by
  unfold out9_4
  rw [View.canon_unit_zero zero_offsets]
  simp only [View.ld_unit_zero (S := S4000x1) zero_offsets, View.ld_unit_zero (S := S4000x2) zero_offsets]
  exact pay_at xa xb xs xt r k

/-- Row r of the first column's block at point t is the column's entry at the row of the output array that row r of the
    output's block is. -/
private theorem iblk_colA (c : Dev nD) (t : Fin cfg9.N) (r : Fin 4000) (k : Fin 2) :
    iblk9 V c 0 t (ix2 r (0 : Fin 1))
      = V c (Pipeline.arrRef spec9 0) (ix2 (n0 := 6000000) (n1 := 1) ((((cfg9.win 4).blk t).view.emb (ix2 r k)) 0) 0) := by
  obtain ⟨a0, a1, -, -, -, -, -, -, e0, -⟩ := idx_facts t
  show V c (Pipeline.arrRef spec9 0) (((cfg9.win 0).blk t).view.emb (ix2 r (0 : Fin 1))) = _
  refine congrArg (V c (Pipeline.arrRef spec9 0)) (funext fun a => Fin.ext ?_)
  match a with
  | ⟨0, _⟩ => show win9_0.index t (0 : Fin 2) * 4000 + 1 * r.val = win9_4.index t (0 : Fin 2) * 4000 + 1 * r.val; rw [a0, e0]
  | ⟨1, _⟩ => show win9_0.index t (1 : Fin 2) * 1 + 1 * 0 = 0; rw [a1]

/-- The same for the second column. -/
private theorem iblk_colB (c : Dev nD) (t : Fin cfg9.N) (r : Fin 4000) (k : Fin 2) :
    iblk9 V c 1 t (ix2 r (0 : Fin 1))
      = V c (Pipeline.arrRef spec9 1) (ix2 (n0 := 6000000) (n1 := 1) ((((cfg9.win 4).blk t).view.emb (ix2 r k)) 0) 0) := by
  obtain ⟨-, -, b0, b1, -, -, -, -, e0, -⟩ := idx_facts t
  show V c (Pipeline.arrRef spec9 1) (((cfg9.win 1).blk t).view.emb (ix2 r (0 : Fin 1))) = _
  refine congrArg (V c (Pipeline.arrRef spec9 1)) (funext fun a => Fin.ext ?_)
  match a with
  | ⟨0, _⟩ => show win9_1.index t (0 : Fin 2) * 4000 + 1 * r.val = win9_4.index t (0 : Fin 2) * 4000 + 1 * r.val; rw [b0, e0]
  | ⟨1, _⟩ => show win9_1.index t (1 : Fin 2) * 1 + 1 * 0 = 0; rw [b1]

/-- Entry (r, k) of the first feature array's block at point t is the array's entry where entry (r, k) of the output's
    block is. -/
private theorem iblk_featS (c : Dev nD) (t : Fin cfg9.N) (r : Fin 4000) (k : Fin 2) :
    iblk9 V c 2 t (ix2 r k) = V c (Pipeline.arrRef spec9 2) (((cfg9.win 4).blk t).view.emb (ix2 r k)) := by
  obtain ⟨-, -, -, -, c0, c1, -, -, e0, e1⟩ := idx_facts t
  show V c (Pipeline.arrRef spec9 2) (((cfg9.win 2).blk t).view.emb (ix2 r k)) = _
  refine congrArg (V c (Pipeline.arrRef spec9 2)) (funext fun a => Fin.ext ?_)
  match a with
  | ⟨0, _⟩ => show win9_2.index t (0 : Fin 2) * 4000 + 1 * r.val = win9_4.index t (0 : Fin 2) * 4000 + 1 * r.val; rw [c0, e0]
  | ⟨1, _⟩ => show win9_2.index t (1 : Fin 2) * 2 + 1 * k.val = win9_4.index t (1 : Fin 2) * 2 + 1 * k.val; rw [c1, e1]

/-- The same for the second feature array. -/
private theorem iblk_featT (c : Dev nD) (t : Fin cfg9.N) (r : Fin 4000) (k : Fin 2) :
    iblk9 V c 3 t (ix2 r k) = V c (Pipeline.arrRef spec9 3) (((cfg9.win 4).blk t).view.emb (ix2 r k)) := by
  obtain ⟨-, -, -, -, -, -, d0, d1, e0, e1⟩ := idx_facts t
  show V c (Pipeline.arrRef spec9 3) (((cfg9.win 3).blk t).view.emb (ix2 r k)) = _
  refine congrArg (V c (Pipeline.arrRef spec9 3)) (funext fun a => Fin.ext ?_)
  match a with
  | ⟨0, _⟩ => show win9_3.index t (0 : Fin 2) * 4000 + 1 * r.val = win9_4.index t (0 : Fin 2) * 4000 + 1 * r.val; rw [d0, e0]
  | ⟨1, _⟩ => show win9_3.index t (1 : Fin 2) * 2 + 1 * k.val = win9_4.index t (1 : Fin 2) * 2 + 1 * k.val; rw [d1, e1]

/-- What point t writes back is block t of msgG of the four input arrays as the region finds them. -/
private theorem flushed_eq (c : Dev nD) (t : Fin cfg9.N) :
    (dat9 V c).flushed 4 t = ((cfg9.win 4).blk t).view.read (Elt F)
      (msgG (n := 6000000) (V c (Pipeline.arrRef spec9 0)) (V c (Pipeline.arrRef spec9 1)) (V c (Pipeline.arrRef spec9 2)) (V c (Pipeline.arrRef spec9 3))) := by
  show (cfg9.win 4).cut (grid9.coords t) ((dat9 V c).after 4 t) = _
  rw [after9_4]
  funext j
  obtain ⟨r, k, rfl⟩ : ∃ (r : Fin 4000) (k : Fin 2), j = ix2 r k := ⟨j 0, j 1, eq_ix2 j⟩
  refine (out_at (iblk9 V c 0 t) (iblk9 V c 1 t) (iblk9 V c 2 t) (iblk9 V c 3 t) r k).trans ?_
  rw [iblk_colA V c t r k, iblk_colB V c t r k, iblk_featS V c t r k, iblk_featT V c t r k]
  rfl

/-- THE OUTPUT ARRAY after the region: msgG of the four input arrays as the region finds them, everywhere. -/
theorem final9 (c : Dev nD) : (dat9 V c).arrAt 4 cfg9.N
    = msgG (n := 6000000) (V c (Pipeline.arrRef spec9 0)) (V c (Pipeline.arrRef spec9 1)) (V c (Pipeline.arrRef spec9 2)) (V c (Pipeline.arrRef spec9 3)) :=
  (dat9 V c).arrAt_eq_of_cover 4 _ (fun t _ => flushed_eq V c t) covered

end Cert.KernelIdeal.Hand

end
-- ==== Proof.KI.Val10.lean ====
/-
  The message region's value: what its output array holds after the region, as ONE function of its four input arrays
  as the region finds them, at any float instance.

  At grid point t the body leaves in the output's staging buffer, at row r and feature k of the block,
      ((a[r,0] * b[r,0]) * xs[r,k]) + xt[r,k]
  of the four input blocks; every window's block at point t is rows [4000 t, 4000 t + 4000) of its array, so what point
  t writes back is block t of msgG of the four arrays; the 1500 blocks cover the 6000000 rows (row r is in block
  r / 4000), so the array ends holding msgG of the four arrays everywhere.
-/
import proofs.«149588_j66838281060723_2_alg».proof.Proof.KI.Body10
import proofs.«149588_j66838281060723_2_alg».proof.Proof.KI.GDefs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The zero offsets of a whole-block rectangle, however spelt. -/
private theorem zero_offsets : (![0, 0] : Fin 2 → Nat) = fun _ => 0 := funext fun a => by fin_cases a <;> rfl

/-- The body's arithmetic on whole blocks: the casts to the same shape are identities. -/
private theorem pay_eq (xa xb : Vec F S4000x1 .f32) (xs xt : Vec F S4000x2 .f32) :
    k10_pay1 xa xb xs xt = addf (mulf (broadcastTo S4000x2 (mulf xa xb) broadcasts_S4000x1_S4000x2) xs) xt := by
  unfold k10_pay1
  simp only [shapeCast_self]

/-- The body's arithmetic at row r, feature k of the block: the product of the two column entries of row r, times the
    first feature entry, plus the second. -/
private theorem pay_at (xa xb : Vec F S4000x1 .f32) (xs xt : Vec F S4000x2 .f32) (r : Fin 4000) (k : Fin 2) :
    k10_pay1 xa xb xs xt (ix2 r k)
      = FloatOps.addf (FloatOps.mulf (FloatOps.mulf (xa (ix2 r (0 : Fin 1))) (xb (ix2 r (0 : Fin 1)))) (xs (ix2 r k))) (xt (ix2 r k)) := by
  rw [pay_eq]
  show FloatOps.addf (FloatOps.mulf (broadcastTo S4000x2 (mulf xa xb) broadcasts_S4000x1_S4000x2 (ix2 r k)) (xs (ix2 r k))) (xt (ix2 r k)) = _
  rw [broadcastTo_apply (mulf xa xb) broadcasts_S4000x1_S4000x2 (ix2 r k) (ix2 r (0 : Fin 1))
    (fun a => match a with | ⟨0, _⟩ => rfl | ⟨1, _⟩ => rfl)]
  rfl

/-- The printed index maps, decided over the grid: every window's block at point t is block t along the rows and the
    one block along the columns. -/
private theorem idx_facts : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = t.val ∧ win10_3.index t (1 : Fin 2) = 0
    ∧ win10_4.index t (0 : Fin 2) = t.val ∧ win10_4.index t (1 : Fin 2) = 0 :=
  (by decide +kernel : ∀ t : Fin grid10.N, _)

/-- The grid has 1500 points. -/
private theorem grid_points : grid10.N = 1500 := by decide

/-- An index of the output array is in point t's block iff each coordinate is in the block's range on its axis. -/
private theorem mem_blk (t : Fin cfg10.N) (i : S6000000x2.Idx) :
    i ∈ ((cfg10.win 4).blk t).view.set ↔ ∀ a : Fin 2, win10_4.index t a * S4000x2.size a ≤ (i a).val ∧ (i a).val < win10_4.index t a * S4000x2.size a + S4000x2.size a := by
  show i ∈ ((View.whole (Pipeline.arrRef spec10 4)).slice (win10_4.rect t)).set ↔ _
  rw [View.set_slice_whole, Rect.mem_set_unit]
  exact Iff.rfl

/-- Every entry of the output array is in the block of the point that its row number divided by 4000 names. -/
private theorem covered (i : S6000000x2.Idx) : ∃ t : Fin cfg10.N, (cfg10.win 4).flush t = true ∧ i ∈ ((cfg10.win 4).blk t).view.set := by
  have hi0 : (i 0).val < 6000000 := idx2_lt0 i
  have hi1 : (i 1).val < 2 := idx2_lt1 i
  refine ⟨⟨(i 0).val / 4000, by show _ < grid10.N; rw [grid_points]; omega⟩, flush10_4 _, ?_⟩
  rw [mem_blk]
  obtain ⟨-, -, -, -, -, -, -, -, e0, e1⟩ := idx_facts ⟨(i 0).val / 4000, by show _ < grid10.N; rw [grid_points]; omega⟩
  intro a
  match a with
  | ⟨0, _⟩ => show win10_4.index _ (0 : Fin 2) * 4000 ≤ (i 0).val ∧ (i 0).val < win10_4.index _ (0 : Fin 2) * 4000 + 4000; rw [e0]; show (i 0).val / 4000 * 4000 ≤ _ ∧ _ < (i 0).val / 4000 * 4000 + 4000; omega
  | ⟨1, _⟩ => show win10_4.index _ (1 : Fin 2) * 2 ≤ (i 1).val ∧ (i 1).val < win10_4.index _ (1 : Fin 2) * 2 + 2; rw [e1]; omega

/-- The output's staging buffer after the body at row r, feature k: the body's arithmetic of the four blocks there. -/
private theorem out_at (xa xb : Vec F S4000x1 .f32) (xs xt : Vec F S4000x2 .f32) (r : Fin 4000) (k : Fin 2) :
    out10_4 xa xb xs xt (ix2 r k)
      = FloatOps.addf (FloatOps.mulf (FloatOps.mulf (xa (ix2 r (0 : Fin 1))) (xb (ix2 r (0 : Fin 1)))) (xs (ix2 r k))) (xt (ix2 r k)) := by
  unfold out10_4
  rw [View.canon_unit_zero zero_offsets]
  simp only [View.ld_unit_zero (S := S4000x1) zero_offsets, View.ld_unit_zero (S := S4000x2) zero_offsets]
  exact pay_at xa xb xs xt r k

/-- Row r of the first column's block at point t is the column's entry at the row of the output array that row r of the
    output's block is. -/
private theorem iblk_colA (c : Dev nD) (t : Fin cfg10.N) (r : Fin 4000) (k : Fin 2) :
    iblk10 V c 0 t (ix2 r (0 : Fin 1))
      = V c (Pipeline.arrRef spec10 0) (ix2 (n0 := 6000000) (n1 := 1) ((((cfg10.win 4).blk t).view.emb (ix2 r k)) 0) 0) := by
  obtain ⟨a0, a1, -, -, -, -, -, -, e0, -⟩ := idx_facts t
  show V c (Pipeline.arrRef spec10 0) (((cfg10.win 0).blk t).view.emb (ix2 r (0 : Fin 1))) = _
  refine congrArg (V c (Pipeline.arrRef spec10 0)) (funext fun a => Fin.ext ?_)
  match a with
  | ⟨0, _⟩ => show win10_0.index t (0 : Fin 2) * 4000 + 1 * r.val = win10_4.index t (0 : Fin 2) * 4000 + 1 * r.val; rw [a0, e0]
  | ⟨1, _⟩ => show win10_0.index t (1 : Fin 2) * 1 + 1 * 0 = 0; rw [a1]

/-- The same for the second column. -/
private theorem iblk_colB (c : Dev nD) (t : Fin cfg10.N) (r : Fin 4000) (k : Fin 2) :
    iblk10 V c 1 t (ix2 r (0 : Fin 1))
      = V c (Pipeline.arrRef spec10 1) (ix2 (n0 := 6000000) (n1 := 1) ((((cfg10.win 4).blk t).view.emb (ix2 r k)) 0) 0) := by
  obtain ⟨-, -, b0, b1, -, -, -, -, e0, -⟩ := idx_facts t
  show V c (Pipeline.arrRef spec10 1) (((cfg10.win 1).blk t).view.emb (ix2 r (0 : Fin 1))) = _
  refine congrArg (V c (Pipeline.arrRef spec10 1)) (funext fun a => Fin.ext ?_)
  match a with
  | ⟨0, _⟩ => show win10_1.index t (0 : Fin 2) * 4000 + 1 * r.val = win10_4.index t (0 : Fin 2) * 4000 + 1 * r.val; rw [b0, e0]
  | ⟨1, _⟩ => show win10_1.index t (1 : Fin 2) * 1 + 1 * 0 = 0; rw [b1]

/-- Entry (r, k) of the first feature array's block at point t is the array's entry where entry (r, k) of the output's
    block is. -/
private theorem iblk_featS (c : Dev nD) (t : Fin cfg10.N) (r : Fin 4000) (k : Fin 2) :
    iblk10 V c 2 t (ix2 r k) = V c (Pipeline.arrRef spec10 2) (((cfg10.win 4).blk t).view.emb (ix2 r k)) := by
  obtain ⟨-, -, -, -, c0, c1, -, -, e0, e1⟩ := idx_facts t
  show V c (Pipeline.arrRef spec10 2) (((cfg10.win 2).blk t).view.emb (ix2 r k)) = _
  refine congrArg (V c (Pipeline.arrRef spec10 2)) (funext fun a => Fin.ext ?_)
  match a with
  | ⟨0, _⟩ => show win10_2.index t (0 : Fin 2) * 4000 + 1 * r.val = win10_4.index t (0 : Fin 2) * 4000 + 1 * r.val; rw [c0, e0]
  | ⟨1, _⟩ => show win10_2.index t (1 : Fin 2) * 2 + 1 * k.val = win10_4.index t (1 : Fin 2) * 2 + 1 * k.val; rw [c1, e1]

/-- The same for the second feature array. -/
private theorem iblk_featT (c : Dev nD) (t : Fin cfg10.N) (r : Fin 4000) (k : Fin 2) :
    iblk10 V c 3 t (ix2 r k) = V c (Pipeline.arrRef spec10 3) (((cfg10.win 4).blk t).view.emb (ix2 r k)) := by
  obtain ⟨-, -, -, -, -, -, d0, d1, e0, e1⟩ := idx_facts t
  show V c (Pipeline.arrRef spec10 3) (((cfg10.win 3).blk t).view.emb (ix2 r k)) = _
  refine congrArg (V c (Pipeline.arrRef spec10 3)) (funext fun a => Fin.ext ?_)
  match a with
  | ⟨0, _⟩ => show win10_3.index t (0 : Fin 2) * 4000 + 1 * r.val = win10_4.index t (0 : Fin 2) * 4000 + 1 * r.val; rw [d0, e0]
  | ⟨1, _⟩ => show win10_3.index t (1 : Fin 2) * 2 + 1 * k.val = win10_4.index t (1 : Fin 2) * 2 + 1 * k.val; rw [d1, e1]

/-- What point t writes back is block t of msgG of the four input arrays as the region finds them. -/
private theorem flushed_eq (c : Dev nD) (t : Fin cfg10.N) :
    (dat10 V c).flushed 4 t = ((cfg10.win 4).blk t).view.read (Elt F)
      (msgG (n := 6000000) (V c (Pipeline.arrRef spec10 0)) (V c (Pipeline.arrRef spec10 1)) (V c (Pipeline.arrRef spec10 2)) (V c (Pipeline.arrRef spec10 3))) := by
  show (cfg10.win 4).cut (grid10.coords t) ((dat10 V c).after 4 t) = _
  rw [after10_4]
  funext j
  obtain ⟨r, k, rfl⟩ : ∃ (r : Fin 4000) (k : Fin 2), j = ix2 r k := ⟨j 0, j 1, eq_ix2 j⟩
  refine (out_at (iblk10 V c 0 t) (iblk10 V c 1 t) (iblk10 V c 2 t) (iblk10 V c 3 t) r k).trans ?_
  rw [iblk_colA V c t r k, iblk_colB V c t r k, iblk_featS V c t r k, iblk_featT V c t r k]
  rfl

/-- THE OUTPUT ARRAY after the region: msgG of the four input arrays as the region finds them, everywhere. -/
theorem final10 (c : Dev nD) : (dat10 V c).arrAt 4 cfg10.N
    = msgG (n := 6000000) (V c (Pipeline.arrRef spec10 0)) (V c (Pipeline.arrRef spec10 1)) (V c (Pipeline.arrRef spec10 2)) (V c (Pipeline.arrRef spec10 3)) :=
  (dat10 V c).arrAt_eq_of_cover 4 _ (fun t _ => flushed_eq V c t) covered

end Cert.KernelIdeal.Hand

end
-- ==== Proof.KI.Val11.lean ====
/-
  The message region's value: what its output array holds after the region, as ONE function of its four input arrays
  as the region finds them, at any float instance.

  At grid point t the body leaves in the output's staging buffer, at row r and feature k of the block,
      ((a[r,0] * b[r,0]) * xs[r,k]) + xt[r,k]
  of the four input blocks; every window's block at point t is rows [4000 t, 4000 t + 4000) of its array, so what point
  t writes back is block t of msgG of the four arrays; the 1500 blocks cover the 6000000 rows (row r is in block
  r / 4000), so the array ends holding msgG of the four arrays everywhere.
-/
import proofs.«149588_j66838281060723_2_alg».proof.Proof.KI.Body11
import proofs.«149588_j66838281060723_2_alg».proof.Proof.KI.GDefs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The zero offsets of a whole-block rectangle, however spelt. -/
private theorem zero_offsets : (![0, 0] : Fin 2 → Nat) = fun _ => 0 := funext fun a => by fin_cases a <;> rfl

/-- The body's arithmetic on whole blocks: the casts to the same shape are identities. -/
private theorem pay_eq (xa xb : Vec F S4000x1 .f32) (xs xt : Vec F S4000x2 .f32) :
    k11_pay1 xa xb xs xt = addf (mulf (broadcastTo S4000x2 (mulf xa xb) broadcasts_S4000x1_S4000x2) xs) xt := by
  unfold k11_pay1
  simp only [shapeCast_self]

/-- The body's arithmetic at row r, feature k of the block: the product of the two column entries of row r, times the
    first feature entry, plus the second. -/
private theorem pay_at (xa xb : Vec F S4000x1 .f32) (xs xt : Vec F S4000x2 .f32) (r : Fin 4000) (k : Fin 2) :
    k11_pay1 xa xb xs xt (ix2 r k)
      = FloatOps.addf (FloatOps.mulf (FloatOps.mulf (xa (ix2 r (0 : Fin 1))) (xb (ix2 r (0 : Fin 1)))) (xs (ix2 r k))) (xt (ix2 r k)) := by
  rw [pay_eq]
  show FloatOps.addf (FloatOps.mulf (broadcastTo S4000x2 (mulf xa xb) broadcasts_S4000x1_S4000x2 (ix2 r k)) (xs (ix2 r k))) (xt (ix2 r k)) = _
  rw [broadcastTo_apply (mulf xa xb) broadcasts_S4000x1_S4000x2 (ix2 r k) (ix2 r (0 : Fin 1))
    (fun a => match a with | ⟨0, _⟩ => rfl | ⟨1, _⟩ => rfl)]
  rfl

/-- The printed index maps, decided over the grid: every window's block at point t is block t along the rows and the
    one block along the columns. -/
private theorem idx_facts : ∀ t : Fin cfg11.N, win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0
    ∧ win11_3.index t (0 : Fin 2) = t.val ∧ win11_3.index t (1 : Fin 2) = 0
    ∧ win11_4.index t (0 : Fin 2) = t.val ∧ win11_4.index t (1 : Fin 2) = 0 :=
  (by decide +kernel : ∀ t : Fin grid11.N, _)

/-- The grid has 1500 points. -/
private theorem grid_points : grid11.N = 1500 := by decide

/-- An index of the output array is in point t's block iff each coordinate is in the block's range on its axis. -/
private theorem mem_blk (t : Fin cfg11.N) (i : S6000000x2.Idx) :
    i ∈ ((cfg11.win 4).blk t).view.set ↔ ∀ a : Fin 2, win11_4.index t a * S4000x2.size a ≤ (i a).val ∧ (i a).val < win11_4.index t a * S4000x2.size a + S4000x2.size a := by
  show i ∈ ((View.whole (Pipeline.arrRef spec11 4)).slice (win11_4.rect t)).set ↔ _
  rw [View.set_slice_whole, Rect.mem_set_unit]
  exact Iff.rfl

/-- Every entry of the output array is in the block of the point that its row number divided by 4000 names. -/
private theorem covered (i : S6000000x2.Idx) : ∃ t : Fin cfg11.N, (cfg11.win 4).flush t = true ∧ i ∈ ((cfg11.win 4).blk t).view.set := by
  have hi0 : (i 0).val < 6000000 := idx2_lt0 i
  have hi1 : (i 1).val < 2 := idx2_lt1 i
  refine ⟨⟨(i 0).val / 4000, by show _ < grid11.N; rw [grid_points]; omega⟩, flush11_4 _, ?_⟩
  rw [mem_blk]
  obtain ⟨-, -, -, -, -, -, -, -, e0, e1⟩ := idx_facts ⟨(i 0).val / 4000, by show _ < grid11.N; rw [grid_points]; omega⟩
  intro a
  match a with
  | ⟨0, _⟩ => show win11_4.index _ (0 : Fin 2) * 4000 ≤ (i 0).val ∧ (i 0).val < win11_4.index _ (0 : Fin 2) * 4000 + 4000; rw [e0]; show (i 0).val / 4000 * 4000 ≤ _ ∧ _ < (i 0).val / 4000 * 4000 + 4000; omega
  | ⟨1, _⟩ => show win11_4.index _ (1 : Fin 2) * 2 ≤ (i 1).val ∧ (i 1).val < win11_4.index _ (1 : Fin 2) * 2 + 2; rw [e1]; omega

/-- The output's staging buffer after the body at row r, feature k: the body's arithmetic of the four blocks there. -/
private theorem out_at (xa xb : Vec F S4000x1 .f32) (xs xt : Vec F S4000x2 .f32) (r : Fin 4000) (k : Fin 2) :
    out11_4 xa xb xs xt (ix2 r k)
      = FloatOps.addf (FloatOps.mulf (FloatOps.mulf (xa (ix2 r (0 : Fin 1))) (xb (ix2 r (0 : Fin 1)))) (xs (ix2 r k))) (xt (ix2 r k)) := by
  unfold out11_4
  rw [View.canon_unit_zero zero_offsets]
  simp only [View.ld_unit_zero (S := S4000x1) zero_offsets, View.ld_unit_zero (S := S4000x2) zero_offsets]
  exact pay_at xa xb xs xt r k

/-- Row r of the first column's block at point t is the column's entry at the row of the output array that row r of the
    output's block is. -/
private theorem iblk_colA (c : Dev nD) (t : Fin cfg11.N) (r : Fin 4000) (k : Fin 2) :
    iblk11 V c 0 t (ix2 r (0 : Fin 1))
      = V c (Pipeline.arrRef spec11 0) (ix2 (n0 := 6000000) (n1 := 1) ((((cfg11.win 4).blk t).view.emb (ix2 r k)) 0) 0) := by
  obtain ⟨a0, a1, -, -, -, -, -, -, e0, -⟩ := idx_facts t
  show V c (Pipeline.arrRef spec11 0) (((cfg11.win 0).blk t).view.emb (ix2 r (0 : Fin 1))) = _
  refine congrArg (V c (Pipeline.arrRef spec11 0)) (funext fun a => Fin.ext ?_)
  match a with
  | ⟨0, _⟩ => show win11_0.index t (0 : Fin 2) * 4000 + 1 * r.val = win11_4.index t (0 : Fin 2) * 4000 + 1 * r.val; rw [a0, e0]
  | ⟨1, _⟩ => show win11_0.index t (1 : Fin 2) * 1 + 1 * 0 = 0; rw [a1]

/-- The same for the second column. -/
private theorem iblk_colB (c : Dev nD) (t : Fin cfg11.N) (r : Fin 4000) (k : Fin 2) :
    iblk11 V c 1 t (ix2 r (0 : Fin 1))
      = V c (Pipeline.arrRef spec11 1) (ix2 (n0 := 6000000) (n1 := 1) ((((cfg11.win 4).blk t).view.emb (ix2 r k)) 0) 0) := by
  obtain ⟨-, -, b0, b1, -, -, -, -, e0, -⟩ := idx_facts t
  show V c (Pipeline.arrRef spec11 1) (((cfg11.win 1).blk t).view.emb (ix2 r (0 : Fin 1))) = _
  refine congrArg (V c (Pipeline.arrRef spec11 1)) (funext fun a => Fin.ext ?_)
  match a with
  | ⟨0, _⟩ => show win11_1.index t (0 : Fin 2) * 4000 + 1 * r.val = win11_4.index t (0 : Fin 2) * 4000 + 1 * r.val; rw [b0, e0]
  | ⟨1, _⟩ => show win11_1.index t (1 : Fin 2) * 1 + 1 * 0 = 0; rw [b1]

/-- Entry (r, k) of the first feature array's block at point t is the array's entry where entry (r, k) of the output's
    block is. -/
private theorem iblk_featS (c : Dev nD) (t : Fin cfg11.N) (r : Fin 4000) (k : Fin 2) :
    iblk11 V c 2 t (ix2 r k) = V c (Pipeline.arrRef spec11 2) (((cfg11.win 4).blk t).view.emb (ix2 r k)) := by
  obtain ⟨-, -, -, -, c0, c1, -, -, e0, e1⟩ := idx_facts t
  show V c (Pipeline.arrRef spec11 2) (((cfg11.win 2).blk t).view.emb (ix2 r k)) = _
  refine congrArg (V c (Pipeline.arrRef spec11 2)) (funext fun a => Fin.ext ?_)
  match a with
  | ⟨0, _⟩ => show win11_2.index t (0 : Fin 2) * 4000 + 1 * r.val = win11_4.index t (0 : Fin 2) * 4000 + 1 * r.val; rw [c0, e0]
  | ⟨1, _⟩ => show win11_2.index t (1 : Fin 2) * 2 + 1 * k.val = win11_4.index t (1 : Fin 2) * 2 + 1 * k.val; rw [c1, e1]

/-- The same for the second feature array. -/
private theorem iblk_featT (c : Dev nD) (t : Fin cfg11.N) (r : Fin 4000) (k : Fin 2) :
    iblk11 V c 3 t (ix2 r k) = V c (Pipeline.arrRef spec11 3) (((cfg11.win 4).blk t).view.emb (ix2 r k)) := by
  obtain ⟨-, -, -, -, -, -, d0, d1, e0, e1⟩ := idx_facts t
  show V c (Pipeline.arrRef spec11 3) (((cfg11.win 3).blk t).view.emb (ix2 r k)) = _
  refine congrArg (V c (Pipeline.arrRef spec11 3)) (funext fun a => Fin.ext ?_)
  match a with
  | ⟨0, _⟩ => show win11_3.index t (0 : Fin 2) * 4000 + 1 * r.val = win11_4.index t (0 : Fin 2) * 4000 + 1 * r.val; rw [d0, e0]
  | ⟨1, _⟩ => show win11_3.index t (1 : Fin 2) * 2 + 1 * k.val = win11_4.index t (1 : Fin 2) * 2 + 1 * k.val; rw [d1, e1]

/-- What point t writes back is block t of msgG of the four input arrays as the region finds them. -/
private theorem flushed_eq (c : Dev nD) (t : Fin cfg11.N) :
    (dat11 V c).flushed 4 t = ((cfg11.win 4).blk t).view.read (Elt F)
      (msgG (n := 6000000) (V c (Pipeline.arrRef spec11 0)) (V c (Pipeline.arrRef spec11 1)) (V c (Pipeline.arrRef spec11 2)) (V c (Pipeline.arrRef spec11 3))) := by
  show (cfg11.win 4).cut (grid11.coords t) ((dat11 V c).after 4 t) = _
  rw [after11_4]
  funext j
  obtain ⟨r, k, rfl⟩ : ∃ (r : Fin 4000) (k : Fin 2), j = ix2 r k := ⟨j 0, j 1, eq_ix2 j⟩
  refine (out_at (iblk11 V c 0 t) (iblk11 V c 1 t) (iblk11 V c 2 t) (iblk11 V c 3 t) r k).trans ?_
  rw [iblk_colA V c t r k, iblk_colB V c t r k, iblk_featS V c t r k, iblk_featT V c t r k]
  rfl

/-- THE OUTPUT ARRAY after the region: msgG of the four input arrays as the region finds them, everywhere. -/
theorem final11 (c : Dev nD) : (dat11 V c).arrAt 4 cfg11.N
    = msgG (n := 6000000) (V c (Pipeline.arrRef spec11 0)) (V c (Pipeline.arrRef spec11 1)) (V c (Pipeline.arrRef spec11 2)) (V c (Pipeline.arrRef spec11 3)) :=
  (dat11 V c).arrAt_eq_of_cover 4 _ (fun t _ => flushed_eq V c t) covered

end Cert.KernelIdeal.Hand

end
-- ==== Proof.KI.Val12.lean ====
/-
  The affine region at six input columns (pallas_call 12): the value of its output array after the region, as one
  function of the three arrays it reads, index by index.

  Point t writes back the rows [10000 t, 10000 t + 10000) of the output; at row r of the block and column j the body
  stored ((((((0 + x[r,0] * w[0,j]) + x[r,1] * w[1,j]) + x[r,2] * w[2,j]) + x[r,3] * w[3,j]) + x[r,4] * w[4,j])
  + x[r,5] * w[5,j]) + b[0,j] of its staging buffers, which hold the rows [10000 t, 10000 t + 10000) of the input and
  the whole weight matrix and bias row. So what point t writes back is block t of the affine function of the three
  arrays; the 50 blocks tile the output array (row r is in block r / 10000), so the array ends holding that function
  everywhere.
-/
import proofs.«149588_j66838281060723_2_alg».proof.Proof.KI.Body12
import proofs.«149588_j66838281060723_2_alg».proof.Proof.KI.AffG
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

-- the TensorCore's buffer contents when the region is entered
variable (V : (c : Dev nD) → (b : Ref sig .tc) → Buf (Elt F) ((c : Thread nD τ).loc b))

theorem hz12 : (![0, 0] : Fin 2 → Nat) = fun _ => 0 := funext fun a => by fin_cases a <;> rfl

/-- Input column k, broadcast along the two output columns, read at an index: the input at the index's row and column k. -/
theorem xcol12 (x0 : Vec F S10000x6 .f32) (off : Fin 2 → Nat) (h : S10000x6.Slices off S10000x1) (k : Fin 6)
    (h0 : off 0 = 0) (h1 : off 1 = k.val) (j : S10000x2.Idx) :
    broadcastTo S10000x2 (extractStridedSlice S10000x1 off x0 h) broadcasts_S10000x1_S10000x2 j
      = x0 (ix2 (n0 := 10000) (n1 := 6) (j 0) k) := by
  rw [broadcastTo_apply _ _ j (ix2 (n0 := 10000) (n1 := 1) (j 0) 0) (fun a => by match a with | ⟨0, _⟩ => rfl | ⟨1, _⟩ => rfl)]
  exact extractStridedSlice_apply off x0 h (ix2 (n0 := 10000) (n1 := 1) (j 0) 0) (ix2 (n0 := 10000) (n1 := 6) (j 0) k) (fun a => by
    match a with
    | ⟨0, _⟩ => show (j 0).val = off 0 + (j 0).val; omega
    | ⟨1, _⟩ => show k.val = off 1 + 0; omega)

/-- Weight row k, broadcast along the rows, read at an index: the weight at row k and the index's column. -/
theorem wrow12 (x1 : Vec F S6x2 .f32) (off : Fin 2 → Nat) (h : S6x2.Slices off S1x2) (k : Fin 6)
    (h0 : off 0 = k.val) (h1 : off 1 = 0) (j : S10000x2.Idx) :
    broadcastTo S10000x2 (extractStridedSlice S1x2 off x1 h) broadcasts_S1x2_S10000x2 j
      = x1 (ix2 (n0 := 6) (n1 := 2) k (j 1)) := by
  rw [broadcastTo_apply _ _ j (ix2 (n0 := 1) (n1 := 2) 0 (j 1)) (fun a => by match a with | ⟨0, _⟩ => rfl | ⟨1, _⟩ => rfl)]
  exact extractStridedSlice_apply off x1 h (ix2 (n0 := 1) (n1 := 2) 0 (j 1)) (ix2 (n0 := 6) (n1 := 2) k (j 1)) (fun a => by
    match a with
    | ⟨0, _⟩ => show k.val = off 0 + 0; omega
    | ⟨1, _⟩ => show (j 1).val = off 1 + (j 1).val; omega)

/-- The body's payload at an index: the kernel's order of operations on the elements the slices and broadcasts read. -/
theorem pay12_apply (x0 : Vec F S10000x6 .f32) (x1 : Vec F S6x2 .f32) (x2 : Vec F S1x2 .f32) (j : S10000x2.Idx) :
    k12_pay1 x0 x1 x2 j = FloatOps.addf (FloatOps.addf (FloatOps.addf (FloatOps.addf (FloatOps.addf (FloatOps.addf (FloatOps.addf (Scalar.ofBits (F := F) .f32 0x00000000#32)
      (FloatOps.mulf (x0 (ix2 (n0 := 10000) (n1 := 6) (j 0) 0)) (x1 (ix2 (n0 := 6) (n1 := 2) 0 (j 1)))))
      (FloatOps.mulf (x0 (ix2 (n0 := 10000) (n1 := 6) (j 0) 1)) (x1 (ix2 (n0 := 6) (n1 := 2) 1 (j 1)))))
      (FloatOps.mulf (x0 (ix2 (n0 := 10000) (n1 := 6) (j 0) 2)) (x1 (ix2 (n0 := 6) (n1 := 2) 2 (j 1)))))
      (FloatOps.mulf (x0 (ix2 (n0 := 10000) (n1 := 6) (j 0) 3)) (x1 (ix2 (n0 := 6) (n1 := 2) 3 (j 1)))))
      (FloatOps.mulf (x0 (ix2 (n0 := 10000) (n1 := 6) (j 0) 4)) (x1 (ix2 (n0 := 6) (n1 := 2) 4 (j 1)))))
      (FloatOps.mulf (x0 (ix2 (n0 := 10000) (n1 := 6) (j 0) 5)) (x1 (ix2 (n0 := 6) (n1 := 2) 5 (j 1)))))
      (x2 (ix2 (n0 := 1) (n1 := 2) 0 (j 1))) := by
  unfold k12_pay1
  show FloatOps.addf (FloatOps.addf (FloatOps.addf (FloatOps.addf (FloatOps.addf (FloatOps.addf (FloatOps.addf (Scalar.ofBits (F := F) .f32 0x00000000#32)
      (FloatOps.mulf (broadcastTo S10000x2 (extractStridedSlice S10000x1 ![0, 0] (shapeCast S10000x6 x0 shapeCasts_S10000x6_S10000x6) slices_S10000x6_o0_0_S10000x1) broadcasts_S10000x1_S10000x2 j)
        (broadcastTo S10000x2 (extractStridedSlice S1x2 ![0, 0] (shapeCast S6x2 x1 shapeCasts_S6x2_S6x2) slices_S6x2_o0_0_S1x2) broadcasts_S1x2_S10000x2 j)))
      (FloatOps.mulf (broadcastTo S10000x2 (extractStridedSlice S10000x1 ![0, 1] (shapeCast S10000x6 x0 shapeCasts_S10000x6_S10000x6) slices_S10000x6_o0_1_S10000x1) broadcasts_S10000x1_S10000x2 j)
        (broadcastTo S10000x2 (extractStridedSlice S1x2 ![1, 0] (shapeCast S6x2 x1 shapeCasts_S6x2_S6x2) slices_S6x2_o1_0_S1x2) broadcasts_S1x2_S10000x2 j)))
      (FloatOps.mulf (broadcastTo S10000x2 (extractStridedSlice S10000x1 ![0, 2] (shapeCast S10000x6 x0 shapeCasts_S10000x6_S10000x6) slices_S10000x6_o0_2_S10000x1) broadcasts_S10000x1_S10000x2 j)
        (broadcastTo S10000x2 (extractStridedSlice S1x2 ![2, 0] (shapeCast S6x2 x1 shapeCasts_S6x2_S6x2) slices_S6x2_o2_0_S1x2) broadcasts_S1x2_S10000x2 j)))
      (FloatOps.mulf (broadcastTo S10000x2 (extractStridedSlice S10000x1 ![0, 3] (shapeCast S10000x6 x0 shapeCasts_S10000x6_S10000x6) slices_S10000x6_o0_3_S10000x1) broadcasts_S10000x1_S10000x2 j)
        (broadcastTo S10000x2 (extractStridedSlice S1x2 ![3, 0] (shapeCast S6x2 x1 shapeCasts_S6x2_S6x2) slices_S6x2_o3_0_S1x2) broadcasts_S1x2_S10000x2 j)))
      (FloatOps.mulf (broadcastTo S10000x2 (extractStridedSlice S10000x1 ![0, 4] (shapeCast S10000x6 x0 shapeCasts_S10000x6_S10000x6) slices_S10000x6_o0_4_S10000x1) broadcasts_S10000x1_S10000x2 j)
        (broadcastTo S10000x2 (extractStridedSlice S1x2 ![4, 0] (shapeCast S6x2 x1 shapeCasts_S6x2_S6x2) slices_S6x2_o4_0_S1x2) broadcasts_S1x2_S10000x2 j)))
      (FloatOps.mulf (broadcastTo S10000x2 (extractStridedSlice S10000x1 ![0, 5] (shapeCast S10000x6 x0 shapeCasts_S10000x6_S10000x6) slices_S10000x6_o0_5_S10000x1) broadcasts_S10000x1_S10000x2 j)
        (broadcastTo S10000x2 (extractStridedSlice S1x2 ![5, 0] (shapeCast S6x2 x1 shapeCasts_S6x2_S6x2) slices_S6x2_o5_0_S1x2) broadcasts_S1x2_S10000x2 j)))
      (broadcastTo S10000x2 (shapeCast S1x2 x2 shapeCasts_S1x2_S1x2) broadcasts_S1x2_S10000x2 j) = _
  rw [shapeCast_self, shapeCast_self, shapeCast_self,
    xcol12 x0 ![0, 0] slices_S10000x6_o0_0_S10000x1 0 rfl rfl j, wrow12 x1 ![0, 0] slices_S6x2_o0_0_S1x2 0 rfl rfl j,
    xcol12 x0 ![0, 1] slices_S10000x6_o0_1_S10000x1 1 rfl rfl j, wrow12 x1 ![1, 0] slices_S6x2_o1_0_S1x2 1 rfl rfl j,
    xcol12 x0 ![0, 2] slices_S10000x6_o0_2_S10000x1 2 rfl rfl j, wrow12 x1 ![2, 0] slices_S6x2_o2_0_S1x2 2 rfl rfl j,
    xcol12 x0 ![0, 3] slices_S10000x6_o0_3_S10000x1 3 rfl rfl j, wrow12 x1 ![3, 0] slices_S6x2_o3_0_S1x2 3 rfl rfl j,
    xcol12 x0 ![0, 4] slices_S10000x6_o0_4_S10000x1 4 rfl rfl j, wrow12 x1 ![4, 0] slices_S6x2_o4_0_S1x2 4 rfl rfl j,
    xcol12 x0 ![0, 5] slices_S10000x6_o0_5_S10000x1 5 rfl rfl j, wrow12 x1 ![5, 0] slices_S6x2_o5_0_S1x2 5 rfl rfl j,
    broadcastTo_apply x2 _ j (ix2 (n0 := 1) (n1 := 2) 0 (j 1)) (fun a => by match a with | ⟨0, _⟩ => rfl | ⟨1, _⟩ => rfl)]

/-- The index maps, decided over the grid: the input's and the output's row block is the point's number, and every
    other block index is zero. -/
theorem idx_facts12 : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

/-- Where the blocks sit in their arrays: at point t the element of the input block at (row, column k) is the input
    array's element at the row of the output block's element and column k, -/
theorem embx12 (t : Fin cfg12.N) (j : S10000x2.Idx) (k : Fin 6) :
    ((cfg12.win 0).blk t).view.emb (ix2 (n0 := 10000) (n1 := 6) (j 0) k)
      = ix2 (n0 := 500000) (n1 := 6) ((((cfg12.win 3).blk t).view.emb j) 0) k := by
  obtain ⟨e0, e1, e2, e3, e4, e5, e6, e7⟩ := idx_facts12 t
  funext a; apply Fin.ext
  match a with
  | ⟨0, _⟩ => show win12_0.index t (0 : Fin 2) * 10000 + 1 * (j 0).val = win12_3.index t (0 : Fin 2) * 10000 + 1 * (j 0).val; omega
  | ⟨1, _⟩ => show win12_0.index t (1 : Fin 2) * 6 + 1 * k.val = k.val; omega
/-- the element of the weight block at (k, column) is the weight array's at k and the output element's column, -/
theorem embw12 (t : Fin cfg12.N) (j : S10000x2.Idx) (k : Fin 6) :
    ((cfg12.win 1).blk t).view.emb (ix2 (n0 := 6) (n1 := 2) k (j 1))
      = ix2 (n0 := 6) (n1 := 2) k ((((cfg12.win 3).blk t).view.emb j) 1) := by
  obtain ⟨e0, e1, e2, e3, e4, e5, e6, e7⟩ := idx_facts12 t
  funext a; apply Fin.ext
  match a with
  | ⟨0, _⟩ => show win12_1.index t (0 : Fin 2) * 6 + 1 * k.val = k.val; omega
  | ⟨1, _⟩ => show win12_1.index t (1 : Fin 2) * 2 + 1 * (j 1).val = win12_3.index t (1 : Fin 2) * 2 + 1 * (j 1).val; omega
/-- and the element of the bias block at (0, column) is the bias array's at the output element's column. -/
theorem embb12 (t : Fin cfg12.N) (j : S10000x2.Idx) :
    ((cfg12.win 2).blk t).view.emb (ix2 (n0 := 1) (n1 := 2) 0 (j 1))
      = ix2 (n0 := 1) (n1 := 2) 0 ((((cfg12.win 3).blk t).view.emb j) 1) := by
  obtain ⟨e0, e1, e2, e3, e4, e5, e6, e7⟩ := idx_facts12 t
  funext a; apply Fin.ext
  match a with
  | ⟨0, _⟩ => show win12_2.index t (0 : Fin 2) * 1 + 1 * 0 = 0; omega
  | ⟨1, _⟩ => show win12_2.index t (1 : Fin 2) * 2 + 1 * (j 1).val = win12_3.index t (1 : Fin 2) * 2 + 1 * (j 1).val; omega

set_option maxHeartbeats 1000000 in
/-- What point t writes back is block t of the affine function of the three arrays as the region finds them. -/
theorem flushed12_eq (c : Dev nD) (t : Fin cfg12.N) :
    (dat12 V c).flushed 3 t = ((cfg12.win 3).blk t).view.read (Elt F)
      (aff6G (n := 500000) (V c (Pipeline.arrRef spec12 0)) (V c (Pipeline.arrRef spec12 1)) (V c (Pipeline.arrRef spec12 2))) := by
  show (cfg12.win 3).cut (grid12.coords t) ((dat12 V c).after 3 t) = _
  rw [after12_3]
  unfold out12_3
  rw [View.canon_unit_zero hz12]
  simp only [View.ld_unit_zero (S := S10000x6) hz12, View.ld_unit_zero (S := S6x2) hz12, View.ld_unit_zero (S := S1x2) hz12]
  funext j
  show k12_pay1 (iblk12 V c 0 t) (iblk12 V c 1 t) (iblk12 V c 2 t) j
    = aff6G (n := 500000) (V c (Pipeline.arrRef spec12 0)) (V c (Pipeline.arrRef spec12 1)) (V c (Pipeline.arrRef spec12 2)) (((cfg12.win 3).blk t).view.emb j)
  rw [pay12_apply]
  show FloatOps.addf (FloatOps.addf (FloatOps.addf (FloatOps.addf (FloatOps.addf (FloatOps.addf (FloatOps.addf (Scalar.ofBits (F := F) .f32 0x00000000#32)
      (FloatOps.mulf (V c (Pipeline.arrRef spec12 0) (((cfg12.win 0).blk t).view.emb (ix2 (n0 := 10000) (n1 := 6) (j 0) 0)))
        (V c (Pipeline.arrRef spec12 1) (((cfg12.win 1).blk t).view.emb (ix2 (n0 := 6) (n1 := 2) 0 (j 1))))))
      (FloatOps.mulf (V c (Pipeline.arrRef spec12 0) (((cfg12.win 0).blk t).view.emb (ix2 (n0 := 10000) (n1 := 6) (j 0) 1)))
        (V c (Pipeline.arrRef spec12 1) (((cfg12.win 1).blk t).view.emb (ix2 (n0 := 6) (n1 := 2) 1 (j 1))))))
      (FloatOps.mulf (V c (Pipeline.arrRef spec12 0) (((cfg12.win 0).blk t).view.emb (ix2 (n0 := 10000) (n1 := 6) (j 0) 2)))
        (V c (Pipeline.arrRef spec12 1) (((cfg12.win 1).blk t).view.emb (ix2 (n0 := 6) (n1 := 2) 2 (j 1))))))
      (FloatOps.mulf (V c (Pipeline.arrRef spec12 0) (((cfg12.win 0).blk t).view.emb (ix2 (n0 := 10000) (n1 := 6) (j 0) 3)))
        (V c (Pipeline.arrRef spec12 1) (((cfg12.win 1).blk t).view.emb (ix2 (n0 := 6) (n1 := 2) 3 (j 1))))))
      (FloatOps.mulf (V c (Pipeline.arrRef spec12 0) (((cfg12.win 0).blk t).view.emb (ix2 (n0 := 10000) (n1 := 6) (j 0) 4)))
        (V c (Pipeline.arrRef spec12 1) (((cfg12.win 1).blk t).view.emb (ix2 (n0 := 6) (n1 := 2) 4 (j 1))))))
      (FloatOps.mulf (V c (Pipeline.arrRef spec12 0) (((cfg12.win 0).blk t).view.emb (ix2 (n0 := 10000) (n1 := 6) (j 0) 5)))
        (V c (Pipeline.arrRef spec12 1) (((cfg12.win 1).blk t).view.emb (ix2 (n0 := 6) (n1 := 2) 5 (j 1))))))
      (V c (Pipeline.arrRef spec12 2) (((cfg12.win 2).blk t).view.emb (ix2 (n0 := 1) (n1 := 2) 0 (j 1)))) = _
  rw [embx12 t j 0, embx12 t j 1, embx12 t j 2, embx12 t j 3, embx12 t j 4, embx12 t j 5,
    embw12 t j 0, embw12 t j 1, embw12 t j 2, embw12 t j 3, embw12 t j 4, embw12 t j 5, embb12 t j]

/-- An index of the output array is in point t's block iff each coordinate is in the block's range on its axis. -/
theorem mem_blk12 (t : Fin cfg12.N) (i : S500000x2.Idx) :
    i ∈ ((cfg12.win 3).blk t).view.set ↔ ∀ a : Fin 2, win12_3.index t a * S10000x2.size a ≤ (i a).val ∧ (i a).val < win12_3.index t a * S10000x2.size a + S10000x2.size a := by
  show i ∈ ((View.whole (Pipeline.arrRef spec12 3)).slice (win12_3.rect t)).set ↔ _
  rw [View.set_slice_whole, Rect.mem_set_unit]
  exact Iff.rfl

/-- Every index of the output array is in some point's block: row r is in block r / 10000. -/
theorem cover12 (i : S500000x2.Idx) :
    ∃ t : Fin cfg12.N, (cfg12.win 3).flush t = true ∧ i ∈ ((cfg12.win 3).blk t).view.set := by
  have hi0 : (i 0).val < 500000 := (i 0).isLt
  have hi1 : (i 1).val < 2 := (i 1).isLt
  have hN : (i 0).val / 10000 < cfg12.N := by
    have hg := N_12
    show (i 0).val / 10000 < grid12.N
    omega
  obtain ⟨t, ht⟩ : ∃ t : Fin cfg12.N, t.val = (i 0).val / 10000 := ⟨⟨_, hN⟩, rfl⟩
  obtain ⟨e0, e1, e2, e3, e4, e5, e6, e7⟩ := idx_facts12 t
  refine ⟨t, flush12_3 t, ?_⟩
  rw [mem_blk12]
  intro a
  match a with
  | ⟨0, _⟩ => show win12_3.index t (0 : Fin 2) * 10000 ≤ (i 0).val ∧ (i 0).val < win12_3.index t (0 : Fin 2) * 10000 + 10000; omega
  | ⟨1, _⟩ => show win12_3.index t (1 : Fin 2) * 2 ≤ (i 1).val ∧ (i 1).val < win12_3.index t (1 : Fin 2) * 2 + 2; omega

/-- The output array after the region: the affine function of the three arrays the region reads. -/
theorem final12 (c : Dev nD) : (dat12 V c).arrAt 3 cfg12.N
    = aff6G (n := 500000) (V c (Pipeline.arrRef spec12 0)) (V c (Pipeline.arrRef spec12 1)) (V c (Pipeline.arrRef spec12 2)) :=
  (dat12 V c).arrAt_eq_of_cover 3 _ (fun t _ => flushed12_eq V c t) cover12

end Cert.KernelIdeal.Hand

end
-- ==== Proof.KI.Val13.lean ====
/-
  The affine region at six input columns (pallas_call 13): the value of its output array after the region, as one
  function of the three arrays it reads, index by index.

  Point t writes back the rows [10000 t, 10000 t + 10000) of the output; at row r of the block and column j the body
  stored ((((((0 + x[r,0] * w[0,j]) + x[r,1] * w[1,j]) + x[r,2] * w[2,j]) + x[r,3] * w[3,j]) + x[r,4] * w[4,j])
  + x[r,5] * w[5,j]) + b[0,j] of its staging buffers, which hold the rows [10000 t, 10000 t + 10000) of the input and
  the whole weight matrix and bias row. So what point t writes back is block t of the affine function of the three
  arrays; the 200 blocks tile the output array (row r is in block r / 10000), so the array ends holding that function
  everywhere.
-/
import proofs.«149588_j66838281060723_2_alg».proof.Proof.KI.Body13
import proofs.«149588_j66838281060723_2_alg».proof.Proof.KI.AffG
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

-- the TensorCore's buffer contents when the region is entered
variable (V : (c : Dev nD) → (b : Ref sig .tc) → Buf (Elt F) ((c : Thread nD τ).loc b))

theorem hz13 : (![0, 0] : Fin 2 → Nat) = fun _ => 0 := funext fun a => by fin_cases a <;> rfl

/-- Input column k, broadcast along the two output columns, read at an index: the input at the index's row and column k. -/
theorem xcol13 (x0 : Vec F S10000x6 .f32) (off : Fin 2 → Nat) (h : S10000x6.Slices off S10000x1) (k : Fin 6)
    (h0 : off 0 = 0) (h1 : off 1 = k.val) (j : S10000x2.Idx) :
    broadcastTo S10000x2 (extractStridedSlice S10000x1 off x0 h) broadcasts_S10000x1_S10000x2 j
      = x0 (ix2 (n0 := 10000) (n1 := 6) (j 0) k) := by
  rw [broadcastTo_apply _ _ j (ix2 (n0 := 10000) (n1 := 1) (j 0) 0) (fun a => by match a with | ⟨0, _⟩ => rfl | ⟨1, _⟩ => rfl)]
  exact extractStridedSlice_apply off x0 h (ix2 (n0 := 10000) (n1 := 1) (j 0) 0) (ix2 (n0 := 10000) (n1 := 6) (j 0) k) (fun a => by
    match a with
    | ⟨0, _⟩ => show (j 0).val = off 0 + (j 0).val; omega
    | ⟨1, _⟩ => show k.val = off 1 + 0; omega)

/-- Weight row k, broadcast along the rows, read at an index: the weight at row k and the index's column. -/
theorem wrow13 (x1 : Vec F S6x2 .f32) (off : Fin 2 → Nat) (h : S6x2.Slices off S1x2) (k : Fin 6)
    (h0 : off 0 = k.val) (h1 : off 1 = 0) (j : S10000x2.Idx) :
    broadcastTo S10000x2 (extractStridedSlice S1x2 off x1 h) broadcasts_S1x2_S10000x2 j
      = x1 (ix2 (n0 := 6) (n1 := 2) k (j 1)) := by
  rw [broadcastTo_apply _ _ j (ix2 (n0 := 1) (n1 := 2) 0 (j 1)) (fun a => by match a with | ⟨0, _⟩ => rfl | ⟨1, _⟩ => rfl)]
  exact extractStridedSlice_apply off x1 h (ix2 (n0 := 1) (n1 := 2) 0 (j 1)) (ix2 (n0 := 6) (n1 := 2) k (j 1)) (fun a => by
    match a with
    | ⟨0, _⟩ => show k.val = off 0 + 0; omega
    | ⟨1, _⟩ => show (j 1).val = off 1 + (j 1).val; omega)

/-- The body's payload at an index: the kernel's order of operations on the elements the slices and broadcasts read. -/
theorem pay13_apply (x0 : Vec F S10000x6 .f32) (x1 : Vec F S6x2 .f32) (x2 : Vec F S1x2 .f32) (j : S10000x2.Idx) :
    k13_pay1 x0 x1 x2 j = FloatOps.addf (FloatOps.addf (FloatOps.addf (FloatOps.addf (FloatOps.addf (FloatOps.addf (FloatOps.addf (Scalar.ofBits (F := F) .f32 0x00000000#32)
      (FloatOps.mulf (x0 (ix2 (n0 := 10000) (n1 := 6) (j 0) 0)) (x1 (ix2 (n0 := 6) (n1 := 2) 0 (j 1)))))
      (FloatOps.mulf (x0 (ix2 (n0 := 10000) (n1 := 6) (j 0) 1)) (x1 (ix2 (n0 := 6) (n1 := 2) 1 (j 1)))))
      (FloatOps.mulf (x0 (ix2 (n0 := 10000) (n1 := 6) (j 0) 2)) (x1 (ix2 (n0 := 6) (n1 := 2) 2 (j 1)))))
      (FloatOps.mulf (x0 (ix2 (n0 := 10000) (n1 := 6) (j 0) 3)) (x1 (ix2 (n0 := 6) (n1 := 2) 3 (j 1)))))
      (FloatOps.mulf (x0 (ix2 (n0 := 10000) (n1 := 6) (j 0) 4)) (x1 (ix2 (n0 := 6) (n1 := 2) 4 (j 1)))))
      (FloatOps.mulf (x0 (ix2 (n0 := 10000) (n1 := 6) (j 0) 5)) (x1 (ix2 (n0 := 6) (n1 := 2) 5 (j 1)))))
      (x2 (ix2 (n0 := 1) (n1 := 2) 0 (j 1))) := by
  unfold k13_pay1
  show FloatOps.addf (FloatOps.addf (FloatOps.addf (FloatOps.addf (FloatOps.addf (FloatOps.addf (FloatOps.addf (Scalar.ofBits (F := F) .f32 0x00000000#32)
      (FloatOps.mulf (broadcastTo S10000x2 (extractStridedSlice S10000x1 ![0, 0] (shapeCast S10000x6 x0 shapeCasts_S10000x6_S10000x6) slices_S10000x6_o0_0_S10000x1) broadcasts_S10000x1_S10000x2 j)
        (broadcastTo S10000x2 (extractStridedSlice S1x2 ![0, 0] (shapeCast S6x2 x1 shapeCasts_S6x2_S6x2) slices_S6x2_o0_0_S1x2) broadcasts_S1x2_S10000x2 j)))
      (FloatOps.mulf (broadcastTo S10000x2 (extractStridedSlice S10000x1 ![0, 1] (shapeCast S10000x6 x0 shapeCasts_S10000x6_S10000x6) slices_S10000x6_o0_1_S10000x1) broadcasts_S10000x1_S10000x2 j)
        (broadcastTo S10000x2 (extractStridedSlice S1x2 ![1, 0] (shapeCast S6x2 x1 shapeCasts_S6x2_S6x2) slices_S6x2_o1_0_S1x2) broadcasts_S1x2_S10000x2 j)))
      (FloatOps.mulf (broadcastTo S10000x2 (extractStridedSlice S10000x1 ![0, 2] (shapeCast S10000x6 x0 shapeCasts_S10000x6_S10000x6) slices_S10000x6_o0_2_S10000x1) broadcasts_S10000x1_S10000x2 j)
        (broadcastTo S10000x2 (extractStridedSlice S1x2 ![2, 0] (shapeCast S6x2 x1 shapeCasts_S6x2_S6x2) slices_S6x2_o2_0_S1x2) broadcasts_S1x2_S10000x2 j)))
      (FloatOps.mulf (broadcastTo S10000x2 (extractStridedSlice S10000x1 ![0, 3] (shapeCast S10000x6 x0 shapeCasts_S10000x6_S10000x6) slices_S10000x6_o0_3_S10000x1) broadcasts_S10000x1_S10000x2 j)
        (broadcastTo S10000x2 (extractStridedSlice S1x2 ![3, 0] (shapeCast S6x2 x1 shapeCasts_S6x2_S6x2) slices_S6x2_o3_0_S1x2) broadcasts_S1x2_S10000x2 j)))
      (FloatOps.mulf (broadcastTo S10000x2 (extractStridedSlice S10000x1 ![0, 4] (shapeCast S10000x6 x0 shapeCasts_S10000x6_S10000x6) slices_S10000x6_o0_4_S10000x1) broadcasts_S10000x1_S10000x2 j)
        (broadcastTo S10000x2 (extractStridedSlice S1x2 ![4, 0] (shapeCast S6x2 x1 shapeCasts_S6x2_S6x2) slices_S6x2_o4_0_S1x2) broadcasts_S1x2_S10000x2 j)))
      (FloatOps.mulf (broadcastTo S10000x2 (extractStridedSlice S10000x1 ![0, 5] (shapeCast S10000x6 x0 shapeCasts_S10000x6_S10000x6) slices_S10000x6_o0_5_S10000x1) broadcasts_S10000x1_S10000x2 j)
        (broadcastTo S10000x2 (extractStridedSlice S1x2 ![5, 0] (shapeCast S6x2 x1 shapeCasts_S6x2_S6x2) slices_S6x2_o5_0_S1x2) broadcasts_S1x2_S10000x2 j)))
      (broadcastTo S10000x2 (shapeCast S1x2 x2 shapeCasts_S1x2_S1x2) broadcasts_S1x2_S10000x2 j) = _
  rw [shapeCast_self, shapeCast_self, shapeCast_self,
    xcol13 x0 ![0, 0] slices_S10000x6_o0_0_S10000x1 0 rfl rfl j, wrow13 x1 ![0, 0] slices_S6x2_o0_0_S1x2 0 rfl rfl j,
    xcol13 x0 ![0, 1] slices_S10000x6_o0_1_S10000x1 1 rfl rfl j, wrow13 x1 ![1, 0] slices_S6x2_o1_0_S1x2 1 rfl rfl j,
    xcol13 x0 ![0, 2] slices_S10000x6_o0_2_S10000x1 2 rfl rfl j, wrow13 x1 ![2, 0] slices_S6x2_o2_0_S1x2 2 rfl rfl j,
    xcol13 x0 ![0, 3] slices_S10000x6_o0_3_S10000x1 3 rfl rfl j, wrow13 x1 ![3, 0] slices_S6x2_o3_0_S1x2 3 rfl rfl j,
    xcol13 x0 ![0, 4] slices_S10000x6_o0_4_S10000x1 4 rfl rfl j, wrow13 x1 ![4, 0] slices_S6x2_o4_0_S1x2 4 rfl rfl j,
    xcol13 x0 ![0, 5] slices_S10000x6_o0_5_S10000x1 5 rfl rfl j, wrow13 x1 ![5, 0] slices_S6x2_o5_0_S1x2 5 rfl rfl j,
    broadcastTo_apply x2 _ j (ix2 (n0 := 1) (n1 := 2) 0 (j 1)) (fun a => by match a with | ⟨0, _⟩ => rfl | ⟨1, _⟩ => rfl)]

/-- The index maps, decided over the grid: the input's and the output's row block is the point's number, and every
    other block index is zero. -/
theorem idx_facts13 : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = t.val ∧ win13_3.index t (1 : Fin 2) = 0 :=
  (by decide +kernel : ∀ t : Fin grid13.N, _)

/-- Where the blocks sit in their arrays: at point t the element of the input block at (row, column k) is the input
    array's element at the row of the output block's element and column k, -/
theorem embx13 (t : Fin cfg13.N) (j : S10000x2.Idx) (k : Fin 6) :
    ((cfg13.win 0).blk t).view.emb (ix2 (n0 := 10000) (n1 := 6) (j 0) k)
      = ix2 (n0 := 2000000) (n1 := 6) ((((cfg13.win 3).blk t).view.emb j) 0) k := by
  obtain ⟨e0, e1, e2, e3, e4, e5, e6, e7⟩ := idx_facts13 t
  funext a; apply Fin.ext
  match a with
  | ⟨0, _⟩ => show win13_0.index t (0 : Fin 2) * 10000 + 1 * (j 0).val = win13_3.index t (0 : Fin 2) * 10000 + 1 * (j 0).val; omega
  | ⟨1, _⟩ => show win13_0.index t (1 : Fin 2) * 6 + 1 * k.val = k.val; omega
/-- the element of the weight block at (k, column) is the weight array's at k and the output element's column, -/
theorem embw13 (t : Fin cfg13.N) (j : S10000x2.Idx) (k : Fin 6) :
    ((cfg13.win 1).blk t).view.emb (ix2 (n0 := 6) (n1 := 2) k (j 1))
      = ix2 (n0 := 6) (n1 := 2) k ((((cfg13.win 3).blk t).view.emb j) 1) := by
  obtain ⟨e0, e1, e2, e3, e4, e5, e6, e7⟩ := idx_facts13 t
  funext a; apply Fin.ext
  match a with
  | ⟨0, _⟩ => show win13_1.index t (0 : Fin 2) * 6 + 1 * k.val = k.val; omega
  | ⟨1, _⟩ => show win13_1.index t (1 : Fin 2) * 2 + 1 * (j 1).val = win13_3.index t (1 : Fin 2) * 2 + 1 * (j 1).val; omega
/-- and the element of the bias block at (0, column) is the bias array's at the output element's column. -/
theorem embb13 (t : Fin cfg13.N) (j : S10000x2.Idx) :
    ((cfg13.win 2).blk t).view.emb (ix2 (n0 := 1) (n1 := 2) 0 (j 1))
      = ix2 (n0 := 1) (n1 := 2) 0 ((((cfg13.win 3).blk t).view.emb j) 1) := by
  obtain ⟨e0, e1, e2, e3, e4, e5, e6, e7⟩ := idx_facts13 t
  funext a; apply Fin.ext
  match a with
  | ⟨0, _⟩ => show win13_2.index t (0 : Fin 2) * 1 + 1 * 0 = 0; omega
  | ⟨1, _⟩ => show win13_2.index t (1 : Fin 2) * 2 + 1 * (j 1).val = win13_3.index t (1 : Fin 2) * 2 + 1 * (j 1).val; omega

set_option maxHeartbeats 1000000 in
/-- What point t writes back is block t of the affine function of the three arrays as the region finds them. -/
theorem flushed13_eq (c : Dev nD) (t : Fin cfg13.N) :
    (dat13 V c).flushed 3 t = ((cfg13.win 3).blk t).view.read (Elt F)
      (aff6G (n := 2000000) (V c (Pipeline.arrRef spec13 0)) (V c (Pipeline.arrRef spec13 1)) (V c (Pipeline.arrRef spec13 2))) := by
  show (cfg13.win 3).cut (grid13.coords t) ((dat13 V c).after 3 t) = _
  rw [after13_3]
  unfold out13_3
  rw [View.canon_unit_zero hz13]
  simp only [View.ld_unit_zero (S := S10000x6) hz13, View.ld_unit_zero (S := S6x2) hz13, View.ld_unit_zero (S := S1x2) hz13]
  funext j
  show k13_pay1 (iblk13 V c 0 t) (iblk13 V c 1 t) (iblk13 V c 2 t) j
    = aff6G (n := 2000000) (V c (Pipeline.arrRef spec13 0)) (V c (Pipeline.arrRef spec13 1)) (V c (Pipeline.arrRef spec13 2)) (((cfg13.win 3).blk t).view.emb j)
  rw [pay13_apply]
  show FloatOps.addf (FloatOps.addf (FloatOps.addf (FloatOps.addf (FloatOps.addf (FloatOps.addf (FloatOps.addf (Scalar.ofBits (F := F) .f32 0x00000000#32)
      (FloatOps.mulf (V c (Pipeline.arrRef spec13 0) (((cfg13.win 0).blk t).view.emb (ix2 (n0 := 10000) (n1 := 6) (j 0) 0)))
        (V c (Pipeline.arrRef spec13 1) (((cfg13.win 1).blk t).view.emb (ix2 (n0 := 6) (n1 := 2) 0 (j 1))))))
      (FloatOps.mulf (V c (Pipeline.arrRef spec13 0) (((cfg13.win 0).blk t).view.emb (ix2 (n0 := 10000) (n1 := 6) (j 0) 1)))
        (V c (Pipeline.arrRef spec13 1) (((cfg13.win 1).blk t).view.emb (ix2 (n0 := 6) (n1 := 2) 1 (j 1))))))
      (FloatOps.mulf (V c (Pipeline.arrRef spec13 0) (((cfg13.win 0).blk t).view.emb (ix2 (n0 := 10000) (n1 := 6) (j 0) 2)))
        (V c (Pipeline.arrRef spec13 1) (((cfg13.win 1).blk t).view.emb (ix2 (n0 := 6) (n1 := 2) 2 (j 1))))))
      (FloatOps.mulf (V c (Pipeline.arrRef spec13 0) (((cfg13.win 0).blk t).view.emb (ix2 (n0 := 10000) (n1 := 6) (j 0) 3)))
        (V c (Pipeline.arrRef spec13 1) (((cfg13.win 1).blk t).view.emb (ix2 (n0 := 6) (n1 := 2) 3 (j 1))))))
      (FloatOps.mulf (V c (Pipeline.arrRef spec13 0) (((cfg13.win 0).blk t).view.emb (ix2 (n0 := 10000) (n1 := 6) (j 0) 4)))
        (V c (Pipeline.arrRef spec13 1) (((cfg13.win 1).blk t).view.emb (ix2 (n0 := 6) (n1 := 2) 4 (j 1))))))
      (FloatOps.mulf (V c (Pipeline.arrRef spec13 0) (((cfg13.win 0).blk t).view.emb (ix2 (n0 := 10000) (n1 := 6) (j 0) 5)))
        (V c (Pipeline.arrRef spec13 1) (((cfg13.win 1).blk t).view.emb (ix2 (n0 := 6) (n1 := 2) 5 (j 1))))))
      (V c (Pipeline.arrRef spec13 2) (((cfg13.win 2).blk t).view.emb (ix2 (n0 := 1) (n1 := 2) 0 (j 1)))) = _
  rw [embx13 t j 0, embx13 t j 1, embx13 t j 2, embx13 t j 3, embx13 t j 4, embx13 t j 5,
    embw13 t j 0, embw13 t j 1, embw13 t j 2, embw13 t j 3, embw13 t j 4, embw13 t j 5, embb13 t j]

/-- An index of the output array is in point t's block iff each coordinate is in the block's range on its axis. -/
theorem mem_blk13 (t : Fin cfg13.N) (i : S2000000x2.Idx) :
    i ∈ ((cfg13.win 3).blk t).view.set ↔ ∀ a : Fin 2, win13_3.index t a * S10000x2.size a ≤ (i a).val ∧ (i a).val < win13_3.index t a * S10000x2.size a + S10000x2.size a := by
  show i ∈ ((View.whole (Pipeline.arrRef spec13 3)).slice (win13_3.rect t)).set ↔ _
  rw [View.set_slice_whole, Rect.mem_set_unit]
  exact Iff.rfl

/-- Every index of the output array is in some point's block: row r is in block r / 10000. -/
theorem cover13 (i : S2000000x2.Idx) :
    ∃ t : Fin cfg13.N, (cfg13.win 3).flush t = true ∧ i ∈ ((cfg13.win 3).blk t).view.set := by
  have hi0 : (i 0).val < 2000000 := (i 0).isLt
  have hi1 : (i 1).val < 2 := (i 1).isLt
  have hN : (i 0).val / 10000 < cfg13.N := by
    have hg := N_13
    show (i 0).val / 10000 < grid13.N
    omega
  obtain ⟨t, ht⟩ : ∃ t : Fin cfg13.N, t.val = (i 0).val / 10000 := ⟨⟨_, hN⟩, rfl⟩
  obtain ⟨e0, e1, e2, e3, e4, e5, e6, e7⟩ := idx_facts13 t
  refine ⟨t, flush13_3 t, ?_⟩
  rw [mem_blk13]
  intro a
  match a with
  | ⟨0, _⟩ => show win13_3.index t (0 : Fin 2) * 10000 ≤ (i 0).val ∧ (i 0).val < win13_3.index t (0 : Fin 2) * 10000 + 10000; omega
  | ⟨1, _⟩ => show win13_3.index t (1 : Fin 2) * 2 ≤ (i 1).val ∧ (i 1).val < win13_3.index t (1 : Fin 2) * 2 + 2; omega

/-- The output array after the region: the affine function of the three arrays the region reads. -/
theorem final13 (c : Dev nD) : (dat13 V c).arrAt 3 cfg13.N
    = aff6G (n := 2000000) (V c (Pipeline.arrRef spec13 0)) (V c (Pipeline.arrRef spec13 1)) (V c (Pipeline.arrRef spec13 2)) :=
  (dat13 V c).arrAt_eq_of_cover 3 _ (fun t _ => flushed13_eq V c t) cover13

end Cert.KernelIdeal.Hand

end
-- ==== Proof.KI.Val14.lean ====
/-
  The message region's value: what its output array holds after the region, as ONE function of its four input arrays
  as the region finds them, at any float instance.

  At grid point t the body leaves in the output's staging buffer, at row r and feature k of the block,
      ((a[r,0] * b[r,0]) * xs[r,k]) + xt[r,k]
  of the four input blocks; every window's block at point t is rows [4000 t, 4000 t + 4000) of its array, so what point
  t writes back is block t of msgG of the four arrays; the 1500 blocks cover the 6000000 rows (row r is in block
  r / 4000), so the array ends holding msgG of the four arrays everywhere.
-/
import proofs.«149588_j66838281060723_2_alg».proof.Proof.KI.Body14
import proofs.«149588_j66838281060723_2_alg».proof.Proof.KI.GDefs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The zero offsets of a whole-block rectangle, however spelt. -/
private theorem zero_offsets : (![0, 0] : Fin 2 → Nat) = fun _ => 0 := funext fun a => by fin_cases a <;> rfl

/-- The body's arithmetic on whole blocks: the casts to the same shape are identities. -/
private theorem pay_eq (xa xb : Vec F S4000x1 .f32) (xs xt : Vec F S4000x2 .f32) :
    k14_pay1 xa xb xs xt = addf (mulf (broadcastTo S4000x2 (mulf xa xb) broadcasts_S4000x1_S4000x2) xs) xt := by
  unfold k14_pay1
  simp only [shapeCast_self]

/-- The body's arithmetic at row r, feature k of the block: the product of the two column entries of row r, times the
    first feature entry, plus the second. -/
private theorem pay_at (xa xb : Vec F S4000x1 .f32) (xs xt : Vec F S4000x2 .f32) (r : Fin 4000) (k : Fin 2) :
    k14_pay1 xa xb xs xt (ix2 r k)
      = FloatOps.addf (FloatOps.mulf (FloatOps.mulf (xa (ix2 r (0 : Fin 1))) (xb (ix2 r (0 : Fin 1)))) (xs (ix2 r k))) (xt (ix2 r k)) := by
  rw [pay_eq]
  show FloatOps.addf (FloatOps.mulf (broadcastTo S4000x2 (mulf xa xb) broadcasts_S4000x1_S4000x2 (ix2 r k)) (xs (ix2 r k))) (xt (ix2 r k)) = _
  rw [broadcastTo_apply (mulf xa xb) broadcasts_S4000x1_S4000x2 (ix2 r k) (ix2 r (0 : Fin 1))
    (fun a => match a with | ⟨0, _⟩ => rfl | ⟨1, _⟩ => rfl)]
  rfl

/-- The printed index maps, decided over the grid: every window's block at point t is block t along the rows and the
    one block along the columns. -/
private theorem idx_facts : ∀ t : Fin cfg14.N, win14_0.index t (0 : Fin 2) = t.val ∧ win14_0.index t (1 : Fin 2) = 0
    ∧ win14_1.index t (0 : Fin 2) = t.val ∧ win14_1.index t (1 : Fin 2) = 0
    ∧ win14_2.index t (0 : Fin 2) = t.val ∧ win14_2.index t (1 : Fin 2) = 0
    ∧ win14_3.index t (0 : Fin 2) = t.val ∧ win14_3.index t (1 : Fin 2) = 0
    ∧ win14_4.index t (0 : Fin 2) = t.val ∧ win14_4.index t (1 : Fin 2) = 0 :=
  (by decide +kernel : ∀ t : Fin grid14.N, _)

/-- The grid has 1500 points. -/
private theorem grid_points : grid14.N = 1500 := by decide

/-- An index of the output array is in point t's block iff each coordinate is in the block's range on its axis. -/
private theorem mem_blk (t : Fin cfg14.N) (i : S6000000x2.Idx) :
    i ∈ ((cfg14.win 4).blk t).view.set ↔ ∀ a : Fin 2, win14_4.index t a * S4000x2.size a ≤ (i a).val ∧ (i a).val < win14_4.index t a * S4000x2.size a + S4000x2.size a := by
  show i ∈ ((View.whole (Pipeline.arrRef spec14 4)).slice (win14_4.rect t)).set ↔ _
  rw [View.set_slice_whole, Rect.mem_set_unit]
  exact Iff.rfl

/-- Every entry of the output array is in the block of the point that its row number divided by 4000 names. -/
private theorem covered (i : S6000000x2.Idx) : ∃ t : Fin cfg14.N, (cfg14.win 4).flush t = true ∧ i ∈ ((cfg14.win 4).blk t).view.set := by
  have hi0 : (i 0).val < 6000000 := idx2_lt0 i
  have hi1 : (i 1).val < 2 := idx2_lt1 i
  refine ⟨⟨(i 0).val / 4000, by show _ < grid14.N; rw [grid_points]; omega⟩, flush14_4 _, ?_⟩
  rw [mem_blk]
  obtain ⟨-, -, -, -, -, -, -, -, e0, e1⟩ := idx_facts ⟨(i 0).val / 4000, by show _ < grid14.N; rw [grid_points]; omega⟩
  intro a
  match a with
  | ⟨0, _⟩ => show win14_4.index _ (0 : Fin 2) * 4000 ≤ (i 0).val ∧ (i 0).val < win14_4.index _ (0 : Fin 2) * 4000 + 4000; rw [e0]; show (i 0).val / 4000 * 4000 ≤ _ ∧ _ < (i 0).val / 4000 * 4000 + 4000; omega
  | ⟨1, _⟩ => show win14_4.index _ (1 : Fin 2) * 2 ≤ (i 1).val ∧ (i 1).val < win14_4.index _ (1 : Fin 2) * 2 + 2; rw [e1]; omega

/-- The output's staging buffer after the body at row r, feature k: the body's arithmetic of the four blocks there. -/
private theorem out_at (xa xb : Vec F S4000x1 .f32) (xs xt : Vec F S4000x2 .f32) (r : Fin 4000) (k : Fin 2) :
    out14_4 xa xb xs xt (ix2 r k)
      = FloatOps.addf (FloatOps.mulf (FloatOps.mulf (xa (ix2 r (0 : Fin 1))) (xb (ix2 r (0 : Fin 1)))) (xs (ix2 r k))) (xt (ix2 r k)) := by
  unfold out14_4
  rw [View.canon_unit_zero zero_offsets]
  simp only [View.ld_unit_zero (S := S4000x1) zero_offsets, View.ld_unit_zero (S := S4000x2) zero_offsets]
  exact pay_at xa xb xs xt r k

/-- Row r of the first column's block at point t is the column's entry at the row of the output array that row r of the
    output's block is. -/
private theorem iblk_colA (c : Dev nD) (t : Fin cfg14.N) (r : Fin 4000) (k : Fin 2) :
    iblk14 V c 0 t (ix2 r (0 : Fin 1))
      = V c (Pipeline.arrRef spec14 0) (ix2 (n0 := 6000000) (n1 := 1) ((((cfg14.win 4).blk t).view.emb (ix2 r k)) 0) 0) := by
  obtain ⟨a0, a1, -, -, -, -, -, -, e0, -⟩ := idx_facts t
  show V c (Pipeline.arrRef spec14 0) (((cfg14.win 0).blk t).view.emb (ix2 r (0 : Fin 1))) = _
  refine congrArg (V c (Pipeline.arrRef spec14 0)) (funext fun a => Fin.ext ?_)
  match a with
  | ⟨0, _⟩ => show win14_0.index t (0 : Fin 2) * 4000 + 1 * r.val = win14_4.index t (0 : Fin 2) * 4000 + 1 * r.val; rw [a0, e0]
  | ⟨1, _⟩ => show win14_0.index t (1 : Fin 2) * 1 + 1 * 0 = 0; rw [a1]

/-- The same for the second column. -/
private theorem iblk_colB (c : Dev nD) (t : Fin cfg14.N) (r : Fin 4000) (k : Fin 2) :
    iblk14 V c 1 t (ix2 r (0 : Fin 1))
      = V c (Pipeline.arrRef spec14 1) (ix2 (n0 := 6000000) (n1 := 1) ((((cfg14.win 4).blk t).view.emb (ix2 r k)) 0) 0) := by
  obtain ⟨-, -, b0, b1, -, -, -, -, e0, -⟩ := idx_facts t
  show V c (Pipeline.arrRef spec14 1) (((cfg14.win 1).blk t).view.emb (ix2 r (0 : Fin 1))) = _
  refine congrArg (V c (Pipeline.arrRef spec14 1)) (funext fun a => Fin.ext ?_)
  match a with
  | ⟨0, _⟩ => show win14_1.index t (0 : Fin 2) * 4000 + 1 * r.val = win14_4.index t (0 : Fin 2) * 4000 + 1 * r.val; rw [b0, e0]
  | ⟨1, _⟩ => show win14_1.index t (1 : Fin 2) * 1 + 1 * 0 = 0; rw [b1]

/-- Entry (r, k) of the first feature array's block at point t is the array's entry where entry (r, k) of the output's
    block is. -/
private theorem iblk_featS (c : Dev nD) (t : Fin cfg14.N) (r : Fin 4000) (k : Fin 2) :
    iblk14 V c 2 t (ix2 r k) = V c (Pipeline.arrRef spec14 2) (((cfg14.win 4).blk t).view.emb (ix2 r k)) := by
  obtain ⟨-, -, -, -, c0, c1, -, -, e0, e1⟩ := idx_facts t
  show V c (Pipeline.arrRef spec14 2) (((cfg14.win 2).blk t).view.emb (ix2 r k)) = _
  refine congrArg (V c (Pipeline.arrRef spec14 2)) (funext fun a => Fin.ext ?_)
  match a with
  | ⟨0, _⟩ => show win14_2.index t (0 : Fin 2) * 4000 + 1 * r.val = win14_4.index t (0 : Fin 2) * 4000 + 1 * r.val; rw [c0, e0]
  | ⟨1, _⟩ => show win14_2.index t (1 : Fin 2) * 2 + 1 * k.val = win14_4.index t (1 : Fin 2) * 2 + 1 * k.val; rw [c1, e1]

/-- The same for the second feature array. -/
private theorem iblk_featT (c : Dev nD) (t : Fin cfg14.N) (r : Fin 4000) (k : Fin 2) :
    iblk14 V c 3 t (ix2 r k) = V c (Pipeline.arrRef spec14 3) (((cfg14.win 4).blk t).view.emb (ix2 r k)) := by
  obtain ⟨-, -, -, -, -, -, d0, d1, e0, e1⟩ := idx_facts t
  show V c (Pipeline.arrRef spec14 3) (((cfg14.win 3).blk t).view.emb (ix2 r k)) = _
  refine congrArg (V c (Pipeline.arrRef spec14 3)) (funext fun a => Fin.ext ?_)
  match a with
  | ⟨0, _⟩ => show win14_3.index t (0 : Fin 2) * 4000 + 1 * r.val = win14_4.index t (0 : Fin 2) * 4000 + 1 * r.val; rw [d0, e0]
  | ⟨1, _⟩ => show win14_3.index t (1 : Fin 2) * 2 + 1 * k.val = win14_4.index t (1 : Fin 2) * 2 + 1 * k.val; rw [d1, e1]

/-- What point t writes back is block t of msgG of the four input arrays as the region finds them. -/
private theorem flushed_eq (c : Dev nD) (t : Fin cfg14.N) :
    (dat14 V c).flushed 4 t = ((cfg14.win 4).blk t).view.read (Elt F)
      (msgG (n := 6000000) (V c (Pipeline.arrRef spec14 0)) (V c (Pipeline.arrRef spec14 1)) (V c (Pipeline.arrRef spec14 2)) (V c (Pipeline.arrRef spec14 3))) := by
  show (cfg14.win 4).cut (grid14.coords t) ((dat14 V c).after 4 t) = _
  rw [after14_4]
  funext j
  obtain ⟨r, k, rfl⟩ : ∃ (r : Fin 4000) (k : Fin 2), j = ix2 r k := ⟨j 0, j 1, eq_ix2 j⟩
  refine (out_at (iblk14 V c 0 t) (iblk14 V c 1 t) (iblk14 V c 2 t) (iblk14 V c 3 t) r k).trans ?_
  rw [iblk_colA V c t r k, iblk_colB V c t r k, iblk_featS V c t r k, iblk_featT V c t r k]
  rfl

/-- THE OUTPUT ARRAY after the region: msgG of the four input arrays as the region finds them, everywhere. -/
theorem final14 (c : Dev nD) : (dat14 V c).arrAt 4 cfg14.N
    = msgG (n := 6000000) (V c (Pipeline.arrRef spec14 0)) (V c (Pipeline.arrRef spec14 1)) (V c (Pipeline.arrRef spec14 2)) (V c (Pipeline.arrRef spec14 3)) :=
  (dat14 V c).arrAt_eq_of_cover 4 _ (fun t _ => flushed_eq V c t) covered

end Cert.KernelIdeal.Hand

end
-- ==== Proof.KI.Val15.lean ====
/-
  The message region's value: what its output array holds after the region, as ONE function of its four input arrays
  as the region finds them, at any float instance.

  At grid point t the body leaves in the output's staging buffer, at row r and feature k of the block,
      ((a[r,0] * b[r,0]) * xs[r,k]) + xt[r,k]
  of the four input blocks; every window's block at point t is rows [4000 t, 4000 t + 4000) of its array, so what point
  t writes back is block t of msgG of the four arrays; the 1500 blocks cover the 6000000 rows (row r is in block
  r / 4000), so the array ends holding msgG of the four arrays everywhere.
-/
import proofs.«149588_j66838281060723_2_alg».proof.Proof.KI.Body15
import proofs.«149588_j66838281060723_2_alg».proof.Proof.KI.GDefs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The zero offsets of a whole-block rectangle, however spelt. -/
private theorem zero_offsets : (![0, 0] : Fin 2 → Nat) = fun _ => 0 := funext fun a => by fin_cases a <;> rfl

/-- The body's arithmetic on whole blocks: the casts to the same shape are identities. -/
private theorem pay_eq (xa xb : Vec F S4000x1 .f32) (xs xt : Vec F S4000x2 .f32) :
    k15_pay1 xa xb xs xt = addf (mulf (broadcastTo S4000x2 (mulf xa xb) broadcasts_S4000x1_S4000x2) xs) xt := by
  unfold k15_pay1
  simp only [shapeCast_self]

/-- The body's arithmetic at row r, feature k of the block: the product of the two column entries of row r, times the
    first feature entry, plus the second. -/
private theorem pay_at (xa xb : Vec F S4000x1 .f32) (xs xt : Vec F S4000x2 .f32) (r : Fin 4000) (k : Fin 2) :
    k15_pay1 xa xb xs xt (ix2 r k)
      = FloatOps.addf (FloatOps.mulf (FloatOps.mulf (xa (ix2 r (0 : Fin 1))) (xb (ix2 r (0 : Fin 1)))) (xs (ix2 r k))) (xt (ix2 r k)) := by
  rw [pay_eq]
  show FloatOps.addf (FloatOps.mulf (broadcastTo S4000x2 (mulf xa xb) broadcasts_S4000x1_S4000x2 (ix2 r k)) (xs (ix2 r k))) (xt (ix2 r k)) = _
  rw [broadcastTo_apply (mulf xa xb) broadcasts_S4000x1_S4000x2 (ix2 r k) (ix2 r (0 : Fin 1))
    (fun a => match a with | ⟨0, _⟩ => rfl | ⟨1, _⟩ => rfl)]
  rfl

/-- The printed index maps, decided over the grid: every window's block at point t is block t along the rows and the
    one block along the columns. -/
private theorem idx_facts : ∀ t : Fin cfg15.N, win15_0.index t (0 : Fin 2) = t.val ∧ win15_0.index t (1 : Fin 2) = 0
    ∧ win15_1.index t (0 : Fin 2) = t.val ∧ win15_1.index t (1 : Fin 2) = 0
    ∧ win15_2.index t (0 : Fin 2) = t.val ∧ win15_2.index t (1 : Fin 2) = 0
    ∧ win15_3.index t (0 : Fin 2) = t.val ∧ win15_3.index t (1 : Fin 2) = 0
    ∧ win15_4.index t (0 : Fin 2) = t.val ∧ win15_4.index t (1 : Fin 2) = 0 :=
  (by decide +kernel : ∀ t : Fin grid15.N, _)

/-- The grid has 1500 points. -/
private theorem grid_points : grid15.N = 1500 := by decide

/-- An index of the output array is in point t's block iff each coordinate is in the block's range on its axis. -/
private theorem mem_blk (t : Fin cfg15.N) (i : S6000000x2.Idx) :
    i ∈ ((cfg15.win 4).blk t).view.set ↔ ∀ a : Fin 2, win15_4.index t a * S4000x2.size a ≤ (i a).val ∧ (i a).val < win15_4.index t a * S4000x2.size a + S4000x2.size a := by
  show i ∈ ((View.whole (Pipeline.arrRef spec15 4)).slice (win15_4.rect t)).set ↔ _
  rw [View.set_slice_whole, Rect.mem_set_unit]
  exact Iff.rfl

/-- Every entry of the output array is in the block of the point that its row number divided by 4000 names. -/
private theorem covered (i : S6000000x2.Idx) : ∃ t : Fin cfg15.N, (cfg15.win 4).flush t = true ∧ i ∈ ((cfg15.win 4).blk t).view.set := by
  have hi0 : (i 0).val < 6000000 := idx2_lt0 i
  have hi1 : (i 1).val < 2 := idx2_lt1 i
  refine ⟨⟨(i 0).val / 4000, by show _ < grid15.N; rw [grid_points]; omega⟩, flush15_4 _, ?_⟩
  rw [mem_blk]
  obtain ⟨-, -, -, -, -, -, -, -, e0, e1⟩ := idx_facts ⟨(i 0).val / 4000, by show _ < grid15.N; rw [grid_points]; omega⟩
  intro a
  match a with
  | ⟨0, _⟩ => show win15_4.index _ (0 : Fin 2) * 4000 ≤ (i 0).val ∧ (i 0).val < win15_4.index _ (0 : Fin 2) * 4000 + 4000; rw [e0]; show (i 0).val / 4000 * 4000 ≤ _ ∧ _ < (i 0).val / 4000 * 4000 + 4000; omega
  | ⟨1, _⟩ => show win15_4.index _ (1 : Fin 2) * 2 ≤ (i 1).val ∧ (i 1).val < win15_4.index _ (1 : Fin 2) * 2 + 2; rw [e1]; omega

/-- The output's staging buffer after the body at row r, feature k: the body's arithmetic of the four blocks there. -/
private theorem out_at (xa xb : Vec F S4000x1 .f32) (xs xt : Vec F S4000x2 .f32) (r : Fin 4000) (k : Fin 2) :
    out15_4 xa xb xs xt (ix2 r k)
      = FloatOps.addf (FloatOps.mulf (FloatOps.mulf (xa (ix2 r (0 : Fin 1))) (xb (ix2 r (0 : Fin 1)))) (xs (ix2 r k))) (xt (ix2 r k)) := by
  unfold out15_4
  rw [View.canon_unit_zero zero_offsets]
  simp only [View.ld_unit_zero (S := S4000x1) zero_offsets, View.ld_unit_zero (S := S4000x2) zero_offsets]
  exact pay_at xa xb xs xt r k

/-- Row r of the first column's block at point t is the column's entry at the row of the output array that row r of the
    output's block is. -/
private theorem iblk_colA (c : Dev nD) (t : Fin cfg15.N) (r : Fin 4000) (k : Fin 2) :
    iblk15 V c 0 t (ix2 r (0 : Fin 1))
      = V c (Pipeline.arrRef spec15 0) (ix2 (n0 := 6000000) (n1 := 1) ((((cfg15.win 4).blk t).view.emb (ix2 r k)) 0) 0) := by
  obtain ⟨a0, a1, -, -, -, -, -, -, e0, -⟩ := idx_facts t
  show V c (Pipeline.arrRef spec15 0) (((cfg15.win 0).blk t).view.emb (ix2 r (0 : Fin 1))) = _
  refine congrArg (V c (Pipeline.arrRef spec15 0)) (funext fun a => Fin.ext ?_)
  match a with
  | ⟨0, _⟩ => show win15_0.index t (0 : Fin 2) * 4000 + 1 * r.val = win15_4.index t (0 : Fin 2) * 4000 + 1 * r.val; rw [a0, e0]
  | ⟨1, _⟩ => show win15_0.index t (1 : Fin 2) * 1 + 1 * 0 = 0; rw [a1]

/-- The same for the second column. -/
private theorem iblk_colB (c : Dev nD) (t : Fin cfg15.N) (r : Fin 4000) (k : Fin 2) :
    iblk15 V c 1 t (ix2 r (0 : Fin 1))
      = V c (Pipeline.arrRef spec15 1) (ix2 (n0 := 6000000) (n1 := 1) ((((cfg15.win 4).blk t).view.emb (ix2 r k)) 0) 0) := by
  obtain ⟨-, -, b0, b1, -, -, -, -, e0, -⟩ := idx_facts t
  show V c (Pipeline.arrRef spec15 1) (((cfg15.win 1).blk t).view.emb (ix2 r (0 : Fin 1))) = _
  refine congrArg (V c (Pipeline.arrRef spec15 1)) (funext fun a => Fin.ext ?_)
  match a with
  | ⟨0, _⟩ => show win15_1.index t (0 : Fin 2) * 4000 + 1 * r.val = win15_4.index t (0 : Fin 2) * 4000 + 1 * r.val; rw [b0, e0]
  | ⟨1, _⟩ => show win15_1.index t (1 : Fin 2) * 1 + 1 * 0 = 0; rw [b1]

/-- Entry (r, k) of the first feature array's block at point t is the array's entry where entry (r, k) of the output's
    block is. -/
private theorem iblk_featS (c : Dev nD) (t : Fin cfg15.N) (r : Fin 4000) (k : Fin 2) :
    iblk15 V c 2 t (ix2 r k) = V c (Pipeline.arrRef spec15 2) (((cfg15.win 4).blk t).view.emb (ix2 r k)) := by
  obtain ⟨-, -, -, -, c0, c1, -, -, e0, e1⟩ := idx_facts t
  show V c (Pipeline.arrRef spec15 2) (((cfg15.win 2).blk t).view.emb (ix2 r k)) = _
  refine congrArg (V c (Pipeline.arrRef spec15 2)) (funext fun a => Fin.ext ?_)
  match a with
  | ⟨0, _⟩ => show win15_2.index t (0 : Fin 2) * 4000 + 1 * r.val = win15_4.index t (0 : Fin 2) * 4000 + 1 * r.val; rw [c0, e0]
  | ⟨1, _⟩ => show win15_2.index t (1 : Fin 2) * 2 + 1 * k.val = win15_4.index t (1 : Fin 2) * 2 + 1 * k.val; rw [c1, e1]

/-- The same for the second feature array. -/
private theorem iblk_featT (c : Dev nD) (t : Fin cfg15.N) (r : Fin 4000) (k : Fin 2) :
    iblk15 V c 3 t (ix2 r k) = V c (Pipeline.arrRef spec15 3) (((cfg15.win 4).blk t).view.emb (ix2 r k)) := by
  obtain ⟨-, -, -, -, -, -, d0, d1, e0, e1⟩ := idx_facts t
  show V c (Pipeline.arrRef spec15 3) (((cfg15.win 3).blk t).view.emb (ix2 r k)) = _
  refine congrArg (V c (Pipeline.arrRef spec15 3)) (funext fun a => Fin.ext ?_)
  match a with
  | ⟨0, _⟩ => show win15_3.index t (0 : Fin 2) * 4000 + 1 * r.val = win15_4.index t (0 : Fin 2) * 4000 + 1 * r.val; rw [d0, e0]
  | ⟨1, _⟩ => show win15_3.index t (1 : Fin 2) * 2 + 1 * k.val = win15_4.index t (1 : Fin 2) * 2 + 1 * k.val; rw [d1, e1]

/-- What point t writes back is block t of msgG of the four input arrays as the region finds them. -/
private theorem flushed_eq (c : Dev nD) (t : Fin cfg15.N) :
    (dat15 V c).flushed 4 t = ((cfg15.win 4).blk t).view.read (Elt F)
      (msgG (n := 6000000) (V c (Pipeline.arrRef spec15 0)) (V c (Pipeline.arrRef spec15 1)) (V c (Pipeline.arrRef spec15 2)) (V c (Pipeline.arrRef spec15 3))) := by
  show (cfg15.win 4).cut (grid15.coords t) ((dat15 V c).after 4 t) = _
  rw [after15_4]
  funext j
  obtain ⟨r, k, rfl⟩ : ∃ (r : Fin 4000) (k : Fin 2), j = ix2 r k := ⟨j 0, j 1, eq_ix2 j⟩
  refine (out_at (iblk15 V c 0 t) (iblk15 V c 1 t) (iblk15 V c 2 t) (iblk15 V c 3 t) r k).trans ?_
  rw [iblk_colA V c t r k, iblk_colB V c t r k, iblk_featS V c t r k, iblk_featT V c t r k]
  rfl

/-- THE OUTPUT ARRAY after the region: msgG of the four input arrays as the region finds them, everywhere. -/
theorem final15 (c : Dev nD) : (dat15 V c).arrAt 4 cfg15.N
    = msgG (n := 6000000) (V c (Pipeline.arrRef spec15 0)) (V c (Pipeline.arrRef spec15 1)) (V c (Pipeline.arrRef spec15 2)) (V c (Pipeline.arrRef spec15 3)) :=
  (dat15 V c).arrAt_eq_of_cover 4 _ (fun t _ => flushed_eq V c t) covered

end Cert.KernelIdeal.Hand

end
-- ==== Proof.KI.Val16.lean ====
/-
  The message region's value: what its output array holds after the region, as ONE function of its four input arrays
  as the region finds them, at any float instance.

  At grid point t the body leaves in the output's staging buffer, at row r and feature k of the block,
      ((a[r,0] * b[r,0]) * xs[r,k]) + xt[r,k]
  of the four input blocks; every window's block at point t is rows [4000 t, 4000 t + 4000) of its array, so what point
  t writes back is block t of msgG of the four arrays; the 1500 blocks cover the 6000000 rows (row r is in block
  r / 4000), so the array ends holding msgG of the four arrays everywhere.
-/
import proofs.«149588_j66838281060723_2_alg».proof.Proof.KI.Body16
import proofs.«149588_j66838281060723_2_alg».proof.Proof.KI.GDefs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The zero offsets of a whole-block rectangle, however spelt. -/
private theorem zero_offsets : (![0, 0] : Fin 2 → Nat) = fun _ => 0 := funext fun a => by fin_cases a <;> rfl

/-- The body's arithmetic on whole blocks: the casts to the same shape are identities. -/
private theorem pay_eq (xa xb : Vec F S4000x1 .f32) (xs xt : Vec F S4000x2 .f32) :
    k16_pay1 xa xb xs xt = addf (mulf (broadcastTo S4000x2 (mulf xa xb) broadcasts_S4000x1_S4000x2) xs) xt := by
  unfold k16_pay1
  simp only [shapeCast_self]

/-- The body's arithmetic at row r, feature k of the block: the product of the two column entries of row r, times the
    first feature entry, plus the second. -/
private theorem pay_at (xa xb : Vec F S4000x1 .f32) (xs xt : Vec F S4000x2 .f32) (r : Fin 4000) (k : Fin 2) :
    k16_pay1 xa xb xs xt (ix2 r k)
      = FloatOps.addf (FloatOps.mulf (FloatOps.mulf (xa (ix2 r (0 : Fin 1))) (xb (ix2 r (0 : Fin 1)))) (xs (ix2 r k))) (xt (ix2 r k)) := by
  rw [pay_eq]
  show FloatOps.addf (FloatOps.mulf (broadcastTo S4000x2 (mulf xa xb) broadcasts_S4000x1_S4000x2 (ix2 r k)) (xs (ix2 r k))) (xt (ix2 r k)) = _
  rw [broadcastTo_apply (mulf xa xb) broadcasts_S4000x1_S4000x2 (ix2 r k) (ix2 r (0 : Fin 1))
    (fun a => match a with | ⟨0, _⟩ => rfl | ⟨1, _⟩ => rfl)]
  rfl

/-- The printed index maps, decided over the grid: every window's block at point t is block t along the rows and the
    one block along the columns. -/
private theorem idx_facts : ∀ t : Fin cfg16.N, win16_0.index t (0 : Fin 2) = t.val ∧ win16_0.index t (1 : Fin 2) = 0
    ∧ win16_1.index t (0 : Fin 2) = t.val ∧ win16_1.index t (1 : Fin 2) = 0
    ∧ win16_2.index t (0 : Fin 2) = t.val ∧ win16_2.index t (1 : Fin 2) = 0
    ∧ win16_3.index t (0 : Fin 2) = t.val ∧ win16_3.index t (1 : Fin 2) = 0
    ∧ win16_4.index t (0 : Fin 2) = t.val ∧ win16_4.index t (1 : Fin 2) = 0 :=
  (by decide +kernel : ∀ t : Fin grid16.N, _)

/-- The grid has 1500 points. -/
private theorem grid_points : grid16.N = 1500 := by decide

/-- An index of the output array is in point t's block iff each coordinate is in the block's range on its axis. -/
private theorem mem_blk (t : Fin cfg16.N) (i : S6000000x2.Idx) :
    i ∈ ((cfg16.win 4).blk t).view.set ↔ ∀ a : Fin 2, win16_4.index t a * S4000x2.size a ≤ (i a).val ∧ (i a).val < win16_4.index t a * S4000x2.size a + S4000x2.size a := by
  show i ∈ ((View.whole (Pipeline.arrRef spec16 4)).slice (win16_4.rect t)).set ↔ _
  rw [View.set_slice_whole, Rect.mem_set_unit]
  exact Iff.rfl

/-- Every entry of the output array is in the block of the point that its row number divided by 4000 names. -/
private theorem covered (i : S6000000x2.Idx) : ∃ t : Fin cfg16.N, (cfg16.win 4).flush t = true ∧ i ∈ ((cfg16.win 4).blk t).view.set := by
  have hi0 : (i 0).val < 6000000 := idx2_lt0 i
  have hi1 : (i 1).val < 2 := idx2_lt1 i
  refine ⟨⟨(i 0).val / 4000, by show _ < grid16.N; rw [grid_points]; omega⟩, flush16_4 _, ?_⟩
  rw [mem_blk]
  obtain ⟨-, -, -, -, -, -, -, -, e0, e1⟩ := idx_facts ⟨(i 0).val / 4000, by show _ < grid16.N; rw [grid_points]; omega⟩
  intro a
  match a with
  | ⟨0, _⟩ => show win16_4.index _ (0 : Fin 2) * 4000 ≤ (i 0).val ∧ (i 0).val < win16_4.index _ (0 : Fin 2) * 4000 + 4000; rw [e0]; show (i 0).val / 4000 * 4000 ≤ _ ∧ _ < (i 0).val / 4000 * 4000 + 4000; omega
  | ⟨1, _⟩ => show win16_4.index _ (1 : Fin 2) * 2 ≤ (i 1).val ∧ (i 1).val < win16_4.index _ (1 : Fin 2) * 2 + 2; rw [e1]; omega

/-- The output's staging buffer after the body at row r, feature k: the body's arithmetic of the four blocks there. -/
private theorem out_at (xa xb : Vec F S4000x1 .f32) (xs xt : Vec F S4000x2 .f32) (r : Fin 4000) (k : Fin 2) :
    out16_4 xa xb xs xt (ix2 r k)
      = FloatOps.addf (FloatOps.mulf (FloatOps.mulf (xa (ix2 r (0 : Fin 1))) (xb (ix2 r (0 : Fin 1)))) (xs (ix2 r k))) (xt (ix2 r k)) := by
  unfold out16_4
  rw [View.canon_unit_zero zero_offsets]
  simp only [View.ld_unit_zero (S := S4000x1) zero_offsets, View.ld_unit_zero (S := S4000x2) zero_offsets]
  exact pay_at xa xb xs xt r k

/-- Row r of the first column's block at point t is the column's entry at the row of the output array that row r of the
    output's block is. -/
private theorem iblk_colA (c : Dev nD) (t : Fin cfg16.N) (r : Fin 4000) (k : Fin 2) :
    iblk16 V c 0 t (ix2 r (0 : Fin 1))
      = V c (Pipeline.arrRef spec16 0) (ix2 (n0 := 6000000) (n1 := 1) ((((cfg16.win 4).blk t).view.emb (ix2 r k)) 0) 0) := by
  obtain ⟨a0, a1, -, -, -, -, -, -, e0, -⟩ := idx_facts t
  show V c (Pipeline.arrRef spec16 0) (((cfg16.win 0).blk t).view.emb (ix2 r (0 : Fin 1))) = _
  refine congrArg (V c (Pipeline.arrRef spec16 0)) (funext fun a => Fin.ext ?_)
  match a with
  | ⟨0, _⟩ => show win16_0.index t (0 : Fin 2) * 4000 + 1 * r.val = win16_4.index t (0 : Fin 2) * 4000 + 1 * r.val; rw [a0, e0]
  | ⟨1, _⟩ => show win16_0.index t (1 : Fin 2) * 1 + 1 * 0 = 0; rw [a1]

/-- The same for the second column. -/
private theorem iblk_colB (c : Dev nD) (t : Fin cfg16.N) (r : Fin 4000) (k : Fin 2) :
    iblk16 V c 1 t (ix2 r (0 : Fin 1))
      = V c (Pipeline.arrRef spec16 1) (ix2 (n0 := 6000000) (n1 := 1) ((((cfg16.win 4).blk t).view.emb (ix2 r k)) 0) 0) := by
  obtain ⟨-, -, b0, b1, -, -, -, -, e0, -⟩ := idx_facts t
  show V c (Pipeline.arrRef spec16 1) (((cfg16.win 1).blk t).view.emb (ix2 r (0 : Fin 1))) = _
  refine congrArg (V c (Pipeline.arrRef spec16 1)) (funext fun a => Fin.ext ?_)
  match a with
  | ⟨0, _⟩ => show win16_1.index t (0 : Fin 2) * 4000 + 1 * r.val = win16_4.index t (0 : Fin 2) * 4000 + 1 * r.val; rw [b0, e0]
  | ⟨1, _⟩ => show win16_1.index t (1 : Fin 2) * 1 + 1 * 0 = 0; rw [b1]

/-- Entry (r, k) of the first feature array's block at point t is the array's entry where entry (r, k) of the output's
    block is. -/
private theorem iblk_featS (c : Dev nD) (t : Fin cfg16.N) (r : Fin 4000) (k : Fin 2) :
    iblk16 V c 2 t (ix2 r k) = V c (Pipeline.arrRef spec16 2) (((cfg16.win 4).blk t).view.emb (ix2 r k)) := by
  obtain ⟨-, -, -, -, c0, c1, -, -, e0, e1⟩ := idx_facts t
  show V c (Pipeline.arrRef spec16 2) (((cfg16.win 2).blk t).view.emb (ix2 r k)) = _
  refine congrArg (V c (Pipeline.arrRef spec16 2)) (funext fun a => Fin.ext ?_)
  match a with
  | ⟨0, _⟩ => show win16_2.index t (0 : Fin 2) * 4000 + 1 * r.val = win16_4.index t (0 : Fin 2) * 4000 + 1 * r.val; rw [c0, e0]
  | ⟨1, _⟩ => show win16_2.index t (1 : Fin 2) * 2 + 1 * k.val = win16_4.index t (1 : Fin 2) * 2 + 1 * k.val; rw [c1, e1]

/-- The same for the second feature array. -/
private theorem iblk_featT (c : Dev nD) (t : Fin cfg16.N) (r : Fin 4000) (k : Fin 2) :
    iblk16 V c 3 t (ix2 r k) = V c (Pipeline.arrRef spec16 3) (((cfg16.win 4).blk t).view.emb (ix2 r k)) := by
  obtain ⟨-, -, -, -, -, -, d0, d1, e0, e1⟩ := idx_facts t
  show V c (Pipeline.arrRef spec16 3) (((cfg16.win 3).blk t).view.emb (ix2 r k)) = _
  refine congrArg (V c (Pipeline.arrRef spec16 3)) (funext fun a => Fin.ext ?_)
  match a with
  | ⟨0, _⟩ => show win16_3.index t (0 : Fin 2) * 4000 + 1 * r.val = win16_4.index t (0 : Fin 2) * 4000 + 1 * r.val; rw [d0, e0]
  | ⟨1, _⟩ => show win16_3.index t (1 : Fin 2) * 2 + 1 * k.val = win16_4.index t (1 : Fin 2) * 2 + 1 * k.val; rw [d1, e1]

/-- What point t writes back is block t of msgG of the four input arrays as the region finds them. -/
private theorem flushed_eq (c : Dev nD) (t : Fin cfg16.N) :
    (dat16 V c).flushed 4 t = ((cfg16.win 4).blk t).view.read (Elt F)
      (msgG (n := 6000000) (V c (Pipeline.arrRef spec16 0)) (V c (Pipeline.arrRef spec16 1)) (V c (Pipeline.arrRef spec16 2)) (V c (Pipeline.arrRef spec16 3))) := by
  show (cfg16.win 4).cut (grid16.coords t) ((dat16 V c).after 4 t) = _
  rw [after16_4]
  funext j
  obtain ⟨r, k, rfl⟩ : ∃ (r : Fin 4000) (k : Fin 2), j = ix2 r k := ⟨j 0, j 1, eq_ix2 j⟩
  refine (out_at (iblk16 V c 0 t) (iblk16 V c 1 t) (iblk16 V c 2 t) (iblk16 V c 3 t) r k).trans ?_
  rw [iblk_colA V c t r k, iblk_colB V c t r k, iblk_featS V c t r k, iblk_featT V c t r k]
  rfl

/-- THE OUTPUT ARRAY after the region: msgG of the four input arrays as the region finds them, everywhere. -/
theorem final16 (c : Dev nD) : (dat16 V c).arrAt 4 cfg16.N
    = msgG (n := 6000000) (V c (Pipeline.arrRef spec16 0)) (V c (Pipeline.arrRef spec16 1)) (V c (Pipeline.arrRef spec16 2)) (V c (Pipeline.arrRef spec16 3)) :=
  (dat16 V c).arrAt_eq_of_cover 4 _ (fun t _ => flushed_eq V c t) covered

end Cert.KernelIdeal.Hand

end
-- ==== Proof.KI.Val17.lean ====
/-
  The message region's value: what its output array holds after the region, as ONE function of its four input arrays
  as the region finds them, at any float instance.

  At grid point t the body leaves in the output's staging buffer, at row r and feature k of the block,
      ((a[r,0] * b[r,0]) * xs[r,k]) + xt[r,k]
  of the four input blocks; every window's block at point t is rows [4000 t, 4000 t + 4000) of its array, so what point
  t writes back is block t of msgG of the four arrays; the 1500 blocks cover the 6000000 rows (row r is in block
  r / 4000), so the array ends holding msgG of the four arrays everywhere.
-/
import proofs.«149588_j66838281060723_2_alg».proof.Proof.KI.Body17
import proofs.«149588_j66838281060723_2_alg».proof.Proof.KI.GDefs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The zero offsets of a whole-block rectangle, however spelt. -/
private theorem zero_offsets : (![0, 0] : Fin 2 → Nat) = fun _ => 0 := funext fun a => by fin_cases a <;> rfl

/-- The body's arithmetic on whole blocks: the casts to the same shape are identities. -/
private theorem pay_eq (xa xb : Vec F S4000x1 .f32) (xs xt : Vec F S4000x2 .f32) :
    k17_pay1 xa xb xs xt = addf (mulf (broadcastTo S4000x2 (mulf xa xb) broadcasts_S4000x1_S4000x2) xs) xt := by
  unfold k17_pay1
  simp only [shapeCast_self]

/-- The body's arithmetic at row r, feature k of the block: the product of the two column entries of row r, times the
    first feature entry, plus the second. -/
private theorem pay_at (xa xb : Vec F S4000x1 .f32) (xs xt : Vec F S4000x2 .f32) (r : Fin 4000) (k : Fin 2) :
    k17_pay1 xa xb xs xt (ix2 r k)
      = FloatOps.addf (FloatOps.mulf (FloatOps.mulf (xa (ix2 r (0 : Fin 1))) (xb (ix2 r (0 : Fin 1)))) (xs (ix2 r k))) (xt (ix2 r k)) := by
  rw [pay_eq]
  show FloatOps.addf (FloatOps.mulf (broadcastTo S4000x2 (mulf xa xb) broadcasts_S4000x1_S4000x2 (ix2 r k)) (xs (ix2 r k))) (xt (ix2 r k)) = _
  rw [broadcastTo_apply (mulf xa xb) broadcasts_S4000x1_S4000x2 (ix2 r k) (ix2 r (0 : Fin 1))
    (fun a => match a with | ⟨0, _⟩ => rfl | ⟨1, _⟩ => rfl)]
  rfl

/-- The printed index maps, decided over the grid: every window's block at point t is block t along the rows and the
    one block along the columns. -/
private theorem idx_facts : ∀ t : Fin cfg17.N, win17_0.index t (0 : Fin 2) = t.val ∧ win17_0.index t (1 : Fin 2) = 0
    ∧ win17_1.index t (0 : Fin 2) = t.val ∧ win17_1.index t (1 : Fin 2) = 0
    ∧ win17_2.index t (0 : Fin 2) = t.val ∧ win17_2.index t (1 : Fin 2) = 0
    ∧ win17_3.index t (0 : Fin 2) = t.val ∧ win17_3.index t (1 : Fin 2) = 0
    ∧ win17_4.index t (0 : Fin 2) = t.val ∧ win17_4.index t (1 : Fin 2) = 0 :=
  (by decide +kernel : ∀ t : Fin grid17.N, _)

/-- The grid has 1500 points. -/
private theorem grid_points : grid17.N = 1500 := by decide

/-- An index of the output array is in point t's block iff each coordinate is in the block's range on its axis. -/
private theorem mem_blk (t : Fin cfg17.N) (i : S6000000x2.Idx) :
    i ∈ ((cfg17.win 4).blk t).view.set ↔ ∀ a : Fin 2, win17_4.index t a * S4000x2.size a ≤ (i a).val ∧ (i a).val < win17_4.index t a * S4000x2.size a + S4000x2.size a := by
  show i ∈ ((View.whole (Pipeline.arrRef spec17 4)).slice (win17_4.rect t)).set ↔ _
  rw [View.set_slice_whole, Rect.mem_set_unit]
  exact Iff.rfl

/-- Every entry of the output array is in the block of the point that its row number divided by 4000 names. -/
private theorem covered (i : S6000000x2.Idx) : ∃ t : Fin cfg17.N, (cfg17.win 4).flush t = true ∧ i ∈ ((cfg17.win 4).blk t).view.set := by
  have hi0 : (i 0).val < 6000000 := idx2_lt0 i
  have hi1 : (i 1).val < 2 := idx2_lt1 i
  refine ⟨⟨(i 0).val / 4000, by show _ < grid17.N; rw [grid_points]; omega⟩, flush17_4 _, ?_⟩
  rw [mem_blk]
  obtain ⟨-, -, -, -, -, -, -, -, e0, e1⟩ := idx_facts ⟨(i 0).val / 4000, by show _ < grid17.N; rw [grid_points]; omega⟩
  intro a
  match a with
  | ⟨0, _⟩ => show win17_4.index _ (0 : Fin 2) * 4000 ≤ (i 0).val ∧ (i 0).val < win17_4.index _ (0 : Fin 2) * 4000 + 4000; rw [e0]; show (i 0).val / 4000 * 4000 ≤ _ ∧ _ < (i 0).val / 4000 * 4000 + 4000; omega
  | ⟨1, _⟩ => show win17_4.index _ (1 : Fin 2) * 2 ≤ (i 1).val ∧ (i 1).val < win17_4.index _ (1 : Fin 2) * 2 + 2; rw [e1]; omega

/-- The output's staging buffer after the body at row r, feature k: the body's arithmetic of the four blocks there. -/
private theorem out_at (xa xb : Vec F S4000x1 .f32) (xs xt : Vec F S4000x2 .f32) (r : Fin 4000) (k : Fin 2) :
    out17_4 xa xb xs xt (ix2 r k)
      = FloatOps.addf (FloatOps.mulf (FloatOps.mulf (xa (ix2 r (0 : Fin 1))) (xb (ix2 r (0 : Fin 1)))) (xs (ix2 r k))) (xt (ix2 r k)) := by
  unfold out17_4
  rw [View.canon_unit_zero zero_offsets]
  simp only [View.ld_unit_zero (S := S4000x1) zero_offsets, View.ld_unit_zero (S := S4000x2) zero_offsets]
  exact pay_at xa xb xs xt r k

/-- Row r of the first column's block at point t is the column's entry at the row of the output array that row r of the
    output's block is. -/
private theorem iblk_colA (c : Dev nD) (t : Fin cfg17.N) (r : Fin 4000) (k : Fin 2) :
    iblk17 V c 0 t (ix2 r (0 : Fin 1))
      = V c (Pipeline.arrRef spec17 0) (ix2 (n0 := 6000000) (n1 := 1) ((((cfg17.win 4).blk t).view.emb (ix2 r k)) 0) 0) := by
  obtain ⟨a0, a1, -, -, -, -, -, -, e0, -⟩ := idx_facts t
  show V c (Pipeline.arrRef spec17 0) (((cfg17.win 0).blk t).view.emb (ix2 r (0 : Fin 1))) = _
  refine congrArg (V c (Pipeline.arrRef spec17 0)) (funext fun a => Fin.ext ?_)
  match a with
  | ⟨0, _⟩ => show win17_0.index t (0 : Fin 2) * 4000 + 1 * r.val = win17_4.index t (0 : Fin 2) * 4000 + 1 * r.val; rw [a0, e0]
  | ⟨1, _⟩ => show win17_0.index t (1 : Fin 2) * 1 + 1 * 0 = 0; rw [a1]

/-- The same for the second column. -/
private theorem iblk_colB (c : Dev nD) (t : Fin cfg17.N) (r : Fin 4000) (k : Fin 2) :
    iblk17 V c 1 t (ix2 r (0 : Fin 1))
      = V c (Pipeline.arrRef spec17 1) (ix2 (n0 := 6000000) (n1 := 1) ((((cfg17.win 4).blk t).view.emb (ix2 r k)) 0) 0) := by
  obtain ⟨-, -, b0, b1, -, -, -, -, e0, -⟩ := idx_facts t
  show V c (Pipeline.arrRef spec17 1) (((cfg17.win 1).blk t).view.emb (ix2 r (0 : Fin 1))) = _
  refine congrArg (V c (Pipeline.arrRef spec17 1)) (funext fun a => Fin.ext ?_)
  match a with
  | ⟨0, _⟩ => show win17_1.index t (0 : Fin 2) * 4000 + 1 * r.val = win17_4.index t (0 : Fin 2) * 4000 + 1 * r.val; rw [b0, e0]
  | ⟨1, _⟩ => show win17_1.index t (1 : Fin 2) * 1 + 1 * 0 = 0; rw [b1]

/-- Entry (r, k) of the first feature array's block at point t is the array's entry where entry (r, k) of the output's
    block is. -/
private theorem iblk_featS (c : Dev nD) (t : Fin cfg17.N) (r : Fin 4000) (k : Fin 2) :
    iblk17 V c 2 t (ix2 r k) = V c (Pipeline.arrRef spec17 2) (((cfg17.win 4).blk t).view.emb (ix2 r k)) := by
  obtain ⟨-, -, -, -, c0, c1, -, -, e0, e1⟩ := idx_facts t
  show V c (Pipeline.arrRef spec17 2) (((cfg17.win 2).blk t).view.emb (ix2 r k)) = _
  refine congrArg (V c (Pipeline.arrRef spec17 2)) (funext fun a => Fin.ext ?_)
  match a with
  | ⟨0, _⟩ => show win17_2.index t (0 : Fin 2) * 4000 + 1 * r.val = win17_4.index t (0 : Fin 2) * 4000 + 1 * r.val; rw [c0, e0]
  | ⟨1, _⟩ => show win17_2.index t (1 : Fin 2) * 2 + 1 * k.val = win17_4.index t (1 : Fin 2) * 2 + 1 * k.val; rw [c1, e1]

/-- The same for the second feature array. -/
private theorem iblk_featT (c : Dev nD) (t : Fin cfg17.N) (r : Fin 4000) (k : Fin 2) :
    iblk17 V c 3 t (ix2 r k) = V c (Pipeline.arrRef spec17 3) (((cfg17.win 4).blk t).view.emb (ix2 r k)) := by
  obtain ⟨-, -, -, -, -, -, d0, d1, e0, e1⟩ := idx_facts t
  show V c (Pipeline.arrRef spec17 3) (((cfg17.win 3).blk t).view.emb (ix2 r k)) = _
  refine congrArg (V c (Pipeline.arrRef spec17 3)) (funext fun a => Fin.ext ?_)
  match a with
  | ⟨0, _⟩ => show win17_3.index t (0 : Fin 2) * 4000 + 1 * r.val = win17_4.index t (0 : Fin 2) * 4000 + 1 * r.val; rw [d0, e0]
  | ⟨1, _⟩ => show win17_3.index t (1 : Fin 2) * 2 + 1 * k.val = win17_4.index t (1 : Fin 2) * 2 + 1 * k.val; rw [d1, e1]

/-- What point t writes back is block t of msgG of the four input arrays as the region finds them. -/
private theorem flushed_eq (c : Dev nD) (t : Fin cfg17.N) :
    (dat17 V c).flushed 4 t = ((cfg17.win 4).blk t).view.read (Elt F)
      (msgG (n := 6000000) (V c (Pipeline.arrRef spec17 0)) (V c (Pipeline.arrRef spec17 1)) (V c (Pipeline.arrRef spec17 2)) (V c (Pipeline.arrRef spec17 3))) := by
  show (cfg17.win 4).cut (grid17.coords t) ((dat17 V c).after 4 t) = _
  rw [after17_4]
  funext j
  obtain ⟨r, k, rfl⟩ : ∃ (r : Fin 4000) (k : Fin 2), j = ix2 r k := ⟨j 0, j 1, eq_ix2 j⟩
  refine (out_at (iblk17 V c 0 t) (iblk17 V c 1 t) (iblk17 V c 2 t) (iblk17 V c 3 t) r k).trans ?_
  rw [iblk_colA V c t r k, iblk_colB V c t r k, iblk_featS V c t r k, iblk_featT V c t r k]
  rfl

/-- THE OUTPUT ARRAY after the region: msgG of the four input arrays as the region finds them, everywhere. -/
theorem final17 (c : Dev nD) : (dat17 V c).arrAt 4 cfg17.N
    = msgG (n := 6000000) (V c (Pipeline.arrRef spec17 0)) (V c (Pipeline.arrRef spec17 1)) (V c (Pipeline.arrRef spec17 2)) (V c (Pipeline.arrRef spec17 3)) :=
  (dat17 V c).arrAt_eq_of_cover 4 _ (fun t _ => flushed_eq V c t) covered

end Cert.KernelIdeal.Hand

end
-- ==== Proof.KI.Val18.lean ====
/-
  The affine region at six input columns (pallas_call 18): the value of its output array after the region, as one
  function of the three arrays it reads, index by index.

  Point t writes back the rows [10000 t, 10000 t + 10000) of the output; at row r of the block and column j the body
  stored ((((((0 + x[r,0] * w[0,j]) + x[r,1] * w[1,j]) + x[r,2] * w[2,j]) + x[r,3] * w[3,j]) + x[r,4] * w[4,j])
  + x[r,5] * w[5,j]) + b[0,j] of its staging buffers, which hold the rows [10000 t, 10000 t + 10000) of the input and
  the whole weight matrix and bias row. So what point t writes back is block t of the affine function of the three
  arrays; the 50 blocks tile the output array (row r is in block r / 10000), so the array ends holding that function
  everywhere.
-/
import proofs.«149588_j66838281060723_2_alg».proof.Proof.KI.Body18
import proofs.«149588_j66838281060723_2_alg».proof.Proof.KI.AffG
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

-- the TensorCore's buffer contents when the region is entered
variable (V : (c : Dev nD) → (b : Ref sig .tc) → Buf (Elt F) ((c : Thread nD τ).loc b))

theorem hz18 : (![0, 0] : Fin 2 → Nat) = fun _ => 0 := funext fun a => by fin_cases a <;> rfl

/-- Input column k, broadcast along the two output columns, read at an index: the input at the index's row and column k. -/
theorem xcol18 (x0 : Vec F S10000x6 .f32) (off : Fin 2 → Nat) (h : S10000x6.Slices off S10000x1) (k : Fin 6)
    (h0 : off 0 = 0) (h1 : off 1 = k.val) (j : S10000x2.Idx) :
    broadcastTo S10000x2 (extractStridedSlice S10000x1 off x0 h) broadcasts_S10000x1_S10000x2 j
      = x0 (ix2 (n0 := 10000) (n1 := 6) (j 0) k) := by
  rw [broadcastTo_apply _ _ j (ix2 (n0 := 10000) (n1 := 1) (j 0) 0) (fun a => by match a with | ⟨0, _⟩ => rfl | ⟨1, _⟩ => rfl)]
  exact extractStridedSlice_apply off x0 h (ix2 (n0 := 10000) (n1 := 1) (j 0) 0) (ix2 (n0 := 10000) (n1 := 6) (j 0) k) (fun a => by
    match a with
    | ⟨0, _⟩ => show (j 0).val = off 0 + (j 0).val; omega
    | ⟨1, _⟩ => show k.val = off 1 + 0; omega)

/-- Weight row k, broadcast along the rows, read at an index: the weight at row k and the index's column. -/
theorem wrow18 (x1 : Vec F S6x2 .f32) (off : Fin 2 → Nat) (h : S6x2.Slices off S1x2) (k : Fin 6)
    (h0 : off 0 = k.val) (h1 : off 1 = 0) (j : S10000x2.Idx) :
    broadcastTo S10000x2 (extractStridedSlice S1x2 off x1 h) broadcasts_S1x2_S10000x2 j
      = x1 (ix2 (n0 := 6) (n1 := 2) k (j 1)) := by
  rw [broadcastTo_apply _ _ j (ix2 (n0 := 1) (n1 := 2) 0 (j 1)) (fun a => by match a with | ⟨0, _⟩ => rfl | ⟨1, _⟩ => rfl)]
  exact extractStridedSlice_apply off x1 h (ix2 (n0 := 1) (n1 := 2) 0 (j 1)) (ix2 (n0 := 6) (n1 := 2) k (j 1)) (fun a => by
    match a with
    | ⟨0, _⟩ => show k.val = off 0 + 0; omega
    | ⟨1, _⟩ => show (j 1).val = off 1 + (j 1).val; omega)

/-- The body's payload at an index: the kernel's order of operations on the elements the slices and broadcasts read. -/
theorem pay18_apply (x0 : Vec F S10000x6 .f32) (x1 : Vec F S6x2 .f32) (x2 : Vec F S1x2 .f32) (j : S10000x2.Idx) :
    k18_pay1 x0 x1 x2 j = FloatOps.addf (FloatOps.addf (FloatOps.addf (FloatOps.addf (FloatOps.addf (FloatOps.addf (FloatOps.addf (Scalar.ofBits (F := F) .f32 0x00000000#32)
      (FloatOps.mulf (x0 (ix2 (n0 := 10000) (n1 := 6) (j 0) 0)) (x1 (ix2 (n0 := 6) (n1 := 2) 0 (j 1)))))
      (FloatOps.mulf (x0 (ix2 (n0 := 10000) (n1 := 6) (j 0) 1)) (x1 (ix2 (n0 := 6) (n1 := 2) 1 (j 1)))))
      (FloatOps.mulf (x0 (ix2 (n0 := 10000) (n1 := 6) (j 0) 2)) (x1 (ix2 (n0 := 6) (n1 := 2) 2 (j 1)))))
      (FloatOps.mulf (x0 (ix2 (n0 := 10000) (n1 := 6) (j 0) 3)) (x1 (ix2 (n0 := 6) (n1 := 2) 3 (j 1)))))
      (FloatOps.mulf (x0 (ix2 (n0 := 10000) (n1 := 6) (j 0) 4)) (x1 (ix2 (n0 := 6) (n1 := 2) 4 (j 1)))))
      (FloatOps.mulf (x0 (ix2 (n0 := 10000) (n1 := 6) (j 0) 5)) (x1 (ix2 (n0 := 6) (n1 := 2) 5 (j 1)))))
      (x2 (ix2 (n0 := 1) (n1 := 2) 0 (j 1))) := by
  unfold k18_pay1
  show FloatOps.addf (FloatOps.addf (FloatOps.addf (FloatOps.addf (FloatOps.addf (FloatOps.addf (FloatOps.addf (Scalar.ofBits (F := F) .f32 0x00000000#32)
      (FloatOps.mulf (broadcastTo S10000x2 (extractStridedSlice S10000x1 ![0, 0] (shapeCast S10000x6 x0 shapeCasts_S10000x6_S10000x6) slices_S10000x6_o0_0_S10000x1) broadcasts_S10000x1_S10000x2 j)
        (broadcastTo S10000x2 (extractStridedSlice S1x2 ![0, 0] (shapeCast S6x2 x1 shapeCasts_S6x2_S6x2) slices_S6x2_o0_0_S1x2) broadcasts_S1x2_S10000x2 j)))
      (FloatOps.mulf (broadcastTo S10000x2 (extractStridedSlice S10000x1 ![0, 1] (shapeCast S10000x6 x0 shapeCasts_S10000x6_S10000x6) slices_S10000x6_o0_1_S10000x1) broadcasts_S10000x1_S10000x2 j)
        (broadcastTo S10000x2 (extractStridedSlice S1x2 ![1, 0] (shapeCast S6x2 x1 shapeCasts_S6x2_S6x2) slices_S6x2_o1_0_S1x2) broadcasts_S1x2_S10000x2 j)))
      (FloatOps.mulf (broadcastTo S10000x2 (extractStridedSlice S10000x1 ![0, 2] (shapeCast S10000x6 x0 shapeCasts_S10000x6_S10000x6) slices_S10000x6_o0_2_S10000x1) broadcasts_S10000x1_S10000x2 j)
        (broadcastTo S10000x2 (extractStridedSlice S1x2 ![2, 0] (shapeCast S6x2 x1 shapeCasts_S6x2_S6x2) slices_S6x2_o2_0_S1x2) broadcasts_S1x2_S10000x2 j)))
      (FloatOps.mulf (broadcastTo S10000x2 (extractStridedSlice S10000x1 ![0, 3] (shapeCast S10000x6 x0 shapeCasts_S10000x6_S10000x6) slices_S10000x6_o0_3_S10000x1) broadcasts_S10000x1_S10000x2 j)
        (broadcastTo S10000x2 (extractStridedSlice S1x2 ![3, 0] (shapeCast S6x2 x1 shapeCasts_S6x2_S6x2) slices_S6x2_o3_0_S1x2) broadcasts_S1x2_S10000x2 j)))
      (FloatOps.mulf (broadcastTo S10000x2 (extractStridedSlice S10000x1 ![0, 4] (shapeCast S10000x6 x0 shapeCasts_S10000x6_S10000x6) slices_S10000x6_o0_4_S10000x1) broadcasts_S10000x1_S10000x2 j)
        (broadcastTo S10000x2 (extractStridedSlice S1x2 ![4, 0] (shapeCast S6x2 x1 shapeCasts_S6x2_S6x2) slices_S6x2_o4_0_S1x2) broadcasts_S1x2_S10000x2 j)))
      (FloatOps.mulf (broadcastTo S10000x2 (extractStridedSlice S10000x1 ![0, 5] (shapeCast S10000x6 x0 shapeCasts_S10000x6_S10000x6) slices_S10000x6_o0_5_S10000x1) broadcasts_S10000x1_S10000x2 j)
        (broadcastTo S10000x2 (extractStridedSlice S1x2 ![5, 0] (shapeCast S6x2 x1 shapeCasts_S6x2_S6x2) slices_S6x2_o5_0_S1x2) broadcasts_S1x2_S10000x2 j)))
      (broadcastTo S10000x2 (shapeCast S1x2 x2 shapeCasts_S1x2_S1x2) broadcasts_S1x2_S10000x2 j) = _
  rw [shapeCast_self, shapeCast_self, shapeCast_self,
    xcol18 x0 ![0, 0] slices_S10000x6_o0_0_S10000x1 0 rfl rfl j, wrow18 x1 ![0, 0] slices_S6x2_o0_0_S1x2 0 rfl rfl j,
    xcol18 x0 ![0, 1] slices_S10000x6_o0_1_S10000x1 1 rfl rfl j, wrow18 x1 ![1, 0] slices_S6x2_o1_0_S1x2 1 rfl rfl j,
    xcol18 x0 ![0, 2] slices_S10000x6_o0_2_S10000x1 2 rfl rfl j, wrow18 x1 ![2, 0] slices_S6x2_o2_0_S1x2 2 rfl rfl j,
    xcol18 x0 ![0, 3] slices_S10000x6_o0_3_S10000x1 3 rfl rfl j, wrow18 x1 ![3, 0] slices_S6x2_o3_0_S1x2 3 rfl rfl j,
    xcol18 x0 ![0, 4] slices_S10000x6_o0_4_S10000x1 4 rfl rfl j, wrow18 x1 ![4, 0] slices_S6x2_o4_0_S1x2 4 rfl rfl j,
    xcol18 x0 ![0, 5] slices_S10000x6_o0_5_S10000x1 5 rfl rfl j, wrow18 x1 ![5, 0] slices_S6x2_o5_0_S1x2 5 rfl rfl j,
    broadcastTo_apply x2 _ j (ix2 (n0 := 1) (n1 := 2) 0 (j 1)) (fun a => by match a with | ⟨0, _⟩ => rfl | ⟨1, _⟩ => rfl)]

/-- The index maps, decided over the grid: the input's and the output's row block is the point's number, and every
    other block index is zero. -/
theorem idx_facts18 : ∀ t : Fin cfg18.N,
    win18_0.index t (0 : Fin 2) = t.val ∧ win18_0.index t (1 : Fin 2) = 0
    ∧ win18_1.index t (0 : Fin 2) = 0 ∧ win18_1.index t (1 : Fin 2) = 0
    ∧ win18_2.index t (0 : Fin 2) = 0 ∧ win18_2.index t (1 : Fin 2) = 0
    ∧ win18_3.index t (0 : Fin 2) = t.val ∧ win18_3.index t (1 : Fin 2) = 0 :=
  (by decide +kernel : ∀ t : Fin grid18.N, _)

/-- Where the blocks sit in their arrays: at point t the element of the input block at (row, column k) is the input
    array's element at the row of the output block's element and column k, -/
theorem embx18 (t : Fin cfg18.N) (j : S10000x2.Idx) (k : Fin 6) :
    ((cfg18.win 0).blk t).view.emb (ix2 (n0 := 10000) (n1 := 6) (j 0) k)
      = ix2 (n0 := 500000) (n1 := 6) ((((cfg18.win 3).blk t).view.emb j) 0) k := by
  obtain ⟨e0, e1, e2, e3, e4, e5, e6, e7⟩ := idx_facts18 t
  funext a; apply Fin.ext
  match a with
  | ⟨0, _⟩ => show win18_0.index t (0 : Fin 2) * 10000 + 1 * (j 0).val = win18_3.index t (0 : Fin 2) * 10000 + 1 * (j 0).val; omega
  | ⟨1, _⟩ => show win18_0.index t (1 : Fin 2) * 6 + 1 * k.val = k.val; omega
/-- the element of the weight block at (k, column) is the weight array's at k and the output element's column, -/
theorem embw18 (t : Fin cfg18.N) (j : S10000x2.Idx) (k : Fin 6) :
    ((cfg18.win 1).blk t).view.emb (ix2 (n0 := 6) (n1 := 2) k (j 1))
      = ix2 (n0 := 6) (n1 := 2) k ((((cfg18.win 3).blk t).view.emb j) 1) := by
  obtain ⟨e0, e1, e2, e3, e4, e5, e6, e7⟩ := idx_facts18 t
  funext a; apply Fin.ext
  match a with
  | ⟨0, _⟩ => show win18_1.index t (0 : Fin 2) * 6 + 1 * k.val = k.val; omega
  | ⟨1, _⟩ => show win18_1.index t (1 : Fin 2) * 2 + 1 * (j 1).val = win18_3.index t (1 : Fin 2) * 2 + 1 * (j 1).val; omega
/-- and the element of the bias block at (0, column) is the bias array's at the output element's column. -/
theorem embb18 (t : Fin cfg18.N) (j : S10000x2.Idx) :
    ((cfg18.win 2).blk t).view.emb (ix2 (n0 := 1) (n1 := 2) 0 (j 1))
      = ix2 (n0 := 1) (n1 := 2) 0 ((((cfg18.win 3).blk t).view.emb j) 1) := by
  obtain ⟨e0, e1, e2, e3, e4, e5, e6, e7⟩ := idx_facts18 t
  funext a; apply Fin.ext
  match a with
  | ⟨0, _⟩ => show win18_2.index t (0 : Fin 2) * 1 + 1 * 0 = 0; omega
  | ⟨1, _⟩ => show win18_2.index t (1 : Fin 2) * 2 + 1 * (j 1).val = win18_3.index t (1 : Fin 2) * 2 + 1 * (j 1).val; omega

set_option maxHeartbeats 1000000 in
/-- What point t writes back is block t of the affine function of the three arrays as the region finds them. -/
theorem flushed18_eq (c : Dev nD) (t : Fin cfg18.N) :
    (dat18 V c).flushed 3 t = ((cfg18.win 3).blk t).view.read (Elt F)
      (aff6G (n := 500000) (V c (Pipeline.arrRef spec18 0)) (V c (Pipeline.arrRef spec18 1)) (V c (Pipeline.arrRef spec18 2))) := by
  show (cfg18.win 3).cut (grid18.coords t) ((dat18 V c).after 3 t) = _
  rw [after18_3]
  unfold out18_3
  rw [View.canon_unit_zero hz18]
  simp only [View.ld_unit_zero (S := S10000x6) hz18, View.ld_unit_zero (S := S6x2) hz18, View.ld_unit_zero (S := S1x2) hz18]
  funext j
  show k18_pay1 (iblk18 V c 0 t) (iblk18 V c 1 t) (iblk18 V c 2 t) j
    = aff6G (n := 500000) (V c (Pipeline.arrRef spec18 0)) (V c (Pipeline.arrRef spec18 1)) (V c (Pipeline.arrRef spec18 2)) (((cfg18.win 3).blk t).view.emb j)
  rw [pay18_apply]
  show FloatOps.addf (FloatOps.addf (FloatOps.addf (FloatOps.addf (FloatOps.addf (FloatOps.addf (FloatOps.addf (Scalar.ofBits (F := F) .f32 0x00000000#32)
      (FloatOps.mulf (V c (Pipeline.arrRef spec18 0) (((cfg18.win 0).blk t).view.emb (ix2 (n0 := 10000) (n1 := 6) (j 0) 0)))
        (V c (Pipeline.arrRef spec18 1) (((cfg18.win 1).blk t).view.emb (ix2 (n0 := 6) (n1 := 2) 0 (j 1))))))
      (FloatOps.mulf (V c (Pipeline.arrRef spec18 0) (((cfg18.win 0).blk t).view.emb (ix2 (n0 := 10000) (n1 := 6) (j 0) 1)))
        (V c (Pipeline.arrRef spec18 1) (((cfg18.win 1).blk t).view.emb (ix2 (n0 := 6) (n1 := 2) 1 (j 1))))))
      (FloatOps.mulf (V c (Pipeline.arrRef spec18 0) (((cfg18.win 0).blk t).view.emb (ix2 (n0 := 10000) (n1 := 6) (j 0) 2)))
        (V c (Pipeline.arrRef spec18 1) (((cfg18.win 1).blk t).view.emb (ix2 (n0 := 6) (n1 := 2) 2 (j 1))))))
      (FloatOps.mulf (V c (Pipeline.arrRef spec18 0) (((cfg18.win 0).blk t).view.emb (ix2 (n0 := 10000) (n1 := 6) (j 0) 3)))
        (V c (Pipeline.arrRef spec18 1) (((cfg18.win 1).blk t).view.emb (ix2 (n0 := 6) (n1 := 2) 3 (j 1))))))
      (FloatOps.mulf (V c (Pipeline.arrRef spec18 0) (((cfg18.win 0).blk t).view.emb (ix2 (n0 := 10000) (n1 := 6) (j 0) 4)))
        (V c (Pipeline.arrRef spec18 1) (((cfg18.win 1).blk t).view.emb (ix2 (n0 := 6) (n1 := 2) 4 (j 1))))))
      (FloatOps.mulf (V c (Pipeline.arrRef spec18 0) (((cfg18.win 0).blk t).view.emb (ix2 (n0 := 10000) (n1 := 6) (j 0) 5)))
        (V c (Pipeline.arrRef spec18 1) (((cfg18.win 1).blk t).view.emb (ix2 (n0 := 6) (n1 := 2) 5 (j 1))))))
      (V c (Pipeline.arrRef spec18 2) (((cfg18.win 2).blk t).view.emb (ix2 (n0 := 1) (n1 := 2) 0 (j 1)))) = _
  rw [embx18 t j 0, embx18 t j 1, embx18 t j 2, embx18 t j 3, embx18 t j 4, embx18 t j 5,
    embw18 t j 0, embw18 t j 1, embw18 t j 2, embw18 t j 3, embw18 t j 4, embw18 t j 5, embb18 t j]

/-- An index of the output array is in point t's block iff each coordinate is in the block's range on its axis. -/
theorem mem_blk18 (t : Fin cfg18.N) (i : S500000x2.Idx) :
    i ∈ ((cfg18.win 3).blk t).view.set ↔ ∀ a : Fin 2, win18_3.index t a * S10000x2.size a ≤ (i a).val ∧ (i a).val < win18_3.index t a * S10000x2.size a + S10000x2.size a := by
  show i ∈ ((View.whole (Pipeline.arrRef spec18 3)).slice (win18_3.rect t)).set ↔ _
  rw [View.set_slice_whole, Rect.mem_set_unit]
  exact Iff.rfl

/-- Every index of the output array is in some point's block: row r is in block r / 10000. -/
theorem cover18 (i : S500000x2.Idx) :
    ∃ t : Fin cfg18.N, (cfg18.win 3).flush t = true ∧ i ∈ ((cfg18.win 3).blk t).view.set := by
  have hi0 : (i 0).val < 500000 := (i 0).isLt
  have hi1 : (i 1).val < 2 := (i 1).isLt
  have hN : (i 0).val / 10000 < cfg18.N := by
    have hg := N_18
    show (i 0).val / 10000 < grid18.N
    omega
  obtain ⟨t, ht⟩ : ∃ t : Fin cfg18.N, t.val = (i 0).val / 10000 := ⟨⟨_, hN⟩, rfl⟩
  obtain ⟨e0, e1, e2, e3, e4, e5, e6, e7⟩ := idx_facts18 t
  refine ⟨t, flush18_3 t, ?_⟩
  rw [mem_blk18]
  intro a
  match a with
  | ⟨0, _⟩ => show win18_3.index t (0 : Fin 2) * 10000 ≤ (i 0).val ∧ (i 0).val < win18_3.index t (0 : Fin 2) * 10000 + 10000; omega
  | ⟨1, _⟩ => show win18_3.index t (1 : Fin 2) * 2 ≤ (i 1).val ∧ (i 1).val < win18_3.index t (1 : Fin 2) * 2 + 2; omega

/-- The output array after the region: the affine function of the three arrays the region reads. -/
theorem final18 (c : Dev nD) : (dat18 V c).arrAt 3 cfg18.N
    = aff6G (n := 500000) (V c (Pipeline.arrRef spec18 0)) (V c (Pipeline.arrRef spec18 1)) (V c (Pipeline.arrRef spec18 2)) :=
  (dat18 V c).arrAt_eq_of_cover 3 _ (fun t _ => flushed18_eq V c t) cover18

end Cert.KernelIdeal.Hand

end
-- ==== Proof.KI.Val19.lean ====
/-
  The affine region at six input columns (pallas_call 19): the value of its output array after the region, as one
  function of the three arrays it reads, index by index.

  Point t writes back the rows [10000 t, 10000 t + 10000) of the output; at row r of the block and column j the body
  stored ((((((0 + x[r,0] * w[0,j]) + x[r,1] * w[1,j]) + x[r,2] * w[2,j]) + x[r,3] * w[3,j]) + x[r,4] * w[4,j])
  + x[r,5] * w[5,j]) + b[0,j] of its staging buffers, which hold the rows [10000 t, 10000 t + 10000) of the input and
  the whole weight matrix and bias row. So what point t writes back is block t of the affine function of the three
  arrays; the 200 blocks tile the output array (row r is in block r / 10000), so the array ends holding that function
  everywhere.
-/
import proofs.«149588_j66838281060723_2_alg».proof.Proof.KI.Body19
import proofs.«149588_j66838281060723_2_alg».proof.Proof.KI.AffG
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

-- the TensorCore's buffer contents when the region is entered
variable (V : (c : Dev nD) → (b : Ref sig .tc) → Buf (Elt F) ((c : Thread nD τ).loc b))

theorem hz19 : (![0, 0] : Fin 2 → Nat) = fun _ => 0 := funext fun a => by fin_cases a <;> rfl

/-- Input column k, broadcast along the two output columns, read at an index: the input at the index's row and column k. -/
theorem xcol19 (x0 : Vec F S10000x6 .f32) (off : Fin 2 → Nat) (h : S10000x6.Slices off S10000x1) (k : Fin 6)
    (h0 : off 0 = 0) (h1 : off 1 = k.val) (j : S10000x2.Idx) :
    broadcastTo S10000x2 (extractStridedSlice S10000x1 off x0 h) broadcasts_S10000x1_S10000x2 j
      = x0 (ix2 (n0 := 10000) (n1 := 6) (j 0) k) := by
  rw [broadcastTo_apply _ _ j (ix2 (n0 := 10000) (n1 := 1) (j 0) 0) (fun a => by match a with | ⟨0, _⟩ => rfl | ⟨1, _⟩ => rfl)]
  exact extractStridedSlice_apply off x0 h (ix2 (n0 := 10000) (n1 := 1) (j 0) 0) (ix2 (n0 := 10000) (n1 := 6) (j 0) k) (fun a => by
    match a with
    | ⟨0, _⟩ => show (j 0).val = off 0 + (j 0).val; omega
    | ⟨1, _⟩ => show k.val = off 1 + 0; omega)

/-- Weight row k, broadcast along the rows, read at an index: the weight at row k and the index's column. -/
theorem wrow19 (x1 : Vec F S6x2 .f32) (off : Fin 2 → Nat) (h : S6x2.Slices off S1x2) (k : Fin 6)
    (h0 : off 0 = k.val) (h1 : off 1 = 0) (j : S10000x2.Idx) :
    broadcastTo S10000x2 (extractStridedSlice S1x2 off x1 h) broadcasts_S1x2_S10000x2 j
      = x1 (ix2 (n0 := 6) (n1 := 2) k (j 1)) := by
  rw [broadcastTo_apply _ _ j (ix2 (n0 := 1) (n1 := 2) 0 (j 1)) (fun a => by match a with | ⟨0, _⟩ => rfl | ⟨1, _⟩ => rfl)]
  exact extractStridedSlice_apply off x1 h (ix2 (n0 := 1) (n1 := 2) 0 (j 1)) (ix2 (n0 := 6) (n1 := 2) k (j 1)) (fun a => by
    match a with
    | ⟨0, _⟩ => show k.val = off 0 + 0; omega
    | ⟨1, _⟩ => show (j 1).val = off 1 + (j 1).val; omega)

/-- The body's payload at an index: the kernel's order of operations on the elements the slices and broadcasts read. -/
theorem pay19_apply (x0 : Vec F S10000x6 .f32) (x1 : Vec F S6x2 .f32) (x2 : Vec F S1x2 .f32) (j : S10000x2.Idx) :
    k19_pay1 x0 x1 x2 j = FloatOps.addf (FloatOps.addf (FloatOps.addf (FloatOps.addf (FloatOps.addf (FloatOps.addf (FloatOps.addf (Scalar.ofBits (F := F) .f32 0x00000000#32)
      (FloatOps.mulf (x0 (ix2 (n0 := 10000) (n1 := 6) (j 0) 0)) (x1 (ix2 (n0 := 6) (n1 := 2) 0 (j 1)))))
      (FloatOps.mulf (x0 (ix2 (n0 := 10000) (n1 := 6) (j 0) 1)) (x1 (ix2 (n0 := 6) (n1 := 2) 1 (j 1)))))
      (FloatOps.mulf (x0 (ix2 (n0 := 10000) (n1 := 6) (j 0) 2)) (x1 (ix2 (n0 := 6) (n1 := 2) 2 (j 1)))))
      (FloatOps.mulf (x0 (ix2 (n0 := 10000) (n1 := 6) (j 0) 3)) (x1 (ix2 (n0 := 6) (n1 := 2) 3 (j 1)))))
      (FloatOps.mulf (x0 (ix2 (n0 := 10000) (n1 := 6) (j 0) 4)) (x1 (ix2 (n0 := 6) (n1 := 2) 4 (j 1)))))
      (FloatOps.mulf (x0 (ix2 (n0 := 10000) (n1 := 6) (j 0) 5)) (x1 (ix2 (n0 := 6) (n1 := 2) 5 (j 1)))))
      (x2 (ix2 (n0 := 1) (n1 := 2) 0 (j 1))) := by
  unfold k19_pay1
  show FloatOps.addf (FloatOps.addf (FloatOps.addf (FloatOps.addf (FloatOps.addf (FloatOps.addf (FloatOps.addf (Scalar.ofBits (F := F) .f32 0x00000000#32)
      (FloatOps.mulf (broadcastTo S10000x2 (extractStridedSlice S10000x1 ![0, 0] (shapeCast S10000x6 x0 shapeCasts_S10000x6_S10000x6) slices_S10000x6_o0_0_S10000x1) broadcasts_S10000x1_S10000x2 j)
        (broadcastTo S10000x2 (extractStridedSlice S1x2 ![0, 0] (shapeCast S6x2 x1 shapeCasts_S6x2_S6x2) slices_S6x2_o0_0_S1x2) broadcasts_S1x2_S10000x2 j)))
      (FloatOps.mulf (broadcastTo S10000x2 (extractStridedSlice S10000x1 ![0, 1] (shapeCast S10000x6 x0 shapeCasts_S10000x6_S10000x6) slices_S10000x6_o0_1_S10000x1) broadcasts_S10000x1_S10000x2 j)
        (broadcastTo S10000x2 (extractStridedSlice S1x2 ![1, 0] (shapeCast S6x2 x1 shapeCasts_S6x2_S6x2) slices_S6x2_o1_0_S1x2) broadcasts_S1x2_S10000x2 j)))
      (FloatOps.mulf (broadcastTo S10000x2 (extractStridedSlice S10000x1 ![0, 2] (shapeCast S10000x6 x0 shapeCasts_S10000x6_S10000x6) slices_S10000x6_o0_2_S10000x1) broadcasts_S10000x1_S10000x2 j)
        (broadcastTo S10000x2 (extractStridedSlice S1x2 ![2, 0] (shapeCast S6x2 x1 shapeCasts_S6x2_S6x2) slices_S6x2_o2_0_S1x2) broadcasts_S1x2_S10000x2 j)))
      (FloatOps.mulf (broadcastTo S10000x2 (extractStridedSlice S10000x1 ![0, 3] (shapeCast S10000x6 x0 shapeCasts_S10000x6_S10000x6) slices_S10000x6_o0_3_S10000x1) broadcasts_S10000x1_S10000x2 j)
        (broadcastTo S10000x2 (extractStridedSlice S1x2 ![3, 0] (shapeCast S6x2 x1 shapeCasts_S6x2_S6x2) slices_S6x2_o3_0_S1x2) broadcasts_S1x2_S10000x2 j)))
      (FloatOps.mulf (broadcastTo S10000x2 (extractStridedSlice S10000x1 ![0, 4] (shapeCast S10000x6 x0 shapeCasts_S10000x6_S10000x6) slices_S10000x6_o0_4_S10000x1) broadcasts_S10000x1_S10000x2 j)
        (broadcastTo S10000x2 (extractStridedSlice S1x2 ![4, 0] (shapeCast S6x2 x1 shapeCasts_S6x2_S6x2) slices_S6x2_o4_0_S1x2) broadcasts_S1x2_S10000x2 j)))
      (FloatOps.mulf (broadcastTo S10000x2 (extractStridedSlice S10000x1 ![0, 5] (shapeCast S10000x6 x0 shapeCasts_S10000x6_S10000x6) slices_S10000x6_o0_5_S10000x1) broadcasts_S10000x1_S10000x2 j)
        (broadcastTo S10000x2 (extractStridedSlice S1x2 ![5, 0] (shapeCast S6x2 x1 shapeCasts_S6x2_S6x2) slices_S6x2_o5_0_S1x2) broadcasts_S1x2_S10000x2 j)))
      (broadcastTo S10000x2 (shapeCast S1x2 x2 shapeCasts_S1x2_S1x2) broadcasts_S1x2_S10000x2 j) = _
  rw [shapeCast_self, shapeCast_self, shapeCast_self,
    xcol19 x0 ![0, 0] slices_S10000x6_o0_0_S10000x1 0 rfl rfl j, wrow19 x1 ![0, 0] slices_S6x2_o0_0_S1x2 0 rfl rfl j,
    xcol19 x0 ![0, 1] slices_S10000x6_o0_1_S10000x1 1 rfl rfl j, wrow19 x1 ![1, 0] slices_S6x2_o1_0_S1x2 1 rfl rfl j,
    xcol19 x0 ![0, 2] slices_S10000x6_o0_2_S10000x1 2 rfl rfl j, wrow19 x1 ![2, 0] slices_S6x2_o2_0_S1x2 2 rfl rfl j,
    xcol19 x0 ![0, 3] slices_S10000x6_o0_3_S10000x1 3 rfl rfl j, wrow19 x1 ![3, 0] slices_S6x2_o3_0_S1x2 3 rfl rfl j,
    xcol19 x0 ![0, 4] slices_S10000x6_o0_4_S10000x1 4 rfl rfl j, wrow19 x1 ![4, 0] slices_S6x2_o4_0_S1x2 4 rfl rfl j,
    xcol19 x0 ![0, 5] slices_S10000x6_o0_5_S10000x1 5 rfl rfl j, wrow19 x1 ![5, 0] slices_S6x2_o5_0_S1x2 5 rfl rfl j,
    broadcastTo_apply x2 _ j (ix2 (n0 := 1) (n1 := 2) 0 (j 1)) (fun a => by match a with | ⟨0, _⟩ => rfl | ⟨1, _⟩ => rfl)]

/-- The index maps, decided over the grid: the input's and the output's row block is the point's number, and every
    other block index is zero. -/
theorem idx_facts19 : ∀ t : Fin cfg19.N,
    win19_0.index t (0 : Fin 2) = t.val ∧ win19_0.index t (1 : Fin 2) = 0
    ∧ win19_1.index t (0 : Fin 2) = 0 ∧ win19_1.index t (1 : Fin 2) = 0
    ∧ win19_2.index t (0 : Fin 2) = 0 ∧ win19_2.index t (1 : Fin 2) = 0
    ∧ win19_3.index t (0 : Fin 2) = t.val ∧ win19_3.index t (1 : Fin 2) = 0 :=
  (by decide +kernel : ∀ t : Fin grid19.N, _)

/-- Where the blocks sit in their arrays: at point t the element of the input block at (row, column k) is the input
    array's element at the row of the output block's element and column k, -/
theorem embx19 (t : Fin cfg19.N) (j : S10000x2.Idx) (k : Fin 6) :
    ((cfg19.win 0).blk t).view.emb (ix2 (n0 := 10000) (n1 := 6) (j 0) k)
      = ix2 (n0 := 2000000) (n1 := 6) ((((cfg19.win 3).blk t).view.emb j) 0) k := by
  obtain ⟨e0, e1, e2, e3, e4, e5, e6, e7⟩ := idx_facts19 t
  funext a; apply Fin.ext
  match a with
  | ⟨0, _⟩ => show win19_0.index t (0 : Fin 2) * 10000 + 1 * (j 0).val = win19_3.index t (0 : Fin 2) * 10000 + 1 * (j 0).val; omega
  | ⟨1, _⟩ => show win19_0.index t (1 : Fin 2) * 6 + 1 * k.val = k.val; omega
/-- the element of the weight block at (k, column) is the weight array's at k and the output element's column, -/
theorem embw19 (t : Fin cfg19.N) (j : S10000x2.Idx) (k : Fin 6) :
    ((cfg19.win 1).blk t).view.emb (ix2 (n0 := 6) (n1 := 2) k (j 1))
      = ix2 (n0 := 6) (n1 := 2) k ((((cfg19.win 3).blk t).view.emb j) 1) := by
  obtain ⟨e0, e1, e2, e3, e4, e5, e6, e7⟩ := idx_facts19 t
  funext a; apply Fin.ext
  match a with
  | ⟨0, _⟩ => show win19_1.index t (0 : Fin 2) * 6 + 1 * k.val = k.val; omega
  | ⟨1, _⟩ => show win19_1.index t (1 : Fin 2) * 2 + 1 * (j 1).val = win19_3.index t (1 : Fin 2) * 2 + 1 * (j 1).val; omega
/-- and the element of the bias block at (0, column) is the bias array's at the output element's column. -/
theorem embb19 (t : Fin cfg19.N) (j : S10000x2.Idx) :
    ((cfg19.win 2).blk t).view.emb (ix2 (n0 := 1) (n1 := 2) 0 (j 1))
      = ix2 (n0 := 1) (n1 := 2) 0 ((((cfg19.win 3).blk t).view.emb j) 1) := by
  obtain ⟨e0, e1, e2, e3, e4, e5, e6, e7⟩ := idx_facts19 t
  funext a; apply Fin.ext
  match a with
  | ⟨0, _⟩ => show win19_2.index t (0 : Fin 2) * 1 + 1 * 0 = 0; omega
  | ⟨1, _⟩ => show win19_2.index t (1 : Fin 2) * 2 + 1 * (j 1).val = win19_3.index t (1 : Fin 2) * 2 + 1 * (j 1).val; omega

set_option maxHeartbeats 1000000 in
/-- What point t writes back is block t of the affine function of the three arrays as the region finds them. -/
theorem flushed19_eq (c : Dev nD) (t : Fin cfg19.N) :
    (dat19 V c).flushed 3 t = ((cfg19.win 3).blk t).view.read (Elt F)
      (aff6G (n := 2000000) (V c (Pipeline.arrRef spec19 0)) (V c (Pipeline.arrRef spec19 1)) (V c (Pipeline.arrRef spec19 2))) := by
  show (cfg19.win 3).cut (grid19.coords t) ((dat19 V c).after 3 t) = _
  rw [after19_3]
  unfold out19_3
  rw [View.canon_unit_zero hz19]
  simp only [View.ld_unit_zero (S := S10000x6) hz19, View.ld_unit_zero (S := S6x2) hz19, View.ld_unit_zero (S := S1x2) hz19]
  funext j
  show k19_pay1 (iblk19 V c 0 t) (iblk19 V c 1 t) (iblk19 V c 2 t) j
    = aff6G (n := 2000000) (V c (Pipeline.arrRef spec19 0)) (V c (Pipeline.arrRef spec19 1)) (V c (Pipeline.arrRef spec19 2)) (((cfg19.win 3).blk t).view.emb j)
  rw [pay19_apply]
  show FloatOps.addf (FloatOps.addf (FloatOps.addf (FloatOps.addf (FloatOps.addf (FloatOps.addf (FloatOps.addf (Scalar.ofBits (F := F) .f32 0x00000000#32)
      (FloatOps.mulf (V c (Pipeline.arrRef spec19 0) (((cfg19.win 0).blk t).view.emb (ix2 (n0 := 10000) (n1 := 6) (j 0) 0)))
        (V c (Pipeline.arrRef spec19 1) (((cfg19.win 1).blk t).view.emb (ix2 (n0 := 6) (n1 := 2) 0 (j 1))))))
      (FloatOps.mulf (V c (Pipeline.arrRef spec19 0) (((cfg19.win 0).blk t).view.emb (ix2 (n0 := 10000) (n1 := 6) (j 0) 1)))
        (V c (Pipeline.arrRef spec19 1) (((cfg19.win 1).blk t).view.emb (ix2 (n0 := 6) (n1 := 2) 1 (j 1))))))
      (FloatOps.mulf (V c (Pipeline.arrRef spec19 0) (((cfg19.win 0).blk t).view.emb (ix2 (n0 := 10000) (n1 := 6) (j 0) 2)))
        (V c (Pipeline.arrRef spec19 1) (((cfg19.win 1).blk t).view.emb (ix2 (n0 := 6) (n1 := 2) 2 (j 1))))))
      (FloatOps.mulf (V c (Pipeline.arrRef spec19 0) (((cfg19.win 0).blk t).view.emb (ix2 (n0 := 10000) (n1 := 6) (j 0) 3)))
        (V c (Pipeline.arrRef spec19 1) (((cfg19.win 1).blk t).view.emb (ix2 (n0 := 6) (n1 := 2) 3 (j 1))))))
      (FloatOps.mulf (V c (Pipeline.arrRef spec19 0) (((cfg19.win 0).blk t).view.emb (ix2 (n0 := 10000) (n1 := 6) (j 0) 4)))
        (V c (Pipeline.arrRef spec19 1) (((cfg19.win 1).blk t).view.emb (ix2 (n0 := 6) (n1 := 2) 4 (j 1))))))
      (FloatOps.mulf (V c (Pipeline.arrRef spec19 0) (((cfg19.win 0).blk t).view.emb (ix2 (n0 := 10000) (n1 := 6) (j 0) 5)))
        (V c (Pipeline.arrRef spec19 1) (((cfg19.win 1).blk t).view.emb (ix2 (n0 := 6) (n1 := 2) 5 (j 1))))))
      (V c (Pipeline.arrRef spec19 2) (((cfg19.win 2).blk t).view.emb (ix2 (n0 := 1) (n1 := 2) 0 (j 1)))) = _
  rw [embx19 t j 0, embx19 t j 1, embx19 t j 2, embx19 t j 3, embx19 t j 4, embx19 t j 5,
    embw19 t j 0, embw19 t j 1, embw19 t j 2, embw19 t j 3, embw19 t j 4, embw19 t j 5, embb19 t j]

/-- An index of the output array is in point t's block iff each coordinate is in the block's range on its axis. -/
theorem mem_blk19 (t : Fin cfg19.N) (i : S2000000x2.Idx) :
    i ∈ ((cfg19.win 3).blk t).view.set ↔ ∀ a : Fin 2, win19_3.index t a * S10000x2.size a ≤ (i a).val ∧ (i a).val < win19_3.index t a * S10000x2.size a + S10000x2.size a := by
  show i ∈ ((View.whole (Pipeline.arrRef spec19 3)).slice (win19_3.rect t)).set ↔ _
  rw [View.set_slice_whole, Rect.mem_set_unit]
  exact Iff.rfl

/-- Every index of the output array is in some point's block: row r is in block r / 10000. -/
theorem cover19 (i : S2000000x2.Idx) :
    ∃ t : Fin cfg19.N, (cfg19.win 3).flush t = true ∧ i ∈ ((cfg19.win 3).blk t).view.set := by
  have hi0 : (i 0).val < 2000000 := (i 0).isLt
  have hi1 : (i 1).val < 2 := (i 1).isLt
  have hN : (i 0).val / 10000 < cfg19.N := by
    have hg := N_19
    show (i 0).val / 10000 < grid19.N
    omega
  obtain ⟨t, ht⟩ : ∃ t : Fin cfg19.N, t.val = (i 0).val / 10000 := ⟨⟨_, hN⟩, rfl⟩
  obtain ⟨e0, e1, e2, e3, e4, e5, e6, e7⟩ := idx_facts19 t
  refine ⟨t, flush19_3 t, ?_⟩
  rw [mem_blk19]
  intro a
  match a with
  | ⟨0, _⟩ => show win19_3.index t (0 : Fin 2) * 10000 ≤ (i 0).val ∧ (i 0).val < win19_3.index t (0 : Fin 2) * 10000 + 10000; omega
  | ⟨1, _⟩ => show win19_3.index t (1 : Fin 2) * 2 ≤ (i 1).val ∧ (i 1).val < win19_3.index t (1 : Fin 2) * 2 + 2; omega

/-- The output array after the region: the affine function of the three arrays the region reads. -/
theorem final19 (c : Dev nD) : (dat19 V c).arrAt 3 cfg19.N
    = aff6G (n := 2000000) (V c (Pipeline.arrRef spec19 0)) (V c (Pipeline.arrRef spec19 1)) (V c (Pipeline.arrRef spec19 2)) :=
  (dat19 V c).arrAt_eq_of_cover 3 _ (fun t _ => flushed19_eq V c t) cover19

end Cert.KernelIdeal.Hand

end
-- ==== Proof.KI.Val20.lean ====
/-
  The message region's value: what its output array holds after the region, as ONE function of its four input arrays
  as the region finds them, at any float instance.

  At grid point t the body leaves in the output's staging buffer, at row r and feature k of the block,
      ((a[r,0] * b[r,0]) * xs[r,k]) + xt[r,k]
  of the four input blocks; every window's block at point t is rows [4000 t, 4000 t + 4000) of its array, so what point
  t writes back is block t of msgG of the four arrays; the 1500 blocks cover the 6000000 rows (row r is in block
  r / 4000), so the array ends holding msgG of the four arrays everywhere.
-/
import proofs.«149588_j66838281060723_2_alg».proof.Proof.KI.Body20
import proofs.«149588_j66838281060723_2_alg».proof.Proof.KI.GDefs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The zero offsets of a whole-block rectangle, however spelt. -/
private theorem zero_offsets : (![0, 0] : Fin 2 → Nat) = fun _ => 0 := funext fun a => by fin_cases a <;> rfl

/-- The body's arithmetic on whole blocks: the casts to the same shape are identities. -/
private theorem pay_eq (xa xb : Vec F S4000x1 .f32) (xs xt : Vec F S4000x2 .f32) :
    k20_pay1 xa xb xs xt = addf (mulf (broadcastTo S4000x2 (mulf xa xb) broadcasts_S4000x1_S4000x2) xs) xt := by
  unfold k20_pay1
  simp only [shapeCast_self]

/-- The body's arithmetic at row r, feature k of the block: the product of the two column entries of row r, times the
    first feature entry, plus the second. -/
private theorem pay_at (xa xb : Vec F S4000x1 .f32) (xs xt : Vec F S4000x2 .f32) (r : Fin 4000) (k : Fin 2) :
    k20_pay1 xa xb xs xt (ix2 r k)
      = FloatOps.addf (FloatOps.mulf (FloatOps.mulf (xa (ix2 r (0 : Fin 1))) (xb (ix2 r (0 : Fin 1)))) (xs (ix2 r k))) (xt (ix2 r k)) := by
  rw [pay_eq]
  show FloatOps.addf (FloatOps.mulf (broadcastTo S4000x2 (mulf xa xb) broadcasts_S4000x1_S4000x2 (ix2 r k)) (xs (ix2 r k))) (xt (ix2 r k)) = _
  rw [broadcastTo_apply (mulf xa xb) broadcasts_S4000x1_S4000x2 (ix2 r k) (ix2 r (0 : Fin 1))
    (fun a => match a with | ⟨0, _⟩ => rfl | ⟨1, _⟩ => rfl)]
  rfl

/-- The printed index maps, decided over the grid: every window's block at point t is block t along the rows and the
    one block along the columns. -/
private theorem idx_facts : ∀ t : Fin cfg20.N, win20_0.index t (0 : Fin 2) = t.val ∧ win20_0.index t (1 : Fin 2) = 0
    ∧ win20_1.index t (0 : Fin 2) = t.val ∧ win20_1.index t (1 : Fin 2) = 0
    ∧ win20_2.index t (0 : Fin 2) = t.val ∧ win20_2.index t (1 : Fin 2) = 0
    ∧ win20_3.index t (0 : Fin 2) = t.val ∧ win20_3.index t (1 : Fin 2) = 0
    ∧ win20_4.index t (0 : Fin 2) = t.val ∧ win20_4.index t (1 : Fin 2) = 0 :=
  (by decide +kernel : ∀ t : Fin grid20.N, _)

/-- The grid has 1500 points. -/
private theorem grid_points : grid20.N = 1500 := by decide

/-- An index of the output array is in point t's block iff each coordinate is in the block's range on its axis. -/
private theorem mem_blk (t : Fin cfg20.N) (i : S6000000x2.Idx) :
    i ∈ ((cfg20.win 4).blk t).view.set ↔ ∀ a : Fin 2, win20_4.index t a * S4000x2.size a ≤ (i a).val ∧ (i a).val < win20_4.index t a * S4000x2.size a + S4000x2.size a := by
  show i ∈ ((View.whole (Pipeline.arrRef spec20 4)).slice (win20_4.rect t)).set ↔ _
  rw [View.set_slice_whole, Rect.mem_set_unit]
  exact Iff.rfl

/-- Every entry of the output array is in the block of the point that its row number divided by 4000 names. -/
private theorem covered (i : S6000000x2.Idx) : ∃ t : Fin cfg20.N, (cfg20.win 4).flush t = true ∧ i ∈ ((cfg20.win 4).blk t).view.set := by
  have hi0 : (i 0).val < 6000000 := idx2_lt0 i
  have hi1 : (i 1).val < 2 := idx2_lt1 i
  refine ⟨⟨(i 0).val / 4000, by show _ < grid20.N; rw [grid_points]; omega⟩, flush20_4 _, ?_⟩
  rw [mem_blk]
  obtain ⟨-, -, -, -, -, -, -, -, e0, e1⟩ := idx_facts ⟨(i 0).val / 4000, by show _ < grid20.N; rw [grid_points]; omega⟩
  intro a
  match a with
  | ⟨0, _⟩ => show win20_4.index _ (0 : Fin 2) * 4000 ≤ (i 0).val ∧ (i 0).val < win20_4.index _ (0 : Fin 2) * 4000 + 4000; rw [e0]; show (i 0).val / 4000 * 4000 ≤ _ ∧ _ < (i 0).val / 4000 * 4000 + 4000; omega
  | ⟨1, _⟩ => show win20_4.index _ (1 : Fin 2) * 2 ≤ (i 1).val ∧ (i 1).val < win20_4.index _ (1 : Fin 2) * 2 + 2; rw [e1]; omega

/-- The output's staging buffer after the body at row r, feature k: the body's arithmetic of the four blocks there. -/
private theorem out_at (xa xb : Vec F S4000x1 .f32) (xs xt : Vec F S4000x2 .f32) (r : Fin 4000) (k : Fin 2) :
    out20_4 xa xb xs xt (ix2 r k)
      = FloatOps.addf (FloatOps.mulf (FloatOps.mulf (xa (ix2 r (0 : Fin 1))) (xb (ix2 r (0 : Fin 1)))) (xs (ix2 r k))) (xt (ix2 r k)) := by
  unfold out20_4
  rw [View.canon_unit_zero zero_offsets]
  simp only [View.ld_unit_zero (S := S4000x1) zero_offsets, View.ld_unit_zero (S := S4000x2) zero_offsets]
  exact pay_at xa xb xs xt r k

/-- Row r of the first column's block at point t is the column's entry at the row of the output array that row r of the
    output's block is. -/
private theorem iblk_colA (c : Dev nD) (t : Fin cfg20.N) (r : Fin 4000) (k : Fin 2) :
    iblk20 V c 0 t (ix2 r (0 : Fin 1))
      = V c (Pipeline.arrRef spec20 0) (ix2 (n0 := 6000000) (n1 := 1) ((((cfg20.win 4).blk t).view.emb (ix2 r k)) 0) 0) := by
  obtain ⟨a0, a1, -, -, -, -, -, -, e0, -⟩ := idx_facts t
  show V c (Pipeline.arrRef spec20 0) (((cfg20.win 0).blk t).view.emb (ix2 r (0 : Fin 1))) = _
  refine congrArg (V c (Pipeline.arrRef spec20 0)) (funext fun a => Fin.ext ?_)
  match a with
  | ⟨0, _⟩ => show win20_0.index t (0 : Fin 2) * 4000 + 1 * r.val = win20_4.index t (0 : Fin 2) * 4000 + 1 * r.val; rw [a0, e0]
  | ⟨1, _⟩ => show win20_0.index t (1 : Fin 2) * 1 + 1 * 0 = 0; rw [a1]

/-- The same for the second column. -/
private theorem iblk_colB (c : Dev nD) (t : Fin cfg20.N) (r : Fin 4000) (k : Fin 2) :
    iblk20 V c 1 t (ix2 r (0 : Fin 1))
      = V c (Pipeline.arrRef spec20 1) (ix2 (n0 := 6000000) (n1 := 1) ((((cfg20.win 4).blk t).view.emb (ix2 r k)) 0) 0) := by
  obtain ⟨-, -, b0, b1, -, -, -, -, e0, -⟩ := idx_facts t
  show V c (Pipeline.arrRef spec20 1) (((cfg20.win 1).blk t).view.emb (ix2 r (0 : Fin 1))) = _
  refine congrArg (V c (Pipeline.arrRef spec20 1)) (funext fun a => Fin.ext ?_)
  match a with
  | ⟨0, _⟩ => show win20_1.index t (0 : Fin 2) * 4000 + 1 * r.val = win20_4.index t (0 : Fin 2) * 4000 + 1 * r.val; rw [b0, e0]
  | ⟨1, _⟩ => show win20_1.index t (1 : Fin 2) * 1 + 1 * 0 = 0; rw [b1]

/-- Entry (r, k) of the first feature array's block at point t is the array's entry where entry (r, k) of the output's
    block is. -/
private theorem iblk_featS (c : Dev nD) (t : Fin cfg20.N) (r : Fin 4000) (k : Fin 2) :
    iblk20 V c 2 t (ix2 r k) = V c (Pipeline.arrRef spec20 2) (((cfg20.win 4).blk t).view.emb (ix2 r k)) := by
  obtain ⟨-, -, -, -, c0, c1, -, -, e0, e1⟩ := idx_facts t
  show V c (Pipeline.arrRef spec20 2) (((cfg20.win 2).blk t).view.emb (ix2 r k)) = _
  refine congrArg (V c (Pipeline.arrRef spec20 2)) (funext fun a => Fin.ext ?_)
  match a with
  | ⟨0, _⟩ => show win20_2.index t (0 : Fin 2) * 4000 + 1 * r.val = win20_4.index t (0 : Fin 2) * 4000 + 1 * r.val; rw [c0, e0]
  | ⟨1, _⟩ => show win20_2.index t (1 : Fin 2) * 2 + 1 * k.val = win20_4.index t (1 : Fin 2) * 2 + 1 * k.val; rw [c1, e1]

/-- The same for the second feature array. -/
private theorem iblk_featT (c : Dev nD) (t : Fin cfg20.N) (r : Fin 4000) (k : Fin 2) :
    iblk20 V c 3 t (ix2 r k) = V c (Pipeline.arrRef spec20 3) (((cfg20.win 4).blk t).view.emb (ix2 r k)) := by
  obtain ⟨-, -, -, -, -, -, d0, d1, e0, e1⟩ := idx_facts t
  show V c (Pipeline.arrRef spec20 3) (((cfg20.win 3).blk t).view.emb (ix2 r k)) = _
  refine congrArg (V c (Pipeline.arrRef spec20 3)) (funext fun a => Fin.ext ?_)
  match a with
  | ⟨0, _⟩ => show win20_3.index t (0 : Fin 2) * 4000 + 1 * r.val = win20_4.index t (0 : Fin 2) * 4000 + 1 * r.val; rw [d0, e0]
  | ⟨1, _⟩ => show win20_3.index t (1 : Fin 2) * 2 + 1 * k.val = win20_4.index t (1 : Fin 2) * 2 + 1 * k.val; rw [d1, e1]

/-- What point t writes back is block t of msgG of the four input arrays as the region finds them. -/
private theorem flushed_eq (c : Dev nD) (t : Fin cfg20.N) :
    (dat20 V c).flushed 4 t = ((cfg20.win 4).blk t).view.read (Elt F)
      (msgG (n := 6000000) (V c (Pipeline.arrRef spec20 0)) (V c (Pipeline.arrRef spec20 1)) (V c (Pipeline.arrRef spec20 2)) (V c (Pipeline.arrRef spec20 3))) := by
  show (cfg20.win 4).cut (grid20.coords t) ((dat20 V c).after 4 t) = _
  rw [after20_4]
  funext j
  obtain ⟨r, k, rfl⟩ : ∃ (r : Fin 4000) (k : Fin 2), j = ix2 r k := ⟨j 0, j 1, eq_ix2 j⟩
  refine (out_at (iblk20 V c 0 t) (iblk20 V c 1 t) (iblk20 V c 2 t) (iblk20 V c 3 t) r k).trans ?_
  rw [iblk_colA V c t r k, iblk_colB V c t r k, iblk_featS V c t r k, iblk_featT V c t r k]
  rfl

/-- THE OUTPUT ARRAY after the region: msgG of the four input arrays as the region finds them, everywhere. -/
theorem final20 (c : Dev nD) : (dat20 V c).arrAt 4 cfg20.N
    = msgG (n := 6000000) (V c (Pipeline.arrRef spec20 0)) (V c (Pipeline.arrRef spec20 1)) (V c (Pipeline.arrRef spec20 2)) (V c (Pipeline.arrRef spec20 3)) :=
  (dat20 V c).arrAt_eq_of_cover 4 _ (fun t _ => flushed_eq V c t) covered

end Cert.KernelIdeal.Hand

end
-- ==== Proof.KI.Val21.lean ====
/-
  The message region's value: what its output array holds after the region, as ONE function of its four input arrays
  as the region finds them, at any float instance.

  At grid point t the body leaves in the output's staging buffer, at row r and feature k of the block,
      ((a[r,0] * b[r,0]) * xs[r,k]) + xt[r,k]
  of the four input blocks; every window's block at point t is rows [4000 t, 4000 t + 4000) of its array, so what point
  t writes back is block t of msgG of the four arrays; the 1500 blocks cover the 6000000 rows (row r is in block
  r / 4000), so the array ends holding msgG of the four arrays everywhere.
-/
import proofs.«149588_j66838281060723_2_alg».proof.Proof.KI.Body21
import proofs.«149588_j66838281060723_2_alg».proof.Proof.KI.GDefs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The zero offsets of a whole-block rectangle, however spelt. -/
private theorem zero_offsets : (![0, 0] : Fin 2 → Nat) = fun _ => 0 := funext fun a => by fin_cases a <;> rfl

/-- The body's arithmetic on whole blocks: the casts to the same shape are identities. -/
private theorem pay_eq (xa xb : Vec F S4000x1 .f32) (xs xt : Vec F S4000x2 .f32) :
    k21_pay1 xa xb xs xt = addf (mulf (broadcastTo S4000x2 (mulf xa xb) broadcasts_S4000x1_S4000x2) xs) xt := by
  unfold k21_pay1
  simp only [shapeCast_self]

/-- The body's arithmetic at row r, feature k of the block: the product of the two column entries of row r, times the
    first feature entry, plus the second. -/
private theorem pay_at (xa xb : Vec F S4000x1 .f32) (xs xt : Vec F S4000x2 .f32) (r : Fin 4000) (k : Fin 2) :
    k21_pay1 xa xb xs xt (ix2 r k)
      = FloatOps.addf (FloatOps.mulf (FloatOps.mulf (xa (ix2 r (0 : Fin 1))) (xb (ix2 r (0 : Fin 1)))) (xs (ix2 r k))) (xt (ix2 r k)) := by
  rw [pay_eq]
  show FloatOps.addf (FloatOps.mulf (broadcastTo S4000x2 (mulf xa xb) broadcasts_S4000x1_S4000x2 (ix2 r k)) (xs (ix2 r k))) (xt (ix2 r k)) = _
  rw [broadcastTo_apply (mulf xa xb) broadcasts_S4000x1_S4000x2 (ix2 r k) (ix2 r (0 : Fin 1))
    (fun a => match a with | ⟨0, _⟩ => rfl | ⟨1, _⟩ => rfl)]
  rfl

/-- The printed index maps, decided over the grid: every window's block at point t is block t along the rows and the
    one block along the columns. -/
private theorem idx_facts : ∀ t : Fin cfg21.N, win21_0.index t (0 : Fin 2) = t.val ∧ win21_0.index t (1 : Fin 2) = 0
    ∧ win21_1.index t (0 : Fin 2) = t.val ∧ win21_1.index t (1 : Fin 2) = 0
    ∧ win21_2.index t (0 : Fin 2) = t.val ∧ win21_2.index t (1 : Fin 2) = 0
    ∧ win21_3.index t (0 : Fin 2) = t.val ∧ win21_3.index t (1 : Fin 2) = 0
    ∧ win21_4.index t (0 : Fin 2) = t.val ∧ win21_4.index t (1 : Fin 2) = 0 :=
  (by decide +kernel : ∀ t : Fin grid21.N, _)

/-- The grid has 1500 points. -/
private theorem grid_points : grid21.N = 1500 := by decide

/-- An index of the output array is in point t's block iff each coordinate is in the block's range on its axis. -/
private theorem mem_blk (t : Fin cfg21.N) (i : S6000000x2.Idx) :
    i ∈ ((cfg21.win 4).blk t).view.set ↔ ∀ a : Fin 2, win21_4.index t a * S4000x2.size a ≤ (i a).val ∧ (i a).val < win21_4.index t a * S4000x2.size a + S4000x2.size a := by
  show i ∈ ((View.whole (Pipeline.arrRef spec21 4)).slice (win21_4.rect t)).set ↔ _
  rw [View.set_slice_whole, Rect.mem_set_unit]
  exact Iff.rfl

/-- Every entry of the output array is in the block of the point that its row number divided by 4000 names. -/
private theorem covered (i : S6000000x2.Idx) : ∃ t : Fin cfg21.N, (cfg21.win 4).flush t = true ∧ i ∈ ((cfg21.win 4).blk t).view.set := by
  have hi0 : (i 0).val < 6000000 := idx2_lt0 i
  have hi1 : (i 1).val < 2 := idx2_lt1 i
  refine ⟨⟨(i 0).val / 4000, by show _ < grid21.N; rw [grid_points]; omega⟩, flush21_4 _, ?_⟩
  rw [mem_blk]
  obtain ⟨-, -, -, -, -, -, -, -, e0, e1⟩ := idx_facts ⟨(i 0).val / 4000, by show _ < grid21.N; rw [grid_points]; omega⟩
  intro a
  match a with
  | ⟨0, _⟩ => show win21_4.index _ (0 : Fin 2) * 4000 ≤ (i 0).val ∧ (i 0).val < win21_4.index _ (0 : Fin 2) * 4000 + 4000; rw [e0]; show (i 0).val / 4000 * 4000 ≤ _ ∧ _ < (i 0).val / 4000 * 4000 + 4000; omega
  | ⟨1, _⟩ => show win21_4.index _ (1 : Fin 2) * 2 ≤ (i 1).val ∧ (i 1).val < win21_4.index _ (1 : Fin 2) * 2 + 2; rw [e1]; omega

/-- The output's staging buffer after the body at row r, feature k: the body's arithmetic of the four blocks there. -/
private theorem out_at (xa xb : Vec F S4000x1 .f32) (xs xt : Vec F S4000x2 .f32) (r : Fin 4000) (k : Fin 2) :
    out21_4 xa xb xs xt (ix2 r k)
      = FloatOps.addf (FloatOps.mulf (FloatOps.mulf (xa (ix2 r (0 : Fin 1))) (xb (ix2 r (0 : Fin 1)))) (xs (ix2 r k))) (xt (ix2 r k)) := by
  unfold out21_4
  rw [View.canon_unit_zero zero_offsets]
  simp only [View.ld_unit_zero (S := S4000x1) zero_offsets, View.ld_unit_zero (S := S4000x2) zero_offsets]
  exact pay_at xa xb xs xt r k

/-- Row r of the first column's block at point t is the column's entry at the row of the output array that row r of the
    output's block is. -/
private theorem iblk_colA (c : Dev nD) (t : Fin cfg21.N) (r : Fin 4000) (k : Fin 2) :
    iblk21 V c 0 t (ix2 r (0 : Fin 1))
      = V c (Pipeline.arrRef spec21 0) (ix2 (n0 := 6000000) (n1 := 1) ((((cfg21.win 4).blk t).view.emb (ix2 r k)) 0) 0) := by
  obtain ⟨a0, a1, -, -, -, -, -, -, e0, -⟩ := idx_facts t
  show V c (Pipeline.arrRef spec21 0) (((cfg21.win 0).blk t).view.emb (ix2 r (0 : Fin 1))) = _
  refine congrArg (V c (Pipeline.arrRef spec21 0)) (funext fun a => Fin.ext ?_)
  match a with
  | ⟨0, _⟩ => show win21_0.index t (0 : Fin 2) * 4000 + 1 * r.val = win21_4.index t (0 : Fin 2) * 4000 + 1 * r.val; rw [a0, e0]
  | ⟨1, _⟩ => show win21_0.index t (1 : Fin 2) * 1 + 1 * 0 = 0; rw [a1]

/-- The same for the second column. -/
private theorem iblk_colB (c : Dev nD) (t : Fin cfg21.N) (r : Fin 4000) (k : Fin 2) :
    iblk21 V c 1 t (ix2 r (0 : Fin 1))
      = V c (Pipeline.arrRef spec21 1) (ix2 (n0 := 6000000) (n1 := 1) ((((cfg21.win 4).blk t).view.emb (ix2 r k)) 0) 0) := by
  obtain ⟨-, -, b0, b1, -, -, -, -, e0, -⟩ := idx_facts t
  show V c (Pipeline.arrRef spec21 1) (((cfg21.win 1).blk t).view.emb (ix2 r (0 : Fin 1))) = _
  refine congrArg (V c (Pipeline.arrRef spec21 1)) (funext fun a => Fin.ext ?_)
  match a with
  | ⟨0, _⟩ => show win21_1.index t (0 : Fin 2) * 4000 + 1 * r.val = win21_4.index t (0 : Fin 2) * 4000 + 1 * r.val; rw [b0, e0]
  | ⟨1, _⟩ => show win21_1.index t (1 : Fin 2) * 1 + 1 * 0 = 0; rw [b1]

/-- Entry (r, k) of the first feature array's block at point t is the array's entry where entry (r, k) of the output's
    block is. -/
private theorem iblk_featS (c : Dev nD) (t : Fin cfg21.N) (r : Fin 4000) (k : Fin 2) :
    iblk21 V c 2 t (ix2 r k) = V c (Pipeline.arrRef spec21 2) (((cfg21.win 4).blk t).view.emb (ix2 r k)) := by
  obtain ⟨-, -, -, -, c0, c1, -, -, e0, e1⟩ := idx_facts t
  show V c (Pipeline.arrRef spec21 2) (((cfg21.win 2).blk t).view.emb (ix2 r k)) = _
  refine congrArg (V c (Pipeline.arrRef spec21 2)) (funext fun a => Fin.ext ?_)
  match a with
  | ⟨0, _⟩ => show win21_2.index t (0 : Fin 2) * 4000 + 1 * r.val = win21_4.index t (0 : Fin 2) * 4000 + 1 * r.val; rw [c0, e0]
  | ⟨1, _⟩ => show win21_2.index t (1 : Fin 2) * 2 + 1 * k.val = win21_4.index t (1 : Fin 2) * 2 + 1 * k.val; rw [c1, e1]

/-- The same for the second feature array. -/
private theorem iblk_featT (c : Dev nD) (t : Fin cfg21.N) (r : Fin 4000) (k : Fin 2) :
    iblk21 V c 3 t (ix2 r k) = V c (Pipeline.arrRef spec21 3) (((cfg21.win 4).blk t).view.emb (ix2 r k)) := by
  obtain ⟨-, -, -, -, -, -, d0, d1, e0, e1⟩ := idx_facts t
  show V c (Pipeline.arrRef spec21 3) (((cfg21.win 3).blk t).view.emb (ix2 r k)) = _
  refine congrArg (V c (Pipeline.arrRef spec21 3)) (funext fun a => Fin.ext ?_)
  match a with
  | ⟨0, _⟩ => show win21_3.index t (0 : Fin 2) * 4000 + 1 * r.val = win21_4.index t (0 : Fin 2) * 4000 + 1 * r.val; rw [d0, e0]
  | ⟨1, _⟩ => show win21_3.index t (1 : Fin 2) * 2 + 1 * k.val = win21_4.index t (1 : Fin 2) * 2 + 1 * k.val; rw [d1, e1]

/-- What point t writes back is block t of msgG of the four input arrays as the region finds them. -/
private theorem flushed_eq (c : Dev nD) (t : Fin cfg21.N) :
    (dat21 V c).flushed 4 t = ((cfg21.win 4).blk t).view.read (Elt F)
      (msgG (n := 6000000) (V c (Pipeline.arrRef spec21 0)) (V c (Pipeline.arrRef spec21 1)) (V c (Pipeline.arrRef spec21 2)) (V c (Pipeline.arrRef spec21 3))) := by
  show (cfg21.win 4).cut (grid21.coords t) ((dat21 V c).after 4 t) = _
  rw [after21_4]
  funext j
  obtain ⟨r, k, rfl⟩ : ∃ (r : Fin 4000) (k : Fin 2), j = ix2 r k := ⟨j 0, j 1, eq_ix2 j⟩
  refine (out_at (iblk21 V c 0 t) (iblk21 V c 1 t) (iblk21 V c 2 t) (iblk21 V c 3 t) r k).trans ?_
  rw [iblk_colA V c t r k, iblk_colB V c t r k, iblk_featS V c t r k, iblk_featT V c t r k]
  rfl

/-- THE OUTPUT ARRAY after the region: msgG of the four input arrays as the region finds them, everywhere. -/
theorem final21 (c : Dev nD) : (dat21 V c).arrAt 4 cfg21.N
    = msgG (n := 6000000) (V c (Pipeline.arrRef spec21 0)) (V c (Pipeline.arrRef spec21 1)) (V c (Pipeline.arrRef spec21 2)) (V c (Pipeline.arrRef spec21 3)) :=
  (dat21 V c).arrAt_eq_of_cover 4 _ (fun t _ => flushed_eq V c t) covered

end Cert.KernelIdeal.Hand

end
-- ==== Proof.KI.Val22.lean ====
/-
  The message region's value: what its output array holds after the region, as ONE function of its four input arrays
  as the region finds them, at any float instance.

  At grid point t the body leaves in the output's staging buffer, at row r and feature k of the block,
      ((a[r,0] * b[r,0]) * xs[r,k]) + xt[r,k]
  of the four input blocks; every window's block at point t is rows [4000 t, 4000 t + 4000) of its array, so what point
  t writes back is block t of msgG of the four arrays; the 1500 blocks cover the 6000000 rows (row r is in block
  r / 4000), so the array ends holding msgG of the four arrays everywhere.
-/
import proofs.«149588_j66838281060723_2_alg».proof.Proof.KI.Body22
import proofs.«149588_j66838281060723_2_alg».proof.Proof.KI.GDefs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The zero offsets of a whole-block rectangle, however spelt. -/
private theorem zero_offsets : (![0, 0] : Fin 2 → Nat) = fun _ => 0 := funext fun a => by fin_cases a <;> rfl

/-- The body's arithmetic on whole blocks: the casts to the same shape are identities. -/
private theorem pay_eq (xa xb : Vec F S4000x1 .f32) (xs xt : Vec F S4000x2 .f32) :
    k22_pay1 xa xb xs xt = addf (mulf (broadcastTo S4000x2 (mulf xa xb) broadcasts_S4000x1_S4000x2) xs) xt := by
  unfold k22_pay1
  simp only [shapeCast_self]

/-- The body's arithmetic at row r, feature k of the block: the product of the two column entries of row r, times the
    first feature entry, plus the second. -/
private theorem pay_at (xa xb : Vec F S4000x1 .f32) (xs xt : Vec F S4000x2 .f32) (r : Fin 4000) (k : Fin 2) :
    k22_pay1 xa xb xs xt (ix2 r k)
      = FloatOps.addf (FloatOps.mulf (FloatOps.mulf (xa (ix2 r (0 : Fin 1))) (xb (ix2 r (0 : Fin 1)))) (xs (ix2 r k))) (xt (ix2 r k)) := by
  rw [pay_eq]
  show FloatOps.addf (FloatOps.mulf (broadcastTo S4000x2 (mulf xa xb) broadcasts_S4000x1_S4000x2 (ix2 r k)) (xs (ix2 r k))) (xt (ix2 r k)) = _
  rw [broadcastTo_apply (mulf xa xb) broadcasts_S4000x1_S4000x2 (ix2 r k) (ix2 r (0 : Fin 1))
    (fun a => match a with | ⟨0, _⟩ => rfl | ⟨1, _⟩ => rfl)]
  rfl

/-- The printed index maps, decided over the grid: every window's block at point t is block t along the rows and the
    one block along the columns. -/
private theorem idx_facts : ∀ t : Fin cfg22.N, win22_0.index t (0 : Fin 2) = t.val ∧ win22_0.index t (1 : Fin 2) = 0
    ∧ win22_1.index t (0 : Fin 2) = t.val ∧ win22_1.index t (1 : Fin 2) = 0
    ∧ win22_2.index t (0 : Fin 2) = t.val ∧ win22_2.index t (1 : Fin 2) = 0
    ∧ win22_3.index t (0 : Fin 2) = t.val ∧ win22_3.index t (1 : Fin 2) = 0
    ∧ win22_4.index t (0 : Fin 2) = t.val ∧ win22_4.index t (1 : Fin 2) = 0 :=
  (by decide +kernel : ∀ t : Fin grid22.N, _)

/-- The grid has 1500 points. -/
private theorem grid_points : grid22.N = 1500 := by decide

/-- An index of the output array is in point t's block iff each coordinate is in the block's range on its axis. -/
private theorem mem_blk (t : Fin cfg22.N) (i : S6000000x2.Idx) :
    i ∈ ((cfg22.win 4).blk t).view.set ↔ ∀ a : Fin 2, win22_4.index t a * S4000x2.size a ≤ (i a).val ∧ (i a).val < win22_4.index t a * S4000x2.size a + S4000x2.size a := by
  show i ∈ ((View.whole (Pipeline.arrRef spec22 4)).slice (win22_4.rect t)).set ↔ _
  rw [View.set_slice_whole, Rect.mem_set_unit]
  exact Iff.rfl

/-- Every entry of the output array is in the block of the point that its row number divided by 4000 names. -/
private theorem covered (i : S6000000x2.Idx) : ∃ t : Fin cfg22.N, (cfg22.win 4).flush t = true ∧ i ∈ ((cfg22.win 4).blk t).view.set := by
  have hi0 : (i 0).val < 6000000 := idx2_lt0 i
  have hi1 : (i 1).val < 2 := idx2_lt1 i
  refine ⟨⟨(i 0).val / 4000, by show _ < grid22.N; rw [grid_points]; omega⟩, flush22_4 _, ?_⟩
  rw [mem_blk]
  obtain ⟨-, -, -, -, -, -, -, -, e0, e1⟩ := idx_facts ⟨(i 0).val / 4000, by show _ < grid22.N; rw [grid_points]; omega⟩
  intro a
  match a with
  | ⟨0, _⟩ => show win22_4.index _ (0 : Fin 2) * 4000 ≤ (i 0).val ∧ (i 0).val < win22_4.index _ (0 : Fin 2) * 4000 + 4000; rw [e0]; show (i 0).val / 4000 * 4000 ≤ _ ∧ _ < (i 0).val / 4000 * 4000 + 4000; omega
  | ⟨1, _⟩ => show win22_4.index _ (1 : Fin 2) * 2 ≤ (i 1).val ∧ (i 1).val < win22_4.index _ (1 : Fin 2) * 2 + 2; rw [e1]; omega

/-- The output's staging buffer after the body at row r, feature k: the body's arithmetic of the four blocks there. -/
private theorem out_at (xa xb : Vec F S4000x1 .f32) (xs xt : Vec F S4000x2 .f32) (r : Fin 4000) (k : Fin 2) :
    out22_4 xa xb xs xt (ix2 r k)
      = FloatOps.addf (FloatOps.mulf (FloatOps.mulf (xa (ix2 r (0 : Fin 1))) (xb (ix2 r (0 : Fin 1)))) (xs (ix2 r k))) (xt (ix2 r k)) := by
  unfold out22_4
  rw [View.canon_unit_zero zero_offsets]
  simp only [View.ld_unit_zero (S := S4000x1) zero_offsets, View.ld_unit_zero (S := S4000x2) zero_offsets]
  exact pay_at xa xb xs xt r k

/-- Row r of the first column's block at point t is the column's entry at the row of the output array that row r of the
    output's block is. -/
private theorem iblk_colA (c : Dev nD) (t : Fin cfg22.N) (r : Fin 4000) (k : Fin 2) :
    iblk22 V c 0 t (ix2 r (0 : Fin 1))
      = V c (Pipeline.arrRef spec22 0) (ix2 (n0 := 6000000) (n1 := 1) ((((cfg22.win 4).blk t).view.emb (ix2 r k)) 0) 0) := by
  obtain ⟨a0, a1, -, -, -, -, -, -, e0, -⟩ := idx_facts t
  show V c (Pipeline.arrRef spec22 0) (((cfg22.win 0).blk t).view.emb (ix2 r (0 : Fin 1))) = _
  refine congrArg (V c (Pipeline.arrRef spec22 0)) (funext fun a => Fin.ext ?_)
  match a with
  | ⟨0, _⟩ => show win22_0.index t (0 : Fin 2) * 4000 + 1 * r.val = win22_4.index t (0 : Fin 2) * 4000 + 1 * r.val; rw [a0, e0]
  | ⟨1, _⟩ => show win22_0.index t (1 : Fin 2) * 1 + 1 * 0 = 0; rw [a1]

/-- The same for the second column. -/
private theorem iblk_colB (c : Dev nD) (t : Fin cfg22.N) (r : Fin 4000) (k : Fin 2) :
    iblk22 V c 1 t (ix2 r (0 : Fin 1))
      = V c (Pipeline.arrRef spec22 1) (ix2 (n0 := 6000000) (n1 := 1) ((((cfg22.win 4).blk t).view.emb (ix2 r k)) 0) 0) := by
  obtain ⟨-, -, b0, b1, -, -, -, -, e0, -⟩ := idx_facts t
  show V c (Pipeline.arrRef spec22 1) (((cfg22.win 1).blk t).view.emb (ix2 r (0 : Fin 1))) = _
  refine congrArg (V c (Pipeline.arrRef spec22 1)) (funext fun a => Fin.ext ?_)
  match a with
  | ⟨0, _⟩ => show win22_1.index t (0 : Fin 2) * 4000 + 1 * r.val = win22_4.index t (0 : Fin 2) * 4000 + 1 * r.val; rw [b0, e0]
  | ⟨1, _⟩ => show win22_1.index t (1 : Fin 2) * 1 + 1 * 0 = 0; rw [b1]

/-- Entry (r, k) of the first feature array's block at point t is the array's entry where entry (r, k) of the output's
    block is. -/
private theorem iblk_featS (c : Dev nD) (t : Fin cfg22.N) (r : Fin 4000) (k : Fin 2) :
    iblk22 V c 2 t (ix2 r k) = V c (Pipeline.arrRef spec22 2) (((cfg22.win 4).blk t).view.emb (ix2 r k)) := by
  obtain ⟨-, -, -, -, c0, c1, -, -, e0, e1⟩ := idx_facts t
  show V c (Pipeline.arrRef spec22 2) (((cfg22.win 2).blk t).view.emb (ix2 r k)) = _
  refine congrArg (V c (Pipeline.arrRef spec22 2)) (funext fun a => Fin.ext ?_)
  match a with
  | ⟨0, _⟩ => show win22_2.index t (0 : Fin 2) * 4000 + 1 * r.val = win22_4.index t (0 : Fin 2) * 4000 + 1 * r.val; rw [c0, e0]
  | ⟨1, _⟩ => show win22_2.index t (1 : Fin 2) * 2 + 1 * k.val = win22_4.index t (1 : Fin 2) * 2 + 1 * k.val; rw [c1, e1]

/-- The same for the second feature array. -/
private theorem iblk_featT (c : Dev nD) (t : Fin cfg22.N) (r : Fin 4000) (k : Fin 2) :
    iblk22 V c 3 t (ix2 r k) = V c (Pipeline.arrRef spec22 3) (((cfg22.win 4).blk t).view.emb (ix2 r k)) := by
  obtain ⟨-, -, -, -, -, -, d0, d1, e0, e1⟩ := idx_facts t
  show V c (Pipeline.arrRef spec22 3) (((cfg22.win 3).blk t).view.emb (ix2 r k)) = _
  refine congrArg (V c (Pipeline.arrRef spec22 3)) (funext fun a => Fin.ext ?_)
  match a with
  | ⟨0, _⟩ => show win22_3.index t (0 : Fin 2) * 4000 + 1 * r.val = win22_4.index t (0 : Fin 2) * 4000 + 1 * r.val; rw [d0, e0]
  | ⟨1, _⟩ => show win22_3.index t (1 : Fin 2) * 2 + 1 * k.val = win22_4.index t (1 : Fin 2) * 2 + 1 * k.val; rw [d1, e1]

/-- What point t writes back is block t of msgG of the four input arrays as the region finds them. -/
private theorem flushed_eq (c : Dev nD) (t : Fin cfg22.N) :
    (dat22 V c).flushed 4 t = ((cfg22.win 4).blk t).view.read (Elt F)
      (msgG (n := 6000000) (V c (Pipeline.arrRef spec22 0)) (V c (Pipeline.arrRef spec22 1)) (V c (Pipeline.arrRef spec22 2)) (V c (Pipeline.arrRef spec22 3))) := by
  show (cfg22.win 4).cut (grid22.coords t) ((dat22 V c).after 4 t) = _
  rw [after22_4]
  funext j
  obtain ⟨r, k, rfl⟩ : ∃ (r : Fin 4000) (k : Fin 2), j = ix2 r k := ⟨j 0, j 1, eq_ix2 j⟩
  refine (out_at (iblk22 V c 0 t) (iblk22 V c 1 t) (iblk22 V c 2 t) (iblk22 V c 3 t) r k).trans ?_
  rw [iblk_colA V c t r k, iblk_colB V c t r k, iblk_featS V c t r k, iblk_featT V c t r k]
  rfl

/-- THE OUTPUT ARRAY after the region: msgG of the four input arrays as the region finds them, everywhere. -/
theorem final22 (c : Dev nD) : (dat22 V c).arrAt 4 cfg22.N
    = msgG (n := 6000000) (V c (Pipeline.arrRef spec22 0)) (V c (Pipeline.arrRef spec22 1)) (V c (Pipeline.arrRef spec22 2)) (V c (Pipeline.arrRef spec22 3)) :=
  (dat22 V c).arrAt_eq_of_cover 4 _ (fun t _ => flushed_eq V c t) covered

end Cert.KernelIdeal.Hand

end
-- ==== Proof.KI.Val23.lean ====
/-
  The message region's value: what its output array holds after the region, as ONE function of its four input arrays
  as the region finds them, at any float instance.

  At grid point t the body leaves in the output's staging buffer, at row r and feature k of the block,
      ((a[r,0] * b[r,0]) * xs[r,k]) + xt[r,k]
  of the four input blocks; every window's block at point t is rows [4000 t, 4000 t + 4000) of its array, so what point
  t writes back is block t of msgG of the four arrays; the 1500 blocks cover the 6000000 rows (row r is in block
  r / 4000), so the array ends holding msgG of the four arrays everywhere.
-/
import proofs.«149588_j66838281060723_2_alg».proof.Proof.KI.Body23
import proofs.«149588_j66838281060723_2_alg».proof.Proof.KI.GDefs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The zero offsets of a whole-block rectangle, however spelt. -/
private theorem zero_offsets : (![0, 0] : Fin 2 → Nat) = fun _ => 0 := funext fun a => by fin_cases a <;> rfl

/-- The body's arithmetic on whole blocks: the casts to the same shape are identities. -/
private theorem pay_eq (xa xb : Vec F S4000x1 .f32) (xs xt : Vec F S4000x2 .f32) :
    k23_pay1 xa xb xs xt = addf (mulf (broadcastTo S4000x2 (mulf xa xb) broadcasts_S4000x1_S4000x2) xs) xt := by
  unfold k23_pay1
  simp only [shapeCast_self]

/-- The body's arithmetic at row r, feature k of the block: the product of the two column entries of row r, times the
    first feature entry, plus the second. -/
private theorem pay_at (xa xb : Vec F S4000x1 .f32) (xs xt : Vec F S4000x2 .f32) (r : Fin 4000) (k : Fin 2) :
    k23_pay1 xa xb xs xt (ix2 r k)
      = FloatOps.addf (FloatOps.mulf (FloatOps.mulf (xa (ix2 r (0 : Fin 1))) (xb (ix2 r (0 : Fin 1)))) (xs (ix2 r k))) (xt (ix2 r k)) := by
  rw [pay_eq]
  show FloatOps.addf (FloatOps.mulf (broadcastTo S4000x2 (mulf xa xb) broadcasts_S4000x1_S4000x2 (ix2 r k)) (xs (ix2 r k))) (xt (ix2 r k)) = _
  rw [broadcastTo_apply (mulf xa xb) broadcasts_S4000x1_S4000x2 (ix2 r k) (ix2 r (0 : Fin 1))
    (fun a => match a with | ⟨0, _⟩ => rfl | ⟨1, _⟩ => rfl)]
  rfl

/-- The printed index maps, decided over the grid: every window's block at point t is block t along the rows and the
    one block along the columns. -/
private theorem idx_facts : ∀ t : Fin cfg23.N, win23_0.index t (0 : Fin 2) = t.val ∧ win23_0.index t (1 : Fin 2) = 0
    ∧ win23_1.index t (0 : Fin 2) = t.val ∧ win23_1.index t (1 : Fin 2) = 0
    ∧ win23_2.index t (0 : Fin 2) = t.val ∧ win23_2.index t (1 : Fin 2) = 0
    ∧ win23_3.index t (0 : Fin 2) = t.val ∧ win23_3.index t (1 : Fin 2) = 0
    ∧ win23_4.index t (0 : Fin 2) = t.val ∧ win23_4.index t (1 : Fin 2) = 0 :=
  (by decide +kernel : ∀ t : Fin grid23.N, _)

/-- The grid has 1500 points. -/
private theorem grid_points : grid23.N = 1500 := by decide

/-- An index of the output array is in point t's block iff each coordinate is in the block's range on its axis. -/
private theorem mem_blk (t : Fin cfg23.N) (i : S6000000x2.Idx) :
    i ∈ ((cfg23.win 4).blk t).view.set ↔ ∀ a : Fin 2, win23_4.index t a * S4000x2.size a ≤ (i a).val ∧ (i a).val < win23_4.index t a * S4000x2.size a + S4000x2.size a := by
  show i ∈ ((View.whole (Pipeline.arrRef spec23 4)).slice (win23_4.rect t)).set ↔ _
  rw [View.set_slice_whole, Rect.mem_set_unit]
  exact Iff.rfl

/-- Every entry of the output array is in the block of the point that its row number divided by 4000 names. -/
private theorem covered (i : S6000000x2.Idx) : ∃ t : Fin cfg23.N, (cfg23.win 4).flush t = true ∧ i ∈ ((cfg23.win 4).blk t).view.set := by
  have hi0 : (i 0).val < 6000000 := idx2_lt0 i
  have hi1 : (i 1).val < 2 := idx2_lt1 i
  refine ⟨⟨(i 0).val / 4000, by show _ < grid23.N; rw [grid_points]; omega⟩, flush23_4 _, ?_⟩
  rw [mem_blk]
  obtain ⟨-, -, -, -, -, -, -, -, e0, e1⟩ := idx_facts ⟨(i 0).val / 4000, by show _ < grid23.N; rw [grid_points]; omega⟩
  intro a
  match a with
  | ⟨0, _⟩ => show win23_4.index _ (0 : Fin 2) * 4000 ≤ (i 0).val ∧ (i 0).val < win23_4.index _ (0 : Fin 2) * 4000 + 4000; rw [e0]; show (i 0).val / 4000 * 4000 ≤ _ ∧ _ < (i 0).val / 4000 * 4000 + 4000; omega
  | ⟨1, _⟩ => show win23_4.index _ (1 : Fin 2) * 2 ≤ (i 1).val ∧ (i 1).val < win23_4.index _ (1 : Fin 2) * 2 + 2; rw [e1]; omega

/-- The output's staging buffer after the body at row r, feature k: the body's arithmetic of the four blocks there. -/
private theorem out_at (xa xb : Vec F S4000x1 .f32) (xs xt : Vec F S4000x2 .f32) (r : Fin 4000) (k : Fin 2) :
    out23_4 xa xb xs xt (ix2 r k)
      = FloatOps.addf (FloatOps.mulf (FloatOps.mulf (xa (ix2 r (0 : Fin 1))) (xb (ix2 r (0 : Fin 1)))) (xs (ix2 r k))) (xt (ix2 r k)) := by
  unfold out23_4
  rw [View.canon_unit_zero zero_offsets]
  simp only [View.ld_unit_zero (S := S4000x1) zero_offsets, View.ld_unit_zero (S := S4000x2) zero_offsets]
  exact pay_at xa xb xs xt r k

/-- Row r of the first column's block at point t is the column's entry at the row of the output array that row r of the
    output's block is. -/
private theorem iblk_colA (c : Dev nD) (t : Fin cfg23.N) (r : Fin 4000) (k : Fin 2) :
    iblk23 V c 0 t (ix2 r (0 : Fin 1))
      = V c (Pipeline.arrRef spec23 0) (ix2 (n0 := 6000000) (n1 := 1) ((((cfg23.win 4).blk t).view.emb (ix2 r k)) 0) 0) := by
  obtain ⟨a0, a1, -, -, -, -, -, -, e0, -⟩ := idx_facts t
  show V c (Pipeline.arrRef spec23 0) (((cfg23.win 0).blk t).view.emb (ix2 r (0 : Fin 1))) = _
  refine congrArg (V c (Pipeline.arrRef spec23 0)) (funext fun a => Fin.ext ?_)
  match a with
  | ⟨0, _⟩ => show win23_0.index t (0 : Fin 2) * 4000 + 1 * r.val = win23_4.index t (0 : Fin 2) * 4000 + 1 * r.val; rw [a0, e0]
  | ⟨1, _⟩ => show win23_0.index t (1 : Fin 2) * 1 + 1 * 0 = 0; rw [a1]

/-- The same for the second column. -/
private theorem iblk_colB (c : Dev nD) (t : Fin cfg23.N) (r : Fin 4000) (k : Fin 2) :
    iblk23 V c 1 t (ix2 r (0 : Fin 1))
      = V c (Pipeline.arrRef spec23 1) (ix2 (n0 := 6000000) (n1 := 1) ((((cfg23.win 4).blk t).view.emb (ix2 r k)) 0) 0) := by
  obtain ⟨-, -, b0, b1, -, -, -, -, e0, -⟩ := idx_facts t
  show V c (Pipeline.arrRef spec23 1) (((cfg23.win 1).blk t).view.emb (ix2 r (0 : Fin 1))) = _
  refine congrArg (V c (Pipeline.arrRef spec23 1)) (funext fun a => Fin.ext ?_)
  match a with
  | ⟨0, _⟩ => show win23_1.index t (0 : Fin 2) * 4000 + 1 * r.val = win23_4.index t (0 : Fin 2) * 4000 + 1 * r.val; rw [b0, e0]
  | ⟨1, _⟩ => show win23_1.index t (1 : Fin 2) * 1 + 1 * 0 = 0; rw [b1]

/-- Entry (r, k) of the first feature array's block at point t is the array's entry where entry (r, k) of the output's
    block is. -/
private theorem iblk_featS (c : Dev nD) (t : Fin cfg23.N) (r : Fin 4000) (k : Fin 2) :
    iblk23 V c 2 t (ix2 r k) = V c (Pipeline.arrRef spec23 2) (((cfg23.win 4).blk t).view.emb (ix2 r k)) := by
  obtain ⟨-, -, -, -, c0, c1, -, -, e0, e1⟩ := idx_facts t
  show V c (Pipeline.arrRef spec23 2) (((cfg23.win 2).blk t).view.emb (ix2 r k)) = _
  refine congrArg (V c (Pipeline.arrRef spec23 2)) (funext fun a => Fin.ext ?_)
  match a with
  | ⟨0, _⟩ => show win23_2.index t (0 : Fin 2) * 4000 + 1 * r.val = win23_4.index t (0 : Fin 2) * 4000 + 1 * r.val; rw [c0, e0]
  | ⟨1, _⟩ => show win23_2.index t (1 : Fin 2) * 2 + 1 * k.val = win23_4.index t (1 : Fin 2) * 2 + 1 * k.val; rw [c1, e1]

/-- The same for the second feature array. -/
private theorem iblk_featT (c : Dev nD) (t : Fin cfg23.N) (r : Fin 4000) (k : Fin 2) :
    iblk23 V c 3 t (ix2 r k) = V c (Pipeline.arrRef spec23 3) (((cfg23.win 4).blk t).view.emb (ix2 r k)) := by
  obtain ⟨-, -, -, -, -, -, d0, d1, e0, e1⟩ := idx_facts t
  show V c (Pipeline.arrRef spec23 3) (((cfg23.win 3).blk t).view.emb (ix2 r k)) = _
  refine congrArg (V c (Pipeline.arrRef spec23 3)) (funext fun a => Fin.ext ?_)
  match a with
  | ⟨0, _⟩ => show win23_3.index t (0 : Fin 2) * 4000 + 1 * r.val = win23_4.index t (0 : Fin 2) * 4000 + 1 * r.val; rw [d0, e0]
  | ⟨1, _⟩ => show win23_3.index t (1 : Fin 2) * 2 + 1 * k.val = win23_4.index t (1 : Fin 2) * 2 + 1 * k.val; rw [d1, e1]

/-- What point t writes back is block t of msgG of the four input arrays as the region finds them. -/
private theorem flushed_eq (c : Dev nD) (t : Fin cfg23.N) :
    (dat23 V c).flushed 4 t = ((cfg23.win 4).blk t).view.read (Elt F)
      (msgG (n := 6000000) (V c (Pipeline.arrRef spec23 0)) (V c (Pipeline.arrRef spec23 1)) (V c (Pipeline.arrRef spec23 2)) (V c (Pipeline.arrRef spec23 3))) := by
  show (cfg23.win 4).cut (grid23.coords t) ((dat23 V c).after 4 t) = _
  rw [after23_4]
  funext j
  obtain ⟨r, k, rfl⟩ : ∃ (r : Fin 4000) (k : Fin 2), j = ix2 r k := ⟨j 0, j 1, eq_ix2 j⟩
  refine (out_at (iblk23 V c 0 t) (iblk23 V c 1 t) (iblk23 V c 2 t) (iblk23 V c 3 t) r k).trans ?_
  rw [iblk_colA V c t r k, iblk_colB V c t r k, iblk_featS V c t r k, iblk_featT V c t r k]
  rfl

/-- THE OUTPUT ARRAY after the region: msgG of the four input arrays as the region finds them, everywhere. -/
theorem final23 (c : Dev nD) : (dat23 V c).arrAt 4 cfg23.N
    = msgG (n := 6000000) (V c (Pipeline.arrRef spec23 0)) (V c (Pipeline.arrRef spec23 1)) (V c (Pipeline.arrRef spec23 2)) (V c (Pipeline.arrRef spec23 3)) :=
  (dat23 V c).arrAt_eq_of_cover 4 _ (fun t _ => flushed_eq V c t) covered

end Cert.KernelIdeal.Hand

end
-- ==== Proof.KI.Val24.lean ====
/-
  The affine region at six input columns (pallas_call 24): the value of its output array after the region, as one
  function of the three arrays it reads, index by index.

  Point t writes back the rows [10000 t, 10000 t + 10000) of the output; at row r of the block and column j the body
  stored ((((((0 + x[r,0] * w[0,j]) + x[r,1] * w[1,j]) + x[r,2] * w[2,j]) + x[r,3] * w[3,j]) + x[r,4] * w[4,j])
  + x[r,5] * w[5,j]) + b[0,j] of its staging buffers, which hold the rows [10000 t, 10000 t + 10000) of the input and
  the whole weight matrix and bias row. So what point t writes back is block t of the affine function of the three
  arrays; the 50 blocks tile the output array (row r is in block r / 10000), so the array ends holding that function
  everywhere.
-/
import proofs.«149588_j66838281060723_2_alg».proof.Proof.KI.Body24
import proofs.«149588_j66838281060723_2_alg».proof.Proof.KI.AffG
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

-- the TensorCore's buffer contents when the region is entered
variable (V : (c : Dev nD) → (b : Ref sig .tc) → Buf (Elt F) ((c : Thread nD τ).loc b))

theorem hz24 : (![0, 0] : Fin 2 → Nat) = fun _ => 0 := funext fun a => by fin_cases a <;> rfl

/-- Input column k, broadcast along the two output columns, read at an index: the input at the index's row and column k. -/
theorem xcol24 (x0 : Vec F S10000x6 .f32) (off : Fin 2 → Nat) (h : S10000x6.Slices off S10000x1) (k : Fin 6)
    (h0 : off 0 = 0) (h1 : off 1 = k.val) (j : S10000x2.Idx) :
    broadcastTo S10000x2 (extractStridedSlice S10000x1 off x0 h) broadcasts_S10000x1_S10000x2 j
      = x0 (ix2 (n0 := 10000) (n1 := 6) (j 0) k) := by
  rw [broadcastTo_apply _ _ j (ix2 (n0 := 10000) (n1 := 1) (j 0) 0) (fun a => by match a with | ⟨0, _⟩ => rfl | ⟨1, _⟩ => rfl)]
  exact extractStridedSlice_apply off x0 h (ix2 (n0 := 10000) (n1 := 1) (j 0) 0) (ix2 (n0 := 10000) (n1 := 6) (j 0) k) (fun a => by
    match a with
    | ⟨0, _⟩ => show (j 0).val = off 0 + (j 0).val; omega
    | ⟨1, _⟩ => show k.val = off 1 + 0; omega)

/-- Weight row k, broadcast along the rows, read at an index: the weight at row k and the index's column. -/
theorem wrow24 (x1 : Vec F S6x2 .f32) (off : Fin 2 → Nat) (h : S6x2.Slices off S1x2) (k : Fin 6)
    (h0 : off 0 = k.val) (h1 : off 1 = 0) (j : S10000x2.Idx) :
    broadcastTo S10000x2 (extractStridedSlice S1x2 off x1 h) broadcasts_S1x2_S10000x2 j
      = x1 (ix2 (n0 := 6) (n1 := 2) k (j 1)) := by
  rw [broadcastTo_apply _ _ j (ix2 (n0 := 1) (n1 := 2) 0 (j 1)) (fun a => by match a with | ⟨0, _⟩ => rfl | ⟨1, _⟩ => rfl)]
  exact extractStridedSlice_apply off x1 h (ix2 (n0 := 1) (n1 := 2) 0 (j 1)) (ix2 (n0 := 6) (n1 := 2) k (j 1)) (fun a => by
    match a with
    | ⟨0, _⟩ => show k.val = off 0 + 0; omega
    | ⟨1, _⟩ => show (j 1).val = off 1 + (j 1).val; omega)

/-- The body's payload at an index: the kernel's order of operations on the elements the slices and broadcasts read. -/
theorem pay24_apply (x0 : Vec F S10000x6 .f32) (x1 : Vec F S6x2 .f32) (x2 : Vec F S1x2 .f32) (j : S10000x2.Idx) :
    k24_pay1 x0 x1 x2 j = FloatOps.addf (FloatOps.addf (FloatOps.addf (FloatOps.addf (FloatOps.addf (FloatOps.addf (FloatOps.addf (Scalar.ofBits (F := F) .f32 0x00000000#32)
      (FloatOps.mulf (x0 (ix2 (n0 := 10000) (n1 := 6) (j 0) 0)) (x1 (ix2 (n0 := 6) (n1 := 2) 0 (j 1)))))
      (FloatOps.mulf (x0 (ix2 (n0 := 10000) (n1 := 6) (j 0) 1)) (x1 (ix2 (n0 := 6) (n1 := 2) 1 (j 1)))))
      (FloatOps.mulf (x0 (ix2 (n0 := 10000) (n1 := 6) (j 0) 2)) (x1 (ix2 (n0 := 6) (n1 := 2) 2 (j 1)))))
      (FloatOps.mulf (x0 (ix2 (n0 := 10000) (n1 := 6) (j 0) 3)) (x1 (ix2 (n0 := 6) (n1 := 2) 3 (j 1)))))
      (FloatOps.mulf (x0 (ix2 (n0 := 10000) (n1 := 6) (j 0) 4)) (x1 (ix2 (n0 := 6) (n1 := 2) 4 (j 1)))))
      (FloatOps.mulf (x0 (ix2 (n0 := 10000) (n1 := 6) (j 0) 5)) (x1 (ix2 (n0 := 6) (n1 := 2) 5 (j 1)))))
      (x2 (ix2 (n0 := 1) (n1 := 2) 0 (j 1))) := by
  unfold k24_pay1
  show FloatOps.addf (FloatOps.addf (FloatOps.addf (FloatOps.addf (FloatOps.addf (FloatOps.addf (FloatOps.addf (Scalar.ofBits (F := F) .f32 0x00000000#32)
      (FloatOps.mulf (broadcastTo S10000x2 (extractStridedSlice S10000x1 ![0, 0] (shapeCast S10000x6 x0 shapeCasts_S10000x6_S10000x6) slices_S10000x6_o0_0_S10000x1) broadcasts_S10000x1_S10000x2 j)
        (broadcastTo S10000x2 (extractStridedSlice S1x2 ![0, 0] (shapeCast S6x2 x1 shapeCasts_S6x2_S6x2) slices_S6x2_o0_0_S1x2) broadcasts_S1x2_S10000x2 j)))
      (FloatOps.mulf (broadcastTo S10000x2 (extractStridedSlice S10000x1 ![0, 1] (shapeCast S10000x6 x0 shapeCasts_S10000x6_S10000x6) slices_S10000x6_o0_1_S10000x1) broadcasts_S10000x1_S10000x2 j)
        (broadcastTo S10000x2 (extractStridedSlice S1x2 ![1, 0] (shapeCast S6x2 x1 shapeCasts_S6x2_S6x2) slices_S6x2_o1_0_S1x2) broadcasts_S1x2_S10000x2 j)))
      (FloatOps.mulf (broadcastTo S10000x2 (extractStridedSlice S10000x1 ![0, 2] (shapeCast S10000x6 x0 shapeCasts_S10000x6_S10000x6) slices_S10000x6_o0_2_S10000x1) broadcasts_S10000x1_S10000x2 j)
        (broadcastTo S10000x2 (extractStridedSlice S1x2 ![2, 0] (shapeCast S6x2 x1 shapeCasts_S6x2_S6x2) slices_S6x2_o2_0_S1x2) broadcasts_S1x2_S10000x2 j)))
      (FloatOps.mulf (broadcastTo S10000x2 (extractStridedSlice S10000x1 ![0, 3] (shapeCast S10000x6 x0 shapeCasts_S10000x6_S10000x6) slices_S10000x6_o0_3_S10000x1) broadcasts_S10000x1_S10000x2 j)
        (broadcastTo S10000x2 (extractStridedSlice S1x2 ![3, 0] (shapeCast S6x2 x1 shapeCasts_S6x2_S6x2) slices_S6x2_o3_0_S1x2) broadcasts_S1x2_S10000x2 j)))
      (FloatOps.mulf (broadcastTo S10000x2 (extractStridedSlice S10000x1 ![0, 4] (shapeCast S10000x6 x0 shapeCasts_S10000x6_S10000x6) slices_S10000x6_o0_4_S10000x1) broadcasts_S10000x1_S10000x2 j)
        (broadcastTo S10000x2 (extractStridedSlice S1x2 ![4, 0] (shapeCast S6x2 x1 shapeCasts_S6x2_S6x2) slices_S6x2_o4_0_S1x2) broadcasts_S1x2_S10000x2 j)))
      (FloatOps.mulf (broadcastTo S10000x2 (extractStridedSlice S10000x1 ![0, 5] (shapeCast S10000x6 x0 shapeCasts_S10000x6_S10000x6) slices_S10000x6_o0_5_S10000x1) broadcasts_S10000x1_S10000x2 j)
        (broadcastTo S10000x2 (extractStridedSlice S1x2 ![5, 0] (shapeCast S6x2 x1 shapeCasts_S6x2_S6x2) slices_S6x2_o5_0_S1x2) broadcasts_S1x2_S10000x2 j)))
      (broadcastTo S10000x2 (shapeCast S1x2 x2 shapeCasts_S1x2_S1x2) broadcasts_S1x2_S10000x2 j) = _
  rw [shapeCast_self, shapeCast_self, shapeCast_self,
    xcol24 x0 ![0, 0] slices_S10000x6_o0_0_S10000x1 0 rfl rfl j, wrow24 x1 ![0, 0] slices_S6x2_o0_0_S1x2 0 rfl rfl j,
    xcol24 x0 ![0, 1] slices_S10000x6_o0_1_S10000x1 1 rfl rfl j, wrow24 x1 ![1, 0] slices_S6x2_o1_0_S1x2 1 rfl rfl j,
    xcol24 x0 ![0, 2] slices_S10000x6_o0_2_S10000x1 2 rfl rfl j, wrow24 x1 ![2, 0] slices_S6x2_o2_0_S1x2 2 rfl rfl j,
    xcol24 x0 ![0, 3] slices_S10000x6_o0_3_S10000x1 3 rfl rfl j, wrow24 x1 ![3, 0] slices_S6x2_o3_0_S1x2 3 rfl rfl j,
    xcol24 x0 ![0, 4] slices_S10000x6_o0_4_S10000x1 4 rfl rfl j, wrow24 x1 ![4, 0] slices_S6x2_o4_0_S1x2 4 rfl rfl j,
    xcol24 x0 ![0, 5] slices_S10000x6_o0_5_S10000x1 5 rfl rfl j, wrow24 x1 ![5, 0] slices_S6x2_o5_0_S1x2 5 rfl rfl j,
    broadcastTo_apply x2 _ j (ix2 (n0 := 1) (n1 := 2) 0 (j 1)) (fun a => by match a with | ⟨0, _⟩ => rfl | ⟨1, _⟩ => rfl)]

/-- The index maps, decided over the grid: the input's and the output's row block is the point's number, and every
    other block index is zero. -/
theorem idx_facts24 : ∀ t : Fin cfg24.N,
    win24_0.index t (0 : Fin 2) = t.val ∧ win24_0.index t (1 : Fin 2) = 0
    ∧ win24_1.index t (0 : Fin 2) = 0 ∧ win24_1.index t (1 : Fin 2) = 0
    ∧ win24_2.index t (0 : Fin 2) = 0 ∧ win24_2.index t (1 : Fin 2) = 0
    ∧ win24_3.index t (0 : Fin 2) = t.val ∧ win24_3.index t (1 : Fin 2) = 0 :=
  (by decide +kernel : ∀ t : Fin grid24.N, _)

/-- Where the blocks sit in their arrays: at point t the element of the input block at (row, column k) is the input
    array's element at the row of the output block's element and column k, -/
theorem embx24 (t : Fin cfg24.N) (j : S10000x2.Idx) (k : Fin 6) :
    ((cfg24.win 0).blk t).view.emb (ix2 (n0 := 10000) (n1 := 6) (j 0) k)
      = ix2 (n0 := 500000) (n1 := 6) ((((cfg24.win 3).blk t).view.emb j) 0) k := by
  obtain ⟨e0, e1, e2, e3, e4, e5, e6, e7⟩ := idx_facts24 t
  funext a; apply Fin.ext
  match a with
  | ⟨0, _⟩ => show win24_0.index t (0 : Fin 2) * 10000 + 1 * (j 0).val = win24_3.index t (0 : Fin 2) * 10000 + 1 * (j 0).val; omega
  | ⟨1, _⟩ => show win24_0.index t (1 : Fin 2) * 6 + 1 * k.val = k.val; omega
/-- the element of the weight block at (k, column) is the weight array's at k and the output element's column, -/
theorem embw24 (t : Fin cfg24.N) (j : S10000x2.Idx) (k : Fin 6) :
    ((cfg24.win 1).blk t).view.emb (ix2 (n0 := 6) (n1 := 2) k (j 1))
      = ix2 (n0 := 6) (n1 := 2) k ((((cfg24.win 3).blk t).view.emb j) 1) := by
  obtain ⟨e0, e1, e2, e3, e4, e5, e6, e7⟩ := idx_facts24 t
  funext a; apply Fin.ext
  match a with
  | ⟨0, _⟩ => show win24_1.index t (0 : Fin 2) * 6 + 1 * k.val = k.val; omega
  | ⟨1, _⟩ => show win24_1.index t (1 : Fin 2) * 2 + 1 * (j 1).val = win24_3.index t (1 : Fin 2) * 2 + 1 * (j 1).val; omega
/-- and the element of the bias block at (0, column) is the bias array's at the output element's column. -/
theorem embb24 (t : Fin cfg24.N) (j : S10000x2.Idx) :
    ((cfg24.win 2).blk t).view.emb (ix2 (n0 := 1) (n1 := 2) 0 (j 1))
      = ix2 (n0 := 1) (n1 := 2) 0 ((((cfg24.win 3).blk t).view.emb j) 1) := by
  obtain ⟨e0, e1, e2, e3, e4, e5, e6, e7⟩ := idx_facts24 t
  funext a; apply Fin.ext
  match a with
  | ⟨0, _⟩ => show win24_2.index t (0 : Fin 2) * 1 + 1 * 0 = 0; omega
  | ⟨1, _⟩ => show win24_2.index t (1 : Fin 2) * 2 + 1 * (j 1).val = win24_3.index t (1 : Fin 2) * 2 + 1 * (j 1).val; omega

set_option maxHeartbeats 1000000 in
/-- What point t writes back is block t of the affine function of the three arrays as the region finds them. -/
theorem flushed24_eq (c : Dev nD) (t : Fin cfg24.N) :
    (dat24 V c).flushed 3 t = ((cfg24.win 3).blk t).view.read (Elt F)
      (aff6G (n := 500000) (V c (Pipeline.arrRef spec24 0)) (V c (Pipeline.arrRef spec24 1)) (V c (Pipeline.arrRef spec24 2))) := by
  show (cfg24.win 3).cut (grid24.coords t) ((dat24 V c).after 3 t) = _
  rw [after24_3]
  unfold out24_3
  rw [View.canon_unit_zero hz24]
  simp only [View.ld_unit_zero (S := S10000x6) hz24, View.ld_unit_zero (S := S6x2) hz24, View.ld_unit_zero (S := S1x2) hz24]
  funext j
  show k24_pay1 (iblk24 V c 0 t) (iblk24 V c 1 t) (iblk24 V c 2 t) j
    = aff6G (n := 500000) (V c (Pipeline.arrRef spec24 0)) (V c (Pipeline.arrRef spec24 1)) (V c (Pipeline.arrRef spec24 2)) (((cfg24.win 3).blk t).view.emb j)
  rw [pay24_apply]
  show FloatOps.addf (FloatOps.addf (FloatOps.addf (FloatOps.addf (FloatOps.addf (FloatOps.addf (FloatOps.addf (Scalar.ofBits (F := F) .f32 0x00000000#32)
      (FloatOps.mulf (V c (Pipeline.arrRef spec24 0) (((cfg24.win 0).blk t).view.emb (ix2 (n0 := 10000) (n1 := 6) (j 0) 0)))
        (V c (Pipeline.arrRef spec24 1) (((cfg24.win 1).blk t).view.emb (ix2 (n0 := 6) (n1 := 2) 0 (j 1))))))
      (FloatOps.mulf (V c (Pipeline.arrRef spec24 0) (((cfg24.win 0).blk t).view.emb (ix2 (n0 := 10000) (n1 := 6) (j 0) 1)))
        (V c (Pipeline.arrRef spec24 1) (((cfg24.win 1).blk t).view.emb (ix2 (n0 := 6) (n1 := 2) 1 (j 1))))))
      (FloatOps.mulf (V c (Pipeline.arrRef spec24 0) (((cfg24.win 0).blk t).view.emb (ix2 (n0 := 10000) (n1 := 6) (j 0) 2)))
        (V c (Pipeline.arrRef spec24 1) (((cfg24.win 1).blk t).view.emb (ix2 (n0 := 6) (n1 := 2) 2 (j 1))))))
      (FloatOps.mulf (V c (Pipeline.arrRef spec24 0) (((cfg24.win 0).blk t).view.emb (ix2 (n0 := 10000) (n1 := 6) (j 0) 3)))
        (V c (Pipeline.arrRef spec24 1) (((cfg24.win 1).blk t).view.emb (ix2 (n0 := 6) (n1 := 2) 3 (j 1))))))
      (FloatOps.mulf (V c (Pipeline.arrRef spec24 0) (((cfg24.win 0).blk t).view.emb (ix2 (n0 := 10000) (n1 := 6) (j 0) 4)))
        (V c (Pipeline.arrRef spec24 1) (((cfg24.win 1).blk t).view.emb (ix2 (n0 := 6) (n1 := 2) 4 (j 1))))))
      (FloatOps.mulf (V c (Pipeline.arrRef spec24 0) (((cfg24.win 0).blk t).view.emb (ix2 (n0 := 10000) (n1 := 6) (j 0) 5)))
        (V c (Pipeline.arrRef spec24 1) (((cfg24.win 1).blk t).view.emb (ix2 (n0 := 6) (n1 := 2) 5 (j 1))))))
      (V c (Pipeline.arrRef spec24 2) (((cfg24.win 2).blk t).view.emb (ix2 (n0 := 1) (n1 := 2) 0 (j 1)))) = _
  rw [embx24 t j 0, embx24 t j 1, embx24 t j 2, embx24 t j 3, embx24 t j 4, embx24 t j 5,
    embw24 t j 0, embw24 t j 1, embw24 t j 2, embw24 t j 3, embw24 t j 4, embw24 t j 5, embb24 t j]

/-- An index of the output array is in point t's block iff each coordinate is in the block's range on its axis. -/
theorem mem_blk24 (t : Fin cfg24.N) (i : S500000x2.Idx) :
    i ∈ ((cfg24.win 3).blk t).view.set ↔ ∀ a : Fin 2, win24_3.index t a * S10000x2.size a ≤ (i a).val ∧ (i a).val < win24_3.index t a * S10000x2.size a + S10000x2.size a := by
  show i ∈ ((View.whole (Pipeline.arrRef spec24 3)).slice (win24_3.rect t)).set ↔ _
  rw [View.set_slice_whole, Rect.mem_set_unit]
  exact Iff.rfl

/-- Every index of the output array is in some point's block: row r is in block r / 10000. -/
theorem cover24 (i : S500000x2.Idx) :
    ∃ t : Fin cfg24.N, (cfg24.win 3).flush t = true ∧ i ∈ ((cfg24.win 3).blk t).view.set := by
  have hi0 : (i 0).val < 500000 := (i 0).isLt
  have hi1 : (i 1).val < 2 := (i 1).isLt
  have hN : (i 0).val / 10000 < cfg24.N := by
    have hg := N_24
    show (i 0).val / 10000 < grid24.N
    omega
  obtain ⟨t, ht⟩ : ∃ t : Fin cfg24.N, t.val = (i 0).val / 10000 := ⟨⟨_, hN⟩, rfl⟩
  obtain ⟨e0, e1, e2, e3, e4, e5, e6, e7⟩ := idx_facts24 t
  refine ⟨t, flush24_3 t, ?_⟩
  rw [mem_blk24]
  intro a
  match a with
  | ⟨0, _⟩ => show win24_3.index t (0 : Fin 2) * 10000 ≤ (i 0).val ∧ (i 0).val < win24_3.index t (0 : Fin 2) * 10000 + 10000; omega
  | ⟨1, _⟩ => show win24_3.index t (1 : Fin 2) * 2 ≤ (i 1).val ∧ (i 1).val < win24_3.index t (1 : Fin 2) * 2 + 2; omega

/-- The output array after the region: the affine function of the three arrays the region reads. -/
theorem final24 (c : Dev nD) : (dat24 V c).arrAt 3 cfg24.N
    = aff6G (n := 500000) (V c (Pipeline.arrRef spec24 0)) (V c (Pipeline.arrRef spec24 1)) (V c (Pipeline.arrRef spec24 2)) :=
  (dat24 V c).arrAt_eq_of_cover 3 _ (fun t _ => flushed24_eq V c t) cover24

end Cert.KernelIdeal.Hand

end
-- ==== Proof.KI.Val25.lean ====
/-
  The affine region at six input columns (pallas_call 25): the value of its output array after the region, as one
  function of the three arrays it reads, index by index.

  Point t writes back the rows [10000 t, 10000 t + 10000) of the output; at row r of the block and column j the body
  stored ((((((0 + x[r,0] * w[0,j]) + x[r,1] * w[1,j]) + x[r,2] * w[2,j]) + x[r,3] * w[3,j]) + x[r,4] * w[4,j])
  + x[r,5] * w[5,j]) + b[0,j] of its staging buffers, which hold the rows [10000 t, 10000 t + 10000) of the input and
  the whole weight matrix and bias row. So what point t writes back is block t of the affine function of the three
  arrays; the 200 blocks tile the output array (row r is in block r / 10000), so the array ends holding that function
  everywhere.
-/
import proofs.«149588_j66838281060723_2_alg».proof.Proof.KI.Body25
import proofs.«149588_j66838281060723_2_alg».proof.Proof.KI.AffG
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

-- the TensorCore's buffer contents when the region is entered
variable (V : (c : Dev nD) → (b : Ref sig .tc) → Buf (Elt F) ((c : Thread nD τ).loc b))

theorem hz25 : (![0, 0] : Fin 2 → Nat) = fun _ => 0 := funext fun a => by fin_cases a <;> rfl

/-- Input column k, broadcast along the two output columns, read at an index: the input at the index's row and column k. -/
theorem xcol25 (x0 : Vec F S10000x6 .f32) (off : Fin 2 → Nat) (h : S10000x6.Slices off S10000x1) (k : Fin 6)
    (h0 : off 0 = 0) (h1 : off 1 = k.val) (j : S10000x2.Idx) :
    broadcastTo S10000x2 (extractStridedSlice S10000x1 off x0 h) broadcasts_S10000x1_S10000x2 j
      = x0 (ix2 (n0 := 10000) (n1 := 6) (j 0) k) := by
  rw [broadcastTo_apply _ _ j (ix2 (n0 := 10000) (n1 := 1) (j 0) 0) (fun a => by match a with | ⟨0, _⟩ => rfl | ⟨1, _⟩ => rfl)]
  exact extractStridedSlice_apply off x0 h (ix2 (n0 := 10000) (n1 := 1) (j 0) 0) (ix2 (n0 := 10000) (n1 := 6) (j 0) k) (fun a => by
    match a with
    | ⟨0, _⟩ => show (j 0).val = off 0 + (j 0).val; omega
    | ⟨1, _⟩ => show k.val = off 1 + 0; omega)

/-- Weight row k, broadcast along the rows, read at an index: the weight at row k and the index's column. -/
theorem wrow25 (x1 : Vec F S6x2 .f32) (off : Fin 2 → Nat) (h : S6x2.Slices off S1x2) (k : Fin 6)
    (h0 : off 0 = k.val) (h1 : off 1 = 0) (j : S10000x2.Idx) :
    broadcastTo S10000x2 (extractStridedSlice S1x2 off x1 h) broadcasts_S1x2_S10000x2 j
      = x1 (ix2 (n0 := 6) (n1 := 2) k (j 1)) := by
  rw [broadcastTo_apply _ _ j (ix2 (n0 := 1) (n1 := 2) 0 (j 1)) (fun a => by match a with | ⟨0, _⟩ => rfl | ⟨1, _⟩ => rfl)]
  exact extractStridedSlice_apply off x1 h (ix2 (n0 := 1) (n1 := 2) 0 (j 1)) (ix2 (n0 := 6) (n1 := 2) k (j 1)) (fun a => by
    match a with
    | ⟨0, _⟩ => show k.val = off 0 + 0; omega
    | ⟨1, _⟩ => show (j 1).val = off 1 + (j 1).val; omega)

/-- The body's payload at an index: the kernel's order of operations on the elements the slices and broadcasts read. -/
theorem pay25_apply (x0 : Vec F S10000x6 .f32) (x1 : Vec F S6x2 .f32) (x2 : Vec F S1x2 .f32) (j : S10000x2.Idx) :
    k25_pay1 x0 x1 x2 j = FloatOps.addf (FloatOps.addf (FloatOps.addf (FloatOps.addf (FloatOps.addf (FloatOps.addf (FloatOps.addf (Scalar.ofBits (F := F) .f32 0x00000000#32)
      (FloatOps.mulf (x0 (ix2 (n0 := 10000) (n1 := 6) (j 0) 0)) (x1 (ix2 (n0 := 6) (n1 := 2) 0 (j 1)))))
      (FloatOps.mulf (x0 (ix2 (n0 := 10000) (n1 := 6) (j 0) 1)) (x1 (ix2 (n0 := 6) (n1 := 2) 1 (j 1)))))
      (FloatOps.mulf (x0 (ix2 (n0 := 10000) (n1 := 6) (j 0) 2)) (x1 (ix2 (n0 := 6) (n1 := 2) 2 (j 1)))))
      (FloatOps.mulf (x0 (ix2 (n0 := 10000) (n1 := 6) (j 0) 3)) (x1 (ix2 (n0 := 6) (n1 := 2) 3 (j 1)))))
      (FloatOps.mulf (x0 (ix2 (n0 := 10000) (n1 := 6) (j 0) 4)) (x1 (ix2 (n0 := 6) (n1 := 2) 4 (j 1)))))
      (FloatOps.mulf (x0 (ix2 (n0 := 10000) (n1 := 6) (j 0) 5)) (x1 (ix2 (n0 := 6) (n1 := 2) 5 (j 1)))))
      (x2 (ix2 (n0 := 1) (n1 := 2) 0 (j 1))) := by
  unfold k25_pay1
  show FloatOps.addf (FloatOps.addf (FloatOps.addf (FloatOps.addf (FloatOps.addf (FloatOps.addf (FloatOps.addf (Scalar.ofBits (F := F) .f32 0x00000000#32)
      (FloatOps.mulf (broadcastTo S10000x2 (extractStridedSlice S10000x1 ![0, 0] (shapeCast S10000x6 x0 shapeCasts_S10000x6_S10000x6) slices_S10000x6_o0_0_S10000x1) broadcasts_S10000x1_S10000x2 j)
        (broadcastTo S10000x2 (extractStridedSlice S1x2 ![0, 0] (shapeCast S6x2 x1 shapeCasts_S6x2_S6x2) slices_S6x2_o0_0_S1x2) broadcasts_S1x2_S10000x2 j)))
      (FloatOps.mulf (broadcastTo S10000x2 (extractStridedSlice S10000x1 ![0, 1] (shapeCast S10000x6 x0 shapeCasts_S10000x6_S10000x6) slices_S10000x6_o0_1_S10000x1) broadcasts_S10000x1_S10000x2 j)
        (broadcastTo S10000x2 (extractStridedSlice S1x2 ![1, 0] (shapeCast S6x2 x1 shapeCasts_S6x2_S6x2) slices_S6x2_o1_0_S1x2) broadcasts_S1x2_S10000x2 j)))
      (FloatOps.mulf (broadcastTo S10000x2 (extractStridedSlice S10000x1 ![0, 2] (shapeCast S10000x6 x0 shapeCasts_S10000x6_S10000x6) slices_S10000x6_o0_2_S10000x1) broadcasts_S10000x1_S10000x2 j)
        (broadcastTo S10000x2 (extractStridedSlice S1x2 ![2, 0] (shapeCast S6x2 x1 shapeCasts_S6x2_S6x2) slices_S6x2_o2_0_S1x2) broadcasts_S1x2_S10000x2 j)))
      (FloatOps.mulf (broadcastTo S10000x2 (extractStridedSlice S10000x1 ![0, 3] (shapeCast S10000x6 x0 shapeCasts_S10000x6_S10000x6) slices_S10000x6_o0_3_S10000x1) broadcasts_S10000x1_S10000x2 j)
        (broadcastTo S10000x2 (extractStridedSlice S1x2 ![3, 0] (shapeCast S6x2 x1 shapeCasts_S6x2_S6x2) slices_S6x2_o3_0_S1x2) broadcasts_S1x2_S10000x2 j)))
      (FloatOps.mulf (broadcastTo S10000x2 (extractStridedSlice S10000x1 ![0, 4] (shapeCast S10000x6 x0 shapeCasts_S10000x6_S10000x6) slices_S10000x6_o0_4_S10000x1) broadcasts_S10000x1_S10000x2 j)
        (broadcastTo S10000x2 (extractStridedSlice S1x2 ![4, 0] (shapeCast S6x2 x1 shapeCasts_S6x2_S6x2) slices_S6x2_o4_0_S1x2) broadcasts_S1x2_S10000x2 j)))
      (FloatOps.mulf (broadcastTo S10000x2 (extractStridedSlice S10000x1 ![0, 5] (shapeCast S10000x6 x0 shapeCasts_S10000x6_S10000x6) slices_S10000x6_o0_5_S10000x1) broadcasts_S10000x1_S10000x2 j)
        (broadcastTo S10000x2 (extractStridedSlice S1x2 ![5, 0] (shapeCast S6x2 x1 shapeCasts_S6x2_S6x2) slices_S6x2_o5_0_S1x2) broadcasts_S1x2_S10000x2 j)))
      (broadcastTo S10000x2 (shapeCast S1x2 x2 shapeCasts_S1x2_S1x2) broadcasts_S1x2_S10000x2 j) = _
  rw [shapeCast_self, shapeCast_self, shapeCast_self,
    xcol25 x0 ![0, 0] slices_S10000x6_o0_0_S10000x1 0 rfl rfl j, wrow25 x1 ![0, 0] slices_S6x2_o0_0_S1x2 0 rfl rfl j,
    xcol25 x0 ![0, 1] slices_S10000x6_o0_1_S10000x1 1 rfl rfl j, wrow25 x1 ![1, 0] slices_S6x2_o1_0_S1x2 1 rfl rfl j,
    xcol25 x0 ![0, 2] slices_S10000x6_o0_2_S10000x1 2 rfl rfl j, wrow25 x1 ![2, 0] slices_S6x2_o2_0_S1x2 2 rfl rfl j,
    xcol25 x0 ![0, 3] slices_S10000x6_o0_3_S10000x1 3 rfl rfl j, wrow25 x1 ![3, 0] slices_S6x2_o3_0_S1x2 3 rfl rfl j,
    xcol25 x0 ![0, 4] slices_S10000x6_o0_4_S10000x1 4 rfl rfl j, wrow25 x1 ![4, 0] slices_S6x2_o4_0_S1x2 4 rfl rfl j,
    xcol25 x0 ![0, 5] slices_S10000x6_o0_5_S10000x1 5 rfl rfl j, wrow25 x1 ![5, 0] slices_S6x2_o5_0_S1x2 5 rfl rfl j,
    broadcastTo_apply x2 _ j (ix2 (n0 := 1) (n1 := 2) 0 (j 1)) (fun a => by match a with | ⟨0, _⟩ => rfl | ⟨1, _⟩ => rfl)]

/-- The index maps, decided over the grid: the input's and the output's row block is the point's number, and every
    other block index is zero. -/
theorem idx_facts25 : ∀ t : Fin cfg25.N,
    win25_0.index t (0 : Fin 2) = t.val ∧ win25_0.index t (1 : Fin 2) = 0
    ∧ win25_1.index t (0 : Fin 2) = 0 ∧ win25_1.index t (1 : Fin 2) = 0
    ∧ win25_2.index t (0 : Fin 2) = 0 ∧ win25_2.index t (1 : Fin 2) = 0
    ∧ win25_3.index t (0 : Fin 2) = t.val ∧ win25_3.index t (1 : Fin 2) = 0 :=
  (by decide +kernel : ∀ t : Fin grid25.N, _)

/-- Where the blocks sit in their arrays: at point t the element of the input block at (row, column k) is the input
    array's element at the row of the output block's element and column k, -/
theorem embx25 (t : Fin cfg25.N) (j : S10000x2.Idx) (k : Fin 6) :
    ((cfg25.win 0).blk t).view.emb (ix2 (n0 := 10000) (n1 := 6) (j 0) k)
      = ix2 (n0 := 2000000) (n1 := 6) ((((cfg25.win 3).blk t).view.emb j) 0) k := by
  obtain ⟨e0, e1, e2, e3, e4, e5, e6, e7⟩ := idx_facts25 t
  funext a; apply Fin.ext
  match a with
  | ⟨0, _⟩ => show win25_0.index t (0 : Fin 2) * 10000 + 1 * (j 0).val = win25_3.index t (0 : Fin 2) * 10000 + 1 * (j 0).val; omega
  | ⟨1, _⟩ => show win25_0.index t (1 : Fin 2) * 6 + 1 * k.val = k.val; omega
/-- the element of the weight block at (k, column) is the weight array's at k and the output element's column, -/
theorem embw25 (t : Fin cfg25.N) (j : S10000x2.Idx) (k : Fin 6) :
    ((cfg25.win 1).blk t).view.emb (ix2 (n0 := 6) (n1 := 2) k (j 1))
      = ix2 (n0 := 6) (n1 := 2) k ((((cfg25.win 3).blk t).view.emb j) 1) := by
  obtain ⟨e0, e1, e2, e3, e4, e5, e6, e7⟩ := idx_facts25 t
  funext a; apply Fin.ext
  match a with
  | ⟨0, _⟩ => show win25_1.index t (0 : Fin 2) * 6 + 1 * k.val = k.val; omega
  | ⟨1, _⟩ => show win25_1.index t (1 : Fin 2) * 2 + 1 * (j 1).val = win25_3.index t (1 : Fin 2) * 2 + 1 * (j 1).val; omega
/-- and the element of the bias block at (0, column) is the bias array's at the output element's column. -/
theorem embb25 (t : Fin cfg25.N) (j : S10000x2.Idx) :
    ((cfg25.win 2).blk t).view.emb (ix2 (n0 := 1) (n1 := 2) 0 (j 1))
      = ix2 (n0 := 1) (n1 := 2) 0 ((((cfg25.win 3).blk t).view.emb j) 1) := by
  obtain ⟨e0, e1, e2, e3, e4, e5, e6, e7⟩ := idx_facts25 t
  funext a; apply Fin.ext
  match a with
  | ⟨0, _⟩ => show win25_2.index t (0 : Fin 2) * 1 + 1 * 0 = 0; omega
  | ⟨1, _⟩ => show win25_2.index t (1 : Fin 2) * 2 + 1 * (j 1).val = win25_3.index t (1 : Fin 2) * 2 + 1 * (j 1).val; omega

set_option maxHeartbeats 1000000 in
/-- What point t writes back is block t of the affine function of the three arrays as the region finds them. -/
theorem flushed25_eq (c : Dev nD) (t : Fin cfg25.N) :
    (dat25 V c).flushed 3 t = ((cfg25.win 3).blk t).view.read (Elt F)
      (aff6G (n := 2000000) (V c (Pipeline.arrRef spec25 0)) (V c (Pipeline.arrRef spec25 1)) (V c (Pipeline.arrRef spec25 2))) := by
  show (cfg25.win 3).cut (grid25.coords t) ((dat25 V c).after 3 t) = _
  rw [after25_3]
  unfold out25_3
  rw [View.canon_unit_zero hz25]
  simp only [View.ld_unit_zero (S := S10000x6) hz25, View.ld_unit_zero (S := S6x2) hz25, View.ld_unit_zero (S := S1x2) hz25]
  funext j
  show k25_pay1 (iblk25 V c 0 t) (iblk25 V c 1 t) (iblk25 V c 2 t) j
    = aff6G (n := 2000000) (V c (Pipeline.arrRef spec25 0)) (V c (Pipeline.arrRef spec25 1)) (V c (Pipeline.arrRef spec25 2)) (((cfg25.win 3).blk t).view.emb j)
  rw [pay25_apply]
  show FloatOps.addf (FloatOps.addf (FloatOps.addf (FloatOps.addf (FloatOps.addf (FloatOps.addf (FloatOps.addf (Scalar.ofBits (F := F) .f32 0x00000000#32)
      (FloatOps.mulf (V c (Pipeline.arrRef spec25 0) (((cfg25.win 0).blk t).view.emb (ix2 (n0 := 10000) (n1 := 6) (j 0) 0)))
        (V c (Pipeline.arrRef spec25 1) (((cfg25.win 1).blk t).view.emb (ix2 (n0 := 6) (n1 := 2) 0 (j 1))))))
      (FloatOps.mulf (V c (Pipeline.arrRef spec25 0) (((cfg25.win 0).blk t).view.emb (ix2 (n0 := 10000) (n1 := 6) (j 0) 1)))
        (V c (Pipeline.arrRef spec25 1) (((cfg25.win 1).blk t).view.emb (ix2 (n0 := 6) (n1 := 2) 1 (j 1))))))
      (FloatOps.mulf (V c (Pipeline.arrRef spec25 0) (((cfg25.win 0).blk t).view.emb (ix2 (n0 := 10000) (n1 := 6) (j 0) 2)))
        (V c (Pipeline.arrRef spec25 1) (((cfg25.win 1).blk t).view.emb (ix2 (n0 := 6) (n1 := 2) 2 (j 1))))))
      (FloatOps.mulf (V c (Pipeline.arrRef spec25 0) (((cfg25.win 0).blk t).view.emb (ix2 (n0 := 10000) (n1 := 6) (j 0) 3)))
        (V c (Pipeline.arrRef spec25 1) (((cfg25.win 1).blk t).view.emb (ix2 (n0 := 6) (n1 := 2) 3 (j 1))))))
      (FloatOps.mulf (V c (Pipeline.arrRef spec25 0) (((cfg25.win 0).blk t).view.emb (ix2 (n0 := 10000) (n1 := 6) (j 0) 4)))
        (V c (Pipeline.arrRef spec25 1) (((cfg25.win 1).blk t).view.emb (ix2 (n0 := 6) (n1 := 2) 4 (j 1))))))
      (FloatOps.mulf (V c (Pipeline.arrRef spec25 0) (((cfg25.win 0).blk t).view.emb (ix2 (n0 := 10000) (n1 := 6) (j 0) 5)))
        (V c (Pipeline.arrRef spec25 1) (((cfg25.win 1).blk t).view.emb (ix2 (n0 := 6) (n1 := 2) 5 (j 1))))))
      (V c (Pipeline.arrRef spec25 2) (((cfg25.win 2).blk t).view.emb (ix2 (n0 := 1) (n1 := 2) 0 (j 1)))) = _
  rw [embx25 t j 0, embx25 t j 1, embx25 t j 2, embx25 t j 3, embx25 t j 4, embx25 t j 5,
    embw25 t j 0, embw25 t j 1, embw25 t j 2, embw25 t j 3, embw25 t j 4, embw25 t j 5, embb25 t j]

/-- An index of the output array is in point t's block iff each coordinate is in the block's range on its axis. -/
theorem mem_blk25 (t : Fin cfg25.N) (i : S2000000x2.Idx) :
    i ∈ ((cfg25.win 3).blk t).view.set ↔ ∀ a : Fin 2, win25_3.index t a * S10000x2.size a ≤ (i a).val ∧ (i a).val < win25_3.index t a * S10000x2.size a + S10000x2.size a := by
  show i ∈ ((View.whole (Pipeline.arrRef spec25 3)).slice (win25_3.rect t)).set ↔ _
  rw [View.set_slice_whole, Rect.mem_set_unit]
  exact Iff.rfl

/-- Every index of the output array is in some point's block: row r is in block r / 10000. -/
theorem cover25 (i : S2000000x2.Idx) :
    ∃ t : Fin cfg25.N, (cfg25.win 3).flush t = true ∧ i ∈ ((cfg25.win 3).blk t).view.set := by
  have hi0 : (i 0).val < 2000000 := (i 0).isLt
  have hi1 : (i 1).val < 2 := (i 1).isLt
  have hN : (i 0).val / 10000 < cfg25.N := by
    have hg := N_25
    show (i 0).val / 10000 < grid25.N
    omega
  obtain ⟨t, ht⟩ : ∃ t : Fin cfg25.N, t.val = (i 0).val / 10000 := ⟨⟨_, hN⟩, rfl⟩
  obtain ⟨e0, e1, e2, e3, e4, e5, e6, e7⟩ := idx_facts25 t
  refine ⟨t, flush25_3 t, ?_⟩
  rw [mem_blk25]
  intro a
  match a with
  | ⟨0, _⟩ => show win25_3.index t (0 : Fin 2) * 10000 ≤ (i 0).val ∧ (i 0).val < win25_3.index t (0 : Fin 2) * 10000 + 10000; omega
  | ⟨1, _⟩ => show win25_3.index t (1 : Fin 2) * 2 ≤ (i 1).val ∧ (i 1).val < win25_3.index t (1 : Fin 2) * 2 + 2; omega

/-- The output array after the region: the affine function of the three arrays the region reads. -/
theorem final25 (c : Dev nD) : (dat25 V c).arrAt 3 cfg25.N
    = aff6G (n := 2000000) (V c (Pipeline.arrRef spec25 0)) (V c (Pipeline.arrRef spec25 1)) (V c (Pipeline.arrRef spec25 2)) :=
  (dat25 V c).arrAt_eq_of_cover 3 _ (fun t _ => flushed25_eq V c t) cover25

end Cert.KernelIdeal.Hand

end
-- ==== Proof.KI.Outs.lean ====
/-
  After region k its output array holds the region's whole-array function (the message function, or the affine function
  at one or at six input columns) of the arrays its operand buffers held when the region was entered: the valuation after
  the region is the one before it with the output array replaced by what the pipeline leaves there.
-/
import proofs.«149588_j66838281060723_2_alg».proof.Proof.KI.Fold
import proofs.«149588_j66838281060723_2_alg».proof.Proof.KI.Val0
import proofs.«149588_j66838281060723_2_alg».proof.Proof.KI.Val1
import proofs.«149588_j66838281060723_2_alg».proof.Proof.KI.Val2
import proofs.«149588_j66838281060723_2_alg».proof.Proof.KI.Val3
import proofs.«149588_j66838281060723_2_alg».proof.Proof.KI.Val4
import proofs.«149588_j66838281060723_2_alg».proof.Proof.KI.Val5
import proofs.«149588_j66838281060723_2_alg».proof.Proof.KI.Val6
import proofs.«149588_j66838281060723_2_alg».proof.Proof.KI.Val7
import proofs.«149588_j66838281060723_2_alg».proof.Proof.KI.Val8
import proofs.«149588_j66838281060723_2_alg».proof.Proof.KI.Val9
import proofs.«149588_j66838281060723_2_alg».proof.Proof.KI.Val10
import proofs.«149588_j66838281060723_2_alg».proof.Proof.KI.Val11
import proofs.«149588_j66838281060723_2_alg».proof.Proof.KI.Val12
import proofs.«149588_j66838281060723_2_alg».proof.Proof.KI.Val13
import proofs.«149588_j66838281060723_2_alg».proof.Proof.KI.Val14
import proofs.«149588_j66838281060723_2_alg».proof.Proof.KI.Val15
import proofs.«149588_j66838281060723_2_alg».proof.Proof.KI.Val16
import proofs.«149588_j66838281060723_2_alg».proof.Proof.KI.Val17
import proofs.«149588_j66838281060723_2_alg».proof.Proof.KI.Val18
import proofs.«149588_j66838281060723_2_alg».proof.Proof.KI.Val19
import proofs.«149588_j66838281060723_2_alg».proof.Proof.KI.Val20
import proofs.«149588_j66838281060723_2_alg».proof.Proof.KI.Val21
import proofs.«149588_j66838281060723_2_alg».proof.Proof.KI.Val22
import proofs.«149588_j66838281060723_2_alg».proof.Proof.KI.Val23
import proofs.«149588_j66838281060723_2_alg».proof.Proof.KI.Val24
import proofs.«149588_j66838281060723_2_alg».proof.Proof.KI.Val25

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

variable (m : (ℓ : Loc nD τ sig) → Buf (Elt F) ℓ)

/-- Region 0's output array after the region: the region's function of its operand arrays as the region finds them. -/
theorem out0 (c : Dev nD) : T10 m c main_v17
    = aff1G (F := F) (n := 2000000) (T9 m c main_arg0) (T9 m c main_arg8) (T9 m c main_v16) := by
  show Function.update (T9 m c) main_v17 _ main_v17 = _
  rw [Function.update_self]
  exact final0 (atTc (T9 m)) c
/-- Region 1's output array after the region: the region's function of its operand arrays as the region finds them. -/
theorem out1 (c : Dev nD) : T12 m c main_v19
    = aff1G (F := F) (n := 500000) (T11 m c main_arg1) (T11 m c main_arg10) (T11 m c main_v18) := by
  show Function.update (T11 m c) main_v19 _ main_v19 = _
  rw [Function.update_self]
  exact final1 (atTc (T11 m)) c
/-- Region 2's output array after the region: the region's function of its operand arrays as the region finds them. -/
theorem out2 (c : Dev nD) : T14 m c main_v50
    = msgG (F := F) (n := 6000000) (T13 m c main_v41) (T13 m c main_v49) (T13 m c main_v26) (T13 m c main_v33) := by
  show Function.update (T13 m c) main_v50 _ main_v50 = _
  rw [Function.update_self]
  exact final2 (atTc (T13 m)) c
/-- Region 3's output array after the region: the region's function of its operand arrays as the region finds them. -/
theorem out3 (c : Dev nD) : T16 m c main_v84
    = msgG (F := F) (n := 6000000) (T15 m c main_v75) (T15 m c main_v83) (T15 m c main_v60) (T15 m c main_v67) := by
  show Function.update (T15 m c) main_v84 _ main_v84 = _
  rw [Function.update_self]
  exact final3 (atTc (T15 m)) c
/-- Region 4's output array after the region: the region's function of its operand arrays as the region finds them. -/
theorem out4 (c : Dev nD) : T18 m c main_v118
    = msgG (F := F) (n := 6000000) (T17 m c main_v109) (T17 m c main_v117) (T17 m c main_v94) (T17 m c main_v101) := by
  show Function.update (T17 m c) main_v118 _ main_v118 = _
  rw [Function.update_self]
  exact final4 (atTc (T17 m)) c
/-- Region 5's output array after the region: the region's function of its operand arrays as the region finds them. -/
theorem out5 (c : Dev nD) : T20 m c main_v152
    = msgG (F := F) (n := 6000000) (T19 m c main_v143) (T19 m c main_v151) (T19 m c main_v128) (T19 m c main_v135) := by
  show Function.update (T19 m c) main_v152 _ main_v152 = _
  rw [Function.update_self]
  exact final5 (atTc (T19 m)) c
/-- Region 6's output array after the region: the region's function of its operand arrays as the region finds them. -/
theorem out6 (c : Dev nD) : T22 m c main_v163
    = aff6G (F := F) (n := 500000) (T21 m c main_v156) (T21 m c main_v159) (T21 m c main_v162) := by
  show Function.update (T21 m c) main_v163 _ main_v163 = _
  rw [Function.update_self]
  exact final6 (atTc (T21 m)) c
/-- Region 7's output array after the region: the region's function of its operand arrays as the region finds them. -/
theorem out7 (c : Dev nD) : T24 m c main_v169
    = aff6G (F := F) (n := 2000000) (T23 m c main_v157) (T23 m c main_v165) (T23 m c main_v168) := by
  show Function.update (T23 m c) main_v169 _ main_v169 = _
  rw [Function.update_self]
  exact final7 (atTc (T23 m)) c
/-- Region 8's output array after the region: the region's function of its operand arrays as the region finds them. -/
theorem out8 (c : Dev nD) : T26 m c main_v200
    = msgG (F := F) (n := 6000000) (T25 m c main_v191) (T25 m c main_v199) (T25 m c main_v176) (T25 m c main_v183) := by
  show Function.update (T25 m c) main_v200 _ main_v200 = _
  rw [Function.update_self]
  exact final8 (atTc (T25 m)) c
/-- Region 9's output array after the region: the region's function of its operand arrays as the region finds them. -/
theorem out9 (c : Dev nD) : T28 m c main_v234
    = msgG (F := F) (n := 6000000) (T27 m c main_v225) (T27 m c main_v233) (T27 m c main_v210) (T27 m c main_v217) := by
  show Function.update (T27 m c) main_v234 _ main_v234 = _
  rw [Function.update_self]
  exact final9 (atTc (T27 m)) c
/-- Region 10's output array after the region: the region's function of its operand arrays as the region finds them. -/
theorem out10 (c : Dev nD) : T30 m c main_v268
    = msgG (F := F) (n := 6000000) (T29 m c main_v259) (T29 m c main_v267) (T29 m c main_v244) (T29 m c main_v251) := by
  show Function.update (T29 m c) main_v268 _ main_v268 = _
  rw [Function.update_self]
  exact final10 (atTc (T29 m)) c
/-- Region 11's output array after the region: the region's function of its operand arrays as the region finds them. -/
theorem out11 (c : Dev nD) : T32 m c main_v302
    = msgG (F := F) (n := 6000000) (T31 m c main_v293) (T31 m c main_v301) (T31 m c main_v278) (T31 m c main_v285) := by
  show Function.update (T31 m c) main_v302 _ main_v302 = _
  rw [Function.update_self]
  exact final11 (atTc (T31 m)) c
/-- Region 12's output array after the region: the region's function of its operand arrays as the region finds them. -/
theorem out12 (c : Dev nD) : T34 m c main_v313
    = aff6G (F := F) (n := 500000) (T33 m c main_v306) (T33 m c main_v309) (T33 m c main_v312) := by
  show Function.update (T33 m c) main_v313 _ main_v313 = _
  rw [Function.update_self]
  exact final12 (atTc (T33 m)) c
/-- Region 13's output array after the region: the region's function of its operand arrays as the region finds them. -/
theorem out13 (c : Dev nD) : T36 m c main_v319
    = aff6G (F := F) (n := 2000000) (T35 m c main_v307) (T35 m c main_v315) (T35 m c main_v318) := by
  show Function.update (T35 m c) main_v319 _ main_v319 = _
  rw [Function.update_self]
  exact final13 (atTc (T35 m)) c
/-- Region 14's output array after the region: the region's function of its operand arrays as the region finds them. -/
theorem out14 (c : Dev nD) : T38 m c main_v350
    = msgG (F := F) (n := 6000000) (T37 m c main_v341) (T37 m c main_v349) (T37 m c main_v326) (T37 m c main_v333) := by
  show Function.update (T37 m c) main_v350 _ main_v350 = _
  rw [Function.update_self]
  exact final14 (atTc (T37 m)) c
/-- Region 15's output array after the region: the region's function of its operand arrays as the region finds them. -/
theorem out15 (c : Dev nD) : T40 m c main_v384
    = msgG (F := F) (n := 6000000) (T39 m c main_v375) (T39 m c main_v383) (T39 m c main_v360) (T39 m c main_v367) := by
  show Function.update (T39 m c) main_v384 _ main_v384 = _
  rw [Function.update_self]
  exact final15 (atTc (T39 m)) c
/-- Region 16's output array after the region: the region's function of its operand arrays as the region finds them. -/
theorem out16 (c : Dev nD) : T42 m c main_v418
    = msgG (F := F) (n := 6000000) (T41 m c main_v409) (T41 m c main_v417) (T41 m c main_v394) (T41 m c main_v401) := by
  show Function.update (T41 m c) main_v418 _ main_v418 = _
  rw [Function.update_self]
  exact final16 (atTc (T41 m)) c
/-- Region 17's output array after the region: the region's function of its operand arrays as the region finds them. -/
theorem out17 (c : Dev nD) : T44 m c main_v452
    = msgG (F := F) (n := 6000000) (T43 m c main_v443) (T43 m c main_v451) (T43 m c main_v428) (T43 m c main_v435) := by
  show Function.update (T43 m c) main_v452 _ main_v452 = _
  rw [Function.update_self]
  exact final17 (atTc (T43 m)) c
/-- Region 18's output array after the region: the region's function of its operand arrays as the region finds them. -/
theorem out18 (c : Dev nD) : T46 m c main_v463
    = aff6G (F := F) (n := 500000) (T45 m c main_v456) (T45 m c main_v459) (T45 m c main_v462) := by
  show Function.update (T45 m c) main_v463 _ main_v463 = _
  rw [Function.update_self]
  exact final18 (atTc (T45 m)) c
/-- Region 19's output array after the region: the region's function of its operand arrays as the region finds them. -/
theorem out19 (c : Dev nD) : T48 m c main_v469
    = aff6G (F := F) (n := 2000000) (T47 m c main_v457) (T47 m c main_v465) (T47 m c main_v468) := by
  show Function.update (T47 m c) main_v469 _ main_v469 = _
  rw [Function.update_self]
  exact final19 (atTc (T47 m)) c
/-- Region 20's output array after the region: the region's function of its operand arrays as the region finds them. -/
theorem out20 (c : Dev nD) : T50 m c main_v500
    = msgG (F := F) (n := 6000000) (T49 m c main_v491) (T49 m c main_v499) (T49 m c main_v476) (T49 m c main_v483) := by
  show Function.update (T49 m c) main_v500 _ main_v500 = _
  rw [Function.update_self]
  exact final20 (atTc (T49 m)) c
/-- Region 21's output array after the region: the region's function of its operand arrays as the region finds them. -/
theorem out21 (c : Dev nD) : T52 m c main_v534
    = msgG (F := F) (n := 6000000) (T51 m c main_v525) (T51 m c main_v533) (T51 m c main_v510) (T51 m c main_v517) := by
  show Function.update (T51 m c) main_v534 _ main_v534 = _
  rw [Function.update_self]
  exact final21 (atTc (T51 m)) c
/-- Region 22's output array after the region: the region's function of its operand arrays as the region finds them. -/
theorem out22 (c : Dev nD) : T54 m c main_v568
    = msgG (F := F) (n := 6000000) (T53 m c main_v559) (T53 m c main_v567) (T53 m c main_v544) (T53 m c main_v551) := by
  show Function.update (T53 m c) main_v568 _ main_v568 = _
  rw [Function.update_self]
  exact final22 (atTc (T53 m)) c
/-- Region 23's output array after the region: the region's function of its operand arrays as the region finds them. -/
theorem out23 (c : Dev nD) : T56 m c main_v602
    = msgG (F := F) (n := 6000000) (T55 m c main_v593) (T55 m c main_v601) (T55 m c main_v578) (T55 m c main_v585) := by
  show Function.update (T55 m c) main_v602 _ main_v602 = _
  rw [Function.update_self]
  exact final23 (atTc (T55 m)) c
/-- Region 24's output array after the region: the region's function of its operand arrays as the region finds them. -/
theorem out24 (c : Dev nD) : T58 m c main_v613
    = aff6G (F := F) (n := 500000) (T57 m c main_v606) (T57 m c main_v609) (T57 m c main_v612) := by
  show Function.update (T57 m c) main_v613 _ main_v613 = _
  rw [Function.update_self]
  exact final24 (atTc (T57 m)) c
/-- Region 25's output array after the region: the region's function of its operand arrays as the region finds them. -/
theorem out25 (c : Dev nD) : T60 m c main_v619
    = aff6G (F := F) (n := 2000000) (T59 m c main_v607) (T59 m c main_v615) (T59 m c main_v618) := by
  show Function.update (T59 m c) main_v619 _ main_v619 = _
  rw [Function.update_self]
  exact final25 (atTc (T59 m)) c

end Cert.KernelIdeal.Hand

end
-- ==== Proof.KI.Hold.lean ====
/-
  No item of the program from region 0 on writes the two inverse-root tables, the four edge-index vectors, or the two
  weight stacks and their biases: whatever values they hold before an item they hold after it.
-/
import proofs.«149588_j66838281060723_2_alg».proof.Proof.KI.Keep
import proofs.«149588_j66838281060723_2_alg».proof.Proof.KI.Pieces

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The ten buffers every layer reads hold the ten values of the environment: the two inverse-root tables, the four
    edge-index vectors, the two weight stacks and their biases. -/
structure Holds (W : Valuation τ sig (Elt F)) (e : Env F) : Prop where
  ic : W main_v7 = e.ic
  iv : W main_v15 = e.iv
  posSrc : W main_arg4 = e.posSrc
  posTrg : W main_arg5 = e.posTrg
  negSrc : W main_arg6 = e.negSrc
  negTrg : W main_arg7 = e.negTrg
  wc : W main_arg12 = e.wc
  bc : W main_arg13 = e.bc
  wv : W main_arg14 = e.wv
  bv : W main_arg15 = e.bv

variable (m : (ℓ : Loc nD τ sig) → Buf (Elt F) ℓ)

theorem holds10 (c : Dev nD) (e : Env F) (h : Holds (T9 m c) e) : Holds (T10 m c) e :=
  ⟨(step10 m c main_v7 (by decide)).trans h.ic,
   (step10 m c main_v15 (by decide)).trans h.iv,
   (step10 m c main_arg4 (by decide)).trans h.posSrc,
   (step10 m c main_arg5 (by decide)).trans h.posTrg,
   (step10 m c main_arg6 (by decide)).trans h.negSrc,
   (step10 m c main_arg7 (by decide)).trans h.negTrg,
   (step10 m c main_arg12 (by decide)).trans h.wc,
   (step10 m c main_arg13 (by decide)).trans h.bc,
   (step10 m c main_arg14 (by decide)).trans h.wv,
   (step10 m c main_arg15 (by decide)).trans h.bv⟩
theorem holds11 (c : Dev nD) (e : Env F) (h : Holds (T10 m c) e) : Holds (T11 m c) e :=
  ⟨(step11 m c main_v7 (by decide)).trans h.ic,
   (step11 m c main_v15 (by decide)).trans h.iv,
   (step11 m c main_arg4 (by decide)).trans h.posSrc,
   (step11 m c main_arg5 (by decide)).trans h.posTrg,
   (step11 m c main_arg6 (by decide)).trans h.negSrc,
   (step11 m c main_arg7 (by decide)).trans h.negTrg,
   (step11 m c main_arg12 (by decide)).trans h.wc,
   (step11 m c main_arg13 (by decide)).trans h.bc,
   (step11 m c main_arg14 (by decide)).trans h.wv,
   (step11 m c main_arg15 (by decide)).trans h.bv⟩
theorem holds12 (c : Dev nD) (e : Env F) (h : Holds (T11 m c) e) : Holds (T12 m c) e :=
  ⟨(step12 m c main_v7 (by decide)).trans h.ic,
   (step12 m c main_v15 (by decide)).trans h.iv,
   (step12 m c main_arg4 (by decide)).trans h.posSrc,
   (step12 m c main_arg5 (by decide)).trans h.posTrg,
   (step12 m c main_arg6 (by decide)).trans h.negSrc,
   (step12 m c main_arg7 (by decide)).trans h.negTrg,
   (step12 m c main_arg12 (by decide)).trans h.wc,
   (step12 m c main_arg13 (by decide)).trans h.bc,
   (step12 m c main_arg14 (by decide)).trans h.wv,
   (step12 m c main_arg15 (by decide)).trans h.bv⟩
theorem holds13 (c : Dev nD) (e : Env F) (h : Holds (T12 m c) e) : Holds (T13 m c) e :=
  ⟨(step13 m c main_v7 (by decide)).trans h.ic,
   (step13 m c main_v15 (by decide)).trans h.iv,
   (step13 m c main_arg4 (by decide)).trans h.posSrc,
   (step13 m c main_arg5 (by decide)).trans h.posTrg,
   (step13 m c main_arg6 (by decide)).trans h.negSrc,
   (step13 m c main_arg7 (by decide)).trans h.negTrg,
   (step13 m c main_arg12 (by decide)).trans h.wc,
   (step13 m c main_arg13 (by decide)).trans h.bc,
   (step13 m c main_arg14 (by decide)).trans h.wv,
   (step13 m c main_arg15 (by decide)).trans h.bv⟩
theorem holds14 (c : Dev nD) (e : Env F) (h : Holds (T13 m c) e) : Holds (T14 m c) e :=
  ⟨(step14 m c main_v7 (by decide)).trans h.ic,
   (step14 m c main_v15 (by decide)).trans h.iv,
   (step14 m c main_arg4 (by decide)).trans h.posSrc,
   (step14 m c main_arg5 (by decide)).trans h.posTrg,
   (step14 m c main_arg6 (by decide)).trans h.negSrc,
   (step14 m c main_arg7 (by decide)).trans h.negTrg,
   (step14 m c main_arg12 (by decide)).trans h.wc,
   (step14 m c main_arg13 (by decide)).trans h.bc,
   (step14 m c main_arg14 (by decide)).trans h.wv,
   (step14 m c main_arg15 (by decide)).trans h.bv⟩
theorem holds15 (c : Dev nD) (e : Env F) (h : Holds (T14 m c) e) : Holds (T15 m c) e :=
  ⟨(step15 m c main_v7 (by decide)).trans h.ic,
   (step15 m c main_v15 (by decide)).trans h.iv,
   (step15 m c main_arg4 (by decide)).trans h.posSrc,
   (step15 m c main_arg5 (by decide)).trans h.posTrg,
   (step15 m c main_arg6 (by decide)).trans h.negSrc,
   (step15 m c main_arg7 (by decide)).trans h.negTrg,
   (step15 m c main_arg12 (by decide)).trans h.wc,
   (step15 m c main_arg13 (by decide)).trans h.bc,
   (step15 m c main_arg14 (by decide)).trans h.wv,
   (step15 m c main_arg15 (by decide)).trans h.bv⟩
theorem holds16 (c : Dev nD) (e : Env F) (h : Holds (T15 m c) e) : Holds (T16 m c) e :=
  ⟨(step16 m c main_v7 (by decide)).trans h.ic,
   (step16 m c main_v15 (by decide)).trans h.iv,
   (step16 m c main_arg4 (by decide)).trans h.posSrc,
   (step16 m c main_arg5 (by decide)).trans h.posTrg,
   (step16 m c main_arg6 (by decide)).trans h.negSrc,
   (step16 m c main_arg7 (by decide)).trans h.negTrg,
   (step16 m c main_arg12 (by decide)).trans h.wc,
   (step16 m c main_arg13 (by decide)).trans h.bc,
   (step16 m c main_arg14 (by decide)).trans h.wv,
   (step16 m c main_arg15 (by decide)).trans h.bv⟩
theorem holds17 (c : Dev nD) (e : Env F) (h : Holds (T16 m c) e) : Holds (T17 m c) e :=
  ⟨(step17 m c main_v7 (by decide)).trans h.ic,
   (step17 m c main_v15 (by decide)).trans h.iv,
   (step17 m c main_arg4 (by decide)).trans h.posSrc,
   (step17 m c main_arg5 (by decide)).trans h.posTrg,
   (step17 m c main_arg6 (by decide)).trans h.negSrc,
   (step17 m c main_arg7 (by decide)).trans h.negTrg,
   (step17 m c main_arg12 (by decide)).trans h.wc,
   (step17 m c main_arg13 (by decide)).trans h.bc,
   (step17 m c main_arg14 (by decide)).trans h.wv,
   (step17 m c main_arg15 (by decide)).trans h.bv⟩
theorem holds18 (c : Dev nD) (e : Env F) (h : Holds (T17 m c) e) : Holds (T18 m c) e :=
  ⟨(step18 m c main_v7 (by decide)).trans h.ic,
   (step18 m c main_v15 (by decide)).trans h.iv,
   (step18 m c main_arg4 (by decide)).trans h.posSrc,
   (step18 m c main_arg5 (by decide)).trans h.posTrg,
   (step18 m c main_arg6 (by decide)).trans h.negSrc,
   (step18 m c main_arg7 (by decide)).trans h.negTrg,
   (step18 m c main_arg12 (by decide)).trans h.wc,
   (step18 m c main_arg13 (by decide)).trans h.bc,
   (step18 m c main_arg14 (by decide)).trans h.wv,
   (step18 m c main_arg15 (by decide)).trans h.bv⟩
theorem holds19 (c : Dev nD) (e : Env F) (h : Holds (T18 m c) e) : Holds (T19 m c) e :=
  ⟨(step19 m c main_v7 (by decide)).trans h.ic,
   (step19 m c main_v15 (by decide)).trans h.iv,
   (step19 m c main_arg4 (by decide)).trans h.posSrc,
   (step19 m c main_arg5 (by decide)).trans h.posTrg,
   (step19 m c main_arg6 (by decide)).trans h.negSrc,
   (step19 m c main_arg7 (by decide)).trans h.negTrg,
   (step19 m c main_arg12 (by decide)).trans h.wc,
   (step19 m c main_arg13 (by decide)).trans h.bc,
   (step19 m c main_arg14 (by decide)).trans h.wv,
   (step19 m c main_arg15 (by decide)).trans h.bv⟩
theorem holds20 (c : Dev nD) (e : Env F) (h : Holds (T19 m c) e) : Holds (T20 m c) e :=
  ⟨(step20 m c main_v7 (by decide)).trans h.ic,
   (step20 m c main_v15 (by decide)).trans h.iv,
   (step20 m c main_arg4 (by decide)).trans h.posSrc,
   (step20 m c main_arg5 (by decide)).trans h.posTrg,
   (step20 m c main_arg6 (by decide)).trans h.negSrc,
   (step20 m c main_arg7 (by decide)).trans h.negTrg,
   (step20 m c main_arg12 (by decide)).trans h.wc,
   (step20 m c main_arg13 (by decide)).trans h.bc,
   (step20 m c main_arg14 (by decide)).trans h.wv,
   (step20 m c main_arg15 (by decide)).trans h.bv⟩
theorem holds21 (c : Dev nD) (e : Env F) (h : Holds (T20 m c) e) : Holds (T21 m c) e :=
  ⟨(step21 m c main_v7 (by decide)).trans h.ic,
   (step21 m c main_v15 (by decide)).trans h.iv,
   (step21 m c main_arg4 (by decide)).trans h.posSrc,
   (step21 m c main_arg5 (by decide)).trans h.posTrg,
   (step21 m c main_arg6 (by decide)).trans h.negSrc,
   (step21 m c main_arg7 (by decide)).trans h.negTrg,
   (step21 m c main_arg12 (by decide)).trans h.wc,
   (step21 m c main_arg13 (by decide)).trans h.bc,
   (step21 m c main_arg14 (by decide)).trans h.wv,
   (step21 m c main_arg15 (by decide)).trans h.bv⟩
theorem holds22 (c : Dev nD) (e : Env F) (h : Holds (T21 m c) e) : Holds (T22 m c) e :=
  ⟨(step22 m c main_v7 (by decide)).trans h.ic,
   (step22 m c main_v15 (by decide)).trans h.iv,
   (step22 m c main_arg4 (by decide)).trans h.posSrc,
   (step22 m c main_arg5 (by decide)).trans h.posTrg,
   (step22 m c main_arg6 (by decide)).trans h.negSrc,
   (step22 m c main_arg7 (by decide)).trans h.negTrg,
   (step22 m c main_arg12 (by decide)).trans h.wc,
   (step22 m c main_arg13 (by decide)).trans h.bc,
   (step22 m c main_arg14 (by decide)).trans h.wv,
   (step22 m c main_arg15 (by decide)).trans h.bv⟩
theorem holds23 (c : Dev nD) (e : Env F) (h : Holds (T22 m c) e) : Holds (T23 m c) e :=
  ⟨(step23 m c main_v7 (by decide)).trans h.ic,
   (step23 m c main_v15 (by decide)).trans h.iv,
   (step23 m c main_arg4 (by decide)).trans h.posSrc,
   (step23 m c main_arg5 (by decide)).trans h.posTrg,
   (step23 m c main_arg6 (by decide)).trans h.negSrc,
   (step23 m c main_arg7 (by decide)).trans h.negTrg,
   (step23 m c main_arg12 (by decide)).trans h.wc,
   (step23 m c main_arg13 (by decide)).trans h.bc,
   (step23 m c main_arg14 (by decide)).trans h.wv,
   (step23 m c main_arg15 (by decide)).trans h.bv⟩
theorem holds24 (c : Dev nD) (e : Env F) (h : Holds (T23 m c) e) : Holds (T24 m c) e :=
  ⟨(step24 m c main_v7 (by decide)).trans h.ic,
   (step24 m c main_v15 (by decide)).trans h.iv,
   (step24 m c main_arg4 (by decide)).trans h.posSrc,
   (step24 m c main_arg5 (by decide)).trans h.posTrg,
   (step24 m c main_arg6 (by decide)).trans h.negSrc,
   (step24 m c main_arg7 (by decide)).trans h.negTrg,
   (step24 m c main_arg12 (by decide)).trans h.wc,
   (step24 m c main_arg13 (by decide)).trans h.bc,
   (step24 m c main_arg14 (by decide)).trans h.wv,
   (step24 m c main_arg15 (by decide)).trans h.bv⟩
theorem holds25 (c : Dev nD) (e : Env F) (h : Holds (T24 m c) e) : Holds (T25 m c) e :=
  ⟨(step25 m c main_v7 (by decide)).trans h.ic,
   (step25 m c main_v15 (by decide)).trans h.iv,
   (step25 m c main_arg4 (by decide)).trans h.posSrc,
   (step25 m c main_arg5 (by decide)).trans h.posTrg,
   (step25 m c main_arg6 (by decide)).trans h.negSrc,
   (step25 m c main_arg7 (by decide)).trans h.negTrg,
   (step25 m c main_arg12 (by decide)).trans h.wc,
   (step25 m c main_arg13 (by decide)).trans h.bc,
   (step25 m c main_arg14 (by decide)).trans h.wv,
   (step25 m c main_arg15 (by decide)).trans h.bv⟩
theorem holds26 (c : Dev nD) (e : Env F) (h : Holds (T25 m c) e) : Holds (T26 m c) e :=
  ⟨(step26 m c main_v7 (by decide)).trans h.ic,
   (step26 m c main_v15 (by decide)).trans h.iv,
   (step26 m c main_arg4 (by decide)).trans h.posSrc,
   (step26 m c main_arg5 (by decide)).trans h.posTrg,
   (step26 m c main_arg6 (by decide)).trans h.negSrc,
   (step26 m c main_arg7 (by decide)).trans h.negTrg,
   (step26 m c main_arg12 (by decide)).trans h.wc,
   (step26 m c main_arg13 (by decide)).trans h.bc,
   (step26 m c main_arg14 (by decide)).trans h.wv,
   (step26 m c main_arg15 (by decide)).trans h.bv⟩
theorem holds27 (c : Dev nD) (e : Env F) (h : Holds (T26 m c) e) : Holds (T27 m c) e :=
  ⟨(step27 m c main_v7 (by decide)).trans h.ic,
   (step27 m c main_v15 (by decide)).trans h.iv,
   (step27 m c main_arg4 (by decide)).trans h.posSrc,
   (step27 m c main_arg5 (by decide)).trans h.posTrg,
   (step27 m c main_arg6 (by decide)).trans h.negSrc,
   (step27 m c main_arg7 (by decide)).trans h.negTrg,
   (step27 m c main_arg12 (by decide)).trans h.wc,
   (step27 m c main_arg13 (by decide)).trans h.bc,
   (step27 m c main_arg14 (by decide)).trans h.wv,
   (step27 m c main_arg15 (by decide)).trans h.bv⟩
theorem holds28 (c : Dev nD) (e : Env F) (h : Holds (T27 m c) e) : Holds (T28 m c) e :=
  ⟨(step28 m c main_v7 (by decide)).trans h.ic,
   (step28 m c main_v15 (by decide)).trans h.iv,
   (step28 m c main_arg4 (by decide)).trans h.posSrc,
   (step28 m c main_arg5 (by decide)).trans h.posTrg,
   (step28 m c main_arg6 (by decide)).trans h.negSrc,
   (step28 m c main_arg7 (by decide)).trans h.negTrg,
   (step28 m c main_arg12 (by decide)).trans h.wc,
   (step28 m c main_arg13 (by decide)).trans h.bc,
   (step28 m c main_arg14 (by decide)).trans h.wv,
   (step28 m c main_arg15 (by decide)).trans h.bv⟩
theorem holds29 (c : Dev nD) (e : Env F) (h : Holds (T28 m c) e) : Holds (T29 m c) e :=
  ⟨(step29 m c main_v7 (by decide)).trans h.ic,
   (step29 m c main_v15 (by decide)).trans h.iv,
   (step29 m c main_arg4 (by decide)).trans h.posSrc,
   (step29 m c main_arg5 (by decide)).trans h.posTrg,
   (step29 m c main_arg6 (by decide)).trans h.negSrc,
   (step29 m c main_arg7 (by decide)).trans h.negTrg,
   (step29 m c main_arg12 (by decide)).trans h.wc,
   (step29 m c main_arg13 (by decide)).trans h.bc,
   (step29 m c main_arg14 (by decide)).trans h.wv,
   (step29 m c main_arg15 (by decide)).trans h.bv⟩
theorem holds30 (c : Dev nD) (e : Env F) (h : Holds (T29 m c) e) : Holds (T30 m c) e :=
  ⟨(step30 m c main_v7 (by decide)).trans h.ic,
   (step30 m c main_v15 (by decide)).trans h.iv,
   (step30 m c main_arg4 (by decide)).trans h.posSrc,
   (step30 m c main_arg5 (by decide)).trans h.posTrg,
   (step30 m c main_arg6 (by decide)).trans h.negSrc,
   (step30 m c main_arg7 (by decide)).trans h.negTrg,
   (step30 m c main_arg12 (by decide)).trans h.wc,
   (step30 m c main_arg13 (by decide)).trans h.bc,
   (step30 m c main_arg14 (by decide)).trans h.wv,
   (step30 m c main_arg15 (by decide)).trans h.bv⟩
theorem holds31 (c : Dev nD) (e : Env F) (h : Holds (T30 m c) e) : Holds (T31 m c) e :=
  ⟨(step31 m c main_v7 (by decide)).trans h.ic,
   (step31 m c main_v15 (by decide)).trans h.iv,
   (step31 m c main_arg4 (by decide)).trans h.posSrc,
   (step31 m c main_arg5 (by decide)).trans h.posTrg,
   (step31 m c main_arg6 (by decide)).trans h.negSrc,
   (step31 m c main_arg7 (by decide)).trans h.negTrg,
   (step31 m c main_arg12 (by decide)).trans h.wc,
   (step31 m c main_arg13 (by decide)).trans h.bc,
   (step31 m c main_arg14 (by decide)).trans h.wv,
   (step31 m c main_arg15 (by decide)).trans h.bv⟩
theorem holds32 (c : Dev nD) (e : Env F) (h : Holds (T31 m c) e) : Holds (T32 m c) e :=
  ⟨(step32 m c main_v7 (by decide)).trans h.ic,
   (step32 m c main_v15 (by decide)).trans h.iv,
   (step32 m c main_arg4 (by decide)).trans h.posSrc,
   (step32 m c main_arg5 (by decide)).trans h.posTrg,
   (step32 m c main_arg6 (by decide)).trans h.negSrc,
   (step32 m c main_arg7 (by decide)).trans h.negTrg,
   (step32 m c main_arg12 (by decide)).trans h.wc,
   (step32 m c main_arg13 (by decide)).trans h.bc,
   (step32 m c main_arg14 (by decide)).trans h.wv,
   (step32 m c main_arg15 (by decide)).trans h.bv⟩
theorem holds33 (c : Dev nD) (e : Env F) (h : Holds (T32 m c) e) : Holds (T33 m c) e :=
  ⟨(step33 m c main_v7 (by decide)).trans h.ic,
   (step33 m c main_v15 (by decide)).trans h.iv,
   (step33 m c main_arg4 (by decide)).trans h.posSrc,
   (step33 m c main_arg5 (by decide)).trans h.posTrg,
   (step33 m c main_arg6 (by decide)).trans h.negSrc,
   (step33 m c main_arg7 (by decide)).trans h.negTrg,
   (step33 m c main_arg12 (by decide)).trans h.wc,
   (step33 m c main_arg13 (by decide)).trans h.bc,
   (step33 m c main_arg14 (by decide)).trans h.wv,
   (step33 m c main_arg15 (by decide)).trans h.bv⟩
theorem holds34 (c : Dev nD) (e : Env F) (h : Holds (T33 m c) e) : Holds (T34 m c) e :=
  ⟨(step34 m c main_v7 (by decide)).trans h.ic,
   (step34 m c main_v15 (by decide)).trans h.iv,
   (step34 m c main_arg4 (by decide)).trans h.posSrc,
   (step34 m c main_arg5 (by decide)).trans h.posTrg,
   (step34 m c main_arg6 (by decide)).trans h.negSrc,
   (step34 m c main_arg7 (by decide)).trans h.negTrg,
   (step34 m c main_arg12 (by decide)).trans h.wc,
   (step34 m c main_arg13 (by decide)).trans h.bc,
   (step34 m c main_arg14 (by decide)).trans h.wv,
   (step34 m c main_arg15 (by decide)).trans h.bv⟩
theorem holds35 (c : Dev nD) (e : Env F) (h : Holds (T34 m c) e) : Holds (T35 m c) e :=
  ⟨(step35 m c main_v7 (by decide)).trans h.ic,
   (step35 m c main_v15 (by decide)).trans h.iv,
   (step35 m c main_arg4 (by decide)).trans h.posSrc,
   (step35 m c main_arg5 (by decide)).trans h.posTrg,
   (step35 m c main_arg6 (by decide)).trans h.negSrc,
   (step35 m c main_arg7 (by decide)).trans h.negTrg,
   (step35 m c main_arg12 (by decide)).trans h.wc,
   (step35 m c main_arg13 (by decide)).trans h.bc,
   (step35 m c main_arg14 (by decide)).trans h.wv,
   (step35 m c main_arg15 (by decide)).trans h.bv⟩
theorem holds36 (c : Dev nD) (e : Env F) (h : Holds (T35 m c) e) : Holds (T36 m c) e :=
  ⟨(step36 m c main_v7 (by decide)).trans h.ic,
   (step36 m c main_v15 (by decide)).trans h.iv,
   (step36 m c main_arg4 (by decide)).trans h.posSrc,
   (step36 m c main_arg5 (by decide)).trans h.posTrg,
   (step36 m c main_arg6 (by decide)).trans h.negSrc,
   (step36 m c main_arg7 (by decide)).trans h.negTrg,
   (step36 m c main_arg12 (by decide)).trans h.wc,
   (step36 m c main_arg13 (by decide)).trans h.bc,
   (step36 m c main_arg14 (by decide)).trans h.wv,
   (step36 m c main_arg15 (by decide)).trans h.bv⟩
theorem holds37 (c : Dev nD) (e : Env F) (h : Holds (T36 m c) e) : Holds (T37 m c) e :=
  ⟨(step37 m c main_v7 (by decide)).trans h.ic,
   (step37 m c main_v15 (by decide)).trans h.iv,
   (step37 m c main_arg4 (by decide)).trans h.posSrc,
   (step37 m c main_arg5 (by decide)).trans h.posTrg,
   (step37 m c main_arg6 (by decide)).trans h.negSrc,
   (step37 m c main_arg7 (by decide)).trans h.negTrg,
   (step37 m c main_arg12 (by decide)).trans h.wc,
   (step37 m c main_arg13 (by decide)).trans h.bc,
   (step37 m c main_arg14 (by decide)).trans h.wv,
   (step37 m c main_arg15 (by decide)).trans h.bv⟩
theorem holds38 (c : Dev nD) (e : Env F) (h : Holds (T37 m c) e) : Holds (T38 m c) e :=
  ⟨(step38 m c main_v7 (by decide)).trans h.ic,
   (step38 m c main_v15 (by decide)).trans h.iv,
   (step38 m c main_arg4 (by decide)).trans h.posSrc,
   (step38 m c main_arg5 (by decide)).trans h.posTrg,
   (step38 m c main_arg6 (by decide)).trans h.negSrc,
   (step38 m c main_arg7 (by decide)).trans h.negTrg,
   (step38 m c main_arg12 (by decide)).trans h.wc,
   (step38 m c main_arg13 (by decide)).trans h.bc,
   (step38 m c main_arg14 (by decide)).trans h.wv,
   (step38 m c main_arg15 (by decide)).trans h.bv⟩
theorem holds39 (c : Dev nD) (e : Env F) (h : Holds (T38 m c) e) : Holds (T39 m c) e :=
  ⟨(step39 m c main_v7 (by decide)).trans h.ic,
   (step39 m c main_v15 (by decide)).trans h.iv,
   (step39 m c main_arg4 (by decide)).trans h.posSrc,
   (step39 m c main_arg5 (by decide)).trans h.posTrg,
   (step39 m c main_arg6 (by decide)).trans h.negSrc,
   (step39 m c main_arg7 (by decide)).trans h.negTrg,
   (step39 m c main_arg12 (by decide)).trans h.wc,
   (step39 m c main_arg13 (by decide)).trans h.bc,
   (step39 m c main_arg14 (by decide)).trans h.wv,
   (step39 m c main_arg15 (by decide)).trans h.bv⟩
theorem holds40 (c : Dev nD) (e : Env F) (h : Holds (T39 m c) e) : Holds (T40 m c) e :=
  ⟨(step40 m c main_v7 (by decide)).trans h.ic,
   (step40 m c main_v15 (by decide)).trans h.iv,
   (step40 m c main_arg4 (by decide)).trans h.posSrc,
   (step40 m c main_arg5 (by decide)).trans h.posTrg,
   (step40 m c main_arg6 (by decide)).trans h.negSrc,
   (step40 m c main_arg7 (by decide)).trans h.negTrg,
   (step40 m c main_arg12 (by decide)).trans h.wc,
   (step40 m c main_arg13 (by decide)).trans h.bc,
   (step40 m c main_arg14 (by decide)).trans h.wv,
   (step40 m c main_arg15 (by decide)).trans h.bv⟩
theorem holds41 (c : Dev nD) (e : Env F) (h : Holds (T40 m c) e) : Holds (T41 m c) e :=
  ⟨(step41 m c main_v7 (by decide)).trans h.ic,
   (step41 m c main_v15 (by decide)).trans h.iv,
   (step41 m c main_arg4 (by decide)).trans h.posSrc,
   (step41 m c main_arg5 (by decide)).trans h.posTrg,
   (step41 m c main_arg6 (by decide)).trans h.negSrc,
   (step41 m c main_arg7 (by decide)).trans h.negTrg,
   (step41 m c main_arg12 (by decide)).trans h.wc,
   (step41 m c main_arg13 (by decide)).trans h.bc,
   (step41 m c main_arg14 (by decide)).trans h.wv,
   (step41 m c main_arg15 (by decide)).trans h.bv⟩
theorem holds42 (c : Dev nD) (e : Env F) (h : Holds (T41 m c) e) : Holds (T42 m c) e :=
  ⟨(step42 m c main_v7 (by decide)).trans h.ic,
   (step42 m c main_v15 (by decide)).trans h.iv,
   (step42 m c main_arg4 (by decide)).trans h.posSrc,
   (step42 m c main_arg5 (by decide)).trans h.posTrg,
   (step42 m c main_arg6 (by decide)).trans h.negSrc,
   (step42 m c main_arg7 (by decide)).trans h.negTrg,
   (step42 m c main_arg12 (by decide)).trans h.wc,
   (step42 m c main_arg13 (by decide)).trans h.bc,
   (step42 m c main_arg14 (by decide)).trans h.wv,
   (step42 m c main_arg15 (by decide)).trans h.bv⟩
theorem holds43 (c : Dev nD) (e : Env F) (h : Holds (T42 m c) e) : Holds (T43 m c) e :=
  ⟨(step43 m c main_v7 (by decide)).trans h.ic,
   (step43 m c main_v15 (by decide)).trans h.iv,
   (step43 m c main_arg4 (by decide)).trans h.posSrc,
   (step43 m c main_arg5 (by decide)).trans h.posTrg,
   (step43 m c main_arg6 (by decide)).trans h.negSrc,
   (step43 m c main_arg7 (by decide)).trans h.negTrg,
   (step43 m c main_arg12 (by decide)).trans h.wc,
   (step43 m c main_arg13 (by decide)).trans h.bc,
   (step43 m c main_arg14 (by decide)).trans h.wv,
   (step43 m c main_arg15 (by decide)).trans h.bv⟩
theorem holds44 (c : Dev nD) (e : Env F) (h : Holds (T43 m c) e) : Holds (T44 m c) e :=
  ⟨(step44 m c main_v7 (by decide)).trans h.ic,
   (step44 m c main_v15 (by decide)).trans h.iv,
   (step44 m c main_arg4 (by decide)).trans h.posSrc,
   (step44 m c main_arg5 (by decide)).trans h.posTrg,
   (step44 m c main_arg6 (by decide)).trans h.negSrc,
   (step44 m c main_arg7 (by decide)).trans h.negTrg,
   (step44 m c main_arg12 (by decide)).trans h.wc,
   (step44 m c main_arg13 (by decide)).trans h.bc,
   (step44 m c main_arg14 (by decide)).trans h.wv,
   (step44 m c main_arg15 (by decide)).trans h.bv⟩
theorem holds45 (c : Dev nD) (e : Env F) (h : Holds (T44 m c) e) : Holds (T45 m c) e :=
  ⟨(step45 m c main_v7 (by decide)).trans h.ic,
   (step45 m c main_v15 (by decide)).trans h.iv,
   (step45 m c main_arg4 (by decide)).trans h.posSrc,
   (step45 m c main_arg5 (by decide)).trans h.posTrg,
   (step45 m c main_arg6 (by decide)).trans h.negSrc,
   (step45 m c main_arg7 (by decide)).trans h.negTrg,
   (step45 m c main_arg12 (by decide)).trans h.wc,
   (step45 m c main_arg13 (by decide)).trans h.bc,
   (step45 m c main_arg14 (by decide)).trans h.wv,
   (step45 m c main_arg15 (by decide)).trans h.bv⟩
theorem holds46 (c : Dev nD) (e : Env F) (h : Holds (T45 m c) e) : Holds (T46 m c) e :=
  ⟨(step46 m c main_v7 (by decide)).trans h.ic,
   (step46 m c main_v15 (by decide)).trans h.iv,
   (step46 m c main_arg4 (by decide)).trans h.posSrc,
   (step46 m c main_arg5 (by decide)).trans h.posTrg,
   (step46 m c main_arg6 (by decide)).trans h.negSrc,
   (step46 m c main_arg7 (by decide)).trans h.negTrg,
   (step46 m c main_arg12 (by decide)).trans h.wc,
   (step46 m c main_arg13 (by decide)).trans h.bc,
   (step46 m c main_arg14 (by decide)).trans h.wv,
   (step46 m c main_arg15 (by decide)).trans h.bv⟩
theorem holds47 (c : Dev nD) (e : Env F) (h : Holds (T46 m c) e) : Holds (T47 m c) e :=
  ⟨(step47 m c main_v7 (by decide)).trans h.ic,
   (step47 m c main_v15 (by decide)).trans h.iv,
   (step47 m c main_arg4 (by decide)).trans h.posSrc,
   (step47 m c main_arg5 (by decide)).trans h.posTrg,
   (step47 m c main_arg6 (by decide)).trans h.negSrc,
   (step47 m c main_arg7 (by decide)).trans h.negTrg,
   (step47 m c main_arg12 (by decide)).trans h.wc,
   (step47 m c main_arg13 (by decide)).trans h.bc,
   (step47 m c main_arg14 (by decide)).trans h.wv,
   (step47 m c main_arg15 (by decide)).trans h.bv⟩
theorem holds48 (c : Dev nD) (e : Env F) (h : Holds (T47 m c) e) : Holds (T48 m c) e :=
  ⟨(step48 m c main_v7 (by decide)).trans h.ic,
   (step48 m c main_v15 (by decide)).trans h.iv,
   (step48 m c main_arg4 (by decide)).trans h.posSrc,
   (step48 m c main_arg5 (by decide)).trans h.posTrg,
   (step48 m c main_arg6 (by decide)).trans h.negSrc,
   (step48 m c main_arg7 (by decide)).trans h.negTrg,
   (step48 m c main_arg12 (by decide)).trans h.wc,
   (step48 m c main_arg13 (by decide)).trans h.bc,
   (step48 m c main_arg14 (by decide)).trans h.wv,
   (step48 m c main_arg15 (by decide)).trans h.bv⟩
theorem holds49 (c : Dev nD) (e : Env F) (h : Holds (T48 m c) e) : Holds (T49 m c) e :=
  ⟨(step49 m c main_v7 (by decide)).trans h.ic,
   (step49 m c main_v15 (by decide)).trans h.iv,
   (step49 m c main_arg4 (by decide)).trans h.posSrc,
   (step49 m c main_arg5 (by decide)).trans h.posTrg,
   (step49 m c main_arg6 (by decide)).trans h.negSrc,
   (step49 m c main_arg7 (by decide)).trans h.negTrg,
   (step49 m c main_arg12 (by decide)).trans h.wc,
   (step49 m c main_arg13 (by decide)).trans h.bc,
   (step49 m c main_arg14 (by decide)).trans h.wv,
   (step49 m c main_arg15 (by decide)).trans h.bv⟩
theorem holds50 (c : Dev nD) (e : Env F) (h : Holds (T49 m c) e) : Holds (T50 m c) e :=
  ⟨(step50 m c main_v7 (by decide)).trans h.ic,
   (step50 m c main_v15 (by decide)).trans h.iv,
   (step50 m c main_arg4 (by decide)).trans h.posSrc,
   (step50 m c main_arg5 (by decide)).trans h.posTrg,
   (step50 m c main_arg6 (by decide)).trans h.negSrc,
   (step50 m c main_arg7 (by decide)).trans h.negTrg,
   (step50 m c main_arg12 (by decide)).trans h.wc,
   (step50 m c main_arg13 (by decide)).trans h.bc,
   (step50 m c main_arg14 (by decide)).trans h.wv,
   (step50 m c main_arg15 (by decide)).trans h.bv⟩
theorem holds51 (c : Dev nD) (e : Env F) (h : Holds (T50 m c) e) : Holds (T51 m c) e :=
  ⟨(step51 m c main_v7 (by decide)).trans h.ic,
   (step51 m c main_v15 (by decide)).trans h.iv,
   (step51 m c main_arg4 (by decide)).trans h.posSrc,
   (step51 m c main_arg5 (by decide)).trans h.posTrg,
   (step51 m c main_arg6 (by decide)).trans h.negSrc,
   (step51 m c main_arg7 (by decide)).trans h.negTrg,
   (step51 m c main_arg12 (by decide)).trans h.wc,
   (step51 m c main_arg13 (by decide)).trans h.bc,
   (step51 m c main_arg14 (by decide)).trans h.wv,
   (step51 m c main_arg15 (by decide)).trans h.bv⟩
theorem holds52 (c : Dev nD) (e : Env F) (h : Holds (T51 m c) e) : Holds (T52 m c) e :=
  ⟨(step52 m c main_v7 (by decide)).trans h.ic,
   (step52 m c main_v15 (by decide)).trans h.iv,
   (step52 m c main_arg4 (by decide)).trans h.posSrc,
   (step52 m c main_arg5 (by decide)).trans h.posTrg,
   (step52 m c main_arg6 (by decide)).trans h.negSrc,
   (step52 m c main_arg7 (by decide)).trans h.negTrg,
   (step52 m c main_arg12 (by decide)).trans h.wc,
   (step52 m c main_arg13 (by decide)).trans h.bc,
   (step52 m c main_arg14 (by decide)).trans h.wv,
   (step52 m c main_arg15 (by decide)).trans h.bv⟩
theorem holds53 (c : Dev nD) (e : Env F) (h : Holds (T52 m c) e) : Holds (T53 m c) e :=
  ⟨(step53 m c main_v7 (by decide)).trans h.ic,
   (step53 m c main_v15 (by decide)).trans h.iv,
   (step53 m c main_arg4 (by decide)).trans h.posSrc,
   (step53 m c main_arg5 (by decide)).trans h.posTrg,
   (step53 m c main_arg6 (by decide)).trans h.negSrc,
   (step53 m c main_arg7 (by decide)).trans h.negTrg,
   (step53 m c main_arg12 (by decide)).trans h.wc,
   (step53 m c main_arg13 (by decide)).trans h.bc,
   (step53 m c main_arg14 (by decide)).trans h.wv,
   (step53 m c main_arg15 (by decide)).trans h.bv⟩
theorem holds54 (c : Dev nD) (e : Env F) (h : Holds (T53 m c) e) : Holds (T54 m c) e :=
  ⟨(step54 m c main_v7 (by decide)).trans h.ic,
   (step54 m c main_v15 (by decide)).trans h.iv,
   (step54 m c main_arg4 (by decide)).trans h.posSrc,
   (step54 m c main_arg5 (by decide)).trans h.posTrg,
   (step54 m c main_arg6 (by decide)).trans h.negSrc,
   (step54 m c main_arg7 (by decide)).trans h.negTrg,
   (step54 m c main_arg12 (by decide)).trans h.wc,
   (step54 m c main_arg13 (by decide)).trans h.bc,
   (step54 m c main_arg14 (by decide)).trans h.wv,
   (step54 m c main_arg15 (by decide)).trans h.bv⟩
theorem holds55 (c : Dev nD) (e : Env F) (h : Holds (T54 m c) e) : Holds (T55 m c) e :=
  ⟨(step55 m c main_v7 (by decide)).trans h.ic,
   (step55 m c main_v15 (by decide)).trans h.iv,
   (step55 m c main_arg4 (by decide)).trans h.posSrc,
   (step55 m c main_arg5 (by decide)).trans h.posTrg,
   (step55 m c main_arg6 (by decide)).trans h.negSrc,
   (step55 m c main_arg7 (by decide)).trans h.negTrg,
   (step55 m c main_arg12 (by decide)).trans h.wc,
   (step55 m c main_arg13 (by decide)).trans h.bc,
   (step55 m c main_arg14 (by decide)).trans h.wv,
   (step55 m c main_arg15 (by decide)).trans h.bv⟩
theorem holds56 (c : Dev nD) (e : Env F) (h : Holds (T55 m c) e) : Holds (T56 m c) e :=
  ⟨(step56 m c main_v7 (by decide)).trans h.ic,
   (step56 m c main_v15 (by decide)).trans h.iv,
   (step56 m c main_arg4 (by decide)).trans h.posSrc,
   (step56 m c main_arg5 (by decide)).trans h.posTrg,
   (step56 m c main_arg6 (by decide)).trans h.negSrc,
   (step56 m c main_arg7 (by decide)).trans h.negTrg,
   (step56 m c main_arg12 (by decide)).trans h.wc,
   (step56 m c main_arg13 (by decide)).trans h.bc,
   (step56 m c main_arg14 (by decide)).trans h.wv,
   (step56 m c main_arg15 (by decide)).trans h.bv⟩
theorem holds57 (c : Dev nD) (e : Env F) (h : Holds (T56 m c) e) : Holds (T57 m c) e :=
  ⟨(step57 m c main_v7 (by decide)).trans h.ic,
   (step57 m c main_v15 (by decide)).trans h.iv,
   (step57 m c main_arg4 (by decide)).trans h.posSrc,
   (step57 m c main_arg5 (by decide)).trans h.posTrg,
   (step57 m c main_arg6 (by decide)).trans h.negSrc,
   (step57 m c main_arg7 (by decide)).trans h.negTrg,
   (step57 m c main_arg12 (by decide)).trans h.wc,
   (step57 m c main_arg13 (by decide)).trans h.bc,
   (step57 m c main_arg14 (by decide)).trans h.wv,
   (step57 m c main_arg15 (by decide)).trans h.bv⟩
theorem holds58 (c : Dev nD) (e : Env F) (h : Holds (T57 m c) e) : Holds (T58 m c) e :=
  ⟨(step58 m c main_v7 (by decide)).trans h.ic,
   (step58 m c main_v15 (by decide)).trans h.iv,
   (step58 m c main_arg4 (by decide)).trans h.posSrc,
   (step58 m c main_arg5 (by decide)).trans h.posTrg,
   (step58 m c main_arg6 (by decide)).trans h.negSrc,
   (step58 m c main_arg7 (by decide)).trans h.negTrg,
   (step58 m c main_arg12 (by decide)).trans h.wc,
   (step58 m c main_arg13 (by decide)).trans h.bc,
   (step58 m c main_arg14 (by decide)).trans h.wv,
   (step58 m c main_arg15 (by decide)).trans h.bv⟩
theorem holds59 (c : Dev nD) (e : Env F) (h : Holds (T58 m c) e) : Holds (T59 m c) e :=
  ⟨(step59 m c main_v7 (by decide)).trans h.ic,
   (step59 m c main_v15 (by decide)).trans h.iv,
   (step59 m c main_arg4 (by decide)).trans h.posSrc,
   (step59 m c main_arg5 (by decide)).trans h.posTrg,
   (step59 m c main_arg6 (by decide)).trans h.negSrc,
   (step59 m c main_arg7 (by decide)).trans h.negTrg,
   (step59 m c main_arg12 (by decide)).trans h.wc,
   (step59 m c main_arg13 (by decide)).trans h.bc,
   (step59 m c main_arg14 (by decide)).trans h.wv,
   (step59 m c main_arg15 (by decide)).trans h.bv⟩
theorem holds60 (c : Dev nD) (e : Env F) (h : Holds (T59 m c) e) : Holds (T60 m c) e :=
  ⟨(step60 m c main_v7 (by decide)).trans h.ic,
   (step60 m c main_v15 (by decide)).trans h.iv,
   (step60 m c main_arg4 (by decide)).trans h.posSrc,
   (step60 m c main_arg5 (by decide)).trans h.posTrg,
   (step60 m c main_arg6 (by decide)).trans h.negSrc,
   (step60 m c main_arg7 (by decide)).trans h.negTrg,
   (step60 m c main_arg12 (by decide)).trans h.wc,
   (step60 m c main_arg13 (by decide)).trans h.bc,
   (step60 m c main_arg14 (by decide)).trans h.wv,
   (step60 m c main_arg15 (by decide)).trans h.bv⟩

end Cert.KernelIdeal.Hand

end
-- ==== Proof.KI.Stretch2.lean ====
/-
  What the first message region's four operand arrays hold after the host stretch before it: per edge, the clause
  state's row at the edge's clause and the variable state's row at the edge's variable (two gathers of rows), and the
  two inverse square roots of the degrees at the edge's ends (two gathers of entries, each as a one-column matrix).
  An edge index that is negative counts from the end: it is made non-negative by adding the table's length.
  Each statement gives the contents of one buffer after the stretch as the stretch's operations applied to the
  contents, before it, of the buffers it reads; it holds at any float values and from any contents before.
-/
import proofs.«149588_j66838281060723_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The clause state's rows at the positive edges' clauses. -/
theorem s2_v26 (W : Valuation τ sig (Elt F)) :
    StableHlo.after hostOps2 W main_v26
      = Host.gather gather_S2000000x2_S6000000x1_S6000000x2_1_0_n_n_0_1_12 (W main_v17)
          (broadcastInDim S6000000x1 ![0] bcast_S6000000_S6000000x1_0
            (select (cmpi .slt (W main_arg4) (broadcastInDim S6000000 ![] bcast_S_S6000000 (constantI S_ 32 0#32)))
              (addi (W main_arg4) (broadcastInDim S6000000 ![] bcast_S_S6000000 (constantI S_ 32 2000000#32)))
              (W main_arg4))) := by
  after_results_simp <;> rfl

/-- The variable state's rows at the positive edges' variables. -/
theorem s2_v33 (W : Valuation τ sig (Elt F)) :
    StableHlo.after hostOps2 W main_v33
      = Host.gather gather_S500000x2_S6000000x1_S6000000x2_1_0_n_n_0_1_12 (W main_v19)
          (broadcastInDim S6000000x1 ![0] bcast_S6000000_S6000000x1_0
            (select (cmpi .slt (W main_arg5) (broadcastInDim S6000000 ![] bcast_S_S6000000 (constantI S_ 32 0#32)))
              (addi (W main_arg5) (broadcastInDim S6000000 ![] bcast_S_S6000000 (constantI S_ 32 500000#32)))
              (W main_arg5))) := by
  after_results_simp <;> rfl

/-- The clause degrees' inverse square roots at the positive edges' clauses, as a column. -/
theorem s2_v41 (W : Valuation τ sig (Elt F)) :
    StableHlo.after hostOps2 W main_v41
      = shapeCast S6000000x1
          (Host.gather gather_S2000000_S6000000x1_S6000000_n_0_n_n_0_1_1 (W main_v7)
            (broadcastInDim S6000000x1 ![0] bcast_S6000000_S6000000x1_0
              (select (cmpi .slt (W main_arg4) (broadcastInDim S6000000 ![] bcast_S_S6000000 (constantI S_ 32 0#32)))
                (addi (W main_arg4) (broadcastInDim S6000000 ![] bcast_S_S6000000 (constantI S_ 32 2000000#32)))
                (W main_arg4))))
          shapeCasts_S6000000_S6000000x1 := by
  after_results_simp <;> rfl

/-- The variable degrees' inverse square roots at the positive edges' variables, as a column. -/
theorem s2_v49 (W : Valuation τ sig (Elt F)) :
    StableHlo.after hostOps2 W main_v49
      = shapeCast S6000000x1
          (Host.gather gather_S500000_S6000000x1_S6000000_n_0_n_n_0_1_1 (W main_v15)
            (broadcastInDim S6000000x1 ![0] bcast_S6000000_S6000000x1_0
              (select (cmpi .slt (W main_arg5) (broadcastInDim S6000000 ![] bcast_S_S6000000 (constantI S_ 32 0#32)))
                (addi (W main_arg5) (broadcastInDim S6000000 ![] bcast_S_S6000000 (constantI S_ 32 500000#32)))
                (W main_arg5))))
          shapeCasts_S6000000_S6000000x1 := by
  after_results_simp <;> rfl

end Cert.KernelIdeal.Hand

end
-- ==== Proof.KI.Stretch3.lean ====
/-
  What the buffers hold after the host stretch hostOps3 (42 operations; it reads main_arg5, main_v50, main_arg6, main_v17, main_arg7, main_v19, main_v7, main_v15).
  Each statement gives the contents of one buffer after the stretch as the stretch's operations applied to the contents,
  before it, of the buffers the stretch reads; it holds at any float values and from any contents before.
-/
import proofs.«149588_j66838281060723_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The contents of main_v53 after the stretch. -/
theorem s3_v53 (W : Valuation τ sig (Elt F)) :
    StableHlo.after hostOps3 W main_v53
      = Host.scatterAdd scatter_S500000x2_S6000000x1_S6000000x2_1_0_0_1
          (broadcastInDim S500000x2 ![] bcast_S_S500000x2 (constant S_ .f32 0x00000000#32))
          (broadcastInDim S6000000x1 ![0] bcast_S6000000_S6000000x1_0 (W main_arg5))
          (W main_v50) := by
  after_results_simp <;> rfl

/-- The contents of main_v60 after the stretch. -/
theorem s3_v60 (W : Valuation τ sig (Elt F)) :
    StableHlo.after hostOps3 W main_v60
      = Host.gather gather_S2000000x2_S6000000x1_S6000000x2_1_0_n_n_0_1_12
          (W main_v17)
          (broadcastInDim S6000000x1 ![0] bcast_S6000000_S6000000x1_0
            (select
              (cmpi .slt (W main_arg6) (broadcastInDim S6000000 ![] bcast_S_S6000000 (constantI S_ 32 0#32)))
              (addi (W main_arg6) (broadcastInDim S6000000 ![] bcast_S_S6000000 (constantI S_ 32 2000000#32)))
              (W main_arg6))) := by
  after_results_simp <;> rfl

/-- The contents of main_v67 after the stretch. -/
theorem s3_v67 (W : Valuation τ sig (Elt F)) :
    StableHlo.after hostOps3 W main_v67
      = Host.gather gather_S500000x2_S6000000x1_S6000000x2_1_0_n_n_0_1_12
          (W main_v19)
          (broadcastInDim S6000000x1 ![0] bcast_S6000000_S6000000x1_0
            (select
              (cmpi .slt (W main_arg7) (broadcastInDim S6000000 ![] bcast_S_S6000000 (constantI S_ 32 0#32)))
              (addi (W main_arg7) (broadcastInDim S6000000 ![] bcast_S_S6000000 (constantI S_ 32 500000#32)))
              (W main_arg7))) := by
  after_results_simp <;> rfl

/-- The contents of main_v75 after the stretch. -/
theorem s3_v75 (W : Valuation τ sig (Elt F)) :
    StableHlo.after hostOps3 W main_v75
      = shapeCast S6000000x1
          (Host.gather gather_S2000000_S6000000x1_S6000000_n_0_n_n_0_1_1
            (W main_v7)
            (broadcastInDim S6000000x1 ![0] bcast_S6000000_S6000000x1_0
              (select
                (cmpi .slt (W main_arg6) (broadcastInDim S6000000 ![] bcast_S_S6000000 (constantI S_ 32 0#32)))
                (addi (W main_arg6) (broadcastInDim S6000000 ![] bcast_S_S6000000 (constantI S_ 32 2000000#32)))
                (W main_arg6))))
          shapeCasts_S6000000_S6000000x1 := by
  after_results_simp <;> rfl

/-- The contents of main_v83 after the stretch. -/
theorem s3_v83 (W : Valuation τ sig (Elt F)) :
    StableHlo.after hostOps3 W main_v83
      = shapeCast S6000000x1
          (Host.gather gather_S500000_S6000000x1_S6000000_n_0_n_n_0_1_1
            (W main_v15)
            (broadcastInDim S6000000x1 ![0] bcast_S6000000_S6000000x1_0
              (select
                (cmpi .slt (W main_arg7) (broadcastInDim S6000000 ![] bcast_S_S6000000 (constantI S_ 32 0#32)))
                (addi (W main_arg7) (broadcastInDim S6000000 ![] bcast_S_S6000000 (constantI S_ 32 500000#32)))
                (W main_arg7))))
          shapeCasts_S6000000_S6000000x1 := by
  after_results_simp <;> rfl

end Cert.KernelIdeal.Hand

end
-- ==== Proof.KI.Stretch4.lean ====
/-
  What the buffers hold after the host stretch hostOps4 (42 operations; it reads main_arg7, main_v84, main_arg5, main_v19, main_arg4, main_v17, main_v15, main_v7).
  Each statement gives the contents of one buffer after the stretch as the stretch's operations applied to the contents,
  before it, of the buffers the stretch reads; it holds at any float values and from any contents before.
-/
import proofs.«149588_j66838281060723_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The contents of main_v87 after the stretch. -/
theorem s4_v87 (W : Valuation τ sig (Elt F)) :
    StableHlo.after hostOps4 W main_v87
      = Host.scatterAdd scatter_S500000x2_S6000000x1_S6000000x2_1_0_0_1
          (broadcastInDim S500000x2 ![] bcast_S_S500000x2 (constant S_ .f32 0x00000000#32))
          (broadcastInDim S6000000x1 ![0] bcast_S6000000_S6000000x1_0 (W main_arg7))
          (W main_v84) := by
  after_results_simp <;> rfl

/-- The contents of main_v94 after the stretch. -/
theorem s4_v94 (W : Valuation τ sig (Elt F)) :
    StableHlo.after hostOps4 W main_v94
      = Host.gather gather_S500000x2_S6000000x1_S6000000x2_1_0_n_n_0_1_12
          (W main_v19)
          (broadcastInDim S6000000x1 ![0] bcast_S6000000_S6000000x1_0
            (select
              (cmpi .slt (W main_arg5) (broadcastInDim S6000000 ![] bcast_S_S6000000 (constantI S_ 32 0#32)))
              (addi (W main_arg5) (broadcastInDim S6000000 ![] bcast_S_S6000000 (constantI S_ 32 500000#32)))
              (W main_arg5))) := by
  after_results_simp <;> rfl

/-- The contents of main_v101 after the stretch. -/
theorem s4_v101 (W : Valuation τ sig (Elt F)) :
    StableHlo.after hostOps4 W main_v101
      = Host.gather gather_S2000000x2_S6000000x1_S6000000x2_1_0_n_n_0_1_12
          (W main_v17)
          (broadcastInDim S6000000x1 ![0] bcast_S6000000_S6000000x1_0
            (select
              (cmpi .slt (W main_arg4) (broadcastInDim S6000000 ![] bcast_S_S6000000 (constantI S_ 32 0#32)))
              (addi (W main_arg4) (broadcastInDim S6000000 ![] bcast_S_S6000000 (constantI S_ 32 2000000#32)))
              (W main_arg4))) := by
  after_results_simp <;> rfl

/-- The contents of main_v109 after the stretch. -/
theorem s4_v109 (W : Valuation τ sig (Elt F)) :
    StableHlo.after hostOps4 W main_v109
      = shapeCast S6000000x1
          (Host.gather gather_S500000_S6000000x1_S6000000_n_0_n_n_0_1_1
            (W main_v15)
            (broadcastInDim S6000000x1 ![0] bcast_S6000000_S6000000x1_0
              (select
                (cmpi .slt (W main_arg5) (broadcastInDim S6000000 ![] bcast_S_S6000000 (constantI S_ 32 0#32)))
                (addi (W main_arg5) (broadcastInDim S6000000 ![] bcast_S_S6000000 (constantI S_ 32 500000#32)))
                (W main_arg5))))
          shapeCasts_S6000000_S6000000x1 := by
  after_results_simp <;> rfl

/-- The contents of main_v117 after the stretch. -/
theorem s4_v117 (W : Valuation τ sig (Elt F)) :
    StableHlo.after hostOps4 W main_v117
      = shapeCast S6000000x1
          (Host.gather gather_S2000000_S6000000x1_S6000000_n_0_n_n_0_1_1
            (W main_v7)
            (broadcastInDim S6000000x1 ![0] bcast_S6000000_S6000000x1_0
              (select
                (cmpi .slt (W main_arg4) (broadcastInDim S6000000 ![] bcast_S_S6000000 (constantI S_ 32 0#32)))
                (addi (W main_arg4) (broadcastInDim S6000000 ![] bcast_S_S6000000 (constantI S_ 32 2000000#32)))
                (W main_arg4))))
          shapeCasts_S6000000_S6000000x1 := by
  after_results_simp <;> rfl

end Cert.KernelIdeal.Hand

end
-- ==== Proof.KI.Stretch5.lean ====
/-
  What the buffers hold after the host stretch hostOps5 (42 operations; it reads main_arg4, main_v118, main_arg7, main_v19, main_arg6, main_v17, main_v15, main_v7).
  Each statement gives the contents of one buffer after the stretch as the stretch's operations applied to the contents,
  before it, of the buffers the stretch reads; it holds at any float values and from any contents before.
-/
import proofs.«149588_j66838281060723_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The contents of main_v121 after the stretch. -/
theorem s5_v121 (W : Valuation τ sig (Elt F)) :
    StableHlo.after hostOps5 W main_v121
      = Host.scatterAdd scatter_S2000000x2_S6000000x1_S6000000x2_1_0_0_1
          (broadcastInDim S2000000x2 ![] bcast_S_S2000000x2 (constant S_ .f32 0x00000000#32))
          (broadcastInDim S6000000x1 ![0] bcast_S6000000_S6000000x1_0 (W main_arg4))
          (W main_v118) := by
  after_results_simp <;> rfl

/-- The contents of main_v128 after the stretch. -/
theorem s5_v128 (W : Valuation τ sig (Elt F)) :
    StableHlo.after hostOps5 W main_v128
      = Host.gather gather_S500000x2_S6000000x1_S6000000x2_1_0_n_n_0_1_12
          (W main_v19)
          (broadcastInDim S6000000x1 ![0] bcast_S6000000_S6000000x1_0
            (select
              (cmpi .slt (W main_arg7) (broadcastInDim S6000000 ![] bcast_S_S6000000 (constantI S_ 32 0#32)))
              (addi (W main_arg7) (broadcastInDim S6000000 ![] bcast_S_S6000000 (constantI S_ 32 500000#32)))
              (W main_arg7))) := by
  after_results_simp <;> rfl

/-- The contents of main_v135 after the stretch. -/
theorem s5_v135 (W : Valuation τ sig (Elt F)) :
    StableHlo.after hostOps5 W main_v135
      = Host.gather gather_S2000000x2_S6000000x1_S6000000x2_1_0_n_n_0_1_12
          (W main_v17)
          (broadcastInDim S6000000x1 ![0] bcast_S6000000_S6000000x1_0
            (select
              (cmpi .slt (W main_arg6) (broadcastInDim S6000000 ![] bcast_S_S6000000 (constantI S_ 32 0#32)))
              (addi (W main_arg6) (broadcastInDim S6000000 ![] bcast_S_S6000000 (constantI S_ 32 2000000#32)))
              (W main_arg6))) := by
  after_results_simp <;> rfl

/-- The contents of main_v143 after the stretch. -/
theorem s5_v143 (W : Valuation τ sig (Elt F)) :
    StableHlo.after hostOps5 W main_v143
      = shapeCast S6000000x1
          (Host.gather gather_S500000_S6000000x1_S6000000_n_0_n_n_0_1_1
            (W main_v15)
            (broadcastInDim S6000000x1 ![0] bcast_S6000000_S6000000x1_0
              (select
                (cmpi .slt (W main_arg7) (broadcastInDim S6000000 ![] bcast_S_S6000000 (constantI S_ 32 0#32)))
                (addi (W main_arg7) (broadcastInDim S6000000 ![] bcast_S_S6000000 (constantI S_ 32 500000#32)))
                (W main_arg7))))
          shapeCasts_S6000000_S6000000x1 := by
  after_results_simp <;> rfl

/-- The contents of main_v151 after the stretch. -/
theorem s5_v151 (W : Valuation τ sig (Elt F)) :
    StableHlo.after hostOps5 W main_v151
      = shapeCast S6000000x1
          (Host.gather gather_S2000000_S6000000x1_S6000000_n_0_n_n_0_1_1
            (W main_v7)
            (broadcastInDim S6000000x1 ![0] bcast_S6000000_S6000000x1_0
              (select
                (cmpi .slt (W main_arg6) (broadcastInDim S6000000 ![] bcast_S_S6000000 (constantI S_ 32 0#32)))
                (addi (W main_arg6) (broadcastInDim S6000000 ![] bcast_S_S6000000 (constantI S_ 32 2000000#32)))
                (W main_arg6))))
          shapeCasts_S6000000_S6000000x1 := by
  after_results_simp <;> rfl

end Cert.KernelIdeal.Hand

end
-- ==== Proof.LibNary3.lean ====
/-
  A host operation over a literal family of THREE buffers (a concatenate of three operands), read at its result
  buffer: the result with each operand's contents at its own reference, so that rewriting can go on inside the
  operands. General; stated for any topology, signature and value family.
-/
import Idealize.ShloMosaic.Lib.StableHlo.Run

noncomputable section

namespace Idealize.ShloMosaic.StableHlo

variable {τ : Topo} {sig : RefSig} {Val : EltTy → Type}
variable {x a b y : Ref sig .tc}

/-- The operation's result at its own buffer: its function applied to the three operands' contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, stated for one rewriting pass (the result buffer left out of the index). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- One rewriting pass over a line of host operations that may hold three-operand concatenates: each operation's
    result at its own buffer is its function of the operands' contents, at any other buffer what was there. -/
macro "after_results_simp3" : tactic =>
  `(tactic| (simp (disch := decide) only [after_cons, after_nil,
      nullary_result', unary_result', binary_result', ternary_result', quaternary_result', reshape_result', nary3_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.KI.Stretch6.lean ====
/-
  What the buffers hold after the host stretch hostOps6 (11 operations; it reads main_arg6, main_v152, main_v53, main_v87, main_v19, main_v121, main_v17, main_arg14, main_arg15).
  Each statement gives the contents of one buffer after the stretch as the stretch's operations applied to the contents,
  before it, of the buffers the stretch reads; it holds at any float values and from any contents before.
-/
import proofs.«149588_j66838281060723_2_alg».proof.Proof.Gen.KernelIdeal.Launch
import Idealize.ShloMosaic.Lib.StableHlo.Run
import proofs.«149588_j66838281060723_2_alg».proof.Proof.LibNary3

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The contents of main_v155 after the stretch. -/
theorem s6_v155 (W : Valuation τ sig (Elt F)) :
    StableHlo.after hostOps6 W main_v155
      = Host.scatterAdd scatter_S2000000x2_S6000000x1_S6000000x2_1_0_0_1
          (broadcastInDim S2000000x2 ![] bcast_S_S2000000x2 (constant S_ .f32 0x00000000#32))
          (broadcastInDim S6000000x1 ![0] bcast_S6000000_S6000000x1_0 (W main_arg6))
          (W main_v152) := by
  after_results_simp3 <;> rfl

/-- The contents of main_v156 after the stretch. -/
theorem s6_v156 (W : Valuation τ sig (Elt F)) :
    StableHlo.after hostOps6 W main_v156
      = concatenate S500000x6 1
          [⟨S500000x2, W main_v53⟩, ⟨S500000x2, W main_v87⟩, ⟨S500000x2, W main_v19⟩]
          concatenates_S500000x2_S500000x2_S500000x2_S500000x6_d1 := by
  after_results_simp3 <;> rfl

/-- The contents of main_v157 after the stretch. -/
theorem s6_v157 (W : Valuation τ sig (Elt F)) :
    StableHlo.after hostOps6 W main_v157
      = concatenate S2000000x6 1
          [⟨S2000000x2, W main_v121⟩,
           ⟨S2000000x2,
             Host.scatterAdd scatter_S2000000x2_S6000000x1_S6000000x2_1_0_0_1
               (broadcastInDim S2000000x2 ![] bcast_S_S2000000x2 (constant S_ .f32 0x00000000#32))
               (broadcastInDim S6000000x1 ![0] bcast_S6000000_S6000000x1_0 (W main_arg6))
               (W main_v152)⟩,
           ⟨S2000000x2, W main_v17⟩]
          concatenates_S2000000x2_S2000000x2_S2000000x2_S2000000x6_d1 := by
  after_results_simp3 <;> rfl

/-- The contents of main_v159 after the stretch. -/
theorem s6_v159 (W : Valuation τ sig (Elt F)) :
    StableHlo.after hostOps6 W main_v159
      = shapeCast S6x2 (extractStridedSlice S1x6x2 ![0, 0, 0] (W main_arg14) slices_S4x6x2_S1x6x2_0_0_0) shapeCasts_S1x6x2_S6x2 := by
  after_results_simp3 <;> rfl

/-- The contents of main_v162 after the stretch. -/
theorem s6_v162 (W : Valuation τ sig (Elt F)) :
    StableHlo.after hostOps6 W main_v162
      = shapeCast S1x2
          (shapeCast S2 (extractStridedSlice S1x2 ![0, 0] (W main_arg15) slices_S4x2_S1x2_0_0) shapeCasts_S1x2_S2)
          shapeCasts_S2_S1x2 := by
  after_results_simp3 <;> rfl

end Cert.KernelIdeal.Hand

end
-- ==== Proof.KI.Stretch7.lean ====
/-
  What the buffers hold after the host stretch hostOps7 (5 operations; it reads main_arg12, main_arg13).
  Each statement gives the contents of one buffer after the stretch as the stretch's operations applied to the contents,
  before it, of the buffers the stretch reads; it holds at any float values and from any contents before.
-/
import proofs.«149588_j66838281060723_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The contents of main_v165 after the stretch. -/
theorem s7_v165 (W : Valuation τ sig (Elt F)) :
    StableHlo.after hostOps7 W main_v165
      = shapeCast S6x2 (extractStridedSlice S1x6x2 ![0, 0, 0] (W main_arg12) slices_S4x6x2_S1x6x2_0_0_0) shapeCasts_S1x6x2_S6x2 := by
  after_results_simp <;> rfl

/-- The contents of main_v168 after the stretch. -/
theorem s7_v168 (W : Valuation τ sig (Elt F)) :
    StableHlo.after hostOps7 W main_v168
      = shapeCast S1x2
          (shapeCast S2 (extractStridedSlice S1x2 ![0, 0] (W main_arg13) slices_S4x2_S1x2_0_0) shapeCasts_S1x2_S2)
          shapeCasts_S2_S1x2 := by
  after_results_simp <;> rfl

end Cert.KernelIdeal.Hand

end
-- ==== Proof.KI.ChainL0.lean ====
/-
  One layer of the network, item by item. Entered with the clause and variable states in their two buffers and the
  environment's ten values in theirs: each host stretch leaves in the buffers it writes the gathers, scatter-adds, slices
  and concatenates of what it reads; each message region leaves the message function of its four operand arrays, each
  affine region the affine function of its three; a buffer nobody writes in between is carried from the item that wrote
  it to the item that reads it. The two affine regions' outputs are the layer's two functions of the states and the
  environment.
-/
import proofs.«149588_j66838281060723_2_alg».proof.Proof.KI.Outs
import proofs.«149588_j66838281060723_2_alg».proof.Proof.KI.Hold
import proofs.«149588_j66838281060723_2_alg».proof.Proof.KI.Stretch2
import proofs.«149588_j66838281060723_2_alg».proof.Proof.KI.Stretch3
import proofs.«149588_j66838281060723_2_alg».proof.Proof.KI.Stretch4
import proofs.«149588_j66838281060723_2_alg».proof.Proof.KI.Stretch5
import proofs.«149588_j66838281060723_2_alg».proof.Proof.KI.Stretch6
import proofs.«149588_j66838281060723_2_alg».proof.Proof.KI.Stretch7

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

variable (m : (ℓ : Loc nD τ sig) → Buf (Elt F) ℓ)

/-- Layer 0: from the buffers holding the two states and the environment before it, the two state buffers after it hold
    the layer's two functions of them, and the environment's buffers are as before. -/
theorem layer0 (c : Dev nD) (e : Env F) (xc : Vec F S2000000x2 .f32) (xv : Vec F S500000x2 .f32)
    (h_v17_12 : T12 m c main_v17 = xc) (h_v19_12 : T12 m c main_v19 = xv) (H12 : Holds (T12 m c) e) :
    T24 m c main_v169 = kLayerC ![0, 0, 0] slices_S4x6x2_S1x6x2_0_0_0 ![0, 0] slices_S4x2_S1x2_0_0 e xc xv ∧ T24 m c main_v163 = kLayerV ![0, 0, 0] slices_S4x6x2_S1x6x2_0_0_0 ![0, 0] slices_S4x2_S1x2_0_0 e xc xv ∧ Holds (T24 m c) e := by
  have H13 : Holds (T13 m c) e := holds13 m c e H12
  have h_v41_13 : T13 m c main_v41 = kColC e.ic e.posSrc := by
    refine (s2_v41 (T12 m c)).trans ?_
    rw [H12.ic, H12.posSrc]
    rfl
  have h_v49_13 : T13 m c main_v49 = kColV e.iv e.posTrg := by
    refine (s2_v49 (T12 m c)).trans ?_
    rw [H12.iv, H12.posTrg]
    rfl
  have h_v26_13 : T13 m c main_v26 = kRowsC xc e.posSrc := by
    refine (s2_v26 (T12 m c)).trans ?_
    rw [h_v17_12, H12.posSrc]
    rfl
  have h_v33_13 : T13 m c main_v33 = kRowsV xv e.posTrg := by
    refine (s2_v33 (T12 m c)).trans ?_
    rw [h_v19_12, H12.posTrg]
    rfl
  have H14 : Holds (T14 m c) e := holds14 m c e H13
  have h_v50_14 : T14 m c main_v50 = msgG (F := F) (n := 6000000) (kColC e.ic e.posSrc) (kColV e.iv e.posTrg) (kRowsC xc e.posSrc) (kRowsV xv e.posTrg) := by
    refine (out2 m c).trans ?_
    rw [h_v41_13, h_v49_13, h_v26_13, h_v33_13]
  have H15 : Holds (T15 m c) e := holds15 m c e H14
  have h_v53_15 : T15 m c main_v53 = kConvV xc xv e.ic e.iv e.posSrc e.posTrg := by
    refine (s3_v53 (T14 m c)).trans ?_
    rw [H14.posTrg, h_v50_14]
    rfl
  have h_v75_15 : T15 m c main_v75 = kColC e.ic e.negSrc := by
    refine (s3_v75 (T14 m c)).trans ?_
    rw [H14.ic, H14.negSrc]
    rfl
  have h_v83_15 : T15 m c main_v83 = kColV e.iv e.negTrg := by
    refine (s3_v83 (T14 m c)).trans ?_
    rw [H14.iv, H14.negTrg]
    rfl
  have h_v17_13 : T13 m c main_v17 = xc := (step13 m c main_v17 (by decide)).trans h_v17_12
  have h_v17_14 : T14 m c main_v17 = xc := (step14 m c main_v17 (by decide)).trans h_v17_13
  have h_v60_15 : T15 m c main_v60 = kRowsC xc e.negSrc := by
    refine (s3_v60 (T14 m c)).trans ?_
    rw [h_v17_14, H14.negSrc]
    rfl
  have h_v19_13 : T13 m c main_v19 = xv := (step13 m c main_v19 (by decide)).trans h_v19_12
  have h_v19_14 : T14 m c main_v19 = xv := (step14 m c main_v19 (by decide)).trans h_v19_13
  have h_v67_15 : T15 m c main_v67 = kRowsV xv e.negTrg := by
    refine (s3_v67 (T14 m c)).trans ?_
    rw [h_v19_14, H14.negTrg]
    rfl
  have H16 : Holds (T16 m c) e := holds16 m c e H15
  have h_v84_16 : T16 m c main_v84 = msgG (F := F) (n := 6000000) (kColC e.ic e.negSrc) (kColV e.iv e.negTrg) (kRowsC xc e.negSrc) (kRowsV xv e.negTrg) := by
    refine (out3 m c).trans ?_
    rw [h_v75_15, h_v83_15, h_v60_15, h_v67_15]
  have H17 : Holds (T17 m c) e := holds17 m c e H16
  have h_v87_17 : T17 m c main_v87 = kConvV xc xv e.ic e.iv e.negSrc e.negTrg := by
    refine (s4_v87 (T16 m c)).trans ?_
    rw [H16.negTrg, h_v84_16]
    rfl
  have h_v109_17 : T17 m c main_v109 = kColV e.iv e.posTrg := by
    refine (s4_v109 (T16 m c)).trans ?_
    rw [H16.iv, H16.posTrg]
    rfl
  have h_v117_17 : T17 m c main_v117 = kColC e.ic e.posSrc := by
    refine (s4_v117 (T16 m c)).trans ?_
    rw [H16.ic, H16.posSrc]
    rfl
  have h_v19_15 : T15 m c main_v19 = xv := (step15 m c main_v19 (by decide)).trans h_v19_14
  have h_v19_16 : T16 m c main_v19 = xv := (step16 m c main_v19 (by decide)).trans h_v19_15
  have h_v94_17 : T17 m c main_v94 = kRowsV xv e.posTrg := by
    refine (s4_v94 (T16 m c)).trans ?_
    rw [h_v19_16, H16.posTrg]
    rfl
  have h_v17_15 : T15 m c main_v17 = xc := (step15 m c main_v17 (by decide)).trans h_v17_14
  have h_v17_16 : T16 m c main_v17 = xc := (step16 m c main_v17 (by decide)).trans h_v17_15
  have h_v101_17 : T17 m c main_v101 = kRowsC xc e.posSrc := by
    refine (s4_v101 (T16 m c)).trans ?_
    rw [h_v17_16, H16.posSrc]
    rfl
  have H18 : Holds (T18 m c) e := holds18 m c e H17
  have h_v118_18 : T18 m c main_v118 = msgG (F := F) (n := 6000000) (kColV e.iv e.posTrg) (kColC e.ic e.posSrc) (kRowsV xv e.posTrg) (kRowsC xc e.posSrc) := by
    refine (out4 m c).trans ?_
    rw [h_v109_17, h_v117_17, h_v94_17, h_v101_17]
  have H19 : Holds (T19 m c) e := holds19 m c e H18
  have h_v121_19 : T19 m c main_v121 = kConvC xc xv e.ic e.iv e.posSrc e.posTrg := by
    refine (s5_v121 (T18 m c)).trans ?_
    rw [H18.posSrc, h_v118_18]
    rfl
  have h_v143_19 : T19 m c main_v143 = kColV e.iv e.negTrg := by
    refine (s5_v143 (T18 m c)).trans ?_
    rw [H18.iv, H18.negTrg]
    rfl
  have h_v151_19 : T19 m c main_v151 = kColC e.ic e.negSrc := by
    refine (s5_v151 (T18 m c)).trans ?_
    rw [H18.ic, H18.negSrc]
    rfl
  have h_v19_17 : T17 m c main_v19 = xv := (step17 m c main_v19 (by decide)).trans h_v19_16
  have h_v19_18 : T18 m c main_v19 = xv := (step18 m c main_v19 (by decide)).trans h_v19_17
  have h_v128_19 : T19 m c main_v128 = kRowsV xv e.negTrg := by
    refine (s5_v128 (T18 m c)).trans ?_
    rw [h_v19_18, H18.negTrg]
    rfl
  have h_v17_17 : T17 m c main_v17 = xc := (step17 m c main_v17 (by decide)).trans h_v17_16
  have h_v17_18 : T18 m c main_v17 = xc := (step18 m c main_v17 (by decide)).trans h_v17_17
  have h_v135_19 : T19 m c main_v135 = kRowsC xc e.negSrc := by
    refine (s5_v135 (T18 m c)).trans ?_
    rw [h_v17_18, H18.negSrc]
    rfl
  have H20 : Holds (T20 m c) e := holds20 m c e H19
  have h_v152_20 : T20 m c main_v152 = msgG (F := F) (n := 6000000) (kColV e.iv e.negTrg) (kColC e.ic e.negSrc) (kRowsV xv e.negTrg) (kRowsC xc e.negSrc) := by
    refine (out5 m c).trans ?_
    rw [h_v143_19, h_v151_19, h_v128_19, h_v135_19]
  have H21 : Holds (T21 m c) e := holds21 m c e H20
  have h_v53_16 : T16 m c main_v53 = kConvV xc xv e.ic e.iv e.posSrc e.posTrg := (step16 m c main_v53 (by decide)).trans h_v53_15
  have h_v53_17 : T17 m c main_v53 = kConvV xc xv e.ic e.iv e.posSrc e.posTrg := (step17 m c main_v53 (by decide)).trans h_v53_16
  have h_v53_18 : T18 m c main_v53 = kConvV xc xv e.ic e.iv e.posSrc e.posTrg := (step18 m c main_v53 (by decide)).trans h_v53_17
  have h_v53_19 : T19 m c main_v53 = kConvV xc xv e.ic e.iv e.posSrc e.posTrg := (step19 m c main_v53 (by decide)).trans h_v53_18
  have h_v53_20 : T20 m c main_v53 = kConvV xc xv e.ic e.iv e.posSrc e.posTrg := (step20 m c main_v53 (by decide)).trans h_v53_19
  have h_v87_18 : T18 m c main_v87 = kConvV xc xv e.ic e.iv e.negSrc e.negTrg := (step18 m c main_v87 (by decide)).trans h_v87_17
  have h_v87_19 : T19 m c main_v87 = kConvV xc xv e.ic e.iv e.negSrc e.negTrg := (step19 m c main_v87 (by decide)).trans h_v87_18
  have h_v87_20 : T20 m c main_v87 = kConvV xc xv e.ic e.iv e.negSrc e.negTrg := (step20 m c main_v87 (by decide)).trans h_v87_19
  have h_v19_19 : T19 m c main_v19 = xv := (step19 m c main_v19 (by decide)).trans h_v19_18
  have h_v19_20 : T20 m c main_v19 = xv := (step20 m c main_v19 (by decide)).trans h_v19_19
  have h_v156_21 : T21 m c main_v156 = concatenate S500000x6 1 [⟨S500000x2, kConvV xc xv e.ic e.iv e.posSrc e.posTrg⟩, ⟨S500000x2, kConvV xc xv e.ic e.iv e.negSrc e.negTrg⟩, ⟨S500000x2, xv⟩] concatenates_S500000x2_S500000x2_S500000x2_S500000x6_d1 := by
    refine (s6_v156 (T20 m c)).trans ?_
    rw [h_v53_20, h_v87_20, h_v19_20]
  have h_v159_21 : T21 m c main_v159 = kWAt ![0, 0, 0] slices_S4x6x2_S1x6x2_0_0_0 e.wv := by
    refine (s6_v159 (T20 m c)).trans ?_
    rw [H20.wv]
    rfl
  have h_v162_21 : T21 m c main_v162 = kBAt ![0, 0] slices_S4x2_S1x2_0_0 e.bv := by
    refine (s6_v162 (T20 m c)).trans ?_
    rw [H20.bv]
    rfl
  have h_v121_20 : T20 m c main_v121 = kConvC xc xv e.ic e.iv e.posSrc e.posTrg := (step20 m c main_v121 (by decide)).trans h_v121_19
  have h_v17_19 : T19 m c main_v17 = xc := (step19 m c main_v17 (by decide)).trans h_v17_18
  have h_v17_20 : T20 m c main_v17 = xc := (step20 m c main_v17 (by decide)).trans h_v17_19
  have h_v157_21 : T21 m c main_v157 = concatenate S2000000x6 1 [⟨S2000000x2, kConvC xc xv e.ic e.iv e.posSrc e.posTrg⟩, ⟨S2000000x2, kConvC xc xv e.ic e.iv e.negSrc e.negTrg⟩, ⟨S2000000x2, xc⟩] concatenates_S2000000x2_S2000000x2_S2000000x2_S2000000x6_d1 := by
    refine (s6_v157 (T20 m c)).trans ?_
    rw [h_v121_20, H20.negSrc, h_v152_20, h_v17_20]
    rfl
  have H22 : Holds (T22 m c) e := holds22 m c e H21
  have h_v163_22 : T22 m c main_v163 = kLayerV ![0, 0, 0] slices_S4x6x2_S1x6x2_0_0_0 ![0, 0] slices_S4x2_S1x2_0_0 e xc xv := by
    refine (out6 m c).trans ?_
    rw [h_v156_21, h_v159_21, h_v162_21]
    rfl
  have H23 : Holds (T23 m c) e := holds23 m c e H22
  have h_v165_23 : T23 m c main_v165 = kWAt ![0, 0, 0] slices_S4x6x2_S1x6x2_0_0_0 e.wc := by
    refine (s7_v165 (T22 m c)).trans ?_
    rw [H22.wc]
    rfl
  have h_v168_23 : T23 m c main_v168 = kBAt ![0, 0] slices_S4x2_S1x2_0_0 e.bc := by
    refine (s7_v168 (T22 m c)).trans ?_
    rw [H22.bc]
    rfl
  have H24 : Holds (T24 m c) e := holds24 m c e H23
  have h_v157_22 : T22 m c main_v157 = concatenate S2000000x6 1 [⟨S2000000x2, kConvC xc xv e.ic e.iv e.posSrc e.posTrg⟩, ⟨S2000000x2, kConvC xc xv e.ic e.iv e.negSrc e.negTrg⟩, ⟨S2000000x2, xc⟩] concatenates_S2000000x2_S2000000x2_S2000000x2_S2000000x6_d1 := (step22 m c main_v157 (by decide)).trans h_v157_21
  have h_v157_23 : T23 m c main_v157 = concatenate S2000000x6 1 [⟨S2000000x2, kConvC xc xv e.ic e.iv e.posSrc e.posTrg⟩, ⟨S2000000x2, kConvC xc xv e.ic e.iv e.negSrc e.negTrg⟩, ⟨S2000000x2, xc⟩] concatenates_S2000000x2_S2000000x2_S2000000x2_S2000000x6_d1 := (step23 m c main_v157 (by decide)).trans h_v157_22
  have h_v169_24 : T24 m c main_v169 = kLayerC ![0, 0, 0] slices_S4x6x2_S1x6x2_0_0_0 ![0, 0] slices_S4x2_S1x2_0_0 e xc xv := by
    refine (out7 m c).trans ?_
    rw [h_v157_23, h_v165_23, h_v168_23]
    rfl
  have h_v163_23 : T23 m c main_v163 = kLayerV ![0, 0, 0] slices_S4x6x2_S1x6x2_0_0_0 ![0, 0] slices_S4x2_S1x2_0_0 e xc xv := (step23 m c main_v163 (by decide)).trans h_v163_22
  have h_v163_24 : T24 m c main_v163 = kLayerV ![0, 0, 0] slices_S4x6x2_S1x6x2_0_0_0 ![0, 0] slices_S4x2_S1x2_0_0 e xc xv := (step24 m c main_v163 (by decide)).trans h_v163_23
  exact ⟨h_v169_24, h_v163_24, H24⟩

end Cert.KernelIdeal.Hand

end
-- ==== Proof.KI.Stretch8.lean ====
/-
  What the buffers hold after the host stretch hostOps8 (38 operations; it reads main_arg4, main_v169, main_arg5, main_v163, main_v7, main_v15).
  Each statement gives the contents of one buffer after the stretch as the stretch's operations applied to the contents,
  before it, of the buffers the stretch reads; it holds at any float values and from any contents before.
-/
import proofs.«149588_j66838281060723_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The contents of main_v176 after the stretch. -/
theorem s8_v176 (W : Valuation τ sig (Elt F)) :
    StableHlo.after hostOps8 W main_v176
      = Host.gather gather_S2000000x2_S6000000x1_S6000000x2_1_0_n_n_0_1_12
          (W main_v169)
          (broadcastInDim S6000000x1 ![0] bcast_S6000000_S6000000x1_0
            (select
              (cmpi .slt (W main_arg4) (broadcastInDim S6000000 ![] bcast_S_S6000000 (constantI S_ 32 0#32)))
              (addi (W main_arg4) (broadcastInDim S6000000 ![] bcast_S_S6000000 (constantI S_ 32 2000000#32)))
              (W main_arg4))) := by
  after_results_simp <;> rfl

/-- The contents of main_v183 after the stretch. -/
theorem s8_v183 (W : Valuation τ sig (Elt F)) :
    StableHlo.after hostOps8 W main_v183
      = Host.gather gather_S500000x2_S6000000x1_S6000000x2_1_0_n_n_0_1_12
          (W main_v163)
          (broadcastInDim S6000000x1 ![0] bcast_S6000000_S6000000x1_0
            (select
              (cmpi .slt (W main_arg5) (broadcastInDim S6000000 ![] bcast_S_S6000000 (constantI S_ 32 0#32)))
              (addi (W main_arg5) (broadcastInDim S6000000 ![] bcast_S_S6000000 (constantI S_ 32 500000#32)))
              (W main_arg5))) := by
  after_results_simp <;> rfl

/-- The contents of main_v191 after the stretch. -/
theorem s8_v191 (W : Valuation τ sig (Elt F)) :
    StableHlo.after hostOps8 W main_v191
      = shapeCast S6000000x1
          (Host.gather gather_S2000000_S6000000x1_S6000000_n_0_n_n_0_1_1
            (W main_v7)
            (broadcastInDim S6000000x1 ![0] bcast_S6000000_S6000000x1_0
              (select
                (cmpi .slt (W main_arg4) (broadcastInDim S6000000 ![] bcast_S_S6000000 (constantI S_ 32 0#32)))
                (addi (W main_arg4) (broadcastInDim S6000000 ![] bcast_S_S6000000 (constantI S_ 32 2000000#32)))
                (W main_arg4))))
          shapeCasts_S6000000_S6000000x1 := by
  after_results_simp <;> rfl

/-- The contents of main_v199 after the stretch. -/
theorem s8_v199 (W : Valuation τ sig (Elt F)) :
    StableHlo.after hostOps8 W main_v199
      = shapeCast S6000000x1
          (Host.gather gather_S500000_S6000000x1_S6000000_n_0_n_n_0_1_1
            (W main_v15)
            (broadcastInDim S6000000x1 ![0] bcast_S6000000_S6000000x1_0
              (select
                (cmpi .slt (W main_arg5) (broadcastInDim S6000000 ![] bcast_S_S6000000 (constantI S_ 32 0#32)))
                (addi (W main_arg5) (broadcastInDim S6000000 ![] bcast_S_S6000000 (constantI S_ 32 500000#32)))
                (W main_arg5))))
          shapeCasts_S6000000_S6000000x1 := by
  after_results_simp <;> rfl

end Cert.KernelIdeal.Hand

end
-- ==== Proof.KI.Stretch9.lean ====
/-
  What the buffers hold after the host stretch hostOps9 (42 operations; it reads main_arg5, main_v200, main_arg6, main_v169, main_arg7, main_v163, main_v7, main_v15).
  Each statement gives the contents of one buffer after the stretch as the stretch's operations applied to the contents,
  before it, of the buffers the stretch reads; it holds at any float values and from any contents before.
-/
import proofs.«149588_j66838281060723_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The contents of main_v203 after the stretch. -/
theorem s9_v203 (W : Valuation τ sig (Elt F)) :
    StableHlo.after hostOps9 W main_v203
      = Host.scatterAdd scatter_S500000x2_S6000000x1_S6000000x2_1_0_0_1
          (broadcastInDim S500000x2 ![] bcast_S_S500000x2 (constant S_ .f32 0x00000000#32))
          (broadcastInDim S6000000x1 ![0] bcast_S6000000_S6000000x1_0 (W main_arg5))
          (W main_v200) := by
  after_results_simp <;> rfl

/-- The contents of main_v210 after the stretch. -/
theorem s9_v210 (W : Valuation τ sig (Elt F)) :
    StableHlo.after hostOps9 W main_v210
      = Host.gather gather_S2000000x2_S6000000x1_S6000000x2_1_0_n_n_0_1_12
          (W main_v169)
          (broadcastInDim S6000000x1 ![0] bcast_S6000000_S6000000x1_0
            (select
              (cmpi .slt (W main_arg6) (broadcastInDim S6000000 ![] bcast_S_S6000000 (constantI S_ 32 0#32)))
              (addi (W main_arg6) (broadcastInDim S6000000 ![] bcast_S_S6000000 (constantI S_ 32 2000000#32)))
              (W main_arg6))) := by
  after_results_simp <;> rfl

/-- The contents of main_v217 after the stretch. -/
theorem s9_v217 (W : Valuation τ sig (Elt F)) :
    StableHlo.after hostOps9 W main_v217
      = Host.gather gather_S500000x2_S6000000x1_S6000000x2_1_0_n_n_0_1_12
          (W main_v163)
          (broadcastInDim S6000000x1 ![0] bcast_S6000000_S6000000x1_0
            (select
              (cmpi .slt (W main_arg7) (broadcastInDim S6000000 ![] bcast_S_S6000000 (constantI S_ 32 0#32)))
              (addi (W main_arg7) (broadcastInDim S6000000 ![] bcast_S_S6000000 (constantI S_ 32 500000#32)))
              (W main_arg7))) := by
  after_results_simp <;> rfl

/-- The contents of main_v225 after the stretch. -/
theorem s9_v225 (W : Valuation τ sig (Elt F)) :
    StableHlo.after hostOps9 W main_v225
      = shapeCast S6000000x1
          (Host.gather gather_S2000000_S6000000x1_S6000000_n_0_n_n_0_1_1
            (W main_v7)
            (broadcastInDim S6000000x1 ![0] bcast_S6000000_S6000000x1_0
              (select
                (cmpi .slt (W main_arg6) (broadcastInDim S6000000 ![] bcast_S_S6000000 (constantI S_ 32 0#32)))
                (addi (W main_arg6) (broadcastInDim S6000000 ![] bcast_S_S6000000 (constantI S_ 32 2000000#32)))
                (W main_arg6))))
          shapeCasts_S6000000_S6000000x1 := by
  after_results_simp <;> rfl

/-- The contents of main_v233 after the stretch. -/
theorem s9_v233 (W : Valuation τ sig (Elt F)) :
    StableHlo.after hostOps9 W main_v233
      = shapeCast S6000000x1
          (Host.gather gather_S500000_S6000000x1_S6000000_n_0_n_n_0_1_1
            (W main_v15)
            (broadcastInDim S6000000x1 ![0] bcast_S6000000_S6000000x1_0
              (select
                (cmpi .slt (W main_arg7) (broadcastInDim S6000000 ![] bcast_S_S6000000 (constantI S_ 32 0#32)))
                (addi (W main_arg7) (broadcastInDim S6000000 ![] bcast_S_S6000000 (constantI S_ 32 500000#32)))
                (W main_arg7))))
          shapeCasts_S6000000_S6000000x1 := by
  after_results_simp <;> rfl

end Cert.KernelIdeal.Hand

end
-- ==== Proof.KI.Stretch10.lean ====
/-
  What the buffers hold after the host stretch hostOps10 (42 operations; it reads main_arg7, main_v234, main_arg5, main_v163, main_arg4, main_v169, main_v15, main_v7).
  Each statement gives the contents of one buffer after the stretch as the stretch's operations applied to the contents,
  before it, of the buffers the stretch reads; it holds at any float values and from any contents before.
-/
import proofs.«149588_j66838281060723_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The contents of main_v237 after the stretch. -/
theorem s10_v237 (W : Valuation τ sig (Elt F)) :
    StableHlo.after hostOps10 W main_v237
      = Host.scatterAdd scatter_S500000x2_S6000000x1_S6000000x2_1_0_0_1
          (broadcastInDim S500000x2 ![] bcast_S_S500000x2 (constant S_ .f32 0x00000000#32))
          (broadcastInDim S6000000x1 ![0] bcast_S6000000_S6000000x1_0 (W main_arg7))
          (W main_v234) := by
  after_results_simp <;> rfl

/-- The contents of main_v244 after the stretch. -/
theorem s10_v244 (W : Valuation τ sig (Elt F)) :
    StableHlo.after hostOps10 W main_v244
      = Host.gather gather_S500000x2_S6000000x1_S6000000x2_1_0_n_n_0_1_12
          (W main_v163)
          (broadcastInDim S6000000x1 ![0] bcast_S6000000_S6000000x1_0
            (select
              (cmpi .slt (W main_arg5) (broadcastInDim S6000000 ![] bcast_S_S6000000 (constantI S_ 32 0#32)))
              (addi (W main_arg5) (broadcastInDim S6000000 ![] bcast_S_S6000000 (constantI S_ 32 500000#32)))
              (W main_arg5))) := by
  after_results_simp <;> rfl

/-- The contents of main_v251 after the stretch. -/
theorem s10_v251 (W : Valuation τ sig (Elt F)) :
    StableHlo.after hostOps10 W main_v251
      = Host.gather gather_S2000000x2_S6000000x1_S6000000x2_1_0_n_n_0_1_12
          (W main_v169)
          (broadcastInDim S6000000x1 ![0] bcast_S6000000_S6000000x1_0
            (select
              (cmpi .slt (W main_arg4) (broadcastInDim S6000000 ![] bcast_S_S6000000 (constantI S_ 32 0#32)))
              (addi (W main_arg4) (broadcastInDim S6000000 ![] bcast_S_S6000000 (constantI S_ 32 2000000#32)))
              (W main_arg4))) := by
  after_results_simp <;> rfl

/-- The contents of main_v259 after the stretch. -/
theorem s10_v259 (W : Valuation τ sig (Elt F)) :
    StableHlo.after hostOps10 W main_v259
      = shapeCast S6000000x1
          (Host.gather gather_S500000_S6000000x1_S6000000_n_0_n_n_0_1_1
            (W main_v15)
            (broadcastInDim S6000000x1 ![0] bcast_S6000000_S6000000x1_0
              (select
                (cmpi .slt (W main_arg5) (broadcastInDim S6000000 ![] bcast_S_S6000000 (constantI S_ 32 0#32)))
                (addi (W main_arg5) (broadcastInDim S6000000 ![] bcast_S_S6000000 (constantI S_ 32 500000#32)))
                (W main_arg5))))
          shapeCasts_S6000000_S6000000x1 := by
  after_results_simp <;> rfl

/-- The contents of main_v267 after the stretch. -/
theorem s10_v267 (W : Valuation τ sig (Elt F)) :
    StableHlo.after hostOps10 W main_v267
      = shapeCast S6000000x1
          (Host.gather gather_S2000000_S6000000x1_S6000000_n_0_n_n_0_1_1
            (W main_v7)
            (broadcastInDim S6000000x1 ![0] bcast_S6000000_S6000000x1_0
              (select
                (cmpi .slt (W main_arg4) (broadcastInDim S6000000 ![] bcast_S_S6000000 (constantI S_ 32 0#32)))
                (addi (W main_arg4) (broadcastInDim S6000000 ![] bcast_S_S6000000 (constantI S_ 32 2000000#32)))
                (W main_arg4))))
          shapeCasts_S6000000_S6000000x1 := by
  after_results_simp <;> rfl

end Cert.KernelIdeal.Hand

end
-- ==== Proof.KI.Stretch11.lean ====
/-
  What the buffers hold after the host stretch hostOps11 (42 operations; it reads main_arg4, main_v268, main_arg7, main_v163, main_arg6, main_v169, main_v15, main_v7).
  Each statement gives the contents of one buffer after the stretch as the stretch's operations applied to the contents,
  before it, of the buffers the stretch reads; it holds at any float values and from any contents before.
-/
import proofs.«149588_j66838281060723_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The contents of main_v271 after the stretch. -/
theorem s11_v271 (W : Valuation τ sig (Elt F)) :
    StableHlo.after hostOps11 W main_v271
      = Host.scatterAdd scatter_S2000000x2_S6000000x1_S6000000x2_1_0_0_1
          (broadcastInDim S2000000x2 ![] bcast_S_S2000000x2 (constant S_ .f32 0x00000000#32))
          (broadcastInDim S6000000x1 ![0] bcast_S6000000_S6000000x1_0 (W main_arg4))
          (W main_v268) := by
  after_results_simp <;> rfl

/-- The contents of main_v278 after the stretch. -/
theorem s11_v278 (W : Valuation τ sig (Elt F)) :
    StableHlo.after hostOps11 W main_v278
      = Host.gather gather_S500000x2_S6000000x1_S6000000x2_1_0_n_n_0_1_12
          (W main_v163)
          (broadcastInDim S6000000x1 ![0] bcast_S6000000_S6000000x1_0
            (select
              (cmpi .slt (W main_arg7) (broadcastInDim S6000000 ![] bcast_S_S6000000 (constantI S_ 32 0#32)))
              (addi (W main_arg7) (broadcastInDim S6000000 ![] bcast_S_S6000000 (constantI S_ 32 500000#32)))
              (W main_arg7))) := by
  after_results_simp <;> rfl

/-- The contents of main_v285 after the stretch. -/
theorem s11_v285 (W : Valuation τ sig (Elt F)) :
    StableHlo.after hostOps11 W main_v285
      = Host.gather gather_S2000000x2_S6000000x1_S6000000x2_1_0_n_n_0_1_12
          (W main_v169)
          (broadcastInDim S6000000x1 ![0] bcast_S6000000_S6000000x1_0
            (select
              (cmpi .slt (W main_arg6) (broadcastInDim S6000000 ![] bcast_S_S6000000 (constantI S_ 32 0#32)))
              (addi (W main_arg6) (broadcastInDim S6000000 ![] bcast_S_S6000000 (constantI S_ 32 2000000#32)))
              (W main_arg6))) := by
  after_results_simp <;> rfl

/-- The contents of main_v293 after the stretch. -/
theorem s11_v293 (W : Valuation τ sig (Elt F)) :
    StableHlo.after hostOps11 W main_v293
      = shapeCast S6000000x1
          (Host.gather gather_S500000_S6000000x1_S6000000_n_0_n_n_0_1_1
            (W main_v15)
            (broadcastInDim S6000000x1 ![0] bcast_S6000000_S6000000x1_0
              (select
                (cmpi .slt (W main_arg7) (broadcastInDim S6000000 ![] bcast_S_S6000000 (constantI S_ 32 0#32)))
                (addi (W main_arg7) (broadcastInDim S6000000 ![] bcast_S_S6000000 (constantI S_ 32 500000#32)))
                (W main_arg7))))
          shapeCasts_S6000000_S6000000x1 := by
  after_results_simp <;> rfl

/-- The contents of main_v301 after the stretch. -/
theorem s11_v301 (W : Valuation τ sig (Elt F)) :
    StableHlo.after hostOps11 W main_v301
      = shapeCast S6000000x1
          (Host.gather gather_S2000000_S6000000x1_S6000000_n_0_n_n_0_1_1
            (W main_v7)
            (broadcastInDim S6000000x1 ![0] bcast_S6000000_S6000000x1_0
              (select
                (cmpi .slt (W main_arg6) (broadcastInDim S6000000 ![] bcast_S_S6000000 (constantI S_ 32 0#32)))
                (addi (W main_arg6) (broadcastInDim S6000000 ![] bcast_S_S6000000 (constantI S_ 32 2000000#32)))
                (W main_arg6))))
          shapeCasts_S6000000_S6000000x1 := by
  after_results_simp <;> rfl

end Cert.KernelIdeal.Hand

end
-- ==== Proof.KI.Stretch12.lean ====
/-
  What the buffers hold after the host stretch hostOps12 (11 operations; it reads main_arg6, main_v302, main_v203, main_v237, main_v163, main_v271, main_v169, main_arg14, main_arg15).
  Each statement gives the contents of one buffer after the stretch as the stretch's operations applied to the contents,
  before it, of the buffers the stretch reads; it holds at any float values and from any contents before.
-/
import proofs.«149588_j66838281060723_2_alg».proof.Proof.Gen.KernelIdeal.Launch
import Idealize.ShloMosaic.Lib.StableHlo.Run
import proofs.«149588_j66838281060723_2_alg».proof.Proof.LibNary3

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The contents of main_v305 after the stretch. -/
theorem s12_v305 (W : Valuation τ sig (Elt F)) :
    StableHlo.after hostOps12 W main_v305
      = Host.scatterAdd scatter_S2000000x2_S6000000x1_S6000000x2_1_0_0_1
          (broadcastInDim S2000000x2 ![] bcast_S_S2000000x2 (constant S_ .f32 0x00000000#32))
          (broadcastInDim S6000000x1 ![0] bcast_S6000000_S6000000x1_0 (W main_arg6))
          (W main_v302) := by
  after_results_simp3 <;> rfl

/-- The contents of main_v306 after the stretch. -/
theorem s12_v306 (W : Valuation τ sig (Elt F)) :
    StableHlo.after hostOps12 W main_v306
      = concatenate S500000x6 1
          [⟨S500000x2, W main_v203⟩, ⟨S500000x2, W main_v237⟩, ⟨S500000x2, W main_v163⟩]
          concatenates_S500000x2_S500000x2_S500000x2_S500000x6_d1 := by
  after_results_simp3 <;> rfl

/-- The contents of main_v307 after the stretch. -/
theorem s12_v307 (W : Valuation τ sig (Elt F)) :
    StableHlo.after hostOps12 W main_v307
      = concatenate S2000000x6 1
          [⟨S2000000x2, W main_v271⟩,
           ⟨S2000000x2,
             Host.scatterAdd scatter_S2000000x2_S6000000x1_S6000000x2_1_0_0_1
               (broadcastInDim S2000000x2 ![] bcast_S_S2000000x2 (constant S_ .f32 0x00000000#32))
               (broadcastInDim S6000000x1 ![0] bcast_S6000000_S6000000x1_0 (W main_arg6))
               (W main_v302)⟩,
           ⟨S2000000x2, W main_v169⟩]
          concatenates_S2000000x2_S2000000x2_S2000000x2_S2000000x6_d1 := by
  after_results_simp3 <;> rfl

/-- The contents of main_v309 after the stretch. -/
theorem s12_v309 (W : Valuation τ sig (Elt F)) :
    StableHlo.after hostOps12 W main_v309
      = shapeCast S6x2 (extractStridedSlice S1x6x2 ![1, 0, 0] (W main_arg14) slices_S4x6x2_S1x6x2_1_0_0) shapeCasts_S1x6x2_S6x2 := by
  after_results_simp3 <;> rfl

/-- The contents of main_v312 after the stretch. -/
theorem s12_v312 (W : Valuation τ sig (Elt F)) :
    StableHlo.after hostOps12 W main_v312
      = shapeCast S1x2
          (shapeCast S2 (extractStridedSlice S1x2 ![1, 0] (W main_arg15) slices_S4x2_S1x2_1_0) shapeCasts_S1x2_S2)
          shapeCasts_S2_S1x2 := by
  after_results_simp3 <;> rfl

end Cert.KernelIdeal.Hand

end
-- ==== Proof.KI.Stretch13.lean ====
/-
  What the buffers hold after the host stretch hostOps13 (5 operations; it reads main_arg12, main_arg13).
  Each statement gives the contents of one buffer after the stretch as the stretch's operations applied to the contents,
  before it, of the buffers the stretch reads; it holds at any float values and from any contents before.
-/
import proofs.«149588_j66838281060723_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The contents of main_v315 after the stretch. -/
theorem s13_v315 (W : Valuation τ sig (Elt F)) :
    StableHlo.after hostOps13 W main_v315
      = shapeCast S6x2 (extractStridedSlice S1x6x2 ![1, 0, 0] (W main_arg12) slices_S4x6x2_S1x6x2_1_0_0) shapeCasts_S1x6x2_S6x2 := by
  after_results_simp <;> rfl

/-- The contents of main_v318 after the stretch. -/
theorem s13_v318 (W : Valuation τ sig (Elt F)) :
    StableHlo.after hostOps13 W main_v318
      = shapeCast S1x2
          (shapeCast S2 (extractStridedSlice S1x2 ![1, 0] (W main_arg13) slices_S4x2_S1x2_1_0) shapeCasts_S1x2_S2)
          shapeCasts_S2_S1x2 := by
  after_results_simp <;> rfl

end Cert.KernelIdeal.Hand

end
-- ==== Proof.KI.ChainL1.lean ====
/-
  One layer of the network, item by item. Entered with the clause and variable states in their two buffers and the
  environment's ten values in theirs: each host stretch leaves in the buffers it writes the gathers, scatter-adds, slices
  and concatenates of what it reads; each message region leaves the message function of its four operand arrays, each
  affine region the affine function of its three; a buffer nobody writes in between is carried from the item that wrote
  it to the item that reads it. The two affine regions' outputs are the layer's two functions of the states and the
  environment.
-/
import proofs.«149588_j66838281060723_2_alg».proof.Proof.KI.Outs
import proofs.«149588_j66838281060723_2_alg».proof.Proof.KI.Hold
import proofs.«149588_j66838281060723_2_alg».proof.Proof.KI.Stretch8
import proofs.«149588_j66838281060723_2_alg».proof.Proof.KI.Stretch9
import proofs.«149588_j66838281060723_2_alg».proof.Proof.KI.Stretch10
import proofs.«149588_j66838281060723_2_alg».proof.Proof.KI.Stretch11
import proofs.«149588_j66838281060723_2_alg».proof.Proof.KI.Stretch12
import proofs.«149588_j66838281060723_2_alg».proof.Proof.KI.Stretch13

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

variable (m : (ℓ : Loc nD τ sig) → Buf (Elt F) ℓ)

/-- Layer 1: from the buffers holding the two states and the environment before it, the two state buffers after it hold
    the layer's two functions of them, and the environment's buffers are as before. -/
theorem layer1 (c : Dev nD) (e : Env F) (xc : Vec F S2000000x2 .f32) (xv : Vec F S500000x2 .f32)
    (h_v169_24 : T24 m c main_v169 = xc) (h_v163_24 : T24 m c main_v163 = xv) (H24 : Holds (T24 m c) e) :
    T36 m c main_v319 = kLayerC ![1, 0, 0] slices_S4x6x2_S1x6x2_1_0_0 ![1, 0] slices_S4x2_S1x2_1_0 e xc xv ∧ T36 m c main_v313 = kLayerV ![1, 0, 0] slices_S4x6x2_S1x6x2_1_0_0 ![1, 0] slices_S4x2_S1x2_1_0 e xc xv ∧ Holds (T36 m c) e := by
  have H25 : Holds (T25 m c) e := holds25 m c e H24
  have h_v191_25 : T25 m c main_v191 = kColC e.ic e.posSrc := by
    refine (s8_v191 (T24 m c)).trans ?_
    rw [H24.ic, H24.posSrc]
    rfl
  have h_v199_25 : T25 m c main_v199 = kColV e.iv e.posTrg := by
    refine (s8_v199 (T24 m c)).trans ?_
    rw [H24.iv, H24.posTrg]
    rfl
  have h_v176_25 : T25 m c main_v176 = kRowsC xc e.posSrc := by
    refine (s8_v176 (T24 m c)).trans ?_
    rw [h_v169_24, H24.posSrc]
    rfl
  have h_v183_25 : T25 m c main_v183 = kRowsV xv e.posTrg := by
    refine (s8_v183 (T24 m c)).trans ?_
    rw [h_v163_24, H24.posTrg]
    rfl
  have H26 : Holds (T26 m c) e := holds26 m c e H25
  have h_v200_26 : T26 m c main_v200 = msgG (F := F) (n := 6000000) (kColC e.ic e.posSrc) (kColV e.iv e.posTrg) (kRowsC xc e.posSrc) (kRowsV xv e.posTrg) := by
    refine (out8 m c).trans ?_
    rw [h_v191_25, h_v199_25, h_v176_25, h_v183_25]
  have H27 : Holds (T27 m c) e := holds27 m c e H26
  have h_v203_27 : T27 m c main_v203 = kConvV xc xv e.ic e.iv e.posSrc e.posTrg := by
    refine (s9_v203 (T26 m c)).trans ?_
    rw [H26.posTrg, h_v200_26]
    rfl
  have h_v225_27 : T27 m c main_v225 = kColC e.ic e.negSrc := by
    refine (s9_v225 (T26 m c)).trans ?_
    rw [H26.ic, H26.negSrc]
    rfl
  have h_v233_27 : T27 m c main_v233 = kColV e.iv e.negTrg := by
    refine (s9_v233 (T26 m c)).trans ?_
    rw [H26.iv, H26.negTrg]
    rfl
  have h_v169_25 : T25 m c main_v169 = xc := (step25 m c main_v169 (by decide)).trans h_v169_24
  have h_v169_26 : T26 m c main_v169 = xc := (step26 m c main_v169 (by decide)).trans h_v169_25
  have h_v210_27 : T27 m c main_v210 = kRowsC xc e.negSrc := by
    refine (s9_v210 (T26 m c)).trans ?_
    rw [h_v169_26, H26.negSrc]
    rfl
  have h_v163_25 : T25 m c main_v163 = xv := (step25 m c main_v163 (by decide)).trans h_v163_24
  have h_v163_26 : T26 m c main_v163 = xv := (step26 m c main_v163 (by decide)).trans h_v163_25
  have h_v217_27 : T27 m c main_v217 = kRowsV xv e.negTrg := by
    refine (s9_v217 (T26 m c)).trans ?_
    rw [h_v163_26, H26.negTrg]
    rfl
  have H28 : Holds (T28 m c) e := holds28 m c e H27
  have h_v234_28 : T28 m c main_v234 = msgG (F := F) (n := 6000000) (kColC e.ic e.negSrc) (kColV e.iv e.negTrg) (kRowsC xc e.negSrc) (kRowsV xv e.negTrg) := by
    refine (out9 m c).trans ?_
    rw [h_v225_27, h_v233_27, h_v210_27, h_v217_27]
  have H29 : Holds (T29 m c) e := holds29 m c e H28
  have h_v237_29 : T29 m c main_v237 = kConvV xc xv e.ic e.iv e.negSrc e.negTrg := by
    refine (s10_v237 (T28 m c)).trans ?_
    rw [H28.negTrg, h_v234_28]
    rfl
  have h_v259_29 : T29 m c main_v259 = kColV e.iv e.posTrg := by
    refine (s10_v259 (T28 m c)).trans ?_
    rw [H28.iv, H28.posTrg]
    rfl
  have h_v267_29 : T29 m c main_v267 = kColC e.ic e.posSrc := by
    refine (s10_v267 (T28 m c)).trans ?_
    rw [H28.ic, H28.posSrc]
    rfl
  have h_v163_27 : T27 m c main_v163 = xv := (step27 m c main_v163 (by decide)).trans h_v163_26
  have h_v163_28 : T28 m c main_v163 = xv := (step28 m c main_v163 (by decide)).trans h_v163_27
  have h_v244_29 : T29 m c main_v244 = kRowsV xv e.posTrg := by
    refine (s10_v244 (T28 m c)).trans ?_
    rw [h_v163_28, H28.posTrg]
    rfl
  have h_v169_27 : T27 m c main_v169 = xc := (step27 m c main_v169 (by decide)).trans h_v169_26
  have h_v169_28 : T28 m c main_v169 = xc := (step28 m c main_v169 (by decide)).trans h_v169_27
  have h_v251_29 : T29 m c main_v251 = kRowsC xc e.posSrc := by
    refine (s10_v251 (T28 m c)).trans ?_
    rw [h_v169_28, H28.posSrc]
    rfl
  have H30 : Holds (T30 m c) e := holds30 m c e H29
  have h_v268_30 : T30 m c main_v268 = msgG (F := F) (n := 6000000) (kColV e.iv e.posTrg) (kColC e.ic e.posSrc) (kRowsV xv e.posTrg) (kRowsC xc e.posSrc) := by
    refine (out10 m c).trans ?_
    rw [h_v259_29, h_v267_29, h_v244_29, h_v251_29]
  have H31 : Holds (T31 m c) e := holds31 m c e H30
  have h_v271_31 : T31 m c main_v271 = kConvC xc xv e.ic e.iv e.posSrc e.posTrg := by
    refine (s11_v271 (T30 m c)).trans ?_
    rw [H30.posSrc, h_v268_30]
    rfl
  have h_v293_31 : T31 m c main_v293 = kColV e.iv e.negTrg := by
    refine (s11_v293 (T30 m c)).trans ?_
    rw [H30.iv, H30.negTrg]
    rfl
  have h_v301_31 : T31 m c main_v301 = kColC e.ic e.negSrc := by
    refine (s11_v301 (T30 m c)).trans ?_
    rw [H30.ic, H30.negSrc]
    rfl
  have h_v163_29 : T29 m c main_v163 = xv := (step29 m c main_v163 (by decide)).trans h_v163_28
  have h_v163_30 : T30 m c main_v163 = xv := (step30 m c main_v163 (by decide)).trans h_v163_29
  have h_v278_31 : T31 m c main_v278 = kRowsV xv e.negTrg := by
    refine (s11_v278 (T30 m c)).trans ?_
    rw [h_v163_30, H30.negTrg]
    rfl
  have h_v169_29 : T29 m c main_v169 = xc := (step29 m c main_v169 (by decide)).trans h_v169_28
  have h_v169_30 : T30 m c main_v169 = xc := (step30 m c main_v169 (by decide)).trans h_v169_29
  have h_v285_31 : T31 m c main_v285 = kRowsC xc e.negSrc := by
    refine (s11_v285 (T30 m c)).trans ?_
    rw [h_v169_30, H30.negSrc]
    rfl
  have H32 : Holds (T32 m c) e := holds32 m c e H31
  have h_v302_32 : T32 m c main_v302 = msgG (F := F) (n := 6000000) (kColV e.iv e.negTrg) (kColC e.ic e.negSrc) (kRowsV xv e.negTrg) (kRowsC xc e.negSrc) := by
    refine (out11 m c).trans ?_
    rw [h_v293_31, h_v301_31, h_v278_31, h_v285_31]
  have H33 : Holds (T33 m c) e := holds33 m c e H32
  have h_v203_28 : T28 m c main_v203 = kConvV xc xv e.ic e.iv e.posSrc e.posTrg := (step28 m c main_v203 (by decide)).trans h_v203_27
  have h_v203_29 : T29 m c main_v203 = kConvV xc xv e.ic e.iv e.posSrc e.posTrg := (step29 m c main_v203 (by decide)).trans h_v203_28
  have h_v203_30 : T30 m c main_v203 = kConvV xc xv e.ic e.iv e.posSrc e.posTrg := (step30 m c main_v203 (by decide)).trans h_v203_29
  have h_v203_31 : T31 m c main_v203 = kConvV xc xv e.ic e.iv e.posSrc e.posTrg := (step31 m c main_v203 (by decide)).trans h_v203_30
  have h_v203_32 : T32 m c main_v203 = kConvV xc xv e.ic e.iv e.posSrc e.posTrg := (step32 m c main_v203 (by decide)).trans h_v203_31
  have h_v237_30 : T30 m c main_v237 = kConvV xc xv e.ic e.iv e.negSrc e.negTrg := (step30 m c main_v237 (by decide)).trans h_v237_29
  have h_v237_31 : T31 m c main_v237 = kConvV xc xv e.ic e.iv e.negSrc e.negTrg := (step31 m c main_v237 (by decide)).trans h_v237_30
  have h_v237_32 : T32 m c main_v237 = kConvV xc xv e.ic e.iv e.negSrc e.negTrg := (step32 m c main_v237 (by decide)).trans h_v237_31
  have h_v163_31 : T31 m c main_v163 = xv := (step31 m c main_v163 (by decide)).trans h_v163_30
  have h_v163_32 : T32 m c main_v163 = xv := (step32 m c main_v163 (by decide)).trans h_v163_31
  have h_v306_33 : T33 m c main_v306 = concatenate S500000x6 1 [⟨S500000x2, kConvV xc xv e.ic e.iv e.posSrc e.posTrg⟩, ⟨S500000x2, kConvV xc xv e.ic e.iv e.negSrc e.negTrg⟩, ⟨S500000x2, xv⟩] concatenates_S500000x2_S500000x2_S500000x2_S500000x6_d1 := by
    refine (s12_v306 (T32 m c)).trans ?_
    rw [h_v203_32, h_v237_32, h_v163_32]
  have h_v309_33 : T33 m c main_v309 = kWAt ![1, 0, 0] slices_S4x6x2_S1x6x2_1_0_0 e.wv := by
    refine (s12_v309 (T32 m c)).trans ?_
    rw [H32.wv]
    rfl
  have h_v312_33 : T33 m c main_v312 = kBAt ![1, 0] slices_S4x2_S1x2_1_0 e.bv := by
    refine (s12_v312 (T32 m c)).trans ?_
    rw [H32.bv]
    rfl
  have h_v271_32 : T32 m c main_v271 = kConvC xc xv e.ic e.iv e.posSrc e.posTrg := (step32 m c main_v271 (by decide)).trans h_v271_31
  have h_v169_31 : T31 m c main_v169 = xc := (step31 m c main_v169 (by decide)).trans h_v169_30
  have h_v169_32 : T32 m c main_v169 = xc := (step32 m c main_v169 (by decide)).trans h_v169_31
  have h_v307_33 : T33 m c main_v307 = concatenate S2000000x6 1 [⟨S2000000x2, kConvC xc xv e.ic e.iv e.posSrc e.posTrg⟩, ⟨S2000000x2, kConvC xc xv e.ic e.iv e.negSrc e.negTrg⟩, ⟨S2000000x2, xc⟩] concatenates_S2000000x2_S2000000x2_S2000000x2_S2000000x6_d1 := by
    refine (s12_v307 (T32 m c)).trans ?_
    rw [h_v271_32, H32.negSrc, h_v302_32, h_v169_32]
    rfl
  have H34 : Holds (T34 m c) e := holds34 m c e H33
  have h_v313_34 : T34 m c main_v313 = kLayerV ![1, 0, 0] slices_S4x6x2_S1x6x2_1_0_0 ![1, 0] slices_S4x2_S1x2_1_0 e xc xv := by
    refine (out12 m c).trans ?_
    rw [h_v306_33, h_v309_33, h_v312_33]
    rfl
  have H35 : Holds (T35 m c) e := holds35 m c e H34
  have h_v315_35 : T35 m c main_v315 = kWAt ![1, 0, 0] slices_S4x6x2_S1x6x2_1_0_0 e.wc := by
    refine (s13_v315 (T34 m c)).trans ?_
    rw [H34.wc]
    rfl
  have h_v318_35 : T35 m c main_v318 = kBAt ![1, 0] slices_S4x2_S1x2_1_0 e.bc := by
    refine (s13_v318 (T34 m c)).trans ?_
    rw [H34.bc]
    rfl
  have H36 : Holds (T36 m c) e := holds36 m c e H35
  have h_v307_34 : T34 m c main_v307 = concatenate S2000000x6 1 [⟨S2000000x2, kConvC xc xv e.ic e.iv e.posSrc e.posTrg⟩, ⟨S2000000x2, kConvC xc xv e.ic e.iv e.negSrc e.negTrg⟩, ⟨S2000000x2, xc⟩] concatenates_S2000000x2_S2000000x2_S2000000x2_S2000000x6_d1 := (step34 m c main_v307 (by decide)).trans h_v307_33
  have h_v307_35 : T35 m c main_v307 = concatenate S2000000x6 1 [⟨S2000000x2, kConvC xc xv e.ic e.iv e.posSrc e.posTrg⟩, ⟨S2000000x2, kConvC xc xv e.ic e.iv e.negSrc e.negTrg⟩, ⟨S2000000x2, xc⟩] concatenates_S2000000x2_S2000000x2_S2000000x2_S2000000x6_d1 := (step35 m c main_v307 (by decide)).trans h_v307_34
  have h_v319_36 : T36 m c main_v319 = kLayerC ![1, 0, 0] slices_S4x6x2_S1x6x2_1_0_0 ![1, 0] slices_S4x2_S1x2_1_0 e xc xv := by
    refine (out13 m c).trans ?_
    rw [h_v307_35, h_v315_35, h_v318_35]
    rfl
  have h_v313_35 : T35 m c main_v313 = kLayerV ![1, 0, 0] slices_S4x6x2_S1x6x2_1_0_0 ![1, 0] slices_S4x2_S1x2_1_0 e xc xv := (step35 m c main_v313 (by decide)).trans h_v313_34
  have h_v313_36 : T36 m c main_v313 = kLayerV ![1, 0, 0] slices_S4x6x2_S1x6x2_1_0_0 ![1, 0] slices_S4x2_S1x2_1_0 e xc xv := (step36 m c main_v313 (by decide)).trans h_v313_35
  exact ⟨h_v319_36, h_v313_36, H36⟩

end Cert.KernelIdeal.Hand

end
-- ==== Proof.KI.Stretch14.lean ====
/-
  What the buffers hold after the host stretch hostOps14 (38 operations; it reads main_arg4, main_v319, main_arg5, main_v313, main_v7, main_v15).
  Each statement gives the contents of one buffer after the stretch as the stretch's operations applied to the contents,
  before it, of the buffers the stretch reads; it holds at any float values and from any contents before.
-/
import proofs.«149588_j66838281060723_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The contents of main_v326 after the stretch. -/
theorem s14_v326 (W : Valuation τ sig (Elt F)) :
    StableHlo.after hostOps14 W main_v326
      = Host.gather gather_S2000000x2_S6000000x1_S6000000x2_1_0_n_n_0_1_12
          (W main_v319)
          (broadcastInDim S6000000x1 ![0] bcast_S6000000_S6000000x1_0
            (select
              (cmpi .slt (W main_arg4) (broadcastInDim S6000000 ![] bcast_S_S6000000 (constantI S_ 32 0#32)))
              (addi (W main_arg4) (broadcastInDim S6000000 ![] bcast_S_S6000000 (constantI S_ 32 2000000#32)))
              (W main_arg4))) := by
  after_results_simp <;> rfl

/-- The contents of main_v333 after the stretch. -/
theorem s14_v333 (W : Valuation τ sig (Elt F)) :
    StableHlo.after hostOps14 W main_v333
      = Host.gather gather_S500000x2_S6000000x1_S6000000x2_1_0_n_n_0_1_12
          (W main_v313)
          (broadcastInDim S6000000x1 ![0] bcast_S6000000_S6000000x1_0
            (select
              (cmpi .slt (W main_arg5) (broadcastInDim S6000000 ![] bcast_S_S6000000 (constantI S_ 32 0#32)))
              (addi (W main_arg5) (broadcastInDim S6000000 ![] bcast_S_S6000000 (constantI S_ 32 500000#32)))
              (W main_arg5))) := by
  after_results_simp <;> rfl

/-- The contents of main_v341 after the stretch. -/
theorem s14_v341 (W : Valuation τ sig (Elt F)) :
    StableHlo.after hostOps14 W main_v341
      = shapeCast S6000000x1
          (Host.gather gather_S2000000_S6000000x1_S6000000_n_0_n_n_0_1_1
            (W main_v7)
            (broadcastInDim S6000000x1 ![0] bcast_S6000000_S6000000x1_0
              (select
                (cmpi .slt (W main_arg4) (broadcastInDim S6000000 ![] bcast_S_S6000000 (constantI S_ 32 0#32)))
                (addi (W main_arg4) (broadcastInDim S6000000 ![] bcast_S_S6000000 (constantI S_ 32 2000000#32)))
                (W main_arg4))))
          shapeCasts_S6000000_S6000000x1 := by
  after_results_simp <;> rfl

/-- The contents of main_v349 after the stretch. -/
theorem s14_v349 (W : Valuation τ sig (Elt F)) :
    StableHlo.after hostOps14 W main_v349
      = shapeCast S6000000x1
          (Host.gather gather_S500000_S6000000x1_S6000000_n_0_n_n_0_1_1
            (W main_v15)
            (broadcastInDim S6000000x1 ![0] bcast_S6000000_S6000000x1_0
              (select
                (cmpi .slt (W main_arg5) (broadcastInDim S6000000 ![] bcast_S_S6000000 (constantI S_ 32 0#32)))
                (addi (W main_arg5) (broadcastInDim S6000000 ![] bcast_S_S6000000 (constantI S_ 32 500000#32)))
                (W main_arg5))))
          shapeCasts_S6000000_S6000000x1 := by
  after_results_simp <;> rfl

end Cert.KernelIdeal.Hand

end
-- ==== Proof.KI.Stretch15.lean ====
/-
  What the buffers hold after the host stretch hostOps15 (42 operations; it reads main_arg5, main_v350, main_arg6, main_v319, main_arg7, main_v313, main_v7, main_v15).
  Each statement gives the contents of one buffer after the stretch as the stretch's operations applied to the contents,
  before it, of the buffers the stretch reads; it holds at any float values and from any contents before.
-/
import proofs.«149588_j66838281060723_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The contents of main_v353 after the stretch. -/
theorem s15_v353 (W : Valuation τ sig (Elt F)) :
    StableHlo.after hostOps15 W main_v353
      = Host.scatterAdd scatter_S500000x2_S6000000x1_S6000000x2_1_0_0_1
          (broadcastInDim S500000x2 ![] bcast_S_S500000x2 (constant S_ .f32 0x00000000#32))
          (broadcastInDim S6000000x1 ![0] bcast_S6000000_S6000000x1_0 (W main_arg5))
          (W main_v350) := by
  after_results_simp <;> rfl

/-- The contents of main_v360 after the stretch. -/
theorem s15_v360 (W : Valuation τ sig (Elt F)) :
    StableHlo.after hostOps15 W main_v360
      = Host.gather gather_S2000000x2_S6000000x1_S6000000x2_1_0_n_n_0_1_12
          (W main_v319)
          (broadcastInDim S6000000x1 ![0] bcast_S6000000_S6000000x1_0
            (select
              (cmpi .slt (W main_arg6) (broadcastInDim S6000000 ![] bcast_S_S6000000 (constantI S_ 32 0#32)))
              (addi (W main_arg6) (broadcastInDim S6000000 ![] bcast_S_S6000000 (constantI S_ 32 2000000#32)))
              (W main_arg6))) := by
  after_results_simp <;> rfl

/-- The contents of main_v367 after the stretch. -/
theorem s15_v367 (W : Valuation τ sig (Elt F)) :
    StableHlo.after hostOps15 W main_v367
      = Host.gather gather_S500000x2_S6000000x1_S6000000x2_1_0_n_n_0_1_12
          (W main_v313)
          (broadcastInDim S6000000x1 ![0] bcast_S6000000_S6000000x1_0
            (select
              (cmpi .slt (W main_arg7) (broadcastInDim S6000000 ![] bcast_S_S6000000 (constantI S_ 32 0#32)))
              (addi (W main_arg7) (broadcastInDim S6000000 ![] bcast_S_S6000000 (constantI S_ 32 500000#32)))
              (W main_arg7))) := by
  after_results_simp <;> rfl

/-- The contents of main_v375 after the stretch. -/
theorem s15_v375 (W : Valuation τ sig (Elt F)) :
    StableHlo.after hostOps15 W main_v375
      = shapeCast S6000000x1
          (Host.gather gather_S2000000_S6000000x1_S6000000_n_0_n_n_0_1_1
            (W main_v7)
            (broadcastInDim S6000000x1 ![0] bcast_S6000000_S6000000x1_0
              (select
                (cmpi .slt (W main_arg6) (broadcastInDim S6000000 ![] bcast_S_S6000000 (constantI S_ 32 0#32)))
                (addi (W main_arg6) (broadcastInDim S6000000 ![] bcast_S_S6000000 (constantI S_ 32 2000000#32)))
                (W main_arg6))))
          shapeCasts_S6000000_S6000000x1 := by
  after_results_simp <;> rfl

/-- The contents of main_v383 after the stretch. -/
theorem s15_v383 (W : Valuation τ sig (Elt F)) :
    StableHlo.after hostOps15 W main_v383
      = shapeCast S6000000x1
          (Host.gather gather_S500000_S6000000x1_S6000000_n_0_n_n_0_1_1
            (W main_v15)
            (broadcastInDim S6000000x1 ![0] bcast_S6000000_S6000000x1_0
              (select
                (cmpi .slt (W main_arg7) (broadcastInDim S6000000 ![] bcast_S_S6000000 (constantI S_ 32 0#32)))
                (addi (W main_arg7) (broadcastInDim S6000000 ![] bcast_S_S6000000 (constantI S_ 32 500000#32)))
                (W main_arg7))))
          shapeCasts_S6000000_S6000000x1 := by
  after_results_simp <;> rfl

end Cert.KernelIdeal.Hand

end
-- ==== Proof.KI.Stretch16.lean ====
/-
  What the buffers hold after the host stretch hostOps16 (42 operations; it reads main_arg7, main_v384, main_arg5, main_v313, main_arg4, main_v319, main_v15, main_v7).
  Each statement gives the contents of one buffer after the stretch as the stretch's operations applied to the contents,
  before it, of the buffers the stretch reads; it holds at any float values and from any contents before.
-/
import proofs.«149588_j66838281060723_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The contents of main_v387 after the stretch. -/
theorem s16_v387 (W : Valuation τ sig (Elt F)) :
    StableHlo.after hostOps16 W main_v387
      = Host.scatterAdd scatter_S500000x2_S6000000x1_S6000000x2_1_0_0_1
          (broadcastInDim S500000x2 ![] bcast_S_S500000x2 (constant S_ .f32 0x00000000#32))
          (broadcastInDim S6000000x1 ![0] bcast_S6000000_S6000000x1_0 (W main_arg7))
          (W main_v384) := by
  after_results_simp <;> rfl

/-- The contents of main_v394 after the stretch. -/
theorem s16_v394 (W : Valuation τ sig (Elt F)) :
    StableHlo.after hostOps16 W main_v394
      = Host.gather gather_S500000x2_S6000000x1_S6000000x2_1_0_n_n_0_1_12
          (W main_v313)
          (broadcastInDim S6000000x1 ![0] bcast_S6000000_S6000000x1_0
            (select
              (cmpi .slt (W main_arg5) (broadcastInDim S6000000 ![] bcast_S_S6000000 (constantI S_ 32 0#32)))
              (addi (W main_arg5) (broadcastInDim S6000000 ![] bcast_S_S6000000 (constantI S_ 32 500000#32)))
              (W main_arg5))) := by
  after_results_simp <;> rfl

/-- The contents of main_v401 after the stretch. -/
theorem s16_v401 (W : Valuation τ sig (Elt F)) :
    StableHlo.after hostOps16 W main_v401
      = Host.gather gather_S2000000x2_S6000000x1_S6000000x2_1_0_n_n_0_1_12
          (W main_v319)
          (broadcastInDim S6000000x1 ![0] bcast_S6000000_S6000000x1_0
            (select
              (cmpi .slt (W main_arg4) (broadcastInDim S6000000 ![] bcast_S_S6000000 (constantI S_ 32 0#32)))
              (addi (W main_arg4) (broadcastInDim S6000000 ![] bcast_S_S6000000 (constantI S_ 32 2000000#32)))
              (W main_arg4))) := by
  after_results_simp <;> rfl

/-- The contents of main_v409 after the stretch. -/
theorem s16_v409 (W : Valuation τ sig (Elt F)) :
    StableHlo.after hostOps16 W main_v409
      = shapeCast S6000000x1
          (Host.gather gather_S500000_S6000000x1_S6000000_n_0_n_n_0_1_1
            (W main_v15)
            (broadcastInDim S6000000x1 ![0] bcast_S6000000_S6000000x1_0
              (select
                (cmpi .slt (W main_arg5) (broadcastInDim S6000000 ![] bcast_S_S6000000 (constantI S_ 32 0#32)))
                (addi (W main_arg5) (broadcastInDim S6000000 ![] bcast_S_S6000000 (constantI S_ 32 500000#32)))
                (W main_arg5))))
          shapeCasts_S6000000_S6000000x1 := by
  after_results_simp <;> rfl

/-- The contents of main_v417 after the stretch. -/
theorem s16_v417 (W : Valuation τ sig (Elt F)) :
    StableHlo.after hostOps16 W main_v417
      = shapeCast S6000000x1
          (Host.gather gather_S2000000_S6000000x1_S6000000_n_0_n_n_0_1_1
            (W main_v7)
            (broadcastInDim S6000000x1 ![0] bcast_S6000000_S6000000x1_0
              (select
                (cmpi .slt (W main_arg4) (broadcastInDim S6000000 ![] bcast_S_S6000000 (constantI S_ 32 0#32)))
                (addi (W main_arg4) (broadcastInDim S6000000 ![] bcast_S_S6000000 (constantI S_ 32 2000000#32)))
                (W main_arg4))))
          shapeCasts_S6000000_S6000000x1 := by
  after_results_simp <;> rfl

end Cert.KernelIdeal.Hand

end
-- ==== Proof.KI.Stretch17.lean ====
/-
  What the buffers hold after the host stretch hostOps17 (42 operations; it reads main_arg4, main_v418, main_arg7, main_v313, main_arg6, main_v319, main_v15, main_v7).
  Each statement gives the contents of one buffer after the stretch as the stretch's operations applied to the contents,
  before it, of the buffers the stretch reads; it holds at any float values and from any contents before.
-/
import proofs.«149588_j66838281060723_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The contents of main_v421 after the stretch. -/
theorem s17_v421 (W : Valuation τ sig (Elt F)) :
    StableHlo.after hostOps17 W main_v421
      = Host.scatterAdd scatter_S2000000x2_S6000000x1_S6000000x2_1_0_0_1
          (broadcastInDim S2000000x2 ![] bcast_S_S2000000x2 (constant S_ .f32 0x00000000#32))
          (broadcastInDim S6000000x1 ![0] bcast_S6000000_S6000000x1_0 (W main_arg4))
          (W main_v418) := by
  after_results_simp <;> rfl

/-- The contents of main_v428 after the stretch. -/
theorem s17_v428 (W : Valuation τ sig (Elt F)) :
    StableHlo.after hostOps17 W main_v428
      = Host.gather gather_S500000x2_S6000000x1_S6000000x2_1_0_n_n_0_1_12
          (W main_v313)
          (broadcastInDim S6000000x1 ![0] bcast_S6000000_S6000000x1_0
            (select
              (cmpi .slt (W main_arg7) (broadcastInDim S6000000 ![] bcast_S_S6000000 (constantI S_ 32 0#32)))
              (addi (W main_arg7) (broadcastInDim S6000000 ![] bcast_S_S6000000 (constantI S_ 32 500000#32)))
              (W main_arg7))) := by
  after_results_simp <;> rfl

/-- The contents of main_v435 after the stretch. -/
theorem s17_v435 (W : Valuation τ sig (Elt F)) :
    StableHlo.after hostOps17 W main_v435
      = Host.gather gather_S2000000x2_S6000000x1_S6000000x2_1_0_n_n_0_1_12
          (W main_v319)
          (broadcastInDim S6000000x1 ![0] bcast_S6000000_S6000000x1_0
            (select
              (cmpi .slt (W main_arg6) (broadcastInDim S6000000 ![] bcast_S_S6000000 (constantI S_ 32 0#32)))
              (addi (W main_arg6) (broadcastInDim S6000000 ![] bcast_S_S6000000 (constantI S_ 32 2000000#32)))
              (W main_arg6))) := by
  after_results_simp <;> rfl

/-- The contents of main_v443 after the stretch. -/
theorem s17_v443 (W : Valuation τ sig (Elt F)) :
    StableHlo.after hostOps17 W main_v443
      = shapeCast S6000000x1
          (Host.gather gather_S500000_S6000000x1_S6000000_n_0_n_n_0_1_1
            (W main_v15)
            (broadcastInDim S6000000x1 ![0] bcast_S6000000_S6000000x1_0
              (select
                (cmpi .slt (W main_arg7) (broadcastInDim S6000000 ![] bcast_S_S6000000 (constantI S_ 32 0#32)))
                (addi (W main_arg7) (broadcastInDim S6000000 ![] bcast_S_S6000000 (constantI S_ 32 500000#32)))
                (W main_arg7))))
          shapeCasts_S6000000_S6000000x1 := by
  after_results_simp <;> rfl

/-- The contents of main_v451 after the stretch. -/
theorem s17_v451 (W : Valuation τ sig (Elt F)) :
    StableHlo.after hostOps17 W main_v451
      = shapeCast S6000000x1
          (Host.gather gather_S2000000_S6000000x1_S6000000_n_0_n_n_0_1_1
            (W main_v7)
            (broadcastInDim S6000000x1 ![0] bcast_S6000000_S6000000x1_0
              (select
                (cmpi .slt (W main_arg6) (broadcastInDim S6000000 ![] bcast_S_S6000000 (constantI S_ 32 0#32)))
                (addi (W main_arg6) (broadcastInDim S6000000 ![] bcast_S_S6000000 (constantI S_ 32 2000000#32)))
                (W main_arg6))))
          shapeCasts_S6000000_S6000000x1 := by
  after_results_simp <;> rfl

end Cert.KernelIdeal.Hand

end
-- ==== Proof.KI.Stretch18.lean ====
/-
  What the buffers hold after the host stretch hostOps18 (11 operations; it reads main_arg6, main_v452, main_v353, main_v387, main_v313, main_v421, main_v319, main_arg14, main_arg15).
  Each statement gives the contents of one buffer after the stretch as the stretch's operations applied to the contents,
  before it, of the buffers the stretch reads; it holds at any float values and from any contents before.
-/
import proofs.«149588_j66838281060723_2_alg».proof.Proof.Gen.KernelIdeal.Launch
import Idealize.ShloMosaic.Lib.StableHlo.Run
import proofs.«149588_j66838281060723_2_alg».proof.Proof.LibNary3

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The contents of main_v455 after the stretch. -/
theorem s18_v455 (W : Valuation τ sig (Elt F)) :
    StableHlo.after hostOps18 W main_v455
      = Host.scatterAdd scatter_S2000000x2_S6000000x1_S6000000x2_1_0_0_1
          (broadcastInDim S2000000x2 ![] bcast_S_S2000000x2 (constant S_ .f32 0x00000000#32))
          (broadcastInDim S6000000x1 ![0] bcast_S6000000_S6000000x1_0 (W main_arg6))
          (W main_v452) := by
  after_results_simp3 <;> rfl

/-- The contents of main_v456 after the stretch. -/
theorem s18_v456 (W : Valuation τ sig (Elt F)) :
    StableHlo.after hostOps18 W main_v456
      = concatenate S500000x6 1
          [⟨S500000x2, W main_v353⟩, ⟨S500000x2, W main_v387⟩, ⟨S500000x2, W main_v313⟩]
          concatenates_S500000x2_S500000x2_S500000x2_S500000x6_d1 := by
  after_results_simp3 <;> rfl

/-- The contents of main_v457 after the stretch. -/
theorem s18_v457 (W : Valuation τ sig (Elt F)) :
    StableHlo.after hostOps18 W main_v457
      = concatenate S2000000x6 1
          [⟨S2000000x2, W main_v421⟩,
           ⟨S2000000x2,
             Host.scatterAdd scatter_S2000000x2_S6000000x1_S6000000x2_1_0_0_1
               (broadcastInDim S2000000x2 ![] bcast_S_S2000000x2 (constant S_ .f32 0x00000000#32))
               (broadcastInDim S6000000x1 ![0] bcast_S6000000_S6000000x1_0 (W main_arg6))
               (W main_v452)⟩,
           ⟨S2000000x2, W main_v319⟩]
          concatenates_S2000000x2_S2000000x2_S2000000x2_S2000000x6_d1 := by
  after_results_simp3 <;> rfl

/-- The contents of main_v459 after the stretch. -/
theorem s18_v459 (W : Valuation τ sig (Elt F)) :
    StableHlo.after hostOps18 W main_v459
      = shapeCast S6x2 (extractStridedSlice S1x6x2 ![2, 0, 0] (W main_arg14) slices_S4x6x2_S1x6x2_2_0_0) shapeCasts_S1x6x2_S6x2 := by
  after_results_simp3 <;> rfl

/-- The contents of main_v462 after the stretch. -/
theorem s18_v462 (W : Valuation τ sig (Elt F)) :
    StableHlo.after hostOps18 W main_v462
      = shapeCast S1x2
          (shapeCast S2 (extractStridedSlice S1x2 ![2, 0] (W main_arg15) slices_S4x2_S1x2_2_0) shapeCasts_S1x2_S2)
          shapeCasts_S2_S1x2 := by
  after_results_simp3 <;> rfl

end Cert.KernelIdeal.Hand

end
-- ==== Proof.KI.Stretch19.lean ====
/-
  What the buffers hold after the host stretch hostOps19 (5 operations; it reads main_arg12, main_arg13).
  Each statement gives the contents of one buffer after the stretch as the stretch's operations applied to the contents,
  before it, of the buffers the stretch reads; it holds at any float values and from any contents before.
-/
import proofs.«149588_j66838281060723_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The contents of main_v465 after the stretch. -/
theorem s19_v465 (W : Valuation τ sig (Elt F)) :
    StableHlo.after hostOps19 W main_v465
      = shapeCast S6x2 (extractStridedSlice S1x6x2 ![2, 0, 0] (W main_arg12) slices_S4x6x2_S1x6x2_2_0_0) shapeCasts_S1x6x2_S6x2 := by
  after_results_simp <;> rfl

/-- The contents of main_v468 after the stretch. -/
theorem s19_v468 (W : Valuation τ sig (Elt F)) :
    StableHlo.after hostOps19 W main_v468
      = shapeCast S1x2
          (shapeCast S2 (extractStridedSlice S1x2 ![2, 0] (W main_arg13) slices_S4x2_S1x2_2_0) shapeCasts_S1x2_S2)
          shapeCasts_S2_S1x2 := by
  after_results_simp <;> rfl

end Cert.KernelIdeal.Hand

end
-- ==== Proof.KI.ChainL2.lean ====
/-
  One layer of the network, item by item. Entered with the clause and variable states in their two buffers and the
  environment's ten values in theirs: each host stretch leaves in the buffers it writes the gathers, scatter-adds, slices
  and concatenates of what it reads; each message region leaves the message function of its four operand arrays, each
  affine region the affine function of its three; a buffer nobody writes in between is carried from the item that wrote
  it to the item that reads it. The two affine regions' outputs are the layer's two functions of the states and the
  environment.
-/
import proofs.«149588_j66838281060723_2_alg».proof.Proof.KI.Outs
import proofs.«149588_j66838281060723_2_alg».proof.Proof.KI.Hold
import proofs.«149588_j66838281060723_2_alg».proof.Proof.KI.Stretch14
import proofs.«149588_j66838281060723_2_alg».proof.Proof.KI.Stretch15
import proofs.«149588_j66838281060723_2_alg».proof.Proof.KI.Stretch16
import proofs.«149588_j66838281060723_2_alg».proof.Proof.KI.Stretch17
import proofs.«149588_j66838281060723_2_alg».proof.Proof.KI.Stretch18
import proofs.«149588_j66838281060723_2_alg».proof.Proof.KI.Stretch19

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

variable (m : (ℓ : Loc nD τ sig) → Buf (Elt F) ℓ)

/-- Layer 2: from the buffers holding the two states and the environment before it, the two state buffers after it hold
    the layer's two functions of them, and the environment's buffers are as before. -/
theorem layer2 (c : Dev nD) (e : Env F) (xc : Vec F S2000000x2 .f32) (xv : Vec F S500000x2 .f32)
    (h_v319_36 : T36 m c main_v319 = xc) (h_v313_36 : T36 m c main_v313 = xv) (H36 : Holds (T36 m c) e) :
    T48 m c main_v469 = kLayerC ![2, 0, 0] slices_S4x6x2_S1x6x2_2_0_0 ![2, 0] slices_S4x2_S1x2_2_0 e xc xv ∧ T48 m c main_v463 = kLayerV ![2, 0, 0] slices_S4x6x2_S1x6x2_2_0_0 ![2, 0] slices_S4x2_S1x2_2_0 e xc xv ∧ Holds (T48 m c) e := by
  have H37 : Holds (T37 m c) e := holds37 m c e H36
  have h_v341_37 : T37 m c main_v341 = kColC e.ic e.posSrc := by
    refine (s14_v341 (T36 m c)).trans ?_
    rw [H36.ic, H36.posSrc]
    rfl
  have h_v349_37 : T37 m c main_v349 = kColV e.iv e.posTrg := by
    refine (s14_v349 (T36 m c)).trans ?_
    rw [H36.iv, H36.posTrg]
    rfl
  have h_v326_37 : T37 m c main_v326 = kRowsC xc e.posSrc := by
    refine (s14_v326 (T36 m c)).trans ?_
    rw [h_v319_36, H36.posSrc]
    rfl
  have h_v333_37 : T37 m c main_v333 = kRowsV xv e.posTrg := by
    refine (s14_v333 (T36 m c)).trans ?_
    rw [h_v313_36, H36.posTrg]
    rfl
  have H38 : Holds (T38 m c) e := holds38 m c e H37
  have h_v350_38 : T38 m c main_v350 = msgG (F := F) (n := 6000000) (kColC e.ic e.posSrc) (kColV e.iv e.posTrg) (kRowsC xc e.posSrc) (kRowsV xv e.posTrg) := by
    refine (out14 m c).trans ?_
    rw [h_v341_37, h_v349_37, h_v326_37, h_v333_37]
  have H39 : Holds (T39 m c) e := holds39 m c e H38
  have h_v353_39 : T39 m c main_v353 = kConvV xc xv e.ic e.iv e.posSrc e.posTrg := by
    refine (s15_v353 (T38 m c)).trans ?_
    rw [H38.posTrg, h_v350_38]
    rfl
  have h_v375_39 : T39 m c main_v375 = kColC e.ic e.negSrc := by
    refine (s15_v375 (T38 m c)).trans ?_
    rw [H38.ic, H38.negSrc]
    rfl
  have h_v383_39 : T39 m c main_v383 = kColV e.iv e.negTrg := by
    refine (s15_v383 (T38 m c)).trans ?_
    rw [H38.iv, H38.negTrg]
    rfl
  have h_v319_37 : T37 m c main_v319 = xc := (step37 m c main_v319 (by decide)).trans h_v319_36
  have h_v319_38 : T38 m c main_v319 = xc := (step38 m c main_v319 (by decide)).trans h_v319_37
  have h_v360_39 : T39 m c main_v360 = kRowsC xc e.negSrc := by
    refine (s15_v360 (T38 m c)).trans ?_
    rw [h_v319_38, H38.negSrc]
    rfl
  have h_v313_37 : T37 m c main_v313 = xv := (step37 m c main_v313 (by decide)).trans h_v313_36
  have h_v313_38 : T38 m c main_v313 = xv := (step38 m c main_v313 (by decide)).trans h_v313_37
  have h_v367_39 : T39 m c main_v367 = kRowsV xv e.negTrg := by
    refine (s15_v367 (T38 m c)).trans ?_
    rw [h_v313_38, H38.negTrg]
    rfl
  have H40 : Holds (T40 m c) e := holds40 m c e H39
  have h_v384_40 : T40 m c main_v384 = msgG (F := F) (n := 6000000) (kColC e.ic e.negSrc) (kColV e.iv e.negTrg) (kRowsC xc e.negSrc) (kRowsV xv e.negTrg) := by
    refine (out15 m c).trans ?_
    rw [h_v375_39, h_v383_39, h_v360_39, h_v367_39]
  have H41 : Holds (T41 m c) e := holds41 m c e H40
  have h_v387_41 : T41 m c main_v387 = kConvV xc xv e.ic e.iv e.negSrc e.negTrg := by
    refine (s16_v387 (T40 m c)).trans ?_
    rw [H40.negTrg, h_v384_40]
    rfl
  have h_v409_41 : T41 m c main_v409 = kColV e.iv e.posTrg := by
    refine (s16_v409 (T40 m c)).trans ?_
    rw [H40.iv, H40.posTrg]
    rfl
  have h_v417_41 : T41 m c main_v417 = kColC e.ic e.posSrc := by
    refine (s16_v417 (T40 m c)).trans ?_
    rw [H40.ic, H40.posSrc]
    rfl
  have h_v313_39 : T39 m c main_v313 = xv := (step39 m c main_v313 (by decide)).trans h_v313_38
  have h_v313_40 : T40 m c main_v313 = xv := (step40 m c main_v313 (by decide)).trans h_v313_39
  have h_v394_41 : T41 m c main_v394 = kRowsV xv e.posTrg := by
    refine (s16_v394 (T40 m c)).trans ?_
    rw [h_v313_40, H40.posTrg]
    rfl
  have h_v319_39 : T39 m c main_v319 = xc := (step39 m c main_v319 (by decide)).trans h_v319_38
  have h_v319_40 : T40 m c main_v319 = xc := (step40 m c main_v319 (by decide)).trans h_v319_39
  have h_v401_41 : T41 m c main_v401 = kRowsC xc e.posSrc := by
    refine (s16_v401 (T40 m c)).trans ?_
    rw [h_v319_40, H40.posSrc]
    rfl
  have H42 : Holds (T42 m c) e := holds42 m c e H41
  have h_v418_42 : T42 m c main_v418 = msgG (F := F) (n := 6000000) (kColV e.iv e.posTrg) (kColC e.ic e.posSrc) (kRowsV xv e.posTrg) (kRowsC xc e.posSrc) := by
    refine (out16 m c).trans ?_
    rw [h_v409_41, h_v417_41, h_v394_41, h_v401_41]
  have H43 : Holds (T43 m c) e := holds43 m c e H42
  have h_v421_43 : T43 m c main_v421 = kConvC xc xv e.ic e.iv e.posSrc e.posTrg := by
    refine (s17_v421 (T42 m c)).trans ?_
    rw [H42.posSrc, h_v418_42]
    rfl
  have h_v443_43 : T43 m c main_v443 = kColV e.iv e.negTrg := by
    refine (s17_v443 (T42 m c)).trans ?_
    rw [H42.iv, H42.negTrg]
    rfl
  have h_v451_43 : T43 m c main_v451 = kColC e.ic e.negSrc := by
    refine (s17_v451 (T42 m c)).trans ?_
    rw [H42.ic, H42.negSrc]
    rfl
  have h_v313_41 : T41 m c main_v313 = xv := (step41 m c main_v313 (by decide)).trans h_v313_40
  have h_v313_42 : T42 m c main_v313 = xv := (step42 m c main_v313 (by decide)).trans h_v313_41
  have h_v428_43 : T43 m c main_v428 = kRowsV xv e.negTrg := by
    refine (s17_v428 (T42 m c)).trans ?_
    rw [h_v313_42, H42.negTrg]
    rfl
  have h_v319_41 : T41 m c main_v319 = xc := (step41 m c main_v319 (by decide)).trans h_v319_40
  have h_v319_42 : T42 m c main_v319 = xc := (step42 m c main_v319 (by decide)).trans h_v319_41
  have h_v435_43 : T43 m c main_v435 = kRowsC xc e.negSrc := by
    refine (s17_v435 (T42 m c)).trans ?_
    rw [h_v319_42, H42.negSrc]
    rfl
  have H44 : Holds (T44 m c) e := holds44 m c e H43
  have h_v452_44 : T44 m c main_v452 = msgG (F := F) (n := 6000000) (kColV e.iv e.negTrg) (kColC e.ic e.negSrc) (kRowsV xv e.negTrg) (kRowsC xc e.negSrc) := by
    refine (out17 m c).trans ?_
    rw [h_v443_43, h_v451_43, h_v428_43, h_v435_43]
  have H45 : Holds (T45 m c) e := holds45 m c e H44
  have h_v353_40 : T40 m c main_v353 = kConvV xc xv e.ic e.iv e.posSrc e.posTrg := (step40 m c main_v353 (by decide)).trans h_v353_39
  have h_v353_41 : T41 m c main_v353 = kConvV xc xv e.ic e.iv e.posSrc e.posTrg := (step41 m c main_v353 (by decide)).trans h_v353_40
  have h_v353_42 : T42 m c main_v353 = kConvV xc xv e.ic e.iv e.posSrc e.posTrg := (step42 m c main_v353 (by decide)).trans h_v353_41
  have h_v353_43 : T43 m c main_v353 = kConvV xc xv e.ic e.iv e.posSrc e.posTrg := (step43 m c main_v353 (by decide)).trans h_v353_42
  have h_v353_44 : T44 m c main_v353 = kConvV xc xv e.ic e.iv e.posSrc e.posTrg := (step44 m c main_v353 (by decide)).trans h_v353_43
  have h_v387_42 : T42 m c main_v387 = kConvV xc xv e.ic e.iv e.negSrc e.negTrg := (step42 m c main_v387 (by decide)).trans h_v387_41
  have h_v387_43 : T43 m c main_v387 = kConvV xc xv e.ic e.iv e.negSrc e.negTrg := (step43 m c main_v387 (by decide)).trans h_v387_42
  have h_v387_44 : T44 m c main_v387 = kConvV xc xv e.ic e.iv e.negSrc e.negTrg := (step44 m c main_v387 (by decide)).trans h_v387_43
  have h_v313_43 : T43 m c main_v313 = xv := (step43 m c main_v313 (by decide)).trans h_v313_42
  have h_v313_44 : T44 m c main_v313 = xv := (step44 m c main_v313 (by decide)).trans h_v313_43
  have h_v456_45 : T45 m c main_v456 = concatenate S500000x6 1 [⟨S500000x2, kConvV xc xv e.ic e.iv e.posSrc e.posTrg⟩, ⟨S500000x2, kConvV xc xv e.ic e.iv e.negSrc e.negTrg⟩, ⟨S500000x2, xv⟩] concatenates_S500000x2_S500000x2_S500000x2_S500000x6_d1 := by
    refine (s18_v456 (T44 m c)).trans ?_
    rw [h_v353_44, h_v387_44, h_v313_44]
  have h_v459_45 : T45 m c main_v459 = kWAt ![2, 0, 0] slices_S4x6x2_S1x6x2_2_0_0 e.wv := by
    refine (s18_v459 (T44 m c)).trans ?_
    rw [H44.wv]
    rfl
  have h_v462_45 : T45 m c main_v462 = kBAt ![2, 0] slices_S4x2_S1x2_2_0 e.bv := by
    refine (s18_v462 (T44 m c)).trans ?_
    rw [H44.bv]
    rfl
  have h_v421_44 : T44 m c main_v421 = kConvC xc xv e.ic e.iv e.posSrc e.posTrg := (step44 m c main_v421 (by decide)).trans h_v421_43
  have h_v319_43 : T43 m c main_v319 = xc := (step43 m c main_v319 (by decide)).trans h_v319_42
  have h_v319_44 : T44 m c main_v319 = xc := (step44 m c main_v319 (by decide)).trans h_v319_43
  have h_v457_45 : T45 m c main_v457 = concatenate S2000000x6 1 [⟨S2000000x2, kConvC xc xv e.ic e.iv e.posSrc e.posTrg⟩, ⟨S2000000x2, kConvC xc xv e.ic e.iv e.negSrc e.negTrg⟩, ⟨S2000000x2, xc⟩] concatenates_S2000000x2_S2000000x2_S2000000x2_S2000000x6_d1 := by
    refine (s18_v457 (T44 m c)).trans ?_
    rw [h_v421_44, H44.negSrc, h_v452_44, h_v319_44]
    rfl
  have H46 : Holds (T46 m c) e := holds46 m c e H45
  have h_v463_46 : T46 m c main_v463 = kLayerV ![2, 0, 0] slices_S4x6x2_S1x6x2_2_0_0 ![2, 0] slices_S4x2_S1x2_2_0 e xc xv := by
    refine (out18 m c).trans ?_
    rw [h_v456_45, h_v459_45, h_v462_45]
    rfl
  have H47 : Holds (T47 m c) e := holds47 m c e H46
  have h_v465_47 : T47 m c main_v465 = kWAt ![2, 0, 0] slices_S4x6x2_S1x6x2_2_0_0 e.wc := by
    refine (s19_v465 (T46 m c)).trans ?_
    rw [H46.wc]
    rfl
  have h_v468_47 : T47 m c main_v468 = kBAt ![2, 0] slices_S4x2_S1x2_2_0 e.bc := by
    refine (s19_v468 (T46 m c)).trans ?_
    rw [H46.bc]
    rfl
  have H48 : Holds (T48 m c) e := holds48 m c e H47
  have h_v457_46 : T46 m c main_v457 = concatenate S2000000x6 1 [⟨S2000000x2, kConvC xc xv e.ic e.iv e.posSrc e.posTrg⟩, ⟨S2000000x2, kConvC xc xv e.ic e.iv e.negSrc e.negTrg⟩, ⟨S2000000x2, xc⟩] concatenates_S2000000x2_S2000000x2_S2000000x2_S2000000x6_d1 := (step46 m c main_v457 (by decide)).trans h_v457_45
  have h_v457_47 : T47 m c main_v457 = concatenate S2000000x6 1 [⟨S2000000x2, kConvC xc xv e.ic e.iv e.posSrc e.posTrg⟩, ⟨S2000000x2, kConvC xc xv e.ic e.iv e.negSrc e.negTrg⟩, ⟨S2000000x2, xc⟩] concatenates_S2000000x2_S2000000x2_S2000000x2_S2000000x6_d1 := (step47 m c main_v457 (by decide)).trans h_v457_46
  have h_v469_48 : T48 m c main_v469 = kLayerC ![2, 0, 0] slices_S4x6x2_S1x6x2_2_0_0 ![2, 0] slices_S4x2_S1x2_2_0 e xc xv := by
    refine (out19 m c).trans ?_
    rw [h_v457_47, h_v465_47, h_v468_47]
    rfl
  have h_v463_47 : T47 m c main_v463 = kLayerV ![2, 0, 0] slices_S4x6x2_S1x6x2_2_0_0 ![2, 0] slices_S4x2_S1x2_2_0 e xc xv := (step47 m c main_v463 (by decide)).trans h_v463_46
  have h_v463_48 : T48 m c main_v463 = kLayerV ![2, 0, 0] slices_S4x6x2_S1x6x2_2_0_0 ![2, 0] slices_S4x2_S1x2_2_0 e xc xv := (step48 m c main_v463 (by decide)).trans h_v463_47
  exact ⟨h_v469_48, h_v463_48, H48⟩

end Cert.KernelIdeal.Hand

end
-- ==== Proof.KI.Stretch20.lean ====
/-
  What the buffers hold after the host stretch hostOps20 (38 operations; it reads main_arg4, main_v469, main_arg5, main_v463, main_v7, main_v15).
  Each statement gives the contents of one buffer after the stretch as the stretch's operations applied to the contents,
  before it, of the buffers the stretch reads; it holds at any float values and from any contents before.
-/
import proofs.«149588_j66838281060723_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The contents of main_v476 after the stretch. -/
theorem s20_v476 (W : Valuation τ sig (Elt F)) :
    StableHlo.after hostOps20 W main_v476
      = Host.gather gather_S2000000x2_S6000000x1_S6000000x2_1_0_n_n_0_1_12
          (W main_v469)
          (broadcastInDim S6000000x1 ![0] bcast_S6000000_S6000000x1_0
            (select
              (cmpi .slt (W main_arg4) (broadcastInDim S6000000 ![] bcast_S_S6000000 (constantI S_ 32 0#32)))
              (addi (W main_arg4) (broadcastInDim S6000000 ![] bcast_S_S6000000 (constantI S_ 32 2000000#32)))
              (W main_arg4))) := by
  after_results_simp <;> rfl

/-- The contents of main_v483 after the stretch. -/
theorem s20_v483 (W : Valuation τ sig (Elt F)) :
    StableHlo.after hostOps20 W main_v483
      = Host.gather gather_S500000x2_S6000000x1_S6000000x2_1_0_n_n_0_1_12
          (W main_v463)
          (broadcastInDim S6000000x1 ![0] bcast_S6000000_S6000000x1_0
            (select
              (cmpi .slt (W main_arg5) (broadcastInDim S6000000 ![] bcast_S_S6000000 (constantI S_ 32 0#32)))
              (addi (W main_arg5) (broadcastInDim S6000000 ![] bcast_S_S6000000 (constantI S_ 32 500000#32)))
              (W main_arg5))) := by
  after_results_simp <;> rfl

/-- The contents of main_v491 after the stretch. -/
theorem s20_v491 (W : Valuation τ sig (Elt F)) :
    StableHlo.after hostOps20 W main_v491
      = shapeCast S6000000x1
          (Host.gather gather_S2000000_S6000000x1_S6000000_n_0_n_n_0_1_1
            (W main_v7)
            (broadcastInDim S6000000x1 ![0] bcast_S6000000_S6000000x1_0
              (select
                (cmpi .slt (W main_arg4) (broadcastInDim S6000000 ![] bcast_S_S6000000 (constantI S_ 32 0#32)))
                (addi (W main_arg4) (broadcastInDim S6000000 ![] bcast_S_S6000000 (constantI S_ 32 2000000#32)))
                (W main_arg4))))
          shapeCasts_S6000000_S6000000x1 := by
  after_results_simp <;> rfl

/-- The contents of main_v499 after the stretch. -/
theorem s20_v499 (W : Valuation τ sig (Elt F)) :
    StableHlo.after hostOps20 W main_v499
      = shapeCast S6000000x1
          (Host.gather gather_S500000_S6000000x1_S6000000_n_0_n_n_0_1_1
            (W main_v15)
            (broadcastInDim S6000000x1 ![0] bcast_S6000000_S6000000x1_0
              (select
                (cmpi .slt (W main_arg5) (broadcastInDim S6000000 ![] bcast_S_S6000000 (constantI S_ 32 0#32)))
                (addi (W main_arg5) (broadcastInDim S6000000 ![] bcast_S_S6000000 (constantI S_ 32 500000#32)))
                (W main_arg5))))
          shapeCasts_S6000000_S6000000x1 := by
  after_results_simp <;> rfl

end Cert.KernelIdeal.Hand

end
-- ==== Proof.KI.Stretch21.lean ====
/-
  What the buffers hold after the host stretch hostOps21 (42 operations; it reads main_arg5, main_v500, main_arg6, main_v469, main_arg7, main_v463, main_v7, main_v15).
  Each statement gives the contents of one buffer after the stretch as the stretch's operations applied to the contents,
  before it, of the buffers the stretch reads; it holds at any float values and from any contents before.
-/
import proofs.«149588_j66838281060723_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The contents of main_v503 after the stretch. -/
theorem s21_v503 (W : Valuation τ sig (Elt F)) :
    StableHlo.after hostOps21 W main_v503
      = Host.scatterAdd scatter_S500000x2_S6000000x1_S6000000x2_1_0_0_1
          (broadcastInDim S500000x2 ![] bcast_S_S500000x2 (constant S_ .f32 0x00000000#32))
          (broadcastInDim S6000000x1 ![0] bcast_S6000000_S6000000x1_0 (W main_arg5))
          (W main_v500) := by
  after_results_simp <;> rfl

/-- The contents of main_v510 after the stretch. -/
theorem s21_v510 (W : Valuation τ sig (Elt F)) :
    StableHlo.after hostOps21 W main_v510
      = Host.gather gather_S2000000x2_S6000000x1_S6000000x2_1_0_n_n_0_1_12
          (W main_v469)
          (broadcastInDim S6000000x1 ![0] bcast_S6000000_S6000000x1_0
            (select
              (cmpi .slt (W main_arg6) (broadcastInDim S6000000 ![] bcast_S_S6000000 (constantI S_ 32 0#32)))
              (addi (W main_arg6) (broadcastInDim S6000000 ![] bcast_S_S6000000 (constantI S_ 32 2000000#32)))
              (W main_arg6))) := by
  after_results_simp <;> rfl

/-- The contents of main_v517 after the stretch. -/
theorem s21_v517 (W : Valuation τ sig (Elt F)) :
    StableHlo.after hostOps21 W main_v517
      = Host.gather gather_S500000x2_S6000000x1_S6000000x2_1_0_n_n_0_1_12
          (W main_v463)
          (broadcastInDim S6000000x1 ![0] bcast_S6000000_S6000000x1_0
            (select
              (cmpi .slt (W main_arg7) (broadcastInDim S6000000 ![] bcast_S_S6000000 (constantI S_ 32 0#32)))
              (addi (W main_arg7) (broadcastInDim S6000000 ![] bcast_S_S6000000 (constantI S_ 32 500000#32)))
              (W main_arg7))) := by
  after_results_simp <;> rfl

/-- The contents of main_v525 after the stretch. -/
theorem s21_v525 (W : Valuation τ sig (Elt F)) :
    StableHlo.after hostOps21 W main_v525
      = shapeCast S6000000x1
          (Host.gather gather_S2000000_S6000000x1_S6000000_n_0_n_n_0_1_1
            (W main_v7)
            (broadcastInDim S6000000x1 ![0] bcast_S6000000_S6000000x1_0
              (select
                (cmpi .slt (W main_arg6) (broadcastInDim S6000000 ![] bcast_S_S6000000 (constantI S_ 32 0#32)))
                (addi (W main_arg6) (broadcastInDim S6000000 ![] bcast_S_S6000000 (constantI S_ 32 2000000#32)))
                (W main_arg6))))
          shapeCasts_S6000000_S6000000x1 := by
  after_results_simp <;> rfl

/-- The contents of main_v533 after the stretch. -/
theorem s21_v533 (W : Valuation τ sig (Elt F)) :
    StableHlo.after hostOps21 W main_v533
      = shapeCast S6000000x1
          (Host.gather gather_S500000_S6000000x1_S6000000_n_0_n_n_0_1_1
            (W main_v15)
            (broadcastInDim S6000000x1 ![0] bcast_S6000000_S6000000x1_0
              (select
                (cmpi .slt (W main_arg7) (broadcastInDim S6000000 ![] bcast_S_S6000000 (constantI S_ 32 0#32)))
                (addi (W main_arg7) (broadcastInDim S6000000 ![] bcast_S_S6000000 (constantI S_ 32 500000#32)))
                (W main_arg7))))
          shapeCasts_S6000000_S6000000x1 := by
  after_results_simp <;> rfl

end Cert.KernelIdeal.Hand

end
-- ==== Proof.KI.Stretch22.lean ====
/-
  What the buffers hold after the host stretch hostOps22 (42 operations; it reads main_arg7, main_v534, main_arg5, main_v463, main_arg4, main_v469, main_v15, main_v7).
  Each statement gives the contents of one buffer after the stretch as the stretch's operations applied to the contents,
  before it, of the buffers the stretch reads; it holds at any float values and from any contents before.
-/
import proofs.«149588_j66838281060723_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The contents of main_v537 after the stretch. -/
theorem s22_v537 (W : Valuation τ sig (Elt F)) :
    StableHlo.after hostOps22 W main_v537
      = Host.scatterAdd scatter_S500000x2_S6000000x1_S6000000x2_1_0_0_1
          (broadcastInDim S500000x2 ![] bcast_S_S500000x2 (constant S_ .f32 0x00000000#32))
          (broadcastInDim S6000000x1 ![0] bcast_S6000000_S6000000x1_0 (W main_arg7))
          (W main_v534) := by
  after_results_simp <;> rfl

/-- The contents of main_v544 after the stretch. -/
theorem s22_v544 (W : Valuation τ sig (Elt F)) :
    StableHlo.after hostOps22 W main_v544
      = Host.gather gather_S500000x2_S6000000x1_S6000000x2_1_0_n_n_0_1_12
          (W main_v463)
          (broadcastInDim S6000000x1 ![0] bcast_S6000000_S6000000x1_0
            (select
              (cmpi .slt (W main_arg5) (broadcastInDim S6000000 ![] bcast_S_S6000000 (constantI S_ 32 0#32)))
              (addi (W main_arg5) (broadcastInDim S6000000 ![] bcast_S_S6000000 (constantI S_ 32 500000#32)))
              (W main_arg5))) := by
  after_results_simp <;> rfl

/-- The contents of main_v551 after the stretch. -/
theorem s22_v551 (W : Valuation τ sig (Elt F)) :
    StableHlo.after hostOps22 W main_v551
      = Host.gather gather_S2000000x2_S6000000x1_S6000000x2_1_0_n_n_0_1_12
          (W main_v469)
          (broadcastInDim S6000000x1 ![0] bcast_S6000000_S6000000x1_0
            (select
              (cmpi .slt (W main_arg4) (broadcastInDim S6000000 ![] bcast_S_S6000000 (constantI S_ 32 0#32)))
              (addi (W main_arg4) (broadcastInDim S6000000 ![] bcast_S_S6000000 (constantI S_ 32 2000000#32)))
              (W main_arg4))) := by
  after_results_simp <;> rfl

/-- The contents of main_v559 after the stretch. -/
theorem s22_v559 (W : Valuation τ sig (Elt F)) :
    StableHlo.after hostOps22 W main_v559
      = shapeCast S6000000x1
          (Host.gather gather_S500000_S6000000x1_S6000000_n_0_n_n_0_1_1
            (W main_v15)
            (broadcastInDim S6000000x1 ![0] bcast_S6000000_S6000000x1_0
              (select
                (cmpi .slt (W main_arg5) (broadcastInDim S6000000 ![] bcast_S_S6000000 (constantI S_ 32 0#32)))
                (addi (W main_arg5) (broadcastInDim S6000000 ![] bcast_S_S6000000 (constantI S_ 32 500000#32)))
                (W main_arg5))))
          shapeCasts_S6000000_S6000000x1 := by
  after_results_simp <;> rfl

/-- The contents of main_v567 after the stretch. -/
theorem s22_v567 (W : Valuation τ sig (Elt F)) :
    StableHlo.after hostOps22 W main_v567
      = shapeCast S6000000x1
          (Host.gather gather_S2000000_S6000000x1_S6000000_n_0_n_n_0_1_1
            (W main_v7)
            (broadcastInDim S6000000x1 ![0] bcast_S6000000_S6000000x1_0
              (select
                (cmpi .slt (W main_arg4) (broadcastInDim S6000000 ![] bcast_S_S6000000 (constantI S_ 32 0#32)))
                (addi (W main_arg4) (broadcastInDim S6000000 ![] bcast_S_S6000000 (constantI S_ 32 2000000#32)))
                (W main_arg4))))
          shapeCasts_S6000000_S6000000x1 := by
  after_results_simp <;> rfl

end Cert.KernelIdeal.Hand

end
-- ==== Proof.KI.Stretch23.lean ====
/-
  What the buffers hold after the host stretch hostOps23 (42 operations; it reads main_arg4, main_v568, main_arg7, main_v463, main_arg6, main_v469, main_v15, main_v7).
  Each statement gives the contents of one buffer after the stretch as the stretch's operations applied to the contents,
  before it, of the buffers the stretch reads; it holds at any float values and from any contents before.
-/
import proofs.«149588_j66838281060723_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The contents of main_v571 after the stretch. -/
theorem s23_v571 (W : Valuation τ sig (Elt F)) :
    StableHlo.after hostOps23 W main_v571
      = Host.scatterAdd scatter_S2000000x2_S6000000x1_S6000000x2_1_0_0_1
          (broadcastInDim S2000000x2 ![] bcast_S_S2000000x2 (constant S_ .f32 0x00000000#32))
          (broadcastInDim S6000000x1 ![0] bcast_S6000000_S6000000x1_0 (W main_arg4))
          (W main_v568) := by
  after_results_simp <;> rfl

/-- The contents of main_v578 after the stretch. -/
theorem s23_v578 (W : Valuation τ sig (Elt F)) :
    StableHlo.after hostOps23 W main_v578
      = Host.gather gather_S500000x2_S6000000x1_S6000000x2_1_0_n_n_0_1_12
          (W main_v463)
          (broadcastInDim S6000000x1 ![0] bcast_S6000000_S6000000x1_0
            (select
              (cmpi .slt (W main_arg7) (broadcastInDim S6000000 ![] bcast_S_S6000000 (constantI S_ 32 0#32)))
              (addi (W main_arg7) (broadcastInDim S6000000 ![] bcast_S_S6000000 (constantI S_ 32 500000#32)))
              (W main_arg7))) := by
  after_results_simp <;> rfl

/-- The contents of main_v585 after the stretch. -/
theorem s23_v585 (W : Valuation τ sig (Elt F)) :
    StableHlo.after hostOps23 W main_v585
      = Host.gather gather_S2000000x2_S6000000x1_S6000000x2_1_0_n_n_0_1_12
          (W main_v469)
          (broadcastInDim S6000000x1 ![0] bcast_S6000000_S6000000x1_0
            (select
              (cmpi .slt (W main_arg6) (broadcastInDim S6000000 ![] bcast_S_S6000000 (constantI S_ 32 0#32)))
              (addi (W main_arg6) (broadcastInDim S6000000 ![] bcast_S_S6000000 (constantI S_ 32 2000000#32)))
              (W main_arg6))) := by
  after_results_simp <;> rfl

/-- The contents of main_v593 after the stretch. -/
theorem s23_v593 (W : Valuation τ sig (Elt F)) :
    StableHlo.after hostOps23 W main_v593
      = shapeCast S6000000x1
          (Host.gather gather_S500000_S6000000x1_S6000000_n_0_n_n_0_1_1
            (W main_v15)
            (broadcastInDim S6000000x1 ![0] bcast_S6000000_S6000000x1_0
              (select
                (cmpi .slt (W main_arg7) (broadcastInDim S6000000 ![] bcast_S_S6000000 (constantI S_ 32 0#32)))
                (addi (W main_arg7) (broadcastInDim S6000000 ![] bcast_S_S6000000 (constantI S_ 32 500000#32)))
                (W main_arg7))))
          shapeCasts_S6000000_S6000000x1 := by
  after_results_simp <;> rfl

/-- The contents of main_v601 after the stretch. -/
theorem s23_v601 (W : Valuation τ sig (Elt F)) :
    StableHlo.after hostOps23 W main_v601
      = shapeCast S6000000x1
          (Host.gather gather_S2000000_S6000000x1_S6000000_n_0_n_n_0_1_1
            (W main_v7)
            (broadcastInDim S6000000x1 ![0] bcast_S6000000_S6000000x1_0
              (select
                (cmpi .slt (W main_arg6) (broadcastInDim S6000000 ![] bcast_S_S6000000 (constantI S_ 32 0#32)))
                (addi (W main_arg6) (broadcastInDim S6000000 ![] bcast_S_S6000000 (constantI S_ 32 2000000#32)))
                (W main_arg6))))
          shapeCasts_S6000000_S6000000x1 := by
  after_results_simp <;> rfl

end Cert.KernelIdeal.Hand

end
-- ==== Proof.KI.Stretch24.lean ====
/-
  What the buffers hold after the host stretch hostOps24 (11 operations; it reads main_arg6, main_v602, main_v503, main_v537, main_v463, main_v571, main_v469, main_arg14, main_arg15).
  Each statement gives the contents of one buffer after the stretch as the stretch's operations applied to the contents,
  before it, of the buffers the stretch reads; it holds at any float values and from any contents before.
-/
import proofs.«149588_j66838281060723_2_alg».proof.Proof.Gen.KernelIdeal.Launch
import Idealize.ShloMosaic.Lib.StableHlo.Run
import proofs.«149588_j66838281060723_2_alg».proof.Proof.LibNary3

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The contents of main_v605 after the stretch. -/
theorem s24_v605 (W : Valuation τ sig (Elt F)) :
    StableHlo.after hostOps24 W main_v605
      = Host.scatterAdd scatter_S2000000x2_S6000000x1_S6000000x2_1_0_0_1
          (broadcastInDim S2000000x2 ![] bcast_S_S2000000x2 (constant S_ .f32 0x00000000#32))
          (broadcastInDim S6000000x1 ![0] bcast_S6000000_S6000000x1_0 (W main_arg6))
          (W main_v602) := by
  after_results_simp3 <;> rfl

/-- The contents of main_v606 after the stretch. -/
theorem s24_v606 (W : Valuation τ sig (Elt F)) :
    StableHlo.after hostOps24 W main_v606
      = concatenate S500000x6 1
          [⟨S500000x2, W main_v503⟩, ⟨S500000x2, W main_v537⟩, ⟨S500000x2, W main_v463⟩]
          concatenates_S500000x2_S500000x2_S500000x2_S500000x6_d1 := by
  after_results_simp3 <;> rfl

/-- The contents of main_v607 after the stretch. -/
theorem s24_v607 (W : Valuation τ sig (Elt F)) :
    StableHlo.after hostOps24 W main_v607
      = concatenate S2000000x6 1
          [⟨S2000000x2, W main_v571⟩,
           ⟨S2000000x2,
             Host.scatterAdd scatter_S2000000x2_S6000000x1_S6000000x2_1_0_0_1
               (broadcastInDim S2000000x2 ![] bcast_S_S2000000x2 (constant S_ .f32 0x00000000#32))
               (broadcastInDim S6000000x1 ![0] bcast_S6000000_S6000000x1_0 (W main_arg6))
               (W main_v602)⟩,
           ⟨S2000000x2, W main_v469⟩]
          concatenates_S2000000x2_S2000000x2_S2000000x2_S2000000x6_d1 := by
  after_results_simp3 <;> rfl

/-- The contents of main_v609 after the stretch. -/
theorem s24_v609 (W : Valuation τ sig (Elt F)) :
    StableHlo.after hostOps24 W main_v609
      = shapeCast S6x2 (extractStridedSlice S1x6x2 ![3, 0, 0] (W main_arg14) slices_S4x6x2_S1x6x2_3_0_0) shapeCasts_S1x6x2_S6x2 := by
  after_results_simp3 <;> rfl

/-- The contents of main_v612 after the stretch. -/
theorem s24_v612 (W : Valuation τ sig (Elt F)) :
    StableHlo.after hostOps24 W main_v612
      = shapeCast S1x2
          (shapeCast S2 (extractStridedSlice S1x2 ![3, 0] (W main_arg15) slices_S4x2_S1x2_3_0) shapeCasts_S1x2_S2)
          shapeCasts_S2_S1x2 := by
  after_results_simp3 <;> rfl

end Cert.KernelIdeal.Hand

end
-- ==== Proof.KI.Stretch25.lean ====
/-
  What the buffers hold after the host stretch hostOps25 (5 operations; it reads main_arg12, main_arg13).
  Each statement gives the contents of one buffer after the stretch as the stretch's operations applied to the contents,
  before it, of the buffers the stretch reads; it holds at any float values and from any contents before.
-/
import proofs.«149588_j66838281060723_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The contents of main_v615 after the stretch. -/
theorem s25_v615 (W : Valuation τ sig (Elt F)) :
    StableHlo.after hostOps25 W main_v615
      = shapeCast S6x2 (extractStridedSlice S1x6x2 ![3, 0, 0] (W main_arg12) slices_S4x6x2_S1x6x2_3_0_0) shapeCasts_S1x6x2_S6x2 := by
  after_results_simp <;> rfl

/-- The contents of main_v618 after the stretch. -/
theorem s25_v618 (W : Valuation τ sig (Elt F)) :
    StableHlo.after hostOps25 W main_v618
      = shapeCast S1x2
          (shapeCast S2 (extractStridedSlice S1x2 ![3, 0] (W main_arg13) slices_S4x2_S1x2_3_0) shapeCasts_S1x2_S2)
          shapeCasts_S2_S1x2 := by
  after_results_simp <;> rfl

end Cert.KernelIdeal.Hand

end
-- ==== Proof.KI.ChainL3.lean ====
/-
  One layer of the network, item by item. Entered with the clause and variable states in their two buffers and the
  environment's ten values in theirs: each host stretch leaves in the buffers it writes the gathers, scatter-adds, slices
  and concatenates of what it reads; each message region leaves the message function of its four operand arrays, each
  affine region the affine function of its three; a buffer nobody writes in between is carried from the item that wrote
  it to the item that reads it. The two affine regions' outputs are the layer's two functions of the states and the
  environment.
-/
import proofs.«149588_j66838281060723_2_alg».proof.Proof.KI.Outs
import proofs.«149588_j66838281060723_2_alg».proof.Proof.KI.Hold
import proofs.«149588_j66838281060723_2_alg».proof.Proof.KI.Stretch20
import proofs.«149588_j66838281060723_2_alg».proof.Proof.KI.Stretch21
import proofs.«149588_j66838281060723_2_alg».proof.Proof.KI.Stretch22
import proofs.«149588_j66838281060723_2_alg».proof.Proof.KI.Stretch23
import proofs.«149588_j66838281060723_2_alg».proof.Proof.KI.Stretch24
import proofs.«149588_j66838281060723_2_alg».proof.Proof.KI.Stretch25

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

variable (m : (ℓ : Loc nD τ sig) → Buf (Elt F) ℓ)

/-- Layer 3: from the buffers holding the two states and the environment before it, the two state buffers after it hold
    the layer's two functions of them, and the environment's buffers are as before. -/
theorem layer3 (c : Dev nD) (e : Env F) (xc : Vec F S2000000x2 .f32) (xv : Vec F S500000x2 .f32)
    (h_v469_48 : T48 m c main_v469 = xc) (h_v463_48 : T48 m c main_v463 = xv) (H48 : Holds (T48 m c) e) :
    T60 m c main_v619 = kLayerC ![3, 0, 0] slices_S4x6x2_S1x6x2_3_0_0 ![3, 0] slices_S4x2_S1x2_3_0 e xc xv ∧ T60 m c main_v613 = kLayerV ![3, 0, 0] slices_S4x6x2_S1x6x2_3_0_0 ![3, 0] slices_S4x2_S1x2_3_0 e xc xv ∧ Holds (T60 m c) e := by
  have H49 : Holds (T49 m c) e := holds49 m c e H48
  have h_v491_49 : T49 m c main_v491 = kColC e.ic e.posSrc := by
    refine (s20_v491 (T48 m c)).trans ?_
    rw [H48.ic, H48.posSrc]
    rfl
  have h_v499_49 : T49 m c main_v499 = kColV e.iv e.posTrg := by
    refine (s20_v499 (T48 m c)).trans ?_
    rw [H48.iv, H48.posTrg]
    rfl
  have h_v476_49 : T49 m c main_v476 = kRowsC xc e.posSrc := by
    refine (s20_v476 (T48 m c)).trans ?_
    rw [h_v469_48, H48.posSrc]
    rfl
  have h_v483_49 : T49 m c main_v483 = kRowsV xv e.posTrg := by
    refine (s20_v483 (T48 m c)).trans ?_
    rw [h_v463_48, H48.posTrg]
    rfl
  have H50 : Holds (T50 m c) e := holds50 m c e H49
  have h_v500_50 : T50 m c main_v500 = msgG (F := F) (n := 6000000) (kColC e.ic e.posSrc) (kColV e.iv e.posTrg) (kRowsC xc e.posSrc) (kRowsV xv e.posTrg) := by
    refine (out20 m c).trans ?_
    rw [h_v491_49, h_v499_49, h_v476_49, h_v483_49]
  have H51 : Holds (T51 m c) e := holds51 m c e H50
  have h_v503_51 : T51 m c main_v503 = kConvV xc xv e.ic e.iv e.posSrc e.posTrg := by
    refine (s21_v503 (T50 m c)).trans ?_
    rw [H50.posTrg, h_v500_50]
    rfl
  have h_v525_51 : T51 m c main_v525 = kColC e.ic e.negSrc := by
    refine (s21_v525 (T50 m c)).trans ?_
    rw [H50.ic, H50.negSrc]
    rfl
  have h_v533_51 : T51 m c main_v533 = kColV e.iv e.negTrg := by
    refine (s21_v533 (T50 m c)).trans ?_
    rw [H50.iv, H50.negTrg]
    rfl
  have h_v469_49 : T49 m c main_v469 = xc := (step49 m c main_v469 (by decide)).trans h_v469_48
  have h_v469_50 : T50 m c main_v469 = xc := (step50 m c main_v469 (by decide)).trans h_v469_49
  have h_v510_51 : T51 m c main_v510 = kRowsC xc e.negSrc := by
    refine (s21_v510 (T50 m c)).trans ?_
    rw [h_v469_50, H50.negSrc]
    rfl
  have h_v463_49 : T49 m c main_v463 = xv := (step49 m c main_v463 (by decide)).trans h_v463_48
  have h_v463_50 : T50 m c main_v463 = xv := (step50 m c main_v463 (by decide)).trans h_v463_49
  have h_v517_51 : T51 m c main_v517 = kRowsV xv e.negTrg := by
    refine (s21_v517 (T50 m c)).trans ?_
    rw [h_v463_50, H50.negTrg]
    rfl
  have H52 : Holds (T52 m c) e := holds52 m c e H51
  have h_v534_52 : T52 m c main_v534 = msgG (F := F) (n := 6000000) (kColC e.ic e.negSrc) (kColV e.iv e.negTrg) (kRowsC xc e.negSrc) (kRowsV xv e.negTrg) := by
    refine (out21 m c).trans ?_
    rw [h_v525_51, h_v533_51, h_v510_51, h_v517_51]
  have H53 : Holds (T53 m c) e := holds53 m c e H52
  have h_v537_53 : T53 m c main_v537 = kConvV xc xv e.ic e.iv e.negSrc e.negTrg := by
    refine (s22_v537 (T52 m c)).trans ?_
    rw [H52.negTrg, h_v534_52]
    rfl
  have h_v559_53 : T53 m c main_v559 = kColV e.iv e.posTrg := by
    refine (s22_v559 (T52 m c)).trans ?_
    rw [H52.iv, H52.posTrg]
    rfl
  have h_v567_53 : T53 m c main_v567 = kColC e.ic e.posSrc := by
    refine (s22_v567 (T52 m c)).trans ?_
    rw [H52.ic, H52.posSrc]
    rfl
  have h_v463_51 : T51 m c main_v463 = xv := (step51 m c main_v463 (by decide)).trans h_v463_50
  have h_v463_52 : T52 m c main_v463 = xv := (step52 m c main_v463 (by decide)).trans h_v463_51
  have h_v544_53 : T53 m c main_v544 = kRowsV xv e.posTrg := by
    refine (s22_v544 (T52 m c)).trans ?_
    rw [h_v463_52, H52.posTrg]
    rfl
  have h_v469_51 : T51 m c main_v469 = xc := (step51 m c main_v469 (by decide)).trans h_v469_50
  have h_v469_52 : T52 m c main_v469 = xc := (step52 m c main_v469 (by decide)).trans h_v469_51
  have h_v551_53 : T53 m c main_v551 = kRowsC xc e.posSrc := by
    refine (s22_v551 (T52 m c)).trans ?_
    rw [h_v469_52, H52.posSrc]
    rfl
  have H54 : Holds (T54 m c) e := holds54 m c e H53
  have h_v568_54 : T54 m c main_v568 = msgG (F := F) (n := 6000000) (kColV e.iv e.posTrg) (kColC e.ic e.posSrc) (kRowsV xv e.posTrg) (kRowsC xc e.posSrc) := by
    refine (out22 m c).trans ?_
    rw [h_v559_53, h_v567_53, h_v544_53, h_v551_53]
  have H55 : Holds (T55 m c) e := holds55 m c e H54
  have h_v571_55 : T55 m c main_v571 = kConvC xc xv e.ic e.iv e.posSrc e.posTrg := by
    refine (s23_v571 (T54 m c)).trans ?_
    rw [H54.posSrc, h_v568_54]
    rfl
  have h_v593_55 : T55 m c main_v593 = kColV e.iv e.negTrg := by
    refine (s23_v593 (T54 m c)).trans ?_
    rw [H54.iv, H54.negTrg]
    rfl
  have h_v601_55 : T55 m c main_v601 = kColC e.ic e.negSrc := by
    refine (s23_v601 (T54 m c)).trans ?_
    rw [H54.ic, H54.negSrc]
    rfl
  have h_v463_53 : T53 m c main_v463 = xv := (step53 m c main_v463 (by decide)).trans h_v463_52
  have h_v463_54 : T54 m c main_v463 = xv := (step54 m c main_v463 (by decide)).trans h_v463_53
  have h_v578_55 : T55 m c main_v578 = kRowsV xv e.negTrg := by
    refine (s23_v578 (T54 m c)).trans ?_
    rw [h_v463_54, H54.negTrg]
    rfl
  have h_v469_53 : T53 m c main_v469 = xc := (step53 m c main_v469 (by decide)).trans h_v469_52
  have h_v469_54 : T54 m c main_v469 = xc := (step54 m c main_v469 (by decide)).trans h_v469_53
  have h_v585_55 : T55 m c main_v585 = kRowsC xc e.negSrc := by
    refine (s23_v585 (T54 m c)).trans ?_
    rw [h_v469_54, H54.negSrc]
    rfl
  have H56 : Holds (T56 m c) e := holds56 m c e H55
  have h_v602_56 : T56 m c main_v602 = msgG (F := F) (n := 6000000) (kColV e.iv e.negTrg) (kColC e.ic e.negSrc) (kRowsV xv e.negTrg) (kRowsC xc e.negSrc) := by
    refine (out23 m c).trans ?_
    rw [h_v593_55, h_v601_55, h_v578_55, h_v585_55]
  have H57 : Holds (T57 m c) e := holds57 m c e H56
  have h_v503_52 : T52 m c main_v503 = kConvV xc xv e.ic e.iv e.posSrc e.posTrg := (step52 m c main_v503 (by decide)).trans h_v503_51
  have h_v503_53 : T53 m c main_v503 = kConvV xc xv e.ic e.iv e.posSrc e.posTrg := (step53 m c main_v503 (by decide)).trans h_v503_52
  have h_v503_54 : T54 m c main_v503 = kConvV xc xv e.ic e.iv e.posSrc e.posTrg := (step54 m c main_v503 (by decide)).trans h_v503_53
  have h_v503_55 : T55 m c main_v503 = kConvV xc xv e.ic e.iv e.posSrc e.posTrg := (step55 m c main_v503 (by decide)).trans h_v503_54
  have h_v503_56 : T56 m c main_v503 = kConvV xc xv e.ic e.iv e.posSrc e.posTrg := (step56 m c main_v503 (by decide)).trans h_v503_55
  have h_v537_54 : T54 m c main_v537 = kConvV xc xv e.ic e.iv e.negSrc e.negTrg := (step54 m c main_v537 (by decide)).trans h_v537_53
  have h_v537_55 : T55 m c main_v537 = kConvV xc xv e.ic e.iv e.negSrc e.negTrg := (step55 m c main_v537 (by decide)).trans h_v537_54
  have h_v537_56 : T56 m c main_v537 = kConvV xc xv e.ic e.iv e.negSrc e.negTrg := (step56 m c main_v537 (by decide)).trans h_v537_55
  have h_v463_55 : T55 m c main_v463 = xv := (step55 m c main_v463 (by decide)).trans h_v463_54
  have h_v463_56 : T56 m c main_v463 = xv := (step56 m c main_v463 (by decide)).trans h_v463_55
  have h_v606_57 : T57 m c main_v606 = concatenate S500000x6 1 [⟨S500000x2, kConvV xc xv e.ic e.iv e.posSrc e.posTrg⟩, ⟨S500000x2, kConvV xc xv e.ic e.iv e.negSrc e.negTrg⟩, ⟨S500000x2, xv⟩] concatenates_S500000x2_S500000x2_S500000x2_S500000x6_d1 := by
    refine (s24_v606 (T56 m c)).trans ?_
    rw [h_v503_56, h_v537_56, h_v463_56]
  have h_v609_57 : T57 m c main_v609 = kWAt ![3, 0, 0] slices_S4x6x2_S1x6x2_3_0_0 e.wv := by
    refine (s24_v609 (T56 m c)).trans ?_
    rw [H56.wv]
    rfl
  have h_v612_57 : T57 m c main_v612 = kBAt ![3, 0] slices_S4x2_S1x2_3_0 e.bv := by
    refine (s24_v612 (T56 m c)).trans ?_
    rw [H56.bv]
    rfl
  have h_v571_56 : T56 m c main_v571 = kConvC xc xv e.ic e.iv e.posSrc e.posTrg := (step56 m c main_v571 (by decide)).trans h_v571_55
  have h_v469_55 : T55 m c main_v469 = xc := (step55 m c main_v469 (by decide)).trans h_v469_54
  have h_v469_56 : T56 m c main_v469 = xc := (step56 m c main_v469 (by decide)).trans h_v469_55
  have h_v607_57 : T57 m c main_v607 = concatenate S2000000x6 1 [⟨S2000000x2, kConvC xc xv e.ic e.iv e.posSrc e.posTrg⟩, ⟨S2000000x2, kConvC xc xv e.ic e.iv e.negSrc e.negTrg⟩, ⟨S2000000x2, xc⟩] concatenates_S2000000x2_S2000000x2_S2000000x2_S2000000x6_d1 := by
    refine (s24_v607 (T56 m c)).trans ?_
    rw [h_v571_56, H56.negSrc, h_v602_56, h_v469_56]
    rfl
  have H58 : Holds (T58 m c) e := holds58 m c e H57
  have h_v613_58 : T58 m c main_v613 = kLayerV ![3, 0, 0] slices_S4x6x2_S1x6x2_3_0_0 ![3, 0] slices_S4x2_S1x2_3_0 e xc xv := by
    refine (out24 m c).trans ?_
    rw [h_v606_57, h_v609_57, h_v612_57]
    rfl
  have H59 : Holds (T59 m c) e := holds59 m c e H58
  have h_v615_59 : T59 m c main_v615 = kWAt ![3, 0, 0] slices_S4x6x2_S1x6x2_3_0_0 e.wc := by
    refine (s25_v615 (T58 m c)).trans ?_
    rw [H58.wc]
    rfl
  have h_v618_59 : T59 m c main_v618 = kBAt ![3, 0] slices_S4x2_S1x2_3_0 e.bc := by
    refine (s25_v618 (T58 m c)).trans ?_
    rw [H58.bc]
    rfl
  have H60 : Holds (T60 m c) e := holds60 m c e H59
  have h_v607_58 : T58 m c main_v607 = concatenate S2000000x6 1 [⟨S2000000x2, kConvC xc xv e.ic e.iv e.posSrc e.posTrg⟩, ⟨S2000000x2, kConvC xc xv e.ic e.iv e.negSrc e.negTrg⟩, ⟨S2000000x2, xc⟩] concatenates_S2000000x2_S2000000x2_S2000000x2_S2000000x6_d1 := (step58 m c main_v607 (by decide)).trans h_v607_57
  have h_v607_59 : T59 m c main_v607 = concatenate S2000000x6 1 [⟨S2000000x2, kConvC xc xv e.ic e.iv e.posSrc e.posTrg⟩, ⟨S2000000x2, kConvC xc xv e.ic e.iv e.negSrc e.negTrg⟩, ⟨S2000000x2, xc⟩] concatenates_S2000000x2_S2000000x2_S2000000x2_S2000000x6_d1 := (step59 m c main_v607 (by decide)).trans h_v607_58
  have h_v619_60 : T60 m c main_v619 = kLayerC ![3, 0, 0] slices_S4x6x2_S1x6x2_3_0_0 ![3, 0] slices_S4x2_S1x2_3_0 e xc xv := by
    refine (out25 m c).trans ?_
    rw [h_v607_59, h_v615_59, h_v618_59]
    rfl
  have h_v613_59 : T59 m c main_v613 = kLayerV ![3, 0, 0] slices_S4x6x2_S1x6x2_3_0_0 ![3, 0] slices_S4x2_S1x2_3_0 e xc xv := (step59 m c main_v613 (by decide)).trans h_v613_58
  have h_v613_60 : T60 m c main_v613 = kLayerV ![3, 0, 0] slices_S4x6x2_S1x6x2_3_0_0 ![3, 0] slices_S4x2_S1x2_3_0 e xc xv := (step60 m c main_v613 (by decide)).trans h_v613_59
  exact ⟨h_v619_60, h_v613_60, H60⟩

end Cert.KernelIdeal.Hand

end
-- ==== Proof.KI.Chain.lean ====
/-
  The whole chain: after the first two affine regions the two state buffers hold the first states and the ten kept
  buffers the environment of the arguments; four layers on, the variables' state buffer holds the network's result.
-/
import proofs.«149588_j66838281060723_2_alg».proof.Proof.KI.ChainP
import proofs.«149588_j66838281060723_2_alg».proof.Proof.KI.ChainL0
import proofs.«149588_j66838281060723_2_alg».proof.Proof.KI.ChainL1
import proofs.«149588_j66838281060723_2_alg».proof.Proof.KI.ChainL2
import proofs.«149588_j66838281060723_2_alg».proof.Proof.KI.ChainL3
import proofs.«149588_j66838281060723_2_alg».proof.Proof.KI.Net

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

variable (m : (ℓ : Loc nD τ sig) → Buf (Elt F) ℓ)

/-- The ten kept buffers after the first two affine regions hold the environment of the arguments. -/
theorem holds12_args (c : Dev nD) : Holds (T12 m c) (kArgsM m c).env :=
  ⟨p12_v7 m c, p12_v15 m c, p12_arg m c main_arg4 (by decide), p12_arg m c main_arg5 (by decide), p12_arg m c main_arg6 (by decide),
   p12_arg m c main_arg7 (by decide), p12_arg m c main_arg12 (by decide), p12_arg m c main_arg13 (by decide),
   p12_arg m c main_arg14 (by decide), p12_arg m c main_arg15 (by decide)⟩

/-- The result buffer after the last item of the program: the network function of the sixteen arguments as launched. -/
theorem chain (c : Dev nD) : T60 m c main_v613 = kOut (kArgsM m c) := by
  obtain ⟨c1, v1, H24⟩ := layer0 m c (kArgsM m c).env (kStC0 (kArgsM m c)) (kStV0 (kArgsM m c)) (p12_v17 m c) (p12_v19 m c) (holds12_args m c)
  obtain ⟨c2, v2, H36⟩ := layer1 m c (kArgsM m c).env (kStC1 (kArgsM m c)) (kStV1 (kArgsM m c)) c1 v1 H24
  obtain ⟨c3, v3, H48⟩ := layer2 m c (kArgsM m c).env (kStC2 (kArgsM m c)) (kStV2 (kArgsM m c)) c2 v2 H36
  obtain ⟨-, v4, -⟩ := layer3 m c (kArgsM m c).env (kStC3 (kArgsM m c)) (kStV3 (kArgsM m c)) c3 v3 H48
  exact v4

end Cert.KernelIdeal.Hand

end
-- ==== Proof.KI.Value.lean ====
/-
  The value of the kernel program at the extended reals: what its result array holds at the end of every run.

  The run of the whole program ends with every unscoped buffer of each core at the last valuation of the fold over the
  program's items. In that valuation the result buffer is the kernel program's network function of the sixteen argument
  arrays as launched (the chain of the layers' values), and each argument is as launched, no item writing one. So every
  weakly fair execution of @main terminates with the result at the network function of the arguments and the arguments
  unchanged.
-/
import proofs.«149588_j66838281060723_2_alg».proof.Proof.KI.RunAll
import proofs.«149588_j66838281060723_2_alg».proof.Proof.KI.Chain

set_option maxRecDepth 16384

noncomputable section

namespace Cert.KernelIdeal.Hand

open Cert.KernelIdeal
open Idealize.ShloMosaic Idealize.ShloMosaic.TcCoe Idealize.SL.Sem

variable (m : (ℓ : Loc nD τ sig) → Buf (Elt Ideal) ℓ) (ρ : Dev nD → PrngReg)

/-! ## No item of the program writes an argument: in the last valuation each is as launched -/

theorem T60_main_arg0 (c : Dev nD) : T60 m c main_arg0 = m ((c.tc : Thread nD τ).loc main_arg0) :=
  (congrFun (Veq60 m c) (Proc.devRef .tc main_arg0)).symm.trans (GenP.V60_main_arg0 m (outs m) c)
theorem T60_main_arg1 (c : Dev nD) : T60 m c main_arg1 = m ((c.tc : Thread nD τ).loc main_arg1) :=
  (congrFun (Veq60 m c) (Proc.devRef .tc main_arg1)).symm.trans (GenP.V60_main_arg1 m (outs m) c)
theorem T60_main_arg2 (c : Dev nD) : T60 m c main_arg2 = m ((c.tc : Thread nD τ).loc main_arg2) :=
  (congrFun (Veq60 m c) (Proc.devRef .tc main_arg2)).symm.trans (GenP.V60_main_arg2 m (outs m) c)
theorem T60_main_arg3 (c : Dev nD) : T60 m c main_arg3 = m ((c.tc : Thread nD τ).loc main_arg3) :=
  (congrFun (Veq60 m c) (Proc.devRef .tc main_arg3)).symm.trans (GenP.V60_main_arg3 m (outs m) c)
theorem T60_main_arg4 (c : Dev nD) : T60 m c main_arg4 = m ((c.tc : Thread nD τ).loc main_arg4) :=
  (congrFun (Veq60 m c) (Proc.devRef .tc main_arg4)).symm.trans (GenP.V60_main_arg4 m (outs m) c)
theorem T60_main_arg5 (c : Dev nD) : T60 m c main_arg5 = m ((c.tc : Thread nD τ).loc main_arg5) :=
  (congrFun (Veq60 m c) (Proc.devRef .tc main_arg5)).symm.trans (GenP.V60_main_arg5 m (outs m) c)
theorem T60_main_arg6 (c : Dev nD) : T60 m c main_arg6 = m ((c.tc : Thread nD τ).loc main_arg6) :=
  (congrFun (Veq60 m c) (Proc.devRef .tc main_arg6)).symm.trans (GenP.V60_main_arg6 m (outs m) c)
theorem T60_main_arg7 (c : Dev nD) : T60 m c main_arg7 = m ((c.tc : Thread nD τ).loc main_arg7) :=
  (congrFun (Veq60 m c) (Proc.devRef .tc main_arg7)).symm.trans (GenP.V60_main_arg7 m (outs m) c)
theorem T60_main_arg8 (c : Dev nD) : T60 m c main_arg8 = m ((c.tc : Thread nD τ).loc main_arg8) :=
  (congrFun (Veq60 m c) (Proc.devRef .tc main_arg8)).symm.trans (GenP.V60_main_arg8 m (outs m) c)
theorem T60_main_arg9 (c : Dev nD) : T60 m c main_arg9 = m ((c.tc : Thread nD τ).loc main_arg9) :=
  (congrFun (Veq60 m c) (Proc.devRef .tc main_arg9)).symm.trans (GenP.V60_main_arg9 m (outs m) c)
theorem T60_main_arg10 (c : Dev nD) : T60 m c main_arg10 = m ((c.tc : Thread nD τ).loc main_arg10) :=
  (congrFun (Veq60 m c) (Proc.devRef .tc main_arg10)).symm.trans (GenP.V60_main_arg10 m (outs m) c)
theorem T60_main_arg11 (c : Dev nD) : T60 m c main_arg11 = m ((c.tc : Thread nD τ).loc main_arg11) :=
  (congrFun (Veq60 m c) (Proc.devRef .tc main_arg11)).symm.trans (GenP.V60_main_arg11 m (outs m) c)
theorem T60_main_arg12 (c : Dev nD) : T60 m c main_arg12 = m ((c.tc : Thread nD τ).loc main_arg12) :=
  (congrFun (Veq60 m c) (Proc.devRef .tc main_arg12)).symm.trans (GenP.V60_main_arg12 m (outs m) c)
theorem T60_main_arg13 (c : Dev nD) : T60 m c main_arg13 = m ((c.tc : Thread nD τ).loc main_arg13) :=
  (congrFun (Veq60 m c) (Proc.devRef .tc main_arg13)).symm.trans (GenP.V60_main_arg13 m (outs m) c)
theorem T60_main_arg14 (c : Dev nD) : T60 m c main_arg14 = m ((c.tc : Thread nD τ).loc main_arg14) :=
  (congrFun (Veq60 m c) (Proc.devRef .tc main_arg14)).symm.trans (GenP.V60_main_arg14 m (outs m) c)
theorem T60_main_arg15 (c : Dev nD) : T60 m c main_arg15 = m ((c.tc : Thread nD τ).loc main_arg15) :=
  (congrFun (Veq60 m c) (Proc.devRef .tc main_arg15)).symm.trans (GenP.V60_main_arg15 m (outs m) c)

/-! ## The run with the result read -/

/-- THE RUN of the program at the extended reals: every weakly fair execution of @main terminates with the result array
    at the network function of the sixteen arguments as launched, and the arguments unchanged. -/
theorem run_value : θ_run defs (onTc (τ := τ) (main (F := Ideal))) ⟨m, fun _ => 0, ρ⟩ (fun r => ∀ c : Dev nD,
      r.2.mem ((c.tc : Thread nD τ).loc main_v613) = kOut (kArgsM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c (Proc.devRef .tc main_v613) (Finset.mem_filter.mpr ⟨StableHlo.devRef_mem_tcRefs main_v613, by decide⟩)).trans (chain m c),
      (h c (Proc.devRef .tc main_arg0) (Finset.mem_filter.mpr ⟨StableHlo.devRef_mem_tcRefs main_arg0, by decide⟩)).trans (T60_main_arg0 m c),
      (h c (Proc.devRef .tc main_arg1) (Finset.mem_filter.mpr ⟨StableHlo.devRef_mem_tcRefs main_arg1, by decide⟩)).trans (T60_main_arg1 m c),
      (h c (Proc.devRef .tc main_arg2) (Finset.mem_filter.mpr ⟨StableHlo.devRef_mem_tcRefs main_arg2, by decide⟩)).trans (T60_main_arg2 m c),
      (h c (Proc.devRef .tc main_arg3) (Finset.mem_filter.mpr ⟨StableHlo.devRef_mem_tcRefs main_arg3, by decide⟩)).trans (T60_main_arg3 m c),
      (h c (Proc.devRef .tc main_arg4) (Finset.mem_filter.mpr ⟨StableHlo.devRef_mem_tcRefs main_arg4, by decide⟩)).trans (T60_main_arg4 m c),
      (h c (Proc.devRef .tc main_arg5) (Finset.mem_filter.mpr ⟨StableHlo.devRef_mem_tcRefs main_arg5, by decide⟩)).trans (T60_main_arg5 m c),
      (h c (Proc.devRef .tc main_arg6) (Finset.mem_filter.mpr ⟨StableHlo.devRef_mem_tcRefs main_arg6, by decide⟩)).trans (T60_main_arg6 m c),
      (h c (Proc.devRef .tc main_arg7) (Finset.mem_filter.mpr ⟨StableHlo.devRef_mem_tcRefs main_arg7, by decide⟩)).trans (T60_main_arg7 m c),
      (h c (Proc.devRef .tc main_arg8) (Finset.mem_filter.mpr ⟨StableHlo.devRef_mem_tcRefs main_arg8, by decide⟩)).trans (T60_main_arg8 m c),
      (h c (Proc.devRef .tc main_arg9) (Finset.mem_filter.mpr ⟨StableHlo.devRef_mem_tcRefs main_arg9, by decide⟩)).trans (T60_main_arg9 m c),
      (h c (Proc.devRef .tc main_arg10) (Finset.mem_filter.mpr ⟨StableHlo.devRef_mem_tcRefs main_arg10, by decide⟩)).trans (T60_main_arg10 m c),
      (h c (Proc.devRef .tc main_arg11) (Finset.mem_filter.mpr ⟨StableHlo.devRef_mem_tcRefs main_arg11, by decide⟩)).trans (T60_main_arg11 m c),
      (h c (Proc.devRef .tc main_arg12) (Finset.mem_filter.mpr ⟨StableHlo.devRef_mem_tcRefs main_arg12, by decide⟩)).trans (T60_main_arg12 m c),
      (h c (Proc.devRef .tc main_arg13) (Finset.mem_filter.mpr ⟨StableHlo.devRef_mem_tcRefs main_arg13, by decide⟩)).trans (T60_main_arg13 m c),
      (h c (Proc.devRef .tc main_arg14) (Finset.mem_filter.mpr ⟨StableHlo.devRef_mem_tcRefs main_arg14, by decide⟩)).trans (T60_main_arg14 m c),
      (h c (Proc.devRef .tc main_arg15) (Finset.mem_filter.mpr ⟨StableHlo.devRef_mem_tcRefs main_arg15, by decide⟩)).trans (T60_main_arg15 m c)⟩)
    (run_all m ρ)

end Cert.KernelIdeal.Hand

end
-- ==== Proof.Ref.Pieces.lean ====
/- The reference network, piece by piece: each repeated stretch of the reference's host operations
   as ONE pure function of the values it reads, written with exactly the operations of the printed
   program and generic in the float values. -/
import proofs.«149588_j66838281060723_2_alg».proof.ReferenceIdeal

noncomputable section

namespace Cert.ReferenceIdeal.Hand

open Idealize.ShloMosaic Idealize.SL.Sem Cert.ReferenceIdeal
open Cert.ReferenceIdeal.Facts₀ Cert.ReferenceIdeal.Facts

variable {F : FTy → Type} [FloatOps F] [Facts]

/-- deg ↦ deg^(-1/2) where deg > 0, else 0 (two guarded selects around one power), at any vector shape. -/
def invSqrtDeg (S : Shape) (h : S_.BroadcastsInDim S (![] : Fin 0 → Fin S.rank)) (deg : Vec F S .f32) : Vec F S .f32 :=
  select (cmpf .ogt deg (broadcastInDim S ![] h (constant S_ .f32 0x00000000#32)))
    (Host.powf
      (select (cmpf .ogt deg (broadcastInDim S ![] h (constant S_ .f32 0x00000000#32))) deg
        (broadcastInDim S ![] h (id (constant S_ .f32 0x3F800000#32 : Vec F S_ .f32))))
      (broadcastInDim S ![] h (constant S_ .f32 0xBF000000#32)))
    (broadcastInDim S ![] h (id (constant S_ .f32 0x00000000#32 : Vec F S_ .f32)))

/-- The clause degrees' inverse square roots. -/
def invC (deg : Vec F S2000000 .f32) : Vec F S2000000 .f32 := invSqrtDeg S2000000 bcast_S_S2000000 deg
/-- The variable degrees' inverse square roots. -/
def invV (deg : Vec F S500000 .f32) : Vec F S500000 .f32 := invSqrtDeg S500000 bcast_S_S500000 deg

/-- An edge-index vector made non-negative (a negative index counts from the end, n entries), as a column. -/
def normIdx (n : BitVec 32) (idx : Vec F S6000000 .i32) : Vec F S6000000x1 .i32 :=
  broadcastInDim S6000000x1 ![0] bcast_S6000000_S6000000x1_0
    (select (cmpi .slt idx (broadcastInDim S6000000 ![] bcast_S_S6000000 (constantI S_ 32 0#32)))
      (addi idx (broadcastInDim S6000000 ![] bcast_S_S6000000 (constantI S_ 32 n))) idx)

/-- One graph convolution toward the variables: per edge, (inv_c[src] · inv_v[trg]) · xc[src] + xv[trg], summed
    into a zero table at the edge's variable. -/
def convV (xc : Vec F S2000000x2 .f32) (xv : Vec F S500000x2 .f32) (ic : Vec F S2000000 .f32) (iv : Vec F S500000 .f32)
    (src trg : Vec F S6000000 .i32) : Vec F S500000x2 .f32 :=
  Host.scatterAdd scatter_S500000x2_S6000000x1_S6000000x2_1_0_0_1
    (broadcastInDim S500000x2 ![] bcast_S_S500000x2 (constant S_ .f32 0x00000000#32))
    (broadcastInDim S6000000x1 ![0] bcast_S6000000_S6000000x1_0 trg)
    (addf
      (mulf
        (broadcastInDim S6000000x2 ![0, 1] bcast_S6000000x1_S6000000x2_0_1
          (broadcastInDim S6000000x1 ![0] bcast_S6000000_S6000000x1_0
            (mulf (Host.gather gather_S2000000_S6000000x1_S6000000_n_0_n_n_0_1_1 ic (normIdx 2000000#32 src))
              (Host.gather gather_S500000_S6000000x1_S6000000_n_0_n_n_0_1_1 iv (normIdx 500000#32 trg)))))
        (Host.gather gather_S2000000x2_S6000000x1_S6000000x2_1_0_n_n_0_1_12 xc (normIdx 2000000#32 src)))
      (Host.gather gather_S500000x2_S6000000x1_S6000000x2_1_0_n_n_0_1_12 xv (normIdx 500000#32 trg)))

/-- One graph convolution toward the clauses (the edges reversed): per edge, (inv_v[trg] · inv_c[src]) · xv[trg] + xc[src],
    summed into a zero table at the edge's clause. -/
def convC (xc : Vec F S2000000x2 .f32) (xv : Vec F S500000x2 .f32) (ic : Vec F S2000000 .f32) (iv : Vec F S500000 .f32)
    (src trg : Vec F S6000000 .i32) : Vec F S2000000x2 .f32 :=
  Host.scatterAdd scatter_S2000000x2_S6000000x1_S6000000x2_1_0_0_1
    (broadcastInDim S2000000x2 ![] bcast_S_S2000000x2 (constant S_ .f32 0x00000000#32))
    (broadcastInDim S6000000x1 ![0] bcast_S6000000_S6000000x1_0 src)
    (addf
      (mulf
        (broadcastInDim S6000000x2 ![0, 1] bcast_S6000000x1_S6000000x2_0_1
          (broadcastInDim S6000000x1 ![0] bcast_S6000000_S6000000x1_0
            (mulf (Host.gather gather_S500000_S6000000x1_S6000000_n_0_n_n_0_1_1 iv (normIdx 500000#32 trg))
              (Host.gather gather_S2000000_S6000000x1_S6000000_n_0_n_n_0_1_1 ic (normIdx 2000000#32 src)))))
        (Host.gather gather_S500000x2_S6000000x1_S6000000x2_1_0_n_n_0_1_12 xv (normIdx 500000#32 trg)))
      (Host.gather gather_S2000000x2_S6000000x1_S6000000x2_1_0_n_n_0_1_12 xc (normIdx 2000000#32 src)))

/-- The first affine map of the clauses: x · W + b, one input feature. -/
def aff0C (x : Vec F S2000000x1 .f32) (w : Vec F S1x2 .f32) (b : Vec F S2 .f32) : Vec F S2000000x2 .f32 :=
  addf (Host.dotGeneral dot_S2000000x1_S1x2_S2000000x2_1_0_0_1_n_n none x w)
    (broadcastInDim S2000000x2 ![0, 1] bcast_S1x2_S2000000x2_0_1 (broadcastInDim S1x2 ![1] bcast_S2_S1x2_1 b))

/-- The first affine map of the variables. -/
def aff0V (x : Vec F S500000x1 .f32) (w : Vec F S1x2 .f32) (b : Vec F S2 .f32) : Vec F S500000x2 .f32 :=
  addf (Host.dotGeneral dot_S500000x1_S1x2_S500000x2_1_0_0_1_n_n none x w)
    (broadcastInDim S500000x2 ![0, 1] bcast_S1x2_S500000x2_0_1 (broadcastInDim S1x2 ![1] bcast_S2_S1x2_1 b))

/-- Layer l's weight matrix out of the stack of four. -/
def wAt (o : Fin 3 → Nat) (h : S4x6x2.Slices o S1x6x2) (w : Vec F S4x6x2 .f32) : Vec F S6x2 .f32 :=
  shapeCast S6x2 (extractStridedSlice S1x6x2 o w h) shapeCasts_S1x6x2_S6x2

/-- Layer l's bias out of the stack of four. -/
def bAt (o : Fin 2 → Nat) (h : S4x2.Slices o S1x2) (b : Vec F S4x2 .f32) : Vec F S2 .f32 :=
  shapeCast S2 (extractStridedSlice S1x2 o b h) shapeCasts_S1x2_S2

/-- A layer's affine map of the variables: [p | q | prev] · W_l + b_l, six input features. -/
def affV (o3 : Fin 3 → Nat) (h3 : S4x6x2.Slices o3 S1x6x2) (o2 : Fin 2 → Nat) (h2 : S4x2.Slices o2 S1x2)
    (p q prev : Vec F S500000x2 .f32) (w : Vec F S4x6x2 .f32) (b : Vec F S4x2 .f32) : Vec F S500000x2 .f32 :=
  addf
    (Host.dotGeneral dot_S500000x6_S6x2_S500000x2_1_0_0_1_n_n none
      (concatenate S500000x6 1 [⟨S500000x2, p⟩, ⟨S500000x2, q⟩, ⟨S500000x2, prev⟩] concatenates_S500000x2_S500000x2_S500000x2_S500000x6_d1)
      (wAt o3 h3 w))
    (broadcastInDim S500000x2 ![0, 1] bcast_S1x2_S500000x2_0_1 (broadcastInDim S1x2 ![1] bcast_S2_S1x2_1 (bAt o2 h2 b)))

/-- A layer's affine map of the clauses. -/
def affC (o3 : Fin 3 → Nat) (h3 : S4x6x2.Slices o3 S1x6x2) (o2 : Fin 2 → Nat) (h2 : S4x2.Slices o2 S1x2)
    (p q prev : Vec F S2000000x2 .f32) (w : Vec F S4x6x2 .f32) (b : Vec F S4x2 .f32) : Vec F S2000000x2 .f32 :=
  addf
    (Host.dotGeneral dot_S2000000x6_S6x2_S2000000x2_1_0_0_1_n_n none
      (concatenate S2000000x6 1 [⟨S2000000x2, p⟩, ⟨S2000000x2, q⟩, ⟨S2000000x2, prev⟩] concatenates_S2000000x2_S2000000x2_S2000000x2_S2000000x6_d1)
      (wAt o3 h3 w))
    (broadcastInDim S2000000x2 ![0, 1] bcast_S1x2_S2000000x2_0_1 (broadcastInDim S1x2 ![1] bcast_S2_S1x2_1 (bAt o2 h2 b)))

/-- What a layer reads besides the two states: the two inverse-root tables, the four edge-index vectors, and the
    two weight stacks with their biases. -/
structure Env (F : FTy → Type) where
  ic : Vec F S2000000 .f32
  iv : Vec F S500000 .f32
  posSrc : Vec F S6000000 .i32
  posTrg : Vec F S6000000 .i32
  negSrc : Vec F S6000000 .i32
  negTrg : Vec F S6000000 .i32
  wc : Vec F S4x6x2 .f32
  bc : Vec F S4x2 .f32
  wv : Vec F S4x6x2 .f32
  bv : Vec F S4x2 .f32

/-- One layer's new variable state. -/
def layerV (o3 : Fin 3 → Nat) (h3 : S4x6x2.Slices o3 S1x6x2) (o2 : Fin 2 → Nat) (h2 : S4x2.Slices o2 S1x2)
    (e : Env F) (xc : Vec F S2000000x2 .f32) (xv : Vec F S500000x2 .f32) : Vec F S500000x2 .f32 :=
  affV o3 h3 o2 h2 (convV xc xv e.ic e.iv e.posSrc e.posTrg) (convV xc xv e.ic e.iv e.negSrc e.negTrg) xv e.wv e.bv

/-- One layer's new clause state. -/
def layerC (o3 : Fin 3 → Nat) (h3 : S4x6x2.Slices o3 S1x6x2) (o2 : Fin 2 → Nat) (h2 : S4x2.Slices o2 S1x2)
    (e : Env F) (xc : Vec F S2000000x2 .f32) (xv : Vec F S500000x2 .f32) : Vec F S2000000x2 .f32 :=
  affC o3 h3 o2 h2 (convC xc xv e.ic e.iv e.posSrc e.posTrg) (convC xc xv e.ic e.iv e.negSrc e.negTrg) xc e.wc e.bc

end Cert.ReferenceIdeal.Hand

end
-- ==== Proof.KI.Bridge.lean ====
/- The kernel program's pieces against the reference's, at the extended reals: on the same arguments each piece of the
   kernel program EQUALS the reference's piece. The index vectors, the inverse roots, the gathers, the scatter-adds, the
   slices and the concatenates are the same operations on both sides; what differs is read at an index. A message
   region's array ((a * b) * xs) + xt against the reference's two broadcasts of the product column: the column reshaped
   from a vector and the column broadcast from it read the same entry. An affine region's array (the products added to
   zero column by column, then the bias row) against the reference's matrix product plus the broadcast bias: the
   product at an index is the finite sum over the contracted coordinate, which over one or six columns is the
   left-nested sum, and the leading zero drops. -/
import proofs.«149588_j66838281060723_2_alg».proof.Proof.KI.Pieces
import proofs.«149588_j66838281060723_2_alg».proof.Proof.Ref.Pieces
import Idealize.ShloMosaic.Lib.Pipeline.Value
import Idealize.ShloMosaic.Lib.ValueIdx
import Idealize.ShloMosaic.Lib.ValueLayout
import Idealize.ShloMosaic.Lib.StackMember

noncomputable section

namespace Cert.KernelIdeal.Hand

open Idealize.ShloMosaic Idealize.SL.Sem Cert.KernelIdeal
open Idealize.ShloMosaic.ValueIdx
open Cert.KernelIdeal.Facts₀ Cert.KernelIdeal.Facts

variable [Cert.KernelIdeal.Facts] [Cert.ReferenceIdeal.Facts]

section Layout
variable {α : Type}

/-- A vector cast to a column reads, at (r, u), the vector at r. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A vector broadcast along a new minor unit axis reads, at (r, u), the vector at r. -/
theorem bcast_a_a1_apply {a : ℕ} (x : (⟨1, ![a]⟩ : Shape).Idx → α)
    (h : (⟨1, ![a]⟩ : Shape).BroadcastsInDim ⟨2, ![a, 1]⟩ (![0] : Fin 1 → Fin 2)) (j : (⟨2, ![a, 1]⟩ : Shape).Idx) :
    broadcastInDim ⟨2, ![a, 1]⟩ ![0] h x j = x (ix1 (j 0)) := by
  refine broadcastInDim_apply _ h x j (ix1 (j 0)) fun ax => ?_
  match ax with
  | ⟨0, _⟩ =>
    show (j 0).val = if a = 1 then 0 else (j 0).val
    split
    · have := idx2_lt0 j; omega
    · rfl

/-- A column broadcast over b columns reads, at (r, c), the column at (r, 0). -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (j : (⟨2, ![a, b]⟩ : Shape).Idx) :
    broadcastInDim ⟨2, ![a, b]⟩ ![0, 1] h x j = x (ix2 (j 0) 0) := by
  refine broadcastInDim_apply _ h x j (ix2 (j 0) 0) fun ax => ?_
  match ax with
  | ⟨0, _⟩ =>
    show (j 0).val = if a = 1 then 0 else (j 0).val
    split
    · have := idx2_lt0 j; omega
    · rfl
  | ⟨1, _⟩ => rfl

end Layout

theorem kNormIdx_eq (n : BitVec 32) (idx : Vec Ideal S6000000 .i32) :
    kNormIdx (F := Ideal) n idx = Cert.ReferenceIdeal.Hand.normIdx n idx := rfl

theorem kInvC_eq (deg : Vec Ideal S2000000 .f32) : kInvC (F := Ideal) deg = Cert.ReferenceIdeal.Hand.invC deg := rfl
theorem kInvV_eq (deg : Vec Ideal S500000 .f32) : kInvV (F := Ideal) deg = Cert.ReferenceIdeal.Hand.invV deg := rfl

theorem kRowsC_eq (xc : Vec Ideal S2000000x2 .f32) (src : Vec Ideal S6000000 .i32) :
    kRowsC xc src = Host.gather Cert.ReferenceIdeal.gather_S2000000x2_S6000000x1_S6000000x2_1_0_n_n_0_1_12 xc
      (Cert.ReferenceIdeal.Hand.normIdx 2000000#32 src) := rfl
theorem kRowsV_eq (xv : Vec Ideal S500000x2 .f32) (trg : Vec Ideal S6000000 .i32) :
    kRowsV xv trg = Host.gather Cert.ReferenceIdeal.gather_S500000x2_S6000000x1_S6000000x2_1_0_n_n_0_1_12 xv
      (Cert.ReferenceIdeal.Hand.normIdx 500000#32 trg) := rfl

theorem kColC_apply (ic : Vec Ideal S2000000 .f32) (src : Vec Ideal S6000000 .i32) (r : Fin 6000000) (u : Fin 1) :
    kColC ic src (ix2 r u) = Host.gather Cert.ReferenceIdeal.gather_S2000000_S6000000x1_S6000000_n_0_n_n_0_1_1 ic
      (Cert.ReferenceIdeal.Hand.normIdx 2000000#32 src) (ix1 r) :=
  shapeCast_a_a1_apply _ _ r u
theorem kColV_apply (iv : Vec Ideal S500000 .f32) (trg : Vec Ideal S6000000 .i32) (r : Fin 6000000) (u : Fin 1) :
    kColV iv trg (ix2 r u) = Host.gather Cert.ReferenceIdeal.gather_S500000_S6000000x1_S6000000_n_0_n_n_0_1_1 iv
      (Cert.ReferenceIdeal.Hand.normIdx 500000#32 trg) (ix1 r) :=
  shapeCast_a_a1_apply _ _ r u

/-- The message function on the kernel program's four operands is the reference's message arithmetic, index by index. -/
theorem msg_eq (A B : FVec Ideal S6000000x1 .f32) (XS XT : FVec Ideal S6000000x2 .f32) (GA GB : FVec Ideal S6000000 .f32)
    (hA : ∀ (r : Fin 6000000) (u : Fin 1), A (ix2 r u) = GA (ix1 r)) (hB : ∀ (r : Fin 6000000) (u : Fin 1), B (ix2 r u) = GB (ix1 r)) :
    msgG (F := Ideal) (n := 6000000) A B XS XT
      = addf (F := Ideal) (φ := .f32) (mulf (F := Ideal) (φ := .f32) (broadcastInDim Cert.ReferenceIdeal.S6000000x2 ![0, 1] Cert.ReferenceIdeal.Facts₀.bcast_S6000000x1_S6000000x2_0_1
          (broadcastInDim Cert.ReferenceIdeal.S6000000x1 ![0] Cert.ReferenceIdeal.Facts₀.bcast_S6000000_S6000000x1_0 (mulf (F := Ideal) (φ := .f32) GA GB))) XS) XT := by
  funext i
  have hBB : broadcastInDim Cert.ReferenceIdeal.S6000000x2 ![0, 1] Cert.ReferenceIdeal.Facts₀.bcast_S6000000x1_S6000000x2_0_1
      (broadcastInDim Cert.ReferenceIdeal.S6000000x1 ![0] Cert.ReferenceIdeal.Facts₀.bcast_S6000000_S6000000x1_0 (mulf (F := Ideal) (φ := .f32) GA GB)) i
      = FloatOps.mulf (GA (ix1 (i 0))) (GB (ix1 (i 0))) :=
    (bcast_a1_ab_apply _ _ i).trans (bcast_a_a1_apply _ _ _)
  have e : FloatOps.mulf (F := Ideal) (φ := .f32) (A (ix2 (n0 := 6000000) (n1 := 1) (i 0) 0)) (B (ix2 (n0 := 6000000) (n1 := 1) (i 0) 0))
      = FloatOps.mulf (GA (ix1 (i 0))) (GB (ix1 (i 0))) :=
    congrArg₂ (FloatOps.mulf (F := Ideal) (φ := .f32)) (hA (i 0) 0) (hB (i 0) 0)
  exact congrArg (fun t => FloatOps.addf (F := Ideal) (φ := .f32) (FloatOps.mulf t (XS i)) (XT i)) (e.trans hBB.symm)

theorem kConvV_eq (xc : Vec Ideal S2000000x2 .f32) (xv : Vec Ideal S500000x2 .f32) (ic : Vec Ideal S2000000 .f32) (iv : Vec Ideal S500000 .f32)
    (src trg : Vec Ideal S6000000 .i32) :
    kConvV (F := Ideal) xc xv ic iv src trg = Cert.ReferenceIdeal.Hand.convV xc xv ic iv src trg := by
  unfold kConvV Cert.ReferenceIdeal.Hand.convV
  rw [msg_eq _ _ _ _ _ _ (kColC_apply ic src) (kColV_apply iv trg), kRowsC_eq, kRowsV_eq]
  rfl

theorem kConvC_eq (xc : Vec Ideal S2000000x2 .f32) (xv : Vec Ideal S500000x2 .f32) (ic : Vec Ideal S2000000 .f32) (iv : Vec Ideal S500000 .f32)
    (src trg : Vec Ideal S6000000 .i32) :
    kConvC (F := Ideal) xc xv ic iv src trg = Cert.ReferenceIdeal.Hand.convC xc xv ic iv src trg := by
  unfold kConvC Cert.ReferenceIdeal.Hand.convC
  rw [msg_eq _ _ _ _ _ _ (kColV_apply iv trg) (kColC_apply ic src), kRowsC_eq, kRowsV_eq]
  rfl

section Layout2
variable {α : Type}

/-- A vector broadcast along a new leading unit axis reads, at (u, c), the vector at c. -/
theorem bcast_b_1b_apply {b : ℕ} (x : (⟨1, ![b]⟩ : Shape).Idx → α)
    (h : (⟨1, ![b]⟩ : Shape).BroadcastsInDim ⟨2, ![1, b]⟩ (![1] : Fin 1 → Fin 2)) (j : (⟨2, ![1, b]⟩ : Shape).Idx) :
    broadcastInDim ⟨2, ![1, b]⟩ ![1] h x j = x (ix1 (j 1)) := by
  refine broadcastInDim_apply _ h x j (ix1 (j 1)) fun ax => ?_
  match ax with
  | ⟨0, _⟩ =>
    show (j 1).val = if b = 1 then 0 else (j 1).val
    split
    · have := idx2_lt1 j; omega
    · rfl

/-- A row broadcast over a rows reads, at (r, c), the row at (0, c). -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (j : (⟨2, ![a, b]⟩ : Shape).Idx) :
    broadcastInDim ⟨2, ![a, b]⟩ ![0, 1] h x j = x (ix2 0 (j 1)) := by
  refine broadcastInDim_apply _ h x j (ix2 0 (j 1)) fun ax => ?_
  match ax with
  | ⟨0, _⟩ => rfl
  | ⟨1, _⟩ =>
    show (j 1).val = if b = 1 then 0 else (j 1).val
    split
    · have := idx2_lt1 j; omega
    · rfl

end Layout2

/-- A matrix product on the host, read at an index, is the sum over the contracted coordinate of the products of the entries. -/
theorem dot_plain_apply {m k n : ℕ} (D : DotDims ⟨2, ![m, k]⟩ ⟨2, ![k, n]⟩ ⟨2, ![m, n]⟩) (hD : D = DotDims.plain m k n)
    (A : FVec Ideal ⟨2, ![m, k]⟩ .f32) (B : FVec Ideal ⟨2, ![k, n]⟩ .f32) (i : (⟨2, ![m, n]⟩ : Shape).Idx) :
    Host.dotGeneral D none A B i = ∑ c : Fin k, A (ix2 (i 0) c) * B (ix2 c (i 1)) := by
  subst hD
  exact (congrArg (Host.dotGeneral (DotDims.plain m k n) none A B) (eq_ix2 i)).trans
    (Idealize.ShloMosaic.StackMember.dotGeneral_plain_apply none A B (i 0) (i 1))

/-- The affine function at one input column is the one-term matrix product plus the bias. -/
theorem aff1_eq {n : ℕ} (D : DotDims ⟨2, ![n, 1]⟩ ⟨2, ![1, 2]⟩ ⟨2, ![n, 2]⟩) (hD : D = DotDims.plain n 1 2)
    (x : FVec Ideal ⟨2, ![n, 1]⟩ .f32) (w bk : FVec Ideal ⟨2, ![1, 2]⟩ .f32) (br : FVec Ideal ⟨2, ![n, 2]⟩ .f32)
    (hb : ∀ i : (⟨2, ![n, 2]⟩ : Shape).Idx, bk (ix2 0 (i 1)) = br i) :
    aff1G (F := Ideal) (n := n) x w bk = addf (F := Ideal) (φ := .f32) (Host.dotGeneral D none x w) br := by
  funext i
  show (Ideal.ofBits .f32 0x00000000#32 + x (ix2 (i 0) 0) * w (ix2 0 (i 1))) + bk (ix2 0 (i 1)) = Host.dotGeneral D none x w i + br i
  rw [dot_plain_apply D hD, Fin.sum_univ_one, Ideal.ofBits_zero_f32, zero_add, hb]

/-- The affine function at six input columns is the six-term matrix product plus the bias: the sum over the six columns is
    the left-nested sum, and the leading zero drops. -/
theorem aff6_eq {n : ℕ} (D : DotDims ⟨2, ![n, 6]⟩ ⟨2, ![6, 2]⟩ ⟨2, ![n, 2]⟩) (hD : D = DotDims.plain n 6 2)
    (x : FVec Ideal ⟨2, ![n, 6]⟩ .f32) (w : FVec Ideal ⟨2, ![6, 2]⟩ .f32) (bk : FVec Ideal ⟨2, ![1, 2]⟩ .f32) (br : FVec Ideal ⟨2, ![n, 2]⟩ .f32)
    (hb : ∀ i : (⟨2, ![n, 2]⟩ : Shape).Idx, bk (ix2 0 (i 1)) = br i) :
    aff6G (F := Ideal) (n := n) x w bk = addf (F := Ideal) (φ := .f32) (Host.dotGeneral D none x w) br := by
  funext i
  show (((((((Ideal.ofBits .f32 0x00000000#32 + x (ix2 (i 0) 0) * w (ix2 0 (i 1))) + x (ix2 (i 0) 1) * w (ix2 1 (i 1)))
      + x (ix2 (i 0) 2) * w (ix2 2 (i 1))) + x (ix2 (i 0) 3) * w (ix2 3 (i 1))) + x (ix2 (i 0) 4) * w (ix2 4 (i 1)))
      + x (ix2 (i 0) 5) * w (ix2 5 (i 1))) + bk (ix2 0 (i 1))) = Host.dotGeneral D none x w i + br i
  rw [dot_plain_apply D hD, Fin.sum_univ_six, Ideal.ofBits_zero_f32, zero_add, hb]

/-- The bias as the kernel program prepares it (reshaped to a row) against the reference's two broadcasts, at an index. -/
theorem bias_row_eq {n : ℕ} (b : Vec Ideal S2 .f32) (h1 : (⟨1, ![2]⟩ : Shape).ShapeCasts ⟨2, ![1, 2]⟩)
    (h2 : (⟨1, ![2]⟩ : Shape).BroadcastsInDim ⟨2, ![1, 2]⟩ (![1] : Fin 1 → Fin 2))
    (h3 : (⟨2, ![1, 2]⟩ : Shape).BroadcastsInDim ⟨2, ![n, 2]⟩ (![0, 1] : Fin 2 → Fin 2)) (i : (⟨2, ![n, 2]⟩ : Shape).Idx) :
    shapeCast ⟨2, ![1, 2]⟩ b h1 (ix2 0 (i 1)) = broadcastInDim ⟨2, ![n, 2]⟩ ![0, 1] h3 (broadcastInDim ⟨2, ![1, 2]⟩ ![1] h2 b) i :=
  (shapeCast_a_1a_apply b h1 0 (i 1)).trans ((bcast_1b_ab_apply _ h3 i).trans (bcast_b_1b_apply b h2 _)).symm

theorem kAff0C_eq (x : Vec Ideal S2000000x1 .f32) (w : Vec Ideal S1x2 .f32) (b : Vec Ideal S2 .f32) :
    kAff0C (F := Ideal) x w b = Cert.ReferenceIdeal.Hand.aff0C x w b := by
  unfold kAff0C Cert.ReferenceIdeal.Hand.aff0C
  exact aff1_eq Cert.ReferenceIdeal.dot_S2000000x1_S1x2_S2000000x2_1_0_0_1_n_n rfl x w _ _ (bias_row_eq b _ _ _)

theorem kAff0V_eq (x : Vec Ideal S500000x1 .f32) (w : Vec Ideal S1x2 .f32) (b : Vec Ideal S2 .f32) :
    kAff0V (F := Ideal) x w b = Cert.ReferenceIdeal.Hand.aff0V x w b := by
  unfold kAff0V Cert.ReferenceIdeal.Hand.aff0V
  exact aff1_eq Cert.ReferenceIdeal.dot_S500000x1_S1x2_S500000x2_1_0_0_1_n_n rfl x w _ _ (bias_row_eq b _ _ _)

theorem kWAt_eq (o : Fin 3 → Nat) (h : S4x6x2.Slices o S1x6x2) (w : Vec Ideal S4x6x2 .f32) :
    kWAt (F := Ideal) o h w = Cert.ReferenceIdeal.Hand.wAt o h w := rfl

/-- The bias row of a layer as the kernel program prepares it, at (0, c), is the reference's bias vector at c. -/
theorem kBAt_apply (o : Fin 2 → Nat) (h : S4x2.Slices o S1x2) (b : Vec Ideal S4x2 .f32) (c : Fin 2) :
    kBAt (F := Ideal) o h b (ix2 0 c) = Cert.ReferenceIdeal.Hand.bAt o h b (ix1 c) :=
  shapeCast_a_1a_apply _ _ 0 c

theorem kAffV_eq (o3 : Fin 3 → Nat) (h3 : S4x6x2.Slices o3 S1x6x2) (o2 : Fin 2 → Nat) (h2 : S4x2.Slices o2 S1x2)
    (p q prev : Vec Ideal S500000x2 .f32) (w : Vec Ideal S4x6x2 .f32) (b : Vec Ideal S4x2 .f32) :
    kAffV (F := Ideal) o3 h3 o2 h2 p q prev w b = Cert.ReferenceIdeal.Hand.affV o3 h3 o2 h2 p q prev w b := by
  unfold kAffV Cert.ReferenceIdeal.Hand.affV
  rw [kWAt_eq]
  exact aff6_eq Cert.ReferenceIdeal.dot_S500000x6_S6x2_S500000x2_1_0_0_1_n_n rfl _ _ _ _
    (fun i => (kBAt_apply o2 h2 b (i 1)).trans ((bcast_1b_ab_apply _ _ i).trans (bcast_b_1b_apply _ _ _)).symm)

theorem kAffC_eq (o3 : Fin 3 → Nat) (h3 : S4x6x2.Slices o3 S1x6x2) (o2 : Fin 2 → Nat) (h2 : S4x2.Slices o2 S1x2)
    (p q prev : Vec Ideal S2000000x2 .f32) (w : Vec Ideal S4x6x2 .f32) (b : Vec Ideal S4x2 .f32) :
    kAffC (F := Ideal) o3 h3 o2 h2 p q prev w b = Cert.ReferenceIdeal.Hand.affC o3 h3 o2 h2 p q prev w b := by
  unfold kAffC Cert.ReferenceIdeal.Hand.affC
  rw [kWAt_eq]
  exact aff6_eq Cert.ReferenceIdeal.dot_S2000000x6_S6x2_S2000000x2_1_0_0_1_n_n rfl _ _ _ _
    (fun i => (kBAt_apply o2 h2 b (i 1)).trans ((bcast_1b_ab_apply _ _ i).trans (bcast_b_1b_apply _ _ _)).symm)

/-- The kernel program's layer environment read as the reference's. -/
def Env.toRef (e : Env Ideal) : Cert.ReferenceIdeal.Hand.Env Ideal :=
  ⟨e.ic, e.iv, e.posSrc, e.posTrg, e.negSrc, e.negTrg, e.wc, e.bc, e.wv, e.bv⟩

theorem kLayerV_eq (o3 : Fin 3 → Nat) (h3 : S4x6x2.Slices o3 S1x6x2) (o2 : Fin 2 → Nat) (h2 : S4x2.Slices o2 S1x2)
    (e : Env Ideal) (xc : Vec Ideal S2000000x2 .f32) (xv : Vec Ideal S500000x2 .f32) :
    kLayerV (F := Ideal) o3 h3 o2 h2 e xc xv = Cert.ReferenceIdeal.Hand.layerV o3 h3 o2 h2 e.toRef xc xv := by
  unfold kLayerV Cert.ReferenceIdeal.Hand.layerV
  rw [kAffV_eq, kConvV_eq, kConvV_eq]
  rfl

theorem kLayerC_eq (o3 : Fin 3 → Nat) (h3 : S4x6x2.Slices o3 S1x6x2) (o2 : Fin 2 → Nat) (h2 : S4x2.Slices o2 S1x2)
    (e : Env Ideal) (xc : Vec Ideal S2000000x2 .f32) (xv : Vec Ideal S500000x2 .f32) :
    kLayerC (F := Ideal) o3 h3 o2 h2 e xc xv = Cert.ReferenceIdeal.Hand.layerC o3 h3 o2 h2 e.toRef xc xv := by
  unfold kLayerC Cert.ReferenceIdeal.Hand.layerC
  rw [kAffC_eq, kConvC_eq, kConvC_eq]
  rfl

end Cert.KernelIdeal.Hand

end
-- ==== Proof.Ref.Net.lean ====
/- The reference network whole: the sixteen arguments, the ten values every layer reads, the two states after
   each layer, and the result (the variable state after the fourth layer), over the pieces. -/
import proofs.«149588_j66838281060723_2_alg».proof.Proof.Ref.Pieces

noncomputable section

namespace Cert.ReferenceIdeal.Hand

open Idealize.ShloMosaic Idealize.SL.Sem Cert.ReferenceIdeal
open Cert.ReferenceIdeal.Facts₀ Cert.ReferenceIdeal.Facts

variable {F : FTy → Type} [FloatOps F] [Facts]

/-- The sixteen arguments, in the program's order. -/
structure Args (F : FTy → Type) where
  xClause : Vec F S2000000x1 .f32
  xVariable : Vec F S500000x1 .f32
  degClause : Vec F S2000000 .f32
  degVariable : Vec F S500000 .f32
  posSrc : Vec F S6000000 .i32
  posTrg : Vec F S6000000 .i32
  negSrc : Vec F S6000000 .i32
  negTrg : Vec F S6000000 .i32
  w0c : Vec F S1x2 .f32
  b0c : Vec F S2 .f32
  w0v : Vec F S1x2 .f32
  b0v : Vec F S2 .f32
  wc : Vec F S4x6x2 .f32
  bc : Vec F S4x2 .f32
  wv : Vec F S4x6x2 .f32
  bv : Vec F S4x2 .f32

/-- What every layer reads of the arguments. -/
def Args.env (a : Args F) : Env F where
  ic := invC a.degClause
  iv := invV a.degVariable
  posSrc := a.posSrc
  posTrg := a.posTrg
  negSrc := a.negSrc
  negTrg := a.negTrg
  wc := a.wc
  bc := a.bc
  wv := a.wv
  bv := a.bv

/-- The clause state before the first layer. -/
def stC0 (a : Args F) : Vec F S2000000x2 .f32 := aff0C a.xClause a.w0c a.b0c
/-- The variable state before the first layer. -/
def stV0 (a : Args F) : Vec F S500000x2 .f32 := aff0V a.xVariable a.w0v a.b0v

/-- The states after the first layer. -/
def stC1 (a : Args F) : Vec F S2000000x2 .f32 :=
  layerC ![0, 0, 0] slices_S4x6x2_S1x6x2_0_0_0 ![0, 0] slices_S4x2_S1x2_0_0 a.env (stC0 a) (stV0 a)
def stV1 (a : Args F) : Vec F S500000x2 .f32 :=
  layerV ![0, 0, 0] slices_S4x6x2_S1x6x2_0_0_0 ![0, 0] slices_S4x2_S1x2_0_0 a.env (stC0 a) (stV0 a)

/-- The states after the second layer. -/
def stC2 (a : Args F) : Vec F S2000000x2 .f32 :=
  layerC ![1, 0, 0] slices_S4x6x2_S1x6x2_1_0_0 ![1, 0] slices_S4x2_S1x2_1_0 a.env (stC1 a) (stV1 a)
def stV2 (a : Args F) : Vec F S500000x2 .f32 :=
  layerV ![1, 0, 0] slices_S4x6x2_S1x6x2_1_0_0 ![1, 0] slices_S4x2_S1x2_1_0 a.env (stC1 a) (stV1 a)

/-- The states after the third layer. -/
def stC3 (a : Args F) : Vec F S2000000x2 .f32 :=
  layerC ![2, 0, 0] slices_S4x6x2_S1x6x2_2_0_0 ![2, 0] slices_S4x2_S1x2_2_0 a.env (stC2 a) (stV2 a)
def stV3 (a : Args F) : Vec F S500000x2 .f32 :=
  layerV ![2, 0, 0] slices_S4x6x2_S1x6x2_2_0_0 ![2, 0] slices_S4x2_S1x2_2_0 a.env (stC2 a) (stV2 a)

/-- The reference's result: the variable state after the fourth layer. -/
def refOut (a : Args F) : Vec F S500000x2 .f32 :=
  layerV ![3, 0, 0] slices_S4x6x2_S1x6x2_3_0_0 ![3, 0] slices_S4x2_S1x2_3_0 a.env (stC3 a) (stV3 a)

end Cert.ReferenceIdeal.Hand

end
-- ==== Proof.KI.NetEq.lean ====
/- The kernel program's network against the reference's, at the extended reals: on the same sixteen arguments the two
   results are equal, layer by layer, each layer by the equality of its pieces. -/
import proofs.«149588_j66838281060723_2_alg».proof.Proof.KI.Net
import proofs.«149588_j66838281060723_2_alg».proof.Proof.KI.Bridge
import proofs.«149588_j66838281060723_2_alg».proof.Proof.Ref.Net

noncomputable section

namespace Cert.KernelIdeal.Hand

open Idealize.ShloMosaic Idealize.SL.Sem Cert.KernelIdeal
open Cert.KernelIdeal.Facts₀ Cert.KernelIdeal.Facts

variable [Cert.KernelIdeal.Facts] [Cert.ReferenceIdeal.Facts]

/-- The kernel program's sixteen arguments read as the reference's. -/
noncomputable def Args.toRef (a : Args Ideal) : Cert.ReferenceIdeal.Hand.Args Ideal :=
  ⟨a.xClause, a.xVariable, a.degClause, a.degVariable, a.posSrc, a.posTrg, a.negSrc, a.negTrg,
    a.w0c, a.b0c, a.w0v, a.b0v, a.wc, a.bc, a.wv, a.bv⟩

/-- The ten values every layer reads are the same on both sides. -/
theorem env_eq (a : Args Ideal) : a.env.toRef = a.toRef.env := rfl

theorem kStC0_eq (a : Args Ideal) : kStC0 a = Cert.ReferenceIdeal.Hand.stC0 a.toRef := by
  unfold kStC0 Cert.ReferenceIdeal.Hand.stC0
  rw [kAff0C_eq]
  rfl
theorem kStV0_eq (a : Args Ideal) : kStV0 a = Cert.ReferenceIdeal.Hand.stV0 a.toRef := by
  unfold kStV0 Cert.ReferenceIdeal.Hand.stV0
  rw [kAff0V_eq]
  rfl

theorem kStC1_eq (a : Args Ideal) : kStC1 a = Cert.ReferenceIdeal.Hand.stC1 a.toRef := by
  unfold kStC1 Cert.ReferenceIdeal.Hand.stC1
  rw [kLayerC_eq, kStC0_eq, kStV0_eq, env_eq]
theorem kStV1_eq (a : Args Ideal) : kStV1 a = Cert.ReferenceIdeal.Hand.stV1 a.toRef := by
  unfold kStV1 Cert.ReferenceIdeal.Hand.stV1
  rw [kLayerV_eq, kStC0_eq, kStV0_eq, env_eq]

theorem kStC2_eq (a : Args Ideal) : kStC2 a = Cert.ReferenceIdeal.Hand.stC2 a.toRef := by
  unfold kStC2 Cert.ReferenceIdeal.Hand.stC2
  rw [kLayerC_eq, kStC1_eq, kStV1_eq, env_eq]
theorem kStV2_eq (a : Args Ideal) : kStV2 a = Cert.ReferenceIdeal.Hand.stV2 a.toRef := by
  unfold kStV2 Cert.ReferenceIdeal.Hand.stV2
  rw [kLayerV_eq, kStC1_eq, kStV1_eq, env_eq]

theorem kStC3_eq (a : Args Ideal) : kStC3 a = Cert.ReferenceIdeal.Hand.stC3 a.toRef := by
  unfold kStC3 Cert.ReferenceIdeal.Hand.stC3
  rw [kLayerC_eq, kStC2_eq, kStV2_eq, env_eq]
theorem kStV3_eq (a : Args Ideal) : kStV3 a = Cert.ReferenceIdeal.Hand.stV3 a.toRef := by
  unfold kStV3 Cert.ReferenceIdeal.Hand.stV3
  rw [kLayerV_eq, kStC2_eq, kStV2_eq, env_eq]

/-- The kernel program's result is the reference's result on the same arguments. -/
theorem kOut_eq (a : Args Ideal) : kOut a = Cert.ReferenceIdeal.Hand.refOut a.toRef := by
  unfold kOut Cert.ReferenceIdeal.Hand.refOut
  rw [kLayerV_eq, kStC3_eq, kStV3_eq, env_eq]

end Cert.KernelIdeal.Hand

end
-- ==== Proof.Ref.Tac.lean ====
/- The reference's run by hand, shared text: what a stretch of host operations writes and keeps, the facts a
   run asks of a stretch joined over concatenation, and the reading of a stretch's result. -/
import proofs.«149588_j66838281060723_2_alg».proof.Proof.Ref.Pieces
import proofs.«149588_j66838281060723_2_alg».proof.Proof.LibNary3
import Idealize.ShloMosaic.Lib.StableHlo.Run
import Idealize.ShloMosaic.Lib.Pipeline.Frame

noncomputable section

namespace Cert.ReferenceIdeal.Hand

open Idealize.ShloMosaic Idealize.SL.Sem Cert.ReferenceIdeal Idealize.ShloMosaic.StableHlo Idealize.ShloMosaic.TcCoe
open Cert.ReferenceIdeal.Facts₀ Cert.ReferenceIdeal.Facts

variable {F : FTy → Type} [FloatOps F] [Facts]

/-- The stretch writes only references of the list. -/
def Writes (l : List (HloOp τ sig (Elt F))) (W : List (Ref sig .tc)) : Prop :=
  l.Forall fun op => op.writes ⊆ (W.map (Proc.devRef (τ := τ) .tc)).toFinset

/-- A reference the stretch does not write keeps its contents through it. -/
theorem Writes.keep {l : List (HloOp τ sig (Elt F))} {W : List (Ref sig .tc)} (h : Writes l W)
    (V : Valuation τ sig (Elt F)) {r : Ref sig .tc} (hr : r ∉ W) :
    after l V (Proc.devRef .tc r) = V (Proc.devRef .tc r) :=
  after_of_writes_sub l V h hr

theorem forall_append {α : Type} {p : α → Prop} {l₁ l₂ : List α} (h₁ : l₁.Forall p) (h₂ : l₂.Forall p) :
    (l₁ ++ l₂).Forall p :=
  List.forall_iff_forall_mem.mpr fun a ha => by
    rcases List.mem_append.mp ha with h | h
    · exact List.forall_iff_forall_mem.mp h₁ a h
    · exact List.forall_iff_forall_mem.mp h₂ a h

theorem forall_mono {α : Type} {p q : α → Prop} {l : List α} (h : l.Forall p) (hpq : ∀ a, p a → q a) : l.Forall q :=
  List.forall_iff_forall_mem.mpr fun a ha => hpq a (List.forall_iff_forall_mem.mp h a ha)

/-- Two stretches one after the other write what either writes. -/
theorem Writes.append {l₁ l₂ : List (HloOp τ sig (Elt F))} {W₁ W₂ : List (Ref sig .tc)}
    (h₁ : Writes l₁ W₁) (h₂ : Writes l₂ W₂) : Writes (l₁ ++ l₂) (W₁ ++ W₂) := by
  refine forall_append (forall_mono h₁ fun op h => h.trans ?_) (forall_mono h₂ fun op h => h.trans ?_)
  · intro b hb; rw [List.mem_toFinset, List.map_append] at *; exact List.mem_append_left _ hb
  · intro b hb; rw [List.mem_toFinset, List.map_append] at *; exact List.mem_append_right _ hb

/-- No operation of the stretch allocates. -/
def Fresh (l : List (HloOp τ sig (Elt F))) : Prop := ∀ op ∈ l, op.fresh = ∅

theorem Fresh.append {l₁ l₂ : List (HloOp τ sig (Elt F))} (h₁ : Fresh l₁) (h₂ : Fresh l₂) : Fresh (l₁ ++ l₂) :=
  fun op h => (List.mem_append.mp h).elim (h₁ op) (h₂ op)

/-- Every buffer of the stretch is a TensorCore buffer of the device. -/
def Sub (l : List (HloOp τ sig (Elt F))) : Prop := l.Forall fun op => op.bufs ⊆ tcRefs τ sig

theorem Sub.append {l₁ l₂ : List (HloOp τ sig (Elt F))} (h₁ : Sub l₁) (h₂ : Sub l₂) : Sub (l₁ ++ l₂) :=
  forall_append h₁ h₂

theorem take_drop_app {α : Type} (n : Nat) (l r : List α) : l.take n ++ (l.drop n ++ r) = l ++ r := by
  rw [← List.append_assoc, List.take_append_drop]

/-- One operation of a literal stretch writes a reference of the literal list. -/
macro "writes_one" : tactic =>
  `(tactic| (simp only [nullary_writes, unary_writes, binary_writes, ternary_writes, quaternary_writes, reshape_writes,
      binaryIndexed_writes, nary_writes, unaryIndexed_writes, Finset.singleton_subset_iff, List.mem_toFinset]
             exact List.mem_map_of_mem (by decide)))

/-- A literal stretch allocates nothing: operation by operation. -/
macro "fresh_lit" : tactic =>
  `(tactic| (intro _ h; (repeat (cases h with | head => rfl | tail _ h => ?_)); exact nomatch h))

/-- A literal stretch's result: one rewriting pass reads each operation at its own buffer, what is left is the
    piece's own text. -/
macro "stretch_read" : tactic =>
  `(tactic| (after_results_simp3; rfl))

/-- The ten values a layer reads besides the two states, at a valuation. -/
def envAt (V : Valuation τ sig (Elt F)) : Env F where
  ic := V (Proc.devRef .tc main_v7)
  iv := V (Proc.devRef .tc main_v15)
  posSrc := V (Proc.devRef .tc main_arg4)
  posTrg := V (Proc.devRef .tc main_arg5)
  negSrc := V (Proc.devRef .tc main_arg6)
  negTrg := V (Proc.devRef .tc main_arg7)
  wc := V (Proc.devRef .tc main_arg12)
  bc := V (Proc.devRef .tc main_arg13)
  wv := V (Proc.devRef .tc main_arg14)
  bv := V (Proc.devRef .tc main_arg15)

/-- The references every layer leaves alone: the sixteen arguments and the two inverse-root tables. -/
abbrev keepRefs : List (Ref sig .tc) :=
  [main_arg0, main_arg1, main_arg2, main_arg3, main_arg4, main_arg5, main_arg6, main_arg7, main_arg8, main_arg9,
   main_arg10, main_arg11, main_arg12, main_arg13, main_arg14, main_arg15, main_v7, main_v15]

/-- Two valuations that agree on the kept references give a layer the same ten values. -/
theorem envAt_congr {V V' : Valuation τ sig (Elt F)}
    (h : ∀ r ∈ keepRefs, V' (Proc.devRef .tc r) = V (Proc.devRef .tc r)) : envAt V' = envAt V := by
  unfold envAt
  rw [h main_v7 (by decide), h main_v15 (by decide), h main_arg4 (by decide), h main_arg5 (by decide),
    h main_arg6 (by decide), h main_arg7 (by decide), h main_arg12 (by decide), h main_arg13 (by decide),
    h main_arg14 (by decide), h main_arg15 (by decide)]

end Cert.ReferenceIdeal.Hand

end
-- ==== Proof.Ref.P.lean ====
import proofs.«149588_j66838281060723_2_alg».proof.Proof.Ref.Tac

noncomputable section

namespace Cert.ReferenceIdeal.Hand

open Idealize.ShloMosaic Idealize.SL.Sem Cert.ReferenceIdeal Idealize.ShloMosaic.StableHlo Idealize.ShloMosaic.TcCoe
open Cert.ReferenceIdeal.Facts₀ Cert.ReferenceIdeal.Facts

variable {F : FTy → Type} [FloatOps F] [Facts]
/-- @main's statements 1 … 34: the two inverse-root tables and the two first affine maps. -/
def P : List (HloOp τ sig (Elt F)) :=
  [ nullary main_cst (constant S_ .f32 0x00000000#32),
    unary main_cst main_v0 (broadcastInDim S2000000 ![] bcast_S_S2000000 : (⟨S_, .f32⟩ : BufTy).Contents (Elt F) → (⟨S2000000, .f32⟩ : BufTy).Contents (Elt F)),
    binary main_arg2 main_v0 main_v1 (cmpf .ogt : (⟨S2000000, .f32⟩ : BufTy).Contents (Elt F) → (⟨S2000000, .f32⟩ : BufTy).Contents (Elt F) → (⟨S2000000, .i1⟩ : BufTy).Contents (Elt F)),
    nullary main_cst_0 (constant S_ .f32 0x3F800000#32),
    TRef.unary (.of main_cst_0 : TRef sig ⟨S_, .f32⟩) main_call0.v0 id,
    TRef.unary main_call0.v0 main_call0.v1 (broadcastInDim S2000000 ![] bcast_S_S2000000),
    TRef.ternary (.of main_v1 : TRef sig ⟨S2000000, .i1⟩) (.of main_arg2 : TRef sig ⟨S2000000, .f32⟩) main_call0.v1 main_call0.v2 select,
    nullary main_cst_1 (constant S_ .f32 0x00000000#32),
    unary main_cst_1 main_v3 (broadcastInDim S2000000 ![] bcast_S_S2000000 : (⟨S_, .f32⟩ : BufTy).Contents (Elt F) → (⟨S2000000, .f32⟩ : BufTy).Contents (Elt F)),
    binary main_arg2 main_v3 main_v4 (cmpf .ogt : (⟨S2000000, .f32⟩ : BufTy).Contents (Elt F) → (⟨S2000000, .f32⟩ : BufTy).Contents (Elt F) → (⟨S2000000, .i1⟩ : BufTy).Contents (Elt F)),
    nullary main_cst_2 (constant S_ .f32 0xBF000000#32),
    unary main_cst_2 main_v5 (broadcastInDim S2000000 ![] bcast_S_S2000000 : (⟨S_, .f32⟩ : BufTy).Contents (Elt F) → (⟨S2000000, .f32⟩ : BufTy).Contents (Elt F)),
    binary main_v2 main_v5 main_v6 (Host.powf : (⟨S2000000, .f32⟩ : BufTy).Contents (Elt F) → (⟨S2000000, .f32⟩ : BufTy).Contents (Elt F) → (⟨S2000000, .f32⟩ : BufTy).Contents (Elt F)),
    nullary main_cst_3 (constant S_ .f32 0x00000000#32),
    TRef.unary (.of main_cst_3 : TRef sig ⟨S_, .f32⟩) main_call1.v0 id,
    TRef.unary main_call1.v0 main_call1.v1 (broadcastInDim S2000000 ![] bcast_S_S2000000),
    TRef.ternary (.of main_v4 : TRef sig ⟨S2000000, .i1⟩) (.of main_v6 : TRef sig ⟨S2000000, .f32⟩) main_call1.v1 main_call1.v2 select,
    nullary main_cst_4 (constant S_ .f32 0x00000000#32),
    unary main_cst_4 main_v8 (broadcastInDim S500000 ![] bcast_S_S500000 : (⟨S_, .f32⟩ : BufTy).Contents (Elt F) → (⟨S500000, .f32⟩ : BufTy).Contents (Elt F)),
    binary main_arg3 main_v8 main_v9 (cmpf .ogt : (⟨S500000, .f32⟩ : BufTy).Contents (Elt F) → (⟨S500000, .f32⟩ : BufTy).Contents (Elt F) → (⟨S500000, .i1⟩ : BufTy).Contents (Elt F)),
    nullary main_cst_5 (constant S_ .f32 0x3F800000#32),
    TRef.unary (.of main_cst_5 : TRef sig ⟨S_, .f32⟩) main_call2.v0 id,
    TRef.unary main_call2.v0 main_call2.v1 (broadcastInDim S500000 ![] bcast_S_S500000),
    TRef.ternary (.of main_v9 : TRef sig ⟨S500000, .i1⟩) (.of main_arg3 : TRef sig ⟨S500000, .f32⟩) main_call2.v1 main_call2.v2 select,
    nullary main_cst_6 (constant S_ .f32 0x00000000#32),
    unary main_cst_6 main_v11 (broadcastInDim S500000 ![] bcast_S_S500000 : (⟨S_, .f32⟩ : BufTy).Contents (Elt F) → (⟨S500000, .f32⟩ : BufTy).Contents (Elt F)),
    binary main_arg3 main_v11 main_v12 (cmpf .ogt : (⟨S500000, .f32⟩ : BufTy).Contents (Elt F) → (⟨S500000, .f32⟩ : BufTy).Contents (Elt F) → (⟨S500000, .i1⟩ : BufTy).Contents (Elt F)),
    nullary main_cst_7 (constant S_ .f32 0xBF000000#32),
    unary main_cst_7 main_v13 (broadcastInDim S500000 ![] bcast_S_S500000 : (⟨S_, .f32⟩ : BufTy).Contents (Elt F) → (⟨S500000, .f32⟩ : BufTy).Contents (Elt F)),
    binary main_v10 main_v13 main_v14 (Host.powf : (⟨S500000, .f32⟩ : BufTy).Contents (Elt F) → (⟨S500000, .f32⟩ : BufTy).Contents (Elt F) → (⟨S500000, .f32⟩ : BufTy).Contents (Elt F)),
    nullary main_cst_8 (constant S_ .f32 0x00000000#32),
    TRef.unary (.of main_cst_8 : TRef sig ⟨S_, .f32⟩) main_call3.v0 id,
    TRef.unary main_call3.v0 main_call3.v1 (broadcastInDim S500000 ![] bcast_S_S500000),
    TRef.ternary (.of main_v12 : TRef sig ⟨S500000, .i1⟩) (.of main_v14 : TRef sig ⟨S500000, .f32⟩) main_call3.v1 main_call3.v2 select,
    binary main_arg0 main_arg8 main_v16 ((fun l r => Host.dotGeneral dot_S2000000x1_S1x2_S2000000x2_1_0_0_1_n_n none l r) : (⟨S2000000x1, .f32⟩ : BufTy).Contents (Elt F) → (⟨S1x2, .f32⟩ : BufTy).Contents (Elt F) → (⟨S2000000x2, .f32⟩ : BufTy).Contents (Elt F)),
    unary main_arg9 main_v17 (broadcastInDim S1x2 ![1] bcast_S2_S1x2_1 : (⟨S2, .f32⟩ : BufTy).Contents (Elt F) → (⟨S1x2, .f32⟩ : BufTy).Contents (Elt F)),
    unary main_v17 main_v18 (broadcastInDim S2000000x2 ![0, 1] bcast_S1x2_S2000000x2_0_1 : (⟨S1x2, .f32⟩ : BufTy).Contents (Elt F) → (⟨S2000000x2, .f32⟩ : BufTy).Contents (Elt F)),
    binary main_v16 main_v18 main_v19 (addf : (⟨S2000000x2, .f32⟩ : BufTy).Contents (Elt F) → (⟨S2000000x2, .f32⟩ : BufTy).Contents (Elt F) → (⟨S2000000x2, .f32⟩ : BufTy).Contents (Elt F)),
    binary main_arg1 main_arg10 main_v20 ((fun l r => Host.dotGeneral dot_S500000x1_S1x2_S500000x2_1_0_0_1_n_n none l r) : (⟨S500000x1, .f32⟩ : BufTy).Contents (Elt F) → (⟨S1x2, .f32⟩ : BufTy).Contents (Elt F) → (⟨S500000x2, .f32⟩ : BufTy).Contents (Elt F)),
    unary main_arg11 main_v21 (broadcastInDim S1x2 ![1] bcast_S2_S1x2_1 : (⟨S2, .f32⟩ : BufTy).Contents (Elt F) → (⟨S1x2, .f32⟩ : BufTy).Contents (Elt F)),
    unary main_v21 main_v22 (broadcastInDim S500000x2 ![0, 1] bcast_S1x2_S500000x2_0_1 : (⟨S1x2, .f32⟩ : BufTy).Contents (Elt F) → (⟨S500000x2, .f32⟩ : BufTy).Contents (Elt F)),
    binary main_v20 main_v22 main_v23 (addf : (⟨S500000x2, .f32⟩ : BufTy).Contents (Elt F) → (⟨S500000x2, .f32⟩ : BufTy).Contents (Elt F) → (⟨S500000x2, .f32⟩ : BufTy).Contents (Elt F)) ]

theorem P_sub : Sub (F := F) P := by
  unfold Sub P
  exact ⟨nullary_bufs_sub .., unary_bufs_sub .., binary_bufs_sub .., nullary_bufs_sub .., unary_bufs_sub ..,
    unary_bufs_sub .., ternary_bufs_sub .., nullary_bufs_sub .., unary_bufs_sub .., binary_bufs_sub ..,
    nullary_bufs_sub .., unary_bufs_sub .., binary_bufs_sub .., nullary_bufs_sub .., unary_bufs_sub ..,
    unary_bufs_sub .., ternary_bufs_sub .., nullary_bufs_sub .., unary_bufs_sub .., binary_bufs_sub ..,
    nullary_bufs_sub .., unary_bufs_sub .., unary_bufs_sub .., ternary_bufs_sub .., nullary_bufs_sub ..,
    unary_bufs_sub .., binary_bufs_sub .., nullary_bufs_sub .., unary_bufs_sub .., binary_bufs_sub ..,
    nullary_bufs_sub .., unary_bufs_sub .., unary_bufs_sub .., ternary_bufs_sub .., binary_bufs_sub ..,
    unary_bufs_sub .., unary_bufs_sub .., binary_bufs_sub .., binary_bufs_sub .., unary_bufs_sub ..,
    unary_bufs_sub .., binary_bufs_sub ..⟩

theorem P_fresh : Fresh (F := F) P := by
  unfold Fresh P
  fresh_lit

/-- The references that stretch writes. -/
abbrev P_W : List (Ref sig .tc) :=
  [main_cst, main_v0, main_v1, main_cst_0, main_call0_v0, main_call0_v1, main_v2, main_cst_1, main_v3, main_v4,
   main_cst_2, main_v5, main_v6, main_cst_3, main_call1_v0, main_call1_v1, main_v7, main_cst_4, main_v8, main_v9,
   main_cst_5, main_call2_v0, main_call2_v1, main_v10, main_cst_6, main_v11, main_v12, main_cst_7, main_v13,
   main_v14, main_cst_8, main_call3_v0, main_call3_v1, main_v15, main_v16, main_v17, main_v18, main_v19, main_v20,
   main_v21, main_v22, main_v23]

theorem P_writes : Writes (F := F) P P_W := by
  unfold Writes P
  simp only [List.Forall]
  exact ⟨by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one⟩
set_option maxRecDepth 8192 in
set_option maxHeartbeats 2000000 in
theorem P_ic (V : Valuation τ sig (Elt F)) :
    after P V (Proc.devRef .tc main_v7) = invC (V (Proc.devRef .tc main_arg2)) := by
  unfold P; stretch_read

set_option maxRecDepth 8192 in
set_option maxHeartbeats 2000000 in
theorem P_iv (V : Valuation τ sig (Elt F)) :
    after P V (Proc.devRef .tc main_v15) = invV (V (Proc.devRef .tc main_arg3)) := by
  unfold P; stretch_read

set_option maxRecDepth 8192 in
set_option maxHeartbeats 2000000 in
theorem P_xc (V : Valuation τ sig (Elt F)) :
    after P V (Proc.devRef .tc main_v19) = aff0C (V (Proc.devRef .tc main_arg0)) (V (Proc.devRef .tc main_arg8)) (V (Proc.devRef .tc main_arg9)) := by
  unfold P; stretch_read

set_option maxRecDepth 8192 in
set_option maxHeartbeats 2000000 in
theorem P_xv (V : Valuation τ sig (Elt F)) :
    after P V (Proc.devRef .tc main_v23) = aff0V (V (Proc.devRef .tc main_arg1)) (V (Proc.devRef .tc main_arg10)) (V (Proc.devRef .tc main_arg11)) := by
  unfold P; stretch_read

end Cert.ReferenceIdeal.Hand

end
-- ==== Proof.Ref.L0.lean ====
import proofs.«149588_j66838281060723_2_alg».proof.Proof.Ref.Tac

noncomputable section

namespace Cert.ReferenceIdeal.Hand

open Idealize.ShloMosaic Idealize.SL.Sem Cert.ReferenceIdeal Idealize.ShloMosaic.StableHlo Idealize.ShloMosaic.TcCoe
open Cert.ReferenceIdeal.Facts₀ Cert.ReferenceIdeal.Facts

variable {F : FTy → Type} [FloatOps F] [Facts]
/-- @main's statements 35 … 79: layer 0, the convolution toward the variables over the positive edges. -/
def cvp0 : List (HloOp τ sig (Elt F)) :=
  [ nullary main_c (constantI S_ 32 0#32),
    unary main_c main_v24 (broadcastInDim S6000000 ![] bcast_S_S6000000 : (⟨S_, .i32⟩ : BufTy).Contents (Elt F) → (⟨S6000000, .i32⟩ : BufTy).Contents (Elt F)),
    binary main_arg4 main_v24 main_v25 (cmpi .slt : (⟨S6000000, .i32⟩ : BufTy).Contents (Elt F) → (⟨S6000000, .i32⟩ : BufTy).Contents (Elt F) → (⟨S6000000, .i1⟩ : BufTy).Contents (Elt F)),
    nullary main_c_9 (constantI S_ 32 2000000#32),
    unary main_c_9 main_v26 (broadcastInDim S6000000 ![] bcast_S_S6000000 : (⟨S_, .i32⟩ : BufTy).Contents (Elt F) → (⟨S6000000, .i32⟩ : BufTy).Contents (Elt F)),
    binary main_arg4 main_v26 main_v27 (addi : (⟨S6000000, .i32⟩ : BufTy).Contents (Elt F) → (⟨S6000000, .i32⟩ : BufTy).Contents (Elt F) → (⟨S6000000, .i32⟩ : BufTy).Contents (Elt F)),
    ternary main_v25 main_v27 main_arg4 main_v28 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v28 main_v29 (broadcastInDim S6000000x1 ![0] bcast_S6000000_S6000000x1_0 : (⟨S6000000, .i32⟩ : BufTy).Contents (Elt F) → (⟨S6000000x1, .i32⟩ : BufTy).Contents (Elt F)),
    binary main_v7 main_v29 main_v30 ((fun x i => Host.gather gather_S2000000_S6000000x1_S6000000_n_0_n_n_0_1_1 x i) : (⟨S2000000, .f32⟩ : BufTy).Contents (Elt F) → (⟨S6000000x1, .i32⟩ : BufTy).Contents (Elt F) → (⟨S6000000, .f32⟩ : BufTy).Contents (Elt F)),
    nullary main_c_10 (constantI S_ 32 0#32),
    unary main_c_10 main_v31 (broadcastInDim S6000000 ![] bcast_S_S6000000 : (⟨S_, .i32⟩ : BufTy).Contents (Elt F) → (⟨S6000000, .i32⟩ : BufTy).Contents (Elt F)),
    binary main_arg5 main_v31 main_v32 (cmpi .slt : (⟨S6000000, .i32⟩ : BufTy).Contents (Elt F) → (⟨S6000000, .i32⟩ : BufTy).Contents (Elt F) → (⟨S6000000, .i1⟩ : BufTy).Contents (Elt F)),
    nullary main_c_11 (constantI S_ 32 500000#32),
    unary main_c_11 main_v33 (broadcastInDim S6000000 ![] bcast_S_S6000000 : (⟨S_, .i32⟩ : BufTy).Contents (Elt F) → (⟨S6000000, .i32⟩ : BufTy).Contents (Elt F)),
    binary main_arg5 main_v33 main_v34 (addi : (⟨S6000000, .i32⟩ : BufTy).Contents (Elt F) → (⟨S6000000, .i32⟩ : BufTy).Contents (Elt F) → (⟨S6000000, .i32⟩ : BufTy).Contents (Elt F)),
    ternary main_v32 main_v34 main_arg5 main_v35 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v35 main_v36 (broadcastInDim S6000000x1 ![0] bcast_S6000000_S6000000x1_0 : (⟨S6000000, .i32⟩ : BufTy).Contents (Elt F) → (⟨S6000000x1, .i32⟩ : BufTy).Contents (Elt F)),
    binary main_v15 main_v36 main_v37 ((fun x i => Host.gather gather_S500000_S6000000x1_S6000000_n_0_n_n_0_1_1 x i) : (⟨S500000, .f32⟩ : BufTy).Contents (Elt F) → (⟨S6000000x1, .i32⟩ : BufTy).Contents (Elt F) → (⟨S6000000, .f32⟩ : BufTy).Contents (Elt F)),
    binary main_v30 main_v37 main_v38 (mulf : (⟨S6000000, .f32⟩ : BufTy).Contents (Elt F) → (⟨S6000000, .f32⟩ : BufTy).Contents (Elt F) → (⟨S6000000, .f32⟩ : BufTy).Contents (Elt F)),
    unary main_v38 main_v39 (broadcastInDim S6000000x1 ![0] bcast_S6000000_S6000000x1_0 : (⟨S6000000, .f32⟩ : BufTy).Contents (Elt F) → (⟨S6000000x1, .f32⟩ : BufTy).Contents (Elt F)),
    nullary main_c_12 (constantI S_ 32 0#32),
    unary main_c_12 main_v40 (broadcastInDim S6000000 ![] bcast_S_S6000000 : (⟨S_, .i32⟩ : BufTy).Contents (Elt F) → (⟨S6000000, .i32⟩ : BufTy).Contents (Elt F)),
    binary main_arg4 main_v40 main_v41 (cmpi .slt : (⟨S6000000, .i32⟩ : BufTy).Contents (Elt F) → (⟨S6000000, .i32⟩ : BufTy).Contents (Elt F) → (⟨S6000000, .i1⟩ : BufTy).Contents (Elt F)),
    nullary main_c_13 (constantI S_ 32 2000000#32),
    unary main_c_13 main_v42 (broadcastInDim S6000000 ![] bcast_S_S6000000 : (⟨S_, .i32⟩ : BufTy).Contents (Elt F) → (⟨S6000000, .i32⟩ : BufTy).Contents (Elt F)),
    binary main_arg4 main_v42 main_v43 (addi : (⟨S6000000, .i32⟩ : BufTy).Contents (Elt F) → (⟨S6000000, .i32⟩ : BufTy).Contents (Elt F) → (⟨S6000000, .i32⟩ : BufTy).Contents (Elt F)),
    ternary main_v41 main_v43 main_arg4 main_v44 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v44 main_v45 (broadcastInDim S6000000x1 ![0] bcast_S6000000_S6000000x1_0 : (⟨S6000000, .i32⟩ : BufTy).Contents (Elt F) → (⟨S6000000x1, .i32⟩ : BufTy).Contents (Elt F)),
    binary main_v19 main_v45 main_v46 ((fun x i => Host.gather gather_S2000000x2_S6000000x1_S6000000x2_1_0_n_n_0_1_12 x i) : (⟨S2000000x2, .f32⟩ : BufTy).Contents (Elt F) → (⟨S6000000x1, .i32⟩ : BufTy).Contents (Elt F) → (⟨S6000000x2, .f32⟩ : BufTy).Contents (Elt F)),
    unary main_v39 main_v47 (broadcastInDim S6000000x2 ![0, 1] bcast_S6000000x1_S6000000x2_0_1 : (⟨S6000000x1, .f32⟩ : BufTy).Contents (Elt F) → (⟨S6000000x2, .f32⟩ : BufTy).Contents (Elt F)),
    binary main_v47 main_v46 main_v48 (mulf : (⟨S6000000x2, .f32⟩ : BufTy).Contents (Elt F) → (⟨S6000000x2, .f32⟩ : BufTy).Contents (Elt F) → (⟨S6000000x2, .f32⟩ : BufTy).Contents (Elt F)),
    nullary main_c_14 (constantI S_ 32 0#32),
    unary main_c_14 main_v49 (broadcastInDim S6000000 ![] bcast_S_S6000000 : (⟨S_, .i32⟩ : BufTy).Contents (Elt F) → (⟨S6000000, .i32⟩ : BufTy).Contents (Elt F)),
    binary main_arg5 main_v49 main_v50 (cmpi .slt : (⟨S6000000, .i32⟩ : BufTy).Contents (Elt F) → (⟨S6000000, .i32⟩ : BufTy).Contents (Elt F) → (⟨S6000000, .i1⟩ : BufTy).Contents (Elt F)),
    nullary main_c_15 (constantI S_ 32 500000#32),
    unary main_c_15 main_v51 (broadcastInDim S6000000 ![] bcast_S_S6000000 : (⟨S_, .i32⟩ : BufTy).Contents (Elt F) → (⟨S6000000, .i32⟩ : BufTy).Contents (Elt F)),
    binary main_arg5 main_v51 main_v52 (addi : (⟨S6000000, .i32⟩ : BufTy).Contents (Elt F) → (⟨S6000000, .i32⟩ : BufTy).Contents (Elt F) → (⟨S6000000, .i32⟩ : BufTy).Contents (Elt F)),
    ternary main_v50 main_v52 main_arg5 main_v53 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v53 main_v54 (broadcastInDim S6000000x1 ![0] bcast_S6000000_S6000000x1_0 : (⟨S6000000, .i32⟩ : BufTy).Contents (Elt F) → (⟨S6000000x1, .i32⟩ : BufTy).Contents (Elt F)),
    binary main_v23 main_v54 main_v55 ((fun x i => Host.gather gather_S500000x2_S6000000x1_S6000000x2_1_0_n_n_0_1_12 x i) : (⟨S500000x2, .f32⟩ : BufTy).Contents (Elt F) → (⟨S6000000x1, .i32⟩ : BufTy).Contents (Elt F) → (⟨S6000000x2, .f32⟩ : BufTy).Contents (Elt F)),
    binary main_v48 main_v55 main_v56 (addf : (⟨S6000000x2, .f32⟩ : BufTy).Contents (Elt F) → (⟨S6000000x2, .f32⟩ : BufTy).Contents (Elt F) → (⟨S6000000x2, .f32⟩ : BufTy).Contents (Elt F)),
    nullary main_cst_16 (constant S_ .f32 0x00000000#32),
    unary main_cst_16 main_v57 (broadcastInDim S500000x2 ![] bcast_S_S500000x2 : (⟨S_, .f32⟩ : BufTy).Contents (Elt F) → (⟨S500000x2, .f32⟩ : BufTy).Contents (Elt F)),
    unary main_arg5 main_v58 (broadcastInDim S6000000x1 ![0] bcast_S6000000_S6000000x1_0 : (⟨S6000000, .i32⟩ : BufTy).Contents (Elt F) → (⟨S6000000x1, .i32⟩ : BufTy).Contents (Elt F)),
    ternary main_v57 main_v58 main_v56 main_v59 ((fun x i u => Host.scatterAdd scatter_S500000x2_S6000000x1_S6000000x2_1_0_0_1 x i u) : (⟨S500000x2, .f32⟩ : BufTy).Contents (Elt F) → (⟨S6000000x1, .i32⟩ : BufTy).Contents (Elt F) → (⟨S6000000x2, .f32⟩ : BufTy).Contents (Elt F) → (⟨S500000x2, .f32⟩ : BufTy).Contents (Elt F)) ]

theorem cvp0_sub : Sub (F := F) cvp0 := by
  unfold Sub cvp0
  exact ⟨nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., binary_bufs_sub .., nullary_bufs_sub .., unary_bufs_sub .., binary_bufs_sub ..,
    ternary_bufs_sub .., unary_bufs_sub .., binary_bufs_sub .., binary_bufs_sub .., unary_bufs_sub ..,
    nullary_bufs_sub .., unary_bufs_sub .., binary_bufs_sub .., nullary_bufs_sub .., unary_bufs_sub ..,
    binary_bufs_sub .., ternary_bufs_sub .., unary_bufs_sub .., binary_bufs_sub .., unary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    binary_bufs_sub .., nullary_bufs_sub .., unary_bufs_sub .., unary_bufs_sub .., ternary_bufs_sub ..⟩

theorem cvp0_fresh : Fresh (F := F) cvp0 := by
  unfold Fresh cvp0
  fresh_lit

/-- The references that stretch writes. -/
abbrev cvp0_W : List (Ref sig .tc) :=
  [main_c, main_v24, main_v25, main_c_9, main_v26, main_v27, main_v28, main_v29, main_v30, main_c_10, main_v31,
   main_v32, main_c_11, main_v33, main_v34, main_v35, main_v36, main_v37, main_v38, main_v39, main_c_12, main_v40,
   main_v41, main_c_13, main_v42, main_v43, main_v44, main_v45, main_v46, main_v47, main_v48, main_c_14, main_v49,
   main_v50, main_c_15, main_v51, main_v52, main_v53, main_v54, main_v55, main_v56, main_cst_16, main_v57,
   main_v58, main_v59]

theorem cvp0_writes : Writes (F := F) cvp0 cvp0_W := by
  unfold Writes cvp0
  simp only [List.Forall]
  exact ⟨by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one⟩

/-- @main's statements 80 … 124: layer 0, the convolution toward the variables over the negative edges. -/
def cvn0 : List (HloOp τ sig (Elt F)) :=
  [ nullary main_c_17 (constantI S_ 32 0#32),
    unary main_c_17 main_v60 (broadcastInDim S6000000 ![] bcast_S_S6000000 : (⟨S_, .i32⟩ : BufTy).Contents (Elt F) → (⟨S6000000, .i32⟩ : BufTy).Contents (Elt F)),
    binary main_arg6 main_v60 main_v61 (cmpi .slt : (⟨S6000000, .i32⟩ : BufTy).Contents (Elt F) → (⟨S6000000, .i32⟩ : BufTy).Contents (Elt F) → (⟨S6000000, .i1⟩ : BufTy).Contents (Elt F)),
    nullary main_c_18 (constantI S_ 32 2000000#32),
    unary main_c_18 main_v62 (broadcastInDim S6000000 ![] bcast_S_S6000000 : (⟨S_, .i32⟩ : BufTy).Contents (Elt F) → (⟨S6000000, .i32⟩ : BufTy).Contents (Elt F)),
    binary main_arg6 main_v62 main_v63 (addi : (⟨S6000000, .i32⟩ : BufTy).Contents (Elt F) → (⟨S6000000, .i32⟩ : BufTy).Contents (Elt F) → (⟨S6000000, .i32⟩ : BufTy).Contents (Elt F)),
    ternary main_v61 main_v63 main_arg6 main_v64 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v64 main_v65 (broadcastInDim S6000000x1 ![0] bcast_S6000000_S6000000x1_0 : (⟨S6000000, .i32⟩ : BufTy).Contents (Elt F) → (⟨S6000000x1, .i32⟩ : BufTy).Contents (Elt F)),
    binary main_v7 main_v65 main_v66 ((fun x i => Host.gather gather_S2000000_S6000000x1_S6000000_n_0_n_n_0_1_1 x i) : (⟨S2000000, .f32⟩ : BufTy).Contents (Elt F) → (⟨S6000000x1, .i32⟩ : BufTy).Contents (Elt F) → (⟨S6000000, .f32⟩ : BufTy).Contents (Elt F)),
    nullary main_c_19 (constantI S_ 32 0#32),
    unary main_c_19 main_v67 (broadcastInDim S6000000 ![] bcast_S_S6000000 : (⟨S_, .i32⟩ : BufTy).Contents (Elt F) → (⟨S6000000, .i32⟩ : BufTy).Contents (Elt F)),
    binary main_arg7 main_v67 main_v68 (cmpi .slt : (⟨S6000000, .i32⟩ : BufTy).Contents (Elt F) → (⟨S6000000, .i32⟩ : BufTy).Contents (Elt F) → (⟨S6000000, .i1⟩ : BufTy).Contents (Elt F)),
    nullary main_c_20 (constantI S_ 32 500000#32),
    unary main_c_20 main_v69 (broadcastInDim S6000000 ![] bcast_S_S6000000 : (⟨S_, .i32⟩ : BufTy).Contents (Elt F) → (⟨S6000000, .i32⟩ : BufTy).Contents (Elt F)),
    binary main_arg7 main_v69 main_v70 (addi : (⟨S6000000, .i32⟩ : BufTy).Contents (Elt F) → (⟨S6000000, .i32⟩ : BufTy).Contents (Elt F) → (⟨S6000000, .i32⟩ : BufTy).Contents (Elt F)),
    ternary main_v68 main_v70 main_arg7 main_v71 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v71 main_v72 (broadcastInDim S6000000x1 ![0] bcast_S6000000_S6000000x1_0 : (⟨S6000000, .i32⟩ : BufTy).Contents (Elt F) → (⟨S6000000x1, .i32⟩ : BufTy).Contents (Elt F)),
    binary main_v15 main_v72 main_v73 ((fun x i => Host.gather gather_S500000_S6000000x1_S6000000_n_0_n_n_0_1_1 x i) : (⟨S500000, .f32⟩ : BufTy).Contents (Elt F) → (⟨S6000000x1, .i32⟩ : BufTy).Contents (Elt F) → (⟨S6000000, .f32⟩ : BufTy).Contents (Elt F)),
    binary main_v66 main_v73 main_v74 (mulf : (⟨S6000000, .f32⟩ : BufTy).Contents (Elt F) → (⟨S6000000, .f32⟩ : BufTy).Contents (Elt F) → (⟨S6000000, .f32⟩ : BufTy).Contents (Elt F)),
    unary main_v74 main_v75 (broadcastInDim S6000000x1 ![0] bcast_S6000000_S6000000x1_0 : (⟨S6000000, .f32⟩ : BufTy).Contents (Elt F) → (⟨S6000000x1, .f32⟩ : BufTy).Contents (Elt F)),
    nullary main_c_21 (constantI S_ 32 0#32),
    unary main_c_21 main_v76 (broadcastInDim S6000000 ![] bcast_S_S6000000 : (⟨S_, .i32⟩ : BufTy).Contents (Elt F) → (⟨S6000000, .i32⟩ : BufTy).Contents (Elt F)),
    binary main_arg6 main_v76 main_v77 (cmpi .slt : (⟨S6000000, .i32⟩ : BufTy).Contents (Elt F) → (⟨S6000000, .i32⟩ : BufTy).Contents (Elt F) → (⟨S6000000, .i1⟩ : BufTy).Contents (Elt F)),
    nullary main_c_22 (constantI S_ 32 2000000#32),
    unary main_c_22 main_v78 (broadcastInDim S6000000 ![] bcast_S_S6000000 : (⟨S_, .i32⟩ : BufTy).Contents (Elt F) → (⟨S6000000, .i32⟩ : BufTy).Contents (Elt F)),
    binary main_arg6 main_v78 main_v79 (addi : (⟨S6000000, .i32⟩ : BufTy).Contents (Elt F) → (⟨S6000000, .i32⟩ : BufTy).Contents (Elt F) → (⟨S6000000, .i32⟩ : BufTy).Contents (Elt F)),
    ternary main_v77 main_v79 main_arg6 main_v80 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v80 main_v81 (broadcastInDim S6000000x1 ![0] bcast_S6000000_S6000000x1_0 : (⟨S6000000, .i32⟩ : BufTy).Contents (Elt F) → (⟨S6000000x1, .i32⟩ : BufTy).Contents (Elt F)),
    binary main_v19 main_v81 main_v82 ((fun x i => Host.gather gather_S2000000x2_S6000000x1_S6000000x2_1_0_n_n_0_1_12 x i) : (⟨S2000000x2, .f32⟩ : BufTy).Contents (Elt F) → (⟨S6000000x1, .i32⟩ : BufTy).Contents (Elt F) → (⟨S6000000x2, .f32⟩ : BufTy).Contents (Elt F)),
    unary main_v75 main_v83 (broadcastInDim S6000000x2 ![0, 1] bcast_S6000000x1_S6000000x2_0_1 : (⟨S6000000x1, .f32⟩ : BufTy).Contents (Elt F) → (⟨S6000000x2, .f32⟩ : BufTy).Contents (Elt F)),
    binary main_v83 main_v82 main_v84 (mulf : (⟨S6000000x2, .f32⟩ : BufTy).Contents (Elt F) → (⟨S6000000x2, .f32⟩ : BufTy).Contents (Elt F) → (⟨S6000000x2, .f32⟩ : BufTy).Contents (Elt F)),
    nullary main_c_23 (constantI S_ 32 0#32),
    unary main_c_23 main_v85 (broadcastInDim S6000000 ![] bcast_S_S6000000 : (⟨S_, .i32⟩ : BufTy).Contents (Elt F) → (⟨S6000000, .i32⟩ : BufTy).Contents (Elt F)),
    binary main_arg7 main_v85 main_v86 (cmpi .slt : (⟨S6000000, .i32⟩ : BufTy).Contents (Elt F) → (⟨S6000000, .i32⟩ : BufTy).Contents (Elt F) → (⟨S6000000, .i1⟩ : BufTy).Contents (Elt F)),
    nullary main_c_24 (constantI S_ 32 500000#32),
    unary main_c_24 main_v87 (broadcastInDim S6000000 ![] bcast_S_S6000000 : (⟨S_, .i32⟩ : BufTy).Contents (Elt F) → (⟨S6000000, .i32⟩ : BufTy).Contents (Elt F)),
    binary main_arg7 main_v87 main_v88 (addi : (⟨S6000000, .i32⟩ : BufTy).Contents (Elt F) → (⟨S6000000, .i32⟩ : BufTy).Contents (Elt F) → (⟨S6000000, .i32⟩ : BufTy).Contents (Elt F)),
    ternary main_v86 main_v88 main_arg7 main_v89 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v89 main_v90 (broadcastInDim S6000000x1 ![0] bcast_S6000000_S6000000x1_0 : (⟨S6000000, .i32⟩ : BufTy).Contents (Elt F) → (⟨S6000000x1, .i32⟩ : BufTy).Contents (Elt F)),
    binary main_v23 main_v90 main_v91 ((fun x i => Host.gather gather_S500000x2_S6000000x1_S6000000x2_1_0_n_n_0_1_12 x i) : (⟨S500000x2, .f32⟩ : BufTy).Contents (Elt F) → (⟨S6000000x1, .i32⟩ : BufTy).Contents (Elt F) → (⟨S6000000x2, .f32⟩ : BufTy).Contents (Elt F)),
    binary main_v84 main_v91 main_v92 (addf : (⟨S6000000x2, .f32⟩ : BufTy).Contents (Elt F) → (⟨S6000000x2, .f32⟩ : BufTy).Contents (Elt F) → (⟨S6000000x2, .f32⟩ : BufTy).Contents (Elt F)),
    nullary main_cst_25 (constant S_ .f32 0x00000000#32),
    unary main_cst_25 main_v93 (broadcastInDim S500000x2 ![] bcast_S_S500000x2 : (⟨S_, .f32⟩ : BufTy).Contents (Elt F) → (⟨S500000x2, .f32⟩ : BufTy).Contents (Elt F)),
    unary main_arg7 main_v94 (broadcastInDim S6000000x1 ![0] bcast_S6000000_S6000000x1_0 : (⟨S6000000, .i32⟩ : BufTy).Contents (Elt F) → (⟨S6000000x1, .i32⟩ : BufTy).Contents (Elt F)),
    ternary main_v93 main_v94 main_v92 main_v95 ((fun x i u => Host.scatterAdd scatter_S500000x2_S6000000x1_S6000000x2_1_0_0_1 x i u) : (⟨S500000x2, .f32⟩ : BufTy).Contents (Elt F) → (⟨S6000000x1, .i32⟩ : BufTy).Contents (Elt F) → (⟨S6000000x2, .f32⟩ : BufTy).Contents (Elt F) → (⟨S500000x2, .f32⟩ : BufTy).Contents (Elt F)) ]

theorem cvn0_sub : Sub (F := F) cvn0 := by
  unfold Sub cvn0
  exact ⟨nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., binary_bufs_sub .., nullary_bufs_sub .., unary_bufs_sub .., binary_bufs_sub ..,
    ternary_bufs_sub .., unary_bufs_sub .., binary_bufs_sub .., binary_bufs_sub .., unary_bufs_sub ..,
    nullary_bufs_sub .., unary_bufs_sub .., binary_bufs_sub .., nullary_bufs_sub .., unary_bufs_sub ..,
    binary_bufs_sub .., ternary_bufs_sub .., unary_bufs_sub .., binary_bufs_sub .., unary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    binary_bufs_sub .., nullary_bufs_sub .., unary_bufs_sub .., unary_bufs_sub .., ternary_bufs_sub ..⟩

theorem cvn0_fresh : Fresh (F := F) cvn0 := by
  unfold Fresh cvn0
  fresh_lit

/-- The references that stretch writes. -/
abbrev cvn0_W : List (Ref sig .tc) :=
  [main_c_17, main_v60, main_v61, main_c_18, main_v62, main_v63, main_v64, main_v65, main_v66, main_c_19,
   main_v67, main_v68, main_c_20, main_v69, main_v70, main_v71, main_v72, main_v73, main_v74, main_v75, main_c_21,
   main_v76, main_v77, main_c_22, main_v78, main_v79, main_v80, main_v81, main_v82, main_v83, main_v84, main_c_23,
   main_v85, main_v86, main_c_24, main_v87, main_v88, main_v89, main_v90, main_v91, main_v92, main_cst_25,
   main_v93, main_v94, main_v95]

theorem cvn0_writes : Writes (F := F) cvn0 cvn0_W := by
  unfold Writes cvn0
  simp only [List.Forall]
  exact ⟨by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one⟩

/-- @main's statements 125 … 169: layer 0, the convolution toward the clauses over the positive edges. -/
def ccp0 : List (HloOp τ sig (Elt F)) :=
  [ nullary main_c_26 (constantI S_ 32 0#32),
    unary main_c_26 main_v96 (broadcastInDim S6000000 ![] bcast_S_S6000000 : (⟨S_, .i32⟩ : BufTy).Contents (Elt F) → (⟨S6000000, .i32⟩ : BufTy).Contents (Elt F)),
    binary main_arg5 main_v96 main_v97 (cmpi .slt : (⟨S6000000, .i32⟩ : BufTy).Contents (Elt F) → (⟨S6000000, .i32⟩ : BufTy).Contents (Elt F) → (⟨S6000000, .i1⟩ : BufTy).Contents (Elt F)),
    nullary main_c_27 (constantI S_ 32 500000#32),
    unary main_c_27 main_v98 (broadcastInDim S6000000 ![] bcast_S_S6000000 : (⟨S_, .i32⟩ : BufTy).Contents (Elt F) → (⟨S6000000, .i32⟩ : BufTy).Contents (Elt F)),
    binary main_arg5 main_v98 main_v99 (addi : (⟨S6000000, .i32⟩ : BufTy).Contents (Elt F) → (⟨S6000000, .i32⟩ : BufTy).Contents (Elt F) → (⟨S6000000, .i32⟩ : BufTy).Contents (Elt F)),
    ternary main_v97 main_v99 main_arg5 main_v100 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v100 main_v101 (broadcastInDim S6000000x1 ![0] bcast_S6000000_S6000000x1_0 : (⟨S6000000, .i32⟩ : BufTy).Contents (Elt F) → (⟨S6000000x1, .i32⟩ : BufTy).Contents (Elt F)),
    binary main_v15 main_v101 main_v102 ((fun x i => Host.gather gather_S500000_S6000000x1_S6000000_n_0_n_n_0_1_1 x i) : (⟨S500000, .f32⟩ : BufTy).Contents (Elt F) → (⟨S6000000x1, .i32⟩ : BufTy).Contents (Elt F) → (⟨S6000000, .f32⟩ : BufTy).Contents (Elt F)),
    nullary main_c_28 (constantI S_ 32 0#32),
    unary main_c_28 main_v103 (broadcastInDim S6000000 ![] bcast_S_S6000000 : (⟨S_, .i32⟩ : BufTy).Contents (Elt F) → (⟨S6000000, .i32⟩ : BufTy).Contents (Elt F)),
    binary main_arg4 main_v103 main_v104 (cmpi .slt : (⟨S6000000, .i32⟩ : BufTy).Contents (Elt F) → (⟨S6000000, .i32⟩ : BufTy).Contents (Elt F) → (⟨S6000000, .i1⟩ : BufTy).Contents (Elt F)),
    nullary main_c_29 (constantI S_ 32 2000000#32),
    unary main_c_29 main_v105 (broadcastInDim S6000000 ![] bcast_S_S6000000 : (⟨S_, .i32⟩ : BufTy).Contents (Elt F) → (⟨S6000000, .i32⟩ : BufTy).Contents (Elt F)),
    binary main_arg4 main_v105 main_v106 (addi : (⟨S6000000, .i32⟩ : BufTy).Contents (Elt F) → (⟨S6000000, .i32⟩ : BufTy).Contents (Elt F) → (⟨S6000000, .i32⟩ : BufTy).Contents (Elt F)),
    ternary main_v104 main_v106 main_arg4 main_v107 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v107 main_v108 (broadcastInDim S6000000x1 ![0] bcast_S6000000_S6000000x1_0 : (⟨S6000000, .i32⟩ : BufTy).Contents (Elt F) → (⟨S6000000x1, .i32⟩ : BufTy).Contents (Elt F)),
    binary main_v7 main_v108 main_v109 ((fun x i => Host.gather gather_S2000000_S6000000x1_S6000000_n_0_n_n_0_1_1 x i) : (⟨S2000000, .f32⟩ : BufTy).Contents (Elt F) → (⟨S6000000x1, .i32⟩ : BufTy).Contents (Elt F) → (⟨S6000000, .f32⟩ : BufTy).Contents (Elt F)),
    binary main_v102 main_v109 main_v110 (mulf : (⟨S6000000, .f32⟩ : BufTy).Contents (Elt F) → (⟨S6000000, .f32⟩ : BufTy).Contents (Elt F) → (⟨S6000000, .f32⟩ : BufTy).Contents (Elt F)),
    unary main_v110 main_v111 (broadcastInDim S6000000x1 ![0] bcast_S6000000_S6000000x1_0 : (⟨S6000000, .f32⟩ : BufTy).Contents (Elt F) → (⟨S6000000x1, .f32⟩ : BufTy).Contents (Elt F)),
    nullary main_c_30 (constantI S_ 32 0#32),
    unary main_c_30 main_v112 (broadcastInDim S6000000 ![] bcast_S_S6000000 : (⟨S_, .i32⟩ : BufTy).Contents (Elt F) → (⟨S6000000, .i32⟩ : BufTy).Contents (Elt F)),
    binary main_arg5 main_v112 main_v113 (cmpi .slt : (⟨S6000000, .i32⟩ : BufTy).Contents (Elt F) → (⟨S6000000, .i32⟩ : BufTy).Contents (Elt F) → (⟨S6000000, .i1⟩ : BufTy).Contents (Elt F)),
    nullary main_c_31 (constantI S_ 32 500000#32),
    unary main_c_31 main_v114 (broadcastInDim S6000000 ![] bcast_S_S6000000 : (⟨S_, .i32⟩ : BufTy).Contents (Elt F) → (⟨S6000000, .i32⟩ : BufTy).Contents (Elt F)),
    binary main_arg5 main_v114 main_v115 (addi : (⟨S6000000, .i32⟩ : BufTy).Contents (Elt F) → (⟨S6000000, .i32⟩ : BufTy).Contents (Elt F) → (⟨S6000000, .i32⟩ : BufTy).Contents (Elt F)),
    ternary main_v113 main_v115 main_arg5 main_v116 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v116 main_v117 (broadcastInDim S6000000x1 ![0] bcast_S6000000_S6000000x1_0 : (⟨S6000000, .i32⟩ : BufTy).Contents (Elt F) → (⟨S6000000x1, .i32⟩ : BufTy).Contents (Elt F)),
    binary main_v23 main_v117 main_v118 ((fun x i => Host.gather gather_S500000x2_S6000000x1_S6000000x2_1_0_n_n_0_1_12 x i) : (⟨S500000x2, .f32⟩ : BufTy).Contents (Elt F) → (⟨S6000000x1, .i32⟩ : BufTy).Contents (Elt F) → (⟨S6000000x2, .f32⟩ : BufTy).Contents (Elt F)),
    unary main_v111 main_v119 (broadcastInDim S6000000x2 ![0, 1] bcast_S6000000x1_S6000000x2_0_1 : (⟨S6000000x1, .f32⟩ : BufTy).Contents (Elt F) → (⟨S6000000x2, .f32⟩ : BufTy).Contents (Elt F)),
    binary main_v119 main_v118 main_v120 (mulf : (⟨S6000000x2, .f32⟩ : BufTy).Contents (Elt F) → (⟨S6000000x2, .f32⟩ : BufTy).Contents (Elt F) → (⟨S6000000x2, .f32⟩ : BufTy).Contents (Elt F)),
    nullary main_c_32 (constantI S_ 32 0#32),
    unary main_c_32 main_v121 (broadcastInDim S6000000 ![] bcast_S_S6000000 : (⟨S_, .i32⟩ : BufTy).Contents (Elt F) → (⟨S6000000, .i32⟩ : BufTy).Contents (Elt F)),
    binary main_arg4 main_v121 main_v122 (cmpi .slt : (⟨S6000000, .i32⟩ : BufTy).Contents (Elt F) → (⟨S6000000, .i32⟩ : BufTy).Contents (Elt F) → (⟨S6000000, .i1⟩ : BufTy).Contents (Elt F)),
    nullary main_c_33 (constantI S_ 32 2000000#32),
    unary main_c_33 main_v123 (broadcastInDim S6000000 ![] bcast_S_S6000000 : (⟨S_, .i32⟩ : BufTy).Contents (Elt F) → (⟨S6000000, .i32⟩ : BufTy).Contents (Elt F)),
    binary main_arg4 main_v123 main_v124 (addi : (⟨S6000000, .i32⟩ : BufTy).Contents (Elt F) → (⟨S6000000, .i32⟩ : BufTy).Contents (Elt F) → (⟨S6000000, .i32⟩ : BufTy).Contents (Elt F)),
    ternary main_v122 main_v124 main_arg4 main_v125 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v125 main_v126 (broadcastInDim S6000000x1 ![0] bcast_S6000000_S6000000x1_0 : (⟨S6000000, .i32⟩ : BufTy).Contents (Elt F) → (⟨S6000000x1, .i32⟩ : BufTy).Contents (Elt F)),
    binary main_v19 main_v126 main_v127 ((fun x i => Host.gather gather_S2000000x2_S6000000x1_S6000000x2_1_0_n_n_0_1_12 x i) : (⟨S2000000x2, .f32⟩ : BufTy).Contents (Elt F) → (⟨S6000000x1, .i32⟩ : BufTy).Contents (Elt F) → (⟨S6000000x2, .f32⟩ : BufTy).Contents (Elt F)),
    binary main_v120 main_v127 main_v128 (addf : (⟨S6000000x2, .f32⟩ : BufTy).Contents (Elt F) → (⟨S6000000x2, .f32⟩ : BufTy).Contents (Elt F) → (⟨S6000000x2, .f32⟩ : BufTy).Contents (Elt F)),
    nullary main_cst_34 (constant S_ .f32 0x00000000#32),
    unary main_cst_34 main_v129 (broadcastInDim S2000000x2 ![] bcast_S_S2000000x2 : (⟨S_, .f32⟩ : BufTy).Contents (Elt F) → (⟨S2000000x2, .f32⟩ : BufTy).Contents (Elt F)),
    unary main_arg4 main_v130 (broadcastInDim S6000000x1 ![0] bcast_S6000000_S6000000x1_0 : (⟨S6000000, .i32⟩ : BufTy).Contents (Elt F) → (⟨S6000000x1, .i32⟩ : BufTy).Contents (Elt F)),
    ternary main_v129 main_v130 main_v128 main_v131 ((fun x i u => Host.scatterAdd scatter_S2000000x2_S6000000x1_S6000000x2_1_0_0_1 x i u) : (⟨S2000000x2, .f32⟩ : BufTy).Contents (Elt F) → (⟨S6000000x1, .i32⟩ : BufTy).Contents (Elt F) → (⟨S6000000x2, .f32⟩ : BufTy).Contents (Elt F) → (⟨S2000000x2, .f32⟩ : BufTy).Contents (Elt F)) ]

theorem ccp0_sub : Sub (F := F) ccp0 := by
  unfold Sub ccp0
  exact ⟨nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., binary_bufs_sub .., nullary_bufs_sub .., unary_bufs_sub .., binary_bufs_sub ..,
    ternary_bufs_sub .., unary_bufs_sub .., binary_bufs_sub .., binary_bufs_sub .., unary_bufs_sub ..,
    nullary_bufs_sub .., unary_bufs_sub .., binary_bufs_sub .., nullary_bufs_sub .., unary_bufs_sub ..,
    binary_bufs_sub .., ternary_bufs_sub .., unary_bufs_sub .., binary_bufs_sub .., unary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    binary_bufs_sub .., nullary_bufs_sub .., unary_bufs_sub .., unary_bufs_sub .., ternary_bufs_sub ..⟩

theorem ccp0_fresh : Fresh (F := F) ccp0 := by
  unfold Fresh ccp0
  fresh_lit

/-- The references that stretch writes. -/
abbrev ccp0_W : List (Ref sig .tc) :=
  [main_c_26, main_v96, main_v97, main_c_27, main_v98, main_v99, main_v100, main_v101, main_v102, main_c_28,
   main_v103, main_v104, main_c_29, main_v105, main_v106, main_v107, main_v108, main_v109, main_v110, main_v111,
   main_c_30, main_v112, main_v113, main_c_31, main_v114, main_v115, main_v116, main_v117, main_v118, main_v119,
   main_v120, main_c_32, main_v121, main_v122, main_c_33, main_v123, main_v124, main_v125, main_v126, main_v127,
   main_v128, main_cst_34, main_v129, main_v130, main_v131]

theorem ccp0_writes : Writes (F := F) ccp0 ccp0_W := by
  unfold Writes ccp0
  simp only [List.Forall]
  exact ⟨by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one⟩

/-- @main's statements 170 … 214: layer 0, the convolution toward the clauses over the negative edges. -/
def ccn0 : List (HloOp τ sig (Elt F)) :=
  [ nullary main_c_35 (constantI S_ 32 0#32),
    unary main_c_35 main_v132 (broadcastInDim S6000000 ![] bcast_S_S6000000 : (⟨S_, .i32⟩ : BufTy).Contents (Elt F) → (⟨S6000000, .i32⟩ : BufTy).Contents (Elt F)),
    binary main_arg7 main_v132 main_v133 (cmpi .slt : (⟨S6000000, .i32⟩ : BufTy).Contents (Elt F) → (⟨S6000000, .i32⟩ : BufTy).Contents (Elt F) → (⟨S6000000, .i1⟩ : BufTy).Contents (Elt F)),
    nullary main_c_36 (constantI S_ 32 500000#32),
    unary main_c_36 main_v134 (broadcastInDim S6000000 ![] bcast_S_S6000000 : (⟨S_, .i32⟩ : BufTy).Contents (Elt F) → (⟨S6000000, .i32⟩ : BufTy).Contents (Elt F)),
    binary main_arg7 main_v134 main_v135 (addi : (⟨S6000000, .i32⟩ : BufTy).Contents (Elt F) → (⟨S6000000, .i32⟩ : BufTy).Contents (Elt F) → (⟨S6000000, .i32⟩ : BufTy).Contents (Elt F)),
    ternary main_v133 main_v135 main_arg7 main_v136 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v136 main_v137 (broadcastInDim S6000000x1 ![0] bcast_S6000000_S6000000x1_0 : (⟨S6000000, .i32⟩ : BufTy).Contents (Elt F) → (⟨S6000000x1, .i32⟩ : BufTy).Contents (Elt F)),
    binary main_v15 main_v137 main_v138 ((fun x i => Host.gather gather_S500000_S6000000x1_S6000000_n_0_n_n_0_1_1 x i) : (⟨S500000, .f32⟩ : BufTy).Contents (Elt F) → (⟨S6000000x1, .i32⟩ : BufTy).Contents (Elt F) → (⟨S6000000, .f32⟩ : BufTy).Contents (Elt F)),
    nullary main_c_37 (constantI S_ 32 0#32),
    unary main_c_37 main_v139 (broadcastInDim S6000000 ![] bcast_S_S6000000 : (⟨S_, .i32⟩ : BufTy).Contents (Elt F) → (⟨S6000000, .i32⟩ : BufTy).Contents (Elt F)),
    binary main_arg6 main_v139 main_v140 (cmpi .slt : (⟨S6000000, .i32⟩ : BufTy).Contents (Elt F) → (⟨S6000000, .i32⟩ : BufTy).Contents (Elt F) → (⟨S6000000, .i1⟩ : BufTy).Contents (Elt F)),
    nullary main_c_38 (constantI S_ 32 2000000#32),
    unary main_c_38 main_v141 (broadcastInDim S6000000 ![] bcast_S_S6000000 : (⟨S_, .i32⟩ : BufTy).Contents (Elt F) → (⟨S6000000, .i32⟩ : BufTy).Contents (Elt F)),
    binary main_arg6 main_v141 main_v142 (addi : (⟨S6000000, .i32⟩ : BufTy).Contents (Elt F) → (⟨S6000000, .i32⟩ : BufTy).Contents (Elt F) → (⟨S6000000, .i32⟩ : BufTy).Contents (Elt F)),
    ternary main_v140 main_v142 main_arg6 main_v143 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v143 main_v144 (broadcastInDim S6000000x1 ![0] bcast_S6000000_S6000000x1_0 : (⟨S6000000, .i32⟩ : BufTy).Contents (Elt F) → (⟨S6000000x1, .i32⟩ : BufTy).Contents (Elt F)),
    binary main_v7 main_v144 main_v145 ((fun x i => Host.gather gather_S2000000_S6000000x1_S6000000_n_0_n_n_0_1_1 x i) : (⟨S2000000, .f32⟩ : BufTy).Contents (Elt F) → (⟨S6000000x1, .i32⟩ : BufTy).Contents (Elt F) → (⟨S6000000, .f32⟩ : BufTy).Contents (Elt F)),
    binary main_v138 main_v145 main_v146 (mulf : (⟨S6000000, .f32⟩ : BufTy).Contents (Elt F) → (⟨S6000000, .f32⟩ : BufTy).Contents (Elt F) → (⟨S6000000, .f32⟩ : BufTy).Contents (Elt F)),
    unary main_v146 main_v147 (broadcastInDim S6000000x1 ![0] bcast_S6000000_S6000000x1_0 : (⟨S6000000, .f32⟩ : BufTy).Contents (Elt F) → (⟨S6000000x1, .f32⟩ : BufTy).Contents (Elt F)),
    nullary main_c_39 (constantI S_ 32 0#32),
    unary main_c_39 main_v148 (broadcastInDim S6000000 ![] bcast_S_S6000000 : (⟨S_, .i32⟩ : BufTy).Contents (Elt F) → (⟨S6000000, .i32⟩ : BufTy).Contents (Elt F)),
    binary main_arg7 main_v148 main_v149 (cmpi .slt : (⟨S6000000, .i32⟩ : BufTy).Contents (Elt F) → (⟨S6000000, .i32⟩ : BufTy).Contents (Elt F) → (⟨S6000000, .i1⟩ : BufTy).Contents (Elt F)),
    nullary main_c_40 (constantI S_ 32 500000#32),
    unary main_c_40 main_v150 (broadcastInDim S6000000 ![] bcast_S_S6000000 : (⟨S_, .i32⟩ : BufTy).Contents (Elt F) → (⟨S6000000, .i32⟩ : BufTy).Contents (Elt F)),
    binary main_arg7 main_v150 main_v151 (addi : (⟨S6000000, .i32⟩ : BufTy).Contents (Elt F) → (⟨S6000000, .i32⟩ : BufTy).Contents (Elt F) → (⟨S6000000, .i32⟩ : BufTy).Contents (Elt F)),
    ternary main_v149 main_v151 main_arg7 main_v152 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v152 main_v153 (broadcastInDim S6000000x1 ![0] bcast_S6000000_S6000000x1_0 : (⟨S6000000, .i32⟩ : BufTy).Contents (Elt F) → (⟨S6000000x1, .i32⟩ : BufTy).Contents (Elt F)),
    binary main_v23 main_v153 main_v154 ((fun x i => Host.gather gather_S500000x2_S6000000x1_S6000000x2_1_0_n_n_0_1_12 x i) : (⟨S500000x2, .f32⟩ : BufTy).Contents (Elt F) → (⟨S6000000x1, .i32⟩ : BufTy).Contents (Elt F) → (⟨S6000000x2, .f32⟩ : BufTy).Contents (Elt F)),
    unary main_v147 main_v155 (broadcastInDim S6000000x2 ![0, 1] bcast_S6000000x1_S6000000x2_0_1 : (⟨S6000000x1, .f32⟩ : BufTy).Contents (Elt F) → (⟨S6000000x2, .f32⟩ : BufTy).Contents (Elt F)),
    binary main_v155 main_v154 main_v156 (mulf : (⟨S6000000x2, .f32⟩ : BufTy).Contents (Elt F) → (⟨S6000000x2, .f32⟩ : BufTy).Contents (Elt F) → (⟨S6000000x2, .f32⟩ : BufTy).Contents (Elt F)),
    nullary main_c_41 (constantI S_ 32 0#32),
    unary main_c_41 main_v157 (broadcastInDim S6000000 ![] bcast_S_S6000000 : (⟨S_, .i32⟩ : BufTy).Contents (Elt F) → (⟨S6000000, .i32⟩ : BufTy).Contents (Elt F)),
    binary main_arg6 main_v157 main_v158 (cmpi .slt : (⟨S6000000, .i32⟩ : BufTy).Contents (Elt F) → (⟨S6000000, .i32⟩ : BufTy).Contents (Elt F) → (⟨S6000000, .i1⟩ : BufTy).Contents (Elt F)),
    nullary main_c_42 (constantI S_ 32 2000000#32),
    unary main_c_42 main_v159 (broadcastInDim S6000000 ![] bcast_S_S6000000 : (⟨S_, .i32⟩ : BufTy).Contents (Elt F) → (⟨S6000000, .i32⟩ : BufTy).Contents (Elt F)),
    binary main_arg6 main_v159 main_v160 (addi : (⟨S6000000, .i32⟩ : BufTy).Contents (Elt F) → (⟨S6000000, .i32⟩ : BufTy).Contents (Elt F) → (⟨S6000000, .i32⟩ : BufTy).Contents (Elt F)),
    ternary main_v158 main_v160 main_arg6 main_v161 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v161 main_v162 (broadcastInDim S6000000x1 ![0] bcast_S6000000_S6000000x1_0 : (⟨S6000000, .i32⟩ : BufTy).Contents (Elt F) → (⟨S6000000x1, .i32⟩ : BufTy).Contents (Elt F)),
    binary main_v19 main_v162 main_v163 ((fun x i => Host.gather gather_S2000000x2_S6000000x1_S6000000x2_1_0_n_n_0_1_12 x i) : (⟨S2000000x2, .f32⟩ : BufTy).Contents (Elt F) → (⟨S6000000x1, .i32⟩ : BufTy).Contents (Elt F) → (⟨S6000000x2, .f32⟩ : BufTy).Contents (Elt F)),
    binary main_v156 main_v163 main_v164 (addf : (⟨S6000000x2, .f32⟩ : BufTy).Contents (Elt F) → (⟨S6000000x2, .f32⟩ : BufTy).Contents (Elt F) → (⟨S6000000x2, .f32⟩ : BufTy).Contents (Elt F)),
    nullary main_cst_43 (constant S_ .f32 0x00000000#32),
    unary main_cst_43 main_v165 (broadcastInDim S2000000x2 ![] bcast_S_S2000000x2 : (⟨S_, .f32⟩ : BufTy).Contents (Elt F) → (⟨S2000000x2, .f32⟩ : BufTy).Contents (Elt F)),
    unary main_arg6 main_v166 (broadcastInDim S6000000x1 ![0] bcast_S6000000_S6000000x1_0 : (⟨S6000000, .i32⟩ : BufTy).Contents (Elt F) → (⟨S6000000x1, .i32⟩ : BufTy).Contents (Elt F)),
    ternary main_v165 main_v166 main_v164 main_v167 ((fun x i u => Host.scatterAdd scatter_S2000000x2_S6000000x1_S6000000x2_1_0_0_1 x i u) : (⟨S2000000x2, .f32⟩ : BufTy).Contents (Elt F) → (⟨S6000000x1, .i32⟩ : BufTy).Contents (Elt F) → (⟨S6000000x2, .f32⟩ : BufTy).Contents (Elt F) → (⟨S2000000x2, .f32⟩ : BufTy).Contents (Elt F)) ]

theorem ccn0_sub : Sub (F := F) ccn0 := by
  unfold Sub ccn0
  exact ⟨nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., binary_bufs_sub .., nullary_bufs_sub .., unary_bufs_sub .., binary_bufs_sub ..,
    ternary_bufs_sub .., unary_bufs_sub .., binary_bufs_sub .., binary_bufs_sub .., unary_bufs_sub ..,
    nullary_bufs_sub .., unary_bufs_sub .., binary_bufs_sub .., nullary_bufs_sub .., unary_bufs_sub ..,
    binary_bufs_sub .., ternary_bufs_sub .., unary_bufs_sub .., binary_bufs_sub .., unary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    binary_bufs_sub .., nullary_bufs_sub .., unary_bufs_sub .., unary_bufs_sub .., ternary_bufs_sub ..⟩

theorem ccn0_fresh : Fresh (F := F) ccn0 := by
  unfold Fresh ccn0
  fresh_lit

/-- The references that stretch writes. -/
abbrev ccn0_W : List (Ref sig .tc) :=
  [main_c_35, main_v132, main_v133, main_c_36, main_v134, main_v135, main_v136, main_v137, main_v138, main_c_37,
   main_v139, main_v140, main_c_38, main_v141, main_v142, main_v143, main_v144, main_v145, main_v146, main_v147,
   main_c_39, main_v148, main_v149, main_c_40, main_v150, main_v151, main_v152, main_v153, main_v154, main_v155,
   main_v156, main_c_41, main_v157, main_v158, main_c_42, main_v159, main_v160, main_v161, main_v162, main_v163,
   main_v164, main_cst_43, main_v165, main_v166, main_v167]

theorem ccn0_writes : Writes (F := F) ccn0 ccn0_W := by
  unfold Writes ccn0
  simp only [List.Forall]
  exact ⟨by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one⟩

/-- @main's statements 215 … 223: layer 0, the affine map of the variables. -/
def av0 : List (HloOp τ sig (Elt F)) :=
  [ nary ![main_v59, main_v95, main_v23] main_v168 (fun u => concatenate S500000x6 1 [⟨S500000x2, u 0⟩, ⟨S500000x2, u 1⟩, ⟨S500000x2, u 2⟩] concatenates_S500000x2_S500000x2_S500000x2_S500000x6_d1),
    unary main_arg14 main_v169 ((extractStridedSlice S1x6x2 ![0, 0, 0] · slices_S4x6x2_S1x6x2_0_0_0) : (⟨S4x6x2, .f32⟩ : BufTy).Contents (Elt F) → (⟨S1x6x2, .f32⟩ : BufTy).Contents (Elt F)),
    reshape main_v169 main_v170 rfl shapeCasts_S1x6x2_S6x2,
    binary main_v168 main_v170 main_v171 ((fun l r => Host.dotGeneral dot_S500000x6_S6x2_S500000x2_1_0_0_1_n_n none l r) : (⟨S500000x6, .f32⟩ : BufTy).Contents (Elt F) → (⟨S6x2, .f32⟩ : BufTy).Contents (Elt F) → (⟨S500000x2, .f32⟩ : BufTy).Contents (Elt F)),
    unary main_arg15 main_v172 ((extractStridedSlice S1x2 ![0, 0] · slices_S4x2_S1x2_0_0) : (⟨S4x2, .f32⟩ : BufTy).Contents (Elt F) → (⟨S1x2, .f32⟩ : BufTy).Contents (Elt F)),
    reshape main_v172 main_v173 rfl shapeCasts_S1x2_S2,
    unary main_v173 main_v174 (broadcastInDim S1x2 ![1] bcast_S2_S1x2_1 : (⟨S2, .f32⟩ : BufTy).Contents (Elt F) → (⟨S1x2, .f32⟩ : BufTy).Contents (Elt F)),
    unary main_v174 main_v175 (broadcastInDim S500000x2 ![0, 1] bcast_S1x2_S500000x2_0_1 : (⟨S1x2, .f32⟩ : BufTy).Contents (Elt F) → (⟨S500000x2, .f32⟩ : BufTy).Contents (Elt F)),
    binary main_v171 main_v175 main_v176 (addf : (⟨S500000x2, .f32⟩ : BufTy).Contents (Elt F) → (⟨S500000x2, .f32⟩ : BufTy).Contents (Elt F) → (⟨S500000x2, .f32⟩ : BufTy).Contents (Elt F)) ]

theorem av0_sub : Sub (F := F) av0 := by
  unfold Sub av0
  exact ⟨nary_bufs_sub .., unary_bufs_sub .., reshape_bufs_sub .., binary_bufs_sub .., unary_bufs_sub ..,
    reshape_bufs_sub .., unary_bufs_sub .., unary_bufs_sub .., binary_bufs_sub ..⟩

theorem av0_fresh : Fresh (F := F) av0 := by
  unfold Fresh av0
  fresh_lit

/-- The references that stretch writes. -/
abbrev av0_W : List (Ref sig .tc) :=
  [main_v168, main_v169, main_v170, main_v171, main_v172, main_v173, main_v174, main_v175, main_v176]

theorem av0_writes : Writes (F := F) av0 av0_W := by
  unfold Writes av0
  simp only [List.Forall]
  exact ⟨by writes_one, by writes_one, by writes_one, by writes_one, by writes_one, by writes_one, by writes_one,
    by writes_one, by writes_one⟩

/-- @main's statements 224 … 232: layer 0, the affine map of the clauses. -/
def ac0 : List (HloOp τ sig (Elt F)) :=
  [ nary ![main_v131, main_v167, main_v19] main_v177 (fun u => concatenate S2000000x6 1 [⟨S2000000x2, u 0⟩, ⟨S2000000x2, u 1⟩, ⟨S2000000x2, u 2⟩] concatenates_S2000000x2_S2000000x2_S2000000x2_S2000000x6_d1),
    unary main_arg12 main_v178 ((extractStridedSlice S1x6x2 ![0, 0, 0] · slices_S4x6x2_S1x6x2_0_0_0) : (⟨S4x6x2, .f32⟩ : BufTy).Contents (Elt F) → (⟨S1x6x2, .f32⟩ : BufTy).Contents (Elt F)),
    reshape main_v178 main_v179 rfl shapeCasts_S1x6x2_S6x2,
    binary main_v177 main_v179 main_v180 ((fun l r => Host.dotGeneral dot_S2000000x6_S6x2_S2000000x2_1_0_0_1_n_n none l r) : (⟨S2000000x6, .f32⟩ : BufTy).Contents (Elt F) → (⟨S6x2, .f32⟩ : BufTy).Contents (Elt F) → (⟨S2000000x2, .f32⟩ : BufTy).Contents (Elt F)),
    unary main_arg13 main_v181 ((extractStridedSlice S1x2 ![0, 0] · slices_S4x2_S1x2_0_0) : (⟨S4x2, .f32⟩ : BufTy).Contents (Elt F) → (⟨S1x2, .f32⟩ : BufTy).Contents (Elt F)),
    reshape main_v181 main_v182 rfl shapeCasts_S1x2_S2,
    unary main_v182 main_v183 (broadcastInDim S1x2 ![1] bcast_S2_S1x2_1 : (⟨S2, .f32⟩ : BufTy).Contents (Elt F) → (⟨S1x2, .f32⟩ : BufTy).Contents (Elt F)),
    unary main_v183 main_v184 (broadcastInDim S2000000x2 ![0, 1] bcast_S1x2_S2000000x2_0_1 : (⟨S1x2, .f32⟩ : BufTy).Contents (Elt F) → (⟨S2000000x2, .f32⟩ : BufTy).Contents (Elt F)),
    binary main_v180 main_v184 main_v185 (addf : (⟨S2000000x2, .f32⟩ : BufTy).Contents (Elt F) → (⟨S2000000x2, .f32⟩ : BufTy).Contents (Elt F) → (⟨S2000000x2, .f32⟩ : BufTy).Contents (Elt F)) ]

theorem ac0_sub : Sub (F := F) ac0 := by
  unfold Sub ac0
  exact ⟨nary_bufs_sub .., unary_bufs_sub .., reshape_bufs_sub .., binary_bufs_sub .., unary_bufs_sub ..,
    reshape_bufs_sub .., unary_bufs_sub .., unary_bufs_sub .., binary_bufs_sub ..⟩

theorem ac0_fresh : Fresh (F := F) ac0 := by
  unfold Fresh ac0
  fresh_lit

/-- The references that stretch writes. -/
abbrev ac0_W : List (Ref sig .tc) :=
  [main_v177, main_v178, main_v179, main_v180, main_v181, main_v182, main_v183, main_v184, main_v185]

theorem ac0_writes : Writes (F := F) ac0 ac0_W := by
  unfold Writes ac0
  simp only [List.Forall]
  exact ⟨by writes_one, by writes_one, by writes_one, by writes_one, by writes_one, by writes_one, by writes_one,
    by writes_one, by writes_one⟩

set_option maxRecDepth 8192 in
set_option maxHeartbeats 2000000 in
theorem cvp0_out (V : Valuation τ sig (Elt F)) :
    after cvp0 V (Proc.devRef .tc main_v59)
      = convV (V (Proc.devRef .tc main_v19)) (V (Proc.devRef .tc main_v23)) (V (Proc.devRef .tc main_v7)) (V (Proc.devRef .tc main_v15)) (V (Proc.devRef .tc main_arg4)) (V (Proc.devRef .tc main_arg5)) := by
  unfold cvp0; stretch_read

set_option maxRecDepth 8192 in
set_option maxHeartbeats 2000000 in
theorem cvn0_out (V : Valuation τ sig (Elt F)) :
    after cvn0 V (Proc.devRef .tc main_v95)
      = convV (V (Proc.devRef .tc main_v19)) (V (Proc.devRef .tc main_v23)) (V (Proc.devRef .tc main_v7)) (V (Proc.devRef .tc main_v15)) (V (Proc.devRef .tc main_arg6)) (V (Proc.devRef .tc main_arg7)) := by
  unfold cvn0; stretch_read

set_option maxRecDepth 8192 in
set_option maxHeartbeats 2000000 in
theorem ccp0_out (V : Valuation τ sig (Elt F)) :
    after ccp0 V (Proc.devRef .tc main_v131)
      = convC (V (Proc.devRef .tc main_v19)) (V (Proc.devRef .tc main_v23)) (V (Proc.devRef .tc main_v7)) (V (Proc.devRef .tc main_v15)) (V (Proc.devRef .tc main_arg4)) (V (Proc.devRef .tc main_arg5)) := by
  unfold ccp0; stretch_read

set_option maxRecDepth 8192 in
set_option maxHeartbeats 2000000 in
theorem ccn0_out (V : Valuation τ sig (Elt F)) :
    after ccn0 V (Proc.devRef .tc main_v167)
      = convC (V (Proc.devRef .tc main_v19)) (V (Proc.devRef .tc main_v23)) (V (Proc.devRef .tc main_v7)) (V (Proc.devRef .tc main_v15)) (V (Proc.devRef .tc main_arg6)) (V (Proc.devRef .tc main_arg7)) := by
  unfold ccn0; stretch_read

set_option maxRecDepth 8192 in
set_option maxHeartbeats 2000000 in
theorem av0_out (V : Valuation τ sig (Elt F)) :
    after av0 V (Proc.devRef .tc main_v176)
      = affV ![0, 0, 0] slices_S4x6x2_S1x6x2_0_0_0 ![0, 0] slices_S4x2_S1x2_0_0 (V (Proc.devRef .tc main_v59)) (V (Proc.devRef .tc main_v95)) (V (Proc.devRef .tc main_v23)) (V (Proc.devRef .tc main_arg14)) (V (Proc.devRef .tc main_arg15)) := by
  unfold av0; stretch_read

set_option maxRecDepth 8192 in
set_option maxHeartbeats 2000000 in
theorem ac0_out (V : Valuation τ sig (Elt F)) :
    after ac0 V (Proc.devRef .tc main_v185)
      = affC ![0, 0, 0] slices_S4x6x2_S1x6x2_0_0_0 ![0, 0] slices_S4x2_S1x2_0_0 (V (Proc.devRef .tc main_v131)) (V (Proc.devRef .tc main_v167)) (V (Proc.devRef .tc main_v19)) (V (Proc.devRef .tc main_arg12)) (V (Proc.devRef .tc main_arg13)) := by
  unfold ac0; stretch_read

/-- Layer 0: @main's statements 35 … 232. -/
def L0 : List (HloOp τ sig (Elt F)) := cvp0 ++ (cvn0 ++ (ccp0 ++ (ccn0 ++ (av0 ++ ac0))))

theorem L0_sub : Sub (F := F) L0 :=
  cvp0_sub.append (cvn0_sub.append (ccp0_sub.append (ccn0_sub.append (av0_sub.append ac0_sub))))
theorem L0_fresh : Fresh (F := F) L0 :=
  cvp0_fresh.append (cvn0_fresh.append (ccp0_fresh.append (ccn0_fresh.append (av0_fresh.append ac0_fresh))))

/-- The layer as a step on the two states: from any contents, the new variable state and the new clause state are the
    layer functions of the old two and of the ten values every layer reads, and those and the arguments stay. -/
theorem L0_step (V : Valuation τ sig (Elt F)) :
    after L0 V (Proc.devRef .tc main_v176) = layerV ![0, 0, 0] slices_S4x6x2_S1x6x2_0_0_0 ![0, 0] slices_S4x2_S1x2_0_0 (envAt V) (V (Proc.devRef .tc main_v19)) (V (Proc.devRef .tc main_v23))
    ∧ after L0 V (Proc.devRef .tc main_v185) = layerC ![0, 0, 0] slices_S4x6x2_S1x6x2_0_0_0 ![0, 0] slices_S4x2_S1x2_0_0 (envAt V) (V (Proc.devRef .tc main_v19)) (V (Proc.devRef .tc main_v23))
    ∧ ∀ r ∈ keepRefs, after L0 V (Proc.devRef .tc r) = V (Proc.devRef .tc r) := by
  unfold L0
  simp only [after_append]
  refine ⟨?_, ?_, ?_⟩
  · -- the variables: the affine map reads the two sums, the old state and its weights, each kept since it was written
    rw [ac0_writes.keep _ (show main_v176 ∉ ac0_W by decide), av0_out,
      ccn0_writes.keep _ (show main_v59 ∉ ccn0_W by decide),
      ccn0_writes.keep _ (show main_v95 ∉ ccn0_W by decide),
      ccn0_writes.keep _ (show main_v23 ∉ ccn0_W by decide),
      ccn0_writes.keep _ (show main_arg14 ∉ ccn0_W by decide),
      ccn0_writes.keep _ (show main_arg15 ∉ ccn0_W by decide),
      ccp0_writes.keep _ (show main_v59 ∉ ccp0_W by decide),
      ccp0_writes.keep _ (show main_v95 ∉ ccp0_W by decide),
      ccp0_writes.keep _ (show main_v23 ∉ ccp0_W by decide),
      ccp0_writes.keep _ (show main_arg14 ∉ ccp0_W by decide),
      ccp0_writes.keep _ (show main_arg15 ∉ ccp0_W by decide),
      cvn0_writes.keep _ (show main_v59 ∉ cvn0_W by decide),
      cvn0_writes.keep _ (show main_v23 ∉ cvn0_W by decide),
      cvn0_writes.keep _ (show main_arg14 ∉ cvn0_W by decide),
      cvn0_writes.keep _ (show main_arg15 ∉ cvn0_W by decide), cvn0_out,
      cvp0_out,
      cvp0_writes.keep _ (show main_v23 ∉ cvp0_W by decide),
      cvp0_writes.keep _ (show main_arg14 ∉ cvp0_W by decide),
      cvp0_writes.keep _ (show main_arg15 ∉ cvp0_W by decide),
      cvp0_writes.keep _ (show main_v19 ∉ cvp0_W by decide),
      cvp0_writes.keep _ (show main_v7 ∉ cvp0_W by decide),
      cvp0_writes.keep _ (show main_v15 ∉ cvp0_W by decide),
      cvp0_writes.keep _ (show main_arg6 ∉ cvp0_W by decide),
      cvp0_writes.keep _ (show main_arg7 ∉ cvp0_W by decide)]
    rfl
  · -- the clauses
    rw [ac0_out,
      av0_writes.keep _ (show main_v131 ∉ av0_W by decide),
      av0_writes.keep _ (show main_v167 ∉ av0_W by decide),
      av0_writes.keep _ (show main_v19 ∉ av0_W by decide),
      av0_writes.keep _ (show main_arg12 ∉ av0_W by decide),
      av0_writes.keep _ (show main_arg13 ∉ av0_W by decide),
      ccn0_writes.keep _ (show main_v131 ∉ ccn0_W by decide),
      ccn0_writes.keep _ (show main_v19 ∉ ccn0_W by decide),
      ccn0_writes.keep _ (show main_arg12 ∉ ccn0_W by decide),
      ccn0_writes.keep _ (show main_arg13 ∉ ccn0_W by decide), ccn0_out,
      ccp0_out,
      ccp0_writes.keep _ (show main_v19 ∉ ccp0_W by decide),
      ccp0_writes.keep _ (show main_arg12 ∉ ccp0_W by decide),
      ccp0_writes.keep _ (show main_arg13 ∉ ccp0_W by decide),
      ccp0_writes.keep _ (show main_v23 ∉ ccp0_W by decide),
      ccp0_writes.keep _ (show main_v7 ∉ ccp0_W by decide),
      ccp0_writes.keep _ (show main_v15 ∉ ccp0_W by decide),
      ccp0_writes.keep _ (show main_arg6 ∉ ccp0_W by decide),
      ccp0_writes.keep _ (show main_arg7 ∉ ccp0_W by decide),
      cvn0_writes.keep _ (show main_v19 ∉ cvn0_W by decide),
      cvn0_writes.keep _ (show main_arg12 ∉ cvn0_W by decide),
      cvn0_writes.keep _ (show main_arg13 ∉ cvn0_W by decide),
      cvn0_writes.keep _ (show main_v23 ∉ cvn0_W by decide),
      cvn0_writes.keep _ (show main_v7 ∉ cvn0_W by decide),
      cvn0_writes.keep _ (show main_v15 ∉ cvn0_W by decide),
      cvn0_writes.keep _ (show main_arg6 ∉ cvn0_W by decide),
      cvn0_writes.keep _ (show main_arg7 ∉ cvn0_W by decide),
      cvn0_writes.keep _ (show main_arg4 ∉ cvn0_W by decide),
      cvn0_writes.keep _ (show main_arg5 ∉ cvn0_W by decide),
      cvp0_writes.keep _ (show main_v19 ∉ cvp0_W by decide),
      cvp0_writes.keep _ (show main_arg12 ∉ cvp0_W by decide),
      cvp0_writes.keep _ (show main_arg13 ∉ cvp0_W by decide),
      cvp0_writes.keep _ (show main_v23 ∉ cvp0_W by decide),
      cvp0_writes.keep _ (show main_v7 ∉ cvp0_W by decide),
      cvp0_writes.keep _ (show main_v15 ∉ cvp0_W by decide),
      cvp0_writes.keep _ (show main_arg6 ∉ cvp0_W by decide),
      cvp0_writes.keep _ (show main_arg7 ∉ cvp0_W by decide),
      cvp0_writes.keep _ (show main_arg4 ∉ cvp0_W by decide),
      cvp0_writes.keep _ (show main_arg5 ∉ cvp0_W by decide)]
    rfl
  · intro r hr
    rw [ac0_writes.keep _ ((by decide : ∀ r ∈ keepRefs, r ∉ ac0_W) r hr),
      av0_writes.keep _ ((by decide : ∀ r ∈ keepRefs, r ∉ av0_W) r hr),
      ccn0_writes.keep _ ((by decide : ∀ r ∈ keepRefs, r ∉ ccn0_W) r hr),
      ccp0_writes.keep _ ((by decide : ∀ r ∈ keepRefs, r ∉ ccp0_W) r hr),
      cvn0_writes.keep _ ((by decide : ∀ r ∈ keepRefs, r ∉ cvn0_W) r hr),
      cvp0_writes.keep _ ((by decide : ∀ r ∈ keepRefs, r ∉ cvp0_W) r hr)]

end Cert.ReferenceIdeal.Hand

end
-- ==== Proof.Ref.L1.lean ====
import proofs.«149588_j66838281060723_2_alg».proof.Proof.Ref.Tac

noncomputable section

namespace Cert.ReferenceIdeal.Hand

open Idealize.ShloMosaic Idealize.SL.Sem Cert.ReferenceIdeal Idealize.ShloMosaic.StableHlo Idealize.ShloMosaic.TcCoe
open Cert.ReferenceIdeal.Facts₀ Cert.ReferenceIdeal.Facts

variable {F : FTy → Type} [FloatOps F] [Facts]
/-- @main's statements 233 … 277: layer 1, the convolution toward the variables over the positive edges. -/
def cvp1 : List (HloOp τ sig (Elt F)) :=
  [ nullary main_c_44 (constantI S_ 32 0#32),
    unary main_c_44 main_v186 (broadcastInDim S6000000 ![] bcast_S_S6000000 : (⟨S_, .i32⟩ : BufTy).Contents (Elt F) → (⟨S6000000, .i32⟩ : BufTy).Contents (Elt F)),
    binary main_arg4 main_v186 main_v187 (cmpi .slt : (⟨S6000000, .i32⟩ : BufTy).Contents (Elt F) → (⟨S6000000, .i32⟩ : BufTy).Contents (Elt F) → (⟨S6000000, .i1⟩ : BufTy).Contents (Elt F)),
    nullary main_c_45 (constantI S_ 32 2000000#32),
    unary main_c_45 main_v188 (broadcastInDim S6000000 ![] bcast_S_S6000000 : (⟨S_, .i32⟩ : BufTy).Contents (Elt F) → (⟨S6000000, .i32⟩ : BufTy).Contents (Elt F)),
    binary main_arg4 main_v188 main_v189 (addi : (⟨S6000000, .i32⟩ : BufTy).Contents (Elt F) → (⟨S6000000, .i32⟩ : BufTy).Contents (Elt F) → (⟨S6000000, .i32⟩ : BufTy).Contents (Elt F)),
    ternary main_v187 main_v189 main_arg4 main_v190 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v190 main_v191 (broadcastInDim S6000000x1 ![0] bcast_S6000000_S6000000x1_0 : (⟨S6000000, .i32⟩ : BufTy).Contents (Elt F) → (⟨S6000000x1, .i32⟩ : BufTy).Contents (Elt F)),
    binary main_v7 main_v191 main_v192 ((fun x i => Host.gather gather_S2000000_S6000000x1_S6000000_n_0_n_n_0_1_1 x i) : (⟨S2000000, .f32⟩ : BufTy).Contents (Elt F) → (⟨S6000000x1, .i32⟩ : BufTy).Contents (Elt F) → (⟨S6000000, .f32⟩ : BufTy).Contents (Elt F)),
    nullary main_c_46 (constantI S_ 32 0#32),
    unary main_c_46 main_v193 (broadcastInDim S6000000 ![] bcast_S_S6000000 : (⟨S_, .i32⟩ : BufTy).Contents (Elt F) → (⟨S6000000, .i32⟩ : BufTy).Contents (Elt F)),
    binary main_arg5 main_v193 main_v194 (cmpi .slt : (⟨S6000000, .i32⟩ : BufTy).Contents (Elt F) → (⟨S6000000, .i32⟩ : BufTy).Contents (Elt F) → (⟨S6000000, .i1⟩ : BufTy).Contents (Elt F)),
    nullary main_c_47 (constantI S_ 32 500000#32),
    unary main_c_47 main_v195 (broadcastInDim S6000000 ![] bcast_S_S6000000 : (⟨S_, .i32⟩ : BufTy).Contents (Elt F) → (⟨S6000000, .i32⟩ : BufTy).Contents (Elt F)),
    binary main_arg5 main_v195 main_v196 (addi : (⟨S6000000, .i32⟩ : BufTy).Contents (Elt F) → (⟨S6000000, .i32⟩ : BufTy).Contents (Elt F) → (⟨S6000000, .i32⟩ : BufTy).Contents (Elt F)),
    ternary main_v194 main_v196 main_arg5 main_v197 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v197 main_v198 (broadcastInDim S6000000x1 ![0] bcast_S6000000_S6000000x1_0 : (⟨S6000000, .i32⟩ : BufTy).Contents (Elt F) → (⟨S6000000x1, .i32⟩ : BufTy).Contents (Elt F)),
    binary main_v15 main_v198 main_v199 ((fun x i => Host.gather gather_S500000_S6000000x1_S6000000_n_0_n_n_0_1_1 x i) : (⟨S500000, .f32⟩ : BufTy).Contents (Elt F) → (⟨S6000000x1, .i32⟩ : BufTy).Contents (Elt F) → (⟨S6000000, .f32⟩ : BufTy).Contents (Elt F)),
    binary main_v192 main_v199 main_v200 (mulf : (⟨S6000000, .f32⟩ : BufTy).Contents (Elt F) → (⟨S6000000, .f32⟩ : BufTy).Contents (Elt F) → (⟨S6000000, .f32⟩ : BufTy).Contents (Elt F)),
    unary main_v200 main_v201 (broadcastInDim S6000000x1 ![0] bcast_S6000000_S6000000x1_0 : (⟨S6000000, .f32⟩ : BufTy).Contents (Elt F) → (⟨S6000000x1, .f32⟩ : BufTy).Contents (Elt F)),
    nullary main_c_48 (constantI S_ 32 0#32),
    unary main_c_48 main_v202 (broadcastInDim S6000000 ![] bcast_S_S6000000 : (⟨S_, .i32⟩ : BufTy).Contents (Elt F) → (⟨S6000000, .i32⟩ : BufTy).Contents (Elt F)),
    binary main_arg4 main_v202 main_v203 (cmpi .slt : (⟨S6000000, .i32⟩ : BufTy).Contents (Elt F) → (⟨S6000000, .i32⟩ : BufTy).Contents (Elt F) → (⟨S6000000, .i1⟩ : BufTy).Contents (Elt F)),
    nullary main_c_49 (constantI S_ 32 2000000#32),
    unary main_c_49 main_v204 (broadcastInDim S6000000 ![] bcast_S_S6000000 : (⟨S_, .i32⟩ : BufTy).Contents (Elt F) → (⟨S6000000, .i32⟩ : BufTy).Contents (Elt F)),
    binary main_arg4 main_v204 main_v205 (addi : (⟨S6000000, .i32⟩ : BufTy).Contents (Elt F) → (⟨S6000000, .i32⟩ : BufTy).Contents (Elt F) → (⟨S6000000, .i32⟩ : BufTy).Contents (Elt F)),
    ternary main_v203 main_v205 main_arg4 main_v206 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v206 main_v207 (broadcastInDim S6000000x1 ![0] bcast_S6000000_S6000000x1_0 : (⟨S6000000, .i32⟩ : BufTy).Contents (Elt F) → (⟨S6000000x1, .i32⟩ : BufTy).Contents (Elt F)),
    binary main_v185 main_v207 main_v208 ((fun x i => Host.gather gather_S2000000x2_S6000000x1_S6000000x2_1_0_n_n_0_1_12 x i) : (⟨S2000000x2, .f32⟩ : BufTy).Contents (Elt F) → (⟨S6000000x1, .i32⟩ : BufTy).Contents (Elt F) → (⟨S6000000x2, .f32⟩ : BufTy).Contents (Elt F)),
    unary main_v201 main_v209 (broadcastInDim S6000000x2 ![0, 1] bcast_S6000000x1_S6000000x2_0_1 : (⟨S6000000x1, .f32⟩ : BufTy).Contents (Elt F) → (⟨S6000000x2, .f32⟩ : BufTy).Contents (Elt F)),
    binary main_v209 main_v208 main_v210 (mulf : (⟨S6000000x2, .f32⟩ : BufTy).Contents (Elt F) → (⟨S6000000x2, .f32⟩ : BufTy).Contents (Elt F) → (⟨S6000000x2, .f32⟩ : BufTy).Contents (Elt F)),
    nullary main_c_50 (constantI S_ 32 0#32),
    unary main_c_50 main_v211 (broadcastInDim S6000000 ![] bcast_S_S6000000 : (⟨S_, .i32⟩ : BufTy).Contents (Elt F) → (⟨S6000000, .i32⟩ : BufTy).Contents (Elt F)),
    binary main_arg5 main_v211 main_v212 (cmpi .slt : (⟨S6000000, .i32⟩ : BufTy).Contents (Elt F) → (⟨S6000000, .i32⟩ : BufTy).Contents (Elt F) → (⟨S6000000, .i1⟩ : BufTy).Contents (Elt F)),
    nullary main_c_51 (constantI S_ 32 500000#32),
    unary main_c_51 main_v213 (broadcastInDim S6000000 ![] bcast_S_S6000000 : (⟨S_, .i32⟩ : BufTy).Contents (Elt F) → (⟨S6000000, .i32⟩ : BufTy).Contents (Elt F)),
    binary main_arg5 main_v213 main_v214 (addi : (⟨S6000000, .i32⟩ : BufTy).Contents (Elt F) → (⟨S6000000, .i32⟩ : BufTy).Contents (Elt F) → (⟨S6000000, .i32⟩ : BufTy).Contents (Elt F)),
    ternary main_v212 main_v214 main_arg5 main_v215 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v215 main_v216 (broadcastInDim S6000000x1 ![0] bcast_S6000000_S6000000x1_0 : (⟨S6000000, .i32⟩ : BufTy).Contents (Elt F) → (⟨S6000000x1, .i32⟩ : BufTy).Contents (Elt F)),
    binary main_v176 main_v216 main_v217 ((fun x i => Host.gather gather_S500000x2_S6000000x1_S6000000x2_1_0_n_n_0_1_12 x i) : (⟨S500000x2, .f32⟩ : BufTy).Contents (Elt F) → (⟨S6000000x1, .i32⟩ : BufTy).Contents (Elt F) → (⟨S6000000x2, .f32⟩ : BufTy).Contents (Elt F)),
    binary main_v210 main_v217 main_v218 (addf : (⟨S6000000x2, .f32⟩ : BufTy).Contents (Elt F) → (⟨S6000000x2, .f32⟩ : BufTy).Contents (Elt F) → (⟨S6000000x2, .f32⟩ : BufTy).Contents (Elt F)),
    nullary main_cst_52 (constant S_ .f32 0x00000000#32),
    unary main_cst_52 main_v219 (broadcastInDim S500000x2 ![] bcast_S_S500000x2 : (⟨S_, .f32⟩ : BufTy).Contents (Elt F) → (⟨S500000x2, .f32⟩ : BufTy).Contents (Elt F)),
    unary main_arg5 main_v220 (broadcastInDim S6000000x1 ![0] bcast_S6000000_S6000000x1_0 : (⟨S6000000, .i32⟩ : BufTy).Contents (Elt F) → (⟨S6000000x1, .i32⟩ : BufTy).Contents (Elt F)),
    ternary main_v219 main_v220 main_v218 main_v221 ((fun x i u => Host.scatterAdd scatter_S500000x2_S6000000x1_S6000000x2_1_0_0_1 x i u) : (⟨S500000x2, .f32⟩ : BufTy).Contents (Elt F) → (⟨S6000000x1, .i32⟩ : BufTy).Contents (Elt F) → (⟨S6000000x2, .f32⟩ : BufTy).Contents (Elt F) → (⟨S500000x2, .f32⟩ : BufTy).Contents (Elt F)) ]

theorem cvp1_sub : Sub (F := F) cvp1 := by
  unfold Sub cvp1
  exact ⟨nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., binary_bufs_sub .., nullary_bufs_sub .., unary_bufs_sub .., binary_bufs_sub ..,
    ternary_bufs_sub .., unary_bufs_sub .., binary_bufs_sub .., binary_bufs_sub .., unary_bufs_sub ..,
    nullary_bufs_sub .., unary_bufs_sub .., binary_bufs_sub .., nullary_bufs_sub .., unary_bufs_sub ..,
    binary_bufs_sub .., ternary_bufs_sub .., unary_bufs_sub .., binary_bufs_sub .., unary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    binary_bufs_sub .., nullary_bufs_sub .., unary_bufs_sub .., unary_bufs_sub .., ternary_bufs_sub ..⟩

theorem cvp1_fresh : Fresh (F := F) cvp1 := by
  unfold Fresh cvp1
  fresh_lit

/-- The references that stretch writes. -/
abbrev cvp1_W : List (Ref sig .tc) :=
  [main_c_44, main_v186, main_v187, main_c_45, main_v188, main_v189, main_v190, main_v191, main_v192, main_c_46,
   main_v193, main_v194, main_c_47, main_v195, main_v196, main_v197, main_v198, main_v199, main_v200, main_v201,
   main_c_48, main_v202, main_v203, main_c_49, main_v204, main_v205, main_v206, main_v207, main_v208, main_v209,
   main_v210, main_c_50, main_v211, main_v212, main_c_51, main_v213, main_v214, main_v215, main_v216, main_v217,
   main_v218, main_cst_52, main_v219, main_v220, main_v221]

theorem cvp1_writes : Writes (F := F) cvp1 cvp1_W := by
  unfold Writes cvp1
  simp only [List.Forall]
  exact ⟨by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one⟩

/-- @main's statements 278 … 322: layer 1, the convolution toward the variables over the negative edges. -/
def cvn1 : List (HloOp τ sig (Elt F)) :=
  [ nullary main_c_53 (constantI S_ 32 0#32),
    unary main_c_53 main_v222 (broadcastInDim S6000000 ![] bcast_S_S6000000 : (⟨S_, .i32⟩ : BufTy).Contents (Elt F) → (⟨S6000000, .i32⟩ : BufTy).Contents (Elt F)),
    binary main_arg6 main_v222 main_v223 (cmpi .slt : (⟨S6000000, .i32⟩ : BufTy).Contents (Elt F) → (⟨S6000000, .i32⟩ : BufTy).Contents (Elt F) → (⟨S6000000, .i1⟩ : BufTy).Contents (Elt F)),
    nullary main_c_54 (constantI S_ 32 2000000#32),
    unary main_c_54 main_v224 (broadcastInDim S6000000 ![] bcast_S_S6000000 : (⟨S_, .i32⟩ : BufTy).Contents (Elt F) → (⟨S6000000, .i32⟩ : BufTy).Contents (Elt F)),
    binary main_arg6 main_v224 main_v225 (addi : (⟨S6000000, .i32⟩ : BufTy).Contents (Elt F) → (⟨S6000000, .i32⟩ : BufTy).Contents (Elt F) → (⟨S6000000, .i32⟩ : BufTy).Contents (Elt F)),
    ternary main_v223 main_v225 main_arg6 main_v226 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v226 main_v227 (broadcastInDim S6000000x1 ![0] bcast_S6000000_S6000000x1_0 : (⟨S6000000, .i32⟩ : BufTy).Contents (Elt F) → (⟨S6000000x1, .i32⟩ : BufTy).Contents (Elt F)),
    binary main_v7 main_v227 main_v228 ((fun x i => Host.gather gather_S2000000_S6000000x1_S6000000_n_0_n_n_0_1_1 x i) : (⟨S2000000, .f32⟩ : BufTy).Contents (Elt F) → (⟨S6000000x1, .i32⟩ : BufTy).Contents (Elt F) → (⟨S6000000, .f32⟩ : BufTy).Contents (Elt F)),
    nullary main_c_55 (constantI S_ 32 0#32),
    unary main_c_55 main_v229 (broadcastInDim S6000000 ![] bcast_S_S6000000 : (⟨S_, .i32⟩ : BufTy).Contents (Elt F) → (⟨S6000000, .i32⟩ : BufTy).Contents (Elt F)),
    binary main_arg7 main_v229 main_v230 (cmpi .slt : (⟨S6000000, .i32⟩ : BufTy).Contents (Elt F) → (⟨S6000000, .i32⟩ : BufTy).Contents (Elt F) → (⟨S6000000, .i1⟩ : BufTy).Contents (Elt F)),
    nullary main_c_56 (constantI S_ 32 500000#32),
    unary main_c_56 main_v231 (broadcastInDim S6000000 ![] bcast_S_S6000000 : (⟨S_, .i32⟩ : BufTy).Contents (Elt F) → (⟨S6000000, .i32⟩ : BufTy).Contents (Elt F)),
    binary main_arg7 main_v231 main_v232 (addi : (⟨S6000000, .i32⟩ : BufTy).Contents (Elt F) → (⟨S6000000, .i32⟩ : BufTy).Contents (Elt F) → (⟨S6000000, .i32⟩ : BufTy).Contents (Elt F)),
    ternary main_v230 main_v232 main_arg7 main_v233 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v233 main_v234 (broadcastInDim S6000000x1 ![0] bcast_S6000000_S6000000x1_0 : (⟨S6000000, .i32⟩ : BufTy).Contents (Elt F) → (⟨S6000000x1, .i32⟩ : BufTy).Contents (Elt F)),
    binary main_v15 main_v234 main_v235 ((fun x i => Host.gather gather_S500000_S6000000x1_S6000000_n_0_n_n_0_1_1 x i) : (⟨S500000, .f32⟩ : BufTy).Contents (Elt F) → (⟨S6000000x1, .i32⟩ : BufTy).Contents (Elt F) → (⟨S6000000, .f32⟩ : BufTy).Contents (Elt F)),
    binary main_v228 main_v235 main_v236 (mulf : (⟨S6000000, .f32⟩ : BufTy).Contents (Elt F) → (⟨S6000000, .f32⟩ : BufTy).Contents (Elt F) → (⟨S6000000, .f32⟩ : BufTy).Contents (Elt F)),
    unary main_v236 main_v237 (broadcastInDim S6000000x1 ![0] bcast_S6000000_S6000000x1_0 : (⟨S6000000, .f32⟩ : BufTy).Contents (Elt F) → (⟨S6000000x1, .f32⟩ : BufTy).Contents (Elt F)),
    nullary main_c_57 (constantI S_ 32 0#32),
    unary main_c_57 main_v238 (broadcastInDim S6000000 ![] bcast_S_S6000000 : (⟨S_, .i32⟩ : BufTy).Contents (Elt F) → (⟨S6000000, .i32⟩ : BufTy).Contents (Elt F)),
    binary main_arg6 main_v238 main_v239 (cmpi .slt : (⟨S6000000, .i32⟩ : BufTy).Contents (Elt F) → (⟨S6000000, .i32⟩ : BufTy).Contents (Elt F) → (⟨S6000000, .i1⟩ : BufTy).Contents (Elt F)),
    nullary main_c_58 (constantI S_ 32 2000000#32),
    unary main_c_58 main_v240 (broadcastInDim S6000000 ![] bcast_S_S6000000 : (⟨S_, .i32⟩ : BufTy).Contents (Elt F) → (⟨S6000000, .i32⟩ : BufTy).Contents (Elt F)),
    binary main_arg6 main_v240 main_v241 (addi : (⟨S6000000, .i32⟩ : BufTy).Contents (Elt F) → (⟨S6000000, .i32⟩ : BufTy).Contents (Elt F) → (⟨S6000000, .i32⟩ : BufTy).Contents (Elt F)),
    ternary main_v239 main_v241 main_arg6 main_v242 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v242 main_v243 (broadcastInDim S6000000x1 ![0] bcast_S6000000_S6000000x1_0 : (⟨S6000000, .i32⟩ : BufTy).Contents (Elt F) → (⟨S6000000x1, .i32⟩ : BufTy).Contents (Elt F)),
    binary main_v185 main_v243 main_v244 ((fun x i => Host.gather gather_S2000000x2_S6000000x1_S6000000x2_1_0_n_n_0_1_12 x i) : (⟨S2000000x2, .f32⟩ : BufTy).Contents (Elt F) → (⟨S6000000x1, .i32⟩ : BufTy).Contents (Elt F) → (⟨S6000000x2, .f32⟩ : BufTy).Contents (Elt F)),
    unary main_v237 main_v245 (broadcastInDim S6000000x2 ![0, 1] bcast_S6000000x1_S6000000x2_0_1 : (⟨S6000000x1, .f32⟩ : BufTy).Contents (Elt F) → (⟨S6000000x2, .f32⟩ : BufTy).Contents (Elt F)),
    binary main_v245 main_v244 main_v246 (mulf : (⟨S6000000x2, .f32⟩ : BufTy).Contents (Elt F) → (⟨S6000000x2, .f32⟩ : BufTy).Contents (Elt F) → (⟨S6000000x2, .f32⟩ : BufTy).Contents (Elt F)),
    nullary main_c_59 (constantI S_ 32 0#32),
    unary main_c_59 main_v247 (broadcastInDim S6000000 ![] bcast_S_S6000000 : (⟨S_, .i32⟩ : BufTy).Contents (Elt F) → (⟨S6000000, .i32⟩ : BufTy).Contents (Elt F)),
    binary main_arg7 main_v247 main_v248 (cmpi .slt : (⟨S6000000, .i32⟩ : BufTy).Contents (Elt F) → (⟨S6000000, .i32⟩ : BufTy).Contents (Elt F) → (⟨S6000000, .i1⟩ : BufTy).Contents (Elt F)),
    nullary main_c_60 (constantI S_ 32 500000#32),
    unary main_c_60 main_v249 (broadcastInDim S6000000 ![] bcast_S_S6000000 : (⟨S_, .i32⟩ : BufTy).Contents (Elt F) → (⟨S6000000, .i32⟩ : BufTy).Contents (Elt F)),
    binary main_arg7 main_v249 main_v250 (addi : (⟨S6000000, .i32⟩ : BufTy).Contents (Elt F) → (⟨S6000000, .i32⟩ : BufTy).Contents (Elt F) → (⟨S6000000, .i32⟩ : BufTy).Contents (Elt F)),
    ternary main_v248 main_v250 main_arg7 main_v251 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v251 main_v252 (broadcastInDim S6000000x1 ![0] bcast_S6000000_S6000000x1_0 : (⟨S6000000, .i32⟩ : BufTy).Contents (Elt F) → (⟨S6000000x1, .i32⟩ : BufTy).Contents (Elt F)),
    binary main_v176 main_v252 main_v253 ((fun x i => Host.gather gather_S500000x2_S6000000x1_S6000000x2_1_0_n_n_0_1_12 x i) : (⟨S500000x2, .f32⟩ : BufTy).Contents (Elt F) → (⟨S6000000x1, .i32⟩ : BufTy).Contents (Elt F) → (⟨S6000000x2, .f32⟩ : BufTy).Contents (Elt F)),
    binary main_v246 main_v253 main_v254 (addf : (⟨S6000000x2, .f32⟩ : BufTy).Contents (Elt F) → (⟨S6000000x2, .f32⟩ : BufTy).Contents (Elt F) → (⟨S6000000x2, .f32⟩ : BufTy).Contents (Elt F)),
    nullary main_cst_61 (constant S_ .f32 0x00000000#32),
    unary main_cst_61 main_v255 (broadcastInDim S500000x2 ![] bcast_S_S500000x2 : (⟨S_, .f32⟩ : BufTy).Contents (Elt F) → (⟨S500000x2, .f32⟩ : BufTy).Contents (Elt F)),
    unary main_arg7 main_v256 (broadcastInDim S6000000x1 ![0] bcast_S6000000_S6000000x1_0 : (⟨S6000000, .i32⟩ : BufTy).Contents (Elt F) → (⟨S6000000x1, .i32⟩ : BufTy).Contents (Elt F)),
    ternary main_v255 main_v256 main_v254 main_v257 ((fun x i u => Host.scatterAdd scatter_S500000x2_S6000000x1_S6000000x2_1_0_0_1 x i u) : (⟨S500000x2, .f32⟩ : BufTy).Contents (Elt F) → (⟨S6000000x1, .i32⟩ : BufTy).Contents (Elt F) → (⟨S6000000x2, .f32⟩ : BufTy).Contents (Elt F) → (⟨S500000x2, .f32⟩ : BufTy).Contents (Elt F)) ]

theorem cvn1_sub : Sub (F := F) cvn1 := by
  unfold Sub cvn1
  exact ⟨nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., binary_bufs_sub .., nullary_bufs_sub .., unary_bufs_sub .., binary_bufs_sub ..,
    ternary_bufs_sub .., unary_bufs_sub .., binary_bufs_sub .., binary_bufs_sub .., unary_bufs_sub ..,
    nullary_bufs_sub .., unary_bufs_sub .., binary_bufs_sub .., nullary_bufs_sub .., unary_bufs_sub ..,
    binary_bufs_sub .., ternary_bufs_sub .., unary_bufs_sub .., binary_bufs_sub .., unary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    binary_bufs_sub .., nullary_bufs_sub .., unary_bufs_sub .., unary_bufs_sub .., ternary_bufs_sub ..⟩

theorem cvn1_fresh : Fresh (F := F) cvn1 := by
  unfold Fresh cvn1
  fresh_lit

/-- The references that stretch writes. -/
abbrev cvn1_W : List (Ref sig .tc) :=
  [main_c_53, main_v222, main_v223, main_c_54, main_v224, main_v225, main_v226, main_v227, main_v228, main_c_55,
   main_v229, main_v230, main_c_56, main_v231, main_v232, main_v233, main_v234, main_v235, main_v236, main_v237,
   main_c_57, main_v238, main_v239, main_c_58, main_v240, main_v241, main_v242, main_v243, main_v244, main_v245,
   main_v246, main_c_59, main_v247, main_v248, main_c_60, main_v249, main_v250, main_v251, main_v252, main_v253,
   main_v254, main_cst_61, main_v255, main_v256, main_v257]

theorem cvn1_writes : Writes (F := F) cvn1 cvn1_W := by
  unfold Writes cvn1
  simp only [List.Forall]
  exact ⟨by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one⟩

/-- @main's statements 323 … 367: layer 1, the convolution toward the clauses over the positive edges. -/
def ccp1 : List (HloOp τ sig (Elt F)) :=
  [ nullary main_c_62 (constantI S_ 32 0#32),
    unary main_c_62 main_v258 (broadcastInDim S6000000 ![] bcast_S_S6000000 : (⟨S_, .i32⟩ : BufTy).Contents (Elt F) → (⟨S6000000, .i32⟩ : BufTy).Contents (Elt F)),
    binary main_arg5 main_v258 main_v259 (cmpi .slt : (⟨S6000000, .i32⟩ : BufTy).Contents (Elt F) → (⟨S6000000, .i32⟩ : BufTy).Contents (Elt F) → (⟨S6000000, .i1⟩ : BufTy).Contents (Elt F)),
    nullary main_c_63 (constantI S_ 32 500000#32),
    unary main_c_63 main_v260 (broadcastInDim S6000000 ![] bcast_S_S6000000 : (⟨S_, .i32⟩ : BufTy).Contents (Elt F) → (⟨S6000000, .i32⟩ : BufTy).Contents (Elt F)),
    binary main_arg5 main_v260 main_v261 (addi : (⟨S6000000, .i32⟩ : BufTy).Contents (Elt F) → (⟨S6000000, .i32⟩ : BufTy).Contents (Elt F) → (⟨S6000000, .i32⟩ : BufTy).Contents (Elt F)),
    ternary main_v259 main_v261 main_arg5 main_v262 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v262 main_v263 (broadcastInDim S6000000x1 ![0] bcast_S6000000_S6000000x1_0 : (⟨S6000000, .i32⟩ : BufTy).Contents (Elt F) → (⟨S6000000x1, .i32⟩ : BufTy).Contents (Elt F)),
    binary main_v15 main_v263 main_v264 ((fun x i => Host.gather gather_S500000_S6000000x1_S6000000_n_0_n_n_0_1_1 x i) : (⟨S500000, .f32⟩ : BufTy).Contents (Elt F) → (⟨S6000000x1, .i32⟩ : BufTy).Contents (Elt F) → (⟨S6000000, .f32⟩ : BufTy).Contents (Elt F)),
    nullary main_c_64 (constantI S_ 32 0#32),
    unary main_c_64 main_v265 (broadcastInDim S6000000 ![] bcast_S_S6000000 : (⟨S_, .i32⟩ : BufTy).Contents (Elt F) → (⟨S6000000, .i32⟩ : BufTy).Contents (Elt F)),
    binary main_arg4 main_v265 main_v266 (cmpi .slt : (⟨S6000000, .i32⟩ : BufTy).Contents (Elt F) → (⟨S6000000, .i32⟩ : BufTy).Contents (Elt F) → (⟨S6000000, .i1⟩ : BufTy).Contents (Elt F)),
    nullary main_c_65 (constantI S_ 32 2000000#32),
    unary main_c_65 main_v267 (broadcastInDim S6000000 ![] bcast_S_S6000000 : (⟨S_, .i32⟩ : BufTy).Contents (Elt F) → (⟨S6000000, .i32⟩ : BufTy).Contents (Elt F)),
    binary main_arg4 main_v267 main_v268 (addi : (⟨S6000000, .i32⟩ : BufTy).Contents (Elt F) → (⟨S6000000, .i32⟩ : BufTy).Contents (Elt F) → (⟨S6000000, .i32⟩ : BufTy).Contents (Elt F)),
    ternary main_v266 main_v268 main_arg4 main_v269 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v269 main_v270 (broadcastInDim S6000000x1 ![0] bcast_S6000000_S6000000x1_0 : (⟨S6000000, .i32⟩ : BufTy).Contents (Elt F) → (⟨S6000000x1, .i32⟩ : BufTy).Contents (Elt F)),
    binary main_v7 main_v270 main_v271 ((fun x i => Host.gather gather_S2000000_S6000000x1_S6000000_n_0_n_n_0_1_1 x i) : (⟨S2000000, .f32⟩ : BufTy).Contents (Elt F) → (⟨S6000000x1, .i32⟩ : BufTy).Contents (Elt F) → (⟨S6000000, .f32⟩ : BufTy).Contents (Elt F)),
    binary main_v264 main_v271 main_v272 (mulf : (⟨S6000000, .f32⟩ : BufTy).Contents (Elt F) → (⟨S6000000, .f32⟩ : BufTy).Contents (Elt F) → (⟨S6000000, .f32⟩ : BufTy).Contents (Elt F)),
    unary main_v272 main_v273 (broadcastInDim S6000000x1 ![0] bcast_S6000000_S6000000x1_0 : (⟨S6000000, .f32⟩ : BufTy).Contents (Elt F) → (⟨S6000000x1, .f32⟩ : BufTy).Contents (Elt F)),
    nullary main_c_66 (constantI S_ 32 0#32),
    unary main_c_66 main_v274 (broadcastInDim S6000000 ![] bcast_S_S6000000 : (⟨S_, .i32⟩ : BufTy).Contents (Elt F) → (⟨S6000000, .i32⟩ : BufTy).Contents (Elt F)),
    binary main_arg5 main_v274 main_v275 (cmpi .slt : (⟨S6000000, .i32⟩ : BufTy).Contents (Elt F) → (⟨S6000000, .i32⟩ : BufTy).Contents (Elt F) → (⟨S6000000, .i1⟩ : BufTy).Contents (Elt F)),
    nullary main_c_67 (constantI S_ 32 500000#32),
    unary main_c_67 main_v276 (broadcastInDim S6000000 ![] bcast_S_S6000000 : (⟨S_, .i32⟩ : BufTy).Contents (Elt F) → (⟨S6000000, .i32⟩ : BufTy).Contents (Elt F)),
    binary main_arg5 main_v276 main_v277 (addi : (⟨S6000000, .i32⟩ : BufTy).Contents (Elt F) → (⟨S6000000, .i32⟩ : BufTy).Contents (Elt F) → (⟨S6000000, .i32⟩ : BufTy).Contents (Elt F)),
    ternary main_v275 main_v277 main_arg5 main_v278 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v278 main_v279 (broadcastInDim S6000000x1 ![0] bcast_S6000000_S6000000x1_0 : (⟨S6000000, .i32⟩ : BufTy).Contents (Elt F) → (⟨S6000000x1, .i32⟩ : BufTy).Contents (Elt F)),
    binary main_v176 main_v279 main_v280 ((fun x i => Host.gather gather_S500000x2_S6000000x1_S6000000x2_1_0_n_n_0_1_12 x i) : (⟨S500000x2, .f32⟩ : BufTy).Contents (Elt F) → (⟨S6000000x1, .i32⟩ : BufTy).Contents (Elt F) → (⟨S6000000x2, .f32⟩ : BufTy).Contents (Elt F)),
    unary main_v273 main_v281 (broadcastInDim S6000000x2 ![0, 1] bcast_S6000000x1_S6000000x2_0_1 : (⟨S6000000x1, .f32⟩ : BufTy).Contents (Elt F) → (⟨S6000000x2, .f32⟩ : BufTy).Contents (Elt F)),
    binary main_v281 main_v280 main_v282 (mulf : (⟨S6000000x2, .f32⟩ : BufTy).Contents (Elt F) → (⟨S6000000x2, .f32⟩ : BufTy).Contents (Elt F) → (⟨S6000000x2, .f32⟩ : BufTy).Contents (Elt F)),
    nullary main_c_68 (constantI S_ 32 0#32),
    unary main_c_68 main_v283 (broadcastInDim S6000000 ![] bcast_S_S6000000 : (⟨S_, .i32⟩ : BufTy).Contents (Elt F) → (⟨S6000000, .i32⟩ : BufTy).Contents (Elt F)),
    binary main_arg4 main_v283 main_v284 (cmpi .slt : (⟨S6000000, .i32⟩ : BufTy).Contents (Elt F) → (⟨S6000000, .i32⟩ : BufTy).Contents (Elt F) → (⟨S6000000, .i1⟩ : BufTy).Contents (Elt F)),
    nullary main_c_69 (constantI S_ 32 2000000#32),
    unary main_c_69 main_v285 (broadcastInDim S6000000 ![] bcast_S_S6000000 : (⟨S_, .i32⟩ : BufTy).Contents (Elt F) → (⟨S6000000, .i32⟩ : BufTy).Contents (Elt F)),
    binary main_arg4 main_v285 main_v286 (addi : (⟨S6000000, .i32⟩ : BufTy).Contents (Elt F) → (⟨S6000000, .i32⟩ : BufTy).Contents (Elt F) → (⟨S6000000, .i32⟩ : BufTy).Contents (Elt F)),
    ternary main_v284 main_v286 main_arg4 main_v287 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v287 main_v288 (broadcastInDim S6000000x1 ![0] bcast_S6000000_S6000000x1_0 : (⟨S6000000, .i32⟩ : BufTy).Contents (Elt F) → (⟨S6000000x1, .i32⟩ : BufTy).Contents (Elt F)),
    binary main_v185 main_v288 main_v289 ((fun x i => Host.gather gather_S2000000x2_S6000000x1_S6000000x2_1_0_n_n_0_1_12 x i) : (⟨S2000000x2, .f32⟩ : BufTy).Contents (Elt F) → (⟨S6000000x1, .i32⟩ : BufTy).Contents (Elt F) → (⟨S6000000x2, .f32⟩ : BufTy).Contents (Elt F)),
    binary main_v282 main_v289 main_v290 (addf : (⟨S6000000x2, .f32⟩ : BufTy).Contents (Elt F) → (⟨S6000000x2, .f32⟩ : BufTy).Contents (Elt F) → (⟨S6000000x2, .f32⟩ : BufTy).Contents (Elt F)),
    nullary main_cst_70 (constant S_ .f32 0x00000000#32),
    unary main_cst_70 main_v291 (broadcastInDim S2000000x2 ![] bcast_S_S2000000x2 : (⟨S_, .f32⟩ : BufTy).Contents (Elt F) → (⟨S2000000x2, .f32⟩ : BufTy).Contents (Elt F)),
    unary main_arg4 main_v292 (broadcastInDim S6000000x1 ![0] bcast_S6000000_S6000000x1_0 : (⟨S6000000, .i32⟩ : BufTy).Contents (Elt F) → (⟨S6000000x1, .i32⟩ : BufTy).Contents (Elt F)),
    ternary main_v291 main_v292 main_v290 main_v293 ((fun x i u => Host.scatterAdd scatter_S2000000x2_S6000000x1_S6000000x2_1_0_0_1 x i u) : (⟨S2000000x2, .f32⟩ : BufTy).Contents (Elt F) → (⟨S6000000x1, .i32⟩ : BufTy).Contents (Elt F) → (⟨S6000000x2, .f32⟩ : BufTy).Contents (Elt F) → (⟨S2000000x2, .f32⟩ : BufTy).Contents (Elt F)) ]

theorem ccp1_sub : Sub (F := F) ccp1 := by
  unfold Sub ccp1
  exact ⟨nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., binary_bufs_sub .., nullary_bufs_sub .., unary_bufs_sub .., binary_bufs_sub ..,
    ternary_bufs_sub .., unary_bufs_sub .., binary_bufs_sub .., binary_bufs_sub .., unary_bufs_sub ..,
    nullary_bufs_sub .., unary_bufs_sub .., binary_bufs_sub .., nullary_bufs_sub .., unary_bufs_sub ..,
    binary_bufs_sub .., ternary_bufs_sub .., unary_bufs_sub .., binary_bufs_sub .., unary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    binary_bufs_sub .., nullary_bufs_sub .., unary_bufs_sub .., unary_bufs_sub .., ternary_bufs_sub ..⟩

theorem ccp1_fresh : Fresh (F := F) ccp1 := by
  unfold Fresh ccp1
  fresh_lit

/-- The references that stretch writes. -/
abbrev ccp1_W : List (Ref sig .tc) :=
  [main_c_62, main_v258, main_v259, main_c_63, main_v260, main_v261, main_v262, main_v263, main_v264, main_c_64,
   main_v265, main_v266, main_c_65, main_v267, main_v268, main_v269, main_v270, main_v271, main_v272, main_v273,
   main_c_66, main_v274, main_v275, main_c_67, main_v276, main_v277, main_v278, main_v279, main_v280, main_v281,
   main_v282, main_c_68, main_v283, main_v284, main_c_69, main_v285, main_v286, main_v287, main_v288, main_v289,
   main_v290, main_cst_70, main_v291, main_v292, main_v293]

theorem ccp1_writes : Writes (F := F) ccp1 ccp1_W := by
  unfold Writes ccp1
  simp only [List.Forall]
  exact ⟨by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one⟩

/-- @main's statements 368 … 412: layer 1, the convolution toward the clauses over the negative edges. -/
def ccn1 : List (HloOp τ sig (Elt F)) :=
  [ nullary main_c_71 (constantI S_ 32 0#32),
    unary main_c_71 main_v294 (broadcastInDim S6000000 ![] bcast_S_S6000000 : (⟨S_, .i32⟩ : BufTy).Contents (Elt F) → (⟨S6000000, .i32⟩ : BufTy).Contents (Elt F)),
    binary main_arg7 main_v294 main_v295 (cmpi .slt : (⟨S6000000, .i32⟩ : BufTy).Contents (Elt F) → (⟨S6000000, .i32⟩ : BufTy).Contents (Elt F) → (⟨S6000000, .i1⟩ : BufTy).Contents (Elt F)),
    nullary main_c_72 (constantI S_ 32 500000#32),
    unary main_c_72 main_v296 (broadcastInDim S6000000 ![] bcast_S_S6000000 : (⟨S_, .i32⟩ : BufTy).Contents (Elt F) → (⟨S6000000, .i32⟩ : BufTy).Contents (Elt F)),
    binary main_arg7 main_v296 main_v297 (addi : (⟨S6000000, .i32⟩ : BufTy).Contents (Elt F) → (⟨S6000000, .i32⟩ : BufTy).Contents (Elt F) → (⟨S6000000, .i32⟩ : BufTy).Contents (Elt F)),
    ternary main_v295 main_v297 main_arg7 main_v298 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v298 main_v299 (broadcastInDim S6000000x1 ![0] bcast_S6000000_S6000000x1_0 : (⟨S6000000, .i32⟩ : BufTy).Contents (Elt F) → (⟨S6000000x1, .i32⟩ : BufTy).Contents (Elt F)),
    binary main_v15 main_v299 main_v300 ((fun x i => Host.gather gather_S500000_S6000000x1_S6000000_n_0_n_n_0_1_1 x i) : (⟨S500000, .f32⟩ : BufTy).Contents (Elt F) → (⟨S6000000x1, .i32⟩ : BufTy).Contents (Elt F) → (⟨S6000000, .f32⟩ : BufTy).Contents (Elt F)),
    nullary main_c_73 (constantI S_ 32 0#32),
    unary main_c_73 main_v301 (broadcastInDim S6000000 ![] bcast_S_S6000000 : (⟨S_, .i32⟩ : BufTy).Contents (Elt F) → (⟨S6000000, .i32⟩ : BufTy).Contents (Elt F)),
    binary main_arg6 main_v301 main_v302 (cmpi .slt : (⟨S6000000, .i32⟩ : BufTy).Contents (Elt F) → (⟨S6000000, .i32⟩ : BufTy).Contents (Elt F) → (⟨S6000000, .i1⟩ : BufTy).Contents (Elt F)),
    nullary main_c_74 (constantI S_ 32 2000000#32),
    unary main_c_74 main_v303 (broadcastInDim S6000000 ![] bcast_S_S6000000 : (⟨S_, .i32⟩ : BufTy).Contents (Elt F) → (⟨S6000000, .i32⟩ : BufTy).Contents (Elt F)),
    binary main_arg6 main_v303 main_v304 (addi : (⟨S6000000, .i32⟩ : BufTy).Contents (Elt F) → (⟨S6000000, .i32⟩ : BufTy).Contents (Elt F) → (⟨S6000000, .i32⟩ : BufTy).Contents (Elt F)),
    ternary main_v302 main_v304 main_arg6 main_v305 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v305 main_v306 (broadcastInDim S6000000x1 ![0] bcast_S6000000_S6000000x1_0 : (⟨S6000000, .i32⟩ : BufTy).Contents (Elt F) → (⟨S6000000x1, .i32⟩ : BufTy).Contents (Elt F)),
    binary main_v7 main_v306 main_v307 ((fun x i => Host.gather gather_S2000000_S6000000x1_S6000000_n_0_n_n_0_1_1 x i) : (⟨S2000000, .f32⟩ : BufTy).Contents (Elt F) → (⟨S6000000x1, .i32⟩ : BufTy).Contents (Elt F) → (⟨S6000000, .f32⟩ : BufTy).Contents (Elt F)),
    binary main_v300 main_v307 main_v308 (mulf : (⟨S6000000, .f32⟩ : BufTy).Contents (Elt F) → (⟨S6000000, .f32⟩ : BufTy).Contents (Elt F) → (⟨S6000000, .f32⟩ : BufTy).Contents (Elt F)),
    unary main_v308 main_v309 (broadcastInDim S6000000x1 ![0] bcast_S6000000_S6000000x1_0 : (⟨S6000000, .f32⟩ : BufTy).Contents (Elt F) → (⟨S6000000x1, .f32⟩ : BufTy).Contents (Elt F)),
    nullary main_c_75 (constantI S_ 32 0#32),
    unary main_c_75 main_v310 (broadcastInDim S6000000 ![] bcast_S_S6000000 : (⟨S_, .i32⟩ : BufTy).Contents (Elt F) → (⟨S6000000, .i32⟩ : BufTy).Contents (Elt F)),
    binary main_arg7 main_v310 main_v311 (cmpi .slt : (⟨S6000000, .i32⟩ : BufTy).Contents (Elt F) → (⟨S6000000, .i32⟩ : BufTy).Contents (Elt F) → (⟨S6000000, .i1⟩ : BufTy).Contents (Elt F)),
    nullary main_c_76 (constantI S_ 32 500000#32),
    unary main_c_76 main_v312 (broadcastInDim S6000000 ![] bcast_S_S6000000 : (⟨S_, .i32⟩ : BufTy).Contents (Elt F) → (⟨S6000000, .i32⟩ : BufTy).Contents (Elt F)),
    binary main_arg7 main_v312 main_v313 (addi : (⟨S6000000, .i32⟩ : BufTy).Contents (Elt F) → (⟨S6000000, .i32⟩ : BufTy).Contents (Elt F) → (⟨S6000000, .i32⟩ : BufTy).Contents (Elt F)),
    ternary main_v311 main_v313 main_arg7 main_v314 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v314 main_v315 (broadcastInDim S6000000x1 ![0] bcast_S6000000_S6000000x1_0 : (⟨S6000000, .i32⟩ : BufTy).Contents (Elt F) → (⟨S6000000x1, .i32⟩ : BufTy).Contents (Elt F)),
    binary main_v176 main_v315 main_v316 ((fun x i => Host.gather gather_S500000x2_S6000000x1_S6000000x2_1_0_n_n_0_1_12 x i) : (⟨S500000x2, .f32⟩ : BufTy).Contents (Elt F) → (⟨S6000000x1, .i32⟩ : BufTy).Contents (Elt F) → (⟨S6000000x2, .f32⟩ : BufTy).Contents (Elt F)),
    unary main_v309 main_v317 (broadcastInDim S6000000x2 ![0, 1] bcast_S6000000x1_S6000000x2_0_1 : (⟨S6000000x1, .f32⟩ : BufTy).Contents (Elt F) → (⟨S6000000x2, .f32⟩ : BufTy).Contents (Elt F)),
    binary main_v317 main_v316 main_v318 (mulf : (⟨S6000000x2, .f32⟩ : BufTy).Contents (Elt F) → (⟨S6000000x2, .f32⟩ : BufTy).Contents (Elt F) → (⟨S6000000x2, .f32⟩ : BufTy).Contents (Elt F)),
    nullary main_c_77 (constantI S_ 32 0#32),
    unary main_c_77 main_v319 (broadcastInDim S6000000 ![] bcast_S_S6000000 : (⟨S_, .i32⟩ : BufTy).Contents (Elt F) → (⟨S6000000, .i32⟩ : BufTy).Contents (Elt F)),
    binary main_arg6 main_v319 main_v320 (cmpi .slt : (⟨S6000000, .i32⟩ : BufTy).Contents (Elt F) → (⟨S6000000, .i32⟩ : BufTy).Contents (Elt F) → (⟨S6000000, .i1⟩ : BufTy).Contents (Elt F)),
    nullary main_c_78 (constantI S_ 32 2000000#32),
    unary main_c_78 main_v321 (broadcastInDim S6000000 ![] bcast_S_S6000000 : (⟨S_, .i32⟩ : BufTy).Contents (Elt F) → (⟨S6000000, .i32⟩ : BufTy).Contents (Elt F)),
    binary main_arg6 main_v321 main_v322 (addi : (⟨S6000000, .i32⟩ : BufTy).Contents (Elt F) → (⟨S6000000, .i32⟩ : BufTy).Contents (Elt F) → (⟨S6000000, .i32⟩ : BufTy).Contents (Elt F)),
    ternary main_v320 main_v322 main_arg6 main_v323 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v323 main_v324 (broadcastInDim S6000000x1 ![0] bcast_S6000000_S6000000x1_0 : (⟨S6000000, .i32⟩ : BufTy).Contents (Elt F) → (⟨S6000000x1, .i32⟩ : BufTy).Contents (Elt F)),
    binary main_v185 main_v324 main_v325 ((fun x i => Host.gather gather_S2000000x2_S6000000x1_S6000000x2_1_0_n_n_0_1_12 x i) : (⟨S2000000x2, .f32⟩ : BufTy).Contents (Elt F) → (⟨S6000000x1, .i32⟩ : BufTy).Contents (Elt F) → (⟨S6000000x2, .f32⟩ : BufTy).Contents (Elt F)),
    binary main_v318 main_v325 main_v326 (addf : (⟨S6000000x2, .f32⟩ : BufTy).Contents (Elt F) → (⟨S6000000x2, .f32⟩ : BufTy).Contents (Elt F) → (⟨S6000000x2, .f32⟩ : BufTy).Contents (Elt F)),
    nullary main_cst_79 (constant S_ .f32 0x00000000#32),
    unary main_cst_79 main_v327 (broadcastInDim S2000000x2 ![] bcast_S_S2000000x2 : (⟨S_, .f32⟩ : BufTy).Contents (Elt F) → (⟨S2000000x2, .f32⟩ : BufTy).Contents (Elt F)),
    unary main_arg6 main_v328 (broadcastInDim S6000000x1 ![0] bcast_S6000000_S6000000x1_0 : (⟨S6000000, .i32⟩ : BufTy).Contents (Elt F) → (⟨S6000000x1, .i32⟩ : BufTy).Contents (Elt F)),
    ternary main_v327 main_v328 main_v326 main_v329 ((fun x i u => Host.scatterAdd scatter_S2000000x2_S6000000x1_S6000000x2_1_0_0_1 x i u) : (⟨S2000000x2, .f32⟩ : BufTy).Contents (Elt F) → (⟨S6000000x1, .i32⟩ : BufTy).Contents (Elt F) → (⟨S6000000x2, .f32⟩ : BufTy).Contents (Elt F) → (⟨S2000000x2, .f32⟩ : BufTy).Contents (Elt F)) ]

theorem ccn1_sub : Sub (F := F) ccn1 := by
  unfold Sub ccn1
  exact ⟨nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., binary_bufs_sub .., nullary_bufs_sub .., unary_bufs_sub .., binary_bufs_sub ..,
    ternary_bufs_sub .., unary_bufs_sub .., binary_bufs_sub .., binary_bufs_sub .., unary_bufs_sub ..,
    nullary_bufs_sub .., unary_bufs_sub .., binary_bufs_sub .., nullary_bufs_sub .., unary_bufs_sub ..,
    binary_bufs_sub .., ternary_bufs_sub .., unary_bufs_sub .., binary_bufs_sub .., unary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    binary_bufs_sub .., nullary_bufs_sub .., unary_bufs_sub .., unary_bufs_sub .., ternary_bufs_sub ..⟩

theorem ccn1_fresh : Fresh (F := F) ccn1 := by
  unfold Fresh ccn1
  fresh_lit

/-- The references that stretch writes. -/
abbrev ccn1_W : List (Ref sig .tc) :=
  [main_c_71, main_v294, main_v295, main_c_72, main_v296, main_v297, main_v298, main_v299, main_v300, main_c_73,
   main_v301, main_v302, main_c_74, main_v303, main_v304, main_v305, main_v306, main_v307, main_v308, main_v309,
   main_c_75, main_v310, main_v311, main_c_76, main_v312, main_v313, main_v314, main_v315, main_v316, main_v317,
   main_v318, main_c_77, main_v319, main_v320, main_c_78, main_v321, main_v322, main_v323, main_v324, main_v325,
   main_v326, main_cst_79, main_v327, main_v328, main_v329]

theorem ccn1_writes : Writes (F := F) ccn1 ccn1_W := by
  unfold Writes ccn1
  simp only [List.Forall]
  exact ⟨by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one⟩

/-- @main's statements 413 … 421: layer 1, the affine map of the variables. -/
def av1 : List (HloOp τ sig (Elt F)) :=
  [ nary ![main_v221, main_v257, main_v176] main_v330 (fun u => concatenate S500000x6 1 [⟨S500000x2, u 0⟩, ⟨S500000x2, u 1⟩, ⟨S500000x2, u 2⟩] concatenates_S500000x2_S500000x2_S500000x2_S500000x6_d1),
    unary main_arg14 main_v331 ((extractStridedSlice S1x6x2 ![1, 0, 0] · slices_S4x6x2_S1x6x2_1_0_0) : (⟨S4x6x2, .f32⟩ : BufTy).Contents (Elt F) → (⟨S1x6x2, .f32⟩ : BufTy).Contents (Elt F)),
    reshape main_v331 main_v332 rfl shapeCasts_S1x6x2_S6x2,
    binary main_v330 main_v332 main_v333 ((fun l r => Host.dotGeneral dot_S500000x6_S6x2_S500000x2_1_0_0_1_n_n none l r) : (⟨S500000x6, .f32⟩ : BufTy).Contents (Elt F) → (⟨S6x2, .f32⟩ : BufTy).Contents (Elt F) → (⟨S500000x2, .f32⟩ : BufTy).Contents (Elt F)),
    unary main_arg15 main_v334 ((extractStridedSlice S1x2 ![1, 0] · slices_S4x2_S1x2_1_0) : (⟨S4x2, .f32⟩ : BufTy).Contents (Elt F) → (⟨S1x2, .f32⟩ : BufTy).Contents (Elt F)),
    reshape main_v334 main_v335 rfl shapeCasts_S1x2_S2,
    unary main_v335 main_v336 (broadcastInDim S1x2 ![1] bcast_S2_S1x2_1 : (⟨S2, .f32⟩ : BufTy).Contents (Elt F) → (⟨S1x2, .f32⟩ : BufTy).Contents (Elt F)),
    unary main_v336 main_v337 (broadcastInDim S500000x2 ![0, 1] bcast_S1x2_S500000x2_0_1 : (⟨S1x2, .f32⟩ : BufTy).Contents (Elt F) → (⟨S500000x2, .f32⟩ : BufTy).Contents (Elt F)),
    binary main_v333 main_v337 main_v338 (addf : (⟨S500000x2, .f32⟩ : BufTy).Contents (Elt F) → (⟨S500000x2, .f32⟩ : BufTy).Contents (Elt F) → (⟨S500000x2, .f32⟩ : BufTy).Contents (Elt F)) ]

theorem av1_sub : Sub (F := F) av1 := by
  unfold Sub av1
  exact ⟨nary_bufs_sub .., unary_bufs_sub .., reshape_bufs_sub .., binary_bufs_sub .., unary_bufs_sub ..,
    reshape_bufs_sub .., unary_bufs_sub .., unary_bufs_sub .., binary_bufs_sub ..⟩

theorem av1_fresh : Fresh (F := F) av1 := by
  unfold Fresh av1
  fresh_lit

/-- The references that stretch writes. -/
abbrev av1_W : List (Ref sig .tc) :=
  [main_v330, main_v331, main_v332, main_v333, main_v334, main_v335, main_v336, main_v337, main_v338]

theorem av1_writes : Writes (F := F) av1 av1_W := by
  unfold Writes av1
  simp only [List.Forall]
  exact ⟨by writes_one, by writes_one, by writes_one, by writes_one, by writes_one, by writes_one, by writes_one,
    by writes_one, by writes_one⟩

/-- @main's statements 422 … 430: layer 1, the affine map of the clauses. -/
def ac1 : List (HloOp τ sig (Elt F)) :=
  [ nary ![main_v293, main_v329, main_v185] main_v339 (fun u => concatenate S2000000x6 1 [⟨S2000000x2, u 0⟩, ⟨S2000000x2, u 1⟩, ⟨S2000000x2, u 2⟩] concatenates_S2000000x2_S2000000x2_S2000000x2_S2000000x6_d1),
    unary main_arg12 main_v340 ((extractStridedSlice S1x6x2 ![1, 0, 0] · slices_S4x6x2_S1x6x2_1_0_0) : (⟨S4x6x2, .f32⟩ : BufTy).Contents (Elt F) → (⟨S1x6x2, .f32⟩ : BufTy).Contents (Elt F)),
    reshape main_v340 main_v341 rfl shapeCasts_S1x6x2_S6x2,
    binary main_v339 main_v341 main_v342 ((fun l r => Host.dotGeneral dot_S2000000x6_S6x2_S2000000x2_1_0_0_1_n_n none l r) : (⟨S2000000x6, .f32⟩ : BufTy).Contents (Elt F) → (⟨S6x2, .f32⟩ : BufTy).Contents (Elt F) → (⟨S2000000x2, .f32⟩ : BufTy).Contents (Elt F)),
    unary main_arg13 main_v343 ((extractStridedSlice S1x2 ![1, 0] · slices_S4x2_S1x2_1_0) : (⟨S4x2, .f32⟩ : BufTy).Contents (Elt F) → (⟨S1x2, .f32⟩ : BufTy).Contents (Elt F)),
    reshape main_v343 main_v344 rfl shapeCasts_S1x2_S2,
    unary main_v344 main_v345 (broadcastInDim S1x2 ![1] bcast_S2_S1x2_1 : (⟨S2, .f32⟩ : BufTy).Contents (Elt F) → (⟨S1x2, .f32⟩ : BufTy).Contents (Elt F)),
    unary main_v345 main_v346 (broadcastInDim S2000000x2 ![0, 1] bcast_S1x2_S2000000x2_0_1 : (⟨S1x2, .f32⟩ : BufTy).Contents (Elt F) → (⟨S2000000x2, .f32⟩ : BufTy).Contents (Elt F)),
    binary main_v342 main_v346 main_v347 (addf : (⟨S2000000x2, .f32⟩ : BufTy).Contents (Elt F) → (⟨S2000000x2, .f32⟩ : BufTy).Contents (Elt F) → (⟨S2000000x2, .f32⟩ : BufTy).Contents (Elt F)) ]

theorem ac1_sub : Sub (F := F) ac1 := by
  unfold Sub ac1
  exact ⟨nary_bufs_sub .., unary_bufs_sub .., reshape_bufs_sub .., binary_bufs_sub .., unary_bufs_sub ..,
    reshape_bufs_sub .., unary_bufs_sub .., unary_bufs_sub .., binary_bufs_sub ..⟩

theorem ac1_fresh : Fresh (F := F) ac1 := by
  unfold Fresh ac1
  fresh_lit

/-- The references that stretch writes. -/
abbrev ac1_W : List (Ref sig .tc) :=
  [main_v339, main_v340, main_v341, main_v342, main_v343, main_v344, main_v345, main_v346, main_v347]

theorem ac1_writes : Writes (F := F) ac1 ac1_W := by
  unfold Writes ac1
  simp only [List.Forall]
  exact ⟨by writes_one, by writes_one, by writes_one, by writes_one, by writes_one, by writes_one, by writes_one,
    by writes_one, by writes_one⟩

set_option maxRecDepth 8192 in
set_option maxHeartbeats 2000000 in
theorem cvp1_out (V : Valuation τ sig (Elt F)) :
    after cvp1 V (Proc.devRef .tc main_v221)
      = convV (V (Proc.devRef .tc main_v185)) (V (Proc.devRef .tc main_v176)) (V (Proc.devRef .tc main_v7)) (V (Proc.devRef .tc main_v15)) (V (Proc.devRef .tc main_arg4)) (V (Proc.devRef .tc main_arg5)) := by
  unfold cvp1; stretch_read

set_option maxRecDepth 8192 in
set_option maxHeartbeats 2000000 in
theorem cvn1_out (V : Valuation τ sig (Elt F)) :
    after cvn1 V (Proc.devRef .tc main_v257)
      = convV (V (Proc.devRef .tc main_v185)) (V (Proc.devRef .tc main_v176)) (V (Proc.devRef .tc main_v7)) (V (Proc.devRef .tc main_v15)) (V (Proc.devRef .tc main_arg6)) (V (Proc.devRef .tc main_arg7)) := by
  unfold cvn1; stretch_read

set_option maxRecDepth 8192 in
set_option maxHeartbeats 2000000 in
theorem ccp1_out (V : Valuation τ sig (Elt F)) :
    after ccp1 V (Proc.devRef .tc main_v293)
      = convC (V (Proc.devRef .tc main_v185)) (V (Proc.devRef .tc main_v176)) (V (Proc.devRef .tc main_v7)) (V (Proc.devRef .tc main_v15)) (V (Proc.devRef .tc main_arg4)) (V (Proc.devRef .tc main_arg5)) := by
  unfold ccp1; stretch_read

set_option maxRecDepth 8192 in
set_option maxHeartbeats 2000000 in
theorem ccn1_out (V : Valuation τ sig (Elt F)) :
    after ccn1 V (Proc.devRef .tc main_v329)
      = convC (V (Proc.devRef .tc main_v185)) (V (Proc.devRef .tc main_v176)) (V (Proc.devRef .tc main_v7)) (V (Proc.devRef .tc main_v15)) (V (Proc.devRef .tc main_arg6)) (V (Proc.devRef .tc main_arg7)) := by
  unfold ccn1; stretch_read

set_option maxRecDepth 8192 in
set_option maxHeartbeats 2000000 in
theorem av1_out (V : Valuation τ sig (Elt F)) :
    after av1 V (Proc.devRef .tc main_v338)
      = affV ![1, 0, 0] slices_S4x6x2_S1x6x2_1_0_0 ![1, 0] slices_S4x2_S1x2_1_0 (V (Proc.devRef .tc main_v221)) (V (Proc.devRef .tc main_v257)) (V (Proc.devRef .tc main_v176)) (V (Proc.devRef .tc main_arg14)) (V (Proc.devRef .tc main_arg15)) := by
  unfold av1; stretch_read

set_option maxRecDepth 8192 in
set_option maxHeartbeats 2000000 in
theorem ac1_out (V : Valuation τ sig (Elt F)) :
    after ac1 V (Proc.devRef .tc main_v347)
      = affC ![1, 0, 0] slices_S4x6x2_S1x6x2_1_0_0 ![1, 0] slices_S4x2_S1x2_1_0 (V (Proc.devRef .tc main_v293)) (V (Proc.devRef .tc main_v329)) (V (Proc.devRef .tc main_v185)) (V (Proc.devRef .tc main_arg12)) (V (Proc.devRef .tc main_arg13)) := by
  unfold ac1; stretch_read

/-- Layer 1: @main's statements 233 … 430. -/
def L1 : List (HloOp τ sig (Elt F)) := cvp1 ++ (cvn1 ++ (ccp1 ++ (ccn1 ++ (av1 ++ ac1))))

theorem L1_sub : Sub (F := F) L1 :=
  cvp1_sub.append (cvn1_sub.append (ccp1_sub.append (ccn1_sub.append (av1_sub.append ac1_sub))))
theorem L1_fresh : Fresh (F := F) L1 :=
  cvp1_fresh.append (cvn1_fresh.append (ccp1_fresh.append (ccn1_fresh.append (av1_fresh.append ac1_fresh))))

/-- The layer as a step on the two states: from any contents, the new variable state and the new clause state are the
    layer functions of the old two and of the ten values every layer reads, and those and the arguments stay. -/
theorem L1_step (V : Valuation τ sig (Elt F)) :
    after L1 V (Proc.devRef .tc main_v338) = layerV ![1, 0, 0] slices_S4x6x2_S1x6x2_1_0_0 ![1, 0] slices_S4x2_S1x2_1_0 (envAt V) (V (Proc.devRef .tc main_v185)) (V (Proc.devRef .tc main_v176))
    ∧ after L1 V (Proc.devRef .tc main_v347) = layerC ![1, 0, 0] slices_S4x6x2_S1x6x2_1_0_0 ![1, 0] slices_S4x2_S1x2_1_0 (envAt V) (V (Proc.devRef .tc main_v185)) (V (Proc.devRef .tc main_v176))
    ∧ ∀ r ∈ keepRefs, after L1 V (Proc.devRef .tc r) = V (Proc.devRef .tc r) := by
  unfold L1
  simp only [after_append]
  refine ⟨?_, ?_, ?_⟩
  · -- the variables: the affine map reads the two sums, the old state and its weights, each kept since it was written
    rw [ac1_writes.keep _ (show main_v338 ∉ ac1_W by decide), av1_out,
      ccn1_writes.keep _ (show main_v221 ∉ ccn1_W by decide),
      ccn1_writes.keep _ (show main_v257 ∉ ccn1_W by decide),
      ccn1_writes.keep _ (show main_v176 ∉ ccn1_W by decide),
      ccn1_writes.keep _ (show main_arg14 ∉ ccn1_W by decide),
      ccn1_writes.keep _ (show main_arg15 ∉ ccn1_W by decide),
      ccp1_writes.keep _ (show main_v221 ∉ ccp1_W by decide),
      ccp1_writes.keep _ (show main_v257 ∉ ccp1_W by decide),
      ccp1_writes.keep _ (show main_v176 ∉ ccp1_W by decide),
      ccp1_writes.keep _ (show main_arg14 ∉ ccp1_W by decide),
      ccp1_writes.keep _ (show main_arg15 ∉ ccp1_W by decide),
      cvn1_writes.keep _ (show main_v221 ∉ cvn1_W by decide),
      cvn1_writes.keep _ (show main_v176 ∉ cvn1_W by decide),
      cvn1_writes.keep _ (show main_arg14 ∉ cvn1_W by decide),
      cvn1_writes.keep _ (show main_arg15 ∉ cvn1_W by decide), cvn1_out,
      cvp1_out,
      cvp1_writes.keep _ (show main_v176 ∉ cvp1_W by decide),
      cvp1_writes.keep _ (show main_arg14 ∉ cvp1_W by decide),
      cvp1_writes.keep _ (show main_arg15 ∉ cvp1_W by decide),
      cvp1_writes.keep _ (show main_v185 ∉ cvp1_W by decide),
      cvp1_writes.keep _ (show main_v7 ∉ cvp1_W by decide),
      cvp1_writes.keep _ (show main_v15 ∉ cvp1_W by decide),
      cvp1_writes.keep _ (show main_arg6 ∉ cvp1_W by decide),
      cvp1_writes.keep _ (show main_arg7 ∉ cvp1_W by decide)]
    rfl
  · -- the clauses
    rw [ac1_out,
      av1_writes.keep _ (show main_v293 ∉ av1_W by decide),
      av1_writes.keep _ (show main_v329 ∉ av1_W by decide),
      av1_writes.keep _ (show main_v185 ∉ av1_W by decide),
      av1_writes.keep _ (show main_arg12 ∉ av1_W by decide),
      av1_writes.keep _ (show main_arg13 ∉ av1_W by decide),
      ccn1_writes.keep _ (show main_v293 ∉ ccn1_W by decide),
      ccn1_writes.keep _ (show main_v185 ∉ ccn1_W by decide),
      ccn1_writes.keep _ (show main_arg12 ∉ ccn1_W by decide),
      ccn1_writes.keep _ (show main_arg13 ∉ ccn1_W by decide), ccn1_out,
      ccp1_out,
      ccp1_writes.keep _ (show main_v185 ∉ ccp1_W by decide),
      ccp1_writes.keep _ (show main_arg12 ∉ ccp1_W by decide),
      ccp1_writes.keep _ (show main_arg13 ∉ ccp1_W by decide),
      ccp1_writes.keep _ (show main_v176 ∉ ccp1_W by decide),
      ccp1_writes.keep _ (show main_v7 ∉ ccp1_W by decide),
      ccp1_writes.keep _ (show main_v15 ∉ ccp1_W by decide),
      ccp1_writes.keep _ (show main_arg6 ∉ ccp1_W by decide),
      ccp1_writes.keep _ (show main_arg7 ∉ ccp1_W by decide),
      cvn1_writes.keep _ (show main_v185 ∉ cvn1_W by decide),
      cvn1_writes.keep _ (show main_arg12 ∉ cvn1_W by decide),
      cvn1_writes.keep _ (show main_arg13 ∉ cvn1_W by decide),
      cvn1_writes.keep _ (show main_v176 ∉ cvn1_W by decide),
      cvn1_writes.keep _ (show main_v7 ∉ cvn1_W by decide),
      cvn1_writes.keep _ (show main_v15 ∉ cvn1_W by decide),
      cvn1_writes.keep _ (show main_arg6 ∉ cvn1_W by decide),
      cvn1_writes.keep _ (show main_arg7 ∉ cvn1_W by decide),
      cvn1_writes.keep _ (show main_arg4 ∉ cvn1_W by decide),
      cvn1_writes.keep _ (show main_arg5 ∉ cvn1_W by decide),
      cvp1_writes.keep _ (show main_v185 ∉ cvp1_W by decide),
      cvp1_writes.keep _ (show main_arg12 ∉ cvp1_W by decide),
      cvp1_writes.keep _ (show main_arg13 ∉ cvp1_W by decide),
      cvp1_writes.keep _ (show main_v176 ∉ cvp1_W by decide),
      cvp1_writes.keep _ (show main_v7 ∉ cvp1_W by decide),
      cvp1_writes.keep _ (show main_v15 ∉ cvp1_W by decide),
      cvp1_writes.keep _ (show main_arg6 ∉ cvp1_W by decide),
      cvp1_writes.keep _ (show main_arg7 ∉ cvp1_W by decide),
      cvp1_writes.keep _ (show main_arg4 ∉ cvp1_W by decide),
      cvp1_writes.keep _ (show main_arg5 ∉ cvp1_W by decide)]
    rfl
  · intro r hr
    rw [ac1_writes.keep _ ((by decide : ∀ r ∈ keepRefs, r ∉ ac1_W) r hr),
      av1_writes.keep _ ((by decide : ∀ r ∈ keepRefs, r ∉ av1_W) r hr),
      ccn1_writes.keep _ ((by decide : ∀ r ∈ keepRefs, r ∉ ccn1_W) r hr),
      ccp1_writes.keep _ ((by decide : ∀ r ∈ keepRefs, r ∉ ccp1_W) r hr),
      cvn1_writes.keep _ ((by decide : ∀ r ∈ keepRefs, r ∉ cvn1_W) r hr),
      cvp1_writes.keep _ ((by decide : ∀ r ∈ keepRefs, r ∉ cvp1_W) r hr)]

end Cert.ReferenceIdeal.Hand

end
-- ==== Proof.Ref.L2.lean ====
import proofs.«149588_j66838281060723_2_alg».proof.Proof.Ref.Tac

noncomputable section

namespace Cert.ReferenceIdeal.Hand

open Idealize.ShloMosaic Idealize.SL.Sem Cert.ReferenceIdeal Idealize.ShloMosaic.StableHlo Idealize.ShloMosaic.TcCoe
open Cert.ReferenceIdeal.Facts₀ Cert.ReferenceIdeal.Facts

variable {F : FTy → Type} [FloatOps F] [Facts]
/-- @main's statements 431 … 475: layer 2, the convolution toward the variables over the positive edges. -/
def cvp2 : List (HloOp τ sig (Elt F)) :=
  [ nullary main_c_80 (constantI S_ 32 0#32),
    unary main_c_80 main_v348 (broadcastInDim S6000000 ![] bcast_S_S6000000 : (⟨S_, .i32⟩ : BufTy).Contents (Elt F) → (⟨S6000000, .i32⟩ : BufTy).Contents (Elt F)),
    binary main_arg4 main_v348 main_v349 (cmpi .slt : (⟨S6000000, .i32⟩ : BufTy).Contents (Elt F) → (⟨S6000000, .i32⟩ : BufTy).Contents (Elt F) → (⟨S6000000, .i1⟩ : BufTy).Contents (Elt F)),
    nullary main_c_81 (constantI S_ 32 2000000#32),
    unary main_c_81 main_v350 (broadcastInDim S6000000 ![] bcast_S_S6000000 : (⟨S_, .i32⟩ : BufTy).Contents (Elt F) → (⟨S6000000, .i32⟩ : BufTy).Contents (Elt F)),
    binary main_arg4 main_v350 main_v351 (addi : (⟨S6000000, .i32⟩ : BufTy).Contents (Elt F) → (⟨S6000000, .i32⟩ : BufTy).Contents (Elt F) → (⟨S6000000, .i32⟩ : BufTy).Contents (Elt F)),
    ternary main_v349 main_v351 main_arg4 main_v352 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v352 main_v353 (broadcastInDim S6000000x1 ![0] bcast_S6000000_S6000000x1_0 : (⟨S6000000, .i32⟩ : BufTy).Contents (Elt F) → (⟨S6000000x1, .i32⟩ : BufTy).Contents (Elt F)),
    binary main_v7 main_v353 main_v354 ((fun x i => Host.gather gather_S2000000_S6000000x1_S6000000_n_0_n_n_0_1_1 x i) : (⟨S2000000, .f32⟩ : BufTy).Contents (Elt F) → (⟨S6000000x1, .i32⟩ : BufTy).Contents (Elt F) → (⟨S6000000, .f32⟩ : BufTy).Contents (Elt F)),
    nullary main_c_82 (constantI S_ 32 0#32),
    unary main_c_82 main_v355 (broadcastInDim S6000000 ![] bcast_S_S6000000 : (⟨S_, .i32⟩ : BufTy).Contents (Elt F) → (⟨S6000000, .i32⟩ : BufTy).Contents (Elt F)),
    binary main_arg5 main_v355 main_v356 (cmpi .slt : (⟨S6000000, .i32⟩ : BufTy).Contents (Elt F) → (⟨S6000000, .i32⟩ : BufTy).Contents (Elt F) → (⟨S6000000, .i1⟩ : BufTy).Contents (Elt F)),
    nullary main_c_83 (constantI S_ 32 500000#32),
    unary main_c_83 main_v357 (broadcastInDim S6000000 ![] bcast_S_S6000000 : (⟨S_, .i32⟩ : BufTy).Contents (Elt F) → (⟨S6000000, .i32⟩ : BufTy).Contents (Elt F)),
    binary main_arg5 main_v357 main_v358 (addi : (⟨S6000000, .i32⟩ : BufTy).Contents (Elt F) → (⟨S6000000, .i32⟩ : BufTy).Contents (Elt F) → (⟨S6000000, .i32⟩ : BufTy).Contents (Elt F)),
    ternary main_v356 main_v358 main_arg5 main_v359 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v359 main_v360 (broadcastInDim S6000000x1 ![0] bcast_S6000000_S6000000x1_0 : (⟨S6000000, .i32⟩ : BufTy).Contents (Elt F) → (⟨S6000000x1, .i32⟩ : BufTy).Contents (Elt F)),
    binary main_v15 main_v360 main_v361 ((fun x i => Host.gather gather_S500000_S6000000x1_S6000000_n_0_n_n_0_1_1 x i) : (⟨S500000, .f32⟩ : BufTy).Contents (Elt F) → (⟨S6000000x1, .i32⟩ : BufTy).Contents (Elt F) → (⟨S6000000, .f32⟩ : BufTy).Contents (Elt F)),
    binary main_v354 main_v361 main_v362 (mulf : (⟨S6000000, .f32⟩ : BufTy).Contents (Elt F) → (⟨S6000000, .f32⟩ : BufTy).Contents (Elt F) → (⟨S6000000, .f32⟩ : BufTy).Contents (Elt F)),
    unary main_v362 main_v363 (broadcastInDim S6000000x1 ![0] bcast_S6000000_S6000000x1_0 : (⟨S6000000, .f32⟩ : BufTy).Contents (Elt F) → (⟨S6000000x1, .f32⟩ : BufTy).Contents (Elt F)),
    nullary main_c_84 (constantI S_ 32 0#32),
    unary main_c_84 main_v364 (broadcastInDim S6000000 ![] bcast_S_S6000000 : (⟨S_, .i32⟩ : BufTy).Contents (Elt F) → (⟨S6000000, .i32⟩ : BufTy).Contents (Elt F)),
    binary main_arg4 main_v364 main_v365 (cmpi .slt : (⟨S6000000, .i32⟩ : BufTy).Contents (Elt F) → (⟨S6000000, .i32⟩ : BufTy).Contents (Elt F) → (⟨S6000000, .i1⟩ : BufTy).Contents (Elt F)),
    nullary main_c_85 (constantI S_ 32 2000000#32),
    unary main_c_85 main_v366 (broadcastInDim S6000000 ![] bcast_S_S6000000 : (⟨S_, .i32⟩ : BufTy).Contents (Elt F) → (⟨S6000000, .i32⟩ : BufTy).Contents (Elt F)),
    binary main_arg4 main_v366 main_v367 (addi : (⟨S6000000, .i32⟩ : BufTy).Contents (Elt F) → (⟨S6000000, .i32⟩ : BufTy).Contents (Elt F) → (⟨S6000000, .i32⟩ : BufTy).Contents (Elt F)),
    ternary main_v365 main_v367 main_arg4 main_v368 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v368 main_v369 (broadcastInDim S6000000x1 ![0] bcast_S6000000_S6000000x1_0 : (⟨S6000000, .i32⟩ : BufTy).Contents (Elt F) → (⟨S6000000x1, .i32⟩ : BufTy).Contents (Elt F)),
    binary main_v347 main_v369 main_v370 ((fun x i => Host.gather gather_S2000000x2_S6000000x1_S6000000x2_1_0_n_n_0_1_12 x i) : (⟨S2000000x2, .f32⟩ : BufTy).Contents (Elt F) → (⟨S6000000x1, .i32⟩ : BufTy).Contents (Elt F) → (⟨S6000000x2, .f32⟩ : BufTy).Contents (Elt F)),
    unary main_v363 main_v371 (broadcastInDim S6000000x2 ![0, 1] bcast_S6000000x1_S6000000x2_0_1 : (⟨S6000000x1, .f32⟩ : BufTy).Contents (Elt F) → (⟨S6000000x2, .f32⟩ : BufTy).Contents (Elt F)),
    binary main_v371 main_v370 main_v372 (mulf : (⟨S6000000x2, .f32⟩ : BufTy).Contents (Elt F) → (⟨S6000000x2, .f32⟩ : BufTy).Contents (Elt F) → (⟨S6000000x2, .f32⟩ : BufTy).Contents (Elt F)),
    nullary main_c_86 (constantI S_ 32 0#32),
    unary main_c_86 main_v373 (broadcastInDim S6000000 ![] bcast_S_S6000000 : (⟨S_, .i32⟩ : BufTy).Contents (Elt F) → (⟨S6000000, .i32⟩ : BufTy).Contents (Elt F)),
    binary main_arg5 main_v373 main_v374 (cmpi .slt : (⟨S6000000, .i32⟩ : BufTy).Contents (Elt F) → (⟨S6000000, .i32⟩ : BufTy).Contents (Elt F) → (⟨S6000000, .i1⟩ : BufTy).Contents (Elt F)),
    nullary main_c_87 (constantI S_ 32 500000#32),
    unary main_c_87 main_v375 (broadcastInDim S6000000 ![] bcast_S_S6000000 : (⟨S_, .i32⟩ : BufTy).Contents (Elt F) → (⟨S6000000, .i32⟩ : BufTy).Contents (Elt F)),
    binary main_arg5 main_v375 main_v376 (addi : (⟨S6000000, .i32⟩ : BufTy).Contents (Elt F) → (⟨S6000000, .i32⟩ : BufTy).Contents (Elt F) → (⟨S6000000, .i32⟩ : BufTy).Contents (Elt F)),
    ternary main_v374 main_v376 main_arg5 main_v377 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v377 main_v378 (broadcastInDim S6000000x1 ![0] bcast_S6000000_S6000000x1_0 : (⟨S6000000, .i32⟩ : BufTy).Contents (Elt F) → (⟨S6000000x1, .i32⟩ : BufTy).Contents (Elt F)),
    binary main_v338 main_v378 main_v379 ((fun x i => Host.gather gather_S500000x2_S6000000x1_S6000000x2_1_0_n_n_0_1_12 x i) : (⟨S500000x2, .f32⟩ : BufTy).Contents (Elt F) → (⟨S6000000x1, .i32⟩ : BufTy).Contents (Elt F) → (⟨S6000000x2, .f32⟩ : BufTy).Contents (Elt F)),
    binary main_v372 main_v379 main_v380 (addf : (⟨S6000000x2, .f32⟩ : BufTy).Contents (Elt F) → (⟨S6000000x2, .f32⟩ : BufTy).Contents (Elt F) → (⟨S6000000x2, .f32⟩ : BufTy).Contents (Elt F)),
    nullary main_cst_88 (constant S_ .f32 0x00000000#32),
    unary main_cst_88 main_v381 (broadcastInDim S500000x2 ![] bcast_S_S500000x2 : (⟨S_, .f32⟩ : BufTy).Contents (Elt F) → (⟨S500000x2, .f32⟩ : BufTy).Contents (Elt F)),
    unary main_arg5 main_v382 (broadcastInDim S6000000x1 ![0] bcast_S6000000_S6000000x1_0 : (⟨S6000000, .i32⟩ : BufTy).Contents (Elt F) → (⟨S6000000x1, .i32⟩ : BufTy).Contents (Elt F)),
    ternary main_v381 main_v382 main_v380 main_v383 ((fun x i u => Host.scatterAdd scatter_S500000x2_S6000000x1_S6000000x2_1_0_0_1 x i u) : (⟨S500000x2, .f32⟩ : BufTy).Contents (Elt F) → (⟨S6000000x1, .i32⟩ : BufTy).Contents (Elt F) → (⟨S6000000x2, .f32⟩ : BufTy).Contents (Elt F) → (⟨S500000x2, .f32⟩ : BufTy).Contents (Elt F)) ]

theorem cvp2_sub : Sub (F := F) cvp2 := by
  unfold Sub cvp2
  exact ⟨nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., binary_bufs_sub .., nullary_bufs_sub .., unary_bufs_sub .., binary_bufs_sub ..,
    ternary_bufs_sub .., unary_bufs_sub .., binary_bufs_sub .., binary_bufs_sub .., unary_bufs_sub ..,
    nullary_bufs_sub .., unary_bufs_sub .., binary_bufs_sub .., nullary_bufs_sub .., unary_bufs_sub ..,
    binary_bufs_sub .., ternary_bufs_sub .., unary_bufs_sub .., binary_bufs_sub .., unary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    binary_bufs_sub .., nullary_bufs_sub .., unary_bufs_sub .., unary_bufs_sub .., ternary_bufs_sub ..⟩

theorem cvp2_fresh : Fresh (F := F) cvp2 := by
  unfold Fresh cvp2
  fresh_lit

/-- The references that stretch writes. -/
abbrev cvp2_W : List (Ref sig .tc) :=
  [main_c_80, main_v348, main_v349, main_c_81, main_v350, main_v351, main_v352, main_v353, main_v354, main_c_82,
   main_v355, main_v356, main_c_83, main_v357, main_v358, main_v359, main_v360, main_v361, main_v362, main_v363,
   main_c_84, main_v364, main_v365, main_c_85, main_v366, main_v367, main_v368, main_v369, main_v370, main_v371,
   main_v372, main_c_86, main_v373, main_v374, main_c_87, main_v375, main_v376, main_v377, main_v378, main_v379,
   main_v380, main_cst_88, main_v381, main_v382, main_v383]

theorem cvp2_writes : Writes (F := F) cvp2 cvp2_W := by
  unfold Writes cvp2
  simp only [List.Forall]
  exact ⟨by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one⟩

/-- @main's statements 476 … 520: layer 2, the convolution toward the variables over the negative edges. -/
def cvn2 : List (HloOp τ sig (Elt F)) :=
  [ nullary main_c_89 (constantI S_ 32 0#32),
    unary main_c_89 main_v384 (broadcastInDim S6000000 ![] bcast_S_S6000000 : (⟨S_, .i32⟩ : BufTy).Contents (Elt F) → (⟨S6000000, .i32⟩ : BufTy).Contents (Elt F)),
    binary main_arg6 main_v384 main_v385 (cmpi .slt : (⟨S6000000, .i32⟩ : BufTy).Contents (Elt F) → (⟨S6000000, .i32⟩ : BufTy).Contents (Elt F) → (⟨S6000000, .i1⟩ : BufTy).Contents (Elt F)),
    nullary main_c_90 (constantI S_ 32 2000000#32),
    unary main_c_90 main_v386 (broadcastInDim S6000000 ![] bcast_S_S6000000 : (⟨S_, .i32⟩ : BufTy).Contents (Elt F) → (⟨S6000000, .i32⟩ : BufTy).Contents (Elt F)),
    binary main_arg6 main_v386 main_v387 (addi : (⟨S6000000, .i32⟩ : BufTy).Contents (Elt F) → (⟨S6000000, .i32⟩ : BufTy).Contents (Elt F) → (⟨S6000000, .i32⟩ : BufTy).Contents (Elt F)),
    ternary main_v385 main_v387 main_arg6 main_v388 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v388 main_v389 (broadcastInDim S6000000x1 ![0] bcast_S6000000_S6000000x1_0 : (⟨S6000000, .i32⟩ : BufTy).Contents (Elt F) → (⟨S6000000x1, .i32⟩ : BufTy).Contents (Elt F)),
    binary main_v7 main_v389 main_v390 ((fun x i => Host.gather gather_S2000000_S6000000x1_S6000000_n_0_n_n_0_1_1 x i) : (⟨S2000000, .f32⟩ : BufTy).Contents (Elt F) → (⟨S6000000x1, .i32⟩ : BufTy).Contents (Elt F) → (⟨S6000000, .f32⟩ : BufTy).Contents (Elt F)),
    nullary main_c_91 (constantI S_ 32 0#32),
    unary main_c_91 main_v391 (broadcastInDim S6000000 ![] bcast_S_S6000000 : (⟨S_, .i32⟩ : BufTy).Contents (Elt F) → (⟨S6000000, .i32⟩ : BufTy).Contents (Elt F)),
    binary main_arg7 main_v391 main_v392 (cmpi .slt : (⟨S6000000, .i32⟩ : BufTy).Contents (Elt F) → (⟨S6000000, .i32⟩ : BufTy).Contents (Elt F) → (⟨S6000000, .i1⟩ : BufTy).Contents (Elt F)),
    nullary main_c_92 (constantI S_ 32 500000#32),
    unary main_c_92 main_v393 (broadcastInDim S6000000 ![] bcast_S_S6000000 : (⟨S_, .i32⟩ : BufTy).Contents (Elt F) → (⟨S6000000, .i32⟩ : BufTy).Contents (Elt F)),
    binary main_arg7 main_v393 main_v394 (addi : (⟨S6000000, .i32⟩ : BufTy).Contents (Elt F) → (⟨S6000000, .i32⟩ : BufTy).Contents (Elt F) → (⟨S6000000, .i32⟩ : BufTy).Contents (Elt F)),
    ternary main_v392 main_v394 main_arg7 main_v395 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v395 main_v396 (broadcastInDim S6000000x1 ![0] bcast_S6000000_S6000000x1_0 : (⟨S6000000, .i32⟩ : BufTy).Contents (Elt F) → (⟨S6000000x1, .i32⟩ : BufTy).Contents (Elt F)),
    binary main_v15 main_v396 main_v397 ((fun x i => Host.gather gather_S500000_S6000000x1_S6000000_n_0_n_n_0_1_1 x i) : (⟨S500000, .f32⟩ : BufTy).Contents (Elt F) → (⟨S6000000x1, .i32⟩ : BufTy).Contents (Elt F) → (⟨S6000000, .f32⟩ : BufTy).Contents (Elt F)),
    binary main_v390 main_v397 main_v398 (mulf : (⟨S6000000, .f32⟩ : BufTy).Contents (Elt F) → (⟨S6000000, .f32⟩ : BufTy).Contents (Elt F) → (⟨S6000000, .f32⟩ : BufTy).Contents (Elt F)),
    unary main_v398 main_v399 (broadcastInDim S6000000x1 ![0] bcast_S6000000_S6000000x1_0 : (⟨S6000000, .f32⟩ : BufTy).Contents (Elt F) → (⟨S6000000x1, .f32⟩ : BufTy).Contents (Elt F)),
    nullary main_c_93 (constantI S_ 32 0#32),
    unary main_c_93 main_v400 (broadcastInDim S6000000 ![] bcast_S_S6000000 : (⟨S_, .i32⟩ : BufTy).Contents (Elt F) → (⟨S6000000, .i32⟩ : BufTy).Contents (Elt F)),
    binary main_arg6 main_v400 main_v401 (cmpi .slt : (⟨S6000000, .i32⟩ : BufTy).Contents (Elt F) → (⟨S6000000, .i32⟩ : BufTy).Contents (Elt F) → (⟨S6000000, .i1⟩ : BufTy).Contents (Elt F)),
    nullary main_c_94 (constantI S_ 32 2000000#32),
    unary main_c_94 main_v402 (broadcastInDim S6000000 ![] bcast_S_S6000000 : (⟨S_, .i32⟩ : BufTy).Contents (Elt F) → (⟨S6000000, .i32⟩ : BufTy).Contents (Elt F)),
    binary main_arg6 main_v402 main_v403 (addi : (⟨S6000000, .i32⟩ : BufTy).Contents (Elt F) → (⟨S6000000, .i32⟩ : BufTy).Contents (Elt F) → (⟨S6000000, .i32⟩ : BufTy).Contents (Elt F)),
    ternary main_v401 main_v403 main_arg6 main_v404 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v404 main_v405 (broadcastInDim S6000000x1 ![0] bcast_S6000000_S6000000x1_0 : (⟨S6000000, .i32⟩ : BufTy).Contents (Elt F) → (⟨S6000000x1, .i32⟩ : BufTy).Contents (Elt F)),
    binary main_v347 main_v405 main_v406 ((fun x i => Host.gather gather_S2000000x2_S6000000x1_S6000000x2_1_0_n_n_0_1_12 x i) : (⟨S2000000x2, .f32⟩ : BufTy).Contents (Elt F) → (⟨S6000000x1, .i32⟩ : BufTy).Contents (Elt F) → (⟨S6000000x2, .f32⟩ : BufTy).Contents (Elt F)),
    unary main_v399 main_v407 (broadcastInDim S6000000x2 ![0, 1] bcast_S6000000x1_S6000000x2_0_1 : (⟨S6000000x1, .f32⟩ : BufTy).Contents (Elt F) → (⟨S6000000x2, .f32⟩ : BufTy).Contents (Elt F)),
    binary main_v407 main_v406 main_v408 (mulf : (⟨S6000000x2, .f32⟩ : BufTy).Contents (Elt F) → (⟨S6000000x2, .f32⟩ : BufTy).Contents (Elt F) → (⟨S6000000x2, .f32⟩ : BufTy).Contents (Elt F)),
    nullary main_c_95 (constantI S_ 32 0#32),
    unary main_c_95 main_v409 (broadcastInDim S6000000 ![] bcast_S_S6000000 : (⟨S_, .i32⟩ : BufTy).Contents (Elt F) → (⟨S6000000, .i32⟩ : BufTy).Contents (Elt F)),
    binary main_arg7 main_v409 main_v410 (cmpi .slt : (⟨S6000000, .i32⟩ : BufTy).Contents (Elt F) → (⟨S6000000, .i32⟩ : BufTy).Contents (Elt F) → (⟨S6000000, .i1⟩ : BufTy).Contents (Elt F)),
    nullary main_c_96 (constantI S_ 32 500000#32),
    unary main_c_96 main_v411 (broadcastInDim S6000000 ![] bcast_S_S6000000 : (⟨S_, .i32⟩ : BufTy).Contents (Elt F) → (⟨S6000000, .i32⟩ : BufTy).Contents (Elt F)),
    binary main_arg7 main_v411 main_v412 (addi : (⟨S6000000, .i32⟩ : BufTy).Contents (Elt F) → (⟨S6000000, .i32⟩ : BufTy).Contents (Elt F) → (⟨S6000000, .i32⟩ : BufTy).Contents (Elt F)),
    ternary main_v410 main_v412 main_arg7 main_v413 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v413 main_v414 (broadcastInDim S6000000x1 ![0] bcast_S6000000_S6000000x1_0 : (⟨S6000000, .i32⟩ : BufTy).Contents (Elt F) → (⟨S6000000x1, .i32⟩ : BufTy).Contents (Elt F)),
    binary main_v338 main_v414 main_v415 ((fun x i => Host.gather gather_S500000x2_S6000000x1_S6000000x2_1_0_n_n_0_1_12 x i) : (⟨S500000x2, .f32⟩ : BufTy).Contents (Elt F) → (⟨S6000000x1, .i32⟩ : BufTy).Contents (Elt F) → (⟨S6000000x2, .f32⟩ : BufTy).Contents (Elt F)),
    binary main_v408 main_v415 main_v416 (addf : (⟨S6000000x2, .f32⟩ : BufTy).Contents (Elt F) → (⟨S6000000x2, .f32⟩ : BufTy).Contents (Elt F) → (⟨S6000000x2, .f32⟩ : BufTy).Contents (Elt F)),
    nullary main_cst_97 (constant S_ .f32 0x00000000#32),
    unary main_cst_97 main_v417 (broadcastInDim S500000x2 ![] bcast_S_S500000x2 : (⟨S_, .f32⟩ : BufTy).Contents (Elt F) → (⟨S500000x2, .f32⟩ : BufTy).Contents (Elt F)),
    unary main_arg7 main_v418 (broadcastInDim S6000000x1 ![0] bcast_S6000000_S6000000x1_0 : (⟨S6000000, .i32⟩ : BufTy).Contents (Elt F) → (⟨S6000000x1, .i32⟩ : BufTy).Contents (Elt F)),
    ternary main_v417 main_v418 main_v416 main_v419 ((fun x i u => Host.scatterAdd scatter_S500000x2_S6000000x1_S6000000x2_1_0_0_1 x i u) : (⟨S500000x2, .f32⟩ : BufTy).Contents (Elt F) → (⟨S6000000x1, .i32⟩ : BufTy).Contents (Elt F) → (⟨S6000000x2, .f32⟩ : BufTy).Contents (Elt F) → (⟨S500000x2, .f32⟩ : BufTy).Contents (Elt F)) ]

theorem cvn2_sub : Sub (F := F) cvn2 := by
  unfold Sub cvn2
  exact ⟨nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., binary_bufs_sub .., nullary_bufs_sub .., unary_bufs_sub .., binary_bufs_sub ..,
    ternary_bufs_sub .., unary_bufs_sub .., binary_bufs_sub .., binary_bufs_sub .., unary_bufs_sub ..,
    nullary_bufs_sub .., unary_bufs_sub .., binary_bufs_sub .., nullary_bufs_sub .., unary_bufs_sub ..,
    binary_bufs_sub .., ternary_bufs_sub .., unary_bufs_sub .., binary_bufs_sub .., unary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    binary_bufs_sub .., nullary_bufs_sub .., unary_bufs_sub .., unary_bufs_sub .., ternary_bufs_sub ..⟩

theorem cvn2_fresh : Fresh (F := F) cvn2 := by
  unfold Fresh cvn2
  fresh_lit

/-- The references that stretch writes. -/
abbrev cvn2_W : List (Ref sig .tc) :=
  [main_c_89, main_v384, main_v385, main_c_90, main_v386, main_v387, main_v388, main_v389, main_v390, main_c_91,
   main_v391, main_v392, main_c_92, main_v393, main_v394, main_v395, main_v396, main_v397, main_v398, main_v399,
   main_c_93, main_v400, main_v401, main_c_94, main_v402, main_v403, main_v404, main_v405, main_v406, main_v407,
   main_v408, main_c_95, main_v409, main_v410, main_c_96, main_v411, main_v412, main_v413, main_v414, main_v415,
   main_v416, main_cst_97, main_v417, main_v418, main_v419]

theorem cvn2_writes : Writes (F := F) cvn2 cvn2_W := by
  unfold Writes cvn2
  simp only [List.Forall]
  exact ⟨by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one⟩

/-- @main's statements 521 … 565: layer 2, the convolution toward the clauses over the positive edges. -/
def ccp2 : List (HloOp τ sig (Elt F)) :=
  [ nullary main_c_98 (constantI S_ 32 0#32),
    unary main_c_98 main_v420 (broadcastInDim S6000000 ![] bcast_S_S6000000 : (⟨S_, .i32⟩ : BufTy).Contents (Elt F) → (⟨S6000000, .i32⟩ : BufTy).Contents (Elt F)),
    binary main_arg5 main_v420 main_v421 (cmpi .slt : (⟨S6000000, .i32⟩ : BufTy).Contents (Elt F) → (⟨S6000000, .i32⟩ : BufTy).Contents (Elt F) → (⟨S6000000, .i1⟩ : BufTy).Contents (Elt F)),
    nullary main_c_99 (constantI S_ 32 500000#32),
    unary main_c_99 main_v422 (broadcastInDim S6000000 ![] bcast_S_S6000000 : (⟨S_, .i32⟩ : BufTy).Contents (Elt F) → (⟨S6000000, .i32⟩ : BufTy).Contents (Elt F)),
    binary main_arg5 main_v422 main_v423 (addi : (⟨S6000000, .i32⟩ : BufTy).Contents (Elt F) → (⟨S6000000, .i32⟩ : BufTy).Contents (Elt F) → (⟨S6000000, .i32⟩ : BufTy).Contents (Elt F)),
    ternary main_v421 main_v423 main_arg5 main_v424 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v424 main_v425 (broadcastInDim S6000000x1 ![0] bcast_S6000000_S6000000x1_0 : (⟨S6000000, .i32⟩ : BufTy).Contents (Elt F) → (⟨S6000000x1, .i32⟩ : BufTy).Contents (Elt F)),
    binary main_v15 main_v425 main_v426 ((fun x i => Host.gather gather_S500000_S6000000x1_S6000000_n_0_n_n_0_1_1 x i) : (⟨S500000, .f32⟩ : BufTy).Contents (Elt F) → (⟨S6000000x1, .i32⟩ : BufTy).Contents (Elt F) → (⟨S6000000, .f32⟩ : BufTy).Contents (Elt F)),
    nullary main_c_100 (constantI S_ 32 0#32),
    unary main_c_100 main_v427 (broadcastInDim S6000000 ![] bcast_S_S6000000 : (⟨S_, .i32⟩ : BufTy).Contents (Elt F) → (⟨S6000000, .i32⟩ : BufTy).Contents (Elt F)),
    binary main_arg4 main_v427 main_v428 (cmpi .slt : (⟨S6000000, .i32⟩ : BufTy).Contents (Elt F) → (⟨S6000000, .i32⟩ : BufTy).Contents (Elt F) → (⟨S6000000, .i1⟩ : BufTy).Contents (Elt F)),
    nullary main_c_101 (constantI S_ 32 2000000#32),
    unary main_c_101 main_v429 (broadcastInDim S6000000 ![] bcast_S_S6000000 : (⟨S_, .i32⟩ : BufTy).Contents (Elt F) → (⟨S6000000, .i32⟩ : BufTy).Contents (Elt F)),
    binary main_arg4 main_v429 main_v430 (addi : (⟨S6000000, .i32⟩ : BufTy).Contents (Elt F) → (⟨S6000000, .i32⟩ : BufTy).Contents (Elt F) → (⟨S6000000, .i32⟩ : BufTy).Contents (Elt F)),
    ternary main_v428 main_v430 main_arg4 main_v431 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v431 main_v432 (broadcastInDim S6000000x1 ![0] bcast_S6000000_S6000000x1_0 : (⟨S6000000, .i32⟩ : BufTy).Contents (Elt F) → (⟨S6000000x1, .i32⟩ : BufTy).Contents (Elt F)),
    binary main_v7 main_v432 main_v433 ((fun x i => Host.gather gather_S2000000_S6000000x1_S6000000_n_0_n_n_0_1_1 x i) : (⟨S2000000, .f32⟩ : BufTy).Contents (Elt F) → (⟨S6000000x1, .i32⟩ : BufTy).Contents (Elt F) → (⟨S6000000, .f32⟩ : BufTy).Contents (Elt F)),
    binary main_v426 main_v433 main_v434 (mulf : (⟨S6000000, .f32⟩ : BufTy).Contents (Elt F) → (⟨S6000000, .f32⟩ : BufTy).Contents (Elt F) → (⟨S6000000, .f32⟩ : BufTy).Contents (Elt F)),
    unary main_v434 main_v435 (broadcastInDim S6000000x1 ![0] bcast_S6000000_S6000000x1_0 : (⟨S6000000, .f32⟩ : BufTy).Contents (Elt F) → (⟨S6000000x1, .f32⟩ : BufTy).Contents (Elt F)),
    nullary main_c_102 (constantI S_ 32 0#32),
    unary main_c_102 main_v436 (broadcastInDim S6000000 ![] bcast_S_S6000000 : (⟨S_, .i32⟩ : BufTy).Contents (Elt F) → (⟨S6000000, .i32⟩ : BufTy).Contents (Elt F)),
    binary main_arg5 main_v436 main_v437 (cmpi .slt : (⟨S6000000, .i32⟩ : BufTy).Contents (Elt F) → (⟨S6000000, .i32⟩ : BufTy).Contents (Elt F) → (⟨S6000000, .i1⟩ : BufTy).Contents (Elt F)),
    nullary main_c_103 (constantI S_ 32 500000#32),
    unary main_c_103 main_v438 (broadcastInDim S6000000 ![] bcast_S_S6000000 : (⟨S_, .i32⟩ : BufTy).Contents (Elt F) → (⟨S6000000, .i32⟩ : BufTy).Contents (Elt F)),
    binary main_arg5 main_v438 main_v439 (addi : (⟨S6000000, .i32⟩ : BufTy).Contents (Elt F) → (⟨S6000000, .i32⟩ : BufTy).Contents (Elt F) → (⟨S6000000, .i32⟩ : BufTy).Contents (Elt F)),
    ternary main_v437 main_v439 main_arg5 main_v440 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v440 main_v441 (broadcastInDim S6000000x1 ![0] bcast_S6000000_S6000000x1_0 : (⟨S6000000, .i32⟩ : BufTy).Contents (Elt F) → (⟨S6000000x1, .i32⟩ : BufTy).Contents (Elt F)),
    binary main_v338 main_v441 main_v442 ((fun x i => Host.gather gather_S500000x2_S6000000x1_S6000000x2_1_0_n_n_0_1_12 x i) : (⟨S500000x2, .f32⟩ : BufTy).Contents (Elt F) → (⟨S6000000x1, .i32⟩ : BufTy).Contents (Elt F) → (⟨S6000000x2, .f32⟩ : BufTy).Contents (Elt F)),
    unary main_v435 main_v443 (broadcastInDim S6000000x2 ![0, 1] bcast_S6000000x1_S6000000x2_0_1 : (⟨S6000000x1, .f32⟩ : BufTy).Contents (Elt F) → (⟨S6000000x2, .f32⟩ : BufTy).Contents (Elt F)),
    binary main_v443 main_v442 main_v444 (mulf : (⟨S6000000x2, .f32⟩ : BufTy).Contents (Elt F) → (⟨S6000000x2, .f32⟩ : BufTy).Contents (Elt F) → (⟨S6000000x2, .f32⟩ : BufTy).Contents (Elt F)),
    nullary main_c_104 (constantI S_ 32 0#32),
    unary main_c_104 main_v445 (broadcastInDim S6000000 ![] bcast_S_S6000000 : (⟨S_, .i32⟩ : BufTy).Contents (Elt F) → (⟨S6000000, .i32⟩ : BufTy).Contents (Elt F)),
    binary main_arg4 main_v445 main_v446 (cmpi .slt : (⟨S6000000, .i32⟩ : BufTy).Contents (Elt F) → (⟨S6000000, .i32⟩ : BufTy).Contents (Elt F) → (⟨S6000000, .i1⟩ : BufTy).Contents (Elt F)),
    nullary main_c_105 (constantI S_ 32 2000000#32),
    unary main_c_105 main_v447 (broadcastInDim S6000000 ![] bcast_S_S6000000 : (⟨S_, .i32⟩ : BufTy).Contents (Elt F) → (⟨S6000000, .i32⟩ : BufTy).Contents (Elt F)),
    binary main_arg4 main_v447 main_v448 (addi : (⟨S6000000, .i32⟩ : BufTy).Contents (Elt F) → (⟨S6000000, .i32⟩ : BufTy).Contents (Elt F) → (⟨S6000000, .i32⟩ : BufTy).Contents (Elt F)),
    ternary main_v446 main_v448 main_arg4 main_v449 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v449 main_v450 (broadcastInDim S6000000x1 ![0] bcast_S6000000_S6000000x1_0 : (⟨S6000000, .i32⟩ : BufTy).Contents (Elt F) → (⟨S6000000x1, .i32⟩ : BufTy).Contents (Elt F)),
    binary main_v347 main_v450 main_v451 ((fun x i => Host.gather gather_S2000000x2_S6000000x1_S6000000x2_1_0_n_n_0_1_12 x i) : (⟨S2000000x2, .f32⟩ : BufTy).Contents (Elt F) → (⟨S6000000x1, .i32⟩ : BufTy).Contents (Elt F) → (⟨S6000000x2, .f32⟩ : BufTy).Contents (Elt F)),
    binary main_v444 main_v451 main_v452 (addf : (⟨S6000000x2, .f32⟩ : BufTy).Contents (Elt F) → (⟨S6000000x2, .f32⟩ : BufTy).Contents (Elt F) → (⟨S6000000x2, .f32⟩ : BufTy).Contents (Elt F)),
    nullary main_cst_106 (constant S_ .f32 0x00000000#32),
    unary main_cst_106 main_v453 (broadcastInDim S2000000x2 ![] bcast_S_S2000000x2 : (⟨S_, .f32⟩ : BufTy).Contents (Elt F) → (⟨S2000000x2, .f32⟩ : BufTy).Contents (Elt F)),
    unary main_arg4 main_v454 (broadcastInDim S6000000x1 ![0] bcast_S6000000_S6000000x1_0 : (⟨S6000000, .i32⟩ : BufTy).Contents (Elt F) → (⟨S6000000x1, .i32⟩ : BufTy).Contents (Elt F)),
    ternary main_v453 main_v454 main_v452 main_v455 ((fun x i u => Host.scatterAdd scatter_S2000000x2_S6000000x1_S6000000x2_1_0_0_1 x i u) : (⟨S2000000x2, .f32⟩ : BufTy).Contents (Elt F) → (⟨S6000000x1, .i32⟩ : BufTy).Contents (Elt F) → (⟨S6000000x2, .f32⟩ : BufTy).Contents (Elt F) → (⟨S2000000x2, .f32⟩ : BufTy).Contents (Elt F)) ]

theorem ccp2_sub : Sub (F := F) ccp2 := by
  unfold Sub ccp2
  exact ⟨nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., binary_bufs_sub .., nullary_bufs_sub .., unary_bufs_sub .., binary_bufs_sub ..,
    ternary_bufs_sub .., unary_bufs_sub .., binary_bufs_sub .., binary_bufs_sub .., unary_bufs_sub ..,
    nullary_bufs_sub .., unary_bufs_sub .., binary_bufs_sub .., nullary_bufs_sub .., unary_bufs_sub ..,
    binary_bufs_sub .., ternary_bufs_sub .., unary_bufs_sub .., binary_bufs_sub .., unary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    binary_bufs_sub .., nullary_bufs_sub .., unary_bufs_sub .., unary_bufs_sub .., ternary_bufs_sub ..⟩

theorem ccp2_fresh : Fresh (F := F) ccp2 := by
  unfold Fresh ccp2
  fresh_lit

/-- The references that stretch writes. -/
abbrev ccp2_W : List (Ref sig .tc) :=
  [main_c_98, main_v420, main_v421, main_c_99, main_v422, main_v423, main_v424, main_v425, main_v426, main_c_100,
   main_v427, main_v428, main_c_101, main_v429, main_v430, main_v431, main_v432, main_v433, main_v434, main_v435,
   main_c_102, main_v436, main_v437, main_c_103, main_v438, main_v439, main_v440, main_v441, main_v442, main_v443,
   main_v444, main_c_104, main_v445, main_v446, main_c_105, main_v447, main_v448, main_v449, main_v450, main_v451,
   main_v452, main_cst_106, main_v453, main_v454, main_v455]

theorem ccp2_writes : Writes (F := F) ccp2 ccp2_W := by
  unfold Writes ccp2
  simp only [List.Forall]
  exact ⟨by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one⟩

/-- @main's statements 566 … 610: layer 2, the convolution toward the clauses over the negative edges. -/
def ccn2 : List (HloOp τ sig (Elt F)) :=
  [ nullary main_c_107 (constantI S_ 32 0#32),
    unary main_c_107 main_v456 (broadcastInDim S6000000 ![] bcast_S_S6000000 : (⟨S_, .i32⟩ : BufTy).Contents (Elt F) → (⟨S6000000, .i32⟩ : BufTy).Contents (Elt F)),
    binary main_arg7 main_v456 main_v457 (cmpi .slt : (⟨S6000000, .i32⟩ : BufTy).Contents (Elt F) → (⟨S6000000, .i32⟩ : BufTy).Contents (Elt F) → (⟨S6000000, .i1⟩ : BufTy).Contents (Elt F)),
    nullary main_c_108 (constantI S_ 32 500000#32),
    unary main_c_108 main_v458 (broadcastInDim S6000000 ![] bcast_S_S6000000 : (⟨S_, .i32⟩ : BufTy).Contents (Elt F) → (⟨S6000000, .i32⟩ : BufTy).Contents (Elt F)),
    binary main_arg7 main_v458 main_v459 (addi : (⟨S6000000, .i32⟩ : BufTy).Contents (Elt F) → (⟨S6000000, .i32⟩ : BufTy).Contents (Elt F) → (⟨S6000000, .i32⟩ : BufTy).Contents (Elt F)),
    ternary main_v457 main_v459 main_arg7 main_v460 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v460 main_v461 (broadcastInDim S6000000x1 ![0] bcast_S6000000_S6000000x1_0 : (⟨S6000000, .i32⟩ : BufTy).Contents (Elt F) → (⟨S6000000x1, .i32⟩ : BufTy).Contents (Elt F)),
    binary main_v15 main_v461 main_v462 ((fun x i => Host.gather gather_S500000_S6000000x1_S6000000_n_0_n_n_0_1_1 x i) : (⟨S500000, .f32⟩ : BufTy).Contents (Elt F) → (⟨S6000000x1, .i32⟩ : BufTy).Contents (Elt F) → (⟨S6000000, .f32⟩ : BufTy).Contents (Elt F)),
    nullary main_c_109 (constantI S_ 32 0#32),
    unary main_c_109 main_v463 (broadcastInDim S6000000 ![] bcast_S_S6000000 : (⟨S_, .i32⟩ : BufTy).Contents (Elt F) → (⟨S6000000, .i32⟩ : BufTy).Contents (Elt F)),
    binary main_arg6 main_v463 main_v464 (cmpi .slt : (⟨S6000000, .i32⟩ : BufTy).Contents (Elt F) → (⟨S6000000, .i32⟩ : BufTy).Contents (Elt F) → (⟨S6000000, .i1⟩ : BufTy).Contents (Elt F)),
    nullary main_c_110 (constantI S_ 32 2000000#32),
    unary main_c_110 main_v465 (broadcastInDim S6000000 ![] bcast_S_S6000000 : (⟨S_, .i32⟩ : BufTy).Contents (Elt F) → (⟨S6000000, .i32⟩ : BufTy).Contents (Elt F)),
    binary main_arg6 main_v465 main_v466 (addi : (⟨S6000000, .i32⟩ : BufTy).Contents (Elt F) → (⟨S6000000, .i32⟩ : BufTy).Contents (Elt F) → (⟨S6000000, .i32⟩ : BufTy).Contents (Elt F)),
    ternary main_v464 main_v466 main_arg6 main_v467 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v467 main_v468 (broadcastInDim S6000000x1 ![0] bcast_S6000000_S6000000x1_0 : (⟨S6000000, .i32⟩ : BufTy).Contents (Elt F) → (⟨S6000000x1, .i32⟩ : BufTy).Contents (Elt F)),
    binary main_v7 main_v468 main_v469 ((fun x i => Host.gather gather_S2000000_S6000000x1_S6000000_n_0_n_n_0_1_1 x i) : (⟨S2000000, .f32⟩ : BufTy).Contents (Elt F) → (⟨S6000000x1, .i32⟩ : BufTy).Contents (Elt F) → (⟨S6000000, .f32⟩ : BufTy).Contents (Elt F)),
    binary main_v462 main_v469 main_v470 (mulf : (⟨S6000000, .f32⟩ : BufTy).Contents (Elt F) → (⟨S6000000, .f32⟩ : BufTy).Contents (Elt F) → (⟨S6000000, .f32⟩ : BufTy).Contents (Elt F)),
    unary main_v470 main_v471 (broadcastInDim S6000000x1 ![0] bcast_S6000000_S6000000x1_0 : (⟨S6000000, .f32⟩ : BufTy).Contents (Elt F) → (⟨S6000000x1, .f32⟩ : BufTy).Contents (Elt F)),
    nullary main_c_111 (constantI S_ 32 0#32),
    unary main_c_111 main_v472 (broadcastInDim S6000000 ![] bcast_S_S6000000 : (⟨S_, .i32⟩ : BufTy).Contents (Elt F) → (⟨S6000000, .i32⟩ : BufTy).Contents (Elt F)),
    binary main_arg7 main_v472 main_v473 (cmpi .slt : (⟨S6000000, .i32⟩ : BufTy).Contents (Elt F) → (⟨S6000000, .i32⟩ : BufTy).Contents (Elt F) → (⟨S6000000, .i1⟩ : BufTy).Contents (Elt F)),
    nullary main_c_112 (constantI S_ 32 500000#32),
    unary main_c_112 main_v474 (broadcastInDim S6000000 ![] bcast_S_S6000000 : (⟨S_, .i32⟩ : BufTy).Contents (Elt F) → (⟨S6000000, .i32⟩ : BufTy).Contents (Elt F)),
    binary main_arg7 main_v474 main_v475 (addi : (⟨S6000000, .i32⟩ : BufTy).Contents (Elt F) → (⟨S6000000, .i32⟩ : BufTy).Contents (Elt F) → (⟨S6000000, .i32⟩ : BufTy).Contents (Elt F)),
    ternary main_v473 main_v475 main_arg7 main_v476 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v476 main_v477 (broadcastInDim S6000000x1 ![0] bcast_S6000000_S6000000x1_0 : (⟨S6000000, .i32⟩ : BufTy).Contents (Elt F) → (⟨S6000000x1, .i32⟩ : BufTy).Contents (Elt F)),
    binary main_v338 main_v477 main_v478 ((fun x i => Host.gather gather_S500000x2_S6000000x1_S6000000x2_1_0_n_n_0_1_12 x i) : (⟨S500000x2, .f32⟩ : BufTy).Contents (Elt F) → (⟨S6000000x1, .i32⟩ : BufTy).Contents (Elt F) → (⟨S6000000x2, .f32⟩ : BufTy).Contents (Elt F)),
    unary main_v471 main_v479 (broadcastInDim S6000000x2 ![0, 1] bcast_S6000000x1_S6000000x2_0_1 : (⟨S6000000x1, .f32⟩ : BufTy).Contents (Elt F) → (⟨S6000000x2, .f32⟩ : BufTy).Contents (Elt F)),
    binary main_v479 main_v478 main_v480 (mulf : (⟨S6000000x2, .f32⟩ : BufTy).Contents (Elt F) → (⟨S6000000x2, .f32⟩ : BufTy).Contents (Elt F) → (⟨S6000000x2, .f32⟩ : BufTy).Contents (Elt F)),
    nullary main_c_113 (constantI S_ 32 0#32),
    unary main_c_113 main_v481 (broadcastInDim S6000000 ![] bcast_S_S6000000 : (⟨S_, .i32⟩ : BufTy).Contents (Elt F) → (⟨S6000000, .i32⟩ : BufTy).Contents (Elt F)),
    binary main_arg6 main_v481 main_v482 (cmpi .slt : (⟨S6000000, .i32⟩ : BufTy).Contents (Elt F) → (⟨S6000000, .i32⟩ : BufTy).Contents (Elt F) → (⟨S6000000, .i1⟩ : BufTy).Contents (Elt F)),
    nullary main_c_114 (constantI S_ 32 2000000#32),
    unary main_c_114 main_v483 (broadcastInDim S6000000 ![] bcast_S_S6000000 : (⟨S_, .i32⟩ : BufTy).Contents (Elt F) → (⟨S6000000, .i32⟩ : BufTy).Contents (Elt F)),
    binary main_arg6 main_v483 main_v484 (addi : (⟨S6000000, .i32⟩ : BufTy).Contents (Elt F) → (⟨S6000000, .i32⟩ : BufTy).Contents (Elt F) → (⟨S6000000, .i32⟩ : BufTy).Contents (Elt F)),
    ternary main_v482 main_v484 main_arg6 main_v485 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v485 main_v486 (broadcastInDim S6000000x1 ![0] bcast_S6000000_S6000000x1_0 : (⟨S6000000, .i32⟩ : BufTy).Contents (Elt F) → (⟨S6000000x1, .i32⟩ : BufTy).Contents (Elt F)),
    binary main_v347 main_v486 main_v487 ((fun x i => Host.gather gather_S2000000x2_S6000000x1_S6000000x2_1_0_n_n_0_1_12 x i) : (⟨S2000000x2, .f32⟩ : BufTy).Contents (Elt F) → (⟨S6000000x1, .i32⟩ : BufTy).Contents (Elt F) → (⟨S6000000x2, .f32⟩ : BufTy).Contents (Elt F)),
    binary main_v480 main_v487 main_v488 (addf : (⟨S6000000x2, .f32⟩ : BufTy).Contents (Elt F) → (⟨S6000000x2, .f32⟩ : BufTy).Contents (Elt F) → (⟨S6000000x2, .f32⟩ : BufTy).Contents (Elt F)),
    nullary main_cst_115 (constant S_ .f32 0x00000000#32),
    unary main_cst_115 main_v489 (broadcastInDim S2000000x2 ![] bcast_S_S2000000x2 : (⟨S_, .f32⟩ : BufTy).Contents (Elt F) → (⟨S2000000x2, .f32⟩ : BufTy).Contents (Elt F)),
    unary main_arg6 main_v490 (broadcastInDim S6000000x1 ![0] bcast_S6000000_S6000000x1_0 : (⟨S6000000, .i32⟩ : BufTy).Contents (Elt F) → (⟨S6000000x1, .i32⟩ : BufTy).Contents (Elt F)),
    ternary main_v489 main_v490 main_v488 main_v491 ((fun x i u => Host.scatterAdd scatter_S2000000x2_S6000000x1_S6000000x2_1_0_0_1 x i u) : (⟨S2000000x2, .f32⟩ : BufTy).Contents (Elt F) → (⟨S6000000x1, .i32⟩ : BufTy).Contents (Elt F) → (⟨S6000000x2, .f32⟩ : BufTy).Contents (Elt F) → (⟨S2000000x2, .f32⟩ : BufTy).Contents (Elt F)) ]

theorem ccn2_sub : Sub (F := F) ccn2 := by
  unfold Sub ccn2
  exact ⟨nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., binary_bufs_sub .., nullary_bufs_sub .., unary_bufs_sub .., binary_bufs_sub ..,
    ternary_bufs_sub .., unary_bufs_sub .., binary_bufs_sub .., binary_bufs_sub .., unary_bufs_sub ..,
    nullary_bufs_sub .., unary_bufs_sub .., binary_bufs_sub .., nullary_bufs_sub .., unary_bufs_sub ..,
    binary_bufs_sub .., ternary_bufs_sub .., unary_bufs_sub .., binary_bufs_sub .., unary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    binary_bufs_sub .., nullary_bufs_sub .., unary_bufs_sub .., unary_bufs_sub .., ternary_bufs_sub ..⟩

theorem ccn2_fresh : Fresh (F := F) ccn2 := by
  unfold Fresh ccn2
  fresh_lit

/-- The references that stretch writes. -/
abbrev ccn2_W : List (Ref sig .tc) :=
  [main_c_107, main_v456, main_v457, main_c_108, main_v458, main_v459, main_v460, main_v461, main_v462,
   main_c_109, main_v463, main_v464, main_c_110, main_v465, main_v466, main_v467, main_v468, main_v469, main_v470,
   main_v471, main_c_111, main_v472, main_v473, main_c_112, main_v474, main_v475, main_v476, main_v477, main_v478,
   main_v479, main_v480, main_c_113, main_v481, main_v482, main_c_114, main_v483, main_v484, main_v485, main_v486,
   main_v487, main_v488, main_cst_115, main_v489, main_v490, main_v491]

theorem ccn2_writes : Writes (F := F) ccn2 ccn2_W := by
  unfold Writes ccn2
  simp only [List.Forall]
  exact ⟨by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one⟩

/-- @main's statements 611 … 619: layer 2, the affine map of the variables. -/
def av2 : List (HloOp τ sig (Elt F)) :=
  [ nary ![main_v383, main_v419, main_v338] main_v492 (fun u => concatenate S500000x6 1 [⟨S500000x2, u 0⟩, ⟨S500000x2, u 1⟩, ⟨S500000x2, u 2⟩] concatenates_S500000x2_S500000x2_S500000x2_S500000x6_d1),
    unary main_arg14 main_v493 ((extractStridedSlice S1x6x2 ![2, 0, 0] · slices_S4x6x2_S1x6x2_2_0_0) : (⟨S4x6x2, .f32⟩ : BufTy).Contents (Elt F) → (⟨S1x6x2, .f32⟩ : BufTy).Contents (Elt F)),
    reshape main_v493 main_v494 rfl shapeCasts_S1x6x2_S6x2,
    binary main_v492 main_v494 main_v495 ((fun l r => Host.dotGeneral dot_S500000x6_S6x2_S500000x2_1_0_0_1_n_n none l r) : (⟨S500000x6, .f32⟩ : BufTy).Contents (Elt F) → (⟨S6x2, .f32⟩ : BufTy).Contents (Elt F) → (⟨S500000x2, .f32⟩ : BufTy).Contents (Elt F)),
    unary main_arg15 main_v496 ((extractStridedSlice S1x2 ![2, 0] · slices_S4x2_S1x2_2_0) : (⟨S4x2, .f32⟩ : BufTy).Contents (Elt F) → (⟨S1x2, .f32⟩ : BufTy).Contents (Elt F)),
    reshape main_v496 main_v497 rfl shapeCasts_S1x2_S2,
    unary main_v497 main_v498 (broadcastInDim S1x2 ![1] bcast_S2_S1x2_1 : (⟨S2, .f32⟩ : BufTy).Contents (Elt F) → (⟨S1x2, .f32⟩ : BufTy).Contents (Elt F)),
    unary main_v498 main_v499 (broadcastInDim S500000x2 ![0, 1] bcast_S1x2_S500000x2_0_1 : (⟨S1x2, .f32⟩ : BufTy).Contents (Elt F) → (⟨S500000x2, .f32⟩ : BufTy).Contents (Elt F)),
    binary main_v495 main_v499 main_v500 (addf : (⟨S500000x2, .f32⟩ : BufTy).Contents (Elt F) → (⟨S500000x2, .f32⟩ : BufTy).Contents (Elt F) → (⟨S500000x2, .f32⟩ : BufTy).Contents (Elt F)) ]

theorem av2_sub : Sub (F := F) av2 := by
  unfold Sub av2
  exact ⟨nary_bufs_sub .., unary_bufs_sub .., reshape_bufs_sub .., binary_bufs_sub .., unary_bufs_sub ..,
    reshape_bufs_sub .., unary_bufs_sub .., unary_bufs_sub .., binary_bufs_sub ..⟩

theorem av2_fresh : Fresh (F := F) av2 := by
  unfold Fresh av2
  fresh_lit

/-- The references that stretch writes. -/
abbrev av2_W : List (Ref sig .tc) :=
  [main_v492, main_v493, main_v494, main_v495, main_v496, main_v497, main_v498, main_v499, main_v500]

theorem av2_writes : Writes (F := F) av2 av2_W := by
  unfold Writes av2
  simp only [List.Forall]
  exact ⟨by writes_one, by writes_one, by writes_one, by writes_one, by writes_one, by writes_one, by writes_one,
    by writes_one, by writes_one⟩

/-- @main's statements 620 … 628: layer 2, the affine map of the clauses. -/
def ac2 : List (HloOp τ sig (Elt F)) :=
  [ nary ![main_v455, main_v491, main_v347] main_v501 (fun u => concatenate S2000000x6 1 [⟨S2000000x2, u 0⟩, ⟨S2000000x2, u 1⟩, ⟨S2000000x2, u 2⟩] concatenates_S2000000x2_S2000000x2_S2000000x2_S2000000x6_d1),
    unary main_arg12 main_v502 ((extractStridedSlice S1x6x2 ![2, 0, 0] · slices_S4x6x2_S1x6x2_2_0_0) : (⟨S4x6x2, .f32⟩ : BufTy).Contents (Elt F) → (⟨S1x6x2, .f32⟩ : BufTy).Contents (Elt F)),
    reshape main_v502 main_v503 rfl shapeCasts_S1x6x2_S6x2,
    binary main_v501 main_v503 main_v504 ((fun l r => Host.dotGeneral dot_S2000000x6_S6x2_S2000000x2_1_0_0_1_n_n none l r) : (⟨S2000000x6, .f32⟩ : BufTy).Contents (Elt F) → (⟨S6x2, .f32⟩ : BufTy).Contents (Elt F) → (⟨S2000000x2, .f32⟩ : BufTy).Contents (Elt F)),
    unary main_arg13 main_v505 ((extractStridedSlice S1x2 ![2, 0] · slices_S4x2_S1x2_2_0) : (⟨S4x2, .f32⟩ : BufTy).Contents (Elt F) → (⟨S1x2, .f32⟩ : BufTy).Contents (Elt F)),
    reshape main_v505 main_v506 rfl shapeCasts_S1x2_S2,
    unary main_v506 main_v507 (broadcastInDim S1x2 ![1] bcast_S2_S1x2_1 : (⟨S2, .f32⟩ : BufTy).Contents (Elt F) → (⟨S1x2, .f32⟩ : BufTy).Contents (Elt F)),
    unary main_v507 main_v508 (broadcastInDim S2000000x2 ![0, 1] bcast_S1x2_S2000000x2_0_1 : (⟨S1x2, .f32⟩ : BufTy).Contents (Elt F) → (⟨S2000000x2, .f32⟩ : BufTy).Contents (Elt F)),
    binary main_v504 main_v508 main_v509 (addf : (⟨S2000000x2, .f32⟩ : BufTy).Contents (Elt F) → (⟨S2000000x2, .f32⟩ : BufTy).Contents (Elt F) → (⟨S2000000x2, .f32⟩ : BufTy).Contents (Elt F)) ]

theorem ac2_sub : Sub (F := F) ac2 := by
  unfold Sub ac2
  exact ⟨nary_bufs_sub .., unary_bufs_sub .., reshape_bufs_sub .., binary_bufs_sub .., unary_bufs_sub ..,
    reshape_bufs_sub .., unary_bufs_sub .., unary_bufs_sub .., binary_bufs_sub ..⟩

theorem ac2_fresh : Fresh (F := F) ac2 := by
  unfold Fresh ac2
  fresh_lit

/-- The references that stretch writes. -/
abbrev ac2_W : List (Ref sig .tc) :=
  [main_v501, main_v502, main_v503, main_v504, main_v505, main_v506, main_v507, main_v508, main_v509]

theorem ac2_writes : Writes (F := F) ac2 ac2_W := by
  unfold Writes ac2
  simp only [List.Forall]
  exact ⟨by writes_one, by writes_one, by writes_one, by writes_one, by writes_one, by writes_one, by writes_one,
    by writes_one, by writes_one⟩

set_option maxRecDepth 8192 in
set_option maxHeartbeats 2000000 in
theorem cvp2_out (V : Valuation τ sig (Elt F)) :
    after cvp2 V (Proc.devRef .tc main_v383)
      = convV (V (Proc.devRef .tc main_v347)) (V (Proc.devRef .tc main_v338)) (V (Proc.devRef .tc main_v7)) (V (Proc.devRef .tc main_v15)) (V (Proc.devRef .tc main_arg4)) (V (Proc.devRef .tc main_arg5)) := by
  unfold cvp2; stretch_read

set_option maxRecDepth 8192 in
set_option maxHeartbeats 2000000 in
theorem cvn2_out (V : Valuation τ sig (Elt F)) :
    after cvn2 V (Proc.devRef .tc main_v419)
      = convV (V (Proc.devRef .tc main_v347)) (V (Proc.devRef .tc main_v338)) (V (Proc.devRef .tc main_v7)) (V (Proc.devRef .tc main_v15)) (V (Proc.devRef .tc main_arg6)) (V (Proc.devRef .tc main_arg7)) := by
  unfold cvn2; stretch_read

set_option maxRecDepth 8192 in
set_option maxHeartbeats 2000000 in
theorem ccp2_out (V : Valuation τ sig (Elt F)) :
    after ccp2 V (Proc.devRef .tc main_v455)
      = convC (V (Proc.devRef .tc main_v347)) (V (Proc.devRef .tc main_v338)) (V (Proc.devRef .tc main_v7)) (V (Proc.devRef .tc main_v15)) (V (Proc.devRef .tc main_arg4)) (V (Proc.devRef .tc main_arg5)) := by
  unfold ccp2; stretch_read

set_option maxRecDepth 8192 in
set_option maxHeartbeats 2000000 in
theorem ccn2_out (V : Valuation τ sig (Elt F)) :
    after ccn2 V (Proc.devRef .tc main_v491)
      = convC (V (Proc.devRef .tc main_v347)) (V (Proc.devRef .tc main_v338)) (V (Proc.devRef .tc main_v7)) (V (Proc.devRef .tc main_v15)) (V (Proc.devRef .tc main_arg6)) (V (Proc.devRef .tc main_arg7)) := by
  unfold ccn2; stretch_read

set_option maxRecDepth 8192 in
set_option maxHeartbeats 2000000 in
theorem av2_out (V : Valuation τ sig (Elt F)) :
    after av2 V (Proc.devRef .tc main_v500)
      = affV ![2, 0, 0] slices_S4x6x2_S1x6x2_2_0_0 ![2, 0] slices_S4x2_S1x2_2_0 (V (Proc.devRef .tc main_v383)) (V (Proc.devRef .tc main_v419)) (V (Proc.devRef .tc main_v338)) (V (Proc.devRef .tc main_arg14)) (V (Proc.devRef .tc main_arg15)) := by
  unfold av2; stretch_read

set_option maxRecDepth 8192 in
set_option maxHeartbeats 2000000 in
theorem ac2_out (V : Valuation τ sig (Elt F)) :
    after ac2 V (Proc.devRef .tc main_v509)
      = affC ![2, 0, 0] slices_S4x6x2_S1x6x2_2_0_0 ![2, 0] slices_S4x2_S1x2_2_0 (V (Proc.devRef .tc main_v455)) (V (Proc.devRef .tc main_v491)) (V (Proc.devRef .tc main_v347)) (V (Proc.devRef .tc main_arg12)) (V (Proc.devRef .tc main_arg13)) := by
  unfold ac2; stretch_read

/-- Layer 2: @main's statements 431 … 628. -/
def L2 : List (HloOp τ sig (Elt F)) := cvp2 ++ (cvn2 ++ (ccp2 ++ (ccn2 ++ (av2 ++ ac2))))

theorem L2_sub : Sub (F := F) L2 :=
  cvp2_sub.append (cvn2_sub.append (ccp2_sub.append (ccn2_sub.append (av2_sub.append ac2_sub))))
theorem L2_fresh : Fresh (F := F) L2 :=
  cvp2_fresh.append (cvn2_fresh.append (ccp2_fresh.append (ccn2_fresh.append (av2_fresh.append ac2_fresh))))

/-- The layer as a step on the two states: from any contents, the new variable state and the new clause state are the
    layer functions of the old two and of the ten values every layer reads, and those and the arguments stay. -/
theorem L2_step (V : Valuation τ sig (Elt F)) :
    after L2 V (Proc.devRef .tc main_v500) = layerV ![2, 0, 0] slices_S4x6x2_S1x6x2_2_0_0 ![2, 0] slices_S4x2_S1x2_2_0 (envAt V) (V (Proc.devRef .tc main_v347)) (V (Proc.devRef .tc main_v338))
    ∧ after L2 V (Proc.devRef .tc main_v509) = layerC ![2, 0, 0] slices_S4x6x2_S1x6x2_2_0_0 ![2, 0] slices_S4x2_S1x2_2_0 (envAt V) (V (Proc.devRef .tc main_v347)) (V (Proc.devRef .tc main_v338))
    ∧ ∀ r ∈ keepRefs, after L2 V (Proc.devRef .tc r) = V (Proc.devRef .tc r) := by
  unfold L2
  simp only [after_append]
  refine ⟨?_, ?_, ?_⟩
  · -- the variables: the affine map reads the two sums, the old state and its weights, each kept since it was written
    rw [ac2_writes.keep _ (show main_v500 ∉ ac2_W by decide), av2_out,
      ccn2_writes.keep _ (show main_v383 ∉ ccn2_W by decide),
      ccn2_writes.keep _ (show main_v419 ∉ ccn2_W by decide),
      ccn2_writes.keep _ (show main_v338 ∉ ccn2_W by decide),
      ccn2_writes.keep _ (show main_arg14 ∉ ccn2_W by decide),
      ccn2_writes.keep _ (show main_arg15 ∉ ccn2_W by decide),
      ccp2_writes.keep _ (show main_v383 ∉ ccp2_W by decide),
      ccp2_writes.keep _ (show main_v419 ∉ ccp2_W by decide),
      ccp2_writes.keep _ (show main_v338 ∉ ccp2_W by decide),
      ccp2_writes.keep _ (show main_arg14 ∉ ccp2_W by decide),
      ccp2_writes.keep _ (show main_arg15 ∉ ccp2_W by decide),
      cvn2_writes.keep _ (show main_v383 ∉ cvn2_W by decide),
      cvn2_writes.keep _ (show main_v338 ∉ cvn2_W by decide),
      cvn2_writes.keep _ (show main_arg14 ∉ cvn2_W by decide),
      cvn2_writes.keep _ (show main_arg15 ∉ cvn2_W by decide), cvn2_out,
      cvp2_out,
      cvp2_writes.keep _ (show main_v338 ∉ cvp2_W by decide),
      cvp2_writes.keep _ (show main_arg14 ∉ cvp2_W by decide),
      cvp2_writes.keep _ (show main_arg15 ∉ cvp2_W by decide),
      cvp2_writes.keep _ (show main_v347 ∉ cvp2_W by decide),
      cvp2_writes.keep _ (show main_v7 ∉ cvp2_W by decide),
      cvp2_writes.keep _ (show main_v15 ∉ cvp2_W by decide),
      cvp2_writes.keep _ (show main_arg6 ∉ cvp2_W by decide),
      cvp2_writes.keep _ (show main_arg7 ∉ cvp2_W by decide)]
    rfl
  · -- the clauses
    rw [ac2_out,
      av2_writes.keep _ (show main_v455 ∉ av2_W by decide),
      av2_writes.keep _ (show main_v491 ∉ av2_W by decide),
      av2_writes.keep _ (show main_v347 ∉ av2_W by decide),
      av2_writes.keep _ (show main_arg12 ∉ av2_W by decide),
      av2_writes.keep _ (show main_arg13 ∉ av2_W by decide),
      ccn2_writes.keep _ (show main_v455 ∉ ccn2_W by decide),
      ccn2_writes.keep _ (show main_v347 ∉ ccn2_W by decide),
      ccn2_writes.keep _ (show main_arg12 ∉ ccn2_W by decide),
      ccn2_writes.keep _ (show main_arg13 ∉ ccn2_W by decide), ccn2_out,
      ccp2_out,
      ccp2_writes.keep _ (show main_v347 ∉ ccp2_W by decide),
      ccp2_writes.keep _ (show main_arg12 ∉ ccp2_W by decide),
      ccp2_writes.keep _ (show main_arg13 ∉ ccp2_W by decide),
      ccp2_writes.keep _ (show main_v338 ∉ ccp2_W by decide),
      ccp2_writes.keep _ (show main_v7 ∉ ccp2_W by decide),
      ccp2_writes.keep _ (show main_v15 ∉ ccp2_W by decide),
      ccp2_writes.keep _ (show main_arg6 ∉ ccp2_W by decide),
      ccp2_writes.keep _ (show main_arg7 ∉ ccp2_W by decide),
      cvn2_writes.keep _ (show main_v347 ∉ cvn2_W by decide),
      cvn2_writes.keep _ (show main_arg12 ∉ cvn2_W by decide),
      cvn2_writes.keep _ (show main_arg13 ∉ cvn2_W by decide),
      cvn2_writes.keep _ (show main_v338 ∉ cvn2_W by decide),
      cvn2_writes.keep _ (show main_v7 ∉ cvn2_W by decide),
      cvn2_writes.keep _ (show main_v15 ∉ cvn2_W by decide),
      cvn2_writes.keep _ (show main_arg6 ∉ cvn2_W by decide),
      cvn2_writes.keep _ (show main_arg7 ∉ cvn2_W by decide),
      cvn2_writes.keep _ (show main_arg4 ∉ cvn2_W by decide),
      cvn2_writes.keep _ (show main_arg5 ∉ cvn2_W by decide),
      cvp2_writes.keep _ (show main_v347 ∉ cvp2_W by decide),
      cvp2_writes.keep _ (show main_arg12 ∉ cvp2_W by decide),
      cvp2_writes.keep _ (show main_arg13 ∉ cvp2_W by decide),
      cvp2_writes.keep _ (show main_v338 ∉ cvp2_W by decide),
      cvp2_writes.keep _ (show main_v7 ∉ cvp2_W by decide),
      cvp2_writes.keep _ (show main_v15 ∉ cvp2_W by decide),
      cvp2_writes.keep _ (show main_arg6 ∉ cvp2_W by decide),
      cvp2_writes.keep _ (show main_arg7 ∉ cvp2_W by decide),
      cvp2_writes.keep _ (show main_arg4 ∉ cvp2_W by decide),
      cvp2_writes.keep _ (show main_arg5 ∉ cvp2_W by decide)]
    rfl
  · intro r hr
    rw [ac2_writes.keep _ ((by decide : ∀ r ∈ keepRefs, r ∉ ac2_W) r hr),
      av2_writes.keep _ ((by decide : ∀ r ∈ keepRefs, r ∉ av2_W) r hr),
      ccn2_writes.keep _ ((by decide : ∀ r ∈ keepRefs, r ∉ ccn2_W) r hr),
      ccp2_writes.keep _ ((by decide : ∀ r ∈ keepRefs, r ∉ ccp2_W) r hr),
      cvn2_writes.keep _ ((by decide : ∀ r ∈ keepRefs, r ∉ cvn2_W) r hr),
      cvp2_writes.keep _ ((by decide : ∀ r ∈ keepRefs, r ∉ cvp2_W) r hr)]

end Cert.ReferenceIdeal.Hand

end
-- ==== Proof.Ref.L3.lean ====
import proofs.«149588_j66838281060723_2_alg».proof.Proof.Ref.Tac

noncomputable section

namespace Cert.ReferenceIdeal.Hand

open Idealize.ShloMosaic Idealize.SL.Sem Cert.ReferenceIdeal Idealize.ShloMosaic.StableHlo Idealize.ShloMosaic.TcCoe
open Cert.ReferenceIdeal.Facts₀ Cert.ReferenceIdeal.Facts

variable {F : FTy → Type} [FloatOps F] [Facts]
/-- @main's statements 629 … 673: layer 3, the convolution toward the variables over the positive edges. -/
def cvp3 : List (HloOp τ sig (Elt F)) :=
  [ nullary main_c_116 (constantI S_ 32 0#32),
    unary main_c_116 main_v510 (broadcastInDim S6000000 ![] bcast_S_S6000000 : (⟨S_, .i32⟩ : BufTy).Contents (Elt F) → (⟨S6000000, .i32⟩ : BufTy).Contents (Elt F)),
    binary main_arg4 main_v510 main_v511 (cmpi .slt : (⟨S6000000, .i32⟩ : BufTy).Contents (Elt F) → (⟨S6000000, .i32⟩ : BufTy).Contents (Elt F) → (⟨S6000000, .i1⟩ : BufTy).Contents (Elt F)),
    nullary main_c_117 (constantI S_ 32 2000000#32),
    unary main_c_117 main_v512 (broadcastInDim S6000000 ![] bcast_S_S6000000 : (⟨S_, .i32⟩ : BufTy).Contents (Elt F) → (⟨S6000000, .i32⟩ : BufTy).Contents (Elt F)),
    binary main_arg4 main_v512 main_v513 (addi : (⟨S6000000, .i32⟩ : BufTy).Contents (Elt F) → (⟨S6000000, .i32⟩ : BufTy).Contents (Elt F) → (⟨S6000000, .i32⟩ : BufTy).Contents (Elt F)),
    ternary main_v511 main_v513 main_arg4 main_v514 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v514 main_v515 (broadcastInDim S6000000x1 ![0] bcast_S6000000_S6000000x1_0 : (⟨S6000000, .i32⟩ : BufTy).Contents (Elt F) → (⟨S6000000x1, .i32⟩ : BufTy).Contents (Elt F)),
    binary main_v7 main_v515 main_v516 ((fun x i => Host.gather gather_S2000000_S6000000x1_S6000000_n_0_n_n_0_1_1 x i) : (⟨S2000000, .f32⟩ : BufTy).Contents (Elt F) → (⟨S6000000x1, .i32⟩ : BufTy).Contents (Elt F) → (⟨S6000000, .f32⟩ : BufTy).Contents (Elt F)),
    nullary main_c_118 (constantI S_ 32 0#32),
    unary main_c_118 main_v517 (broadcastInDim S6000000 ![] bcast_S_S6000000 : (⟨S_, .i32⟩ : BufTy).Contents (Elt F) → (⟨S6000000, .i32⟩ : BufTy).Contents (Elt F)),
    binary main_arg5 main_v517 main_v518 (cmpi .slt : (⟨S6000000, .i32⟩ : BufTy).Contents (Elt F) → (⟨S6000000, .i32⟩ : BufTy).Contents (Elt F) → (⟨S6000000, .i1⟩ : BufTy).Contents (Elt F)),
    nullary main_c_119 (constantI S_ 32 500000#32),
    unary main_c_119 main_v519 (broadcastInDim S6000000 ![] bcast_S_S6000000 : (⟨S_, .i32⟩ : BufTy).Contents (Elt F) → (⟨S6000000, .i32⟩ : BufTy).Contents (Elt F)),
    binary main_arg5 main_v519 main_v520 (addi : (⟨S6000000, .i32⟩ : BufTy).Contents (Elt F) → (⟨S6000000, .i32⟩ : BufTy).Contents (Elt F) → (⟨S6000000, .i32⟩ : BufTy).Contents (Elt F)),
    ternary main_v518 main_v520 main_arg5 main_v521 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v521 main_v522 (broadcastInDim S6000000x1 ![0] bcast_S6000000_S6000000x1_0 : (⟨S6000000, .i32⟩ : BufTy).Contents (Elt F) → (⟨S6000000x1, .i32⟩ : BufTy).Contents (Elt F)),
    binary main_v15 main_v522 main_v523 ((fun x i => Host.gather gather_S500000_S6000000x1_S6000000_n_0_n_n_0_1_1 x i) : (⟨S500000, .f32⟩ : BufTy).Contents (Elt F) → (⟨S6000000x1, .i32⟩ : BufTy).Contents (Elt F) → (⟨S6000000, .f32⟩ : BufTy).Contents (Elt F)),
    binary main_v516 main_v523 main_v524 (mulf : (⟨S6000000, .f32⟩ : BufTy).Contents (Elt F) → (⟨S6000000, .f32⟩ : BufTy).Contents (Elt F) → (⟨S6000000, .f32⟩ : BufTy).Contents (Elt F)),
    unary main_v524 main_v525 (broadcastInDim S6000000x1 ![0] bcast_S6000000_S6000000x1_0 : (⟨S6000000, .f32⟩ : BufTy).Contents (Elt F) → (⟨S6000000x1, .f32⟩ : BufTy).Contents (Elt F)),
    nullary main_c_120 (constantI S_ 32 0#32),
    unary main_c_120 main_v526 (broadcastInDim S6000000 ![] bcast_S_S6000000 : (⟨S_, .i32⟩ : BufTy).Contents (Elt F) → (⟨S6000000, .i32⟩ : BufTy).Contents (Elt F)),
    binary main_arg4 main_v526 main_v527 (cmpi .slt : (⟨S6000000, .i32⟩ : BufTy).Contents (Elt F) → (⟨S6000000, .i32⟩ : BufTy).Contents (Elt F) → (⟨S6000000, .i1⟩ : BufTy).Contents (Elt F)),
    nullary main_c_121 (constantI S_ 32 2000000#32),
    unary main_c_121 main_v528 (broadcastInDim S6000000 ![] bcast_S_S6000000 : (⟨S_, .i32⟩ : BufTy).Contents (Elt F) → (⟨S6000000, .i32⟩ : BufTy).Contents (Elt F)),
    binary main_arg4 main_v528 main_v529 (addi : (⟨S6000000, .i32⟩ : BufTy).Contents (Elt F) → (⟨S6000000, .i32⟩ : BufTy).Contents (Elt F) → (⟨S6000000, .i32⟩ : BufTy).Contents (Elt F)),
    ternary main_v527 main_v529 main_arg4 main_v530 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v530 main_v531 (broadcastInDim S6000000x1 ![0] bcast_S6000000_S6000000x1_0 : (⟨S6000000, .i32⟩ : BufTy).Contents (Elt F) → (⟨S6000000x1, .i32⟩ : BufTy).Contents (Elt F)),
    binary main_v509 main_v531 main_v532 ((fun x i => Host.gather gather_S2000000x2_S6000000x1_S6000000x2_1_0_n_n_0_1_12 x i) : (⟨S2000000x2, .f32⟩ : BufTy).Contents (Elt F) → (⟨S6000000x1, .i32⟩ : BufTy).Contents (Elt F) → (⟨S6000000x2, .f32⟩ : BufTy).Contents (Elt F)),
    unary main_v525 main_v533 (broadcastInDim S6000000x2 ![0, 1] bcast_S6000000x1_S6000000x2_0_1 : (⟨S6000000x1, .f32⟩ : BufTy).Contents (Elt F) → (⟨S6000000x2, .f32⟩ : BufTy).Contents (Elt F)),
    binary main_v533 main_v532 main_v534 (mulf : (⟨S6000000x2, .f32⟩ : BufTy).Contents (Elt F) → (⟨S6000000x2, .f32⟩ : BufTy).Contents (Elt F) → (⟨S6000000x2, .f32⟩ : BufTy).Contents (Elt F)),
    nullary main_c_122 (constantI S_ 32 0#32),
    unary main_c_122 main_v535 (broadcastInDim S6000000 ![] bcast_S_S6000000 : (⟨S_, .i32⟩ : BufTy).Contents (Elt F) → (⟨S6000000, .i32⟩ : BufTy).Contents (Elt F)),
    binary main_arg5 main_v535 main_v536 (cmpi .slt : (⟨S6000000, .i32⟩ : BufTy).Contents (Elt F) → (⟨S6000000, .i32⟩ : BufTy).Contents (Elt F) → (⟨S6000000, .i1⟩ : BufTy).Contents (Elt F)),
    nullary main_c_123 (constantI S_ 32 500000#32),
    unary main_c_123 main_v537 (broadcastInDim S6000000 ![] bcast_S_S6000000 : (⟨S_, .i32⟩ : BufTy).Contents (Elt F) → (⟨S6000000, .i32⟩ : BufTy).Contents (Elt F)),
    binary main_arg5 main_v537 main_v538 (addi : (⟨S6000000, .i32⟩ : BufTy).Contents (Elt F) → (⟨S6000000, .i32⟩ : BufTy).Contents (Elt F) → (⟨S6000000, .i32⟩ : BufTy).Contents (Elt F)),
    ternary main_v536 main_v538 main_arg5 main_v539 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v539 main_v540 (broadcastInDim S6000000x1 ![0] bcast_S6000000_S6000000x1_0 : (⟨S6000000, .i32⟩ : BufTy).Contents (Elt F) → (⟨S6000000x1, .i32⟩ : BufTy).Contents (Elt F)),
    binary main_v500 main_v540 main_v541 ((fun x i => Host.gather gather_S500000x2_S6000000x1_S6000000x2_1_0_n_n_0_1_12 x i) : (⟨S500000x2, .f32⟩ : BufTy).Contents (Elt F) → (⟨S6000000x1, .i32⟩ : BufTy).Contents (Elt F) → (⟨S6000000x2, .f32⟩ : BufTy).Contents (Elt F)),
    binary main_v534 main_v541 main_v542 (addf : (⟨S6000000x2, .f32⟩ : BufTy).Contents (Elt F) → (⟨S6000000x2, .f32⟩ : BufTy).Contents (Elt F) → (⟨S6000000x2, .f32⟩ : BufTy).Contents (Elt F)),
    nullary main_cst_124 (constant S_ .f32 0x00000000#32),
    unary main_cst_124 main_v543 (broadcastInDim S500000x2 ![] bcast_S_S500000x2 : (⟨S_, .f32⟩ : BufTy).Contents (Elt F) → (⟨S500000x2, .f32⟩ : BufTy).Contents (Elt F)),
    unary main_arg5 main_v544 (broadcastInDim S6000000x1 ![0] bcast_S6000000_S6000000x1_0 : (⟨S6000000, .i32⟩ : BufTy).Contents (Elt F) → (⟨S6000000x1, .i32⟩ : BufTy).Contents (Elt F)),
    ternary main_v543 main_v544 main_v542 main_v545 ((fun x i u => Host.scatterAdd scatter_S500000x2_S6000000x1_S6000000x2_1_0_0_1 x i u) : (⟨S500000x2, .f32⟩ : BufTy).Contents (Elt F) → (⟨S6000000x1, .i32⟩ : BufTy).Contents (Elt F) → (⟨S6000000x2, .f32⟩ : BufTy).Contents (Elt F) → (⟨S500000x2, .f32⟩ : BufTy).Contents (Elt F)) ]

theorem cvp3_sub : Sub (F := F) cvp3 := by
  unfold Sub cvp3
  exact ⟨nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., binary_bufs_sub .., nullary_bufs_sub .., unary_bufs_sub .., binary_bufs_sub ..,
    ternary_bufs_sub .., unary_bufs_sub .., binary_bufs_sub .., binary_bufs_sub .., unary_bufs_sub ..,
    nullary_bufs_sub .., unary_bufs_sub .., binary_bufs_sub .., nullary_bufs_sub .., unary_bufs_sub ..,
    binary_bufs_sub .., ternary_bufs_sub .., unary_bufs_sub .., binary_bufs_sub .., unary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    binary_bufs_sub .., nullary_bufs_sub .., unary_bufs_sub .., unary_bufs_sub .., ternary_bufs_sub ..⟩

theorem cvp3_fresh : Fresh (F := F) cvp3 := by
  unfold Fresh cvp3
  fresh_lit

/-- The references that stretch writes. -/
abbrev cvp3_W : List (Ref sig .tc) :=
  [main_c_116, main_v510, main_v511, main_c_117, main_v512, main_v513, main_v514, main_v515, main_v516,
   main_c_118, main_v517, main_v518, main_c_119, main_v519, main_v520, main_v521, main_v522, main_v523, main_v524,
   main_v525, main_c_120, main_v526, main_v527, main_c_121, main_v528, main_v529, main_v530, main_v531, main_v532,
   main_v533, main_v534, main_c_122, main_v535, main_v536, main_c_123, main_v537, main_v538, main_v539, main_v540,
   main_v541, main_v542, main_cst_124, main_v543, main_v544, main_v545]

theorem cvp3_writes : Writes (F := F) cvp3 cvp3_W := by
  unfold Writes cvp3
  simp only [List.Forall]
  exact ⟨by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one⟩

/-- @main's statements 674 … 718: layer 3, the convolution toward the variables over the negative edges. -/
def cvn3 : List (HloOp τ sig (Elt F)) :=
  [ nullary main_c_125 (constantI S_ 32 0#32),
    unary main_c_125 main_v546 (broadcastInDim S6000000 ![] bcast_S_S6000000 : (⟨S_, .i32⟩ : BufTy).Contents (Elt F) → (⟨S6000000, .i32⟩ : BufTy).Contents (Elt F)),
    binary main_arg6 main_v546 main_v547 (cmpi .slt : (⟨S6000000, .i32⟩ : BufTy).Contents (Elt F) → (⟨S6000000, .i32⟩ : BufTy).Contents (Elt F) → (⟨S6000000, .i1⟩ : BufTy).Contents (Elt F)),
    nullary main_c_126 (constantI S_ 32 2000000#32),
    unary main_c_126 main_v548 (broadcastInDim S6000000 ![] bcast_S_S6000000 : (⟨S_, .i32⟩ : BufTy).Contents (Elt F) → (⟨S6000000, .i32⟩ : BufTy).Contents (Elt F)),
    binary main_arg6 main_v548 main_v549 (addi : (⟨S6000000, .i32⟩ : BufTy).Contents (Elt F) → (⟨S6000000, .i32⟩ : BufTy).Contents (Elt F) → (⟨S6000000, .i32⟩ : BufTy).Contents (Elt F)),
    ternary main_v547 main_v549 main_arg6 main_v550 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v550 main_v551 (broadcastInDim S6000000x1 ![0] bcast_S6000000_S6000000x1_0 : (⟨S6000000, .i32⟩ : BufTy).Contents (Elt F) → (⟨S6000000x1, .i32⟩ : BufTy).Contents (Elt F)),
    binary main_v7 main_v551 main_v552 ((fun x i => Host.gather gather_S2000000_S6000000x1_S6000000_n_0_n_n_0_1_1 x i) : (⟨S2000000, .f32⟩ : BufTy).Contents (Elt F) → (⟨S6000000x1, .i32⟩ : BufTy).Contents (Elt F) → (⟨S6000000, .f32⟩ : BufTy).Contents (Elt F)),
    nullary main_c_127 (constantI S_ 32 0#32),
    unary main_c_127 main_v553 (broadcastInDim S6000000 ![] bcast_S_S6000000 : (⟨S_, .i32⟩ : BufTy).Contents (Elt F) → (⟨S6000000, .i32⟩ : BufTy).Contents (Elt F)),
    binary main_arg7 main_v553 main_v554 (cmpi .slt : (⟨S6000000, .i32⟩ : BufTy).Contents (Elt F) → (⟨S6000000, .i32⟩ : BufTy).Contents (Elt F) → (⟨S6000000, .i1⟩ : BufTy).Contents (Elt F)),
    nullary main_c_128 (constantI S_ 32 500000#32),
    unary main_c_128 main_v555 (broadcastInDim S6000000 ![] bcast_S_S6000000 : (⟨S_, .i32⟩ : BufTy).Contents (Elt F) → (⟨S6000000, .i32⟩ : BufTy).Contents (Elt F)),
    binary main_arg7 main_v555 main_v556 (addi : (⟨S6000000, .i32⟩ : BufTy).Contents (Elt F) → (⟨S6000000, .i32⟩ : BufTy).Contents (Elt F) → (⟨S6000000, .i32⟩ : BufTy).Contents (Elt F)),
    ternary main_v554 main_v556 main_arg7 main_v557 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v557 main_v558 (broadcastInDim S6000000x1 ![0] bcast_S6000000_S6000000x1_0 : (⟨S6000000, .i32⟩ : BufTy).Contents (Elt F) → (⟨S6000000x1, .i32⟩ : BufTy).Contents (Elt F)),
    binary main_v15 main_v558 main_v559 ((fun x i => Host.gather gather_S500000_S6000000x1_S6000000_n_0_n_n_0_1_1 x i) : (⟨S500000, .f32⟩ : BufTy).Contents (Elt F) → (⟨S6000000x1, .i32⟩ : BufTy).Contents (Elt F) → (⟨S6000000, .f32⟩ : BufTy).Contents (Elt F)),
    binary main_v552 main_v559 main_v560 (mulf : (⟨S6000000, .f32⟩ : BufTy).Contents (Elt F) → (⟨S6000000, .f32⟩ : BufTy).Contents (Elt F) → (⟨S6000000, .f32⟩ : BufTy).Contents (Elt F)),
    unary main_v560 main_v561 (broadcastInDim S6000000x1 ![0] bcast_S6000000_S6000000x1_0 : (⟨S6000000, .f32⟩ : BufTy).Contents (Elt F) → (⟨S6000000x1, .f32⟩ : BufTy).Contents (Elt F)),
    nullary main_c_129 (constantI S_ 32 0#32),
    unary main_c_129 main_v562 (broadcastInDim S6000000 ![] bcast_S_S6000000 : (⟨S_, .i32⟩ : BufTy).Contents (Elt F) → (⟨S6000000, .i32⟩ : BufTy).Contents (Elt F)),
    binary main_arg6 main_v562 main_v563 (cmpi .slt : (⟨S6000000, .i32⟩ : BufTy).Contents (Elt F) → (⟨S6000000, .i32⟩ : BufTy).Contents (Elt F) → (⟨S6000000, .i1⟩ : BufTy).Contents (Elt F)),
    nullary main_c_130 (constantI S_ 32 2000000#32),
    unary main_c_130 main_v564 (broadcastInDim S6000000 ![] bcast_S_S6000000 : (⟨S_, .i32⟩ : BufTy).Contents (Elt F) → (⟨S6000000, .i32⟩ : BufTy).Contents (Elt F)),
    binary main_arg6 main_v564 main_v565 (addi : (⟨S6000000, .i32⟩ : BufTy).Contents (Elt F) → (⟨S6000000, .i32⟩ : BufTy).Contents (Elt F) → (⟨S6000000, .i32⟩ : BufTy).Contents (Elt F)),
    ternary main_v563 main_v565 main_arg6 main_v566 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v566 main_v567 (broadcastInDim S6000000x1 ![0] bcast_S6000000_S6000000x1_0 : (⟨S6000000, .i32⟩ : BufTy).Contents (Elt F) → (⟨S6000000x1, .i32⟩ : BufTy).Contents (Elt F)),
    binary main_v509 main_v567 main_v568 ((fun x i => Host.gather gather_S2000000x2_S6000000x1_S6000000x2_1_0_n_n_0_1_12 x i) : (⟨S2000000x2, .f32⟩ : BufTy).Contents (Elt F) → (⟨S6000000x1, .i32⟩ : BufTy).Contents (Elt F) → (⟨S6000000x2, .f32⟩ : BufTy).Contents (Elt F)),
    unary main_v561 main_v569 (broadcastInDim S6000000x2 ![0, 1] bcast_S6000000x1_S6000000x2_0_1 : (⟨S6000000x1, .f32⟩ : BufTy).Contents (Elt F) → (⟨S6000000x2, .f32⟩ : BufTy).Contents (Elt F)),
    binary main_v569 main_v568 main_v570 (mulf : (⟨S6000000x2, .f32⟩ : BufTy).Contents (Elt F) → (⟨S6000000x2, .f32⟩ : BufTy).Contents (Elt F) → (⟨S6000000x2, .f32⟩ : BufTy).Contents (Elt F)),
    nullary main_c_131 (constantI S_ 32 0#32),
    unary main_c_131 main_v571 (broadcastInDim S6000000 ![] bcast_S_S6000000 : (⟨S_, .i32⟩ : BufTy).Contents (Elt F) → (⟨S6000000, .i32⟩ : BufTy).Contents (Elt F)),
    binary main_arg7 main_v571 main_v572 (cmpi .slt : (⟨S6000000, .i32⟩ : BufTy).Contents (Elt F) → (⟨S6000000, .i32⟩ : BufTy).Contents (Elt F) → (⟨S6000000, .i1⟩ : BufTy).Contents (Elt F)),
    nullary main_c_132 (constantI S_ 32 500000#32),
    unary main_c_132 main_v573 (broadcastInDim S6000000 ![] bcast_S_S6000000 : (⟨S_, .i32⟩ : BufTy).Contents (Elt F) → (⟨S6000000, .i32⟩ : BufTy).Contents (Elt F)),
    binary main_arg7 main_v573 main_v574 (addi : (⟨S6000000, .i32⟩ : BufTy).Contents (Elt F) → (⟨S6000000, .i32⟩ : BufTy).Contents (Elt F) → (⟨S6000000, .i32⟩ : BufTy).Contents (Elt F)),
    ternary main_v572 main_v574 main_arg7 main_v575 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v575 main_v576 (broadcastInDim S6000000x1 ![0] bcast_S6000000_S6000000x1_0 : (⟨S6000000, .i32⟩ : BufTy).Contents (Elt F) → (⟨S6000000x1, .i32⟩ : BufTy).Contents (Elt F)),
    binary main_v500 main_v576 main_v577 ((fun x i => Host.gather gather_S500000x2_S6000000x1_S6000000x2_1_0_n_n_0_1_12 x i) : (⟨S500000x2, .f32⟩ : BufTy).Contents (Elt F) → (⟨S6000000x1, .i32⟩ : BufTy).Contents (Elt F) → (⟨S6000000x2, .f32⟩ : BufTy).Contents (Elt F)),
    binary main_v570 main_v577 main_v578 (addf : (⟨S6000000x2, .f32⟩ : BufTy).Contents (Elt F) → (⟨S6000000x2, .f32⟩ : BufTy).Contents (Elt F) → (⟨S6000000x2, .f32⟩ : BufTy).Contents (Elt F)),
    nullary main_cst_133 (constant S_ .f32 0x00000000#32),
    unary main_cst_133 main_v579 (broadcastInDim S500000x2 ![] bcast_S_S500000x2 : (⟨S_, .f32⟩ : BufTy).Contents (Elt F) → (⟨S500000x2, .f32⟩ : BufTy).Contents (Elt F)),
    unary main_arg7 main_v580 (broadcastInDim S6000000x1 ![0] bcast_S6000000_S6000000x1_0 : (⟨S6000000, .i32⟩ : BufTy).Contents (Elt F) → (⟨S6000000x1, .i32⟩ : BufTy).Contents (Elt F)),
    ternary main_v579 main_v580 main_v578 main_v581 ((fun x i u => Host.scatterAdd scatter_S500000x2_S6000000x1_S6000000x2_1_0_0_1 x i u) : (⟨S500000x2, .f32⟩ : BufTy).Contents (Elt F) → (⟨S6000000x1, .i32⟩ : BufTy).Contents (Elt F) → (⟨S6000000x2, .f32⟩ : BufTy).Contents (Elt F) → (⟨S500000x2, .f32⟩ : BufTy).Contents (Elt F)) ]

theorem cvn3_sub : Sub (F := F) cvn3 := by
  unfold Sub cvn3
  exact ⟨nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., binary_bufs_sub .., nullary_bufs_sub .., unary_bufs_sub .., binary_bufs_sub ..,
    ternary_bufs_sub .., unary_bufs_sub .., binary_bufs_sub .., binary_bufs_sub .., unary_bufs_sub ..,
    nullary_bufs_sub .., unary_bufs_sub .., binary_bufs_sub .., nullary_bufs_sub .., unary_bufs_sub ..,
    binary_bufs_sub .., ternary_bufs_sub .., unary_bufs_sub .., binary_bufs_sub .., unary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    binary_bufs_sub .., nullary_bufs_sub .., unary_bufs_sub .., unary_bufs_sub .., ternary_bufs_sub ..⟩

theorem cvn3_fresh : Fresh (F := F) cvn3 := by
  unfold Fresh cvn3
  fresh_lit

/-- The references that stretch writes. -/
abbrev cvn3_W : List (Ref sig .tc) :=
  [main_c_125, main_v546, main_v547, main_c_126, main_v548, main_v549, main_v550, main_v551, main_v552,
   main_c_127, main_v553, main_v554, main_c_128, main_v555, main_v556, main_v557, main_v558, main_v559, main_v560,
   main_v561, main_c_129, main_v562, main_v563, main_c_130, main_v564, main_v565, main_v566, main_v567, main_v568,
   main_v569, main_v570, main_c_131, main_v571, main_v572, main_c_132, main_v573, main_v574, main_v575, main_v576,
   main_v577, main_v578, main_cst_133, main_v579, main_v580, main_v581]

theorem cvn3_writes : Writes (F := F) cvn3 cvn3_W := by
  unfold Writes cvn3
  simp only [List.Forall]
  exact ⟨by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one⟩

/-- @main's statements 719 … 763: layer 3, the convolution toward the clauses over the positive edges. -/
def ccp3 : List (HloOp τ sig (Elt F)) :=
  [ nullary main_c_134 (constantI S_ 32 0#32),
    unary main_c_134 main_v582 (broadcastInDim S6000000 ![] bcast_S_S6000000 : (⟨S_, .i32⟩ : BufTy).Contents (Elt F) → (⟨S6000000, .i32⟩ : BufTy).Contents (Elt F)),
    binary main_arg5 main_v582 main_v583 (cmpi .slt : (⟨S6000000, .i32⟩ : BufTy).Contents (Elt F) → (⟨S6000000, .i32⟩ : BufTy).Contents (Elt F) → (⟨S6000000, .i1⟩ : BufTy).Contents (Elt F)),
    nullary main_c_135 (constantI S_ 32 500000#32),
    unary main_c_135 main_v584 (broadcastInDim S6000000 ![] bcast_S_S6000000 : (⟨S_, .i32⟩ : BufTy).Contents (Elt F) → (⟨S6000000, .i32⟩ : BufTy).Contents (Elt F)),
    binary main_arg5 main_v584 main_v585 (addi : (⟨S6000000, .i32⟩ : BufTy).Contents (Elt F) → (⟨S6000000, .i32⟩ : BufTy).Contents (Elt F) → (⟨S6000000, .i32⟩ : BufTy).Contents (Elt F)),
    ternary main_v583 main_v585 main_arg5 main_v586 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v586 main_v587 (broadcastInDim S6000000x1 ![0] bcast_S6000000_S6000000x1_0 : (⟨S6000000, .i32⟩ : BufTy).Contents (Elt F) → (⟨S6000000x1, .i32⟩ : BufTy).Contents (Elt F)),
    binary main_v15 main_v587 main_v588 ((fun x i => Host.gather gather_S500000_S6000000x1_S6000000_n_0_n_n_0_1_1 x i) : (⟨S500000, .f32⟩ : BufTy).Contents (Elt F) → (⟨S6000000x1, .i32⟩ : BufTy).Contents (Elt F) → (⟨S6000000, .f32⟩ : BufTy).Contents (Elt F)),
    nullary main_c_136 (constantI S_ 32 0#32),
    unary main_c_136 main_v589 (broadcastInDim S6000000 ![] bcast_S_S6000000 : (⟨S_, .i32⟩ : BufTy).Contents (Elt F) → (⟨S6000000, .i32⟩ : BufTy).Contents (Elt F)),
    binary main_arg4 main_v589 main_v590 (cmpi .slt : (⟨S6000000, .i32⟩ : BufTy).Contents (Elt F) → (⟨S6000000, .i32⟩ : BufTy).Contents (Elt F) → (⟨S6000000, .i1⟩ : BufTy).Contents (Elt F)),
    nullary main_c_137 (constantI S_ 32 2000000#32),
    unary main_c_137 main_v591 (broadcastInDim S6000000 ![] bcast_S_S6000000 : (⟨S_, .i32⟩ : BufTy).Contents (Elt F) → (⟨S6000000, .i32⟩ : BufTy).Contents (Elt F)),
    binary main_arg4 main_v591 main_v592 (addi : (⟨S6000000, .i32⟩ : BufTy).Contents (Elt F) → (⟨S6000000, .i32⟩ : BufTy).Contents (Elt F) → (⟨S6000000, .i32⟩ : BufTy).Contents (Elt F)),
    ternary main_v590 main_v592 main_arg4 main_v593 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v593 main_v594 (broadcastInDim S6000000x1 ![0] bcast_S6000000_S6000000x1_0 : (⟨S6000000, .i32⟩ : BufTy).Contents (Elt F) → (⟨S6000000x1, .i32⟩ : BufTy).Contents (Elt F)),
    binary main_v7 main_v594 main_v595 ((fun x i => Host.gather gather_S2000000_S6000000x1_S6000000_n_0_n_n_0_1_1 x i) : (⟨S2000000, .f32⟩ : BufTy).Contents (Elt F) → (⟨S6000000x1, .i32⟩ : BufTy).Contents (Elt F) → (⟨S6000000, .f32⟩ : BufTy).Contents (Elt F)),
    binary main_v588 main_v595 main_v596 (mulf : (⟨S6000000, .f32⟩ : BufTy).Contents (Elt F) → (⟨S6000000, .f32⟩ : BufTy).Contents (Elt F) → (⟨S6000000, .f32⟩ : BufTy).Contents (Elt F)),
    unary main_v596 main_v597 (broadcastInDim S6000000x1 ![0] bcast_S6000000_S6000000x1_0 : (⟨S6000000, .f32⟩ : BufTy).Contents (Elt F) → (⟨S6000000x1, .f32⟩ : BufTy).Contents (Elt F)),
    nullary main_c_138 (constantI S_ 32 0#32),
    unary main_c_138 main_v598 (broadcastInDim S6000000 ![] bcast_S_S6000000 : (⟨S_, .i32⟩ : BufTy).Contents (Elt F) → (⟨S6000000, .i32⟩ : BufTy).Contents (Elt F)),
    binary main_arg5 main_v598 main_v599 (cmpi .slt : (⟨S6000000, .i32⟩ : BufTy).Contents (Elt F) → (⟨S6000000, .i32⟩ : BufTy).Contents (Elt F) → (⟨S6000000, .i1⟩ : BufTy).Contents (Elt F)),
    nullary main_c_139 (constantI S_ 32 500000#32),
    unary main_c_139 main_v600 (broadcastInDim S6000000 ![] bcast_S_S6000000 : (⟨S_, .i32⟩ : BufTy).Contents (Elt F) → (⟨S6000000, .i32⟩ : BufTy).Contents (Elt F)),
    binary main_arg5 main_v600 main_v601 (addi : (⟨S6000000, .i32⟩ : BufTy).Contents (Elt F) → (⟨S6000000, .i32⟩ : BufTy).Contents (Elt F) → (⟨S6000000, .i32⟩ : BufTy).Contents (Elt F)),
    ternary main_v599 main_v601 main_arg5 main_v602 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v602 main_v603 (broadcastInDim S6000000x1 ![0] bcast_S6000000_S6000000x1_0 : (⟨S6000000, .i32⟩ : BufTy).Contents (Elt F) → (⟨S6000000x1, .i32⟩ : BufTy).Contents (Elt F)),
    binary main_v500 main_v603 main_v604 ((fun x i => Host.gather gather_S500000x2_S6000000x1_S6000000x2_1_0_n_n_0_1_12 x i) : (⟨S500000x2, .f32⟩ : BufTy).Contents (Elt F) → (⟨S6000000x1, .i32⟩ : BufTy).Contents (Elt F) → (⟨S6000000x2, .f32⟩ : BufTy).Contents (Elt F)),
    unary main_v597 main_v605 (broadcastInDim S6000000x2 ![0, 1] bcast_S6000000x1_S6000000x2_0_1 : (⟨S6000000x1, .f32⟩ : BufTy).Contents (Elt F) → (⟨S6000000x2, .f32⟩ : BufTy).Contents (Elt F)),
    binary main_v605 main_v604 main_v606 (mulf : (⟨S6000000x2, .f32⟩ : BufTy).Contents (Elt F) → (⟨S6000000x2, .f32⟩ : BufTy).Contents (Elt F) → (⟨S6000000x2, .f32⟩ : BufTy).Contents (Elt F)),
    nullary main_c_140 (constantI S_ 32 0#32),
    unary main_c_140 main_v607 (broadcastInDim S6000000 ![] bcast_S_S6000000 : (⟨S_, .i32⟩ : BufTy).Contents (Elt F) → (⟨S6000000, .i32⟩ : BufTy).Contents (Elt F)),
    binary main_arg4 main_v607 main_v608 (cmpi .slt : (⟨S6000000, .i32⟩ : BufTy).Contents (Elt F) → (⟨S6000000, .i32⟩ : BufTy).Contents (Elt F) → (⟨S6000000, .i1⟩ : BufTy).Contents (Elt F)),
    nullary main_c_141 (constantI S_ 32 2000000#32),
    unary main_c_141 main_v609 (broadcastInDim S6000000 ![] bcast_S_S6000000 : (⟨S_, .i32⟩ : BufTy).Contents (Elt F) → (⟨S6000000, .i32⟩ : BufTy).Contents (Elt F)),
    binary main_arg4 main_v609 main_v610 (addi : (⟨S6000000, .i32⟩ : BufTy).Contents (Elt F) → (⟨S6000000, .i32⟩ : BufTy).Contents (Elt F) → (⟨S6000000, .i32⟩ : BufTy).Contents (Elt F)),
    ternary main_v608 main_v610 main_arg4 main_v611 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v611 main_v612 (broadcastInDim S6000000x1 ![0] bcast_S6000000_S6000000x1_0 : (⟨S6000000, .i32⟩ : BufTy).Contents (Elt F) → (⟨S6000000x1, .i32⟩ : BufTy).Contents (Elt F)),
    binary main_v509 main_v612 main_v613 ((fun x i => Host.gather gather_S2000000x2_S6000000x1_S6000000x2_1_0_n_n_0_1_12 x i) : (⟨S2000000x2, .f32⟩ : BufTy).Contents (Elt F) → (⟨S6000000x1, .i32⟩ : BufTy).Contents (Elt F) → (⟨S6000000x2, .f32⟩ : BufTy).Contents (Elt F)),
    binary main_v606 main_v613 main_v614 (addf : (⟨S6000000x2, .f32⟩ : BufTy).Contents (Elt F) → (⟨S6000000x2, .f32⟩ : BufTy).Contents (Elt F) → (⟨S6000000x2, .f32⟩ : BufTy).Contents (Elt F)),
    nullary main_cst_142 (constant S_ .f32 0x00000000#32),
    unary main_cst_142 main_v615 (broadcastInDim S2000000x2 ![] bcast_S_S2000000x2 : (⟨S_, .f32⟩ : BufTy).Contents (Elt F) → (⟨S2000000x2, .f32⟩ : BufTy).Contents (Elt F)),
    unary main_arg4 main_v616 (broadcastInDim S6000000x1 ![0] bcast_S6000000_S6000000x1_0 : (⟨S6000000, .i32⟩ : BufTy).Contents (Elt F) → (⟨S6000000x1, .i32⟩ : BufTy).Contents (Elt F)),
    ternary main_v615 main_v616 main_v614 main_v617 ((fun x i u => Host.scatterAdd scatter_S2000000x2_S6000000x1_S6000000x2_1_0_0_1 x i u) : (⟨S2000000x2, .f32⟩ : BufTy).Contents (Elt F) → (⟨S6000000x1, .i32⟩ : BufTy).Contents (Elt F) → (⟨S6000000x2, .f32⟩ : BufTy).Contents (Elt F) → (⟨S2000000x2, .f32⟩ : BufTy).Contents (Elt F)) ]

theorem ccp3_sub : Sub (F := F) ccp3 := by
  unfold Sub ccp3
  exact ⟨nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., binary_bufs_sub .., nullary_bufs_sub .., unary_bufs_sub .., binary_bufs_sub ..,
    ternary_bufs_sub .., unary_bufs_sub .., binary_bufs_sub .., binary_bufs_sub .., unary_bufs_sub ..,
    nullary_bufs_sub .., unary_bufs_sub .., binary_bufs_sub .., nullary_bufs_sub .., unary_bufs_sub ..,
    binary_bufs_sub .., ternary_bufs_sub .., unary_bufs_sub .., binary_bufs_sub .., unary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    binary_bufs_sub .., nullary_bufs_sub .., unary_bufs_sub .., unary_bufs_sub .., ternary_bufs_sub ..⟩

theorem ccp3_fresh : Fresh (F := F) ccp3 := by
  unfold Fresh ccp3
  fresh_lit

/-- The references that stretch writes. -/
abbrev ccp3_W : List (Ref sig .tc) :=
  [main_c_134, main_v582, main_v583, main_c_135, main_v584, main_v585, main_v586, main_v587, main_v588,
   main_c_136, main_v589, main_v590, main_c_137, main_v591, main_v592, main_v593, main_v594, main_v595, main_v596,
   main_v597, main_c_138, main_v598, main_v599, main_c_139, main_v600, main_v601, main_v602, main_v603, main_v604,
   main_v605, main_v606, main_c_140, main_v607, main_v608, main_c_141, main_v609, main_v610, main_v611, main_v612,
   main_v613, main_v614, main_cst_142, main_v615, main_v616, main_v617]

theorem ccp3_writes : Writes (F := F) ccp3 ccp3_W := by
  unfold Writes ccp3
  simp only [List.Forall]
  exact ⟨by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one⟩

/-- @main's statements 764 … 808: layer 3, the convolution toward the clauses over the negative edges. -/
def ccn3 : List (HloOp τ sig (Elt F)) :=
  [ nullary main_c_143 (constantI S_ 32 0#32),
    unary main_c_143 main_v618 (broadcastInDim S6000000 ![] bcast_S_S6000000 : (⟨S_, .i32⟩ : BufTy).Contents (Elt F) → (⟨S6000000, .i32⟩ : BufTy).Contents (Elt F)),
    binary main_arg7 main_v618 main_v619 (cmpi .slt : (⟨S6000000, .i32⟩ : BufTy).Contents (Elt F) → (⟨S6000000, .i32⟩ : BufTy).Contents (Elt F) → (⟨S6000000, .i1⟩ : BufTy).Contents (Elt F)),
    nullary main_c_144 (constantI S_ 32 500000#32),
    unary main_c_144 main_v620 (broadcastInDim S6000000 ![] bcast_S_S6000000 : (⟨S_, .i32⟩ : BufTy).Contents (Elt F) → (⟨S6000000, .i32⟩ : BufTy).Contents (Elt F)),
    binary main_arg7 main_v620 main_v621 (addi : (⟨S6000000, .i32⟩ : BufTy).Contents (Elt F) → (⟨S6000000, .i32⟩ : BufTy).Contents (Elt F) → (⟨S6000000, .i32⟩ : BufTy).Contents (Elt F)),
    ternary main_v619 main_v621 main_arg7 main_v622 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v622 main_v623 (broadcastInDim S6000000x1 ![0] bcast_S6000000_S6000000x1_0 : (⟨S6000000, .i32⟩ : BufTy).Contents (Elt F) → (⟨S6000000x1, .i32⟩ : BufTy).Contents (Elt F)),
    binary main_v15 main_v623 main_v624 ((fun x i => Host.gather gather_S500000_S6000000x1_S6000000_n_0_n_n_0_1_1 x i) : (⟨S500000, .f32⟩ : BufTy).Contents (Elt F) → (⟨S6000000x1, .i32⟩ : BufTy).Contents (Elt F) → (⟨S6000000, .f32⟩ : BufTy).Contents (Elt F)),
    nullary main_c_145 (constantI S_ 32 0#32),
    unary main_c_145 main_v625 (broadcastInDim S6000000 ![] bcast_S_S6000000 : (⟨S_, .i32⟩ : BufTy).Contents (Elt F) → (⟨S6000000, .i32⟩ : BufTy).Contents (Elt F)),
    binary main_arg6 main_v625 main_v626 (cmpi .slt : (⟨S6000000, .i32⟩ : BufTy).Contents (Elt F) → (⟨S6000000, .i32⟩ : BufTy).Contents (Elt F) → (⟨S6000000, .i1⟩ : BufTy).Contents (Elt F)),
    nullary main_c_146 (constantI S_ 32 2000000#32),
    unary main_c_146 main_v627 (broadcastInDim S6000000 ![] bcast_S_S6000000 : (⟨S_, .i32⟩ : BufTy).Contents (Elt F) → (⟨S6000000, .i32⟩ : BufTy).Contents (Elt F)),
    binary main_arg6 main_v627 main_v628 (addi : (⟨S6000000, .i32⟩ : BufTy).Contents (Elt F) → (⟨S6000000, .i32⟩ : BufTy).Contents (Elt F) → (⟨S6000000, .i32⟩ : BufTy).Contents (Elt F)),
    ternary main_v626 main_v628 main_arg6 main_v629 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v629 main_v630 (broadcastInDim S6000000x1 ![0] bcast_S6000000_S6000000x1_0 : (⟨S6000000, .i32⟩ : BufTy).Contents (Elt F) → (⟨S6000000x1, .i32⟩ : BufTy).Contents (Elt F)),
    binary main_v7 main_v630 main_v631 ((fun x i => Host.gather gather_S2000000_S6000000x1_S6000000_n_0_n_n_0_1_1 x i) : (⟨S2000000, .f32⟩ : BufTy).Contents (Elt F) → (⟨S6000000x1, .i32⟩ : BufTy).Contents (Elt F) → (⟨S6000000, .f32⟩ : BufTy).Contents (Elt F)),
    binary main_v624 main_v631 main_v632 (mulf : (⟨S6000000, .f32⟩ : BufTy).Contents (Elt F) → (⟨S6000000, .f32⟩ : BufTy).Contents (Elt F) → (⟨S6000000, .f32⟩ : BufTy).Contents (Elt F)),
    unary main_v632 main_v633 (broadcastInDim S6000000x1 ![0] bcast_S6000000_S6000000x1_0 : (⟨S6000000, .f32⟩ : BufTy).Contents (Elt F) → (⟨S6000000x1, .f32⟩ : BufTy).Contents (Elt F)),
    nullary main_c_147 (constantI S_ 32 0#32),
    unary main_c_147 main_v634 (broadcastInDim S6000000 ![] bcast_S_S6000000 : (⟨S_, .i32⟩ : BufTy).Contents (Elt F) → (⟨S6000000, .i32⟩ : BufTy).Contents (Elt F)),
    binary main_arg7 main_v634 main_v635 (cmpi .slt : (⟨S6000000, .i32⟩ : BufTy).Contents (Elt F) → (⟨S6000000, .i32⟩ : BufTy).Contents (Elt F) → (⟨S6000000, .i1⟩ : BufTy).Contents (Elt F)),
    nullary main_c_148 (constantI S_ 32 500000#32),
    unary main_c_148 main_v636 (broadcastInDim S6000000 ![] bcast_S_S6000000 : (⟨S_, .i32⟩ : BufTy).Contents (Elt F) → (⟨S6000000, .i32⟩ : BufTy).Contents (Elt F)),
    binary main_arg7 main_v636 main_v637 (addi : (⟨S6000000, .i32⟩ : BufTy).Contents (Elt F) → (⟨S6000000, .i32⟩ : BufTy).Contents (Elt F) → (⟨S6000000, .i32⟩ : BufTy).Contents (Elt F)),
    ternary main_v635 main_v637 main_arg7 main_v638 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v638 main_v639 (broadcastInDim S6000000x1 ![0] bcast_S6000000_S6000000x1_0 : (⟨S6000000, .i32⟩ : BufTy).Contents (Elt F) → (⟨S6000000x1, .i32⟩ : BufTy).Contents (Elt F)),
    binary main_v500 main_v639 main_v640 ((fun x i => Host.gather gather_S500000x2_S6000000x1_S6000000x2_1_0_n_n_0_1_12 x i) : (⟨S500000x2, .f32⟩ : BufTy).Contents (Elt F) → (⟨S6000000x1, .i32⟩ : BufTy).Contents (Elt F) → (⟨S6000000x2, .f32⟩ : BufTy).Contents (Elt F)),
    unary main_v633 main_v641 (broadcastInDim S6000000x2 ![0, 1] bcast_S6000000x1_S6000000x2_0_1 : (⟨S6000000x1, .f32⟩ : BufTy).Contents (Elt F) → (⟨S6000000x2, .f32⟩ : BufTy).Contents (Elt F)),
    binary main_v641 main_v640 main_v642 (mulf : (⟨S6000000x2, .f32⟩ : BufTy).Contents (Elt F) → (⟨S6000000x2, .f32⟩ : BufTy).Contents (Elt F) → (⟨S6000000x2, .f32⟩ : BufTy).Contents (Elt F)),
    nullary main_c_149 (constantI S_ 32 0#32),
    unary main_c_149 main_v643 (broadcastInDim S6000000 ![] bcast_S_S6000000 : (⟨S_, .i32⟩ : BufTy).Contents (Elt F) → (⟨S6000000, .i32⟩ : BufTy).Contents (Elt F)),
    binary main_arg6 main_v643 main_v644 (cmpi .slt : (⟨S6000000, .i32⟩ : BufTy).Contents (Elt F) → (⟨S6000000, .i32⟩ : BufTy).Contents (Elt F) → (⟨S6000000, .i1⟩ : BufTy).Contents (Elt F)),
    nullary main_c_150 (constantI S_ 32 2000000#32),
    unary main_c_150 main_v645 (broadcastInDim S6000000 ![] bcast_S_S6000000 : (⟨S_, .i32⟩ : BufTy).Contents (Elt F) → (⟨S6000000, .i32⟩ : BufTy).Contents (Elt F)),
    binary main_arg6 main_v645 main_v646 (addi : (⟨S6000000, .i32⟩ : BufTy).Contents (Elt F) → (⟨S6000000, .i32⟩ : BufTy).Contents (Elt F) → (⟨S6000000, .i32⟩ : BufTy).Contents (Elt F)),
    ternary main_v644 main_v646 main_arg6 main_v647 (select : (⟨S6000000, .i1⟩ : BufTy).Contents (Elt F) → (⟨S6000000, .i32⟩ : BufTy).Contents (Elt F) → (⟨S6000000, .i32⟩ : BufTy).Contents (Elt F) → (⟨S6000000, .i32⟩ : BufTy).Contents (Elt F)),
    unary main_v647 main_v648 (broadcastInDim S6000000x1 ![0] bcast_S6000000_S6000000x1_0 : (⟨S6000000, .i32⟩ : BufTy).Contents (Elt F) → (⟨S6000000x1, .i32⟩ : BufTy).Contents (Elt F)),
    binary main_v509 main_v648 main_v649 ((fun x i => Host.gather gather_S2000000x2_S6000000x1_S6000000x2_1_0_n_n_0_1_12 x i) : (⟨S2000000x2, .f32⟩ : BufTy).Contents (Elt F) → (⟨S6000000x1, .i32⟩ : BufTy).Contents (Elt F) → (⟨S6000000x2, .f32⟩ : BufTy).Contents (Elt F)),
    binary main_v642 main_v649 main_v650 (addf : (⟨S6000000x2, .f32⟩ : BufTy).Contents (Elt F) → (⟨S6000000x2, .f32⟩ : BufTy).Contents (Elt F) → (⟨S6000000x2, .f32⟩ : BufTy).Contents (Elt F)),
    nullary main_cst_151 (constant S_ .f32 0x00000000#32),
    unary main_cst_151 main_v651 (broadcastInDim S2000000x2 ![] bcast_S_S2000000x2 : (⟨S_, .f32⟩ : BufTy).Contents (Elt F) → (⟨S2000000x2, .f32⟩ : BufTy).Contents (Elt F)),
    unary main_arg6 main_v652 (broadcastInDim S6000000x1 ![0] bcast_S6000000_S6000000x1_0 : (⟨S6000000, .i32⟩ : BufTy).Contents (Elt F) → (⟨S6000000x1, .i32⟩ : BufTy).Contents (Elt F)),
    ternary main_v651 main_v652 main_v650 main_v653 ((fun x i u => Host.scatterAdd scatter_S2000000x2_S6000000x1_S6000000x2_1_0_0_1 x i u) : (⟨S2000000x2, .f32⟩ : BufTy).Contents (Elt F) → (⟨S6000000x1, .i32⟩ : BufTy).Contents (Elt F) → (⟨S6000000x2, .f32⟩ : BufTy).Contents (Elt F) → (⟨S2000000x2, .f32⟩ : BufTy).Contents (Elt F)) ]

theorem ccn3_sub : Sub (F := F) ccn3 := by
  unfold Sub ccn3
  exact ⟨nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., binary_bufs_sub .., nullary_bufs_sub .., unary_bufs_sub .., binary_bufs_sub ..,
    ternary_bufs_sub .., unary_bufs_sub .., binary_bufs_sub .., binary_bufs_sub .., unary_bufs_sub ..,
    nullary_bufs_sub .., unary_bufs_sub .., binary_bufs_sub .., nullary_bufs_sub .., unary_bufs_sub ..,
    binary_bufs_sub .., ternary_bufs_sub .., unary_bufs_sub .., binary_bufs_sub .., unary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    binary_bufs_sub .., nullary_bufs_sub .., unary_bufs_sub .., unary_bufs_sub .., ternary_bufs_sub ..⟩

theorem ccn3_fresh : Fresh (F := F) ccn3 := by
  unfold Fresh ccn3
  fresh_lit

/-- The references that stretch writes. -/
abbrev ccn3_W : List (Ref sig .tc) :=
  [main_c_143, main_v618, main_v619, main_c_144, main_v620, main_v621, main_v622, main_v623, main_v624,
   main_c_145, main_v625, main_v626, main_c_146, main_v627, main_v628, main_v629, main_v630, main_v631, main_v632,
   main_v633, main_c_147, main_v634, main_v635, main_c_148, main_v636, main_v637, main_v638, main_v639, main_v640,
   main_v641, main_v642, main_c_149, main_v643, main_v644, main_c_150, main_v645, main_v646, main_v647, main_v648,
   main_v649, main_v650, main_cst_151, main_v651, main_v652, main_v653]

theorem ccn3_writes : Writes (F := F) ccn3 ccn3_W := by
  unfold Writes ccn3
  simp only [List.Forall]
  exact ⟨by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one, by writes_one, by writes_one, by writes_one, by writes_one,
    by writes_one, by writes_one, by writes_one⟩

/-- @main's statements 809 … 817: layer 3, the affine map of the variables. -/
def av3 : List (HloOp τ sig (Elt F)) :=
  [ nary ![main_v545, main_v581, main_v500] main_v654 (fun u => concatenate S500000x6 1 [⟨S500000x2, u 0⟩, ⟨S500000x2, u 1⟩, ⟨S500000x2, u 2⟩] concatenates_S500000x2_S500000x2_S500000x2_S500000x6_d1),
    unary main_arg14 main_v655 ((extractStridedSlice S1x6x2 ![3, 0, 0] · slices_S4x6x2_S1x6x2_3_0_0) : (⟨S4x6x2, .f32⟩ : BufTy).Contents (Elt F) → (⟨S1x6x2, .f32⟩ : BufTy).Contents (Elt F)),
    reshape main_v655 main_v656 rfl shapeCasts_S1x6x2_S6x2,
    binary main_v654 main_v656 main_v657 ((fun l r => Host.dotGeneral dot_S500000x6_S6x2_S500000x2_1_0_0_1_n_n none l r) : (⟨S500000x6, .f32⟩ : BufTy).Contents (Elt F) → (⟨S6x2, .f32⟩ : BufTy).Contents (Elt F) → (⟨S500000x2, .f32⟩ : BufTy).Contents (Elt F)),
    unary main_arg15 main_v658 ((extractStridedSlice S1x2 ![3, 0] · slices_S4x2_S1x2_3_0) : (⟨S4x2, .f32⟩ : BufTy).Contents (Elt F) → (⟨S1x2, .f32⟩ : BufTy).Contents (Elt F)),
    reshape main_v658 main_v659 rfl shapeCasts_S1x2_S2,
    unary main_v659 main_v660 (broadcastInDim S1x2 ![1] bcast_S2_S1x2_1 : (⟨S2, .f32⟩ : BufTy).Contents (Elt F) → (⟨S1x2, .f32⟩ : BufTy).Contents (Elt F)),
    unary main_v660 main_v661 (broadcastInDim S500000x2 ![0, 1] bcast_S1x2_S500000x2_0_1 : (⟨S1x2, .f32⟩ : BufTy).Contents (Elt F) → (⟨S500000x2, .f32⟩ : BufTy).Contents (Elt F)),
    binary main_v657 main_v661 main_v662 (addf : (⟨S500000x2, .f32⟩ : BufTy).Contents (Elt F) → (⟨S500000x2, .f32⟩ : BufTy).Contents (Elt F) → (⟨S500000x2, .f32⟩ : BufTy).Contents (Elt F)) ]

theorem av3_sub : Sub (F := F) av3 := by
  unfold Sub av3
  exact ⟨nary_bufs_sub .., unary_bufs_sub .., reshape_bufs_sub .., binary_bufs_sub .., unary_bufs_sub ..,
    reshape_bufs_sub .., unary_bufs_sub .., unary_bufs_sub .., binary_bufs_sub ..⟩

theorem av3_fresh : Fresh (F := F) av3 := by
  unfold Fresh av3
  fresh_lit

/-- The references that stretch writes. -/
abbrev av3_W : List (Ref sig .tc) :=
  [main_v654, main_v655, main_v656, main_v657, main_v658, main_v659, main_v660, main_v661, main_v662]

theorem av3_writes : Writes (F := F) av3 av3_W := by
  unfold Writes av3
  simp only [List.Forall]
  exact ⟨by writes_one, by writes_one, by writes_one, by writes_one, by writes_one, by writes_one, by writes_one,
    by writes_one, by writes_one⟩

/-- @main's statements 818 … 826: layer 3, the affine map of the clauses. -/
def ac3 : List (HloOp τ sig (Elt F)) :=
  [ nary ![main_v617, main_v653, main_v509] main_v663 (fun u => concatenate S2000000x6 1 [⟨S2000000x2, u 0⟩, ⟨S2000000x2, u 1⟩, ⟨S2000000x2, u 2⟩] concatenates_S2000000x2_S2000000x2_S2000000x2_S2000000x6_d1),
    unary main_arg12 main_v664 ((extractStridedSlice S1x6x2 ![3, 0, 0] · slices_S4x6x2_S1x6x2_3_0_0) : (⟨S4x6x2, .f32⟩ : BufTy).Contents (Elt F) → (⟨S1x6x2, .f32⟩ : BufTy).Contents (Elt F)),
    reshape main_v664 main_v665 rfl shapeCasts_S1x6x2_S6x2,
    binary main_v663 main_v665 main_v666 ((fun l r => Host.dotGeneral dot_S2000000x6_S6x2_S2000000x2_1_0_0_1_n_n none l r) : (⟨S2000000x6, .f32⟩ : BufTy).Contents (Elt F) → (⟨S6x2, .f32⟩ : BufTy).Contents (Elt F) → (⟨S2000000x2, .f32⟩ : BufTy).Contents (Elt F)),
    unary main_arg13 main_v667 ((extractStridedSlice S1x2 ![3, 0] · slices_S4x2_S1x2_3_0) : (⟨S4x2, .f32⟩ : BufTy).Contents (Elt F) → (⟨S1x2, .f32⟩ : BufTy).Contents (Elt F)),
    reshape main_v667 main_v668 rfl shapeCasts_S1x2_S2,
    unary main_v668 main_v669 (broadcastInDim S1x2 ![1] bcast_S2_S1x2_1 : (⟨S2, .f32⟩ : BufTy).Contents (Elt F) → (⟨S1x2, .f32⟩ : BufTy).Contents (Elt F)),
    unary main_v669 main_v670 (broadcastInDim S2000000x2 ![0, 1] bcast_S1x2_S2000000x2_0_1 : (⟨S1x2, .f32⟩ : BufTy).Contents (Elt F) → (⟨S2000000x2, .f32⟩ : BufTy).Contents (Elt F)),
    binary main_v666 main_v670 main_v671 (addf : (⟨S2000000x2, .f32⟩ : BufTy).Contents (Elt F) → (⟨S2000000x2, .f32⟩ : BufTy).Contents (Elt F) → (⟨S2000000x2, .f32⟩ : BufTy).Contents (Elt F)) ]

theorem ac3_sub : Sub (F := F) ac3 := by
  unfold Sub ac3
  exact ⟨nary_bufs_sub .., unary_bufs_sub .., reshape_bufs_sub .., binary_bufs_sub .., unary_bufs_sub ..,
    reshape_bufs_sub .., unary_bufs_sub .., unary_bufs_sub .., binary_bufs_sub ..⟩

theorem ac3_fresh : Fresh (F := F) ac3 := by
  unfold Fresh ac3
  fresh_lit

/-- The references that stretch writes. -/
abbrev ac3_W : List (Ref sig .tc) :=
  [main_v663, main_v664, main_v665, main_v666, main_v667, main_v668, main_v669, main_v670, main_v671]

theorem ac3_writes : Writes (F := F) ac3 ac3_W := by
  unfold Writes ac3
  simp only [List.Forall]
  exact ⟨by writes_one, by writes_one, by writes_one, by writes_one, by writes_one, by writes_one, by writes_one,
    by writes_one, by writes_one⟩

set_option maxRecDepth 8192 in
set_option maxHeartbeats 2000000 in
theorem cvp3_out (V : Valuation τ sig (Elt F)) :
    after cvp3 V (Proc.devRef .tc main_v545)
      = convV (V (Proc.devRef .tc main_v509)) (V (Proc.devRef .tc main_v500)) (V (Proc.devRef .tc main_v7)) (V (Proc.devRef .tc main_v15)) (V (Proc.devRef .tc main_arg4)) (V (Proc.devRef .tc main_arg5)) := by
  unfold cvp3; stretch_read

set_option maxRecDepth 8192 in
set_option maxHeartbeats 2000000 in
theorem cvn3_out (V : Valuation τ sig (Elt F)) :
    after cvn3 V (Proc.devRef .tc main_v581)
      = convV (V (Proc.devRef .tc main_v509)) (V (Proc.devRef .tc main_v500)) (V (Proc.devRef .tc main_v7)) (V (Proc.devRef .tc main_v15)) (V (Proc.devRef .tc main_arg6)) (V (Proc.devRef .tc main_arg7)) := by
  unfold cvn3; stretch_read

set_option maxRecDepth 8192 in
set_option maxHeartbeats 2000000 in
theorem ccp3_out (V : Valuation τ sig (Elt F)) :
    after ccp3 V (Proc.devRef .tc main_v617)
      = convC (V (Proc.devRef .tc main_v509)) (V (Proc.devRef .tc main_v500)) (V (Proc.devRef .tc main_v7)) (V (Proc.devRef .tc main_v15)) (V (Proc.devRef .tc main_arg4)) (V (Proc.devRef .tc main_arg5)) := by
  unfold ccp3; stretch_read

set_option maxRecDepth 8192 in
set_option maxHeartbeats 2000000 in
theorem ccn3_out (V : Valuation τ sig (Elt F)) :
    after ccn3 V (Proc.devRef .tc main_v653)
      = convC (V (Proc.devRef .tc main_v509)) (V (Proc.devRef .tc main_v500)) (V (Proc.devRef .tc main_v7)) (V (Proc.devRef .tc main_v15)) (V (Proc.devRef .tc main_arg6)) (V (Proc.devRef .tc main_arg7)) := by
  unfold ccn3; stretch_read

set_option maxRecDepth 8192 in
set_option maxHeartbeats 2000000 in
theorem av3_out (V : Valuation τ sig (Elt F)) :
    after av3 V (Proc.devRef .tc main_v662)
      = affV ![3, 0, 0] slices_S4x6x2_S1x6x2_3_0_0 ![3, 0] slices_S4x2_S1x2_3_0 (V (Proc.devRef .tc main_v545)) (V (Proc.devRef .tc main_v581)) (V (Proc.devRef .tc main_v500)) (V (Proc.devRef .tc main_arg14)) (V (Proc.devRef .tc main_arg15)) := by
  unfold av3; stretch_read

set_option maxRecDepth 8192 in
set_option maxHeartbeats 2000000 in
theorem ac3_out (V : Valuation τ sig (Elt F)) :
    after ac3 V (Proc.devRef .tc main_v671)
      = affC ![3, 0, 0] slices_S4x6x2_S1x6x2_3_0_0 ![3, 0] slices_S4x2_S1x2_3_0 (V (Proc.devRef .tc main_v617)) (V (Proc.devRef .tc main_v653)) (V (Proc.devRef .tc main_v509)) (V (Proc.devRef .tc main_arg12)) (V (Proc.devRef .tc main_arg13)) := by
  unfold ac3; stretch_read

/-- Layer 3: @main's statements 629 … 826. -/
def L3 : List (HloOp τ sig (Elt F)) := cvp3 ++ (cvn3 ++ (ccp3 ++ (ccn3 ++ (av3 ++ ac3))))

theorem L3_sub : Sub (F := F) L3 :=
  cvp3_sub.append (cvn3_sub.append (ccp3_sub.append (ccn3_sub.append (av3_sub.append ac3_sub))))
theorem L3_fresh : Fresh (F := F) L3 :=
  cvp3_fresh.append (cvn3_fresh.append (ccp3_fresh.append (ccn3_fresh.append (av3_fresh.append ac3_fresh))))

/-- The layer as a step on the two states: from any contents, the new variable state and the new clause state are the
    layer functions of the old two and of the ten values every layer reads, and those and the arguments stay. -/
theorem L3_step (V : Valuation τ sig (Elt F)) :
    after L3 V (Proc.devRef .tc main_v662) = layerV ![3, 0, 0] slices_S4x6x2_S1x6x2_3_0_0 ![3, 0] slices_S4x2_S1x2_3_0 (envAt V) (V (Proc.devRef .tc main_v509)) (V (Proc.devRef .tc main_v500))
    ∧ after L3 V (Proc.devRef .tc main_v671) = layerC ![3, 0, 0] slices_S4x6x2_S1x6x2_3_0_0 ![3, 0] slices_S4x2_S1x2_3_0 (envAt V) (V (Proc.devRef .tc main_v509)) (V (Proc.devRef .tc main_v500))
    ∧ ∀ r ∈ keepRefs, after L3 V (Proc.devRef .tc r) = V (Proc.devRef .tc r) := by
  unfold L3
  simp only [after_append]
  refine ⟨?_, ?_, ?_⟩
  · -- the variables: the affine map reads the two sums, the old state and its weights, each kept since it was written
    rw [ac3_writes.keep _ (show main_v662 ∉ ac3_W by decide), av3_out,
      ccn3_writes.keep _ (show main_v545 ∉ ccn3_W by decide),
      ccn3_writes.keep _ (show main_v581 ∉ ccn3_W by decide),
      ccn3_writes.keep _ (show main_v500 ∉ ccn3_W by decide),
      ccn3_writes.keep _ (show main_arg14 ∉ ccn3_W by decide),
      ccn3_writes.keep _ (show main_arg15 ∉ ccn3_W by decide),
      ccp3_writes.keep _ (show main_v545 ∉ ccp3_W by decide),
      ccp3_writes.keep _ (show main_v581 ∉ ccp3_W by decide),
      ccp3_writes.keep _ (show main_v500 ∉ ccp3_W by decide),
      ccp3_writes.keep _ (show main_arg14 ∉ ccp3_W by decide),
      ccp3_writes.keep _ (show main_arg15 ∉ ccp3_W by decide),
      cvn3_writes.keep _ (show main_v545 ∉ cvn3_W by decide),
      cvn3_writes.keep _ (show main_v500 ∉ cvn3_W by decide),
      cvn3_writes.keep _ (show main_arg14 ∉ cvn3_W by decide),
      cvn3_writes.keep _ (show main_arg15 ∉ cvn3_W by decide), cvn3_out,
      cvp3_out,
      cvp3_writes.keep _ (show main_v500 ∉ cvp3_W by decide),
      cvp3_writes.keep _ (show main_arg14 ∉ cvp3_W by decide),
      cvp3_writes.keep _ (show main_arg15 ∉ cvp3_W by decide),
      cvp3_writes.keep _ (show main_v509 ∉ cvp3_W by decide),
      cvp3_writes.keep _ (show main_v7 ∉ cvp3_W by decide),
      cvp3_writes.keep _ (show main_v15 ∉ cvp3_W by decide),
      cvp3_writes.keep _ (show main_arg6 ∉ cvp3_W by decide),
      cvp3_writes.keep _ (show main_arg7 ∉ cvp3_W by decide)]
    rfl
  · -- the clauses
    rw [ac3_out,
      av3_writes.keep _ (show main_v617 ∉ av3_W by decide),
      av3_writes.keep _ (show main_v653 ∉ av3_W by decide),
      av3_writes.keep _ (show main_v509 ∉ av3_W by decide),
      av3_writes.keep _ (show main_arg12 ∉ av3_W by decide),
      av3_writes.keep _ (show main_arg13 ∉ av3_W by decide),
      ccn3_writes.keep _ (show main_v617 ∉ ccn3_W by decide),
      ccn3_writes.keep _ (show main_v509 ∉ ccn3_W by decide),
      ccn3_writes.keep _ (show main_arg12 ∉ ccn3_W by decide),
      ccn3_writes.keep _ (show main_arg13 ∉ ccn3_W by decide), ccn3_out,
      ccp3_out,
      ccp3_writes.keep _ (show main_v509 ∉ ccp3_W by decide),
      ccp3_writes.keep _ (show main_arg12 ∉ ccp3_W by decide),
      ccp3_writes.keep _ (show main_arg13 ∉ ccp3_W by decide),
      ccp3_writes.keep _ (show main_v500 ∉ ccp3_W by decide),
      ccp3_writes.keep _ (show main_v7 ∉ ccp3_W by decide),
      ccp3_writes.keep _ (show main_v15 ∉ ccp3_W by decide),
      ccp3_writes.keep _ (show main_arg6 ∉ ccp3_W by decide),
      ccp3_writes.keep _ (show main_arg7 ∉ ccp3_W by decide),
      cvn3_writes.keep _ (show main_v509 ∉ cvn3_W by decide),
      cvn3_writes.keep _ (show main_arg12 ∉ cvn3_W by decide),
      cvn3_writes.keep _ (show main_arg13 ∉ cvn3_W by decide),
      cvn3_writes.keep _ (show main_v500 ∉ cvn3_W by decide),
      cvn3_writes.keep _ (show main_v7 ∉ cvn3_W by decide),
      cvn3_writes.keep _ (show main_v15 ∉ cvn3_W by decide),
      cvn3_writes.keep _ (show main_arg6 ∉ cvn3_W by decide),
      cvn3_writes.keep _ (show main_arg7 ∉ cvn3_W by decide),
      cvn3_writes.keep _ (show main_arg4 ∉ cvn3_W by decide),
      cvn3_writes.keep _ (show main_arg5 ∉ cvn3_W by decide),
      cvp3_writes.keep _ (show main_v509 ∉ cvp3_W by decide),
      cvp3_writes.keep _ (show main_arg12 ∉ cvp3_W by decide),
      cvp3_writes.keep _ (show main_arg13 ∉ cvp3_W by decide),
      cvp3_writes.keep _ (show main_v500 ∉ cvp3_W by decide),
      cvp3_writes.keep _ (show main_v7 ∉ cvp3_W by decide),
      cvp3_writes.keep _ (show main_v15 ∉ cvp3_W by decide),
      cvp3_writes.keep _ (show main_arg6 ∉ cvp3_W by decide),
      cvp3_writes.keep _ (show main_arg7 ∉ cvp3_W by decide),
      cvp3_writes.keep _ (show main_arg4 ∉ cvp3_W by decide),
      cvp3_writes.keep _ (show main_arg5 ∉ cvp3_W by decide)]
    rfl
  · intro r hr
    rw [ac3_writes.keep _ ((by decide : ∀ r ∈ keepRefs, r ∉ ac3_W) r hr),
      av3_writes.keep _ ((by decide : ∀ r ∈ keepRefs, r ∉ av3_W) r hr),
      ccn3_writes.keep _ ((by decide : ∀ r ∈ keepRefs, r ∉ ccn3_W) r hr),
      ccp3_writes.keep _ ((by decide : ∀ r ∈ keepRefs, r ∉ ccp3_W) r hr),
      cvn3_writes.keep _ ((by decide : ∀ r ∈ keepRefs, r ∉ cvn3_W) r hr),
      cvp3_writes.keep _ ((by decide : ∀ r ∈ keepRefs, r ∉ cvp3_W) r hr)]

end Cert.ReferenceIdeal.Hand

end
-- ==== Proof.Ref.Win.lean ====
import proofs.«149588_j66838281060723_2_alg».proof.Proof.Ref.P
import proofs.«149588_j66838281060723_2_alg».proof.Proof.Ref.L0
import proofs.«149588_j66838281060723_2_alg».proof.Proof.Ref.L1
import proofs.«149588_j66838281060723_2_alg».proof.Proof.Ref.L2
import proofs.«149588_j66838281060723_2_alg».proof.Proof.Ref.L3

noncomputable section

namespace Cert.ReferenceIdeal.Hand

open Idealize.ShloMosaic Idealize.SL.Sem Cert.ReferenceIdeal Idealize.ShloMosaic.StableHlo Idealize.ShloMosaic.TcCoe
open Cert.ReferenceIdeal.Facts₀ Cert.ReferenceIdeal.Facts

variable {F : FTy → Type} [FloatOps F] [Facts]
/-- The operations of @main's window 0. -/
def w0 : List (HloOp τ sig (Elt F)) := P ++ (cvp0.take 26)
set_option maxRecDepth 16384 in
set_option maxHeartbeats 4000000 in
theorem main_part0_eq (c : Dev nD) : main_part0 (F := F) c = seq w0 := rfl

/-- The operations of @main's window 1. -/
def w1 : List (HloOp τ sig (Elt F)) := cvp0.drop 26 ++ (cvn0.take 41)
set_option maxRecDepth 16384 in
set_option maxHeartbeats 4000000 in
theorem main_part1_eq (c : Dev nD) : main_part1 (F := F) c = seq w1 := rfl

/-- The operations of @main's window 2. -/
def w2 : List (HloOp τ sig (Elt F)) := cvn0.drop 41 ++ (ccp0 ++ (ccn0.take 11))
set_option maxRecDepth 16384 in
set_option maxHeartbeats 4000000 in
theorem main_part2_eq (c : Dev nD) : main_part2 (F := F) c = seq w2 := rfl

/-- The operations of @main's window 3. -/
def w3 : List (HloOp τ sig (Elt F)) := ccn0.drop 11 ++ (av0 ++ (ac0 ++ (cvp1.take 8)))
set_option maxRecDepth 16384 in
set_option maxHeartbeats 4000000 in
theorem main_part3_eq (c : Dev nD) : main_part3 (F := F) c = seq w3 := rfl

/-- The operations of @main's window 4. -/
def w4 : List (HloOp τ sig (Elt F)) := cvp1.drop 8 ++ (cvn1.take 23)
set_option maxRecDepth 16384 in
set_option maxHeartbeats 4000000 in
theorem main_part4_eq (c : Dev nD) : main_part4 (F := F) c = seq w4 := rfl

/-- The operations of @main's window 5. -/
def w5 : List (HloOp τ sig (Elt F)) := cvn1.drop 23 ++ (ccp1.take 38)
set_option maxRecDepth 16384 in
set_option maxHeartbeats 4000000 in
theorem main_part5_eq (c : Dev nD) : main_part5 (F := F) c = seq w5 := rfl

/-- The operations of @main's window 6. -/
def w6 : List (HloOp τ sig (Elt F)) := ccp1.drop 38 ++ (ccn1 ++ (av1.take 8))
set_option maxRecDepth 16384 in
set_option maxHeartbeats 4000000 in
theorem main_part6_eq (c : Dev nD) : main_part6 (F := F) c = seq w6 := rfl

/-- The operations of @main's window 7. -/
def w7 : List (HloOp τ sig (Elt F)) := av1.drop 8 ++ (ac1 ++ (cvp2 ++ (cvn2.take 5)))
set_option maxRecDepth 16384 in
set_option maxHeartbeats 4000000 in
theorem main_part7_eq (c : Dev nD) : main_part7 (F := F) c = seq w7 := rfl

/-- The operations of @main's window 8. -/
def w8 : List (HloOp τ sig (Elt F)) := cvn2.drop 5 ++ (ccp2.take 20)
set_option maxRecDepth 16384 in
set_option maxHeartbeats 4000000 in
theorem main_part8_eq (c : Dev nD) : main_part8 (F := F) c = seq w8 := rfl

/-- The operations of @main's window 9. -/
def w9 : List (HloOp τ sig (Elt F)) := ccp2.drop 20 ++ (ccn2.take 35)
set_option maxRecDepth 16384 in
set_option maxHeartbeats 4000000 in
theorem main_part9_eq (c : Dev nD) : main_part9 (F := F) c = seq w9 := rfl

/-- The operations of @main's window 10. -/
def w10 : List (HloOp τ sig (Elt F)) := ccn2.drop 35 ++ (av2 ++ (ac2 ++ (cvp3.take 32)))
set_option maxRecDepth 16384 in
set_option maxHeartbeats 4000000 in
theorem main_part10_eq (c : Dev nD) : main_part10 (F := F) c = seq w10 := rfl

/-- The operations of @main's window 11. -/
def w11 : List (HloOp τ sig (Elt F)) := cvp3.drop 32 ++ (cvn3 ++ (ccp3.take 2))
set_option maxRecDepth 16384 in
set_option maxHeartbeats 4000000 in
theorem main_part11_eq (c : Dev nD) : main_part11 (F := F) c = seq w11 := rfl

/-- The operations of @main's window 12. -/
def w12 : List (HloOp τ sig (Elt F)) := ccp3.drop 2 ++ (ccn3.take 17)
set_option maxRecDepth 16384 in
set_option maxHeartbeats 4000000 in
theorem main_part12_eq (c : Dev nD) : main_part12 (F := F) c = seq w12 := rfl

/-- The operations of @main's window 13. -/
def w13 : List (HloOp τ sig (Elt F)) := ccn3.drop 17 ++ (av3 ++ (ac3))
set_option maxRecDepth 16384 in
set_option maxHeartbeats 4000000 in
theorem main_part13_eq (c : Dev nD) : main_part13 (F := F) c = seq w13 := rfl

/-- The whole of @main: the first stretch and the four layers. -/
def opsAll : List (HloOp τ sig (Elt F)) := P ++ (L0 ++ (L1 ++ (L2 ++ L3)))

/-- The windows one after the other are the stretches one after the other. -/
theorem opsAll_windows : (opsAll : List (HloOp τ sig (Elt F))) = w0 ++ (w1 ++ (w2 ++ (w3 ++ (w4 ++ (w5 ++ (w6 ++ (w7 ++ (w8 ++ (w9 ++ (w10 ++ (w11 ++ (w12 ++ (w13))))))))))))) := by
  unfold opsAll L0 L1 L2 L3 w0 w1 w2 w3 w4 w5 w6 w7 w8 w9 w10 w11 w12 w13
  simp only [List.append_assoc, take_drop_app, List.take_append_drop]

end Cert.ReferenceIdeal.Hand

end
-- ==== Proof.Ref.Run.lean ====
/- The reference's run, assembled: @main is the stretches one after the other; every weakly fair execution ends with
   the result buffer at the network function of the arguments and the arguments unchanged. -/
import proofs.«149588_j66838281060723_2_alg».proof.Proof.Ref.Win
import proofs.«149588_j66838281060723_2_alg».proof.Proof.Ref.Net

noncomputable section

namespace Cert.ReferenceIdeal.Hand

open Idealize.ShloMosaic Idealize.SL.Sem Cert.ReferenceIdeal Idealize.ShloMosaic.StableHlo Idealize.ShloMosaic.TcCoe
open Cert.ReferenceIdeal.Facts₀ Cert.ReferenceIdeal.Facts

variable {F : FTy → Type} [FloatOps F] [Facts]

theorem scopedRefs_eq : (Finset.univ.filter fun b : Ref sig .tc => b.isScoped) = ∅ := by decide
theorem scopedSems_eq : (Finset.univ.filter fun sm : SemLoc sig => sm.isScoped .tc) = ∅ := by decide

theorem opsAll_sub : Sub (F := F) opsAll :=
  P_sub.append (L0_sub.append (L1_sub.append (L2_sub.append L3_sub)))

theorem opsAll_fresh : Fresh (F := F) opsAll :=
  P_fresh.append (L0_fresh.append (L1_fresh.append (L2_fresh.append L3_fresh)))

/-- @main is the stretches one after the other: window by window. -/
theorem main_eq (c : Dev nD) : main (F := F) c = seq opsAll := by
  rw [opsAll_windows]
  simp only [seq_append, ← main_part0_eq c, ← main_part1_eq c, ← main_part2_eq c, ← main_part3_eq c, ← main_part4_eq c,
    ← main_part5_eq c, ← main_part6_eq c, ← main_part7_eq c, ← main_part8_eq c, ← main_part9_eq c, ← main_part10_eq c,
    ← main_part11_eq c, ← main_part12_eq c, ← main_part13_eq c]
  rfl

/-- Every weakly fair execution of @main terminates with every buffer at the stretches' fold over its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after opsAll (launchContents m d) (Proc.devRef .tc b) :=
  run_seq scopedRefs_eq scopedSems_eq defs main (fun _ => opsAll) main_eq (fun _ => opsAll_sub) m ρ (fun _ => opsAll_fresh)

/-- The sixteen arguments at a valuation. -/
def argsAt (V : Valuation τ sig (Elt F)) : Args F where
  xClause := V (Proc.devRef .tc main_arg0)
  xVariable := V (Proc.devRef .tc main_arg1)
  degClause := V (Proc.devRef .tc main_arg2)
  degVariable := V (Proc.devRef .tc main_arg3)
  posSrc := V (Proc.devRef .tc main_arg4)
  posTrg := V (Proc.devRef .tc main_arg5)
  negSrc := V (Proc.devRef .tc main_arg6)
  negTrg := V (Proc.devRef .tc main_arg7)
  w0c := V (Proc.devRef .tc main_arg8)
  b0c := V (Proc.devRef .tc main_arg9)
  w0v := V (Proc.devRef .tc main_arg10)
  b0v := V (Proc.devRef .tc main_arg11)
  wc := V (Proc.devRef .tc main_arg12)
  bc := V (Proc.devRef .tc main_arg13)
  wv := V (Proc.devRef .tc main_arg14)
  bv := V (Proc.devRef .tc main_arg15)

/-- After the first stretch the ten values every layer reads are the arguments' own. -/
theorem envAt_P (V : Valuation τ sig (Elt F)) : envAt (after P V) = (argsAt V).env := by
  unfold envAt Args.env argsAt
  rw [P_ic, P_iv,
    P_writes.keep _ (show main_arg4 ∉ P_W by decide), P_writes.keep _ (show main_arg5 ∉ P_W by decide),
    P_writes.keep _ (show main_arg6 ∉ P_W by decide), P_writes.keep _ (show main_arg7 ∉ P_W by decide),
    P_writes.keep _ (show main_arg12 ∉ P_W by decide), P_writes.keep _ (show main_arg13 ∉ P_W by decide),
    P_writes.keep _ (show main_arg14 ∉ P_W by decide), P_writes.keep _ (show main_arg15 ∉ P_W by decide)]

/-- The result buffer after the whole of @main: the network function of the arguments. -/
theorem after_all_out (V : Valuation τ sig (Elt F)) :
    after opsAll V (Proc.devRef .tc main_v662) = refOut (argsAt V) := by
  unfold opsAll
  simp only [after_append]
  obtain ⟨a0, b0, k0⟩ := L0_step (after P V)
  obtain ⟨a1, b1, k1⟩ := L1_step (after L0 (after P V))
  obtain ⟨a2, b2, k2⟩ := L2_step (after L1 (after L0 (after P V)))
  obtain ⟨a3, -, -⟩ := L3_step (after L2 (after L1 (after L0 (after P V))))
  have e1 := envAt_P V
  have e2 := (envAt_congr k0).trans e1
  have e3 := (envAt_congr k1).trans e2
  have e4 := (envAt_congr k2).trans e3
  rw [a3, e4, b2, a2, e3, b1, a1, e2, b0, a0, e1, P_xc, P_xv]
  rfl

/-- An argument's buffer after the whole of @main: what it held. -/
theorem after_all_arg (V : Valuation τ sig (Elt F)) (r : Ref sig .tc) (hr : r ∈ keepRefs) (hP : r ∉ P_W) :
    after opsAll V (Proc.devRef .tc r) = V (Proc.devRef .tc r) := by
  unfold opsAll
  simp only [after_append]
  rw [(L3_step _).2.2 r hr, (L2_step _).2.2 r hr, (L1_step _).2.2 r hr, (L0_step _).2.2 r hr, P_writes.keep _ hP]

/-- The sixteen arguments in a memory, on a device. -/
def argsM (m : (ℓ : Loc nD τ sig) → Buf (Elt F) ℓ) (c : Dev nD) : Args F where
  xClause := m ((c.tc : Thread nD τ).loc main_arg0)
  xVariable := m ((c.tc : Thread nD τ).loc main_arg1)
  degClause := m ((c.tc : Thread nD τ).loc main_arg2)
  degVariable := m ((c.tc : Thread nD τ).loc main_arg3)
  posSrc := m ((c.tc : Thread nD τ).loc main_arg4)
  posTrg := m ((c.tc : Thread nD τ).loc main_arg5)
  negSrc := m ((c.tc : Thread nD τ).loc main_arg6)
  negTrg := m ((c.tc : Thread nD τ).loc main_arg7)
  w0c := m ((c.tc : Thread nD τ).loc main_arg8)
  b0c := m ((c.tc : Thread nD τ).loc main_arg9)
  w0v := m ((c.tc : Thread nD τ).loc main_arg10)
  b0v := m ((c.tc : Thread nD τ).loc main_arg11)
  wc := m ((c.tc : Thread nD τ).loc main_arg12)
  bc := m ((c.tc : Thread nD τ).loc main_arg13)
  wv := m ((c.tc : Thread nD τ).loc main_arg14)
  bv := m ((c.tc : Thread nD τ).loc main_arg15)

/-- On every device, for any float values, from any memory with zero counters: every weakly fair execution of @main
    terminates with the result at the network function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v662) = refOut (argsM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v662).trans (after_all_out (launchContents m c)),
      (h c main_arg0).trans (after_all_arg (launchContents m c) main_arg0 (by decide) (by decide)),
      (h c main_arg1).trans (after_all_arg (launchContents m c) main_arg1 (by decide) (by decide)),
      (h c main_arg2).trans (after_all_arg (launchContents m c) main_arg2 (by decide) (by decide)),
      (h c main_arg3).trans (after_all_arg (launchContents m c) main_arg3 (by decide) (by decide)),
      (h c main_arg4).trans (after_all_arg (launchContents m c) main_arg4 (by decide) (by decide)),
      (h c main_arg5).trans (after_all_arg (launchContents m c) main_arg5 (by decide) (by decide)),
      (h c main_arg6).trans (after_all_arg (launchContents m c) main_arg6 (by decide) (by decide)),
      (h c main_arg7).trans (after_all_arg (launchContents m c) main_arg7 (by decide) (by decide)),
      (h c main_arg8).trans (after_all_arg (launchContents m c) main_arg8 (by decide) (by decide)),
      (h c main_arg9).trans (after_all_arg (launchContents m c) main_arg9 (by decide) (by decide)),
      (h c main_arg10).trans (after_all_arg (launchContents m c) main_arg10 (by decide) (by decide)),
      (h c main_arg11).trans (after_all_arg (launchContents m c) main_arg11 (by decide) (by decide)),
      (h c main_arg12).trans (after_all_arg (launchContents m c) main_arg12 (by decide) (by decide)),
      (h c main_arg13).trans (after_all_arg (launchContents m c) main_arg13 (by decide) (by decide)),
      (h c main_arg14).trans (after_all_arg (launchContents m c) main_arg14 (by decide) (by decide)),
      (h c main_arg15).trans (after_all_arg (launchContents m c) main_arg15 (by decide) (by decide))⟩)
    (run_all m ρ)

end Cert.ReferenceIdeal.Hand

end
-- ==== Proof.Ref.RefFrame.lean ====
/- The reference's frame: it runs to the end, faults nowhere and leaves its arguments unchanged — its run with
   the result dropped. -/
import proofs.«149588_j66838281060723_2_alg».proof.Defs
import proofs.«149588_j66838281060723_2_alg».proof.Proof.Gen.ReferenceIdeal
import proofs.«149588_j66838281060723_2_alg».proof.Proof.Gen.Pre_finite_inputs
import proofs.«149588_j66838281060723_2_alg».proof.Proof.Ref.Run

noncomputable section

namespace Cert.Proof.Ref

open Idealize.ShloMosaic Idealize.SL.Sem

theorem frame_ri : Cert.frame_ReferenceIdeal := fun m ρ _ =>
  (θ_run Cert.ReferenceIdeal.defs _ _).mono (fun _ h c => (h c).2) (Cert.ReferenceIdeal.Hand.run (F := Ideal) m ρ)

end Cert.Proof.Ref

end
-- ==== Proof.lean ====
/-
  The proof of the certificate's claim: the kernel program (a four-layer message-passing network over a bipartite graph
  of clauses and variables, its affine maps and its edge messages computed in pipelined regions among host operations),
  its reading at the extended reals, and the reference's reading at the extended reals.

  * Each of the three programs runs to the end, faults nowhere and leaves its sixteen argument arrays unchanged: for the
    kernel program, at either reading, from one record per pipelined region (entered from the valuation of the buffers
    before it, left at the valuation after it) folded along @main; for the reference, from its host operations one after
    the other.
  * The idealization rewrote no operation of the kernel program, so there is nothing to preserve.
  * At the extended reals, from memories that agree on the sixteen arguments, the kernel program's result array ends at
    its network function of the arguments (each region's output array is one function of its input arrays, index by
    index, and the host operations between the regions carry the arrays from one region to the next), the reference's at its own
    network function of the same arguments, and the two functions are equal layer by layer: both results are equal.
-/
import proofs.«149588_j66838281060723_2_alg».proof.Defs
import proofs.«149588_j66838281060723_2_alg».proof.Proof.Gen.Kernel
import proofs.«149588_j66838281060723_2_alg».proof.Proof.Gen.KernelIdeal
import proofs.«149588_j66838281060723_2_alg».proof.Proof.Gen.ReferenceIdeal
import proofs.«149588_j66838281060723_2_alg».proof.Proof.Gen.Pre_finite_inputs
import proofs.«149588_j66838281060723_2_alg».proof.Proof.K.Frame
import proofs.«149588_j66838281060723_2_alg».proof.Proof.KI.Frame
import proofs.«149588_j66838281060723_2_alg».proof.Proof.KI.Value
import proofs.«149588_j66838281060723_2_alg».proof.Proof.KI.NetEq
import proofs.«149588_j66838281060723_2_alg».proof.Proof.Ref.Run
import proofs.«149588_j66838281060723_2_alg».proof.Proof.Ref.RefFrame
import Idealize.ShloMosaic.Adequacy
import Idealize.ShloMosaic.Init

noncomputable section

namespace Cert.Proof

open Idealize.ShloMosaic Idealize.SL.Sem

/-- The kernel program as printed runs to the end, faults nowhere and leaves its arguments unchanged. -/
theorem frame_Kernel : Cert.frame_Kernel := fun m ρ _ => Cert.Kernel.Hand.frame (F := Bits) m ρ

/-- So does its reading at the extended reals. -/
theorem frame_KernelIdeal : Cert.frame_KernelIdeal := fun m ρ _ => Cert.KernelIdeal.Hand.frame (F := Ideal) m ρ

/-- The idealization rewrote no operation: there is nothing to preserve. -/
theorem preserves : Cert.preserves_Kernel_KernelIdeal := trivial

/-- Memories that agree on the sixteen arguments give the two programs the same sixteen arguments. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Hand.argsM m' c = (Cert.KernelIdeal.Hand.kArgsM m c).toRef := by
  obtain ⟨h0, h1, h2, h3, h4, h5, h6, h7, h8, h9, h10, h11, h12, h13, h14, h15⟩ := h
  unfold Cert.ReferenceIdeal.Hand.argsM Cert.KernelIdeal.Hand.kArgsM Cert.KernelIdeal.Hand.Args.toRef
  rw [h0, h1, h2, h3, h4, h5, h6, h7, h8, h9, h10, h11, h12, h13, h14, h15]

/-- At the extended reals, from memories that agree on the arguments, both programs run, both leave their arguments
    unchanged, and both results are the kernel program's network function of the arguments: the reference's result is its
    own network function of the same arguments, which is the kernel program's layer by layer. -/
theorem algebraic : Cert.algebraic_KernelIdeal_ReferenceIdeal := by
  intro m ρ m' ρ' _ hagree
  refine ⟨fun c => Cert.KernelIdeal.Hand.kOut (Cert.KernelIdeal.Hand.kArgsM m c), Cert.KernelIdeal.Hand.run_value m ρ, ?_⟩
  refine (θ_run Cert.ReferenceIdeal.defs _ _).mono (fun _ h c => ⟨(h c).1.trans ?_, (h c).2⟩)
    (Cert.ReferenceIdeal.Hand.run (F := Ideal) m' ρ')
  rw [args_agree m m' c (hagree c)]
  exact (Cert.KernelIdeal.Hand.kOut_eq _).symm

theorem claim : Cert.Claim := ⟨Cert.Kernel.Gen.facts, Cert.KernelIdeal.Gen.facts, Cert.ReferenceIdeal.Gen.facts, Cert.Pre_finite_inputs.Gen.facts,
  ⟨frame_Kernel, frame_KernelIdeal, Cert.Proof.Ref.frame_ri, preserves, algebraic⟩⟩

end Cert.Proof

end
